-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v258)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v258) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v378) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S5x256x256 : Shape := ⟨3, ![5, 256, 256]⟩
abbrev S5x256 : Shape := ⟨2, ![5, 256]⟩
abbrev S1280x10 : Shape := ⟨2, ![1280, 10]⟩
abbrev S10 : Shape := ⟨1, ![10]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_
  bcast_S_S1280x10 : S_.BroadcastsInDim S1280x10 (![] : Fin 0 → Fin S1280x10.rank)
  reducesTo_S1280x10_S_d0_1 : S1280x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S5x256 .f32) (main_arg9 : FVec F S5x256 .f32) (main_arg10 : FVec F S1280x10 .f32) (main_arg11 : FVec F S10 .f32) (main_v33 : IVec S_ 1) : IVec S_ 1 :=
  let main_v34 : FVec F S5x256 .f32 := Host.absf main_arg8
  let main_cst_12 : FVec F S_ .f32 := constant S_ .f32 0x7F800000#32
  let main_v35 : FVec F S5x256 .f32 := broadcastInDim S5x256 ![] bcast_S_S5x256 main_cst_12
  let main_v36 : IVec S5x256 1 := cmpf .olt main_v34 main_v35
  let main_c_13 : IVec S_ 1 := constantI S_ 1 1#1
  let main_v37 : IVec S_ 1 := (fun x v => Host.reduce IntOp.andi x v reducesTo_S5x256_S_d0_1 h_S_) main_v36 main_c_13
  let main_v38 : IVec S_ 1 := andi main_v33 main_v37
  let main_v39 : FVec F S5x256 .f32 := Host.absf main_arg9
  let main_cst_14 : FVec F S_ .f32 := constant S_ .f32 0x7F800000#32
  let main_v40 : FVec F S5x256 .f32 := broadcastInDim S5x256 ![] bcast_S_S5x256 main_cst_14
  let main_v41 : IVec S5x256 1 := cmpf .olt main_v39 main_v40
  let main_c_15 : IVec S_ 1 := constantI S_ 1 1#1
  let main_v42 : IVec S_ 1 := (fun x v => Host.reduce IntOp.andi x v reducesTo_S5x256_S_d0_1 h_S_) main_v41 main_c_15
  let main_v43 : IVec S_ 1 := andi main_v38 main_v42
  let main_v44 : FVec F S1280x10 .f32 := Host.absf main_arg10
  let main_cst_16 : FVec F S_ .f32 := constant S_ .f32 0x7F800000#32
  let main_v45 : FVec F S1280x10 .f32 := broadcastInDim S1280x10 ![] bcast_S_S1280x10 main_cst_16
  let main_v46 : IVec S1280x10 1 := cmpf .olt main_v44 main_v45
  let main_c_17 : IVec S_ 1 := constantI S_ 1 1#1
  let main_v47 : IVec S_ 1 := (fun x v => Host.reduce IntOp.andi x v reducesTo_S1280x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S5x256 .f32) (main_arg6 : FVec F S5x256x256 .f32) (main_arg7 : FVec F S5x256 .f32) (main_arg8 : FVec F S5x256 .f32) (main_arg9 : FVec F S5x256 .f32) (main_arg10 : FVec F S1280x10 .f32) (main_arg11 : FVec F S10 .f32) (main_v13 : IVec S_ 1) (main_v16 : IVec S5x256 1) : IVec S_ 1 :=
  let main_c_5 : IVec S_ 1 := constantI S_ 1 1#1
  let main_v17 : IVec S_ 1 := (fun x v => Host.reduce IntOp.andi x v reducesTo_S5x256_S_d0_1 h_S_) main_v16 main_c_5
  let main_v18 : IVec S_ 1 := andi main_v13 main_v17
  let main_v19 : FVec F S5x256 .f32 := Host.absf main_arg5
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S5x256x256 .f32 := Host.absf main_arg6
  let main_cst_8 : FVec F S_ .f32 := constant S_ .f32 0x7F800000#32
  let main_v25 : FVec F S5x256x256 .f32 := broadcastInDim S5x256x256 ![] bcast_S_S5x256x256 main_cst_8
  let main_v26 : IVec S5x256x256 1 := cmpf .olt main_v24 main_v25
  let main_c_9 : IVec S_ 1 := constantI S_ 1 1#1
  let main_v27 : IVec S_ 1 := (fun x v => Host.reduce IntOp.andi x v reducesTo_S5x256x256_S_d0_1_2 h_S_) main_v26 main_c_9
  let main_v28 : IVec S_ 1 := andi main_v23 main_v27
  let main_v29 : FVec F S5x256 .f32 := Host.absf main_arg7
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x256 .f32) (main_arg1 : IVec S2x800000 32) (main_arg2 : FVec F S5x256x256 .f32) (main_arg3 : FVec F S5x256 .f32) (main_arg4 : FVec F S5x256 .f32) (main_arg5 : FVec F S5x256 .f32) (main_arg6 : FVec F S5x256x256 .f32) (main_arg7 : FVec F S5x256 .f32) (main_arg8 : FVec F S5x256 .f32) (main_arg9 : FVec F S5x256 .f32) (main_arg10 : FVec F S1280x10 .f32) (main_arg11 : FVec F S10 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S5x256x256 .f32 := Host.absf main_arg2
  let main_cst_0 : FVec F S_ .f32 := constant S_ .f32 0x7F800000#32
  let main_v5 : FVec F S5x256x256 .f32 := broadcastInDim S5x256x256 ![] bcast_S_S5x256x256 main_cst_0
  let main_v6 : IVec S5x256x256 1 := cmpf .olt main_v4 main_v5
  let main_c_1 : IVec S_ 1 := constantI S_ 1 1#1
  let main_v7 : IVec S_ 1 := (fun x v => Host.reduce IntOp.andi x v reducesTo_S5x256x256_S_d0_1_2 h_S_) main_v6 main_c_1
  let main_v8 : IVec S_ 1 := andi main_v3 main_v7
  let main_v9 : FVec F S5x256 .f32 := Host.absf main_arg3
  let main_cst_2 : FVec F S_ .f32 := constant S_ .f32 0x7F800000#32
  let main_v10 : FVec F S5x256 .f32 := broadcastInDim S5x256 ![] bcast_S_S5x256 main_cst_2
  let main_v11 : IVec S5x256 1 := cmpf .olt main_v9 main_v10
  let main_c_3 : IVec S_ 1 := constantI S_ 1 1#1
  let main_v12 : IVec S_ 1 := (fun x v => Host.reduce IntOp.andi x v reducesTo_S5x256_S_d0_1 h_S_) main_v11 main_c_3
  let main_v13 : IVec S_ 1 := andi main_v8 main_v12
  let main_v14 : FVec F S5x256 .f32 := Host.absf main_arg4
  let main_cst_4 : FVec F S_ .f32 := constant S_ .f32 0x7F800000#32
  let main_v15 : FVec F S5x256 .f32 := broadcastInDim S5x256 ![] bcast_S_S5x256 main_cst_4
  let main_v16 : IVec S5x256 1 := cmpf .olt main_v14 main_v15
  fn_part1 (F := F) main_arg5 main_arg6 main_arg7 main_arg8 main_arg9 main_arg10 main_arg11 main_v13 main_v16
-- ==== Kernel.lean ====
abbrev S50000x256 : Shape := ⟨2, ![50000, 256]⟩
abbrev S2x800000 : Shape := ⟨2, ![2, 800000]⟩
abbrev S5x256x256 : Shape := ⟨3, ![5, 256, 256]⟩
abbrev S5x256 : Shape := ⟨2, ![5, 256]⟩
abbrev S1280x10 : Shape := ⟨2, ![1280, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S1280 : Shape := ⟨1, ![1280]⟩
abbrev S1x1280 : Shape := ⟨2, ![1, 1280]⟩
abbrev S1x10 : Shape := ⟨2, ![1, 10]⟩

abbrev nBuf : Space → Nat
  | .hbm => 331
  | .vmem => 155
  | .smem => 0
  | _ => 0

abbrev hbmTy0_0 (i : Nat) : BufTy := match i % 128 with
  | 0 => ⟨S50000x256, .f32⟩
  | 1 => ⟨S2x800000, .i32⟩
  | 2 => ⟨S5x256x256, .f32⟩
  | 3 => ⟨S5x256, .f32⟩
  | 4 => ⟨S5x256, .f32⟩
  | 5 => ⟨S5x256, .f32⟩
  | 6 => ⟨S5x256x256, .f32⟩
  | 7 => ⟨S5x256, .f32⟩
  | 8 => ⟨S5x256, .f32⟩
  | 9 => ⟨S5x256, .f32⟩
  | 10 => ⟨S1280x10, .f32⟩
  | 11 => ⟨S10, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S_, .f32⟩
  | 26 => ⟨S50000x256, .f32⟩
  | 27 => ⟨S800000x1, .i32⟩
  | 28 => ⟨S50000x256, .f32⟩
  | 29 => ⟨S1x256x256, .f32⟩
  | 30 => ⟨S256x256, .f32⟩
  | 31 => ⟨S256x256, .bf16⟩
  | 32 => ⟨S1x256, .f32⟩
  | 33 => ⟨S256, .f32⟩
  | 34 => ⟨S1x256, .f32⟩
  | 35 => ⟨S50000x256, .f32⟩
  | 36 => ⟨S1x256, .f32⟩
  | 37 => ⟨S1x256, .f32⟩
  | 38 => ⟨S_, .f32⟩
  | 39 => ⟨S1x256, .f32⟩
  | 40 => ⟨S1x256, .f32⟩
  | 41 => ⟨S_, .f32⟩
  | 42 => ⟨S1x256, .f32⟩
  | 43 => ⟨S1x256, .f32⟩
  | 44 => ⟨S1x256, .f32⟩
  | 45 => ⟨S1x256, .f32⟩
  | 46 => ⟨S1x256, .f32⟩
  | 47 => ⟨S256, .f32⟩
  | 48 => ⟨S1x256, .f32⟩
  | 49 => ⟨S1x256, .f32⟩
  | 50 => ⟨S256, .f32⟩
  | 51 => ⟨S1x256, .f32⟩
  | 52 => ⟨S1x256x256, .f32⟩
  | 53 => ⟨S256x256, .f32⟩
  | 54 => ⟨S256x256, .bf16⟩
  | 55 => ⟨S1x256, .f32⟩
  | 56 => ⟨S256, .f32⟩
  | 57 => ⟨S1x256, .f32⟩
  | 58 => ⟨S50000x256, .f32⟩
  | 59 => ⟨S1x256, .f32⟩
  | 60 => ⟨S1x256, .f32⟩
  | 61 => ⟨S_, .f32⟩
  | 62 => ⟨S1x256, .f32⟩
  | 63 => ⟨S1x256, .f32⟩
  | 64 => ⟨S_, .f32⟩
  | 65 => ⟨S1x256, .f32⟩
  | 66 => ⟨S1x256, .f32⟩
  | 67 => ⟨S1x256, .f32⟩
  | 68 => ⟨S1x256, .f32⟩
  | 69 => ⟨S1x256, .f32⟩
  | 70 => ⟨S256, .f32⟩
  | 71 => ⟨S1x256, .f32⟩
  | 72 => ⟨S1x256, .f32⟩
  | 73 => ⟨S256, .f32⟩
  | 74 => ⟨S1x256, .f32⟩
  | 75 => ⟨S50000x256, .f32⟩
  | 76 => ⟨S1x256, .f32⟩
  | 77 => ⟨S256, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S1x256x256, .f32⟩
  | 92 => ⟨S256x256, .f32⟩
  | 93 => ⟨S256x256, .bf16⟩
  | 94 => ⟨S1x256, .f32⟩
  | 95 => ⟨S256, .f32⟩
  | 96 => ⟨S1x256, .f32⟩
  | 97 => ⟨S50000x256, .f32⟩
  | 98 => ⟨S1x256, .f32⟩
  | 99 => ⟨S1x256, .f32⟩
  | 100 => ⟨S_, .f32⟩
  | 101 => ⟨S1x256, .f32⟩
  | 102 => ⟨S1x256, .f32⟩
  | 103 => ⟨S_, .f32⟩
  | 104 => ⟨S1x256, .f32⟩
  | 105 => ⟨S1x256, .f32⟩
  | 106 => ⟨S1x256, .f32⟩
  | 107 => ⟨S1x256, .f32⟩
  | 108 => ⟨S1x256, .f32⟩
  | 109 => ⟨S256, .f32⟩
  | 110 => ⟨S1x256, .f32⟩
  | 111 => ⟨S1x256, .f32⟩
  | 112 => ⟨S256, .f32⟩
  | 113 => ⟨S1x256, .f32⟩
  | 114 => ⟨S1x256x256, .f32⟩
  | 115 => ⟨S256x256, .f32⟩
  | 116 => ⟨S256x256, .bf16⟩
  | 117 => ⟨S1x256, .f32⟩
  | 118 => ⟨S256, .f32⟩
  | 119 => ⟨S1x256, .f32⟩
  | 120 => ⟨S50000x256, .f32⟩
  | 121 => ⟨S1x256, .f32⟩
  | 122 => ⟨S1x256, .f32⟩
  | 123 => ⟨S_, .f32⟩
  | 124 => ⟨S1x256, .f32⟩
  | 125 => ⟨S1x256, .f32⟩
  | 126 => ⟨S_, .f32⟩
  | 127 => ⟨S1x256, .f32⟩
  | _ => ⟨S50000x256, .f32⟩

abbrev hbmTy0_1 (i : Nat) : BufTy := match i % 128 with
  | 0 => ⟨S1x256, .f32⟩
  | 1 => ⟨S1x256, .f32⟩
  | 2 => ⟨S1x256, .f32⟩
  | 3 => ⟨S1x256, .f32⟩
  | 4 => ⟨S256, .f32⟩
  | 5 => ⟨S1x256, .f32⟩
  | 6 => ⟨S1x256, .f32⟩
  | 7 => ⟨S256, .f32⟩
  | 8 => ⟨S1x256, .f32⟩
  | 9 => ⟨S50000x256, .f32⟩
  | 10 => ⟨S1x256, .f32⟩
  | 11 => ⟨S256, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x256, .f32⟩
  | 21 => ⟨S_, .f32⟩
  | 22 => ⟨S50000x256, .f32⟩
  | 23 => ⟨S800000x1, .i32⟩
  | 24 => ⟨S50000x256, .f32⟩
  | 25 => ⟨S1x256x256, .f32⟩
  | 26 => ⟨S256x256, .f32⟩
  | 27 => ⟨S256x256, .bf16⟩
  | 28 => ⟨S1x256, .f32⟩
  | 29 => ⟨S256, .f32⟩
  | 30 => ⟨S1x256, .f32⟩
  | 31 => ⟨S50000x256, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S_, .f32⟩
  | 38 => ⟨S1x256, .f32⟩
  | 39 => ⟨S1x256, .f32⟩
  | 40 => ⟨S1x256, .f32⟩
  | 41 => ⟨S1x256, .f32⟩
  | 42 => ⟨S1x256, .f32⟩
  | 43 => ⟨S256, .f32⟩
  | 44 => ⟨S1x256, .f32⟩
  | 45 => ⟨S1x256, .f32⟩
  | 46 => ⟨S256, .f32⟩
  | 47 => ⟨S1x256, .f32⟩
  | 48 => ⟨S1x256x256, .f32⟩
  | 49 => ⟨S256x256, .f32⟩
  | 50 => ⟨S256x256, .bf16⟩
  | 51 => ⟨S1x256, .f32⟩
  | 52 => ⟨S256, .f32⟩
  | 53 => ⟨S1x256, .f32⟩
  | 54 => ⟨S50000x256, .f32⟩
  | 55 => ⟨S1x256, .f32⟩
  | 56 => ⟨S1x256, .f32⟩
  | 57 => ⟨S_, .f32⟩
  | 58 => ⟨S1x256, .f32⟩
  | 59 => ⟨S1x256, .f32⟩
  | 60 => ⟨S_, .f32⟩
  | 61 => ⟨S1x256, .f32⟩
  | 62 => ⟨S1x256, .f32⟩
  | 63 => ⟨S1x256, .f32⟩
  | 64 => ⟨S1x256, .f32⟩
  | 65 => ⟨S1x256, .f32⟩
  | 66 => ⟨S256, .f32⟩
  | 67 => ⟨S1x256, .f32⟩
  | 68 => ⟨S1x256, .f32⟩
  | 69 => ⟨S256, .f32⟩
  | 70 => ⟨S1x256, .f32⟩
  | 71 => ⟨S50000x256, .f32⟩
  | 72 => ⟨S1x256, .f32⟩
  | 73 => ⟨S256, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x256, .f32⟩
  | 83 => ⟨S_, .f32⟩
  | 84 => ⟨S50000x256, .f32⟩
  | 85 => ⟨S800000x1, .i32⟩
  | 86 => ⟨S50000x256, .f32⟩
  | 87 => ⟨S1x256x256, .f32⟩
  | 88 => ⟨S256x256, .f32⟩
  | 89 => ⟨S256x256, .bf16⟩
  | 90 => ⟨S1x256, .f32⟩
  | 91 => ⟨S256, .f32⟩
  | 92 => ⟨S1x256, .f32⟩
  | 93 => ⟨S50000x256, .f32⟩
  | 94 => ⟨S1x256, .f32⟩
  | 95 => ⟨S1x256, .f32⟩
  | 96 => ⟨S_, .f32⟩
  | 97 => ⟨S1x256, .f32⟩
  | 98 => ⟨S1x256, .f32⟩
  | 99 => ⟨S_, .f32⟩
  | 100 => ⟨S1x256, .f32⟩
  | 101 => ⟨S1x256, .f32⟩
  | 102 => ⟨S1x256, .f32⟩
  | 103 => ⟨S1x256, .f32⟩
  | 104 => ⟨S1x256, .f32⟩
  | 105 => ⟨S256, .f32⟩
  | 106 => ⟨S1x256, .f32⟩
  | 107 => ⟨S1x256, .f32⟩
  | 108 => ⟨S256, .f32⟩
  | 109 => ⟨S1x256, .f32⟩
  | 110 => ⟨S1x256x256, .f32⟩
  | 111 => ⟨S256x256, .f32⟩
  | 112 => ⟨S256x256, .bf16⟩
  | 113 => ⟨S1x256, .f32⟩
  | 114 => ⟨S256, .f32⟩
  | 115 => ⟨S1x256, .f32⟩
  | 116 => ⟨S50000x256, .f32⟩
  | 117 => ⟨S1x256, .f32⟩
  | 118 => ⟨S1x256, .f32⟩
  | 119 => ⟨S_, .f32⟩
  | 120 => ⟨S1x256, .f32⟩
  | 121 => ⟨S1x256, .f32⟩
  | 122 => ⟨S_, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S50000x256, .f32⟩

abbrev hbmTy0_2 (i : Nat) : BufTy := match i % 128 with
  | 0 => ⟨S256, .f32⟩
  | 1 => ⟨S1x256, .f32⟩
  | 2 => ⟨S1x256, .f32⟩
  | 3 => ⟨S256, .f32⟩
  | 4 => ⟨S1x256, .f32⟩
  | 5 => ⟨S50000x256, .f32⟩
  | 6 => ⟨S1x256, .f32⟩
  | 7 => ⟨S256, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x256, .f32⟩
  | 17 => ⟨S_, .f32⟩
  | 18 => ⟨S50000x256, .f32⟩
  | 19 => ⟨S800000x1, .i32⟩
  | 20 => ⟨S50000x256, .f32⟩
  | 21 => ⟨S1x256x256, .f32⟩
  | 22 => ⟨S256x256, .f32⟩
  | 23 => ⟨S256x256, .bf16⟩
  | 24 => ⟨S1x256, .f32⟩
  | 25 => ⟨S256, .f32⟩
  | 26 => ⟨S1x256, .f32⟩
  | 27 => ⟨S50000x256, .f32⟩
  | 28 => ⟨S1x256, .f32⟩
  | 29 => ⟨S1x256, .f32⟩
  | 30 => ⟨S_, .f32⟩
  | 31 => ⟨S1x256, .f32⟩
  | 32 => ⟨S1x256, .f32⟩
  | 33 => ⟨S_, .f32⟩
  | 34 => ⟨S1x256, .f32⟩
  | 35 => ⟨S1x256, .f32⟩
  | 36 => ⟨S1x256, .f32⟩
  | 37 => ⟨S1x256, .f32⟩
  | 38 => ⟨S1x256, .f32⟩
  | 39 => ⟨S256, .f32⟩
  | 40 => ⟨S1x256, .f32⟩
  | 41 => ⟨S1x256, .f32⟩
  | 42 => ⟨S256, .f32⟩
  | 43 => ⟨S1x256, .f32⟩
  | 44 => ⟨S1x256x256, .f32⟩
  | 45 => ⟨S256x256, .f32⟩
  | 46 => ⟨S256x256, .bf16⟩
  | 47 => ⟨S1x256, .f32⟩
  | 48 => ⟨S256, .f32⟩
  | 49 => ⟨S1x256, .f32⟩
  | 50 => ⟨S50000x256, .f32⟩
  | 51 => ⟨S1x256, .f32⟩
  | 52 => ⟨S1x256, .f32⟩
  | 53 => ⟨S_, .f32⟩
  | 54 => ⟨S1x256, .f32⟩
  | 55 => ⟨S1x256, .f32⟩
  | 56 => ⟨S_, .f32⟩
  | 57 => ⟨S1x256, .f32⟩
  | 58 => ⟨S1x256, .f32⟩
  | 59 => ⟨S1x256, .f32⟩
  | 60 => ⟨S1x256, .f32⟩
  | 61 => ⟨S1x256, .f32⟩
  | 62 => ⟨S256, .f32⟩
  | 63 => ⟨S1x256, .f32⟩
  | 64 => ⟨S1x256, .f32⟩
  | 65 => ⟨S256, .f32⟩
  | 66 => ⟨S1x256, .f32⟩
  | 67 => ⟨S50000x256, .f32⟩
  | 68 => ⟨S1x256, .f32⟩
  | 69 => ⟨S256, .f32⟩
  | 70 => ⟨S1280, .f32⟩
  | 71 => ⟨S1x1280, .f32⟩
  | 72 => ⟨S1x10, .f32⟩
  | 73 => ⟨S1x10, .f32⟩
  | 74 => ⟨S1x10, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev vmemTy0_0 (i : Nat) : BufTy := match i % 128 with
  | 0 => ⟨S2000x256, .f32⟩
  | 1 => ⟨S2000x256, .f32⟩
  | 2 => ⟨S2000x256, .f32⟩
  | 3 => ⟨S2000x256, .f32⟩
  | 4 => ⟨S256x256, .bf16⟩
  | 5 => ⟨S1x256, .f32⟩
  | 6 => ⟨S2000x256, .f32⟩
  | 7 => ⟨S2000x256, .f32⟩
  | 8 => ⟨S1x256, .f32⟩
  | 9 => ⟨S1x256, .f32⟩
  | 10 => ⟨S2000x256, .f32⟩
  | 11 => ⟨S2000x256, .f32⟩
  | 12 => ⟨S1x256, .f32⟩
  | 13 => ⟨S1x256, .f32⟩
  | 14 => ⟨S1x256, .f32⟩
  | 15 => ⟨S1x256, .f32⟩
  | 16 => ⟨S256x256, .bf16⟩
  | 17 => ⟨S1x256, .f32⟩
  | 18 => ⟨S2000x256, .f32⟩
  | 19 => ⟨S2000x256, .f32⟩
  | 20 => ⟨S1x256, .f32⟩
  | 21 => ⟨S1x256, .f32⟩
  | 22 => ⟨S2000x256, .f32⟩
  | 23 => ⟨S2000x256, .f32⟩
  | 24 => ⟨S1x256, .f32⟩
  | 25 => ⟨S1x256, .f32⟩
  | 26 => ⟨S1x256, .f32⟩
  | 27 => ⟨S1x256, .f32⟩
  | 28 => ⟨S2000x256, .f32⟩
  | 29 => ⟨S2000x256, .f32⟩
  | 30 => ⟨S1x256, .f32⟩
  | 31 => ⟨S2000x256, .f32⟩
  | 32 => ⟨S2000x256, .f32⟩
  | 33 => ⟨S2000x256, .f32⟩
  | 34 => ⟨S2000x256, .f32⟩
  | 35 => ⟨S256x256, .bf16⟩
  | 36 => ⟨S1x256, .f32⟩
  | 37 => ⟨S2000x256, .f32⟩
  | 38 => ⟨S2000x256, .f32⟩
  | 39 => ⟨S1x256, .f32⟩
  | 40 => ⟨S1x256, .f32⟩
  | 41 => ⟨S2000x256, .f32⟩
  | 42 => ⟨S2000x256, .f32⟩
  | 43 => ⟨S1x256, .f32⟩
  | 44 => ⟨S1x256, .f32⟩
  | 45 => ⟨S1x256, .f32⟩
  | 46 => ⟨S1x256, .f32⟩
  | 47 => ⟨S256x256, .bf16⟩
  | 48 => ⟨S1x256, .f32⟩
  | 49 => ⟨S2000x256, .f32⟩
  | 50 => ⟨S2000x256, .f32⟩
  | 51 => ⟨S1x256, .f32⟩
  | 52 => ⟨S1x256, .f32⟩
  | 53 => ⟨S2000x256, .f32⟩
  | 54 => ⟨S2000x256, .f32⟩
  | 55 => ⟨S1x256, .f32⟩
  | 56 => ⟨S1x256, .f32⟩
  | 57 => ⟨S1x256, .f32⟩
  | 58 => ⟨S1x256, .f32⟩
  | 59 => ⟨S2000x256, .f32⟩
  | 60 => ⟨S2000x256, .f32⟩
  | 61 => ⟨S1x256, .f32⟩
  | 62 => ⟨S2000x256, .f32⟩
  | 63 => ⟨S2000x256, .f32⟩
  | 64 => ⟨S2000x256, .f32⟩
  | 65 => ⟨S2000x256, .f32⟩
  | 66 => ⟨S256x256, .bf16⟩
  | 67 => ⟨S1x256, .f32⟩
  | 68 => ⟨S2000x256, .f32⟩
  | 69 => ⟨S2000x256, .f32⟩
  | 70 => ⟨S1x256, .f32⟩
  | 71 => ⟨S1x256, .f32⟩
  | 72 => ⟨S2000x256, .f32⟩
  | 73 => ⟨S2000x256, .f32⟩
  | 74 => ⟨S1x256, .f32⟩
  | 75 => ⟨S1x256, .f32⟩
  | 76 => ⟨S1x256, .f32⟩
  | 77 => ⟨S1x256, .f32⟩
  | 78 => ⟨S256x256, .bf16⟩
  | 79 => ⟨S1x256, .f32⟩
  | 80 => ⟨S2000x256, .f32⟩
  | 81 => ⟨S2000x256, .f32⟩
  | 82 => ⟨S1x256, .f32⟩
  | 83 => ⟨S1x256, .f32⟩
  | 84 => ⟨S2000x256, .f32⟩
  | 85 => ⟨S2000x256, .f32⟩
  | 86 => ⟨S1x256, .f32⟩
  | 87 => ⟨S1x256, .f32⟩
  | 88 => ⟨S1x256, .f32⟩
  | 89 => ⟨S1x256, .f32⟩
  | 90 => ⟨S2000x256, .f32⟩
  | 91 => ⟨S2000x256, .f32⟩
  | 92 => ⟨S1x256, .f32⟩
  | 93 => ⟨S2000x256, .f32⟩
  | 94 => ⟨S2000x256, .f32⟩
  | 95 => ⟨S2000x256, .f32⟩
  | 96 => ⟨S2000x256, .f32⟩
  | 97 => ⟨S256x256, .bf16⟩
  | 98 => ⟨S1x256, .f32⟩
  | 99 => ⟨S2000x256, .f32⟩
  | 100 => ⟨S2000x256, .f32⟩
  | 101 => ⟨S1x256, .f32⟩
  | 102 => ⟨S1x256, .f32⟩
  | 103 => ⟨S2000x256, .f32⟩
  | 104 => ⟨S2000x256, .f32⟩
  | 105 => ⟨S1x256, .f32⟩
  | 106 => ⟨S1x256, .f32⟩
  | 107 => ⟨S1x256, .f32⟩
  | 108 => ⟨S1x256, .f32⟩
  | 109 => ⟨S256x256, .bf16⟩
  | 110 => ⟨S1x256, .f32⟩
  | 111 => ⟨S2000x256, .f32⟩
  | 112 => ⟨S2000x256, .f32⟩
  | 113 => ⟨S1x256, .f32⟩
  | 114 => ⟨S1x256, .f32⟩
  | 115 => ⟨S2000x256, .f32⟩
  | 116 => ⟨S2000x256, .f32⟩
  | 117 => ⟨S1x256, .f32⟩
  | 118 => ⟨S1x256, .f32⟩
  | 119 => ⟨S1x256, .f32⟩
  | 120 => ⟨S1x256, .f32⟩
  | 121 => ⟨S2000x256, .f32⟩
  | 122 => ⟨S2000x256, .f32⟩
  | 123 => ⟨S1x256, .f32⟩
  | 124 => ⟨S2000x256, .f32⟩
  | 125 => ⟨S2000x256, .f32⟩
  | 126 => ⟨S2000x256, .f32⟩
  | 127 => ⟨S2000x256, .f32⟩
  | _ => ⟨S50000x256, .f32⟩

abbrev vmemTy0_1 (i : Nat) : BufTy := match i % 128 with
  | 0 => ⟨S256x256, .bf16⟩
  | 1 => ⟨S1x256, .f32⟩
  | 2 => ⟨S2000x256, .f32⟩
  | 3 => ⟨S2000x256, .f32⟩
  | 4 => ⟨S1x256, .f32⟩
  | 5 => ⟨S1x256, .f32⟩
  | 6 => ⟨S2000x256, .f32⟩
  | 7 => ⟨S2000x256, .f32⟩
  | 8 => ⟨S1x256, .f32⟩
  | 9 => ⟨S1x256, .f32⟩
  | 10 => ⟨S1x256, .f32⟩
  | 11 => ⟨S1x256, .f32⟩
  | 12 => ⟨S256x256, .bf16⟩
  | 13 => ⟨S1x256, .f32⟩
  | 14 => ⟨S2000x256, .f32⟩
  | 15 => ⟨S2000x256, .f32⟩
  | 16 => ⟨S1x256, .f32⟩
  | 17 => ⟨S1x256, .f32⟩
  | 18 => ⟨S2000x256, .f32⟩
  | 19 => ⟨S2000x256, .f32⟩
  | 20 => ⟨S1x256, .f32⟩
  | 21 => ⟨S1x256, .f32⟩
  | 22 => ⟨S1x256, .f32⟩
  | 23 => ⟨S1x256, .f32⟩
  | 24 => ⟨S2000x256, .f32⟩
  | 25 => ⟨S2000x256, .f32⟩
  | 26 => ⟨S1x256, .f32⟩
  | _ => ⟨S50000x256, .f32⟩

abbrev vmemTy (i : Nat) : BufTy := match i / 128 with
  | 0 => vmemTy0_0 i
  | 1 => vmemTy0_1 i
  | _ => ⟨S50000x256, .f32⟩

abbrev bufTy : (tb : Table) → Fin (tcTables nBuf tb) → BufTy
  | .hbm, ⟨i, _⟩ => hbmTy i
  | .local _ .vmem, ⟨i, _⟩ => vmemTy i
  | _, _ => ⟨S50000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 155 → Bool
  | ⟨i, _⟩ => dmaSemScopedAt i

abbrev sig : RefSig :=
  ofTc nBuf bufTy 0 155 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_cst_3 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_v53 : Ref sig .tc := ⟨.hbm, 77, rfl⟩
abbrev main_c_5 : Ref sig .tc := ⟨.hbm, 78, rfl⟩
abbrev main_v54 : Ref sig .tc := ⟨.hbm, 79, rfl⟩
abbrev main_v55 : Ref sig .tc := ⟨.hbm, 80, rfl⟩
abbrev main_c_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70_0 : Ref sig .tc := ⟨.hbm, 97, rfl⟩
abbrev main_v70_1 : Ref sig .tc := ⟨.hbm, 98, rfl⟩
abbrev main_v70_2 : Ref sig .tc := ⟨.hbm, 99, rfl⟩
abbrev main_cst_8 : Ref sig .tc := ⟨.hbm, 100, rfl⟩
abbrev main_v71 : Ref sig .tc := ⟨.hbm, 101, rfl⟩
abbrev main_v72 : Ref sig .tc := ⟨.hbm, 102, rfl⟩
abbrev main_cst_9 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89_0 : Ref sig .tc := ⟨.hbm, 120, rfl⟩
abbrev main_v89_1 : Ref sig .tc := ⟨.hbm, 121, rfl⟩
abbrev main_v89_2 : Ref sig .tc := ⟨.hbm, 122, rfl⟩
abbrev main_cst_10 : Ref sig .tc := ⟨.hbm, 123, rfl⟩
abbrev main_v90 : Ref sig .tc := ⟨.hbm, 124, rfl⟩
abbrev main_v91 : Ref sig .tc := ⟨.hbm, 125, rfl⟩
abbrev main_cst_11 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102_0 : Ref sig .tc := ⟨.hbm, 137, rfl⟩
abbrev main_v102_1 : Ref sig .tc := ⟨.hbm, 138, rfl⟩
abbrev main_v103 : Ref sig .tc := ⟨.hbm, 139, rfl⟩
abbrev main_c_12 : Ref sig .tc := ⟨.hbm, 140, rfl⟩
abbrev main_v104 : Ref sig .tc := ⟨.hbm, 141, rfl⟩
abbrev main_v105 : Ref sig .tc := ⟨.hbm, 142, rfl⟩
abbrev main_c_13 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_14 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120_0 : Ref sig .tc := ⟨.hbm, 159, rfl⟩
abbrev main_v120_1 : Ref sig .tc := ⟨.hbm, 160, rfl⟩
abbrev main_v120_2 : Ref sig .tc := ⟨.hbm, 161, rfl⟩
abbrev main_cst_15 : Ref sig .tc := ⟨.hbm, 162, rfl⟩
abbrev main_v121 : Ref sig .tc := ⟨.hbm, 163, rfl⟩
abbrev main_v122 : Ref sig .tc := ⟨.hbm, 164, rfl⟩
abbrev main_cst_16 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139_0 : Ref sig .tc := ⟨.hbm, 182, rfl⟩
abbrev main_v139_1 : Ref sig .tc := ⟨.hbm, 183, rfl⟩
abbrev main_v139_2 : Ref sig .tc := ⟨.hbm, 184, rfl⟩
abbrev main_cst_17 : Ref sig .tc := ⟨.hbm, 185, rfl⟩
abbrev main_v140 : Ref sig .tc := ⟨.hbm, 186, rfl⟩
abbrev main_v141 : Ref sig .tc := ⟨.hbm, 187, rfl⟩
abbrev main_cst_18 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152_0 : Ref sig .tc := ⟨.hbm, 199, rfl⟩
abbrev main_v152_1 : Ref sig .tc := ⟨.hbm, 200, rfl⟩
abbrev main_v153 : Ref sig .tc := ⟨.hbm, 201, rfl⟩
abbrev main_c_19 : Ref sig .tc := ⟨.hbm, 202, rfl⟩
abbrev main_v154 : Ref sig .tc := ⟨.hbm, 203, rfl⟩
abbrev main_v155 : Ref sig .tc := ⟨.hbm, 204, rfl⟩
abbrev main_c_20 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_21 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170_0 : Ref sig .tc := ⟨.hbm, 221, rfl⟩
abbrev main_v170_1 : Ref sig .tc := ⟨.hbm, 222, rfl⟩
abbrev main_v170_2 : Ref sig .tc := ⟨.hbm, 223, rfl⟩
abbrev main_cst_22 : Ref sig .tc := ⟨.hbm, 224, rfl⟩
abbrev main_v171 : Ref sig .tc := ⟨.hbm, 225, rfl⟩
abbrev main_v172 : Ref sig .tc := ⟨.hbm, 226, rfl⟩
abbrev main_cst_23 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189_0 : Ref sig .tc := ⟨.hbm, 244, rfl⟩
abbrev main_v189_1 : Ref sig .tc := ⟨.hbm, 245, rfl⟩
abbrev main_v189_2 : Ref sig .tc := ⟨.hbm, 246, rfl⟩
abbrev main_cst_24 : Ref sig .tc := ⟨.hbm, 247, rfl⟩
abbrev main_v190 : Ref sig .tc := ⟨.hbm, 248, rfl⟩
abbrev main_v191 : Ref sig .tc := ⟨.hbm, 249, rfl⟩
abbrev main_cst_25 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202_0 : Ref sig .tc := ⟨.hbm, 261, rfl⟩
abbrev main_v202_1 : Ref sig .tc := ⟨.hbm, 262, rfl⟩
abbrev main_v203 : Ref sig .tc := ⟨.hbm, 263, rfl⟩
abbrev main_c_26 : Ref sig .tc := ⟨.hbm, 264, rfl⟩
abbrev main_v204 : Ref sig .tc := ⟨.hbm, 265, rfl⟩
abbrev main_v205 : Ref sig .tc := ⟨.hbm, 266, rfl⟩
abbrev main_c_27 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_cst_28 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220_0 : Ref sig .tc := ⟨.hbm, 283, rfl⟩
abbrev main_v220_1 : Ref sig .tc := ⟨.hbm, 284, rfl⟩
abbrev main_v220_2 : Ref sig .tc := ⟨.hbm, 285, rfl⟩
abbrev main_cst_29 : Ref sig .tc := ⟨.hbm, 286, rfl⟩
abbrev main_v221 : Ref sig .tc := ⟨.hbm, 287, rfl⟩
abbrev main_v222 : Ref sig .tc := ⟨.hbm, 288, rfl⟩
abbrev main_cst_30 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239_0 : Ref sig .tc := ⟨.hbm, 306, rfl⟩
abbrev main_v239_1 : Ref sig .tc := ⟨.hbm, 307, rfl⟩
abbrev main_v239_2 : Ref sig .tc := ⟨.hbm, 308, rfl⟩
abbrev main_cst_31 : Ref sig .tc := ⟨.hbm, 309, rfl⟩
abbrev main_v240 : Ref sig .tc := ⟨.hbm, 310, rfl⟩
abbrev main_v241 : Ref sig .tc := ⟨.hbm, 311, rfl⟩
abbrev main_cst_32 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252_0 : Ref sig .tc := ⟨.hbm, 323, rfl⟩
abbrev main_v252_1 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg6_0 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg7_1 : Ref sig .tc := ⟨.vmem, 50, rfl⟩
abbrev cc4_stg8_0 : Ref sig .tc := ⟨.vmem, 51, rfl⟩
abbrev cc4_stg9_0 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg5_1 : Ref sig .tc := ⟨.vmem, 60, rfl⟩
abbrev cc5_stg6_0 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg4_1 : Ref sig .tc := ⟨.vmem, 69, rfl⟩
abbrev cc6_stg5_0 : Ref sig .tc := ⟨.vmem, 70, rfl⟩
abbrev cc6_stg6_0 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg6_0 : Ref sig .tc := ⟨.vmem, 79, rfl⟩
abbrev cc7_stg7_0 : Ref sig .tc := ⟨.vmem, 80, rfl⟩
abbrev cc7_stg7_1 : Ref sig .tc := ⟨.vmem, 81, rfl⟩
abbrev cc7_stg8_0 : Ref sig .tc := ⟨.vmem, 82, rfl⟩
abbrev cc7_stg9_0 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg2_0 : Ref sig .tc := ⟨.vmem, 87, rfl⟩
abbrev cc8_stg3_0 : Ref sig .tc := ⟨.vmem, 88, rfl⟩
abbrev cc8_stg4_0 : Ref sig .tc := ⟨.vmem, 89, rfl⟩
abbrev cc8_stg5_0 : Ref sig .tc := ⟨.vmem, 90, rfl⟩
abbrev cc8_stg5_1 : Ref sig .tc := ⟨.vmem, 91, rfl⟩
abbrev cc8_stg6_0 : Ref sig .tc := ⟨.vmem, 92, rfl⟩
abbrev cc9_stg0_0 : Ref sig .tc := ⟨.vmem, 93, rfl⟩
abbrev cc9_stg0_1 : Ref sig .tc := ⟨.vmem, 94, rfl⟩
abbrev cc9_stg1_0 : Ref sig .tc := ⟨.vmem, 95, rfl⟩
abbrev cc9_stg1_1 : Ref sig .tc := ⟨.vmem, 96, rfl⟩
abbrev cc9_stg2_0 : Ref sig .tc := ⟨.vmem, 97, rfl⟩
abbrev cc9_stg3_0 : Ref sig .tc := ⟨.vmem, 98, rfl⟩
abbrev cc9_stg4_0 : Ref sig .tc := ⟨.vmem, 99, rfl⟩
abbrev cc9_stg4_1 : Ref sig .tc := ⟨.vmem, 100, rfl⟩
abbrev cc9_stg5_0 : Ref sig .tc := ⟨.vmem, 101, rfl⟩
abbrev cc9_stg6_0 : Ref sig .tc := ⟨.vmem, 102, rfl⟩
abbrev cc10_stg0_0 : Ref sig .tc := ⟨.vmem, 103, rfl⟩
abbrev cc10_stg0_1 : Ref sig .tc := ⟨.vmem, 104, rfl⟩
abbrev cc10_stg1_0 : Ref sig .tc := ⟨.vmem, 105, rfl⟩
abbrev cc10_stg2_0 : Ref sig .tc := ⟨.vmem, 106, rfl⟩
abbrev cc10_stg3_0 : Ref sig .tc := ⟨.vmem, 107, rfl⟩
abbrev cc10_stg4_0 : Ref sig .tc := ⟨.vmem, 108, rfl⟩
abbrev cc10_stg5_0 : Ref sig .tc := ⟨.vmem, 109, rfl⟩
abbrev cc10_stg6_0 : Ref sig .tc := ⟨.vmem, 110, rfl⟩
abbrev cc10_stg7_0 : Ref sig .tc := ⟨.vmem, 111, rfl⟩
abbrev cc10_stg7_1 : Ref sig .tc := ⟨.vmem, 112, rfl⟩
abbrev cc10_stg8_0 : Ref sig .tc := ⟨.vmem, 113, rfl⟩
abbrev cc10_stg9_0 : Ref sig .tc := ⟨.vmem, 114, rfl⟩
abbrev cc11_stg0_0 : Ref sig .tc := ⟨.vmem, 115, rfl⟩
abbrev cc11_stg0_1 : Ref sig .tc := ⟨.vmem, 116, rfl⟩
abbrev cc11_stg1_0 : Ref sig .tc := ⟨.vmem, 117, rfl⟩
abbrev cc11_stg2_0 : Ref sig .tc := ⟨.vmem, 118, rfl⟩
abbrev cc11_stg3_0 : Ref sig .tc := ⟨.vmem, 119, rfl⟩
abbrev cc11_stg4_0 : Ref sig .tc := ⟨.vmem, 120, rfl⟩
abbrev cc11_stg5_0 : Ref sig .tc := ⟨.vmem, 121, rfl⟩
abbrev cc11_stg5_1 : Ref sig .tc := ⟨.vmem, 122, rfl⟩
abbrev cc11_stg6_0 : Ref sig .tc := ⟨.vmem, 123, rfl⟩
abbrev cc12_stg0_0 : Ref sig .tc := ⟨.vmem, 124, rfl⟩
abbrev cc12_stg0_1 : Ref sig .tc := ⟨.vmem, 125, rfl⟩
abbrev cc12_stg1_0 : Ref sig .tc := ⟨.vmem, 126, rfl⟩
abbrev cc12_stg1_1 : Ref sig .tc := ⟨.vmem, 127, rfl⟩
abbrev cc12_stg2_0 : Ref sig .tc := ⟨.vmem, 128, rfl⟩
abbrev cc12_stg3_0 : Ref sig .tc := ⟨.vmem, 129, rfl⟩
abbrev cc12_stg4_0 : Ref sig .tc := ⟨.vmem, 130, rfl⟩
abbrev cc12_stg4_1 : Ref sig .tc := ⟨.vmem, 131, rfl⟩
abbrev cc12_stg5_0 : Ref sig .tc := ⟨.vmem, 132, rfl⟩
abbrev cc12_stg6_0 : Ref sig .tc := ⟨.vmem, 133, rfl⟩
abbrev cc13_stg0_0 : Ref sig .tc := ⟨.vmem, 134, rfl⟩
abbrev cc13_stg0_1 : Ref sig .tc := ⟨.vmem, 135, rfl⟩
abbrev cc13_stg1_0 : Ref sig .tc := ⟨.vmem, 136, rfl⟩
abbrev cc13_stg2_0 : Ref sig .tc := ⟨.vmem, 137, rfl⟩
abbrev cc13_stg3_0 : Ref sig .tc := ⟨.vmem, 138, rfl⟩
abbrev cc13_stg4_0 : Ref sig .tc := ⟨.vmem, 139, rfl⟩
abbrev cc13_stg5_0 : Ref sig .tc := ⟨.vmem, 140, rfl⟩
abbrev cc13_stg6_0 : Ref sig .tc := ⟨.vmem, 141, rfl⟩
abbrev cc13_stg7_0 : Ref sig .tc := ⟨.vmem, 142, rfl⟩
abbrev cc13_stg7_1 : Ref sig .tc := ⟨.vmem, 143, rfl⟩
abbrev cc13_stg8_0 : Ref sig .tc := ⟨.vmem, 144, rfl⟩
abbrev cc13_stg9_0 : Ref sig .tc := ⟨.vmem, 145, rfl⟩
abbrev cc14_stg0_0 : Ref sig .tc := ⟨.vmem, 146, rfl⟩
abbrev cc14_stg0_1 : Ref sig .tc := ⟨.vmem, 147, rfl⟩
abbrev cc14_stg1_0 : Ref sig .tc := ⟨.vmem, 148, rfl⟩
abbrev cc14_stg2_0 : Ref sig .tc := ⟨.vmem, 149, rfl⟩
abbrev cc14_stg3_0 : Ref sig .tc := ⟨.vmem, 150, rfl⟩
abbrev cc14_stg4_0 : Ref sig .tc := ⟨.vmem, 151, rfl⟩
abbrev cc14_stg5_0 : Ref sig .tc := ⟨.vmem, 152, rfl⟩
abbrev cc14_stg5_1 : Ref sig .tc := ⟨.vmem, 153, rfl⟩
abbrev cc14_stg6_0 : Ref sig .tc := ⟨.vmem, 154, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem4_1 : DmaSem sig := 38
abbrev cc3_sem5_0 : DmaSem sig := 39
abbrev cc3_sem6_0 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem7_1 : DmaSem sig := 50
abbrev cc4_sem8_0 : DmaSem sig := 51
abbrev cc4_sem9_0 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem5_1 : DmaSem sig := 60
abbrev cc5_sem6_0 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem4_0 : DmaSem sig := 68
abbrev cc6_sem4_1 : DmaSem sig := 69
abbrev cc6_sem5_0 : DmaSem sig := 70
abbrev cc6_sem6_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem6_0 : DmaSem sig := 79
abbrev cc7_sem7_0 : DmaSem sig := 80
abbrev cc7_sem7_1 : DmaSem sig := 81
abbrev cc7_sem8_0 : DmaSem sig := 82
abbrev cc7_sem9_0 : DmaSem sig := 83
abbrev cc8_sem0_0 : DmaSem sig := 84
abbrev cc8_sem0_1 : DmaSem sig := 85
abbrev cc8_sem1_0 : DmaSem sig := 86
abbrev cc8_sem2_0 : DmaSem sig := 87
abbrev cc8_sem3_0 : DmaSem sig := 88
abbrev cc8_sem4_0 : DmaSem sig := 89
abbrev cc8_sem5_0 : DmaSem sig := 90
abbrev cc8_sem5_1 : DmaSem sig := 91
abbrev cc8_sem6_0 : DmaSem sig := 92
abbrev cc9_sem0_0 : DmaSem sig := 93
abbrev cc9_sem0_1 : DmaSem sig := 94
abbrev cc9_sem1_0 : DmaSem sig := 95
abbrev cc9_sem1_1 : DmaSem sig := 96
abbrev cc9_sem2_0 : DmaSem sig := 97
abbrev cc9_sem3_0 : DmaSem sig := 98
abbrev cc9_sem4_0 : DmaSem sig := 99
abbrev cc9_sem4_1 : DmaSem sig := 100
abbrev cc9_sem5_0 : DmaSem sig := 101
abbrev cc9_sem6_0 : DmaSem sig := 102
abbrev cc10_sem0_0 : DmaSem sig := 103
abbrev cc10_sem0_1 : DmaSem sig := 104
abbrev cc10_sem1_0 : DmaSem sig := 105
abbrev cc10_sem2_0 : DmaSem sig := 106
abbrev cc10_sem3_0 : DmaSem sig := 107
abbrev cc10_sem4_0 : DmaSem sig := 108
abbrev cc10_sem5_0 : DmaSem sig := 109
abbrev cc10_sem6_0 : DmaSem sig := 110
abbrev cc10_sem7_0 : DmaSem sig := 111
abbrev cc10_sem7_1 : DmaSem sig := 112
abbrev cc10_sem8_0 : DmaSem sig := 113
abbrev cc10_sem9_0 : DmaSem sig := 114
abbrev cc11_sem0_0 : DmaSem sig := 115
abbrev cc11_sem0_1 : DmaSem sig := 116
abbrev cc11_sem1_0 : DmaSem sig := 117
abbrev cc11_sem2_0 : DmaSem sig := 118
abbrev cc11_sem3_0 : DmaSem sig := 119
abbrev cc11_sem4_0 : DmaSem sig := 120
abbrev cc11_sem5_0 : DmaSem sig := 121
abbrev cc11_sem5_1 : DmaSem sig := 122
abbrev cc11_sem6_0 : DmaSem sig := 123
abbrev cc12_sem0_0 : DmaSem sig := 124
abbrev cc12_sem0_1 : DmaSem sig := 125
abbrev cc12_sem1_0 : DmaSem sig := 126
abbrev cc12_sem1_1 : DmaSem sig := 127
abbrev cc12_sem2_0 : DmaSem sig := 128
abbrev cc12_sem3_0 : DmaSem sig := 129
abbrev cc12_sem4_0 : DmaSem sig := 130
abbrev cc12_sem4_1 : DmaSem sig := 131
abbrev cc12_sem5_0 : DmaSem sig := 132
abbrev cc12_sem6_0 : DmaSem sig := 133
abbrev cc13_sem0_0 : DmaSem sig := 134
abbrev cc13_sem0_1 : DmaSem sig := 135
abbrev cc13_sem1_0 : DmaSem sig := 136
abbrev cc13_sem2_0 : DmaSem sig := 137
abbrev cc13_sem3_0 : DmaSem sig := 138
abbrev cc13_sem4_0 : DmaSem sig := 139
abbrev cc13_sem5_0 : DmaSem sig := 140
abbrev cc13_sem6_0 : DmaSem sig := 141
abbrev cc13_sem7_0 : DmaSem sig := 142
abbrev cc13_sem7_1 : DmaSem sig := 143
abbrev cc13_sem8_0 : DmaSem sig := 144
abbrev cc13_sem9_0 : DmaSem sig := 145
abbrev cc14_sem0_0 : DmaSem sig := 146
abbrev cc14_sem0_1 : DmaSem sig := 147
abbrev cc14_sem1_0 : DmaSem sig := 148
abbrev cc14_sem2_0 : DmaSem sig := 149
abbrev cc14_sem3_0 : DmaSem sig := 150
abbrev cc14_sem4_0 : DmaSem sig := 151
abbrev cc14_sem5_0 : DmaSem sig := 152
abbrev cc14_sem5_1 : DmaSem sig := 153
abbrev cc14_sem6_0 : DmaSem sig := 154

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x256 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x256 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x256 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x256 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x256 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x256 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x256 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x256 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S2000x256 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 1 → Memref sig .tc .vmem S1x256 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x256 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x256 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S256x256 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S2000x256 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S1x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x256 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_9 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S256x256 .bf16 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x256 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S2000x256 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 1 → Memref sig .tc .vmem S1x256 .f32 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))
abbrev reads13_8 : Fin grid13.rank → Bool := ![false]

abbrev stage13_9 : Fin 1 → Memref sig .tc .vmem S1x256 .f32 := fun | 0 => Memref.whole cc13_stg9_0 | ⟨_ + 1, h⟩ => absurd h (Nat.not_lt.2 (Nat.le_add_left _ _))
abbrev sem13_9 : Fin 1 → DmaSem sig := fun | 0 => cc13_sem9_0 | ⟨_ + 1, h⟩ => absurd h (Nat.not_lt.2 (Nat.le_add_left _ _))
abbrev reads13_9 : Fin grid13.rank → Bool := ![false]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S2000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x256 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 1 → Memref sig .tc .vmem S1x256 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S5x256x256_S1x256x256_0_0_0 : S5x256x256.Slices ![0, 0, 0] S1x256x256
  shapeCasts_S1x256x256_S256x256 : S1x256x256.ShapeCasts S256x256
  bitsLt_bf16_f32 : FTy.bits .bf16 < FTy.bits .f32
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  inb_S1x256_S1x256_0_0 : ∀ a, (![0, 0] : Fin 2 → Nat) a + S1x256.size a ≤ S1x256.size a
  h_S1x256 : 0 < S1x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1x256_S1x256 : S1x256.ShapeCasts S1x256
  broadcasts_S1x256_S2000x256 : S1x256.Broadcasts S2000x256
  reduces_S2000x256_S256 : S2000x256.Reduces [0] S256
  shapeCasts_S256_S1x256 : S256.ShapeCasts S1x256
  bcast_S_S1x256 : S_.BroadcastsInDim S1x256 (![] : Fin 0 → Fin S1x256.rank)
  slices_S5x256x256_S1x256x256_1_0_0 : S5x256x256.Slices ![1, 0, 0] S1x256x256
  slices_S5x256_S1x256_1_0 : S5x256.Slices ![1, 0] S1x256
  slices_S5x256x256_S1x256x256_2_0_0 : S5x256x256.Slices ![2, 0, 0] S1x256x256
  slices_S5x256_S1x256_2_0 : S5x256.Slices ![2, 0] S1x256
  slices_S5x256x256_S1x256x256_3_0_0 : S5x256x256.Slices ![3, 0, 0] S1x256x256
  slices_S5x256_S1x256_3_0 : S5x256.Slices ![3, 0] S1x256
  slices_S5x256x256_S1x256x256_4_0_0 : S5x256x256.Slices ![4, 0, 0] S1x256x256
  slices_S5x256_S1x256_4_0 : S5x256.Slices ![4, 0] S1x256
  concatenates_S256_S256_S256_S256_S256_S1280_d0 : Shape.Concatenates [S256, S256, S256, S256, S256] S1280 0
  bcast_S1280_S1x1280_1 : S1280.BroadcastsInDim S1x1280 (![1] : Fin 1 → Fin S1x1280.rank)
  bcast_S10_S1x10_1 : S10.BroadcastsInDim S1x10 (![1] : Fin 1 → Fin S1x10.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S1x1280_S1280x10_S1x10_1_0_0_1_n_n_wf : DotDims.WF S1x1280 S1280x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .bf16 = 32 ∨ (Rect.block (s := S256x256) S256x256.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S50000x256.size a
  hwx4_7 : ∀ i : grid4.Coords, EltTy.bits .f32 = 32 ∨ (Rect.block (s := S50000x256) S2000x256.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x256.size a ≤ S1x256.size a
  hwx4_8 : ∀ i : grid4.Coords, EltTy.bits .f32 = 32 ∨ (Rect.block (s := S1x256) S1x256.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x256.size a ≤ S1x256.size a
  hwx4_9 : ∀ i : grid4.Coords, EltTy.bits .f32 = 32 ∨ (Rect.block (s := S1x256) S1x256.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .bf16 = 32 ∨ (Rect.block (s := S256x256) S256x256.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S50000x256.size a
  hwx6_4 : ∀ i : grid6.Coords, EltTy.bits .f32 = 32 ∨ (Rect.block (s := S50000x256) S2000x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x256.size a ≤ S256x256.size a
  hwx7_5 : ∀ i : grid7.Coords, EltTy.bits .bf16 = 32 ∨ (Rect.block (s := S256x256) S256x256.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x256.size a ≤ S50000x256.size a
  hwx7_7 : ∀ i : grid7.Coords, EltTy.bits .f32 = 32 ∨ (Rect.block (s := S50000x256) S2000x256.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x256.size a ≤ S1x256.size a
  hwx7_8 : ∀ i : grid7.Coords, EltTy.bits .f32 = 32 ∨ (Rect.block (s := S1x256) S1x256.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x256.size a ≤ S1x256.size a
  hwx7_9 : ∀ i : grid7.Coords, EltTy.bits .f32 = 32 ∨ (Rect.block (s := S1x256) S1x256.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x256.size a ≤ S1x256.size a
  hwx8_1 : ∀ i : grid8.Coords, EltTy.bits .f32 = 32 ∨ (Rect.block (s := S1x256) S1x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x256.size a ≤ S50000x256.size a
  hwx8_5 : ∀ i : grid8.Coords, EltTy.bits .f32 = 32 ∨ (Rect.block (s := S50000x256) S2000x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x256.size a ≤ S1x256.size a
  hwx8_6 : ∀ i : grid8.Coords, EltTy.bits .f32 = 32 ∨ (Rect.block (s := S1x256) S1x256.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S50000x256.size a
  hwx9_0 : ∀ i : grid9.Coords, EltTy.bits .f32 = 32 ∨ (Rect.block (s := S50000x256) S2000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x256.size a ≤ S50000x256.size a
  hwx9_1 : ∀ i : grid9.Coords, EltTy.bits .f32 = 32 ∨ (Rect.block (s := S50000x256) S2000x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .bf16 = 32 ∨ (Rect.block (s := S256x256) S256x256.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x256.size a ≤ S50000x256.size a
  hwx9_4 : ∀ i : grid9.Coords, EltTy.bits .f32 = 32 ∨ (Rect.block (s := S50000x256) S2000x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x256.size a ≤ S1x256.size a
  hwx9_5 : ∀ i : grid9.Coords, EltTy.bits .f32 = 32 ∨ (Rect.block (s := S1x256) S1x256.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x256.size a ≤ S1x256.size a
  hwx9_6 : ∀ i : grid9.Coords, EltTy.bits .f32 = 32 ∨ (Rect.block (s := S1x256) S1x256.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S50000x256.size a
  hwx10_0 : ∀ i : grid10.Coords, EltTy.bits .f32 = 32 ∨ (Rect.block (s := S50000x256) S2000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x256.size a ≤ S256x256.size a
  hwx10_5 : ∀ i : grid10.Coords, EltTy.bits .bf16 = 32 ∨ (Rect.block (s := S256x256) S256x256.size (cc10_transform_5 i) (hinb10_5 i)).WholeWords (EltTy.packing .bf16)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x256.size a ≤ S1x256.size a
  hwx10_6 : ∀ i : grid10.Coords, EltTy.bits .f32 = 32 ∨ (Rect.block (s := S1x256) S1x256.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S2000x256.size a ≤ S50000x256.size a
  hwx10_7 : ∀ i : grid10.Coords, EltTy.bits .f32 = 32 ∨ (Rect.block (s := S50000x256) S2000x256.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x256.size a ≤ S1x256.size a
  hwx10_8 : ∀ i : grid10.Coords, EltTy.bits .f32 = 32 ∨ (Rect.block (s := S1x256) S1x256.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x256.size a ≤ S1x256.size a
  hwx10_9 : ∀ i : grid10.Coords, EltTy.bits .f32 = 32 ∨ (Rect.block (s := S1x256) S1x256.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x256.size a ≤ S50000x256.size a
  hwx11_0 : ∀ i : grid11.Coords, EltTy.bits .f32 = 32 ∨ (Rect.block (s := S50000x256) S2000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x256.size a ≤ S50000x256.size a
  hwx11_5 : ∀ i : grid11.Coords, EltTy.bits .f32 = 32 ∨ (Rect.block (s := S50000x256) S2000x256.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x256.size a ≤ S1x256.size a
  hwx11_6 : ∀ i : grid11.Coords, EltTy.bits .f32 = 32 ∨ (Rect.block (s := S1x256) S1x256.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x256.size a ≤ S50000x256.size a
  hwx12_0 : ∀ i : grid12.Coords, EltTy.bits .f32 = 32 ∨ (Rect.block (s := S50000x256) S2000x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x256.size a ≤ S50000x256.size a
  hwx12_1 : ∀ i : grid12.Coords, EltTy.bits .f32 = 32 ∨ (Rect.block (s := S50000x256) S2000x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x256.size a ≤ S256x256.size a
  hwx12_2 : ∀ i : grid12.Coords, EltTy.bits .bf16 = 32 ∨ (Rect.block (s := S256x256) S256x256.size (cc12_transform_2 i) (hinb12_2 i)).WholeWords (EltTy.packing .bf16)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x256.size a ≤ S50000x256.size a
  hwx12_4 : ∀ i : grid12.Coords, EltTy.bits .f32 = 32 ∨ (Rect.block (s := S50000x256) S2000x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x256.size a ≤ S1x256.size a
  hwx12_5 : ∀ i : grid12.Coords, EltTy.bits .f32 = 32 ∨ (Rect.block (s := S1x256) S1x256.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x256.size a ≤ S1x256.size a
  hwx12_6 : ∀ i : grid12.Coords, EltTy.bits .f32 = 32 ∨ (Rect.block (s := S1x256) S1x256.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x256.size a ≤ S50000x256.size a
  hwx13_0 : ∀ i : grid13.Coords, EltTy.bits .f32 = 32 ∨ (Rect.block (s := S50000x256) S2000x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S256x256.size a ≤ S256x256.size a
  hwx13_5 : ∀ i : grid13.Coords, EltTy.bits .bf16 = 32 ∨ (Rect.block (s := S256x256) S256x256.size (cc13_transform_5 i) (hinb13_5 i)).WholeWords (EltTy.packing .bf16)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x256.size a ≤ S1x256.size a
  hwx13_6 : ∀ i : grid13.Coords, EltTy.bits .f32 = 32 ∨ (Rect.block (s := S1x256) S1x256.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S2000x256.size a ≤ S50000x256.size a
  hwx13_7 : ∀ i : grid13.Coords, EltTy.bits .f32 = 32 ∨ (Rect.block (s := S50000x256) S2000x256.size (cc13_transform_7 i) (hinb13_7 i)).WholeWords (EltTy.packing .f32)
  hstage13_8 : ∀ j, (stage13_8 j).IsWhole
  nbuf13_8 : grid13.bufCount reads13_8 true = 1
  hreads13_8 : ∀ i i' : grid13.Coords, (∀ a, reads13_8 a = true → i a = i' a) → cc13_transform_8 i = cc13_transform_8 i'
  hinb13_8 : ∀ (i : grid13.Coords) a, (cc13_transform_8 i a + 1) * S1x256.size a ≤ S1x256.size a
  hwx13_8 : ∀ i : grid13.Coords, EltTy.bits .f32 = 32 ∨ (Rect.block (s := S1x256) S1x256.size (cc13_transform_8 i) (hinb13_8 i)).WholeWords (EltTy.packing .f32)
  hstage13_9 : ∀ j, (stage13_9 j).IsWhole
  nbuf13_9 : grid13.bufCount reads13_9 true = 1
  hreads13_9 : ∀ i i' : grid13.Coords, (∀ a, reads13_9 a = true → i a = i' a) → cc13_transform_9 i = cc13_transform_9 i'
  hinb13_9 : ∀ (i : grid13.Coords) a, (cc13_transform_9 i a + 1) * S1x256.size a ≤ S1x256.size a
  hwx13_9 : ∀ i : grid13.Coords, EltTy.bits .f32 = 32 ∨ (Rect.block (s := S1x256) S1x256.size (cc13_transform_9 i) (hinb13_9 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x256.size a ≤ S50000x256.size a
  hwx14_0 : ∀ i : grid14.Coords, EltTy.bits .f32 = 32 ∨ (Rect.block (s := S50000x256) S2000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x256.size a ≤ S1x256.size a
  hwx14_1 : ∀ i : grid14.Coords, EltTy.bits .f32 = 32 ∨ (Rect.block (s := S1x256) S1x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x256.size a ≤ S50000x256.size a
  hwx14_5 : ∀ i : grid14.Coords, EltTy.bits .f32 = 32 ∨ (Rect.block (s := S50000x256) S2000x256.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x256.size a ≤ S1x256.size a
  hwx14_6 : ∀ i : grid14.Coords, EltTy.bits .f32 = 32 ∨ (Rect.block (s := S1x256) S1x256.size (cc14_transform_6 i) (hinb14_6 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S1x1280_S1280x10_S1x10_1_0_0_1_n_n : DotDims S1x1280 S1280x10 S1x10 where
  lhsContracting := [1]
  rhsContracting := [0]
  lhsNonContracting := [0]
  rhsNonContracting := [1]
  lhsBatch := []
  rhsBatch := []
  wf := dot_S1x1280_S1280x10_S1x10_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_2) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39_0) S2000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v39_1) S1x256.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39_2) S1x256.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v39_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v52_1) S1x256.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70_0) S2000x256.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v70_1) S1x256.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70_2) S1x256.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v70_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v88) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v89_0) S2000x256.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v89_1) S1x256.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v89_2) S1x256.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v89_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v102_0) S2000x256.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v102_1) S1x256.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v102_0) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v113) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v116) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v119) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v120_0) S2000x256.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v120_1) S1x256.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v120_2) S1x256.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v120_0) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v122) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v126) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v129) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v132) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v135) S256x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v138) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v139_0) S2000x256.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v139_1) S1x256.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v139_2) S1x256.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v139_0) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v141) S1x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v145) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v148) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v151) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v152_0) S2000x256.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v152_1) S1x256.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v152_0) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v163) S2000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v166) S256x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v169) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v170_0) S2000x256.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v170_1) S1x256.size cc9_transform_5 reads9_5 true true 1 stage9_5 sem9_5
    hrank9 hreads9_5 hinb9_5 nbuf9_5 (Memref.isWhole_whole _) hwx9_5 hstage9_5

abbrev win9_6 : Pipeline.Window sig grid9 :=
  Pipeline.Window.ofSpec (Memref.whole main_v170_2) S1x256.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v170_0) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v172) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v176) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v179) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v182) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v185) S256x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v188) S1x256.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v189_0) S2000x256.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v189_1) S1x256.size cc10_transform_8 reads10_8 true true 1 stage10_8 sem10_8
    hrank10 hreads10_8 hinb10_8 nbuf10_8 (Memref.isWhole_whole _) hwx10_8 hstage10_8

abbrev win10_9 : Pipeline.Window sig grid10 :=
  Pipeline.Window.ofSpec (Memref.whole main_v189_2) S1x256.size cc10_transform_9 reads10_9 true true 1 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v189_0) S2000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v191) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v195) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v198) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v201) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v202_0) S2000x256.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v202_1) S1x256.size cc11_transform_6 reads11_6 true true 1 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v202_0) S2000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v213) S2000x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v216) S256x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v219) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v220_0) S2000x256.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v220_1) S1x256.size cc12_transform_5 reads12_5 true true 1 stage12_5 sem12_5
    hrank12 hreads12_5 hinb12_5 nbuf12_5 (Memref.isWhole_whole _) hwx12_5 hstage12_5

abbrev win12_6 : Pipeline.Window sig grid12 :=
  Pipeline.Window.ofSpec (Memref.whole main_v220_2) S1x256.size cc12_transform_6 reads12_6 true true 1 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v220_0) S2000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v222) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v226) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v229) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v232) S1x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v235) S256x256.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v238) S1x256.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v239_0) S2000x256.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v239_1) S1x256.size cc13_transform_8 reads13_8 true true 1 stage13_8 sem13_8
    hrank13 hreads13_8 hinb13_8 nbuf13_8 (Memref.isWhole_whole _) hwx13_8 hstage13_8

abbrev win13_9 : Pipeline.Window sig grid13 :=
  Pipeline.Window.ofSpec (Memref.whole main_v239_2) S1x256.size cc13_transform_9 reads13_9 true true 1 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

abbrev win14_0 : Pipeline.Window sig grid14 :=
  Pipeline.Window.ofSpec (Memref.whole main_v239_0) S2000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v241) S1x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v245) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v248) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v251) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v252_0) S2000x256.size cc14_transform_5 reads14_5 true false 2 stage14_5 sem14_5
    hrank14 hreads14_5 hinb14_5 nbuf14_5 (Memref.isWhole_whole _) hwx14_5 hstage14_5

abbrev win14_6 : Pipeline.Window sig grid14 :=
  Pipeline.Window.ofSpec (Memref.whole main_v252_1) S1x256.size cc14_transform_6 reads14_6 true true 1 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S5x256x256 : Shape := ⟨3, ![5, 256, 256]⟩
abbrev S5x256 : Shape := ⟨2, ![5, 256]⟩
abbrev S1280x10 : Shape := ⟨2, ![1280, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1280 : Shape := ⟨1, ![1280]⟩
abbrev S1x1280 : Shape := ⟨2, ![1, 1280]⟩
abbrev S1x10 : Shape := ⟨2, ![1, 10]⟩

abbrev nBuf : Space → Nat
  | .hbm => 661
  | .vmem => 0
  | .smem => 0
  | _ => 0

abbrev hbmTy0_0 (i : Nat) : BufTy := match i % 128 with
  | 0 => ⟨S50000x256, .f32⟩
  | 1 => ⟨S2x800000, .i32⟩
  | 2 => ⟨S5x256x256, .f32⟩
  | 3 => ⟨S5x256, .f32⟩
  | 4 => ⟨S5x256, .f32⟩
  | 5 => ⟨S5x256, .f32⟩
  | 6 => ⟨S5x256x256, .f32⟩
  | 7 => ⟨S5x256, .f32⟩
  | 8 => ⟨S5x256, .f32⟩
  | 9 => ⟨S5x256, .f32⟩
  | 10 => ⟨S1280x10, .f32⟩
  | 11 => ⟨S10, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S_, .f32⟩
  | 26 => ⟨S50000x256, .f32⟩
  | 27 => ⟨S800000x1, .i32⟩
  | 28 => ⟨S50000x256, .f32⟩
  | 29 => ⟨S50000x256, .f32⟩
  | 30 => ⟨S1x256x256, .f32⟩
  | 31 => ⟨S256x256, .f32⟩
  | 32 => ⟨S50000x256, .f32⟩
  | 33 => ⟨S1x256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S256, .f32⟩
  | 40 => ⟨S1x256, .f32⟩
  | 41 => ⟨S256, .f32⟩
  | 42 => ⟨S_, .f32⟩
  | 43 => ⟨S256, .f32⟩
  | 44 => ⟨S_, .f32⟩
  | 45 => ⟨S256, .f32⟩
  | 46 => ⟨S256, .f32⟩
  | 47 => ⟨S_, .i32⟩
  | 48 => ⟨S_, .f32⟩
  | 49 => ⟨S256, .f32⟩
  | 50 => ⟨S1x256, .f32⟩
  | 51 => ⟨S_, .f32⟩
  | 52 => ⟨S1x256, .f32⟩
  | 53 => ⟨S1x256, .f32⟩
  | 54 => ⟨S50000x256, .f32⟩
  | 55 => ⟨S50000x256, .f32⟩
  | 56 => ⟨S50000x256, .f32⟩
  | 57 => ⟨S_, .f32⟩
  | 58 => ⟨S_, .f32⟩
  | 59 => ⟨S_, .f32⟩
  | 60 => ⟨S_, .f32⟩
  | 61 => ⟨S256, .f32⟩
  | 62 => ⟨S256, .f32⟩
  | 63 => ⟨S256, .f32⟩
  | 64 => ⟨S_, .f32⟩
  | 65 => ⟨S_, .i1⟩
  | 66 => ⟨S_, .f32⟩
  | 67 => ⟨S_, .f32⟩
  | 68 => ⟨S256, .f32⟩
  | 69 => ⟨S256, .f32⟩
  | 70 => ⟨S1x256, .f32⟩
  | 71 => ⟨S50000x256, .f32⟩
  | 72 => ⟨S50000x256, .f32⟩
  | 73 => ⟨S_, .f32⟩
  | 74 => ⟨S256, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S1x256x256, .f32⟩
  | 87 => ⟨S256x256, .f32⟩
  | 88 => ⟨S50000x256, .f32⟩
  | 89 => ⟨S1x256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S256, .f32⟩
  | 96 => ⟨S1x256, .f32⟩
  | 97 => ⟨S256, .f32⟩
  | 98 => ⟨S_, .f32⟩
  | 99 => ⟨S256, .f32⟩
  | 100 => ⟨S_, .f32⟩
  | 101 => ⟨S256, .f32⟩
  | 102 => ⟨S256, .f32⟩
  | 103 => ⟨S_, .i32⟩
  | 104 => ⟨S_, .f32⟩
  | 105 => ⟨S256, .f32⟩
  | 106 => ⟨S1x256, .f32⟩
  | 107 => ⟨S_, .f32⟩
  | 108 => ⟨S1x256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S_, .f32⟩
  | 115 => ⟨S_, .f32⟩
  | 116 => ⟨S_, .f32⟩
  | 117 => ⟨S256, .f32⟩
  | 118 => ⟨S256, .f32⟩
  | 119 => ⟨S256, .f32⟩
  | 120 => ⟨S_, .f32⟩
  | 121 => ⟨S_, .i1⟩
  | 122 => ⟨S_, .f32⟩
  | 123 => ⟨S_, .f32⟩
  | 124 => ⟨S256, .f32⟩
  | 125 => ⟨S256, .f32⟩
  | 126 => ⟨S1x256, .f32⟩
  | 127 => ⟨S50000x256, .f32⟩
  | _ => ⟨S50000x256, .f32⟩

abbrev hbmTy0_1 (i : Nat) : BufTy := match i % 128 with
  | 0 => ⟨S50000x256, .f32⟩
  | 1 => ⟨S_, .f32⟩
  | 2 => ⟨S256, .f32⟩
  | 3 => ⟨S256, .f32⟩
  | 4 => ⟨S256, .f32⟩
  | 5 => ⟨S1x256, .f32⟩
  | 6 => ⟨S50000x256, .f32⟩
  | 7 => ⟨S50000x256, .f32⟩
  | 8 => ⟨S1x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S_, .f32⟩
  | 26 => ⟨S50000x256, .f32⟩
  | 27 => ⟨S800000x1, .i32⟩
  | 28 => ⟨S50000x256, .f32⟩
  | 29 => ⟨S50000x256, .f32⟩
  | 30 => ⟨S1x256x256, .f32⟩
  | 31 => ⟨S256x256, .f32⟩
  | 32 => ⟨S50000x256, .f32⟩
  | 33 => ⟨S1x256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S256, .f32⟩
  | 40 => ⟨S1x256, .f32⟩
  | 41 => ⟨S256, .f32⟩
  | 42 => ⟨S_, .f32⟩
  | 43 => ⟨S256, .f32⟩
  | 44 => ⟨S_, .f32⟩
  | 45 => ⟨S256, .f32⟩
  | 46 => ⟨S256, .f32⟩
  | 47 => ⟨S_, .i32⟩
  | 48 => ⟨S_, .f32⟩
  | 49 => ⟨S256, .f32⟩
  | 50 => ⟨S1x256, .f32⟩
  | 51 => ⟨S_, .f32⟩
  | 52 => ⟨S1x256, .f32⟩
  | 53 => ⟨S1x256, .f32⟩
  | 54 => ⟨S50000x256, .f32⟩
  | 55 => ⟨S50000x256, .f32⟩
  | 56 => ⟨S50000x256, .f32⟩
  | 57 => ⟨S_, .f32⟩
  | 58 => ⟨S_, .f32⟩
  | 59 => ⟨S_, .f32⟩
  | 60 => ⟨S_, .f32⟩
  | 61 => ⟨S256, .f32⟩
  | 62 => ⟨S256, .f32⟩
  | 63 => ⟨S256, .f32⟩
  | 64 => ⟨S_, .f32⟩
  | 65 => ⟨S_, .i1⟩
  | 66 => ⟨S_, .f32⟩
  | 67 => ⟨S_, .f32⟩
  | 68 => ⟨S256, .f32⟩
  | 69 => ⟨S256, .f32⟩
  | 70 => ⟨S1x256, .f32⟩
  | 71 => ⟨S50000x256, .f32⟩
  | 72 => ⟨S50000x256, .f32⟩
  | 73 => ⟨S_, .f32⟩
  | 74 => ⟨S256, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S1x256x256, .f32⟩
  | 87 => ⟨S256x256, .f32⟩
  | 88 => ⟨S50000x256, .f32⟩
  | 89 => ⟨S1x256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S256, .f32⟩
  | 96 => ⟨S1x256, .f32⟩
  | 97 => ⟨S256, .f32⟩
  | 98 => ⟨S_, .f32⟩
  | 99 => ⟨S256, .f32⟩
  | 100 => ⟨S_, .f32⟩
  | 101 => ⟨S256, .f32⟩
  | 102 => ⟨S256, .f32⟩
  | 103 => ⟨S_, .i32⟩
  | 104 => ⟨S_, .f32⟩
  | 105 => ⟨S256, .f32⟩
  | 106 => ⟨S1x256, .f32⟩
  | 107 => ⟨S_, .f32⟩
  | 108 => ⟨S1x256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S_, .f32⟩
  | 115 => ⟨S_, .f32⟩
  | 116 => ⟨S_, .f32⟩
  | 117 => ⟨S256, .f32⟩
  | 118 => ⟨S256, .f32⟩
  | 119 => ⟨S256, .f32⟩
  | 120 => ⟨S_, .f32⟩
  | 121 => ⟨S_, .i1⟩
  | 122 => ⟨S_, .f32⟩
  | 123 => ⟨S_, .f32⟩
  | 124 => ⟨S256, .f32⟩
  | 125 => ⟨S256, .f32⟩
  | 126 => ⟨S1x256, .f32⟩
  | 127 => ⟨S50000x256, .f32⟩
  | _ => ⟨S50000x256, .f32⟩

abbrev hbmTy0_2 (i : Nat) : BufTy := match i % 128 with
  | 0 => ⟨S50000x256, .f32⟩
  | 1 => ⟨S_, .f32⟩
  | 2 => ⟨S256, .f32⟩
  | 3 => ⟨S256, .f32⟩
  | 4 => ⟨S256, .f32⟩
  | 5 => ⟨S1x256, .f32⟩
  | 6 => ⟨S50000x256, .f32⟩
  | 7 => ⟨S50000x256, .f32⟩
  | 8 => ⟨S1x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S_, .f32⟩
  | 26 => ⟨S50000x256, .f32⟩
  | 27 => ⟨S800000x1, .i32⟩
  | 28 => ⟨S50000x256, .f32⟩
  | 29 => ⟨S50000x256, .f32⟩
  | 30 => ⟨S1x256x256, .f32⟩
  | 31 => ⟨S256x256, .f32⟩
  | 32 => ⟨S50000x256, .f32⟩
  | 33 => ⟨S1x256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S256, .f32⟩
  | 40 => ⟨S1x256, .f32⟩
  | 41 => ⟨S256, .f32⟩
  | 42 => ⟨S_, .f32⟩
  | 43 => ⟨S256, .f32⟩
  | 44 => ⟨S_, .f32⟩
  | 45 => ⟨S256, .f32⟩
  | 46 => ⟨S256, .f32⟩
  | 47 => ⟨S_, .i32⟩
  | 48 => ⟨S_, .f32⟩
  | 49 => ⟨S256, .f32⟩
  | 50 => ⟨S1x256, .f32⟩
  | 51 => ⟨S_, .f32⟩
  | 52 => ⟨S1x256, .f32⟩
  | 53 => ⟨S1x256, .f32⟩
  | 54 => ⟨S50000x256, .f32⟩
  | 55 => ⟨S50000x256, .f32⟩
  | 56 => ⟨S50000x256, .f32⟩
  | 57 => ⟨S_, .f32⟩
  | 58 => ⟨S_, .f32⟩
  | 59 => ⟨S_, .f32⟩
  | 60 => ⟨S_, .f32⟩
  | 61 => ⟨S256, .f32⟩
  | 62 => ⟨S256, .f32⟩
  | 63 => ⟨S256, .f32⟩
  | 64 => ⟨S_, .f32⟩
  | 65 => ⟨S_, .i1⟩
  | 66 => ⟨S_, .f32⟩
  | 67 => ⟨S_, .f32⟩
  | 68 => ⟨S256, .f32⟩
  | 69 => ⟨S256, .f32⟩
  | 70 => ⟨S1x256, .f32⟩
  | 71 => ⟨S50000x256, .f32⟩
  | 72 => ⟨S50000x256, .f32⟩
  | 73 => ⟨S_, .f32⟩
  | 74 => ⟨S256, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S1x256x256, .f32⟩
  | 87 => ⟨S256x256, .f32⟩
  | 88 => ⟨S50000x256, .f32⟩
  | 89 => ⟨S1x256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S256, .f32⟩
  | 96 => ⟨S1x256, .f32⟩
  | 97 => ⟨S256, .f32⟩
  | 98 => ⟨S_, .f32⟩
  | 99 => ⟨S256, .f32⟩
  | 100 => ⟨S_, .f32⟩
  | 101 => ⟨S256, .f32⟩
  | 102 => ⟨S256, .f32⟩
  | 103 => ⟨S_, .i32⟩
  | 104 => ⟨S_, .f32⟩
  | 105 => ⟨S256, .f32⟩
  | 106 => ⟨S1x256, .f32⟩
  | 107 => ⟨S_, .f32⟩
  | 108 => ⟨S1x256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S_, .f32⟩
  | 115 => ⟨S_, .f32⟩
  | 116 => ⟨S_, .f32⟩
  | 117 => ⟨S256, .f32⟩
  | 118 => ⟨S256, .f32⟩
  | 119 => ⟨S256, .f32⟩
  | 120 => ⟨S_, .f32⟩
  | 121 => ⟨S_, .i1⟩
  | 122 => ⟨S_, .f32⟩
  | 123 => ⟨S_, .f32⟩
  | 124 => ⟨S256, .f32⟩
  | 125 => ⟨S256, .f32⟩
  | 126 => ⟨S1x256, .f32⟩
  | 127 => ⟨S50000x256, .f32⟩
  | _ => ⟨S50000x256, .f32⟩

abbrev hbmTy0_3 (i : Nat) : BufTy := match i % 128 with
  | 0 => ⟨S50000x256, .f32⟩
  | 1 => ⟨S_, .f32⟩
  | 2 => ⟨S256, .f32⟩
  | 3 => ⟨S256, .f32⟩
  | 4 => ⟨S256, .f32⟩
  | 5 => ⟨S1x256, .f32⟩
  | 6 => ⟨S50000x256, .f32⟩
  | 7 => ⟨S50000x256, .f32⟩
  | 8 => ⟨S1x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S_, .f32⟩
  | 26 => ⟨S50000x256, .f32⟩
  | 27 => ⟨S800000x1, .i32⟩
  | 28 => ⟨S50000x256, .f32⟩
  | 29 => ⟨S50000x256, .f32⟩
  | 30 => ⟨S1x256x256, .f32⟩
  | 31 => ⟨S256x256, .f32⟩
  | 32 => ⟨S50000x256, .f32⟩
  | 33 => ⟨S1x256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S256, .f32⟩
  | 40 => ⟨S1x256, .f32⟩
  | 41 => ⟨S256, .f32⟩
  | 42 => ⟨S_, .f32⟩
  | 43 => ⟨S256, .f32⟩
  | 44 => ⟨S_, .f32⟩
  | 45 => ⟨S256, .f32⟩
  | 46 => ⟨S256, .f32⟩
  | 47 => ⟨S_, .i32⟩
  | 48 => ⟨S_, .f32⟩
  | 49 => ⟨S256, .f32⟩
  | 50 => ⟨S1x256, .f32⟩
  | 51 => ⟨S_, .f32⟩
  | 52 => ⟨S1x256, .f32⟩
  | 53 => ⟨S1x256, .f32⟩
  | 54 => ⟨S50000x256, .f32⟩
  | 55 => ⟨S50000x256, .f32⟩
  | 56 => ⟨S50000x256, .f32⟩
  | 57 => ⟨S_, .f32⟩
  | 58 => ⟨S_, .f32⟩
  | 59 => ⟨S_, .f32⟩
  | 60 => ⟨S_, .f32⟩
  | 61 => ⟨S256, .f32⟩
  | 62 => ⟨S256, .f32⟩
  | 63 => ⟨S256, .f32⟩
  | 64 => ⟨S_, .f32⟩
  | 65 => ⟨S_, .i1⟩
  | 66 => ⟨S_, .f32⟩
  | 67 => ⟨S_, .f32⟩
  | 68 => ⟨S256, .f32⟩
  | 69 => ⟨S256, .f32⟩
  | 70 => ⟨S1x256, .f32⟩
  | 71 => ⟨S50000x256, .f32⟩
  | 72 => ⟨S50000x256, .f32⟩
  | 73 => ⟨S_, .f32⟩
  | 74 => ⟨S256, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S1x256x256, .f32⟩
  | 87 => ⟨S256x256, .f32⟩
  | 88 => ⟨S50000x256, .f32⟩
  | 89 => ⟨S1x256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S256, .f32⟩
  | 96 => ⟨S1x256, .f32⟩
  | 97 => ⟨S256, .f32⟩
  | 98 => ⟨S_, .f32⟩
  | 99 => ⟨S256, .f32⟩
  | 100 => ⟨S_, .f32⟩
  | 101 => ⟨S256, .f32⟩
  | 102 => ⟨S256, .f32⟩
  | 103 => ⟨S_, .i32⟩
  | 104 => ⟨S_, .f32⟩
  | 105 => ⟨S256, .f32⟩
  | 106 => ⟨S1x256, .f32⟩
  | 107 => ⟨S_, .f32⟩
  | 108 => ⟨S1x256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S_, .f32⟩
  | 115 => ⟨S_, .f32⟩
  | 116 => ⟨S_, .f32⟩
  | 117 => ⟨S256, .f32⟩
  | 118 => ⟨S256, .f32⟩
  | 119 => ⟨S256, .f32⟩
  | 120 => ⟨S_, .f32⟩
  | 121 => ⟨S_, .i1⟩
  | 122 => ⟨S_, .f32⟩
  | 123 => ⟨S_, .f32⟩
  | 124 => ⟨S256, .f32⟩
  | 125 => ⟨S256, .f32⟩
  | 126 => ⟨S1x256, .f32⟩
  | 127 => ⟨S50000x256, .f32⟩
  | _ => ⟨S50000x256, .f32⟩

abbrev hbmTy0_4 (i : Nat) : BufTy := match i % 128 with
  | 0 => ⟨S50000x256, .f32⟩
  | 1 => ⟨S_, .f32⟩
  | 2 => ⟨S256, .f32⟩
  | 3 => ⟨S256, .f32⟩
  | 4 => ⟨S256, .f32⟩
  | 5 => ⟨S1x256, .f32⟩
  | 6 => ⟨S50000x256, .f32⟩
  | 7 => ⟨S50000x256, .f32⟩
  | 8 => ⟨S1x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S_, .f32⟩
  | 26 => ⟨S50000x256, .f32⟩
  | 27 => ⟨S800000x1, .i32⟩
  | 28 => ⟨S50000x256, .f32⟩
  | 29 => ⟨S50000x256, .f32⟩
  | 30 => ⟨S1x256x256, .f32⟩
  | 31 => ⟨S256x256, .f32⟩
  | 32 => ⟨S50000x256, .f32⟩
  | 33 => ⟨S1x256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S256, .f32⟩
  | 40 => ⟨S1x256, .f32⟩
  | 41 => ⟨S256, .f32⟩
  | 42 => ⟨S_, .f32⟩
  | 43 => ⟨S256, .f32⟩
  | 44 => ⟨S_, .f32⟩
  | 45 => ⟨S256, .f32⟩
  | 46 => ⟨S256, .f32⟩
  | 47 => ⟨S_, .i32⟩
  | 48 => ⟨S_, .f32⟩
  | 49 => ⟨S256, .f32⟩
  | 50 => ⟨S1x256, .f32⟩
  | 51 => ⟨S_, .f32⟩
  | 52 => ⟨S1x256, .f32⟩
  | 53 => ⟨S1x256, .f32⟩
  | 54 => ⟨S50000x256, .f32⟩
  | 55 => ⟨S50000x256, .f32⟩
  | 56 => ⟨S50000x256, .f32⟩
  | 57 => ⟨S_, .f32⟩
  | 58 => ⟨S_, .f32⟩
  | 59 => ⟨S_, .f32⟩
  | 60 => ⟨S_, .f32⟩
  | 61 => ⟨S256, .f32⟩
  | 62 => ⟨S256, .f32⟩
  | 63 => ⟨S256, .f32⟩
  | 64 => ⟨S_, .f32⟩
  | 65 => ⟨S_, .i1⟩
  | 66 => ⟨S_, .f32⟩
  | 67 => ⟨S_, .f32⟩
  | 68 => ⟨S256, .f32⟩
  | 69 => ⟨S256, .f32⟩
  | 70 => ⟨S1x256, .f32⟩
  | 71 => ⟨S50000x256, .f32⟩
  | 72 => ⟨S50000x256, .f32⟩
  | 73 => ⟨S_, .f32⟩
  | 74 => ⟨S256, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S1x256x256, .f32⟩
  | 87 => ⟨S256x256, .f32⟩
  | 88 => ⟨S50000x256, .f32⟩
  | 89 => ⟨S1x256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S256, .f32⟩
  | 96 => ⟨S1x256, .f32⟩
  | 97 => ⟨S256, .f32⟩
  | 98 => ⟨S_, .f32⟩
  | 99 => ⟨S256, .f32⟩
  | 100 => ⟨S_, .f32⟩
  | 101 => ⟨S256, .f32⟩
  | 102 => ⟨S256, .f32⟩
  | 103 => ⟨S_, .i32⟩
  | 104 => ⟨S_, .f32⟩
  | 105 => ⟨S256, .f32⟩
  | 106 => ⟨S1x256, .f32⟩
  | 107 => ⟨S_, .f32⟩
  | 108 => ⟨S1x256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S_, .f32⟩
  | 115 => ⟨S_, .f32⟩
  | 116 => ⟨S_, .f32⟩
  | 117 => ⟨S256, .f32⟩
  | 118 => ⟨S256, .f32⟩
  | 119 => ⟨S256, .f32⟩
  | 120 => ⟨S_, .f32⟩
  | 121 => ⟨S_, .i1⟩
  | 122 => ⟨S_, .f32⟩
  | 123 => ⟨S_, .f32⟩
  | 124 => ⟨S256, .f32⟩
  | 125 => ⟨S256, .f32⟩
  | 126 => ⟨S1x256, .f32⟩
  | 127 => ⟨S50000x256, .f32⟩
  | _ => ⟨S50000x256, .f32⟩

abbrev hbmTy0_5 (i : Nat) : BufTy := match i % 128 with
  | 0 => ⟨S50000x256, .f32⟩
  | 1 => ⟨S_, .f32⟩
  | 2 => ⟨S256, .f32⟩
  | 3 => ⟨S256, .f32⟩
  | 4 => ⟨S256, .f32⟩
  | 5 => ⟨S1x256, .f32⟩
  | 6 => ⟨S50000x256, .f32⟩
  | 7 => ⟨S50000x256, .f32⟩
  | 8 => ⟨S1x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S1280, .f32⟩
  | 17 => ⟨S1x1280, .f32⟩
  | 18 => ⟨S1x10, .f32⟩
  | 19 => ⟨S1x10, .f32⟩
  | 20 => ⟨S1x10, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_5 : Ref sig .tc := ⟨.hbm, 98, rfl⟩
abbrev main_v58 : Ref sig .tc := ⟨.hbm, 99, rfl⟩
abbrev main_cst_6 : Ref sig .tc := ⟨.hbm, 100, rfl⟩
abbrev main_v59 : Ref sig .tc := ⟨.hbm, 101, rfl⟩
abbrev main_v60 : Ref sig .tc := ⟨.hbm, 102, rfl⟩
abbrev main_c_7 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_cst_0 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_v7 : Ref sig .tc := ⟨.hbm, 113, rfl⟩
abbrev main_call1_cst_1 : Ref sig .tc := ⟨.hbm, 114, rfl⟩
abbrev main_call1_v8 : Ref sig .tc := ⟨.hbm, 115, rfl⟩
abbrev main_call1_cst_2 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_cst_3 : Ref sig .tc := ⟨.hbm, 120, rfl⟩
abbrev main_call1_v12 : Ref sig .tc := ⟨.hbm, 121, rfl⟩
abbrev main_call1_cst_4 : Ref sig .tc := ⟨.hbm, 122, rfl⟩
abbrev main_call1_call0_v0 : Ref sig .tc := ⟨.hbm, 123, rfl⟩
abbrev main_call1_call0_v1 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_cst_8 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_9 : Ref sig .tc := ⟨.hbm, 142, rfl⟩
abbrev main_v77 : Ref sig .tc := ⟨.hbm, 143, rfl⟩
abbrev main_c_10 : Ref sig .tc := ⟨.hbm, 144, rfl⟩
abbrev main_v78 : Ref sig .tc := ⟨.hbm, 145, rfl⟩
abbrev main_v79 : Ref sig .tc := ⟨.hbm, 146, rfl⟩
abbrev main_c_11 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_cst_12 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_cst_13 : Ref sig .tc := ⟨.hbm, 170, rfl⟩
abbrev main_v101 : Ref sig .tc := ⟨.hbm, 171, rfl⟩
abbrev main_cst_14 : Ref sig .tc := ⟨.hbm, 172, rfl⟩
abbrev main_v102 : Ref sig .tc := ⟨.hbm, 173, rfl⟩
abbrev main_v103 : Ref sig .tc := ⟨.hbm, 174, rfl⟩
abbrev main_c_15 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_cst_0 : Ref sig .tc := ⟨.hbm, 179, rfl⟩
abbrev main_call2_v2 : Ref sig .tc := ⟨.hbm, 180, rfl⟩
abbrev main_call2_v3 : Ref sig .tc := ⟨.hbm, 181, rfl⟩
abbrev main_call2_v4 : Ref sig .tc := ⟨.hbm, 182, rfl⟩
abbrev main_call2_v5 : Ref sig .tc := ⟨.hbm, 183, rfl⟩
abbrev main_call2_v6 : Ref sig .tc := ⟨.hbm, 184, rfl⟩
abbrev main_call2_v7 : Ref sig .tc := ⟨.hbm, 185, rfl⟩
abbrev main_call2_cst_1 : Ref sig .tc := ⟨.hbm, 186, rfl⟩
abbrev main_call2_v8 : Ref sig .tc := ⟨.hbm, 187, rfl⟩
abbrev main_call2_cst_2 : Ref sig .tc := ⟨.hbm, 188, rfl⟩
abbrev main_call2_v9 : Ref sig .tc := ⟨.hbm, 189, rfl⟩
abbrev main_call2_v10 : Ref sig .tc := ⟨.hbm, 190, rfl⟩
abbrev main_call2_v11 : Ref sig .tc := ⟨.hbm, 191, rfl⟩
abbrev main_call2_cst_3 : Ref sig .tc := ⟨.hbm, 192, rfl⟩
abbrev main_call2_v12 : Ref sig .tc := ⟨.hbm, 193, rfl⟩
abbrev main_call2_cst_4 : Ref sig .tc := ⟨.hbm, 194, rfl⟩
abbrev main_call2_call0_v0 : Ref sig .tc := ⟨.hbm, 195, rfl⟩
abbrev main_call2_call0_v1 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_16 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_cst_17 : Ref sig .tc := ⟨.hbm, 226, rfl⟩
abbrev main_v132 : Ref sig .tc := ⟨.hbm, 227, rfl⟩
abbrev main_cst_18 : Ref sig .tc := ⟨.hbm, 228, rfl⟩
abbrev main_v133 : Ref sig .tc := ⟨.hbm, 229, rfl⟩
abbrev main_v134 : Ref sig .tc := ⟨.hbm, 230, rfl⟩
abbrev main_c_19 : Ref sig .tc := ⟨.hbm, 231, rfl⟩
abbrev main_call3_cst : Ref sig .tc := ⟨.hbm, 232, rfl⟩
abbrev main_call3_v0 : Ref sig .tc := ⟨.hbm, 233, rfl⟩
abbrev main_call3_v1 : Ref sig .tc := ⟨.hbm, 234, rfl⟩
abbrev main_call3_cst_0 : Ref sig .tc := ⟨.hbm, 235, rfl⟩
abbrev main_call3_v2 : Ref sig .tc := ⟨.hbm, 236, rfl⟩
abbrev main_call3_v3 : Ref sig .tc := ⟨.hbm, 237, rfl⟩
abbrev main_call3_v4 : Ref sig .tc := ⟨.hbm, 238, rfl⟩
abbrev main_call3_v5 : Ref sig .tc := ⟨.hbm, 239, rfl⟩
abbrev main_call3_v6 : Ref sig .tc := ⟨.hbm, 240, rfl⟩
abbrev main_call3_v7 : Ref sig .tc := ⟨.hbm, 241, rfl⟩
abbrev main_call3_cst_1 : Ref sig .tc := ⟨.hbm, 242, rfl⟩
abbrev main_call3_v8 : Ref sig .tc := ⟨.hbm, 243, rfl⟩
abbrev main_call3_cst_2 : Ref sig .tc := ⟨.hbm, 244, rfl⟩
abbrev main_call3_v9 : Ref sig .tc := ⟨.hbm, 245, rfl⟩
abbrev main_call3_v10 : Ref sig .tc := ⟨.hbm, 246, rfl⟩
abbrev main_call3_v11 : Ref sig .tc := ⟨.hbm, 247, rfl⟩
abbrev main_call3_cst_3 : Ref sig .tc := ⟨.hbm, 248, rfl⟩
abbrev main_call3_v12 : Ref sig .tc := ⟨.hbm, 249, rfl⟩
abbrev main_call3_cst_4 : Ref sig .tc := ⟨.hbm, 250, rfl⟩
abbrev main_call3_call0_v0 : Ref sig .tc := ⟨.hbm, 251, rfl⟩
abbrev main_call3_call0_v1 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_cst_20 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_cst_21 : Ref sig .tc := ⟨.hbm, 270, rfl⟩
abbrev main_v151 : Ref sig .tc := ⟨.hbm, 271, rfl⟩
abbrev main_c_22 : Ref sig .tc := ⟨.hbm, 272, rfl⟩
abbrev main_v152 : Ref sig .tc := ⟨.hbm, 273, rfl⟩
abbrev main_v153 : Ref sig .tc := ⟨.hbm, 274, rfl⟩
abbrev main_c_23 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_cst_24 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_v168 : Ref sig .tc := ⟨.hbm, 291, rfl⟩
abbrev main_v169 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_v174 : Ref sig .tc := ⟨.hbm, 297, rfl⟩
abbrev main_cst_25 : Ref sig .tc := ⟨.hbm, 298, rfl⟩
abbrev main_v175 : Ref sig .tc := ⟨.hbm, 299, rfl⟩
abbrev main_cst_26 : Ref sig .tc := ⟨.hbm, 300, rfl⟩
abbrev main_v176 : Ref sig .tc := ⟨.hbm, 301, rfl⟩
abbrev main_v177 : Ref sig .tc := ⟨.hbm, 302, rfl⟩
abbrev main_c_27 : Ref sig .tc := ⟨.hbm, 303, rfl⟩
abbrev main_call4_cst : Ref sig .tc := ⟨.hbm, 304, rfl⟩
abbrev main_call4_v0 : Ref sig .tc := ⟨.hbm, 305, rfl⟩
abbrev main_call4_v1 : Ref sig .tc := ⟨.hbm, 306, rfl⟩
abbrev main_call4_cst_0 : Ref sig .tc := ⟨.hbm, 307, rfl⟩
abbrev main_call4_v2 : Ref sig .tc := ⟨.hbm, 308, rfl⟩
abbrev main_call4_v3 : Ref sig .tc := ⟨.hbm, 309, rfl⟩
abbrev main_call4_v4 : Ref sig .tc := ⟨.hbm, 310, rfl⟩
abbrev main_call4_v5 : Ref sig .tc := ⟨.hbm, 311, rfl⟩
abbrev main_call4_v6 : Ref sig .tc := ⟨.hbm, 312, rfl⟩
abbrev main_call4_v7 : Ref sig .tc := ⟨.hbm, 313, rfl⟩
abbrev main_call4_cst_1 : Ref sig .tc := ⟨.hbm, 314, rfl⟩
abbrev main_call4_v8 : Ref sig .tc := ⟨.hbm, 315, rfl⟩
abbrev main_call4_cst_2 : Ref sig .tc := ⟨.hbm, 316, rfl⟩
abbrev main_call4_v9 : Ref sig .tc := ⟨.hbm, 317, rfl⟩
abbrev main_call4_v10 : Ref sig .tc := ⟨.hbm, 318, rfl⟩
abbrev main_call4_v11 : Ref sig .tc := ⟨.hbm, 319, rfl⟩
abbrev main_call4_cst_3 : Ref sig .tc := ⟨.hbm, 320, rfl⟩
abbrev main_call4_v12 : Ref sig .tc := ⟨.hbm, 321, rfl⟩
abbrev main_call4_cst_4 : Ref sig .tc := ⟨.hbm, 322, rfl⟩
abbrev main_call4_call0_v0 : Ref sig .tc := ⟨.hbm, 323, rfl⟩
abbrev main_call4_call0_v1 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_v181 : Ref sig .tc := ⟨.hbm, 328, rfl⟩
abbrev main_cst_28 : Ref sig .tc := ⟨.hbm, 329, rfl⟩
abbrev main_v182 : Ref sig .tc := ⟨.hbm, 330, rfl⟩
abbrev main_v183 : Ref sig .tc := ⟨.hbm, 331, rfl⟩
abbrev main_v184 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_v192 : Ref sig .tc := ⟨.hbm, 340, rfl⟩
abbrev main_v193 : Ref sig .tc := ⟨.hbm, 341, rfl⟩
abbrev main_v194 : Ref sig .tc := ⟨.hbm, 342, rfl⟩
abbrev main_v195 : Ref sig .tc := ⟨.hbm, 343, rfl⟩
abbrev main_v196 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_v203 : Ref sig .tc := ⟨.hbm, 351, rfl⟩
abbrev main_v204 : Ref sig .tc := ⟨.hbm, 352, rfl⟩
abbrev main_v205 : Ref sig .tc := ⟨.hbm, 353, rfl⟩
abbrev main_cst_29 : Ref sig .tc := ⟨.hbm, 354, rfl⟩
abbrev main_v206 : Ref sig .tc := ⟨.hbm, 355, rfl⟩
abbrev main_cst_30 : Ref sig .tc := ⟨.hbm, 356, rfl⟩
abbrev main_v207 : Ref sig .tc := ⟨.hbm, 357, rfl⟩
abbrev main_v208 : Ref sig .tc := ⟨.hbm, 358, rfl⟩
abbrev main_c_31 : Ref sig .tc := ⟨.hbm, 359, rfl⟩
abbrev main_call5_cst : Ref sig .tc := ⟨.hbm, 360, rfl⟩
abbrev main_call5_v0 : Ref sig .tc := ⟨.hbm, 361, rfl⟩
abbrev main_call5_v1 : Ref sig .tc := ⟨.hbm, 362, rfl⟩
abbrev main_call5_cst_0 : Ref sig .tc := ⟨.hbm, 363, rfl⟩
abbrev main_call5_v2 : Ref sig .tc := ⟨.hbm, 364, rfl⟩
abbrev main_call5_v3 : Ref sig .tc := ⟨.hbm, 365, rfl⟩
abbrev main_call5_v4 : Ref sig .tc := ⟨.hbm, 366, rfl⟩
abbrev main_call5_v5 : Ref sig .tc := ⟨.hbm, 367, rfl⟩
abbrev main_call5_v6 : Ref sig .tc := ⟨.hbm, 368, rfl⟩
abbrev main_call5_v7 : Ref sig .tc := ⟨.hbm, 369, rfl⟩
abbrev main_call5_cst_1 : Ref sig .tc := ⟨.hbm, 370, rfl⟩
abbrev main_call5_v8 : Ref sig .tc := ⟨.hbm, 371, rfl⟩
abbrev main_call5_cst_2 : Ref sig .tc := ⟨.hbm, 372, rfl⟩
abbrev main_call5_v9 : Ref sig .tc := ⟨.hbm, 373, rfl⟩
abbrev main_call5_v10 : Ref sig .tc := ⟨.hbm, 374, rfl⟩
abbrev main_call5_v11 : Ref sig .tc := ⟨.hbm, 375, rfl⟩
abbrev main_call5_cst_3 : Ref sig .tc := ⟨.hbm, 376, rfl⟩
abbrev main_call5_v12 : Ref sig .tc := ⟨.hbm, 377, rfl⟩
abbrev main_call5_cst_4 : Ref sig .tc := ⟨.hbm, 378, rfl⟩
abbrev main_call5_call0_v0 : Ref sig .tc := ⟨.hbm, 379, rfl⟩
abbrev main_call5_call0_v1 : Ref sig .tc := ⟨.hbm, 380, rfl⟩
abbrev main_v209 : Ref sig .tc := ⟨.hbm, 381, rfl⟩
abbrev main_v210 : Ref sig .tc := ⟨.hbm, 382, rfl⟩
abbrev main_v211 : Ref sig .tc := ⟨.hbm, 383, rfl⟩
abbrev main_v212 : Ref sig .tc := ⟨.hbm, 384, rfl⟩
abbrev main_cst_32 : Ref sig .tc := ⟨.hbm, 385, rfl⟩
abbrev main_v213 : Ref sig .tc := ⟨.hbm, 386, rfl⟩
abbrev main_v214 : Ref sig .tc := ⟨.hbm, 387, rfl⟩
abbrev main_v215 : Ref sig .tc := ⟨.hbm, 388, rfl⟩
abbrev main_v216 : Ref sig .tc := ⟨.hbm, 389, rfl⟩
abbrev main_v217 : Ref sig .tc := ⟨.hbm, 390, rfl⟩
abbrev main_v218 : Ref sig .tc := ⟨.hbm, 391, rfl⟩
abbrev main_v219 : Ref sig .tc := ⟨.hbm, 392, rfl⟩
abbrev main_v220 : Ref sig .tc := ⟨.hbm, 393, rfl⟩
abbrev main_v221 : Ref sig .tc := ⟨.hbm, 394, rfl⟩
abbrev main_v222 : Ref sig .tc := ⟨.hbm, 395, rfl⟩
abbrev main_v223 : Ref sig .tc := ⟨.hbm, 396, rfl⟩
abbrev main_v224 : Ref sig .tc := ⟨.hbm, 397, rfl⟩
abbrev main_cst_33 : Ref sig .tc := ⟨.hbm, 398, rfl⟩
abbrev main_v225 : Ref sig .tc := ⟨.hbm, 399, rfl⟩
abbrev main_c_34 : Ref sig .tc := ⟨.hbm, 400, rfl⟩
abbrev main_v226 : Ref sig .tc := ⟨.hbm, 401, rfl⟩
abbrev main_v227 : Ref sig .tc := ⟨.hbm, 402, rfl⟩
abbrev main_c_35 : Ref sig .tc := ⟨.hbm, 403, rfl⟩
abbrev main_v228 : Ref sig .tc := ⟨.hbm, 404, rfl⟩
abbrev main_v229 : Ref sig .tc := ⟨.hbm, 405, rfl⟩
abbrev main_v230 : Ref sig .tc := ⟨.hbm, 406, rfl⟩
abbrev main_v231 : Ref sig .tc := ⟨.hbm, 407, rfl⟩
abbrev main_v232 : Ref sig .tc := ⟨.hbm, 408, rfl⟩
abbrev main_cst_36 : Ref sig .tc := ⟨.hbm, 409, rfl⟩
abbrev main_v233 : Ref sig .tc := ⟨.hbm, 410, rfl⟩
abbrev main_v234 : Ref sig .tc := ⟨.hbm, 411, rfl⟩
abbrev main_v235 : Ref sig .tc := ⟨.hbm, 412, rfl⟩
abbrev main_v236 : Ref sig .tc := ⟨.hbm, 413, rfl⟩
abbrev main_v237 : Ref sig .tc := ⟨.hbm, 414, rfl⟩
abbrev main_v238 : Ref sig .tc := ⟨.hbm, 415, rfl⟩
abbrev main_v239 : Ref sig .tc := ⟨.hbm, 416, rfl⟩
abbrev main_v240 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_v244 : Ref sig .tc := ⟨.hbm, 421, rfl⟩
abbrev main_v245 : Ref sig .tc := ⟨.hbm, 422, rfl⟩
abbrev main_v246 : Ref sig .tc := ⟨.hbm, 423, rfl⟩
abbrev main_v247 : Ref sig .tc := ⟨.hbm, 424, rfl⟩
abbrev main_v248 : Ref sig .tc := ⟨.hbm, 425, rfl⟩
abbrev main_cst_37 : Ref sig .tc := ⟨.hbm, 426, rfl⟩
abbrev main_v249 : Ref sig .tc := ⟨.hbm, 427, rfl⟩
abbrev main_cst_38 : Ref sig .tc := ⟨.hbm, 428, rfl⟩
abbrev main_v250 : Ref sig .tc := ⟨.hbm, 429, rfl⟩
abbrev main_v251 : Ref sig .tc := ⟨.hbm, 430, rfl⟩
abbrev main_c_39 : Ref sig .tc := ⟨.hbm, 431, rfl⟩
abbrev main_call6_cst : Ref sig .tc := ⟨.hbm, 432, rfl⟩
abbrev main_call6_v0 : Ref sig .tc := ⟨.hbm, 433, rfl⟩
abbrev main_call6_v1 : Ref sig .tc := ⟨.hbm, 434, rfl⟩
abbrev main_call6_cst_0 : Ref sig .tc := ⟨.hbm, 435, rfl⟩
abbrev main_call6_v2 : Ref sig .tc := ⟨.hbm, 436, rfl⟩
abbrev main_call6_v3 : Ref sig .tc := ⟨.hbm, 437, rfl⟩
abbrev main_call6_v4 : Ref sig .tc := ⟨.hbm, 438, rfl⟩
abbrev main_call6_v5 : Ref sig .tc := ⟨.hbm, 439, rfl⟩
abbrev main_call6_v6 : Ref sig .tc := ⟨.hbm, 440, rfl⟩
abbrev main_call6_v7 : Ref sig .tc := ⟨.hbm, 441, rfl⟩
abbrev main_call6_cst_1 : Ref sig .tc := ⟨.hbm, 442, rfl⟩
abbrev main_call6_v8 : Ref sig .tc := ⟨.hbm, 443, rfl⟩
abbrev main_call6_cst_2 : Ref sig .tc := ⟨.hbm, 444, rfl⟩
abbrev main_call6_v9 : Ref sig .tc := ⟨.hbm, 445, rfl⟩
abbrev main_call6_v10 : Ref sig .tc := ⟨.hbm, 446, rfl⟩
abbrev main_call6_v11 : Ref sig .tc := ⟨.hbm, 447, rfl⟩
abbrev main_call6_cst_3 : Ref sig .tc := ⟨.hbm, 448, rfl⟩
abbrev main_call6_v12 : Ref sig .tc := ⟨.hbm, 449, rfl⟩
abbrev main_call6_cst_4 : Ref sig .tc := ⟨.hbm, 450, rfl⟩
abbrev main_call6_call0_v0 : Ref sig .tc := ⟨.hbm, 451, rfl⟩
abbrev main_call6_call0_v1 : Ref sig .tc := ⟨.hbm, 452, rfl⟩
abbrev main_v252 : Ref sig .tc := ⟨.hbm, 453, rfl⟩
abbrev main_v253 : Ref sig .tc := ⟨.hbm, 454, rfl⟩
abbrev main_v254 : Ref sig .tc := ⟨.hbm, 455, rfl⟩
abbrev main_v255 : Ref sig .tc := ⟨.hbm, 456, rfl⟩
abbrev main_cst_40 : Ref sig .tc := ⟨.hbm, 457, rfl⟩
abbrev main_v256 : Ref sig .tc := ⟨.hbm, 458, rfl⟩
abbrev main_v257 : Ref sig .tc := ⟨.hbm, 459, rfl⟩
abbrev main_v258 : Ref sig .tc := ⟨.hbm, 460, rfl⟩
abbrev main_v259 : Ref sig .tc := ⟨.hbm, 461, rfl⟩
abbrev main_v260 : Ref sig .tc := ⟨.hbm, 462, rfl⟩
abbrev main_v261 : Ref sig .tc := ⟨.hbm, 463, rfl⟩
abbrev main_v262 : Ref sig .tc := ⟨.hbm, 464, rfl⟩
abbrev main_v263 : Ref sig .tc := ⟨.hbm, 465, rfl⟩
abbrev main_v264 : Ref sig .tc := ⟨.hbm, 466, rfl⟩
abbrev main_v265 : Ref sig .tc := ⟨.hbm, 467, rfl⟩
abbrev main_v266 : Ref sig .tc := ⟨.hbm, 468, rfl⟩
abbrev main_v267 : Ref sig .tc := ⟨.hbm, 469, rfl⟩
abbrev main_v268 : Ref sig .tc := ⟨.hbm, 470, rfl⟩
abbrev main_v269 : Ref sig .tc := ⟨.hbm, 471, rfl⟩
abbrev main_v270 : Ref sig .tc := ⟨.hbm, 472, rfl⟩
abbrev main_v271 : Ref sig .tc := ⟨.hbm, 473, rfl⟩
abbrev main_v272 : Ref sig .tc := ⟨.hbm, 474, rfl⟩
abbrev main_v273 : Ref sig .tc := ⟨.hbm, 475, rfl⟩
abbrev main_v274 : Ref sig .tc := ⟨.hbm, 476, rfl⟩
abbrev main_v275 : Ref sig .tc := ⟨.hbm, 477, rfl⟩
abbrev main_v276 : Ref sig .tc := ⟨.hbm, 478, rfl⟩
abbrev main_v277 : Ref sig .tc := ⟨.hbm, 479, rfl⟩
abbrev main_v278 : Ref sig .tc := ⟨.hbm, 480, rfl⟩
abbrev main_v279 : Ref sig .tc := ⟨.hbm, 481, rfl⟩
abbrev main_cst_41 : Ref sig .tc := ⟨.hbm, 482, rfl⟩
abbrev main_v280 : Ref sig .tc := ⟨.hbm, 483, rfl⟩
abbrev main_cst_42 : Ref sig .tc := ⟨.hbm, 484, rfl⟩
abbrev main_v281 : Ref sig .tc := ⟨.hbm, 485, rfl⟩
abbrev main_v282 : Ref sig .tc := ⟨.hbm, 486, rfl⟩
abbrev main_c_43 : Ref sig .tc := ⟨.hbm, 487, rfl⟩
abbrev main_call7_cst : Ref sig .tc := ⟨.hbm, 488, rfl⟩
abbrev main_call7_v0 : Ref sig .tc := ⟨.hbm, 489, rfl⟩
abbrev main_call7_v1 : Ref sig .tc := ⟨.hbm, 490, rfl⟩
abbrev main_call7_cst_0 : Ref sig .tc := ⟨.hbm, 491, rfl⟩
abbrev main_call7_v2 : Ref sig .tc := ⟨.hbm, 492, rfl⟩
abbrev main_call7_v3 : Ref sig .tc := ⟨.hbm, 493, rfl⟩
abbrev main_call7_v4 : Ref sig .tc := ⟨.hbm, 494, rfl⟩
abbrev main_call7_v5 : Ref sig .tc := ⟨.hbm, 495, rfl⟩
abbrev main_call7_v6 : Ref sig .tc := ⟨.hbm, 496, rfl⟩
abbrev main_call7_v7 : Ref sig .tc := ⟨.hbm, 497, rfl⟩
abbrev main_call7_cst_1 : Ref sig .tc := ⟨.hbm, 498, rfl⟩
abbrev main_call7_v8 : Ref sig .tc := ⟨.hbm, 499, rfl⟩
abbrev main_call7_cst_2 : Ref sig .tc := ⟨.hbm, 500, rfl⟩
abbrev main_call7_v9 : Ref sig .tc := ⟨.hbm, 501, rfl⟩
abbrev main_call7_v10 : Ref sig .tc := ⟨.hbm, 502, rfl⟩
abbrev main_call7_v11 : Ref sig .tc := ⟨.hbm, 503, rfl⟩
abbrev main_call7_cst_3 : Ref sig .tc := ⟨.hbm, 504, rfl⟩
abbrev main_call7_v12 : Ref sig .tc := ⟨.hbm, 505, rfl⟩
abbrev main_call7_cst_4 : Ref sig .tc := ⟨.hbm, 506, rfl⟩
abbrev main_call7_call0_v0 : Ref sig .tc := ⟨.hbm, 507, rfl⟩
abbrev main_call7_call0_v1 : Ref sig .tc := ⟨.hbm, 508, rfl⟩
abbrev main_v283 : Ref sig .tc := ⟨.hbm, 509, rfl⟩
abbrev main_v284 : Ref sig .tc := ⟨.hbm, 510, rfl⟩
abbrev main_v285 : Ref sig .tc := ⟨.hbm, 511, rfl⟩
abbrev main_v286 : Ref sig .tc := ⟨.hbm, 512, rfl⟩
abbrev main_cst_44 : Ref sig .tc := ⟨.hbm, 513, rfl⟩
abbrev main_v287 : Ref sig .tc := ⟨.hbm, 514, rfl⟩
abbrev main_v288 : Ref sig .tc := ⟨.hbm, 515, rfl⟩
abbrev main_v289 : Ref sig .tc := ⟨.hbm, 516, rfl⟩
abbrev main_v290 : Ref sig .tc := ⟨.hbm, 517, rfl⟩
abbrev main_v291 : Ref sig .tc := ⟨.hbm, 518, rfl⟩
abbrev main_v292 : Ref sig .tc := ⟨.hbm, 519, rfl⟩
abbrev main_v293 : Ref sig .tc := ⟨.hbm, 520, rfl⟩
abbrev main_v294 : Ref sig .tc := ⟨.hbm, 521, rfl⟩
abbrev main_v295 : Ref sig .tc := ⟨.hbm, 522, rfl⟩
abbrev main_v296 : Ref sig .tc := ⟨.hbm, 523, rfl⟩
abbrev main_v297 : Ref sig .tc := ⟨.hbm, 524, rfl⟩
abbrev main_v298 : Ref sig .tc := ⟨.hbm, 525, rfl⟩
abbrev main_cst_45 : Ref sig .tc := ⟨.hbm, 526, rfl⟩
abbrev main_v299 : Ref sig .tc := ⟨.hbm, 527, rfl⟩
abbrev main_c_46 : Ref sig .tc := ⟨.hbm, 528, rfl⟩
abbrev main_v300 : Ref sig .tc := ⟨.hbm, 529, rfl⟩
abbrev main_v301 : Ref sig .tc := ⟨.hbm, 530, rfl⟩
abbrev main_c_47 : Ref sig .tc := ⟨.hbm, 531, rfl⟩
abbrev main_v302 : Ref sig .tc := ⟨.hbm, 532, rfl⟩
abbrev main_v303 : Ref sig .tc := ⟨.hbm, 533, rfl⟩
abbrev main_v304 : Ref sig .tc := ⟨.hbm, 534, rfl⟩
abbrev main_v305 : Ref sig .tc := ⟨.hbm, 535, rfl⟩
abbrev main_v306 : Ref sig .tc := ⟨.hbm, 536, rfl⟩
abbrev main_cst_48 : Ref sig .tc := ⟨.hbm, 537, rfl⟩
abbrev main_v307 : Ref sig .tc := ⟨.hbm, 538, rfl⟩
abbrev main_v308 : Ref sig .tc := ⟨.hbm, 539, rfl⟩
abbrev main_v309 : Ref sig .tc := ⟨.hbm, 540, rfl⟩
abbrev main_v310 : Ref sig .tc := ⟨.hbm, 541, rfl⟩
abbrev main_v311 : Ref sig .tc := ⟨.hbm, 542, rfl⟩
abbrev main_v312 : Ref sig .tc := ⟨.hbm, 543, rfl⟩
abbrev main_v313 : Ref sig .tc := ⟨.hbm, 544, rfl⟩
abbrev main_v314 : Ref sig .tc := ⟨.hbm, 545, rfl⟩
abbrev main_v315 : Ref sig .tc := ⟨.hbm, 546, rfl⟩
abbrev main_v316 : Ref sig .tc := ⟨.hbm, 547, rfl⟩
abbrev main_v317 : Ref sig .tc := ⟨.hbm, 548, rfl⟩
abbrev main_v318 : Ref sig .tc := ⟨.hbm, 549, rfl⟩
abbrev main_v319 : Ref sig .tc := ⟨.hbm, 550, rfl⟩
abbrev main_v320 : Ref sig .tc := ⟨.hbm, 551, rfl⟩
abbrev main_v321 : Ref sig .tc := ⟨.hbm, 552, rfl⟩
abbrev main_v322 : Ref sig .tc := ⟨.hbm, 553, rfl⟩
abbrev main_cst_49 : Ref sig .tc := ⟨.hbm, 554, rfl⟩
abbrev main_v323 : Ref sig .tc := ⟨.hbm, 555, rfl⟩
abbrev main_cst_50 : Ref sig .tc := ⟨.hbm, 556, rfl⟩
abbrev main_v324 : Ref sig .tc := ⟨.hbm, 557, rfl⟩
abbrev main_v325 : Ref sig .tc := ⟨.hbm, 558, rfl⟩
abbrev main_c_51 : Ref sig .tc := ⟨.hbm, 559, rfl⟩
abbrev main_call8_cst : Ref sig .tc := ⟨.hbm, 560, rfl⟩
abbrev main_call8_v0 : Ref sig .tc := ⟨.hbm, 561, rfl⟩
abbrev main_call8_v1 : Ref sig .tc := ⟨.hbm, 562, rfl⟩
abbrev main_call8_cst_0 : Ref sig .tc := ⟨.hbm, 563, rfl⟩
abbrev main_call8_v2 : Ref sig .tc := ⟨.hbm, 564, rfl⟩
abbrev main_call8_v3 : Ref sig .tc := ⟨.hbm, 565, rfl⟩
abbrev main_call8_v4 : Ref sig .tc := ⟨.hbm, 566, rfl⟩
abbrev main_call8_v5 : Ref sig .tc := ⟨.hbm, 567, rfl⟩
abbrev main_call8_v6 : Ref sig .tc := ⟨.hbm, 568, rfl⟩
abbrev main_call8_v7 : Ref sig .tc := ⟨.hbm, 569, rfl⟩
abbrev main_call8_cst_1 : Ref sig .tc := ⟨.hbm, 570, rfl⟩
abbrev main_call8_v8 : Ref sig .tc := ⟨.hbm, 571, rfl⟩
abbrev main_call8_cst_2 : Ref sig .tc := ⟨.hbm, 572, rfl⟩
abbrev main_call8_v9 : Ref sig .tc := ⟨.hbm, 573, rfl⟩
abbrev main_call8_v10 : Ref sig .tc := ⟨.hbm, 574, rfl⟩
abbrev main_call8_v11 : Ref sig .tc := ⟨.hbm, 575, rfl⟩
abbrev main_call8_cst_3 : Ref sig .tc := ⟨.hbm, 576, rfl⟩
abbrev main_call8_v12 : Ref sig .tc := ⟨.hbm, 577, rfl⟩
abbrev main_call8_cst_4 : Ref sig .tc := ⟨.hbm, 578, rfl⟩
abbrev main_call8_call0_v0 : Ref sig .tc := ⟨.hbm, 579, rfl⟩
abbrev main_call8_call0_v1 : Ref sig .tc := ⟨.hbm, 580, rfl⟩
abbrev main_v326 : Ref sig .tc := ⟨.hbm, 581, rfl⟩
abbrev main_v327 : Ref sig .tc := ⟨.hbm, 582, rfl⟩
abbrev main_v328 : Ref sig .tc := ⟨.hbm, 583, rfl⟩
abbrev main_v329 : Ref sig .tc := ⟨.hbm, 584, rfl⟩
abbrev main_cst_52 : Ref sig .tc := ⟨.hbm, 585, rfl⟩
abbrev main_v330 : Ref sig .tc := ⟨.hbm, 586, rfl⟩
abbrev main_v331 : Ref sig .tc := ⟨.hbm, 587, rfl⟩
abbrev main_v332 : Ref sig .tc := ⟨.hbm, 588, rfl⟩
abbrev main_v333 : Ref sig .tc := ⟨.hbm, 589, rfl⟩
abbrev main_v334 : Ref sig .tc := ⟨.hbm, 590, rfl⟩
abbrev main_v335 : Ref sig .tc := ⟨.hbm, 591, rfl⟩
abbrev main_v336 : Ref sig .tc := ⟨.hbm, 592, rfl⟩
abbrev main_v337 : Ref sig .tc := ⟨.hbm, 593, rfl⟩
abbrev main_v338 : Ref sig .tc := ⟨.hbm, 594, rfl⟩
abbrev main_v339 : Ref sig .tc := ⟨.hbm, 595, rfl⟩
abbrev main_v340 : Ref sig .tc := ⟨.hbm, 596, rfl⟩
abbrev main_v341 : Ref sig .tc := ⟨.hbm, 597, rfl⟩
abbrev main_v342 : Ref sig .tc := ⟨.hbm, 598, rfl⟩
abbrev main_v343 : Ref sig .tc := ⟨.hbm, 599, rfl⟩
abbrev main_v344 : Ref sig .tc := ⟨.hbm, 600, rfl⟩
abbrev main_v345 : Ref sig .tc := ⟨.hbm, 601, rfl⟩
abbrev main_v346 : Ref sig .tc := ⟨.hbm, 602, rfl⟩
abbrev main_v347 : Ref sig .tc := ⟨.hbm, 603, rfl⟩
abbrev main_v348 : Ref sig .tc := ⟨.hbm, 604, rfl⟩
abbrev main_v349 : Ref sig .tc := ⟨.hbm, 605, rfl⟩
abbrev main_v350 : Ref sig .tc := ⟨.hbm, 606, rfl⟩
abbrev main_v351 : Ref sig .tc := ⟨.hbm, 607, rfl⟩
abbrev main_v352 : Ref sig .tc := ⟨.hbm, 608, rfl⟩
abbrev main_v353 : Ref sig .tc := ⟨.hbm, 609, rfl⟩
abbrev main_cst_53 : Ref sig .tc := ⟨.hbm, 610, rfl⟩
abbrev main_v354 : Ref sig .tc := ⟨.hbm, 611, rfl⟩
abbrev main_cst_54 : Ref sig .tc := ⟨.hbm, 612, rfl⟩
abbrev main_v355 : Ref sig .tc := ⟨.hbm, 613, rfl⟩
abbrev main_v356 : Ref sig .tc := ⟨.hbm, 614, rfl⟩
abbrev main_c_55 : Ref sig .tc := ⟨.hbm, 615, rfl⟩
abbrev main_call9_cst : Ref sig .tc := ⟨.hbm, 616, rfl⟩
abbrev main_call9_v0 : Ref sig .tc := ⟨.hbm, 617, rfl⟩
abbrev main_call9_v1 : Ref sig .tc := ⟨.hbm, 618, rfl⟩
abbrev main_call9_cst_0 : Ref sig .tc := ⟨.hbm, 619, rfl⟩
abbrev main_call9_v2 : Ref sig .tc := ⟨.hbm, 620, rfl⟩
abbrev main_call9_v3 : Ref sig .tc := ⟨.hbm, 621, rfl⟩
abbrev main_call9_v4 : Ref sig .tc := ⟨.hbm, 622, rfl⟩
abbrev main_call9_v5 : Ref sig .tc := ⟨.hbm, 623, rfl⟩
abbrev main_call9_v6 : Ref sig .tc := ⟨.hbm, 624, rfl⟩
abbrev main_call9_v7 : Ref sig .tc := ⟨.hbm, 625, rfl⟩
abbrev main_call9_cst_1 : Ref sig .tc := ⟨.hbm, 626, rfl⟩
abbrev main_call9_v8 : Ref sig .tc := ⟨.hbm, 627, rfl⟩
abbrev main_call9_cst_2 : Ref sig .tc := ⟨.hbm, 628, rfl⟩
abbrev main_call9_v9 : Ref sig .tc := ⟨.hbm, 629, rfl⟩
abbrev main_call9_v10 : Ref sig .tc := ⟨.hbm, 630, rfl⟩
abbrev main_call9_v11 : Ref sig .tc := ⟨.hbm, 631, rfl⟩
abbrev main_call9_cst_3 : Ref sig .tc := ⟨.hbm, 632, rfl⟩
abbrev main_call9_v12 : Ref sig .tc := ⟨.hbm, 633, rfl⟩
abbrev main_call9_cst_4 : Ref sig .tc := ⟨.hbm, 634, rfl⟩
abbrev main_call9_call0_v0 : Ref sig .tc := ⟨.hbm, 635, rfl⟩
abbrev main_call9_call0_v1 : Ref sig .tc := ⟨.hbm, 636, rfl⟩
abbrev main_v357 : Ref sig .tc := ⟨.hbm, 637, rfl⟩
abbrev main_v358 : Ref sig .tc := ⟨.hbm, 638, rfl⟩
abbrev main_v359 : Ref sig .tc := ⟨.hbm, 639, rfl⟩
abbrev main_v360 : Ref sig .tc := ⟨.hbm, 640, rfl⟩
abbrev main_cst_56 : Ref sig .tc := ⟨.hbm, 641, rfl⟩
abbrev main_v361 : Ref sig .tc := ⟨.hbm, 642, rfl⟩
abbrev main_v362 : Ref sig .tc := ⟨.hbm, 643, rfl⟩
abbrev main_v363 : Ref sig .tc := ⟨.hbm, 644, rfl⟩
abbrev main_v364 : Ref sig .tc := ⟨.hbm, 645, rfl⟩
abbrev main_v365 : Ref sig .tc := ⟨.hbm, 646, rfl⟩
abbrev main_v366 : Ref sig .tc := ⟨.hbm, 647, rfl⟩
abbrev main_v367 : Ref sig .tc := ⟨.hbm, 648, rfl⟩
abbrev main_v368 : Ref sig .tc := ⟨.hbm, 649, rfl⟩
abbrev main_v369 : Ref sig .tc := ⟨.hbm, 650, rfl⟩
abbrev main_v370 : Ref sig .tc := ⟨.hbm, 651, rfl⟩
abbrev main_v371 : Ref sig .tc := ⟨.hbm, 652, rfl⟩
abbrev main_v372 : Ref sig .tc := ⟨.hbm, 653, rfl⟩
abbrev main_cst_57 : Ref sig .tc := ⟨.hbm, 654, rfl⟩
abbrev main_v373 : Ref sig .tc := ⟨.hbm, 655, rfl⟩
abbrev main_v374 : Ref sig .tc := ⟨.hbm, 656, rfl⟩
abbrev main_v375 : Ref sig .tc := ⟨.hbm, 657, rfl⟩
abbrev main_v376 : Ref sig .tc := ⟨.hbm, 658, rfl⟩
abbrev main_v377 : Ref sig .tc := ⟨.hbm, 659, rfl⟩
abbrev main_v378 : Ref sig .tc := ⟨.hbm, 660, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S5x256x256_S1x256x256_1_0_0 : S5x256x256.Slices ![1, 0, 0] S1x256x256
  slices_S5x256_S1x256_1_0 : S5x256.Slices ![1, 0] S1x256
  slices_S5x256x256_S1x256x256_2_0_0 : S5x256x256.Slices ![2, 0, 0] S1x256x256
  slices_S5x256_S1x256_2_0 : S5x256.Slices ![2, 0] S1x256
  slices_S5x256x256_S1x256x256_3_0_0 : S5x256x256.Slices ![3, 0, 0] S1x256x256
  slices_S5x256_S1x256_3_0 : S5x256.Slices ![3, 0] S1x256
  slices_S5x256x256_S1x256x256_4_0_0 : S5x256x256.Slices ![4, 0, 0] S1x256x256
  slices_S5x256_S1x256_4_0 : S5x256.Slices ![4, 0] S1x256
  concatenates_S256_S256_S256_S256_S256_S1280_d0 : Shape.Concatenates [S256, S256, S256, S256, S256] S1280 0
  bcast_S1280_S1x1280_1 : S1280.BroadcastsInDim S1x1280 (![1] : Fin 1 → Fin S1x1280.rank)
  bcast_S10_S1x10_1 : S10.BroadcastsInDim S1x10 (![1] : Fin 1 → Fin S1x10.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S1x1280_S1280x10_S1x10_1_0_0_1_n_n_wf : DotDims.WF S1x1280 S1280x10 S1x10 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S1x1280_S1280x10_S1x10_1_0_0_1_n_n : DotDims S1x1280 S1280x10 S1x10 where
  lhsContracting := [1]
  rhsContracting := [0]
  lhsNonContracting := [0]
  rhsNonContracting := [1]
  lhsBatch := []
  rhsBatch := []
  wf := dot_S1x1280_S1280x10_S1x10_1_0_0_1_n_n_wf

class Facts : Prop extends Facts₀ where

variable [Facts]
-- ==== Proof.K.R0.lean ====
/-
  Region 0 of the word-level kernel program's @main (pallas_call 0), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's one branch: is this the first grid point? -/

/-- The condition of the body's only `scf.if` (the program id compared with 0), from the grid coordinates. -/
abbrev first0 (i : grid0.Coords) : Prop := (Scalar.cmpi .ne (Scalar.extui (Scalar.cmpi .eq (BitVec.ofNat 32 (i 0).val) 0#32)) 0#32) = 1#1
/-- It holds at the first point and at no other — decided over the grid. -/
theorem first0_iff : ∀ t : Fin cfg0.N, first0 (grid0.coords t) ↔ t.val = 0 :=
  (by decide +kernel : ∀ t : Fin grid0.N, first0 (grid0.coords t) ↔ t.val = 0)

/-- Each window's current staging memref at point `t`, as the pipeline passes it to the body, and its wholeness. -/
abbrev buf0_0 (t : Fin cfg0.N) : Memref sig .tc .vmem S2000x256 .f32 := win0_0.stage (cfg0.slots t 0)
abbrev whole0_0 (t : Fin cfg0.N) : (buf0_0 t).IsWhole := hstage0_0 ((cfg0.slots t 0).cast nbuf0_0)
abbrev buf0_1 (t : Fin cfg0.N) : Memref sig .tc .vmem S2000x256 .f32 := win0_1.stage (cfg0.slots t 1)
abbrev whole0_1 (t : Fin cfg0.N) : (buf0_1 t).IsWhole := hstage0_1 ((cfg0.slots t 1).cast nbuf0_1)
abbrev buf0_2 (t : Fin cfg0.N) : Memref sig .tc .vmem S256x256 .bf16 := win0_2.stage (cfg0.slots t 2)
abbrev whole0_2 (t : Fin cfg0.N) : (buf0_2 t).IsWhole := hstage0_2 ((cfg0.slots t 2).cast nbuf0_2)
abbrev buf0_3 (t : Fin cfg0.N) : Memref sig .tc .vmem S1x256 .f32 := win0_3.stage (cfg0.slots t 3)
abbrev whole0_3 (t : Fin cfg0.N) : (buf0_3 t).IsWhole := hstage0_3 ((cfg0.slots t 3).cast nbuf0_3)
abbrev buf0_4 (t : Fin cfg0.N) : Memref sig .tc .vmem S2000x256 .f32 := win0_4.stage (cfg0.slots t 4)
abbrev whole0_4 (t : Fin cfg0.N) : (buf0_4 t).IsWhole := hstage0_4 ((cfg0.slots t 4).cast nbuf0_4)
abbrev buf0_5 (t : Fin cfg0.N) : Memref sig .tc .vmem S1x256 .f32 := win0_5.stage (cfg0.slots t 5)
abbrev whole0_5 (t : Fin cfg0.N) : (buf0_5 t).IsWhole := hstage0_5 ((cfg0.slots t 5).cast nbuf0_5)
abbrev buf0_6 (t : Fin cfg0.N) : Memref sig .tc .vmem S1x256 .f32 := win0_6.stage (cfg0.slots t 6)
abbrev whole0_6 (t : Fin cfg0.N) : (buf0_6 t).IsWhole := hstage0_6 ((cfg0.slots t 6).cast nbuf0_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun0 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0__matmul1_stats_kernel i arg1 harg1 arg2 harg2 arg3 harg3 arg4 harg4 arg5 harg5 arg6 harg6 arg7 harg7) K } := by
  refine ⟨?_, ?_, ?_, fun E K => ?run⟩
  case run =>
    simp only [cc0__matmul1_stats_kernel_eq_skeleton]; unfold cc0__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun0 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0__matmul1_stats_kernel i arg1 harg1 arg2 harg2 arg3 harg3 arg4 harg4 arg5 harg5 arg6 harg6 arg7 harg7) K } := by
  refine ⟨?_, ?_, ?_, fun E K => ?run⟩
  case run =>
    simp only [cc0__matmul1_stats_kernel_eq_skeleton]; unfold cc0__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView0 : View sig .tc .vmem S2000x256 .f32 := (stage0_4 0).view
abbrev sumView0 : View sig .tc .vmem S1x256 .f32 := (stage0_5 0).view
abbrev sqView0 : View sig .tc .vmem S1x256 .f32 := (stage0_6 0).view

/-- At the first point each output's pieces tile its block (checked by evaluating the piece list), so they cover it. -/
theorem resetCover0_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) (y : S2000x256.Idx) :
    ∃ pc ∈ (resetRun0 c i arg1 harg1 arg2 harg2 arg3 harg3 arg4 harg4 arg5 harg5 arg6 harg6 arg7 harg7 hc0 x0 x1 x2 x3).1, y ∈ pc.1.set :=
  View.cover_of_tiledL (resetRun0 c i arg1 harg1 arg2 harg2 arg3 harg3 arg4 harg4 arg5 harg5 arg6 harg6 arg7 harg7 hc0 x0 x1 x2 x3).1 S2000x256.size (by sl_kernel_rfl) y
theorem resetCover0_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) (y : S1x256.Idx) :
    ∃ pc ∈ (resetRun0 c i arg1 harg1 arg2 harg2 arg3 harg3 arg4 harg4 arg5 harg5 arg6 harg6 arg7 harg7 hc0 x0 x1 x2 x3).2.1, y ∈ pc.1.set :=
  View.cover_of_tiledL (resetRun0 c i arg1 harg1 arg2 harg2 arg3 harg3 arg4 harg4 arg5 harg5 arg6 harg6 arg7 harg7 hc0 x0 x1 x2 x3).2.1 S1x256.size (by sl_kernel_rfl) y
theorem resetCover0_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) (y : S1x256.Idx) :
    ∃ pc ∈ (resetRun0 c i arg1 harg1 arg2 harg2 arg3 harg3 arg4 harg4 arg5 harg5 arg6 harg6 arg7 harg7 hc0 x0 x1 x2 x3).2.2.1, y ∈ pc.1.set :=
  View.cover_of_tiledL (resetRun0 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut0_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) : Vec F S2000x256 .f32 :=
  uView0.read (Elt F) (uView0.writes (Elt F) uView0.junk (resetRun0 c i arg1 harg1 arg2 harg2 arg3 harg3 arg4 harg4 arg5 harg5 arg6 harg6 arg7 harg7 hc0 x0 x1 x2 x3).1)
/-- What the first point leaves in the column-sum accumulator. -/
def resetOut0_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) : Vec F S1x256 .f32 :=
  sumView0.read (Elt F) (sumView0.writes (Elt F) sumView0.junk (resetRun0 c i arg1 harg1 arg2 harg2 arg3 harg3 arg4 harg4 arg5 harg5 arg6 harg6 arg7 harg7 hc0 x0 x1 x2 x3).2.1)
/-- What the first point leaves in the sum-of-squares accumulator. -/
def resetOut0_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) : Vec F S1x256 .f32 :=
  sqView0.read (Elt F) (sqView0.writes (Elt F) sqView0.junk (resetRun0 c i arg1 harg1 arg2 harg2 arg3 harg3 arg4 harg4 arg5 harg5 arg6 harg6 arg7 harg7 hc0 x0 x1 x2 x3).2.2.1)

/-- At a later point too each output's pieces cover its block. -/
theorem carryCover0_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun0 c i arg1 harg1 arg2 harg2 arg3 harg3 arg4 harg4 arg5 harg5 arg6 harg6 arg7 harg7 hc0 x0 x1 x2 x3 xo5 xo6).1, y ∈ pc.1.set :=
  View.cover_of_tiledL (carryRun0 c i arg1 harg1 arg2 harg2 arg3 harg3 arg4 harg4 arg5 harg5 arg6 harg6 arg7 harg7 hc0 x0 x1 x2 x3 xo5 xo6).1 S2000x256.size (by sl_kernel_rfl) y
theorem carryCover0_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun0 c i arg1 harg1 arg2 harg2 arg3 harg3 arg4 harg4 arg5 harg5 arg6 harg6 arg7 harg7 hc0 x0 x1 x2 x3 xo5 xo6).2.1, y ∈ pc.1.set :=
  View.cover_of_tiledL (carryRun0 c i arg1 harg1 arg2 harg2 arg3 harg3 arg4 harg4 arg5 harg5 arg6 harg6 arg7 harg7 hc0 x0 x1 x2 x3 xo5 xo6).2.1 S1x256.size (by sl_kernel_rfl) y
theorem carryCover0_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun0 c i arg1 harg1 arg2 harg2 arg3 harg3 arg4 harg4 arg5 harg5 arg6 harg6 arg7 harg7 hc0 x0 x1 x2 x3 xo5 xo6).2.2.1, y ∈ pc.1.set :=
  View.cover_of_tiledL (carryRun0 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut0_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView0.read (Elt F) (uView0.writes (Elt F) uView0.junk (carryRun0 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut0_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView0.read (Elt F) (sumView0.writes (Elt F) sumView0.junk (carryRun0 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut0_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView0.read (Elt F) (sqView0.writes (Elt F) sqView0.junk (carryRun0 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left0 (c : Dev nD) : (n : ℕ) → n < cfg0.N → Vec F S2000x256 .f32 × Vec F S1x256 .f32 × Vec F S1x256 .f32
  | 0, hn =>
    (resetOut0_4 c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) (buf0_5 ⟨0, hn⟩) (whole0_5 ⟨0, hn⟩) (buf0_6 ⟨0, hn⟩) (whole0_6 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩),
     resetOut0_5 c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) (buf0_5 ⟨0, hn⟩) (whole0_5 ⟨0, hn⟩) (buf0_6 ⟨0, hn⟩) (whole0_6 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩),
     resetOut0_6 c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) (buf0_5 ⟨0, hn⟩) (whole0_5 ⟨0, hn⟩) (buf0_6 ⟨0, hn⟩) (whole0_6 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩))
  | n + 1, hn =>
    (carryOut0_4 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) (buf0_5 ⟨n + 1, hn⟩) (whole0_5 ⟨n + 1, hn⟩) (buf0_6 ⟨n + 1, hn⟩) (whole0_6 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (left0 c n (Nat.lt_of_succ_lt hn)).2.1 (left0 c n (Nat.lt_of_succ_lt hn)).2.2,
     carryOut0_5 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) (buf0_5 ⟨n + 1, hn⟩) (whole0_5 ⟨n + 1, hn⟩) (buf0_6 ⟨n + 1, hn⟩) (whole0_6 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (left0 c n (Nat.lt_of_succ_lt hn)).2.1 (left0 c n (Nat.lt_of_succ_lt hn)).2.2,
     carryOut0_6 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) (buf0_5 ⟨n + 1, hn⟩) (whole0_5 ⟨n + 1, hn⟩) (buf0_6 ⟨n + 1, hn⟩) (whole0_6 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (left0 c n (Nat.lt_of_succ_lt hn)).2.1 (left0 c n (Nat.lt_of_succ_lt hn)).2.2)

/-- `left0` at the first point: the reset case's contents. -/
theorem left0_first (c : Dev nD) (t : Fin cfg0.N) (h0 : t.val = 0) :
    left0 V c t.val t.isLt =
    (resetOut0_4 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) ((first0_iff t).mpr h0) (iblk0 V c 0 t) (iblk0 V c 1 t) (iblk0 V c 2 t) (iblk0 V c 3 t),
     resetOut0_5 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) ((first0_iff t).mpr h0) (iblk0 V c 0 t) (iblk0 V c 1 t) (iblk0 V c 2 t) (iblk0 V c 3 t),
     resetOut0_6 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) ((first0_iff t).mpr h0) (iblk0 V c 0 t) (iblk0 V c 1 t) (iblk0 V c 2 t) (iblk0 V c 3 t)) := by
  obtain ⟨n, hn⟩ := t
  cases n with
  | zero => exact rfl
  | succ n => exact absurd h0 (Nat.succ_ne_zero n)

/-- `left0` at a later point: the carrying case's contents, over the accumulator rows the point before left. -/
theorem left0_later (c : Dev nD) (t : Fin cfg0.N) (h0 : ¬t.val = 0) :
    left0 V c t.val t.isLt =
    (carryOut0_4 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) (fun h => h0 ((first0_iff t).mp h)) (iblk0 V c 0 t) (iblk0 V c 1 t) (iblk0 V c 2 t) (iblk0 V c 3 t) (left0 V c (t.val - 1) (Nat.lt_of_le_of_lt (Nat.sub_le _ _) t.isLt)).2.1 (left0 V c (t.val - 1) (Nat.lt_of_le_of_lt (Nat.sub_le _ _) t.isLt)).2.2,
     carryOut0_5 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) (fun h => h0 ((first0_iff t).mp h)) (iblk0 V c 0 t) (iblk0 V c 1 t) (iblk0 V c 2 t) (iblk0 V c 3 t) (left0 V c (t.val - 1) (Nat.lt_of_le_of_lt (Nat.sub_le _ _) t.isLt)).2.1 (left0 V c (t.val - 1) (Nat.lt_of_le_of_lt (Nat.sub_le _ _) t.isLt)).2.2,
     carryOut0_6 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) (fun h => h0 ((first0_iff t).mp h)) (iblk0 V c 0 t) (iblk0 V c 1 t) (iblk0 V c 2 t) (iblk0 V c 3 t) (left0 V c (t.val - 1) (Nat.lt_of_le_of_lt (Nat.sub_le _ _) t.isLt)).2.1 (left0 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left0`; the invariant the scoped rest and the generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (left0 V c t.val t.isLt).1
    | ⟨5, _⟩ => (left0 V c t.val t.isLt).2.1
    | ⟨6, _⟩ => (left0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (left0 V c t.val t.isLt).1 := by dsimp only [dat0]
theorem after0_5 (c : Dev nD) (t : Fin cfg0.N) : (dat0 V c).after 5 t = (left0 V c t.val t.isLt).2.1 := by dsimp only [dat0]
theorem after0_6 (c : Dev nD) (t : Fin cfg0.N) : (dat0 V c).after 6 t = (left0 V c t.val t.isLt).2.2 := by dsimp only [dat0]

/-- Each input's current staging buffer holds its block at every point, fetched there or not: h and agg are fetched at every
    point; the weight and the bias at the first only, and their block index never moves. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- At a later point each accumulator's staging buffer holds what the body left at the point before: the buffer is written back
    after the last point only, the window is live and uncut. -/
theorem before0_5_later (c : Dev nD) (t : Fin cfg0.N) (h0 : ¬t.val = 0) (d) :
    (dat0 V c).before 5 t d = (left0 V c (t.val - 1) (Nat.lt_of_le_of_lt (Nat.sub_le _ _) t.isLt)).2.1 := by
  have hN : t.val < 25 := lt_of_lt_of_eq t.isLt (show cfg0.N = 25 from N_0)
  rw [Dat.before_out_kept _ 5 rfl t h0 (Bool.eq_false_iff.mpr fun h => by have := (flush0_5 _).mp h; dsimp only at this; omega)
    (fun _ => rfl) (fun _ _ => rfl)]
  dsimp only [dat0]
theorem before0_6_later (c : Dev nD) (t : Fin cfg0.N) (h0 : ¬t.val = 0) (d) :
    (dat0 V c).before 6 t d = (left0 V c (t.val - 1) (Nat.lt_of_le_of_lt (Nat.sub_le _ _) t.isLt)).2.2 := by
  have hN : t.val < 25 := lt_of_lt_of_eq t.isLt (show cfg0.N = 25 from N_0)
  rw [Dat.before_out_kept _ 6 rfl t h0 (Bool.eq_false_iff.mpr fun h => by have := (flush0_6 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (buf0_0 t) fullShare ((dat0 V c).before 0 t d))
    ∗ (∃ d, owns (c : Thread nD τ) (buf0_1 t) fullShare ((dat0 V c).before 1 t d))
    ∗ (∃ d, owns (c : Thread nD τ) (buf0_2 t) fullShare ((dat0 V c).before 2 t d))
    ∗ (∃ d, owns (c : Thread nD τ) (buf0_3 t) fullShare ((dat0 V c).before 3 t d))
    ∗ (∃ d, owns (c : Thread nD τ) (buf0_4 t) fullShare ((dat0 V c).before 4 t d))
    ∗ (∃ d, owns (c : Thread nD τ) (buf0_5 t) fullShare ((dat0 V c).before 5 t d))
    ∗ (∃ d, owns (c : Thread nD τ) (buf0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (buf0_0 t) fullShare ((dat0 V c).after 0 t)
    ∗ owns (c : Thread nD τ) (buf0_1 t) fullShare ((dat0 V c).after 1 t)
    ∗ owns (c : Thread nD τ) (buf0_2 t) fullShare ((dat0 V c).after 2 t)
    ∗ owns (c : Thread nD τ) (buf0_3 t) fullShare ((dat0 V c).after 3 t)
    ∗ owns (c : Thread nD τ) (buf0_4 t) fullShare ((dat0 V c).after 4 t)
    ∗ owns (c : Thread nD τ) (buf0_5 t) fullShare ((dat0 V c).after 5 t)
    ∗ owns (c : Thread nD τ) (buf0_6 t) fullShare ((dat0 V c).after 6 t))

set_option maxHeartbeats 1600000 in
/-- The body at any point. The inputs' memrefs hold their blocks; `first0_iff` says which case the point is in; at a later
    point the accumulators' memrefs hold the rows the point before left; so that case's run applies, and each output's pieces,
    covering its block, read back as the contents `left0` names. The invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val = 0
  · rw [left0_first V c t h0]
    dsimp only
    unfold resetOut0_4 resetOut0_5 resetOut0_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun0 c (grid0.coords t) _ _ _ _ _ _ _ _ _ _ _ _ _ _ ((first0_iff t).mpr h0) (iblk0 V c 0 t) (iblk0 V c 1 t) (iblk0 V c 2 t) (iblk0 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover0_4 c _ _ _ _ _ _ _ _ _ _ _ _ _ _ _ _ _ _ _ _)
    isplitl [H5]
    · unfold owns; iexists _; isplitr
      swap; · iexact H5
      ipureintro; exact View.read_writes_of_cover _ _ _ _ _ (resetCover0_5 c _ _ _ _ _ _ _ _ _ _ _ _ _ _ _ _ _ _ _ _)
    unfold owns; iexists _; isplitr
    swap; · iexact H6
    ipureintro; exact View.read_writes_of_cover _ _ _ _ _ (resetCover0_6 c _ _ _ _ _ _ _ _ _ _ _ _ _ _ _ _ _ _ _ _)
  · rw [left0_later V c t h0]
    dsimp only
    simp only [before0_5_later V c t h0, before0_6_later V c t h0]
    unfold carryOut0_4 carryOut0_5 carryOut0_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun0 c (grid0.coords t) _ _ _ _ _ _ _ _ _ _ _ _ _ _ (fun h => h0 ((first0_iff t).mp h)) (iblk0 V c 0 t) (iblk0 V c 1 t) (iblk0 V c 2 t) (iblk0 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover0_4 c _ _ _ _ _ _ _ _ _ _ _ _ _ _ _ _ _ _ _ _ _ _)
    isplitl [H5]
    · unfold owns; iexists _; isplitr
      swap; · iexact H5
      ipureintro; exact View.read_writes_of_cover _ _ _ _ _ (carryCover0_5 c _ _ _ _ _ _ _ _ _ _ _ _ _ _ _ _ _ _ _ _ _ _)
    unfold owns; iexists _; isplitr
    swap; · iexact H6
    ipureintro; exact View.read_writes_of_cover _ _ _ _ _ (carryCover0_6 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of the word-level kernel program's @main (pallas_call 1), at ANY entry contents `V` of the TensorCore's buffers and at any
  float instance: the proof data of its pipeline (what each window's staging buffer holds after the body at each grid point) and the
  body obligation.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers -/

/-- Input window 0's current staging buffer holds its block at every point, fetched there or not (unfetched, the block index has
    not moved), for ANY proof data whose array is the entry contents' (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block index has
    not moved), for ANY proof data whose array is the entry contents' (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block index has
    not moved), for ANY proof data whose array is the entry contents' (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the block index has
    not moved), for ANY proof data whose array is the entry contents' (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the block index has
    not moved), for ANY proof data whose array is the entry contents' (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the block index has
    not moved), for ANY proof data whose array is the entry contents' (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the block index has
    not moved), for ANY proof data whose array is the entry contents' (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one `scf.if` (is this the first point?), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The staging memrefs at a point -/

/-- One staging buffer of each output window, through which its contents are stated (the choice does not matter: the stores cover). -/
abbrev VO1_7 : View sig .tc .vmem S2000x256 .f32 := (stage1_7 0).view
abbrev VO1_8 : View sig .tc .vmem S1x256 .f32 := (stage1_8 0).view
abbrev VO1_9 : View sig .tc .vmem S1x256 .f32 := (stage1_9 0).view
/-- Each window's current staging memref at point `t`, spelled as the pipeline passes it to the body, and its wholeness. -/
abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2000x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun1_A (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__norm_matmul2_stats_kernel_eq_skeleton]; unfold cc1__norm_matmul2_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun1_B (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__norm_matmul2_stats_kernel_eq_skeleton]; unfold cc1__norm_matmul2_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover1_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out1_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover1_A_8 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out1_A_8 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover1_A_9 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out1_A_9 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover1_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out1_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover1_B_8 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out1_B_8 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover1_B_9 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out1_B_9 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt1 (c : Dev nD) : (n : ℕ) → n < cfg1.N → Vec F S2000x256 .f32 × Vec F S1x256 .f32 × Vec F S1x256 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
        out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
        out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 25 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩),
        out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩),
        out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)

/-- `outsAt1` at the first point: the resetting case's contents. -/
theorem outsAt1_A (c : Dev nD) (t : Fin cfg1.N) (h0 : t.val % 25 = 0) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t),
        out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t),
        out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- `outsAt1` at any other point: the accumulating case's contents, over what the point before left. -/
theorem outsAt1_B (c : Dev nD) (t : Fin cfg1.N) (h0 : ¬t.val % 25 = 0) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
        out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
        out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt1`; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2
  Φ _ := Pipeline.ΦA spec1 c
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
/-- At a point other than the first, accumulator window 8's staging buffer holds what the body left at the point before: its block
    is the same at every point and is written back at the last point only. -/
theorem before1_8_B (c : Dev nD) (t : Fin cfg1.N) (h0 : ¬t.val % 25 = 0) (d) :
    (dat1 V c).before 8 t d = (outsAt1 V c (t.val - 1) (Nat.lt_of_le_of_lt (Nat.sub_le _ _) t.isLt)).2.1 := by
  have hN : t.val < 25 := lt_of_lt_of_eq t.isLt (show cfg1.N = 25 from N_1)
  rw [Dat.before_out_kept _ 8 rfl t (by omega) (Bool.eq_false_iff.mpr fun h => by have := (flush1_8 _).mp h; dsimp only at this; omega)
    (fun _ => rfl) (fun _ _ => rfl)]
  dsimp only [dat1]
/-- At a point other than the first, accumulator window 9's staging buffer holds what the body left at the point before: its block
    is the same at every point and is written back at the last point only. -/
theorem before1_9_B (c : Dev nD) (t : Fin cfg1.N) (h0 : ¬t.val % 25 = 0) (d) :
    (dat1 V c).before 9 t d = (outsAt1 V c (t.val - 1) (Nat.lt_of_le_of_lt (Nat.sub_le _ _) t.isLt)).2.2 := by
  have hN : t.val < 25 := lt_of_lt_of_eq t.isLt (show cfg1.N = 25 from N_1)
  rw [Dat.before_out_kept _ 9 rfl t (by omega) (Bool.eq_false_iff.mpr fun h => by have := (flush1_9 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 25 := lt_of_lt_of_eq t.isLt (show cfg1.N = 25 from N_1)
  by_cases h0 : t.val % 25 = 0
  · rw [outsAt1_A V c t h0]
    (try dsimp only)
    unfold out1_A_7 out1_A_8 out1_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover1_A_9 c _ _ _ _ _ _ _ _ _ _ _ _ _ _ _ _ _ _ _ _ _ _ _ _ _ _ _ _ _)
  · rw [outsAt1_B V c t h0]
    simp only [before1_8_B V c t h0, before1_9_B V c t h0]
    (try dsimp only)
    unfold out1_B_7 out1_B_8 out1_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover1_B_9 c _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 of the word-level kernel program's @main (pallas_call 2), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The inputs' buffers hold their blocks -/

/-- Input window 0's current staging buffer holds its block at every point, fetched there or not (where it is not fetched its
    block index has not moved), for any proof data over the region's entry contents whose body leaves the block in place. -/
theorem heldIn2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (where it is not fetched its
    block index has not moved), for any proof data over the region's entry contents whose body leaves the block in place. -/
theorem heldIn2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (where it is not fetched its
    block index has not moved), for any proof data over the region's entry contents whose body leaves the block in place. -/
theorem heldIn2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (where it is not fetched its
    block index has not moved), for any proof data over the region's entry contents whose body leaves the block in place. -/
theorem heldIn2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (where it is not fetched its
    block index has not moved), for any proof data over the region's entry contents whose body leaves the block in place. -/
theorem heldIn2_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's one branch: is this the first grid point? -/

/-- The condition under which the body resets the running row: the grid coordinate compared with zero, as the body's scalar
    operations compute it. -/
abbrev atFirst2 (i : grid2.Coords) : Prop := (Scalar.cmpi .ne (Scalar.extui (Scalar.cmpi .eq (BitVec.ofNat 32 (i 0).val) 0#32)) 0#32) = 1#1
/-- It holds at the first point of the grid and at no other: decided point by point. -/
theorem atFirst2_iff : ∀ t : Fin cfg2.N, atFirst2 (grid2.coords t) ↔ t.val % 25 = 0 :=
  (by decide +kernel : ∀ t : Fin grid2.N, atFirst2 (grid2.coords t) ↔ t.val % 25 = 0)

/-! ## The staging memrefs the body is called with -/
abbrev stg2_0 (t : Fin cfg2.N) : Memref sig .tc .vmem S2000x256 .f32 := win2_0.stage (cfg2.slots t 0)
abbrev stgWhole2_0 (t : Fin cfg2.N) : (stg2_0 t).IsWhole := hstage2_0 ((cfg2.slots t 0).cast nbuf2_0)
abbrev stg2_1 (t : Fin cfg2.N) : Memref sig .tc .vmem S1x256 .f32 := win2_1.stage (cfg2.slots t 1)
abbrev stgWhole2_1 (t : Fin cfg2.N) : (stg2_1 t).IsWhole := hstage2_1 ((cfg2.slots t 1).cast nbuf2_1)
abbrev stg2_2 (t : Fin cfg2.N) : Memref sig .tc .vmem S1x256 .f32 := win2_2.stage (cfg2.slots t 2)
abbrev stgWhole2_2 (t : Fin cfg2.N) : (stg2_2 t).IsWhole := hstage2_2 ((cfg2.slots t 2).cast nbuf2_2)
abbrev stg2_3 (t : Fin cfg2.N) : Memref sig .tc .vmem S1x256 .f32 := win2_3.stage (cfg2.slots t 3)
abbrev stgWhole2_3 (t : Fin cfg2.N) : (stg2_3 t).IsWhole := hstage2_3 ((cfg2.slots t 3).cast nbuf2_3)
abbrev stg2_4 (t : Fin cfg2.N) : Memref sig .tc .vmem S1x256 .f32 := win2_4.stage (cfg2.slots t 4)
abbrev stgWhole2_4 (t : Fin cfg2.N) : (stg2_4 t).IsWhole := hstage2_4 ((cfg2.slots t 4).cast nbuf2_4)
abbrev stg2_5 (t : Fin cfg2.N) : Memref sig .tc .vmem S2000x256 .f32 := win2_5.stage (cfg2.slots t 5)
abbrev stgWhole2_5 (t : Fin cfg2.N) : (stg2_5 t).IsWhole := hstage2_5 ((cfg2.slots t 5).cast nbuf2_5)
abbrev stg2_6 (t : Fin cfg2.N) : Memref sig .tc .vmem S1x256 .f32 := win2_6.stage (cfg2.slots t 6)
abbrev stgWhole2_6 (t : Fin cfg2.N) : (stg2_6 t).IsWhole := hstage2_6 ((cfg2.slots t 6).cast nbuf2_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc2__norm_readout_kernel i arg1 harg1 arg2 harg2 arg3 harg3 arg4 harg4 arg5 harg5 arg6 harg6 arg7 harg7) K } := by
  refine ⟨?_, ?_, fun E K => ?run⟩
  case run =>
    simp only [cc2__norm_readout_kernel_eq_skeleton]; unfold cc2__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc2__norm_readout_kernel i arg1 harg1 arg2 harg2 arg3 harg3 arg4 harg4 arg5 harg5 arg6 harg6 arg7 harg7) K } := by
  refine ⟨?_, ?_, fun E K => ?run⟩
  case run =>
    simp only [cc2__norm_readout_kernel_eq_skeleton]; unfold cc2__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst2_5 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) (y : S2000x256.Idx) :
    ∃ pc ∈ (runFirst2 c i arg1 harg1 arg2 harg2 arg3 harg3 arg4 harg4 arg5 harg5 arg6 harg6 arg7 harg7 hc u mean var gain shift).1, y ∈ pc.1.set :=
  View.cover_of_tiledL (runFirst2 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst2_6 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) (y : S1x256.Idx) :
    ∃ pc ∈ (runFirst2 c i arg1 harg1 arg2 harg2 arg3 harg3 arg4 harg4 arg5 harg5 arg6 harg6 arg7 harg7 hc u mean var gain shift).2.1, y ∈ pc.1.set :=
  View.cover_of_tiledL (runFirst2 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater2_5 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater2 c i arg1 harg1 arg2 harg2 arg3 harg3 arg4 harg4 arg5 harg5 arg6 harg6 arg7 harg7 hc u mean var gain shift acc).1, y ∈ pc.1.set :=
  View.cover_of_tiledL (runLater2 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater2_6 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater2 c i arg1 harg1 arg2 harg2 arg3 harg3 arg4 harg4 arg5 harg5 arg6 harg6 arg7 harg7 hc u mean var gain shift acc).2.1, y ∈ pc.1.set :=
  View.cover_of_tiledL (runLater2 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) : Vec F S2000x256 .f32 :=
  View.canon (runFirst2 c i arg1 harg1 arg2 harg2 arg3 harg3 arg4 harg4 arg5 harg5 arg6 harg6 arg7 harg7 hc u mean var gain shift).1

/-- The running row the first point leaves. -/
def sumsFirst2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) : Vec F S1x256 .f32 :=
  View.canon (runFirst2 c i arg1 harg1 arg2 harg2 arg3 harg3 arg4 harg4 arg5 harg5 arg6 harg6 arg7 harg7 hc u mean var gain shift).2.1

/-- The normalized block a later point leaves. -/
def rowsLater2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater2 c i arg1 harg1 arg2 harg2 arg3 harg3 arg4 harg4 arg5 harg5 arg6 harg6 arg7 harg7 hc u mean var gain shift acc).1

/-- The running row a later point leaves, over the row `acc` it found. -/
def sumsLater2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater2 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt2 (c : Dev nD) (t : Fin cfg2.N) (h0 : t.val % 25 = 0) : Vec F S2000x256 .f32 :=
  rowsFirst2 c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) ((atFirst2_iff t).mpr h0) (iblk2 V c 0 t) (iblk2 V c 1 t) (iblk2 V c 2 t) (iblk2 V c 3 t) (iblk2 V c 4 t)

/-- The running row after point `t`, when `t` is the first point. -/
def sumsFirstAt2 (c : Dev nD) (t : Fin cfg2.N) (h0 : t.val % 25 = 0) : Vec F S1x256 .f32 :=
  sumsFirst2 c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) ((atFirst2_iff t).mpr h0) (iblk2 V c 0 t) (iblk2 V c 1 t) (iblk2 V c 2 t) (iblk2 V c 3 t) (iblk2 V c 4 t)

/-- The normalized block of point `t`, when `t` is a later point (the run is stated at the running row it found). -/
def rowsLaterAt2 (c : Dev nD) (t : Fin cfg2.N) (h0 : ¬t.val % 25 = 0) (acc : Vec F S1x256 .f32) : Vec F S2000x256 .f32 :=
  rowsLater2 c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) (fun h => h0 ((atFirst2_iff t).mp h)) (iblk2 V c 0 t) (iblk2 V c 1 t) (iblk2 V c 2 t) (iblk2 V c 3 t) (iblk2 V c 4 t) acc

/-- The running row after point `t`, when `t` is a later point that found the row `acc`. -/
def sumsLaterAt2 (c : Dev nD) (t : Fin cfg2.N) (h0 : ¬t.val % 25 = 0) (acc : Vec F S1x256 .f32) : Vec F S1x256 .f32 :=
  sumsLater2 c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) (fun h => h0 ((atFirst2_iff t).mp h)) (iblk2 V c 0 t) (iblk2 V c 1 t) (iblk2 V c 2 t) (iblk2 V c 3 t) (iblk2 V c 4 t) acc

/-! ## What the outputs hold after each point -/

/-- THE ACCUMULATION: the running row after the body at position `n`. At the first point the reset-and-add case's row; at a later
    point the add case's row over what this gives at `n - 1` (the row's buffer is not written back in between). -/
def sumsAt2 (c : Dev nD) : (n : ℕ) → n < cfg2.N → Vec F S1x256 .f32
  | 0, hn => sumsFirstAt2 V c ⟨0, hn⟩ (Nat.zero_mod _)
  | n + 1, hn =>
    if h0 : (n + 1) % 25 = 0 then sumsFirstAt2 V c ⟨n + 1, hn⟩ h0
    else sumsLaterAt2 V c ⟨n + 1, hn⟩ h0 (sumsAt2 c n (Nat.lt_of_succ_lt hn))

/-- The running row the body finds at point `t` when `t` is not the first: what the point before left. -/
abbrev sumsBefore2 (c : Dev nD) (t : Fin cfg2.N) : Vec F S1x256 .f32 :=
  sumsAt2 V c (t.val - 1) (Nat.lt_of_le_of_lt (Nat.sub_le _ _) t.isLt)

/-- The normalized block after the body at point `t`. -/
def rowsAt2 (c : Dev nD) (t : Fin cfg2.N) : Vec F S2000x256 .f32 :=
  if h0 : t.val % 25 = 0 then rowsFirstAt2 V c t h0 else rowsLaterAt2 V c t h0 (sumsBefore2 V c t)

/-- The running row at the first point. -/
theorem sumsAt2_first (c : Dev nD) (t : Fin cfg2.N) (h0 : t.val % 25 = 0) :
    sumsAt2 V c t.val t.isLt = sumsFirstAt2 V c t h0 := by
  obtain ⟨n, hn⟩ := t
  cases n with
  | zero => exact rfl
  | succ n => exact (dif_pos h0).trans rfl

/-- The running row at a later point: the add case over the row before. -/
theorem sumsAt2_later (c : Dev nD) (t : Fin cfg2.N) (h0 : ¬t.val % 25 = 0) :
    sumsAt2 V c t.val t.isLt = sumsLaterAt2 V c t h0 (sumsBefore2 V c t) := by
  obtain ⟨n, hn⟩ := t
  cases n with
  | zero => exact absurd (Nat.zero_mod _) h0
  | succ n => exact (dif_neg h0).trans rfl

/-- The normalized block at the first point. -/
theorem rowsAt2_first (c : Dev nD) (t : Fin cfg2.N) (h0 : t.val % 25 = 0) : rowsAt2 V c t = rowsFirstAt2 V c t h0 := dif_pos h0

/-- The normalized block at a later point. -/
theorem rowsAt2_later (c : Dev nD) (t : Fin cfg2.N) (h0 : ¬t.val % 25 = 0) :
    rowsAt2 V c t = rowsLaterAt2 V c t h0 (sumsBefore2 V c t) := dif_neg h0

/-! ## The pipeline's proof data -/

/-- The proof data of the region's pipeline on core `c`: the arrays as the region finds them; after the body at point `t` each
    input's buffer still at its block, the normalized block's at `rowsAt2`, the running row's at `sumsAt2`; the class's invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => rowsAt2 V c t
    | ⟨6, _⟩ => sumsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = rowsAt2 V c t := by dsimp only [dat2]
theorem after2_6 (c : Dev nD) (t : Fin cfg2.N) : (dat2 V c).after 6 t = sumsAt2 V c t.val t.isLt := by dsimp only [dat2]

/-- What the body finds in each input's buffer: its block. -/
theorem before2_0 (c : Dev nD) (t : Fin cfg2.N) (d) : (dat2 V c).before 0 t d = iblk2 V c 0 t :=
  heldIn2_0 V (dat2 V c) (A_eq2 V c 0) (after2_0 V c) t d
theorem before2_1 (c : Dev nD) (t : Fin cfg2.N) (d) : (dat2 V c).before 1 t d = iblk2 V c 1 t :=
  heldIn2_1 V (dat2 V c) (A_eq2 V c 1) (after2_1 V c) t d
theorem before2_2 (c : Dev nD) (t : Fin cfg2.N) (d) : (dat2 V c).before 2 t d = iblk2 V c 2 t :=
  heldIn2_2 V (dat2 V c) (A_eq2 V c 2) (after2_2 V c) t d
theorem before2_3 (c : Dev nD) (t : Fin cfg2.N) (d) : (dat2 V c).before 3 t d = iblk2 V c 3 t :=
  heldIn2_3 V (dat2 V c) (A_eq2 V c 3) (after2_3 V c) t d
theorem before2_4 (c : Dev nD) (t : Fin cfg2.N) (d) : (dat2 V c).before 4 t d = iblk2 V c 4 t :=
  heldIn2_4 V (dat2 V c) (A_eq2 V c 4) (after2_4 V c) t d

/-- At a later point the running row's buffer holds what the body left at the point before: the point is not the first, the row is
    written back at the last point only, the window is never idle and is uncut. -/
theorem before2_6_later (c : Dev nD) (t : Fin cfg2.N) (h0 : ¬t.val % 25 = 0) (d) :
    (dat2 V c).before 6 t d = sumsBefore2 V c t := by
  have hN : t.val < 25 := lt_of_lt_of_eq t.isLt (show cfg2.N = 25 from N_2)
  rw [Dat.before_out_kept _ 6 rfl t (by omega) (Bool.eq_false_iff.mpr fun h => by have := (flush2_6 _).mp h; dsimp only at this; omega)
    (fun _ => rfl) (fun _ _ => rfl)]
  dsimp only [dat2]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  by_cases h0 : t.val % 25 = 0
  · rw [sumsAt2_first V c t h0, rowsAt2_first V c t h0]
    unfold sumsFirstAt2 rowsFirstAt2 sumsFirst2 rowsFirst2
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst2 c (grid2.coords t) _ _ _ _ _ _ _ _ _ _ _ _ _ _ ((atFirst2_iff t).mpr h0) (iblk2 V c 0 t) (iblk2 V c 1 t) (iblk2 V c 2 t) (iblk2 V c 3 t) (iblk2 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst2_5 c _ _ _ _ _ _ _ _ _ _ _ _ _ _ _ _ _ _ _ _ _)
    unfold owns; iexists _; isplitr
    swap; · iexact H6
    ipureintro; exact View.read_writes_eq_canon _ _ _ (coverFirst2_6 c _ _ _ _ _ _ _ _ _ _ _ _ _ _ _ _ _ _ _ _ _)
  · rw [sumsAt2_later V c t h0, rowsAt2_later V c t h0]
    simp only [before2_6_later V c t h0]
    unfold sumsLaterAt2 rowsLaterAt2 sumsLater2 rowsLater2
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater2 c (grid2.coords t) _ _ _ _ _ _ _ _ _ _ _ _ _ _ (fun h => h0 ((atFirst2_iff t).mp h)) (iblk2 V c 0 t) (iblk2 V c 1 t) (iblk2 V c 2 t) (iblk2 V c 3 t) (iblk2 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater2_5 c _ _ _ _ _ _ _ _ _ _ _ _ _ _ _ _ _ _ _ _ _ _)
    unfold owns; iexists _; isplitr
    swap; · iexact H6
    ipureintro; exact View.read_writes_eq_canon _ _ _ (coverLater2_6 c _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3 of the word-level kernel program's @main (pallas_call 3), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's one branch: is this the first grid point? -/

/-- The condition of the body's only `scf.if` (the program id compared with 0), from the grid coordinates. -/
abbrev first3 (i : grid3.Coords) : Prop := (Scalar.cmpi .ne (Scalar.extui (Scalar.cmpi .eq (BitVec.ofNat 32 (i 0).val) 0#32)) 0#32) = 1#1
/-- It holds at the first point and at no other — decided over the grid. -/
theorem first3_iff : ∀ t : Fin cfg3.N, first3 (grid3.coords t) ↔ t.val = 0 :=
  (by decide +kernel : ∀ t : Fin grid3.N, first3 (grid3.coords t) ↔ t.val = 0)

/-- Each window's current staging memref at point `t`, as the pipeline passes it to the body, and its wholeness. -/
abbrev buf3_0 (t : Fin cfg3.N) : Memref sig .tc .vmem S2000x256 .f32 := win3_0.stage (cfg3.slots t 0)
abbrev whole3_0 (t : Fin cfg3.N) : (buf3_0 t).IsWhole := hstage3_0 ((cfg3.slots t 0).cast nbuf3_0)
abbrev buf3_1 (t : Fin cfg3.N) : Memref sig .tc .vmem S2000x256 .f32 := win3_1.stage (cfg3.slots t 1)
abbrev whole3_1 (t : Fin cfg3.N) : (buf3_1 t).IsWhole := hstage3_1 ((cfg3.slots t 1).cast nbuf3_1)
abbrev buf3_2 (t : Fin cfg3.N) : Memref sig .tc .vmem S256x256 .bf16 := win3_2.stage (cfg3.slots t 2)
abbrev whole3_2 (t : Fin cfg3.N) : (buf3_2 t).IsWhole := hstage3_2 ((cfg3.slots t 2).cast nbuf3_2)
abbrev buf3_3 (t : Fin cfg3.N) : Memref sig .tc .vmem S1x256 .f32 := win3_3.stage (cfg3.slots t 3)
abbrev whole3_3 (t : Fin cfg3.N) : (buf3_3 t).IsWhole := hstage3_3 ((cfg3.slots t 3).cast nbuf3_3)
abbrev buf3_4 (t : Fin cfg3.N) : Memref sig .tc .vmem S2000x256 .f32 := win3_4.stage (cfg3.slots t 4)
abbrev whole3_4 (t : Fin cfg3.N) : (buf3_4 t).IsWhole := hstage3_4 ((cfg3.slots t 4).cast nbuf3_4)
abbrev buf3_5 (t : Fin cfg3.N) : Memref sig .tc .vmem S1x256 .f32 := win3_5.stage (cfg3.slots t 5)
abbrev whole3_5 (t : Fin cfg3.N) : (buf3_5 t).IsWhole := hstage3_5 ((cfg3.slots t 5).cast nbuf3_5)
abbrev buf3_6 (t : Fin cfg3.N) : Memref sig .tc .vmem S1x256 .f32 := win3_6.stage (cfg3.slots t 6)
abbrev whole3_6 (t : Fin cfg3.N) : (buf3_6 t).IsWhole := hstage3_6 ((cfg3.slots t 6).cast nbuf3_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc3__matmul1_stats_kernel i arg1 harg1 arg2 harg2 arg3 harg3 arg4 harg4 arg5 harg5 arg6 harg6 arg7 harg7) K } := by
  refine ⟨?_, ?_, ?_, fun E K => ?run⟩
  case run =>
    simp only [cc3__matmul1_stats_kernel_eq_skeleton]; unfold cc3__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc3__matmul1_stats_kernel i arg1 harg1 arg2 harg2 arg3 harg3 arg4 harg4 arg5 harg5 arg6 harg6 arg7 harg7) K } := by
  refine ⟨?_, ?_, ?_, fun E K => ?run⟩
  case run =>
    simp only [cc3__matmul1_stats_kernel_eq_skeleton]; unfold cc3__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView3 : View sig .tc .vmem S2000x256 .f32 := (stage3_4 0).view
abbrev sumView3 : View sig .tc .vmem S1x256 .f32 := (stage3_5 0).view
abbrev sqView3 : View sig .tc .vmem S1x256 .f32 := (stage3_6 0).view

/-- At the first point each output's pieces tile its block (checked by evaluating the piece list), so they cover it. -/
theorem resetCover3_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) (y : S2000x256.Idx) :
    ∃ pc ∈ (resetRun3 c i arg1 harg1 arg2 harg2 arg3 harg3 arg4 harg4 arg5 harg5 arg6 harg6 arg7 harg7 hc0 x0 x1 x2 x3).1, y ∈ pc.1.set :=
  View.cover_of_tiledL (resetRun3 c i arg1 harg1 arg2 harg2 arg3 harg3 arg4 harg4 arg5 harg5 arg6 harg6 arg7 harg7 hc0 x0 x1 x2 x3).1 S2000x256.size (by sl_kernel_rfl) y
theorem resetCover3_5 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) (y : S1x256.Idx) :
    ∃ pc ∈ (resetRun3 c i arg1 harg1 arg2 harg2 arg3 harg3 arg4 harg4 arg5 harg5 arg6 harg6 arg7 harg7 hc0 x0 x1 x2 x3).2.1, y ∈ pc.1.set :=
  View.cover_of_tiledL (resetRun3 c i arg1 harg1 arg2 harg2 arg3 harg3 arg4 harg4 arg5 harg5 arg6 harg6 arg7 harg7 hc0 x0 x1 x2 x3).2.1 S1x256.size (by sl_kernel_rfl) y
theorem resetCover3_6 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) (y : S1x256.Idx) :
    ∃ pc ∈ (resetRun3 c i arg1 harg1 arg2 harg2 arg3 harg3 arg4 harg4 arg5 harg5 arg6 harg6 arg7 harg7 hc0 x0 x1 x2 x3).2.2.1, y ∈ pc.1.set :=
  View.cover_of_tiledL (resetRun3 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut3_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) : Vec F S2000x256 .f32 :=
  uView3.read (Elt F) (uView3.writes (Elt F) uView3.junk (resetRun3 c i arg1 harg1 arg2 harg2 arg3 harg3 arg4 harg4 arg5 harg5 arg6 harg6 arg7 harg7 hc0 x0 x1 x2 x3).1)
/-- What the first point leaves in the column-sum accumulator. -/
def resetOut3_5 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) : Vec F S1x256 .f32 :=
  sumView3.read (Elt F) (sumView3.writes (Elt F) sumView3.junk (resetRun3 c i arg1 harg1 arg2 harg2 arg3 harg3 arg4 harg4 arg5 harg5 arg6 harg6 arg7 harg7 hc0 x0 x1 x2 x3).2.1)
/-- What the first point leaves in the sum-of-squares accumulator. -/
def resetOut3_6 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) : Vec F S1x256 .f32 :=
  sqView3.read (Elt F) (sqView3.writes (Elt F) sqView3.junk (resetRun3 c i arg1 harg1 arg2 harg2 arg3 harg3 arg4 harg4 arg5 harg5 arg6 harg6 arg7 harg7 hc0 x0 x1 x2 x3).2.2.1)

/-- At a later point too each output's pieces cover its block. -/
theorem carryCover3_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun3 c i arg1 harg1 arg2 harg2 arg3 harg3 arg4 harg4 arg5 harg5 arg6 harg6 arg7 harg7 hc0 x0 x1 x2 x3 xo5 xo6).1, y ∈ pc.1.set :=
  View.cover_of_tiledL (carryRun3 c i arg1 harg1 arg2 harg2 arg3 harg3 arg4 harg4 arg5 harg5 arg6 harg6 arg7 harg7 hc0 x0 x1 x2 x3 xo5 xo6).1 S2000x256.size (by sl_kernel_rfl) y
theorem carryCover3_5 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun3 c i arg1 harg1 arg2 harg2 arg3 harg3 arg4 harg4 arg5 harg5 arg6 harg6 arg7 harg7 hc0 x0 x1 x2 x3 xo5 xo6).2.1, y ∈ pc.1.set :=
  View.cover_of_tiledL (carryRun3 c i arg1 harg1 arg2 harg2 arg3 harg3 arg4 harg4 arg5 harg5 arg6 harg6 arg7 harg7 hc0 x0 x1 x2 x3 xo5 xo6).2.1 S1x256.size (by sl_kernel_rfl) y
theorem carryCover3_6 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun3 c i arg1 harg1 arg2 harg2 arg3 harg3 arg4 harg4 arg5 harg5 arg6 harg6 arg7 harg7 hc0 x0 x1 x2 x3 xo5 xo6).2.2.1, y ∈ pc.1.set :=
  View.cover_of_tiledL (carryRun3 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut3_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView3.read (Elt F) (uView3.writes (Elt F) uView3.junk (carryRun3 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut3_5 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView3.read (Elt F) (sumView3.writes (Elt F) sumView3.junk (carryRun3 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut3_6 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView3.read (Elt F) (sqView3.writes (Elt F) sqView3.junk (carryRun3 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left3 (c : Dev nD) : (n : ℕ) → n < cfg3.N → Vec F S2000x256 .f32 × Vec F S1x256 .f32 × Vec F S1x256 .f32
  | 0, hn =>
    (resetOut3_4 c (grid3.coords ⟨0, hn⟩) (buf3_0 ⟨0, hn⟩) (whole3_0 ⟨0, hn⟩) (buf3_1 ⟨0, hn⟩) (whole3_1 ⟨0, hn⟩) (buf3_2 ⟨0, hn⟩) (whole3_2 ⟨0, hn⟩) (buf3_3 ⟨0, hn⟩) (whole3_3 ⟨0, hn⟩) (buf3_4 ⟨0, hn⟩) (whole3_4 ⟨0, hn⟩) (buf3_5 ⟨0, hn⟩) (whole3_5 ⟨0, hn⟩) (buf3_6 ⟨0, hn⟩) (whole3_6 ⟨0, hn⟩) ((first3_iff ⟨0, hn⟩).mpr rfl) (iblk3 V c 0 ⟨0, hn⟩) (iblk3 V c 1 ⟨0, hn⟩) (iblk3 V c 2 ⟨0, hn⟩) (iblk3 V c 3 ⟨0, hn⟩),
     resetOut3_5 c (grid3.coords ⟨0, hn⟩) (buf3_0 ⟨0, hn⟩) (whole3_0 ⟨0, hn⟩) (buf3_1 ⟨0, hn⟩) (whole3_1 ⟨0, hn⟩) (buf3_2 ⟨0, hn⟩) (whole3_2 ⟨0, hn⟩) (buf3_3 ⟨0, hn⟩) (whole3_3 ⟨0, hn⟩) (buf3_4 ⟨0, hn⟩) (whole3_4 ⟨0, hn⟩) (buf3_5 ⟨0, hn⟩) (whole3_5 ⟨0, hn⟩) (buf3_6 ⟨0, hn⟩) (whole3_6 ⟨0, hn⟩) ((first3_iff ⟨0, hn⟩).mpr rfl) (iblk3 V c 0 ⟨0, hn⟩) (iblk3 V c 1 ⟨0, hn⟩) (iblk3 V c 2 ⟨0, hn⟩) (iblk3 V c 3 ⟨0, hn⟩),
     resetOut3_6 c (grid3.coords ⟨0, hn⟩) (buf3_0 ⟨0, hn⟩) (whole3_0 ⟨0, hn⟩) (buf3_1 ⟨0, hn⟩) (whole3_1 ⟨0, hn⟩) (buf3_2 ⟨0, hn⟩) (whole3_2 ⟨0, hn⟩) (buf3_3 ⟨0, hn⟩) (whole3_3 ⟨0, hn⟩) (buf3_4 ⟨0, hn⟩) (whole3_4 ⟨0, hn⟩) (buf3_5 ⟨0, hn⟩) (whole3_5 ⟨0, hn⟩) (buf3_6 ⟨0, hn⟩) (whole3_6 ⟨0, hn⟩) ((first3_iff ⟨0, hn⟩).mpr rfl) (iblk3 V c 0 ⟨0, hn⟩) (iblk3 V c 1 ⟨0, hn⟩) (iblk3 V c 2 ⟨0, hn⟩) (iblk3 V c 3 ⟨0, hn⟩))
  | n + 1, hn =>
    (carryOut3_4 c (grid3.coords ⟨n + 1, hn⟩) (buf3_0 ⟨n + 1, hn⟩) (whole3_0 ⟨n + 1, hn⟩) (buf3_1 ⟨n + 1, hn⟩) (whole3_1 ⟨n + 1, hn⟩) (buf3_2 ⟨n + 1, hn⟩) (whole3_2 ⟨n + 1, hn⟩) (buf3_3 ⟨n + 1, hn⟩) (whole3_3 ⟨n + 1, hn⟩) (buf3_4 ⟨n + 1, hn⟩) (whole3_4 ⟨n + 1, hn⟩) (buf3_5 ⟨n + 1, hn⟩) (whole3_5 ⟨n + 1, hn⟩) (buf3_6 ⟨n + 1, hn⟩) (whole3_6 ⟨n + 1, hn⟩) (fun h => Nat.succ_ne_zero n ((first3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (left3 c n (Nat.lt_of_succ_lt hn)).2.1 (left3 c n (Nat.lt_of_succ_lt hn)).2.2,
     carryOut3_5 c (grid3.coords ⟨n + 1, hn⟩) (buf3_0 ⟨n + 1, hn⟩) (whole3_0 ⟨n + 1, hn⟩) (buf3_1 ⟨n + 1, hn⟩) (whole3_1 ⟨n + 1, hn⟩) (buf3_2 ⟨n + 1, hn⟩) (whole3_2 ⟨n + 1, hn⟩) (buf3_3 ⟨n + 1, hn⟩) (whole3_3 ⟨n + 1, hn⟩) (buf3_4 ⟨n + 1, hn⟩) (whole3_4 ⟨n + 1, hn⟩) (buf3_5 ⟨n + 1, hn⟩) (whole3_5 ⟨n + 1, hn⟩) (buf3_6 ⟨n + 1, hn⟩) (whole3_6 ⟨n + 1, hn⟩) (fun h => Nat.succ_ne_zero n ((first3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (left3 c n (Nat.lt_of_succ_lt hn)).2.1 (left3 c n (Nat.lt_of_succ_lt hn)).2.2,
     carryOut3_6 c (grid3.coords ⟨n + 1, hn⟩) (buf3_0 ⟨n + 1, hn⟩) (whole3_0 ⟨n + 1, hn⟩) (buf3_1 ⟨n + 1, hn⟩) (whole3_1 ⟨n + 1, hn⟩) (buf3_2 ⟨n + 1, hn⟩) (whole3_2 ⟨n + 1, hn⟩) (buf3_3 ⟨n + 1, hn⟩) (whole3_3 ⟨n + 1, hn⟩) (buf3_4 ⟨n + 1, hn⟩) (whole3_4 ⟨n + 1, hn⟩) (buf3_5 ⟨n + 1, hn⟩) (whole3_5 ⟨n + 1, hn⟩) (buf3_6 ⟨n + 1, hn⟩) (whole3_6 ⟨n + 1, hn⟩) (fun h => Nat.succ_ne_zero n ((first3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (left3 c n (Nat.lt_of_succ_lt hn)).2.1 (left3 c n (Nat.lt_of_succ_lt hn)).2.2)

/-- `left3` at the first point: the reset case's contents. -/
theorem left3_first (c : Dev nD) (t : Fin cfg3.N) (h0 : t.val = 0) :
    left3 V c t.val t.isLt =
    (resetOut3_4 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) ((first3_iff t).mpr h0) (iblk3 V c 0 t) (iblk3 V c 1 t) (iblk3 V c 2 t) (iblk3 V c 3 t),
     resetOut3_5 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) ((first3_iff t).mpr h0) (iblk3 V c 0 t) (iblk3 V c 1 t) (iblk3 V c 2 t) (iblk3 V c 3 t),
     resetOut3_6 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) ((first3_iff t).mpr h0) (iblk3 V c 0 t) (iblk3 V c 1 t) (iblk3 V c 2 t) (iblk3 V c 3 t)) := by
  obtain ⟨n, hn⟩ := t
  cases n with
  | zero => exact rfl
  | succ n => exact absurd h0 (Nat.succ_ne_zero n)

/-- `left3` at a later point: the carrying case's contents, over the accumulator rows the point before left. -/
theorem left3_later (c : Dev nD) (t : Fin cfg3.N) (h0 : ¬t.val = 0) :
    left3 V c t.val t.isLt =
    (carryOut3_4 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) (fun h => h0 ((first3_iff t).mp h)) (iblk3 V c 0 t) (iblk3 V c 1 t) (iblk3 V c 2 t) (iblk3 V c 3 t) (left3 V c (t.val - 1) (Nat.lt_of_le_of_lt (Nat.sub_le _ _) t.isLt)).2.1 (left3 V c (t.val - 1) (Nat.lt_of_le_of_lt (Nat.sub_le _ _) t.isLt)).2.2,
     carryOut3_5 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) (fun h => h0 ((first3_iff t).mp h)) (iblk3 V c 0 t) (iblk3 V c 1 t) (iblk3 V c 2 t) (iblk3 V c 3 t) (left3 V c (t.val - 1) (Nat.lt_of_le_of_lt (Nat.sub_le _ _) t.isLt)).2.1 (left3 V c (t.val - 1) (Nat.lt_of_le_of_lt (Nat.sub_le _ _) t.isLt)).2.2,
     carryOut3_6 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) (fun h => h0 ((first3_iff t).mp h)) (iblk3 V c 0 t) (iblk3 V c 1 t) (iblk3 V c 2 t) (iblk3 V c 3 t) (left3 V c (t.val - 1) (Nat.lt_of_le_of_lt (Nat.sub_le _ _) t.isLt)).2.1 (left3 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left3`; the invariant the scoped rest and the generator register; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (left3 V c t.val t.isLt).1
    | ⟨5, _⟩ => (left3 V c t.val t.isLt).2.1
    | ⟨6, _⟩ => (left3 V c t.val t.isLt).2.2
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (left3 V c t.val t.isLt).1 := by dsimp only [dat3]
theorem after3_5 (c : Dev nD) (t : Fin cfg3.N) : (dat3 V c).after 5 t = (left3 V c t.val t.isLt).2.1 := by dsimp only [dat3]
theorem after3_6 (c : Dev nD) (t : Fin cfg3.N) : (dat3 V c).after 6 t = (left3 V c t.val t.isLt).2.2 := by dsimp only [dat3]

/-- Each input's current staging buffer holds its block at every point, fetched there or not: h and agg are fetched at every
    point; the weight and the bias at the first only, and their block index never moves. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)

/-- At a later point each accumulator's staging buffer holds what the body left at the point before: the buffer is written back
    after the last point only, the window is live and uncut. -/
theorem before3_5_later (c : Dev nD) (t : Fin cfg3.N) (h0 : ¬t.val = 0) (d) :
    (dat3 V c).before 5 t d = (left3 V c (t.val - 1) (Nat.lt_of_le_of_lt (Nat.sub_le _ _) t.isLt)).2.1 := by
  have hN : t.val < 25 := lt_of_lt_of_eq t.isLt (show cfg3.N = 25 from N_3)
  rw [Dat.before_out_kept _ 5 rfl t h0 (Bool.eq_false_iff.mpr fun h => by have := (flush3_5 _).mp h; dsimp only at this; omega)
    (fun _ => rfl) (fun _ _ => rfl)]
  dsimp only [dat3]
theorem before3_6_later (c : Dev nD) (t : Fin cfg3.N) (h0 : ¬t.val = 0) (d) :
    (dat3 V c).before 6 t d = (left3 V c (t.val - 1) (Nat.lt_of_le_of_lt (Nat.sub_le _ _) t.isLt)).2.2 := by
  have hN : t.val < 25 := lt_of_lt_of_eq t.isLt (show cfg3.N = 25 from N_3)
  rw [Dat.before_out_kept _ 6 rfl t h0 (Bool.eq_false_iff.mpr fun h => by have := (flush3_6 _).mp h; dsimp only at this; omega)
    (fun _ => rfl) (fun _ _ => rfl)]
  dsimp only [dat3]

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (buf3_0 t) fullShare ((dat3 V c).before 0 t d))
    ∗ (∃ d, owns (c : Thread nD τ) (buf3_1 t) fullShare ((dat3 V c).before 1 t d))
    ∗ (∃ d, owns (c : Thread nD τ) (buf3_2 t) fullShare ((dat3 V c).before 2 t d))
    ∗ (∃ d, owns (c : Thread nD τ) (buf3_3 t) fullShare ((dat3 V c).before 3 t d))
    ∗ (∃ d, owns (c : Thread nD τ) (buf3_4 t) fullShare ((dat3 V c).before 4 t d))
    ∗ (∃ d, owns (c : Thread nD τ) (buf3_5 t) fullShare ((dat3 V c).before 5 t d))
    ∗ (∃ d, owns (c : Thread nD τ) (buf3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (buf3_0 t) fullShare ((dat3 V c).after 0 t)
    ∗ owns (c : Thread nD τ) (buf3_1 t) fullShare ((dat3 V c).after 1 t)
    ∗ owns (c : Thread nD τ) (buf3_2 t) fullShare ((dat3 V c).after 2 t)
    ∗ owns (c : Thread nD τ) (buf3_3 t) fullShare ((dat3 V c).after 3 t)
    ∗ owns (c : Thread nD τ) (buf3_4 t) fullShare ((dat3 V c).after 4 t)
    ∗ owns (c : Thread nD τ) (buf3_5 t) fullShare ((dat3 V c).after 5 t)
    ∗ owns (c : Thread nD τ) (buf3_6 t) fullShare ((dat3 V c).after 6 t))

set_option maxHeartbeats 1600000 in
/-- The body at any point. The inputs' memrefs hold their blocks; `first3_iff` says which case the point is in; at a later
    point the accumulators' memrefs hold the rows the point before left; so that case's run applies, and each output's pieces,
    covering its block, read back as the contents `left3` names. The invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  by_cases h0 : t.val = 0
  · rw [left3_first V c t h0]
    dsimp only
    unfold resetOut3_4 resetOut3_5 resetOut3_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun3 c (grid3.coords t) _ _ _ _ _ _ _ _ _ _ _ _ _ _ ((first3_iff t).mpr h0) (iblk3 V c 0 t) (iblk3 V c 1 t) (iblk3 V c 2 t) (iblk3 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover3_4 c _ _ _ _ _ _ _ _ _ _ _ _ _ _ _ _ _ _ _ _)
    isplitl [H5]
    · unfold owns; iexists _; isplitr
      swap; · iexact H5
      ipureintro; exact View.read_writes_of_cover _ _ _ _ _ (resetCover3_5 c _ _ _ _ _ _ _ _ _ _ _ _ _ _ _ _ _ _ _ _)
    unfold owns; iexists _; isplitr
    swap; · iexact H6
    ipureintro; exact View.read_writes_of_cover _ _ _ _ _ (resetCover3_6 c _ _ _ _ _ _ _ _ _ _ _ _ _ _ _ _ _ _ _ _)
  · rw [left3_later V c t h0]
    dsimp only
    simp only [before3_5_later V c t h0, before3_6_later V c t h0]
    unfold carryOut3_4 carryOut3_5 carryOut3_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun3 c (grid3.coords t) _ _ _ _ _ _ _ _ _ _ _ _ _ _ (fun h => h0 ((first3_iff t).mp h)) (iblk3 V c 0 t) (iblk3 V c 1 t) (iblk3 V c 2 t) (iblk3 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover3_4 c _ _ _ _ _ _ _ _ _ _ _ _ _ _ _ _ _ _ _ _ _ _)
    isplitl [H5]
    · unfold owns; iexists _; isplitr
      swap; · iexact H5
      ipureintro; exact View.read_writes_of_cover _ _ _ _ _ (carryCover3_5 c _ _ _ _ _ _ _ _ _ _ _ _ _ _ _ _ _ _ _ _ _ _)
    unfold owns; iexists _; isplitr
    swap; · iexact H6
    ipureintro; exact View.read_writes_of_cover _ _ _ _ _ (carryCover3_6 c _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/-
  Region 4 of the word-level kernel program's @main (pallas_call 4), at ANY entry contents `V` of the TensorCore's buffers and at any
  float instance: the proof data of its pipeline (what each window's staging buffer holds after the body at each grid point) and the
  body obligation.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The inputs' staging buffers -/

/-- Input window 0's current staging buffer holds its block at every point, fetched there or not (unfetched, the block index has
    not moved), for ANY proof data whose array is the entry contents' (`hA`) and whose body leaves the block in place (`hafter`). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (unfetched, the block index has
    not moved), for ANY proof data whose array is the entry contents' (`hA`) and whose body leaves the block in place (`hafter`). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (unfetched, the block index has
    not moved), for ANY proof data whose array is the entry contents' (`hA`) and whose body leaves the block in place (`hafter`). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (unfetched, the block index has
    not moved), for ANY proof data whose array is the entry contents' (`hA`) and whose body leaves the block in place (`hafter`). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (unfetched, the block index has
    not moved), for ANY proof data whose array is the entry contents' (`hA`) and whose body leaves the block in place (`hafter`). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (unfetched, the block index has
    not moved), for ANY proof data whose array is the entry contents' (`hA`) and whose body leaves the block in place (`hafter`). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (unfetched, the block index has
    not moved), for ANY proof data whose array is the entry contents' (`hA`) and whose body leaves the block in place (`hafter`). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch condition -/

/-- The condition of the body's one `scf.if` (is this the first point?), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 25 = 0 :=
  (by decide +kernel : ∀ t : Fin grid4.N, cond4_0 (grid4.coords t) ↔ t.val % 25 = 0)

/-! ## The staging memrefs at a point -/

/-- One staging buffer of each output window, through which its contents are stated (the choice does not matter: the stores cover). -/
abbrev VO4_7 : View sig .tc .vmem S2000x256 .f32 := (stage4_7 0).view
abbrev VO4_8 : View sig .tc .vmem S1x256 .f32 := (stage4_8 0).view
abbrev VO4_9 : View sig .tc .vmem S1x256 .f32 := (stage4_9 0).view
/-- Each window's current staging memref at point `t`, spelled as the pipeline passes it to the body, and its wholeness. -/
abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S256x256 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S2000x256 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x256 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x256 .f32 := win4_9.stage (cfg4.slots t 9)
abbrev hs4_9 (t : Fin cfg4.N) : (ms4_9 t).IsWhole := hstage4_9 ((cfg4.slots t 9).cast nbuf4_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun4_A (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc4__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__norm_matmul2_stats_kernel_eq_skeleton]; unfold cc4__norm_matmul2_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun4_B (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc4__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__norm_matmul2_stats_kernel_eq_skeleton]; unfold cc4__norm_matmul2_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover4_A_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out4_A_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover4_A_8 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out4_A_8 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover4_A_9 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out4_A_9 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO4_9.read (Elt F) (VO4_9.writes (Elt F) VO4_9.junk (kernelRun4_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover4_B_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out4_B_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover4_B_8 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out4_B_8 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover4_B_9 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out4_B_9 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO4_9.read (Elt F) (VO4_9.writes (Elt F) VO4_9.junk (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt4 (c : Dev nD) : (n : ℕ) → n < cfg4.N → Vec F S2000x256 .f32 × Vec F S1x256 .f32 × Vec F S1x256 .f32
  | 0, hn => (out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩),
        out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩),
        out4_A_9 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩))
  | n + 1, hn =>
    if h0 : (n + 1) % 25 = 0 then
      (out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩),
        out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩),
        out4_A_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩))
    else
      (out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.1 (outsAt4 c n (Nat.lt_of_succ_lt hn)).2.2,
        out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.1 (outsAt4 c n (Nat.lt_of_succ_lt hn)).2.2,
        out4_B_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.1 (outsAt4 c n (Nat.lt_of_succ_lt hn)).2.2)

/-- `outsAt4` at the first point: the resetting case's contents. -/
theorem outsAt4_A (c : Dev nD) (t : Fin cfg4.N) (h0 : t.val % 25 = 0) :
    outsAt4 V c t.val t.isLt = (out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t),
        out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t),
        out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t)) := by
  obtain ⟨n, hn⟩ := t
  cases n with
  | zero => exact rfl
  | succ n => exact (dif_pos h0).trans rfl

/-- `outsAt4` at any other point: the accumulating case's contents, over what the point before left. -/
theorem outsAt4_B (c : Dev nD) (t : Fin cfg4.N) (h0 : ¬t.val % 25 = 0) :
    outsAt4 V c t.val t.isLt = (out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2,
        out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2,
        out4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt4`; the invariant the scoped rest and the generator register, untouched;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t.val t.isLt).1
    | ⟨8, _⟩ => (outsAt4 V c t.val t.isLt).2.1
    | ⟨9, _⟩ => (outsAt4 V c t.val t.isLt).2.2
  Φ _ := Pipeline.ΦA spec4 c
  q _ := fullShare
  owed _ := 0

/-- The proof data's arrays are the region-entry contents (the definition projected, so that `V` is never unfolded). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = (outsAt4 V c t.val t.isLt).1 := by dsimp only [dat4]
theorem after4_8 (c : Dev nD) (t : Fin cfg4.N) : (dat4 V c).after 8 t = (outsAt4 V c t.val t.isLt).2.1 := by dsimp only [dat4]
theorem after4_9 (c : Dev nD) (t : Fin cfg4.N) : (dat4 V c).after 9 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
/-- At a point other than the first, accumulator window 8's staging buffer holds what the body left at the point before: its block
    is the same at every point and is written back at the last point only. -/
theorem before4_8_B (c : Dev nD) (t : Fin cfg4.N) (h0 : ¬t.val % 25 = 0) (d) :
    (dat4 V c).before 8 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 8 rfl t (by omega) (Bool.eq_false_iff.mpr fun h => by have := (flush4_8 _).mp h; dsimp only at this; omega)
    (fun _ => rfl) (fun _ _ => rfl)]
  dsimp only [dat4]
/-- At a point other than the first, accumulator window 9's staging buffer holds what the body left at the point before: its block
    is the same at every point and is written back at the last point only. -/
theorem before4_9_B (c : Dev nD) (t : Fin cfg4.N) (h0 : ¬t.val % 25 = 0) (d) :
    (dat4 V c).before 9 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 9 rfl t (by omega) (Bool.eq_false_iff.mpr fun h => by have := (flush4_9 _).mp h; dsimp only at this; omega)
    (fun _ => rfl) (fun _ _ => rfl)]
  dsimp only [dat4]

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t)
    ∗ owns (c : Thread nD τ) (ms4_9 t) fullShare ((dat4 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  have hN : t.val < 25 := lt_of_lt_of_eq t.isLt (show cfg4.N = 25 from N_4)
  by_cases h0 : t.val % 25 = 0
  · rw [outsAt4_A V c t h0]
    (try dsimp only)
    unfold out4_A_7 out4_A_8 out4_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun4_A c (grid4.coords t) _ _ _ _ _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t) (iblk4 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover4_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover4_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover4_A_9 c _ _ _ _ _ _ _ _ _ _ _ _ _ _ _ _ _ _ _ _ _ _ _ _ _ _ _ _ _)
  · rw [outsAt4_B V c t h0]
    simp only [before4_8_B V c t h0, before4_9_B V c t h0]
    (try dsimp only)
    unfold out4_B_7 out4_B_8 out4_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun4_B c (grid4.coords t) _ _ _ _ _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) (iblk4 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover4_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover4_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover4_B_9 c _ _ _ _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/-
  Region 5 of the word-level kernel program's @main (pallas_call 5), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The inputs' buffers hold their blocks -/

/-- Input window 0's current staging buffer holds its block at every point, fetched there or not (where it is not fetched its
    block index has not moved), for any proof data over the region's entry contents whose body leaves the block in place. -/
theorem heldIn5_0 {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (where it is not fetched its
    block index has not moved), for any proof data over the region's entry contents whose body leaves the block in place. -/
theorem heldIn5_1 {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (where it is not fetched its
    block index has not moved), for any proof data over the region's entry contents whose body leaves the block in place. -/
theorem heldIn5_2 {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (where it is not fetched its
    block index has not moved), for any proof data over the region's entry contents whose body leaves the block in place. -/
theorem heldIn5_3 {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not (where it is not fetched its
    block index has not moved), for any proof data over the region's entry contents whose body leaves the block in place. -/
theorem heldIn5_4 {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's one branch: is this the first grid point? -/

/-- The condition under which the body resets the running row: the grid coordinate compared with zero, as the body's scalar
    operations compute it. -/
abbrev atFirst5 (i : grid5.Coords) : Prop := (Scalar.cmpi .ne (Scalar.extui (Scalar.cmpi .eq (BitVec.ofNat 32 (i 0).val) 0#32)) 0#32) = 1#1
/-- It holds at the first point of the grid and at no other: decided point by point. -/
theorem atFirst5_iff : ∀ t : Fin cfg5.N, atFirst5 (grid5.coords t) ↔ t.val % 25 = 0 :=
  (by decide +kernel : ∀ t : Fin grid5.N, atFirst5 (grid5.coords t) ↔ t.val % 25 = 0)

/-! ## The staging memrefs the body is called with -/
abbrev stg5_0 (t : Fin cfg5.N) : Memref sig .tc .vmem S2000x256 .f32 := win5_0.stage (cfg5.slots t 0)
abbrev stgWhole5_0 (t : Fin cfg5.N) : (stg5_0 t).IsWhole := hstage5_0 ((cfg5.slots t 0).cast nbuf5_0)
abbrev stg5_1 (t : Fin cfg5.N) : Memref sig .tc .vmem S1x256 .f32 := win5_1.stage (cfg5.slots t 1)
abbrev stgWhole5_1 (t : Fin cfg5.N) : (stg5_1 t).IsWhole := hstage5_1 ((cfg5.slots t 1).cast nbuf5_1)
abbrev stg5_2 (t : Fin cfg5.N) : Memref sig .tc .vmem S1x256 .f32 := win5_2.stage (cfg5.slots t 2)
abbrev stgWhole5_2 (t : Fin cfg5.N) : (stg5_2 t).IsWhole := hstage5_2 ((cfg5.slots t 2).cast nbuf5_2)
abbrev stg5_3 (t : Fin cfg5.N) : Memref sig .tc .vmem S1x256 .f32 := win5_3.stage (cfg5.slots t 3)
abbrev stgWhole5_3 (t : Fin cfg5.N) : (stg5_3 t).IsWhole := hstage5_3 ((cfg5.slots t 3).cast nbuf5_3)
abbrev stg5_4 (t : Fin cfg5.N) : Memref sig .tc .vmem S1x256 .f32 := win5_4.stage (cfg5.slots t 4)
abbrev stgWhole5_4 (t : Fin cfg5.N) : (stg5_4 t).IsWhole := hstage5_4 ((cfg5.slots t 4).cast nbuf5_4)
abbrev stg5_5 (t : Fin cfg5.N) : Memref sig .tc .vmem S2000x256 .f32 := win5_5.stage (cfg5.slots t 5)
abbrev stgWhole5_5 (t : Fin cfg5.N) : (stg5_5 t).IsWhole := hstage5_5 ((cfg5.slots t 5).cast nbuf5_5)
abbrev stg5_6 (t : Fin cfg5.N) : Memref sig .tc .vmem S1x256 .f32 := win5_6.stage (cfg5.slots t 6)
abbrev stgWhole5_6 (t : Fin cfg5.N) : (stg5_6 t).IsWhole := hstage5_6 ((cfg5.slots t 6).cast nbuf5_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc5__norm_readout_kernel i arg1 harg1 arg2 harg2 arg3 harg3 arg4 harg4 arg5 harg5 arg6 harg6 arg7 harg7) K } := by
  refine ⟨?_, ?_, fun E K => ?run⟩
  case run =>
    simp only [cc5__norm_readout_kernel_eq_skeleton]; unfold cc5__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc5__norm_readout_kernel i arg1 harg1 arg2 harg2 arg3 harg3 arg4 harg4 arg5 harg5 arg6 harg6 arg7 harg7) K } := by
  refine ⟨?_, ?_, fun E K => ?run⟩
  case run =>
    simp only [cc5__norm_readout_kernel_eq_skeleton]; unfold cc5__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst5_5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) (y : S2000x256.Idx) :
    ∃ pc ∈ (runFirst5 c i arg1 harg1 arg2 harg2 arg3 harg3 arg4 harg4 arg5 harg5 arg6 harg6 arg7 harg7 hc u mean var gain shift).1, y ∈ pc.1.set :=
  View.cover_of_tiledL (runFirst5 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst5_6 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) (y : S1x256.Idx) :
    ∃ pc ∈ (runFirst5 c i arg1 harg1 arg2 harg2 arg3 harg3 arg4 harg4 arg5 harg5 arg6 harg6 arg7 harg7 hc u mean var gain shift).2.1, y ∈ pc.1.set :=
  View.cover_of_tiledL (runFirst5 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater5_5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater5 c i arg1 harg1 arg2 harg2 arg3 harg3 arg4 harg4 arg5 harg5 arg6 harg6 arg7 harg7 hc u mean var gain shift acc).1, y ∈ pc.1.set :=
  View.cover_of_tiledL (runLater5 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater5_6 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater5 c i arg1 harg1 arg2 harg2 arg3 harg3 arg4 harg4 arg5 harg5 arg6 harg6 arg7 harg7 hc u mean var gain shift acc).2.1, y ∈ pc.1.set :=
  View.cover_of_tiledL (runLater5 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) : Vec F S2000x256 .f32 :=
  View.canon (runFirst5 c i arg1 harg1 arg2 harg2 arg3 harg3 arg4 harg4 arg5 harg5 arg6 harg6 arg7 harg7 hc u mean var gain shift).1

/-- The running row the first point leaves. -/
def sumsFirst5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) : Vec F S1x256 .f32 :=
  View.canon (runFirst5 c i arg1 harg1 arg2 harg2 arg3 harg3 arg4 harg4 arg5 harg5 arg6 harg6 arg7 harg7 hc u mean var gain shift).2.1

/-- The normalized block a later point leaves. -/
def rowsLater5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater5 c i arg1 harg1 arg2 harg2 arg3 harg3 arg4 harg4 arg5 harg5 arg6 harg6 arg7 harg7 hc u mean var gain shift acc).1

/-- The running row a later point leaves, over the row `acc` it found. -/
def sumsLater5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater5 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt5 (c : Dev nD) (t : Fin cfg5.N) (h0 : t.val % 25 = 0) : Vec F S2000x256 .f32 :=
  rowsFirst5 c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) ((atFirst5_iff t).mpr h0) (iblk5 V c 0 t) (iblk5 V c 1 t) (iblk5 V c 2 t) (iblk5 V c 3 t) (iblk5 V c 4 t)

/-- The running row after point `t`, when `t` is the first point. -/
def sumsFirstAt5 (c : Dev nD) (t : Fin cfg5.N) (h0 : t.val % 25 = 0) : Vec F S1x256 .f32 :=
  sumsFirst5 c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) ((atFirst5_iff t).mpr h0) (iblk5 V c 0 t) (iblk5 V c 1 t) (iblk5 V c 2 t) (iblk5 V c 3 t) (iblk5 V c 4 t)

/-- The normalized block of point `t`, when `t` is a later point (the run is stated at the running row it found). -/
def rowsLaterAt5 (c : Dev nD) (t : Fin cfg5.N) (h0 : ¬t.val % 25 = 0) (acc : Vec F S1x256 .f32) : Vec F S2000x256 .f32 :=
  rowsLater5 c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) (fun h => h0 ((atFirst5_iff t).mp h)) (iblk5 V c 0 t) (iblk5 V c 1 t) (iblk5 V c 2 t) (iblk5 V c 3 t) (iblk5 V c 4 t) acc

/-- The running row after point `t`, when `t` is a later point that found the row `acc`. -/
def sumsLaterAt5 (c : Dev nD) (t : Fin cfg5.N) (h0 : ¬t.val % 25 = 0) (acc : Vec F S1x256 .f32) : Vec F S1x256 .f32 :=
  sumsLater5 c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) (fun h => h0 ((atFirst5_iff t).mp h)) (iblk5 V c 0 t) (iblk5 V c 1 t) (iblk5 V c 2 t) (iblk5 V c 3 t) (iblk5 V c 4 t) acc

/-! ## What the outputs hold after each point -/

/-- THE ACCUMULATION: the running row after the body at position `n`. At the first point the reset-and-add case's row; at a later
    point the add case's row over what this gives at `n - 1` (the row's buffer is not written back in between). -/
def sumsAt5 (c : Dev nD) : (n : ℕ) → n < cfg5.N → Vec F S1x256 .f32
  | 0, hn => sumsFirstAt5 V c ⟨0, hn⟩ (Nat.zero_mod _)
  | n + 1, hn =>
    if h0 : (n + 1) % 25 = 0 then sumsFirstAt5 V c ⟨n + 1, hn⟩ h0
    else sumsLaterAt5 V c ⟨n + 1, hn⟩ h0 (sumsAt5 c n (Nat.lt_of_succ_lt hn))

/-- The running row the body finds at point `t` when `t` is not the first: what the point before left. -/
abbrev sumsBefore5 (c : Dev nD) (t : Fin cfg5.N) : Vec F S1x256 .f32 :=
  sumsAt5 V c (t.val - 1) (Nat.lt_of_le_of_lt (Nat.sub_le _ _) t.isLt)

/-- The normalized block after the body at point `t`. -/
def rowsAt5 (c : Dev nD) (t : Fin cfg5.N) : Vec F S2000x256 .f32 :=
  if h0 : t.val % 25 = 0 then rowsFirstAt5 V c t h0 else rowsLaterAt5 V c t h0 (sumsBefore5 V c t)

/-- The running row at the first point. -/
theorem sumsAt5_first (c : Dev nD) (t : Fin cfg5.N) (h0 : t.val % 25 = 0) :
    sumsAt5 V c t.val t.isLt = sumsFirstAt5 V c t h0 := by
  obtain ⟨n, hn⟩ := t
  cases n with
  | zero => exact rfl
  | succ n => exact (dif_pos h0).trans rfl

/-- The running row at a later point: the add case over the row before. -/
theorem sumsAt5_later (c : Dev nD) (t : Fin cfg5.N) (h0 : ¬t.val % 25 = 0) :
    sumsAt5 V c t.val t.isLt = sumsLaterAt5 V c t h0 (sumsBefore5 V c t) := by
  obtain ⟨n, hn⟩ := t
  cases n with
  | zero => exact absurd (Nat.zero_mod _) h0
  | succ n => exact (dif_neg h0).trans rfl

/-- The normalized block at the first point. -/
theorem rowsAt5_first (c : Dev nD) (t : Fin cfg5.N) (h0 : t.val % 25 = 0) : rowsAt5 V c t = rowsFirstAt5 V c t h0 := dif_pos h0

/-- The normalized block at a later point. -/
theorem rowsAt5_later (c : Dev nD) (t : Fin cfg5.N) (h0 : ¬t.val % 25 = 0) :
    rowsAt5 V c t = rowsLaterAt5 V c t h0 (sumsBefore5 V c t) := dif_neg h0

/-! ## The pipeline's proof data -/

/-- The proof data of the region's pipeline on core `c`: the arrays as the region finds them; after the body at point `t` each
    input's buffer still at its block, the normalized block's at `rowsAt5`, the running row's at `sumsAt5`; the class's invariant
    (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => rowsAt5 V c t
    | ⟨6, _⟩ => sumsAt5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = rowsAt5 V c t := by dsimp only [dat5]
theorem after5_6 (c : Dev nD) (t : Fin cfg5.N) : (dat5 V c).after 6 t = sumsAt5 V c t.val t.isLt := by dsimp only [dat5]

/-- What the body finds in each input's buffer: its block. -/
theorem before5_0 (c : Dev nD) (t : Fin cfg5.N) (d) : (dat5 V c).before 0 t d = iblk5 V c 0 t :=
  heldIn5_0 V (dat5 V c) (A_eq5 V c 0) (after5_0 V c) t d
theorem before5_1 (c : Dev nD) (t : Fin cfg5.N) (d) : (dat5 V c).before 1 t d = iblk5 V c 1 t :=
  heldIn5_1 V (dat5 V c) (A_eq5 V c 1) (after5_1 V c) t d
theorem before5_2 (c : Dev nD) (t : Fin cfg5.N) (d) : (dat5 V c).before 2 t d = iblk5 V c 2 t :=
  heldIn5_2 V (dat5 V c) (A_eq5 V c 2) (after5_2 V c) t d
theorem before5_3 (c : Dev nD) (t : Fin cfg5.N) (d) : (dat5 V c).before 3 t d = iblk5 V c 3 t :=
  heldIn5_3 V (dat5 V c) (A_eq5 V c 3) (after5_3 V c) t d
theorem before5_4 (c : Dev nD) (t : Fin cfg5.N) (d) : (dat5 V c).before 4 t d = iblk5 V c 4 t :=
  heldIn5_4 V (dat5 V c) (A_eq5 V c 4) (after5_4 V c) t d

/-- At a later point the running row's buffer holds what the body left at the point before: the point is not the first, the row is
    written back at the last point only, the window is never idle and is uncut. -/
theorem before5_6_later (c : Dev nD) (t : Fin cfg5.N) (h0 : ¬t.val % 25 = 0) (d) :
    (dat5 V c).before 6 t d = sumsBefore5 V c t := by
  have hN : t.val < 25 := lt_of_lt_of_eq t.isLt (show cfg5.N = 25 from N_5)
  rw [Dat.before_out_kept _ 6 rfl t (by omega) (Bool.eq_false_iff.mpr fun h => by have := (flush5_6 _).mp h; dsimp only at this; omega)
    (fun _ => rfl) (fun _ _ => rfl)]
  dsimp only [dat5]

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  by_cases h0 : t.val % 25 = 0
  · rw [sumsAt5_first V c t h0, rowsAt5_first V c t h0]
    unfold sumsFirstAt5 rowsFirstAt5 sumsFirst5 rowsFirst5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst5 c (grid5.coords t) _ _ _ _ _ _ _ _ _ _ _ _ _ _ ((atFirst5_iff t).mpr h0) (iblk5 V c 0 t) (iblk5 V c 1 t) (iblk5 V c 2 t) (iblk5 V c 3 t) (iblk5 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst5_5 c _ _ _ _ _ _ _ _ _ _ _ _ _ _ _ _ _ _ _ _ _)
    unfold owns; iexists _; isplitr
    swap; · iexact H6
    ipureintro; exact View.read_writes_eq_canon _ _ _ (coverFirst5_6 c _ _ _ _ _ _ _ _ _ _ _ _ _ _ _ _ _ _ _ _ _)
  · rw [sumsAt5_later V c t h0, rowsAt5_later V c t h0]
    simp only [before5_6_later V c t h0]
    unfold sumsLaterAt5 rowsLaterAt5 sumsLater5 rowsLater5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater5 c (grid5.coords t) _ _ _ _ _ _ _ _ _ _ _ _ _ _ (fun h => h0 ((atFirst5_iff t).mp h)) (iblk5 V c 0 t) (iblk5 V c 1 t) (iblk5 V c 2 t) (iblk5 V c 3 t) (iblk5 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater5_5 c _ _ _ _ _ _ _ _ _ _ _ _ _ _ _ _ _ _ _ _ _ _)
    unfold owns; iexists _; isplitr
    swap; · iexact H6
    ipureintro; exact View.read_writes_eq_canon _ _ _ (coverLater5_6 c _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/-
  Region 6 of the word-level kernel program's @main (pallas_call 6), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's one branch: is this the first grid point? -/

/-- The condition of the body's only `scf.if` (the program id compared with 0), from the grid coordinates. -/
abbrev first6 (i : grid6.Coords) : Prop := (Scalar.cmpi .ne (Scalar.extui (Scalar.cmpi .eq (BitVec.ofNat 32 (i 0).val) 0#32)) 0#32) = 1#1
/-- It holds at the first point and at no other — decided over the grid. -/
theorem first6_iff : ∀ t : Fin cfg6.N, first6 (grid6.coords t) ↔ t.val = 0 :=
  (by decide +kernel : ∀ t : Fin grid6.N, first6 (grid6.coords t) ↔ t.val = 0)

/-- Each window's current staging memref at point `t`, as the pipeline passes it to the body, and its wholeness. -/
abbrev buf6_0 (t : Fin cfg6.N) : Memref sig .tc .vmem S2000x256 .f32 := win6_0.stage (cfg6.slots t 0)
abbrev whole6_0 (t : Fin cfg6.N) : (buf6_0 t).IsWhole := hstage6_0 ((cfg6.slots t 0).cast nbuf6_0)
abbrev buf6_1 (t : Fin cfg6.N) : Memref sig .tc .vmem S2000x256 .f32 := win6_1.stage (cfg6.slots t 1)
abbrev whole6_1 (t : Fin cfg6.N) : (buf6_1 t).IsWhole := hstage6_1 ((cfg6.slots t 1).cast nbuf6_1)
abbrev buf6_2 (t : Fin cfg6.N) : Memref sig .tc .vmem S256x256 .bf16 := win6_2.stage (cfg6.slots t 2)
abbrev whole6_2 (t : Fin cfg6.N) : (buf6_2 t).IsWhole := hstage6_2 ((cfg6.slots t 2).cast nbuf6_2)
abbrev buf6_3 (t : Fin cfg6.N) : Memref sig .tc .vmem S1x256 .f32 := win6_3.stage (cfg6.slots t 3)
abbrev whole6_3 (t : Fin cfg6.N) : (buf6_3 t).IsWhole := hstage6_3 ((cfg6.slots t 3).cast nbuf6_3)
abbrev buf6_4 (t : Fin cfg6.N) : Memref sig .tc .vmem S2000x256 .f32 := win6_4.stage (cfg6.slots t 4)
abbrev whole6_4 (t : Fin cfg6.N) : (buf6_4 t).IsWhole := hstage6_4 ((cfg6.slots t 4).cast nbuf6_4)
abbrev buf6_5 (t : Fin cfg6.N) : Memref sig .tc .vmem S1x256 .f32 := win6_5.stage (cfg6.slots t 5)
abbrev whole6_5 (t : Fin cfg6.N) : (buf6_5 t).IsWhole := hstage6_5 ((cfg6.slots t 5).cast nbuf6_5)
abbrev buf6_6 (t : Fin cfg6.N) : Memref sig .tc .vmem S1x256 .f32 := win6_6.stage (cfg6.slots t 6)
abbrev whole6_6 (t : Fin cfg6.N) : (buf6_6 t).IsWhole := hstage6_6 ((cfg6.slots t 6).cast nbuf6_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc6__matmul1_stats_kernel i arg1 harg1 arg2 harg2 arg3 harg3 arg4 harg4 arg5 harg5 arg6 harg6 arg7 harg7) K } := by
  refine ⟨?_, ?_, ?_, fun E K => ?run⟩
  case run =>
    simp only [cc6__matmul1_stats_kernel_eq_skeleton]; unfold cc6__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc6__matmul1_stats_kernel i arg1 harg1 arg2 harg2 arg3 harg3 arg4 harg4 arg5 harg5 arg6 harg6 arg7 harg7) K } := by
  refine ⟨?_, ?_, ?_, fun E K => ?run⟩
  case run =>
    simp only [cc6__matmul1_stats_kernel_eq_skeleton]; unfold cc6__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView6 : View sig .tc .vmem S2000x256 .f32 := (stage6_4 0).view
abbrev sumView6 : View sig .tc .vmem S1x256 .f32 := (stage6_5 0).view
abbrev sqView6 : View sig .tc .vmem S1x256 .f32 := (stage6_6 0).view

/-- At the first point each output's pieces tile its block (checked by evaluating the piece list), so they cover it. -/
theorem resetCover6_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) (y : S2000x256.Idx) :
    ∃ pc ∈ (resetRun6 c i arg1 harg1 arg2 harg2 arg3 harg3 arg4 harg4 arg5 harg5 arg6 harg6 arg7 harg7 hc0 x0 x1 x2 x3).1, y ∈ pc.1.set :=
  View.cover_of_tiledL (resetRun6 c i arg1 harg1 arg2 harg2 arg3 harg3 arg4 harg4 arg5 harg5 arg6 harg6 arg7 harg7 hc0 x0 x1 x2 x3).1 S2000x256.size (by sl_kernel_rfl) y
theorem resetCover6_5 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) (y : S1x256.Idx) :
    ∃ pc ∈ (resetRun6 c i arg1 harg1 arg2 harg2 arg3 harg3 arg4 harg4 arg5 harg5 arg6 harg6 arg7 harg7 hc0 x0 x1 x2 x3).2.1, y ∈ pc.1.set :=
  View.cover_of_tiledL (resetRun6 c i arg1 harg1 arg2 harg2 arg3 harg3 arg4 harg4 arg5 harg5 arg6 harg6 arg7 harg7 hc0 x0 x1 x2 x3).2.1 S1x256.size (by sl_kernel_rfl) y
theorem resetCover6_6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) (y : S1x256.Idx) :
    ∃ pc ∈ (resetRun6 c i arg1 harg1 arg2 harg2 arg3 harg3 arg4 harg4 arg5 harg5 arg6 harg6 arg7 harg7 hc0 x0 x1 x2 x3).2.2.1, y ∈ pc.1.set :=
  View.cover_of_tiledL (resetRun6 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut6_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) : Vec F S2000x256 .f32 :=
  uView6.read (Elt F) (uView6.writes (Elt F) uView6.junk (resetRun6 c i arg1 harg1 arg2 harg2 arg3 harg3 arg4 harg4 arg5 harg5 arg6 harg6 arg7 harg7 hc0 x0 x1 x2 x3).1)
/-- What the first point leaves in the column-sum accumulator. -/
def resetOut6_5 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) : Vec F S1x256 .f32 :=
  sumView6.read (Elt F) (sumView6.writes (Elt F) sumView6.junk (resetRun6 c i arg1 harg1 arg2 harg2 arg3 harg3 arg4 harg4 arg5 harg5 arg6 harg6 arg7 harg7 hc0 x0 x1 x2 x3).2.1)
/-- What the first point leaves in the sum-of-squares accumulator. -/
def resetOut6_6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) : Vec F S1x256 .f32 :=
  sqView6.read (Elt F) (sqView6.writes (Elt F) sqView6.junk (resetRun6 c i arg1 harg1 arg2 harg2 arg3 harg3 arg4 harg4 arg5 harg5 arg6 harg6 arg7 harg7 hc0 x0 x1 x2 x3).2.2.1)

/-- At a later point too each output's pieces cover its block. -/
theorem carryCover6_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun6 c i arg1 harg1 arg2 harg2 arg3 harg3 arg4 harg4 arg5 harg5 arg6 harg6 arg7 harg7 hc0 x0 x1 x2 x3 xo5 xo6).1, y ∈ pc.1.set :=
  View.cover_of_tiledL (carryRun6 c i arg1 harg1 arg2 harg2 arg3 harg3 arg4 harg4 arg5 harg5 arg6 harg6 arg7 harg7 hc0 x0 x1 x2 x3 xo5 xo6).1 S2000x256.size (by sl_kernel_rfl) y
theorem carryCover6_5 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun6 c i arg1 harg1 arg2 harg2 arg3 harg3 arg4 harg4 arg5 harg5 arg6 harg6 arg7 harg7 hc0 x0 x1 x2 x3 xo5 xo6).2.1, y ∈ pc.1.set :=
  View.cover_of_tiledL (carryRun6 c i arg1 harg1 arg2 harg2 arg3 harg3 arg4 harg4 arg5 harg5 arg6 harg6 arg7 harg7 hc0 x0 x1 x2 x3 xo5 xo6).2.1 S1x256.size (by sl_kernel_rfl) y
theorem carryCover6_6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun6 c i arg1 harg1 arg2 harg2 arg3 harg3 arg4 harg4 arg5 harg5 arg6 harg6 arg7 harg7 hc0 x0 x1 x2 x3 xo5 xo6).2.2.1, y ∈ pc.1.set :=
  View.cover_of_tiledL (carryRun6 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut6_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView6.read (Elt F) (uView6.writes (Elt F) uView6.junk (carryRun6 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut6_5 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView6.read (Elt F) (sumView6.writes (Elt F) sumView6.junk (carryRun6 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut6_6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView6.read (Elt F) (sqView6.writes (Elt F) sqView6.junk (carryRun6 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left6 (c : Dev nD) : (n : ℕ) → n < cfg6.N → Vec F S2000x256 .f32 × Vec F S1x256 .f32 × Vec F S1x256 .f32
  | 0, hn =>
    (resetOut6_4 c (grid6.coords ⟨0, hn⟩) (buf6_0 ⟨0, hn⟩) (whole6_0 ⟨0, hn⟩) (buf6_1 ⟨0, hn⟩) (whole6_1 ⟨0, hn⟩) (buf6_2 ⟨0, hn⟩) (whole6_2 ⟨0, hn⟩) (buf6_3 ⟨0, hn⟩) (whole6_3 ⟨0, hn⟩) (buf6_4 ⟨0, hn⟩) (whole6_4 ⟨0, hn⟩) (buf6_5 ⟨0, hn⟩) (whole6_5 ⟨0, hn⟩) (buf6_6 ⟨0, hn⟩) (whole6_6 ⟨0, hn⟩) ((first6_iff ⟨0, hn⟩).mpr rfl) (iblk6 V c 0 ⟨0, hn⟩) (iblk6 V c 1 ⟨0, hn⟩) (iblk6 V c 2 ⟨0, hn⟩) (iblk6 V c 3 ⟨0, hn⟩),
     resetOut6_5 c (grid6.coords ⟨0, hn⟩) (buf6_0 ⟨0, hn⟩) (whole6_0 ⟨0, hn⟩) (buf6_1 ⟨0, hn⟩) (whole6_1 ⟨0, hn⟩) (buf6_2 ⟨0, hn⟩) (whole6_2 ⟨0, hn⟩) (buf6_3 ⟨0, hn⟩) (whole6_3 ⟨0, hn⟩) (buf6_4 ⟨0, hn⟩) (whole6_4 ⟨0, hn⟩) (buf6_5 ⟨0, hn⟩) (whole6_5 ⟨0, hn⟩) (buf6_6 ⟨0, hn⟩) (whole6_6 ⟨0, hn⟩) ((first6_iff ⟨0, hn⟩).mpr rfl) (iblk6 V c 0 ⟨0, hn⟩) (iblk6 V c 1 ⟨0, hn⟩) (iblk6 V c 2 ⟨0, hn⟩) (iblk6 V c 3 ⟨0, hn⟩),
     resetOut6_6 c (grid6.coords ⟨0, hn⟩) (buf6_0 ⟨0, hn⟩) (whole6_0 ⟨0, hn⟩) (buf6_1 ⟨0, hn⟩) (whole6_1 ⟨0, hn⟩) (buf6_2 ⟨0, hn⟩) (whole6_2 ⟨0, hn⟩) (buf6_3 ⟨0, hn⟩) (whole6_3 ⟨0, hn⟩) (buf6_4 ⟨0, hn⟩) (whole6_4 ⟨0, hn⟩) (buf6_5 ⟨0, hn⟩) (whole6_5 ⟨0, hn⟩) (buf6_6 ⟨0, hn⟩) (whole6_6 ⟨0, hn⟩) ((first6_iff ⟨0, hn⟩).mpr rfl) (iblk6 V c 0 ⟨0, hn⟩) (iblk6 V c 1 ⟨0, hn⟩) (iblk6 V c 2 ⟨0, hn⟩) (iblk6 V c 3 ⟨0, hn⟩))
  | n + 1, hn =>
    (carryOut6_4 c (grid6.coords ⟨n + 1, hn⟩) (buf6_0 ⟨n + 1, hn⟩) (whole6_0 ⟨n + 1, hn⟩) (buf6_1 ⟨n + 1, hn⟩) (whole6_1 ⟨n + 1, hn⟩) (buf6_2 ⟨n + 1, hn⟩) (whole6_2 ⟨n + 1, hn⟩) (buf6_3 ⟨n + 1, hn⟩) (whole6_3 ⟨n + 1, hn⟩) (buf6_4 ⟨n + 1, hn⟩) (whole6_4 ⟨n + 1, hn⟩) (buf6_5 ⟨n + 1, hn⟩) (whole6_5 ⟨n + 1, hn⟩) (buf6_6 ⟨n + 1, hn⟩) (whole6_6 ⟨n + 1, hn⟩) (fun h => Nat.succ_ne_zero n ((first6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (left6 c n (Nat.lt_of_succ_lt hn)).2.1 (left6 c n (Nat.lt_of_succ_lt hn)).2.2,
     carryOut6_5 c (grid6.coords ⟨n + 1, hn⟩) (buf6_0 ⟨n + 1, hn⟩) (whole6_0 ⟨n + 1, hn⟩) (buf6_1 ⟨n + 1, hn⟩) (whole6_1 ⟨n + 1, hn⟩) (buf6_2 ⟨n + 1, hn⟩) (whole6_2 ⟨n + 1, hn⟩) (buf6_3 ⟨n + 1, hn⟩) (whole6_3 ⟨n + 1, hn⟩) (buf6_4 ⟨n + 1, hn⟩) (whole6_4 ⟨n + 1, hn⟩) (buf6_5 ⟨n + 1, hn⟩) (whole6_5 ⟨n + 1, hn⟩) (buf6_6 ⟨n + 1, hn⟩) (whole6_6 ⟨n + 1, hn⟩) (fun h => Nat.succ_ne_zero n ((first6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (left6 c n (Nat.lt_of_succ_lt hn)).2.1 (left6 c n (Nat.lt_of_succ_lt hn)).2.2,
     carryOut6_6 c (grid6.coords ⟨n + 1, hn⟩) (buf6_0 ⟨n + 1, hn⟩) (whole6_0 ⟨n + 1, hn⟩) (buf6_1 ⟨n + 1, hn⟩) (whole6_1 ⟨n + 1, hn⟩) (buf6_2 ⟨n + 1, hn⟩) (whole6_2 ⟨n + 1, hn⟩) (buf6_3 ⟨n + 1, hn⟩) (whole6_3 ⟨n + 1, hn⟩) (buf6_4 ⟨n + 1, hn⟩) (whole6_4 ⟨n + 1, hn⟩) (buf6_5 ⟨n + 1, hn⟩) (whole6_5 ⟨n + 1, hn⟩) (buf6_6 ⟨n + 1, hn⟩) (whole6_6 ⟨n + 1, hn⟩) (fun h => Nat.succ_ne_zero n ((first6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (left6 c n (Nat.lt_of_succ_lt hn)).2.1 (left6 c n (Nat.lt_of_succ_lt hn)).2.2)

/-- `left6` at the first point: the reset case's contents. -/
theorem left6_first (c : Dev nD) (t : Fin cfg6.N) (h0 : t.val = 0) :
    left6 V c t.val t.isLt =
    (resetOut6_4 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) ((first6_iff t).mpr h0) (iblk6 V c 0 t) (iblk6 V c 1 t) (iblk6 V c 2 t) (iblk6 V c 3 t),
     resetOut6_5 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) ((first6_iff t).mpr h0) (iblk6 V c 0 t) (iblk6 V c 1 t) (iblk6 V c 2 t) (iblk6 V c 3 t),
     resetOut6_6 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) ((first6_iff t).mpr h0) (iblk6 V c 0 t) (iblk6 V c 1 t) (iblk6 V c 2 t) (iblk6 V c 3 t)) := by
  obtain ⟨n, hn⟩ := t
  cases n with
  | zero => exact rfl
  | succ n => exact absurd h0 (Nat.succ_ne_zero n)

/-- `left6` at a later point: the carrying case's contents, over the accumulator rows the point before left. -/
theorem left6_later (c : Dev nD) (t : Fin cfg6.N) (h0 : ¬t.val = 0) :
    left6 V c t.val t.isLt =
    (carryOut6_4 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) (fun h => h0 ((first6_iff t).mp h)) (iblk6 V c 0 t) (iblk6 V c 1 t) (iblk6 V c 2 t) (iblk6 V c 3 t) (left6 V c (t.val - 1) (Nat.lt_of_le_of_lt (Nat.sub_le _ _) t.isLt)).2.1 (left6 V c (t.val - 1) (Nat.lt_of_le_of_lt (Nat.sub_le _ _) t.isLt)).2.2,
     carryOut6_5 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) (fun h => h0 ((first6_iff t).mp h)) (iblk6 V c 0 t) (iblk6 V c 1 t) (iblk6 V c 2 t) (iblk6 V c 3 t) (left6 V c (t.val - 1) (Nat.lt_of_le_of_lt (Nat.sub_le _ _) t.isLt)).2.1 (left6 V c (t.val - 1) (Nat.lt_of_le_of_lt (Nat.sub_le _ _) t.isLt)).2.2,
     carryOut6_6 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) (fun h => h0 ((first6_iff t).mp h)) (iblk6 V c 0 t) (iblk6 V c 1 t) (iblk6 V c 2 t) (iblk6 V c 3 t) (left6 V c (t.val - 1) (Nat.lt_of_le_of_lt (Nat.sub_le _ _) t.isLt)).2.1 (left6 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left6`; the invariant the scoped rest and the generator register; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (left6 V c t.val t.isLt).1
    | ⟨5, _⟩ => (left6 V c t.val t.isLt).2.1
    | ⟨6, _⟩ => (left6 V c t.val t.isLt).2.2
  Φ _ := Pipeline.ΦA spec6 c
  q _ := fullShare
  owed _ := 0

theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (left6 V c t.val t.isLt).1 := by dsimp only [dat6]
theorem after6_5 (c : Dev nD) (t : Fin cfg6.N) : (dat6 V c).after 5 t = (left6 V c t.val t.isLt).2.1 := by dsimp only [dat6]
theorem after6_6 (c : Dev nD) (t : Fin cfg6.N) : (dat6 V c).after 6 t = (left6 V c t.val t.isLt).2.2 := by dsimp only [dat6]

/-- Each input's current staging buffer holds its block at every point, fetched there or not: h and agg are fetched at every
    point; the weight and the bias at the first only, and their block index never moves. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
      (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
      (fun t => by rw [after6_3]; unfold Dat.blockOf iblk6; rw [A_eq6]; try rfl) t d).trans
    (by unfold Dat.fetched Dat.blockOf iblk6; rw [A_eq6]; try rfl)

/-- At a later point each accumulator's staging buffer holds what the body left at the point before: the buffer is written back
    after the last point only, the window is live and uncut. -/
theorem before6_5_later (c : Dev nD) (t : Fin cfg6.N) (h0 : ¬t.val = 0) (d) :
    (dat6 V c).before 5 t d = (left6 V c (t.val - 1) (Nat.lt_of_le_of_lt (Nat.sub_le _ _) t.isLt)).2.1 := by
  have hN : t.val < 25 := lt_of_lt_of_eq t.isLt (show cfg6.N = 25 from N_6)
  rw [Dat.before_out_kept _ 5 rfl t h0 (Bool.eq_false_iff.mpr fun h => by have := (flush6_5 _).mp h; dsimp only at this; omega)
    (fun _ => rfl) (fun _ _ => rfl)]
  dsimp only [dat6]
theorem before6_6_later (c : Dev nD) (t : Fin cfg6.N) (h0 : ¬t.val = 0) (d) :
    (dat6 V c).before 6 t d = (left6 V c (t.val - 1) (Nat.lt_of_le_of_lt (Nat.sub_le _ _) t.isLt)).2.2 := by
  have hN : t.val < 25 := lt_of_lt_of_eq t.isLt (show cfg6.N = 25 from N_6)
  rw [Dat.before_out_kept _ 6 rfl t h0 (Bool.eq_false_iff.mpr fun h => by have := (flush6_6 _).mp h; dsimp only at this; omega)
    (fun _ => rfl) (fun _ _ => rfl)]
  dsimp only [dat6]

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (buf6_0 t) fullShare ((dat6 V c).before 0 t d))
    ∗ (∃ d, owns (c : Thread nD τ) (buf6_1 t) fullShare ((dat6 V c).before 1 t d))
    ∗ (∃ d, owns (c : Thread nD τ) (buf6_2 t) fullShare ((dat6 V c).before 2 t d))
    ∗ (∃ d, owns (c : Thread nD τ) (buf6_3 t) fullShare ((dat6 V c).before 3 t d))
    ∗ (∃ d, owns (c : Thread nD τ) (buf6_4 t) fullShare ((dat6 V c).before 4 t d))
    ∗ (∃ d, owns (c : Thread nD τ) (buf6_5 t) fullShare ((dat6 V c).before 5 t d))
    ∗ (∃ d, owns (c : Thread nD τ) (buf6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (buf6_0 t) fullShare ((dat6 V c).after 0 t)
    ∗ owns (c : Thread nD τ) (buf6_1 t) fullShare ((dat6 V c).after 1 t)
    ∗ owns (c : Thread nD τ) (buf6_2 t) fullShare ((dat6 V c).after 2 t)
    ∗ owns (c : Thread nD τ) (buf6_3 t) fullShare ((dat6 V c).after 3 t)
    ∗ owns (c : Thread nD τ) (buf6_4 t) fullShare ((dat6 V c).after 4 t)
    ∗ owns (c : Thread nD τ) (buf6_5 t) fullShare ((dat6 V c).after 5 t)
    ∗ owns (c : Thread nD τ) (buf6_6 t) fullShare ((dat6 V c).after 6 t))

set_option maxHeartbeats 1600000 in
/-- The body at any point. The inputs' memrefs hold their blocks; `first6_iff` says which case the point is in; at a later
    point the accumulators' memrefs hold the rows the point before left; so that case's run applies, and each output's pieces,
    covering its block, read back as the contents `left6` names. The invariant and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  by_cases h0 : t.val = 0
  · rw [left6_first V c t h0]
    dsimp only
    unfold resetOut6_4 resetOut6_5 resetOut6_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun6 c (grid6.coords t) _ _ _ _ _ _ _ _ _ _ _ _ _ _ ((first6_iff t).mpr h0) (iblk6 V c 0 t) (iblk6 V c 1 t) (iblk6 V c 2 t) (iblk6 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover6_4 c _ _ _ _ _ _ _ _ _ _ _ _ _ _ _ _ _ _ _ _)
    isplitl [H5]
    · unfold owns; iexists _; isplitr
      swap; · iexact H5
      ipureintro; exact View.read_writes_of_cover _ _ _ _ _ (resetCover6_5 c _ _ _ _ _ _ _ _ _ _ _ _ _ _ _ _ _ _ _ _)
    unfold owns; iexists _; isplitr
    swap; · iexact H6
    ipureintro; exact View.read_writes_of_cover _ _ _ _ _ (resetCover6_6 c _ _ _ _ _ _ _ _ _ _ _ _ _ _ _ _ _ _ _ _)
  · rw [left6_later V c t h0]
    dsimp only
    simp only [before6_5_later V c t h0, before6_6_later V c t h0]
    unfold carryOut6_4 carryOut6_5 carryOut6_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun6 c (grid6.coords t) _ _ _ _ _ _ _ _ _ _ _ _ _ _ (fun h => h0 ((first6_iff t).mp h)) (iblk6 V c 0 t) (iblk6 V c 1 t) (iblk6 V c 2 t) (iblk6 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover6_4 c _ _ _ _ _ _ _ _ _ _ _ _ _ _ _ _ _ _ _ _ _ _)
    isplitl [H5]
    · unfold owns; iexists _; isplitr
      swap; · iexact H5
      ipureintro; exact View.read_writes_of_cover _ _ _ _ _ (carryCover6_5 c _ _ _ _ _ _ _ _ _ _ _ _ _ _ _ _ _ _ _ _ _ _)
    unfold owns; iexists _; isplitr
    swap; · iexact H6
    ipureintro; exact View.read_writes_of_cover _ _ _ _ _ (carryCover6_6 c _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/-
  Region 7 of the word-level kernel program's @main (pallas_call 7), at ANY entry contents `V` of the TensorCore's buffers and at any
  float instance: the proof data of its pipeline (what each window's staging buffer holds after the body at each grid point) and the
  body obligation.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The inputs' staging buffers -/

/-- Input window 0's current staging buffer holds its block at every point, fetched there or not (unfetched, the block index has
    not moved), for ANY proof data whose array is the entry contents' (`hA`) and whose body leaves the block in place (`hafter`). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (unfetched, the block index has
    not moved), for ANY proof data whose array is the entry contents' (`hA`) and whose body leaves the block in place (`hafter`). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (unfetched, the block index has
    not moved), for ANY proof data whose array is the entry contents' (`hA`) and whose body leaves the block in place (`hafter`). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not (unfetched, the block index has
    not moved), for ANY proof data whose array is the entry contents' (`hA`) and whose body leaves the block in place (`hafter`). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not (unfetched, the block index has
    not moved), for ANY proof data whose array is the entry contents' (`hA`) and whose body leaves the block in place (`hafter`). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not (unfetched, the block index has
    not moved), for ANY proof data whose array is the entry contents' (`hA`) and whose body leaves the block in place (`hafter`). -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not (unfetched, the block index has
    not moved), for ANY proof data whose array is the entry contents' (`hA`) and whose body leaves the block in place (`hafter`). -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch condition -/

/-- The condition of the body's one `scf.if` (is this the first point?), from the grid coordinates. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val % 25 = 0 :=
  (by decide +kernel : ∀ t : Fin grid7.N, cond7_0 (grid7.coords t) ↔ t.val % 25 = 0)

/-! ## The staging memrefs at a point -/

/-- One staging buffer of each output window, through which its contents are stated (the choice does not matter: the stores cover). -/
abbrev VO7_7 : View sig .tc .vmem S2000x256 .f32 := (stage7_7 0).view
abbrev VO7_8 : View sig .tc .vmem S1x256 .f32 := (stage7_8 0).view
abbrev VO7_9 : View sig .tc .vmem S1x256 .f32 := (stage7_9 0).view
/-- Each window's current staging memref at point `t`, spelled as the pipeline passes it to the body, and its wholeness. -/
abbrev ms7_0 (t : Fin cfg7.N) : Memref sig .tc .vmem S2000x256 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x256 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x256 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x256 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S256x256 .bf16 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x256 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S2000x256 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1x256 .f32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S1x256 .f32 := win7_9.stage (cfg7.slots t 9)
abbrev hs7_9 (t : Fin cfg7.N) : (ms7_9 t).IsWhole := hstage7_9 ((cfg7.slots t 9).cast nbuf7_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun7_A (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc7__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc7__norm_matmul2_stats_kernel_eq_skeleton]; unfold cc7__norm_matmul2_stats_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun7_B (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc7__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc7__norm_matmul2_stats_kernel_eq_skeleton]; unfold cc7__norm_matmul2_stats_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover7_A_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun7_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun7_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out7_A_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO7_7.read (Elt F) (VO7_7.writes (Elt F) VO7_7.junk (kernelRun7_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover7_A_8 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun7_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun7_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out7_A_8 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO7_8.read (Elt F) (VO7_8.writes (Elt F) VO7_8.junk (kernelRun7_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover7_A_9 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun7_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun7_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out7_A_9 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO7_9.read (Elt F) (VO7_9.writes (Elt F) VO7_9.junk (kernelRun7_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover7_B_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun7_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun7_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out7_B_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO7_7.read (Elt F) (VO7_7.writes (Elt F) VO7_7.junk (kernelRun7_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover7_B_8 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out7_B_8 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO7_8.read (Elt F) (VO7_8.writes (Elt F) VO7_8.junk (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover7_B_9 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out7_B_9 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO7_9.read (Elt F) (VO7_9.writes (Elt F) VO7_9.junk (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt7 (c : Dev nD) : (n : ℕ) → n < cfg7.N → Vec F S2000x256 .f32 × Vec F S1x256 .f32 × Vec F S1x256 .f32
  | 0, hn => (out7_A_7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) (ms7_8 ⟨0, hn⟩) (hs7_8 ⟨0, hn⟩) (ms7_9 ⟨0, hn⟩) (hs7_9 ⟨0, hn⟩) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (iblk7 V c 6 ⟨0, hn⟩),
        out7_A_8 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) (ms7_8 ⟨0, hn⟩) (hs7_8 ⟨0, hn⟩) (ms7_9 ⟨0, hn⟩) (hs7_9 ⟨0, hn⟩) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (iblk7 V c 6 ⟨0, hn⟩),
        out7_A_9 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) (ms7_8 ⟨0, hn⟩) (hs7_8 ⟨0, hn⟩) (ms7_9 ⟨0, hn⟩) (hs7_9 ⟨0, hn⟩) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (iblk7 V c 6 ⟨0, hn⟩))
  | n + 1, hn =>
    if h0 : (n + 1) % 25 = 0 then
      (out7_A_7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) ((hcond7_0 ⟨n + 1, hn⟩).mpr h0) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩),
        out7_A_8 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) ((hcond7_0 ⟨n + 1, hn⟩).mpr h0) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩),
        out7_A_9 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) ((hcond7_0 ⟨n + 1, hn⟩).mpr h0) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩))
    else
      (out7_B_7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2.1 (outsAt7 c n (Nat.lt_of_succ_lt hn)).2.2,
        out7_B_8 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2.1 (outsAt7 c n (Nat.lt_of_succ_lt hn)).2.2,
        out7_B_9 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2.1 (outsAt7 c n (Nat.lt_of_succ_lt hn)).2.2)

/-- `outsAt7` at the first point: the resetting case's contents. -/
theorem outsAt7_A (c : Dev nD) (t : Fin cfg7.N) (h0 : t.val % 25 = 0) :
    outsAt7 V c t.val t.isLt = (out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t),
        out7_A_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t),
        out7_A_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t)) := by
  obtain ⟨n, hn⟩ := t
  cases n with
  | zero => exact rfl
  | succ n => exact (dif_pos h0).trans rfl

/-- `outsAt7` at any other point: the accumulating case's contents, over what the point before left. -/
theorem outsAt7_B (c : Dev nD) (t : Fin cfg7.N) (h0 : ¬t.val % 25 = 0) :
    outsAt7 V c t.val t.isLt = (out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2,
        out7_B_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2,
        out7_B_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt7`; the invariant the scoped rest and the generator register, untouched;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => (outsAt7 V c t.val t.isLt).1
    | ⟨8, _⟩ => (outsAt7 V c t.val t.isLt).2.1
    | ⟨9, _⟩ => (outsAt7 V c t.val t.isLt).2.2
  Φ _ := Pipeline.ΦA spec7 c
  q _ := fullShare
  owed _ := 0

/-- The proof data's arrays are the region-entry contents (the definition projected, so that `V` is never unfolded). -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = (outsAt7 V c t.val t.isLt).1 := by dsimp only [dat7]
theorem after7_8 (c : Dev nD) (t : Fin cfg7.N) : (dat7 V c).after 8 t = (outsAt7 V c t.val t.isLt).2.1 := by dsimp only [dat7]
theorem after7_9 (c : Dev nD) (t : Fin cfg7.N) : (dat7 V c).after 9 t = (outsAt7 V c t.val t.isLt).2.2 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
/-- At a point other than the first, accumulator window 8's staging buffer holds what the body left at the point before: its block
    is the same at every point and is written back at the last point only. -/
theorem before7_8_B (c : Dev nD) (t : Fin cfg7.N) (h0 : ¬t.val % 25 = 0) (d) :
    (dat7 V c).before 8 t d = (outsAt7 V c (t.val - 1) (Nat.lt_of_le_of_lt (Nat.sub_le _ _) t.isLt)).2.1 := by
  have hN : t.val < 25 := lt_of_lt_of_eq t.isLt (show cfg7.N = 25 from N_7)
  rw [Dat.before_out_kept _ 8 rfl t (by omega) (Bool.eq_false_iff.mpr fun h => by have := (flush7_8 _).mp h; dsimp only at this; omega)
    (fun _ => rfl) (fun _ _ => rfl)]
  dsimp only [dat7]
/-- At a point other than the first, accumulator window 9's staging buffer holds what the body left at the point before: its block
    is the same at every point and is written back at the last point only. -/
theorem before7_9_B (c : Dev nD) (t : Fin cfg7.N) (h0 : ¬t.val % 25 = 0) (d) :
    (dat7 V c).before 9 t d = (outsAt7 V c (t.val - 1) (Nat.lt_of_le_of_lt (Nat.sub_le _ _) t.isLt)).2.2 := by
  have hN : t.val < 25 := lt_of_lt_of_eq t.isLt (show cfg7.N = 25 from N_7)
  rw [Dat.before_out_kept _ 9 rfl t (by omega) (Bool.eq_false_iff.mpr fun h => by have := (flush7_9 _).mp h; dsimp only at this; omega)
    (fun _ => rfl) (fun _ _ => rfl)]
  dsimp only [dat7]

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t)
    ∗ owns (c : Thread nD τ) (ms7_8 t) fullShare ((dat7 V c).after 8 t)
    ∗ owns (c : Thread nD τ) (ms7_9 t) fullShare ((dat7 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  have hN : t.val < 25 := lt_of_lt_of_eq t.isLt (show cfg7.N = 25 from N_7)
  by_cases h0 : t.val % 25 = 0
  · rw [outsAt7_A V c t h0]
    (try dsimp only)
    unfold out7_A_7 out7_A_8 out7_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun7_A c (grid7.coords t) _ _ _ _ _ _ _ _ _ _ _ _ _ _ _ _ _ _ _ _ ((hcond7_0 t).mpr h0) (iblk7 V c 0 t) (iblk7 V c 1 t) (iblk7 V c 2 t) (iblk7 V c 3 t) (iblk7 V c 4 t) (iblk7 V c 5 t) (iblk7 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover7_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover7_A_9 c _ _ _ _ _ _ _ _ _ _ _ _ _ _ _ _ _ _ _ _ _ _ _ _ _ _ _ _ _)
  · rw [outsAt7_B V c t h0]
    simp only [before7_8_B V c t h0, before7_9_B V c t h0]
    (try dsimp only)
    unfold out7_B_7 out7_B_8 out7_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun7_B c (grid7.coords t) _ _ _ _ _ _ _ _ _ _ _ _ _ _ _ _ _ _ _ _ (fun h => h0 ((hcond7_0 t).mp h)) (iblk7 V c 0 t) (iblk7 V c 1 t) (iblk7 V c 2 t) (iblk7 V c 3 t) (iblk7 V c 4 t) (iblk7 V c 5 t) (iblk7 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover7_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover7_B_9 c _ _ _ _ _ _ _ _ _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
/-
  Region 8 of the word-level kernel program's @main (pallas_call 8), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The inputs' buffers hold their blocks -/

/-- Input window 0's current staging buffer holds its block at every point, fetched there or not (where it is not fetched its
    block index has not moved), for any proof data over the region's entry contents whose body leaves the block in place. -/
theorem heldIn8_0 {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not (where it is not fetched its
    block index has not moved), for any proof data over the region's entry contents whose body leaves the block in place. -/
theorem heldIn8_1 {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not (where it is not fetched its
    block index has not moved), for any proof data over the region's entry contents whose body leaves the block in place. -/
theorem heldIn8_2 {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not (where it is not fetched its
    block index has not moved), for any proof data over the region's entry contents whose body leaves the block in place. -/
theorem heldIn8_3 {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not (where it is not fetched its
    block index has not moved), for any proof data over the region's entry contents whose body leaves the block in place. -/
theorem heldIn8_4 {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's one branch: is this the first grid point? -/

/-- The condition under which the body resets the running row: the grid coordinate compared with zero, as the body's scalar
    operations compute it. -/
abbrev atFirst8 (i : grid8.Coords) : Prop := (Scalar.cmpi .ne (Scalar.extui (Scalar.cmpi .eq (BitVec.ofNat 32 (i 0).val) 0#32)) 0#32) = 1#1
/-- It holds at the first point of the grid and at no other: decided point by point. -/
theorem atFirst8_iff : ∀ t : Fin cfg8.N, atFirst8 (grid8.coords t) ↔ t.val % 25 = 0 :=
  (by decide +kernel : ∀ t : Fin grid8.N, atFirst8 (grid8.coords t) ↔ t.val % 25 = 0)

/-! ## The staging memrefs the body is called with -/
abbrev stg8_0 (t : Fin cfg8.N) : Memref sig .tc .vmem S2000x256 .f32 := win8_0.stage (cfg8.slots t 0)
abbrev stgWhole8_0 (t : Fin cfg8.N) : (stg8_0 t).IsWhole := hstage8_0 ((cfg8.slots t 0).cast nbuf8_0)
abbrev stg8_1 (t : Fin cfg8.N) : Memref sig .tc .vmem S1x256 .f32 := win8_1.stage (cfg8.slots t 1)
abbrev stgWhole8_1 (t : Fin cfg8.N) : (stg8_1 t).IsWhole := hstage8_1 ((cfg8.slots t 1).cast nbuf8_1)
abbrev stg8_2 (t : Fin cfg8.N) : Memref sig .tc .vmem S1x256 .f32 := win8_2.stage (cfg8.slots t 2)
abbrev stgWhole8_2 (t : Fin cfg8.N) : (stg8_2 t).IsWhole := hstage8_2 ((cfg8.slots t 2).cast nbuf8_2)
abbrev stg8_3 (t : Fin cfg8.N) : Memref sig .tc .vmem S1x256 .f32 := win8_3.stage (cfg8.slots t 3)
abbrev stgWhole8_3 (t : Fin cfg8.N) : (stg8_3 t).IsWhole := hstage8_3 ((cfg8.slots t 3).cast nbuf8_3)
abbrev stg8_4 (t : Fin cfg8.N) : Memref sig .tc .vmem S1x256 .f32 := win8_4.stage (cfg8.slots t 4)
abbrev stgWhole8_4 (t : Fin cfg8.N) : (stg8_4 t).IsWhole := hstage8_4 ((cfg8.slots t 4).cast nbuf8_4)
abbrev stg8_5 (t : Fin cfg8.N) : Memref sig .tc .vmem S2000x256 .f32 := win8_5.stage (cfg8.slots t 5)
abbrev stgWhole8_5 (t : Fin cfg8.N) : (stg8_5 t).IsWhole := hstage8_5 ((cfg8.slots t 5).cast nbuf8_5)
abbrev stg8_6 (t : Fin cfg8.N) : Memref sig .tc .vmem S1x256 .f32 := win8_6.stage (cfg8.slots t 6)
abbrev stgWhole8_6 (t : Fin cfg8.N) : (stg8_6 t).IsWhole := hstage8_6 ((cfg8.slots t 6).cast nbuf8_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc8__norm_readout_kernel i arg1 harg1 arg2 harg2 arg3 harg3 arg4 harg4 arg5 harg5 arg6 harg6 arg7 harg7) K } := by
  refine ⟨?_, ?_, fun E K => ?run⟩
  case run =>
    simp only [cc8__norm_readout_kernel_eq_skeleton]; unfold cc8__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc8__norm_readout_kernel i arg1 harg1 arg2 harg2 arg3 harg3 arg4 harg4 arg5 harg5 arg6 harg6 arg7 harg7) K } := by
  refine ⟨?_, ?_, fun E K => ?run⟩
  case run =>
    simp only [cc8__norm_readout_kernel_eq_skeleton]; unfold cc8__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst8_5 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) (y : S2000x256.Idx) :
    ∃ pc ∈ (runFirst8 c i arg1 harg1 arg2 harg2 arg3 harg3 arg4 harg4 arg5 harg5 arg6 harg6 arg7 harg7 hc u mean var gain shift).1, y ∈ pc.1.set :=
  View.cover_of_tiledL (runFirst8 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst8_6 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) (y : S1x256.Idx) :
    ∃ pc ∈ (runFirst8 c i arg1 harg1 arg2 harg2 arg3 harg3 arg4 harg4 arg5 harg5 arg6 harg6 arg7 harg7 hc u mean var gain shift).2.1, y ∈ pc.1.set :=
  View.cover_of_tiledL (runFirst8 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater8_5 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater8 c i arg1 harg1 arg2 harg2 arg3 harg3 arg4 harg4 arg5 harg5 arg6 harg6 arg7 harg7 hc u mean var gain shift acc).1, y ∈ pc.1.set :=
  View.cover_of_tiledL (runLater8 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater8_6 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater8 c i arg1 harg1 arg2 harg2 arg3 harg3 arg4 harg4 arg5 harg5 arg6 harg6 arg7 harg7 hc u mean var gain shift acc).2.1, y ∈ pc.1.set :=
  View.cover_of_tiledL (runLater8 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) : Vec F S2000x256 .f32 :=
  View.canon (runFirst8 c i arg1 harg1 arg2 harg2 arg3 harg3 arg4 harg4 arg5 harg5 arg6 harg6 arg7 harg7 hc u mean var gain shift).1

/-- The running row the first point leaves. -/
def sumsFirst8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) : Vec F S1x256 .f32 :=
  View.canon (runFirst8 c i arg1 harg1 arg2 harg2 arg3 harg3 arg4 harg4 arg5 harg5 arg6 harg6 arg7 harg7 hc u mean var gain shift).2.1

/-- The normalized block a later point leaves. -/
def rowsLater8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater8 c i arg1 harg1 arg2 harg2 arg3 harg3 arg4 harg4 arg5 harg5 arg6 harg6 arg7 harg7 hc u mean var gain shift acc).1

/-- The running row a later point leaves, over the row `acc` it found. -/
def sumsLater8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater8 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt8 (c : Dev nD) (t : Fin cfg8.N) (h0 : t.val % 25 = 0) : Vec F S2000x256 .f32 :=
  rowsFirst8 c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) ((atFirst8_iff t).mpr h0) (iblk8 V c 0 t) (iblk8 V c 1 t) (iblk8 V c 2 t) (iblk8 V c 3 t) (iblk8 V c 4 t)

/-- The running row after point `t`, when `t` is the first point. -/
def sumsFirstAt8 (c : Dev nD) (t : Fin cfg8.N) (h0 : t.val % 25 = 0) : Vec F S1x256 .f32 :=
  sumsFirst8 c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) ((atFirst8_iff t).mpr h0) (iblk8 V c 0 t) (iblk8 V c 1 t) (iblk8 V c 2 t) (iblk8 V c 3 t) (iblk8 V c 4 t)

/-- The normalized block of point `t`, when `t` is a later point (the run is stated at the running row it found). -/
def rowsLaterAt8 (c : Dev nD) (t : Fin cfg8.N) (h0 : ¬t.val % 25 = 0) (acc : Vec F S1x256 .f32) : Vec F S2000x256 .f32 :=
  rowsLater8 c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) (fun h => h0 ((atFirst8_iff t).mp h)) (iblk8 V c 0 t) (iblk8 V c 1 t) (iblk8 V c 2 t) (iblk8 V c 3 t) (iblk8 V c 4 t) acc

/-- The running row after point `t`, when `t` is a later point that found the row `acc`. -/
def sumsLaterAt8 (c : Dev nD) (t : Fin cfg8.N) (h0 : ¬t.val % 25 = 0) (acc : Vec F S1x256 .f32) : Vec F S1x256 .f32 :=
  sumsLater8 c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) (fun h => h0 ((atFirst8_iff t).mp h)) (iblk8 V c 0 t) (iblk8 V c 1 t) (iblk8 V c 2 t) (iblk8 V c 3 t) (iblk8 V c 4 t) acc

/-! ## What the outputs hold after each point -/

/-- THE ACCUMULATION: the running row after the body at position `n`. At the first point the reset-and-add case's row; at a later
    point the add case's row over what this gives at `n - 1` (the row's buffer is not written back in between). -/
def sumsAt8 (c : Dev nD) : (n : ℕ) → n < cfg8.N → Vec F S1x256 .f32
  | 0, hn => sumsFirstAt8 V c ⟨0, hn⟩ (Nat.zero_mod _)
  | n + 1, hn =>
    if h0 : (n + 1) % 25 = 0 then sumsFirstAt8 V c ⟨n + 1, hn⟩ h0
    else sumsLaterAt8 V c ⟨n + 1, hn⟩ h0 (sumsAt8 c n (Nat.lt_of_succ_lt hn))

/-- The running row the body finds at point `t` when `t` is not the first: what the point before left. -/
abbrev sumsBefore8 (c : Dev nD) (t : Fin cfg8.N) : Vec F S1x256 .f32 :=
  sumsAt8 V c (t.val - 1) (Nat.lt_of_le_of_lt (Nat.sub_le _ _) t.isLt)

/-- The normalized block after the body at point `t`. -/
def rowsAt8 (c : Dev nD) (t : Fin cfg8.N) : Vec F S2000x256 .f32 :=
  if h0 : t.val % 25 = 0 then rowsFirstAt8 V c t h0 else rowsLaterAt8 V c t h0 (sumsBefore8 V c t)

/-- The running row at the first point. -/
theorem sumsAt8_first (c : Dev nD) (t : Fin cfg8.N) (h0 : t.val % 25 = 0) :
    sumsAt8 V c t.val t.isLt = sumsFirstAt8 V c t h0 := by
  obtain ⟨n, hn⟩ := t
  cases n with
  | zero => exact rfl
  | succ n => exact (dif_pos h0).trans rfl

/-- The running row at a later point: the add case over the row before. -/
theorem sumsAt8_later (c : Dev nD) (t : Fin cfg8.N) (h0 : ¬t.val % 25 = 0) :
    sumsAt8 V c t.val t.isLt = sumsLaterAt8 V c t h0 (sumsBefore8 V c t) := by
  obtain ⟨n, hn⟩ := t
  cases n with
  | zero => exact absurd (Nat.zero_mod _) h0
  | succ n => exact (dif_neg h0).trans rfl

/-- The normalized block at the first point. -/
theorem rowsAt8_first (c : Dev nD) (t : Fin cfg8.N) (h0 : t.val % 25 = 0) : rowsAt8 V c t = rowsFirstAt8 V c t h0 := dif_pos h0

/-- The normalized block at a later point. -/
theorem rowsAt8_later (c : Dev nD) (t : Fin cfg8.N) (h0 : ¬t.val % 25 = 0) :
    rowsAt8 V c t = rowsLaterAt8 V c t h0 (sumsBefore8 V c t) := dif_neg h0

/-! ## The pipeline's proof data -/

/-- The proof data of the region's pipeline on core `c`: the arrays as the region finds them; after the body at point `t` each
    input's buffer still at its block, the normalized block's at `rowsAt8`, the running row's at `sumsAt8`; the class's invariant
    (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => rowsAt8 V c t
    | ⟨6, _⟩ => sumsAt8 V c t.val t.isLt
  Φ _ := Pipeline.ΦA spec8 c
  q _ := fullShare
  owed _ := 0

theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = rowsAt8 V c t := by dsimp only [dat8]
theorem after8_6 (c : Dev nD) (t : Fin cfg8.N) : (dat8 V c).after 6 t = sumsAt8 V c t.val t.isLt := by dsimp only [dat8]

/-- What the body finds in each input's buffer: its block. -/
theorem before8_0 (c : Dev nD) (t : Fin cfg8.N) (d) : (dat8 V c).before 0 t d = iblk8 V c 0 t :=
  heldIn8_0 V (dat8 V c) (A_eq8 V c 0) (after8_0 V c) t d
theorem before8_1 (c : Dev nD) (t : Fin cfg8.N) (d) : (dat8 V c).before 1 t d = iblk8 V c 1 t :=
  heldIn8_1 V (dat8 V c) (A_eq8 V c 1) (after8_1 V c) t d
theorem before8_2 (c : Dev nD) (t : Fin cfg8.N) (d) : (dat8 V c).before 2 t d = iblk8 V c 2 t :=
  heldIn8_2 V (dat8 V c) (A_eq8 V c 2) (after8_2 V c) t d
theorem before8_3 (c : Dev nD) (t : Fin cfg8.N) (d) : (dat8 V c).before 3 t d = iblk8 V c 3 t :=
  heldIn8_3 V (dat8 V c) (A_eq8 V c 3) (after8_3 V c) t d
theorem before8_4 (c : Dev nD) (t : Fin cfg8.N) (d) : (dat8 V c).before 4 t d = iblk8 V c 4 t :=
  heldIn8_4 V (dat8 V c) (A_eq8 V c 4) (after8_4 V c) t d

/-- At a later point the running row's buffer holds what the body left at the point before: the point is not the first, the row is
    written back at the last point only, the window is never idle and is uncut. -/
theorem before8_6_later (c : Dev nD) (t : Fin cfg8.N) (h0 : ¬t.val % 25 = 0) (d) :
    (dat8 V c).before 6 t d = sumsBefore8 V c t := by
  have hN : t.val < 25 := lt_of_lt_of_eq t.isLt (show cfg8.N = 25 from N_8)
  rw [Dat.before_out_kept _ 6 rfl t (by omega) (Bool.eq_false_iff.mpr fun h => by have := (flush8_6 _).mp h; dsimp only at this; omega)
    (fun _ => rfl) (fun _ _ => rfl)]
  dsimp only [dat8]

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  by_cases h0 : t.val % 25 = 0
  · rw [sumsAt8_first V c t h0, rowsAt8_first V c t h0]
    unfold sumsFirstAt8 rowsFirstAt8 sumsFirst8 rowsFirst8
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst8 c (grid8.coords t) _ _ _ _ _ _ _ _ _ _ _ _ _ _ ((atFirst8_iff t).mpr h0) (iblk8 V c 0 t) (iblk8 V c 1 t) (iblk8 V c 2 t) (iblk8 V c 3 t) (iblk8 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst8_5 c _ _ _ _ _ _ _ _ _ _ _ _ _ _ _ _ _ _ _ _ _)
    unfold owns; iexists _; isplitr
    swap; · iexact H6
    ipureintro; exact View.read_writes_eq_canon _ _ _ (coverFirst8_6 c _ _ _ _ _ _ _ _ _ _ _ _ _ _ _ _ _ _ _ _ _)
  · rw [sumsAt8_later V c t h0, rowsAt8_later V c t h0]
    simp only [before8_6_later V c t h0]
    unfold sumsLaterAt8 rowsLaterAt8 sumsLater8 rowsLater8
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater8 c (grid8.coords t) _ _ _ _ _ _ _ _ _ _ _ _ _ _ (fun h => h0 ((atFirst8_iff t).mp h)) (iblk8 V c 0 t) (iblk8 V c 1 t) (iblk8 V c 2 t) (iblk8 V c 3 t) (iblk8 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater8_5 c _ _ _ _ _ _ _ _ _ _ _ _ _ _ _ _ _ _ _ _ _ _)
    unfold owns; iexists _; isplitr
    swap; · iexact H6
    ipureintro; exact View.read_writes_eq_canon _ _ _ (coverLater8_6 c _ _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
/-
  Region 9 of the word-level kernel program's @main (pallas_call 9), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's one branch: is this the first grid point? -/

/-- The condition of the body's only `scf.if` (the program id compared with 0), from the grid coordinates. -/
abbrev first9 (i : grid9.Coords) : Prop := (Scalar.cmpi .ne (Scalar.extui (Scalar.cmpi .eq (BitVec.ofNat 32 (i 0).val) 0#32)) 0#32) = 1#1
/-- It holds at the first point and at no other — decided over the grid. -/
theorem first9_iff : ∀ t : Fin cfg9.N, first9 (grid9.coords t) ↔ t.val = 0 :=
  (by decide +kernel : ∀ t : Fin grid9.N, first9 (grid9.coords t) ↔ t.val = 0)

/-- Each window's current staging memref at point `t`, as the pipeline passes it to the body, and its wholeness. -/
abbrev buf9_0 (t : Fin cfg9.N) : Memref sig .tc .vmem S2000x256 .f32 := win9_0.stage (cfg9.slots t 0)
abbrev whole9_0 (t : Fin cfg9.N) : (buf9_0 t).IsWhole := hstage9_0 ((cfg9.slots t 0).cast nbuf9_0)
abbrev buf9_1 (t : Fin cfg9.N) : Memref sig .tc .vmem S2000x256 .f32 := win9_1.stage (cfg9.slots t 1)
abbrev whole9_1 (t : Fin cfg9.N) : (buf9_1 t).IsWhole := hstage9_1 ((cfg9.slots t 1).cast nbuf9_1)
abbrev buf9_2 (t : Fin cfg9.N) : Memref sig .tc .vmem S256x256 .bf16 := win9_2.stage (cfg9.slots t 2)
abbrev whole9_2 (t : Fin cfg9.N) : (buf9_2 t).IsWhole := hstage9_2 ((cfg9.slots t 2).cast nbuf9_2)
abbrev buf9_3 (t : Fin cfg9.N) : Memref sig .tc .vmem S1x256 .f32 := win9_3.stage (cfg9.slots t 3)
abbrev whole9_3 (t : Fin cfg9.N) : (buf9_3 t).IsWhole := hstage9_3 ((cfg9.slots t 3).cast nbuf9_3)
abbrev buf9_4 (t : Fin cfg9.N) : Memref sig .tc .vmem S2000x256 .f32 := win9_4.stage (cfg9.slots t 4)
abbrev whole9_4 (t : Fin cfg9.N) : (buf9_4 t).IsWhole := hstage9_4 ((cfg9.slots t 4).cast nbuf9_4)
abbrev buf9_5 (t : Fin cfg9.N) : Memref sig .tc .vmem S1x256 .f32 := win9_5.stage (cfg9.slots t 5)
abbrev whole9_5 (t : Fin cfg9.N) : (buf9_5 t).IsWhole := hstage9_5 ((cfg9.slots t 5).cast nbuf9_5)
abbrev buf9_6 (t : Fin cfg9.N) : Memref sig .tc .vmem S1x256 .f32 := win9_6.stage (cfg9.slots t 6)
abbrev whole9_6 (t : Fin cfg9.N) : (buf9_6 t).IsWhole := hstage9_6 ((cfg9.slots t 6).cast nbuf9_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun9 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc9__matmul1_stats_kernel i arg1 harg1 arg2 harg2 arg3 harg3 arg4 harg4 arg5 harg5 arg6 harg6 arg7 harg7) K } := by
  refine ⟨?_, ?_, ?_, fun E K => ?run⟩
  case run =>
    simp only [cc9__matmul1_stats_kernel_eq_skeleton]; unfold cc9__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun9 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc9__matmul1_stats_kernel i arg1 harg1 arg2 harg2 arg3 harg3 arg4 harg4 arg5 harg5 arg6 harg6 arg7 harg7) K } := by
  refine ⟨?_, ?_, ?_, fun E K => ?run⟩
  case run =>
    simp only [cc9__matmul1_stats_kernel_eq_skeleton]; unfold cc9__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView9 : View sig .tc .vmem S2000x256 .f32 := (stage9_4 0).view
abbrev sumView9 : View sig .tc .vmem S1x256 .f32 := (stage9_5 0).view
abbrev sqView9 : View sig .tc .vmem S1x256 .f32 := (stage9_6 0).view

/-- At the first point each output's pieces tile its block (checked by evaluating the piece list), so they cover it. -/
theorem resetCover9_4 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) (y : S2000x256.Idx) :
    ∃ pc ∈ (resetRun9 c i arg1 harg1 arg2 harg2 arg3 harg3 arg4 harg4 arg5 harg5 arg6 harg6 arg7 harg7 hc0 x0 x1 x2 x3).1, y ∈ pc.1.set :=
  View.cover_of_tiledL (resetRun9 c i arg1 harg1 arg2 harg2 arg3 harg3 arg4 harg4 arg5 harg5 arg6 harg6 arg7 harg7 hc0 x0 x1 x2 x3).1 S2000x256.size (by sl_kernel_rfl) y
theorem resetCover9_5 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) (y : S1x256.Idx) :
    ∃ pc ∈ (resetRun9 c i arg1 harg1 arg2 harg2 arg3 harg3 arg4 harg4 arg5 harg5 arg6 harg6 arg7 harg7 hc0 x0 x1 x2 x3).2.1, y ∈ pc.1.set :=
  View.cover_of_tiledL (resetRun9 c i arg1 harg1 arg2 harg2 arg3 harg3 arg4 harg4 arg5 harg5 arg6 harg6 arg7 harg7 hc0 x0 x1 x2 x3).2.1 S1x256.size (by sl_kernel_rfl) y
theorem resetCover9_6 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) (y : S1x256.Idx) :
    ∃ pc ∈ (resetRun9 c i arg1 harg1 arg2 harg2 arg3 harg3 arg4 harg4 arg5 harg5 arg6 harg6 arg7 harg7 hc0 x0 x1 x2 x3).2.2.1, y ∈ pc.1.set :=
  View.cover_of_tiledL (resetRun9 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut9_4 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) : Vec F S2000x256 .f32 :=
  uView9.read (Elt F) (uView9.writes (Elt F) uView9.junk (resetRun9 c i arg1 harg1 arg2 harg2 arg3 harg3 arg4 harg4 arg5 harg5 arg6 harg6 arg7 harg7 hc0 x0 x1 x2 x3).1)
/-- What the first point leaves in the column-sum accumulator. -/
def resetOut9_5 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) : Vec F S1x256 .f32 :=
  sumView9.read (Elt F) (sumView9.writes (Elt F) sumView9.junk (resetRun9 c i arg1 harg1 arg2 harg2 arg3 harg3 arg4 harg4 arg5 harg5 arg6 harg6 arg7 harg7 hc0 x0 x1 x2 x3).2.1)
/-- What the first point leaves in the sum-of-squares accumulator. -/
def resetOut9_6 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) : Vec F S1x256 .f32 :=
  sqView9.read (Elt F) (sqView9.writes (Elt F) sqView9.junk (resetRun9 c i arg1 harg1 arg2 harg2 arg3 harg3 arg4 harg4 arg5 harg5 arg6 harg6 arg7 harg7 hc0 x0 x1 x2 x3).2.2.1)

/-- At a later point too each output's pieces cover its block. -/
theorem carryCover9_4 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun9 c i arg1 harg1 arg2 harg2 arg3 harg3 arg4 harg4 arg5 harg5 arg6 harg6 arg7 harg7 hc0 x0 x1 x2 x3 xo5 xo6).1, y ∈ pc.1.set :=
  View.cover_of_tiledL (carryRun9 c i arg1 harg1 arg2 harg2 arg3 harg3 arg4 harg4 arg5 harg5 arg6 harg6 arg7 harg7 hc0 x0 x1 x2 x3 xo5 xo6).1 S2000x256.size (by sl_kernel_rfl) y
theorem carryCover9_5 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun9 c i arg1 harg1 arg2 harg2 arg3 harg3 arg4 harg4 arg5 harg5 arg6 harg6 arg7 harg7 hc0 x0 x1 x2 x3 xo5 xo6).2.1, y ∈ pc.1.set :=
  View.cover_of_tiledL (carryRun9 c i arg1 harg1 arg2 harg2 arg3 harg3 arg4 harg4 arg5 harg5 arg6 harg6 arg7 harg7 hc0 x0 x1 x2 x3 xo5 xo6).2.1 S1x256.size (by sl_kernel_rfl) y
theorem carryCover9_6 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun9 c i arg1 harg1 arg2 harg2 arg3 harg3 arg4 harg4 arg5 harg5 arg6 harg6 arg7 harg7 hc0 x0 x1 x2 x3 xo5 xo6).2.2.1, y ∈ pc.1.set :=
  View.cover_of_tiledL (carryRun9 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut9_4 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView9.read (Elt F) (uView9.writes (Elt F) uView9.junk (carryRun9 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut9_5 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView9.read (Elt F) (sumView9.writes (Elt F) sumView9.junk (carryRun9 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut9_6 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView9.read (Elt F) (sqView9.writes (Elt F) sqView9.junk (carryRun9 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left9 (c : Dev nD) : (n : ℕ) → n < cfg9.N → Vec F S2000x256 .f32 × Vec F S1x256 .f32 × Vec F S1x256 .f32
  | 0, hn =>
    (resetOut9_4 c (grid9.coords ⟨0, hn⟩) (buf9_0 ⟨0, hn⟩) (whole9_0 ⟨0, hn⟩) (buf9_1 ⟨0, hn⟩) (whole9_1 ⟨0, hn⟩) (buf9_2 ⟨0, hn⟩) (whole9_2 ⟨0, hn⟩) (buf9_3 ⟨0, hn⟩) (whole9_3 ⟨0, hn⟩) (buf9_4 ⟨0, hn⟩) (whole9_4 ⟨0, hn⟩) (buf9_5 ⟨0, hn⟩) (whole9_5 ⟨0, hn⟩) (buf9_6 ⟨0, hn⟩) (whole9_6 ⟨0, hn⟩) ((first9_iff ⟨0, hn⟩).mpr rfl) (iblk9 V c 0 ⟨0, hn⟩) (iblk9 V c 1 ⟨0, hn⟩) (iblk9 V c 2 ⟨0, hn⟩) (iblk9 V c 3 ⟨0, hn⟩),
     resetOut9_5 c (grid9.coords ⟨0, hn⟩) (buf9_0 ⟨0, hn⟩) (whole9_0 ⟨0, hn⟩) (buf9_1 ⟨0, hn⟩) (whole9_1 ⟨0, hn⟩) (buf9_2 ⟨0, hn⟩) (whole9_2 ⟨0, hn⟩) (buf9_3 ⟨0, hn⟩) (whole9_3 ⟨0, hn⟩) (buf9_4 ⟨0, hn⟩) (whole9_4 ⟨0, hn⟩) (buf9_5 ⟨0, hn⟩) (whole9_5 ⟨0, hn⟩) (buf9_6 ⟨0, hn⟩) (whole9_6 ⟨0, hn⟩) ((first9_iff ⟨0, hn⟩).mpr rfl) (iblk9 V c 0 ⟨0, hn⟩) (iblk9 V c 1 ⟨0, hn⟩) (iblk9 V c 2 ⟨0, hn⟩) (iblk9 V c 3 ⟨0, hn⟩),
     resetOut9_6 c (grid9.coords ⟨0, hn⟩) (buf9_0 ⟨0, hn⟩) (whole9_0 ⟨0, hn⟩) (buf9_1 ⟨0, hn⟩) (whole9_1 ⟨0, hn⟩) (buf9_2 ⟨0, hn⟩) (whole9_2 ⟨0, hn⟩) (buf9_3 ⟨0, hn⟩) (whole9_3 ⟨0, hn⟩) (buf9_4 ⟨0, hn⟩) (whole9_4 ⟨0, hn⟩) (buf9_5 ⟨0, hn⟩) (whole9_5 ⟨0, hn⟩) (buf9_6 ⟨0, hn⟩) (whole9_6 ⟨0, hn⟩) ((first9_iff ⟨0, hn⟩).mpr rfl) (iblk9 V c 0 ⟨0, hn⟩) (iblk9 V c 1 ⟨0, hn⟩) (iblk9 V c 2 ⟨0, hn⟩) (iblk9 V c 3 ⟨0, hn⟩))
  | n + 1, hn =>
    (carryOut9_4 c (grid9.coords ⟨n + 1, hn⟩) (buf9_0 ⟨n + 1, hn⟩) (whole9_0 ⟨n + 1, hn⟩) (buf9_1 ⟨n + 1, hn⟩) (whole9_1 ⟨n + 1, hn⟩) (buf9_2 ⟨n + 1, hn⟩) (whole9_2 ⟨n + 1, hn⟩) (buf9_3 ⟨n + 1, hn⟩) (whole9_3 ⟨n + 1, hn⟩) (buf9_4 ⟨n + 1, hn⟩) (whole9_4 ⟨n + 1, hn⟩) (buf9_5 ⟨n + 1, hn⟩) (whole9_5 ⟨n + 1, hn⟩) (buf9_6 ⟨n + 1, hn⟩) (whole9_6 ⟨n + 1, hn⟩) (fun h => Nat.succ_ne_zero n ((first9_iff ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (left9 c n (Nat.lt_of_succ_lt hn)).2.1 (left9 c n (Nat.lt_of_succ_lt hn)).2.2,
     carryOut9_5 c (grid9.coords ⟨n + 1, hn⟩) (buf9_0 ⟨n + 1, hn⟩) (whole9_0 ⟨n + 1, hn⟩) (buf9_1 ⟨n + 1, hn⟩) (whole9_1 ⟨n + 1, hn⟩) (buf9_2 ⟨n + 1, hn⟩) (whole9_2 ⟨n + 1, hn⟩) (buf9_3 ⟨n + 1, hn⟩) (whole9_3 ⟨n + 1, hn⟩) (buf9_4 ⟨n + 1, hn⟩) (whole9_4 ⟨n + 1, hn⟩) (buf9_5 ⟨n + 1, hn⟩) (whole9_5 ⟨n + 1, hn⟩) (buf9_6 ⟨n + 1, hn⟩) (whole9_6 ⟨n + 1, hn⟩) (fun h => Nat.succ_ne_zero n ((first9_iff ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (left9 c n (Nat.lt_of_succ_lt hn)).2.1 (left9 c n (Nat.lt_of_succ_lt hn)).2.2,
     carryOut9_6 c (grid9.coords ⟨n + 1, hn⟩) (buf9_0 ⟨n + 1, hn⟩) (whole9_0 ⟨n + 1, hn⟩) (buf9_1 ⟨n + 1, hn⟩) (whole9_1 ⟨n + 1, hn⟩) (buf9_2 ⟨n + 1, hn⟩) (whole9_2 ⟨n + 1, hn⟩) (buf9_3 ⟨n + 1, hn⟩) (whole9_3 ⟨n + 1, hn⟩) (buf9_4 ⟨n + 1, hn⟩) (whole9_4 ⟨n + 1, hn⟩) (buf9_5 ⟨n + 1, hn⟩) (whole9_5 ⟨n + 1, hn⟩) (buf9_6 ⟨n + 1, hn⟩) (whole9_6 ⟨n + 1, hn⟩) (fun h => Nat.succ_ne_zero n ((first9_iff ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (left9 c n (Nat.lt_of_succ_lt hn)).2.1 (left9 c n (Nat.lt_of_succ_lt hn)).2.2)

/-- `left9` at the first point: the reset case's contents. -/
theorem left9_first (c : Dev nD) (t : Fin cfg9.N) (h0 : t.val = 0) :
    left9 V c t.val t.isLt =
    (resetOut9_4 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) ((first9_iff t).mpr h0) (iblk9 V c 0 t) (iblk9 V c 1 t) (iblk9 V c 2 t) (iblk9 V c 3 t),
     resetOut9_5 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) ((first9_iff t).mpr h0) (iblk9 V c 0 t) (iblk9 V c 1 t) (iblk9 V c 2 t) (iblk9 V c 3 t),
     resetOut9_6 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) ((first9_iff t).mpr h0) (iblk9 V c 0 t) (iblk9 V c 1 t) (iblk9 V c 2 t) (iblk9 V c 3 t)) := by
  obtain ⟨n, hn⟩ := t
  cases n with
  | zero => exact rfl
  | succ n => exact absurd h0 (Nat.succ_ne_zero n)

/-- `left9` at a later point: the carrying case's contents, over the accumulator rows the point before left. -/
theorem left9_later (c : Dev nD) (t : Fin cfg9.N) (h0 : ¬t.val = 0) :
    left9 V c t.val t.isLt =
    (carryOut9_4 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) (fun h => h0 ((first9_iff t).mp h)) (iblk9 V c 0 t) (iblk9 V c 1 t) (iblk9 V c 2 t) (iblk9 V c 3 t) (left9 V c (t.val - 1) (Nat.lt_of_le_of_lt (Nat.sub_le _ _) t.isLt)).2.1 (left9 V c (t.val - 1) (Nat.lt_of_le_of_lt (Nat.sub_le _ _) t.isLt)).2.2,
     carryOut9_5 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) (fun h => h0 ((first9_iff t).mp h)) (iblk9 V c 0 t) (iblk9 V c 1 t) (iblk9 V c 2 t) (iblk9 V c 3 t) (left9 V c (t.val - 1) (Nat.lt_of_le_of_lt (Nat.sub_le _ _) t.isLt)).2.1 (left9 V c (t.val - 1) (Nat.lt_of_le_of_lt (Nat.sub_le _ _) t.isLt)).2.2,
     carryOut9_6 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) (fun h => h0 ((first9_iff t).mp h)) (iblk9 V c 0 t) (iblk9 V c 1 t) (iblk9 V c 2 t) (iblk9 V c 3 t) (left9 V c (t.val - 1) (Nat.lt_of_le_of_lt (Nat.sub_le _ _) t.isLt)).2.1 (left9 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left9`; the invariant the scoped rest and the generator register; nothing
    owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => (left9 V c t.val t.isLt).1
    | ⟨5, _⟩ => (left9 V c t.val t.isLt).2.1
    | ⟨6, _⟩ => (left9 V c t.val t.isLt).2.2
  Φ _ := Pipeline.ΦA spec9 c
  q _ := fullShare
  owed _ := 0

theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = (left9 V c t.val t.isLt).1 := by dsimp only [dat9]
theorem after9_5 (c : Dev nD) (t : Fin cfg9.N) : (dat9 V c).after 5 t = (left9 V c t.val t.isLt).2.1 := by dsimp only [dat9]
theorem after9_6 (c : Dev nD) (t : Fin cfg9.N) : (dat9 V c).after 6 t = (left9 V c t.val t.isLt).2.2 := by dsimp only [dat9]

/-- Each input's current staging buffer holds its block at every point, fetched there or not: h and agg are fetched at every
    point; the weight and the bias at the first only, and their block index never moves. -/
theorem before9_0 (c : Dev nD) (t : Fin cfg9.N) (d) : (dat9 V c).before 0 t d = iblk9 V c 0 t :=
  ((dat9 V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)

/-- At a later point each accumulator's staging buffer holds what the body left at the point before: the buffer is written back
    after the last point only, the window is live and uncut. -/
theorem before9_5_later (c : Dev nD) (t : Fin cfg9.N) (h0 : ¬t.val = 0) (d) :
    (dat9 V c).before 5 t d = (left9 V c (t.val - 1) (Nat.lt_of_le_of_lt (Nat.sub_le _ _) t.isLt)).2.1 := by
  have hN : t.val < 25 := lt_of_lt_of_eq t.isLt (show cfg9.N = 25 from N_9)
  rw [Dat.before_out_kept _ 5 rfl t h0 (Bool.eq_false_iff.mpr fun h => by have := (flush9_5 _).mp h; dsimp only at this; omega)
    (fun _ => rfl) (fun _ _ => rfl)]
  dsimp only [dat9]
theorem before9_6_later (c : Dev nD) (t : Fin cfg9.N) (h0 : ¬t.val = 0) (d) :
    (dat9 V c).before 6 t d = (left9 V c (t.val - 1) (Nat.lt_of_le_of_lt (Nat.sub_le _ _) t.isLt)).2.2 := by
  have hN : t.val < 25 := lt_of_lt_of_eq t.isLt (show cfg9.N = 25 from N_9)
  rw [Dat.before_out_kept _ 6 rfl t h0 (Bool.eq_false_iff.mpr fun h => by have := (flush9_6 _).mp h; dsimp only at this; omega)
    (fun _ => rfl) (fun _ _ => rfl)]
  dsimp only [dat9]

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (buf9_0 t) fullShare ((dat9 V c).before 0 t d))
    ∗ (∃ d, owns (c : Thread nD τ) (buf9_1 t) fullShare ((dat9 V c).before 1 t d))
    ∗ (∃ d, owns (c : Thread nD τ) (buf9_2 t) fullShare ((dat9 V c).before 2 t d))
    ∗ (∃ d, owns (c : Thread nD τ) (buf9_3 t) fullShare ((dat9 V c).before 3 t d))
    ∗ (∃ d, owns (c : Thread nD τ) (buf9_4 t) fullShare ((dat9 V c).before 4 t d))
    ∗ (∃ d, owns (c : Thread nD τ) (buf9_5 t) fullShare ((dat9 V c).before 5 t d))
    ∗ (∃ d, owns (c : Thread nD τ) (buf9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (buf9_0 t) fullShare ((dat9 V c).after 0 t)
    ∗ owns (c : Thread nD τ) (buf9_1 t) fullShare ((dat9 V c).after 1 t)
    ∗ owns (c : Thread nD τ) (buf9_2 t) fullShare ((dat9 V c).after 2 t)
    ∗ owns (c : Thread nD τ) (buf9_3 t) fullShare ((dat9 V c).after 3 t)
    ∗ owns (c : Thread nD τ) (buf9_4 t) fullShare ((dat9 V c).after 4 t)
    ∗ owns (c : Thread nD τ) (buf9_5 t) fullShare ((dat9 V c).after 5 t)
    ∗ owns (c : Thread nD τ) (buf9_6 t) fullShare ((dat9 V c).after 6 t))

set_option maxHeartbeats 1600000 in
/-- The body at any point. The inputs' memrefs hold their blocks; `first9_iff` says which case the point is in; at a later
    point the accumulators' memrefs hold the rows the point before left; so that case's run applies, and each output's pieces,
    covering its block, read back as the contents `left9` names. The invariant and what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  by_cases h0 : t.val = 0
  · rw [left9_first V c t h0]
    dsimp only
    unfold resetOut9_4 resetOut9_5 resetOut9_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun9 c (grid9.coords t) _ _ _ _ _ _ _ _ _ _ _ _ _ _ ((first9_iff t).mpr h0) (iblk9 V c 0 t) (iblk9 V c 1 t) (iblk9 V c 2 t) (iblk9 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover9_4 c _ _ _ _ _ _ _ _ _ _ _ _ _ _ _ _ _ _ _ _)
    isplitl [H5]
    · unfold owns; iexists _; isplitr
      swap; · iexact H5
      ipureintro; exact View.read_writes_of_cover _ _ _ _ _ (resetCover9_5 c _ _ _ _ _ _ _ _ _ _ _ _ _ _ _ _ _ _ _ _)
    unfold owns; iexists _; isplitr
    swap; · iexact H6
    ipureintro; exact View.read_writes_of_cover _ _ _ _ _ (resetCover9_6 c _ _ _ _ _ _ _ _ _ _ _ _ _ _ _ _ _ _ _ _)
  · rw [left9_later V c t h0]
    dsimp only
    simp only [before9_5_later V c t h0, before9_6_later V c t h0]
    unfold carryOut9_4 carryOut9_5 carryOut9_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun9 c (grid9.coords t) _ _ _ _ _ _ _ _ _ _ _ _ _ _ (fun h => h0 ((first9_iff t).mp h)) (iblk9 V c 0 t) (iblk9 V c 1 t) (iblk9 V c 2 t) (iblk9 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover9_4 c _ _ _ _ _ _ _ _ _ _ _ _ _ _ _ _ _ _ _ _ _ _)
    isplitl [H5]
    · unfold owns; iexists _; isplitr
      swap; · iexact H5
      ipureintro; exact View.read_writes_of_cover _ _ _ _ _ (carryCover9_5 c _ _ _ _ _ _ _ _ _ _ _ _ _ _ _ _ _ _ _ _ _ _)
    unfold owns; iexists _; isplitr
    swap; · iexact H6
    ipureintro; exact View.read_writes_of_cover _ _ _ _ _ (carryCover9_6 c _ _ _ _ _ _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10.lean ====
/-
  Region 10 of the word-level kernel program's @main (pallas_call 10), at ANY entry contents `V` of the TensorCore's buffers and at any
  float instance: the proof data of its pipeline (what each window's staging buffer holds after the body at each grid point) and the
  body obligation.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The inputs' staging buffers -/

/-- Input window 0's current staging buffer holds its block at every point, fetched there or not (unfetched, the block index has
    not moved), for ANY proof data whose array is the entry contents' (`hA`) and whose body leaves the block in place (`hafter`). -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not (unfetched, the block index has
    not moved), for ANY proof data whose array is the entry contents' (`hA`) and whose body leaves the block in place (`hafter`). -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not (unfetched, the block index has
    not moved), for ANY proof data whose array is the entry contents' (`hA`) and whose body leaves the block in place (`hafter`). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not (unfetched, the block index has
    not moved), for ANY proof data whose array is the entry contents' (`hA`) and whose body leaves the block in place (`hafter`). -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not (unfetched, the block index has
    not moved), for ANY proof data whose array is the entry contents' (`hA`) and whose body leaves the block in place (`hafter`). -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not (unfetched, the block index has
    not moved), for ANY proof data whose array is the entry contents' (`hA`) and whose body leaves the block in place (`hafter`). -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not (unfetched, the block index has
    not moved), for ANY proof data whose array is the entry contents' (`hA`) and whose body leaves the block in place (`hafter`). -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch condition -/

/-- The condition of the body's one `scf.if` (is this the first point?), from the grid coordinates. -/
abbrev cond10_0 (i : grid10.Coords) : Prop := (Scalar.cmpi .ne (Scalar.extui (Scalar.cmpi .eq (BitVec.ofNat 32 (i 0).val) 0#32)) 0#32) = 1#1
/-- It holds at the first point only — decided over the grid. -/
theorem hcond10_0 : ∀ t : Fin cfg10.N, cond10_0 (grid10.coords t) ↔ t.val % 25 = 0 :=
  (by decide +kernel : ∀ t : Fin grid10.N, cond10_0 (grid10.coords t) ↔ t.val % 25 = 0)

/-! ## The staging memrefs at a point -/

/-- One staging buffer of each output window, through which its contents are stated (the choice does not matter: the stores cover). -/
abbrev VO10_7 : View sig .tc .vmem S2000x256 .f32 := (stage10_7 0).view
abbrev VO10_8 : View sig .tc .vmem S1x256 .f32 := (stage10_8 0).view
abbrev VO10_9 : View sig .tc .vmem S1x256 .f32 := (stage10_9 0).view
/-- Each window's current staging memref at point `t`, spelled as the pipeline passes it to the body, and its wholeness. -/
abbrev ms10_0 (t : Fin cfg10.N) : Memref sig .tc .vmem S2000x256 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x256 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x256 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x256 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x256 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S256x256 .bf16 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S1x256 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S2000x256 .f32 := win10_7.stage (cfg10.slots t 7)
abbrev hs10_7 (t : Fin cfg10.N) : (ms10_7 t).IsWhole := hstage10_7 ((cfg10.slots t 7).cast nbuf10_7)
abbrev ms10_8 (t : Fin cfg10.N) : Memref sig .tc .vmem S1x256 .f32 := win10_8.stage (cfg10.slots t 8)
abbrev hs10_8 (t : Fin cfg10.N) : (ms10_8 t).IsWhole := hstage10_8 ((cfg10.slots t 8).cast nbuf10_8)
abbrev ms10_9 (t : Fin cfg10.N) : Memref sig .tc .vmem S1x256 .f32 := win10_9.stage (cfg10.slots t 9)
abbrev hs10_9 (t : Fin cfg10.N) : (ms10_9 t).IsWhole := hstage10_9 ((cfg10.slots t 9).cast nbuf10_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun10_A (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc10__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc10__norm_matmul2_stats_kernel_eq_skeleton]; unfold cc10__norm_matmul2_stats_kernel_skel
    simp only [k10_part1_eq_skeleton]; unfold k10_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun10_B (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc10__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc10__norm_matmul2_stats_kernel_eq_skeleton]; unfold cc10__norm_matmul2_stats_kernel_skel
    simp only [k10_part1_eq_skeleton]; unfold k10_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover10_A_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun10_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun10_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out10_A_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO10_7.read (Elt F) (VO10_7.writes (Elt F) VO10_7.junk (kernelRun10_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover10_A_8 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun10_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun10_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out10_A_8 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO10_8.read (Elt F) (VO10_8.writes (Elt F) VO10_8.junk (kernelRun10_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover10_A_9 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun10_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun10_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out10_A_9 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO10_9.read (Elt F) (VO10_9.writes (Elt F) VO10_9.junk (kernelRun10_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover10_B_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun10_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun10_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out10_B_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO10_7.read (Elt F) (VO10_7.writes (Elt F) VO10_7.junk (kernelRun10_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover10_B_8 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out10_B_8 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO10_8.read (Elt F) (VO10_8.writes (Elt F) VO10_8.junk (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover10_B_9 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out10_B_9 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO10_9.read (Elt F) (VO10_9.writes (Elt F) VO10_9.junk (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt10 (c : Dev nD) : (n : ℕ) → n < cfg10.N → Vec F S2000x256 .f32 × Vec F S1x256 .f32 × Vec F S1x256 .f32
  | 0, hn => (out10_A_7 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩),
        out10_A_8 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩),
        out10_A_9 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩))
  | n + 1, hn =>
    if h0 : (n + 1) % 25 = 0 then
      (out10_A_7 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩),
        out10_A_8 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩),
        out10_A_9 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩))
    else
      (out10_B_7 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (outsAt10 c n (Nat.lt_of_succ_lt hn)).2.1 (outsAt10 c n (Nat.lt_of_succ_lt hn)).2.2,
        out10_B_8 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (outsAt10 c n (Nat.lt_of_succ_lt hn)).2.1 (outsAt10 c n (Nat.lt_of_succ_lt hn)).2.2,
        out10_B_9 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (outsAt10 c n (Nat.lt_of_succ_lt hn)).2.1 (outsAt10 c n (Nat.lt_of_succ_lt hn)).2.2)

/-- `outsAt10` at the first point: the resetting case's contents. -/
theorem outsAt10_A (c : Dev nD) (t : Fin cfg10.N) (h0 : t.val % 25 = 0) :
    outsAt10 V c t.val t.isLt = (out10_A_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr h0) (iblk10 V c 0 t) (iblk10 V c 1 t) (iblk10 V c 2 t) (iblk10 V c 3 t) (iblk10 V c 4 t) (iblk10 V c 5 t) (iblk10 V c 6 t),
        out10_A_8 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr h0) (iblk10 V c 0 t) (iblk10 V c 1 t) (iblk10 V c 2 t) (iblk10 V c 3 t) (iblk10 V c 4 t) (iblk10 V c 5 t) (iblk10 V c 6 t),
        out10_A_9 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr h0) (iblk10 V c 0 t) (iblk10 V c 1 t) (iblk10 V c 2 t) (iblk10 V c 3 t) (iblk10 V c 4 t) (iblk10 V c 5 t) (iblk10 V c 6 t)) := by
  obtain ⟨n, hn⟩ := t
  cases n with
  | zero => exact rfl
  | succ n => exact (dif_pos h0).trans rfl

/-- `outsAt10` at any other point: the accumulating case's contents, over what the point before left. -/
theorem outsAt10_B (c : Dev nD) (t : Fin cfg10.N) (h0 : ¬t.val % 25 = 0) :
    outsAt10 V c t.val t.isLt = (out10_B_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2,
        out10_B_8 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2,
        out10_B_9 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt10`; the invariant the scoped rest and the generator register, untouched;
    nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => (outsAt10 V c t.val t.isLt).1
    | ⟨8, _⟩ => (outsAt10 V c t.val t.isLt).2.1
    | ⟨9, _⟩ => (outsAt10 V c t.val t.isLt).2.2
  Φ _ := Pipeline.ΦA spec10 c
  q _ := fullShare
  owed _ := 0

/-- The proof data's arrays are the region-entry contents (the definition projected, so that `V` is never unfolded). -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = (outsAt10 V c t.val t.isLt).1 := by dsimp only [dat10]
theorem after10_8 (c : Dev nD) (t : Fin cfg10.N) : (dat10 V c).after 8 t = (outsAt10 V c t.val t.isLt).2.1 := by dsimp only [dat10]
theorem after10_9 (c : Dev nD) (t : Fin cfg10.N) : (dat10 V c).after 9 t = (outsAt10 V c t.val t.isLt).2.2 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
/-- At a point other than the first, accumulator window 8's staging buffer holds what the body left at the point before: its block
    is the same at every point and is written back at the last point only. -/
theorem before10_8_B (c : Dev nD) (t : Fin cfg10.N) (h0 : ¬t.val % 25 = 0) (d) :
    (dat10 V c).before 8 t d = (outsAt10 V c (t.val - 1) (Nat.lt_of_le_of_lt (Nat.sub_le _ _) t.isLt)).2.1 := by
  have hN : t.val < 25 := lt_of_lt_of_eq t.isLt (show cfg10.N = 25 from N_10)
  rw [Dat.before_out_kept _ 8 rfl t (by omega) (Bool.eq_false_iff.mpr fun h => by have := (flush10_8 _).mp h; dsimp only at this; omega)
    (fun _ => rfl) (fun _ _ => rfl)]
  dsimp only [dat10]
/-- At a point other than the first, accumulator window 9's staging buffer holds what the body left at the point before: its block
    is the same at every point and is written back at the last point only. -/
theorem before10_9_B (c : Dev nD) (t : Fin cfg10.N) (h0 : ¬t.val % 25 = 0) (d) :
    (dat10 V c).before 9 t d = (outsAt10 V c (t.val - 1) (Nat.lt_of_le_of_lt (Nat.sub_le _ _) t.isLt)).2.2 := by
  have hN : t.val < 25 := lt_of_lt_of_eq t.isLt (show cfg10.N = 25 from N_10)
  rw [Dat.before_out_kept _ 9 rfl t (by omega) (Bool.eq_false_iff.mpr fun h => by have := (flush10_9 _).mp h; dsimp only at this; omega)
    (fun _ => rfl) (fun _ _ => rfl)]
  dsimp only [dat10]

/-! ## The body obligation, at a generic point -/

/-- What the body is called with at point `t` (the windows one by one), -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d))
    ∗ (∃ d, owns (c : Thread nD τ) (ms10_8 t) fullShare ((dat10 V c).before 8 t d))
    ∗ (∃ d, owns (c : Thread nD τ) (ms10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t)
    ∗ owns (c : Thread nD τ) (ms10_6 t) fullShare ((dat10 V c).after 6 t)
    ∗ owns (c : Thread nD τ) (ms10_7 t) fullShare ((dat10 V c).after 7 t)
    ∗ owns (c : Thread nD τ) (ms10_8 t) fullShare ((dat10 V c).after 8 t)
    ∗ owns (c : Thread nD τ) (ms10_9 t) fullShare ((dat10 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  have hN : t.val < 25 := lt_of_lt_of_eq t.isLt (show cfg10.N = 25 from N_10)
  by_cases h0 : t.val % 25 = 0
  · rw [outsAt10_A V c t h0]
    (try dsimp only)
    unfold out10_A_7 out10_A_8 out10_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun10_A c (grid10.coords t) _ _ _ _ _ _ _ _ _ _ _ _ _ _ _ _ _ _ _ _ ((hcond10_0 t).mpr h0) (iblk10 V c 0 t) (iblk10 V c 1 t) (iblk10 V c 2 t) (iblk10 V c 3 t) (iblk10 V c 4 t) (iblk10 V c 5 t) (iblk10 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover10_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover10_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover10_A_9 c _ _ _ _ _ _ _ _ _ _ _ _ _ _ _ _ _ _ _ _ _ _ _ _ _ _ _ _ _)
  · rw [outsAt10_B V c t h0]
    simp only [before10_8_B V c t h0, before10_9_B V c t h0]
    (try dsimp only)
    unfold out10_B_7 out10_B_8 out10_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun10_B c (grid10.coords t) _ _ _ _ _ _ _ _ _ _ _ _ _ _ _ _ _ _ _ _ (fun h => h0 ((hcond10_0 t).mp h)) (iblk10 V c 0 t) (iblk10 V c 1 t) (iblk10 V c 2 t) (iblk10 V c 3 t) (iblk10 V c 4 t) (iblk10 V c 5 t) (iblk10 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover10_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover10_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover10_B_9 c _ _ _ _ _ _ _ _ _ _ _ _ _ _ _ _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11.lean ====
/-
  Region 11 of the word-level kernel program's @main (pallas_call 11), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The inputs' buffers hold their blocks -/

/-- Input window 0's current staging buffer holds its block at every point, fetched there or not (where it is not fetched its
    block index has not moved), for any proof data over the region's entry contents whose body leaves the block in place. -/
theorem heldIn11_0 {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not (where it is not fetched its
    block index has not moved), for any proof data over the region's entry contents whose body leaves the block in place. -/
theorem heldIn11_1 {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not (where it is not fetched its
    block index has not moved), for any proof data over the region's entry contents whose body leaves the block in place. -/
theorem heldIn11_2 {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not (where it is not fetched its
    block index has not moved), for any proof data over the region's entry contents whose body leaves the block in place. -/
theorem heldIn11_3 {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not (where it is not fetched its
    block index has not moved), for any proof data over the region's entry contents whose body leaves the block in place. -/
theorem heldIn11_4 {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's one branch: is this the first grid point? -/

/-- The condition under which the body resets the running row: the grid coordinate compared with zero, as the body's scalar
    operations compute it. -/
abbrev atFirst11 (i : grid11.Coords) : Prop := (Scalar.cmpi .ne (Scalar.extui (Scalar.cmpi .eq (BitVec.ofNat 32 (i 0).val) 0#32)) 0#32) = 1#1
/-- It holds at the first point of the grid and at no other: decided point by point. -/
theorem atFirst11_iff : ∀ t : Fin cfg11.N, atFirst11 (grid11.coords t) ↔ t.val % 25 = 0 :=
  (by decide +kernel : ∀ t : Fin grid11.N, atFirst11 (grid11.coords t) ↔ t.val % 25 = 0)

/-! ## The staging memrefs the body is called with -/
abbrev stg11_0 (t : Fin cfg11.N) : Memref sig .tc .vmem S2000x256 .f32 := win11_0.stage (cfg11.slots t 0)
abbrev stgWhole11_0 (t : Fin cfg11.N) : (stg11_0 t).IsWhole := hstage11_0 ((cfg11.slots t 0).cast nbuf11_0)
abbrev stg11_1 (t : Fin cfg11.N) : Memref sig .tc .vmem S1x256 .f32 := win11_1.stage (cfg11.slots t 1)
abbrev stgWhole11_1 (t : Fin cfg11.N) : (stg11_1 t).IsWhole := hstage11_1 ((cfg11.slots t 1).cast nbuf11_1)
abbrev stg11_2 (t : Fin cfg11.N) : Memref sig .tc .vmem S1x256 .f32 := win11_2.stage (cfg11.slots t 2)
abbrev stgWhole11_2 (t : Fin cfg11.N) : (stg11_2 t).IsWhole := hstage11_2 ((cfg11.slots t 2).cast nbuf11_2)
abbrev stg11_3 (t : Fin cfg11.N) : Memref sig .tc .vmem S1x256 .f32 := win11_3.stage (cfg11.slots t 3)
abbrev stgWhole11_3 (t : Fin cfg11.N) : (stg11_3 t).IsWhole := hstage11_3 ((cfg11.slots t 3).cast nbuf11_3)
abbrev stg11_4 (t : Fin cfg11.N) : Memref sig .tc .vmem S1x256 .f32 := win11_4.stage (cfg11.slots t 4)
abbrev stgWhole11_4 (t : Fin cfg11.N) : (stg11_4 t).IsWhole := hstage11_4 ((cfg11.slots t 4).cast nbuf11_4)
abbrev stg11_5 (t : Fin cfg11.N) : Memref sig .tc .vmem S2000x256 .f32 := win11_5.stage (cfg11.slots t 5)
abbrev stgWhole11_5 (t : Fin cfg11.N) : (stg11_5 t).IsWhole := hstage11_5 ((cfg11.slots t 5).cast nbuf11_5)
abbrev stg11_6 (t : Fin cfg11.N) : Memref sig .tc .vmem S1x256 .f32 := win11_6.stage (cfg11.slots t 6)
abbrev stgWhole11_6 (t : Fin cfg11.N) : (stg11_6 t).IsWhole := hstage11_6 ((cfg11.slots t 6).cast nbuf11_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc11__norm_readout_kernel i arg1 harg1 arg2 harg2 arg3 harg3 arg4 harg4 arg5 harg5 arg6 harg6 arg7 harg7) K } := by
  refine ⟨?_, ?_, fun E K => ?run⟩
  case run =>
    simp only [cc11__norm_readout_kernel_eq_skeleton]; unfold cc11__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc11__norm_readout_kernel i arg1 harg1 arg2 harg2 arg3 harg3 arg4 harg4 arg5 harg5 arg6 harg6 arg7 harg7) K } := by
  refine ⟨?_, ?_, fun E K => ?run⟩
  case run =>
    simp only [cc11__norm_readout_kernel_eq_skeleton]; unfold cc11__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst11_5 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) (y : S2000x256.Idx) :
    ∃ pc ∈ (runFirst11 c i arg1 harg1 arg2 harg2 arg3 harg3 arg4 harg4 arg5 harg5 arg6 harg6 arg7 harg7 hc u mean var gain shift).1, y ∈ pc.1.set :=
  View.cover_of_tiledL (runFirst11 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst11_6 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) (y : S1x256.Idx) :
    ∃ pc ∈ (runFirst11 c i arg1 harg1 arg2 harg2 arg3 harg3 arg4 harg4 arg5 harg5 arg6 harg6 arg7 harg7 hc u mean var gain shift).2.1, y ∈ pc.1.set :=
  View.cover_of_tiledL (runFirst11 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater11_5 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater11 c i arg1 harg1 arg2 harg2 arg3 harg3 arg4 harg4 arg5 harg5 arg6 harg6 arg7 harg7 hc u mean var gain shift acc).1, y ∈ pc.1.set :=
  View.cover_of_tiledL (runLater11 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater11_6 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater11 c i arg1 harg1 arg2 harg2 arg3 harg3 arg4 harg4 arg5 harg5 arg6 harg6 arg7 harg7 hc u mean var gain shift acc).2.1, y ∈ pc.1.set :=
  View.cover_of_tiledL (runLater11 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) : Vec F S2000x256 .f32 :=
  View.canon (runFirst11 c i arg1 harg1 arg2 harg2 arg3 harg3 arg4 harg4 arg5 harg5 arg6 harg6 arg7 harg7 hc u mean var gain shift).1

/-- The running row the first point leaves. -/
def sumsFirst11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) : Vec F S1x256 .f32 :=
  View.canon (runFirst11 c i arg1 harg1 arg2 harg2 arg3 harg3 arg4 harg4 arg5 harg5 arg6 harg6 arg7 harg7 hc u mean var gain shift).2.1

/-- The normalized block a later point leaves. -/
def rowsLater11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater11 c i arg1 harg1 arg2 harg2 arg3 harg3 arg4 harg4 arg5 harg5 arg6 harg6 arg7 harg7 hc u mean var gain shift acc).1

/-- The running row a later point leaves, over the row `acc` it found. -/
def sumsLater11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater11 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt11 (c : Dev nD) (t : Fin cfg11.N) (h0 : t.val % 25 = 0) : Vec F S2000x256 .f32 :=
  rowsFirst11 c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) ((atFirst11_iff t).mpr h0) (iblk11 V c 0 t) (iblk11 V c 1 t) (iblk11 V c 2 t) (iblk11 V c 3 t) (iblk11 V c 4 t)

/-- The running row after point `t`, when `t` is the first point. -/
def sumsFirstAt11 (c : Dev nD) (t : Fin cfg11.N) (h0 : t.val % 25 = 0) : Vec F S1x256 .f32 :=
  sumsFirst11 c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) ((atFirst11_iff t).mpr h0) (iblk11 V c 0 t) (iblk11 V c 1 t) (iblk11 V c 2 t) (iblk11 V c 3 t) (iblk11 V c 4 t)

/-- The normalized block of point `t`, when `t` is a later point (the run is stated at the running row it found). -/
def rowsLaterAt11 (c : Dev nD) (t : Fin cfg11.N) (h0 : ¬t.val % 25 = 0) (acc : Vec F S1x256 .f32) : Vec F S2000x256 .f32 :=
  rowsLater11 c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) (fun h => h0 ((atFirst11_iff t).mp h)) (iblk11 V c 0 t) (iblk11 V c 1 t) (iblk11 V c 2 t) (iblk11 V c 3 t) (iblk11 V c 4 t) acc

/-- The running row after point `t`, when `t` is a later point that found the row `acc`. -/
def sumsLaterAt11 (c : Dev nD) (t : Fin cfg11.N) (h0 : ¬t.val % 25 = 0) (acc : Vec F S1x256 .f32) : Vec F S1x256 .f32 :=
  sumsLater11 c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) (fun h => h0 ((atFirst11_iff t).mp h)) (iblk11 V c 0 t) (iblk11 V c 1 t) (iblk11 V c 2 t) (iblk11 V c 3 t) (iblk11 V c 4 t) acc

/-! ## What the outputs hold after each point -/

/-- THE ACCUMULATION: the running row after the body at position `n`. At the first point the reset-and-add case's row; at a later
    point the add case's row over what this gives at `n - 1` (the row's buffer is not written back in between). -/
def sumsAt11 (c : Dev nD) : (n : ℕ) → n < cfg11.N → Vec F S1x256 .f32
  | 0, hn => sumsFirstAt11 V c ⟨0, hn⟩ (Nat.zero_mod _)
  | n + 1, hn =>
    if h0 : (n + 1) % 25 = 0 then sumsFirstAt11 V c ⟨n + 1, hn⟩ h0
    else sumsLaterAt11 V c ⟨n + 1, hn⟩ h0 (sumsAt11 c n (Nat.lt_of_succ_lt hn))

/-- The running row the body finds at point `t` when `t` is not the first: what the point before left. -/
abbrev sumsBefore11 (c : Dev nD) (t : Fin cfg11.N) : Vec F S1x256 .f32 :=
  sumsAt11 V c (t.val - 1) (Nat.lt_of_le_of_lt (Nat.sub_le _ _) t.isLt)

/-- The normalized block after the body at point `t`. -/
def rowsAt11 (c : Dev nD) (t : Fin cfg11.N) : Vec F S2000x256 .f32 :=
  if h0 : t.val % 25 = 0 then rowsFirstAt11 V c t h0 else rowsLaterAt11 V c t h0 (sumsBefore11 V c t)

/-- The running row at the first point. -/
theorem sumsAt11_first (c : Dev nD) (t : Fin cfg11.N) (h0 : t.val % 25 = 0) :
    sumsAt11 V c t.val t.isLt = sumsFirstAt11 V c t h0 := by
  obtain ⟨n, hn⟩ := t
  cases n with
  | zero => exact rfl
  | succ n => exact (dif_pos h0).trans rfl

/-- The running row at a later point: the add case over the row before. -/
theorem sumsAt11_later (c : Dev nD) (t : Fin cfg11.N) (h0 : ¬t.val % 25 = 0) :
    sumsAt11 V c t.val t.isLt = sumsLaterAt11 V c t h0 (sumsBefore11 V c t) := by
  obtain ⟨n, hn⟩ := t
  cases n with
  | zero => exact absurd (Nat.zero_mod _) h0
  | succ n => exact (dif_neg h0).trans rfl

/-- The normalized block at the first point. -/
theorem rowsAt11_first (c : Dev nD) (t : Fin cfg11.N) (h0 : t.val % 25 = 0) : rowsAt11 V c t = rowsFirstAt11 V c t h0 := dif_pos h0

/-- The normalized block at a later point. -/
theorem rowsAt11_later (c : Dev nD) (t : Fin cfg11.N) (h0 : ¬t.val % 25 = 0) :
    rowsAt11 V c t = rowsLaterAt11 V c t h0 (sumsBefore11 V c t) := dif_neg h0

/-! ## The pipeline's proof data -/

/-- The proof data of the region's pipeline on core `c`: the arrays as the region finds them; after the body at point `t` each
    input's buffer still at its block, the normalized block's at `rowsAt11`, the running row's at `sumsAt11`; the class's invariant
    (the scoped rest and the generator register, untouched); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => rowsAt11 V c t
    | ⟨6, _⟩ => sumsAt11 V c t.val t.isLt
  Φ _ := Pipeline.ΦA spec11 c
  q _ := fullShare
  owed _ := 0

theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = rowsAt11 V c t := by dsimp only [dat11]
theorem after11_6 (c : Dev nD) (t : Fin cfg11.N) : (dat11 V c).after 6 t = sumsAt11 V c t.val t.isLt := by dsimp only [dat11]

/-- What the body finds in each input's buffer: its block. -/
theorem before11_0 (c : Dev nD) (t : Fin cfg11.N) (d) : (dat11 V c).before 0 t d = iblk11 V c 0 t :=
  heldIn11_0 V (dat11 V c) (A_eq11 V c 0) (after11_0 V c) t d
theorem before11_1 (c : Dev nD) (t : Fin cfg11.N) (d) : (dat11 V c).before 1 t d = iblk11 V c 1 t :=
  heldIn11_1 V (dat11 V c) (A_eq11 V c 1) (after11_1 V c) t d
theorem before11_2 (c : Dev nD) (t : Fin cfg11.N) (d) : (dat11 V c).before 2 t d = iblk11 V c 2 t :=
  heldIn11_2 V (dat11 V c) (A_eq11 V c 2) (after11_2 V c) t d
theorem before11_3 (c : Dev nD) (t : Fin cfg11.N) (d) : (dat11 V c).before 3 t d = iblk11 V c 3 t :=
  heldIn11_3 V (dat11 V c) (A_eq11 V c 3) (after11_3 V c) t d
theorem before11_4 (c : Dev nD) (t : Fin cfg11.N) (d) : (dat11 V c).before 4 t d = iblk11 V c 4 t :=
  heldIn11_4 V (dat11 V c) (A_eq11 V c 4) (after11_4 V c) t d

/-- At a later point the running row's buffer holds what the body left at the point before: the point is not the first, the row is
    written back at the last point only, the window is never idle and is uncut. -/
theorem before11_6_later (c : Dev nD) (t : Fin cfg11.N) (h0 : ¬t.val % 25 = 0) (d) :
    (dat11 V c).before 6 t d = sumsBefore11 V c t := by
  have hN : t.val < 25 := lt_of_lt_of_eq t.isLt (show cfg11.N = 25 from N_11)
  rw [Dat.before_out_kept _ 6 rfl t (by omega) (Bool.eq_false_iff.mpr fun h => by have := (flush11_6 _).mp h; dsimp only at this; omega)
    (fun _ => rfl) (fun _ _ => rfl)]
  dsimp only [dat11]

/-! ## The body obligation -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  by_cases h0 : t.val % 25 = 0
  · rw [sumsAt11_first V c t h0, rowsAt11_first V c t h0]
    unfold sumsFirstAt11 rowsFirstAt11 sumsFirst11 rowsFirst11
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst11 c (grid11.coords t) _ _ _ _ _ _ _ _ _ _ _ _ _ _ ((atFirst11_iff t).mpr h0) (iblk11 V c 0 t) (iblk11 V c 1 t) (iblk11 V c 2 t) (iblk11 V c 3 t) (iblk11 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst11_5 c _ _ _ _ _ _ _ _ _ _ _ _ _ _ _ _ _ _ _ _ _)
    unfold owns; iexists _; isplitr
    swap; · iexact H6
    ipureintro; exact View.read_writes_eq_canon _ _ _ (coverFirst11_6 c _ _ _ _ _ _ _ _ _ _ _ _ _ _ _ _ _ _ _ _ _)
  · rw [sumsAt11_later V c t h0, rowsAt11_later V c t h0]
    simp only [before11_6_later V c t h0]
    unfold sumsLaterAt11 rowsLaterAt11 sumsLater11 rowsLater11
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater11 c (grid11.coords t) _ _ _ _ _ _ _ _ _ _ _ _ _ _ (fun h => h0 ((atFirst11_iff t).mp h)) (iblk11 V c 0 t) (iblk11 V c 1 t) (iblk11 V c 2 t) (iblk11 V c 3 t) (iblk11 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater11_5 c _ _ _ _ _ _ _ _ _ _ _ _ _ _ _ _ _ _ _ _ _ _)
    unfold owns; iexists _; isplitr
    swap; · iexact H6
    ipureintro; exact View.read_writes_eq_canon _ _ _ (coverLater11_6 c _ _ _ _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.R12.lean ====
/-
  Region 12 of the word-level kernel program's @main (pallas_call 12), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's one branch: is this the first grid point? -/

/-- The condition of the body's only `scf.if` (the program id compared with 0), from the grid coordinates. -/
abbrev first12 (i : grid12.Coords) : Prop := (Scalar.cmpi .ne (Scalar.extui (Scalar.cmpi .eq (BitVec.ofNat 32 (i 0).val) 0#32)) 0#32) = 1#1
/-- It holds at the first point and at no other — decided over the grid. -/
theorem first12_iff : ∀ t : Fin cfg12.N, first12 (grid12.coords t) ↔ t.val = 0 :=
  (by decide +kernel : ∀ t : Fin grid12.N, first12 (grid12.coords t) ↔ t.val = 0)

/-- Each window's current staging memref at point `t`, as the pipeline passes it to the body, and its wholeness. -/
abbrev buf12_0 (t : Fin cfg12.N) : Memref sig .tc .vmem S2000x256 .f32 := win12_0.stage (cfg12.slots t 0)
abbrev whole12_0 (t : Fin cfg12.N) : (buf12_0 t).IsWhole := hstage12_0 ((cfg12.slots t 0).cast nbuf12_0)
abbrev buf12_1 (t : Fin cfg12.N) : Memref sig .tc .vmem S2000x256 .f32 := win12_1.stage (cfg12.slots t 1)
abbrev whole12_1 (t : Fin cfg12.N) : (buf12_1 t).IsWhole := hstage12_1 ((cfg12.slots t 1).cast nbuf12_1)
abbrev buf12_2 (t : Fin cfg12.N) : Memref sig .tc .vmem S256x256 .bf16 := win12_2.stage (cfg12.slots t 2)
abbrev whole12_2 (t : Fin cfg12.N) : (buf12_2 t).IsWhole := hstage12_2 ((cfg12.slots t 2).cast nbuf12_2)
abbrev buf12_3 (t : Fin cfg12.N) : Memref sig .tc .vmem S1x256 .f32 := win12_3.stage (cfg12.slots t 3)
abbrev whole12_3 (t : Fin cfg12.N) : (buf12_3 t).IsWhole := hstage12_3 ((cfg12.slots t 3).cast nbuf12_3)
abbrev buf12_4 (t : Fin cfg12.N) : Memref sig .tc .vmem S2000x256 .f32 := win12_4.stage (cfg12.slots t 4)
abbrev whole12_4 (t : Fin cfg12.N) : (buf12_4 t).IsWhole := hstage12_4 ((cfg12.slots t 4).cast nbuf12_4)
abbrev buf12_5 (t : Fin cfg12.N) : Memref sig .tc .vmem S1x256 .f32 := win12_5.stage (cfg12.slots t 5)
abbrev whole12_5 (t : Fin cfg12.N) : (buf12_5 t).IsWhole := hstage12_5 ((cfg12.slots t 5).cast nbuf12_5)
abbrev buf12_6 (t : Fin cfg12.N) : Memref sig .tc .vmem S1x256 .f32 := win12_6.stage (cfg12.slots t 6)
abbrev whole12_6 (t : Fin cfg12.N) : (buf12_6 t).IsWhole := hstage12_6 ((cfg12.slots t 6).cast nbuf12_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun12 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc12__matmul1_stats_kernel i arg1 harg1 arg2 harg2 arg3 harg3 arg4 harg4 arg5 harg5 arg6 harg6 arg7 harg7) K } := by
  refine ⟨?_, ?_, ?_, fun E K => ?run⟩
  case run =>
    simp only [cc12__matmul1_stats_kernel_eq_skeleton]; unfold cc12__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun12 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc12__matmul1_stats_kernel i arg1 harg1 arg2 harg2 arg3 harg3 arg4 harg4 arg5 harg5 arg6 harg6 arg7 harg7) K } := by
  refine ⟨?_, ?_, ?_, fun E K => ?run⟩
  case run =>
    simp only [cc12__matmul1_stats_kernel_eq_skeleton]; unfold cc12__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView12 : View sig .tc .vmem S2000x256 .f32 := (stage12_4 0).view
abbrev sumView12 : View sig .tc .vmem S1x256 .f32 := (stage12_5 0).view
abbrev sqView12 : View sig .tc .vmem S1x256 .f32 := (stage12_6 0).view

/-- At the first point each output's pieces tile its block (checked by evaluating the piece list), so they cover it. -/
theorem resetCover12_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) (y : S2000x256.Idx) :
    ∃ pc ∈ (resetRun12 c i arg1 harg1 arg2 harg2 arg3 harg3 arg4 harg4 arg5 harg5 arg6 harg6 arg7 harg7 hc0 x0 x1 x2 x3).1, y ∈ pc.1.set :=
  View.cover_of_tiledL (resetRun12 c i arg1 harg1 arg2 harg2 arg3 harg3 arg4 harg4 arg5 harg5 arg6 harg6 arg7 harg7 hc0 x0 x1 x2 x3).1 S2000x256.size (by sl_kernel_rfl) y
theorem resetCover12_5 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) (y : S1x256.Idx) :
    ∃ pc ∈ (resetRun12 c i arg1 harg1 arg2 harg2 arg3 harg3 arg4 harg4 arg5 harg5 arg6 harg6 arg7 harg7 hc0 x0 x1 x2 x3).2.1, y ∈ pc.1.set :=
  View.cover_of_tiledL (resetRun12 c i arg1 harg1 arg2 harg2 arg3 harg3 arg4 harg4 arg5 harg5 arg6 harg6 arg7 harg7 hc0 x0 x1 x2 x3).2.1 S1x256.size (by sl_kernel_rfl) y
theorem resetCover12_6 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) (y : S1x256.Idx) :
    ∃ pc ∈ (resetRun12 c i arg1 harg1 arg2 harg2 arg3 harg3 arg4 harg4 arg5 harg5 arg6 harg6 arg7 harg7 hc0 x0 x1 x2 x3).2.2.1, y ∈ pc.1.set :=
  View.cover_of_tiledL (resetRun12 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut12_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) : Vec F S2000x256 .f32 :=
  uView12.read (Elt F) (uView12.writes (Elt F) uView12.junk (resetRun12 c i arg1 harg1 arg2 harg2 arg3 harg3 arg4 harg4 arg5 harg5 arg6 harg6 arg7 harg7 hc0 x0 x1 x2 x3).1)
/-- What the first point leaves in the column-sum accumulator. -/
def resetOut12_5 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) : Vec F S1x256 .f32 :=
  sumView12.read (Elt F) (sumView12.writes (Elt F) sumView12.junk (resetRun12 c i arg1 harg1 arg2 harg2 arg3 harg3 arg4 harg4 arg5 harg5 arg6 harg6 arg7 harg7 hc0 x0 x1 x2 x3).2.1)
/-- What the first point leaves in the sum-of-squares accumulator. -/
def resetOut12_6 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) : Vec F S1x256 .f32 :=
  sqView12.read (Elt F) (sqView12.writes (Elt F) sqView12.junk (resetRun12 c i arg1 harg1 arg2 harg2 arg3 harg3 arg4 harg4 arg5 harg5 arg6 harg6 arg7 harg7 hc0 x0 x1 x2 x3).2.2.1)

/-- At a later point too each output's pieces cover its block. -/
theorem carryCover12_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun12 c i arg1 harg1 arg2 harg2 arg3 harg3 arg4 harg4 arg5 harg5 arg6 harg6 arg7 harg7 hc0 x0 x1 x2 x3 xo5 xo6).1, y ∈ pc.1.set :=
  View.cover_of_tiledL (carryRun12 c i arg1 harg1 arg2 harg2 arg3 harg3 arg4 harg4 arg5 harg5 arg6 harg6 arg7 harg7 hc0 x0 x1 x2 x3 xo5 xo6).1 S2000x256.size (by sl_kernel_rfl) y
theorem carryCover12_5 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun12 c i arg1 harg1 arg2 harg2 arg3 harg3 arg4 harg4 arg5 harg5 arg6 harg6 arg7 harg7 hc0 x0 x1 x2 x3 xo5 xo6).2.1, y ∈ pc.1.set :=
  View.cover_of_tiledL (carryRun12 c i arg1 harg1 arg2 harg2 arg3 harg3 arg4 harg4 arg5 harg5 arg6 harg6 arg7 harg7 hc0 x0 x1 x2 x3 xo5 xo6).2.1 S1x256.size (by sl_kernel_rfl) y
theorem carryCover12_6 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun12 c i arg1 harg1 arg2 harg2 arg3 harg3 arg4 harg4 arg5 harg5 arg6 harg6 arg7 harg7 hc0 x0 x1 x2 x3 xo5 xo6).2.2.1, y ∈ pc.1.set :=
  View.cover_of_tiledL (carryRun12 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut12_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView12.read (Elt F) (uView12.writes (Elt F) uView12.junk (carryRun12 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut12_5 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView12.read (Elt F) (sumView12.writes (Elt F) sumView12.junk (carryRun12 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut12_6 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView12.read (Elt F) (sqView12.writes (Elt F) sqView12.junk (carryRun12 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left12 (c : Dev nD) : (n : ℕ) → n < cfg12.N → Vec F S2000x256 .f32 × Vec F S1x256 .f32 × Vec F S1x256 .f32
  | 0, hn =>
    (resetOut12_4 c (grid12.coords ⟨0, hn⟩) (buf12_0 ⟨0, hn⟩) (whole12_0 ⟨0, hn⟩) (buf12_1 ⟨0, hn⟩) (whole12_1 ⟨0, hn⟩) (buf12_2 ⟨0, hn⟩) (whole12_2 ⟨0, hn⟩) (buf12_3 ⟨0, hn⟩) (whole12_3 ⟨0, hn⟩) (buf12_4 ⟨0, hn⟩) (whole12_4 ⟨0, hn⟩) (buf12_5 ⟨0, hn⟩) (whole12_5 ⟨0, hn⟩) (buf12_6 ⟨0, hn⟩) (whole12_6 ⟨0, hn⟩) ((first12_iff ⟨0, hn⟩).mpr rfl) (iblk12 V c 0 ⟨0, hn⟩) (iblk12 V c 1 ⟨0, hn⟩) (iblk12 V c 2 ⟨0, hn⟩) (iblk12 V c 3 ⟨0, hn⟩),
     resetOut12_5 c (grid12.coords ⟨0, hn⟩) (buf12_0 ⟨0, hn⟩) (whole12_0 ⟨0, hn⟩) (buf12_1 ⟨0, hn⟩) (whole12_1 ⟨0, hn⟩) (buf12_2 ⟨0, hn⟩) (whole12_2 ⟨0, hn⟩) (buf12_3 ⟨0, hn⟩) (whole12_3 ⟨0, hn⟩) (buf12_4 ⟨0, hn⟩) (whole12_4 ⟨0, hn⟩) (buf12_5 ⟨0, hn⟩) (whole12_5 ⟨0, hn⟩) (buf12_6 ⟨0, hn⟩) (whole12_6 ⟨0, hn⟩) ((first12_iff ⟨0, hn⟩).mpr rfl) (iblk12 V c 0 ⟨0, hn⟩) (iblk12 V c 1 ⟨0, hn⟩) (iblk12 V c 2 ⟨0, hn⟩) (iblk12 V c 3 ⟨0, hn⟩),
     resetOut12_6 c (grid12.coords ⟨0, hn⟩) (buf12_0 ⟨0, hn⟩) (whole12_0 ⟨0, hn⟩) (buf12_1 ⟨0, hn⟩) (whole12_1 ⟨0, hn⟩) (buf12_2 ⟨0, hn⟩) (whole12_2 ⟨0, hn⟩) (buf12_3 ⟨0, hn⟩) (whole12_3 ⟨0, hn⟩) (buf12_4 ⟨0, hn⟩) (whole12_4 ⟨0, hn⟩) (buf12_5 ⟨0, hn⟩) (whole12_5 ⟨0, hn⟩) (buf12_6 ⟨0, hn⟩) (whole12_6 ⟨0, hn⟩) ((first12_iff ⟨0, hn⟩).mpr rfl) (iblk12 V c 0 ⟨0, hn⟩) (iblk12 V c 1 ⟨0, hn⟩) (iblk12 V c 2 ⟨0, hn⟩) (iblk12 V c 3 ⟨0, hn⟩))
  | n + 1, hn =>
    (carryOut12_4 c (grid12.coords ⟨n + 1, hn⟩) (buf12_0 ⟨n + 1, hn⟩) (whole12_0 ⟨n + 1, hn⟩) (buf12_1 ⟨n + 1, hn⟩) (whole12_1 ⟨n + 1, hn⟩) (buf12_2 ⟨n + 1, hn⟩) (whole12_2 ⟨n + 1, hn⟩) (buf12_3 ⟨n + 1, hn⟩) (whole12_3 ⟨n + 1, hn⟩) (buf12_4 ⟨n + 1, hn⟩) (whole12_4 ⟨n + 1, hn⟩) (buf12_5 ⟨n + 1, hn⟩) (whole12_5 ⟨n + 1, hn⟩) (buf12_6 ⟨n + 1, hn⟩) (whole12_6 ⟨n + 1, hn⟩) (fun h => Nat.succ_ne_zero n ((first12_iff ⟨n + 1, hn⟩).mp h)) (iblk12 V c 0 ⟨n + 1, hn⟩) (iblk12 V c 1 ⟨n + 1, hn⟩) (iblk12 V c 2 ⟨n + 1, hn⟩) (iblk12 V c 3 ⟨n + 1, hn⟩) (left12 c n (Nat.lt_of_succ_lt hn)).2.1 (left12 c n (Nat.lt_of_succ_lt hn)).2.2,
     carryOut12_5 c (grid12.coords ⟨n + 1, hn⟩) (buf12_0 ⟨n + 1, hn⟩) (whole12_0 ⟨n + 1, hn⟩) (buf12_1 ⟨n + 1, hn⟩) (whole12_1 ⟨n + 1, hn⟩) (buf12_2 ⟨n + 1, hn⟩) (whole12_2 ⟨n + 1, hn⟩) (buf12_3 ⟨n + 1, hn⟩) (whole12_3 ⟨n + 1, hn⟩) (buf12_4 ⟨n + 1, hn⟩) (whole12_4 ⟨n + 1, hn⟩) (buf12_5 ⟨n + 1, hn⟩) (whole12_5 ⟨n + 1, hn⟩) (buf12_6 ⟨n + 1, hn⟩) (whole12_6 ⟨n + 1, hn⟩) (fun h => Nat.succ_ne_zero n ((first12_iff ⟨n + 1, hn⟩).mp h)) (iblk12 V c 0 ⟨n + 1, hn⟩) (iblk12 V c 1 ⟨n + 1, hn⟩) (iblk12 V c 2 ⟨n + 1, hn⟩) (iblk12 V c 3 ⟨n + 1, hn⟩) (left12 c n (Nat.lt_of_succ_lt hn)).2.1 (left12 c n (Nat.lt_of_succ_lt hn)).2.2,
     carryOut12_6 c (grid12.coords ⟨n + 1, hn⟩) (buf12_0 ⟨n + 1, hn⟩) (whole12_0 ⟨n + 1, hn⟩) (buf12_1 ⟨n + 1, hn⟩) (whole12_1 ⟨n + 1, hn⟩) (buf12_2 ⟨n + 1, hn⟩) (whole12_2 ⟨n + 1, hn⟩) (buf12_3 ⟨n + 1, hn⟩) (whole12_3 ⟨n + 1, hn⟩) (buf12_4 ⟨n + 1, hn⟩) (whole12_4 ⟨n + 1, hn⟩) (buf12_5 ⟨n + 1, hn⟩) (whole12_5 ⟨n + 1, hn⟩) (buf12_6 ⟨n + 1, hn⟩) (whole12_6 ⟨n + 1, hn⟩) (fun h => Nat.succ_ne_zero n ((first12_iff ⟨n + 1, hn⟩).mp h)) (iblk12 V c 0 ⟨n + 1, hn⟩) (iblk12 V c 1 ⟨n + 1, hn⟩) (iblk12 V c 2 ⟨n + 1, hn⟩) (iblk12 V c 3 ⟨n + 1, hn⟩) (left12 c n (Nat.lt_of_succ_lt hn)).2.1 (left12 c n (Nat.lt_of_succ_lt hn)).2.2)

/-- `left12` at the first point: the reset case's contents. -/
theorem left12_first (c : Dev nD) (t : Fin cfg12.N) (h0 : t.val = 0) :
    left12 V c t.val t.isLt =
    (resetOut12_4 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) ((first12_iff t).mpr h0) (iblk12 V c 0 t) (iblk12 V c 1 t) (iblk12 V c 2 t) (iblk12 V c 3 t),
     resetOut12_5 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) ((first12_iff t).mpr h0) (iblk12 V c 0 t) (iblk12 V c 1 t) (iblk12 V c 2 t) (iblk12 V c 3 t),
     resetOut12_6 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) ((first12_iff t).mpr h0) (iblk12 V c 0 t) (iblk12 V c 1 t) (iblk12 V c 2 t) (iblk12 V c 3 t)) := by
  obtain ⟨n, hn⟩ := t
  cases n with
  | zero => exact rfl
  | succ n => exact absurd h0 (Nat.succ_ne_zero n)

/-- `left12` at a later point: the carrying case's contents, over the accumulator rows the point before left. -/
theorem left12_later (c : Dev nD) (t : Fin cfg12.N) (h0 : ¬t.val = 0) :
    left12 V c t.val t.isLt =
    (carryOut12_4 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) (fun h => h0 ((first12_iff t).mp h)) (iblk12 V c 0 t) (iblk12 V c 1 t) (iblk12 V c 2 t) (iblk12 V c 3 t) (left12 V c (t.val - 1) (Nat.lt_of_le_of_lt (Nat.sub_le _ _) t.isLt)).2.1 (left12 V c (t.val - 1) (Nat.lt_of_le_of_lt (Nat.sub_le _ _) t.isLt)).2.2,
     carryOut12_5 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) (fun h => h0 ((first12_iff t).mp h)) (iblk12 V c 0 t) (iblk12 V c 1 t) (iblk12 V c 2 t) (iblk12 V c 3 t) (left12 V c (t.val - 1) (Nat.lt_of_le_of_lt (Nat.sub_le _ _) t.isLt)).2.1 (left12 V c (t.val - 1) (Nat.lt_of_le_of_lt (Nat.sub_le _ _) t.isLt)).2.2,
     carryOut12_6 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) (fun h => h0 ((first12_iff t).mp h)) (iblk12 V c 0 t) (iblk12 V c 1 t) (iblk12 V c 2 t) (iblk12 V c 3 t) (left12 V c (t.val - 1) (Nat.lt_of_le_of_lt (Nat.sub_le _ _) t.isLt)).2.1 (left12 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left12`; the invariant the scoped rest and the generator register; nothing
    owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => (left12 V c t.val t.isLt).1
    | ⟨5, _⟩ => (left12 V c t.val t.isLt).2.1
    | ⟨6, _⟩ => (left12 V c t.val t.isLt).2.2
  Φ _ := Pipeline.ΦA spec12 c
  q _ := fullShare
  owed _ := 0

theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = (left12 V c t.val t.isLt).1 := by dsimp only [dat12]
theorem after12_5 (c : Dev nD) (t : Fin cfg12.N) : (dat12 V c).after 5 t = (left12 V c t.val t.isLt).2.1 := by dsimp only [dat12]
theorem after12_6 (c : Dev nD) (t : Fin cfg12.N) : (dat12 V c).after 6 t = (left12 V c t.val t.isLt).2.2 := by dsimp only [dat12]

/-- Each input's current staging buffer holds its block at every point, fetched there or not: h and agg are fetched at every
    point; the weight and the bias at the first only, and their block index never moves. -/
theorem before12_0 (c : Dev nD) (t : Fin cfg12.N) (d) : (dat12 V c).before 0 t d = iblk12 V c 0 t :=
  ((dat12 V c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)
theorem before12_1 (c : Dev nD) (t : Fin cfg12.N) (d) : (dat12 V c).before 1 t d = iblk12 V c 1 t :=
  ((dat12 V c).before_in_eq_fetched 1 rfl (fun _ => rfl) (fun _ _ _ => rfl)
      (fun t => by rw [after12_1]; unfold Dat.blockOf iblk12; rw [A_eq12]; try rfl) t d).trans
    (by unfold Dat.fetched Dat.blockOf iblk12; rw [A_eq12]; try rfl)
theorem before12_2 (c : Dev nD) (t : Fin cfg12.N) (d) : (dat12 V c).before 2 t d = iblk12 V c 2 t :=
  ((dat12 V c).before_in_eq_fetched 2 rfl (fun _ => rfl) (fun _ _ _ => rfl)
      (fun t => by rw [after12_2]; unfold Dat.blockOf iblk12; rw [A_eq12]; try rfl) t d).trans
    (by unfold Dat.fetched Dat.blockOf iblk12; rw [A_eq12]; try rfl)
theorem before12_3 (c : Dev nD) (t : Fin cfg12.N) (d) : (dat12 V c).before 3 t d = iblk12 V c 3 t :=
  ((dat12 V c).before_in_eq_fetched 3 rfl (fun _ => rfl) (fun _ _ _ => rfl)
      (fun t => by rw [after12_3]; unfold Dat.blockOf iblk12; rw [A_eq12]; try rfl) t d).trans
    (by unfold Dat.fetched Dat.blockOf iblk12; rw [A_eq12]; try rfl)

/-- At a later point each accumulator's staging buffer holds what the body left at the point before: the buffer is written back
    after the last point only, the window is live and uncut. -/
theorem before12_5_later (c : Dev nD) (t : Fin cfg12.N) (h0 : ¬t.val = 0) (d) :
    (dat12 V c).before 5 t d = (left12 V c (t.val - 1) (Nat.lt_of_le_of_lt (Nat.sub_le _ _) t.isLt)).2.1 := by
  have hN : t.val < 25 := lt_of_lt_of_eq t.isLt (show cfg12.N = 25 from N_12)
  rw [Dat.before_out_kept _ 5 rfl t h0 (Bool.eq_false_iff.mpr fun h => by have := (flush12_5 _).mp h; dsimp only at this; omega)
    (fun _ => rfl) (fun _ _ => rfl)]
  dsimp only [dat12]
theorem before12_6_later (c : Dev nD) (t : Fin cfg12.N) (h0 : ¬t.val = 0) (d) :
    (dat12 V c).before 6 t d = (left12 V c (t.val - 1) (Nat.lt_of_le_of_lt (Nat.sub_le _ _) t.isLt)).2.2 := by
  have hN : t.val < 25 := lt_of_lt_of_eq t.isLt (show cfg12.N = 25 from N_12)
  rw [Dat.before_out_kept _ 6 rfl t h0 (Bool.eq_false_iff.mpr fun h => by have := (flush12_6 _).mp h; dsimp only at this; omega)
    (fun _ => rfl) (fun _ _ => rfl)]
  dsimp only [dat12]

/-! ## The body obligation, at a generic point -/

/-- What the body is called with at point `t` (the windows one by one), -/
def bodyPre12 (c : Dev nD) (t : Fin cfg12.N) : sProp 𝕄 :=
  iprop((dat12 V c).Φ t.castSucc ∗ (dat12 V c).owesAt () t.castSucc
    ∗ (∃ d, owns (c : Thread nD τ) (buf12_0 t) fullShare ((dat12 V c).before 0 t d))
    ∗ (∃ d, owns (c : Thread nD τ) (buf12_1 t) fullShare ((dat12 V c).before 1 t d))
    ∗ (∃ d, owns (c : Thread nD τ) (buf12_2 t) fullShare ((dat12 V c).before 2 t d))
    ∗ (∃ d, owns (c : Thread nD τ) (buf12_3 t) fullShare ((dat12 V c).before 3 t d))
    ∗ (∃ d, owns (c : Thread nD τ) (buf12_4 t) fullShare ((dat12 V c).before 4 t d))
    ∗ (∃ d, owns (c : Thread nD τ) (buf12_5 t) fullShare ((dat12 V c).before 5 t d))
    ∗ (∃ d, owns (c : Thread nD τ) (buf12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (buf12_0 t) fullShare ((dat12 V c).after 0 t)
    ∗ owns (c : Thread nD τ) (buf12_1 t) fullShare ((dat12 V c).after 1 t)
    ∗ owns (c : Thread nD τ) (buf12_2 t) fullShare ((dat12 V c).after 2 t)
    ∗ owns (c : Thread nD τ) (buf12_3 t) fullShare ((dat12 V c).after 3 t)
    ∗ owns (c : Thread nD τ) (buf12_4 t) fullShare ((dat12 V c).after 4 t)
    ∗ owns (c : Thread nD τ) (buf12_5 t) fullShare ((dat12 V c).after 5 t)
    ∗ owns (c : Thread nD τ) (buf12_6 t) fullShare ((dat12 V c).after 6 t))

set_option maxHeartbeats 1600000 in
/-- The body at any point. The inputs' memrefs hold their blocks; `first12_iff` says which case the point is in; at a later
    point the accumulators' memrefs hold the rows the point before left; so that case's run applies, and each output's pieces,
    covering its block, read back as the contents `left12` names. The invariant and what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  by_cases h0 : t.val = 0
  · rw [left12_first V c t h0]
    dsimp only
    unfold resetOut12_4 resetOut12_5 resetOut12_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun12 c (grid12.coords t) _ _ _ _ _ _ _ _ _ _ _ _ _ _ ((first12_iff t).mpr h0) (iblk12 V c 0 t) (iblk12 V c 1 t) (iblk12 V c 2 t) (iblk12 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover12_4 c _ _ _ _ _ _ _ _ _ _ _ _ _ _ _ _ _ _ _ _)
    isplitl [H5]
    · unfold owns; iexists _; isplitr
      swap; · iexact H5
      ipureintro; exact View.read_writes_of_cover _ _ _ _ _ (resetCover12_5 c _ _ _ _ _ _ _ _ _ _ _ _ _ _ _ _ _ _ _ _)
    unfold owns; iexists _; isplitr
    swap; · iexact H6
    ipureintro; exact View.read_writes_of_cover _ _ _ _ _ (resetCover12_6 c _ _ _ _ _ _ _ _ _ _ _ _ _ _ _ _ _ _ _ _)
  · rw [left12_later V c t h0]
    dsimp only
    simp only [before12_5_later V c t h0, before12_6_later V c t h0]
    unfold carryOut12_4 carryOut12_5 carryOut12_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun12 c (grid12.coords t) _ _ _ _ _ _ _ _ _ _ _ _ _ _ (fun h => h0 ((first12_iff t).mp h)) (iblk12 V c 0 t) (iblk12 V c 1 t) (iblk12 V c 2 t) (iblk12 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover12_4 c _ _ _ _ _ _ _ _ _ _ _ _ _ _ _ _ _ _ _ _ _ _)
    isplitl [H5]
    · unfold owns; iexists _; isplitr
      swap; · iexact H5
      ipureintro; exact View.read_writes_of_cover _ _ _ _ _ (carryCover12_5 c _ _ _ _ _ _ _ _ _ _ _ _ _ _ _ _ _ _ _ _ _ _)
    unfold owns; iexists _; isplitr
    swap; · iexact H6
    ipureintro; exact View.read_writes_of_cover _ _ _ _ _ (carryCover12_6 c _ _ _ _ _ _ _ _ _ _ _ _ _ _ _ _ _ _ _ _ _ _)

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.R13.lean ====
/-
  Region 13 of the word-level kernel program's @main (pallas_call 13), at ANY entry contents `V` of the TensorCore's buffers and at any
  float instance: the proof data of its pipeline (what each window's staging buffer holds after the body at each grid point) and the
  body obligation.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The inputs' staging buffers -/

/-- Input window 0's current staging buffer holds its block at every point, fetched there or not (unfetched, the block index has
    not moved), for ANY proof data whose array is the entry contents' (`hA`) and whose body leaves the block in place (`hafter`). -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not (unfetched, the block index has
    not moved), for ANY proof data whose array is the entry contents' (`hA`) and whose body leaves the block in place (`hafter`). -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not (unfetched, the block index has
    not moved), for ANY proof data whose array is the entry contents' (`hA`) and whose body leaves the block in place (`hafter`). -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not (unfetched, the block index has
    not moved), for ANY proof data whose array is the entry contents' (`hA`) and whose body leaves the block in place (`hafter`). -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not (unfetched, the block index has
    not moved), for ANY proof data whose array is the entry contents' (`hA`) and whose body leaves the block in place (`hafter`). -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, fetched there or not (unfetched, the block index has
    not moved), for ANY proof data whose array is the entry contents' (`hA`) and whose body leaves the block in place (`hafter`). -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Input window 6's current staging buffer holds its block at every point, fetched there or not (unfetched, the block index has
    not moved), for ANY proof data whose array is the entry contents' (`hA`) and whose body leaves the block in place (`hafter`). -/
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's branch condition -/

/-- The condition of the body's one `scf.if` (is this the first point?), from the grid coordinates. -/
abbrev cond13_0 (i : grid13.Coords) : Prop := (Scalar.cmpi .ne (Scalar.extui (Scalar.cmpi .eq (BitVec.ofNat 32 (i 0).val) 0#32)) 0#32) = 1#1
/-- It holds at the first point only — decided over the grid. -/
theorem hcond13_0 : ∀ t : Fin cfg13.N, cond13_0 (grid13.coords t) ↔ t.val % 25 = 0 :=
  (by decide +kernel : ∀ t : Fin grid13.N, cond13_0 (grid13.coords t) ↔ t.val % 25 = 0)

/-! ## The staging memrefs at a point -/

/-- One staging buffer of each output window, through which its contents are stated (the choice does not matter: the stores cover). -/
abbrev VO13_7 : View sig .tc .vmem S2000x256 .f32 := (stage13_7 0).view
abbrev VO13_8 : View sig .tc .vmem S1x256 .f32 := (stage13_8 0).view
abbrev VO13_9 : View sig .tc .vmem S1x256 .f32 := (stage13_9 0).view
/-- Each window's current staging memref at point `t`, spelled as the pipeline passes it to the body, and its wholeness. -/
abbrev ms13_0 (t : Fin cfg13.N) : Memref sig .tc .vmem S2000x256 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1x256 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x256 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S1x256 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S1x256 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S256x256 .bf16 := win13_5.stage (cfg13.slots t 5)
abbrev hs13_5 (t : Fin cfg13.N) : (ms13_5 t).IsWhole := hstage13_5 ((cfg13.slots t 5).cast nbuf13_5)
abbrev ms13_6 (t : Fin cfg13.N) : Memref sig .tc .vmem S1x256 .f32 := win13_6.stage (cfg13.slots t 6)
abbrev hs13_6 (t : Fin cfg13.N) : (ms13_6 t).IsWhole := hstage13_6 ((cfg13.slots t 6).cast nbuf13_6)
abbrev ms13_7 (t : Fin cfg13.N) : Memref sig .tc .vmem S2000x256 .f32 := win13_7.stage (cfg13.slots t 7)
abbrev hs13_7 (t : Fin cfg13.N) : (ms13_7 t).IsWhole := hstage13_7 ((cfg13.slots t 7).cast nbuf13_7)
abbrev ms13_8 (t : Fin cfg13.N) : Memref sig .tc .vmem S1x256 .f32 := win13_8.stage (cfg13.slots t 8)
abbrev hs13_8 (t : Fin cfg13.N) : (ms13_8 t).IsWhole := hstage13_8 ((cfg13.slots t 8).cast nbuf13_8)
abbrev ms13_9 (t : Fin cfg13.N) : Memref sig .tc .vmem S1x256 .f32 := win13_9.stage (cfg13.slots t 9)
abbrev hs13_9 (t : Fin cfg13.N) : (ms13_9 t).IsWhole := hstage13_9 ((cfg13.slots t 9).cast nbuf13_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun13_A (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc13__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc13__norm_matmul2_stats_kernel_eq_skeleton]; unfold cc13__norm_matmul2_stats_kernel_skel
    simp only [k13_part1_eq_skeleton]; unfold k13_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun13_B (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc13__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc13__norm_matmul2_stats_kernel_eq_skeleton]; unfold cc13__norm_matmul2_stats_kernel_skel
    simp only [k13_part1_eq_skeleton]; unfold k13_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover13_A_7 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun13_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun13_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out13_A_7 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO13_7.read (Elt F) (VO13_7.writes (Elt F) VO13_7.junk (kernelRun13_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover13_A_8 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun13_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun13_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out13_A_8 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO13_8.read (Elt F) (VO13_8.writes (Elt F) VO13_8.junk (kernelRun13_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover13_A_9 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun13_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun13_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out13_A_9 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO13_9.read (Elt F) (VO13_9.writes (Elt F) VO13_9.junk (kernelRun13_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover13_B_7 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun13_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun13_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out13_B_7 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO13_7.read (Elt F) (VO13_7.writes (Elt F) VO13_7.junk (kernelRun13_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover13_B_8 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out13_B_8 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO13_8.read (Elt F) (VO13_8.writes (Elt F) VO13_8.junk (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover13_B_9 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out13_B_9 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO13_9.read (Elt F) (VO13_9.writes (Elt F) VO13_9.junk (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt13 (c : Dev nD) : (n : ℕ) → n < cfg13.N → Vec F S2000x256 .f32 × Vec F S1x256 .f32 × Vec F S1x256 .f32
  | 0, hn => (out13_A_7 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) (ms13_7 ⟨0, hn⟩) (hs13_7 ⟨0, hn⟩) (ms13_8 ⟨0, hn⟩) (hs13_8 ⟨0, hn⟩) (ms13_9 ⟨0, hn⟩) (hs13_9 ⟨0, hn⟩) ((hcond13_0 ⟨0, hn⟩).mpr (Nat.zero_mod _)) (iblk13 V c 0 ⟨0, hn⟩) (iblk13 V c 1 ⟨0, hn⟩) (iblk13 V c 2 ⟨0, hn⟩) (iblk13 V c 3 ⟨0, hn⟩) (iblk13 V c 4 ⟨0, hn⟩) (iblk13 V c 5 ⟨0, hn⟩) (iblk13 V c 6 ⟨0, hn⟩),
        out13_A_8 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) (ms13_7 ⟨0, hn⟩) (hs13_7 ⟨0, hn⟩) (ms13_8 ⟨0, hn⟩) (hs13_8 ⟨0, hn⟩) (ms13_9 ⟨0, hn⟩) (hs13_9 ⟨0, hn⟩) ((hcond13_0 ⟨0, hn⟩).mpr (Nat.zero_mod _)) (iblk13 V c 0 ⟨0, hn⟩) (iblk13 V c 1 ⟨0, hn⟩) (iblk13 V c 2 ⟨0, hn⟩) (iblk13 V c 3 ⟨0, hn⟩) (iblk13 V c 4 ⟨0, hn⟩) (iblk13 V c 5 ⟨0, hn⟩) (iblk13 V c 6 ⟨0, hn⟩),
        out13_A_9 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) (ms13_7 ⟨0, hn⟩) (hs13_7 ⟨0, hn⟩) (ms13_8 ⟨0, hn⟩) (hs13_8 ⟨0, hn⟩) (ms13_9 ⟨0, hn⟩) (hs13_9 ⟨0, hn⟩) ((hcond13_0 ⟨0, hn⟩).mpr (Nat.zero_mod _)) (iblk13 V c 0 ⟨0, hn⟩) (iblk13 V c 1 ⟨0, hn⟩) (iblk13 V c 2 ⟨0, hn⟩) (iblk13 V c 3 ⟨0, hn⟩) (iblk13 V c 4 ⟨0, hn⟩) (iblk13 V c 5 ⟨0, hn⟩) (iblk13 V c 6 ⟨0, hn⟩))
  | n + 1, hn =>
    if h0 : (n + 1) % 25 = 0 then
      (out13_A_7 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) ((hcond13_0 ⟨n + 1, hn⟩).mpr h0) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩),
        out13_A_8 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) ((hcond13_0 ⟨n + 1, hn⟩).mpr h0) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩),
        out13_A_9 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) ((hcond13_0 ⟨n + 1, hn⟩).mpr h0) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩))
    else
      (out13_B_7 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) (fun h => h0 ((hcond13_0 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩) (outsAt13 c n (Nat.lt_of_succ_lt hn)).2.1 (outsAt13 c n (Nat.lt_of_succ_lt hn)).2.2,
        out13_B_8 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) (fun h => h0 ((hcond13_0 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩) (outsAt13 c n (Nat.lt_of_succ_lt hn)).2.1 (outsAt13 c n (Nat.lt_of_succ_lt hn)).2.2,
        out13_B_9 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) (fun h => h0 ((hcond13_0 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩) (outsAt13 c n (Nat.lt_of_succ_lt hn)).2.1 (outsAt13 c n (Nat.lt_of_succ_lt hn)).2.2)

/-- `outsAt13` at the first point: the resetting case's contents. -/
theorem outsAt13_A (c : Dev nD) (t : Fin cfg13.N) (h0 : t.val % 25 = 0) :
    outsAt13 V c t.val t.isLt = (out13_A_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr h0) (iblk13 V c 0 t) (iblk13 V c 1 t) (iblk13 V c 2 t) (iblk13 V c 3 t) (iblk13 V c 4 t) (iblk13 V c 5 t) (iblk13 V c 6 t),
        out13_A_8 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr h0) (iblk13 V c 0 t) (iblk13 V c 1 t) (iblk13 V c 2 t) (iblk13 V c 3 t) (iblk13 V c 4 t) (iblk13 V c 5 t) (iblk13 V c 6 t),
        out13_A_9 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr h0) (iblk13 V c 0 t) (iblk13 V c 1 t) (iblk13 V c 2 t) (iblk13 V c 3 t) (iblk13 V c 4 t) (iblk13 V c 5 t) (iblk13 V c 6 t)) := by
  obtain ⟨n, hn⟩ := t
  cases n with
  | zero => exact rfl
  | succ n => exact (dif_pos h0).trans rfl

/-- `outsAt13` at any other point: the accumulating case's contents, over what the point before left. -/
theorem outsAt13_B (c : Dev nD) (t : Fin cfg13.N) (h0 : ¬t.val % 25 = 0) :
    outsAt13 V c t.val t.isLt = (out13_B_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2,
        out13_B_8 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2,
        out13_B_9 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt13`; the invariant the scoped rest and the generator register, untouched;
    nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => (outsAt13 V c t.val t.isLt).1
    | ⟨8, _⟩ => (outsAt13 V c t.val t.isLt).2.1
    | ⟨9, _⟩ => (outsAt13 V c t.val t.isLt).2.2
  Φ _ := Pipeline.ΦA spec13 c
  q _ := fullShare
  owed _ := 0

/-- The proof data's arrays are the region-entry contents (the definition projected, so that `V` is never unfolded). -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = (outsAt13 V c t.val t.isLt).1 := by dsimp only [dat13]
theorem after13_8 (c : Dev nD) (t : Fin cfg13.N) : (dat13 V c).after 8 t = (outsAt13 V c t.val t.isLt).2.1 := by dsimp only [dat13]
theorem after13_9 (c : Dev nD) (t : Fin cfg13.N) : (dat13 V c).after 9 t = (outsAt13 V c t.val t.isLt).2.2 := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d
/-- At a point other than the first, accumulator window 8's staging buffer holds what the body left at the point before: its block
    is the same at every point and is written back at the last point only. -/
theorem before13_8_B (c : Dev nD) (t : Fin cfg13.N) (h0 : ¬t.val % 25 = 0) (d) :
    (dat13 V c).before 8 t d = (outsAt13 V c (t.val - 1) (Nat.lt_of_le_of_lt (Nat.sub_le _ _) t.isLt)).2.1 := by
  have hN : t.val < 25 := lt_of_lt_of_eq t.isLt (show cfg13.N = 25 from N_13)
  rw [Dat.before_out_kept _ 8 rfl t (by omega) (Bool.eq_false_iff.mpr fun h => by have := (flush13_8 _).mp h; dsimp only at this; omega)
    (fun _ => rfl) (fun _ _ => rfl)]
  dsimp only [dat13]
/-- At a point other than the first, accumulator window 9's staging buffer holds what the body left at the point before: its block
    is the same at every point and is written back at the last point only. -/
theorem before13_9_B (c : Dev nD) (t : Fin cfg13.N) (h0 : ¬t.val % 25 = 0) (d) :
    (dat13 V c).before 9 t d = (outsAt13 V c (t.val - 1) (Nat.lt_of_le_of_lt (Nat.sub_le _ _) t.isLt)).2.2 := by
  have hN : t.val < 25 := lt_of_lt_of_eq t.isLt (show cfg13.N = 25 from N_13)
  rw [Dat.before_out_kept _ 9 rfl t (by omega) (Bool.eq_false_iff.mpr fun h => by have := (flush13_9 _).mp h; dsimp only at this; omega)
    (fun _ => rfl) (fun _ _ => rfl)]
  dsimp only [dat13]

/-! ## The body obligation, at a generic point -/

/-- What the body is called with at point `t` (the windows one by one), -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d))
    ∗ (∃ d, owns (c : Thread nD τ) (ms13_6 t) fullShare ((dat13 V c).before 6 t d))
    ∗ (∃ d, owns (c : Thread nD τ) (ms13_7 t) fullShare ((dat13 V c).before 7 t d))
    ∗ (∃ d, owns (c : Thread nD τ) (ms13_8 t) fullShare ((dat13 V c).before 8 t d))
    ∗ (∃ d, owns (c : Thread nD τ) (ms13_9 t) fullShare ((dat13 V c).before 9 t d)))

/-- and what it returns. -/
def bodyPost13 (c : Dev nD) (t : Fin cfg13.N) : sProp 𝕄 :=
  iprop((dat13 V c).Φ t.succ ∗ (dat13 V c).owesAt () t.succ
    ∗ owns (c : Thread nD τ) (ms13_0 t) fullShare ((dat13 V c).after 0 t)
    ∗ owns (c : Thread nD τ) (ms13_1 t) fullShare ((dat13 V c).after 1 t)
    ∗ owns (c : Thread nD τ) (ms13_2 t) fullShare ((dat13 V c).after 2 t)
    ∗ owns (c : Thread nD τ) (ms13_3 t) fullShare ((dat13 V c).after 3 t)
    ∗ owns (c : Thread nD τ) (ms13_4 t) fullShare ((dat13 V c).after 4 t)
    ∗ owns (c : Thread nD τ) (ms13_5 t) fullShare ((dat13 V c).after 5 t)
    ∗ owns (c : Thread nD τ) (ms13_6 t) fullShare ((dat13 V c).after 6 t)
    ∗ owns (c : Thread nD τ) (ms13_7 t) fullShare ((dat13 V c).after 7 t)
    ∗ owns (c : Thread nD τ) (ms13_8 t) fullShare ((dat13 V c).after 8 t)
    ∗ owns (c : Thread nD τ) (ms13_9 t) fullShare ((dat13 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8, after13_9]
  have hN : t.val < 25 := lt_of_lt_of_eq t.isLt (show cfg13.N = 25 from N_13)
  by_cases h0 : t.val % 25 = 0
  · rw [outsAt13_A V c t h0]
    (try dsimp only)
    unfold out13_A_7 out13_A_8 out13_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun13_A c (grid13.coords t) _ _ _ _ _ _ _ _ _ _ _ _ _ _ _ _ _ _ _ _ ((hcond13_0 t).mpr h0) (iblk13 V c 0 t) (iblk13 V c 1 t) (iblk13 V c 2 t) (iblk13 V c 3 t) (iblk13 V c 4 t) (iblk13 V c 5 t) (iblk13 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover13_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover13_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover13_A_9 c _ _ _ _ _ _ _ _ _ _ _ _ _ _ _ _ _ _ _ _ _ _ _ _ _ _ _ _ _)
  · rw [outsAt13_B V c t h0]
    simp only [before13_8_B V c t h0, before13_9_B V c t h0]
    (try dsimp only)
    unfold out13_B_7 out13_B_8 out13_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun13_B c (grid13.coords t) _ _ _ _ _ _ _ _ _ _ _ _ _ _ _ _ _ _ _ _ (fun h => h0 ((hcond13_0 t).mp h)) (iblk13 V c 0 t) (iblk13 V c 1 t) (iblk13 V c 2 t) (iblk13 V c 3 t) (iblk13 V c 4 t) (iblk13 V c 5 t) (iblk13 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover13_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover13_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover13_B_9 c _ _ _ _ _ _ _ _ _ _ _ _ _ _ _ _ _ _ _ _ _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.R14.lean ====
/-
  Region 14 of the word-level kernel program's @main (pallas_call 14), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.Kernel.Launch
import proofs.«102822_j3521873183180_1_alg».proof.Proof.Gen.Kernel.Skeleton
import proofs.«102822_j3521873183180_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The inputs' buffers hold their blocks -/

/-- Input window 0's current staging buffer holds its block at every point, fetched there or not (where it is not fetched its
    block index has not moved), for any proof data over the region's entry contents whose body leaves the block in place. -/
theorem heldIn14_0 {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not (where it is not fetched its
    block index has not moved), for any proof data over the region's entry contents whose body leaves the block in place. -/
theorem heldIn14_1 {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not (where it is not fetched its
    block index has not moved), for any proof data over the region's entry contents whose body leaves the block in place. -/
theorem heldIn14_2 {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not (where it is not fetched its
    block index has not moved), for any proof data over the region's entry contents whose body leaves the block in place. -/
theorem heldIn14_3 {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not (where it is not fetched its
    block index has not moved), for any proof data over the region's entry contents whose body leaves the block in place. -/
theorem heldIn14_4 {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's one branch: is this the first grid point? -/

/-- The condition under which the body resets the running row: the grid coordinate compared with zero, as the body's scalar
    operations compute it. -/
abbrev atFirst14 (i : grid14.Coords) : Prop := (Scalar.cmpi .ne (Scalar.extui (Scalar.cmpi .eq (BitVec.ofNat 32 (i 0).val) 0#32)) 0#32) = 1#1
/-- It holds at the first point of the grid and at no other: decided point by point. -/
theorem atFirst14_iff : ∀ t : Fin cfg14.N, atFirst14 (grid14.coords t) ↔ t.val % 25 = 0 :=
  (by decide +kernel : ∀ t : Fin grid14.N, atFirst14 (grid14.coords t) ↔ t.val % 25 = 0)

/-! ## The staging memrefs the body is called with -/
abbrev stg14_0 (t : Fin cfg14.N) : Memref sig .tc .vmem S2000x256 .f32 := win14_0.stage (cfg14.slots t 0)
abbrev stgWhole14_0 (t : Fin cfg14.N) : (stg14_0 t).IsWhole := hstage14_0 ((cfg14.slots t 0).cast nbuf14_0)
abbrev stg14_1 (t : Fin cfg14.N) : Memref sig .tc .vmem S1x256 .f32 := win14_1.stage (cfg14.slots t 1)
abbrev stgWhole14_1 (t : Fin cfg14.N) : (stg14_1 t).IsWhole := hstage14_1 ((cfg14.slots t 1).cast nbuf14_1)
abbrev stg14_2 (t : Fin cfg14.N) : Memref sig .tc .vmem S1x256 .f32 := win14_2.stage (cfg14.slots t 2)
abbrev stgWhole14_2 (t : Fin cfg14.N) : (stg14_2 t).IsWhole := hstage14_2 ((cfg14.slots t 2).cast nbuf14_2)
abbrev stg14_3 (t : Fin cfg14.N) : Memref sig .tc .vmem S1x256 .f32 := win14_3.stage (cfg14.slots t 3)
abbrev stgWhole14_3 (t : Fin cfg14.N) : (stg14_3 t).IsWhole := hstage14_3 ((cfg14.slots t 3).cast nbuf14_3)
abbrev stg14_4 (t : Fin cfg14.N) : Memref sig .tc .vmem S1x256 .f32 := win14_4.stage (cfg14.slots t 4)
abbrev stgWhole14_4 (t : Fin cfg14.N) : (stg14_4 t).IsWhole := hstage14_4 ((cfg14.slots t 4).cast nbuf14_4)
abbrev stg14_5 (t : Fin cfg14.N) : Memref sig .tc .vmem S2000x256 .f32 := win14_5.stage (cfg14.slots t 5)
abbrev stgWhole14_5 (t : Fin cfg14.N) : (stg14_5 t).IsWhole := hstage14_5 ((cfg14.slots t 5).cast nbuf14_5)
abbrev stg14_6 (t : Fin cfg14.N) : Memref sig .tc .vmem S1x256 .f32 := win14_6.stage (cfg14.slots t 6)
abbrev stgWhole14_6 (t : Fin cfg14.N) : (stg14_6 t).IsWhole := hstage14_6 ((cfg14.slots t 6).cast nbuf14_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc14__norm_readout_kernel i arg1 harg1 arg2 harg2 arg3 harg3 arg4 harg4 arg5 harg5 arg6 harg6 arg7 harg7) K } := by
  refine ⟨?_, ?_, fun E K => ?run⟩
  case run =>
    simp only [cc14__norm_readout_kernel_eq_skeleton]; unfold cc14__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc14__norm_readout_kernel i arg1 harg1 arg2 harg2 arg3 harg3 arg4 harg4 arg5 harg5 arg6 harg6 arg7 harg7) K } := by
  refine ⟨?_, ?_, fun E K => ?run⟩
  case run =>
    simp only [cc14__norm_readout_kernel_eq_skeleton]; unfold cc14__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst14_5 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) (y : S2000x256.Idx) :
    ∃ pc ∈ (runFirst14 c i arg1 harg1 arg2 harg2 arg3 harg3 arg4 harg4 arg5 harg5 arg6 harg6 arg7 harg7 hc u mean var gain shift).1, y ∈ pc.1.set :=
  View.cover_of_tiledL (runFirst14 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst14_6 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) (y : S1x256.Idx) :
    ∃ pc ∈ (runFirst14 c i arg1 harg1 arg2 harg2 arg3 harg3 arg4 harg4 arg5 harg5 arg6 harg6 arg7 harg7 hc u mean var gain shift).2.1, y ∈ pc.1.set :=
  View.cover_of_tiledL (runFirst14 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater14_5 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater14 c i arg1 harg1 arg2 harg2 arg3 harg3 arg4 harg4 arg5 harg5 arg6 harg6 arg7 harg7 hc u mean var gain shift acc).1, y ∈ pc.1.set :=
  View.cover_of_tiledL (runLater14 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater14_6 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater14 c i arg1 harg1 arg2 harg2 arg3 harg3 arg4 harg4 arg5 harg5 arg6 harg6 arg7 harg7 hc u mean var gain shift acc).2.1, y ∈ pc.1.set :=
  View.cover_of_tiledL (runLater14 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) : Vec F S2000x256 .f32 :=
  View.canon (runFirst14 c i arg1 harg1 arg2 harg2 arg3 harg3 arg4 harg4 arg5 harg5 arg6 harg6 arg7 harg7 hc u mean var gain shift).1

/-- The running row the first point leaves. -/
def sumsFirst14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) : Vec F S1x256 .f32 :=
  View.canon (runFirst14 c i arg1 harg1 arg2 harg2 arg3 harg3 arg4 harg4 arg5 harg5 arg6 harg6 arg7 harg7 hc u mean var gain shift).2.1

/-- The normalized block a later point leaves. -/
def rowsLater14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater14 c i arg1 harg1 arg2 harg2 arg3 harg3 arg4 harg4 arg5 harg5 arg6 harg6 arg7 harg7 hc u mean var gain shift acc).1

/-- The running row a later point leaves, over the row `acc` it found. -/
def sumsLater14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater14 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt14 (c : Dev nD) (t : Fin cfg14.N) (h0 : t.val % 25 = 0) : Vec F S2000x256 .f32 :=
  rowsFirst14 c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) ((atFirst14_iff t).mpr h0) (iblk14 V c 0 t) (iblk14 V c 1 t) (iblk14 V c 2 t) (iblk14 V c 3 t) (iblk14 V c 4 t)

/-- The running row after point `t`, when `t` is the first point. -/
def sumsFirstAt14 (c : Dev nD) (t : Fin cfg14.N) (h0 : t.val % 25 = 0) : Vec F S1x256 .f32 :=
  sumsFirst14 c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) ((atFirst14_iff t).mpr h0) (iblk14 V c 0 t) (iblk14 V c 1 t) (iblk14 V c 2 t) (iblk14 V c 3 t) (iblk14 V c 4 t)

/-- The normalized block of point `t`, when `t` is a later point (the run is stated at the running row it found). -/
def rowsLaterAt14 (c : Dev nD) (t : Fin cfg14.N) (h0 : ¬t.val % 25 = 0) (acc : Vec F S1x256 .f32) : Vec F S2000x256 .f32 :=
  rowsLater14 c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) (fun h => h0 ((atFirst14_iff t).mp h)) (iblk14 V c 0 t) (iblk14 V c 1 t) (iblk14 V c 2 t) (iblk14 V c 3 t) (iblk14 V c 4 t) acc

/-- The running row after point `t`, when `t` is a later point that found the row `acc`. -/
def sumsLaterAt14 (c : Dev nD) (t : Fin cfg14.N) (h0 : ¬t.val % 25 = 0) (acc : Vec F S1x256 .f32) : Vec F S1x256 .f32 :=
  sumsLater14 c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) (fun h => h0 ((atFirst14_iff t).mp h)) (iblk14 V c 0 t) (iblk14 V c 1 t) (iblk14 V c 2 t) (iblk14 V c 3 t) (iblk14 V c 4 t) acc

/-! ## What the outputs hold after each point -/

/-- THE ACCUMULATION: the running row after the body at position `n`. At the first point the reset-and-add case's row; at a later
    point the add case's row over what this gives at `n - 1` (the row's buffer is not written back in between). -/
def sumsAt14 (c : Dev nD) : (n : ℕ) → n < cfg14.N → Vec F S1x256 .f32
  | 0, hn => sumsFirstAt14 V c ⟨0, hn⟩ (Nat.zero_mod _)
  | n + 1, hn =>
    if h0 : (n + 1) % 25 = 0 then sumsFirstAt14 V c ⟨n + 1, hn⟩ h0
    else sumsLaterAt14 V c ⟨n + 1, hn⟩ h0 (sumsAt14 c n (Nat.lt_of_succ_lt hn))

/-- The running row the body finds at point `t` when `t` is not the first: what the point before left. -/
abbrev sumsBefore14 (c : Dev nD) (t : Fin cfg14.N) : Vec F S1x256 .f32 :=
  sumsAt14 V c (t.val - 1) (Nat.lt_of_le_of_lt (Nat.sub_le _ _) t.isLt)

/-- The normalized block after the body at point `t`. -/
def rowsAt14 (c : Dev nD) (t : Fin cfg14.N) : Vec F S2000x256 .f32 :=
  if h0 : t.val % 25 = 0 then rowsFirstAt14 V c t h0 else rowsLaterAt14 V c t h0 (sumsBefore14 V c t)

/-- The running row at the first point. -/
theorem sumsAt14_first (c : Dev nD) (t : Fin cfg14.N) (h0 : t.val % 25 = 0) :
    sumsAt14 V c t.val t.isLt = sumsFirstAt14 V c t h0 := by
  obtain ⟨n, hn⟩ := t
  cases n with
  | zero => exact rfl
  | succ n => exact (dif_pos h0).trans rfl

/-- The running row at a later point: the add case over the row before. -/
theorem sumsAt14_later (c : Dev nD) (t : Fin cfg14.N) (h0 : ¬t.val % 25 = 0) :
    sumsAt14 V c t.val t.isLt = sumsLaterAt14 V c t h0 (sumsBefore14 V c t) := by
  obtain ⟨n, hn⟩ := t
  cases n with
  | zero => exact absurd (Nat.zero_mod _) h0
  | succ n => exact (dif_neg h0).trans rfl

/-- The normalized block at the first point. -/
theorem rowsAt14_first (c : Dev nD) (t : Fin cfg14.N) (h0 : t.val % 25 = 0) : rowsAt14 V c t = rowsFirstAt14 V c t h0 := dif_pos h0

/-- The normalized block at a later point. -/
theorem rowsAt14_later (c : Dev nD) (t : Fin cfg14.N) (h0 : ¬t.val % 25 = 0) :
    rowsAt14 V c t = rowsLaterAt14 V c t h0 (sumsBefore14 V c t) := dif_neg h0

/-! ## The pipeline's proof data -/

/-- The proof data of the region's pipeline on core `c`: the arrays as the region finds them; after the body at point `t` each
    input's buffer still at its block, the normalized block's at `rowsAt14`, the running row's at `sumsAt14`; the class's invariant
    (the scoped rest and the generator register, untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => rowsAt14 V c t
    | ⟨6, _⟩ => sumsAt14 V c t.val t.isLt
  Φ _ := Pipeline.ΦA spec14 c
  q _ := fullShare
  owed _ := 0

theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = rowsAt14 V c t := by dsimp only [dat14]
theorem after14_6 (c : Dev nD) (t : Fin cfg14.N) : (dat14 V c).after 6 t = sumsAt14 V c t.val t.isLt := by dsimp only [dat14]

/-- What the body finds in each input's buffer: its block. -/
theorem before14_0 (c : Dev nD) (t : Fin cfg14.N) (d) : (dat14 V c).before 0 t d = iblk14 V c 0 t :=
  heldIn14_0 V (dat14 V c) (A_eq14 V c 0) (after14_0 V c) t d
theorem before14_1 (c : Dev nD) (t : Fin cfg14.N) (d) : (dat14 V c).before 1 t d = iblk14 V c 1 t :=
  heldIn14_1 V (dat14 V c) (A_eq14 V c 1) (after14_1 V c) t d
theorem before14_2 (c : Dev nD) (t : Fin cfg14.N) (d) : (dat14 V c).before 2 t d = iblk14 V c 2 t :=
  heldIn14_2 V (dat14 V c) (A_eq14 V c 2) (after14_2 V c) t d
theorem before14_3 (c : Dev nD) (t : Fin cfg14.N) (d) : (dat14 V c).before 3 t d = iblk14 V c 3 t :=
  heldIn14_3 V (dat14 V c) (A_eq14 V c 3) (after14_3 V c) t d
theorem before14_4 (c : Dev nD) (t : Fin cfg14.N) (d) : (dat14 V c).before 4 t d = iblk14 V c 4 t :=
  heldIn14_4 V (dat14 V c) (A_eq14 V c 4) (after14_4 V c) t d

/-- At a later point the running row's buffer holds what the body left at the point before: the point is not the first, the row is
    written back at the last point only, the window is never idle and is uncut. -/
theorem before14_6_later (c : Dev nD) (t : Fin cfg14.N) (h0 : ¬t.val % 25 = 0) (d) :
    (dat14 V c).before 6 t d = sumsBefore14 V c t := by
  have hN : t.val < 25 := lt_of_lt_of_eq t.isLt (show cfg14.N = 25 from N_14)
  rw [Dat.before_out_kept _ 6 rfl t (by omega) (Bool.eq_false_iff.mpr fun h => by have := (flush14_6 _).mp h; dsimp only at this; omega)
    (fun _ => rfl) (fun _ _ => rfl)]
  dsimp only [dat14]

/-! ## The body obligation -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  by_cases h0 : t.val % 25 = 0
  · rw [sumsAt14_first V c t h0, rowsAt14_first V c t h0]
    unfold sumsFirstAt14 rowsFirstAt14 sumsFirst14 rowsFirst14
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst14 c (grid14.coords t) _ _ _ _ _ _ _ _ _ _ _ _ _ _ ((atFirst14_iff t).mpr h0) (iblk14 V c 0 t) (iblk14 V c 1 t) (iblk14 V c 2 t) (iblk14 V c 3 t) (iblk14 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst14_5 c _ _ _ _ _ _ _ _ _ _ _ _ _ _ _ _ _ _ _ _ _)
    unfold owns; iexists _; isplitr
    swap; · iexact H6
    ipureintro; exact View.read_writes_eq_canon _ _ _ (coverFirst14_6 c _ _ _ _ _ _ _ _ _ _ _ _ _ _ _ _ _ _ _ _ _)
  · rw [sumsAt14_later V c t h0, rowsAt14_later V c t h0]
    simp only [before14_6_later V c t h0]
    unfold sumsLaterAt14 rowsLaterAt14 sumsLater14 rowsLater14
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater14 c (grid14.coords t) _ _ _ _ _ _ _ _ _ _ _ _ _ _ (fun h => h0 ((atFirst14_iff t).mp h)) (iblk14 V c 0 t) (iblk14 V c 1 t) (iblk14 V c 2 t) (iblk14 V c 3 t) (iblk14 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater14_5 c _ _ _ _ _ _ _ _ _ _ _ _ _ _ _ _ _ _ _ _ _ _)
    unfold owns; iexists _; isplitr
    swap; · iexact H6
    ipureintro; exact View.read_writes_eq_canon _ _ _ (coverLater14_6 c _ _ _ _ _ _ _ _ _ _ _ _ _ _ _ _ _ _ _ _ _ _)

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Fold.lean ====
/-
  The TensorCore's buffer contents at every boundary of the word-level kernel program's @main, at any float instance: a fold
  from the launch memory `m` through the 15 stretches of host operations that lead into the 15 pallas_call regions, and
  through the regions. A stretch leaves every buffer at what its operations compute from the contents before it
  (`StableHlo.after`). A region leaves each of its windows' arrays at what its pipeline's write-backs fold to
  (`Dat.arrAt … N`: for an input window, the array as entered) and every other buffer as entered
  (`Pipeline.withArrays`). Boundary 2K is before the stretch `hostOpsK`, boundary 2K+1 is region K's entry, boundary
  2K+2 its exit.
-/
import proofs.«102822_j3521873183180_1_alg».proof.Proof.K.R0
import proofs.«102822_j3521873183180_1_alg».proof.Proof.K.R1
import proofs.«102822_j3521873183180_1_alg».proof.Proof.K.R2
import proofs.«102822_j3521873183180_1_alg».proof.Proof.K.R3
import proofs.«102822_j3521873183180_1_alg».proof.Proof.K.R4
import proofs.«102822_j3521873183180_1_alg».proof.Proof.K.R5
import proofs.«102822_j3521873183180_1_alg».proof.Proof.K.R6
import proofs.«102822_j3521873183180_1_alg».proof.Proof.K.R7
import proofs.«102822_j3521873183180_1_alg».proof.Proof.K.R8
import proofs.«102822_j3521873183180_1_alg».proof.Proof.K.R9
import proofs.«102822_j3521873183180_1_alg».proof.Proof.K.R10
import proofs.«102822_j3521873183180_1_alg».proof.Proof.K.R11
import proofs.«102822_j3521873183180_1_alg».proof.Proof.K.R12
import proofs.«102822_j3521873183180_1_alg».proof.Proof.K.R13
import proofs.«102822_j3521873183180_1_alg».proof.Proof.K.R14
import proofs.«102822_j3521873183180_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-! ## Region 0: the stretch `hostOps0` that leads into it, and its exit -/

/-- After `hostOps0` (region 0's entry). -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit: its windows' arrays at what the pipeline leaves (an input's as entered, an output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference that no operation of `hostOps0` writes and that is no window's array in region 0 holds at the region's
    exit what it held before the stretch. -/
theorem W2_keep (c : Dev nD) (r : Ref sig .tc) (hh : r ∉ hostOps0_W) (hr : ∀ w, Pipeline.arrRef spec0 w ≠ r) :
    W2 m ρ c (Proc.devRef .tc r) = W0 m ρ c (Proc.devRef .tc r) :=
  (W2_of_ne m ρ c r hr).trans (StableHlo.after_of_writes_sub hostOps0 _ hostOps0_writes hh)

/-! ## Region 1: the stretch `hostOps1` that leads into it, and its exit -/

/-- After `hostOps1` (region 1's entry). -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit: its windows' arrays at what the pipeline leaves (an input's as entered, an output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, -/
theorem hF1 (c : Dev nD) (w : Fin cfg1.W) : (dat1 (V3 m ρ) c).arrAt w cfg1.N = V4 m ρ c (Pipeline.arrRef spec1 w) :=
  (W4_arr m ρ c w).symm
/-- and every other buffer what it held at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference that no operation of `hostOps1` writes and that is no window's array in region 1 holds at the region's
    exit what it held before the stretch. -/
theorem W4_keep (c : Dev nD) (r : Ref sig .tc) (hh : r ∉ hostOps1_W) (hr : ∀ w, Pipeline.arrRef spec1 w ≠ r) :
    W4 m ρ c (Proc.devRef .tc r) = W2 m ρ c (Proc.devRef .tc r) :=
  (W4_of_ne m ρ c r hr).trans (StableHlo.after_of_writes_sub hostOps1 _ hostOps1_writes hh)

/-! ## Region 2: the stretch `hostOps2` that leads into it, and its exit -/

/-- After `hostOps2` (region 2's entry). -/
abbrev W5 : Dev nD → Valuation τ sig (Elt F) := fun c => StableHlo.after hostOps2 (W4 m ρ c)
/-- The same read at the TensorCore's references: what region 2's proof data take. -/
abbrev V5 : (c : Dev nD) → (b : Ref sig .tc) → Buf (Elt F) ((c : Thread nD τ).loc b) := fun c b => W5 m ρ c b
/-- At region 2's exit: its windows' arrays at what the pipeline leaves (an input's as entered, an output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, -/
theorem hF2 (c : Dev nD) (w : Fin cfg2.W) : (dat2 (V5 m ρ) c).arrAt w cfg2.N = V6 m ρ c (Pipeline.arrRef spec2 w) :=
  (W6_arr m ρ c w).symm
/-- and every other buffer what it held at entry. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A reference that no operation of `hostOps2` writes and that is no window's array in region 2 holds at the region's
    exit what it held before the stretch. -/
theorem W6_keep (c : Dev nD) (r : Ref sig .tc) (hh : r ∉ hostOps2_W) (hr : ∀ w, Pipeline.arrRef spec2 w ≠ r) :
    W6 m ρ c (Proc.devRef .tc r) = W4 m ρ c (Proc.devRef .tc r) :=
  (W6_of_ne m ρ c r hr).trans (StableHlo.after_of_writes_sub hostOps2 _ hostOps2_writes hh)

/-! ## Region 3: the stretch `hostOps3` that leads into it, and its exit -/

/-- After `hostOps3` (region 3's entry). -/
abbrev W7 : Dev nD → Valuation τ sig (Elt F) := fun c => StableHlo.after hostOps3 (W6 m ρ c)
/-- The same read at the TensorCore's references: what region 3's proof data take. -/
abbrev V7 : (c : Dev nD) → (b : Ref sig .tc) → Buf (Elt F) ((c : Thread nD τ).loc b) := fun c b => W7 m ρ c b
/-- At region 3's exit: its windows' arrays at what the pipeline leaves (an input's as entered, an output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, -/
theorem hF3 (c : Dev nD) (w : Fin cfg3.W) : (dat3 (V7 m ρ) c).arrAt w cfg3.N = V8 m ρ c (Pipeline.arrRef spec3 w) :=
  (W8_arr m ρ c w).symm
/-- and every other buffer what it held at entry. -/
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A reference that no operation of `hostOps3` writes and that is no window's array in region 3 holds at the region's
    exit what it held before the stretch. -/
theorem W8_keep (c : Dev nD) (r : Ref sig .tc) (hh : r ∉ hostOps3_W) (hr : ∀ w, Pipeline.arrRef spec3 w ≠ r) :
    W8 m ρ c (Proc.devRef .tc r) = W6 m ρ c (Proc.devRef .tc r) :=
  (W8_of_ne m ρ c r hr).trans (StableHlo.after_of_writes_sub hostOps3 _ hostOps3_writes hh)

/-! ## Region 4: the stretch `hostOps4` that leads into it, and its exit -/

/-- After `hostOps4` (region 4's entry). -/
abbrev W9 : Dev nD → Valuation τ sig (Elt F) := fun c => StableHlo.after hostOps4 (W8 m ρ c)
/-- The same read at the TensorCore's references: what region 4's proof data take. -/
abbrev V9 : (c : Dev nD) → (b : Ref sig .tc) → Buf (Elt F) ((c : Thread nD τ).loc b) := fun c b => W9 m ρ c b
/-- At region 4's exit: its windows' arrays at what the pipeline leaves (an input's as entered, an output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, -/
theorem hF4 (c : Dev nD) (w : Fin cfg4.W) : (dat4 (V9 m ρ) c).arrAt w cfg4.N = V10 m ρ c (Pipeline.arrRef spec4 w) :=
  (W10_arr m ρ c w).symm
/-- and every other buffer what it held at entry. -/
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A reference that no operation of `hostOps4` writes and that is no window's array in region 4 holds at the region's
    exit what it held before the stretch. -/
theorem W10_keep (c : Dev nD) (r : Ref sig .tc) (hh : r ∉ hostOps4_W) (hr : ∀ w, Pipeline.arrRef spec4 w ≠ r) :
    W10 m ρ c (Proc.devRef .tc r) = W8 m ρ c (Proc.devRef .tc r) :=
  (W10_of_ne m ρ c r hr).trans (StableHlo.after_of_writes_sub hostOps4 _ hostOps4_writes hh)

/-! ## Region 5: the stretch `hostOps5` that leads into it, and its exit -/

/-- After `hostOps5` (region 5's entry). -/
abbrev W11 : Dev nD → Valuation τ sig (Elt F) := fun c => StableHlo.after hostOps5 (W10 m ρ c)
/-- The same read at the TensorCore's references: what region 5's proof data take. -/
abbrev V11 : (c : Dev nD) → (b : Ref sig .tc) → Buf (Elt F) ((c : Thread nD τ).loc b) := fun c b => W11 m ρ c b
/-- At region 5's exit: its windows' arrays at what the pipeline leaves (an input's as entered, an output's write-backs
    folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, -/
theorem hF5 (c : Dev nD) (w : Fin cfg5.W) : (dat5 (V11 m ρ) c).arrAt w cfg5.N = V12 m ρ c (Pipeline.arrRef spec5 w) :=
  (W12_arr m ρ c w).symm
/-- and every other buffer what it held at entry. -/
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A reference that no operation of `hostOps5` writes and that is no window's array in region 5 holds at the region's
    exit what it held before the stretch. -/
theorem W12_keep (c : Dev nD) (r : Ref sig .tc) (hh : r ∉ hostOps5_W) (hr : ∀ w, Pipeline.arrRef spec5 w ≠ r) :
    W12 m ρ c (Proc.devRef .tc r) = W10 m ρ c (Proc.devRef .tc r) :=
  (W12_of_ne m ρ c r hr).trans (StableHlo.after_of_writes_sub hostOps5 _ hostOps5_writes hh)

/-! ## Region 6: the stretch `hostOps6` that leads into it, and its exit -/

/-- After `hostOps6` (region 6's entry). -/
abbrev W13 : Dev nD → Valuation τ sig (Elt F) := fun c => StableHlo.after hostOps6 (W12 m ρ c)
/-- The same read at the TensorCore's references: what region 6's proof data take. -/
abbrev V13 : (c : Dev nD) → (b : Ref sig .tc) → Buf (Elt F) ((c : Thread nD τ).loc b) := fun c b => W13 m ρ c b
/-- At region 6's exit: its windows' arrays at what the pipeline leaves (an input's as entered, an output's write-backs
    folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves, -/
theorem hF6 (c : Dev nD) (w : Fin cfg6.W) : (dat6 (V13 m ρ) c).arrAt w cfg6.N = V14 m ρ c (Pipeline.arrRef spec6 w) :=
  (W14_arr m ρ c w).symm
/-- and every other buffer what it held at entry. -/
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A reference that no operation of `hostOps6` writes and that is no window's array in region 6 holds at the region's
    exit what it held before the stretch. -/
theorem W14_keep (c : Dev nD) (r : Ref sig .tc) (hh : r ∉ hostOps6_W) (hr : ∀ w, Pipeline.arrRef spec6 w ≠ r) :
    W14 m ρ c (Proc.devRef .tc r) = W12 m ρ c (Proc.devRef .tc r) :=
  (W14_of_ne m ρ c r hr).trans (StableHlo.after_of_writes_sub hostOps6 _ hostOps6_writes hh)

/-! ## Region 7: the stretch `hostOps7` that leads into it, and its exit -/

/-- After `hostOps7` (region 7's entry). -/
abbrev W15 : Dev nD → Valuation τ sig (Elt F) := fun c => StableHlo.after hostOps7 (W14 m ρ c)
/-- The same read at the TensorCore's references: what region 7's proof data take. -/
abbrev V15 : (c : Dev nD) → (b : Ref sig .tc) → Buf (Elt F) ((c : Thread nD τ).loc b) := fun c b => W15 m ρ c b
/-- At region 7's exit: its windows' arrays at what the pipeline leaves (an input's as entered, an output's write-backs
    folded), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves, -/
theorem hF7 (c : Dev nD) (w : Fin cfg7.W) : (dat7 (V15 m ρ) c).arrAt w cfg7.N = V16 m ρ c (Pipeline.arrRef spec7 w) :=
  (W16_arr m ρ c w).symm
/-- and every other buffer what it held at entry. -/
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A reference that no operation of `hostOps7` writes and that is no window's array in region 7 holds at the region's
    exit what it held before the stretch. -/
theorem W16_keep (c : Dev nD) (r : Ref sig .tc) (hh : r ∉ hostOps7_W) (hr : ∀ w, Pipeline.arrRef spec7 w ≠ r) :
    W16 m ρ c (Proc.devRef .tc r) = W14 m ρ c (Proc.devRef .tc r) :=
  (W16_of_ne m ρ c r hr).trans (StableHlo.after_of_writes_sub hostOps7 _ hostOps7_writes hh)

/-! ## Region 8: the stretch `hostOps8` that leads into it, and its exit -/

/-- After `hostOps8` (region 8's entry). -/
abbrev W17 : Dev nD → Valuation τ sig (Elt F) := fun c => StableHlo.after hostOps8 (W16 m ρ c)
/-- The same read at the TensorCore's references: what region 8's proof data take. -/
abbrev V17 : (c : Dev nD) → (b : Ref sig .tc) → Buf (Elt F) ((c : Thread nD τ).loc b) := fun c b => W17 m ρ c b
/-- At region 8's exit: its windows' arrays at what the pipeline leaves (an input's as entered, an output's write-backs
    folded), every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves, -/
theorem hF8 (c : Dev nD) (w : Fin cfg8.W) : (dat8 (V17 m ρ) c).arrAt w cfg8.N = V18 m ρ c (Pipeline.arrRef spec8 w) :=
  (W18_arr m ρ c w).symm
/-- and every other buffer what it held at entry. -/
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A reference that no operation of `hostOps8` writes and that is no window's array in region 8 holds at the region's
    exit what it held before the stretch. -/
theorem W18_keep (c : Dev nD) (r : Ref sig .tc) (hh : r ∉ hostOps8_W) (hr : ∀ w, Pipeline.arrRef spec8 w ≠ r) :
    W18 m ρ c (Proc.devRef .tc r) = W16 m ρ c (Proc.devRef .tc r) :=
  (W18_of_ne m ρ c r hr).trans (StableHlo.after_of_writes_sub hostOps8 _ hostOps8_writes hh)

/-! ## Region 9: the stretch `hostOps9` that leads into it, and its exit -/

/-- After `hostOps9` (region 9's entry). -/
abbrev W19 : Dev nD → Valuation τ sig (Elt F) := fun c => StableHlo.after hostOps9 (W18 m ρ c)
/-- The same read at the TensorCore's references: what region 9's proof data take. -/
abbrev V19 : (c : Dev nD) → (b : Ref sig .tc) → Buf (Elt F) ((c : Thread nD τ).loc b) := fun c b => W19 m ρ c b
/-- At region 9's exit: its windows' arrays at what the pipeline leaves (an input's as entered, an output's write-backs
    folded), every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves, -/
theorem hF9 (c : Dev nD) (w : Fin cfg9.W) : (dat9 (V19 m ρ) c).arrAt w cfg9.N = V20 m ρ c (Pipeline.arrRef spec9 w) :=
  (W20_arr m ρ c w).symm
/-- and every other buffer what it held at entry. -/
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- A reference that no operation of `hostOps9` writes and that is no window's array in region 9 holds at the region's
    exit what it held before the stretch. -/
theorem W20_keep (c : Dev nD) (r : Ref sig .tc) (hh : r ∉ hostOps9_W) (hr : ∀ w, Pipeline.arrRef spec9 w ≠ r) :
    W20 m ρ c (Proc.devRef .tc r) = W18 m ρ c (Proc.devRef .tc r) :=
  (W20_of_ne m ρ c r hr).trans (StableHlo.after_of_writes_sub hostOps9 _ hostOps9_writes hh)

/-! ## Region 10: the stretch `hostOps10` that leads into it, and its exit -/

/-- After `hostOps10` (region 10's entry). -/
abbrev W21 : Dev nD → Valuation τ sig (Elt F) := fun c => StableHlo.after hostOps10 (W20 m ρ c)
/-- The same read at the TensorCore's references: what region 10's proof data take. -/
abbrev V21 : (c : Dev nD) → (b : Ref sig .tc) → Buf (Elt F) ((c : Thread nD τ).loc b) := fun c b => W21 m ρ c b
/-- At region 10's exit: its windows' arrays at what the pipeline leaves (an input's as entered, an output's write-backs
    folded), every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references (region 10's exit contents). -/
abbrev V22 : (c : Dev nD) → (b : Ref sig .tc) → Buf (Elt F) ((c : Thread nD τ).loc b) := fun c b => W22 m ρ c b
/-- At region 10's exit each of its arrays holds what the pipeline leaves, -/
theorem hF10 (c : Dev nD) (w : Fin cfg10.W) : (dat10 (V21 m ρ) c).arrAt w cfg10.N = V22 m ρ c (Pipeline.arrRef spec10 w) :=
  (W22_arr m ρ c w).symm
/-- and every other buffer what it held at entry. -/
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)
/-- A reference that no operation of `hostOps10` writes and that is no window's array in region 10 holds at the region's
    exit what it held before the stretch. -/
theorem W22_keep (c : Dev nD) (r : Ref sig .tc) (hh : r ∉ hostOps10_W) (hr : ∀ w, Pipeline.arrRef spec10 w ≠ r) :
    W22 m ρ c (Proc.devRef .tc r) = W20 m ρ c (Proc.devRef .tc r) :=
  (W22_of_ne m ρ c r hr).trans (StableHlo.after_of_writes_sub hostOps10 _ hostOps10_writes hh)

/-! ## Region 11: the stretch `hostOps11` that leads into it, and its exit -/

/-- After `hostOps11` (region 11's entry). -/
abbrev W23 : Dev nD → Valuation τ sig (Elt F) := fun c => StableHlo.after hostOps11 (W22 m ρ c)
/-- The same read at the TensorCore's references: what region 11's proof data take. -/
abbrev V23 : (c : Dev nD) → (b : Ref sig .tc) → Buf (Elt F) ((c : Thread nD τ).loc b) := fun c b => W23 m ρ c b
/-- At region 11's exit: its windows' arrays at what the pipeline leaves (an input's as entered, an output's write-backs
    folded), every other buffer as entered. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- The same read at the TensorCore's references (region 11's exit contents). -/
abbrev V24 : (c : Dev nD) → (b : Ref sig .tc) → Buf (Elt F) ((c : Thread nD τ).loc b) := fun c b => W24 m ρ c b
/-- At region 11's exit each of its arrays holds what the pipeline leaves, -/
theorem hF11 (c : Dev nD) (w : Fin cfg11.W) : (dat11 (V23 m ρ) c).arrAt w cfg11.N = V24 m ρ c (Pipeline.arrRef spec11 w) :=
  (W24_arr m ρ c w).symm
/-- and every other buffer what it held at entry. -/
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)
/-- A reference that no operation of `hostOps11` writes and that is no window's array in region 11 holds at the region's
    exit what it held before the stretch. -/
theorem W24_keep (c : Dev nD) (r : Ref sig .tc) (hh : r ∉ hostOps11_W) (hr : ∀ w, Pipeline.arrRef spec11 w ≠ r) :
    W24 m ρ c (Proc.devRef .tc r) = W22 m ρ c (Proc.devRef .tc r) :=
  (W24_of_ne m ρ c r hr).trans (StableHlo.after_of_writes_sub hostOps11 _ hostOps11_writes hh)

/-! ## Region 12: the stretch `hostOps12` that leads into it, and its exit -/

/-- After `hostOps12` (region 12's entry). -/
abbrev W25 : Dev nD → Valuation τ sig (Elt F) := fun c => StableHlo.after hostOps12 (W24 m ρ c)
/-- The same read at the TensorCore's references: what region 12's proof data take. -/
abbrev V25 : (c : Dev nD) → (b : Ref sig .tc) → Buf (Elt F) ((c : Thread nD τ).loc b) := fun c b => W25 m ρ c b
/-- At region 12's exit: its windows' arrays at what the pipeline leaves (an input's as entered, an output's write-backs
    folded), every other buffer as entered. -/
def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
/-- The same read at the TensorCore's references (region 12's exit contents). -/
abbrev V26 : (c : Dev nD) → (b : Ref sig .tc) → Buf (Elt F) ((c : Thread nD τ).loc b) := fun c b => W26 m ρ c b
/-- At region 12's exit each of its arrays holds what the pipeline leaves, -/
theorem hF12 (c : Dev nD) (w : Fin cfg12.W) : (dat12 (V25 m ρ) c).arrAt w cfg12.N = V26 m ρ c (Pipeline.arrRef spec12 w) :=
  (W26_arr m ρ c w).symm
/-- and every other buffer what it held at entry. -/
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)
/-- A reference that no operation of `hostOps12` writes and that is no window's array in region 12 holds at the region's
    exit what it held before the stretch. -/
theorem W26_keep (c : Dev nD) (r : Ref sig .tc) (hh : r ∉ hostOps12_W) (hr : ∀ w, Pipeline.arrRef spec12 w ≠ r) :
    W26 m ρ c (Proc.devRef .tc r) = W24 m ρ c (Proc.devRef .tc r) :=
  (W26_of_ne m ρ c r hr).trans (StableHlo.after_of_writes_sub hostOps12 _ hostOps12_writes hh)

/-! ## Region 13: the stretch `hostOps13` that leads into it, and its exit -/

/-- After `hostOps13` (region 13's entry). -/
abbrev W27 : Dev nD → Valuation τ sig (Elt F) := fun c => StableHlo.after hostOps13 (W26 m ρ c)
/-- The same read at the TensorCore's references: what region 13's proof data take. -/
abbrev V27 : (c : Dev nD) → (b : Ref sig .tc) → Buf (Elt F) ((c : Thread nD τ).loc b) := fun c b => W27 m ρ c b
/-- At region 13's exit: its windows' arrays at what the pipeline leaves (an input's as entered, an output's write-backs
    folded), every other buffer as entered. -/
def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
/-- The same read at the TensorCore's references (region 13's exit contents). -/
abbrev V28 : (c : Dev nD) → (b : Ref sig .tc) → Buf (Elt F) ((c : Thread nD τ).loc b) := fun c b => W28 m ρ c b
/-- At region 13's exit each of its arrays holds what the pipeline leaves, -/
theorem hF13 (c : Dev nD) (w : Fin cfg13.W) : (dat13 (V27 m ρ) c).arrAt w cfg13.N = V28 m ρ c (Pipeline.arrRef spec13 w) :=
  (W28_arr m ρ c w).symm
/-- and every other buffer what it held at entry. -/
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)
/-- A reference that no operation of `hostOps13` writes and that is no window's array in region 13 holds at the region's
    exit what it held before the stretch. -/
theorem W28_keep (c : Dev nD) (r : Ref sig .tc) (hh : r ∉ hostOps13_W) (hr : ∀ w, Pipeline.arrRef spec13 w ≠ r) :
    W28 m ρ c (Proc.devRef .tc r) = W26 m ρ c (Proc.devRef .tc r) :=
  (W28_of_ne m ρ c r hr).trans (StableHlo.after_of_writes_sub hostOps13 _ hostOps13_writes hh)

/-! ## Region 14: the stretch `hostOps14` that leads into it, and its exit -/

/-- After `hostOps14` (region 14's entry). -/
abbrev W29 : Dev nD → Valuation τ sig (Elt F) := fun c => StableHlo.after hostOps14 (W28 m ρ c)
/-- The same read at the TensorCore's references: what region 14's proof data take. -/
abbrev V29 : (c : Dev nD) → (b : Ref sig .tc) → Buf (Elt F) ((c : Thread nD τ).loc b) := fun c b => W29 m ρ c b
/-- At region 14's exit: its windows' arrays at what the pipeline leaves (an input's as entered, an output's write-backs
    folded), every other buffer as entered. -/
def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
/-- The same read at the TensorCore's references (region 14's exit contents). -/
abbrev V30 : (c : Dev nD) → (b : Ref sig .tc) → Buf (Elt F) ((c : Thread nD τ).loc b) := fun c b => W30 m ρ c b
/-- At region 14's exit each of its arrays holds what the pipeline leaves, -/
theorem hF14 (c : Dev nD) (w : Fin cfg14.W) : (dat14 (V29 m ρ) c).arrAt w cfg14.N = V30 m ρ c (Pipeline.arrRef spec14 w) :=
  (W30_arr m ρ c w).symm
/-- and every other buffer what it held at entry. -/
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)
/-- A reference that no operation of `hostOps14` writes and that is no window's array in region 14 holds at the region's
    exit what it held before the stretch. -/
theorem W30_keep (c : Dev nD) (r : Ref sig .tc) (hh : r ∉ hostOps14_W) (hr : ∀ w, Pipeline.arrRef spec14 w ≠ r) :
    W30 m ρ c (Proc.devRef .tc r) = W28 m ρ c (Proc.devRef .tc r) :=
  (W30_of_ne m ρ c r hr).trans (StableHlo.after_of_writes_sub hostOps14 _ hostOps14_writes hh)

end Cert.Kernel.Hand

end
-- ==== Proof.K.Data.lean ====
/-
  The end of the fold of buffer contents through the word-level kernel program's @main — the last stretch of host
  operations, `hostOps15`, which computes the result `main_v258` — and what the run of @main is stated over: each of the
  12 argument arrays read back through the fold to the launch memory, the 15 pipelines' proof data (each at its region's
  entry contents), and the thread state that rides through every segment.
-/
import proofs.«102822_j3521873183180_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After `hostOps15`: the buffers when @main returns. -/
abbrev W31 : Dev nD → Valuation τ sig (Elt F) := fun c => StableHlo.after hostOps15 (W30 m ρ c)

/-! ## The arguments end as launched

  `main_arg0` is the array of region 0's window 0, an input window: the region leaves it as entered, and nothing else
  touches it. No other argument is a window's array anywhere, and no host operation writes an argument. -/

/-- No operation of any host stretch writes `r`, and `r` is no window's array in any region. -/
abbrev Untouched (r : Ref sig .tc) : Prop :=
  (r ∉ hostOps0_W ∧ ∀ w, Pipeline.arrRef spec0 w ≠ r) ∧
  (r ∉ hostOps1_W ∧ ∀ w, Pipeline.arrRef spec1 w ≠ r) ∧
  (r ∉ hostOps2_W ∧ ∀ w, Pipeline.arrRef spec2 w ≠ r) ∧
  (r ∉ hostOps3_W ∧ ∀ w, Pipeline.arrRef spec3 w ≠ r) ∧
  (r ∉ hostOps4_W ∧ ∀ w, Pipeline.arrRef spec4 w ≠ r) ∧
  (r ∉ hostOps5_W ∧ ∀ w, Pipeline.arrRef spec5 w ≠ r) ∧
  (r ∉ hostOps6_W ∧ ∀ w, Pipeline.arrRef spec6 w ≠ r) ∧
  (r ∉ hostOps7_W ∧ ∀ w, Pipeline.arrRef spec7 w ≠ r) ∧
  (r ∉ hostOps8_W ∧ ∀ w, Pipeline.arrRef spec8 w ≠ r) ∧
  (r ∉ hostOps9_W ∧ ∀ w, Pipeline.arrRef spec9 w ≠ r) ∧
  (r ∉ hostOps10_W ∧ ∀ w, Pipeline.arrRef spec10 w ≠ r) ∧
  (r ∉ hostOps11_W ∧ ∀ w, Pipeline.arrRef spec11 w ≠ r) ∧
  (r ∉ hostOps12_W ∧ ∀ w, Pipeline.arrRef spec12 w ≠ r) ∧
  (r ∉ hostOps13_W ∧ ∀ w, Pipeline.arrRef spec13 w ≠ r) ∧
  (r ∉ hostOps14_W ∧ ∀ w, Pipeline.arrRef spec14 w ≠ r) ∧
  r ∉ hostOps15_W

-- the conjunction is 31 deep: deciding it takes more instance steps than the default allows
set_option synthInstance.maxSize 4096 in
instance instDecidableUntouched (r : Ref sig .tc) : Decidable (Untouched r) := by unfold Untouched; infer_instance

/-- A reference nothing touches holds at the return what the launch memory holds: back through `hostOps15`, then region
    by region from the last to the first, each with the stretch that leads into it. -/
theorem W31_of_untouched (c : Dev nD) (r : Ref sig .tc) (h : Untouched r) :
    W31 m ρ c (Proc.devRef .tc r) = m ((c : Thread nD τ).loc r) := by
  obtain ⟨
    ⟨a0, b0⟩,
    ⟨a1, b1⟩,
    ⟨a2, b2⟩,
    ⟨a3, b3⟩,
    ⟨a4, b4⟩,
    ⟨a5, b5⟩,
    ⟨a6, b6⟩,
    ⟨a7, b7⟩,
    ⟨a8, b8⟩,
    ⟨a9, b9⟩,
    ⟨a10, b10⟩,
    ⟨a11, b11⟩,
    ⟨a12, b12⟩,
    ⟨a13, b13⟩,
    ⟨a14, b14⟩,
    a15⟩ := h
  exact (StableHlo.after_of_writes_sub hostOps15 _ hostOps15_writes a15).trans <|
    (W30_keep m ρ c r a14 b14).trans <|
    (W28_keep m ρ c r a13 b13).trans <|
    (W26_keep m ρ c r a12 b12).trans <|
    (W24_keep m ρ c r a11 b11).trans <|
    (W22_keep m ρ c r a10 b10).trans <|
    (W20_keep m ρ c r a9 b9).trans <|
    (W18_keep m ρ c r a8 b8).trans <|
    (W16_keep m ρ c r a7 b7).trans <|
    (W14_keep m ρ c r a6 b6).trans <|
    (W12_keep m ρ c r a5 b5).trans <|
    (W10_keep m ρ c r a4 b4).trans <|
    (W8_keep m ρ c r a3 b3).trans <|
    (W6_keep m ρ c r a2 b2).trans <|
    (W4_keep m ρ c r a1 b1).trans <|
    (W2_keep m ρ c r a0 b0).trans <|
    rfl

theorem W31_main_arg0 (c : Dev nD) : W31 m ρ c (Proc.devRef .tc main_arg0) = m ((c : Thread nD τ).loc main_arg0) :=
  calc W31 m ρ c (Proc.devRef .tc main_arg0)
    _ = W2 m ρ c (Proc.devRef .tc main_arg0) :=
          (StableHlo.after_of_writes_sub hostOps15 _ hostOps15_writes (by decide)).trans <|
          (W30_keep m ρ c main_arg0 (by decide) (by decide)).trans <|
          (W28_keep m ρ c main_arg0 (by decide) (by decide)).trans <|
          (W26_keep m ρ c main_arg0 (by decide) (by decide)).trans <|
          (W24_keep m ρ c main_arg0 (by decide) (by decide)).trans <|
          (W22_keep m ρ c main_arg0 (by decide) (by decide)).trans <|
          (W20_keep m ρ c main_arg0 (by decide) (by decide)).trans <|
          (W18_keep m ρ c main_arg0 (by decide) (by decide)).trans <|
          (W16_keep m ρ c main_arg0 (by decide) (by decide)).trans <|
          (W14_keep m ρ c main_arg0 (by decide) (by decide)).trans <|
          (W12_keep m ρ c main_arg0 (by decide) (by decide)).trans <|
          (W10_keep m ρ c main_arg0 (by decide) (by decide)).trans <|
          (W8_keep m ρ c main_arg0 (by decide) (by decide)).trans <|
          (W6_keep m ρ c main_arg0 (by decide) (by decide)).trans <|
          (W4_keep m ρ c main_arg0 (by decide) (by decide)).trans <|
          rfl
    _ = W1 m ρ c (Proc.devRef .tc main_arg0) :=
          (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W31_main_arg1 (c : Dev nD) : W31 m ρ c (Proc.devRef .tc main_arg1) = m ((c : Thread nD τ).loc main_arg1) :=
  W31_of_untouched m ρ c main_arg1 (by decide)
theorem W31_main_arg2 (c : Dev nD) : W31 m ρ c (Proc.devRef .tc main_arg2) = m ((c : Thread nD τ).loc main_arg2) :=
  W31_of_untouched m ρ c main_arg2 (by decide)
theorem W31_main_arg3 (c : Dev nD) : W31 m ρ c (Proc.devRef .tc main_arg3) = m ((c : Thread nD τ).loc main_arg3) :=
  W31_of_untouched m ρ c main_arg3 (by decide)
theorem W31_main_arg4 (c : Dev nD) : W31 m ρ c (Proc.devRef .tc main_arg4) = m ((c : Thread nD τ).loc main_arg4) :=
  W31_of_untouched m ρ c main_arg4 (by decide)
theorem W31_main_arg5 (c : Dev nD) : W31 m ρ c (Proc.devRef .tc main_arg5) = m ((c : Thread nD τ).loc main_arg5) :=
  W31_of_untouched m ρ c main_arg5 (by decide)
theorem W31_main_arg6 (c : Dev nD) : W31 m ρ c (Proc.devRef .tc main_arg6) = m ((c : Thread nD τ).loc main_arg6) :=
  W31_of_untouched m ρ c main_arg6 (by decide)
theorem W31_main_arg7 (c : Dev nD) : W31 m ρ c (Proc.devRef .tc main_arg7) = m ((c : Thread nD τ).loc main_arg7) :=
  W31_of_untouched m ρ c main_arg7 (by decide)
theorem W31_main_arg8 (c : Dev nD) : W31 m ρ c (Proc.devRef .tc main_arg8) = m ((c : Thread nD τ).loc main_arg8) :=
  W31_of_untouched m ρ c main_arg8 (by decide)
theorem W31_main_arg9 (c : Dev nD) : W31 m ρ c (Proc.devRef .tc main_arg9) = m ((c : Thread nD τ).loc main_arg9) :=
  W31_of_untouched m ρ c main_arg9 (by decide)
theorem W31_main_arg10 (c : Dev nD) : W31 m ρ c (Proc.devRef .tc main_arg10) = m ((c : Thread nD τ).loc main_arg10) :=
  W31_of_untouched m ρ c main_arg10 (by decide)
theorem W31_main_arg11 (c : Dev nD) : W31 m ρ c (Proc.devRef .tc main_arg11) = m ((c : Thread nD τ).loc main_arg11) :=
  W31_of_untouched m ρ c main_arg11 (by decide)

/-! ## The proof data family and the thread state -/

/-- Every pipeline's proof data, each at its region's entry contents: a literal `match` on the pipeline's number, so that
    the configuration pinned at a numeral reduces to the printed one. -/
def pdats : (p : Fin 15) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers at every boundary: its generator register at some state, and its tally of dues
    at nothing. -/
abbrev R (c : Dev nD) : sProp 𝕄 := iprop((∃ r, prngReg c r) ∗ ∃ W, owes (c : Thread nD τ) (0 : CellTallies nD τ sig Unit) W)
/-- A stretch of host operations as a segment of the run: over the unscoped buffers from the contents `W`, with `R`
    beside them; it leaves those buffers at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.RegsA.lean ====
/-
  Regions 0 … 4 of the word-level kernel program's @main as segments of its run, at any float instance. A region is
  entered with every unscoped buffer of the core at the contents of the boundary before it and leaves them at the
  contents of the boundary after it (K/Fold.lean); beside the buffers the core holds its generator register and a tally
  of dues at nothing (`R`, K/Data.lean). None of these kernels has a semaphore of its own, a prefetched table or a
  scratch buffer, and none owes anything at any grid point, so a region's record is its body obligation (K/R0 … R4)
  and the bookkeeping at its two ends.
-/
import proofs.«102822_j3521873183180_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration `Pipeline.pin pcs a p` meets the printed configuration only when
-- unification may unfold plain definitions inside a metavariable's type
set_option backward.isDefEq.respectTransparency.types false in
/-- REGION 0 (pallas_call 0), entered with the unscoped buffers at `W1` and left with them at `W2`.
    At the entry its windows' arrays are taken out of the unscoped buffers, each at what `W1` holds there, and the rest
    of the unscoped buffers bypasses the region; the generator register goes into the pipeline's invariant at the first
    grid point and comes back from it at the last; at the exit the arrays, now at what the write-backs fold to, go back
    among the unscoped buffers, which makes them `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the kernel has no semaphore of its own
    rw [Pipeline.ownSems0_none]
    -- the unscoped buffers at `W1`: the windows' arrays at their entry contents, and the unscoped rest
    have harrays := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m ρ 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W2`
    have hbufs := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 1 (pallas_call 1), entered with the unscoped buffers at `W3` and left with them at `W4`.
    At the entry its windows' arrays are taken out of the unscoped buffers, each at what `W3` holds there, and the rest
    of the unscoped buffers bypasses the region; the generator register goes into the pipeline's invariant at the first
    grid point and comes back from it at the last; at the exit the arrays, now at what the write-backs fold to, go back
    among the unscoped buffers, which makes them `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the kernel has no semaphore of its own
    rw [Pipeline.ownSems0_none]
    -- the unscoped buffers at `W3`: the windows' arrays at their entry contents, and the unscoped rest
    have harrays := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m ρ 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W4`
    have hbufs := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 2 (pallas_call 2), entered with the unscoped buffers at `W5` and left with them at `W6`.
    At the entry its windows' arrays are taken out of the unscoped buffers, each at what `W5` holds there, and the rest
    of the unscoped buffers bypasses the region; the generator register goes into the pipeline's invariant at the first
    grid point and comes back from it at the last; at the exit the arrays, now at what the write-backs fold to, go back
    among the unscoped buffers, which makes them `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    -- the kernel has no semaphore of its own
    rw [Pipeline.ownSems0_none]
    -- the unscoped buffers at `W5`: the windows' arrays at their entry contents, and the unscoped rest
    have harrays := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (pdats m ρ 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W6`
    have hbufs := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 3 (pallas_call 3), entered with the unscoped buffers at `W7` and left with them at `W8`.
    At the entry its windows' arrays are taken out of the unscoped buffers, each at what `W7` holds there, and the rest
    of the unscoped buffers bypasses the region; the generator register goes into the pipeline's invariant at the first
    grid point and comes back from it at the last; at the exit the arrays, now at what the write-backs fold to, go back
    among the unscoped buffers, which makes them `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    -- the kernel has no semaphore of its own
    rw [Pipeline.ownSems0_none]
    -- the unscoped buffers at `W7`: the windows' arrays at their entry contents, and the unscoped rest
    have harrays := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 3 c).Φ 0 = Pipeline.ΦA spec3 c from rfl]; unfold Pipeline.ΦA
    iintro ⟨Hgen, -, Hscoped⟩
    isplitl [Hscoped]; · iexact Hscoped
    iexact Hgen
  hout c := by
    rw [Pipeline.ownSems0_none, show (pdats m ρ 3 c).Φ (Fin.last _) = Pipeline.ΦA spec3 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W8`
    have hbufs := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 4 (pallas_call 4), entered with the unscoped buffers at `W9` and left with them at `W10`.
    At the entry its windows' arrays are taken out of the unscoped buffers, each at what `W9` holds there, and the rest
    of the unscoped buffers bypasses the region; the generator register goes into the pipeline's invariant at the first
    grid point and comes back from it at the last; at the exit the arrays, now at what the write-backs fold to, go back
    among the unscoped buffers, which makes them `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    -- the kernel has no semaphore of its own
    rw [Pipeline.ownSems0_none]
    -- the unscoped buffers at `W9`: the windows' arrays at their entry contents, and the unscoped rest
    have harrays := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 4 c).Φ 0 = Pipeline.ΦA spec4 c from rfl]; unfold Pipeline.ΦA
    iintro ⟨Hgen, -, Hscoped⟩
    isplitl [Hscoped]; · iexact Hscoped
    iexact Hgen
  hout c := by
    rw [Pipeline.ownSems0_none, show (pdats m ρ 4 c).Φ (Fin.last _) = Pipeline.ΦA spec4 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W10`
    have hbufs := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

end Cert.Kernel.Hand

end
-- ==== Proof.K.RegsB.lean ====
/-
  Regions 5 … 9 of the word-level kernel program's @main as segments of its run, at any float instance. A region is
  entered with every unscoped buffer of the core at the contents of the boundary before it and leaves them at the
  contents of the boundary after it (K/Fold.lean); beside the buffers the core holds its generator register and a tally
  of dues at nothing (`R`, K/Data.lean). None of these kernels has a semaphore of its own, a prefetched table or a
  scratch buffer, and none owes anything at any grid point, so a region's record is its body obligation (K/R5 … R9)
  and the bookkeeping at its two ends.
-/
import proofs.«102822_j3521873183180_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration `Pipeline.pin pcs a p` meets the printed configuration only when
-- unification may unfold plain definitions inside a metavariable's type
set_option backward.isDefEq.respectTransparency.types false in
/-- REGION 5 (pallas_call 5), entered with the unscoped buffers at `W11` and left with them at `W12`.
    At the entry its windows' arrays are taken out of the unscoped buffers, each at what `W11` holds there, and the rest
    of the unscoped buffers bypasses the region; the generator register goes into the pipeline's invariant at the first
    grid point and comes back from it at the last; at the exit the arrays, now at what the write-backs fold to, go back
    among the unscoped buffers, which makes them `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    -- the kernel has no semaphore of its own
    rw [Pipeline.ownSems0_none]
    -- the unscoped buffers at `W11`: the windows' arrays at their entry contents, and the unscoped rest
    have harrays := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 5 c).Φ 0 = Pipeline.ΦA spec5 c from rfl]; unfold Pipeline.ΦA
    iintro ⟨Hgen, -, Hscoped⟩
    isplitl [Hscoped]; · iexact Hscoped
    iexact Hgen
  hout c := by
    rw [Pipeline.ownSems0_none, show (pdats m ρ 5 c).Φ (Fin.last _) = Pipeline.ΦA spec5 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W12`
    have hbufs := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 6 (pallas_call 6), entered with the unscoped buffers at `W13` and left with them at `W14`.
    At the entry its windows' arrays are taken out of the unscoped buffers, each at what `W13` holds there, and the rest
    of the unscoped buffers bypasses the region; the generator register goes into the pipeline's invariant at the first
    grid point and comes back from it at the last; at the exit the arrays, now at what the write-backs fold to, go back
    among the unscoped buffers, which makes them `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    -- the kernel has no semaphore of its own
    rw [Pipeline.ownSems0_none]
    -- the unscoped buffers at `W13`: the windows' arrays at their entry contents, and the unscoped rest
    have harrays := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 6 c).Φ 0 = Pipeline.ΦA spec6 c from rfl]; unfold Pipeline.ΦA
    iintro ⟨Hgen, -, Hscoped⟩
    isplitl [Hscoped]; · iexact Hscoped
    iexact Hgen
  hout c := by
    rw [Pipeline.ownSems0_none, show (pdats m ρ 6 c).Φ (Fin.last _) = Pipeline.ΦA spec6 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W14`
    have hbufs := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 7 (pallas_call 7), entered with the unscoped buffers at `W15` and left with them at `W16`.
    At the entry its windows' arrays are taken out of the unscoped buffers, each at what `W15` holds there, and the rest
    of the unscoped buffers bypasses the region; the generator register goes into the pipeline's invariant at the first
    grid point and comes back from it at the last; at the exit the arrays, now at what the write-backs fold to, go back
    among the unscoped buffers, which makes them `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    -- the kernel has no semaphore of its own
    rw [Pipeline.ownSems0_none]
    -- the unscoped buffers at `W15`: the windows' arrays at their entry contents, and the unscoped rest
    have harrays := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 7 c).Φ 0 = Pipeline.ΦA spec7 c from rfl]; unfold Pipeline.ΦA
    iintro ⟨Hgen, -, Hscoped⟩
    isplitl [Hscoped]; · iexact Hscoped
    iexact Hgen
  hout c := by
    rw [Pipeline.ownSems0_none, show (pdats m ρ 7 c).Φ (Fin.last _) = Pipeline.ΦA spec7 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W16`
    have hbufs := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 8 (pallas_call 8), entered with the unscoped buffers at `W17` and left with them at `W18`.
    At the entry its windows' arrays are taken out of the unscoped buffers, each at what `W17` holds there, and the rest
    of the unscoped buffers bypasses the region; the generator register goes into the pipeline's invariant at the first
    grid point and comes back from it at the last; at the exit the arrays, now at what the write-backs fold to, go back
    among the unscoped buffers, which makes them `W18`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    -- the kernel has no semaphore of its own
    rw [Pipeline.ownSems0_none]
    -- the unscoped buffers at `W17`: the windows' arrays at their entry contents, and the unscoped rest
    have harrays := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 8 c).Φ 0 = Pipeline.ΦA spec8 c from rfl]; unfold Pipeline.ΦA
    iintro ⟨Hgen, -, Hscoped⟩
    isplitl [Hscoped]; · iexact Hscoped
    iexact Hgen
  hout c := by
    rw [Pipeline.ownSems0_none, show (pdats m ρ 8 c).Φ (Fin.last _) = Pipeline.ΦA spec8 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W18`
    have hbufs := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 9 (pallas_call 9), entered with the unscoped buffers at `W19` and left with them at `W20`.
    At the entry its windows' arrays are taken out of the unscoped buffers, each at what `W19` holds there, and the rest
    of the unscoped buffers bypasses the region; the generator register goes into the pipeline's invariant at the first
    grid point and comes back from it at the last; at the exit the arrays, now at what the write-backs fold to, go back
    among the unscoped buffers, which makes them `W20`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    -- the kernel has no semaphore of its own
    rw [Pipeline.ownSems0_none]
    -- the unscoped buffers at `W19`: the windows' arrays at their entry contents, and the unscoped rest
    have harrays := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 9 c).Φ 0 = Pipeline.ΦA spec9 c from rfl]; unfold Pipeline.ΦA
    iintro ⟨Hgen, -, Hscoped⟩
    isplitl [Hscoped]; · iexact Hscoped
    iexact Hgen
  hout c := by
    rw [Pipeline.ownSems0_none, show (pdats m ρ 9 c).Φ (Fin.last _) = Pipeline.ΦA spec9 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W20`
    have hbufs := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

end Cert.Kernel.Hand

end
-- ==== Proof.K.RegsC.lean ====
/-
  Regions 10 … 14 of the word-level kernel program's @main as segments of its run, at any float instance. A region is
  entered with every unscoped buffer of the core at the contents of the boundary before it and leaves them at the
  contents of the boundary after it (K/Fold.lean); beside the buffers the core holds its generator register and a tally
  of dues at nothing (`R`, K/Data.lean). None of these kernels has a semaphore of its own, a prefetched table or a
  scratch buffer, and none owes anything at any grid point, so a region's record is its body obligation (K/R10 … R14)
  and the bookkeeping at its two ends.
-/
import proofs.«102822_j3521873183180_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration `Pipeline.pin pcs a p` meets the printed configuration only when
-- unification may unfold plain definitions inside a metavariable's type
set_option backward.isDefEq.respectTransparency.types false in
/-- REGION 10 (pallas_call 10), entered with the unscoped buffers at `W21` and left with them at `W22`.
    At the entry its windows' arrays are taken out of the unscoped buffers, each at what `W21` holds there, and the rest
    of the unscoped buffers bypasses the region; the generator register goes into the pipeline's invariant at the first
    grid point and comes back from it at the last; at the exit the arrays, now at what the write-backs fold to, go back
    among the unscoped buffers, which makes them `W22`. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    -- the kernel has no semaphore of its own
    rw [Pipeline.ownSems0_none]
    -- the unscoped buffers at `W21`: the windows' arrays at their entry contents, and the unscoped rest
    have harrays := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 10 c).Φ 0 = Pipeline.ΦA spec10 c from rfl]; unfold Pipeline.ΦA
    iintro ⟨Hgen, -, Hscoped⟩
    isplitl [Hscoped]; · iexact Hscoped
    iexact Hgen
  hout c := by
    rw [Pipeline.ownSems0_none, show (pdats m ρ 10 c).Φ (Fin.last _) = Pipeline.ΦA spec10 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W22`
    have hbufs := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 11 (pallas_call 11), entered with the unscoped buffers at `W23` and left with them at `W24`.
    At the entry its windows' arrays are taken out of the unscoped buffers, each at what `W23` holds there, and the rest
    of the unscoped buffers bypasses the region; the generator register goes into the pipeline's invariant at the first
    grid point and comes back from it at the last; at the exit the arrays, now at what the write-backs fold to, go back
    among the unscoped buffers, which makes them `W24`. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    -- the kernel has no semaphore of its own
    rw [Pipeline.ownSems0_none]
    -- the unscoped buffers at `W23`: the windows' arrays at their entry contents, and the unscoped rest
    have harrays := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 11 c).Φ 0 = Pipeline.ΦA spec11 c from rfl]; unfold Pipeline.ΦA
    iintro ⟨Hgen, -, Hscoped⟩
    isplitl [Hscoped]; · iexact Hscoped
    iexact Hgen
  hout c := by
    rw [Pipeline.ownSems0_none, show (pdats m ρ 11 c).Φ (Fin.last _) = Pipeline.ΦA spec11 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W24`
    have hbufs := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 12 (pallas_call 12), entered with the unscoped buffers at `W25` and left with them at `W26`.
    At the entry its windows' arrays are taken out of the unscoped buffers, each at what `W25` holds there, and the rest
    of the unscoped buffers bypasses the region; the generator register goes into the pipeline's invariant at the first
    grid point and comes back from it at the last; at the exit the arrays, now at what the write-backs fold to, go back
    among the unscoped buffers, which makes them `W26`. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    -- the kernel has no semaphore of its own
    rw [Pipeline.ownSems0_none]
    -- the unscoped buffers at `W25`: the windows' arrays at their entry contents, and the unscoped rest
    have harrays := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 12 c).Φ 0 = Pipeline.ΦA spec12 c from rfl]; unfold Pipeline.ΦA
    iintro ⟨Hgen, -, Hscoped⟩
    isplitl [Hscoped]; · iexact Hscoped
    iexact Hgen
  hout c := by
    rw [Pipeline.ownSems0_none, show (pdats m ρ 12 c).Φ (Fin.last _) = Pipeline.ΦA spec12 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W26`
    have hbufs := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 13 (pallas_call 13), entered with the unscoped buffers at `W27` and left with them at `W28`.
    At the entry its windows' arrays are taken out of the unscoped buffers, each at what `W27` holds there, and the rest
    of the unscoped buffers bypasses the region; the generator register goes into the pipeline's invariant at the first
    grid point and comes back from it at the last; at the exit the arrays, now at what the write-backs fold to, go back
    among the unscoped buffers, which makes them `W28`. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    -- the kernel has no semaphore of its own
    rw [Pipeline.ownSems0_none]
    -- the unscoped buffers at `W27`: the windows' arrays at their entry contents, and the unscoped rest
    have harrays := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 13 c).Φ 0 = Pipeline.ΦA spec13 c from rfl]; unfold Pipeline.ΦA
    iintro ⟨Hgen, -, Hscoped⟩
    isplitl [Hscoped]; · iexact Hscoped
    iexact Hgen
  hout c := by
    rw [Pipeline.ownSems0_none, show (pdats m ρ 13 c).Φ (Fin.last _) = Pipeline.ΦA spec13 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W28`
    have hbufs := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 14 (pallas_call 14), entered with the unscoped buffers at `W29` and left with them at `W30`.
    At the entry its windows' arrays are taken out of the unscoped buffers, each at what `W29` holds there, and the rest
    of the unscoped buffers bypasses the region; the generator register goes into the pipeline's invariant at the first
    grid point and comes back from it at the last; at the exit the arrays, now at what the write-backs fold to, go back
    among the unscoped buffers, which makes them `W30`. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    -- the kernel has no semaphore of its own
    rw [Pipeline.ownSems0_none]
    -- the unscoped buffers at `W29`: the windows' arrays at their entry contents, and the unscoped rest
    have harrays := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 14 c).Φ 0 = Pipeline.ΦA spec14 c from rfl]; unfold Pipeline.ΦA
    iintro ⟨Hgen, -, Hscoped⟩
    isplitl [Hscoped]; · iexact Hscoped
    iexact Hgen
  hout c := by
    rw [Pipeline.ownSems0_none, show (pdats m ρ 14 c).Φ (Fin.last _) = Pipeline.ΦA spec14 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W30`
    have hbufs := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

end Cert.Kernel.Hand

end
-- ==== Proof.K.Run.lean ====
/-
  THE RUN of the word-level kernel program's @main, at any float instance, from any launch memory `m` with every counter at
  zero and any generator state `ρ`: @main is 16 stretches of host operations with the 15 pallas_call regions between them,
  31 segments in all, and the last segment is the stretch `hostOps15` that computes the result `main_v258`. Every weakly
  fair execution terminates, nothing faulting, and when it does each TensorCore's unscoped buffers hold `W31`, the end of
  the fold of contents through the segments (K/Fold.lean, K/Data.lean). Read at the arguments that is the frame claim;
  read at `main_v258` as well it is the run the comparison with the reference starts from.
-/
import proofs.«102822_j3521873183180_1_alg».proof.Proof.K.RegsA
import proofs.«102822_j3521873183180_1_alg».proof.Proof.K.RegsB
import proofs.«102822_j3521873183180_1_alg».proof.Proof.K.RegsC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments -/

/-- The 31 segments of @main in order: the stretch `hostOpsK` from the contents of boundary 2K, then region K. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)),
    .region (reg14 m ρ),
    .host (hseg hostOps15 hostOps15_sub hostOps15_fresh (W30 m ρ)) ]

/-- @main is the run of its segments: it is the chain of its 31 items (the generated `main_chain`), the segments' run is the
    chain of their fragments, and fragment by fragment the two lists are the same. -/
theorem main_run (c : Dev nD) : main (F := F) c = Pipeline.Seg.run (segs m ρ) := by
  rewrite [main_chain c, Pipeline.Seg.run_eq_chain]; rfl

/-! ## The last thread state -/

/-- What a core holds when @main returns, without its tally of dues: every unscoped buffer at `W31`, the generator register
    at some state. -/
abbrev Tₙ (c : Dev nD) : sProp 𝕄 := iprop(StableHlo.held (c : Thread nD τ) (Pipeline.ucRefs τ sig) (W31 m ρ c) ∗ ∃ r, prngReg c r)

/-- The stretch `hostOps15` leaves the buffers at `W31` with `R` beside them: that is `Tₙ` beside the core owing nothing. -/
theorem last_state (c : Dev nD) :
    iprop(StableHlo.held (c : Thread nD τ) (Pipeline.ucRefs τ sig) (W31 m ρ c) ∗ R c)
      ⊢ (iprop(Tₙ m ρ c ∗ ∃ W, owes (c : Thread nD τ) (0 : CellTallies nD τ sig Unit) W) : sProp 𝕄) := by
  iintro ⟨Hbufs, Hgen, Hdues⟩
  isplitl [Hbufs Hgen]
  · isplitl [Hbufs]; · iexact Hbufs
    iexact Hgen
  iexact Hdues

/-! ## The launch -/

-- the launch theorem's implicit arguments are found by unifying its conclusion with this one, which takes unfolding plain
-- definitions inside a metavariable's type
set_option backward.isDefEq.respectTransparency.types false in
/-- THE RUN: every weakly fair execution of @main on the TensorCores terminates, nothing faulting, and every final memory
    holds, at every unscoped buffer of every core, what the fold of contents ends at. Each segment is entered from exactly
    the state the one before it left (a stretch leaves `StableHlo.after` of what it found, which is the next region's
    entry contents by definition; a region leaves its exit contents, which the next stretch starts from), so the chaining
    is reflexivity at every boundary but the last. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W31 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      last_state m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdues, -, Hgen, -⟩, -⟩
      imodintro
      isplitl [Hbufs]; · iexact Hbufs
      isplitl [Hgen]; · iexists _; iexact Hgen
      iexists ∅; iexact Hdues)
    (QY := fun c s => ∀ b ∈ Pipeline.ucRefs τ sig, s.mem (((c : Thread nD τ)).1, b) = W31 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W31 m ρ c) s')
      isplitl [Hbufs] <;> iassumption)
    (hQ := fun _ h => h)

/-! ## The two readings of the run -/

/-- THE FRAME: @main runs, and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W31_main_arg0 m ρ c),
     (h c _ (mem_uc main_arg1 (by decide))).trans (W31_main_arg1 m ρ c),
     (h c _ (mem_uc main_arg2 (by decide))).trans (W31_main_arg2 m ρ c),
     (h c _ (mem_uc main_arg3 (by decide))).trans (W31_main_arg3 m ρ c),
     (h c _ (mem_uc main_arg4 (by decide))).trans (W31_main_arg4 m ρ c),
     (h c _ (mem_uc main_arg5 (by decide))).trans (W31_main_arg5 m ρ c),
     (h c _ (mem_uc main_arg6 (by decide))).trans (W31_main_arg6 m ρ c),
     (h c _ (mem_uc main_arg7 (by decide))).trans (W31_main_arg7 m ρ c),
     (h c _ (mem_uc main_arg8 (by decide))).trans (W31_main_arg8 m ρ c),
     (h c _ (mem_uc main_arg9 (by decide))).trans (W31_main_arg9 m ρ c),
     (h c _ (mem_uc main_arg10 (by decide))).trans (W31_main_arg10 m ρ c),
     (h c _ (mem_uc main_arg11 (by decide))).trans (W31_main_arg11 m ρ c)⟩) (run_all m ρ)

/-- THE RUN WITH ITS RESULT: @main runs, its result buffer `main_v258` ends at what the fold ends at there, and every
    argument array ends holding its launch contents. -/
theorem run_value : θ_run defs (onTc (τ := τ) (main (F := F))) ⟨m, fun _ => 0, ρ⟩ (fun r => ∀ c : Dev nD,
      r.2.mem ((c.tc : Thread nD τ).loc main_v258) = W31 m ρ c (Proc.devRef .tc main_v258)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨h c _ (mem_uc main_v258 (by decide)),
     (h c _ (mem_uc main_arg0 (by decide))).trans (W31_main_arg0 m ρ c),
     (h c _ (mem_uc main_arg1 (by decide))).trans (W31_main_arg1 m ρ c),
     (h c _ (mem_uc main_arg2 (by decide))).trans (W31_main_arg2 m ρ c),
     (h c _ (mem_uc main_arg3 (by decide))).trans (W31_main_arg3 m ρ c),
     (h c _ (mem_uc main_arg4 (by decide))).trans (W31_main_arg4 m ρ c),
     (h c _ (mem_uc main_arg5 (by decide))).trans (W31_main_arg5 m ρ c),
     (h c _ (mem_uc main_arg6 (by decide))).trans (W31_main_arg6 m ρ c),
     (h c _ (mem_uc main_arg7 (by decide))).trans (W31_main_arg7 m ρ c),
     (h c _ (mem_uc main_arg8 (by decide))).trans (W31_main_arg8 m ρ c),
     (h c _ (mem_uc main_arg9 (by decide))).trans (W31_main_arg9 m ρ c),
     (h c _ (mem_uc main_arg10 (by decide))).trans (W31_main_arg10 m ρ c),
     (h c _ (mem_uc main_arg11 (by decide))).trans (W31_main_arg11 m ρ c)⟩) (run_all m ρ)

end Cert.Kernel.Hand

end
-- ==== Proof.KI.R0.lean ====
/-
  Region 0 of the idealized kernel program's @main (pallas_call 0), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's one branch: is this the first grid point? -/

/-- The condition of the body's only `scf.if` (the program id compared with 0), from the grid coordinates. -/
abbrev first0 (i : grid0.Coords) : Prop := (Scalar.cmpi .ne (Scalar.extui (Scalar.cmpi .eq (BitVec.ofNat 32 (i 0).val) 0#32)) 0#32) = 1#1
/-- It holds at the first point and at no other — decided over the grid. -/
theorem first0_iff : ∀ t : Fin cfg0.N, first0 (grid0.coords t) ↔ t.val = 0 :=
  (by decide +kernel : ∀ t : Fin grid0.N, first0 (grid0.coords t) ↔ t.val = 0)

/-- Each window's current staging memref at point `t`, as the pipeline passes it to the body, and its wholeness. -/
abbrev buf0_0 (t : Fin cfg0.N) : Memref sig .tc .vmem S2000x256 .f32 := win0_0.stage (cfg0.slots t 0)
abbrev whole0_0 (t : Fin cfg0.N) : (buf0_0 t).IsWhole := hstage0_0 ((cfg0.slots t 0).cast nbuf0_0)
abbrev buf0_1 (t : Fin cfg0.N) : Memref sig .tc .vmem S2000x256 .f32 := win0_1.stage (cfg0.slots t 1)
abbrev whole0_1 (t : Fin cfg0.N) : (buf0_1 t).IsWhole := hstage0_1 ((cfg0.slots t 1).cast nbuf0_1)
abbrev buf0_2 (t : Fin cfg0.N) : Memref sig .tc .vmem S256x256 .bf16 := win0_2.stage (cfg0.slots t 2)
abbrev whole0_2 (t : Fin cfg0.N) : (buf0_2 t).IsWhole := hstage0_2 ((cfg0.slots t 2).cast nbuf0_2)
abbrev buf0_3 (t : Fin cfg0.N) : Memref sig .tc .vmem S1x256 .f32 := win0_3.stage (cfg0.slots t 3)
abbrev whole0_3 (t : Fin cfg0.N) : (buf0_3 t).IsWhole := hstage0_3 ((cfg0.slots t 3).cast nbuf0_3)
abbrev buf0_4 (t : Fin cfg0.N) : Memref sig .tc .vmem S2000x256 .f32 := win0_4.stage (cfg0.slots t 4)
abbrev whole0_4 (t : Fin cfg0.N) : (buf0_4 t).IsWhole := hstage0_4 ((cfg0.slots t 4).cast nbuf0_4)
abbrev buf0_5 (t : Fin cfg0.N) : Memref sig .tc .vmem S1x256 .f32 := win0_5.stage (cfg0.slots t 5)
abbrev whole0_5 (t : Fin cfg0.N) : (buf0_5 t).IsWhole := hstage0_5 ((cfg0.slots t 5).cast nbuf0_5)
abbrev buf0_6 (t : Fin cfg0.N) : Memref sig .tc .vmem S1x256 .f32 := win0_6.stage (cfg0.slots t 6)
abbrev whole0_6 (t : Fin cfg0.N) : (buf0_6 t).IsWhole := hstage0_6 ((cfg0.slots t 6).cast nbuf0_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun0 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0__matmul1_stats_kernel i arg1 harg1 arg2 harg2 arg3 harg3 arg4 harg4 arg5 harg5 arg6 harg6 arg7 harg7) K } := by
  refine ⟨?_, ?_, ?_, fun E K => ?run⟩
  case run =>
    simp only [cc0__matmul1_stats_kernel_eq_skeleton]; unfold cc0__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun0 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0__matmul1_stats_kernel i arg1 harg1 arg2 harg2 arg3 harg3 arg4 harg4 arg5 harg5 arg6 harg6 arg7 harg7) K } := by
  refine ⟨?_, ?_, ?_, fun E K => ?run⟩
  case run =>
    simp only [cc0__matmul1_stats_kernel_eq_skeleton]; unfold cc0__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView0 : View sig .tc .vmem S2000x256 .f32 := (stage0_4 0).view
abbrev sumView0 : View sig .tc .vmem S1x256 .f32 := (stage0_5 0).view
abbrev sqView0 : View sig .tc .vmem S1x256 .f32 := (stage0_6 0).view

/-- At the first point each output's pieces tile its block (checked by evaluating the piece list), so they cover it. -/
theorem resetCover0_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) (y : S2000x256.Idx) :
    ∃ pc ∈ (resetRun0 c i arg1 harg1 arg2 harg2 arg3 harg3 arg4 harg4 arg5 harg5 arg6 harg6 arg7 harg7 hc0 x0 x1 x2 x3).1, y ∈ pc.1.set :=
  View.cover_of_tiledL (resetRun0 c i arg1 harg1 arg2 harg2 arg3 harg3 arg4 harg4 arg5 harg5 arg6 harg6 arg7 harg7 hc0 x0 x1 x2 x3).1 S2000x256.size (by sl_kernel_rfl) y
theorem resetCover0_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) (y : S1x256.Idx) :
    ∃ pc ∈ (resetRun0 c i arg1 harg1 arg2 harg2 arg3 harg3 arg4 harg4 arg5 harg5 arg6 harg6 arg7 harg7 hc0 x0 x1 x2 x3).2.1, y ∈ pc.1.set :=
  View.cover_of_tiledL (resetRun0 c i arg1 harg1 arg2 harg2 arg3 harg3 arg4 harg4 arg5 harg5 arg6 harg6 arg7 harg7 hc0 x0 x1 x2 x3).2.1 S1x256.size (by sl_kernel_rfl) y
theorem resetCover0_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) (y : S1x256.Idx) :
    ∃ pc ∈ (resetRun0 c i arg1 harg1 arg2 harg2 arg3 harg3 arg4 harg4 arg5 harg5 arg6 harg6 arg7 harg7 hc0 x0 x1 x2 x3).2.2.1, y ∈ pc.1.set :=
  View.cover_of_tiledL (resetRun0 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut0_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) : Vec F S2000x256 .f32 :=
  uView0.read (Elt F) (uView0.writes (Elt F) uView0.junk (resetRun0 c i arg1 harg1 arg2 harg2 arg3 harg3 arg4 harg4 arg5 harg5 arg6 harg6 arg7 harg7 hc0 x0 x1 x2 x3).1)
/-- What the first point leaves in the column-sum accumulator. -/
def resetOut0_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) : Vec F S1x256 .f32 :=
  sumView0.read (Elt F) (sumView0.writes (Elt F) sumView0.junk (resetRun0 c i arg1 harg1 arg2 harg2 arg3 harg3 arg4 harg4 arg5 harg5 arg6 harg6 arg7 harg7 hc0 x0 x1 x2 x3).2.1)
/-- What the first point leaves in the sum-of-squares accumulator. -/
def resetOut0_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) : Vec F S1x256 .f32 :=
  sqView0.read (Elt F) (sqView0.writes (Elt F) sqView0.junk (resetRun0 c i arg1 harg1 arg2 harg2 arg3 harg3 arg4 harg4 arg5 harg5 arg6 harg6 arg7 harg7 hc0 x0 x1 x2 x3).2.2.1)

/-- At a later point too each output's pieces cover its block. -/
theorem carryCover0_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun0 c i arg1 harg1 arg2 harg2 arg3 harg3 arg4 harg4 arg5 harg5 arg6 harg6 arg7 harg7 hc0 x0 x1 x2 x3 xo5 xo6).1, y ∈ pc.1.set :=
  View.cover_of_tiledL (carryRun0 c i arg1 harg1 arg2 harg2 arg3 harg3 arg4 harg4 arg5 harg5 arg6 harg6 arg7 harg7 hc0 x0 x1 x2 x3 xo5 xo6).1 S2000x256.size (by sl_kernel_rfl) y
theorem carryCover0_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun0 c i arg1 harg1 arg2 harg2 arg3 harg3 arg4 harg4 arg5 harg5 arg6 harg6 arg7 harg7 hc0 x0 x1 x2 x3 xo5 xo6).2.1, y ∈ pc.1.set :=
  View.cover_of_tiledL (carryRun0 c i arg1 harg1 arg2 harg2 arg3 harg3 arg4 harg4 arg5 harg5 arg6 harg6 arg7 harg7 hc0 x0 x1 x2 x3 xo5 xo6).2.1 S1x256.size (by sl_kernel_rfl) y
theorem carryCover0_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun0 c i arg1 harg1 arg2 harg2 arg3 harg3 arg4 harg4 arg5 harg5 arg6 harg6 arg7 harg7 hc0 x0 x1 x2 x3 xo5 xo6).2.2.1, y ∈ pc.1.set :=
  View.cover_of_tiledL (carryRun0 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut0_4 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView0.read (Elt F) (uView0.writes (Elt F) uView0.junk (carryRun0 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut0_5 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView0.read (Elt F) (sumView0.writes (Elt F) sumView0.junk (carryRun0 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut0_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView0.read (Elt F) (sqView0.writes (Elt F) sqView0.junk (carryRun0 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left0 (c : Dev nD) : (n : ℕ) → n < cfg0.N → Vec F S2000x256 .f32 × Vec F S1x256 .f32 × Vec F S1x256 .f32
  | 0, hn =>
    (resetOut0_4 c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) (buf0_5 ⟨0, hn⟩) (whole0_5 ⟨0, hn⟩) (buf0_6 ⟨0, hn⟩) (whole0_6 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩),
     resetOut0_5 c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) (buf0_5 ⟨0, hn⟩) (whole0_5 ⟨0, hn⟩) (buf0_6 ⟨0, hn⟩) (whole0_6 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩),
     resetOut0_6 c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) (buf0_5 ⟨0, hn⟩) (whole0_5 ⟨0, hn⟩) (buf0_6 ⟨0, hn⟩) (whole0_6 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩))
  | n + 1, hn =>
    (carryOut0_4 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) (buf0_5 ⟨n + 1, hn⟩) (whole0_5 ⟨n + 1, hn⟩) (buf0_6 ⟨n + 1, hn⟩) (whole0_6 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (left0 c n (Nat.lt_of_succ_lt hn)).2.1 (left0 c n (Nat.lt_of_succ_lt hn)).2.2,
     carryOut0_5 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) (buf0_5 ⟨n + 1, hn⟩) (whole0_5 ⟨n + 1, hn⟩) (buf0_6 ⟨n + 1, hn⟩) (whole0_6 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (left0 c n (Nat.lt_of_succ_lt hn)).2.1 (left0 c n (Nat.lt_of_succ_lt hn)).2.2,
     carryOut0_6 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) (buf0_5 ⟨n + 1, hn⟩) (whole0_5 ⟨n + 1, hn⟩) (buf0_6 ⟨n + 1, hn⟩) (whole0_6 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (left0 c n (Nat.lt_of_succ_lt hn)).2.1 (left0 c n (Nat.lt_of_succ_lt hn)).2.2)

/-- `left0` at the first point: the reset case's contents. -/
theorem left0_first (c : Dev nD) (t : Fin cfg0.N) (h0 : t.val = 0) :
    left0 V c t.val t.isLt =
    (resetOut0_4 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) ((first0_iff t).mpr h0) (iblk0 V c 0 t) (iblk0 V c 1 t) (iblk0 V c 2 t) (iblk0 V c 3 t),
     resetOut0_5 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) ((first0_iff t).mpr h0) (iblk0 V c 0 t) (iblk0 V c 1 t) (iblk0 V c 2 t) (iblk0 V c 3 t),
     resetOut0_6 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) ((first0_iff t).mpr h0) (iblk0 V c 0 t) (iblk0 V c 1 t) (iblk0 V c 2 t) (iblk0 V c 3 t)) := by
  obtain ⟨n, hn⟩ := t
  cases n with
  | zero => exact rfl
  | succ n => exact absurd h0 (Nat.succ_ne_zero n)

/-- `left0` at a later point: the carrying case's contents, over the accumulator rows the point before left. -/
theorem left0_later (c : Dev nD) (t : Fin cfg0.N) (h0 : ¬t.val = 0) :
    left0 V c t.val t.isLt =
    (carryOut0_4 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) (fun h => h0 ((first0_iff t).mp h)) (iblk0 V c 0 t) (iblk0 V c 1 t) (iblk0 V c 2 t) (iblk0 V c 3 t) (left0 V c (t.val - 1) (Nat.lt_of_le_of_lt (Nat.sub_le _ _) t.isLt)).2.1 (left0 V c (t.val - 1) (Nat.lt_of_le_of_lt (Nat.sub_le _ _) t.isLt)).2.2,
     carryOut0_5 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) (fun h => h0 ((first0_iff t).mp h)) (iblk0 V c 0 t) (iblk0 V c 1 t) (iblk0 V c 2 t) (iblk0 V c 3 t) (left0 V c (t.val - 1) (Nat.lt_of_le_of_lt (Nat.sub_le _ _) t.isLt)).2.1 (left0 V c (t.val - 1) (Nat.lt_of_le_of_lt (Nat.sub_le _ _) t.isLt)).2.2,
     carryOut0_6 c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) (fun h => h0 ((first0_iff t).mp h)) (iblk0 V c 0 t) (iblk0 V c 1 t) (iblk0 V c 2 t) (iblk0 V c 3 t) (left0 V c (t.val - 1) (Nat.lt_of_le_of_lt (Nat.sub_le _ _) t.isLt)).2.1 (left0 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left0`; the invariant the scoped rest and the generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (left0 V c t.val t.isLt).1
    | ⟨5, _⟩ => (left0 V c t.val t.isLt).2.1
    | ⟨6, _⟩ => (left0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (left0 V c t.val t.isLt).1 := by dsimp only [dat0]
theorem after0_5 (c : Dev nD) (t : Fin cfg0.N) : (dat0 V c).after 5 t = (left0 V c t.val t.isLt).2.1 := by dsimp only [dat0]
theorem after0_6 (c : Dev nD) (t : Fin cfg0.N) : (dat0 V c).after 6 t = (left0 V c t.val t.isLt).2.2 := by dsimp only [dat0]

/-- Each input's current staging buffer holds its block at every point, fetched there or not: h and agg are fetched at every
    point; the weight and the bias at the first only, and their block index never moves. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- At a later point each accumulator's staging buffer holds what the body left at the point before: the buffer is written back
    after the last point only, the window is live and uncut. -/
theorem before0_5_later (c : Dev nD) (t : Fin cfg0.N) (h0 : ¬t.val = 0) (d) :
    (dat0 V c).before 5 t d = (left0 V c (t.val - 1) (Nat.lt_of_le_of_lt (Nat.sub_le _ _) t.isLt)).2.1 := by
  have hN : t.val < 25 := lt_of_lt_of_eq t.isLt (show cfg0.N = 25 from N_0)
  rw [Dat.before_out_kept _ 5 rfl t h0 (Bool.eq_false_iff.mpr fun h => by have := (flush0_5 _).mp h; dsimp only at this; omega)
    (fun _ => rfl) (fun _ _ => rfl)]
  dsimp only [dat0]
theorem before0_6_later (c : Dev nD) (t : Fin cfg0.N) (h0 : ¬t.val = 0) (d) :
    (dat0 V c).before 6 t d = (left0 V c (t.val - 1) (Nat.lt_of_le_of_lt (Nat.sub_le _ _) t.isLt)).2.2 := by
  have hN : t.val < 25 := lt_of_lt_of_eq t.isLt (show cfg0.N = 25 from N_0)
  rw [Dat.before_out_kept _ 6 rfl t h0 (Bool.eq_false_iff.mpr fun h => by have := (flush0_6 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (buf0_0 t) fullShare ((dat0 V c).before 0 t d))
    ∗ (∃ d, owns (c : Thread nD τ) (buf0_1 t) fullShare ((dat0 V c).before 1 t d))
    ∗ (∃ d, owns (c : Thread nD τ) (buf0_2 t) fullShare ((dat0 V c).before 2 t d))
    ∗ (∃ d, owns (c : Thread nD τ) (buf0_3 t) fullShare ((dat0 V c).before 3 t d))
    ∗ (∃ d, owns (c : Thread nD τ) (buf0_4 t) fullShare ((dat0 V c).before 4 t d))
    ∗ (∃ d, owns (c : Thread nD τ) (buf0_5 t) fullShare ((dat0 V c).before 5 t d))
    ∗ (∃ d, owns (c : Thread nD τ) (buf0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (buf0_0 t) fullShare ((dat0 V c).after 0 t)
    ∗ owns (c : Thread nD τ) (buf0_1 t) fullShare ((dat0 V c).after 1 t)
    ∗ owns (c : Thread nD τ) (buf0_2 t) fullShare ((dat0 V c).after 2 t)
    ∗ owns (c : Thread nD τ) (buf0_3 t) fullShare ((dat0 V c).after 3 t)
    ∗ owns (c : Thread nD τ) (buf0_4 t) fullShare ((dat0 V c).after 4 t)
    ∗ owns (c : Thread nD τ) (buf0_5 t) fullShare ((dat0 V c).after 5 t)
    ∗ owns (c : Thread nD τ) (buf0_6 t) fullShare ((dat0 V c).after 6 t))

set_option maxHeartbeats 1600000 in
/-- The body at any point. The inputs' memrefs hold their blocks; `first0_iff` says which case the point is in; at a later
    point the accumulators' memrefs hold the rows the point before left; so that case's run applies, and each output's pieces,
    covering its block, read back as the contents `left0` names. The invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val = 0
  · rw [left0_first V c t h0]
    dsimp only
    unfold resetOut0_4 resetOut0_5 resetOut0_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun0 c (grid0.coords t) _ _ _ _ _ _ _ _ _ _ _ _ _ _ ((first0_iff t).mpr h0) (iblk0 V c 0 t) (iblk0 V c 1 t) (iblk0 V c 2 t) (iblk0 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover0_4 c _ _ _ _ _ _ _ _ _ _ _ _ _ _ _ _ _ _ _ _)
    isplitl [H5]
    · unfold owns; iexists _; isplitr
      swap; · iexact H5
      ipureintro; exact View.read_writes_of_cover _ _ _ _ _ (resetCover0_5 c _ _ _ _ _ _ _ _ _ _ _ _ _ _ _ _ _ _ _ _)
    unfold owns; iexists _; isplitr
    swap; · iexact H6
    ipureintro; exact View.read_writes_of_cover _ _ _ _ _ (resetCover0_6 c _ _ _ _ _ _ _ _ _ _ _ _ _ _ _ _ _ _ _ _)
  · rw [left0_later V c t h0]
    dsimp only
    simp only [before0_5_later V c t h0, before0_6_later V c t h0]
    unfold carryOut0_4 carryOut0_5 carryOut0_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun0 c (grid0.coords t) _ _ _ _ _ _ _ _ _ _ _ _ _ _ (fun h => h0 ((first0_iff t).mp h)) (iblk0 V c 0 t) (iblk0 V c 1 t) (iblk0 V c 2 t) (iblk0 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover0_4 c _ _ _ _ _ _ _ _ _ _ _ _ _ _ _ _ _ _ _ _ _ _)
    isplitl [H5]
    · unfold owns; iexists _; isplitr
      swap; · iexact H5
      ipureintro; exact View.read_writes_of_cover _ _ _ _ _ (carryCover0_5 c _ _ _ _ _ _ _ _ _ _ _ _ _ _ _ _ _ _ _ _ _ _)
    unfold owns; iexists _; isplitr
    swap; · iexact H6
    ipureintro; exact View.read_writes_of_cover _ _ _ _ _ (carryCover0_6 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the idealized kernel program's @main (pallas_call 1), at ANY entry contents `V` of the TensorCore's buffers and at any
  float instance: the proof data of its pipeline (what each window's staging buffer holds after the body at each grid point) and the
  body obligation.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers -/

/-- Input window 0's current staging buffer holds its block at every point, fetched there or not (unfetched, the block index has
    not moved), for ANY proof data whose array is the entry contents' (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block index has
    not moved), for ANY proof data whose array is the entry contents' (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block index has
    not moved), for ANY proof data whose array is the entry contents' (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the block index has
    not moved), for ANY proof data whose array is the entry contents' (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the block index has
    not moved), for ANY proof data whose array is the entry contents' (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the block index has
    not moved), for ANY proof data whose array is the entry contents' (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the block index has
    not moved), for ANY proof data whose array is the entry contents' (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one `scf.if` (is this the first point?), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The staging memrefs at a point -/

/-- One staging buffer of each output window, through which its contents are stated (the choice does not matter: the stores cover). -/
abbrev VO1_7 : View sig .tc .vmem S2000x256 .f32 := (stage1_7 0).view
abbrev VO1_8 : View sig .tc .vmem S1x256 .f32 := (stage1_8 0).view
abbrev VO1_9 : View sig .tc .vmem S1x256 .f32 := (stage1_9 0).view
/-- Each window's current staging memref at point `t`, spelled as the pipeline passes it to the body, and its wholeness. -/
abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2000x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x256 .f32 := win1_9.stage (cfg1.slots t 9)
abbrev hs1_9 (t : Fin cfg1.N) : (ms1_9 t).IsWhole := hstage1_9 ((cfg1.slots t 9).cast nbuf1_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun1_A (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__norm_matmul2_stats_kernel_eq_skeleton]; unfold cc1__norm_matmul2_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun1_B (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__norm_matmul2_stats_kernel_eq_skeleton]; unfold cc1__norm_matmul2_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover1_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out1_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover1_A_8 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out1_A_8 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover1_A_9 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out1_A_9 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover1_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out1_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover1_B_8 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out1_B_8 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover1_B_9 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out1_B_9 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt1 (c : Dev nD) : (n : ℕ) → n < cfg1.N → Vec F S2000x256 .f32 × Vec F S1x256 .f32 × Vec F S1x256 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
        out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
        out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 25 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩),
        out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩),
        out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)

/-- `outsAt1` at the first point: the resetting case's contents. -/
theorem outsAt1_A (c : Dev nD) (t : Fin cfg1.N) (h0 : t.val % 25 = 0) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t),
        out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t),
        out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- `outsAt1` at any other point: the accumulating case's contents, over what the point before left. -/
theorem outsAt1_B (c : Dev nD) (t : Fin cfg1.N) (h0 : ¬t.val % 25 = 0) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
        out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
        out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt1`; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2
  Φ _ := Pipeline.ΦA spec1 c
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
/-- At a point other than the first, accumulator window 8's staging buffer holds what the body left at the point before: its block
    is the same at every point and is written back at the last point only. -/
theorem before1_8_B (c : Dev nD) (t : Fin cfg1.N) (h0 : ¬t.val % 25 = 0) (d) :
    (dat1 V c).before 8 t d = (outsAt1 V c (t.val - 1) (Nat.lt_of_le_of_lt (Nat.sub_le _ _) t.isLt)).2.1 := by
  have hN : t.val < 25 := lt_of_lt_of_eq t.isLt (show cfg1.N = 25 from N_1)
  rw [Dat.before_out_kept _ 8 rfl t (by omega) (Bool.eq_false_iff.mpr fun h => by have := (flush1_8 _).mp h; dsimp only at this; omega)
    (fun _ => rfl) (fun _ _ => rfl)]
  dsimp only [dat1]
/-- At a point other than the first, accumulator window 9's staging buffer holds what the body left at the point before: its block
    is the same at every point and is written back at the last point only. -/
theorem before1_9_B (c : Dev nD) (t : Fin cfg1.N) (h0 : ¬t.val % 25 = 0) (d) :
    (dat1 V c).before 9 t d = (outsAt1 V c (t.val - 1) (Nat.lt_of_le_of_lt (Nat.sub_le _ _) t.isLt)).2.2 := by
  have hN : t.val < 25 := lt_of_lt_of_eq t.isLt (show cfg1.N = 25 from N_1)
  rw [Dat.before_out_kept _ 9 rfl t (by omega) (Bool.eq_false_iff.mpr fun h => by have := (flush1_9 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 25 := lt_of_lt_of_eq t.isLt (show cfg1.N = 25 from N_1)
  by_cases h0 : t.val % 25 = 0
  · rw [outsAt1_A V c t h0]
    (try dsimp only)
    unfold out1_A_7 out1_A_8 out1_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover1_A_9 c _ _ _ _ _ _ _ _ _ _ _ _ _ _ _ _ _ _ _ _ _ _ _ _ _ _ _ _ _)
  · rw [outsAt1_B V c t h0]
    simp only [before1_8_B V c t h0, before1_9_B V c t h0]
    (try dsimp only)
    unfold out1_B_7 out1_B_8 out1_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover1_B_9 c _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of the idealized kernel program's @main (pallas_call 2), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The inputs' buffers hold their blocks -/

/-- Input window 0's current staging buffer holds its block at every point, fetched there or not (where it is not fetched its
    block index has not moved), for any proof data over the region's entry contents whose body leaves the block in place. -/
theorem heldIn2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (where it is not fetched its
    block index has not moved), for any proof data over the region's entry contents whose body leaves the block in place. -/
theorem heldIn2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (where it is not fetched its
    block index has not moved), for any proof data over the region's entry contents whose body leaves the block in place. -/
theorem heldIn2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (where it is not fetched its
    block index has not moved), for any proof data over the region's entry contents whose body leaves the block in place. -/
theorem heldIn2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (where it is not fetched its
    block index has not moved), for any proof data over the region's entry contents whose body leaves the block in place. -/
theorem heldIn2_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's one branch: is this the first grid point? -/

/-- The condition under which the body resets the running row: the grid coordinate compared with zero, as the body's scalar
    operations compute it. -/
abbrev atFirst2 (i : grid2.Coords) : Prop := (Scalar.cmpi .ne (Scalar.extui (Scalar.cmpi .eq (BitVec.ofNat 32 (i 0).val) 0#32)) 0#32) = 1#1
/-- It holds at the first point of the grid and at no other: decided point by point. -/
theorem atFirst2_iff : ∀ t : Fin cfg2.N, atFirst2 (grid2.coords t) ↔ t.val % 25 = 0 :=
  (by decide +kernel : ∀ t : Fin grid2.N, atFirst2 (grid2.coords t) ↔ t.val % 25 = 0)

/-! ## The staging memrefs the body is called with -/
abbrev stg2_0 (t : Fin cfg2.N) : Memref sig .tc .vmem S2000x256 .f32 := win2_0.stage (cfg2.slots t 0)
abbrev stgWhole2_0 (t : Fin cfg2.N) : (stg2_0 t).IsWhole := hstage2_0 ((cfg2.slots t 0).cast nbuf2_0)
abbrev stg2_1 (t : Fin cfg2.N) : Memref sig .tc .vmem S1x256 .f32 := win2_1.stage (cfg2.slots t 1)
abbrev stgWhole2_1 (t : Fin cfg2.N) : (stg2_1 t).IsWhole := hstage2_1 ((cfg2.slots t 1).cast nbuf2_1)
abbrev stg2_2 (t : Fin cfg2.N) : Memref sig .tc .vmem S1x256 .f32 := win2_2.stage (cfg2.slots t 2)
abbrev stgWhole2_2 (t : Fin cfg2.N) : (stg2_2 t).IsWhole := hstage2_2 ((cfg2.slots t 2).cast nbuf2_2)
abbrev stg2_3 (t : Fin cfg2.N) : Memref sig .tc .vmem S1x256 .f32 := win2_3.stage (cfg2.slots t 3)
abbrev stgWhole2_3 (t : Fin cfg2.N) : (stg2_3 t).IsWhole := hstage2_3 ((cfg2.slots t 3).cast nbuf2_3)
abbrev stg2_4 (t : Fin cfg2.N) : Memref sig .tc .vmem S1x256 .f32 := win2_4.stage (cfg2.slots t 4)
abbrev stgWhole2_4 (t : Fin cfg2.N) : (stg2_4 t).IsWhole := hstage2_4 ((cfg2.slots t 4).cast nbuf2_4)
abbrev stg2_5 (t : Fin cfg2.N) : Memref sig .tc .vmem S2000x256 .f32 := win2_5.stage (cfg2.slots t 5)
abbrev stgWhole2_5 (t : Fin cfg2.N) : (stg2_5 t).IsWhole := hstage2_5 ((cfg2.slots t 5).cast nbuf2_5)
abbrev stg2_6 (t : Fin cfg2.N) : Memref sig .tc .vmem S1x256 .f32 := win2_6.stage (cfg2.slots t 6)
abbrev stgWhole2_6 (t : Fin cfg2.N) : (stg2_6 t).IsWhole := hstage2_6 ((cfg2.slots t 6).cast nbuf2_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc2__norm_readout_kernel i arg1 harg1 arg2 harg2 arg3 harg3 arg4 harg4 arg5 harg5 arg6 harg6 arg7 harg7) K } := by
  refine ⟨?_, ?_, fun E K => ?run⟩
  case run =>
    simp only [cc2__norm_readout_kernel_eq_skeleton]; unfold cc2__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc2__norm_readout_kernel i arg1 harg1 arg2 harg2 arg3 harg3 arg4 harg4 arg5 harg5 arg6 harg6 arg7 harg7) K } := by
  refine ⟨?_, ?_, fun E K => ?run⟩
  case run =>
    simp only [cc2__norm_readout_kernel_eq_skeleton]; unfold cc2__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst2_5 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) (y : S2000x256.Idx) :
    ∃ pc ∈ (runFirst2 c i arg1 harg1 arg2 harg2 arg3 harg3 arg4 harg4 arg5 harg5 arg6 harg6 arg7 harg7 hc u mean var gain shift).1, y ∈ pc.1.set :=
  View.cover_of_tiledL (runFirst2 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst2_6 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) (y : S1x256.Idx) :
    ∃ pc ∈ (runFirst2 c i arg1 harg1 arg2 harg2 arg3 harg3 arg4 harg4 arg5 harg5 arg6 harg6 arg7 harg7 hc u mean var gain shift).2.1, y ∈ pc.1.set :=
  View.cover_of_tiledL (runFirst2 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater2_5 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater2 c i arg1 harg1 arg2 harg2 arg3 harg3 arg4 harg4 arg5 harg5 arg6 harg6 arg7 harg7 hc u mean var gain shift acc).1, y ∈ pc.1.set :=
  View.cover_of_tiledL (runLater2 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater2_6 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater2 c i arg1 harg1 arg2 harg2 arg3 harg3 arg4 harg4 arg5 harg5 arg6 harg6 arg7 harg7 hc u mean var gain shift acc).2.1, y ∈ pc.1.set :=
  View.cover_of_tiledL (runLater2 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) : Vec F S2000x256 .f32 :=
  View.canon (runFirst2 c i arg1 harg1 arg2 harg2 arg3 harg3 arg4 harg4 arg5 harg5 arg6 harg6 arg7 harg7 hc u mean var gain shift).1

/-- The running row the first point leaves. -/
def sumsFirst2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) : Vec F S1x256 .f32 :=
  View.canon (runFirst2 c i arg1 harg1 arg2 harg2 arg3 harg3 arg4 harg4 arg5 harg5 arg6 harg6 arg7 harg7 hc u mean var gain shift).2.1

/-- The normalized block a later point leaves. -/
def rowsLater2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater2 c i arg1 harg1 arg2 harg2 arg3 harg3 arg4 harg4 arg5 harg5 arg6 harg6 arg7 harg7 hc u mean var gain shift acc).1

/-- The running row a later point leaves, over the row `acc` it found. -/
def sumsLater2 (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater2 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt2 (c : Dev nD) (t : Fin cfg2.N) (h0 : t.val % 25 = 0) : Vec F S2000x256 .f32 :=
  rowsFirst2 c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) ((atFirst2_iff t).mpr h0) (iblk2 V c 0 t) (iblk2 V c 1 t) (iblk2 V c 2 t) (iblk2 V c 3 t) (iblk2 V c 4 t)

/-- The running row after point `t`, when `t` is the first point. -/
def sumsFirstAt2 (c : Dev nD) (t : Fin cfg2.N) (h0 : t.val % 25 = 0) : Vec F S1x256 .f32 :=
  sumsFirst2 c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) ((atFirst2_iff t).mpr h0) (iblk2 V c 0 t) (iblk2 V c 1 t) (iblk2 V c 2 t) (iblk2 V c 3 t) (iblk2 V c 4 t)

/-- The normalized block of point `t`, when `t` is a later point (the run is stated at the running row it found). -/
def rowsLaterAt2 (c : Dev nD) (t : Fin cfg2.N) (h0 : ¬t.val % 25 = 0) (acc : Vec F S1x256 .f32) : Vec F S2000x256 .f32 :=
  rowsLater2 c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) (fun h => h0 ((atFirst2_iff t).mp h)) (iblk2 V c 0 t) (iblk2 V c 1 t) (iblk2 V c 2 t) (iblk2 V c 3 t) (iblk2 V c 4 t) acc

/-- The running row after point `t`, when `t` is a later point that found the row `acc`. -/
def sumsLaterAt2 (c : Dev nD) (t : Fin cfg2.N) (h0 : ¬t.val % 25 = 0) (acc : Vec F S1x256 .f32) : Vec F S1x256 .f32 :=
  sumsLater2 c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) (fun h => h0 ((atFirst2_iff t).mp h)) (iblk2 V c 0 t) (iblk2 V c 1 t) (iblk2 V c 2 t) (iblk2 V c 3 t) (iblk2 V c 4 t) acc

/-! ## What the outputs hold after each point -/

/-- THE ACCUMULATION: the running row after the body at position `n`. At the first point the reset-and-add case's row; at a later
    point the add case's row over what this gives at `n - 1` (the row's buffer is not written back in between). -/
def sumsAt2 (c : Dev nD) : (n : ℕ) → n < cfg2.N → Vec F S1x256 .f32
  | 0, hn => sumsFirstAt2 V c ⟨0, hn⟩ (Nat.zero_mod _)
  | n + 1, hn =>
    if h0 : (n + 1) % 25 = 0 then sumsFirstAt2 V c ⟨n + 1, hn⟩ h0
    else sumsLaterAt2 V c ⟨n + 1, hn⟩ h0 (sumsAt2 c n (Nat.lt_of_succ_lt hn))

/-- The running row the body finds at point `t` when `t` is not the first: what the point before left. -/
abbrev sumsBefore2 (c : Dev nD) (t : Fin cfg2.N) : Vec F S1x256 .f32 :=
  sumsAt2 V c (t.val - 1) (Nat.lt_of_le_of_lt (Nat.sub_le _ _) t.isLt)

/-- The normalized block after the body at point `t`. -/
def rowsAt2 (c : Dev nD) (t : Fin cfg2.N) : Vec F S2000x256 .f32 :=
  if h0 : t.val % 25 = 0 then rowsFirstAt2 V c t h0 else rowsLaterAt2 V c t h0 (sumsBefore2 V c t)

/-- The running row at the first point. -/
theorem sumsAt2_first (c : Dev nD) (t : Fin cfg2.N) (h0 : t.val % 25 = 0) :
    sumsAt2 V c t.val t.isLt = sumsFirstAt2 V c t h0 := by
  obtain ⟨n, hn⟩ := t
  cases n with
  | zero => exact rfl
  | succ n => exact (dif_pos h0).trans rfl

/-- The running row at a later point: the add case over the row before. -/
theorem sumsAt2_later (c : Dev nD) (t : Fin cfg2.N) (h0 : ¬t.val % 25 = 0) :
    sumsAt2 V c t.val t.isLt = sumsLaterAt2 V c t h0 (sumsBefore2 V c t) := by
  obtain ⟨n, hn⟩ := t
  cases n with
  | zero => exact absurd (Nat.zero_mod _) h0
  | succ n => exact (dif_neg h0).trans rfl

/-- The normalized block at the first point. -/
theorem rowsAt2_first (c : Dev nD) (t : Fin cfg2.N) (h0 : t.val % 25 = 0) : rowsAt2 V c t = rowsFirstAt2 V c t h0 := dif_pos h0

/-- The normalized block at a later point. -/
theorem rowsAt2_later (c : Dev nD) (t : Fin cfg2.N) (h0 : ¬t.val % 25 = 0) :
    rowsAt2 V c t = rowsLaterAt2 V c t h0 (sumsBefore2 V c t) := dif_neg h0

/-! ## The pipeline's proof data -/

/-- The proof data of the region's pipeline on core `c`: the arrays as the region finds them; after the body at point `t` each
    input's buffer still at its block, the normalized block's at `rowsAt2`, the running row's at `sumsAt2`; the class's invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => rowsAt2 V c t
    | ⟨6, _⟩ => sumsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = rowsAt2 V c t := by dsimp only [dat2]
theorem after2_6 (c : Dev nD) (t : Fin cfg2.N) : (dat2 V c).after 6 t = sumsAt2 V c t.val t.isLt := by dsimp only [dat2]

/-- What the body finds in each input's buffer: its block. -/
theorem before2_0 (c : Dev nD) (t : Fin cfg2.N) (d) : (dat2 V c).before 0 t d = iblk2 V c 0 t :=
  heldIn2_0 V (dat2 V c) (A_eq2 V c 0) (after2_0 V c) t d
theorem before2_1 (c : Dev nD) (t : Fin cfg2.N) (d) : (dat2 V c).before 1 t d = iblk2 V c 1 t :=
  heldIn2_1 V (dat2 V c) (A_eq2 V c 1) (after2_1 V c) t d
theorem before2_2 (c : Dev nD) (t : Fin cfg2.N) (d) : (dat2 V c).before 2 t d = iblk2 V c 2 t :=
  heldIn2_2 V (dat2 V c) (A_eq2 V c 2) (after2_2 V c) t d
theorem before2_3 (c : Dev nD) (t : Fin cfg2.N) (d) : (dat2 V c).before 3 t d = iblk2 V c 3 t :=
  heldIn2_3 V (dat2 V c) (A_eq2 V c 3) (after2_3 V c) t d
theorem before2_4 (c : Dev nD) (t : Fin cfg2.N) (d) : (dat2 V c).before 4 t d = iblk2 V c 4 t :=
  heldIn2_4 V (dat2 V c) (A_eq2 V c 4) (after2_4 V c) t d

/-- At a later point the running row's buffer holds what the body left at the point before: the point is not the first, the row is
    written back at the last point only, the window is never idle and is uncut. -/
theorem before2_6_later (c : Dev nD) (t : Fin cfg2.N) (h0 : ¬t.val % 25 = 0) (d) :
    (dat2 V c).before 6 t d = sumsBefore2 V c t := by
  have hN : t.val < 25 := lt_of_lt_of_eq t.isLt (show cfg2.N = 25 from N_2)
  rw [Dat.before_out_kept _ 6 rfl t (by omega) (Bool.eq_false_iff.mpr fun h => by have := (flush2_6 _).mp h; dsimp only at this; omega)
    (fun _ => rfl) (fun _ _ => rfl)]
  dsimp only [dat2]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  by_cases h0 : t.val % 25 = 0
  · rw [sumsAt2_first V c t h0, rowsAt2_first V c t h0]
    unfold sumsFirstAt2 rowsFirstAt2 sumsFirst2 rowsFirst2
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst2 c (grid2.coords t) _ _ _ _ _ _ _ _ _ _ _ _ _ _ ((atFirst2_iff t).mpr h0) (iblk2 V c 0 t) (iblk2 V c 1 t) (iblk2 V c 2 t) (iblk2 V c 3 t) (iblk2 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst2_5 c _ _ _ _ _ _ _ _ _ _ _ _ _ _ _ _ _ _ _ _ _)
    unfold owns; iexists _; isplitr
    swap; · iexact H6
    ipureintro; exact View.read_writes_eq_canon _ _ _ (coverFirst2_6 c _ _ _ _ _ _ _ _ _ _ _ _ _ _ _ _ _ _ _ _ _)
  · rw [sumsAt2_later V c t h0, rowsAt2_later V c t h0]
    simp only [before2_6_later V c t h0]
    unfold sumsLaterAt2 rowsLaterAt2 sumsLater2 rowsLater2
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater2 c (grid2.coords t) _ _ _ _ _ _ _ _ _ _ _ _ _ _ (fun h => h0 ((atFirst2_iff t).mp h)) (iblk2 V c 0 t) (iblk2 V c 1 t) (iblk2 V c 2 t) (iblk2 V c 3 t) (iblk2 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater2_5 c _ _ _ _ _ _ _ _ _ _ _ _ _ _ _ _ _ _ _ _ _ _)
    unfold owns; iexists _; isplitr
    swap; · iexact H6
    ipureintro; exact View.read_writes_eq_canon _ _ _ (coverLater2_6 c _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3 of the idealized kernel program's @main (pallas_call 3), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's one branch: is this the first grid point? -/

/-- The condition of the body's only `scf.if` (the program id compared with 0), from the grid coordinates. -/
abbrev first3 (i : grid3.Coords) : Prop := (Scalar.cmpi .ne (Scalar.extui (Scalar.cmpi .eq (BitVec.ofNat 32 (i 0).val) 0#32)) 0#32) = 1#1
/-- It holds at the first point and at no other — decided over the grid. -/
theorem first3_iff : ∀ t : Fin cfg3.N, first3 (grid3.coords t) ↔ t.val = 0 :=
  (by decide +kernel : ∀ t : Fin grid3.N, first3 (grid3.coords t) ↔ t.val = 0)

/-- Each window's current staging memref at point `t`, as the pipeline passes it to the body, and its wholeness. -/
abbrev buf3_0 (t : Fin cfg3.N) : Memref sig .tc .vmem S2000x256 .f32 := win3_0.stage (cfg3.slots t 0)
abbrev whole3_0 (t : Fin cfg3.N) : (buf3_0 t).IsWhole := hstage3_0 ((cfg3.slots t 0).cast nbuf3_0)
abbrev buf3_1 (t : Fin cfg3.N) : Memref sig .tc .vmem S2000x256 .f32 := win3_1.stage (cfg3.slots t 1)
abbrev whole3_1 (t : Fin cfg3.N) : (buf3_1 t).IsWhole := hstage3_1 ((cfg3.slots t 1).cast nbuf3_1)
abbrev buf3_2 (t : Fin cfg3.N) : Memref sig .tc .vmem S256x256 .bf16 := win3_2.stage (cfg3.slots t 2)
abbrev whole3_2 (t : Fin cfg3.N) : (buf3_2 t).IsWhole := hstage3_2 ((cfg3.slots t 2).cast nbuf3_2)
abbrev buf3_3 (t : Fin cfg3.N) : Memref sig .tc .vmem S1x256 .f32 := win3_3.stage (cfg3.slots t 3)
abbrev whole3_3 (t : Fin cfg3.N) : (buf3_3 t).IsWhole := hstage3_3 ((cfg3.slots t 3).cast nbuf3_3)
abbrev buf3_4 (t : Fin cfg3.N) : Memref sig .tc .vmem S2000x256 .f32 := win3_4.stage (cfg3.slots t 4)
abbrev whole3_4 (t : Fin cfg3.N) : (buf3_4 t).IsWhole := hstage3_4 ((cfg3.slots t 4).cast nbuf3_4)
abbrev buf3_5 (t : Fin cfg3.N) : Memref sig .tc .vmem S1x256 .f32 := win3_5.stage (cfg3.slots t 5)
abbrev whole3_5 (t : Fin cfg3.N) : (buf3_5 t).IsWhole := hstage3_5 ((cfg3.slots t 5).cast nbuf3_5)
abbrev buf3_6 (t : Fin cfg3.N) : Memref sig .tc .vmem S1x256 .f32 := win3_6.stage (cfg3.slots t 6)
abbrev whole3_6 (t : Fin cfg3.N) : (buf3_6 t).IsWhole := hstage3_6 ((cfg3.slots t 6).cast nbuf3_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc3__matmul1_stats_kernel i arg1 harg1 arg2 harg2 arg3 harg3 arg4 harg4 arg5 harg5 arg6 harg6 arg7 harg7) K } := by
  refine ⟨?_, ?_, ?_, fun E K => ?run⟩
  case run =>
    simp only [cc3__matmul1_stats_kernel_eq_skeleton]; unfold cc3__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc3__matmul1_stats_kernel i arg1 harg1 arg2 harg2 arg3 harg3 arg4 harg4 arg5 harg5 arg6 harg6 arg7 harg7) K } := by
  refine ⟨?_, ?_, ?_, fun E K => ?run⟩
  case run =>
    simp only [cc3__matmul1_stats_kernel_eq_skeleton]; unfold cc3__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView3 : View sig .tc .vmem S2000x256 .f32 := (stage3_4 0).view
abbrev sumView3 : View sig .tc .vmem S1x256 .f32 := (stage3_5 0).view
abbrev sqView3 : View sig .tc .vmem S1x256 .f32 := (stage3_6 0).view

/-- At the first point each output's pieces tile its block (checked by evaluating the piece list), so they cover it. -/
theorem resetCover3_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) (y : S2000x256.Idx) :
    ∃ pc ∈ (resetRun3 c i arg1 harg1 arg2 harg2 arg3 harg3 arg4 harg4 arg5 harg5 arg6 harg6 arg7 harg7 hc0 x0 x1 x2 x3).1, y ∈ pc.1.set :=
  View.cover_of_tiledL (resetRun3 c i arg1 harg1 arg2 harg2 arg3 harg3 arg4 harg4 arg5 harg5 arg6 harg6 arg7 harg7 hc0 x0 x1 x2 x3).1 S2000x256.size (by sl_kernel_rfl) y
theorem resetCover3_5 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) (y : S1x256.Idx) :
    ∃ pc ∈ (resetRun3 c i arg1 harg1 arg2 harg2 arg3 harg3 arg4 harg4 arg5 harg5 arg6 harg6 arg7 harg7 hc0 x0 x1 x2 x3).2.1, y ∈ pc.1.set :=
  View.cover_of_tiledL (resetRun3 c i arg1 harg1 arg2 harg2 arg3 harg3 arg4 harg4 arg5 harg5 arg6 harg6 arg7 harg7 hc0 x0 x1 x2 x3).2.1 S1x256.size (by sl_kernel_rfl) y
theorem resetCover3_6 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) (y : S1x256.Idx) :
    ∃ pc ∈ (resetRun3 c i arg1 harg1 arg2 harg2 arg3 harg3 arg4 harg4 arg5 harg5 arg6 harg6 arg7 harg7 hc0 x0 x1 x2 x3).2.2.1, y ∈ pc.1.set :=
  View.cover_of_tiledL (resetRun3 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut3_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) : Vec F S2000x256 .f32 :=
  uView3.read (Elt F) (uView3.writes (Elt F) uView3.junk (resetRun3 c i arg1 harg1 arg2 harg2 arg3 harg3 arg4 harg4 arg5 harg5 arg6 harg6 arg7 harg7 hc0 x0 x1 x2 x3).1)
/-- What the first point leaves in the column-sum accumulator. -/
def resetOut3_5 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) : Vec F S1x256 .f32 :=
  sumView3.read (Elt F) (sumView3.writes (Elt F) sumView3.junk (resetRun3 c i arg1 harg1 arg2 harg2 arg3 harg3 arg4 harg4 arg5 harg5 arg6 harg6 arg7 harg7 hc0 x0 x1 x2 x3).2.1)
/-- What the first point leaves in the sum-of-squares accumulator. -/
def resetOut3_6 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) : Vec F S1x256 .f32 :=
  sqView3.read (Elt F) (sqView3.writes (Elt F) sqView3.junk (resetRun3 c i arg1 harg1 arg2 harg2 arg3 harg3 arg4 harg4 arg5 harg5 arg6 harg6 arg7 harg7 hc0 x0 x1 x2 x3).2.2.1)

/-- At a later point too each output's pieces cover its block. -/
theorem carryCover3_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun3 c i arg1 harg1 arg2 harg2 arg3 harg3 arg4 harg4 arg5 harg5 arg6 harg6 arg7 harg7 hc0 x0 x1 x2 x3 xo5 xo6).1, y ∈ pc.1.set :=
  View.cover_of_tiledL (carryRun3 c i arg1 harg1 arg2 harg2 arg3 harg3 arg4 harg4 arg5 harg5 arg6 harg6 arg7 harg7 hc0 x0 x1 x2 x3 xo5 xo6).1 S2000x256.size (by sl_kernel_rfl) y
theorem carryCover3_5 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun3 c i arg1 harg1 arg2 harg2 arg3 harg3 arg4 harg4 arg5 harg5 arg6 harg6 arg7 harg7 hc0 x0 x1 x2 x3 xo5 xo6).2.1, y ∈ pc.1.set :=
  View.cover_of_tiledL (carryRun3 c i arg1 harg1 arg2 harg2 arg3 harg3 arg4 harg4 arg5 harg5 arg6 harg6 arg7 harg7 hc0 x0 x1 x2 x3 xo5 xo6).2.1 S1x256.size (by sl_kernel_rfl) y
theorem carryCover3_6 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun3 c i arg1 harg1 arg2 harg2 arg3 harg3 arg4 harg4 arg5 harg5 arg6 harg6 arg7 harg7 hc0 x0 x1 x2 x3 xo5 xo6).2.2.1, y ∈ pc.1.set :=
  View.cover_of_tiledL (carryRun3 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut3_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView3.read (Elt F) (uView3.writes (Elt F) uView3.junk (carryRun3 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut3_5 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView3.read (Elt F) (sumView3.writes (Elt F) sumView3.junk (carryRun3 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut3_6 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView3.read (Elt F) (sqView3.writes (Elt F) sqView3.junk (carryRun3 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left3 (c : Dev nD) : (n : ℕ) → n < cfg3.N → Vec F S2000x256 .f32 × Vec F S1x256 .f32 × Vec F S1x256 .f32
  | 0, hn =>
    (resetOut3_4 c (grid3.coords ⟨0, hn⟩) (buf3_0 ⟨0, hn⟩) (whole3_0 ⟨0, hn⟩) (buf3_1 ⟨0, hn⟩) (whole3_1 ⟨0, hn⟩) (buf3_2 ⟨0, hn⟩) (whole3_2 ⟨0, hn⟩) (buf3_3 ⟨0, hn⟩) (whole3_3 ⟨0, hn⟩) (buf3_4 ⟨0, hn⟩) (whole3_4 ⟨0, hn⟩) (buf3_5 ⟨0, hn⟩) (whole3_5 ⟨0, hn⟩) (buf3_6 ⟨0, hn⟩) (whole3_6 ⟨0, hn⟩) ((first3_iff ⟨0, hn⟩).mpr rfl) (iblk3 V c 0 ⟨0, hn⟩) (iblk3 V c 1 ⟨0, hn⟩) (iblk3 V c 2 ⟨0, hn⟩) (iblk3 V c 3 ⟨0, hn⟩),
     resetOut3_5 c (grid3.coords ⟨0, hn⟩) (buf3_0 ⟨0, hn⟩) (whole3_0 ⟨0, hn⟩) (buf3_1 ⟨0, hn⟩) (whole3_1 ⟨0, hn⟩) (buf3_2 ⟨0, hn⟩) (whole3_2 ⟨0, hn⟩) (buf3_3 ⟨0, hn⟩) (whole3_3 ⟨0, hn⟩) (buf3_4 ⟨0, hn⟩) (whole3_4 ⟨0, hn⟩) (buf3_5 ⟨0, hn⟩) (whole3_5 ⟨0, hn⟩) (buf3_6 ⟨0, hn⟩) (whole3_6 ⟨0, hn⟩) ((first3_iff ⟨0, hn⟩).mpr rfl) (iblk3 V c 0 ⟨0, hn⟩) (iblk3 V c 1 ⟨0, hn⟩) (iblk3 V c 2 ⟨0, hn⟩) (iblk3 V c 3 ⟨0, hn⟩),
     resetOut3_6 c (grid3.coords ⟨0, hn⟩) (buf3_0 ⟨0, hn⟩) (whole3_0 ⟨0, hn⟩) (buf3_1 ⟨0, hn⟩) (whole3_1 ⟨0, hn⟩) (buf3_2 ⟨0, hn⟩) (whole3_2 ⟨0, hn⟩) (buf3_3 ⟨0, hn⟩) (whole3_3 ⟨0, hn⟩) (buf3_4 ⟨0, hn⟩) (whole3_4 ⟨0, hn⟩) (buf3_5 ⟨0, hn⟩) (whole3_5 ⟨0, hn⟩) (buf3_6 ⟨0, hn⟩) (whole3_6 ⟨0, hn⟩) ((first3_iff ⟨0, hn⟩).mpr rfl) (iblk3 V c 0 ⟨0, hn⟩) (iblk3 V c 1 ⟨0, hn⟩) (iblk3 V c 2 ⟨0, hn⟩) (iblk3 V c 3 ⟨0, hn⟩))
  | n + 1, hn =>
    (carryOut3_4 c (grid3.coords ⟨n + 1, hn⟩) (buf3_0 ⟨n + 1, hn⟩) (whole3_0 ⟨n + 1, hn⟩) (buf3_1 ⟨n + 1, hn⟩) (whole3_1 ⟨n + 1, hn⟩) (buf3_2 ⟨n + 1, hn⟩) (whole3_2 ⟨n + 1, hn⟩) (buf3_3 ⟨n + 1, hn⟩) (whole3_3 ⟨n + 1, hn⟩) (buf3_4 ⟨n + 1, hn⟩) (whole3_4 ⟨n + 1, hn⟩) (buf3_5 ⟨n + 1, hn⟩) (whole3_5 ⟨n + 1, hn⟩) (buf3_6 ⟨n + 1, hn⟩) (whole3_6 ⟨n + 1, hn⟩) (fun h => Nat.succ_ne_zero n ((first3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (left3 c n (Nat.lt_of_succ_lt hn)).2.1 (left3 c n (Nat.lt_of_succ_lt hn)).2.2,
     carryOut3_5 c (grid3.coords ⟨n + 1, hn⟩) (buf3_0 ⟨n + 1, hn⟩) (whole3_0 ⟨n + 1, hn⟩) (buf3_1 ⟨n + 1, hn⟩) (whole3_1 ⟨n + 1, hn⟩) (buf3_2 ⟨n + 1, hn⟩) (whole3_2 ⟨n + 1, hn⟩) (buf3_3 ⟨n + 1, hn⟩) (whole3_3 ⟨n + 1, hn⟩) (buf3_4 ⟨n + 1, hn⟩) (whole3_4 ⟨n + 1, hn⟩) (buf3_5 ⟨n + 1, hn⟩) (whole3_5 ⟨n + 1, hn⟩) (buf3_6 ⟨n + 1, hn⟩) (whole3_6 ⟨n + 1, hn⟩) (fun h => Nat.succ_ne_zero n ((first3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (left3 c n (Nat.lt_of_succ_lt hn)).2.1 (left3 c n (Nat.lt_of_succ_lt hn)).2.2,
     carryOut3_6 c (grid3.coords ⟨n + 1, hn⟩) (buf3_0 ⟨n + 1, hn⟩) (whole3_0 ⟨n + 1, hn⟩) (buf3_1 ⟨n + 1, hn⟩) (whole3_1 ⟨n + 1, hn⟩) (buf3_2 ⟨n + 1, hn⟩) (whole3_2 ⟨n + 1, hn⟩) (buf3_3 ⟨n + 1, hn⟩) (whole3_3 ⟨n + 1, hn⟩) (buf3_4 ⟨n + 1, hn⟩) (whole3_4 ⟨n + 1, hn⟩) (buf3_5 ⟨n + 1, hn⟩) (whole3_5 ⟨n + 1, hn⟩) (buf3_6 ⟨n + 1, hn⟩) (whole3_6 ⟨n + 1, hn⟩) (fun h => Nat.succ_ne_zero n ((first3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (left3 c n (Nat.lt_of_succ_lt hn)).2.1 (left3 c n (Nat.lt_of_succ_lt hn)).2.2)

/-- `left3` at the first point: the reset case's contents. -/
theorem left3_first (c : Dev nD) (t : Fin cfg3.N) (h0 : t.val = 0) :
    left3 V c t.val t.isLt =
    (resetOut3_4 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) ((first3_iff t).mpr h0) (iblk3 V c 0 t) (iblk3 V c 1 t) (iblk3 V c 2 t) (iblk3 V c 3 t),
     resetOut3_5 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) ((first3_iff t).mpr h0) (iblk3 V c 0 t) (iblk3 V c 1 t) (iblk3 V c 2 t) (iblk3 V c 3 t),
     resetOut3_6 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) ((first3_iff t).mpr h0) (iblk3 V c 0 t) (iblk3 V c 1 t) (iblk3 V c 2 t) (iblk3 V c 3 t)) := by
  obtain ⟨n, hn⟩ := t
  cases n with
  | zero => exact rfl
  | succ n => exact absurd h0 (Nat.succ_ne_zero n)

/-- `left3` at a later point: the carrying case's contents, over the accumulator rows the point before left. -/
theorem left3_later (c : Dev nD) (t : Fin cfg3.N) (h0 : ¬t.val = 0) :
    left3 V c t.val t.isLt =
    (carryOut3_4 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) (fun h => h0 ((first3_iff t).mp h)) (iblk3 V c 0 t) (iblk3 V c 1 t) (iblk3 V c 2 t) (iblk3 V c 3 t) (left3 V c (t.val - 1) (Nat.lt_of_le_of_lt (Nat.sub_le _ _) t.isLt)).2.1 (left3 V c (t.val - 1) (Nat.lt_of_le_of_lt (Nat.sub_le _ _) t.isLt)).2.2,
     carryOut3_5 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) (fun h => h0 ((first3_iff t).mp h)) (iblk3 V c 0 t) (iblk3 V c 1 t) (iblk3 V c 2 t) (iblk3 V c 3 t) (left3 V c (t.val - 1) (Nat.lt_of_le_of_lt (Nat.sub_le _ _) t.isLt)).2.1 (left3 V c (t.val - 1) (Nat.lt_of_le_of_lt (Nat.sub_le _ _) t.isLt)).2.2,
     carryOut3_6 c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) (fun h => h0 ((first3_iff t).mp h)) (iblk3 V c 0 t) (iblk3 V c 1 t) (iblk3 V c 2 t) (iblk3 V c 3 t) (left3 V c (t.val - 1) (Nat.lt_of_le_of_lt (Nat.sub_le _ _) t.isLt)).2.1 (left3 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left3`; the invariant the scoped rest and the generator register; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (left3 V c t.val t.isLt).1
    | ⟨5, _⟩ => (left3 V c t.val t.isLt).2.1
    | ⟨6, _⟩ => (left3 V c t.val t.isLt).2.2
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (left3 V c t.val t.isLt).1 := by dsimp only [dat3]
theorem after3_5 (c : Dev nD) (t : Fin cfg3.N) : (dat3 V c).after 5 t = (left3 V c t.val t.isLt).2.1 := by dsimp only [dat3]
theorem after3_6 (c : Dev nD) (t : Fin cfg3.N) : (dat3 V c).after 6 t = (left3 V c t.val t.isLt).2.2 := by dsimp only [dat3]

/-- Each input's current staging buffer holds its block at every point, fetched there or not: h and agg are fetched at every
    point; the weight and the bias at the first only, and their block index never moves. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)

/-- At a later point each accumulator's staging buffer holds what the body left at the point before: the buffer is written back
    after the last point only, the window is live and uncut. -/
theorem before3_5_later (c : Dev nD) (t : Fin cfg3.N) (h0 : ¬t.val = 0) (d) :
    (dat3 V c).before 5 t d = (left3 V c (t.val - 1) (Nat.lt_of_le_of_lt (Nat.sub_le _ _) t.isLt)).2.1 := by
  have hN : t.val < 25 := lt_of_lt_of_eq t.isLt (show cfg3.N = 25 from N_3)
  rw [Dat.before_out_kept _ 5 rfl t h0 (Bool.eq_false_iff.mpr fun h => by have := (flush3_5 _).mp h; dsimp only at this; omega)
    (fun _ => rfl) (fun _ _ => rfl)]
  dsimp only [dat3]
theorem before3_6_later (c : Dev nD) (t : Fin cfg3.N) (h0 : ¬t.val = 0) (d) :
    (dat3 V c).before 6 t d = (left3 V c (t.val - 1) (Nat.lt_of_le_of_lt (Nat.sub_le _ _) t.isLt)).2.2 := by
  have hN : t.val < 25 := lt_of_lt_of_eq t.isLt (show cfg3.N = 25 from N_3)
  rw [Dat.before_out_kept _ 6 rfl t h0 (Bool.eq_false_iff.mpr fun h => by have := (flush3_6 _).mp h; dsimp only at this; omega)
    (fun _ => rfl) (fun _ _ => rfl)]
  dsimp only [dat3]

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (buf3_0 t) fullShare ((dat3 V c).before 0 t d))
    ∗ (∃ d, owns (c : Thread nD τ) (buf3_1 t) fullShare ((dat3 V c).before 1 t d))
    ∗ (∃ d, owns (c : Thread nD τ) (buf3_2 t) fullShare ((dat3 V c).before 2 t d))
    ∗ (∃ d, owns (c : Thread nD τ) (buf3_3 t) fullShare ((dat3 V c).before 3 t d))
    ∗ (∃ d, owns (c : Thread nD τ) (buf3_4 t) fullShare ((dat3 V c).before 4 t d))
    ∗ (∃ d, owns (c : Thread nD τ) (buf3_5 t) fullShare ((dat3 V c).before 5 t d))
    ∗ (∃ d, owns (c : Thread nD τ) (buf3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (buf3_0 t) fullShare ((dat3 V c).after 0 t)
    ∗ owns (c : Thread nD τ) (buf3_1 t) fullShare ((dat3 V c).after 1 t)
    ∗ owns (c : Thread nD τ) (buf3_2 t) fullShare ((dat3 V c).after 2 t)
    ∗ owns (c : Thread nD τ) (buf3_3 t) fullShare ((dat3 V c).after 3 t)
    ∗ owns (c : Thread nD τ) (buf3_4 t) fullShare ((dat3 V c).after 4 t)
    ∗ owns (c : Thread nD τ) (buf3_5 t) fullShare ((dat3 V c).after 5 t)
    ∗ owns (c : Thread nD τ) (buf3_6 t) fullShare ((dat3 V c).after 6 t))

set_option maxHeartbeats 1600000 in
/-- The body at any point. The inputs' memrefs hold their blocks; `first3_iff` says which case the point is in; at a later
    point the accumulators' memrefs hold the rows the point before left; so that case's run applies, and each output's pieces,
    covering its block, read back as the contents `left3` names. The invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  by_cases h0 : t.val = 0
  · rw [left3_first V c t h0]
    dsimp only
    unfold resetOut3_4 resetOut3_5 resetOut3_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun3 c (grid3.coords t) _ _ _ _ _ _ _ _ _ _ _ _ _ _ ((first3_iff t).mpr h0) (iblk3 V c 0 t) (iblk3 V c 1 t) (iblk3 V c 2 t) (iblk3 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover3_4 c _ _ _ _ _ _ _ _ _ _ _ _ _ _ _ _ _ _ _ _)
    isplitl [H5]
    · unfold owns; iexists _; isplitr
      swap; · iexact H5
      ipureintro; exact View.read_writes_of_cover _ _ _ _ _ (resetCover3_5 c _ _ _ _ _ _ _ _ _ _ _ _ _ _ _ _ _ _ _ _)
    unfold owns; iexists _; isplitr
    swap; · iexact H6
    ipureintro; exact View.read_writes_of_cover _ _ _ _ _ (resetCover3_6 c _ _ _ _ _ _ _ _ _ _ _ _ _ _ _ _ _ _ _ _)
  · rw [left3_later V c t h0]
    dsimp only
    simp only [before3_5_later V c t h0, before3_6_later V c t h0]
    unfold carryOut3_4 carryOut3_5 carryOut3_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun3 c (grid3.coords t) _ _ _ _ _ _ _ _ _ _ _ _ _ _ (fun h => h0 ((first3_iff t).mp h)) (iblk3 V c 0 t) (iblk3 V c 1 t) (iblk3 V c 2 t) (iblk3 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover3_4 c _ _ _ _ _ _ _ _ _ _ _ _ _ _ _ _ _ _ _ _ _ _)
    isplitl [H5]
    · unfold owns; iexists _; isplitr
      swap; · iexact H5
      ipureintro; exact View.read_writes_of_cover _ _ _ _ _ (carryCover3_5 c _ _ _ _ _ _ _ _ _ _ _ _ _ _ _ _ _ _ _ _ _ _)
    unfold owns; iexists _; isplitr
    swap; · iexact H6
    ipureintro; exact View.read_writes_of_cover _ _ _ _ _ (carryCover3_6 c _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/-
  Region 4 of the idealized kernel program's @main (pallas_call 4), at ANY entry contents `V` of the TensorCore's buffers and at any
  float instance: the proof data of its pipeline (what each window's staging buffer holds after the body at each grid point) and the
  body obligation.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The inputs' staging buffers -/

/-- Input window 0's current staging buffer holds its block at every point, fetched there or not (unfetched, the block index has
    not moved), for ANY proof data whose array is the entry contents' (`hA`) and whose body leaves the block in place (`hafter`). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (unfetched, the block index has
    not moved), for ANY proof data whose array is the entry contents' (`hA`) and whose body leaves the block in place (`hafter`). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (unfetched, the block index has
    not moved), for ANY proof data whose array is the entry contents' (`hA`) and whose body leaves the block in place (`hafter`). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (unfetched, the block index has
    not moved), for ANY proof data whose array is the entry contents' (`hA`) and whose body leaves the block in place (`hafter`). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (unfetched, the block index has
    not moved), for ANY proof data whose array is the entry contents' (`hA`) and whose body leaves the block in place (`hafter`). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (unfetched, the block index has
    not moved), for ANY proof data whose array is the entry contents' (`hA`) and whose body leaves the block in place (`hafter`). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (unfetched, the block index has
    not moved), for ANY proof data whose array is the entry contents' (`hA`) and whose body leaves the block in place (`hafter`). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch condition -/

/-- The condition of the body's one `scf.if` (is this the first point?), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 25 = 0 :=
  (by decide +kernel : ∀ t : Fin grid4.N, cond4_0 (grid4.coords t) ↔ t.val % 25 = 0)

/-! ## The staging memrefs at a point -/

/-- One staging buffer of each output window, through which its contents are stated (the choice does not matter: the stores cover). -/
abbrev VO4_7 : View sig .tc .vmem S2000x256 .f32 := (stage4_7 0).view
abbrev VO4_8 : View sig .tc .vmem S1x256 .f32 := (stage4_8 0).view
abbrev VO4_9 : View sig .tc .vmem S1x256 .f32 := (stage4_9 0).view
/-- Each window's current staging memref at point `t`, spelled as the pipeline passes it to the body, and its wholeness. -/
abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S256x256 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S2000x256 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x256 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x256 .f32 := win4_9.stage (cfg4.slots t 9)
abbrev hs4_9 (t : Fin cfg4.N) : (ms4_9 t).IsWhole := hstage4_9 ((cfg4.slots t 9).cast nbuf4_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun4_A (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc4__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__norm_matmul2_stats_kernel_eq_skeleton]; unfold cc4__norm_matmul2_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun4_B (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc4__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__norm_matmul2_stats_kernel_eq_skeleton]; unfold cc4__norm_matmul2_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover4_A_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out4_A_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover4_A_8 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out4_A_8 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover4_A_9 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out4_A_9 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO4_9.read (Elt F) (VO4_9.writes (Elt F) VO4_9.junk (kernelRun4_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover4_B_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out4_B_7 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover4_B_8 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out4_B_8 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover4_B_9 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out4_B_9 (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO4_9.read (Elt F) (VO4_9.writes (Elt F) VO4_9.junk (kernelRun4_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt4 (c : Dev nD) : (n : ℕ) → n < cfg4.N → Vec F S2000x256 .f32 × Vec F S1x256 .f32 × Vec F S1x256 .f32
  | 0, hn => (out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩),
        out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩),
        out4_A_9 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩))
  | n + 1, hn =>
    if h0 : (n + 1) % 25 = 0 then
      (out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩),
        out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩),
        out4_A_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩))
    else
      (out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.1 (outsAt4 c n (Nat.lt_of_succ_lt hn)).2.2,
        out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.1 (outsAt4 c n (Nat.lt_of_succ_lt hn)).2.2,
        out4_B_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.1 (outsAt4 c n (Nat.lt_of_succ_lt hn)).2.2)

/-- `outsAt4` at the first point: the resetting case's contents. -/
theorem outsAt4_A (c : Dev nD) (t : Fin cfg4.N) (h0 : t.val % 25 = 0) :
    outsAt4 V c t.val t.isLt = (out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t),
        out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t),
        out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t)) := by
  obtain ⟨n, hn⟩ := t
  cases n with
  | zero => exact rfl
  | succ n => exact (dif_pos h0).trans rfl

/-- `outsAt4` at any other point: the accumulating case's contents, over what the point before left. -/
theorem outsAt4_B (c : Dev nD) (t : Fin cfg4.N) (h0 : ¬t.val % 25 = 0) :
    outsAt4 V c t.val t.isLt = (out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2,
        out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2,
        out4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt4`; the invariant the scoped rest and the generator register, untouched;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t.val t.isLt).1
    | ⟨8, _⟩ => (outsAt4 V c t.val t.isLt).2.1
    | ⟨9, _⟩ => (outsAt4 V c t.val t.isLt).2.2
  Φ _ := Pipeline.ΦA spec4 c
  q _ := fullShare
  owed _ := 0

/-- The proof data's arrays are the region-entry contents (the definition projected, so that `V` is never unfolded). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = (outsAt4 V c t.val t.isLt).1 := by dsimp only [dat4]
theorem after4_8 (c : Dev nD) (t : Fin cfg4.N) : (dat4 V c).after 8 t = (outsAt4 V c t.val t.isLt).2.1 := by dsimp only [dat4]
theorem after4_9 (c : Dev nD) (t : Fin cfg4.N) : (dat4 V c).after 9 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
/-- At a point other than the first, accumulator window 8's staging buffer holds what the body left at the point before: its block
    is the same at every point and is written back at the last point only. -/
theorem before4_8_B (c : Dev nD) (t : Fin cfg4.N) (h0 : ¬t.val % 25 = 0) (d) :
    (dat4 V c).before 8 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 8 rfl t (by omega) (Bool.eq_false_iff.mpr fun h => by have := (flush4_8 _).mp h; dsimp only at this; omega)
    (fun _ => rfl) (fun _ _ => rfl)]
  dsimp only [dat4]
/-- At a point other than the first, accumulator window 9's staging buffer holds what the body left at the point before: its block
    is the same at every point and is written back at the last point only. -/
theorem before4_9_B (c : Dev nD) (t : Fin cfg4.N) (h0 : ¬t.val % 25 = 0) (d) :
    (dat4 V c).before 9 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 9 rfl t (by omega) (Bool.eq_false_iff.mpr fun h => by have := (flush4_9 _).mp h; dsimp only at this; omega)
    (fun _ => rfl) (fun _ _ => rfl)]
  dsimp only [dat4]

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t)
    ∗ owns (c : Thread nD τ) (ms4_9 t) fullShare ((dat4 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  have hN : t.val < 25 := lt_of_lt_of_eq t.isLt (show cfg4.N = 25 from N_4)
  by_cases h0 : t.val % 25 = 0
  · rw [outsAt4_A V c t h0]
    (try dsimp only)
    unfold out4_A_7 out4_A_8 out4_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun4_A c (grid4.coords t) _ _ _ _ _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t) (iblk4 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover4_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover4_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover4_A_9 c _ _ _ _ _ _ _ _ _ _ _ _ _ _ _ _ _ _ _ _ _ _ _ _ _ _ _ _ _)
  · rw [outsAt4_B V c t h0]
    simp only [before4_8_B V c t h0, before4_9_B V c t h0]
    (try dsimp only)
    unfold out4_B_7 out4_B_8 out4_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun4_B c (grid4.coords t) _ _ _ _ _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) (iblk4 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover4_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover4_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover4_B_9 c _ _ _ _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/-
  Region 5 of the idealized kernel program's @main (pallas_call 5), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The inputs' buffers hold their blocks -/

/-- Input window 0's current staging buffer holds its block at every point, fetched there or not (where it is not fetched its
    block index has not moved), for any proof data over the region's entry contents whose body leaves the block in place. -/
theorem heldIn5_0 {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (where it is not fetched its
    block index has not moved), for any proof data over the region's entry contents whose body leaves the block in place. -/
theorem heldIn5_1 {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (where it is not fetched its
    block index has not moved), for any proof data over the region's entry contents whose body leaves the block in place. -/
theorem heldIn5_2 {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (where it is not fetched its
    block index has not moved), for any proof data over the region's entry contents whose body leaves the block in place. -/
theorem heldIn5_3 {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not (where it is not fetched its
    block index has not moved), for any proof data over the region's entry contents whose body leaves the block in place. -/
theorem heldIn5_4 {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's one branch: is this the first grid point? -/

/-- The condition under which the body resets the running row: the grid coordinate compared with zero, as the body's scalar
    operations compute it. -/
abbrev atFirst5 (i : grid5.Coords) : Prop := (Scalar.cmpi .ne (Scalar.extui (Scalar.cmpi .eq (BitVec.ofNat 32 (i 0).val) 0#32)) 0#32) = 1#1
/-- It holds at the first point of the grid and at no other: decided point by point. -/
theorem atFirst5_iff : ∀ t : Fin cfg5.N, atFirst5 (grid5.coords t) ↔ t.val % 25 = 0 :=
  (by decide +kernel : ∀ t : Fin grid5.N, atFirst5 (grid5.coords t) ↔ t.val % 25 = 0)

/-! ## The staging memrefs the body is called with -/
abbrev stg5_0 (t : Fin cfg5.N) : Memref sig .tc .vmem S2000x256 .f32 := win5_0.stage (cfg5.slots t 0)
abbrev stgWhole5_0 (t : Fin cfg5.N) : (stg5_0 t).IsWhole := hstage5_0 ((cfg5.slots t 0).cast nbuf5_0)
abbrev stg5_1 (t : Fin cfg5.N) : Memref sig .tc .vmem S1x256 .f32 := win5_1.stage (cfg5.slots t 1)
abbrev stgWhole5_1 (t : Fin cfg5.N) : (stg5_1 t).IsWhole := hstage5_1 ((cfg5.slots t 1).cast nbuf5_1)
abbrev stg5_2 (t : Fin cfg5.N) : Memref sig .tc .vmem S1x256 .f32 := win5_2.stage (cfg5.slots t 2)
abbrev stgWhole5_2 (t : Fin cfg5.N) : (stg5_2 t).IsWhole := hstage5_2 ((cfg5.slots t 2).cast nbuf5_2)
abbrev stg5_3 (t : Fin cfg5.N) : Memref sig .tc .vmem S1x256 .f32 := win5_3.stage (cfg5.slots t 3)
abbrev stgWhole5_3 (t : Fin cfg5.N) : (stg5_3 t).IsWhole := hstage5_3 ((cfg5.slots t 3).cast nbuf5_3)
abbrev stg5_4 (t : Fin cfg5.N) : Memref sig .tc .vmem S1x256 .f32 := win5_4.stage (cfg5.slots t 4)
abbrev stgWhole5_4 (t : Fin cfg5.N) : (stg5_4 t).IsWhole := hstage5_4 ((cfg5.slots t 4).cast nbuf5_4)
abbrev stg5_5 (t : Fin cfg5.N) : Memref sig .tc .vmem S2000x256 .f32 := win5_5.stage (cfg5.slots t 5)
abbrev stgWhole5_5 (t : Fin cfg5.N) : (stg5_5 t).IsWhole := hstage5_5 ((cfg5.slots t 5).cast nbuf5_5)
abbrev stg5_6 (t : Fin cfg5.N) : Memref sig .tc .vmem S1x256 .f32 := win5_6.stage (cfg5.slots t 6)
abbrev stgWhole5_6 (t : Fin cfg5.N) : (stg5_6 t).IsWhole := hstage5_6 ((cfg5.slots t 6).cast nbuf5_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc5__norm_readout_kernel i arg1 harg1 arg2 harg2 arg3 harg3 arg4 harg4 arg5 harg5 arg6 harg6 arg7 harg7) K } := by
  refine ⟨?_, ?_, fun E K => ?run⟩
  case run =>
    simp only [cc5__norm_readout_kernel_eq_skeleton]; unfold cc5__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc5__norm_readout_kernel i arg1 harg1 arg2 harg2 arg3 harg3 arg4 harg4 arg5 harg5 arg6 harg6 arg7 harg7) K } := by
  refine ⟨?_, ?_, fun E K => ?run⟩
  case run =>
    simp only [cc5__norm_readout_kernel_eq_skeleton]; unfold cc5__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst5_5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) (y : S2000x256.Idx) :
    ∃ pc ∈ (runFirst5 c i arg1 harg1 arg2 harg2 arg3 harg3 arg4 harg4 arg5 harg5 arg6 harg6 arg7 harg7 hc u mean var gain shift).1, y ∈ pc.1.set :=
  View.cover_of_tiledL (runFirst5 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst5_6 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) (y : S1x256.Idx) :
    ∃ pc ∈ (runFirst5 c i arg1 harg1 arg2 harg2 arg3 harg3 arg4 harg4 arg5 harg5 arg6 harg6 arg7 harg7 hc u mean var gain shift).2.1, y ∈ pc.1.set :=
  View.cover_of_tiledL (runFirst5 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater5_5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater5 c i arg1 harg1 arg2 harg2 arg3 harg3 arg4 harg4 arg5 harg5 arg6 harg6 arg7 harg7 hc u mean var gain shift acc).1, y ∈ pc.1.set :=
  View.cover_of_tiledL (runLater5 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater5_6 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater5 c i arg1 harg1 arg2 harg2 arg3 harg3 arg4 harg4 arg5 harg5 arg6 harg6 arg7 harg7 hc u mean var gain shift acc).2.1, y ∈ pc.1.set :=
  View.cover_of_tiledL (runLater5 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) : Vec F S2000x256 .f32 :=
  View.canon (runFirst5 c i arg1 harg1 arg2 harg2 arg3 harg3 arg4 harg4 arg5 harg5 arg6 harg6 arg7 harg7 hc u mean var gain shift).1

/-- The running row the first point leaves. -/
def sumsFirst5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) : Vec F S1x256 .f32 :=
  View.canon (runFirst5 c i arg1 harg1 arg2 harg2 arg3 harg3 arg4 harg4 arg5 harg5 arg6 harg6 arg7 harg7 hc u mean var gain shift).2.1

/-- The normalized block a later point leaves. -/
def rowsLater5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater5 c i arg1 harg1 arg2 harg2 arg3 harg3 arg4 harg4 arg5 harg5 arg6 harg6 arg7 harg7 hc u mean var gain shift acc).1

/-- The running row a later point leaves, over the row `acc` it found. -/
def sumsLater5 (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater5 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt5 (c : Dev nD) (t : Fin cfg5.N) (h0 : t.val % 25 = 0) : Vec F S2000x256 .f32 :=
  rowsFirst5 c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) ((atFirst5_iff t).mpr h0) (iblk5 V c 0 t) (iblk5 V c 1 t) (iblk5 V c 2 t) (iblk5 V c 3 t) (iblk5 V c 4 t)

/-- The running row after point `t`, when `t` is the first point. -/
def sumsFirstAt5 (c : Dev nD) (t : Fin cfg5.N) (h0 : t.val % 25 = 0) : Vec F S1x256 .f32 :=
  sumsFirst5 c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) ((atFirst5_iff t).mpr h0) (iblk5 V c 0 t) (iblk5 V c 1 t) (iblk5 V c 2 t) (iblk5 V c 3 t) (iblk5 V c 4 t)

/-- The normalized block of point `t`, when `t` is a later point (the run is stated at the running row it found). -/
def rowsLaterAt5 (c : Dev nD) (t : Fin cfg5.N) (h0 : ¬t.val % 25 = 0) (acc : Vec F S1x256 .f32) : Vec F S2000x256 .f32 :=
  rowsLater5 c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) (fun h => h0 ((atFirst5_iff t).mp h)) (iblk5 V c 0 t) (iblk5 V c 1 t) (iblk5 V c 2 t) (iblk5 V c 3 t) (iblk5 V c 4 t) acc

/-- The running row after point `t`, when `t` is a later point that found the row `acc`. -/
def sumsLaterAt5 (c : Dev nD) (t : Fin cfg5.N) (h0 : ¬t.val % 25 = 0) (acc : Vec F S1x256 .f32) : Vec F S1x256 .f32 :=
  sumsLater5 c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) (fun h => h0 ((atFirst5_iff t).mp h)) (iblk5 V c 0 t) (iblk5 V c 1 t) (iblk5 V c 2 t) (iblk5 V c 3 t) (iblk5 V c 4 t) acc

/-! ## What the outputs hold after each point -/

/-- THE ACCUMULATION: the running row after the body at position `n`. At the first point the reset-and-add case's row; at a later
    point the add case's row over what this gives at `n - 1` (the row's buffer is not written back in between). -/
def sumsAt5 (c : Dev nD) : (n : ℕ) → n < cfg5.N → Vec F S1x256 .f32
  | 0, hn => sumsFirstAt5 V c ⟨0, hn⟩ (Nat.zero_mod _)
  | n + 1, hn =>
    if h0 : (n + 1) % 25 = 0 then sumsFirstAt5 V c ⟨n + 1, hn⟩ h0
    else sumsLaterAt5 V c ⟨n + 1, hn⟩ h0 (sumsAt5 c n (Nat.lt_of_succ_lt hn))

/-- The running row the body finds at point `t` when `t` is not the first: what the point before left. -/
abbrev sumsBefore5 (c : Dev nD) (t : Fin cfg5.N) : Vec F S1x256 .f32 :=
  sumsAt5 V c (t.val - 1) (Nat.lt_of_le_of_lt (Nat.sub_le _ _) t.isLt)

/-- The normalized block after the body at point `t`. -/
def rowsAt5 (c : Dev nD) (t : Fin cfg5.N) : Vec F S2000x256 .f32 :=
  if h0 : t.val % 25 = 0 then rowsFirstAt5 V c t h0 else rowsLaterAt5 V c t h0 (sumsBefore5 V c t)

/-- The running row at the first point. -/
theorem sumsAt5_first (c : Dev nD) (t : Fin cfg5.N) (h0 : t.val % 25 = 0) :
    sumsAt5 V c t.val t.isLt = sumsFirstAt5 V c t h0 := by
  obtain ⟨n, hn⟩ := t
  cases n with
  | zero => exact rfl
  | succ n => exact (dif_pos h0).trans rfl

/-- The running row at a later point: the add case over the row before. -/
theorem sumsAt5_later (c : Dev nD) (t : Fin cfg5.N) (h0 : ¬t.val % 25 = 0) :
    sumsAt5 V c t.val t.isLt = sumsLaterAt5 V c t h0 (sumsBefore5 V c t) := by
  obtain ⟨n, hn⟩ := t
  cases n with
  | zero => exact absurd (Nat.zero_mod _) h0
  | succ n => exact (dif_neg h0).trans rfl

/-- The normalized block at the first point. -/
theorem rowsAt5_first (c : Dev nD) (t : Fin cfg5.N) (h0 : t.val % 25 = 0) : rowsAt5 V c t = rowsFirstAt5 V c t h0 := dif_pos h0

/-- The normalized block at a later point. -/
theorem rowsAt5_later (c : Dev nD) (t : Fin cfg5.N) (h0 : ¬t.val % 25 = 0) :
    rowsAt5 V c t = rowsLaterAt5 V c t h0 (sumsBefore5 V c t) := dif_neg h0

/-! ## The pipeline's proof data -/

/-- The proof data of the region's pipeline on core `c`: the arrays as the region finds them; after the body at point `t` each
    input's buffer still at its block, the normalized block's at `rowsAt5`, the running row's at `sumsAt5`; the class's invariant
    (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => rowsAt5 V c t
    | ⟨6, _⟩ => sumsAt5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = rowsAt5 V c t := by dsimp only [dat5]
theorem after5_6 (c : Dev nD) (t : Fin cfg5.N) : (dat5 V c).after 6 t = sumsAt5 V c t.val t.isLt := by dsimp only [dat5]

/-- What the body finds in each input's buffer: its block. -/
theorem before5_0 (c : Dev nD) (t : Fin cfg5.N) (d) : (dat5 V c).before 0 t d = iblk5 V c 0 t :=
  heldIn5_0 V (dat5 V c) (A_eq5 V c 0) (after5_0 V c) t d
theorem before5_1 (c : Dev nD) (t : Fin cfg5.N) (d) : (dat5 V c).before 1 t d = iblk5 V c 1 t :=
  heldIn5_1 V (dat5 V c) (A_eq5 V c 1) (after5_1 V c) t d
theorem before5_2 (c : Dev nD) (t : Fin cfg5.N) (d) : (dat5 V c).before 2 t d = iblk5 V c 2 t :=
  heldIn5_2 V (dat5 V c) (A_eq5 V c 2) (after5_2 V c) t d
theorem before5_3 (c : Dev nD) (t : Fin cfg5.N) (d) : (dat5 V c).before 3 t d = iblk5 V c 3 t :=
  heldIn5_3 V (dat5 V c) (A_eq5 V c 3) (after5_3 V c) t d
theorem before5_4 (c : Dev nD) (t : Fin cfg5.N) (d) : (dat5 V c).before 4 t d = iblk5 V c 4 t :=
  heldIn5_4 V (dat5 V c) (A_eq5 V c 4) (after5_4 V c) t d

/-- At a later point the running row's buffer holds what the body left at the point before: the point is not the first, the row is
    written back at the last point only, the window is never idle and is uncut. -/
theorem before5_6_later (c : Dev nD) (t : Fin cfg5.N) (h0 : ¬t.val % 25 = 0) (d) :
    (dat5 V c).before 6 t d = sumsBefore5 V c t := by
  have hN : t.val < 25 := lt_of_lt_of_eq t.isLt (show cfg5.N = 25 from N_5)
  rw [Dat.before_out_kept _ 6 rfl t (by omega) (Bool.eq_false_iff.mpr fun h => by have := (flush5_6 _).mp h; dsimp only at this; omega)
    (fun _ => rfl) (fun _ _ => rfl)]
  dsimp only [dat5]

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  by_cases h0 : t.val % 25 = 0
  · rw [sumsAt5_first V c t h0, rowsAt5_first V c t h0]
    unfold sumsFirstAt5 rowsFirstAt5 sumsFirst5 rowsFirst5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst5 c (grid5.coords t) _ _ _ _ _ _ _ _ _ _ _ _ _ _ ((atFirst5_iff t).mpr h0) (iblk5 V c 0 t) (iblk5 V c 1 t) (iblk5 V c 2 t) (iblk5 V c 3 t) (iblk5 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst5_5 c _ _ _ _ _ _ _ _ _ _ _ _ _ _ _ _ _ _ _ _ _)
    unfold owns; iexists _; isplitr
    swap; · iexact H6
    ipureintro; exact View.read_writes_eq_canon _ _ _ (coverFirst5_6 c _ _ _ _ _ _ _ _ _ _ _ _ _ _ _ _ _ _ _ _ _)
  · rw [sumsAt5_later V c t h0, rowsAt5_later V c t h0]
    simp only [before5_6_later V c t h0]
    unfold sumsLaterAt5 rowsLaterAt5 sumsLater5 rowsLater5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater5 c (grid5.coords t) _ _ _ _ _ _ _ _ _ _ _ _ _ _ (fun h => h0 ((atFirst5_iff t).mp h)) (iblk5 V c 0 t) (iblk5 V c 1 t) (iblk5 V c 2 t) (iblk5 V c 3 t) (iblk5 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater5_5 c _ _ _ _ _ _ _ _ _ _ _ _ _ _ _ _ _ _ _ _ _ _)
    unfold owns; iexists _; isplitr
    swap; · iexact H6
    ipureintro; exact View.read_writes_eq_canon _ _ _ (coverLater5_6 c _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/-
  Region 6 of the idealized kernel program's @main (pallas_call 6), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's one branch: is this the first grid point? -/

/-- The condition of the body's only `scf.if` (the program id compared with 0), from the grid coordinates. -/
abbrev first6 (i : grid6.Coords) : Prop := (Scalar.cmpi .ne (Scalar.extui (Scalar.cmpi .eq (BitVec.ofNat 32 (i 0).val) 0#32)) 0#32) = 1#1
/-- It holds at the first point and at no other — decided over the grid. -/
theorem first6_iff : ∀ t : Fin cfg6.N, first6 (grid6.coords t) ↔ t.val = 0 :=
  (by decide +kernel : ∀ t : Fin grid6.N, first6 (grid6.coords t) ↔ t.val = 0)

/-- Each window's current staging memref at point `t`, as the pipeline passes it to the body, and its wholeness. -/
abbrev buf6_0 (t : Fin cfg6.N) : Memref sig .tc .vmem S2000x256 .f32 := win6_0.stage (cfg6.slots t 0)
abbrev whole6_0 (t : Fin cfg6.N) : (buf6_0 t).IsWhole := hstage6_0 ((cfg6.slots t 0).cast nbuf6_0)
abbrev buf6_1 (t : Fin cfg6.N) : Memref sig .tc .vmem S2000x256 .f32 := win6_1.stage (cfg6.slots t 1)
abbrev whole6_1 (t : Fin cfg6.N) : (buf6_1 t).IsWhole := hstage6_1 ((cfg6.slots t 1).cast nbuf6_1)
abbrev buf6_2 (t : Fin cfg6.N) : Memref sig .tc .vmem S256x256 .bf16 := win6_2.stage (cfg6.slots t 2)
abbrev whole6_2 (t : Fin cfg6.N) : (buf6_2 t).IsWhole := hstage6_2 ((cfg6.slots t 2).cast nbuf6_2)
abbrev buf6_3 (t : Fin cfg6.N) : Memref sig .tc .vmem S1x256 .f32 := win6_3.stage (cfg6.slots t 3)
abbrev whole6_3 (t : Fin cfg6.N) : (buf6_3 t).IsWhole := hstage6_3 ((cfg6.slots t 3).cast nbuf6_3)
abbrev buf6_4 (t : Fin cfg6.N) : Memref sig .tc .vmem S2000x256 .f32 := win6_4.stage (cfg6.slots t 4)
abbrev whole6_4 (t : Fin cfg6.N) : (buf6_4 t).IsWhole := hstage6_4 ((cfg6.slots t 4).cast nbuf6_4)
abbrev buf6_5 (t : Fin cfg6.N) : Memref sig .tc .vmem S1x256 .f32 := win6_5.stage (cfg6.slots t 5)
abbrev whole6_5 (t : Fin cfg6.N) : (buf6_5 t).IsWhole := hstage6_5 ((cfg6.slots t 5).cast nbuf6_5)
abbrev buf6_6 (t : Fin cfg6.N) : Memref sig .tc .vmem S1x256 .f32 := win6_6.stage (cfg6.slots t 6)
abbrev whole6_6 (t : Fin cfg6.N) : (buf6_6 t).IsWhole := hstage6_6 ((cfg6.slots t 6).cast nbuf6_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc6__matmul1_stats_kernel i arg1 harg1 arg2 harg2 arg3 harg3 arg4 harg4 arg5 harg5 arg6 harg6 arg7 harg7) K } := by
  refine ⟨?_, ?_, ?_, fun E K => ?run⟩
  case run =>
    simp only [cc6__matmul1_stats_kernel_eq_skeleton]; unfold cc6__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc6__matmul1_stats_kernel i arg1 harg1 arg2 harg2 arg3 harg3 arg4 harg4 arg5 harg5 arg6 harg6 arg7 harg7) K } := by
  refine ⟨?_, ?_, ?_, fun E K => ?run⟩
  case run =>
    simp only [cc6__matmul1_stats_kernel_eq_skeleton]; unfold cc6__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView6 : View sig .tc .vmem S2000x256 .f32 := (stage6_4 0).view
abbrev sumView6 : View sig .tc .vmem S1x256 .f32 := (stage6_5 0).view
abbrev sqView6 : View sig .tc .vmem S1x256 .f32 := (stage6_6 0).view

/-- At the first point each output's pieces tile its block (checked by evaluating the piece list), so they cover it. -/
theorem resetCover6_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) (y : S2000x256.Idx) :
    ∃ pc ∈ (resetRun6 c i arg1 harg1 arg2 harg2 arg3 harg3 arg4 harg4 arg5 harg5 arg6 harg6 arg7 harg7 hc0 x0 x1 x2 x3).1, y ∈ pc.1.set :=
  View.cover_of_tiledL (resetRun6 c i arg1 harg1 arg2 harg2 arg3 harg3 arg4 harg4 arg5 harg5 arg6 harg6 arg7 harg7 hc0 x0 x1 x2 x3).1 S2000x256.size (by sl_kernel_rfl) y
theorem resetCover6_5 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) (y : S1x256.Idx) :
    ∃ pc ∈ (resetRun6 c i arg1 harg1 arg2 harg2 arg3 harg3 arg4 harg4 arg5 harg5 arg6 harg6 arg7 harg7 hc0 x0 x1 x2 x3).2.1, y ∈ pc.1.set :=
  View.cover_of_tiledL (resetRun6 c i arg1 harg1 arg2 harg2 arg3 harg3 arg4 harg4 arg5 harg5 arg6 harg6 arg7 harg7 hc0 x0 x1 x2 x3).2.1 S1x256.size (by sl_kernel_rfl) y
theorem resetCover6_6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) (y : S1x256.Idx) :
    ∃ pc ∈ (resetRun6 c i arg1 harg1 arg2 harg2 arg3 harg3 arg4 harg4 arg5 harg5 arg6 harg6 arg7 harg7 hc0 x0 x1 x2 x3).2.2.1, y ∈ pc.1.set :=
  View.cover_of_tiledL (resetRun6 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut6_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) : Vec F S2000x256 .f32 :=
  uView6.read (Elt F) (uView6.writes (Elt F) uView6.junk (resetRun6 c i arg1 harg1 arg2 harg2 arg3 harg3 arg4 harg4 arg5 harg5 arg6 harg6 arg7 harg7 hc0 x0 x1 x2 x3).1)
/-- What the first point leaves in the column-sum accumulator. -/
def resetOut6_5 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) : Vec F S1x256 .f32 :=
  sumView6.read (Elt F) (sumView6.writes (Elt F) sumView6.junk (resetRun6 c i arg1 harg1 arg2 harg2 arg3 harg3 arg4 harg4 arg5 harg5 arg6 harg6 arg7 harg7 hc0 x0 x1 x2 x3).2.1)
/-- What the first point leaves in the sum-of-squares accumulator. -/
def resetOut6_6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) : Vec F S1x256 .f32 :=
  sqView6.read (Elt F) (sqView6.writes (Elt F) sqView6.junk (resetRun6 c i arg1 harg1 arg2 harg2 arg3 harg3 arg4 harg4 arg5 harg5 arg6 harg6 arg7 harg7 hc0 x0 x1 x2 x3).2.2.1)

/-- At a later point too each output's pieces cover its block. -/
theorem carryCover6_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun6 c i arg1 harg1 arg2 harg2 arg3 harg3 arg4 harg4 arg5 harg5 arg6 harg6 arg7 harg7 hc0 x0 x1 x2 x3 xo5 xo6).1, y ∈ pc.1.set :=
  View.cover_of_tiledL (carryRun6 c i arg1 harg1 arg2 harg2 arg3 harg3 arg4 harg4 arg5 harg5 arg6 harg6 arg7 harg7 hc0 x0 x1 x2 x3 xo5 xo6).1 S2000x256.size (by sl_kernel_rfl) y
theorem carryCover6_5 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun6 c i arg1 harg1 arg2 harg2 arg3 harg3 arg4 harg4 arg5 harg5 arg6 harg6 arg7 harg7 hc0 x0 x1 x2 x3 xo5 xo6).2.1, y ∈ pc.1.set :=
  View.cover_of_tiledL (carryRun6 c i arg1 harg1 arg2 harg2 arg3 harg3 arg4 harg4 arg5 harg5 arg6 harg6 arg7 harg7 hc0 x0 x1 x2 x3 xo5 xo6).2.1 S1x256.size (by sl_kernel_rfl) y
theorem carryCover6_6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun6 c i arg1 harg1 arg2 harg2 arg3 harg3 arg4 harg4 arg5 harg5 arg6 harg6 arg7 harg7 hc0 x0 x1 x2 x3 xo5 xo6).2.2.1, y ∈ pc.1.set :=
  View.cover_of_tiledL (carryRun6 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut6_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView6.read (Elt F) (uView6.writes (Elt F) uView6.junk (carryRun6 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut6_5 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView6.read (Elt F) (sumView6.writes (Elt F) sumView6.junk (carryRun6 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut6_6 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView6.read (Elt F) (sqView6.writes (Elt F) sqView6.junk (carryRun6 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left6 (c : Dev nD) : (n : ℕ) → n < cfg6.N → Vec F S2000x256 .f32 × Vec F S1x256 .f32 × Vec F S1x256 .f32
  | 0, hn =>
    (resetOut6_4 c (grid6.coords ⟨0, hn⟩) (buf6_0 ⟨0, hn⟩) (whole6_0 ⟨0, hn⟩) (buf6_1 ⟨0, hn⟩) (whole6_1 ⟨0, hn⟩) (buf6_2 ⟨0, hn⟩) (whole6_2 ⟨0, hn⟩) (buf6_3 ⟨0, hn⟩) (whole6_3 ⟨0, hn⟩) (buf6_4 ⟨0, hn⟩) (whole6_4 ⟨0, hn⟩) (buf6_5 ⟨0, hn⟩) (whole6_5 ⟨0, hn⟩) (buf6_6 ⟨0, hn⟩) (whole6_6 ⟨0, hn⟩) ((first6_iff ⟨0, hn⟩).mpr rfl) (iblk6 V c 0 ⟨0, hn⟩) (iblk6 V c 1 ⟨0, hn⟩) (iblk6 V c 2 ⟨0, hn⟩) (iblk6 V c 3 ⟨0, hn⟩),
     resetOut6_5 c (grid6.coords ⟨0, hn⟩) (buf6_0 ⟨0, hn⟩) (whole6_0 ⟨0, hn⟩) (buf6_1 ⟨0, hn⟩) (whole6_1 ⟨0, hn⟩) (buf6_2 ⟨0, hn⟩) (whole6_2 ⟨0, hn⟩) (buf6_3 ⟨0, hn⟩) (whole6_3 ⟨0, hn⟩) (buf6_4 ⟨0, hn⟩) (whole6_4 ⟨0, hn⟩) (buf6_5 ⟨0, hn⟩) (whole6_5 ⟨0, hn⟩) (buf6_6 ⟨0, hn⟩) (whole6_6 ⟨0, hn⟩) ((first6_iff ⟨0, hn⟩).mpr rfl) (iblk6 V c 0 ⟨0, hn⟩) (iblk6 V c 1 ⟨0, hn⟩) (iblk6 V c 2 ⟨0, hn⟩) (iblk6 V c 3 ⟨0, hn⟩),
     resetOut6_6 c (grid6.coords ⟨0, hn⟩) (buf6_0 ⟨0, hn⟩) (whole6_0 ⟨0, hn⟩) (buf6_1 ⟨0, hn⟩) (whole6_1 ⟨0, hn⟩) (buf6_2 ⟨0, hn⟩) (whole6_2 ⟨0, hn⟩) (buf6_3 ⟨0, hn⟩) (whole6_3 ⟨0, hn⟩) (buf6_4 ⟨0, hn⟩) (whole6_4 ⟨0, hn⟩) (buf6_5 ⟨0, hn⟩) (whole6_5 ⟨0, hn⟩) (buf6_6 ⟨0, hn⟩) (whole6_6 ⟨0, hn⟩) ((first6_iff ⟨0, hn⟩).mpr rfl) (iblk6 V c 0 ⟨0, hn⟩) (iblk6 V c 1 ⟨0, hn⟩) (iblk6 V c 2 ⟨0, hn⟩) (iblk6 V c 3 ⟨0, hn⟩))
  | n + 1, hn =>
    (carryOut6_4 c (grid6.coords ⟨n + 1, hn⟩) (buf6_0 ⟨n + 1, hn⟩) (whole6_0 ⟨n + 1, hn⟩) (buf6_1 ⟨n + 1, hn⟩) (whole6_1 ⟨n + 1, hn⟩) (buf6_2 ⟨n + 1, hn⟩) (whole6_2 ⟨n + 1, hn⟩) (buf6_3 ⟨n + 1, hn⟩) (whole6_3 ⟨n + 1, hn⟩) (buf6_4 ⟨n + 1, hn⟩) (whole6_4 ⟨n + 1, hn⟩) (buf6_5 ⟨n + 1, hn⟩) (whole6_5 ⟨n + 1, hn⟩) (buf6_6 ⟨n + 1, hn⟩) (whole6_6 ⟨n + 1, hn⟩) (fun h => Nat.succ_ne_zero n ((first6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (left6 c n (Nat.lt_of_succ_lt hn)).2.1 (left6 c n (Nat.lt_of_succ_lt hn)).2.2,
     carryOut6_5 c (grid6.coords ⟨n + 1, hn⟩) (buf6_0 ⟨n + 1, hn⟩) (whole6_0 ⟨n + 1, hn⟩) (buf6_1 ⟨n + 1, hn⟩) (whole6_1 ⟨n + 1, hn⟩) (buf6_2 ⟨n + 1, hn⟩) (whole6_2 ⟨n + 1, hn⟩) (buf6_3 ⟨n + 1, hn⟩) (whole6_3 ⟨n + 1, hn⟩) (buf6_4 ⟨n + 1, hn⟩) (whole6_4 ⟨n + 1, hn⟩) (buf6_5 ⟨n + 1, hn⟩) (whole6_5 ⟨n + 1, hn⟩) (buf6_6 ⟨n + 1, hn⟩) (whole6_6 ⟨n + 1, hn⟩) (fun h => Nat.succ_ne_zero n ((first6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (left6 c n (Nat.lt_of_succ_lt hn)).2.1 (left6 c n (Nat.lt_of_succ_lt hn)).2.2,
     carryOut6_6 c (grid6.coords ⟨n + 1, hn⟩) (buf6_0 ⟨n + 1, hn⟩) (whole6_0 ⟨n + 1, hn⟩) (buf6_1 ⟨n + 1, hn⟩) (whole6_1 ⟨n + 1, hn⟩) (buf6_2 ⟨n + 1, hn⟩) (whole6_2 ⟨n + 1, hn⟩) (buf6_3 ⟨n + 1, hn⟩) (whole6_3 ⟨n + 1, hn⟩) (buf6_4 ⟨n + 1, hn⟩) (whole6_4 ⟨n + 1, hn⟩) (buf6_5 ⟨n + 1, hn⟩) (whole6_5 ⟨n + 1, hn⟩) (buf6_6 ⟨n + 1, hn⟩) (whole6_6 ⟨n + 1, hn⟩) (fun h => Nat.succ_ne_zero n ((first6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (left6 c n (Nat.lt_of_succ_lt hn)).2.1 (left6 c n (Nat.lt_of_succ_lt hn)).2.2)

/-- `left6` at the first point: the reset case's contents. -/
theorem left6_first (c : Dev nD) (t : Fin cfg6.N) (h0 : t.val = 0) :
    left6 V c t.val t.isLt =
    (resetOut6_4 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) ((first6_iff t).mpr h0) (iblk6 V c 0 t) (iblk6 V c 1 t) (iblk6 V c 2 t) (iblk6 V c 3 t),
     resetOut6_5 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) ((first6_iff t).mpr h0) (iblk6 V c 0 t) (iblk6 V c 1 t) (iblk6 V c 2 t) (iblk6 V c 3 t),
     resetOut6_6 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) ((first6_iff t).mpr h0) (iblk6 V c 0 t) (iblk6 V c 1 t) (iblk6 V c 2 t) (iblk6 V c 3 t)) := by
  obtain ⟨n, hn⟩ := t
  cases n with
  | zero => exact rfl
  | succ n => exact absurd h0 (Nat.succ_ne_zero n)

/-- `left6` at a later point: the carrying case's contents, over the accumulator rows the point before left. -/
theorem left6_later (c : Dev nD) (t : Fin cfg6.N) (h0 : ¬t.val = 0) :
    left6 V c t.val t.isLt =
    (carryOut6_4 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) (fun h => h0 ((first6_iff t).mp h)) (iblk6 V c 0 t) (iblk6 V c 1 t) (iblk6 V c 2 t) (iblk6 V c 3 t) (left6 V c (t.val - 1) (Nat.lt_of_le_of_lt (Nat.sub_le _ _) t.isLt)).2.1 (left6 V c (t.val - 1) (Nat.lt_of_le_of_lt (Nat.sub_le _ _) t.isLt)).2.2,
     carryOut6_5 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) (fun h => h0 ((first6_iff t).mp h)) (iblk6 V c 0 t) (iblk6 V c 1 t) (iblk6 V c 2 t) (iblk6 V c 3 t) (left6 V c (t.val - 1) (Nat.lt_of_le_of_lt (Nat.sub_le _ _) t.isLt)).2.1 (left6 V c (t.val - 1) (Nat.lt_of_le_of_lt (Nat.sub_le _ _) t.isLt)).2.2,
     carryOut6_6 c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) (fun h => h0 ((first6_iff t).mp h)) (iblk6 V c 0 t) (iblk6 V c 1 t) (iblk6 V c 2 t) (iblk6 V c 3 t) (left6 V c (t.val - 1) (Nat.lt_of_le_of_lt (Nat.sub_le _ _) t.isLt)).2.1 (left6 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left6`; the invariant the scoped rest and the generator register; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (left6 V c t.val t.isLt).1
    | ⟨5, _⟩ => (left6 V c t.val t.isLt).2.1
    | ⟨6, _⟩ => (left6 V c t.val t.isLt).2.2
  Φ _ := Pipeline.ΦA spec6 c
  q _ := fullShare
  owed _ := 0

theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (left6 V c t.val t.isLt).1 := by dsimp only [dat6]
theorem after6_5 (c : Dev nD) (t : Fin cfg6.N) : (dat6 V c).after 5 t = (left6 V c t.val t.isLt).2.1 := by dsimp only [dat6]
theorem after6_6 (c : Dev nD) (t : Fin cfg6.N) : (dat6 V c).after 6 t = (left6 V c t.val t.isLt).2.2 := by dsimp only [dat6]

/-- Each input's current staging buffer holds its block at every point, fetched there or not: h and agg are fetched at every
    point; the weight and the bias at the first only, and their block index never moves. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
      (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
      (fun t => by rw [after6_3]; unfold Dat.blockOf iblk6; rw [A_eq6]; try rfl) t d).trans
    (by unfold Dat.fetched Dat.blockOf iblk6; rw [A_eq6]; try rfl)

/-- At a later point each accumulator's staging buffer holds what the body left at the point before: the buffer is written back
    after the last point only, the window is live and uncut. -/
theorem before6_5_later (c : Dev nD) (t : Fin cfg6.N) (h0 : ¬t.val = 0) (d) :
    (dat6 V c).before 5 t d = (left6 V c (t.val - 1) (Nat.lt_of_le_of_lt (Nat.sub_le _ _) t.isLt)).2.1 := by
  have hN : t.val < 25 := lt_of_lt_of_eq t.isLt (show cfg6.N = 25 from N_6)
  rw [Dat.before_out_kept _ 5 rfl t h0 (Bool.eq_false_iff.mpr fun h => by have := (flush6_5 _).mp h; dsimp only at this; omega)
    (fun _ => rfl) (fun _ _ => rfl)]
  dsimp only [dat6]
theorem before6_6_later (c : Dev nD) (t : Fin cfg6.N) (h0 : ¬t.val = 0) (d) :
    (dat6 V c).before 6 t d = (left6 V c (t.val - 1) (Nat.lt_of_le_of_lt (Nat.sub_le _ _) t.isLt)).2.2 := by
  have hN : t.val < 25 := lt_of_lt_of_eq t.isLt (show cfg6.N = 25 from N_6)
  rw [Dat.before_out_kept _ 6 rfl t h0 (Bool.eq_false_iff.mpr fun h => by have := (flush6_6 _).mp h; dsimp only at this; omega)
    (fun _ => rfl) (fun _ _ => rfl)]
  dsimp only [dat6]

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (buf6_0 t) fullShare ((dat6 V c).before 0 t d))
    ∗ (∃ d, owns (c : Thread nD τ) (buf6_1 t) fullShare ((dat6 V c).before 1 t d))
    ∗ (∃ d, owns (c : Thread nD τ) (buf6_2 t) fullShare ((dat6 V c).before 2 t d))
    ∗ (∃ d, owns (c : Thread nD τ) (buf6_3 t) fullShare ((dat6 V c).before 3 t d))
    ∗ (∃ d, owns (c : Thread nD τ) (buf6_4 t) fullShare ((dat6 V c).before 4 t d))
    ∗ (∃ d, owns (c : Thread nD τ) (buf6_5 t) fullShare ((dat6 V c).before 5 t d))
    ∗ (∃ d, owns (c : Thread nD τ) (buf6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (buf6_0 t) fullShare ((dat6 V c).after 0 t)
    ∗ owns (c : Thread nD τ) (buf6_1 t) fullShare ((dat6 V c).after 1 t)
    ∗ owns (c : Thread nD τ) (buf6_2 t) fullShare ((dat6 V c).after 2 t)
    ∗ owns (c : Thread nD τ) (buf6_3 t) fullShare ((dat6 V c).after 3 t)
    ∗ owns (c : Thread nD τ) (buf6_4 t) fullShare ((dat6 V c).after 4 t)
    ∗ owns (c : Thread nD τ) (buf6_5 t) fullShare ((dat6 V c).after 5 t)
    ∗ owns (c : Thread nD τ) (buf6_6 t) fullShare ((dat6 V c).after 6 t))

set_option maxHeartbeats 1600000 in
/-- The body at any point. The inputs' memrefs hold their blocks; `first6_iff` says which case the point is in; at a later
    point the accumulators' memrefs hold the rows the point before left; so that case's run applies, and each output's pieces,
    covering its block, read back as the contents `left6` names. The invariant and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  by_cases h0 : t.val = 0
  · rw [left6_first V c t h0]
    dsimp only
    unfold resetOut6_4 resetOut6_5 resetOut6_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun6 c (grid6.coords t) _ _ _ _ _ _ _ _ _ _ _ _ _ _ ((first6_iff t).mpr h0) (iblk6 V c 0 t) (iblk6 V c 1 t) (iblk6 V c 2 t) (iblk6 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover6_4 c _ _ _ _ _ _ _ _ _ _ _ _ _ _ _ _ _ _ _ _)
    isplitl [H5]
    · unfold owns; iexists _; isplitr
      swap; · iexact H5
      ipureintro; exact View.read_writes_of_cover _ _ _ _ _ (resetCover6_5 c _ _ _ _ _ _ _ _ _ _ _ _ _ _ _ _ _ _ _ _)
    unfold owns; iexists _; isplitr
    swap; · iexact H6
    ipureintro; exact View.read_writes_of_cover _ _ _ _ _ (resetCover6_6 c _ _ _ _ _ _ _ _ _ _ _ _ _ _ _ _ _ _ _ _)
  · rw [left6_later V c t h0]
    dsimp only
    simp only [before6_5_later V c t h0, before6_6_later V c t h0]
    unfold carryOut6_4 carryOut6_5 carryOut6_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun6 c (grid6.coords t) _ _ _ _ _ _ _ _ _ _ _ _ _ _ (fun h => h0 ((first6_iff t).mp h)) (iblk6 V c 0 t) (iblk6 V c 1 t) (iblk6 V c 2 t) (iblk6 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover6_4 c _ _ _ _ _ _ _ _ _ _ _ _ _ _ _ _ _ _ _ _ _ _)
    isplitl [H5]
    · unfold owns; iexists _; isplitr
      swap; · iexact H5
      ipureintro; exact View.read_writes_of_cover _ _ _ _ _ (carryCover6_5 c _ _ _ _ _ _ _ _ _ _ _ _ _ _ _ _ _ _ _ _ _ _)
    unfold owns; iexists _; isplitr
    swap; · iexact H6
    ipureintro; exact View.read_writes_of_cover _ _ _ _ _ (carryCover6_6 c _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/-
  Region 7 of the idealized kernel program's @main (pallas_call 7), at ANY entry contents `V` of the TensorCore's buffers and at any
  float instance: the proof data of its pipeline (what each window's staging buffer holds after the body at each grid point) and the
  body obligation.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The inputs' staging buffers -/

/-- Input window 0's current staging buffer holds its block at every point, fetched there or not (unfetched, the block index has
    not moved), for ANY proof data whose array is the entry contents' (`hA`) and whose body leaves the block in place (`hafter`). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (unfetched, the block index has
    not moved), for ANY proof data whose array is the entry contents' (`hA`) and whose body leaves the block in place (`hafter`). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (unfetched, the block index has
    not moved), for ANY proof data whose array is the entry contents' (`hA`) and whose body leaves the block in place (`hafter`). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not (unfetched, the block index has
    not moved), for ANY proof data whose array is the entry contents' (`hA`) and whose body leaves the block in place (`hafter`). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not (unfetched, the block index has
    not moved), for ANY proof data whose array is the entry contents' (`hA`) and whose body leaves the block in place (`hafter`). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not (unfetched, the block index has
    not moved), for ANY proof data whose array is the entry contents' (`hA`) and whose body leaves the block in place (`hafter`). -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not (unfetched, the block index has
    not moved), for ANY proof data whose array is the entry contents' (`hA`) and whose body leaves the block in place (`hafter`). -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch condition -/

/-- The condition of the body's one `scf.if` (is this the first point?), from the grid coordinates. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val % 25 = 0 :=
  (by decide +kernel : ∀ t : Fin grid7.N, cond7_0 (grid7.coords t) ↔ t.val % 25 = 0)

/-! ## The staging memrefs at a point -/

/-- One staging buffer of each output window, through which its contents are stated (the choice does not matter: the stores cover). -/
abbrev VO7_7 : View sig .tc .vmem S2000x256 .f32 := (stage7_7 0).view
abbrev VO7_8 : View sig .tc .vmem S1x256 .f32 := (stage7_8 0).view
abbrev VO7_9 : View sig .tc .vmem S1x256 .f32 := (stage7_9 0).view
/-- Each window's current staging memref at point `t`, spelled as the pipeline passes it to the body, and its wholeness. -/
abbrev ms7_0 (t : Fin cfg7.N) : Memref sig .tc .vmem S2000x256 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x256 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x256 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x256 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S256x256 .bf16 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x256 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S2000x256 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1x256 .f32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S1x256 .f32 := win7_9.stage (cfg7.slots t 9)
abbrev hs7_9 (t : Fin cfg7.N) : (ms7_9 t).IsWhole := hstage7_9 ((cfg7.slots t 9).cast nbuf7_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun7_A (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc7__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc7__norm_matmul2_stats_kernel_eq_skeleton]; unfold cc7__norm_matmul2_stats_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun7_B (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc7__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc7__norm_matmul2_stats_kernel_eq_skeleton]; unfold cc7__norm_matmul2_stats_kernel_skel
    simp only [k7_part1_eq_skeleton]; unfold k7_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover7_A_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun7_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun7_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out7_A_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO7_7.read (Elt F) (VO7_7.writes (Elt F) VO7_7.junk (kernelRun7_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover7_A_8 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun7_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun7_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out7_A_8 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO7_8.read (Elt F) (VO7_8.writes (Elt F) VO7_8.junk (kernelRun7_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover7_A_9 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun7_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun7_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out7_A_9 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO7_9.read (Elt F) (VO7_9.writes (Elt F) VO7_9.junk (kernelRun7_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover7_B_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun7_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun7_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out7_B_7 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO7_7.read (Elt F) (VO7_7.writes (Elt F) VO7_7.junk (kernelRun7_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover7_B_8 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out7_B_8 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO7_8.read (Elt F) (VO7_8.writes (Elt F) VO7_8.junk (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover7_B_9 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out7_B_9 (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO7_9.read (Elt F) (VO7_9.writes (Elt F) VO7_9.junk (kernelRun7_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt7 (c : Dev nD) : (n : ℕ) → n < cfg7.N → Vec F S2000x256 .f32 × Vec F S1x256 .f32 × Vec F S1x256 .f32
  | 0, hn => (out7_A_7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) (ms7_8 ⟨0, hn⟩) (hs7_8 ⟨0, hn⟩) (ms7_9 ⟨0, hn⟩) (hs7_9 ⟨0, hn⟩) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (iblk7 V c 6 ⟨0, hn⟩),
        out7_A_8 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) (ms7_8 ⟨0, hn⟩) (hs7_8 ⟨0, hn⟩) (ms7_9 ⟨0, hn⟩) (hs7_9 ⟨0, hn⟩) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (iblk7 V c 6 ⟨0, hn⟩),
        out7_A_9 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) (ms7_8 ⟨0, hn⟩) (hs7_8 ⟨0, hn⟩) (ms7_9 ⟨0, hn⟩) (hs7_9 ⟨0, hn⟩) ((hcond7_0 ⟨0, hn⟩).mpr (Nat.zero_mod _)) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (iblk7 V c 6 ⟨0, hn⟩))
  | n + 1, hn =>
    if h0 : (n + 1) % 25 = 0 then
      (out7_A_7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) ((hcond7_0 ⟨n + 1, hn⟩).mpr h0) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩),
        out7_A_8 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) ((hcond7_0 ⟨n + 1, hn⟩).mpr h0) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩),
        out7_A_9 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) ((hcond7_0 ⟨n + 1, hn⟩).mpr h0) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩))
    else
      (out7_B_7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2.1 (outsAt7 c n (Nat.lt_of_succ_lt hn)).2.2,
        out7_B_8 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2.1 (outsAt7 c n (Nat.lt_of_succ_lt hn)).2.2,
        out7_B_9 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2.1 (outsAt7 c n (Nat.lt_of_succ_lt hn)).2.2)

/-- `outsAt7` at the first point: the resetting case's contents. -/
theorem outsAt7_A (c : Dev nD) (t : Fin cfg7.N) (h0 : t.val % 25 = 0) :
    outsAt7 V c t.val t.isLt = (out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t),
        out7_A_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t),
        out7_A_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t)) := by
  obtain ⟨n, hn⟩ := t
  cases n with
  | zero => exact rfl
  | succ n => exact (dif_pos h0).trans rfl

/-- `outsAt7` at any other point: the accumulating case's contents, over what the point before left. -/
theorem outsAt7_B (c : Dev nD) (t : Fin cfg7.N) (h0 : ¬t.val % 25 = 0) :
    outsAt7 V c t.val t.isLt = (out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2,
        out7_B_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2,
        out7_B_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt7`; the invariant the scoped rest and the generator register, untouched;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => (outsAt7 V c t.val t.isLt).1
    | ⟨8, _⟩ => (outsAt7 V c t.val t.isLt).2.1
    | ⟨9, _⟩ => (outsAt7 V c t.val t.isLt).2.2
  Φ _ := Pipeline.ΦA spec7 c
  q _ := fullShare
  owed _ := 0

/-- The proof data's arrays are the region-entry contents (the definition projected, so that `V` is never unfolded). -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = (outsAt7 V c t.val t.isLt).1 := by dsimp only [dat7]
theorem after7_8 (c : Dev nD) (t : Fin cfg7.N) : (dat7 V c).after 8 t = (outsAt7 V c t.val t.isLt).2.1 := by dsimp only [dat7]
theorem after7_9 (c : Dev nD) (t : Fin cfg7.N) : (dat7 V c).after 9 t = (outsAt7 V c t.val t.isLt).2.2 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
/-- At a point other than the first, accumulator window 8's staging buffer holds what the body left at the point before: its block
    is the same at every point and is written back at the last point only. -/
theorem before7_8_B (c : Dev nD) (t : Fin cfg7.N) (h0 : ¬t.val % 25 = 0) (d) :
    (dat7 V c).before 8 t d = (outsAt7 V c (t.val - 1) (Nat.lt_of_le_of_lt (Nat.sub_le _ _) t.isLt)).2.1 := by
  have hN : t.val < 25 := lt_of_lt_of_eq t.isLt (show cfg7.N = 25 from N_7)
  rw [Dat.before_out_kept _ 8 rfl t (by omega) (Bool.eq_false_iff.mpr fun h => by have := (flush7_8 _).mp h; dsimp only at this; omega)
    (fun _ => rfl) (fun _ _ => rfl)]
  dsimp only [dat7]
/-- At a point other than the first, accumulator window 9's staging buffer holds what the body left at the point before: its block
    is the same at every point and is written back at the last point only. -/
theorem before7_9_B (c : Dev nD) (t : Fin cfg7.N) (h0 : ¬t.val % 25 = 0) (d) :
    (dat7 V c).before 9 t d = (outsAt7 V c (t.val - 1) (Nat.lt_of_le_of_lt (Nat.sub_le _ _) t.isLt)).2.2 := by
  have hN : t.val < 25 := lt_of_lt_of_eq t.isLt (show cfg7.N = 25 from N_7)
  rw [Dat.before_out_kept _ 9 rfl t (by omega) (Bool.eq_false_iff.mpr fun h => by have := (flush7_9 _).mp h; dsimp only at this; omega)
    (fun _ => rfl) (fun _ _ => rfl)]
  dsimp only [dat7]

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t)
    ∗ owns (c : Thread nD τ) (ms7_8 t) fullShare ((dat7 V c).after 8 t)
    ∗ owns (c : Thread nD τ) (ms7_9 t) fullShare ((dat7 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  have hN : t.val < 25 := lt_of_lt_of_eq t.isLt (show cfg7.N = 25 from N_7)
  by_cases h0 : t.val % 25 = 0
  · rw [outsAt7_A V c t h0]
    (try dsimp only)
    unfold out7_A_7 out7_A_8 out7_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun7_A c (grid7.coords t) _ _ _ _ _ _ _ _ _ _ _ _ _ _ _ _ _ _ _ _ ((hcond7_0 t).mpr h0) (iblk7 V c 0 t) (iblk7 V c 1 t) (iblk7 V c 2 t) (iblk7 V c 3 t) (iblk7 V c 4 t) (iblk7 V c 5 t) (iblk7 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover7_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover7_A_9 c _ _ _ _ _ _ _ _ _ _ _ _ _ _ _ _ _ _ _ _ _ _ _ _ _ _ _ _ _)
  · rw [outsAt7_B V c t h0]
    simp only [before7_8_B V c t h0, before7_9_B V c t h0]
    (try dsimp only)
    unfold out7_B_7 out7_B_8 out7_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun7_B c (grid7.coords t) _ _ _ _ _ _ _ _ _ _ _ _ _ _ _ _ _ _ _ _ (fun h => h0 ((hcond7_0 t).mp h)) (iblk7 V c 0 t) (iblk7 V c 1 t) (iblk7 V c 2 t) (iblk7 V c 3 t) (iblk7 V c 4 t) (iblk7 V c 5 t) (iblk7 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover7_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover7_B_9 c _ _ _ _ _ _ _ _ _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
/-
  Region 8 of the idealized kernel program's @main (pallas_call 8), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The inputs' buffers hold their blocks -/

/-- Input window 0's current staging buffer holds its block at every point, fetched there or not (where it is not fetched its
    block index has not moved), for any proof data over the region's entry contents whose body leaves the block in place. -/
theorem heldIn8_0 {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not (where it is not fetched its
    block index has not moved), for any proof data over the region's entry contents whose body leaves the block in place. -/
theorem heldIn8_1 {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not (where it is not fetched its
    block index has not moved), for any proof data over the region's entry contents whose body leaves the block in place. -/
theorem heldIn8_2 {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not (where it is not fetched its
    block index has not moved), for any proof data over the region's entry contents whose body leaves the block in place. -/
theorem heldIn8_3 {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not (where it is not fetched its
    block index has not moved), for any proof data over the region's entry contents whose body leaves the block in place. -/
theorem heldIn8_4 {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's one branch: is this the first grid point? -/

/-- The condition under which the body resets the running row: the grid coordinate compared with zero, as the body's scalar
    operations compute it. -/
abbrev atFirst8 (i : grid8.Coords) : Prop := (Scalar.cmpi .ne (Scalar.extui (Scalar.cmpi .eq (BitVec.ofNat 32 (i 0).val) 0#32)) 0#32) = 1#1
/-- It holds at the first point of the grid and at no other: decided point by point. -/
theorem atFirst8_iff : ∀ t : Fin cfg8.N, atFirst8 (grid8.coords t) ↔ t.val % 25 = 0 :=
  (by decide +kernel : ∀ t : Fin grid8.N, atFirst8 (grid8.coords t) ↔ t.val % 25 = 0)

/-! ## The staging memrefs the body is called with -/
abbrev stg8_0 (t : Fin cfg8.N) : Memref sig .tc .vmem S2000x256 .f32 := win8_0.stage (cfg8.slots t 0)
abbrev stgWhole8_0 (t : Fin cfg8.N) : (stg8_0 t).IsWhole := hstage8_0 ((cfg8.slots t 0).cast nbuf8_0)
abbrev stg8_1 (t : Fin cfg8.N) : Memref sig .tc .vmem S1x256 .f32 := win8_1.stage (cfg8.slots t 1)
abbrev stgWhole8_1 (t : Fin cfg8.N) : (stg8_1 t).IsWhole := hstage8_1 ((cfg8.slots t 1).cast nbuf8_1)
abbrev stg8_2 (t : Fin cfg8.N) : Memref sig .tc .vmem S1x256 .f32 := win8_2.stage (cfg8.slots t 2)
abbrev stgWhole8_2 (t : Fin cfg8.N) : (stg8_2 t).IsWhole := hstage8_2 ((cfg8.slots t 2).cast nbuf8_2)
abbrev stg8_3 (t : Fin cfg8.N) : Memref sig .tc .vmem S1x256 .f32 := win8_3.stage (cfg8.slots t 3)
abbrev stgWhole8_3 (t : Fin cfg8.N) : (stg8_3 t).IsWhole := hstage8_3 ((cfg8.slots t 3).cast nbuf8_3)
abbrev stg8_4 (t : Fin cfg8.N) : Memref sig .tc .vmem S1x256 .f32 := win8_4.stage (cfg8.slots t 4)
abbrev stgWhole8_4 (t : Fin cfg8.N) : (stg8_4 t).IsWhole := hstage8_4 ((cfg8.slots t 4).cast nbuf8_4)
abbrev stg8_5 (t : Fin cfg8.N) : Memref sig .tc .vmem S2000x256 .f32 := win8_5.stage (cfg8.slots t 5)
abbrev stgWhole8_5 (t : Fin cfg8.N) : (stg8_5 t).IsWhole := hstage8_5 ((cfg8.slots t 5).cast nbuf8_5)
abbrev stg8_6 (t : Fin cfg8.N) : Memref sig .tc .vmem S1x256 .f32 := win8_6.stage (cfg8.slots t 6)
abbrev stgWhole8_6 (t : Fin cfg8.N) : (stg8_6 t).IsWhole := hstage8_6 ((cfg8.slots t 6).cast nbuf8_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc8__norm_readout_kernel i arg1 harg1 arg2 harg2 arg3 harg3 arg4 harg4 arg5 harg5 arg6 harg6 arg7 harg7) K } := by
  refine ⟨?_, ?_, fun E K => ?run⟩
  case run =>
    simp only [cc8__norm_readout_kernel_eq_skeleton]; unfold cc8__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc8__norm_readout_kernel i arg1 harg1 arg2 harg2 arg3 harg3 arg4 harg4 arg5 harg5 arg6 harg6 arg7 harg7) K } := by
  refine ⟨?_, ?_, fun E K => ?run⟩
  case run =>
    simp only [cc8__norm_readout_kernel_eq_skeleton]; unfold cc8__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst8_5 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) (y : S2000x256.Idx) :
    ∃ pc ∈ (runFirst8 c i arg1 harg1 arg2 harg2 arg3 harg3 arg4 harg4 arg5 harg5 arg6 harg6 arg7 harg7 hc u mean var gain shift).1, y ∈ pc.1.set :=
  View.cover_of_tiledL (runFirst8 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst8_6 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) (y : S1x256.Idx) :
    ∃ pc ∈ (runFirst8 c i arg1 harg1 arg2 harg2 arg3 harg3 arg4 harg4 arg5 harg5 arg6 harg6 arg7 harg7 hc u mean var gain shift).2.1, y ∈ pc.1.set :=
  View.cover_of_tiledL (runFirst8 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater8_5 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater8 c i arg1 harg1 arg2 harg2 arg3 harg3 arg4 harg4 arg5 harg5 arg6 harg6 arg7 harg7 hc u mean var gain shift acc).1, y ∈ pc.1.set :=
  View.cover_of_tiledL (runLater8 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater8_6 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater8 c i arg1 harg1 arg2 harg2 arg3 harg3 arg4 harg4 arg5 harg5 arg6 harg6 arg7 harg7 hc u mean var gain shift acc).2.1, y ∈ pc.1.set :=
  View.cover_of_tiledL (runLater8 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) : Vec F S2000x256 .f32 :=
  View.canon (runFirst8 c i arg1 harg1 arg2 harg2 arg3 harg3 arg4 harg4 arg5 harg5 arg6 harg6 arg7 harg7 hc u mean var gain shift).1

/-- The running row the first point leaves. -/
def sumsFirst8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) : Vec F S1x256 .f32 :=
  View.canon (runFirst8 c i arg1 harg1 arg2 harg2 arg3 harg3 arg4 harg4 arg5 harg5 arg6 harg6 arg7 harg7 hc u mean var gain shift).2.1

/-- The normalized block a later point leaves. -/
def rowsLater8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater8 c i arg1 harg1 arg2 harg2 arg3 harg3 arg4 harg4 arg5 harg5 arg6 harg6 arg7 harg7 hc u mean var gain shift acc).1

/-- The running row a later point leaves, over the row `acc` it found. -/
def sumsLater8 (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater8 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt8 (c : Dev nD) (t : Fin cfg8.N) (h0 : t.val % 25 = 0) : Vec F S2000x256 .f32 :=
  rowsFirst8 c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) ((atFirst8_iff t).mpr h0) (iblk8 V c 0 t) (iblk8 V c 1 t) (iblk8 V c 2 t) (iblk8 V c 3 t) (iblk8 V c 4 t)

/-- The running row after point `t`, when `t` is the first point. -/
def sumsFirstAt8 (c : Dev nD) (t : Fin cfg8.N) (h0 : t.val % 25 = 0) : Vec F S1x256 .f32 :=
  sumsFirst8 c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) ((atFirst8_iff t).mpr h0) (iblk8 V c 0 t) (iblk8 V c 1 t) (iblk8 V c 2 t) (iblk8 V c 3 t) (iblk8 V c 4 t)

/-- The normalized block of point `t`, when `t` is a later point (the run is stated at the running row it found). -/
def rowsLaterAt8 (c : Dev nD) (t : Fin cfg8.N) (h0 : ¬t.val % 25 = 0) (acc : Vec F S1x256 .f32) : Vec F S2000x256 .f32 :=
  rowsLater8 c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) (fun h => h0 ((atFirst8_iff t).mp h)) (iblk8 V c 0 t) (iblk8 V c 1 t) (iblk8 V c 2 t) (iblk8 V c 3 t) (iblk8 V c 4 t) acc

/-- The running row after point `t`, when `t` is a later point that found the row `acc`. -/
def sumsLaterAt8 (c : Dev nD) (t : Fin cfg8.N) (h0 : ¬t.val % 25 = 0) (acc : Vec F S1x256 .f32) : Vec F S1x256 .f32 :=
  sumsLater8 c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) (fun h => h0 ((atFirst8_iff t).mp h)) (iblk8 V c 0 t) (iblk8 V c 1 t) (iblk8 V c 2 t) (iblk8 V c 3 t) (iblk8 V c 4 t) acc

/-! ## What the outputs hold after each point -/

/-- THE ACCUMULATION: the running row after the body at position `n`. At the first point the reset-and-add case's row; at a later
    point the add case's row over what this gives at `n - 1` (the row's buffer is not written back in between). -/
def sumsAt8 (c : Dev nD) : (n : ℕ) → n < cfg8.N → Vec F S1x256 .f32
  | 0, hn => sumsFirstAt8 V c ⟨0, hn⟩ (Nat.zero_mod _)
  | n + 1, hn =>
    if h0 : (n + 1) % 25 = 0 then sumsFirstAt8 V c ⟨n + 1, hn⟩ h0
    else sumsLaterAt8 V c ⟨n + 1, hn⟩ h0 (sumsAt8 c n (Nat.lt_of_succ_lt hn))

/-- The running row the body finds at point `t` when `t` is not the first: what the point before left. -/
abbrev sumsBefore8 (c : Dev nD) (t : Fin cfg8.N) : Vec F S1x256 .f32 :=
  sumsAt8 V c (t.val - 1) (Nat.lt_of_le_of_lt (Nat.sub_le _ _) t.isLt)

/-- The normalized block after the body at point `t`. -/
def rowsAt8 (c : Dev nD) (t : Fin cfg8.N) : Vec F S2000x256 .f32 :=
  if h0 : t.val % 25 = 0 then rowsFirstAt8 V c t h0 else rowsLaterAt8 V c t h0 (sumsBefore8 V c t)

/-- The running row at the first point. -/
theorem sumsAt8_first (c : Dev nD) (t : Fin cfg8.N) (h0 : t.val % 25 = 0) :
    sumsAt8 V c t.val t.isLt = sumsFirstAt8 V c t h0 := by
  obtain ⟨n, hn⟩ := t
  cases n with
  | zero => exact rfl
  | succ n => exact (dif_pos h0).trans rfl

/-- The running row at a later point: the add case over the row before. -/
theorem sumsAt8_later (c : Dev nD) (t : Fin cfg8.N) (h0 : ¬t.val % 25 = 0) :
    sumsAt8 V c t.val t.isLt = sumsLaterAt8 V c t h0 (sumsBefore8 V c t) := by
  obtain ⟨n, hn⟩ := t
  cases n with
  | zero => exact absurd (Nat.zero_mod _) h0
  | succ n => exact (dif_neg h0).trans rfl

/-- The normalized block at the first point. -/
theorem rowsAt8_first (c : Dev nD) (t : Fin cfg8.N) (h0 : t.val % 25 = 0) : rowsAt8 V c t = rowsFirstAt8 V c t h0 := dif_pos h0

/-- The normalized block at a later point. -/
theorem rowsAt8_later (c : Dev nD) (t : Fin cfg8.N) (h0 : ¬t.val % 25 = 0) :
    rowsAt8 V c t = rowsLaterAt8 V c t h0 (sumsBefore8 V c t) := dif_neg h0

/-! ## The pipeline's proof data -/

/-- The proof data of the region's pipeline on core `c`: the arrays as the region finds them; after the body at point `t` each
    input's buffer still at its block, the normalized block's at `rowsAt8`, the running row's at `sumsAt8`; the class's invariant
    (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => rowsAt8 V c t
    | ⟨6, _⟩ => sumsAt8 V c t.val t.isLt
  Φ _ := Pipeline.ΦA spec8 c
  q _ := fullShare
  owed _ := 0

theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = rowsAt8 V c t := by dsimp only [dat8]
theorem after8_6 (c : Dev nD) (t : Fin cfg8.N) : (dat8 V c).after 6 t = sumsAt8 V c t.val t.isLt := by dsimp only [dat8]

/-- What the body finds in each input's buffer: its block. -/
theorem before8_0 (c : Dev nD) (t : Fin cfg8.N) (d) : (dat8 V c).before 0 t d = iblk8 V c 0 t :=
  heldIn8_0 V (dat8 V c) (A_eq8 V c 0) (after8_0 V c) t d
theorem before8_1 (c : Dev nD) (t : Fin cfg8.N) (d) : (dat8 V c).before 1 t d = iblk8 V c 1 t :=
  heldIn8_1 V (dat8 V c) (A_eq8 V c 1) (after8_1 V c) t d
theorem before8_2 (c : Dev nD) (t : Fin cfg8.N) (d) : (dat8 V c).before 2 t d = iblk8 V c 2 t :=
  heldIn8_2 V (dat8 V c) (A_eq8 V c 2) (after8_2 V c) t d
theorem before8_3 (c : Dev nD) (t : Fin cfg8.N) (d) : (dat8 V c).before 3 t d = iblk8 V c 3 t :=
  heldIn8_3 V (dat8 V c) (A_eq8 V c 3) (after8_3 V c) t d
theorem before8_4 (c : Dev nD) (t : Fin cfg8.N) (d) : (dat8 V c).before 4 t d = iblk8 V c 4 t :=
  heldIn8_4 V (dat8 V c) (A_eq8 V c 4) (after8_4 V c) t d

/-- At a later point the running row's buffer holds what the body left at the point before: the point is not the first, the row is
    written back at the last point only, the window is never idle and is uncut. -/
theorem before8_6_later (c : Dev nD) (t : Fin cfg8.N) (h0 : ¬t.val % 25 = 0) (d) :
    (dat8 V c).before 6 t d = sumsBefore8 V c t := by
  have hN : t.val < 25 := lt_of_lt_of_eq t.isLt (show cfg8.N = 25 from N_8)
  rw [Dat.before_out_kept _ 6 rfl t (by omega) (Bool.eq_false_iff.mpr fun h => by have := (flush8_6 _).mp h; dsimp only at this; omega)
    (fun _ => rfl) (fun _ _ => rfl)]
  dsimp only [dat8]

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  by_cases h0 : t.val % 25 = 0
  · rw [sumsAt8_first V c t h0, rowsAt8_first V c t h0]
    unfold sumsFirstAt8 rowsFirstAt8 sumsFirst8 rowsFirst8
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst8 c (grid8.coords t) _ _ _ _ _ _ _ _ _ _ _ _ _ _ ((atFirst8_iff t).mpr h0) (iblk8 V c 0 t) (iblk8 V c 1 t) (iblk8 V c 2 t) (iblk8 V c 3 t) (iblk8 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst8_5 c _ _ _ _ _ _ _ _ _ _ _ _ _ _ _ _ _ _ _ _ _)
    unfold owns; iexists _; isplitr
    swap; · iexact H6
    ipureintro; exact View.read_writes_eq_canon _ _ _ (coverFirst8_6 c _ _ _ _ _ _ _ _ _ _ _ _ _ _ _ _ _ _ _ _ _)
  · rw [sumsAt8_later V c t h0, rowsAt8_later V c t h0]
    simp only [before8_6_later V c t h0]
    unfold sumsLaterAt8 rowsLaterAt8 sumsLater8 rowsLater8
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater8 c (grid8.coords t) _ _ _ _ _ _ _ _ _ _ _ _ _ _ (fun h => h0 ((atFirst8_iff t).mp h)) (iblk8 V c 0 t) (iblk8 V c 1 t) (iblk8 V c 2 t) (iblk8 V c 3 t) (iblk8 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater8_5 c _ _ _ _ _ _ _ _ _ _ _ _ _ _ _ _ _ _ _ _ _ _)
    unfold owns; iexists _; isplitr
    swap; · iexact H6
    ipureintro; exact View.read_writes_eq_canon _ _ _ (coverLater8_6 c _ _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
/-
  Region 9 of the idealized kernel program's @main (pallas_call 9), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's one branch: is this the first grid point? -/

/-- The condition of the body's only `scf.if` (the program id compared with 0), from the grid coordinates. -/
abbrev first9 (i : grid9.Coords) : Prop := (Scalar.cmpi .ne (Scalar.extui (Scalar.cmpi .eq (BitVec.ofNat 32 (i 0).val) 0#32)) 0#32) = 1#1
/-- It holds at the first point and at no other — decided over the grid. -/
theorem first9_iff : ∀ t : Fin cfg9.N, first9 (grid9.coords t) ↔ t.val = 0 :=
  (by decide +kernel : ∀ t : Fin grid9.N, first9 (grid9.coords t) ↔ t.val = 0)

/-- Each window's current staging memref at point `t`, as the pipeline passes it to the body, and its wholeness. -/
abbrev buf9_0 (t : Fin cfg9.N) : Memref sig .tc .vmem S2000x256 .f32 := win9_0.stage (cfg9.slots t 0)
abbrev whole9_0 (t : Fin cfg9.N) : (buf9_0 t).IsWhole := hstage9_0 ((cfg9.slots t 0).cast nbuf9_0)
abbrev buf9_1 (t : Fin cfg9.N) : Memref sig .tc .vmem S2000x256 .f32 := win9_1.stage (cfg9.slots t 1)
abbrev whole9_1 (t : Fin cfg9.N) : (buf9_1 t).IsWhole := hstage9_1 ((cfg9.slots t 1).cast nbuf9_1)
abbrev buf9_2 (t : Fin cfg9.N) : Memref sig .tc .vmem S256x256 .bf16 := win9_2.stage (cfg9.slots t 2)
abbrev whole9_2 (t : Fin cfg9.N) : (buf9_2 t).IsWhole := hstage9_2 ((cfg9.slots t 2).cast nbuf9_2)
abbrev buf9_3 (t : Fin cfg9.N) : Memref sig .tc .vmem S1x256 .f32 := win9_3.stage (cfg9.slots t 3)
abbrev whole9_3 (t : Fin cfg9.N) : (buf9_3 t).IsWhole := hstage9_3 ((cfg9.slots t 3).cast nbuf9_3)
abbrev buf9_4 (t : Fin cfg9.N) : Memref sig .tc .vmem S2000x256 .f32 := win9_4.stage (cfg9.slots t 4)
abbrev whole9_4 (t : Fin cfg9.N) : (buf9_4 t).IsWhole := hstage9_4 ((cfg9.slots t 4).cast nbuf9_4)
abbrev buf9_5 (t : Fin cfg9.N) : Memref sig .tc .vmem S1x256 .f32 := win9_5.stage (cfg9.slots t 5)
abbrev whole9_5 (t : Fin cfg9.N) : (buf9_5 t).IsWhole := hstage9_5 ((cfg9.slots t 5).cast nbuf9_5)
abbrev buf9_6 (t : Fin cfg9.N) : Memref sig .tc .vmem S1x256 .f32 := win9_6.stage (cfg9.slots t 6)
abbrev whole9_6 (t : Fin cfg9.N) : (buf9_6 t).IsWhole := hstage9_6 ((cfg9.slots t 6).cast nbuf9_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun9 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc9__matmul1_stats_kernel i arg1 harg1 arg2 harg2 arg3 harg3 arg4 harg4 arg5 harg5 arg6 harg6 arg7 harg7) K } := by
  refine ⟨?_, ?_, ?_, fun E K => ?run⟩
  case run =>
    simp only [cc9__matmul1_stats_kernel_eq_skeleton]; unfold cc9__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun9 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc9__matmul1_stats_kernel i arg1 harg1 arg2 harg2 arg3 harg3 arg4 harg4 arg5 harg5 arg6 harg6 arg7 harg7) K } := by
  refine ⟨?_, ?_, ?_, fun E K => ?run⟩
  case run =>
    simp only [cc9__matmul1_stats_kernel_eq_skeleton]; unfold cc9__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView9 : View sig .tc .vmem S2000x256 .f32 := (stage9_4 0).view
abbrev sumView9 : View sig .tc .vmem S1x256 .f32 := (stage9_5 0).view
abbrev sqView9 : View sig .tc .vmem S1x256 .f32 := (stage9_6 0).view

/-- At the first point each output's pieces tile its block (checked by evaluating the piece list), so they cover it. -/
theorem resetCover9_4 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) (y : S2000x256.Idx) :
    ∃ pc ∈ (resetRun9 c i arg1 harg1 arg2 harg2 arg3 harg3 arg4 harg4 arg5 harg5 arg6 harg6 arg7 harg7 hc0 x0 x1 x2 x3).1, y ∈ pc.1.set :=
  View.cover_of_tiledL (resetRun9 c i arg1 harg1 arg2 harg2 arg3 harg3 arg4 harg4 arg5 harg5 arg6 harg6 arg7 harg7 hc0 x0 x1 x2 x3).1 S2000x256.size (by sl_kernel_rfl) y
theorem resetCover9_5 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) (y : S1x256.Idx) :
    ∃ pc ∈ (resetRun9 c i arg1 harg1 arg2 harg2 arg3 harg3 arg4 harg4 arg5 harg5 arg6 harg6 arg7 harg7 hc0 x0 x1 x2 x3).2.1, y ∈ pc.1.set :=
  View.cover_of_tiledL (resetRun9 c i arg1 harg1 arg2 harg2 arg3 harg3 arg4 harg4 arg5 harg5 arg6 harg6 arg7 harg7 hc0 x0 x1 x2 x3).2.1 S1x256.size (by sl_kernel_rfl) y
theorem resetCover9_6 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) (y : S1x256.Idx) :
    ∃ pc ∈ (resetRun9 c i arg1 harg1 arg2 harg2 arg3 harg3 arg4 harg4 arg5 harg5 arg6 harg6 arg7 harg7 hc0 x0 x1 x2 x3).2.2.1, y ∈ pc.1.set :=
  View.cover_of_tiledL (resetRun9 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut9_4 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) : Vec F S2000x256 .f32 :=
  uView9.read (Elt F) (uView9.writes (Elt F) uView9.junk (resetRun9 c i arg1 harg1 arg2 harg2 arg3 harg3 arg4 harg4 arg5 harg5 arg6 harg6 arg7 harg7 hc0 x0 x1 x2 x3).1)
/-- What the first point leaves in the column-sum accumulator. -/
def resetOut9_5 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) : Vec F S1x256 .f32 :=
  sumView9.read (Elt F) (sumView9.writes (Elt F) sumView9.junk (resetRun9 c i arg1 harg1 arg2 harg2 arg3 harg3 arg4 harg4 arg5 harg5 arg6 harg6 arg7 harg7 hc0 x0 x1 x2 x3).2.1)
/-- What the first point leaves in the sum-of-squares accumulator. -/
def resetOut9_6 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) : Vec F S1x256 .f32 :=
  sqView9.read (Elt F) (sqView9.writes (Elt F) sqView9.junk (resetRun9 c i arg1 harg1 arg2 harg2 arg3 harg3 arg4 harg4 arg5 harg5 arg6 harg6 arg7 harg7 hc0 x0 x1 x2 x3).2.2.1)

/-- At a later point too each output's pieces cover its block. -/
theorem carryCover9_4 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun9 c i arg1 harg1 arg2 harg2 arg3 harg3 arg4 harg4 arg5 harg5 arg6 harg6 arg7 harg7 hc0 x0 x1 x2 x3 xo5 xo6).1, y ∈ pc.1.set :=
  View.cover_of_tiledL (carryRun9 c i arg1 harg1 arg2 harg2 arg3 harg3 arg4 harg4 arg5 harg5 arg6 harg6 arg7 harg7 hc0 x0 x1 x2 x3 xo5 xo6).1 S2000x256.size (by sl_kernel_rfl) y
theorem carryCover9_5 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun9 c i arg1 harg1 arg2 harg2 arg3 harg3 arg4 harg4 arg5 harg5 arg6 harg6 arg7 harg7 hc0 x0 x1 x2 x3 xo5 xo6).2.1, y ∈ pc.1.set :=
  View.cover_of_tiledL (carryRun9 c i arg1 harg1 arg2 harg2 arg3 harg3 arg4 harg4 arg5 harg5 arg6 harg6 arg7 harg7 hc0 x0 x1 x2 x3 xo5 xo6).2.1 S1x256.size (by sl_kernel_rfl) y
theorem carryCover9_6 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun9 c i arg1 harg1 arg2 harg2 arg3 harg3 arg4 harg4 arg5 harg5 arg6 harg6 arg7 harg7 hc0 x0 x1 x2 x3 xo5 xo6).2.2.1, y ∈ pc.1.set :=
  View.cover_of_tiledL (carryRun9 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut9_4 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView9.read (Elt F) (uView9.writes (Elt F) uView9.junk (carryRun9 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut9_5 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView9.read (Elt F) (sumView9.writes (Elt F) sumView9.junk (carryRun9 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut9_6 (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView9.read (Elt F) (sqView9.writes (Elt F) sqView9.junk (carryRun9 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left9 (c : Dev nD) : (n : ℕ) → n < cfg9.N → Vec F S2000x256 .f32 × Vec F S1x256 .f32 × Vec F S1x256 .f32
  | 0, hn =>
    (resetOut9_4 c (grid9.coords ⟨0, hn⟩) (buf9_0 ⟨0, hn⟩) (whole9_0 ⟨0, hn⟩) (buf9_1 ⟨0, hn⟩) (whole9_1 ⟨0, hn⟩) (buf9_2 ⟨0, hn⟩) (whole9_2 ⟨0, hn⟩) (buf9_3 ⟨0, hn⟩) (whole9_3 ⟨0, hn⟩) (buf9_4 ⟨0, hn⟩) (whole9_4 ⟨0, hn⟩) (buf9_5 ⟨0, hn⟩) (whole9_5 ⟨0, hn⟩) (buf9_6 ⟨0, hn⟩) (whole9_6 ⟨0, hn⟩) ((first9_iff ⟨0, hn⟩).mpr rfl) (iblk9 V c 0 ⟨0, hn⟩) (iblk9 V c 1 ⟨0, hn⟩) (iblk9 V c 2 ⟨0, hn⟩) (iblk9 V c 3 ⟨0, hn⟩),
     resetOut9_5 c (grid9.coords ⟨0, hn⟩) (buf9_0 ⟨0, hn⟩) (whole9_0 ⟨0, hn⟩) (buf9_1 ⟨0, hn⟩) (whole9_1 ⟨0, hn⟩) (buf9_2 ⟨0, hn⟩) (whole9_2 ⟨0, hn⟩) (buf9_3 ⟨0, hn⟩) (whole9_3 ⟨0, hn⟩) (buf9_4 ⟨0, hn⟩) (whole9_4 ⟨0, hn⟩) (buf9_5 ⟨0, hn⟩) (whole9_5 ⟨0, hn⟩) (buf9_6 ⟨0, hn⟩) (whole9_6 ⟨0, hn⟩) ((first9_iff ⟨0, hn⟩).mpr rfl) (iblk9 V c 0 ⟨0, hn⟩) (iblk9 V c 1 ⟨0, hn⟩) (iblk9 V c 2 ⟨0, hn⟩) (iblk9 V c 3 ⟨0, hn⟩),
     resetOut9_6 c (grid9.coords ⟨0, hn⟩) (buf9_0 ⟨0, hn⟩) (whole9_0 ⟨0, hn⟩) (buf9_1 ⟨0, hn⟩) (whole9_1 ⟨0, hn⟩) (buf9_2 ⟨0, hn⟩) (whole9_2 ⟨0, hn⟩) (buf9_3 ⟨0, hn⟩) (whole9_3 ⟨0, hn⟩) (buf9_4 ⟨0, hn⟩) (whole9_4 ⟨0, hn⟩) (buf9_5 ⟨0, hn⟩) (whole9_5 ⟨0, hn⟩) (buf9_6 ⟨0, hn⟩) (whole9_6 ⟨0, hn⟩) ((first9_iff ⟨0, hn⟩).mpr rfl) (iblk9 V c 0 ⟨0, hn⟩) (iblk9 V c 1 ⟨0, hn⟩) (iblk9 V c 2 ⟨0, hn⟩) (iblk9 V c 3 ⟨0, hn⟩))
  | n + 1, hn =>
    (carryOut9_4 c (grid9.coords ⟨n + 1, hn⟩) (buf9_0 ⟨n + 1, hn⟩) (whole9_0 ⟨n + 1, hn⟩) (buf9_1 ⟨n + 1, hn⟩) (whole9_1 ⟨n + 1, hn⟩) (buf9_2 ⟨n + 1, hn⟩) (whole9_2 ⟨n + 1, hn⟩) (buf9_3 ⟨n + 1, hn⟩) (whole9_3 ⟨n + 1, hn⟩) (buf9_4 ⟨n + 1, hn⟩) (whole9_4 ⟨n + 1, hn⟩) (buf9_5 ⟨n + 1, hn⟩) (whole9_5 ⟨n + 1, hn⟩) (buf9_6 ⟨n + 1, hn⟩) (whole9_6 ⟨n + 1, hn⟩) (fun h => Nat.succ_ne_zero n ((first9_iff ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (left9 c n (Nat.lt_of_succ_lt hn)).2.1 (left9 c n (Nat.lt_of_succ_lt hn)).2.2,
     carryOut9_5 c (grid9.coords ⟨n + 1, hn⟩) (buf9_0 ⟨n + 1, hn⟩) (whole9_0 ⟨n + 1, hn⟩) (buf9_1 ⟨n + 1, hn⟩) (whole9_1 ⟨n + 1, hn⟩) (buf9_2 ⟨n + 1, hn⟩) (whole9_2 ⟨n + 1, hn⟩) (buf9_3 ⟨n + 1, hn⟩) (whole9_3 ⟨n + 1, hn⟩) (buf9_4 ⟨n + 1, hn⟩) (whole9_4 ⟨n + 1, hn⟩) (buf9_5 ⟨n + 1, hn⟩) (whole9_5 ⟨n + 1, hn⟩) (buf9_6 ⟨n + 1, hn⟩) (whole9_6 ⟨n + 1, hn⟩) (fun h => Nat.succ_ne_zero n ((first9_iff ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (left9 c n (Nat.lt_of_succ_lt hn)).2.1 (left9 c n (Nat.lt_of_succ_lt hn)).2.2,
     carryOut9_6 c (grid9.coords ⟨n + 1, hn⟩) (buf9_0 ⟨n + 1, hn⟩) (whole9_0 ⟨n + 1, hn⟩) (buf9_1 ⟨n + 1, hn⟩) (whole9_1 ⟨n + 1, hn⟩) (buf9_2 ⟨n + 1, hn⟩) (whole9_2 ⟨n + 1, hn⟩) (buf9_3 ⟨n + 1, hn⟩) (whole9_3 ⟨n + 1, hn⟩) (buf9_4 ⟨n + 1, hn⟩) (whole9_4 ⟨n + 1, hn⟩) (buf9_5 ⟨n + 1, hn⟩) (whole9_5 ⟨n + 1, hn⟩) (buf9_6 ⟨n + 1, hn⟩) (whole9_6 ⟨n + 1, hn⟩) (fun h => Nat.succ_ne_zero n ((first9_iff ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (left9 c n (Nat.lt_of_succ_lt hn)).2.1 (left9 c n (Nat.lt_of_succ_lt hn)).2.2)

/-- `left9` at the first point: the reset case's contents. -/
theorem left9_first (c : Dev nD) (t : Fin cfg9.N) (h0 : t.val = 0) :
    left9 V c t.val t.isLt =
    (resetOut9_4 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) ((first9_iff t).mpr h0) (iblk9 V c 0 t) (iblk9 V c 1 t) (iblk9 V c 2 t) (iblk9 V c 3 t),
     resetOut9_5 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) ((first9_iff t).mpr h0) (iblk9 V c 0 t) (iblk9 V c 1 t) (iblk9 V c 2 t) (iblk9 V c 3 t),
     resetOut9_6 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) ((first9_iff t).mpr h0) (iblk9 V c 0 t) (iblk9 V c 1 t) (iblk9 V c 2 t) (iblk9 V c 3 t)) := by
  obtain ⟨n, hn⟩ := t
  cases n with
  | zero => exact rfl
  | succ n => exact absurd h0 (Nat.succ_ne_zero n)

/-- `left9` at a later point: the carrying case's contents, over the accumulator rows the point before left. -/
theorem left9_later (c : Dev nD) (t : Fin cfg9.N) (h0 : ¬t.val = 0) :
    left9 V c t.val t.isLt =
    (carryOut9_4 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) (fun h => h0 ((first9_iff t).mp h)) (iblk9 V c 0 t) (iblk9 V c 1 t) (iblk9 V c 2 t) (iblk9 V c 3 t) (left9 V c (t.val - 1) (Nat.lt_of_le_of_lt (Nat.sub_le _ _) t.isLt)).2.1 (left9 V c (t.val - 1) (Nat.lt_of_le_of_lt (Nat.sub_le _ _) t.isLt)).2.2,
     carryOut9_5 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) (fun h => h0 ((first9_iff t).mp h)) (iblk9 V c 0 t) (iblk9 V c 1 t) (iblk9 V c 2 t) (iblk9 V c 3 t) (left9 V c (t.val - 1) (Nat.lt_of_le_of_lt (Nat.sub_le _ _) t.isLt)).2.1 (left9 V c (t.val - 1) (Nat.lt_of_le_of_lt (Nat.sub_le _ _) t.isLt)).2.2,
     carryOut9_6 c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) (fun h => h0 ((first9_iff t).mp h)) (iblk9 V c 0 t) (iblk9 V c 1 t) (iblk9 V c 2 t) (iblk9 V c 3 t) (left9 V c (t.val - 1) (Nat.lt_of_le_of_lt (Nat.sub_le _ _) t.isLt)).2.1 (left9 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left9`; the invariant the scoped rest and the generator register; nothing
    owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => (left9 V c t.val t.isLt).1
    | ⟨5, _⟩ => (left9 V c t.val t.isLt).2.1
    | ⟨6, _⟩ => (left9 V c t.val t.isLt).2.2
  Φ _ := Pipeline.ΦA spec9 c
  q _ := fullShare
  owed _ := 0

theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = (left9 V c t.val t.isLt).1 := by dsimp only [dat9]
theorem after9_5 (c : Dev nD) (t : Fin cfg9.N) : (dat9 V c).after 5 t = (left9 V c t.val t.isLt).2.1 := by dsimp only [dat9]
theorem after9_6 (c : Dev nD) (t : Fin cfg9.N) : (dat9 V c).after 6 t = (left9 V c t.val t.isLt).2.2 := by dsimp only [dat9]

/-- Each input's current staging buffer holds its block at every point, fetched there or not: h and agg are fetched at every
    point; the weight and the bias at the first only, and their block index never moves. -/
theorem before9_0 (c : Dev nD) (t : Fin cfg9.N) (d) : (dat9 V c).before 0 t d = iblk9 V c 0 t :=
  ((dat9 V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)

/-- At a later point each accumulator's staging buffer holds what the body left at the point before: the buffer is written back
    after the last point only, the window is live and uncut. -/
theorem before9_5_later (c : Dev nD) (t : Fin cfg9.N) (h0 : ¬t.val = 0) (d) :
    (dat9 V c).before 5 t d = (left9 V c (t.val - 1) (Nat.lt_of_le_of_lt (Nat.sub_le _ _) t.isLt)).2.1 := by
  have hN : t.val < 25 := lt_of_lt_of_eq t.isLt (show cfg9.N = 25 from N_9)
  rw [Dat.before_out_kept _ 5 rfl t h0 (Bool.eq_false_iff.mpr fun h => by have := (flush9_5 _).mp h; dsimp only at this; omega)
    (fun _ => rfl) (fun _ _ => rfl)]
  dsimp only [dat9]
theorem before9_6_later (c : Dev nD) (t : Fin cfg9.N) (h0 : ¬t.val = 0) (d) :
    (dat9 V c).before 6 t d = (left9 V c (t.val - 1) (Nat.lt_of_le_of_lt (Nat.sub_le _ _) t.isLt)).2.2 := by
  have hN : t.val < 25 := lt_of_lt_of_eq t.isLt (show cfg9.N = 25 from N_9)
  rw [Dat.before_out_kept _ 6 rfl t h0 (Bool.eq_false_iff.mpr fun h => by have := (flush9_6 _).mp h; dsimp only at this; omega)
    (fun _ => rfl) (fun _ _ => rfl)]
  dsimp only [dat9]

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (buf9_0 t) fullShare ((dat9 V c).before 0 t d))
    ∗ (∃ d, owns (c : Thread nD τ) (buf9_1 t) fullShare ((dat9 V c).before 1 t d))
    ∗ (∃ d, owns (c : Thread nD τ) (buf9_2 t) fullShare ((dat9 V c).before 2 t d))
    ∗ (∃ d, owns (c : Thread nD τ) (buf9_3 t) fullShare ((dat9 V c).before 3 t d))
    ∗ (∃ d, owns (c : Thread nD τ) (buf9_4 t) fullShare ((dat9 V c).before 4 t d))
    ∗ (∃ d, owns (c : Thread nD τ) (buf9_5 t) fullShare ((dat9 V c).before 5 t d))
    ∗ (∃ d, owns (c : Thread nD τ) (buf9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (buf9_0 t) fullShare ((dat9 V c).after 0 t)
    ∗ owns (c : Thread nD τ) (buf9_1 t) fullShare ((dat9 V c).after 1 t)
    ∗ owns (c : Thread nD τ) (buf9_2 t) fullShare ((dat9 V c).after 2 t)
    ∗ owns (c : Thread nD τ) (buf9_3 t) fullShare ((dat9 V c).after 3 t)
    ∗ owns (c : Thread nD τ) (buf9_4 t) fullShare ((dat9 V c).after 4 t)
    ∗ owns (c : Thread nD τ) (buf9_5 t) fullShare ((dat9 V c).after 5 t)
    ∗ owns (c : Thread nD τ) (buf9_6 t) fullShare ((dat9 V c).after 6 t))

set_option maxHeartbeats 1600000 in
/-- The body at any point. The inputs' memrefs hold their blocks; `first9_iff` says which case the point is in; at a later
    point the accumulators' memrefs hold the rows the point before left; so that case's run applies, and each output's pieces,
    covering its block, read back as the contents `left9` names. The invariant and what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  by_cases h0 : t.val = 0
  · rw [left9_first V c t h0]
    dsimp only
    unfold resetOut9_4 resetOut9_5 resetOut9_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun9 c (grid9.coords t) _ _ _ _ _ _ _ _ _ _ _ _ _ _ ((first9_iff t).mpr h0) (iblk9 V c 0 t) (iblk9 V c 1 t) (iblk9 V c 2 t) (iblk9 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover9_4 c _ _ _ _ _ _ _ _ _ _ _ _ _ _ _ _ _ _ _ _)
    isplitl [H5]
    · unfold owns; iexists _; isplitr
      swap; · iexact H5
      ipureintro; exact View.read_writes_of_cover _ _ _ _ _ (resetCover9_5 c _ _ _ _ _ _ _ _ _ _ _ _ _ _ _ _ _ _ _ _)
    unfold owns; iexists _; isplitr
    swap; · iexact H6
    ipureintro; exact View.read_writes_of_cover _ _ _ _ _ (resetCover9_6 c _ _ _ _ _ _ _ _ _ _ _ _ _ _ _ _ _ _ _ _)
  · rw [left9_later V c t h0]
    dsimp only
    simp only [before9_5_later V c t h0, before9_6_later V c t h0]
    unfold carryOut9_4 carryOut9_5 carryOut9_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun9 c (grid9.coords t) _ _ _ _ _ _ _ _ _ _ _ _ _ _ (fun h => h0 ((first9_iff t).mp h)) (iblk9 V c 0 t) (iblk9 V c 1 t) (iblk9 V c 2 t) (iblk9 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover9_4 c _ _ _ _ _ _ _ _ _ _ _ _ _ _ _ _ _ _ _ _ _ _)
    isplitl [H5]
    · unfold owns; iexists _; isplitr
      swap; · iexact H5
      ipureintro; exact View.read_writes_of_cover _ _ _ _ _ (carryCover9_5 c _ _ _ _ _ _ _ _ _ _ _ _ _ _ _ _ _ _ _ _ _ _)
    unfold owns; iexists _; isplitr
    swap; · iexact H6
    ipureintro; exact View.read_writes_of_cover _ _ _ _ _ (carryCover9_6 c _ _ _ _ _ _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10.lean ====
/-
  Region 10 of the idealized kernel program's @main (pallas_call 10), at ANY entry contents `V` of the TensorCore's buffers and at any
  float instance: the proof data of its pipeline (what each window's staging buffer holds after the body at each grid point) and the
  body obligation.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The inputs' staging buffers -/

/-- Input window 0's current staging buffer holds its block at every point, fetched there or not (unfetched, the block index has
    not moved), for ANY proof data whose array is the entry contents' (`hA`) and whose body leaves the block in place (`hafter`). -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not (unfetched, the block index has
    not moved), for ANY proof data whose array is the entry contents' (`hA`) and whose body leaves the block in place (`hafter`). -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not (unfetched, the block index has
    not moved), for ANY proof data whose array is the entry contents' (`hA`) and whose body leaves the block in place (`hafter`). -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not (unfetched, the block index has
    not moved), for ANY proof data whose array is the entry contents' (`hA`) and whose body leaves the block in place (`hafter`). -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not (unfetched, the block index has
    not moved), for ANY proof data whose array is the entry contents' (`hA`) and whose body leaves the block in place (`hafter`). -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not (unfetched, the block index has
    not moved), for ANY proof data whose array is the entry contents' (`hA`) and whose body leaves the block in place (`hafter`). -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not (unfetched, the block index has
    not moved), for ANY proof data whose array is the entry contents' (`hA`) and whose body leaves the block in place (`hafter`). -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch condition -/

/-- The condition of the body's one `scf.if` (is this the first point?), from the grid coordinates. -/
abbrev cond10_0 (i : grid10.Coords) : Prop := (Scalar.cmpi .ne (Scalar.extui (Scalar.cmpi .eq (BitVec.ofNat 32 (i 0).val) 0#32)) 0#32) = 1#1
/-- It holds at the first point only — decided over the grid. -/
theorem hcond10_0 : ∀ t : Fin cfg10.N, cond10_0 (grid10.coords t) ↔ t.val % 25 = 0 :=
  (by decide +kernel : ∀ t : Fin grid10.N, cond10_0 (grid10.coords t) ↔ t.val % 25 = 0)

/-! ## The staging memrefs at a point -/

/-- One staging buffer of each output window, through which its contents are stated (the choice does not matter: the stores cover). -/
abbrev VO10_7 : View sig .tc .vmem S2000x256 .f32 := (stage10_7 0).view
abbrev VO10_8 : View sig .tc .vmem S1x256 .f32 := (stage10_8 0).view
abbrev VO10_9 : View sig .tc .vmem S1x256 .f32 := (stage10_9 0).view
/-- Each window's current staging memref at point `t`, spelled as the pipeline passes it to the body, and its wholeness. -/
abbrev ms10_0 (t : Fin cfg10.N) : Memref sig .tc .vmem S2000x256 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x256 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x256 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x256 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x256 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S256x256 .bf16 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S1x256 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S2000x256 .f32 := win10_7.stage (cfg10.slots t 7)
abbrev hs10_7 (t : Fin cfg10.N) : (ms10_7 t).IsWhole := hstage10_7 ((cfg10.slots t 7).cast nbuf10_7)
abbrev ms10_8 (t : Fin cfg10.N) : Memref sig .tc .vmem S1x256 .f32 := win10_8.stage (cfg10.slots t 8)
abbrev hs10_8 (t : Fin cfg10.N) : (ms10_8 t).IsWhole := hstage10_8 ((cfg10.slots t 8).cast nbuf10_8)
abbrev ms10_9 (t : Fin cfg10.N) : Memref sig .tc .vmem S1x256 .f32 := win10_9.stage (cfg10.slots t 9)
abbrev hs10_9 (t : Fin cfg10.N) : (ms10_9 t).IsWhole := hstage10_9 ((cfg10.slots t 9).cast nbuf10_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun10_A (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc10__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc10__norm_matmul2_stats_kernel_eq_skeleton]; unfold cc10__norm_matmul2_stats_kernel_skel
    simp only [k10_part1_eq_skeleton]; unfold k10_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun10_B (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc10__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc10__norm_matmul2_stats_kernel_eq_skeleton]; unfold cc10__norm_matmul2_stats_kernel_skel
    simp only [k10_part1_eq_skeleton]; unfold k10_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover10_A_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun10_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun10_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out10_A_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO10_7.read (Elt F) (VO10_7.writes (Elt F) VO10_7.junk (kernelRun10_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover10_A_8 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun10_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun10_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out10_A_8 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO10_8.read (Elt F) (VO10_8.writes (Elt F) VO10_8.junk (kernelRun10_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover10_A_9 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun10_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun10_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out10_A_9 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO10_9.read (Elt F) (VO10_9.writes (Elt F) VO10_9.junk (kernelRun10_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover10_B_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun10_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun10_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out10_B_7 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO10_7.read (Elt F) (VO10_7.writes (Elt F) VO10_7.junk (kernelRun10_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover10_B_8 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out10_B_8 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO10_8.read (Elt F) (VO10_8.writes (Elt F) VO10_8.junk (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover10_B_9 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out10_B_9 (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO10_9.read (Elt F) (VO10_9.writes (Elt F) VO10_9.junk (kernelRun10_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt10 (c : Dev nD) : (n : ℕ) → n < cfg10.N → Vec F S2000x256 .f32 × Vec F S1x256 .f32 × Vec F S1x256 .f32
  | 0, hn => (out10_A_7 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩),
        out10_A_8 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩),
        out10_A_9 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) (ms10_7 ⟨0, hn⟩) (hs10_7 ⟨0, hn⟩) (ms10_8 ⟨0, hn⟩) (hs10_8 ⟨0, hn⟩) (ms10_9 ⟨0, hn⟩) (hs10_9 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩))
  | n + 1, hn =>
    if h0 : (n + 1) % 25 = 0 then
      (out10_A_7 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩),
        out10_A_8 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩),
        out10_A_9 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩))
    else
      (out10_B_7 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (outsAt10 c n (Nat.lt_of_succ_lt hn)).2.1 (outsAt10 c n (Nat.lt_of_succ_lt hn)).2.2,
        out10_B_8 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (outsAt10 c n (Nat.lt_of_succ_lt hn)).2.1 (outsAt10 c n (Nat.lt_of_succ_lt hn)).2.2,
        out10_B_9 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (ms10_7 ⟨n + 1, hn⟩) (hs10_7 ⟨n + 1, hn⟩) (ms10_8 ⟨n + 1, hn⟩) (hs10_8 ⟨n + 1, hn⟩) (ms10_9 ⟨n + 1, hn⟩) (hs10_9 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (outsAt10 c n (Nat.lt_of_succ_lt hn)).2.1 (outsAt10 c n (Nat.lt_of_succ_lt hn)).2.2)

/-- `outsAt10` at the first point: the resetting case's contents. -/
theorem outsAt10_A (c : Dev nD) (t : Fin cfg10.N) (h0 : t.val % 25 = 0) :
    outsAt10 V c t.val t.isLt = (out10_A_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr h0) (iblk10 V c 0 t) (iblk10 V c 1 t) (iblk10 V c 2 t) (iblk10 V c 3 t) (iblk10 V c 4 t) (iblk10 V c 5 t) (iblk10 V c 6 t),
        out10_A_8 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr h0) (iblk10 V c 0 t) (iblk10 V c 1 t) (iblk10 V c 2 t) (iblk10 V c 3 t) (iblk10 V c 4 t) (iblk10 V c 5 t) (iblk10 V c 6 t),
        out10_A_9 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr h0) (iblk10 V c 0 t) (iblk10 V c 1 t) (iblk10 V c 2 t) (iblk10 V c 3 t) (iblk10 V c 4 t) (iblk10 V c 5 t) (iblk10 V c 6 t)) := by
  obtain ⟨n, hn⟩ := t
  cases n with
  | zero => exact rfl
  | succ n => exact (dif_pos h0).trans rfl

/-- `outsAt10` at any other point: the accumulating case's contents, over what the point before left. -/
theorem outsAt10_B (c : Dev nD) (t : Fin cfg10.N) (h0 : ¬t.val % 25 = 0) :
    outsAt10 V c t.val t.isLt = (out10_B_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2,
        out10_B_8 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2,
        out10_B_9 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt10`; the invariant the scoped rest and the generator register, untouched;
    nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => (outsAt10 V c t.val t.isLt).1
    | ⟨8, _⟩ => (outsAt10 V c t.val t.isLt).2.1
    | ⟨9, _⟩ => (outsAt10 V c t.val t.isLt).2.2
  Φ _ := Pipeline.ΦA spec10 c
  q _ := fullShare
  owed _ := 0

/-- The proof data's arrays are the region-entry contents (the definition projected, so that `V` is never unfolded). -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = (outsAt10 V c t.val t.isLt).1 := by dsimp only [dat10]
theorem after10_8 (c : Dev nD) (t : Fin cfg10.N) : (dat10 V c).after 8 t = (outsAt10 V c t.val t.isLt).2.1 := by dsimp only [dat10]
theorem after10_9 (c : Dev nD) (t : Fin cfg10.N) : (dat10 V c).after 9 t = (outsAt10 V c t.val t.isLt).2.2 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
/-- At a point other than the first, accumulator window 8's staging buffer holds what the body left at the point before: its block
    is the same at every point and is written back at the last point only. -/
theorem before10_8_B (c : Dev nD) (t : Fin cfg10.N) (h0 : ¬t.val % 25 = 0) (d) :
    (dat10 V c).before 8 t d = (outsAt10 V c (t.val - 1) (Nat.lt_of_le_of_lt (Nat.sub_le _ _) t.isLt)).2.1 := by
  have hN : t.val < 25 := lt_of_lt_of_eq t.isLt (show cfg10.N = 25 from N_10)
  rw [Dat.before_out_kept _ 8 rfl t (by omega) (Bool.eq_false_iff.mpr fun h => by have := (flush10_8 _).mp h; dsimp only at this; omega)
    (fun _ => rfl) (fun _ _ => rfl)]
  dsimp only [dat10]
/-- At a point other than the first, accumulator window 9's staging buffer holds what the body left at the point before: its block
    is the same at every point and is written back at the last point only. -/
theorem before10_9_B (c : Dev nD) (t : Fin cfg10.N) (h0 : ¬t.val % 25 = 0) (d) :
    (dat10 V c).before 9 t d = (outsAt10 V c (t.val - 1) (Nat.lt_of_le_of_lt (Nat.sub_le _ _) t.isLt)).2.2 := by
  have hN : t.val < 25 := lt_of_lt_of_eq t.isLt (show cfg10.N = 25 from N_10)
  rw [Dat.before_out_kept _ 9 rfl t (by omega) (Bool.eq_false_iff.mpr fun h => by have := (flush10_9 _).mp h; dsimp only at this; omega)
    (fun _ => rfl) (fun _ _ => rfl)]
  dsimp only [dat10]

/-! ## The body obligation, at a generic point -/

/-- What the body is called with at point `t` (the windows one by one), -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d))
    ∗ (∃ d, owns (c : Thread nD τ) (ms10_8 t) fullShare ((dat10 V c).before 8 t d))
    ∗ (∃ d, owns (c : Thread nD τ) (ms10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t)
    ∗ owns (c : Thread nD τ) (ms10_6 t) fullShare ((dat10 V c).after 6 t)
    ∗ owns (c : Thread nD τ) (ms10_7 t) fullShare ((dat10 V c).after 7 t)
    ∗ owns (c : Thread nD τ) (ms10_8 t) fullShare ((dat10 V c).after 8 t)
    ∗ owns (c : Thread nD τ) (ms10_9 t) fullShare ((dat10 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  have hN : t.val < 25 := lt_of_lt_of_eq t.isLt (show cfg10.N = 25 from N_10)
  by_cases h0 : t.val % 25 = 0
  · rw [outsAt10_A V c t h0]
    (try dsimp only)
    unfold out10_A_7 out10_A_8 out10_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun10_A c (grid10.coords t) _ _ _ _ _ _ _ _ _ _ _ _ _ _ _ _ _ _ _ _ ((hcond10_0 t).mpr h0) (iblk10 V c 0 t) (iblk10 V c 1 t) (iblk10 V c 2 t) (iblk10 V c 3 t) (iblk10 V c 4 t) (iblk10 V c 5 t) (iblk10 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover10_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover10_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover10_A_9 c _ _ _ _ _ _ _ _ _ _ _ _ _ _ _ _ _ _ _ _ _ _ _ _ _ _ _ _ _)
  · rw [outsAt10_B V c t h0]
    simp only [before10_8_B V c t h0, before10_9_B V c t h0]
    (try dsimp only)
    unfold out10_B_7 out10_B_8 out10_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun10_B c (grid10.coords t) _ _ _ _ _ _ _ _ _ _ _ _ _ _ _ _ _ _ _ _ (fun h => h0 ((hcond10_0 t).mp h)) (iblk10 V c 0 t) (iblk10 V c 1 t) (iblk10 V c 2 t) (iblk10 V c 3 t) (iblk10 V c 4 t) (iblk10 V c 5 t) (iblk10 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover10_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover10_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover10_B_9 c _ _ _ _ _ _ _ _ _ _ _ _ _ _ _ _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
/-
  Region 11 of the idealized kernel program's @main (pallas_call 11), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The inputs' buffers hold their blocks -/

/-- Input window 0's current staging buffer holds its block at every point, fetched there or not (where it is not fetched its
    block index has not moved), for any proof data over the region's entry contents whose body leaves the block in place. -/
theorem heldIn11_0 {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not (where it is not fetched its
    block index has not moved), for any proof data over the region's entry contents whose body leaves the block in place. -/
theorem heldIn11_1 {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not (where it is not fetched its
    block index has not moved), for any proof data over the region's entry contents whose body leaves the block in place. -/
theorem heldIn11_2 {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not (where it is not fetched its
    block index has not moved), for any proof data over the region's entry contents whose body leaves the block in place. -/
theorem heldIn11_3 {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not (where it is not fetched its
    block index has not moved), for any proof data over the region's entry contents whose body leaves the block in place. -/
theorem heldIn11_4 {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's one branch: is this the first grid point? -/

/-- The condition under which the body resets the running row: the grid coordinate compared with zero, as the body's scalar
    operations compute it. -/
abbrev atFirst11 (i : grid11.Coords) : Prop := (Scalar.cmpi .ne (Scalar.extui (Scalar.cmpi .eq (BitVec.ofNat 32 (i 0).val) 0#32)) 0#32) = 1#1
/-- It holds at the first point of the grid and at no other: decided point by point. -/
theorem atFirst11_iff : ∀ t : Fin cfg11.N, atFirst11 (grid11.coords t) ↔ t.val % 25 = 0 :=
  (by decide +kernel : ∀ t : Fin grid11.N, atFirst11 (grid11.coords t) ↔ t.val % 25 = 0)

/-! ## The staging memrefs the body is called with -/
abbrev stg11_0 (t : Fin cfg11.N) : Memref sig .tc .vmem S2000x256 .f32 := win11_0.stage (cfg11.slots t 0)
abbrev stgWhole11_0 (t : Fin cfg11.N) : (stg11_0 t).IsWhole := hstage11_0 ((cfg11.slots t 0).cast nbuf11_0)
abbrev stg11_1 (t : Fin cfg11.N) : Memref sig .tc .vmem S1x256 .f32 := win11_1.stage (cfg11.slots t 1)
abbrev stgWhole11_1 (t : Fin cfg11.N) : (stg11_1 t).IsWhole := hstage11_1 ((cfg11.slots t 1).cast nbuf11_1)
abbrev stg11_2 (t : Fin cfg11.N) : Memref sig .tc .vmem S1x256 .f32 := win11_2.stage (cfg11.slots t 2)
abbrev stgWhole11_2 (t : Fin cfg11.N) : (stg11_2 t).IsWhole := hstage11_2 ((cfg11.slots t 2).cast nbuf11_2)
abbrev stg11_3 (t : Fin cfg11.N) : Memref sig .tc .vmem S1x256 .f32 := win11_3.stage (cfg11.slots t 3)
abbrev stgWhole11_3 (t : Fin cfg11.N) : (stg11_3 t).IsWhole := hstage11_3 ((cfg11.slots t 3).cast nbuf11_3)
abbrev stg11_4 (t : Fin cfg11.N) : Memref sig .tc .vmem S1x256 .f32 := win11_4.stage (cfg11.slots t 4)
abbrev stgWhole11_4 (t : Fin cfg11.N) : (stg11_4 t).IsWhole := hstage11_4 ((cfg11.slots t 4).cast nbuf11_4)
abbrev stg11_5 (t : Fin cfg11.N) : Memref sig .tc .vmem S2000x256 .f32 := win11_5.stage (cfg11.slots t 5)
abbrev stgWhole11_5 (t : Fin cfg11.N) : (stg11_5 t).IsWhole := hstage11_5 ((cfg11.slots t 5).cast nbuf11_5)
abbrev stg11_6 (t : Fin cfg11.N) : Memref sig .tc .vmem S1x256 .f32 := win11_6.stage (cfg11.slots t 6)
abbrev stgWhole11_6 (t : Fin cfg11.N) : (stg11_6 t).IsWhole := hstage11_6 ((cfg11.slots t 6).cast nbuf11_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc11__norm_readout_kernel i arg1 harg1 arg2 harg2 arg3 harg3 arg4 harg4 arg5 harg5 arg6 harg6 arg7 harg7) K } := by
  refine ⟨?_, ?_, fun E K => ?run⟩
  case run =>
    simp only [cc11__norm_readout_kernel_eq_skeleton]; unfold cc11__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc11__norm_readout_kernel i arg1 harg1 arg2 harg2 arg3 harg3 arg4 harg4 arg5 harg5 arg6 harg6 arg7 harg7) K } := by
  refine ⟨?_, ?_, fun E K => ?run⟩
  case run =>
    simp only [cc11__norm_readout_kernel_eq_skeleton]; unfold cc11__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst11_5 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) (y : S2000x256.Idx) :
    ∃ pc ∈ (runFirst11 c i arg1 harg1 arg2 harg2 arg3 harg3 arg4 harg4 arg5 harg5 arg6 harg6 arg7 harg7 hc u mean var gain shift).1, y ∈ pc.1.set :=
  View.cover_of_tiledL (runFirst11 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst11_6 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) (y : S1x256.Idx) :
    ∃ pc ∈ (runFirst11 c i arg1 harg1 arg2 harg2 arg3 harg3 arg4 harg4 arg5 harg5 arg6 harg6 arg7 harg7 hc u mean var gain shift).2.1, y ∈ pc.1.set :=
  View.cover_of_tiledL (runFirst11 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater11_5 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater11 c i arg1 harg1 arg2 harg2 arg3 harg3 arg4 harg4 arg5 harg5 arg6 harg6 arg7 harg7 hc u mean var gain shift acc).1, y ∈ pc.1.set :=
  View.cover_of_tiledL (runLater11 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater11_6 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater11 c i arg1 harg1 arg2 harg2 arg3 harg3 arg4 harg4 arg5 harg5 arg6 harg6 arg7 harg7 hc u mean var gain shift acc).2.1, y ∈ pc.1.set :=
  View.cover_of_tiledL (runLater11 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) : Vec F S2000x256 .f32 :=
  View.canon (runFirst11 c i arg1 harg1 arg2 harg2 arg3 harg3 arg4 harg4 arg5 harg5 arg6 harg6 arg7 harg7 hc u mean var gain shift).1

/-- The running row the first point leaves. -/
def sumsFirst11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) : Vec F S1x256 .f32 :=
  View.canon (runFirst11 c i arg1 harg1 arg2 harg2 arg3 harg3 arg4 harg4 arg5 harg5 arg6 harg6 arg7 harg7 hc u mean var gain shift).2.1

/-- The normalized block a later point leaves. -/
def rowsLater11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater11 c i arg1 harg1 arg2 harg2 arg3 harg3 arg4 harg4 arg5 harg5 arg6 harg6 arg7 harg7 hc u mean var gain shift acc).1

/-- The running row a later point leaves, over the row `acc` it found. -/
def sumsLater11 (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater11 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt11 (c : Dev nD) (t : Fin cfg11.N) (h0 : t.val % 25 = 0) : Vec F S2000x256 .f32 :=
  rowsFirst11 c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) ((atFirst11_iff t).mpr h0) (iblk11 V c 0 t) (iblk11 V c 1 t) (iblk11 V c 2 t) (iblk11 V c 3 t) (iblk11 V c 4 t)

/-- The running row after point `t`, when `t` is the first point. -/
def sumsFirstAt11 (c : Dev nD) (t : Fin cfg11.N) (h0 : t.val % 25 = 0) : Vec F S1x256 .f32 :=
  sumsFirst11 c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) ((atFirst11_iff t).mpr h0) (iblk11 V c 0 t) (iblk11 V c 1 t) (iblk11 V c 2 t) (iblk11 V c 3 t) (iblk11 V c 4 t)

/-- The normalized block of point `t`, when `t` is a later point (the run is stated at the running row it found). -/
def rowsLaterAt11 (c : Dev nD) (t : Fin cfg11.N) (h0 : ¬t.val % 25 = 0) (acc : Vec F S1x256 .f32) : Vec F S2000x256 .f32 :=
  rowsLater11 c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) (fun h => h0 ((atFirst11_iff t).mp h)) (iblk11 V c 0 t) (iblk11 V c 1 t) (iblk11 V c 2 t) (iblk11 V c 3 t) (iblk11 V c 4 t) acc

/-- The running row after point `t`, when `t` is a later point that found the row `acc`. -/
def sumsLaterAt11 (c : Dev nD) (t : Fin cfg11.N) (h0 : ¬t.val % 25 = 0) (acc : Vec F S1x256 .f32) : Vec F S1x256 .f32 :=
  sumsLater11 c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) (fun h => h0 ((atFirst11_iff t).mp h)) (iblk11 V c 0 t) (iblk11 V c 1 t) (iblk11 V c 2 t) (iblk11 V c 3 t) (iblk11 V c 4 t) acc

/-! ## What the outputs hold after each point -/

/-- THE ACCUMULATION: the running row after the body at position `n`. At the first point the reset-and-add case's row; at a later
    point the add case's row over what this gives at `n - 1` (the row's buffer is not written back in between). -/
def sumsAt11 (c : Dev nD) : (n : ℕ) → n < cfg11.N → Vec F S1x256 .f32
  | 0, hn => sumsFirstAt11 V c ⟨0, hn⟩ (Nat.zero_mod _)
  | n + 1, hn =>
    if h0 : (n + 1) % 25 = 0 then sumsFirstAt11 V c ⟨n + 1, hn⟩ h0
    else sumsLaterAt11 V c ⟨n + 1, hn⟩ h0 (sumsAt11 c n (Nat.lt_of_succ_lt hn))

/-- The running row the body finds at point `t` when `t` is not the first: what the point before left. -/
abbrev sumsBefore11 (c : Dev nD) (t : Fin cfg11.N) : Vec F S1x256 .f32 :=
  sumsAt11 V c (t.val - 1) (Nat.lt_of_le_of_lt (Nat.sub_le _ _) t.isLt)

/-- The normalized block after the body at point `t`. -/
def rowsAt11 (c : Dev nD) (t : Fin cfg11.N) : Vec F S2000x256 .f32 :=
  if h0 : t.val % 25 = 0 then rowsFirstAt11 V c t h0 else rowsLaterAt11 V c t h0 (sumsBefore11 V c t)

/-- The running row at the first point. -/
theorem sumsAt11_first (c : Dev nD) (t : Fin cfg11.N) (h0 : t.val % 25 = 0) :
    sumsAt11 V c t.val t.isLt = sumsFirstAt11 V c t h0 := by
  obtain ⟨n, hn⟩ := t
  cases n with
  | zero => exact rfl
  | succ n => exact (dif_pos h0).trans rfl

/-- The running row at a later point: the add case over the row before. -/
theorem sumsAt11_later (c : Dev nD) (t : Fin cfg11.N) (h0 : ¬t.val % 25 = 0) :
    sumsAt11 V c t.val t.isLt = sumsLaterAt11 V c t h0 (sumsBefore11 V c t) := by
  obtain ⟨n, hn⟩ := t
  cases n with
  | zero => exact absurd (Nat.zero_mod _) h0
  | succ n => exact (dif_neg h0).trans rfl

/-- The normalized block at the first point. -/
theorem rowsAt11_first (c : Dev nD) (t : Fin cfg11.N) (h0 : t.val % 25 = 0) : rowsAt11 V c t = rowsFirstAt11 V c t h0 := dif_pos h0

/-- The normalized block at a later point. -/
theorem rowsAt11_later (c : Dev nD) (t : Fin cfg11.N) (h0 : ¬t.val % 25 = 0) :
    rowsAt11 V c t = rowsLaterAt11 V c t h0 (sumsBefore11 V c t) := dif_neg h0

/-! ## The pipeline's proof data -/

/-- The proof data of the region's pipeline on core `c`: the arrays as the region finds them; after the body at point `t` each
    input's buffer still at its block, the normalized block's at `rowsAt11`, the running row's at `sumsAt11`; the class's invariant
    (the scoped rest and the generator register, untouched); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => rowsAt11 V c t
    | ⟨6, _⟩ => sumsAt11 V c t.val t.isLt
  Φ _ := Pipeline.ΦA spec11 c
  q _ := fullShare
  owed _ := 0

theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = rowsAt11 V c t := by dsimp only [dat11]
theorem after11_6 (c : Dev nD) (t : Fin cfg11.N) : (dat11 V c).after 6 t = sumsAt11 V c t.val t.isLt := by dsimp only [dat11]

/-- What the body finds in each input's buffer: its block. -/
theorem before11_0 (c : Dev nD) (t : Fin cfg11.N) (d) : (dat11 V c).before 0 t d = iblk11 V c 0 t :=
  heldIn11_0 V (dat11 V c) (A_eq11 V c 0) (after11_0 V c) t d
theorem before11_1 (c : Dev nD) (t : Fin cfg11.N) (d) : (dat11 V c).before 1 t d = iblk11 V c 1 t :=
  heldIn11_1 V (dat11 V c) (A_eq11 V c 1) (after11_1 V c) t d
theorem before11_2 (c : Dev nD) (t : Fin cfg11.N) (d) : (dat11 V c).before 2 t d = iblk11 V c 2 t :=
  heldIn11_2 V (dat11 V c) (A_eq11 V c 2) (after11_2 V c) t d
theorem before11_3 (c : Dev nD) (t : Fin cfg11.N) (d) : (dat11 V c).before 3 t d = iblk11 V c 3 t :=
  heldIn11_3 V (dat11 V c) (A_eq11 V c 3) (after11_3 V c) t d
theorem before11_4 (c : Dev nD) (t : Fin cfg11.N) (d) : (dat11 V c).before 4 t d = iblk11 V c 4 t :=
  heldIn11_4 V (dat11 V c) (A_eq11 V c 4) (after11_4 V c) t d

/-- At a later point the running row's buffer holds what the body left at the point before: the point is not the first, the row is
    written back at the last point only, the window is never idle and is uncut. -/
theorem before11_6_later (c : Dev nD) (t : Fin cfg11.N) (h0 : ¬t.val % 25 = 0) (d) :
    (dat11 V c).before 6 t d = sumsBefore11 V c t := by
  have hN : t.val < 25 := lt_of_lt_of_eq t.isLt (show cfg11.N = 25 from N_11)
  rw [Dat.before_out_kept _ 6 rfl t (by omega) (Bool.eq_false_iff.mpr fun h => by have := (flush11_6 _).mp h; dsimp only at this; omega)
    (fun _ => rfl) (fun _ _ => rfl)]
  dsimp only [dat11]

/-! ## The body obligation -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  by_cases h0 : t.val % 25 = 0
  · rw [sumsAt11_first V c t h0, rowsAt11_first V c t h0]
    unfold sumsFirstAt11 rowsFirstAt11 sumsFirst11 rowsFirst11
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst11 c (grid11.coords t) _ _ _ _ _ _ _ _ _ _ _ _ _ _ ((atFirst11_iff t).mpr h0) (iblk11 V c 0 t) (iblk11 V c 1 t) (iblk11 V c 2 t) (iblk11 V c 3 t) (iblk11 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst11_5 c _ _ _ _ _ _ _ _ _ _ _ _ _ _ _ _ _ _ _ _ _)
    unfold owns; iexists _; isplitr
    swap; · iexact H6
    ipureintro; exact View.read_writes_eq_canon _ _ _ (coverFirst11_6 c _ _ _ _ _ _ _ _ _ _ _ _ _ _ _ _ _ _ _ _ _)
  · rw [sumsAt11_later V c t h0, rowsAt11_later V c t h0]
    simp only [before11_6_later V c t h0]
    unfold sumsLaterAt11 rowsLaterAt11 sumsLater11 rowsLater11
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater11 c (grid11.coords t) _ _ _ _ _ _ _ _ _ _ _ _ _ _ (fun h => h0 ((atFirst11_iff t).mp h)) (iblk11 V c 0 t) (iblk11 V c 1 t) (iblk11 V c 2 t) (iblk11 V c 3 t) (iblk11 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater11_5 c _ _ _ _ _ _ _ _ _ _ _ _ _ _ _ _ _ _ _ _ _ _)
    unfold owns; iexists _; isplitr
    swap; · iexact H6
    ipureintro; exact View.read_writes_eq_canon _ _ _ (coverLater11_6 c _ _ _ _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.R12.lean ====
/-
  Region 12 of the idealized kernel program's @main (pallas_call 12), at ANY entry contents `V` of the TensorCore's buffers and at any
  float instance: the proof data of its pipeline (what each window's staging buffer holds after the body at each grid point) and the
  body obligation.

  The kernel: u = bf16(h + agg) · W + bias on a block of 2000 rows; the column sums of u and of u·u are added into two
  one-row accumulators, which the first grid point first resets to zero. The u block is written back at every point; the two
  accumulators stay in their staging buffers from one point to the next and are written back after the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's one branch: is this the first grid point? -/

/-- The condition of the body's only `scf.if` (the program id compared with 0), from the grid coordinates. -/
abbrev first12 (i : grid12.Coords) : Prop := (Scalar.cmpi .ne (Scalar.extui (Scalar.cmpi .eq (BitVec.ofNat 32 (i 0).val) 0#32)) 0#32) = 1#1
/-- It holds at the first point and at no other — decided over the grid. -/
theorem first12_iff : ∀ t : Fin cfg12.N, first12 (grid12.coords t) ↔ t.val = 0 :=
  (by decide +kernel : ∀ t : Fin grid12.N, first12 (grid12.coords t) ↔ t.val = 0)

/-- Each window's current staging memref at point `t`, as the pipeline passes it to the body, and its wholeness. -/
abbrev buf12_0 (t : Fin cfg12.N) : Memref sig .tc .vmem S2000x256 .f32 := win12_0.stage (cfg12.slots t 0)
abbrev whole12_0 (t : Fin cfg12.N) : (buf12_0 t).IsWhole := hstage12_0 ((cfg12.slots t 0).cast nbuf12_0)
abbrev buf12_1 (t : Fin cfg12.N) : Memref sig .tc .vmem S2000x256 .f32 := win12_1.stage (cfg12.slots t 1)
abbrev whole12_1 (t : Fin cfg12.N) : (buf12_1 t).IsWhole := hstage12_1 ((cfg12.slots t 1).cast nbuf12_1)
abbrev buf12_2 (t : Fin cfg12.N) : Memref sig .tc .vmem S256x256 .bf16 := win12_2.stage (cfg12.slots t 2)
abbrev whole12_2 (t : Fin cfg12.N) : (buf12_2 t).IsWhole := hstage12_2 ((cfg12.slots t 2).cast nbuf12_2)
abbrev buf12_3 (t : Fin cfg12.N) : Memref sig .tc .vmem S1x256 .f32 := win12_3.stage (cfg12.slots t 3)
abbrev whole12_3 (t : Fin cfg12.N) : (buf12_3 t).IsWhole := hstage12_3 ((cfg12.slots t 3).cast nbuf12_3)
abbrev buf12_4 (t : Fin cfg12.N) : Memref sig .tc .vmem S2000x256 .f32 := win12_4.stage (cfg12.slots t 4)
abbrev whole12_4 (t : Fin cfg12.N) : (buf12_4 t).IsWhole := hstage12_4 ((cfg12.slots t 4).cast nbuf12_4)
abbrev buf12_5 (t : Fin cfg12.N) : Memref sig .tc .vmem S1x256 .f32 := win12_5.stage (cfg12.slots t 5)
abbrev whole12_5 (t : Fin cfg12.N) : (buf12_5 t).IsWhole := hstage12_5 ((cfg12.slots t 5).cast nbuf12_5)
abbrev buf12_6 (t : Fin cfg12.N) : Memref sig .tc .vmem S1x256 .f32 := win12_6.stage (cfg12.slots t 6)
abbrev whole12_6 (t : Fin cfg12.N) : (buf12_6 t).IsWhole := hstage12_6 ((cfg12.slots t 6).cast nbuf12_6)

/-! ## The body's run, once per case -/

set_option maxHeartbeats 1000000 in
/-- THE FIRST POINT (the accumulators are reset). On whole staging memrefs — h, agg, the weight and the bias at their blocks, the
    three outputs' buffers at anything — the body runs to the continuation with the inputs as they were and each output's buffer
    with the pieces its stores wrote (last first): u's block once; each accumulator the zero row, then the zero row plus the column
    sums. The pieces are what the symbolic run of the skeleton finds. -/
noncomputable def resetRun12 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc12__matmul1_stats_kernel i arg1 harg1 arg2 harg2 arg3 harg3 arg4 harg4 arg5 harg5 arg6 harg6 arg7 harg7) K } := by
  refine ⟨?_, ?_, ?_, fun E K => ?run⟩
  case run =>
    simp only [cc12__matmul1_stats_kernel_eq_skeleton]; unfold cc12__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- EVERY LATER POINT (the accumulators carry on). As above, but the two accumulators' buffers hold what the point before left
    (`xo5`, `xo6`): each is stored once, at that row plus this block's column sums. -/
noncomputable def carryRun12 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) :
    Σ' (L4 : List (View.Piece (Elt F) S2000x256 .f32)) (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc12__matmul1_stats_kernel i arg1 harg1 arg2 harg2 arg3 harg3 arg4 harg4 arg5 harg5 arg6 harg6 arg7 harg7) K } := by
  refine ⟨?_, ?_, ?_, fun E K => ?run⟩
  case run =>
    simp only [cc12__matmul1_stats_kernel_eq_skeleton]; unfold cc12__matmul1_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the outputs' staging buffers -/

/-- One staging buffer of each output, through which its contents are stated (which one does not matter: the pieces cover the block). -/
abbrev uView12 : View sig .tc .vmem S2000x256 .f32 := (stage12_4 0).view
abbrev sumView12 : View sig .tc .vmem S1x256 .f32 := (stage12_5 0).view
abbrev sqView12 : View sig .tc .vmem S1x256 .f32 := (stage12_6 0).view

/-- At the first point each output's pieces tile its block (checked by evaluating the piece list), so they cover it. -/
theorem resetCover12_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) (y : S2000x256.Idx) :
    ∃ pc ∈ (resetRun12 c i arg1 harg1 arg2 harg2 arg3 harg3 arg4 harg4 arg5 harg5 arg6 harg6 arg7 harg7 hc0 x0 x1 x2 x3).1, y ∈ pc.1.set :=
  View.cover_of_tiledL (resetRun12 c i arg1 harg1 arg2 harg2 arg3 harg3 arg4 harg4 arg5 harg5 arg6 harg6 arg7 harg7 hc0 x0 x1 x2 x3).1 S2000x256.size (by sl_kernel_rfl) y
theorem resetCover12_5 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) (y : S1x256.Idx) :
    ∃ pc ∈ (resetRun12 c i arg1 harg1 arg2 harg2 arg3 harg3 arg4 harg4 arg5 harg5 arg6 harg6 arg7 harg7 hc0 x0 x1 x2 x3).2.1, y ∈ pc.1.set :=
  View.cover_of_tiledL (resetRun12 c i arg1 harg1 arg2 harg2 arg3 harg3 arg4 harg4 arg5 harg5 arg6 harg6 arg7 harg7 hc0 x0 x1 x2 x3).2.1 S1x256.size (by sl_kernel_rfl) y
theorem resetCover12_6 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) (y : S1x256.Idx) :
    ∃ pc ∈ (resetRun12 c i arg1 harg1 arg2 harg2 arg3 harg3 arg4 harg4 arg5 harg5 arg6 harg6 arg7 harg7 hc0 x0 x1 x2 x3).2.2.1, y ∈ pc.1.set :=
  View.cover_of_tiledL (resetRun12 c i arg1 harg1 arg2 harg2 arg3 harg3 arg4 harg4 arg5 harg5 arg6 harg6 arg7 harg7 hc0 x0 x1 x2 x3).2.2.1 S1x256.size (by sl_kernel_rfl) y

/-- What the first point leaves in u's staging buffer: its pieces read back. -/
def resetOut12_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) : Vec F S2000x256 .f32 :=
  uView12.read (Elt F) (uView12.writes (Elt F) uView12.junk (resetRun12 c i arg1 harg1 arg2 harg2 arg3 harg3 arg4 harg4 arg5 harg5 arg6 harg6 arg7 harg7 hc0 x0 x1 x2 x3).1)
/-- What the first point leaves in the column-sum accumulator. -/
def resetOut12_5 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) : Vec F S1x256 .f32 :=
  sumView12.read (Elt F) (sumView12.writes (Elt F) sumView12.junk (resetRun12 c i arg1 harg1 arg2 harg2 arg3 harg3 arg4 harg4 arg5 harg5 arg6 harg6 arg7 harg7 hc0 x0 x1 x2 x3).2.1)
/-- What the first point leaves in the sum-of-squares accumulator. -/
def resetOut12_6 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) : Vec F S1x256 .f32 :=
  sqView12.read (Elt F) (sqView12.writes (Elt F) sqView12.junk (resetRun12 c i arg1 harg1 arg2 harg2 arg3 harg3 arg4 harg4 arg5 harg5 arg6 harg6 arg7 harg7 hc0 x0 x1 x2 x3).2.2.1)

/-- At a later point too each output's pieces cover its block. -/
theorem carryCover12_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) (y : S2000x256.Idx) :
    ∃ pc ∈ (carryRun12 c i arg1 harg1 arg2 harg2 arg3 harg3 arg4 harg4 arg5 harg5 arg6 harg6 arg7 harg7 hc0 x0 x1 x2 x3 xo5 xo6).1, y ∈ pc.1.set :=
  View.cover_of_tiledL (carryRun12 c i arg1 harg1 arg2 harg2 arg3 harg3 arg4 harg4 arg5 harg5 arg6 harg6 arg7 harg7 hc0 x0 x1 x2 x3 xo5 xo6).1 S2000x256.size (by sl_kernel_rfl) y
theorem carryCover12_5 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun12 c i arg1 harg1 arg2 harg2 arg3 harg3 arg4 harg4 arg5 harg5 arg6 harg6 arg7 harg7 hc0 x0 x1 x2 x3 xo5 xo6).2.1, y ∈ pc.1.set :=
  View.cover_of_tiledL (carryRun12 c i arg1 harg1 arg2 harg2 arg3 harg3 arg4 harg4 arg5 harg5 arg6 harg6 arg7 harg7 hc0 x0 x1 x2 x3 xo5 xo6).2.1 S1x256.size (by sl_kernel_rfl) y
theorem carryCover12_6 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) (y : S1x256.Idx) :
    ∃ pc ∈ (carryRun12 c i arg1 harg1 arg2 harg2 arg3 harg3 arg4 harg4 arg5 harg5 arg6 harg6 arg7 harg7 hc0 x0 x1 x2 x3 xo5 xo6).2.2.1, y ∈ pc.1.set :=
  View.cover_of_tiledL (carryRun12 c i arg1 harg1 arg2 harg2 arg3 harg3 arg4 harg4 arg5 harg5 arg6 harg6 arg7 harg7 hc0 x0 x1 x2 x3 xo5 xo6).2.2.1 S1x256.size (by sl_kernel_rfl) y

/-- What a later point leaves in u's staging buffer. -/
def carryOut12_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) : Vec F S2000x256 .f32 :=
  uView12.read (Elt F) (uView12.writes (Elt F) uView12.junk (carryRun12 c i arg1 harg1 arg2 harg2 arg3 harg3 arg4 harg4 arg5 harg5 arg6 harg6 arg7 harg7 hc0 x0 x1 x2 x3 xo5 xo6).1)
/-- What a later point leaves in the column-sum accumulator, over the row `xo5` it found there. -/
def carryOut12_5 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sumView12.read (Elt F) (sumView12.writes (Elt F) sumView12.junk (carryRun12 c i arg1 harg1 arg2 harg2 arg3 harg3 arg4 harg4 arg5 harg5 arg6 harg6 arg7 harg7 hc0 x0 x1 x2 x3 xo5 xo6).2.1)
/-- What a later point leaves in the sum-of-squares accumulator, over the row `xo6` it found there. -/
def carryOut12_6 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) : Vec F S1x256 .f32 :=
  sqView12.read (Elt F) (sqView12.writes (Elt F) sqView12.junk (carryRun12 c i arg1 harg1 arg2 harg2 arg3 harg3 arg4 harg4 arg5 harg5 arg6 harg6 arg7 harg7 hc0 x0 x1 x2 x3 xo5 xo6).2.2.1)

/-! ## What the outputs hold after each point -/

/-- THE RUNNING SUMS. What the three outputs' staging buffers hold after the body at position `n` (u's block, the column sums so
    far, the sums of squares so far): at the first point what the reset case leaves; at a later one what the carrying case leaves
    over the two accumulator rows of position `n - 1` (their buffers are not written back in between). -/
def left12 (c : Dev nD) : (n : ℕ) → n < cfg12.N → Vec F S2000x256 .f32 × Vec F S1x256 .f32 × Vec F S1x256 .f32
  | 0, hn =>
    (resetOut12_4 c (grid12.coords ⟨0, hn⟩) (buf12_0 ⟨0, hn⟩) (whole12_0 ⟨0, hn⟩) (buf12_1 ⟨0, hn⟩) (whole12_1 ⟨0, hn⟩) (buf12_2 ⟨0, hn⟩) (whole12_2 ⟨0, hn⟩) (buf12_3 ⟨0, hn⟩) (whole12_3 ⟨0, hn⟩) (buf12_4 ⟨0, hn⟩) (whole12_4 ⟨0, hn⟩) (buf12_5 ⟨0, hn⟩) (whole12_5 ⟨0, hn⟩) (buf12_6 ⟨0, hn⟩) (whole12_6 ⟨0, hn⟩) ((first12_iff ⟨0, hn⟩).mpr rfl) (iblk12 V c 0 ⟨0, hn⟩) (iblk12 V c 1 ⟨0, hn⟩) (iblk12 V c 2 ⟨0, hn⟩) (iblk12 V c 3 ⟨0, hn⟩),
     resetOut12_5 c (grid12.coords ⟨0, hn⟩) (buf12_0 ⟨0, hn⟩) (whole12_0 ⟨0, hn⟩) (buf12_1 ⟨0, hn⟩) (whole12_1 ⟨0, hn⟩) (buf12_2 ⟨0, hn⟩) (whole12_2 ⟨0, hn⟩) (buf12_3 ⟨0, hn⟩) (whole12_3 ⟨0, hn⟩) (buf12_4 ⟨0, hn⟩) (whole12_4 ⟨0, hn⟩) (buf12_5 ⟨0, hn⟩) (whole12_5 ⟨0, hn⟩) (buf12_6 ⟨0, hn⟩) (whole12_6 ⟨0, hn⟩) ((first12_iff ⟨0, hn⟩).mpr rfl) (iblk12 V c 0 ⟨0, hn⟩) (iblk12 V c 1 ⟨0, hn⟩) (iblk12 V c 2 ⟨0, hn⟩) (iblk12 V c 3 ⟨0, hn⟩),
     resetOut12_6 c (grid12.coords ⟨0, hn⟩) (buf12_0 ⟨0, hn⟩) (whole12_0 ⟨0, hn⟩) (buf12_1 ⟨0, hn⟩) (whole12_1 ⟨0, hn⟩) (buf12_2 ⟨0, hn⟩) (whole12_2 ⟨0, hn⟩) (buf12_3 ⟨0, hn⟩) (whole12_3 ⟨0, hn⟩) (buf12_4 ⟨0, hn⟩) (whole12_4 ⟨0, hn⟩) (buf12_5 ⟨0, hn⟩) (whole12_5 ⟨0, hn⟩) (buf12_6 ⟨0, hn⟩) (whole12_6 ⟨0, hn⟩) ((first12_iff ⟨0, hn⟩).mpr rfl) (iblk12 V c 0 ⟨0, hn⟩) (iblk12 V c 1 ⟨0, hn⟩) (iblk12 V c 2 ⟨0, hn⟩) (iblk12 V c 3 ⟨0, hn⟩))
  | n + 1, hn =>
    (carryOut12_4 c (grid12.coords ⟨n + 1, hn⟩) (buf12_0 ⟨n + 1, hn⟩) (whole12_0 ⟨n + 1, hn⟩) (buf12_1 ⟨n + 1, hn⟩) (whole12_1 ⟨n + 1, hn⟩) (buf12_2 ⟨n + 1, hn⟩) (whole12_2 ⟨n + 1, hn⟩) (buf12_3 ⟨n + 1, hn⟩) (whole12_3 ⟨n + 1, hn⟩) (buf12_4 ⟨n + 1, hn⟩) (whole12_4 ⟨n + 1, hn⟩) (buf12_5 ⟨n + 1, hn⟩) (whole12_5 ⟨n + 1, hn⟩) (buf12_6 ⟨n + 1, hn⟩) (whole12_6 ⟨n + 1, hn⟩) (fun h => Nat.succ_ne_zero n ((first12_iff ⟨n + 1, hn⟩).mp h)) (iblk12 V c 0 ⟨n + 1, hn⟩) (iblk12 V c 1 ⟨n + 1, hn⟩) (iblk12 V c 2 ⟨n + 1, hn⟩) (iblk12 V c 3 ⟨n + 1, hn⟩) (left12 c n (Nat.lt_of_succ_lt hn)).2.1 (left12 c n (Nat.lt_of_succ_lt hn)).2.2,
     carryOut12_5 c (grid12.coords ⟨n + 1, hn⟩) (buf12_0 ⟨n + 1, hn⟩) (whole12_0 ⟨n + 1, hn⟩) (buf12_1 ⟨n + 1, hn⟩) (whole12_1 ⟨n + 1, hn⟩) (buf12_2 ⟨n + 1, hn⟩) (whole12_2 ⟨n + 1, hn⟩) (buf12_3 ⟨n + 1, hn⟩) (whole12_3 ⟨n + 1, hn⟩) (buf12_4 ⟨n + 1, hn⟩) (whole12_4 ⟨n + 1, hn⟩) (buf12_5 ⟨n + 1, hn⟩) (whole12_5 ⟨n + 1, hn⟩) (buf12_6 ⟨n + 1, hn⟩) (whole12_6 ⟨n + 1, hn⟩) (fun h => Nat.succ_ne_zero n ((first12_iff ⟨n + 1, hn⟩).mp h)) (iblk12 V c 0 ⟨n + 1, hn⟩) (iblk12 V c 1 ⟨n + 1, hn⟩) (iblk12 V c 2 ⟨n + 1, hn⟩) (iblk12 V c 3 ⟨n + 1, hn⟩) (left12 c n (Nat.lt_of_succ_lt hn)).2.1 (left12 c n (Nat.lt_of_succ_lt hn)).2.2,
     carryOut12_6 c (grid12.coords ⟨n + 1, hn⟩) (buf12_0 ⟨n + 1, hn⟩) (whole12_0 ⟨n + 1, hn⟩) (buf12_1 ⟨n + 1, hn⟩) (whole12_1 ⟨n + 1, hn⟩) (buf12_2 ⟨n + 1, hn⟩) (whole12_2 ⟨n + 1, hn⟩) (buf12_3 ⟨n + 1, hn⟩) (whole12_3 ⟨n + 1, hn⟩) (buf12_4 ⟨n + 1, hn⟩) (whole12_4 ⟨n + 1, hn⟩) (buf12_5 ⟨n + 1, hn⟩) (whole12_5 ⟨n + 1, hn⟩) (buf12_6 ⟨n + 1, hn⟩) (whole12_6 ⟨n + 1, hn⟩) (fun h => Nat.succ_ne_zero n ((first12_iff ⟨n + 1, hn⟩).mp h)) (iblk12 V c 0 ⟨n + 1, hn⟩) (iblk12 V c 1 ⟨n + 1, hn⟩) (iblk12 V c 2 ⟨n + 1, hn⟩) (iblk12 V c 3 ⟨n + 1, hn⟩) (left12 c n (Nat.lt_of_succ_lt hn)).2.1 (left12 c n (Nat.lt_of_succ_lt hn)).2.2)

/-- `left12` at the first point: the reset case's contents. -/
theorem left12_first (c : Dev nD) (t : Fin cfg12.N) (h0 : t.val = 0) :
    left12 V c t.val t.isLt =
    (resetOut12_4 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) ((first12_iff t).mpr h0) (iblk12 V c 0 t) (iblk12 V c 1 t) (iblk12 V c 2 t) (iblk12 V c 3 t),
     resetOut12_5 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) ((first12_iff t).mpr h0) (iblk12 V c 0 t) (iblk12 V c 1 t) (iblk12 V c 2 t) (iblk12 V c 3 t),
     resetOut12_6 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) ((first12_iff t).mpr h0) (iblk12 V c 0 t) (iblk12 V c 1 t) (iblk12 V c 2 t) (iblk12 V c 3 t)) := by
  obtain ⟨n, hn⟩ := t
  cases n with
  | zero => exact rfl
  | succ n => exact absurd h0 (Nat.succ_ne_zero n)

/-- `left12` at a later point: the carrying case's contents, over the accumulator rows the point before left. -/
theorem left12_later (c : Dev nD) (t : Fin cfg12.N) (h0 : ¬t.val = 0) :
    left12 V c t.val t.isLt =
    (carryOut12_4 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) (fun h => h0 ((first12_iff t).mp h)) (iblk12 V c 0 t) (iblk12 V c 1 t) (iblk12 V c 2 t) (iblk12 V c 3 t) (left12 V c (t.val - 1) (Nat.lt_of_le_of_lt (Nat.sub_le _ _) t.isLt)).2.1 (left12 V c (t.val - 1) (Nat.lt_of_le_of_lt (Nat.sub_le _ _) t.isLt)).2.2,
     carryOut12_5 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) (fun h => h0 ((first12_iff t).mp h)) (iblk12 V c 0 t) (iblk12 V c 1 t) (iblk12 V c 2 t) (iblk12 V c 3 t) (left12 V c (t.val - 1) (Nat.lt_of_le_of_lt (Nat.sub_le _ _) t.isLt)).2.1 (left12 V c (t.val - 1) (Nat.lt_of_le_of_lt (Nat.sub_le _ _) t.isLt)).2.2,
     carryOut12_6 c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) (fun h => h0 ((first12_iff t).mp h)) (iblk12 V c 0 t) (iblk12 V c 1 t) (iblk12 V c 2 t) (iblk12 V c 3 t) (left12 V c (t.val - 1) (Nat.lt_of_le_of_lt (Nat.sub_le _ _) t.isLt)).2.1 (left12 V c (t.val - 1) (Nat.lt_of_le_of_lt (Nat.sub_le _ _) t.isLt)).2.2) := by
  obtain ⟨n, hn⟩ := t
  cases n with
  | zero => exact absurd rfl h0
  | succ n => exact rfl

/-! ## The pipeline's proof data -/

/-- The proof data of the region's pipeline on core `c`: the arrays as the region finds them; after the body at point `t` each
    input's buffer still at its block, the outputs' at `left12`; the invariant the scoped rest and the generator register; nothing
    owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => (left12 V c t.val t.isLt).1
    | ⟨5, _⟩ => (left12 V c t.val t.isLt).2.1
    | ⟨6, _⟩ => (left12 V c t.val t.isLt).2.2
  Φ _ := Pipeline.ΦA spec12 c
  q _ := fullShare
  owed _ := 0

theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = (left12 V c t.val t.isLt).1 := by dsimp only [dat12]
theorem after12_5 (c : Dev nD) (t : Fin cfg12.N) : (dat12 V c).after 5 t = (left12 V c t.val t.isLt).2.1 := by dsimp only [dat12]
theorem after12_6 (c : Dev nD) (t : Fin cfg12.N) : (dat12 V c).after 6 t = (left12 V c t.val t.isLt).2.2 := by dsimp only [dat12]

/-- Each input's current staging buffer holds its block at every point, fetched there or not: h and agg are fetched at every
    point; the weight and the bias at the first only, and their block index never moves. -/
theorem before12_0 (c : Dev nD) (t : Fin cfg12.N) (d) : (dat12 V c).before 0 t d = iblk12 V c 0 t :=
  ((dat12 V c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)
theorem before12_1 (c : Dev nD) (t : Fin cfg12.N) (d) : (dat12 V c).before 1 t d = iblk12 V c 1 t :=
  ((dat12 V c).before_in_eq_fetched 1 rfl (fun _ => rfl) (fun _ _ _ => rfl)
      (fun t => by rw [after12_1]; unfold Dat.blockOf iblk12; rw [A_eq12]; try rfl) t d).trans
    (by unfold Dat.fetched Dat.blockOf iblk12; rw [A_eq12]; try rfl)
theorem before12_2 (c : Dev nD) (t : Fin cfg12.N) (d) : (dat12 V c).before 2 t d = iblk12 V c 2 t :=
  ((dat12 V c).before_in_eq_fetched 2 rfl (fun _ => rfl) (fun _ _ _ => rfl)
      (fun t => by rw [after12_2]; unfold Dat.blockOf iblk12; rw [A_eq12]; try rfl) t d).trans
    (by unfold Dat.fetched Dat.blockOf iblk12; rw [A_eq12]; try rfl)
theorem before12_3 (c : Dev nD) (t : Fin cfg12.N) (d) : (dat12 V c).before 3 t d = iblk12 V c 3 t :=
  ((dat12 V c).before_in_eq_fetched 3 rfl (fun _ => rfl) (fun _ _ _ => rfl)
      (fun t => by rw [after12_3]; unfold Dat.blockOf iblk12; rw [A_eq12]; try rfl) t d).trans
    (by unfold Dat.fetched Dat.blockOf iblk12; rw [A_eq12]; try rfl)

/-- At a later point each accumulator's staging buffer holds what the body left at the point before: the buffer is written back
    after the last point only, the window is live and uncut. -/
theorem before12_5_later (c : Dev nD) (t : Fin cfg12.N) (h0 : ¬t.val = 0) (d) :
    (dat12 V c).before 5 t d = (left12 V c (t.val - 1) (Nat.lt_of_le_of_lt (Nat.sub_le _ _) t.isLt)).2.1 := by
  have hN : t.val < 25 := lt_of_lt_of_eq t.isLt (show cfg12.N = 25 from N_12)
  rw [Dat.before_out_kept _ 5 rfl t h0 (Bool.eq_false_iff.mpr fun h => by have := (flush12_5 _).mp h; dsimp only at this; omega)
    (fun _ => rfl) (fun _ _ => rfl)]
  dsimp only [dat12]
theorem before12_6_later (c : Dev nD) (t : Fin cfg12.N) (h0 : ¬t.val = 0) (d) :
    (dat12 V c).before 6 t d = (left12 V c (t.val - 1) (Nat.lt_of_le_of_lt (Nat.sub_le _ _) t.isLt)).2.2 := by
  have hN : t.val < 25 := lt_of_lt_of_eq t.isLt (show cfg12.N = 25 from N_12)
  rw [Dat.before_out_kept _ 6 rfl t h0 (Bool.eq_false_iff.mpr fun h => by have := (flush12_6 _).mp h; dsimp only at this; omega)
    (fun _ => rfl) (fun _ _ => rfl)]
  dsimp only [dat12]

/-! ## The body obligation, at a generic point -/

/-- What the body is called with at point `t` (the windows one by one), -/
def bodyPre12 (c : Dev nD) (t : Fin cfg12.N) : sProp 𝕄 :=
  iprop((dat12 V c).Φ t.castSucc ∗ (dat12 V c).owesAt () t.castSucc
    ∗ (∃ d, owns (c : Thread nD τ) (buf12_0 t) fullShare ((dat12 V c).before 0 t d))
    ∗ (∃ d, owns (c : Thread nD τ) (buf12_1 t) fullShare ((dat12 V c).before 1 t d))
    ∗ (∃ d, owns (c : Thread nD τ) (buf12_2 t) fullShare ((dat12 V c).before 2 t d))
    ∗ (∃ d, owns (c : Thread nD τ) (buf12_3 t) fullShare ((dat12 V c).before 3 t d))
    ∗ (∃ d, owns (c : Thread nD τ) (buf12_4 t) fullShare ((dat12 V c).before 4 t d))
    ∗ (∃ d, owns (c : Thread nD τ) (buf12_5 t) fullShare ((dat12 V c).before 5 t d))
    ∗ (∃ d, owns (c : Thread nD τ) (buf12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (buf12_0 t) fullShare ((dat12 V c).after 0 t)
    ∗ owns (c : Thread nD τ) (buf12_1 t) fullShare ((dat12 V c).after 1 t)
    ∗ owns (c : Thread nD τ) (buf12_2 t) fullShare ((dat12 V c).after 2 t)
    ∗ owns (c : Thread nD τ) (buf12_3 t) fullShare ((dat12 V c).after 3 t)
    ∗ owns (c : Thread nD τ) (buf12_4 t) fullShare ((dat12 V c).after 4 t)
    ∗ owns (c : Thread nD τ) (buf12_5 t) fullShare ((dat12 V c).after 5 t)
    ∗ owns (c : Thread nD τ) (buf12_6 t) fullShare ((dat12 V c).after 6 t))

set_option maxHeartbeats 1600000 in
/-- The body at any point. The inputs' memrefs hold their blocks; `first12_iff` says which case the point is in; at a later
    point the accumulators' memrefs hold the rows the point before left; so that case's run applies, and each output's pieces,
    covering its block, read back as the contents `left12` names. The invariant and what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  by_cases h0 : t.val = 0
  · rw [left12_first V c t h0]
    dsimp only
    unfold resetOut12_4 resetOut12_5 resetOut12_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((resetRun12 c (grid12.coords t) _ _ _ _ _ _ _ _ _ _ _ _ _ _ ((first12_iff t).mpr h0) (iblk12 V c 0 t) (iblk12 V c 1 t) (iblk12 V c 2 t) (iblk12 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (resetCover12_4 c _ _ _ _ _ _ _ _ _ _ _ _ _ _ _ _ _ _ _ _)
    isplitl [H5]
    · unfold owns; iexists _; isplitr
      swap; · iexact H5
      ipureintro; exact View.read_writes_of_cover _ _ _ _ _ (resetCover12_5 c _ _ _ _ _ _ _ _ _ _ _ _ _ _ _ _ _ _ _ _)
    unfold owns; iexists _; isplitr
    swap; · iexact H6
    ipureintro; exact View.read_writes_of_cover _ _ _ _ _ (resetCover12_6 c _ _ _ _ _ _ _ _ _ _ _ _ _ _ _ _ _ _ _ _)
  · rw [left12_later V c t h0]
    dsimp only
    simp only [before12_5_later V c t h0, before12_6_later V c t h0]
    unfold carryOut12_4 carryOut12_5 carryOut12_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((carryRun12 c (grid12.coords t) _ _ _ _ _ _ _ _ _ _ _ _ _ _ (fun h => h0 ((first12_iff t).mp h)) (iblk12 V c 0 t) (iblk12 V c 1 t) (iblk12 V c 2 t) (iblk12 V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (carryCover12_4 c _ _ _ _ _ _ _ _ _ _ _ _ _ _ _ _ _ _ _ _ _ _)
    isplitl [H5]
    · unfold owns; iexists _; isplitr
      swap; · iexact H5
      ipureintro; exact View.read_writes_of_cover _ _ _ _ _ (carryCover12_5 c _ _ _ _ _ _ _ _ _ _ _ _ _ _ _ _ _ _ _ _ _ _)
    unfold owns; iexists _; isplitr
    swap; · iexact H6
    ipureintro; exact View.read_writes_of_cover _ _ _ _ _ (carryCover12_6 c _ _ _ _ _ _ _ _ _ _ _ _ _ _ _ _ _ _ _ _ _ _)

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.R13.lean ====
/-
  Region 13 of the idealized kernel program's @main (pallas_call 13), at ANY entry contents `V` of the TensorCore's buffers and at any
  float instance: the proof data of its pipeline (what each window's staging buffer holds after the body at each grid point) and the
  body obligation.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The inputs' staging buffers -/

/-- Input window 0's current staging buffer holds its block at every point, fetched there or not (unfetched, the block index has
    not moved), for ANY proof data whose array is the entry contents' (`hA`) and whose body leaves the block in place (`hafter`). -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not (unfetched, the block index has
    not moved), for ANY proof data whose array is the entry contents' (`hA`) and whose body leaves the block in place (`hafter`). -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not (unfetched, the block index has
    not moved), for ANY proof data whose array is the entry contents' (`hA`) and whose body leaves the block in place (`hafter`). -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not (unfetched, the block index has
    not moved), for ANY proof data whose array is the entry contents' (`hA`) and whose body leaves the block in place (`hafter`). -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not (unfetched, the block index has
    not moved), for ANY proof data whose array is the entry contents' (`hA`) and whose body leaves the block in place (`hafter`). -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, fetched there or not (unfetched, the block index has
    not moved), for ANY proof data whose array is the entry contents' (`hA`) and whose body leaves the block in place (`hafter`). -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Input window 6's current staging buffer holds its block at every point, fetched there or not (unfetched, the block index has
    not moved), for ANY proof data whose array is the entry contents' (`hA`) and whose body leaves the block in place (`hafter`). -/
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's branch condition -/

/-- The condition of the body's one `scf.if` (is this the first point?), from the grid coordinates. -/
abbrev cond13_0 (i : grid13.Coords) : Prop := (Scalar.cmpi .ne (Scalar.extui (Scalar.cmpi .eq (BitVec.ofNat 32 (i 0).val) 0#32)) 0#32) = 1#1
/-- It holds at the first point only — decided over the grid. -/
theorem hcond13_0 : ∀ t : Fin cfg13.N, cond13_0 (grid13.coords t) ↔ t.val % 25 = 0 :=
  (by decide +kernel : ∀ t : Fin grid13.N, cond13_0 (grid13.coords t) ↔ t.val % 25 = 0)

/-! ## The staging memrefs at a point -/

/-- One staging buffer of each output window, through which its contents are stated (the choice does not matter: the stores cover). -/
abbrev VO13_7 : View sig .tc .vmem S2000x256 .f32 := (stage13_7 0).view
abbrev VO13_8 : View sig .tc .vmem S1x256 .f32 := (stage13_8 0).view
abbrev VO13_9 : View sig .tc .vmem S1x256 .f32 := (stage13_9 0).view
/-- Each window's current staging memref at point `t`, spelled as the pipeline passes it to the body, and its wholeness. -/
abbrev ms13_0 (t : Fin cfg13.N) : Memref sig .tc .vmem S2000x256 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1x256 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x256 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S1x256 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S1x256 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S256x256 .bf16 := win13_5.stage (cfg13.slots t 5)
abbrev hs13_5 (t : Fin cfg13.N) : (ms13_5 t).IsWhole := hstage13_5 ((cfg13.slots t 5).cast nbuf13_5)
abbrev ms13_6 (t : Fin cfg13.N) : Memref sig .tc .vmem S1x256 .f32 := win13_6.stage (cfg13.slots t 6)
abbrev hs13_6 (t : Fin cfg13.N) : (ms13_6 t).IsWhole := hstage13_6 ((cfg13.slots t 6).cast nbuf13_6)
abbrev ms13_7 (t : Fin cfg13.N) : Memref sig .tc .vmem S2000x256 .f32 := win13_7.stage (cfg13.slots t 7)
abbrev hs13_7 (t : Fin cfg13.N) : (ms13_7 t).IsWhole := hstage13_7 ((cfg13.slots t 7).cast nbuf13_7)
abbrev ms13_8 (t : Fin cfg13.N) : Memref sig .tc .vmem S1x256 .f32 := win13_8.stage (cfg13.slots t 8)
abbrev hs13_8 (t : Fin cfg13.N) : (ms13_8 t).IsWhole := hstage13_8 ((cfg13.slots t 8).cast nbuf13_8)
abbrev ms13_9 (t : Fin cfg13.N) : Memref sig .tc .vmem S1x256 .f32 := win13_9.stage (cfg13.slots t 9)
abbrev hs13_9 (t : Fin cfg13.N) : (ms13_9 t).IsWhole := hstage13_9 ((cfg13.slots t 9).cast nbuf13_9)

/-! ## The body on any staging memrefs, case by case -/

set_option maxHeartbeats 4000000 in
/-- The body at the FIRST point (the accumulators are reset before they are read): on whole staging memrefs — the seven inputs' at
    their blocks, the three outputs' at anything — it runs to the continuation holding the inputs' as they were and each output's
    with its stores written, as pieces (last first); the pieces are the witness the run finds. -/
noncomputable def kernelRun13_A (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc13__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc13__norm_matmul2_stats_kernel_eq_skeleton]; unfold cc13__norm_matmul2_stats_kernel_skel
    simp only [k13_part1_eq_skeleton]; unfold k13_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

set_option maxHeartbeats 4000000 in
/-- The body at a point OTHER than the first (no reset: the accumulators are read as the point before left them, `xo8`, `xo9`): on
    whole staging memrefs — the seven inputs' at their blocks, the block output's at anything — it runs to the continuation holding
    the inputs' as they were and each output's with its stores written, as pieces (last first); the pieces are the witness the run
    finds. -/
noncomputable def kernelRun13_B (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    Σ' (L7 : List (View.Piece (Elt F) S2000x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc13__norm_matmul2_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc13__norm_matmul2_stats_kernel_eq_skeleton]; unfold cc13__norm_matmul2_stats_kernel_skel
    simp only [k13_part1_eq_skeleton]; unfold k13_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in the outputs' staging buffers -/

/-- Case A's stores into output window 7 (the block of `u2`) tile its block, so they cover it. -/
theorem cover13_A_7 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S2000x256.Idx) :
    ∃ pc ∈ (kernelRun13_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun13_A c i arg1 harg1 arg2 harg2 arg3 harg3 arg4 harg4 arg5 harg5 arg6 harg6 arg7 harg7 arg8 harg8 arg9 harg9 arg10 harg10 hc0 x0 x1 x2 x3 x4 x5 x6).1 S2000x256.size (by sl_kernel_rfl) y

/-- What case A leaves in output window 7's staging buffer: its stores read back. -/
def out13_A_7 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S2000x256 .f32 :=
  VO13_7.read (Elt F) (VO13_7.writes (Elt F) VO13_7.junk (kernelRun13_A c i arg1 harg1 arg2 harg2 arg3 harg3 arg4 harg4 arg5 harg5 arg6 harg6 arg7 harg7 arg8 harg8 arg9 harg9 arg10 harg10 hc0 x0 x1 x2 x3 x4 x5 x6).1)

/-- Case A's stores into output window 8 (the running column sums) tile its block, so they cover it. -/
theorem cover13_A_8 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun13_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun13_A c i arg1 harg1 arg2 harg2 arg3 harg3 arg4 harg4 arg5 harg5 arg6 harg6 arg7 harg7 arg8 harg8 arg9 harg9 arg10 harg10 hc0 x0 x1 x2 x3 x4 x5 x6).2.1 S1x256.size (by sl_kernel_rfl) y

/-- What case A leaves in output window 8's staging buffer: its stores read back. -/
def out13_A_8 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO13_8.read (Elt F) (VO13_8.writes (Elt F) VO13_8.junk (kernelRun13_A c i arg1 harg1 arg2 harg2 arg3 harg3 arg4 harg4 arg5 harg5 arg6 harg6 arg7 harg7 arg8 harg8 arg9 harg9 arg10 harg10 hc0 x0 x1 x2 x3 x4 x5 x6).2.1)

/-- Case A's stores into output window 9 (the running column sums of squares) tile its block, so they cover it. -/
theorem cover13_A_9 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (y : S1x256.Idx) :
    ∃ pc ∈ (kernelRun13_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun13_A c i arg1 harg1 arg2 harg2 arg3 harg3 arg4 harg4 arg5 harg5 arg6 harg6 arg7 harg7 arg8 harg8 arg9 harg9 arg10 harg10 hc0 x0 x1 x2 x3 x4 x5 x6).2.2.1 S1x256.size (by sl_kernel_rfl) y

/-- What case A leaves in output window 9's staging buffer: its stores read back. -/
def out13_A_9 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) : Vec F S1x256 .f32 :=
  VO13_9.read (Elt F) (VO13_9.writes (Elt F) VO13_9.junk (kernelRun13_A c i arg1 harg1 arg2 harg2 arg3 harg3 arg4 harg4 arg5 harg5 arg6 harg6 arg7 harg7 arg8 harg8 arg9 harg9 arg10 harg10 hc0 x0 x1 x2 x3 x4 x5 x6).2.2.1)

/-- Case B's stores into output window 7 (the block of `u2`) tile its block, so they cover it. -/
theorem cover13_B_7 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S2000x256.Idx) :
    ∃ pc ∈ (kernelRun13_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun13_B c i arg1 harg1 arg2 harg2 arg3 harg3 arg4 harg4 arg5 harg5 arg6 harg6 arg7 harg7 arg8 harg8 arg9 harg9 arg10 harg10 hc0 x0 x1 x2 x3 x4 x5 x6 xo8 xo9).1 S2000x256.size (by sl_kernel_rfl) y

/-- What case B leaves in output window 7's staging buffer: its stores read back. -/
def out13_B_7 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S2000x256 .f32 :=
  VO13_7.read (Elt F) (VO13_7.writes (Elt F) VO13_7.junk (kernelRun13_B c i arg1 harg1 arg2 harg2 arg3 harg3 arg4 harg4 arg5 harg5 arg6 harg6 arg7 harg7 arg8 harg8 arg9 harg9 arg10 harg10 hc0 x0 x1 x2 x3 x4 x5 x6 xo8 xo9).1)

/-- Case B's stores into output window 8 (the running column sums) tile its block, so they cover it. -/
theorem cover13_B_8 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.1 S1x256.size (by sl_kernel_rfl) y

/-- What case B leaves in output window 8's staging buffer: its stores read back. -/
def out13_B_8 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO13_8.read (Elt F) (VO13_8.writes (Elt F) VO13_8.junk (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- Case B's stores into output window 9 (the running column sums of squares) tile its block, so they cover it. -/
theorem cover13_B_9 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) (y : S1x256.Idx) :
    ∃ pc ∈ (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x256.size (by sl_kernel_rfl) y

/-- What case B leaves in output window 9's staging buffer: its stores read back. -/
def out13_B_9 (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) : Vec F S1x256 .f32 :=
  VO13_9.read (Elt F) (VO13_9.writes (Elt F) VO13_9.junk (kernelRun13_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs' staging buffers hold after each point -/

/-- THE ACCUMULATION. What the three outputs' staging buffers hold after the body at position `n`: at the first point what the
    resetting case leaves; at any other what the accumulating case leaves over the sums the point before left (their buffers are
    not written back in between). -/
def outsAt13 (c : Dev nD) : (n : ℕ) → n < cfg13.N → Vec F S2000x256 .f32 × Vec F S1x256 .f32 × Vec F S1x256 .f32
  | 0, hn => (out13_A_7 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) (ms13_7 ⟨0, hn⟩) (hs13_7 ⟨0, hn⟩) (ms13_8 ⟨0, hn⟩) (hs13_8 ⟨0, hn⟩) (ms13_9 ⟨0, hn⟩) (hs13_9 ⟨0, hn⟩) ((hcond13_0 ⟨0, hn⟩).mpr (Nat.zero_mod _)) (iblk13 V c 0 ⟨0, hn⟩) (iblk13 V c 1 ⟨0, hn⟩) (iblk13 V c 2 ⟨0, hn⟩) (iblk13 V c 3 ⟨0, hn⟩) (iblk13 V c 4 ⟨0, hn⟩) (iblk13 V c 5 ⟨0, hn⟩) (iblk13 V c 6 ⟨0, hn⟩),
        out13_A_8 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) (ms13_7 ⟨0, hn⟩) (hs13_7 ⟨0, hn⟩) (ms13_8 ⟨0, hn⟩) (hs13_8 ⟨0, hn⟩) (ms13_9 ⟨0, hn⟩) (hs13_9 ⟨0, hn⟩) ((hcond13_0 ⟨0, hn⟩).mpr (Nat.zero_mod _)) (iblk13 V c 0 ⟨0, hn⟩) (iblk13 V c 1 ⟨0, hn⟩) (iblk13 V c 2 ⟨0, hn⟩) (iblk13 V c 3 ⟨0, hn⟩) (iblk13 V c 4 ⟨0, hn⟩) (iblk13 V c 5 ⟨0, hn⟩) (iblk13 V c 6 ⟨0, hn⟩),
        out13_A_9 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) (ms13_5 ⟨0, hn⟩) (hs13_5 ⟨0, hn⟩) (ms13_6 ⟨0, hn⟩) (hs13_6 ⟨0, hn⟩) (ms13_7 ⟨0, hn⟩) (hs13_7 ⟨0, hn⟩) (ms13_8 ⟨0, hn⟩) (hs13_8 ⟨0, hn⟩) (ms13_9 ⟨0, hn⟩) (hs13_9 ⟨0, hn⟩) ((hcond13_0 ⟨0, hn⟩).mpr (Nat.zero_mod _)) (iblk13 V c 0 ⟨0, hn⟩) (iblk13 V c 1 ⟨0, hn⟩) (iblk13 V c 2 ⟨0, hn⟩) (iblk13 V c 3 ⟨0, hn⟩) (iblk13 V c 4 ⟨0, hn⟩) (iblk13 V c 5 ⟨0, hn⟩) (iblk13 V c 6 ⟨0, hn⟩))
  | n + 1, hn =>
    if h0 : (n + 1) % 25 = 0 then
      (out13_A_7 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) ((hcond13_0 ⟨n + 1, hn⟩).mpr h0) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩),
        out13_A_8 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) ((hcond13_0 ⟨n + 1, hn⟩).mpr h0) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩),
        out13_A_9 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) ((hcond13_0 ⟨n + 1, hn⟩).mpr h0) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩))
    else
      (out13_B_7 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) (fun h => h0 ((hcond13_0 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩) (outsAt13 c n (Nat.lt_of_succ_lt hn)).2.1 (outsAt13 c n (Nat.lt_of_succ_lt hn)).2.2,
        out13_B_8 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) (fun h => h0 ((hcond13_0 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩) (outsAt13 c n (Nat.lt_of_succ_lt hn)).2.1 (outsAt13 c n (Nat.lt_of_succ_lt hn)).2.2,
        out13_B_9 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) (ms13_5 ⟨n + 1, hn⟩) (hs13_5 ⟨n + 1, hn⟩) (ms13_6 ⟨n + 1, hn⟩) (hs13_6 ⟨n + 1, hn⟩) (ms13_7 ⟨n + 1, hn⟩) (hs13_7 ⟨n + 1, hn⟩) (ms13_8 ⟨n + 1, hn⟩) (hs13_8 ⟨n + 1, hn⟩) (ms13_9 ⟨n + 1, hn⟩) (hs13_9 ⟨n + 1, hn⟩) (fun h => h0 ((hcond13_0 ⟨n + 1, hn⟩).mp h)) (iblk13 V c 0 ⟨n + 1, hn⟩) (iblk13 V c 1 ⟨n + 1, hn⟩) (iblk13 V c 2 ⟨n + 1, hn⟩) (iblk13 V c 3 ⟨n + 1, hn⟩) (iblk13 V c 4 ⟨n + 1, hn⟩) (iblk13 V c 5 ⟨n + 1, hn⟩) (iblk13 V c 6 ⟨n + 1, hn⟩) (outsAt13 c n (Nat.lt_of_succ_lt hn)).2.1 (outsAt13 c n (Nat.lt_of_succ_lt hn)).2.2)

/-- `outsAt13` at the first point: the resetting case's contents. -/
theorem outsAt13_A (c : Dev nD) (t : Fin cfg13.N) (h0 : t.val % 25 = 0) :
    outsAt13 V c t.val t.isLt = (out13_A_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr h0) (iblk13 V c 0 t) (iblk13 V c 1 t) (iblk13 V c 2 t) (iblk13 V c 3 t) (iblk13 V c 4 t) (iblk13 V c 5 t) (iblk13 V c 6 t),
        out13_A_8 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr h0) (iblk13 V c 0 t) (iblk13 V c 1 t) (iblk13 V c 2 t) (iblk13 V c 3 t) (iblk13 V c 4 t) (iblk13 V c 5 t) (iblk13 V c 6 t),
        out13_A_9 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr h0) (iblk13 V c 0 t) (iblk13 V c 1 t) (iblk13 V c 2 t) (iblk13 V c 3 t) (iblk13 V c 4 t) (iblk13 V c 5 t) (iblk13 V c 6 t)) := by
  obtain ⟨n, hn⟩ := t
  cases n with
  | zero => exact rfl
  | succ n => exact (dif_pos h0).trans rfl

/-- `outsAt13` at any other point: the accumulating case's contents, over what the point before left. -/
theorem outsAt13_B (c : Dev nD) (t : Fin cfg13.N) (h0 : ¬t.val % 25 = 0) :
    outsAt13 V c t.val t.isLt = (out13_B_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2,
        out13_B_8 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2,
        out13_B_9 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at point `t` each
    input's buffer at its block and the outputs' at `outsAt13`; the invariant the scoped rest and the generator register, untouched;
    nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => (outsAt13 V c t.val t.isLt).1
    | ⟨8, _⟩ => (outsAt13 V c t.val t.isLt).2.1
    | ⟨9, _⟩ => (outsAt13 V c t.val t.isLt).2.2
  Φ _ := Pipeline.ΦA spec13 c
  q _ := fullShare
  owed _ := 0

/-- The proof data's arrays are the region-entry contents (the definition projected, so that `V` is never unfolded). -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = (outsAt13 V c t.val t.isLt).1 := by dsimp only [dat13]
theorem after13_8 (c : Dev nD) (t : Fin cfg13.N) : (dat13 V c).after 8 t = (outsAt13 V c t.val t.isLt).2.1 := by dsimp only [dat13]
theorem after13_9 (c : Dev nD) (t : Fin cfg13.N) : (dat13 V c).after 9 t = (outsAt13 V c t.val t.isLt).2.2 := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d
/-- At a point other than the first, accumulator window 8's staging buffer holds what the body left at the point before: its block
    is the same at every point and is written back at the last point only. -/
theorem before13_8_B (c : Dev nD) (t : Fin cfg13.N) (h0 : ¬t.val % 25 = 0) (d) :
    (dat13 V c).before 8 t d = (outsAt13 V c (t.val - 1) (Nat.lt_of_le_of_lt (Nat.sub_le _ _) t.isLt)).2.1 := by
  have hN : t.val < 25 := lt_of_lt_of_eq t.isLt (show cfg13.N = 25 from N_13)
  rw [Dat.before_out_kept _ 8 rfl t (by omega) (Bool.eq_false_iff.mpr fun h => by have := (flush13_8 _).mp h; dsimp only at this; omega)
    (fun _ => rfl) (fun _ _ => rfl)]
  dsimp only [dat13]
/-- At a point other than the first, accumulator window 9's staging buffer holds what the body left at the point before: its block
    is the same at every point and is written back at the last point only. -/
theorem before13_9_B (c : Dev nD) (t : Fin cfg13.N) (h0 : ¬t.val % 25 = 0) (d) :
    (dat13 V c).before 9 t d = (outsAt13 V c (t.val - 1) (Nat.lt_of_le_of_lt (Nat.sub_le _ _) t.isLt)).2.2 := by
  have hN : t.val < 25 := lt_of_lt_of_eq t.isLt (show cfg13.N = 25 from N_13)
  rw [Dat.before_out_kept _ 9 rfl t (by omega) (Bool.eq_false_iff.mpr fun h => by have := (flush13_9 _).mp h; dsimp only at this; omega)
    (fun _ => rfl) (fun _ _ => rfl)]
  dsimp only [dat13]

/-! ## The body obligation, at a generic point -/

/-- What the body is called with at point `t` (the windows one by one), -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d))
    ∗ (∃ d, owns (c : Thread nD τ) (ms13_6 t) fullShare ((dat13 V c).before 6 t d))
    ∗ (∃ d, owns (c : Thread nD τ) (ms13_7 t) fullShare ((dat13 V c).before 7 t d))
    ∗ (∃ d, owns (c : Thread nD τ) (ms13_8 t) fullShare ((dat13 V c).before 8 t d))
    ∗ (∃ d, owns (c : Thread nD τ) (ms13_9 t) fullShare ((dat13 V c).before 9 t d)))

/-- and what it returns. -/
def bodyPost13 (c : Dev nD) (t : Fin cfg13.N) : sProp 𝕄 :=
  iprop((dat13 V c).Φ t.succ ∗ (dat13 V c).owesAt () t.succ
    ∗ owns (c : Thread nD τ) (ms13_0 t) fullShare ((dat13 V c).after 0 t)
    ∗ owns (c : Thread nD τ) (ms13_1 t) fullShare ((dat13 V c).after 1 t)
    ∗ owns (c : Thread nD τ) (ms13_2 t) fullShare ((dat13 V c).after 2 t)
    ∗ owns (c : Thread nD τ) (ms13_3 t) fullShare ((dat13 V c).after 3 t)
    ∗ owns (c : Thread nD τ) (ms13_4 t) fullShare ((dat13 V c).after 4 t)
    ∗ owns (c : Thread nD τ) (ms13_5 t) fullShare ((dat13 V c).after 5 t)
    ∗ owns (c : Thread nD τ) (ms13_6 t) fullShare ((dat13 V c).after 6 t)
    ∗ owns (c : Thread nD τ) (ms13_7 t) fullShare ((dat13 V c).after 7 t)
    ∗ owns (c : Thread nD τ) (ms13_8 t) fullShare ((dat13 V c).after 8 t)
    ∗ owns (c : Thread nD τ) (ms13_9 t) fullShare ((dat13 V c).after 9 t))

set_option maxHeartbeats 1600000 in
/-- The body at any point: the inputs' memrefs hold their blocks; the closed form of the branch condition says whether the point is
    the first; at any other the accumulators' buffers hold what the point before left; so the case's run applies; the invariant
    passes through unread; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8, after13_9]
  have hN : t.val < 25 := lt_of_lt_of_eq t.isLt (show cfg13.N = 25 from N_13)
  by_cases h0 : t.val % 25 = 0
  · rw [outsAt13_A V c t h0]
    (try dsimp only)
    unfold out13_A_7 out13_A_8 out13_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun13_A c (grid13.coords t) _ _ _ _ _ _ _ _ _ _ _ _ _ _ _ _ _ _ _ _ ((hcond13_0 t).mpr h0) (iblk13 V c 0 t) (iblk13 V c 1 t) (iblk13 V c 2 t) (iblk13 V c 3 t) (iblk13 V c 4 t) (iblk13 V c 5 t) (iblk13 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover13_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover13_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover13_A_9 c _ _ _ _ _ _ _ _ _ _ _ _ _ _ _ _ _ _ _ _ _ _ _ _ _ _ _ _ _)
  · rw [outsAt13_B V c t h0]
    simp only [before13_8_B V c t h0, before13_9_B V c t h0]
    (try dsimp only)
    unfold out13_B_7 out13_B_8 out13_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun13_B c (grid13.coords t) _ _ _ _ _ _ _ _ _ _ _ _ _ _ _ _ _ _ _ _ (fun h => h0 ((hcond13_0 t).mp h)) (iblk13 V c 0 t) (iblk13 V c 1 t) (iblk13 V c 2 t) (iblk13 V c 3 t) (iblk13 V c 4 t) (iblk13 V c 5 t) (iblk13 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover13_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover13_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover13_B_9 c _ _ _ _ _ _ _ _ _ _ _ _ _ _ _ _ _ _ _ _ _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.R14.lean ====
/-
  Region 14 of the idealized kernel program's @main (pallas_call 14), at ANY entry contents `V` of the TensorCore's buffers and at any
  float instance: the proof data of its pipeline (what each window's staging buffer holds after the body at each grid point) and the
  body obligation.

  The kernel normalizes a block of rows (subtract the column mean, scale by the reciprocal root of the variance, scale and shift by
  the learnt vectors) and adds the block's column sums into a running row. The running row is reset at the first grid point only, so
  the body has two control cases: the first point (reset, then accumulate) and every later point (accumulate over what the point
  before left). The normalized block is written back at every point; the running row's buffer is carried from point to point and
  written back at the last.
-/
import proofs.«102822_j3521873183180_1_alg».proof.Proof.Gen.KernelIdeal.Launch
import proofs.«102822_j3521873183180_1_alg».proof.Proof.Gen.KernelIdeal.Skeleton
import proofs.«102822_j3521873183180_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The inputs' buffers hold their blocks -/

/-- Input window 0's current staging buffer holds its block at every point, fetched there or not (where it is not fetched its
    block index has not moved), for any proof data over the region's entry contents whose body leaves the block in place. -/
theorem heldIn14_0 {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not (where it is not fetched its
    block index has not moved), for any proof data over the region's entry contents whose body leaves the block in place. -/
theorem heldIn14_1 {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not (where it is not fetched its
    block index has not moved), for any proof data over the region's entry contents whose body leaves the block in place. -/
theorem heldIn14_2 {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not (where it is not fetched its
    block index has not moved), for any proof data over the region's entry contents whose body leaves the block in place. -/
theorem heldIn14_3 {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not (where it is not fetched its
    block index has not moved), for any proof data over the region's entry contents whose body leaves the block in place. -/
theorem heldIn14_4 {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's one branch: is this the first grid point? -/

/-- The condition under which the body resets the running row: the grid coordinate compared with zero, as the body's scalar
    operations compute it. -/
abbrev atFirst14 (i : grid14.Coords) : Prop := (Scalar.cmpi .ne (Scalar.extui (Scalar.cmpi .eq (BitVec.ofNat 32 (i 0).val) 0#32)) 0#32) = 1#1
/-- It holds at the first point of the grid and at no other: decided point by point. -/
theorem atFirst14_iff : ∀ t : Fin cfg14.N, atFirst14 (grid14.coords t) ↔ t.val % 25 = 0 :=
  (by decide +kernel : ∀ t : Fin grid14.N, atFirst14 (grid14.coords t) ↔ t.val % 25 = 0)

/-! ## The staging memrefs the body is called with -/
abbrev stg14_0 (t : Fin cfg14.N) : Memref sig .tc .vmem S2000x256 .f32 := win14_0.stage (cfg14.slots t 0)
abbrev stgWhole14_0 (t : Fin cfg14.N) : (stg14_0 t).IsWhole := hstage14_0 ((cfg14.slots t 0).cast nbuf14_0)
abbrev stg14_1 (t : Fin cfg14.N) : Memref sig .tc .vmem S1x256 .f32 := win14_1.stage (cfg14.slots t 1)
abbrev stgWhole14_1 (t : Fin cfg14.N) : (stg14_1 t).IsWhole := hstage14_1 ((cfg14.slots t 1).cast nbuf14_1)
abbrev stg14_2 (t : Fin cfg14.N) : Memref sig .tc .vmem S1x256 .f32 := win14_2.stage (cfg14.slots t 2)
abbrev stgWhole14_2 (t : Fin cfg14.N) : (stg14_2 t).IsWhole := hstage14_2 ((cfg14.slots t 2).cast nbuf14_2)
abbrev stg14_3 (t : Fin cfg14.N) : Memref sig .tc .vmem S1x256 .f32 := win14_3.stage (cfg14.slots t 3)
abbrev stgWhole14_3 (t : Fin cfg14.N) : (stg14_3 t).IsWhole := hstage14_3 ((cfg14.slots t 3).cast nbuf14_3)
abbrev stg14_4 (t : Fin cfg14.N) : Memref sig .tc .vmem S1x256 .f32 := win14_4.stage (cfg14.slots t 4)
abbrev stgWhole14_4 (t : Fin cfg14.N) : (stg14_4 t).IsWhole := hstage14_4 ((cfg14.slots t 4).cast nbuf14_4)
abbrev stg14_5 (t : Fin cfg14.N) : Memref sig .tc .vmem S2000x256 .f32 := win14_5.stage (cfg14.slots t 5)
abbrev stgWhole14_5 (t : Fin cfg14.N) : (stg14_5 t).IsWhole := hstage14_5 ((cfg14.slots t 5).cast nbuf14_5)
abbrev stg14_6 (t : Fin cfg14.N) : Memref sig .tc .vmem S1x256 .f32 := win14_6.stage (cfg14.slots t 6)
abbrev stgWhole14_6 (t : Fin cfg14.N) : (stg14_6 t).IsWhole := hstage14_6 ((cfg14.slots t 6).cast nbuf14_6)

/-! ## The body's run in each of its two cases -/

set_option maxHeartbeats 1000000 in
/-- AT THE FIRST POINT. On whole staging memrefs, the five inputs' at their blocks and the two outputs' at anything, the body runs
    to a continuation that gets the inputs' back as they were, the normalized block's buffer with one whole-block store written and
    the running row's with two (the reset, then the reset row plus the block's column sums). The lists of stores (last first) are
    found by running the body's skeleton; the branch is decided by `hc`. -/
noncomputable def runFirst14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ (∃ d, owns (c : Thread nD τ) arg7 fullShare d)
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc14__norm_readout_kernel i arg1 harg1 arg2 harg2 arg3 harg3 arg4 harg4 arg5 harg5 arg6 harg6 arg7 harg7) K } := by
  refine ⟨?_, ?_, fun E K => ?run⟩
  case run =>
    simp only [cc14__norm_readout_kernel_eq_skeleton]; unfold cc14__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

set_option maxHeartbeats 1000000 in
/-- AT A LATER POINT. The same, with the running row's buffer at what the point before left (`acc`): the body does not reset it, and
    its one store there is `acc` plus the block's column sums. -/
noncomputable def runLater14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) :
    Σ' (L5 : List (View.Piece (Elt F) S2000x256 .f32)), { L6 : List (View.Piece (Elt F) S1x256 .f32) //
      ∀ (E : Set ℕ) (K : PUnit → sProp 𝕄),
        iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
            ∗ (∃ d, owns (c : Thread nD τ) arg6 fullShare d) ∗ owns (c : Thread nD τ) arg7 fullShare acc
            ∗ (iprop(owns (c : Thread nD τ) arg1 fullShare u ∗ owns (c : Thread nD τ) arg2 fullShare mean ∗ owns (c : Thread nD τ) arg3 fullShare var ∗ owns (c : Thread nD τ) arg4 fullShare gain ∗ owns (c : Thread nD τ) arg5 fullShare shift
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc14__norm_readout_kernel i arg1 harg1 arg2 harg2 arg3 harg3 arg4 harg4 arg5 harg5 arg6 harg6 arg7 harg7) K } := by
  refine ⟨?_, ?_, fun E K => ?run⟩
  case run =>
    simp only [cc14__norm_readout_kernel_eq_skeleton]; unfold cc14__norm_readout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

/-! ## What each case leaves in the two outputs' buffers -/

/-- The first point's one store into the normalized block's buffer is of the whole block, so it covers it. -/
theorem coverFirst14_5 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) (y : S2000x256.Idx) :
    ∃ pc ∈ (runFirst14 c i arg1 harg1 arg2 harg2 arg3 harg3 arg4 harg4 arg5 harg5 arg6 harg6 arg7 harg7 hc u mean var gain shift).1, y ∈ pc.1.set :=
  View.cover_of_tiledL (runFirst14 c i arg1 harg1 arg2 harg2 arg3 harg3 arg4 harg4 arg5 harg5 arg6 harg6 arg7 harg7 hc u mean var gain shift).1 S2000x256.size (by sl_kernel_rfl) y

/-- The first point's two stores into the running row's buffer are each of the whole row, so they cover it. -/
theorem coverFirst14_6 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) (y : S1x256.Idx) :
    ∃ pc ∈ (runFirst14 c i arg1 harg1 arg2 harg2 arg3 harg3 arg4 harg4 arg5 harg5 arg6 harg6 arg7 harg7 hc u mean var gain shift).2.1, y ∈ pc.1.set :=
  View.cover_of_tiledL (runFirst14 c i arg1 harg1 arg2 harg2 arg3 harg3 arg4 harg4 arg5 harg5 arg6 harg6 arg7 harg7 hc u mean var gain shift).2.1 S1x256.size (by sl_kernel_rfl) y

/-- A later point's one store into the normalized block's buffer covers it. -/
theorem coverLater14_5 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) (y : S2000x256.Idx) :
    ∃ pc ∈ (runLater14 c i arg1 harg1 arg2 harg2 arg3 harg3 arg4 harg4 arg5 harg5 arg6 harg6 arg7 harg7 hc u mean var gain shift acc).1, y ∈ pc.1.set :=
  View.cover_of_tiledL (runLater14 c i arg1 harg1 arg2 harg2 arg3 harg3 arg4 harg4 arg5 harg5 arg6 harg6 arg7 harg7 hc u mean var gain shift acc).1 S2000x256.size (by sl_kernel_rfl) y

/-- A later point's one store into the running row's buffer covers it. -/
theorem coverLater14_6 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) (y : S1x256.Idx) :
    ∃ pc ∈ (runLater14 c i arg1 harg1 arg2 harg2 arg3 harg3 arg4 harg4 arg5 harg5 arg6 harg6 arg7 harg7 hc u mean var gain shift acc).2.1, y ∈ pc.1.set :=
  View.cover_of_tiledL (runLater14 c i arg1 harg1 arg2 harg2 arg3 harg3 arg4 harg4 arg5 harg5 arg6 harg6 arg7 harg7 hc u mean var gain shift acc).2.1 S1x256.size (by sl_kernel_rfl) y

/-- The normalized block the first point leaves: its stores read as one function of the index (a covering list of stores
    leaves the same contents through any view and over any earlier contents). -/
def rowsFirst14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) : Vec F S2000x256 .f32 :=
  View.canon (runFirst14 c i arg1 harg1 arg2 harg2 arg3 harg3 arg4 harg4 arg5 harg5 arg6 harg6 arg7 harg7 hc u mean var gain shift).1

/-- The running row the first point leaves. -/
def sumsFirst14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) : Vec F S1x256 .f32 :=
  View.canon (runFirst14 c i arg1 harg1 arg2 harg2 arg3 harg3 arg4 harg4 arg5 harg5 arg6 harg6 arg7 harg7 hc u mean var gain shift).2.1

/-- The normalized block a later point leaves. -/
def rowsLater14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) : Vec F S2000x256 .f32 :=
  View.canon (runLater14 c i arg1 harg1 arg2 harg2 arg3 harg3 arg4 harg4 arg5 harg5 arg6 harg6 arg7 harg7 hc u mean var gain shift acc).1

/-- The running row a later point leaves, over the row `acc` it found. -/
def sumsLater14 (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) : Vec F S1x256 .f32 :=
  View.canon (runLater14 c i arg1 harg1 arg2 harg2 arg3 harg3 arg4 harg4 arg5 harg5 arg6 harg6 arg7 harg7 hc u mean var gain shift acc).2.1

/-! ## The same at a grid point: the point's memrefs, the point's input blocks -/

/-- The normalized block of point `t`, when `t` is the first point. -/
def rowsFirstAt14 (c : Dev nD) (t : Fin cfg14.N) (h0 : t.val % 25 = 0) : Vec F S2000x256 .f32 :=
  rowsFirst14 c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) ((atFirst14_iff t).mpr h0) (iblk14 V c 0 t) (iblk14 V c 1 t) (iblk14 V c 2 t) (iblk14 V c 3 t) (iblk14 V c 4 t)

/-- The running row after point `t`, when `t` is the first point. -/
def sumsFirstAt14 (c : Dev nD) (t : Fin cfg14.N) (h0 : t.val % 25 = 0) : Vec F S1x256 .f32 :=
  sumsFirst14 c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) ((atFirst14_iff t).mpr h0) (iblk14 V c 0 t) (iblk14 V c 1 t) (iblk14 V c 2 t) (iblk14 V c 3 t) (iblk14 V c 4 t)

/-- The normalized block of point `t`, when `t` is a later point (the run is stated at the running row it found). -/
def rowsLaterAt14 (c : Dev nD) (t : Fin cfg14.N) (h0 : ¬t.val % 25 = 0) (acc : Vec F S1x256 .f32) : Vec F S2000x256 .f32 :=
  rowsLater14 c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) (fun h => h0 ((atFirst14_iff t).mp h)) (iblk14 V c 0 t) (iblk14 V c 1 t) (iblk14 V c 2 t) (iblk14 V c 3 t) (iblk14 V c 4 t) acc

/-- The running row after point `t`, when `t` is a later point that found the row `acc`. -/
def sumsLaterAt14 (c : Dev nD) (t : Fin cfg14.N) (h0 : ¬t.val % 25 = 0) (acc : Vec F S1x256 .f32) : Vec F S1x256 .f32 :=
  sumsLater14 c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) (fun h => h0 ((atFirst14_iff t).mp h)) (iblk14 V c 0 t) (iblk14 V c 1 t) (iblk14 V c 2 t) (iblk14 V c 3 t) (iblk14 V c 4 t) acc

/-! ## What the outputs hold after each point -/

/-- THE ACCUMULATION: the running row after the body at position `n`. At the first point the reset-and-add case's row; at a later
    point the add case's row over what this gives at `n - 1` (the row's buffer is not written back in between). -/
def sumsAt14 (c : Dev nD) : (n : ℕ) → n < cfg14.N → Vec F S1x256 .f32
  | 0, hn => sumsFirstAt14 V c ⟨0, hn⟩ (Nat.zero_mod _)
  | n + 1, hn =>
    if h0 : (n + 1) % 25 = 0 then sumsFirstAt14 V c ⟨n + 1, hn⟩ h0
    else sumsLaterAt14 V c ⟨n + 1, hn⟩ h0 (sumsAt14 c n (Nat.lt_of_succ_lt hn))

/-- The running row the body finds at point `t` when `t` is not the first: what the point before left. -/
abbrev sumsBefore14 (c : Dev nD) (t : Fin cfg14.N) : Vec F S1x256 .f32 :=
  sumsAt14 V c (t.val - 1) (Nat.lt_of_le_of_lt (Nat.sub_le _ _) t.isLt)

/-- The normalized block after the body at point `t`. -/
def rowsAt14 (c : Dev nD) (t : Fin cfg14.N) : Vec F S2000x256 .f32 :=
  if h0 : t.val % 25 = 0 then rowsFirstAt14 V c t h0 else rowsLaterAt14 V c t h0 (sumsBefore14 V c t)

/-- The running row at the first point. -/
theorem sumsAt14_first (c : Dev nD) (t : Fin cfg14.N) (h0 : t.val % 25 = 0) :
    sumsAt14 V c t.val t.isLt = sumsFirstAt14 V c t h0 := by
  obtain ⟨n, hn⟩ := t
  cases n with
  | zero => exact rfl
  | succ n => exact (dif_pos h0).trans rfl

/-- The running row at a later point: the add case over the row before. -/
theorem sumsAt14_later (c : Dev nD) (t : Fin cfg14.N) (h0 : ¬t.val % 25 = 0) :
    sumsAt14 V c t.val t.isLt = sumsLaterAt14 V c t h0 (sumsBefore14 V c t) := by
  obtain ⟨n, hn⟩ := t
  cases n with
  | zero => exact absurd (Nat.zero_mod _) h0
  | succ n => exact (dif_neg h0).trans rfl

/-- The normalized block at the first point. -/
theorem rowsAt14_first (c : Dev nD) (t : Fin cfg14.N) (h0 : t.val % 25 = 0) : rowsAt14 V c t = rowsFirstAt14 V c t h0 := dif_pos h0

/-- The normalized block at a later point. -/
theorem rowsAt14_later (c : Dev nD) (t : Fin cfg14.N) (h0 : ¬t.val % 25 = 0) :
    rowsAt14 V c t = rowsLaterAt14 V c t h0 (sumsBefore14 V c t) := dif_neg h0

/-! ## The pipeline's proof data -/

/-- The proof data of the region's pipeline on core `c`: the arrays as the region finds them; after the body at point `t` each
    input's buffer still at its block, the normalized block's at `rowsAt14`, the running row's at `sumsAt14`; the class's invariant
    (the scoped rest and the generator register, untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => rowsAt14 V c t
    | ⟨6, _⟩ => sumsAt14 V c t.val t.isLt
  Φ _ := Pipeline.ΦA spec14 c
  q _ := fullShare
  owed _ := 0

theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = rowsAt14 V c t := by dsimp only [dat14]
theorem after14_6 (c : Dev nD) (t : Fin cfg14.N) : (dat14 V c).after 6 t = sumsAt14 V c t.val t.isLt := by dsimp only [dat14]

/-- What the body finds in each input's buffer: its block. -/
theorem before14_0 (c : Dev nD) (t : Fin cfg14.N) (d) : (dat14 V c).before 0 t d = iblk14 V c 0 t :=
  heldIn14_0 V (dat14 V c) (A_eq14 V c 0) (after14_0 V c) t d
theorem before14_1 (c : Dev nD) (t : Fin cfg14.N) (d) : (dat14 V c).before 1 t d = iblk14 V c 1 t :=
  heldIn14_1 V (dat14 V c) (A_eq14 V c 1) (after14_1 V c) t d
theorem before14_2 (c : Dev nD) (t : Fin cfg14.N) (d) : (dat14 V c).before 2 t d = iblk14 V c 2 t :=
  heldIn14_2 V (dat14 V c) (A_eq14 V c 2) (after14_2 V c) t d
theorem before14_3 (c : Dev nD) (t : Fin cfg14.N) (d) : (dat14 V c).before 3 t d = iblk14 V c 3 t :=
  heldIn14_3 V (dat14 V c) (A_eq14 V c 3) (after14_3 V c) t d
theorem before14_4 (c : Dev nD) (t : Fin cfg14.N) (d) : (dat14 V c).before 4 t d = iblk14 V c 4 t :=
  heldIn14_4 V (dat14 V c) (A_eq14 V c 4) (after14_4 V c) t d

/-- At a later point the running row's buffer holds what the body left at the point before: the point is not the first, the row is
    written back at the last point only, the window is never idle and is uncut. -/
theorem before14_6_later (c : Dev nD) (t : Fin cfg14.N) (h0 : ¬t.val % 25 = 0) (d) :
    (dat14 V c).before 6 t d = sumsBefore14 V c t := by
  have hN : t.val < 25 := lt_of_lt_of_eq t.isLt (show cfg14.N = 25 from N_14)
  rw [Dat.before_out_kept _ 6 rfl t (by omega) (Bool.eq_false_iff.mpr fun h => by have := (flush14_6 _).mp h; dsimp only at this; omega)
    (fun _ => rfl) (fun _ _ => rfl)]
  dsimp only [dat14]

/-! ## The body obligation -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

set_option maxHeartbeats 1600000 in
/-- The body at any point. The inputs' buffers hold their blocks; the point is the first or it is not; at a later point the running
    row's buffer holds what the point before left; so the case's run applies, and what it leaves is what the proof data say. The
    invariant and the core's debts pass through untouched. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  by_cases h0 : t.val % 25 = 0
  · rw [sumsAt14_first V c t h0, rowsAt14_first V c t h0]
    unfold sumsFirstAt14 rowsFirstAt14 sumsFirst14 rowsFirst14
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst14 c (grid14.coords t) _ _ _ _ _ _ _ _ _ _ _ _ _ _ ((atFirst14_iff t).mpr h0) (iblk14 V c 0 t) (iblk14 V c 1 t) (iblk14 V c 2 t) (iblk14 V c 3 t) (iblk14 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst14_5 c _ _ _ _ _ _ _ _ _ _ _ _ _ _ _ _ _ _ _ _ _)
    unfold owns; iexists _; isplitr
    swap; · iexact H6
    ipureintro; exact View.read_writes_eq_canon _ _ _ (coverFirst14_6 c _ _ _ _ _ _ _ _ _ _ _ _ _ _ _ _ _ _ _ _ _)
  · rw [sumsAt14_later V c t h0, rowsAt14_later V c t h0]
    simp only [before14_6_later V c t h0]
    unfold sumsLaterAt14 rowsLaterAt14 sumsLater14 rowsLater14
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater14 c (grid14.coords t) _ _ _ _ _ _ _ _ _ _ _ _ _ _ (fun h => h0 ((atFirst14_iff t).mp h)) (iblk14 V c 0 t) (iblk14 V c 1 t) (iblk14 V c 2 t) (iblk14 V c 3 t) (iblk14 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater14_5 c _ _ _ _ _ _ _ _ _ _ _ _ _ _ _ _ _ _ _ _ _ _)
    unfold owns; iexists _; isplitr
    swap; · iexact H6
    ipureintro; exact View.read_writes_eq_canon _ _ _ (coverLater14_6 c _ _ _ _ _ _ _ _ _ _ _ _ _ _ _ _ _ _ _ _ _ _)

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Fold.lean ====
/-
  The TensorCore's buffer contents at every boundary of the idealized kernel program's @main, at any float instance: a fold
  from the launch memory `m` through the 15 stretches of host operations that lead into the 15 pallas_call regions, and
  through the regions. A stretch leaves every buffer at what its operations compute from the contents before it
  (`StableHlo.after`). A region leaves each of its windows' arrays at what its pipeline's write-backs fold to
  (`Dat.arrAt … N`: for an input window, the array as entered) and every other buffer as entered
  (`Pipeline.withArrays`). Boundary 2K is before the stretch `hostOpsK`, boundary 2K+1 is region K's entry, boundary
  2K+2 its exit.
-/
import proofs.«102822_j3521873183180_1_alg».proof.Proof.KI.R0
import proofs.«102822_j3521873183180_1_alg».proof.Proof.KI.R1
import proofs.«102822_j3521873183180_1_alg».proof.Proof.KI.R2
import proofs.«102822_j3521873183180_1_alg».proof.Proof.KI.R3
import proofs.«102822_j3521873183180_1_alg».proof.Proof.KI.R4
import proofs.«102822_j3521873183180_1_alg».proof.Proof.KI.R5
import proofs.«102822_j3521873183180_1_alg».proof.Proof.KI.R6
import proofs.«102822_j3521873183180_1_alg».proof.Proof.KI.R7
import proofs.«102822_j3521873183180_1_alg».proof.Proof.KI.R8
import proofs.«102822_j3521873183180_1_alg».proof.Proof.KI.R9
import proofs.«102822_j3521873183180_1_alg».proof.Proof.KI.R10
import proofs.«102822_j3521873183180_1_alg».proof.Proof.KI.R11
import proofs.«102822_j3521873183180_1_alg».proof.Proof.KI.R12
import proofs.«102822_j3521873183180_1_alg».proof.Proof.KI.R13
import proofs.«102822_j3521873183180_1_alg».proof.Proof.KI.R14
import proofs.«102822_j3521873183180_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-! ## Region 0: the stretch `hostOps0` that leads into it, and its exit -/

/-- After `hostOps0` (region 0's entry). -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit: its windows' arrays at what the pipeline leaves (an input's as entered, an output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference that no operation of `hostOps0` writes and that is no window's array in region 0 holds at the region's
    exit what it held before the stretch. -/
theorem W2_keep (c : Dev nD) (r : Ref sig .tc) (hh : r ∉ hostOps0_W) (hr : ∀ w, Pipeline.arrRef spec0 w ≠ r) :
    W2 m ρ c (Proc.devRef .tc r) = W0 m ρ c (Proc.devRef .tc r) :=
  (W2_of_ne m ρ c r hr).trans (StableHlo.after_of_writes_sub hostOps0 _ hostOps0_writes hh)

/-! ## Region 1: the stretch `hostOps1` that leads into it, and its exit -/

/-- After `hostOps1` (region 1's entry). -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit: its windows' arrays at what the pipeline leaves (an input's as entered, an output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, -/
theorem hF1 (c : Dev nD) (w : Fin cfg1.W) : (dat1 (V3 m ρ) c).arrAt w cfg1.N = V4 m ρ c (Pipeline.arrRef spec1 w) :=
  (W4_arr m ρ c w).symm
/-- and every other buffer what it held at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference that no operation of `hostOps1` writes and that is no window's array in region 1 holds at the region's
    exit what it held before the stretch. -/
theorem W4_keep (c : Dev nD) (r : Ref sig .tc) (hh : r ∉ hostOps1_W) (hr : ∀ w, Pipeline.arrRef spec1 w ≠ r) :
    W4 m ρ c (Proc.devRef .tc r) = W2 m ρ c (Proc.devRef .tc r) :=
  (W4_of_ne m ρ c r hr).trans (StableHlo.after_of_writes_sub hostOps1 _ hostOps1_writes hh)

/-! ## Region 2: the stretch `hostOps2` that leads into it, and its exit -/

/-- After `hostOps2` (region 2's entry). -/
abbrev W5 : Dev nD → Valuation τ sig (Elt F) := fun c => StableHlo.after hostOps2 (W4 m ρ c)
/-- The same read at the TensorCore's references: what region 2's proof data take. -/
abbrev V5 : (c : Dev nD) → (b : Ref sig .tc) → Buf (Elt F) ((c : Thread nD τ).loc b) := fun c b => W5 m ρ c b
/-- At region 2's exit: its windows' arrays at what the pipeline leaves (an input's as entered, an output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, -/
theorem hF2 (c : Dev nD) (w : Fin cfg2.W) : (dat2 (V5 m ρ) c).arrAt w cfg2.N = V6 m ρ c (Pipeline.arrRef spec2 w) :=
  (W6_arr m ρ c w).symm
/-- and every other buffer what it held at entry. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A reference that no operation of `hostOps2` writes and that is no window's array in region 2 holds at the region's
    exit what it held before the stretch. -/
theorem W6_keep (c : Dev nD) (r : Ref sig .tc) (hh : r ∉ hostOps2_W) (hr : ∀ w, Pipeline.arrRef spec2 w ≠ r) :
    W6 m ρ c (Proc.devRef .tc r) = W4 m ρ c (Proc.devRef .tc r) :=
  (W6_of_ne m ρ c r hr).trans (StableHlo.after_of_writes_sub hostOps2 _ hostOps2_writes hh)

/-! ## Region 3: the stretch `hostOps3` that leads into it, and its exit -/

/-- After `hostOps3` (region 3's entry). -/
abbrev W7 : Dev nD → Valuation τ sig (Elt F) := fun c => StableHlo.after hostOps3 (W6 m ρ c)
/-- The same read at the TensorCore's references: what region 3's proof data take. -/
abbrev V7 : (c : Dev nD) → (b : Ref sig .tc) → Buf (Elt F) ((c : Thread nD τ).loc b) := fun c b => W7 m ρ c b
/-- At region 3's exit: its windows' arrays at what the pipeline leaves (an input's as entered, an output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, -/
theorem hF3 (c : Dev nD) (w : Fin cfg3.W) : (dat3 (V7 m ρ) c).arrAt w cfg3.N = V8 m ρ c (Pipeline.arrRef spec3 w) :=
  (W8_arr m ρ c w).symm
/-- and every other buffer what it held at entry. -/
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A reference that no operation of `hostOps3` writes and that is no window's array in region 3 holds at the region's
    exit what it held before the stretch. -/
theorem W8_keep (c : Dev nD) (r : Ref sig .tc) (hh : r ∉ hostOps3_W) (hr : ∀ w, Pipeline.arrRef spec3 w ≠ r) :
    W8 m ρ c (Proc.devRef .tc r) = W6 m ρ c (Proc.devRef .tc r) :=
  (W8_of_ne m ρ c r hr).trans (StableHlo.after_of_writes_sub hostOps3 _ hostOps3_writes hh)

/-! ## Region 4: the stretch `hostOps4` that leads into it, and its exit -/

/-- After `hostOps4` (region 4's entry). -/
abbrev W9 : Dev nD → Valuation τ sig (Elt F) := fun c => StableHlo.after hostOps4 (W8 m ρ c)
/-- The same read at the TensorCore's references: what region 4's proof data take. -/
abbrev V9 : (c : Dev nD) → (b : Ref sig .tc) → Buf (Elt F) ((c : Thread nD τ).loc b) := fun c b => W9 m ρ c b
/-- At region 4's exit: its windows' arrays at what the pipeline leaves (an input's as entered, an output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, -/
theorem hF4 (c : Dev nD) (w : Fin cfg4.W) : (dat4 (V9 m ρ) c).arrAt w cfg4.N = V10 m ρ c (Pipeline.arrRef spec4 w) :=
  (W10_arr m ρ c w).symm
/-- and every other buffer what it held at entry. -/
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A reference that no operation of `hostOps4` writes and that is no window's array in region 4 holds at the region's
    exit what it held before the stretch. -/
theorem W10_keep (c : Dev nD) (r : Ref sig .tc) (hh : r ∉ hostOps4_W) (hr : ∀ w, Pipeline.arrRef spec4 w ≠ r) :
    W10 m ρ c (Proc.devRef .tc r) = W8 m ρ c (Proc.devRef .tc r) :=
  (W10_of_ne m ρ c r hr).trans (StableHlo.after_of_writes_sub hostOps4 _ hostOps4_writes hh)

/-! ## Region 5: the stretch `hostOps5` that leads into it, and its exit -/

/-- After `hostOps5` (region 5's entry). -/
abbrev W11 : Dev nD → Valuation τ sig (Elt F) := fun c => StableHlo.after hostOps5 (W10 m ρ c)
/-- The same read at the TensorCore's references: what region 5's proof data take. -/
abbrev V11 : (c : Dev nD) → (b : Ref sig .tc) → Buf (Elt F) ((c : Thread nD τ).loc b) := fun c b => W11 m ρ c b
/-- At region 5's exit: its windows' arrays at what the pipeline leaves (an input's as entered, an output's write-backs
    folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, -/
theorem hF5 (c : Dev nD) (w : Fin cfg5.W) : (dat5 (V11 m ρ) c).arrAt w cfg5.N = V12 m ρ c (Pipeline.arrRef spec5 w) :=
  (W12_arr m ρ c w).symm
/-- and every other buffer what it held at entry. -/
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A reference that no operation of `hostOps5` writes and that is no window's array in region 5 holds at the region's
    exit what it held before the stretch. -/
theorem W12_keep (c : Dev nD) (r : Ref sig .tc) (hh : r ∉ hostOps5_W) (hr : ∀ w, Pipeline.arrRef spec5 w ≠ r) :
    W12 m ρ c (Proc.devRef .tc r) = W10 m ρ c (Proc.devRef .tc r) :=
  (W12_of_ne m ρ c r hr).trans (StableHlo.after_of_writes_sub hostOps5 _ hostOps5_writes hh)

/-! ## Region 6: the stretch `hostOps6` that leads into it, and its exit -/

/-- After `hostOps6` (region 6's entry). -/
abbrev W13 : Dev nD → Valuation τ sig (Elt F) := fun c => StableHlo.after hostOps6 (W12 m ρ c)
/-- The same read at the TensorCore's references: what region 6's proof data take. -/
abbrev V13 : (c : Dev nD) → (b : Ref sig .tc) → Buf (Elt F) ((c : Thread nD τ).loc b) := fun c b => W13 m ρ c b
/-- At region 6's exit: its windows' arrays at what the pipeline leaves (an input's as entered, an output's write-backs
    folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves, -/
theorem hF6 (c : Dev nD) (w : Fin cfg6.W) : (dat6 (V13 m ρ) c).arrAt w cfg6.N = V14 m ρ c (Pipeline.arrRef spec6 w) :=
  (W14_arr m ρ c w).symm
/-- and every other buffer what it held at entry. -/
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A reference that no operation of `hostOps6` writes and that is no window's array in region 6 holds at the region's
    exit what it held before the stretch. -/
theorem W14_keep (c : Dev nD) (r : Ref sig .tc) (hh : r ∉ hostOps6_W) (hr : ∀ w, Pipeline.arrRef spec6 w ≠ r) :
    W14 m ρ c (Proc.devRef .tc r) = W12 m ρ c (Proc.devRef .tc r) :=
  (W14_of_ne m ρ c r hr).trans (StableHlo.after_of_writes_sub hostOps6 _ hostOps6_writes hh)

/-! ## Region 7: the stretch `hostOps7` that leads into it, and its exit -/

/-- After `hostOps7` (region 7's entry). -/
abbrev W15 : Dev nD → Valuation τ sig (Elt F) := fun c => StableHlo.after hostOps7 (W14 m ρ c)
/-- The same read at the TensorCore's references: what region 7's proof data take. -/
abbrev V15 : (c : Dev nD) → (b : Ref sig .tc) → Buf (Elt F) ((c : Thread nD τ).loc b) := fun c b => W15 m ρ c b
/-- At region 7's exit: its windows' arrays at what the pipeline leaves (an input's as entered, an output's write-backs
    folded), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves, -/
theorem hF7 (c : Dev nD) (w : Fin cfg7.W) : (dat7 (V15 m ρ) c).arrAt w cfg7.N = V16 m ρ c (Pipeline.arrRef spec7 w) :=
  (W16_arr m ρ c w).symm
/-- and every other buffer what it held at entry. -/
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A reference that no operation of `hostOps7` writes and that is no window's array in region 7 holds at the region's
    exit what it held before the stretch. -/
theorem W16_keep (c : Dev nD) (r : Ref sig .tc) (hh : r ∉ hostOps7_W) (hr : ∀ w, Pipeline.arrRef spec7 w ≠ r) :
    W16 m ρ c (Proc.devRef .tc r) = W14 m ρ c (Proc.devRef .tc r) :=
  (W16_of_ne m ρ c r hr).trans (StableHlo.after_of_writes_sub hostOps7 _ hostOps7_writes hh)

/-! ## Region 8: the stretch `hostOps8` that leads into it, and its exit -/

/-- After `hostOps8` (region 8's entry). -/
abbrev W17 : Dev nD → Valuation τ sig (Elt F) := fun c => StableHlo.after hostOps8 (W16 m ρ c)
/-- The same read at the TensorCore's references: what region 8's proof data take. -/
abbrev V17 : (c : Dev nD) → (b : Ref sig .tc) → Buf (Elt F) ((c : Thread nD τ).loc b) := fun c b => W17 m ρ c b
/-- At region 8's exit: its windows' arrays at what the pipeline leaves (an input's as entered, an output's write-backs
    folded), every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves, -/
theorem hF8 (c : Dev nD) (w : Fin cfg8.W) : (dat8 (V17 m ρ) c).arrAt w cfg8.N = V18 m ρ c (Pipeline.arrRef spec8 w) :=
  (W18_arr m ρ c w).symm
/-- and every other buffer what it held at entry. -/
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A reference that no operation of `hostOps8` writes and that is no window's array in region 8 holds at the region's
    exit what it held before the stretch. -/
theorem W18_keep (c : Dev nD) (r : Ref sig .tc) (hh : r ∉ hostOps8_W) (hr : ∀ w, Pipeline.arrRef spec8 w ≠ r) :
    W18 m ρ c (Proc.devRef .tc r) = W16 m ρ c (Proc.devRef .tc r) :=
  (W18_of_ne m ρ c r hr).trans (StableHlo.after_of_writes_sub hostOps8 _ hostOps8_writes hh)

/-! ## Region 9: the stretch `hostOps9` that leads into it, and its exit -/

/-- After `hostOps9` (region 9's entry). -/
abbrev W19 : Dev nD → Valuation τ sig (Elt F) := fun c => StableHlo.after hostOps9 (W18 m ρ c)
/-- The same read at the TensorCore's references: what region 9's proof data take. -/
abbrev V19 : (c : Dev nD) → (b : Ref sig .tc) → Buf (Elt F) ((c : Thread nD τ).loc b) := fun c b => W19 m ρ c b
/-- At region 9's exit: its windows' arrays at what the pipeline leaves (an input's as entered, an output's write-backs
    folded), every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves, -/
theorem hF9 (c : Dev nD) (w : Fin cfg9.W) : (dat9 (V19 m ρ) c).arrAt w cfg9.N = V20 m ρ c (Pipeline.arrRef spec9 w) :=
  (W20_arr m ρ c w).symm
/-- and every other buffer what it held at entry. -/
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- A reference that no operation of `hostOps9` writes and that is no window's array in region 9 holds at the region's
    exit what it held before the stretch. -/
theorem W20_keep (c : Dev nD) (r : Ref sig .tc) (hh : r ∉ hostOps9_W) (hr : ∀ w, Pipeline.arrRef spec9 w ≠ r) :
    W20 m ρ c (Proc.devRef .tc r) = W18 m ρ c (Proc.devRef .tc r) :=
  (W20_of_ne m ρ c r hr).trans (StableHlo.after_of_writes_sub hostOps9 _ hostOps9_writes hh)

/-! ## Region 10: the stretch `hostOps10` that leads into it, and its exit -/

/-- After `hostOps10` (region 10's entry). -/
abbrev W21 : Dev nD → Valuation τ sig (Elt F) := fun c => StableHlo.after hostOps10 (W20 m ρ c)
/-- The same read at the TensorCore's references: what region 10's proof data take. -/
abbrev V21 : (c : Dev nD) → (b : Ref sig .tc) → Buf (Elt F) ((c : Thread nD τ).loc b) := fun c b => W21 m ρ c b
/-- At region 10's exit: its windows' arrays at what the pipeline leaves (an input's as entered, an output's write-backs
    folded), every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references (region 10's exit contents). -/
abbrev V22 : (c : Dev nD) → (b : Ref sig .tc) → Buf (Elt F) ((c : Thread nD τ).loc b) := fun c b => W22 m ρ c b
/-- At region 10's exit each of its arrays holds what the pipeline leaves, -/
theorem hF10 (c : Dev nD) (w : Fin cfg10.W) : (dat10 (V21 m ρ) c).arrAt w cfg10.N = V22 m ρ c (Pipeline.arrRef spec10 w) :=
  (W22_arr m ρ c w).symm
/-- and every other buffer what it held at entry. -/
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)
/-- A reference that no operation of `hostOps10` writes and that is no window's array in region 10 holds at the region's
    exit what it held before the stretch. -/
theorem W22_keep (c : Dev nD) (r : Ref sig .tc) (hh : r ∉ hostOps10_W) (hr : ∀ w, Pipeline.arrRef spec10 w ≠ r) :
    W22 m ρ c (Proc.devRef .tc r) = W20 m ρ c (Proc.devRef .tc r) :=
  (W22_of_ne m ρ c r hr).trans (StableHlo.after_of_writes_sub hostOps10 _ hostOps10_writes hh)

/-! ## Region 11: the stretch `hostOps11` that leads into it, and its exit -/

/-- After `hostOps11` (region 11's entry). -/
abbrev W23 : Dev nD → Valuation τ sig (Elt F) := fun c => StableHlo.after hostOps11 (W22 m ρ c)
/-- The same read at the TensorCore's references: what region 11's proof data take. -/
abbrev V23 : (c : Dev nD) → (b : Ref sig .tc) → Buf (Elt F) ((c : Thread nD τ).loc b) := fun c b => W23 m ρ c b
/-- At region 11's exit: its windows' arrays at what the pipeline leaves (an input's as entered, an output's write-backs
    folded), every other buffer as entered. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- The same read at the TensorCore's references (region 11's exit contents). -/
abbrev V24 : (c : Dev nD) → (b : Ref sig .tc) → Buf (Elt F) ((c : Thread nD τ).loc b) := fun c b => W24 m ρ c b
/-- At region 11's exit each of its arrays holds what the pipeline leaves, -/
theorem hF11 (c : Dev nD) (w : Fin cfg11.W) : (dat11 (V23 m ρ) c).arrAt w cfg11.N = V24 m ρ c (Pipeline.arrRef spec11 w) :=
  (W24_arr m ρ c w).symm
/-- and every other buffer what it held at entry. -/
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)
/-- A reference that no operation of `hostOps11` writes and that is no window's array in region 11 holds at the region's
    exit what it held before the stretch. -/
theorem W24_keep (c : Dev nD) (r : Ref sig .tc) (hh : r ∉ hostOps11_W) (hr : ∀ w, Pipeline.arrRef spec11 w ≠ r) :
    W24 m ρ c (Proc.devRef .tc r) = W22 m ρ c (Proc.devRef .tc r) :=
  (W24_of_ne m ρ c r hr).trans (StableHlo.after_of_writes_sub hostOps11 _ hostOps11_writes hh)

/-! ## Region 12: the stretch `hostOps12` that leads into it, and its exit -/

/-- After `hostOps12` (region 12's entry). -/
abbrev W25 : Dev nD → Valuation τ sig (Elt F) := fun c => StableHlo.after hostOps12 (W24 m ρ c)
/-- The same read at the TensorCore's references: what region 12's proof data take. -/
abbrev V25 : (c : Dev nD) → (b : Ref sig .tc) → Buf (Elt F) ((c : Thread nD τ).loc b) := fun c b => W25 m ρ c b
/-- At region 12's exit: its windows' arrays at what the pipeline leaves (an input's as entered, an output's write-backs
    folded), every other buffer as entered. -/
def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
/-- The same read at the TensorCore's references (region 12's exit contents). -/
abbrev V26 : (c : Dev nD) → (b : Ref sig .tc) → Buf (Elt F) ((c : Thread nD τ).loc b) := fun c b => W26 m ρ c b
/-- At region 12's exit each of its arrays holds what the pipeline leaves, -/
theorem hF12 (c : Dev nD) (w : Fin cfg12.W) : (dat12 (V25 m ρ) c).arrAt w cfg12.N = V26 m ρ c (Pipeline.arrRef spec12 w) :=
  (W26_arr m ρ c w).symm
/-- and every other buffer what it held at entry. -/
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)
/-- A reference that no operation of `hostOps12` writes and that is no window's array in region 12 holds at the region's
    exit what it held before the stretch. -/
theorem W26_keep (c : Dev nD) (r : Ref sig .tc) (hh : r ∉ hostOps12_W) (hr : ∀ w, Pipeline.arrRef spec12 w ≠ r) :
    W26 m ρ c (Proc.devRef .tc r) = W24 m ρ c (Proc.devRef .tc r) :=
  (W26_of_ne m ρ c r hr).trans (StableHlo.after_of_writes_sub hostOps12 _ hostOps12_writes hh)

/-! ## Region 13: the stretch `hostOps13` that leads into it, and its exit -/

/-- After `hostOps13` (region 13's entry). -/
abbrev W27 : Dev nD → Valuation τ sig (Elt F) := fun c => StableHlo.after hostOps13 (W26 m ρ c)
/-- The same read at the TensorCore's references: what region 13's proof data take. -/
abbrev V27 : (c : Dev nD) → (b : Ref sig .tc) → Buf (Elt F) ((c : Thread nD τ).loc b) := fun c b => W27 m ρ c b
/-- At region 13's exit: its windows' arrays at what the pipeline leaves (an input's as entered, an output's write-backs
    folded), every other buffer as entered. -/
def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
/-- The same read at the TensorCore's references (region 13's exit contents). -/
abbrev V28 : (c : Dev nD) → (b : Ref sig .tc) → Buf (Elt F) ((c : Thread nD τ).loc b) := fun c b => W28 m ρ c b
/-- At region 13's exit each of its arrays holds what the pipeline leaves, -/
theorem hF13 (c : Dev nD) (w : Fin cfg13.W) : (dat13 (V27 m ρ) c).arrAt w cfg13.N = V28 m ρ c (Pipeline.arrRef spec13 w) :=
  (W28_arr m ρ c w).symm
/-- and every other buffer what it held at entry. -/
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)
/-- A reference that no operation of `hostOps13` writes and that is no window's array in region 13 holds at the region's
    exit what it held before the stretch. -/
theorem W28_keep (c : Dev nD) (r : Ref sig .tc) (hh : r ∉ hostOps13_W) (hr : ∀ w, Pipeline.arrRef spec13 w ≠ r) :
    W28 m ρ c (Proc.devRef .tc r) = W26 m ρ c (Proc.devRef .tc r) :=
  (W28_of_ne m ρ c r hr).trans (StableHlo.after_of_writes_sub hostOps13 _ hostOps13_writes hh)

/-! ## Region 14: the stretch `hostOps14` that leads into it, and its exit -/

/-- After `hostOps14` (region 14's entry). -/
abbrev W29 : Dev nD → Valuation τ sig (Elt F) := fun c => StableHlo.after hostOps14 (W28 m ρ c)
/-- The same read at the TensorCore's references: what region 14's proof data take. -/
abbrev V29 : (c : Dev nD) → (b : Ref sig .tc) → Buf (Elt F) ((c : Thread nD τ).loc b) := fun c b => W29 m ρ c b
/-- At region 14's exit: its windows' arrays at what the pipeline leaves (an input's as entered, an output's write-backs
    folded), every other buffer as entered. -/
def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
/-- The same read at the TensorCore's references (region 14's exit contents). -/
abbrev V30 : (c : Dev nD) → (b : Ref sig .tc) → Buf (Elt F) ((c : Thread nD τ).loc b) := fun c b => W30 m ρ c b
/-- At region 14's exit each of its arrays holds what the pipeline leaves, -/
theorem hF14 (c : Dev nD) (w : Fin cfg14.W) : (dat14 (V29 m ρ) c).arrAt w cfg14.N = V30 m ρ c (Pipeline.arrRef spec14 w) :=
  (W30_arr m ρ c w).symm
/-- and every other buffer what it held at entry. -/
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)
/-- A reference that no operation of `hostOps14` writes and that is no window's array in region 14 holds at the region's
    exit what it held before the stretch. -/
theorem W30_keep (c : Dev nD) (r : Ref sig .tc) (hh : r ∉ hostOps14_W) (hr : ∀ w, Pipeline.arrRef spec14 w ≠ r) :
    W30 m ρ c (Proc.devRef .tc r) = W28 m ρ c (Proc.devRef .tc r) :=
  (W30_of_ne m ρ c r hr).trans (StableHlo.after_of_writes_sub hostOps14 _ hostOps14_writes hh)

end Cert.KernelIdeal.Hand

end
-- ==== Proof.KI.Data.lean ====
/-
  The end of the fold of buffer contents through the idealized kernel program's @main — the last stretch of host
  operations, `hostOps15`, which computes the result `main_v258` — and what the run of @main is stated over: each of the
  12 argument arrays read back through the fold to the launch memory, the 15 pipelines' proof data (each at its region's
  entry contents), and the thread state that rides through every segment.
-/
import proofs.«102822_j3521873183180_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After `hostOps15`: the buffers when @main returns. -/
abbrev W31 : Dev nD → Valuation τ sig (Elt F) := fun c => StableHlo.after hostOps15 (W30 m ρ c)

/-! ## The arguments end as launched

  `main_arg0` is the array of region 0's window 0, an input window: the region leaves it as entered, and nothing else
  touches it. No other argument is a window's array anywhere, and no host operation writes an argument. -/

/-- No operation of any host stretch writes `r`, and `r` is no window's array in any region. -/
abbrev Untouched (r : Ref sig .tc) : Prop :=
  (r ∉ hostOps0_W ∧ ∀ w, Pipeline.arrRef spec0 w ≠ r) ∧
  (r ∉ hostOps1_W ∧ ∀ w, Pipeline.arrRef spec1 w ≠ r) ∧
  (r ∉ hostOps2_W ∧ ∀ w, Pipeline.arrRef spec2 w ≠ r) ∧
  (r ∉ hostOps3_W ∧ ∀ w, Pipeline.arrRef spec3 w ≠ r) ∧
  (r ∉ hostOps4_W ∧ ∀ w, Pipeline.arrRef spec4 w ≠ r) ∧
  (r ∉ hostOps5_W ∧ ∀ w, Pipeline.arrRef spec5 w ≠ r) ∧
  (r ∉ hostOps6_W ∧ ∀ w, Pipeline.arrRef spec6 w ≠ r) ∧
  (r ∉ hostOps7_W ∧ ∀ w, Pipeline.arrRef spec7 w ≠ r) ∧
  (r ∉ hostOps8_W ∧ ∀ w, Pipeline.arrRef spec8 w ≠ r) ∧
  (r ∉ hostOps9_W ∧ ∀ w, Pipeline.arrRef spec9 w ≠ r) ∧
  (r ∉ hostOps10_W ∧ ∀ w, Pipeline.arrRef spec10 w ≠ r) ∧
  (r ∉ hostOps11_W ∧ ∀ w, Pipeline.arrRef spec11 w ≠ r) ∧
  (r ∉ hostOps12_W ∧ ∀ w, Pipeline.arrRef spec12 w ≠ r) ∧
  (r ∉ hostOps13_W ∧ ∀ w, Pipeline.arrRef spec13 w ≠ r) ∧
  (r ∉ hostOps14_W ∧ ∀ w, Pipeline.arrRef spec14 w ≠ r) ∧
  r ∉ hostOps15_W

-- the conjunction is 31 deep: deciding it takes more instance steps than the default allows
set_option synthInstance.maxSize 4096 in
instance instDecidableUntouched (r : Ref sig .tc) : Decidable (Untouched r) := by unfold Untouched; infer_instance

/-- A reference nothing touches holds at the return what the launch memory holds: back through `hostOps15`, then region
    by region from the last to the first, each with the stretch that leads into it. -/
theorem W31_of_untouched (c : Dev nD) (r : Ref sig .tc) (h : Untouched r) :
    W31 m ρ c (Proc.devRef .tc r) = m ((c : Thread nD τ).loc r) := by
  obtain ⟨
    ⟨a0, b0⟩,
    ⟨a1, b1⟩,
    ⟨a2, b2⟩,
    ⟨a3, b3⟩,
    ⟨a4, b4⟩,
    ⟨a5, b5⟩,
    ⟨a6, b6⟩,
    ⟨a7, b7⟩,
    ⟨a8, b8⟩,
    ⟨a9, b9⟩,
    ⟨a10, b10⟩,
    ⟨a11, b11⟩,
    ⟨a12, b12⟩,
    ⟨a13, b13⟩,
    ⟨a14, b14⟩,
    a15⟩ := h
  exact (StableHlo.after_of_writes_sub hostOps15 _ hostOps15_writes a15).trans <|
    (W30_keep m ρ c r a14 b14).trans <|
    (W28_keep m ρ c r a13 b13).trans <|
    (W26_keep m ρ c r a12 b12).trans <|
    (W24_keep m ρ c r a11 b11).trans <|
    (W22_keep m ρ c r a10 b10).trans <|
    (W20_keep m ρ c r a9 b9).trans <|
    (W18_keep m ρ c r a8 b8).trans <|
    (W16_keep m ρ c r a7 b7).trans <|
    (W14_keep m ρ c r a6 b6).trans <|
    (W12_keep m ρ c r a5 b5).trans <|
    (W10_keep m ρ c r a4 b4).trans <|
    (W8_keep m ρ c r a3 b3).trans <|
    (W6_keep m ρ c r a2 b2).trans <|
    (W4_keep m ρ c r a1 b1).trans <|
    (W2_keep m ρ c r a0 b0).trans <|
    rfl

theorem W31_main_arg0 (c : Dev nD) : W31 m ρ c (Proc.devRef .tc main_arg0) = m ((c : Thread nD τ).loc main_arg0) :=
  calc W31 m ρ c (Proc.devRef .tc main_arg0)
    _ = W2 m ρ c (Proc.devRef .tc main_arg0) :=
          (StableHlo.after_of_writes_sub hostOps15 _ hostOps15_writes (by decide)).trans <|
          (W30_keep m ρ c main_arg0 (by decide) (by decide)).trans <|
          (W28_keep m ρ c main_arg0 (by decide) (by decide)).trans <|
          (W26_keep m ρ c main_arg0 (by decide) (by decide)).trans <|
          (W24_keep m ρ c main_arg0 (by decide) (by decide)).trans <|
          (W22_keep m ρ c main_arg0 (by decide) (by decide)).trans <|
          (W20_keep m ρ c main_arg0 (by decide) (by decide)).trans <|
          (W18_keep m ρ c main_arg0 (by decide) (by decide)).trans <|
          (W16_keep m ρ c main_arg0 (by decide) (by decide)).trans <|
          (W14_keep m ρ c main_arg0 (by decide) (by decide)).trans <|
          (W12_keep m ρ c main_arg0 (by decide) (by decide)).trans <|
          (W10_keep m ρ c main_arg0 (by decide) (by decide)).trans <|
          (W8_keep m ρ c main_arg0 (by decide) (by decide)).trans <|
          (W6_keep m ρ c main_arg0 (by decide) (by decide)).trans <|
          (W4_keep m ρ c main_arg0 (by decide) (by decide)).trans <|
          rfl
    _ = W1 m ρ c (Proc.devRef .tc main_arg0) :=
          (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W31_main_arg1 (c : Dev nD) : W31 m ρ c (Proc.devRef .tc main_arg1) = m ((c : Thread nD τ).loc main_arg1) :=
  W31_of_untouched m ρ c main_arg1 (by decide)
theorem W31_main_arg2 (c : Dev nD) : W31 m ρ c (Proc.devRef .tc main_arg2) = m ((c : Thread nD τ).loc main_arg2) :=
  W31_of_untouched m ρ c main_arg2 (by decide)
theorem W31_main_arg3 (c : Dev nD) : W31 m ρ c (Proc.devRef .tc main_arg3) = m ((c : Thread nD τ).loc main_arg3) :=
  W31_of_untouched m ρ c main_arg3 (by decide)
theorem W31_main_arg4 (c : Dev nD) : W31 m ρ c (Proc.devRef .tc main_arg4) = m ((c : Thread nD τ).loc main_arg4) :=
  W31_of_untouched m ρ c main_arg4 (by decide)
theorem W31_main_arg5 (c : Dev nD) : W31 m ρ c (Proc.devRef .tc main_arg5) = m ((c : Thread nD τ).loc main_arg5) :=
  W31_of_untouched m ρ c main_arg5 (by decide)
theorem W31_main_arg6 (c : Dev nD) : W31 m ρ c (Proc.devRef .tc main_arg6) = m ((c : Thread nD τ).loc main_arg6) :=
  W31_of_untouched m ρ c main_arg6 (by decide)
theorem W31_main_arg7 (c : Dev nD) : W31 m ρ c (Proc.devRef .tc main_arg7) = m ((c : Thread nD τ).loc main_arg7) :=
  W31_of_untouched m ρ c main_arg7 (by decide)
theorem W31_main_arg8 (c : Dev nD) : W31 m ρ c (Proc.devRef .tc main_arg8) = m ((c : Thread nD τ).loc main_arg8) :=
  W31_of_untouched m ρ c main_arg8 (by decide)
theorem W31_main_arg9 (c : Dev nD) : W31 m ρ c (Proc.devRef .tc main_arg9) = m ((c : Thread nD τ).loc main_arg9) :=
  W31_of_untouched m ρ c main_arg9 (by decide)
theorem W31_main_arg10 (c : Dev nD) : W31 m ρ c (Proc.devRef .tc main_arg10) = m ((c : Thread nD τ).loc main_arg10) :=
  W31_of_untouched m ρ c main_arg10 (by decide)
theorem W31_main_arg11 (c : Dev nD) : W31 m ρ c (Proc.devRef .tc main_arg11) = m ((c : Thread nD τ).loc main_arg11) :=
  W31_of_untouched m ρ c main_arg11 (by decide)

/-! ## The proof data family and the thread state -/

/-- Every pipeline's proof data, each at its region's entry contents: a literal `match` on the pipeline's number, so that
    the configuration pinned at a numeral reduces to the printed one. -/
def pdats : (p : Fin 15) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers at every boundary: its generator register at some state, and its tally of dues
    at nothing. -/
abbrev R (c : Dev nD) : sProp 𝕄 := iprop((∃ r, prngReg c r) ∗ ∃ W, owes (c : Thread nD τ) (0 : CellTallies nD τ sig Unit) W)
/-- A stretch of host operations as a segment of the run: over the unscoped buffers from the contents `W`, with `R`
    beside them; it leaves those buffers at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.RegsA.lean ====
/-
  Regions 0 … 4 of the idealized kernel program's @main as segments of its run, at any float instance. A region is
  entered with every unscoped buffer of the core at the contents of the boundary before it and leaves them at the
  contents of the boundary after it (KI/Fold.lean); beside the buffers the core holds its generator register and a tally
  of dues at nothing (`R`, KI/Data.lean). None of these kernels has a semaphore of its own, a prefetched table or a
  scratch buffer, and none owes anything at any grid point, so a region's record is its body obligation (KI/R0 … R4)
  and the bookkeeping at its two ends.
-/
import proofs.«102822_j3521873183180_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration `Pipeline.pin pcs a p` meets the printed configuration only when
-- unification may unfold plain definitions inside a metavariable's type
set_option backward.isDefEq.respectTransparency.types false in
/-- REGION 0 (pallas_call 0), entered with the unscoped buffers at `W1` and left with them at `W2`.
    At the entry its windows' arrays are taken out of the unscoped buffers, each at what `W1` holds there, and the rest
    of the unscoped buffers bypasses the region; the generator register goes into the pipeline's invariant at the first
    grid point and comes back from it at the last; at the exit the arrays, now at what the write-backs fold to, go back
    among the unscoped buffers, which makes them `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the kernel has no semaphore of its own
    rw [Pipeline.ownSems0_none]
    -- the unscoped buffers at `W1`: the windows' arrays at their entry contents, and the unscoped rest
    have harrays := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m ρ 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W2`
    have hbufs := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 1 (pallas_call 1), entered with the unscoped buffers at `W3` and left with them at `W4`.
    At the entry its windows' arrays are taken out of the unscoped buffers, each at what `W3` holds there, and the rest
    of the unscoped buffers bypasses the region; the generator register goes into the pipeline's invariant at the first
    grid point and comes back from it at the last; at the exit the arrays, now at what the write-backs fold to, go back
    among the unscoped buffers, which makes them `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the kernel has no semaphore of its own
    rw [Pipeline.ownSems0_none]
    -- the unscoped buffers at `W3`: the windows' arrays at their entry contents, and the unscoped rest
    have harrays := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (pdats m ρ 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W4`
    have hbufs := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 2 (pallas_call 2), entered with the unscoped buffers at `W5` and left with them at `W6`.
    At the entry its windows' arrays are taken out of the unscoped buffers, each at what `W5` holds there, and the rest
    of the unscoped buffers bypasses the region; the generator register goes into the pipeline's invariant at the first
    grid point and comes back from it at the last; at the exit the arrays, now at what the write-backs fold to, go back
    among the unscoped buffers, which makes them `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    -- the kernel has no semaphore of its own
    rw [Pipeline.ownSems0_none]
    -- the unscoped buffers at `W5`: the windows' arrays at their entry contents, and the unscoped rest
    have harrays := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (pdats m ρ 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W6`
    have hbufs := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 3 (pallas_call 3), entered with the unscoped buffers at `W7` and left with them at `W8`.
    At the entry its windows' arrays are taken out of the unscoped buffers, each at what `W7` holds there, and the rest
    of the unscoped buffers bypasses the region; the generator register goes into the pipeline's invariant at the first
    grid point and comes back from it at the last; at the exit the arrays, now at what the write-backs fold to, go back
    among the unscoped buffers, which makes them `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    -- the kernel has no semaphore of its own
    rw [Pipeline.ownSems0_none]
    -- the unscoped buffers at `W7`: the windows' arrays at their entry contents, and the unscoped rest
    have harrays := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 3 c).Φ 0 = Pipeline.ΦA spec3 c from rfl]; unfold Pipeline.ΦA
    iintro ⟨Hgen, -, Hscoped⟩
    isplitl [Hscoped]; · iexact Hscoped
    iexact Hgen
  hout c := by
    rw [Pipeline.ownSems0_none, show (pdats m ρ 3 c).Φ (Fin.last _) = Pipeline.ΦA spec3 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W8`
    have hbufs := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 4 (pallas_call 4), entered with the unscoped buffers at `W9` and left with them at `W10`.
    At the entry its windows' arrays are taken out of the unscoped buffers, each at what `W9` holds there, and the rest
    of the unscoped buffers bypasses the region; the generator register goes into the pipeline's invariant at the first
    grid point and comes back from it at the last; at the exit the arrays, now at what the write-backs fold to, go back
    among the unscoped buffers, which makes them `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    -- the kernel has no semaphore of its own
    rw [Pipeline.ownSems0_none]
    -- the unscoped buffers at `W9`: the windows' arrays at their entry contents, and the unscoped rest
    have harrays := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 4 c).Φ 0 = Pipeline.ΦA spec4 c from rfl]; unfold Pipeline.ΦA
    iintro ⟨Hgen, -, Hscoped⟩
    isplitl [Hscoped]; · iexact Hscoped
    iexact Hgen
  hout c := by
    rw [Pipeline.ownSems0_none, show (pdats m ρ 4 c).Φ (Fin.last _) = Pipeline.ΦA spec4 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W10`
    have hbufs := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

end Cert.KernelIdeal.Hand

end
-- ==== Proof.KI.RegsB.lean ====
/-
  Regions 5 … 9 of the idealized kernel program's @main as segments of its run, at any float instance. A region is
  entered with every unscoped buffer of the core at the contents of the boundary before it and leaves them at the
  contents of the boundary after it (KI/Fold.lean); beside the buffers the core holds its generator register and a tally
  of dues at nothing (`R`, KI/Data.lean). None of these kernels has a semaphore of its own, a prefetched table or a
  scratch buffer, and none owes anything at any grid point, so a region's record is its body obligation (KI/R5 … R9)
  and the bookkeeping at its two ends.
-/
import proofs.«102822_j3521873183180_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration `Pipeline.pin pcs a p` meets the printed configuration only when
-- unification may unfold plain definitions inside a metavariable's type
set_option backward.isDefEq.respectTransparency.types false in
/-- REGION 5 (pallas_call 5), entered with the unscoped buffers at `W11` and left with them at `W12`.
    At the entry its windows' arrays are taken out of the unscoped buffers, each at what `W11` holds there, and the rest
    of the unscoped buffers bypasses the region; the generator register goes into the pipeline's invariant at the first
    grid point and comes back from it at the last; at the exit the arrays, now at what the write-backs fold to, go back
    among the unscoped buffers, which makes them `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    -- the kernel has no semaphore of its own
    rw [Pipeline.ownSems0_none]
    -- the unscoped buffers at `W11`: the windows' arrays at their entry contents, and the unscoped rest
    have harrays := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 5 c).Φ 0 = Pipeline.ΦA spec5 c from rfl]; unfold Pipeline.ΦA
    iintro ⟨Hgen, -, Hscoped⟩
    isplitl [Hscoped]; · iexact Hscoped
    iexact Hgen
  hout c := by
    rw [Pipeline.ownSems0_none, show (pdats m ρ 5 c).Φ (Fin.last _) = Pipeline.ΦA spec5 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W12`
    have hbufs := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 6 (pallas_call 6), entered with the unscoped buffers at `W13` and left with them at `W14`.
    At the entry its windows' arrays are taken out of the unscoped buffers, each at what `W13` holds there, and the rest
    of the unscoped buffers bypasses the region; the generator register goes into the pipeline's invariant at the first
    grid point and comes back from it at the last; at the exit the arrays, now at what the write-backs fold to, go back
    among the unscoped buffers, which makes them `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    -- the kernel has no semaphore of its own
    rw [Pipeline.ownSems0_none]
    -- the unscoped buffers at `W13`: the windows' arrays at their entry contents, and the unscoped rest
    have harrays := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 6 c).Φ 0 = Pipeline.ΦA spec6 c from rfl]; unfold Pipeline.ΦA
    iintro ⟨Hgen, -, Hscoped⟩
    isplitl [Hscoped]; · iexact Hscoped
    iexact Hgen
  hout c := by
    rw [Pipeline.ownSems0_none, show (pdats m ρ 6 c).Φ (Fin.last _) = Pipeline.ΦA spec6 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W14`
    have hbufs := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 7 (pallas_call 7), entered with the unscoped buffers at `W15` and left with them at `W16`.
    At the entry its windows' arrays are taken out of the unscoped buffers, each at what `W15` holds there, and the rest
    of the unscoped buffers bypasses the region; the generator register goes into the pipeline's invariant at the first
    grid point and comes back from it at the last; at the exit the arrays, now at what the write-backs fold to, go back
    among the unscoped buffers, which makes them `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    -- the kernel has no semaphore of its own
    rw [Pipeline.ownSems0_none]
    -- the unscoped buffers at `W15`: the windows' arrays at their entry contents, and the unscoped rest
    have harrays := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 7 c).Φ 0 = Pipeline.ΦA spec7 c from rfl]; unfold Pipeline.ΦA
    iintro ⟨Hgen, -, Hscoped⟩
    isplitl [Hscoped]; · iexact Hscoped
    iexact Hgen
  hout c := by
    rw [Pipeline.ownSems0_none, show (pdats m ρ 7 c).Φ (Fin.last _) = Pipeline.ΦA spec7 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W16`
    have hbufs := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 8 (pallas_call 8), entered with the unscoped buffers at `W17` and left with them at `W18`.
    At the entry its windows' arrays are taken out of the unscoped buffers, each at what `W17` holds there, and the rest
    of the unscoped buffers bypasses the region; the generator register goes into the pipeline's invariant at the first
    grid point and comes back from it at the last; at the exit the arrays, now at what the write-backs fold to, go back
    among the unscoped buffers, which makes them `W18`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    -- the kernel has no semaphore of its own
    rw [Pipeline.ownSems0_none]
    -- the unscoped buffers at `W17`: the windows' arrays at their entry contents, and the unscoped rest
    have harrays := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 8 c).Φ 0 = Pipeline.ΦA spec8 c from rfl]; unfold Pipeline.ΦA
    iintro ⟨Hgen, -, Hscoped⟩
    isplitl [Hscoped]; · iexact Hscoped
    iexact Hgen
  hout c := by
    rw [Pipeline.ownSems0_none, show (pdats m ρ 8 c).Φ (Fin.last _) = Pipeline.ΦA spec8 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W18`
    have hbufs := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 9 (pallas_call 9), entered with the unscoped buffers at `W19` and left with them at `W20`.
    At the entry its windows' arrays are taken out of the unscoped buffers, each at what `W19` holds there, and the rest
    of the unscoped buffers bypasses the region; the generator register goes into the pipeline's invariant at the first
    grid point and comes back from it at the last; at the exit the arrays, now at what the write-backs fold to, go back
    among the unscoped buffers, which makes them `W20`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    -- the kernel has no semaphore of its own
    rw [Pipeline.ownSems0_none]
    -- the unscoped buffers at `W19`: the windows' arrays at their entry contents, and the unscoped rest
    have harrays := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 9 c).Φ 0 = Pipeline.ΦA spec9 c from rfl]; unfold Pipeline.ΦA
    iintro ⟨Hgen, -, Hscoped⟩
    isplitl [Hscoped]; · iexact Hscoped
    iexact Hgen
  hout c := by
    rw [Pipeline.ownSems0_none, show (pdats m ρ 9 c).Φ (Fin.last _) = Pipeline.ΦA spec9 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W20`
    have hbufs := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

end Cert.KernelIdeal.Hand

end
-- ==== Proof.KI.RegsC.lean ====
/-
  Regions 10 … 14 of the idealized kernel program's @main as segments of its run, at any float instance. A region is
  entered with every unscoped buffer of the core at the contents of the boundary before it and leaves them at the
  contents of the boundary after it (KI/Fold.lean); beside the buffers the core holds its generator register and a tally
  of dues at nothing (`R`, KI/Data.lean). None of these kernels has a semaphore of its own, a prefetched table or a
  scratch buffer, and none owes anything at any grid point, so a region's record is its body obligation (KI/R10 … R14)
  and the bookkeeping at its two ends.
-/
import proofs.«102822_j3521873183180_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration `Pipeline.pin pcs a p` meets the printed configuration only when
-- unification may unfold plain definitions inside a metavariable's type
set_option backward.isDefEq.respectTransparency.types false in
/-- REGION 10 (pallas_call 10), entered with the unscoped buffers at `W21` and left with them at `W22`.
    At the entry its windows' arrays are taken out of the unscoped buffers, each at what `W21` holds there, and the rest
    of the unscoped buffers bypasses the region; the generator register goes into the pipeline's invariant at the first
    grid point and comes back from it at the last; at the exit the arrays, now at what the write-backs fold to, go back
    among the unscoped buffers, which makes them `W22`. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    -- the kernel has no semaphore of its own
    rw [Pipeline.ownSems0_none]
    -- the unscoped buffers at `W21`: the windows' arrays at their entry contents, and the unscoped rest
    have harrays := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 10 c).Φ 0 = Pipeline.ΦA spec10 c from rfl]; unfold Pipeline.ΦA
    iintro ⟨Hgen, -, Hscoped⟩
    isplitl [Hscoped]; · iexact Hscoped
    iexact Hgen
  hout c := by
    rw [Pipeline.ownSems0_none, show (pdats m ρ 10 c).Φ (Fin.last _) = Pipeline.ΦA spec10 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W22`
    have hbufs := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 11 (pallas_call 11), entered with the unscoped buffers at `W23` and left with them at `W24`.
    At the entry its windows' arrays are taken out of the unscoped buffers, each at what `W23` holds there, and the rest
    of the unscoped buffers bypasses the region; the generator register goes into the pipeline's invariant at the first
    grid point and comes back from it at the last; at the exit the arrays, now at what the write-backs fold to, go back
    among the unscoped buffers, which makes them `W24`. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    -- the kernel has no semaphore of its own
    rw [Pipeline.ownSems0_none]
    -- the unscoped buffers at `W23`: the windows' arrays at their entry contents, and the unscoped rest
    have harrays := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 11 c).Φ 0 = Pipeline.ΦA spec11 c from rfl]; unfold Pipeline.ΦA
    iintro ⟨Hgen, -, Hscoped⟩
    isplitl [Hscoped]; · iexact Hscoped
    iexact Hgen
  hout c := by
    rw [Pipeline.ownSems0_none, show (pdats m ρ 11 c).Φ (Fin.last _) = Pipeline.ΦA spec11 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W24`
    have hbufs := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 12 (pallas_call 12), entered with the unscoped buffers at `W25` and left with them at `W26`.
    At the entry its windows' arrays are taken out of the unscoped buffers, each at what `W25` holds there, and the rest
    of the unscoped buffers bypasses the region; the generator register goes into the pipeline's invariant at the first
    grid point and comes back from it at the last; at the exit the arrays, now at what the write-backs fold to, go back
    among the unscoped buffers, which makes them `W26`. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    -- the kernel has no semaphore of its own
    rw [Pipeline.ownSems0_none]
    -- the unscoped buffers at `W25`: the windows' arrays at their entry contents, and the unscoped rest
    have harrays := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 12 c).Φ 0 = Pipeline.ΦA spec12 c from rfl]; unfold Pipeline.ΦA
    iintro ⟨Hgen, -, Hscoped⟩
    isplitl [Hscoped]; · iexact Hscoped
    iexact Hgen
  hout c := by
    rw [Pipeline.ownSems0_none, show (pdats m ρ 12 c).Φ (Fin.last _) = Pipeline.ΦA spec12 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W26`
    have hbufs := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 13 (pallas_call 13), entered with the unscoped buffers at `W27` and left with them at `W28`.
    At the entry its windows' arrays are taken out of the unscoped buffers, each at what `W27` holds there, and the rest
    of the unscoped buffers bypasses the region; the generator register goes into the pipeline's invariant at the first
    grid point and comes back from it at the last; at the exit the arrays, now at what the write-backs fold to, go back
    among the unscoped buffers, which makes them `W28`. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    -- the kernel has no semaphore of its own
    rw [Pipeline.ownSems0_none]
    -- the unscoped buffers at `W27`: the windows' arrays at their entry contents, and the unscoped rest
    have harrays := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 13 c).Φ 0 = Pipeline.ΦA spec13 c from rfl]; unfold Pipeline.ΦA
    iintro ⟨Hgen, -, Hscoped⟩
    isplitl [Hscoped]; · iexact Hscoped
    iexact Hgen
  hout c := by
    rw [Pipeline.ownSems0_none, show (pdats m ρ 13 c).Φ (Fin.last _) = Pipeline.ΦA spec13 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W28`
    have hbufs := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

-- a library lemma stated over the pinned configuration `Pipeline.pin pcs a p` meets the printed configuration only when
-- unification may unfold plain definitions inside a metavariable's type
set_option backward.isDefEq.respectTransparency.types false in
/-- REGION 14 (pallas_call 14), entered with the unscoped buffers at `W29` and left with them at `W30`.
    At the entry its windows' arrays are taken out of the unscoped buffers, each at what `W29` holds there, and the rest
    of the unscoped buffers bypasses the region; the generator register goes into the pipeline's invariant at the first
    grid point and comes back from it at the last; at the exit the arrays, now at what the write-backs fold to, go back
    among the unscoped buffers, which makes them `W30`. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    -- the kernel has no semaphore of its own
    rw [Pipeline.ownSems0_none]
    -- the unscoped buffers at `W29`: the windows' arrays at their entry contents, and the unscoped rest
    have harrays := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at harrays
    iintro ⟨⟨Hbufs, Hgen, Hdues⟩, -, -⟩
    ihave Hparts := harrays $$ Hbufs
    icases Hparts with ⟨Harr, Hrest⟩
    imodintro
    isplitl [Harr]; · iexact Harr
    -- no prefetched table
    isplitr
    · unfold Pipeline.prefHeld; rw [show (Finset.univ : Finset (Fin 0)) = ∅ from rfl, BI.bigSep_empty]; iempintro
    -- nothing owed is within every bound
    isplitl [Hdues]
    · unfold Pipeline.Dat.owesAt Pipeline.owesWithin
      icases Hdues with ⟨%T, Hdues⟩
      iexists T
      isplitr; · ipureintro; exact fun _ _ => Or.inl trivial
      iexact Hdues
    isplitl [Hgen]; · iexact Hgen
    iexact Hrest
  hin c := by
    -- the invariant of a kernel without scratch or own semaphores: the generator register and the scoped rest
    rw [show (pdats m ρ 14 c).Φ 0 = Pipeline.ΦA spec14 c from rfl]; unfold Pipeline.ΦA
    iintro ⟨Hgen, -, Hscoped⟩
    isplitl [Hscoped]; · iexact Hscoped
    iexact Hgen
  hout c := by
    rw [Pipeline.ownSems0_none, show (pdats m ρ 14 c).Φ (Fin.last _) = Pipeline.ΦA spec14 c from rfl]; unfold Pipeline.ΦA
    iintro ⟨Hscoped, Hgen⟩
    isplitl [Hgen]; · iexact Hgen
    isplitr; · iempintro
    iexact Hscoped
  hexit c := by
    -- the arrays at what the write-backs fold to, put back beside the unscoped rest, are the unscoped buffers at `W30`
    have hbufs := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hbufs
    iintro ⟨Harr, Hdues, Hgen, Hrest⟩
    imodintro
    isplitl [Harr Hrest]
    · iapply hbufs; isplitl [Harr] <;> iassumption
    isplitl [Hgen]; · iexact Hgen
    unfold Pipeline.Dat.owesAt Pipeline.owesWithin
    icases Hdues with ⟨%T, -, Hdues⟩; iexists T; iexact Hdues

end Cert.KernelIdeal.Hand

end
-- ==== Proof.KI.Run.lean ====
/-
  THE RUN of the idealized kernel program's @main, at any float instance, from any launch memory `m` with every counter at
  zero and any generator state `ρ`: @main is 16 stretches of host operations with the 15 pallas_call regions between them,
  31 segments in all, and the last segment is the stretch `hostOps15` that computes the result `main_v258`. Every weakly
  fair execution terminates, nothing faulting, and when it does each TensorCore's unscoped buffers hold `W31`, the end of
  the fold of contents through the segments (KI/Fold.lean, KI/Data.lean). Read at the arguments that is the frame claim;
  read at `main_v258` as well it is the run the comparison with the reference starts from.
-/
import proofs.«102822_j3521873183180_1_alg».proof.Proof.KI.RegsA
import proofs.«102822_j3521873183180_1_alg».proof.Proof.KI.RegsB
import proofs.«102822_j3521873183180_1_alg».proof.Proof.KI.RegsC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments -/

/-- The 31 segments of @main in order: the stretch `hostOpsK` from the contents of boundary 2K, then region K. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)),
    .region (reg14 m ρ),
    .host (hseg hostOps15 hostOps15_sub hostOps15_fresh (W30 m ρ)) ]

/-- @main is the run of its segments: it is the chain of its 31 items (the generated `main_chain`), the segments' run is the
    chain of their fragments, and fragment by fragment the two lists are the same. -/
theorem main_run (c : Dev nD) : main (F := F) c = Pipeline.Seg.run (segs m ρ) := by
  rewrite [main_chain c, Pipeline.Seg.run_eq_chain]; rfl

/-! ## The last thread state -/

/-- What a core holds when @main returns, without its tally of dues: every unscoped buffer at `W31`, the generator register
    at some state. -/
abbrev Tₙ (c : Dev nD) : sProp 𝕄 := iprop(StableHlo.held (c : Thread nD τ) (Pipeline.ucRefs τ sig) (W31 m ρ c) ∗ ∃ r, prngReg c r)

/-- The stretch `hostOps15` leaves the buffers at `W31` with `R` beside them: that is `Tₙ` beside the core owing nothing. -/
theorem last_state (c : Dev nD) :
    iprop(StableHlo.held (c : Thread nD τ) (Pipeline.ucRefs τ sig) (W31 m ρ c) ∗ R c)
      ⊢ (iprop(Tₙ m ρ c ∗ ∃ W, owes (c : Thread nD τ) (0 : CellTallies nD τ sig Unit) W) : sProp 𝕄) := by
  iintro ⟨Hbufs, Hgen, Hdues⟩
  isplitl [Hbufs Hgen]
  · isplitl [Hbufs]; · iexact Hbufs
    iexact Hgen
  iexact Hdues

/-! ## The launch -/

-- the launch theorem's implicit arguments are found by unifying its conclusion with this one, which takes unfolding plain
-- definitions inside a metavariable's type
set_option backward.isDefEq.respectTransparency.types false in
/-- THE RUN: every weakly fair execution of @main on the TensorCores terminates, nothing faulting, and every final memory
    holds, at every unscoped buffer of every core, what the fold of contents ends at. Each segment is entered from exactly
    the state the one before it left (a stretch leaves `StableHlo.after` of what it found, which is the next region's
    entry contents by definition; a region leaves its exit contents, which the next stretch starts from), so the chaining
    is reflexivity at every boundary but the last. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W31 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      last_state m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdues, -, Hgen, -⟩, -⟩
      imodintro
      isplitl [Hbufs]; · iexact Hbufs
      isplitl [Hgen]; · iexists _; iexact Hgen
      iexists ∅; iexact Hdues)
    (QY := fun c s => ∀ b ∈ Pipeline.ucRefs τ sig, s.mem (((c : Thread nD τ)).1, b) = W31 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W31 m ρ c) s')
      isplitl [Hbufs] <;> iassumption)
    (hQ := fun _ h => h)

/-! ## The two readings of the run -/

/-- THE FRAME: @main runs, and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W31_main_arg0 m ρ c),
     (h c _ (mem_uc main_arg1 (by decide))).trans (W31_main_arg1 m ρ c),
     (h c _ (mem_uc main_arg2 (by decide))).trans (W31_main_arg2 m ρ c),
     (h c _ (mem_uc main_arg3 (by decide))).trans (W31_main_arg3 m ρ c),
     (h c _ (mem_uc main_arg4 (by decide))).trans (W31_main_arg4 m ρ c),
     (h c _ (mem_uc main_arg5 (by decide))).trans (W31_main_arg5 m ρ c),
     (h c _ (mem_uc main_arg6 (by decide))).trans (W31_main_arg6 m ρ c),
     (h c _ (mem_uc main_arg7 (by decide))).trans (W31_main_arg7 m ρ c),
     (h c _ (mem_uc main_arg8 (by decide))).trans (W31_main_arg8 m ρ c),
     (h c _ (mem_uc main_arg9 (by decide))).trans (W31_main_arg9 m ρ c),
     (h c _ (mem_uc main_arg10 (by decide))).trans (W31_main_arg10 m ρ c),
     (h c _ (mem_uc main_arg11 (by decide))).trans (W31_main_arg11 m ρ c)⟩) (run_all m ρ)

/-- THE RUN WITH ITS RESULT: @main runs, its result buffer `main_v258` ends at what the fold ends at there, and every
    argument array ends holding its launch contents. -/
theorem run_value : θ_run defs (onTc (τ := τ) (main (F := F))) ⟨m, fun _ => 0, ρ⟩ (fun r => ∀ c : Dev nD,
      r.2.mem ((c.tc : Thread nD τ).loc main_v258) = W31 m ρ c (Proc.devRef .tc main_v258)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨h c _ (mem_uc main_v258 (by decide)),
     (h c _ (mem_uc main_arg0 (by decide))).trans (W31_main_arg0 m ρ c),
     (h c _ (mem_uc main_arg1 (by decide))).trans (W31_main_arg1 m ρ c),
     (h c _ (mem_uc main_arg2 (by decide))).trans (W31_main_arg2 m ρ c),
     (h c _ (mem_uc main_arg3 (by decide))).trans (W31_main_arg3 m ρ c),
     (h c _ (mem_uc main_arg4 (by decide))).trans (W31_main_arg4 m ρ c),
     (h c _ (mem_uc main_arg5 (by decide))).trans (W31_main_arg5 m ρ c),
     (h c _ (mem_uc main_arg6 (by decide))).trans (W31_main_arg6 m ρ c),
     (h c _ (mem_uc main_arg7 (by decide))).trans (W31_main_arg7 m ρ c),
     (h c _ (mem_uc main_arg8 (by decide))).trans (W31_main_arg8 m ρ c),
     (h c _ (mem_uc main_arg9 (by decide))).trans (W31_main_arg9 m ρ c),
     (h c _ (mem_uc main_arg10 (by decide))).trans (W31_main_arg10 m ρ c),
     (h c _ (mem_uc main_arg11 (by decide))).trans (W31_main_arg11 m ρ c)⟩) (run_all m ρ)

end Cert.KernelIdeal.Hand

end
-- ==== Proof.RI.Ops.lean ====
import proofs.«102822_j3521873183180_1_alg».proof.Proof.Gen.ReferenceIdeal
import Idealize.ShloMosaic.Lib.StableHlo.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The two index rows of the edge table, shared by every layer: row 0 and row 1 of `main_arg1`, each reshaped to a vector (`%0` … `%3`). 4 operations. -/
abbrev opsPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- Layer 0: the source indices wrapped into range, the gather of the node rows along the edges and their scatter-add at the targets, the sum with the node rows, the two affine maps each followed by its batch normalisation (mean, then the variance computed by `@_var` with its inner `@_where`, listed here over that call's own buffers), and the column sums of the result (`main_v77`). 128 operations. -/
abbrev opsL0 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst (constant S_ .f32 0x00000000#32),
    StableHlo.unary main_cst main_v11 (broadcastInDim S50000x256 ![] bcast_S_S50000x256 : (⟨S_, .f32⟩ : BufTy).Contents (Elt F) → (⟨S50000x256, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_arg0 main_v13 main_v14 (addf : (⟨S50000x256, .f32⟩ : BufTy).Contents (Elt F) → (⟨S50000x256, .f32⟩ : BufTy).Contents (Elt F) → (⟨S50000x256, .f32⟩ : BufTy).Contents (Elt F)),
    StableHlo.unary main_arg2 main_v15 ((extractStridedSlice S1x256x256 ![0, 0, 0] · slices_S5x256x256_S1x256x256_0_0_0) : (⟨S5x256x256, .f32⟩ : BufTy).Contents (Elt F) → (⟨S1x256x256, .f32⟩ : BufTy).Contents (Elt F)),
    StableHlo.reshape main_v15 main_v16 rfl shapeCasts_S1x256x256_S256x256,
    StableHlo.binary main_v14 main_v16 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v18 ((extractStridedSlice S1x256 ![0, 0] · slices_S5x256_S1x256_0_0) : (⟨S5x256, .f32⟩ : BufTy).Contents (Elt F) → (⟨S1x256, .f32⟩ : BufTy).Contents (Elt F)),
    StableHlo.reshape main_v18 main_v19 rfl shapeCasts_S1x256_S256,
    StableHlo.unary main_v19 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v17 main_v21 main_v22 (addf : (⟨S50000x256, .f32⟩ : BufTy).Contents (Elt F) → (⟨S50000x256, .f32⟩ : BufTy).Contents (Elt F) → (⟨S50000x256, .f32⟩ : BufTy).Contents (Elt F)),
    StableHlo.unary main_arg4 main_v23 ((extractStridedSlice S1x256 ![0, 0] · slices_S5x256_S1x256_0_0) : (⟨S5x256, .f32⟩ : BufTy).Contents (Elt F) → (⟨S1x256, .f32⟩ : BufTy).Contents (Elt F)),
    StableHlo.reshape main_v23 main_v24 rfl shapeCasts_S1x256_S256,
    StableHlo.unary main_arg5 main_v25 ((extractStridedSlice S1x256 ![0, 0] · slices_S5x256_S1x256_0_0) : (⟨S5x256, .f32⟩ : BufTy).Contents (Elt F) → (⟨S1x256, .f32⟩ : BufTy).Contents (Elt F)),
    StableHlo.reshape main_v25 main_v26 rfl shapeCasts_S1x256_S256,
    StableHlo.nullary main_cst_1 (constant S_ .f32 0x00000000#32),
    StableHlo.binary main_v22 main_cst_1 main_v27 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v28 (broadcastInDim S256 ![] bcast_S_S256 : (⟨S_, .f32⟩ : BufTy).Contents (Elt F) → (⟨S256, .f32⟩ : BufTy).Contents (Elt F)),
    StableHlo.binary main_v27 main_v28 main_v29 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v22 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v22 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v29 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v32 main_v33 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v34 (broadcastInDim S256 ![] bcast_S_S256 : (⟨S_, .f32⟩ : BufTy).Contents (Elt F) → (⟨S256, .f32⟩ : BufTy).Contents (Elt F)),
    StableHlo.binary main_v30 main_v34 main_v35 (addf : (⟨S256, .f32⟩ : BufTy).Contents (Elt F) → (⟨S256, .f32⟩ : BufTy).Contents (Elt F) → (⟨S256, .f32⟩ : BufTy).Contents (Elt F)),
    StableHlo.unary main_v35 main_v36 (Host.rsqrt : (⟨S256, .f32⟩ : BufTy).Contents (Elt F) → (⟨S256, .f32⟩ : BufTy).Contents (Elt F)),
    StableHlo.unary main_v36 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v33 main_v38 main_v39 (mulf : (⟨S50000x256, .f32⟩ : BufTy).Contents (Elt F) → (⟨S50000x256, .f32⟩ : BufTy).Contents (Elt F) → (⟨S50000x256, .f32⟩ : BufTy).Contents (Elt F)),
    StableHlo.unary main_v24 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (mulf : (⟨S50000x256, .f32⟩ : BufTy).Contents (Elt F) → (⟨S50000x256, .f32⟩ : BufTy).Contents (Elt F) → (⟨S50000x256, .f32⟩ : BufTy).Contents (Elt F)),
    StableHlo.unary main_v26 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v42 main_v44 main_v45 (addf : (⟨S50000x256, .f32⟩ : BufTy).Contents (Elt F) → (⟨S50000x256, .f32⟩ : BufTy).Contents (Elt F) → (⟨S50000x256, .f32⟩ : BufTy).Contents (Elt F)),
    StableHlo.unary main_arg6 main_v46 ((extractStridedSlice S1x256x256 ![0, 0, 0] · slices_S5x256x256_S1x256x256_0_0_0) : (⟨S5x256x256, .f32⟩ : BufTy).Contents (Elt F) → (⟨S1x256x256, .f32⟩ : BufTy).Contents (Elt F)),
    StableHlo.reshape main_v46 main_v47 rfl shapeCasts_S1x256x256_S256x256,
    StableHlo.binary main_v45 main_v47 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v49 ((extractStridedSlice S1x256 ![0, 0] · slices_S5x256_S1x256_0_0) : (⟨S5x256, .f32⟩ : BufTy).Contents (Elt F) → (⟨S1x256, .f32⟩ : BufTy).Contents (Elt F)),
    StableHlo.reshape main_v49 main_v50 rfl shapeCasts_S1x256_S256,
    StableHlo.unary main_v50 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v52 main_v53 (addf : (⟨S50000x256, .f32⟩ : BufTy).Contents (Elt F) → (⟨S50000x256, .f32⟩ : BufTy).Contents (Elt F) → (⟨S50000x256, .f32⟩ : BufTy).Contents (Elt F)),
    StableHlo.unary main_arg8 main_v54 ((extractStridedSlice S1x256 ![0, 0] · slices_S5x256_S1x256_0_0) : (⟨S5x256, .f32⟩ : BufTy).Contents (Elt F) → (⟨S1x256, .f32⟩ : BufTy).Contents (Elt F)),
    StableHlo.reshape main_v54 main_v55 rfl shapeCasts_S1x256_S256,
    StableHlo.unary main_arg9 main_v56 ((extractStridedSlice S1x256 ![0, 0] · slices_S5x256_S1x256_0_0) : (⟨S5x256, .f32⟩ : BufTy).Contents (Elt F) → (⟨S1x256, .f32⟩ : BufTy).Contents (Elt F)),
    StableHlo.reshape main_v56 main_v57 rfl shapeCasts_S1x256_S256,
    StableHlo.nullary main_cst_5 (constant S_ .f32 0x00000000#32),
    StableHlo.binary main_v53 main_cst_5 main_v58 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_6 (constant S_ .f32 0x47435000#32),
    StableHlo.unary main_cst_6 main_v59 (broadcastInDim S256 ![] bcast_S_S256 : (⟨S_, .f32⟩ : BufTy).Contents (Elt F) → (⟨S256, .f32⟩ : BufTy).Contents (Elt F)),
    StableHlo.binary main_v58 main_v59 main_v60 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call1.cst (constant S_ .f32 0x00000000#32),
    StableHlo.TRef.binary (.of main_v53 : StableHlo.TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (.of main_v53 : StableHlo.TRef sig ⟨S50000x256, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v60 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v53 main_v63 main_v64 (subf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v65 (broadcastInDim S256 ![] bcast_S_S256 : (⟨S_, .f32⟩ : BufTy).Contents (Elt F) → (⟨S256, .f32⟩ : BufTy).Contents (Elt F)),
    StableHlo.binary main_v61 main_v65 main_v66 (addf : (⟨S256, .f32⟩ : BufTy).Contents (Elt F) → (⟨S256, .f32⟩ : BufTy).Contents (Elt F) → (⟨S256, .f32⟩ : BufTy).Contents (Elt F)),
    StableHlo.unary main_v66 main_v67 (Host.rsqrt : (⟨S256, .f32⟩ : BufTy).Contents (Elt F) → (⟨S256, .f32⟩ : BufTy).Contents (Elt F)),
    StableHlo.unary main_v67 main_v68 (broadcastInDim S1x256 ![1] bcast_S256_S1x256_1 : (⟨S256, .f32⟩ : BufTy).Contents (Elt F) → (⟨S1x256, .f32⟩ : BufTy).Contents (Elt F)),
    StableHlo.unary main_v68 main_v69 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v69 main_v70 (mulf : (⟨S50000x256, .f32⟩ : BufTy).Contents (Elt F) → (⟨S50000x256, .f32⟩ : BufTy).Contents (Elt F) → (⟨S50000x256, .f32⟩ : BufTy).Contents (Elt F)),
    StableHlo.unary main_v55 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S50000x256 ![0, 1] bcast_S1x256_S50000x256_0_1 : (⟨S1x256, .f32⟩ : BufTy).Contents (Elt F) → (⟨S50000x256, .f32⟩ : BufTy).Contents (Elt F)),
    StableHlo.binary main_v70 main_v72 main_v73 (mulf : (⟨S50000x256, .f32⟩ : BufTy).Contents (Elt F) → (⟨S50000x256, .f32⟩ : BufTy).Contents (Elt F) → (⟨S50000x256, .f32⟩ : BufTy).Contents (Elt F)),
    StableHlo.unary main_v57 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S50000x256 ![0, 1] bcast_S1x256_S50000x256_0_1 : (⟨S1x256, .f32⟩ : BufTy).Contents (Elt F) → (⟨S50000x256, .f32⟩ : BufTy).Contents (Elt F)),
    StableHlo.binary main_v73 main_v75 main_v76 (addf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x00000000#32),
    StableHlo.binary main_v76 main_cst_9 main_v77 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

/-- Layer 1: the source indices wrapped into range, the gather of the node rows along the edges and their scatter-add at the targets, the sum with the node rows, the two affine maps each followed by its batch normalisation (mean, then the variance computed by `@_var` with its inner `@_where`, listed here over that call's own buffers), and the column sums of the result (`main_v151`). 128 operations. -/
abbrev opsL1 : List (HloOp τ sig (Elt F)) :=
  [ StableHlo.nullary main_c_10 (constantI S_ 32 0#32),
    StableHlo.unary main_c_10 main_v78 (broadcastInDim S800000 ![] bcast_S_S800000 : (⟨S_, .i32⟩ : BufTy).Contents (Elt F) → (⟨S800000, .i32⟩ : BufTy).Contents (Elt F)),
    StableHlo.binary main_v1 main_v78 main_v79 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v80 (broadcastInDim S800000 ![] bcast_S_S800000 : (⟨S_, .i32⟩ : BufTy).Contents (Elt F) → (⟨S800000, .i32⟩ : BufTy).Contents (Elt F)),
    StableHlo.binary main_v1 main_v80 main_v81 (addi : (⟨S800000, .i32⟩ : BufTy).Contents (Elt F) → (⟨S800000, .i32⟩ : BufTy).Contents (Elt F) → (⟨S800000, .i32⟩ : BufTy).Contents (Elt F)),
    StableHlo.ternary main_v79 main_v81 main_v1 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v82 main_v83 (broadcastInDim S800000x1 ![0] bcast_S800000_S800000x1_0 : (⟨S800000, .i32⟩ : BufTy).Contents (Elt F) → (⟨S800000x1, .i32⟩ : BufTy).Contents (Elt F)),
    StableHlo.binary main_v76 main_v83 main_v84 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_12 (constant S_ .f32 0x00000000#32),
    StableHlo.unary main_cst_12 main_v85 (broadcastInDim S50000x256 ![] bcast_S_S50000x256 : (⟨S_, .f32⟩ : BufTy).Contents (Elt F) → (⟨S50000x256, .f32⟩ : BufTy).Contents (Elt F)),
    StableHlo.unary main_v3 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v84 main_v87 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v76 main_v87 main_v88 (addf : (⟨S50000x256, .f32⟩ : BufTy).Contents (Elt F) → (⟨S50000x256, .f32⟩ : BufTy).Contents (Elt F) → (⟨S50000x256, .f32⟩ : BufTy).Contents (Elt F)),
    StableHlo.unary main_arg2 main_v89 ((extractStridedSlice S1x256x256 ![1, 0, 0] · slices_S5x256x256_S1x256x256_1_0_0) : (⟨S5x256x256, .f32⟩ : BufTy).Contents (Elt F) → (⟨S1x256x256, .f32⟩ : BufTy).Contents (Elt F)),
    StableHlo.reshape main_v89 main_v90 rfl shapeCasts_S1x256x256_S256x256,
    StableHlo.binary main_v88 main_v90 main_v91 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v92 ((extractStridedSlice S1x256 ![1, 0] · slices_S5x256_S1x256_1_0) : (⟨S5x256, .f32⟩ : BufTy).Contents (Elt F) → (⟨S1x256, .f32⟩ : BufTy).Contents (Elt F)),
    StableHlo.reshape main_v92 main_v93 rfl shapeCasts_S1x256_S256,
    StableHlo.unary main_v93 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v91 main_v95 main_v96 (addf : (⟨S50000x256, .f32⟩ : BufTy).Contents (Elt F) → (⟨S50000x256, .f32⟩ : BufTy).Contents (Elt F) → (⟨S50000x256, .f32⟩ : BufTy).Contents (Elt F)),
    StableHlo.unary main_arg4 main_v97 ((extractStridedSlice S1x256 ![1, 0] · slices_S5x256_S1x256_1_0) : (⟨S5x256, .f32⟩ : BufTy).Contents (Elt F) → (⟨S1x256, .f32⟩ : BufTy).Contents (Elt F)),
    StableHlo.reshape main_v97 main_v98 rfl shapeCasts_S1x256_S256,
    StableHlo.unary main_arg5 main_v99 ((extractStridedSlice S1x256 ![1, 0] · slices_S5x256_S1x256_1_0) : (⟨S5x256, .f32⟩ : BufTy).Contents (Elt F) → (⟨S1x256, .f32⟩ : BufTy).Contents (Elt F)),
    StableHlo.reshape main_v99 main_v100 rfl shapeCasts_S1x256_S256,
    StableHlo.nullary main_cst_13 (constant S_ .f32 0x00000000#32),
    StableHlo.binary main_v96 main_cst_13 main_v101 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_14 (constant S_ .f32 0x47435000#32),
    StableHlo.unary main_cst_14 main_v102 (broadcastInDim S256 ![] bcast_S_S256 : (⟨S_, .f32⟩ : BufTy).Contents (Elt F) → (⟨S256, .f32⟩ : BufTy).Contents (Elt F)),
    StableHlo.binary main_v101 main_v102 main_v103 (Host.divf : (⟨S256, .f32⟩ : BufTy).Contents (Elt F) → (⟨S256, .f32⟩ : BufTy).Contents (Elt F) → (⟨S256, .f32⟩ : BufTy).Contents (Elt F)),
    StableHlo.nullary main_c_15 (constantI S_ 32 0#32),
    StableHlo.TRef.nullary main_call2.cst (constant S_ .f32 0x00000000#32),
    StableHlo.TRef.binary (.of main_v96 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v96 : StableHlo.TRef sig ⟨S50000x256, .f32⟩) main_call2.v4 main_call2.v5 subf,
    StableHlo.TRef.binary main_call2.v5 main_call2.v5 main_call2.v6 mulf,
    StableHlo.TRef.unary (.of main_c_15 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v103 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v96 main_v106 main_v107 (subf : (⟨S50000x256, .f32⟩ : BufTy).Contents (Elt F) → (⟨S50000x256, .f32⟩ : BufTy).Contents (Elt F) → (⟨S50000x256, .f32⟩ : BufTy).Contents (Elt F)),
    StableHlo.nullary main_cst_16 (constant S_ .f32 0x3727C5AC#32),
    StableHlo.unary main_cst_16 main_v108 (broadcastInDim S256 ![] bcast_S_S256 : (⟨S_, .f32⟩ : BufTy).Contents (Elt F) → (⟨S256, .f32⟩ : BufTy).Contents (Elt F)),
    StableHlo.binary main_v104 main_v108 main_v109 (addf : (⟨S256, .f32⟩ : BufTy).Contents (Elt F) → (⟨S256, .f32⟩ : BufTy).Contents (Elt F) → (⟨S256, .f32⟩ : BufTy).Contents (Elt F)),
    StableHlo.unary main_v109 main_v110 (Host.rsqrt : (⟨S256, .f32⟩ : BufTy).Contents (Elt F) → (⟨S256, .f32⟩ : BufTy).Contents (Elt F)),
    StableHlo.unary main_v110 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S50000x256 ![0, 1] bcast_S1x256_S50000x256_0_1 : (⟨S1x256, .f32⟩ : BufTy).Contents (Elt F) → (⟨S50000x256, .f32⟩ : BufTy).Contents (Elt F)),
    StableHlo.binary main_v107 main_v112 main_v113 (mulf : (⟨S50000x256, .f32⟩ : BufTy).Contents (Elt F) → (⟨S50000x256, .f32⟩ : BufTy).Contents (Elt F) → (⟨S50000x256, .f32⟩ : BufTy).Contents (Elt F)),
    StableHlo.unary main_v98 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S50000x256 ![0, 1] bcast_S1x256_S50000x256_0_1 : (⟨S1x256, .f32⟩ : BufTy).Contents (Elt F) → (⟨S50000x256, .f32⟩ : BufTy).Contents (Elt F)),
    StableHlo.binary main_v113 main_v115 main_v116 (mulf : (⟨S50000x256, .f32⟩ : BufTy).Contents (Elt F) → (⟨S50000x256, .f32⟩ : BufTy).Contents (Elt F) → (⟨S50000x256, .f32⟩ : BufTy).Contents (Elt F)),
    StableHlo.unary main_v100 main_v117 (broadcastInDim S1x256 ![1] bcast_S256_S1x256_1 : (⟨S256, .f32⟩ : BufTy).Contents (Elt F) → (⟨S1x256, .f32⟩ : BufTy).Contents (Elt F)),
    StableHlo.unary main_v117 main_v118 (broadcastInDim S50000x256 ![0, 1] bcast_S1x256_S50000x256_0_1 : (⟨S1x256, .f32⟩ : BufTy).Contents (Elt F) → (⟨S50000x256, .f32⟩ : BufTy).Contents (Elt F)),
    StableHlo.binary main_v116 main_v118 main_v119 (addf : (⟨S50000x256, .f32⟩ : BufTy).Contents (Elt F) → (⟨S50000x256, .f32⟩ : BufTy).Contents (Elt F) → (⟨S50000x256, .f32⟩ : BufTy).Contents (Elt F)),
    StableHlo.unary main_arg6 main_v120 ((extractStridedSlice S1x256x256 ![1, 0, 0] · slices_S5x256x256_S1x256x256_1_0_0) : (⟨S5x256x256, .f32⟩ : BufTy).Contents (Elt F) → (⟨S1x256x256, .f32⟩ : BufTy).Contents (Elt F)),
    StableHlo.reshape main_v120 main_v121 rfl shapeCasts_S1x256x256_S256x256,
    StableHlo.binary main_v119 main_v121 main_v122 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v123 ((extractStridedSlice S1x256 ![1, 0] · slices_S5x256_S1x256_1_0) : (⟨S5x256, .f32⟩ : BufTy).Contents (Elt F) → (⟨S1x256, .f32⟩ : BufTy).Contents (Elt F)),
    StableHlo.reshape main_v123 main_v124 rfl shapeCasts_S1x256_S256,
    StableHlo.unary main_v124 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S50000x256 ![0, 1] bcast_S1x256_S50000x256_0_1 : (⟨S1x256, .f32⟩ : BufTy).Contents (Elt F) → (⟨S50000x256, .f32⟩ : BufTy).Contents (Elt F)),
    StableHlo.binary main_v122 main_v126 main_v127 (addf : (⟨S50000x256, .f32⟩ : BufTy).Contents (Elt F) → (⟨S50000x256, .f32⟩ : BufTy).Contents (Elt F) → (⟨S50000x256, .f32⟩ : BufTy).Contents (Elt F)),
    StableHlo.unary main_arg8 main_v128 ((extractStridedSlice S1x256 ![1, 0] · slices_S5x256_S1x256_1_0) : (⟨S5x256, .f32⟩ : BufTy).Contents (Elt F) → (⟨S1x256, .f32⟩ : BufTy).Contents (Elt F)),
    StableHlo.reshape main_v128 main_v129 rfl shapeCasts_S1x256_S256,
    StableHlo.unary main_arg9 main_v130 ((extractStridedSlice S1x256 ![1, 0] · slices_S5x256_S1x256_1_0) : (⟨S5x256, .f32⟩ : BufTy).Contents (Elt F) → (⟨S1x256, .f32⟩ : BufTy).Contents (Elt F)),
    StableHlo.reshape main_v130 main_v131 rfl shapeCasts_S1x256_S256,
    StableHlo.nullary main_cst_17 (constant S_ .f32 0x00000000#32),
    StableHlo.binary main_v127 main_cst_17 main_v132 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_18 (constant S_ .f32 0x47435000#32),
    StableHlo.unary main_cst_18 main_v133 (broadcastInDim S256 ![] bcast_S_S256 : (⟨S_, .f32⟩ : BufTy).Contents (Elt F) → (⟨S256, .f32⟩ : BufTy).Contents (Elt F)),
    StableHlo.binary main_v132 main_v133 main_v134 (Host.divf : (⟨S256, .f32⟩ : BufTy).Contents (Elt F) → (⟨S256, .f32⟩ : BufTy).Contents (Elt F) → (⟨S256, .f32⟩ : BufTy).Contents (Elt F)),
    StableHlo.nullary main_c_19 (constantI S_ 32 0#32),
    StableHlo.TRef.nullary main_call3.cst (constant S_ .f32 0x00000000#32),
    StableHlo.TRef.binary (.of main_v127 : StableHlo.TRef sig ⟨S50000x256, .f32⟩) main_call3.cst main_call3.v0 (fun x v => Host.reduceAdd x v reducesTo_S50000x256_S256_d0 h_S_),
    StableHlo.TRef.unary main_call3.v0 main_call3.v1 (broadcastInDim S1x256 ![1] bcast_S256_S1x256_1),
    StableHlo.TRef.nullary main_call3.cst_0 (constant S_ .f32 0x47435000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S50000x256 ![0, 1] bcast_S1x256_S50000x256_0_1),
    StableHlo.TRef.binary (.of main_v127 : StableHlo.TRef sig ⟨S50000x256, .f32⟩) main_call3.v4 main_call3.v5 subf,
    StableHlo.TRef.binary main_call3.v5 main_call3.v5 main_call3.v6 mulf,
    StableHlo.TRef.unary (.of main_c_19 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b),
    StableHlo.unary main_v134 main_v136 (broadcastInDim S1x256 ![1] bcast_S256_S1x256_1 : (⟨S256, .f32⟩ : BufTy).Contents (Elt F) → (⟨S1x256, .f32⟩ : BufTy).Contents (Elt F)),
    StableHlo.unary main_v136 main_v137 (broadcastInDim S50000x256 ![0, 1] bcast_S1x256_S50000x256_0_1 : (⟨S1x256, .f32⟩ : BufTy).Contents (Elt F) → (⟨S50000x256, .f32⟩ : BufTy).Contents (Elt F)),
    StableHlo.binary main_v127 main_v137 main_v138 (subf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x3727C5AC#32),
    StableHlo.unary main_cst_20 main_v139 (broadcastInDim S256 ![] bcast_S_S256 : (⟨S_, .f32⟩ : BufTy).Contents (Elt F) → (⟨S256, .f32⟩ : BufTy).Contents (Elt F)),
    StableHlo.binary main_v135 main_v139 main_v140 (addf : (⟨S256, .f32⟩ : BufTy).Contents (Elt F) → (⟨S256, .f32⟩ : BufTy).Contents (Elt F) → (⟨S256, .f32⟩ : BufTy).Contents (Elt F)),
    StableHlo.unary main_v140 main_v141 (Host.rsqrt : (⟨S256, .f32⟩ : BufTy).Contents (Elt F) → (⟨S256, .f32⟩ : BufTy).Contents (Elt F)),
    StableHlo.unary main_v141 main_v142 (broadcastInDim S1x256 ![1] bcast_S256_S1x256_1 : (⟨S256, .f32⟩ : BufTy).Contents (Elt F) → (⟨S1x256, .f32⟩ : BufTy).Contents (Elt F)),
    StableHlo.unary main_v142 main_v143 (broadcastInDim S50000x256 ![0, 1] bcast_S1x256_S50000x256_0_1 : (⟨S1x256, .f32⟩ : BufTy).Contents (Elt F) → (⟨S50000x256, .f32⟩ : BufTy).Contents (Elt F)),
    StableHlo.binary main_v138 main_v143 main_v144 (mulf : (⟨S50000x256, .f32⟩ : BufTy).Contents (Elt F) → (⟨S50000x256, .f32⟩ : BufTy).Contents (Elt F) → (⟨S50000x256, .f32⟩ : BufTy).Contents (Elt F)),
    StableHlo.unary main_v129 main_v145 (broadcastInDim S1x256 ![1] bcast_S256_S1x256_1 : (⟨S256, .f32⟩ : BufTy).Contents (Elt F) → (⟨S1x256, .f32⟩ : BufTy).Contents (Elt F)),
    StableHlo.unary main_v145 main_v146 (broadcastInDim S50000x256 ![0, 1] bcast_S1x256_S50000x256_0_1 : (⟨S1x256, .f32⟩ : BufTy).Contents (Elt F) → (⟨S50000x256, .f32⟩ : BufTy).Contents (Elt F)),
    StableHlo.binary main_v144 main_v146 main_v147 (mulf : (⟨S50000x256, .f32⟩ : BufTy).Contents (Elt F) → (⟨S50000x256, .f32⟩ : BufTy).Contents (Elt F) → (⟨S50000x256, .f32⟩ : BufTy).Contents (Elt F)),
    StableHlo.unary main_v131 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S50000x256 ![0, 1] bcast_S1x256_S50000x256_0_1 : (⟨S1x256, .f32⟩ : BufTy).Contents (Elt F) → (⟨S50000x256, .f32⟩ : BufTy).Contents (Elt F)),
    StableHlo.binary main_v147 main_v149 main_v150 (addf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x00000000#32),
    StableHlo.binary main_v150 main_cst_21 main_v151 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

/-- Layer 2: the source indices wrapped into range, the gather of the node rows along the edges and their scatter-add at the targets, the sum with the node rows, the two affine maps each followed by its batch normalisation (mean, then the variance computed by `@_var` with its inner `@_where`, listed here over that call's own buffers), and the column sums of the result (`main_v225`). 128 operations. -/
abbrev opsL2 : List (HloOp τ sig (Elt F)) :=
  [ StableHlo.nullary main_c_22 (constantI S_ 32 0#32),
    StableHlo.unary main_c_22 main_v152 (broadcastInDim S800000 ![] bcast_S_S800000 : (⟨S_, .i32⟩ : BufTy).Contents (Elt F) → (⟨S800000, .i32⟩ : BufTy).Contents (Elt F)),
    StableHlo.binary main_v1 main_v152 main_v153 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v154 (broadcastInDim S800000 ![] bcast_S_S800000 : (⟨S_, .i32⟩ : BufTy).Contents (Elt F) → (⟨S800000, .i32⟩ : BufTy).Contents (Elt F)),
    StableHlo.binary main_v1 main_v154 main_v155 (addi : (⟨S800000, .i32⟩ : BufTy).Contents (Elt F) → (⟨S800000, .i32⟩ : BufTy).Contents (Elt F) → (⟨S800000, .i32⟩ : BufTy).Contents (Elt F)),
    StableHlo.ternary main_v153 main_v155 main_v1 main_v156 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v156 main_v157 (broadcastInDim S800000x1 ![0] bcast_S800000_S800000x1_0 : (⟨S800000, .i32⟩ : BufTy).Contents (Elt F) → (⟨S800000x1, .i32⟩ : BufTy).Contents (Elt F)),
    StableHlo.binary main_v150 main_v157 main_v158 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_24 (constant S_ .f32 0x00000000#32),
    StableHlo.unary main_cst_24 main_v159 (broadcastInDim S50000x256 ![] bcast_S_S50000x256 : (⟨S_, .f32⟩ : BufTy).Contents (Elt F) → (⟨S50000x256, .f32⟩ : BufTy).Contents (Elt F)),
    StableHlo.unary main_v3 main_v160 (broadcastInDim S800000x1 ![0] bcast_S800000_S800000x1_0 : (⟨S800000, .i32⟩ : BufTy).Contents (Elt F) → (⟨S800000x1, .i32⟩ : BufTy).Contents (Elt F)),
    StableHlo.ternary main_v159 main_v160 main_v158 main_v161 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v150 main_v161 main_v162 (addf : (⟨S50000x256, .f32⟩ : BufTy).Contents (Elt F) → (⟨S50000x256, .f32⟩ : BufTy).Contents (Elt F) → (⟨S50000x256, .f32⟩ : BufTy).Contents (Elt F)),
    StableHlo.unary main_arg2 main_v163 ((extractStridedSlice S1x256x256 ![2, 0, 0] · slices_S5x256x256_S1x256x256_2_0_0) : (⟨S5x256x256, .f32⟩ : BufTy).Contents (Elt F) → (⟨S1x256x256, .f32⟩ : BufTy).Contents (Elt F)),
    StableHlo.reshape main_v163 main_v164 rfl shapeCasts_S1x256x256_S256x256,
    StableHlo.binary main_v162 main_v164 main_v165 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v166 ((extractStridedSlice S1x256 ![2, 0] · slices_S5x256_S1x256_2_0) : (⟨S5x256, .f32⟩ : BufTy).Contents (Elt F) → (⟨S1x256, .f32⟩ : BufTy).Contents (Elt F)),
    StableHlo.reshape main_v166 main_v167 rfl shapeCasts_S1x256_S256,
    StableHlo.unary main_v167 main_v168 (broadcastInDim S1x256 ![1] bcast_S256_S1x256_1 : (⟨S256, .f32⟩ : BufTy).Contents (Elt F) → (⟨S1x256, .f32⟩ : BufTy).Contents (Elt F)),
    StableHlo.unary main_v168 main_v169 (broadcastInDim S50000x256 ![0, 1] bcast_S1x256_S50000x256_0_1 : (⟨S1x256, .f32⟩ : BufTy).Contents (Elt F) → (⟨S50000x256, .f32⟩ : BufTy).Contents (Elt F)),
    StableHlo.binary main_v165 main_v169 main_v170 (addf : (⟨S50000x256, .f32⟩ : BufTy).Contents (Elt F) → (⟨S50000x256, .f32⟩ : BufTy).Contents (Elt F) → (⟨S50000x256, .f32⟩ : BufTy).Contents (Elt F)),
    StableHlo.unary main_arg4 main_v171 ((extractStridedSlice S1x256 ![2, 0] · slices_S5x256_S1x256_2_0) : (⟨S5x256, .f32⟩ : BufTy).Contents (Elt F) → (⟨S1x256, .f32⟩ : BufTy).Contents (Elt F)),
    StableHlo.reshape main_v171 main_v172 rfl shapeCasts_S1x256_S256,
    StableHlo.unary main_arg5 main_v173 ((extractStridedSlice S1x256 ![2, 0] · slices_S5x256_S1x256_2_0) : (⟨S5x256, .f32⟩ : BufTy).Contents (Elt F) → (⟨S1x256, .f32⟩ : BufTy).Contents (Elt F)),
    StableHlo.reshape main_v173 main_v174 rfl shapeCasts_S1x256_S256,
    StableHlo.nullary main_cst_25 (constant S_ .f32 0x00000000#32),
    StableHlo.binary main_v170 main_cst_25 main_v175 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_26 (constant S_ .f32 0x47435000#32),
    StableHlo.unary main_cst_26 main_v176 (broadcastInDim S256 ![] bcast_S_S256 : (⟨S_, .f32⟩ : BufTy).Contents (Elt F) → (⟨S256, .f32⟩ : BufTy).Contents (Elt F)),
    StableHlo.binary main_v175 main_v176 main_v177 (Host.divf : (⟨S256, .f32⟩ : BufTy).Contents (Elt F) → (⟨S256, .f32⟩ : BufTy).Contents (Elt F) → (⟨S256, .f32⟩ : BufTy).Contents (Elt F)),
    StableHlo.nullary main_c_27 (constantI S_ 32 0#32),
    StableHlo.TRef.nullary main_call4.cst (constant S_ .f32 0x00000000#32),
    StableHlo.TRef.binary (.of main_v170 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v170 : StableHlo.TRef sig ⟨S50000x256, .f32⟩) main_call4.v4 main_call4.v5 subf,
    StableHlo.TRef.binary main_call4.v5 main_call4.v5 main_call4.v6 mulf,
    StableHlo.TRef.unary (.of main_c_27 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v177 main_v179 (broadcastInDim S1x256 ![1] bcast_S256_S1x256_1 : (⟨S256, .f32⟩ : BufTy).Contents (Elt F) → (⟨S1x256, .f32⟩ : BufTy).Contents (Elt F)),
    StableHlo.unary main_v179 main_v180 (broadcastInDim S50000x256 ![0, 1] bcast_S1x256_S50000x256_0_1 : (⟨S1x256, .f32⟩ : BufTy).Contents (Elt F) → (⟨S50000x256, .f32⟩ : BufTy).Contents (Elt F)),
    StableHlo.binary main_v170 main_v180 main_v181 (subf : (⟨S50000x256, .f32⟩ : BufTy).Contents (Elt F) → (⟨S50000x256, .f32⟩ : BufTy).Contents (Elt F) → (⟨S50000x256, .f32⟩ : BufTy).Contents (Elt F)),
    StableHlo.nullary main_cst_28 (constant S_ .f32 0x3727C5AC#32),
    StableHlo.unary main_cst_28 main_v182 (broadcastInDim S256 ![] bcast_S_S256 : (⟨S_, .f32⟩ : BufTy).Contents (Elt F) → (⟨S256, .f32⟩ : BufTy).Contents (Elt F)),
    StableHlo.binary main_v178 main_v182 main_v183 (addf : (⟨S256, .f32⟩ : BufTy).Contents (Elt F) → (⟨S256, .f32⟩ : BufTy).Contents (Elt F) → (⟨S256, .f32⟩ : BufTy).Contents (Elt F)),
    StableHlo.unary main_v183 main_v184 (Host.rsqrt : (⟨S256, .f32⟩ : BufTy).Contents (Elt F) → (⟨S256, .f32⟩ : BufTy).Contents (Elt F)),
    StableHlo.unary main_v184 main_v185 (broadcastInDim S1x256 ![1] bcast_S256_S1x256_1 : (⟨S256, .f32⟩ : BufTy).Contents (Elt F) → (⟨S1x256, .f32⟩ : BufTy).Contents (Elt F)),
    StableHlo.unary main_v185 main_v186 (broadcastInDim S50000x256 ![0, 1] bcast_S1x256_S50000x256_0_1 : (⟨S1x256, .f32⟩ : BufTy).Contents (Elt F) → (⟨S50000x256, .f32⟩ : BufTy).Contents (Elt F)),
    StableHlo.binary main_v181 main_v186 main_v187 (mulf : (⟨S50000x256, .f32⟩ : BufTy).Contents (Elt F) → (⟨S50000x256, .f32⟩ : BufTy).Contents (Elt F) → (⟨S50000x256, .f32⟩ : BufTy).Contents (Elt F)),
    StableHlo.unary main_v172 main_v188 (broadcastInDim S1x256 ![1] bcast_S256_S1x256_1 : (⟨S256, .f32⟩ : BufTy).Contents (Elt F) → (⟨S1x256, .f32⟩ : BufTy).Contents (Elt F)),
    StableHlo.unary main_v188 main_v189 (broadcastInDim S50000x256 ![0, 1] bcast_S1x256_S50000x256_0_1 : (⟨S1x256, .f32⟩ : BufTy).Contents (Elt F) → (⟨S50000x256, .f32⟩ : BufTy).Contents (Elt F)),
    StableHlo.binary main_v187 main_v189 main_v190 (mulf : (⟨S50000x256, .f32⟩ : BufTy).Contents (Elt F) → (⟨S50000x256, .f32⟩ : BufTy).Contents (Elt F) → (⟨S50000x256, .f32⟩ : BufTy).Contents (Elt F)),
    StableHlo.unary main_v174 main_v191 (broadcastInDim S1x256 ![1] bcast_S256_S1x256_1 : (⟨S256, .f32⟩ : BufTy).Contents (Elt F) → (⟨S1x256, .f32⟩ : BufTy).Contents (Elt F)),
    StableHlo.unary main_v191 main_v192 (broadcastInDim S50000x256 ![0, 1] bcast_S1x256_S50000x256_0_1 : (⟨S1x256, .f32⟩ : BufTy).Contents (Elt F) → (⟨S50000x256, .f32⟩ : BufTy).Contents (Elt F)),
    StableHlo.binary main_v190 main_v192 main_v193 (addf : (⟨S50000x256, .f32⟩ : BufTy).Contents (Elt F) → (⟨S50000x256, .f32⟩ : BufTy).Contents (Elt F) → (⟨S50000x256, .f32⟩ : BufTy).Contents (Elt F)),
    StableHlo.unary main_arg6 main_v194 ((extractStridedSlice S1x256x256 ![2, 0, 0] · slices_S5x256x256_S1x256x256_2_0_0) : (⟨S5x256x256, .f32⟩ : BufTy).Contents (Elt F) → (⟨S1x256x256, .f32⟩ : BufTy).Contents (Elt F)),
    StableHlo.reshape main_v194 main_v195 rfl shapeCasts_S1x256x256_S256x256,
    StableHlo.binary main_v193 main_v195 main_v196 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v197 ((extractStridedSlice S1x256 ![2, 0] · slices_S5x256_S1x256_2_0) : (⟨S5x256, .f32⟩ : BufTy).Contents (Elt F) → (⟨S1x256, .f32⟩ : BufTy).Contents (Elt F)),
    StableHlo.reshape main_v197 main_v198 rfl shapeCasts_S1x256_S256,
    StableHlo.unary main_v198 main_v199 (broadcastInDim S1x256 ![1] bcast_S256_S1x256_1 : (⟨S256, .f32⟩ : BufTy).Contents (Elt F) → (⟨S1x256, .f32⟩ : BufTy).Contents (Elt F)),
    StableHlo.unary main_v199 main_v200 (broadcastInDim S50000x256 ![0, 1] bcast_S1x256_S50000x256_0_1 : (⟨S1x256, .f32⟩ : BufTy).Contents (Elt F) → (⟨S50000x256, .f32⟩ : BufTy).Contents (Elt F)),
    StableHlo.binary main_v196 main_v200 main_v201 (addf : (⟨S50000x256, .f32⟩ : BufTy).Contents (Elt F) → (⟨S50000x256, .f32⟩ : BufTy).Contents (Elt F) → (⟨S50000x256, .f32⟩ : BufTy).Contents (Elt F)),
    StableHlo.unary main_arg8 main_v202 ((extractStridedSlice S1x256 ![2, 0] · slices_S5x256_S1x256_2_0) : (⟨S5x256, .f32⟩ : BufTy).Contents (Elt F) → (⟨S1x256, .f32⟩ : BufTy).Contents (Elt F)),
    StableHlo.reshape main_v202 main_v203 rfl shapeCasts_S1x256_S256,
    StableHlo.unary main_arg9 main_v204 ((extractStridedSlice S1x256 ![2, 0] · slices_S5x256_S1x256_2_0) : (⟨S5x256, .f32⟩ : BufTy).Contents (Elt F) → (⟨S1x256, .f32⟩ : BufTy).Contents (Elt F)),
    StableHlo.reshape main_v204 main_v205 rfl shapeCasts_S1x256_S256,
    StableHlo.nullary main_cst_29 (constant S_ .f32 0x00000000#32),
    StableHlo.binary main_v201 main_cst_29 main_v206 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_30 (constant S_ .f32 0x47435000#32),
    StableHlo.unary main_cst_30 main_v207 (broadcastInDim S256 ![] bcast_S_S256 : (⟨S_, .f32⟩ : BufTy).Contents (Elt F) → (⟨S256, .f32⟩ : BufTy).Contents (Elt F)),
    StableHlo.binary main_v206 main_v207 main_v208 (Host.divf : (⟨S256, .f32⟩ : BufTy).Contents (Elt F) → (⟨S256, .f32⟩ : BufTy).Contents (Elt F) → (⟨S256, .f32⟩ : BufTy).Contents (Elt F)),
    StableHlo.nullary main_c_31 (constantI S_ 32 0#32),
    StableHlo.TRef.nullary main_call5.cst (constant S_ .f32 0x00000000#32),
    StableHlo.TRef.binary (.of main_v201 : StableHlo.TRef sig ⟨S50000x256, .f32⟩) main_call5.cst main_call5.v0 (fun x v => Host.reduceAdd x v reducesTo_S50000x256_S256_d0 h_S_),
    StableHlo.TRef.unary main_call5.v0 main_call5.v1 (broadcastInDim S1x256 ![1] bcast_S256_S1x256_1),
    StableHlo.TRef.nullary main_call5.cst_0 (constant S_ .f32 0x47435000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S50000x256 ![0, 1] bcast_S1x256_S50000x256_0_1),
    StableHlo.TRef.binary (.of main_v201 : StableHlo.TRef sig ⟨S50000x256, .f32⟩) main_call5.v4 main_call5.v5 subf,
    StableHlo.TRef.binary main_call5.v5 main_call5.v5 main_call5.v6 mulf,
    StableHlo.TRef.unary (.of main_c_31 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b),
    StableHlo.unary main_v208 main_v210 (broadcastInDim S1x256 ![1] bcast_S256_S1x256_1 : (⟨S256, .f32⟩ : BufTy).Contents (Elt F) → (⟨S1x256, .f32⟩ : BufTy).Contents (Elt F)),
    StableHlo.unary main_v210 main_v211 (broadcastInDim S50000x256 ![0, 1] bcast_S1x256_S50000x256_0_1 : (⟨S1x256, .f32⟩ : BufTy).Contents (Elt F) → (⟨S50000x256, .f32⟩ : BufTy).Contents (Elt F)),
    StableHlo.binary main_v201 main_v211 main_v212 (subf : (⟨S50000x256, .f32⟩ : BufTy).Contents (Elt F) → (⟨S50000x256, .f32⟩ : BufTy).Contents (Elt F) → (⟨S50000x256, .f32⟩ : BufTy).Contents (Elt F)),
    StableHlo.nullary main_cst_32 (constant S_ .f32 0x3727C5AC#32),
    StableHlo.unary main_cst_32 main_v213 (broadcastInDim S256 ![] bcast_S_S256 : (⟨S_, .f32⟩ : BufTy).Contents (Elt F) → (⟨S256, .f32⟩ : BufTy).Contents (Elt F)),
    StableHlo.binary main_v209 main_v213 main_v214 (addf : (⟨S256, .f32⟩ : BufTy).Contents (Elt F) → (⟨S256, .f32⟩ : BufTy).Contents (Elt F) → (⟨S256, .f32⟩ : BufTy).Contents (Elt F)),
    StableHlo.unary main_v214 main_v215 (Host.rsqrt : (⟨S256, .f32⟩ : BufTy).Contents (Elt F) → (⟨S256, .f32⟩ : BufTy).Contents (Elt F)),
    StableHlo.unary main_v215 main_v216 (broadcastInDim S1x256 ![1] bcast_S256_S1x256_1 : (⟨S256, .f32⟩ : BufTy).Contents (Elt F) → (⟨S1x256, .f32⟩ : BufTy).Contents (Elt F)),
    StableHlo.unary main_v216 main_v217 (broadcastInDim S50000x256 ![0, 1] bcast_S1x256_S50000x256_0_1 : (⟨S1x256, .f32⟩ : BufTy).Contents (Elt F) → (⟨S50000x256, .f32⟩ : BufTy).Contents (Elt F)),
    StableHlo.binary main_v212 main_v217 main_v218 (mulf : (⟨S50000x256, .f32⟩ : BufTy).Contents (Elt F) → (⟨S50000x256, .f32⟩ : BufTy).Contents (Elt F) → (⟨S50000x256, .f32⟩ : BufTy).Contents (Elt F)),
    StableHlo.unary main_v203 main_v219 (broadcastInDim S1x256 ![1] bcast_S256_S1x256_1 : (⟨S256, .f32⟩ : BufTy).Contents (Elt F) → (⟨S1x256, .f32⟩ : BufTy).Contents (Elt F)),
    StableHlo.unary main_v219 main_v220 (broadcastInDim S50000x256 ![0, 1] bcast_S1x256_S50000x256_0_1 : (⟨S1x256, .f32⟩ : BufTy).Contents (Elt F) → (⟨S50000x256, .f32⟩ : BufTy).Contents (Elt F)),
    StableHlo.binary main_v218 main_v220 main_v221 (mulf : (⟨S50000x256, .f32⟩ : BufTy).Contents (Elt F) → (⟨S50000x256, .f32⟩ : BufTy).Contents (Elt F) → (⟨S50000x256, .f32⟩ : BufTy).Contents (Elt F)),
    StableHlo.unary main_v205 main_v222 (broadcastInDim S1x256 ![1] bcast_S256_S1x256_1 : (⟨S256, .f32⟩ : BufTy).Contents (Elt F) → (⟨S1x256, .f32⟩ : BufTy).Contents (Elt F)),
    StableHlo.unary main_v222 main_v223 (broadcastInDim S50000x256 ![0, 1] bcast_S1x256_S50000x256_0_1 : (⟨S1x256, .f32⟩ : BufTy).Contents (Elt F) → (⟨S50000x256, .f32⟩ : BufTy).Contents (Elt F)),
    StableHlo.binary main_v221 main_v223 main_v224 (addf : (⟨S50000x256, .f32⟩ : BufTy).Contents (Elt F) → (⟨S50000x256, .f32⟩ : BufTy).Contents (Elt F) → (⟨S50000x256, .f32⟩ : BufTy).Contents (Elt F)),
    StableHlo.nullary main_cst_33 (constant S_ .f32 0x00000000#32),
    StableHlo.binary main_v224 main_cst_33 main_v225 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

/-- Layer 3: the source indices wrapped into range, the gather of the node rows along the edges and their scatter-add at the targets, the sum with the node rows, the two affine maps each followed by its batch normalisation (mean, then the variance computed by `@_var` with its inner `@_where`, listed here over that call's own buffers), and the column sums of the result (`main_v299`). 128 operations. -/
abbrev opsL3 : List (HloOp τ sig (Elt F)) :=
  [ StableHlo.nullary main_c_34 (constantI S_ 32 0#32),
    StableHlo.unary main_c_34 main_v226 (broadcastInDim S800000 ![] bcast_S_S800000 : (⟨S_, .i32⟩ : BufTy).Contents (Elt F) → (⟨S800000, .i32⟩ : BufTy).Contents (Elt F)),
    StableHlo.binary main_v1 main_v226 main_v227 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v228 (broadcastInDim S800000 ![] bcast_S_S800000 : (⟨S_, .i32⟩ : BufTy).Contents (Elt F) → (⟨S800000, .i32⟩ : BufTy).Contents (Elt F)),
    StableHlo.binary main_v1 main_v228 main_v229 (addi : (⟨S800000, .i32⟩ : BufTy).Contents (Elt F) → (⟨S800000, .i32⟩ : BufTy).Contents (Elt F) → (⟨S800000, .i32⟩ : BufTy).Contents (Elt F)),
    StableHlo.ternary main_v227 main_v229 main_v1 main_v230 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v230 main_v231 (broadcastInDim S800000x1 ![0] bcast_S800000_S800000x1_0 : (⟨S800000, .i32⟩ : BufTy).Contents (Elt F) → (⟨S800000x1, .i32⟩ : BufTy).Contents (Elt F)),
    StableHlo.binary main_v224 main_v231 main_v232 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_36 (constant S_ .f32 0x00000000#32),
    StableHlo.unary main_cst_36 main_v233 (broadcastInDim S50000x256 ![] bcast_S_S50000x256 : (⟨S_, .f32⟩ : BufTy).Contents (Elt F) → (⟨S50000x256, .f32⟩ : BufTy).Contents (Elt F)),
    StableHlo.unary main_v3 main_v234 (broadcastInDim S800000x1 ![0] bcast_S800000_S800000x1_0 : (⟨S800000, .i32⟩ : BufTy).Contents (Elt F) → (⟨S800000x1, .i32⟩ : BufTy).Contents (Elt F)),
    StableHlo.ternary main_v233 main_v234 main_v232 main_v235 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v224 main_v235 main_v236 (addf : (⟨S50000x256, .f32⟩ : BufTy).Contents (Elt F) → (⟨S50000x256, .f32⟩ : BufTy).Contents (Elt F) → (⟨S50000x256, .f32⟩ : BufTy).Contents (Elt F)),
    StableHlo.unary main_arg2 main_v237 ((extractStridedSlice S1x256x256 ![3, 0, 0] · slices_S5x256x256_S1x256x256_3_0_0) : (⟨S5x256x256, .f32⟩ : BufTy).Contents (Elt F) → (⟨S1x256x256, .f32⟩ : BufTy).Contents (Elt F)),
    StableHlo.reshape main_v237 main_v238 rfl shapeCasts_S1x256x256_S256x256,
    StableHlo.binary main_v236 main_v238 main_v239 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v240 ((extractStridedSlice S1x256 ![3, 0] · slices_S5x256_S1x256_3_0) : (⟨S5x256, .f32⟩ : BufTy).Contents (Elt F) → (⟨S1x256, .f32⟩ : BufTy).Contents (Elt F)),
    StableHlo.reshape main_v240 main_v241 rfl shapeCasts_S1x256_S256,
    StableHlo.unary main_v241 main_v242 (broadcastInDim S1x256 ![1] bcast_S256_S1x256_1 : (⟨S256, .f32⟩ : BufTy).Contents (Elt F) → (⟨S1x256, .f32⟩ : BufTy).Contents (Elt F)),
    StableHlo.unary main_v242 main_v243 (broadcastInDim S50000x256 ![0, 1] bcast_S1x256_S50000x256_0_1 : (⟨S1x256, .f32⟩ : BufTy).Contents (Elt F) → (⟨S50000x256, .f32⟩ : BufTy).Contents (Elt F)),
    StableHlo.binary main_v239 main_v243 main_v244 (addf : (⟨S50000x256, .f32⟩ : BufTy).Contents (Elt F) → (⟨S50000x256, .f32⟩ : BufTy).Contents (Elt F) → (⟨S50000x256, .f32⟩ : BufTy).Contents (Elt F)),
    StableHlo.unary main_arg4 main_v245 ((extractStridedSlice S1x256 ![3, 0] · slices_S5x256_S1x256_3_0) : (⟨S5x256, .f32⟩ : BufTy).Contents (Elt F) → (⟨S1x256, .f32⟩ : BufTy).Contents (Elt F)),
    StableHlo.reshape main_v245 main_v246 rfl shapeCasts_S1x256_S256,
    StableHlo.unary main_arg5 main_v247 ((extractStridedSlice S1x256 ![3, 0] · slices_S5x256_S1x256_3_0) : (⟨S5x256, .f32⟩ : BufTy).Contents (Elt F) → (⟨S1x256, .f32⟩ : BufTy).Contents (Elt F)),
    StableHlo.reshape main_v247 main_v248 rfl shapeCasts_S1x256_S256,
    StableHlo.nullary main_cst_37 (constant S_ .f32 0x00000000#32),
    StableHlo.binary main_v244 main_cst_37 main_v249 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_38 (constant S_ .f32 0x47435000#32),
    StableHlo.unary main_cst_38 main_v250 (broadcastInDim S256 ![] bcast_S_S256 : (⟨S_, .f32⟩ : BufTy).Contents (Elt F) → (⟨S256, .f32⟩ : BufTy).Contents (Elt F)),
    StableHlo.binary main_v249 main_v250 main_v251 (Host.divf : (⟨S256, .f32⟩ : BufTy).Contents (Elt F) → (⟨S256, .f32⟩ : BufTy).Contents (Elt F) → (⟨S256, .f32⟩ : BufTy).Contents (Elt F)),
    StableHlo.nullary main_c_39 (constantI S_ 32 0#32),
    StableHlo.TRef.nullary main_call6.cst (constant S_ .f32 0x00000000#32),
    StableHlo.TRef.binary (.of main_v244 : StableHlo.TRef sig ⟨S50000x256, .f32⟩) main_call6.cst main_call6.v0 (fun x v => Host.reduceAdd x v reducesTo_S50000x256_S256_d0 h_S_),
    StableHlo.TRef.unary main_call6.v0 main_call6.v1 (broadcastInDim S1x256 ![1] bcast_S256_S1x256_1),
    StableHlo.TRef.nullary main_call6.cst_0 (constant S_ .f32 0x47435000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S50000x256 ![0, 1] bcast_S1x256_S50000x256_0_1),
    StableHlo.TRef.binary (.of main_v244 : StableHlo.TRef sig ⟨S50000x256, .f32⟩) main_call6.v4 main_call6.v5 subf,
    StableHlo.TRef.binary main_call6.v5 main_call6.v5 main_call6.v6 mulf,
    StableHlo.TRef.unary (.of main_c_39 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v251 main_v253 (broadcastInDim S1x256 ![1] bcast_S256_S1x256_1 : (⟨S256, .f32⟩ : BufTy).Contents (Elt F) → (⟨S1x256, .f32⟩ : BufTy).Contents (Elt F)),
    StableHlo.unary main_v253 main_v254 (broadcastInDim S50000x256 ![0, 1] bcast_S1x256_S50000x256_0_1 : (⟨S1x256, .f32⟩ : BufTy).Contents (Elt F) → (⟨S50000x256, .f32⟩ : BufTy).Contents (Elt F)),
    StableHlo.binary main_v244 main_v254 main_v255 (subf : (⟨S50000x256, .f32⟩ : BufTy).Contents (Elt F) → (⟨S50000x256, .f32⟩ : BufTy).Contents (Elt F) → (⟨S50000x256, .f32⟩ : BufTy).Contents (Elt F)),
    StableHlo.nullary main_cst_40 (constant S_ .f32 0x3727C5AC#32),
    StableHlo.unary main_cst_40 main_v256 (broadcastInDim S256 ![] bcast_S_S256 : (⟨S_, .f32⟩ : BufTy).Contents (Elt F) → (⟨S256, .f32⟩ : BufTy).Contents (Elt F)),
    StableHlo.binary main_v252 main_v256 main_v257 (addf : (⟨S256, .f32⟩ : BufTy).Contents (Elt F) → (⟨S256, .f32⟩ : BufTy).Contents (Elt F) → (⟨S256, .f32⟩ : BufTy).Contents (Elt F)),
    StableHlo.unary main_v257 main_v258 (Host.rsqrt : (⟨S256, .f32⟩ : BufTy).Contents (Elt F) → (⟨S256, .f32⟩ : BufTy).Contents (Elt F)),
    StableHlo.unary main_v258 main_v259 (broadcastInDim S1x256 ![1] bcast_S256_S1x256_1 : (⟨S256, .f32⟩ : BufTy).Contents (Elt F) → (⟨S1x256, .f32⟩ : BufTy).Contents (Elt F)),
    StableHlo.unary main_v259 main_v260 (broadcastInDim S50000x256 ![0, 1] bcast_S1x256_S50000x256_0_1 : (⟨S1x256, .f32⟩ : BufTy).Contents (Elt F) → (⟨S50000x256, .f32⟩ : BufTy).Contents (Elt F)),
    StableHlo.binary main_v255 main_v260 main_v261 (mulf : (⟨S50000x256, .f32⟩ : BufTy).Contents (Elt F) → (⟨S50000x256, .f32⟩ : BufTy).Contents (Elt F) → (⟨S50000x256, .f32⟩ : BufTy).Contents (Elt F)),
    StableHlo.unary main_v246 main_v262 (broadcastInDim S1x256 ![1] bcast_S256_S1x256_1 : (⟨S256, .f32⟩ : BufTy).Contents (Elt F) → (⟨S1x256, .f32⟩ : BufTy).Contents (Elt F)),
    StableHlo.unary main_v262 main_v263 (broadcastInDim S50000x256 ![0, 1] bcast_S1x256_S50000x256_0_1 : (⟨S1x256, .f32⟩ : BufTy).Contents (Elt F) → (⟨S50000x256, .f32⟩ : BufTy).Contents (Elt F)),
    StableHlo.binary main_v261 main_v263 main_v264 (mulf : (⟨S50000x256, .f32⟩ : BufTy).Contents (Elt F) → (⟨S50000x256, .f32⟩ : BufTy).Contents (Elt F) → (⟨S50000x256, .f32⟩ : BufTy).Contents (Elt F)),
    StableHlo.unary main_v248 main_v265 (broadcastInDim S1x256 ![1] bcast_S256_S1x256_1 : (⟨S256, .f32⟩ : BufTy).Contents (Elt F) → (⟨S1x256, .f32⟩ : BufTy).Contents (Elt F)),
    StableHlo.unary main_v265 main_v266 (broadcastInDim S50000x256 ![0, 1] bcast_S1x256_S50000x256_0_1 : (⟨S1x256, .f32⟩ : BufTy).Contents (Elt F) → (⟨S50000x256, .f32⟩ : BufTy).Contents (Elt F)),
    StableHlo.binary main_v264 main_v266 main_v267 (addf : (⟨S50000x256, .f32⟩ : BufTy).Contents (Elt F) → (⟨S50000x256, .f32⟩ : BufTy).Contents (Elt F) → (⟨S50000x256, .f32⟩ : BufTy).Contents (Elt F)),
    StableHlo.unary main_arg6 main_v268 ((extractStridedSlice S1x256x256 ![3, 0, 0] · slices_S5x256x256_S1x256x256_3_0_0) : (⟨S5x256x256, .f32⟩ : BufTy).Contents (Elt F) → (⟨S1x256x256, .f32⟩ : BufTy).Contents (Elt F)),
    StableHlo.reshape main_v268 main_v269 rfl shapeCasts_S1x256x256_S256x256,
    StableHlo.binary main_v267 main_v269 main_v270 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v271 ((extractStridedSlice S1x256 ![3, 0] · slices_S5x256_S1x256_3_0) : (⟨S5x256, .f32⟩ : BufTy).Contents (Elt F) → (⟨S1x256, .f32⟩ : BufTy).Contents (Elt F)),
    StableHlo.reshape main_v271 main_v272 rfl shapeCasts_S1x256_S256,
    StableHlo.unary main_v272 main_v273 (broadcastInDim S1x256 ![1] bcast_S256_S1x256_1 : (⟨S256, .f32⟩ : BufTy).Contents (Elt F) → (⟨S1x256, .f32⟩ : BufTy).Contents (Elt F)),
    StableHlo.unary main_v273 main_v274 (broadcastInDim S50000x256 ![0, 1] bcast_S1x256_S50000x256_0_1 : (⟨S1x256, .f32⟩ : BufTy).Contents (Elt F) → (⟨S50000x256, .f32⟩ : BufTy).Contents (Elt F)),
    StableHlo.binary main_v270 main_v274 main_v275 (addf : (⟨S50000x256, .f32⟩ : BufTy).Contents (Elt F) → (⟨S50000x256, .f32⟩ : BufTy).Contents (Elt F) → (⟨S50000x256, .f32⟩ : BufTy).Contents (Elt F)),
    StableHlo.unary main_arg8 main_v276 ((extractStridedSlice S1x256 ![3, 0] · slices_S5x256_S1x256_3_0) : (⟨S5x256, .f32⟩ : BufTy).Contents (Elt F) → (⟨S1x256, .f32⟩ : BufTy).Contents (Elt F)),
    StableHlo.reshape main_v276 main_v277 rfl shapeCasts_S1x256_S256,
    StableHlo.unary main_arg9 main_v278 ((extractStridedSlice S1x256 ![3, 0] · slices_S5x256_S1x256_3_0) : (⟨S5x256, .f32⟩ : BufTy).Contents (Elt F) → (⟨S1x256, .f32⟩ : BufTy).Contents (Elt F)),
    StableHlo.reshape main_v278 main_v279 rfl shapeCasts_S1x256_S256,
    StableHlo.nullary main_cst_41 (constant S_ .f32 0x00000000#32),
    StableHlo.binary main_v275 main_cst_41 main_v280 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_42 (constant S_ .f32 0x47435000#32),
    StableHlo.unary main_cst_42 main_v281 (broadcastInDim S256 ![] bcast_S_S256 : (⟨S_, .f32⟩ : BufTy).Contents (Elt F) → (⟨S256, .f32⟩ : BufTy).Contents (Elt F)),
    StableHlo.binary main_v280 main_v281 main_v282 (Host.divf : (⟨S256, .f32⟩ : BufTy).Contents (Elt F) → (⟨S256, .f32⟩ : BufTy).Contents (Elt F) → (⟨S256, .f32⟩ : BufTy).Contents (Elt F)),
    StableHlo.nullary main_c_43 (constantI S_ 32 0#32),
    StableHlo.TRef.nullary main_call7.cst (constant S_ .f32 0x00000000#32),
    StableHlo.TRef.binary (.of main_v275 : StableHlo.TRef sig ⟨S50000x256, .f32⟩) main_call7.cst main_call7.v0 (fun x v => Host.reduceAdd x v reducesTo_S50000x256_S256_d0 h_S_),
    StableHlo.TRef.unary main_call7.v0 main_call7.v1 (broadcastInDim S1x256 ![1] bcast_S256_S1x256_1),
    StableHlo.TRef.nullary main_call7.cst_0 (constant S_ .f32 0x47435000#32),
    StableHlo.TRef.unary main_call7.cst_0 main_call7.v2 (broadcastInDim S1x256 ![] bcast_S_S1x256),
    StableHlo.TRef.binary main_call7.v1 main_call7.v2 main_call7.v3 Host.divf,
    StableHlo.TRef.unary main_call7.v3 main_call7.v4 (broadcastInDim S50000x256 ![0, 1] bcast_S1x256_S50000x256_0_1),
    StableHlo.TRef.binary (.of main_v275 : StableHlo.TRef sig ⟨S50000x256, .f32⟩) main_call7.v4 main_call7.v5 subf,
    StableHlo.TRef.binary main_call7.v5 main_call7.v5 main_call7.v6 mulf,
    StableHlo.TRef.unary (.of main_c_43 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x256_S256_d0 h_S_),
    StableHlo.TRef.unary main_call7.v8 main_call7.v10 (broadcastInDim S256 ![] bcast_S_S256),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S256 ![] bcast_S_S256),
    StableHlo.TRef.ternary main_call7.v12 main_call7.v11 main_call7.call0.v1 main_call7.call0.v2 (fun p a b => select (broadcastInDim S256 ![] bcast_S_S256 p) a b),
    StableHlo.unary main_v282 main_v284 (broadcastInDim S1x256 ![1] bcast_S256_S1x256_1 : (⟨S256, .f32⟩ : BufTy).Contents (Elt F) → (⟨S1x256, .f32⟩ : BufTy).Contents (Elt F)),
    StableHlo.unary main_v284 main_v285 (broadcastInDim S50000x256 ![0, 1] bcast_S1x256_S50000x256_0_1 : (⟨S1x256, .f32⟩ : BufTy).Contents (Elt F) → (⟨S50000x256, .f32⟩ : BufTy).Contents (Elt F)),
    StableHlo.binary main_v275 main_v285 main_v286 (subf : (⟨S50000x256, .f32⟩ : BufTy).Contents (Elt F) → (⟨S50000x256, .f32⟩ : BufTy).Contents (Elt F) → (⟨S50000x256, .f32⟩ : BufTy).Contents (Elt F)),
    StableHlo.nullary main_cst_44 (constant S_ .f32 0x3727C5AC#32),
    StableHlo.unary main_cst_44 main_v287 (broadcastInDim S256 ![] bcast_S_S256 : (⟨S_, .f32⟩ : BufTy).Contents (Elt F) → (⟨S256, .f32⟩ : BufTy).Contents (Elt F)),
    StableHlo.binary main_v283 main_v287 main_v288 (addf : (⟨S256, .f32⟩ : BufTy).Contents (Elt F) → (⟨S256, .f32⟩ : BufTy).Contents (Elt F) → (⟨S256, .f32⟩ : BufTy).Contents (Elt F)),
    StableHlo.unary main_v288 main_v289 (Host.rsqrt : (⟨S256, .f32⟩ : BufTy).Contents (Elt F) → (⟨S256, .f32⟩ : BufTy).Contents (Elt F)),
    StableHlo.unary main_v289 main_v290 (broadcastInDim S1x256 ![1] bcast_S256_S1x256_1 : (⟨S256, .f32⟩ : BufTy).Contents (Elt F) → (⟨S1x256, .f32⟩ : BufTy).Contents (Elt F)),
    StableHlo.unary main_v290 main_v291 (broadcastInDim S50000x256 ![0, 1] bcast_S1x256_S50000x256_0_1 : (⟨S1x256, .f32⟩ : BufTy).Contents (Elt F) → (⟨S50000x256, .f32⟩ : BufTy).Contents (Elt F)),
    StableHlo.binary main_v286 main_v291 main_v292 (mulf : (⟨S50000x256, .f32⟩ : BufTy).Contents (Elt F) → (⟨S50000x256, .f32⟩ : BufTy).Contents (Elt F) → (⟨S50000x256, .f32⟩ : BufTy).Contents (Elt F)),
    StableHlo.unary main_v277 main_v293 (broadcastInDim S1x256 ![1] bcast_S256_S1x256_1 : (⟨S256, .f32⟩ : BufTy).Contents (Elt F) → (⟨S1x256, .f32⟩ : BufTy).Contents (Elt F)),
    StableHlo.unary main_v293 main_v294 (broadcastInDim S50000x256 ![0, 1] bcast_S1x256_S50000x256_0_1 : (⟨S1x256, .f32⟩ : BufTy).Contents (Elt F) → (⟨S50000x256, .f32⟩ : BufTy).Contents (Elt F)),
    StableHlo.binary main_v292 main_v294 main_v295 (mulf : (⟨S50000x256, .f32⟩ : BufTy).Contents (Elt F) → (⟨S50000x256, .f32⟩ : BufTy).Contents (Elt F) → (⟨S50000x256, .f32⟩ : BufTy).Contents (Elt F)),
    StableHlo.unary main_v279 main_v296 (broadcastInDim S1x256 ![1] bcast_S256_S1x256_1 : (⟨S256, .f32⟩ : BufTy).Contents (Elt F) → (⟨S1x256, .f32⟩ : BufTy).Contents (Elt F)),
    StableHlo.unary main_v296 main_v297 (broadcastInDim S50000x256 ![0, 1] bcast_S1x256_S50000x256_0_1 : (⟨S1x256, .f32⟩ : BufTy).Contents (Elt F) → (⟨S50000x256, .f32⟩ : BufTy).Contents (Elt F)),
    StableHlo.binary main_v295 main_v297 main_v298 (addf : (⟨S50000x256, .f32⟩ : BufTy).Contents (Elt F) → (⟨S50000x256, .f32⟩ : BufTy).Contents (Elt F) → (⟨S50000x256, .f32⟩ : BufTy).Contents (Elt F)),
    StableHlo.nullary main_cst_45 (constant S_ .f32 0x00000000#32),
    StableHlo.binary main_v298 main_cst_45 main_v299 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

/-- Layer 4: the source indices wrapped into range, the gather of the node rows along the edges and their scatter-add at the targets, the sum with the node rows, the two affine maps each followed by its batch normalisation (mean, then the variance computed by `@_var` with its inner `@_where`, listed here over that call's own buffers), and the column sums of the result (`main_v373`). 128 operations. -/
abbrev opsL4 : List (HloOp τ sig (Elt F)) :=
  [ StableHlo.nullary main_c_46 (constantI S_ 32 0#32),
    StableHlo.unary main_c_46 main_v300 (broadcastInDim S800000 ![] bcast_S_S800000 : (⟨S_, .i32⟩ : BufTy).Contents (Elt F) → (⟨S800000, .i32⟩ : BufTy).Contents (Elt F)),
    StableHlo.binary main_v1 main_v300 main_v301 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 50000#32),
    StableHlo.unary main_c_47 main_v302 (broadcastInDim S800000 ![] bcast_S_S800000 : (⟨S_, .i32⟩ : BufTy).Contents (Elt F) → (⟨S800000, .i32⟩ : BufTy).Contents (Elt F)),
    StableHlo.binary main_v1 main_v302 main_v303 (addi : (⟨S800000, .i32⟩ : BufTy).Contents (Elt F) → (⟨S800000, .i32⟩ : BufTy).Contents (Elt F) → (⟨S800000, .i32⟩ : BufTy).Contents (Elt F)),
    StableHlo.ternary main_v301 main_v303 main_v1 main_v304 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v304 main_v305 (broadcastInDim S800000x1 ![0] bcast_S800000_S800000x1_0 : (⟨S800000, .i32⟩ : BufTy).Contents (Elt F) → (⟨S800000x1, .i32⟩ : BufTy).Contents (Elt F)),
    StableHlo.binary main_v298 main_v305 main_v306 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_48 (constant S_ .f32 0x00000000#32),
    StableHlo.unary main_cst_48 main_v307 (broadcastInDim S50000x256 ![] bcast_S_S50000x256 : (⟨S_, .f32⟩ : BufTy).Contents (Elt F) → (⟨S50000x256, .f32⟩ : BufTy).Contents (Elt F)),
    StableHlo.unary main_v3 main_v308 (broadcastInDim S800000x1 ![0] bcast_S800000_S800000x1_0 : (⟨S800000, .i32⟩ : BufTy).Contents (Elt F) → (⟨S800000x1, .i32⟩ : BufTy).Contents (Elt F)),
    StableHlo.ternary main_v307 main_v308 main_v306 main_v309 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v298 main_v309 main_v310 (addf : (⟨S50000x256, .f32⟩ : BufTy).Contents (Elt F) → (⟨S50000x256, .f32⟩ : BufTy).Contents (Elt F) → (⟨S50000x256, .f32⟩ : BufTy).Contents (Elt F)),
    StableHlo.unary main_arg2 main_v311 ((extractStridedSlice S1x256x256 ![4, 0, 0] · slices_S5x256x256_S1x256x256_4_0_0) : (⟨S5x256x256, .f32⟩ : BufTy).Contents (Elt F) → (⟨S1x256x256, .f32⟩ : BufTy).Contents (Elt F)),
    StableHlo.reshape main_v311 main_v312 rfl shapeCasts_S1x256x256_S256x256,
    StableHlo.binary main_v310 main_v312 main_v313 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v314 ((extractStridedSlice S1x256 ![4, 0] · slices_S5x256_S1x256_4_0) : (⟨S5x256, .f32⟩ : BufTy).Contents (Elt F) → (⟨S1x256, .f32⟩ : BufTy).Contents (Elt F)),
    StableHlo.reshape main_v314 main_v315 rfl shapeCasts_S1x256_S256,
    StableHlo.unary main_v315 main_v316 (broadcastInDim S1x256 ![1] bcast_S256_S1x256_1 : (⟨S256, .f32⟩ : BufTy).Contents (Elt F) → (⟨S1x256, .f32⟩ : BufTy).Contents (Elt F)),
    StableHlo.unary main_v316 main_v317 (broadcastInDim S50000x256 ![0, 1] bcast_S1x256_S50000x256_0_1 : (⟨S1x256, .f32⟩ : BufTy).Contents (Elt F) → (⟨S50000x256, .f32⟩ : BufTy).Contents (Elt F)),
    StableHlo.binary main_v313 main_v317 main_v318 (addf : (⟨S50000x256, .f32⟩ : BufTy).Contents (Elt F) → (⟨S50000x256, .f32⟩ : BufTy).Contents (Elt F) → (⟨S50000x256, .f32⟩ : BufTy).Contents (Elt F)),
    StableHlo.unary main_arg4 main_v319 ((extractStridedSlice S1x256 ![4, 0] · slices_S5x256_S1x256_4_0) : (⟨S5x256, .f32⟩ : BufTy).Contents (Elt F) → (⟨S1x256, .f32⟩ : BufTy).Contents (Elt F)),
    StableHlo.reshape main_v319 main_v320 rfl shapeCasts_S1x256_S256,
    StableHlo.unary main_arg5 main_v321 ((extractStridedSlice S1x256 ![4, 0] · slices_S5x256_S1x256_4_0) : (⟨S5x256, .f32⟩ : BufTy).Contents (Elt F) → (⟨S1x256, .f32⟩ : BufTy).Contents (Elt F)),
    StableHlo.reshape main_v321 main_v322 rfl shapeCasts_S1x256_S256,
    StableHlo.nullary main_cst_49 (constant S_ .f32 0x00000000#32),
    StableHlo.binary main_v318 main_cst_49 main_v323 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_50 (constant S_ .f32 0x47435000#32),
    StableHlo.unary main_cst_50 main_v324 (broadcastInDim S256 ![] bcast_S_S256 : (⟨S_, .f32⟩ : BufTy).Contents (Elt F) → (⟨S256, .f32⟩ : BufTy).Contents (Elt F)),
    StableHlo.binary main_v323 main_v324 main_v325 (Host.divf : (⟨S256, .f32⟩ : BufTy).Contents (Elt F) → (⟨S256, .f32⟩ : BufTy).Contents (Elt F) → (⟨S256, .f32⟩ : BufTy).Contents (Elt F)),
    StableHlo.nullary main_c_51 (constantI S_ 32 0#32),
    StableHlo.TRef.nullary main_call8.cst (constant S_ .f32 0x00000000#32),
    StableHlo.TRef.binary (.of main_v318 : StableHlo.TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v318 : StableHlo.TRef sig ⟨S50000x256, .f32⟩) main_call8.v4 main_call8.v5 subf,
    StableHlo.TRef.binary main_call8.v5 main_call8.v5 main_call8.v6 mulf,
    StableHlo.TRef.unary (.of main_c_51 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v325 main_v327 (broadcastInDim S1x256 ![1] bcast_S256_S1x256_1 : (⟨S256, .f32⟩ : BufTy).Contents (Elt F) → (⟨S1x256, .f32⟩ : BufTy).Contents (Elt F)),
    StableHlo.unary main_v327 main_v328 (broadcastInDim S50000x256 ![0, 1] bcast_S1x256_S50000x256_0_1 : (⟨S1x256, .f32⟩ : BufTy).Contents (Elt F) → (⟨S50000x256, .f32⟩ : BufTy).Contents (Elt F)),
    StableHlo.binary main_v318 main_v328 main_v329 (subf : (⟨S50000x256, .f32⟩ : BufTy).Contents (Elt F) → (⟨S50000x256, .f32⟩ : BufTy).Contents (Elt F) → (⟨S50000x256, .f32⟩ : BufTy).Contents (Elt F)),
    StableHlo.nullary main_cst_52 (constant S_ .f32 0x3727C5AC#32),
    StableHlo.unary main_cst_52 main_v330 (broadcastInDim S256 ![] bcast_S_S256 : (⟨S_, .f32⟩ : BufTy).Contents (Elt F) → (⟨S256, .f32⟩ : BufTy).Contents (Elt F)),
    StableHlo.binary main_v326 main_v330 main_v331 (addf : (⟨S256, .f32⟩ : BufTy).Contents (Elt F) → (⟨S256, .f32⟩ : BufTy).Contents (Elt F) → (⟨S256, .f32⟩ : BufTy).Contents (Elt F)),
    StableHlo.unary main_v331 main_v332 (Host.rsqrt : (⟨S256, .f32⟩ : BufTy).Contents (Elt F) → (⟨S256, .f32⟩ : BufTy).Contents (Elt F)),
    StableHlo.unary main_v332 main_v333 (broadcastInDim S1x256 ![1] bcast_S256_S1x256_1 : (⟨S256, .f32⟩ : BufTy).Contents (Elt F) → (⟨S1x256, .f32⟩ : BufTy).Contents (Elt F)),
    StableHlo.unary main_v333 main_v334 (broadcastInDim S50000x256 ![0, 1] bcast_S1x256_S50000x256_0_1 : (⟨S1x256, .f32⟩ : BufTy).Contents (Elt F) → (⟨S50000x256, .f32⟩ : BufTy).Contents (Elt F)),
    StableHlo.binary main_v329 main_v334 main_v335 (mulf : (⟨S50000x256, .f32⟩ : BufTy).Contents (Elt F) → (⟨S50000x256, .f32⟩ : BufTy).Contents (Elt F) → (⟨S50000x256, .f32⟩ : BufTy).Contents (Elt F)),
    StableHlo.unary main_v320 main_v336 (broadcastInDim S1x256 ![1] bcast_S256_S1x256_1 : (⟨S256, .f32⟩ : BufTy).Contents (Elt F) → (⟨S1x256, .f32⟩ : BufTy).Contents (Elt F)),
    StableHlo.unary main_v336 main_v337 (broadcastInDim S50000x256 ![0, 1] bcast_S1x256_S50000x256_0_1 : (⟨S1x256, .f32⟩ : BufTy).Contents (Elt F) → (⟨S50000x256, .f32⟩ : BufTy).Contents (Elt F)),
    StableHlo.binary main_v335 main_v337 main_v338 (mulf : (⟨S50000x256, .f32⟩ : BufTy).Contents (Elt F) → (⟨S50000x256, .f32⟩ : BufTy).Contents (Elt F) → (⟨S50000x256, .f32⟩ : BufTy).Contents (Elt F)),
    StableHlo.unary main_v322 main_v339 (broadcastInDim S1x256 ![1] bcast_S256_S1x256_1 : (⟨S256, .f32⟩ : BufTy).Contents (Elt F) → (⟨S1x256, .f32⟩ : BufTy).Contents (Elt F)),
    StableHlo.unary main_v339 main_v340 (broadcastInDim S50000x256 ![0, 1] bcast_S1x256_S50000x256_0_1 : (⟨S1x256, .f32⟩ : BufTy).Contents (Elt F) → (⟨S50000x256, .f32⟩ : BufTy).Contents (Elt F)),
    StableHlo.binary main_v338 main_v340 main_v341 (addf : (⟨S50000x256, .f32⟩ : BufTy).Contents (Elt F) → (⟨S50000x256, .f32⟩ : BufTy).Contents (Elt F) → (⟨S50000x256, .f32⟩ : BufTy).Contents (Elt F)),
    StableHlo.unary main_arg6 main_v342 ((extractStridedSlice S1x256x256 ![4, 0, 0] · slices_S5x256x256_S1x256x256_4_0_0) : (⟨S5x256x256, .f32⟩ : BufTy).Contents (Elt F) → (⟨S1x256x256, .f32⟩ : BufTy).Contents (Elt F)),
    StableHlo.reshape main_v342 main_v343 rfl shapeCasts_S1x256x256_S256x256,
    StableHlo.binary main_v341 main_v343 main_v344 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v345 ((extractStridedSlice S1x256 ![4, 0] · slices_S5x256_S1x256_4_0) : (⟨S5x256, .f32⟩ : BufTy).Contents (Elt F) → (⟨S1x256, .f32⟩ : BufTy).Contents (Elt F)),
    StableHlo.reshape main_v345 main_v346 rfl shapeCasts_S1x256_S256,
    StableHlo.unary main_v346 main_v347 (broadcastInDim S1x256 ![1] bcast_S256_S1x256_1 : (⟨S256, .f32⟩ : BufTy).Contents (Elt F) → (⟨S1x256, .f32⟩ : BufTy).Contents (Elt F)),
    StableHlo.unary main_v347 main_v348 (broadcastInDim S50000x256 ![0, 1] bcast_S1x256_S50000x256_0_1 : (⟨S1x256, .f32⟩ : BufTy).Contents (Elt F) → (⟨S50000x256, .f32⟩ : BufTy).Contents (Elt F)),
    StableHlo.binary main_v344 main_v348 main_v349 (addf : (⟨S50000x256, .f32⟩ : BufTy).Contents (Elt F) → (⟨S50000x256, .f32⟩ : BufTy).Contents (Elt F) → (⟨S50000x256, .f32⟩ : BufTy).Contents (Elt F)),
    StableHlo.unary main_arg8 main_v350 ((extractStridedSlice S1x256 ![4, 0] · slices_S5x256_S1x256_4_0) : (⟨S5x256, .f32⟩ : BufTy).Contents (Elt F) → (⟨S1x256, .f32⟩ : BufTy).Contents (Elt F)),
    StableHlo.reshape main_v350 main_v351 rfl shapeCasts_S1x256_S256,
    StableHlo.unary main_arg9 main_v352 ((extractStridedSlice S1x256 ![4, 0] · slices_S5x256_S1x256_4_0) : (⟨S5x256, .f32⟩ : BufTy).Contents (Elt F) → (⟨S1x256, .f32⟩ : BufTy).Contents (Elt F)),
    StableHlo.reshape main_v352 main_v353 rfl shapeCasts_S1x256_S256,
    StableHlo.nullary main_cst_53 (constant S_ .f32 0x00000000#32),
    StableHlo.binary main_v349 main_cst_53 main_v354 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_54 (constant S_ .f32 0x47435000#32),
    StableHlo.unary main_cst_54 main_v355 (broadcastInDim S256 ![] bcast_S_S256 : (⟨S_, .f32⟩ : BufTy).Contents (Elt F) → (⟨S256, .f32⟩ : BufTy).Contents (Elt F)),
    StableHlo.binary main_v354 main_v355 main_v356 (Host.divf : (⟨S256, .f32⟩ : BufTy).Contents (Elt F) → (⟨S256, .f32⟩ : BufTy).Contents (Elt F) → (⟨S256, .f32⟩ : BufTy).Contents (Elt F)),
    StableHlo.nullary main_c_55 (constantI S_ 32 0#32),
    StableHlo.TRef.nullary main_call9.cst (constant S_ .f32 0x00000000#32),
    StableHlo.TRef.binary (.of main_v349 : StableHlo.TRef sig ⟨S50000x256, .f32⟩) main_call9.cst main_call9.v0 (fun x v => Host.reduceAdd x v reducesTo_S50000x256_S256_d0 h_S_),
    StableHlo.TRef.unary main_call9.v0 main_call9.v1 (broadcastInDim S1x256 ![1] bcast_S256_S1x256_1),
    StableHlo.TRef.nullary main_call9.cst_0 (constant S_ .f32 0x47435000#32),
    StableHlo.TRef.unary main_call9.cst_0 main_call9.v2 (broadcastInDim S1x256 ![] bcast_S_S1x256),
    StableHlo.TRef.binary main_call9.v1 main_call9.v2 main_call9.v3 Host.divf,
    StableHlo.TRef.unary main_call9.v3 main_call9.v4 (broadcastInDim S50000x256 ![0, 1] bcast_S1x256_S50000x256_0_1),
    StableHlo.TRef.binary (.of main_v349 : StableHlo.TRef sig ⟨S50000x256, .f32⟩) main_call9.v4 main_call9.v5 subf,
    StableHlo.TRef.binary main_call9.v5 main_call9.v5 main_call9.v6 mulf,
    StableHlo.TRef.unary (.of main_c_55 : StableHlo.TRef sig ⟨S_, .i32⟩) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x256_S256_d0 h_S_),
    StableHlo.TRef.unary main_call9.v8 main_call9.v10 (broadcastInDim S256 ![] bcast_S_S256),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S256 ![] bcast_S_S256),
    StableHlo.TRef.ternary main_call9.v12 main_call9.v11 main_call9.call0.v1 main_call9.call0.v2 (fun p a b => select (broadcastInDim S256 ![] bcast_S_S256 p) a b),
    StableHlo.unary main_v356 main_v358 (broadcastInDim S1x256 ![1] bcast_S256_S1x256_1 : (⟨S256, .f32⟩ : BufTy).Contents (Elt F) → (⟨S1x256, .f32⟩ : BufTy).Contents (Elt F)),
    StableHlo.unary main_v358 main_v359 (broadcastInDim S50000x256 ![0, 1] bcast_S1x256_S50000x256_0_1 : (⟨S1x256, .f32⟩ : BufTy).Contents (Elt F) → (⟨S50000x256, .f32⟩ : BufTy).Contents (Elt F)),
    StableHlo.binary main_v349 main_v359 main_v360 (subf : (⟨S50000x256, .f32⟩ : BufTy).Contents (Elt F) → (⟨S50000x256, .f32⟩ : BufTy).Contents (Elt F) → (⟨S50000x256, .f32⟩ : BufTy).Contents (Elt F)),
    StableHlo.nullary main_cst_56 (constant S_ .f32 0x3727C5AC#32),
    StableHlo.unary main_cst_56 main_v361 (broadcastInDim S256 ![] bcast_S_S256 : (⟨S_, .f32⟩ : BufTy).Contents (Elt F) → (⟨S256, .f32⟩ : BufTy).Contents (Elt F)),
    StableHlo.binary main_v357 main_v361 main_v362 (addf : (⟨S256, .f32⟩ : BufTy).Contents (Elt F) → (⟨S256, .f32⟩ : BufTy).Contents (Elt F) → (⟨S256, .f32⟩ : BufTy).Contents (Elt F)),
    StableHlo.unary main_v362 main_v363 (Host.rsqrt : (⟨S256, .f32⟩ : BufTy).Contents (Elt F) → (⟨S256, .f32⟩ : BufTy).Contents (Elt F)),
    StableHlo.unary main_v363 main_v364 (broadcastInDim S1x256 ![1] bcast_S256_S1x256_1 : (⟨S256, .f32⟩ : BufTy).Contents (Elt F) → (⟨S1x256, .f32⟩ : BufTy).Contents (Elt F)),
    StableHlo.unary main_v364 main_v365 (broadcastInDim S50000x256 ![0, 1] bcast_S1x256_S50000x256_0_1 : (⟨S1x256, .f32⟩ : BufTy).Contents (Elt F) → (⟨S50000x256, .f32⟩ : BufTy).Contents (Elt F)),
    StableHlo.binary main_v360 main_v365 main_v366 (mulf : (⟨S50000x256, .f32⟩ : BufTy).Contents (Elt F) → (⟨S50000x256, .f32⟩ : BufTy).Contents (Elt F) → (⟨S50000x256, .f32⟩ : BufTy).Contents (Elt F)),
    StableHlo.unary main_v351 main_v367 (broadcastInDim S1x256 ![1] bcast_S256_S1x256_1 : (⟨S256, .f32⟩ : BufTy).Contents (Elt F) → (⟨S1x256, .f32⟩ : BufTy).Contents (Elt F)),
    StableHlo.unary main_v367 main_v368 (broadcastInDim S50000x256 ![0, 1] bcast_S1x256_S50000x256_0_1 : (⟨S1x256, .f32⟩ : BufTy).Contents (Elt F) → (⟨S50000x256, .f32⟩ : BufTy).Contents (Elt F)),
    StableHlo.binary main_v366 main_v368 main_v369 (mulf : (⟨S50000x256, .f32⟩ : BufTy).Contents (Elt F) → (⟨S50000x256, .f32⟩ : BufTy).Contents (Elt F) → (⟨S50000x256, .f32⟩ : BufTy).Contents (Elt F)),
    StableHlo.unary main_v353 main_v370 (broadcastInDim S1x256 ![1] bcast_S256_S1x256_1 : (⟨S256, .f32⟩ : BufTy).Contents (Elt F) → (⟨S1x256, .f32⟩ : BufTy).Contents (Elt F)),
    StableHlo.unary main_v370 main_v371 (broadcastInDim S50000x256 ![0, 1] bcast_S1x256_S50000x256_0_1 : (⟨S1x256, .f32⟩ : BufTy).Contents (Elt F) → (⟨S50000x256, .f32⟩ : BufTy).Contents (Elt F)),
    StableHlo.binary main_v369 main_v371 main_v372 (addf : (⟨S50000x256, .f32⟩ : BufTy).Contents (Elt F) → (⟨S50000x256, .f32⟩ : BufTy).Contents (Elt F) → (⟨S50000x256, .f32⟩ : BufTy).Contents (Elt F)),
    StableHlo.nullary main_cst_57 (constant S_ .f32 0x00000000#32),
    StableHlo.binary main_v372 main_cst_57 main_v373 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

/-- The five column sums side by side, as one row; its product with `main_arg10`, plus `main_arg11` (`main_v378`). 5 operations. -/
abbrev opsPost : List (HloOp τ sig (Elt F)) :=
  [ StableHlo.nary ![main_v77, main_v151, main_v225, main_v299, main_v373] main_v374 (fun u => concatenate S1280 0 [⟨S256, u 0⟩, ⟨S256, u 1⟩, ⟨S256, u 2⟩, ⟨S256, u 3⟩, ⟨S256, u 4⟩] concatenates_S256_S256_S256_S256_S256_S1280_d0),
    StableHlo.unary main_v374 main_v375 (broadcastInDim S1x1280 ![1] bcast_S1280_S1x1280_1 : (⟨S1280, .f32⟩ : BufTy).Contents (Elt F) → (⟨S1x1280, .f32⟩ : BufTy).Contents (Elt F)),
    StableHlo.binary main_v375 main_arg10 main_v376 ((fun l r => Host.dotGeneral dot_S1x1280_S1280x10_S1x10_1_0_0_1_n_n none l r) : (⟨S1x1280, .f32⟩ : BufTy).Contents (Elt F) → (⟨S1280x10, .f32⟩ : BufTy).Contents (Elt F) → (⟨S1x10, .f32⟩ : BufTy).Contents (Elt F)),
    StableHlo.unary main_arg11 main_v377 (broadcastInDim S1x10 ![1] bcast_S10_S1x10_1 : (⟨S10, .f32⟩ : BufTy).Contents (Elt F) → (⟨S1x10, .f32⟩ : BufTy).Contents (Elt F)),
    StableHlo.binary main_v376 main_v377 main_v378 (addf : (⟨S1x10, .f32⟩ : BufTy).Contents (Elt F) → (⟨S1x10, .f32⟩ : BufTy).Contents (Elt F) → (⟨S1x10, .f32⟩ : BufTy).Contents (Elt F)) ]

/-- The whole program, 649 operations in order. -/
abbrev ops : List (HloOp τ sig (Elt F)) := opsPre ++ opsL0 ++ opsL1 ++ opsL2 ++ opsL3 ++ opsL4 ++ opsPost

end Cert.ReferenceIdeal.Hand

end
-- ==== Proof.RI.Windows.lean ====
import proofs.«102822_j3521873183180_1_alg».proof.Proof.Gen.ReferenceIdeal
import Idealize.ShloMosaic.Lib.StableHlo.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the printed window `main_part0`, its calls unfolded: 81. -/
abbrev win0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst (constant S_ .f32 0x00000000#32),
    StableHlo.unary main_cst main_v11 (broadcastInDim S50000x256 ![] bcast_S_S50000x256 : (⟨S_, .f32⟩ : BufTy).Contents (Elt F) → (⟨S50000x256, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_arg0 main_v13 main_v14 (addf : (⟨S50000x256, .f32⟩ : BufTy).Contents (Elt F) → (⟨S50000x256, .f32⟩ : BufTy).Contents (Elt F) → (⟨S50000x256, .f32⟩ : BufTy).Contents (Elt F)),
    StableHlo.unary main_arg2 main_v15 ((extractStridedSlice S1x256x256 ![0, 0, 0] · slices_S5x256x256_S1x256x256_0_0_0) : (⟨S5x256x256, .f32⟩ : BufTy).Contents (Elt F) → (⟨S1x256x256, .f32⟩ : BufTy).Contents (Elt F)),
    StableHlo.reshape main_v15 main_v16 rfl shapeCasts_S1x256x256_S256x256,
    StableHlo.binary main_v14 main_v16 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v18 ((extractStridedSlice S1x256 ![0, 0] · slices_S5x256_S1x256_0_0) : (⟨S5x256, .f32⟩ : BufTy).Contents (Elt F) → (⟨S1x256, .f32⟩ : BufTy).Contents (Elt F)),
    StableHlo.reshape main_v18 main_v19 rfl shapeCasts_S1x256_S256,
    StableHlo.unary main_v19 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v17 main_v21 main_v22 (addf : (⟨S50000x256, .f32⟩ : BufTy).Contents (Elt F) → (⟨S50000x256, .f32⟩ : BufTy).Contents (Elt F) → (⟨S50000x256, .f32⟩ : BufTy).Contents (Elt F)),
    StableHlo.unary main_arg4 main_v23 ((extractStridedSlice S1x256 ![0, 0] · slices_S5x256_S1x256_0_0) : (⟨S5x256, .f32⟩ : BufTy).Contents (Elt F) → (⟨S1x256, .f32⟩ : BufTy).Contents (Elt F)),
    StableHlo.reshape main_v23 main_v24 rfl shapeCasts_S1x256_S256,
    StableHlo.unary main_arg5 main_v25 ((extractStridedSlice S1x256 ![0, 0] · slices_S5x256_S1x256_0_0) : (⟨S5x256, .f32⟩ : BufTy).Contents (Elt F) → (⟨S1x256, .f32⟩ : BufTy).Contents (Elt F)),
    StableHlo.reshape main_v25 main_v26 rfl shapeCasts_S1x256_S256,
    StableHlo.nullary main_cst_1 (constant S_ .f32 0x00000000#32),
    StableHlo.binary main_v22 main_cst_1 main_v27 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v28 (broadcastInDim S256 ![] bcast_S_S256 : (⟨S_, .f32⟩ : BufTy).Contents (Elt F) → (⟨S256, .f32⟩ : BufTy).Contents (Elt F)),
    StableHlo.binary main_v27 main_v28 main_v29 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v22 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v22 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v29 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v32 main_v33 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v34 (broadcastInDim S256 ![] bcast_S_S256 : (⟨S_, .f32⟩ : BufTy).Contents (Elt F) → (⟨S256, .f32⟩ : BufTy).Contents (Elt F)),
    StableHlo.binary main_v30 main_v34 main_v35 (addf : (⟨S256, .f32⟩ : BufTy).Contents (Elt F) → (⟨S256, .f32⟩ : BufTy).Contents (Elt F) → (⟨S256, .f32⟩ : BufTy).Contents (Elt F)),
    StableHlo.unary main_v35 main_v36 (Host.rsqrt : (⟨S256, .f32⟩ : BufTy).Contents (Elt F) → (⟨S256, .f32⟩ : BufTy).Contents (Elt F)),
    StableHlo.unary main_v36 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v33 main_v38 main_v39 (mulf : (⟨S50000x256, .f32⟩ : BufTy).Contents (Elt F) → (⟨S50000x256, .f32⟩ : BufTy).Contents (Elt F) → (⟨S50000x256, .f32⟩ : BufTy).Contents (Elt F)),
    StableHlo.unary main_v24 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (mulf : (⟨S50000x256, .f32⟩ : BufTy).Contents (Elt F) → (⟨S50000x256, .f32⟩ : BufTy).Contents (Elt F) → (⟨S50000x256, .f32⟩ : BufTy).Contents (Elt F)),
    StableHlo.unary main_v26 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v42 main_v44 main_v45 (addf : (⟨S50000x256, .f32⟩ : BufTy).Contents (Elt F) → (⟨S50000x256, .f32⟩ : BufTy).Contents (Elt F) → (⟨S50000x256, .f32⟩ : BufTy).Contents (Elt F)),
    StableHlo.unary main_arg6 main_v46 ((extractStridedSlice S1x256x256 ![0, 0, 0] · slices_S5x256x256_S1x256x256_0_0_0) : (⟨S5x256x256, .f32⟩ : BufTy).Contents (Elt F) → (⟨S1x256x256, .f32⟩ : BufTy).Contents (Elt F)),
    StableHlo.reshape main_v46 main_v47 rfl shapeCasts_S1x256x256_S256x256,
    StableHlo.binary main_v45 main_v47 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v49 ((extractStridedSlice S1x256 ![0, 0] · slices_S5x256_S1x256_0_0) : (⟨S5x256, .f32⟩ : BufTy).Contents (Elt F) → (⟨S1x256, .f32⟩ : BufTy).Contents (Elt F)),
    StableHlo.reshape main_v49 main_v50 rfl shapeCasts_S1x256_S256,
    StableHlo.unary main_v50 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S50000x256 ![0, 1] bcast_S1x256_S50000x256_0_1 : (⟨S1x256, .f32⟩ : BufTy).Contents (Elt F) → (⟨S50000x256, .f32⟩ : BufTy).Contents (Elt F)) ]

/-- The operations of the printed window `main_part1`, its calls unfolded: 81. -/
abbrev win1 : List (HloOp τ sig (Elt F)) :=
  [ StableHlo.binary main_v48 main_v52 main_v53 (addf : (⟨S50000x256, .f32⟩ : BufTy).Contents (Elt F) → (⟨S50000x256, .f32⟩ : BufTy).Contents (Elt F) → (⟨S50000x256, .f32⟩ : BufTy).Contents (Elt F)),
    StableHlo.unary main_arg8 main_v54 ((extractStridedSlice S1x256 ![0, 0] · slices_S5x256_S1x256_0_0) : (⟨S5x256, .f32⟩ : BufTy).Contents (Elt F) → (⟨S1x256, .f32⟩ : BufTy).Contents (Elt F)),
    StableHlo.reshape main_v54 main_v55 rfl shapeCasts_S1x256_S256,
    StableHlo.unary main_arg9 main_v56 ((extractStridedSlice S1x256 ![0, 0] · slices_S5x256_S1x256_0_0) : (⟨S5x256, .f32⟩ : BufTy).Contents (Elt F) → (⟨S1x256, .f32⟩ : BufTy).Contents (Elt F)),
    StableHlo.reshape main_v56 main_v57 rfl shapeCasts_S1x256_S256,
    StableHlo.nullary main_cst_5 (constant S_ .f32 0x00000000#32),
    StableHlo.binary main_v53 main_cst_5 main_v58 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_6 (constant S_ .f32 0x47435000#32),
    StableHlo.unary main_cst_6 main_v59 (broadcastInDim S256 ![] bcast_S_S256 : (⟨S_, .f32⟩ : BufTy).Contents (Elt F) → (⟨S256, .f32⟩ : BufTy).Contents (Elt F)),
    StableHlo.binary main_v58 main_v59 main_v60 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call1.cst (constant S_ .f32 0x00000000#32),
    StableHlo.TRef.binary (.of main_v53 : StableHlo.TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (.of main_v53 : StableHlo.TRef sig ⟨S50000x256, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v60 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v53 main_v63 main_v64 (subf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v65 (broadcastInDim S256 ![] bcast_S_S256 : (⟨S_, .f32⟩ : BufTy).Contents (Elt F) → (⟨S256, .f32⟩ : BufTy).Contents (Elt F)),
    StableHlo.binary main_v61 main_v65 main_v66 (addf : (⟨S256, .f32⟩ : BufTy).Contents (Elt F) → (⟨S256, .f32⟩ : BufTy).Contents (Elt F) → (⟨S256, .f32⟩ : BufTy).Contents (Elt F)),
    StableHlo.unary main_v66 main_v67 (Host.rsqrt : (⟨S256, .f32⟩ : BufTy).Contents (Elt F) → (⟨S256, .f32⟩ : BufTy).Contents (Elt F)),
    StableHlo.unary main_v67 main_v68 (broadcastInDim S1x256 ![1] bcast_S256_S1x256_1 : (⟨S256, .f32⟩ : BufTy).Contents (Elt F) → (⟨S1x256, .f32⟩ : BufTy).Contents (Elt F)),
    StableHlo.unary main_v68 main_v69 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v69 main_v70 (mulf : (⟨S50000x256, .f32⟩ : BufTy).Contents (Elt F) → (⟨S50000x256, .f32⟩ : BufTy).Contents (Elt F) → (⟨S50000x256, .f32⟩ : BufTy).Contents (Elt F)),
    StableHlo.unary main_v55 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S50000x256 ![0, 1] bcast_S1x256_S50000x256_0_1 : (⟨S1x256, .f32⟩ : BufTy).Contents (Elt F) → (⟨S50000x256, .f32⟩ : BufTy).Contents (Elt F)),
    StableHlo.binary main_v70 main_v72 main_v73 (mulf : (⟨S50000x256, .f32⟩ : BufTy).Contents (Elt F) → (⟨S50000x256, .f32⟩ : BufTy).Contents (Elt F) → (⟨S50000x256, .f32⟩ : BufTy).Contents (Elt F)),
    StableHlo.unary main_v57 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S50000x256 ![0, 1] bcast_S1x256_S50000x256_0_1 : (⟨S1x256, .f32⟩ : BufTy).Contents (Elt F) → (⟨S50000x256, .f32⟩ : BufTy).Contents (Elt F)),
    StableHlo.binary main_v73 main_v75 main_v76 (addf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x00000000#32),
    StableHlo.binary main_v76 main_cst_9 main_v77 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_c_10 (constantI S_ 32 0#32),
    StableHlo.unary main_c_10 main_v78 (broadcastInDim S800000 ![] bcast_S_S800000 : (⟨S_, .i32⟩ : BufTy).Contents (Elt F) → (⟨S800000, .i32⟩ : BufTy).Contents (Elt F)),
    StableHlo.binary main_v1 main_v78 main_v79 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v80 (broadcastInDim S800000 ![] bcast_S_S800000 : (⟨S_, .i32⟩ : BufTy).Contents (Elt F) → (⟨S800000, .i32⟩ : BufTy).Contents (Elt F)),
    StableHlo.binary main_v1 main_v80 main_v81 (addi : (⟨S800000, .i32⟩ : BufTy).Contents (Elt F) → (⟨S800000, .i32⟩ : BufTy).Contents (Elt F) → (⟨S800000, .i32⟩ : BufTy).Contents (Elt F)),
    StableHlo.ternary main_v79 main_v81 main_v1 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v82 main_v83 (broadcastInDim S800000x1 ![0] bcast_S800000_S800000x1_0 : (⟨S800000, .i32⟩ : BufTy).Contents (Elt F) → (⟨S800000x1, .i32⟩ : BufTy).Contents (Elt F)),
    StableHlo.binary main_v76 main_v83 main_v84 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_12 (constant S_ .f32 0x00000000#32),
    StableHlo.unary main_cst_12 main_v85 (broadcastInDim S50000x256 ![] bcast_S_S50000x256 : (⟨S_, .f32⟩ : BufTy).Contents (Elt F) → (⟨S50000x256, .f32⟩ : BufTy).Contents (Elt F)),
    StableHlo.unary main_v3 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v84 main_v87 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v76 main_v87 main_v88 (addf : (⟨S50000x256, .f32⟩ : BufTy).Contents (Elt F) → (⟨S50000x256, .f32⟩ : BufTy).Contents (Elt F) → (⟨S50000x256, .f32⟩ : BufTy).Contents (Elt F)),
    StableHlo.unary main_arg2 main_v89 ((extractStridedSlice S1x256x256 ![1, 0, 0] · slices_S5x256x256_S1x256x256_1_0_0) : (⟨S5x256x256, .f32⟩ : BufTy).Contents (Elt F) → (⟨S1x256x256, .f32⟩ : BufTy).Contents (Elt F)),
    StableHlo.reshape main_v89 main_v90 rfl shapeCasts_S1x256x256_S256x256,
    StableHlo.binary main_v88 main_v90 main_v91 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v92 ((extractStridedSlice S1x256 ![1, 0] · slices_S5x256_S1x256_1_0) : (⟨S5x256, .f32⟩ : BufTy).Contents (Elt F) → (⟨S1x256, .f32⟩ : BufTy).Contents (Elt F)),
    StableHlo.reshape main_v92 main_v93 rfl shapeCasts_S1x256_S256,
    StableHlo.unary main_v93 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v91 main_v95 main_v96 (addf : (⟨S50000x256, .f32⟩ : BufTy).Contents (Elt F) → (⟨S50000x256, .f32⟩ : BufTy).Contents (Elt F) → (⟨S50000x256, .f32⟩ : BufTy).Contents (Elt F)),
    StableHlo.unary main_arg4 main_v97 ((extractStridedSlice S1x256 ![1, 0] · slices_S5x256_S1x256_1_0) : (⟨S5x256, .f32⟩ : BufTy).Contents (Elt F) → (⟨S1x256, .f32⟩ : BufTy).Contents (Elt F)),
    StableHlo.reshape main_v97 main_v98 rfl shapeCasts_S1x256_S256,
    StableHlo.unary main_arg5 main_v99 ((extractStridedSlice S1x256 ![1, 0] · slices_S5x256_S1x256_1_0) : (⟨S5x256, .f32⟩ : BufTy).Contents (Elt F) → (⟨S1x256, .f32⟩ : BufTy).Contents (Elt F)),
    StableHlo.reshape main_v99 main_v100 rfl shapeCasts_S1x256_S256,
    StableHlo.nullary main_cst_13 (constant S_ .f32 0x00000000#32),
    StableHlo.binary main_v96 main_cst_13 main_v101 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_14 (constant S_ .f32 0x47435000#32),
    StableHlo.unary main_cst_14 main_v102 (broadcastInDim S256 ![] bcast_S_S256 : (⟨S_, .f32⟩ : BufTy).Contents (Elt F) → (⟨S256, .f32⟩ : BufTy).Contents (Elt F)) ]

/-- The operations of the printed window `main_part2`, its calls unfolded: 102. -/
abbrev win2 : List (HloOp τ sig (Elt F)) :=
  [ StableHlo.binary main_v101 main_v102 main_v103 (Host.divf : (⟨S256, .f32⟩ : BufTy).Contents (Elt F) → (⟨S256, .f32⟩ : BufTy).Contents (Elt F) → (⟨S256, .f32⟩ : BufTy).Contents (Elt F)),
    StableHlo.nullary main_c_15 (constantI S_ 32 0#32),
    StableHlo.TRef.nullary main_call2.cst (constant S_ .f32 0x00000000#32),
    StableHlo.TRef.binary (.of main_v96 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v96 : StableHlo.TRef sig ⟨S50000x256, .f32⟩) main_call2.v4 main_call2.v5 subf,
    StableHlo.TRef.binary main_call2.v5 main_call2.v5 main_call2.v6 mulf,
    StableHlo.TRef.unary (.of main_c_15 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v103 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v96 main_v106 main_v107 (subf : (⟨S50000x256, .f32⟩ : BufTy).Contents (Elt F) → (⟨S50000x256, .f32⟩ : BufTy).Contents (Elt F) → (⟨S50000x256, .f32⟩ : BufTy).Contents (Elt F)),
    StableHlo.nullary main_cst_16 (constant S_ .f32 0x3727C5AC#32),
    StableHlo.unary main_cst_16 main_v108 (broadcastInDim S256 ![] bcast_S_S256 : (⟨S_, .f32⟩ : BufTy).Contents (Elt F) → (⟨S256, .f32⟩ : BufTy).Contents (Elt F)),
    StableHlo.binary main_v104 main_v108 main_v109 (addf : (⟨S256, .f32⟩ : BufTy).Contents (Elt F) → (⟨S256, .f32⟩ : BufTy).Contents (Elt F) → (⟨S256, .f32⟩ : BufTy).Contents (Elt F)),
    StableHlo.unary main_v109 main_v110 (Host.rsqrt : (⟨S256, .f32⟩ : BufTy).Contents (Elt F) → (⟨S256, .f32⟩ : BufTy).Contents (Elt F)),
    StableHlo.unary main_v110 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S50000x256 ![0, 1] bcast_S1x256_S50000x256_0_1 : (⟨S1x256, .f32⟩ : BufTy).Contents (Elt F) → (⟨S50000x256, .f32⟩ : BufTy).Contents (Elt F)),
    StableHlo.binary main_v107 main_v112 main_v113 (mulf : (⟨S50000x256, .f32⟩ : BufTy).Contents (Elt F) → (⟨S50000x256, .f32⟩ : BufTy).Contents (Elt F) → (⟨S50000x256, .f32⟩ : BufTy).Contents (Elt F)),
    StableHlo.unary main_v98 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S50000x256 ![0, 1] bcast_S1x256_S50000x256_0_1 : (⟨S1x256, .f32⟩ : BufTy).Contents (Elt F) → (⟨S50000x256, .f32⟩ : BufTy).Contents (Elt F)),
    StableHlo.binary main_v113 main_v115 main_v116 (mulf : (⟨S50000x256, .f32⟩ : BufTy).Contents (Elt F) → (⟨S50000x256, .f32⟩ : BufTy).Contents (Elt F) → (⟨S50000x256, .f32⟩ : BufTy).Contents (Elt F)),
    StableHlo.unary main_v100 main_v117 (broadcastInDim S1x256 ![1] bcast_S256_S1x256_1 : (⟨S256, .f32⟩ : BufTy).Contents (Elt F) → (⟨S1x256, .f32⟩ : BufTy).Contents (Elt F)),
    StableHlo.unary main_v117 main_v118 (broadcastInDim S50000x256 ![0, 1] bcast_S1x256_S50000x256_0_1 : (⟨S1x256, .f32⟩ : BufTy).Contents (Elt F) → (⟨S50000x256, .f32⟩ : BufTy).Contents (Elt F)),
    StableHlo.binary main_v116 main_v118 main_v119 (addf : (⟨S50000x256, .f32⟩ : BufTy).Contents (Elt F) → (⟨S50000x256, .f32⟩ : BufTy).Contents (Elt F) → (⟨S50000x256, .f32⟩ : BufTy).Contents (Elt F)),
    StableHlo.unary main_arg6 main_v120 ((extractStridedSlice S1x256x256 ![1, 0, 0] · slices_S5x256x256_S1x256x256_1_0_0) : (⟨S5x256x256, .f32⟩ : BufTy).Contents (Elt F) → (⟨S1x256x256, .f32⟩ : BufTy).Contents (Elt F)),
    StableHlo.reshape main_v120 main_v121 rfl shapeCasts_S1x256x256_S256x256,
    StableHlo.binary main_v119 main_v121 main_v122 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v123 ((extractStridedSlice S1x256 ![1, 0] · slices_S5x256_S1x256_1_0) : (⟨S5x256, .f32⟩ : BufTy).Contents (Elt F) → (⟨S1x256, .f32⟩ : BufTy).Contents (Elt F)),
    StableHlo.reshape main_v123 main_v124 rfl shapeCasts_S1x256_S256,
    StableHlo.unary main_v124 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S50000x256 ![0, 1] bcast_S1x256_S50000x256_0_1 : (⟨S1x256, .f32⟩ : BufTy).Contents (Elt F) → (⟨S50000x256, .f32⟩ : BufTy).Contents (Elt F)),
    StableHlo.binary main_v122 main_v126 main_v127 (addf : (⟨S50000x256, .f32⟩ : BufTy).Contents (Elt F) → (⟨S50000x256, .f32⟩ : BufTy).Contents (Elt F) → (⟨S50000x256, .f32⟩ : BufTy).Contents (Elt F)),
    StableHlo.unary main_arg8 main_v128 ((extractStridedSlice S1x256 ![1, 0] · slices_S5x256_S1x256_1_0) : (⟨S5x256, .f32⟩ : BufTy).Contents (Elt F) → (⟨S1x256, .f32⟩ : BufTy).Contents (Elt F)),
    StableHlo.reshape main_v128 main_v129 rfl shapeCasts_S1x256_S256,
    StableHlo.unary main_arg9 main_v130 ((extractStridedSlice S1x256 ![1, 0] · slices_S5x256_S1x256_1_0) : (⟨S5x256, .f32⟩ : BufTy).Contents (Elt F) → (⟨S1x256, .f32⟩ : BufTy).Contents (Elt F)),
    StableHlo.reshape main_v130 main_v131 rfl shapeCasts_S1x256_S256,
    StableHlo.nullary main_cst_17 (constant S_ .f32 0x00000000#32),
    StableHlo.binary main_v127 main_cst_17 main_v132 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_18 (constant S_ .f32 0x47435000#32),
    StableHlo.unary main_cst_18 main_v133 (broadcastInDim S256 ![] bcast_S_S256 : (⟨S_, .f32⟩ : BufTy).Contents (Elt F) → (⟨S256, .f32⟩ : BufTy).Contents (Elt F)),
    StableHlo.binary main_v132 main_v133 main_v134 (Host.divf : (⟨S256, .f32⟩ : BufTy).Contents (Elt F) → (⟨S256, .f32⟩ : BufTy).Contents (Elt F) → (⟨S256, .f32⟩ : BufTy).Contents (Elt F)),
    StableHlo.nullary main_c_19 (constantI S_ 32 0#32),
    StableHlo.TRef.nullary main_call3.cst (constant S_ .f32 0x00000000#32),
    StableHlo.TRef.binary (.of main_v127 : StableHlo.TRef sig ⟨S50000x256, .f32⟩) main_call3.cst main_call3.v0 (fun x v => Host.reduceAdd x v reducesTo_S50000x256_S256_d0 h_S_),
    StableHlo.TRef.unary main_call3.v0 main_call3.v1 (broadcastInDim S1x256 ![1] bcast_S256_S1x256_1),
    StableHlo.TRef.nullary main_call3.cst_0 (constant S_ .f32 0x47435000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S50000x256 ![0, 1] bcast_S1x256_S50000x256_0_1),
    StableHlo.TRef.binary (.of main_v127 : StableHlo.TRef sig ⟨S50000x256, .f32⟩) main_call3.v4 main_call3.v5 subf,
    StableHlo.TRef.binary main_call3.v5 main_call3.v5 main_call3.v6 mulf,
    StableHlo.TRef.unary (.of main_c_19 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b),
    StableHlo.unary main_v134 main_v136 (broadcastInDim S1x256 ![1] bcast_S256_S1x256_1 : (⟨S256, .f32⟩ : BufTy).Contents (Elt F) → (⟨S1x256, .f32⟩ : BufTy).Contents (Elt F)),
    StableHlo.unary main_v136 main_v137 (broadcastInDim S50000x256 ![0, 1] bcast_S1x256_S50000x256_0_1 : (⟨S1x256, .f32⟩ : BufTy).Contents (Elt F) → (⟨S50000x256, .f32⟩ : BufTy).Contents (Elt F)),
    StableHlo.binary main_v127 main_v137 main_v138 (subf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x3727C5AC#32),
    StableHlo.unary main_cst_20 main_v139 (broadcastInDim S256 ![] bcast_S_S256 : (⟨S_, .f32⟩ : BufTy).Contents (Elt F) → (⟨S256, .f32⟩ : BufTy).Contents (Elt F)),
    StableHlo.binary main_v135 main_v139 main_v140 (addf : (⟨S256, .f32⟩ : BufTy).Contents (Elt F) → (⟨S256, .f32⟩ : BufTy).Contents (Elt F) → (⟨S256, .f32⟩ : BufTy).Contents (Elt F)),
    StableHlo.unary main_v140 main_v141 (Host.rsqrt : (⟨S256, .f32⟩ : BufTy).Contents (Elt F) → (⟨S256, .f32⟩ : BufTy).Contents (Elt F)),
    StableHlo.unary main_v141 main_v142 (broadcastInDim S1x256 ![1] bcast_S256_S1x256_1 : (⟨S256, .f32⟩ : BufTy).Contents (Elt F) → (⟨S1x256, .f32⟩ : BufTy).Contents (Elt F)),
    StableHlo.unary main_v142 main_v143 (broadcastInDim S50000x256 ![0, 1] bcast_S1x256_S50000x256_0_1 : (⟨S1x256, .f32⟩ : BufTy).Contents (Elt F) → (⟨S50000x256, .f32⟩ : BufTy).Contents (Elt F)),
    StableHlo.binary main_v138 main_v143 main_v144 (mulf : (⟨S50000x256, .f32⟩ : BufTy).Contents (Elt F) → (⟨S50000x256, .f32⟩ : BufTy).Contents (Elt F) → (⟨S50000x256, .f32⟩ : BufTy).Contents (Elt F)),
    StableHlo.unary main_v129 main_v145 (broadcastInDim S1x256 ![1] bcast_S256_S1x256_1 : (⟨S256, .f32⟩ : BufTy).Contents (Elt F) → (⟨S1x256, .f32⟩ : BufTy).Contents (Elt F)),
    StableHlo.unary main_v145 main_v146 (broadcastInDim S50000x256 ![0, 1] bcast_S1x256_S50000x256_0_1 : (⟨S1x256, .f32⟩ : BufTy).Contents (Elt F) → (⟨S50000x256, .f32⟩ : BufTy).Contents (Elt F)),
    StableHlo.binary main_v144 main_v146 main_v147 (mulf : (⟨S50000x256, .f32⟩ : BufTy).Contents (Elt F) → (⟨S50000x256, .f32⟩ : BufTy).Contents (Elt F) → (⟨S50000x256, .f32⟩ : BufTy).Contents (Elt F)),
    StableHlo.unary main_v131 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S50000x256 ![0, 1] bcast_S1x256_S50000x256_0_1 : (⟨S1x256, .f32⟩ : BufTy).Contents (Elt F) → (⟨S50000x256, .f32⟩ : BufTy).Contents (Elt F)),
    StableHlo.binary main_v147 main_v149 main_v150 (addf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x00000000#32),
    StableHlo.binary main_v150 main_cst_21 main_v151 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_c_22 (constantI S_ 32 0#32),
    StableHlo.unary main_c_22 main_v152 (broadcastInDim S800000 ![] bcast_S_S800000 : (⟨S_, .i32⟩ : BufTy).Contents (Elt F) → (⟨S800000, .i32⟩ : BufTy).Contents (Elt F)),
    StableHlo.binary main_v1 main_v152 main_v153 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32) ]

/-- The operations of the printed window `main_part3`, its calls unfolded: 81. -/
abbrev win3 : List (HloOp τ sig (Elt F)) :=
  [ StableHlo.unary main_c_23 main_v154 (broadcastInDim S800000 ![] bcast_S_S800000 : (⟨S_, .i32⟩ : BufTy).Contents (Elt F) → (⟨S800000, .i32⟩ : BufTy).Contents (Elt F)),
    StableHlo.binary main_v1 main_v154 main_v155 (addi : (⟨S800000, .i32⟩ : BufTy).Contents (Elt F) → (⟨S800000, .i32⟩ : BufTy).Contents (Elt F) → (⟨S800000, .i32⟩ : BufTy).Contents (Elt F)),
    StableHlo.ternary main_v153 main_v155 main_v1 main_v156 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v156 main_v157 (broadcastInDim S800000x1 ![0] bcast_S800000_S800000x1_0 : (⟨S800000, .i32⟩ : BufTy).Contents (Elt F) → (⟨S800000x1, .i32⟩ : BufTy).Contents (Elt F)),
    StableHlo.binary main_v150 main_v157 main_v158 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_24 (constant S_ .f32 0x00000000#32),
    StableHlo.unary main_cst_24 main_v159 (broadcastInDim S50000x256 ![] bcast_S_S50000x256 : (⟨S_, .f32⟩ : BufTy).Contents (Elt F) → (⟨S50000x256, .f32⟩ : BufTy).Contents (Elt F)),
    StableHlo.unary main_v3 main_v160 (broadcastInDim S800000x1 ![0] bcast_S800000_S800000x1_0 : (⟨S800000, .i32⟩ : BufTy).Contents (Elt F) → (⟨S800000x1, .i32⟩ : BufTy).Contents (Elt F)),
    StableHlo.ternary main_v159 main_v160 main_v158 main_v161 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v150 main_v161 main_v162 (addf : (⟨S50000x256, .f32⟩ : BufTy).Contents (Elt F) → (⟨S50000x256, .f32⟩ : BufTy).Contents (Elt F) → (⟨S50000x256, .f32⟩ : BufTy).Contents (Elt F)),
    StableHlo.unary main_arg2 main_v163 ((extractStridedSlice S1x256x256 ![2, 0, 0] · slices_S5x256x256_S1x256x256_2_0_0) : (⟨S5x256x256, .f32⟩ : BufTy).Contents (Elt F) → (⟨S1x256x256, .f32⟩ : BufTy).Contents (Elt F)),
    StableHlo.reshape main_v163 main_v164 rfl shapeCasts_S1x256x256_S256x256,
    StableHlo.binary main_v162 main_v164 main_v165 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v166 ((extractStridedSlice S1x256 ![2, 0] · slices_S5x256_S1x256_2_0) : (⟨S5x256, .f32⟩ : BufTy).Contents (Elt F) → (⟨S1x256, .f32⟩ : BufTy).Contents (Elt F)),
    StableHlo.reshape main_v166 main_v167 rfl shapeCasts_S1x256_S256,
    StableHlo.unary main_v167 main_v168 (broadcastInDim S1x256 ![1] bcast_S256_S1x256_1 : (⟨S256, .f32⟩ : BufTy).Contents (Elt F) → (⟨S1x256, .f32⟩ : BufTy).Contents (Elt F)),
    StableHlo.unary main_v168 main_v169 (broadcastInDim S50000x256 ![0, 1] bcast_S1x256_S50000x256_0_1 : (⟨S1x256, .f32⟩ : BufTy).Contents (Elt F) → (⟨S50000x256, .f32⟩ : BufTy).Contents (Elt F)),
    StableHlo.binary main_v165 main_v169 main_v170 (addf : (⟨S50000x256, .f32⟩ : BufTy).Contents (Elt F) → (⟨S50000x256, .f32⟩ : BufTy).Contents (Elt F) → (⟨S50000x256, .f32⟩ : BufTy).Contents (Elt F)),
    StableHlo.unary main_arg4 main_v171 ((extractStridedSlice S1x256 ![2, 0] · slices_S5x256_S1x256_2_0) : (⟨S5x256, .f32⟩ : BufTy).Contents (Elt F) → (⟨S1x256, .f32⟩ : BufTy).Contents (Elt F)),
    StableHlo.reshape main_v171 main_v172 rfl shapeCasts_S1x256_S256,
    StableHlo.unary main_arg5 main_v173 ((extractStridedSlice S1x256 ![2, 0] · slices_S5x256_S1x256_2_0) : (⟨S5x256, .f32⟩ : BufTy).Contents (Elt F) → (⟨S1x256, .f32⟩ : BufTy).Contents (Elt F)),
    StableHlo.reshape main_v173 main_v174 rfl shapeCasts_S1x256_S256,
    StableHlo.nullary main_cst_25 (constant S_ .f32 0x00000000#32),
    StableHlo.binary main_v170 main_cst_25 main_v175 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_26 (constant S_ .f32 0x47435000#32),
    StableHlo.unary main_cst_26 main_v176 (broadcastInDim S256 ![] bcast_S_S256 : (⟨S_, .f32⟩ : BufTy).Contents (Elt F) → (⟨S256, .f32⟩ : BufTy).Contents (Elt F)),
    StableHlo.binary main_v175 main_v176 main_v177 (Host.divf : (⟨S256, .f32⟩ : BufTy).Contents (Elt F) → (⟨S256, .f32⟩ : BufTy).Contents (Elt F) → (⟨S256, .f32⟩ : BufTy).Contents (Elt F)),
    StableHlo.nullary main_c_27 (constantI S_ 32 0#32),
    StableHlo.TRef.nullary main_call4.cst (constant S_ .f32 0x00000000#32),
    StableHlo.TRef.binary (.of main_v170 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v170 : StableHlo.TRef sig ⟨S50000x256, .f32⟩) main_call4.v4 main_call4.v5 subf,
    StableHlo.TRef.binary main_call4.v5 main_call4.v5 main_call4.v6 mulf,
    StableHlo.TRef.unary (.of main_c_27 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v177 main_v179 (broadcastInDim S1x256 ![1] bcast_S256_S1x256_1 : (⟨S256, .f32⟩ : BufTy).Contents (Elt F) → (⟨S1x256, .f32⟩ : BufTy).Contents (Elt F)),
    StableHlo.unary main_v179 main_v180 (broadcastInDim S50000x256 ![0, 1] bcast_S1x256_S50000x256_0_1 : (⟨S1x256, .f32⟩ : BufTy).Contents (Elt F) → (⟨S50000x256, .f32⟩ : BufTy).Contents (Elt F)),
    StableHlo.binary main_v170 main_v180 main_v181 (subf : (⟨S50000x256, .f32⟩ : BufTy).Contents (Elt F) → (⟨S50000x256, .f32⟩ : BufTy).Contents (Elt F) → (⟨S50000x256, .f32⟩ : BufTy).Contents (Elt F)),
    StableHlo.nullary main_cst_28 (constant S_ .f32 0x3727C5AC#32),
    StableHlo.unary main_cst_28 main_v182 (broadcastInDim S256 ![] bcast_S_S256 : (⟨S_, .f32⟩ : BufTy).Contents (Elt F) → (⟨S256, .f32⟩ : BufTy).Contents (Elt F)),
    StableHlo.binary main_v178 main_v182 main_v183 (addf : (⟨S256, .f32⟩ : BufTy).Contents (Elt F) → (⟨S256, .f32⟩ : BufTy).Contents (Elt F) → (⟨S256, .f32⟩ : BufTy).Contents (Elt F)),
    StableHlo.unary main_v183 main_v184 (Host.rsqrt : (⟨S256, .f32⟩ : BufTy).Contents (Elt F) → (⟨S256, .f32⟩ : BufTy).Contents (Elt F)),
    StableHlo.unary main_v184 main_v185 (broadcastInDim S1x256 ![1] bcast_S256_S1x256_1 : (⟨S256, .f32⟩ : BufTy).Contents (Elt F) → (⟨S1x256, .f32⟩ : BufTy).Contents (Elt F)),
    StableHlo.unary main_v185 main_v186 (broadcastInDim S50000x256 ![0, 1] bcast_S1x256_S50000x256_0_1 : (⟨S1x256, .f32⟩ : BufTy).Contents (Elt F) → (⟨S50000x256, .f32⟩ : BufTy).Contents (Elt F)),
    StableHlo.binary main_v181 main_v186 main_v187 (mulf : (⟨S50000x256, .f32⟩ : BufTy).Contents (Elt F) → (⟨S50000x256, .f32⟩ : BufTy).Contents (Elt F) → (⟨S50000x256, .f32⟩ : BufTy).Contents (Elt F)),
    StableHlo.unary main_v172 main_v188 (broadcastInDim S1x256 ![1] bcast_S256_S1x256_1 : (⟨S256, .f32⟩ : BufTy).Contents (Elt F) → (⟨S1x256, .f32⟩ : BufTy).Contents (Elt F)),
    StableHlo.unary main_v188 main_v189 (broadcastInDim S50000x256 ![0, 1] bcast_S1x256_S50000x256_0_1 : (⟨S1x256, .f32⟩ : BufTy).Contents (Elt F) → (⟨S50000x256, .f32⟩ : BufTy).Contents (Elt F)),
    StableHlo.binary main_v187 main_v189 main_v190 (mulf : (⟨S50000x256, .f32⟩ : BufTy).Contents (Elt F) → (⟨S50000x256, .f32⟩ : BufTy).Contents (Elt F) → (⟨S50000x256, .f32⟩ : BufTy).Contents (Elt F)),
    StableHlo.unary main_v174 main_v191 (broadcastInDim S1x256 ![1] bcast_S256_S1x256_1 : (⟨S256, .f32⟩ : BufTy).Contents (Elt F) → (⟨S1x256, .f32⟩ : BufTy).Contents (Elt F)),
    StableHlo.unary main_v191 main_v192 (broadcastInDim S50000x256 ![0, 1] bcast_S1x256_S50000x256_0_1 : (⟨S1x256, .f32⟩ : BufTy).Contents (Elt F) → (⟨S50000x256, .f32⟩ : BufTy).Contents (Elt F)),
    StableHlo.binary main_v190 main_v192 main_v193 (addf : (⟨S50000x256, .f32⟩ : BufTy).Contents (Elt F) → (⟨S50000x256, .f32⟩ : BufTy).Contents (Elt F) → (⟨S50000x256, .f32⟩ : BufTy).Contents (Elt F)),
    StableHlo.unary main_arg6 main_v194 ((extractStridedSlice S1x256x256 ![2, 0, 0] · slices_S5x256x256_S1x256x256_2_0_0) : (⟨S5x256x256, .f32⟩ : BufTy).Contents (Elt F) → (⟨S1x256x256, .f32⟩ : BufTy).Contents (Elt F)),
    StableHlo.reshape main_v194 main_v195 rfl shapeCasts_S1x256x256_S256x256,
    StableHlo.binary main_v193 main_v195 main_v196 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v197 ((extractStridedSlice S1x256 ![2, 0] · slices_S5x256_S1x256_2_0) : (⟨S5x256, .f32⟩ : BufTy).Contents (Elt F) → (⟨S1x256, .f32⟩ : BufTy).Contents (Elt F)),
    StableHlo.reshape main_v197 main_v198 rfl shapeCasts_S1x256_S256,
    StableHlo.unary main_v198 main_v199 (broadcastInDim S1x256 ![1] bcast_S256_S1x256_1 : (⟨S256, .f32⟩ : BufTy).Contents (Elt F) → (⟨S1x256, .f32⟩ : BufTy).Contents (Elt F)),
    StableHlo.unary main_v199 main_v200 (broadcastInDim S50000x256 ![0, 1] bcast_S1x256_S50000x256_0_1 : (⟨S1x256, .f32⟩ : BufTy).Contents (Elt F) → (⟨S50000x256, .f32⟩ : BufTy).Contents (Elt F)),
    StableHlo.binary main_v196 main_v200 main_v201 (addf : (⟨S50000x256, .f32⟩ : BufTy).Contents (Elt F) → (⟨S50000x256, .f32⟩ : BufTy).Contents (Elt F) → (⟨S50000x256, .f32⟩ : BufTy).Contents (Elt F)),
    StableHlo.unary main_arg8 main_v202 ((extractStridedSlice S1x256 ![2, 0] · slices_S5x256_S1x256_2_0) : (⟨S5x256, .f32⟩ : BufTy).Contents (Elt F) → (⟨S1x256, .f32⟩ : BufTy).Contents (Elt F)),
    StableHlo.reshape main_v202 main_v203 rfl shapeCasts_S1x256_S256,
    StableHlo.unary main_arg9 main_v204 ((extractStridedSlice S1x256 ![2, 0] · slices_S5x256_S1x256_2_0) : (⟨S5x256, .f32⟩ : BufTy).Contents (Elt F) → (⟨S1x256, .f32⟩ : BufTy).Contents (Elt F)),
    StableHlo.reshape main_v204 main_v205 rfl shapeCasts_S1x256_S256,
    StableHlo.nullary main_cst_29 (constant S_ .f32 0x00000000#32),
    StableHlo.binary main_v201 main_cst_29 main_v206 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_30 (constant S_ .f32 0x47435000#32) ]

/-- The operations of the printed window `main_part4`, its calls unfolded: 102. -/
abbrev win4 : List (HloOp τ sig (Elt F)) :=
  [ StableHlo.unary main_cst_30 main_v207 (broadcastInDim S256 ![] bcast_S_S256 : (⟨S_, .f32⟩ : BufTy).Contents (Elt F) → (⟨S256, .f32⟩ : BufTy).Contents (Elt F)),
    StableHlo.binary main_v206 main_v207 main_v208 (Host.divf : (⟨S256, .f32⟩ : BufTy).Contents (Elt F) → (⟨S256, .f32⟩ : BufTy).Contents (Elt F) → (⟨S256, .f32⟩ : BufTy).Contents (Elt F)),
    StableHlo.nullary main_c_31 (constantI S_ 32 0#32),
    StableHlo.TRef.nullary main_call5.cst (constant S_ .f32 0x00000000#32),
    StableHlo.TRef.binary (.of main_v201 : StableHlo.TRef sig ⟨S50000x256, .f32⟩) main_call5.cst main_call5.v0 (fun x v => Host.reduceAdd x v reducesTo_S50000x256_S256_d0 h_S_),
    StableHlo.TRef.unary main_call5.v0 main_call5.v1 (broadcastInDim S1x256 ![1] bcast_S256_S1x256_1),
    StableHlo.TRef.nullary main_call5.cst_0 (constant S_ .f32 0x47435000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S50000x256 ![0, 1] bcast_S1x256_S50000x256_0_1),
    StableHlo.TRef.binary (.of main_v201 : StableHlo.TRef sig ⟨S50000x256, .f32⟩) main_call5.v4 main_call5.v5 subf,
    StableHlo.TRef.binary main_call5.v5 main_call5.v5 main_call5.v6 mulf,
    StableHlo.TRef.unary (.of main_c_31 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b),
    StableHlo.unary main_v208 main_v210 (broadcastInDim S1x256 ![1] bcast_S256_S1x256_1 : (⟨S256, .f32⟩ : BufTy).Contents (Elt F) → (⟨S1x256, .f32⟩ : BufTy).Contents (Elt F)),
    StableHlo.unary main_v210 main_v211 (broadcastInDim S50000x256 ![0, 1] bcast_S1x256_S50000x256_0_1 : (⟨S1x256, .f32⟩ : BufTy).Contents (Elt F) → (⟨S50000x256, .f32⟩ : BufTy).Contents (Elt F)),
    StableHlo.binary main_v201 main_v211 main_v212 (subf : (⟨S50000x256, .f32⟩ : BufTy).Contents (Elt F) → (⟨S50000x256, .f32⟩ : BufTy).Contents (Elt F) → (⟨S50000x256, .f32⟩ : BufTy).Contents (Elt F)),
    StableHlo.nullary main_cst_32 (constant S_ .f32 0x3727C5AC#32),
    StableHlo.unary main_cst_32 main_v213 (broadcastInDim S256 ![] bcast_S_S256 : (⟨S_, .f32⟩ : BufTy).Contents (Elt F) → (⟨S256, .f32⟩ : BufTy).Contents (Elt F)),
    StableHlo.binary main_v209 main_v213 main_v214 (addf : (⟨S256, .f32⟩ : BufTy).Contents (Elt F) → (⟨S256, .f32⟩ : BufTy).Contents (Elt F) → (⟨S256, .f32⟩ : BufTy).Contents (Elt F)),
    StableHlo.unary main_v214 main_v215 (Host.rsqrt : (⟨S256, .f32⟩ : BufTy).Contents (Elt F) → (⟨S256, .f32⟩ : BufTy).Contents (Elt F)),
    StableHlo.unary main_v215 main_v216 (broadcastInDim S1x256 ![1] bcast_S256_S1x256_1 : (⟨S256, .f32⟩ : BufTy).Contents (Elt F) → (⟨S1x256, .f32⟩ : BufTy).Contents (Elt F)),
    StableHlo.unary main_v216 main_v217 (broadcastInDim S50000x256 ![0, 1] bcast_S1x256_S50000x256_0_1 : (⟨S1x256, .f32⟩ : BufTy).Contents (Elt F) → (⟨S50000x256, .f32⟩ : BufTy).Contents (Elt F)),
    StableHlo.binary main_v212 main_v217 main_v218 (mulf : (⟨S50000x256, .f32⟩ : BufTy).Contents (Elt F) → (⟨S50000x256, .f32⟩ : BufTy).Contents (Elt F) → (⟨S50000x256, .f32⟩ : BufTy).Contents (Elt F)),
    StableHlo.unary main_v203 main_v219 (broadcastInDim S1x256 ![1] bcast_S256_S1x256_1 : (⟨S256, .f32⟩ : BufTy).Contents (Elt F) → (⟨S1x256, .f32⟩ : BufTy).Contents (Elt F)),
    StableHlo.unary main_v219 main_v220 (broadcastInDim S50000x256 ![0, 1] bcast_S1x256_S50000x256_0_1 : (⟨S1x256, .f32⟩ : BufTy).Contents (Elt F) → (⟨S50000x256, .f32⟩ : BufTy).Contents (Elt F)),
    StableHlo.binary main_v218 main_v220 main_v221 (mulf : (⟨S50000x256, .f32⟩ : BufTy).Contents (Elt F) → (⟨S50000x256, .f32⟩ : BufTy).Contents (Elt F) → (⟨S50000x256, .f32⟩ : BufTy).Contents (Elt F)),
    StableHlo.unary main_v205 main_v222 (broadcastInDim S1x256 ![1] bcast_S256_S1x256_1 : (⟨S256, .f32⟩ : BufTy).Contents (Elt F) → (⟨S1x256, .f32⟩ : BufTy).Contents (Elt F)),
    StableHlo.unary main_v222 main_v223 (broadcastInDim S50000x256 ![0, 1] bcast_S1x256_S50000x256_0_1 : (⟨S1x256, .f32⟩ : BufTy).Contents (Elt F) → (⟨S50000x256, .f32⟩ : BufTy).Contents (Elt F)),
    StableHlo.binary main_v221 main_v223 main_v224 (addf : (⟨S50000x256, .f32⟩ : BufTy).Contents (Elt F) → (⟨S50000x256, .f32⟩ : BufTy).Contents (Elt F) → (⟨S50000x256, .f32⟩ : BufTy).Contents (Elt F)),
    StableHlo.nullary main_cst_33 (constant S_ .f32 0x00000000#32),
    StableHlo.binary main_v224 main_cst_33 main_v225 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_c_34 (constantI S_ 32 0#32),
    StableHlo.unary main_c_34 main_v226 (broadcastInDim S800000 ![] bcast_S_S800000 : (⟨S_, .i32⟩ : BufTy).Contents (Elt F) → (⟨S800000, .i32⟩ : BufTy).Contents (Elt F)),
    StableHlo.binary main_v1 main_v226 main_v227 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v228 (broadcastInDim S800000 ![] bcast_S_S800000 : (⟨S_, .i32⟩ : BufTy).Contents (Elt F) → (⟨S800000, .i32⟩ : BufTy).Contents (Elt F)),
    StableHlo.binary main_v1 main_v228 main_v229 (addi : (⟨S800000, .i32⟩ : BufTy).Contents (Elt F) → (⟨S800000, .i32⟩ : BufTy).Contents (Elt F) → (⟨S800000, .i32⟩ : BufTy).Contents (Elt F)),
    StableHlo.ternary main_v227 main_v229 main_v1 main_v230 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v230 main_v231 (broadcastInDim S800000x1 ![0] bcast_S800000_S800000x1_0 : (⟨S800000, .i32⟩ : BufTy).Contents (Elt F) → (⟨S800000x1, .i32⟩ : BufTy).Contents (Elt F)),
    StableHlo.binary main_v224 main_v231 main_v232 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_36 (constant S_ .f32 0x00000000#32),
    StableHlo.unary main_cst_36 main_v233 (broadcastInDim S50000x256 ![] bcast_S_S50000x256 : (⟨S_, .f32⟩ : BufTy).Contents (Elt F) → (⟨S50000x256, .f32⟩ : BufTy).Contents (Elt F)),
    StableHlo.unary main_v3 main_v234 (broadcastInDim S800000x1 ![0] bcast_S800000_S800000x1_0 : (⟨S800000, .i32⟩ : BufTy).Contents (Elt F) → (⟨S800000x1, .i32⟩ : BufTy).Contents (Elt F)),
    StableHlo.ternary main_v233 main_v234 main_v232 main_v235 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v224 main_v235 main_v236 (addf : (⟨S50000x256, .f32⟩ : BufTy).Contents (Elt F) → (⟨S50000x256, .f32⟩ : BufTy).Contents (Elt F) → (⟨S50000x256, .f32⟩ : BufTy).Contents (Elt F)),
    StableHlo.unary main_arg2 main_v237 ((extractStridedSlice S1x256x256 ![3, 0, 0] · slices_S5x256x256_S1x256x256_3_0_0) : (⟨S5x256x256, .f32⟩ : BufTy).Contents (Elt F) → (⟨S1x256x256, .f32⟩ : BufTy).Contents (Elt F)),
    StableHlo.reshape main_v237 main_v238 rfl shapeCasts_S1x256x256_S256x256,
    StableHlo.binary main_v236 main_v238 main_v239 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v240 ((extractStridedSlice S1x256 ![3, 0] · slices_S5x256_S1x256_3_0) : (⟨S5x256, .f32⟩ : BufTy).Contents (Elt F) → (⟨S1x256, .f32⟩ : BufTy).Contents (Elt F)),
    StableHlo.reshape main_v240 main_v241 rfl shapeCasts_S1x256_S256,
    StableHlo.unary main_v241 main_v242 (broadcastInDim S1x256 ![1] bcast_S256_S1x256_1 : (⟨S256, .f32⟩ : BufTy).Contents (Elt F) → (⟨S1x256, .f32⟩ : BufTy).Contents (Elt F)),
    StableHlo.unary main_v242 main_v243 (broadcastInDim S50000x256 ![0, 1] bcast_S1x256_S50000x256_0_1 : (⟨S1x256, .f32⟩ : BufTy).Contents (Elt F) → (⟨S50000x256, .f32⟩ : BufTy).Contents (Elt F)),
    StableHlo.binary main_v239 main_v243 main_v244 (addf : (⟨S50000x256, .f32⟩ : BufTy).Contents (Elt F) → (⟨S50000x256, .f32⟩ : BufTy).Contents (Elt F) → (⟨S50000x256, .f32⟩ : BufTy).Contents (Elt F)),
    StableHlo.unary main_arg4 main_v245 ((extractStridedSlice S1x256 ![3, 0] · slices_S5x256_S1x256_3_0) : (⟨S5x256, .f32⟩ : BufTy).Contents (Elt F) → (⟨S1x256, .f32⟩ : BufTy).Contents (Elt F)),
    StableHlo.reshape main_v245 main_v246 rfl shapeCasts_S1x256_S256,
    StableHlo.unary main_arg5 main_v247 ((extractStridedSlice S1x256 ![3, 0] · slices_S5x256_S1x256_3_0) : (⟨S5x256, .f32⟩ : BufTy).Contents (Elt F) → (⟨S1x256, .f32⟩ : BufTy).Contents (Elt F)),
    StableHlo.reshape main_v247 main_v248 rfl shapeCasts_S1x256_S256,
    StableHlo.nullary main_cst_37 (constant S_ .f32 0x00000000#32),
    StableHlo.binary main_v244 main_cst_37 main_v249 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_38 (constant S_ .f32 0x47435000#32),
    StableHlo.unary main_cst_38 main_v250 (broadcastInDim S256 ![] bcast_S_S256 : (⟨S_, .f32⟩ : BufTy).Contents (Elt F) → (⟨S256, .f32⟩ : BufTy).Contents (Elt F)),
    StableHlo.binary main_v249 main_v250 main_v251 (Host.divf : (⟨S256, .f32⟩ : BufTy).Contents (Elt F) → (⟨S256, .f32⟩ : BufTy).Contents (Elt F) → (⟨S256, .f32⟩ : BufTy).Contents (Elt F)),
    StableHlo.nullary main_c_39 (constantI S_ 32 0#32),
    StableHlo.TRef.nullary main_call6.cst (constant S_ .f32 0x00000000#32),
    StableHlo.TRef.binary (.of main_v244 : StableHlo.TRef sig ⟨S50000x256, .f32⟩) main_call6.cst main_call6.v0 (fun x v => Host.reduceAdd x v reducesTo_S50000x256_S256_d0 h_S_),
    StableHlo.TRef.unary main_call6.v0 main_call6.v1 (broadcastInDim S1x256 ![1] bcast_S256_S1x256_1),
    StableHlo.TRef.nullary main_call6.cst_0 (constant S_ .f32 0x47435000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S50000x256 ![0, 1] bcast_S1x256_S50000x256_0_1),
    StableHlo.TRef.binary (.of main_v244 : StableHlo.TRef sig ⟨S50000x256, .f32⟩) main_call6.v4 main_call6.v5 subf,
    StableHlo.TRef.binary main_call6.v5 main_call6.v5 main_call6.v6 mulf,
    StableHlo.TRef.unary (.of main_c_39 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v251 main_v253 (broadcastInDim S1x256 ![1] bcast_S256_S1x256_1 : (⟨S256, .f32⟩ : BufTy).Contents (Elt F) → (⟨S1x256, .f32⟩ : BufTy).Contents (Elt F)),
    StableHlo.unary main_v253 main_v254 (broadcastInDim S50000x256 ![0, 1] bcast_S1x256_S50000x256_0_1 : (⟨S1x256, .f32⟩ : BufTy).Contents (Elt F) → (⟨S50000x256, .f32⟩ : BufTy).Contents (Elt F)),
    StableHlo.binary main_v244 main_v254 main_v255 (subf : (⟨S50000x256, .f32⟩ : BufTy).Contents (Elt F) → (⟨S50000x256, .f32⟩ : BufTy).Contents (Elt F) → (⟨S50000x256, .f32⟩ : BufTy).Contents (Elt F)),
    StableHlo.nullary main_cst_40 (constant S_ .f32 0x3727C5AC#32),
    StableHlo.unary main_cst_40 main_v256 (broadcastInDim S256 ![] bcast_S_S256 : (⟨S_, .f32⟩ : BufTy).Contents (Elt F) → (⟨S256, .f32⟩ : BufTy).Contents (Elt F)) ]

/-- The operations of the printed window `main_part5`, its calls unfolded: 81. -/
abbrev win5 : List (HloOp τ sig (Elt F)) :=
  [ StableHlo.binary main_v252 main_v256 main_v257 (addf : (⟨S256, .f32⟩ : BufTy).Contents (Elt F) → (⟨S256, .f32⟩ : BufTy).Contents (Elt F) → (⟨S256, .f32⟩ : BufTy).Contents (Elt F)),
    StableHlo.unary main_v257 main_v258 (Host.rsqrt : (⟨S256, .f32⟩ : BufTy).Contents (Elt F) → (⟨S256, .f32⟩ : BufTy).Contents (Elt F)),
    StableHlo.unary main_v258 main_v259 (broadcastInDim S1x256 ![1] bcast_S256_S1x256_1 : (⟨S256, .f32⟩ : BufTy).Contents (Elt F) → (⟨S1x256, .f32⟩ : BufTy).Contents (Elt F)),
    StableHlo.unary main_v259 main_v260 (broadcastInDim S50000x256 ![0, 1] bcast_S1x256_S50000x256_0_1 : (⟨S1x256, .f32⟩ : BufTy).Contents (Elt F) → (⟨S50000x256, .f32⟩ : BufTy).Contents (Elt F)),
    StableHlo.binary main_v255 main_v260 main_v261 (mulf : (⟨S50000x256, .f32⟩ : BufTy).Contents (Elt F) → (⟨S50000x256, .f32⟩ : BufTy).Contents (Elt F) → (⟨S50000x256, .f32⟩ : BufTy).Contents (Elt F)),
    StableHlo.unary main_v246 main_v262 (broadcastInDim S1x256 ![1] bcast_S256_S1x256_1 : (⟨S256, .f32⟩ : BufTy).Contents (Elt F) → (⟨S1x256, .f32⟩ : BufTy).Contents (Elt F)),
    StableHlo.unary main_v262 main_v263 (broadcastInDim S50000x256 ![0, 1] bcast_S1x256_S50000x256_0_1 : (⟨S1x256, .f32⟩ : BufTy).Contents (Elt F) → (⟨S50000x256, .f32⟩ : BufTy).Contents (Elt F)),
    StableHlo.binary main_v261 main_v263 main_v264 (mulf : (⟨S50000x256, .f32⟩ : BufTy).Contents (Elt F) → (⟨S50000x256, .f32⟩ : BufTy).Contents (Elt F) → (⟨S50000x256, .f32⟩ : BufTy).Contents (Elt F)),
    StableHlo.unary main_v248 main_v265 (broadcastInDim S1x256 ![1] bcast_S256_S1x256_1 : (⟨S256, .f32⟩ : BufTy).Contents (Elt F) → (⟨S1x256, .f32⟩ : BufTy).Contents (Elt F)),
    StableHlo.unary main_v265 main_v266 (broadcastInDim S50000x256 ![0, 1] bcast_S1x256_S50000x256_0_1 : (⟨S1x256, .f32⟩ : BufTy).Contents (Elt F) → (⟨S50000x256, .f32⟩ : BufTy).Contents (Elt F)),
    StableHlo.binary main_v264 main_v266 main_v267 (addf : (⟨S50000x256, .f32⟩ : BufTy).Contents (Elt F) → (⟨S50000x256, .f32⟩ : BufTy).Contents (Elt F) → (⟨S50000x256, .f32⟩ : BufTy).Contents (Elt F)),
    StableHlo.unary main_arg6 main_v268 ((extractStridedSlice S1x256x256 ![3, 0, 0] · slices_S5x256x256_S1x256x256_3_0_0) : (⟨S5x256x256, .f32⟩ : BufTy).Contents (Elt F) → (⟨S1x256x256, .f32⟩ : BufTy).Contents (Elt F)),
    StableHlo.reshape main_v268 main_v269 rfl shapeCasts_S1x256x256_S256x256,
    StableHlo.binary main_v267 main_v269 main_v270 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v271 ((extractStridedSlice S1x256 ![3, 0] · slices_S5x256_S1x256_3_0) : (⟨S5x256, .f32⟩ : BufTy).Contents (Elt F) → (⟨S1x256, .f32⟩ : BufTy).Contents (Elt F)),
    StableHlo.reshape main_v271 main_v272 rfl shapeCasts_S1x256_S256,
    StableHlo.unary main_v272 main_v273 (broadcastInDim S1x256 ![1] bcast_S256_S1x256_1 : (⟨S256, .f32⟩ : BufTy).Contents (Elt F) → (⟨S1x256, .f32⟩ : BufTy).Contents (Elt F)),
    StableHlo.unary main_v273 main_v274 (broadcastInDim S50000x256 ![0, 1] bcast_S1x256_S50000x256_0_1 : (⟨S1x256, .f32⟩ : BufTy).Contents (Elt F) → (⟨S50000x256, .f32⟩ : BufTy).Contents (Elt F)),
    StableHlo.binary main_v270 main_v274 main_v275 (addf : (⟨S50000x256, .f32⟩ : BufTy).Contents (Elt F) → (⟨S50000x256, .f32⟩ : BufTy).Contents (Elt F) → (⟨S50000x256, .f32⟩ : BufTy).Contents (Elt F)),
    StableHlo.unary main_arg8 main_v276 ((extractStridedSlice S1x256 ![3, 0] · slices_S5x256_S1x256_3_0) : (⟨S5x256, .f32⟩ : BufTy).Contents (Elt F) → (⟨S1x256, .f32⟩ : BufTy).Contents (Elt F)),
    StableHlo.reshape main_v276 main_v277 rfl shapeCasts_S1x256_S256,
    StableHlo.unary main_arg9 main_v278 ((extractStridedSlice S1x256 ![3, 0] · slices_S5x256_S1x256_3_0) : (⟨S5x256, .f32⟩ : BufTy).Contents (Elt F) → (⟨S1x256, .f32⟩ : BufTy).Contents (Elt F)),
    StableHlo.reshape main_v278 main_v279 rfl shapeCasts_S1x256_S256,
    StableHlo.nullary main_cst_41 (constant S_ .f32 0x00000000#32),
    StableHlo.binary main_v275 main_cst_41 main_v280 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_42 (constant S_ .f32 0x47435000#32),
    StableHlo.unary main_cst_42 main_v281 (broadcastInDim S256 ![] bcast_S_S256 : (⟨S_, .f32⟩ : BufTy).Contents (Elt F) → (⟨S256, .f32⟩ : BufTy).Contents (Elt F)),
    StableHlo.binary main_v280 main_v281 main_v282 (Host.divf : (⟨S256, .f32⟩ : BufTy).Contents (Elt F) → (⟨S256, .f32⟩ : BufTy).Contents (Elt F) → (⟨S256, .f32⟩ : BufTy).Contents (Elt F)),
    StableHlo.nullary main_c_43 (constantI S_ 32 0#32),
    StableHlo.TRef.nullary main_call7.cst (constant S_ .f32 0x00000000#32),
    StableHlo.TRef.binary (.of main_v275 : StableHlo.TRef sig ⟨S50000x256, .f32⟩) main_call7.cst main_call7.v0 (fun x v => Host.reduceAdd x v reducesTo_S50000x256_S256_d0 h_S_),
    StableHlo.TRef.unary main_call7.v0 main_call7.v1 (broadcastInDim S1x256 ![1] bcast_S256_S1x256_1),
    StableHlo.TRef.nullary main_call7.cst_0 (constant S_ .f32 0x47435000#32),
    StableHlo.TRef.unary main_call7.cst_0 main_call7.v2 (broadcastInDim S1x256 ![] bcast_S_S1x256),
    StableHlo.TRef.binary main_call7.v1 main_call7.v2 main_call7.v3 Host.divf,
    StableHlo.TRef.unary main_call7.v3 main_call7.v4 (broadcastInDim S50000x256 ![0, 1] bcast_S1x256_S50000x256_0_1),
    StableHlo.TRef.binary (.of main_v275 : StableHlo.TRef sig ⟨S50000x256, .f32⟩) main_call7.v4 main_call7.v5 subf,
    StableHlo.TRef.binary main_call7.v5 main_call7.v5 main_call7.v6 mulf,
    StableHlo.TRef.unary (.of main_c_43 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x256_S256_d0 h_S_),
    StableHlo.TRef.unary main_call7.v8 main_call7.v10 (broadcastInDim S256 ![] bcast_S_S256),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S256 ![] bcast_S_S256),
    StableHlo.TRef.ternary main_call7.v12 main_call7.v11 main_call7.call0.v1 main_call7.call0.v2 (fun p a b => select (broadcastInDim S256 ![] bcast_S_S256 p) a b),
    StableHlo.unary main_v282 main_v284 (broadcastInDim S1x256 ![1] bcast_S256_S1x256_1 : (⟨S256, .f32⟩ : BufTy).Contents (Elt F) → (⟨S1x256, .f32⟩ : BufTy).Contents (Elt F)),
    StableHlo.unary main_v284 main_v285 (broadcastInDim S50000x256 ![0, 1] bcast_S1x256_S50000x256_0_1 : (⟨S1x256, .f32⟩ : BufTy).Contents (Elt F) → (⟨S50000x256, .f32⟩ : BufTy).Contents (Elt F)),
    StableHlo.binary main_v275 main_v285 main_v286 (subf : (⟨S50000x256, .f32⟩ : BufTy).Contents (Elt F) → (⟨S50000x256, .f32⟩ : BufTy).Contents (Elt F) → (⟨S50000x256, .f32⟩ : BufTy).Contents (Elt F)),
    StableHlo.nullary main_cst_44 (constant S_ .f32 0x3727C5AC#32),
    StableHlo.unary main_cst_44 main_v287 (broadcastInDim S256 ![] bcast_S_S256 : (⟨S_, .f32⟩ : BufTy).Contents (Elt F) → (⟨S256, .f32⟩ : BufTy).Contents (Elt F)),
    StableHlo.binary main_v283 main_v287 main_v288 (addf : (⟨S256, .f32⟩ : BufTy).Contents (Elt F) → (⟨S256, .f32⟩ : BufTy).Contents (Elt F) → (⟨S256, .f32⟩ : BufTy).Contents (Elt F)),
    StableHlo.unary main_v288 main_v289 (Host.rsqrt : (⟨S256, .f32⟩ : BufTy).Contents (Elt F) → (⟨S256, .f32⟩ : BufTy).Contents (Elt F)),
    StableHlo.unary main_v289 main_v290 (broadcastInDim S1x256 ![1] bcast_S256_S1x256_1 : (⟨S256, .f32⟩ : BufTy).Contents (Elt F) → (⟨S1x256, .f32⟩ : BufTy).Contents (Elt F)),
    StableHlo.unary main_v290 main_v291 (broadcastInDim S50000x256 ![0, 1] bcast_S1x256_S50000x256_0_1 : (⟨S1x256, .f32⟩ : BufTy).Contents (Elt F) → (⟨S50000x256, .f32⟩ : BufTy).Contents (Elt F)),
    StableHlo.binary main_v286 main_v291 main_v292 (mulf : (⟨S50000x256, .f32⟩ : BufTy).Contents (Elt F) → (⟨S50000x256, .f32⟩ : BufTy).Contents (Elt F) → (⟨S50000x256, .f32⟩ : BufTy).Contents (Elt F)),
    StableHlo.unary main_v277 main_v293 (broadcastInDim S1x256 ![1] bcast_S256_S1x256_1 : (⟨S256, .f32⟩ : BufTy).Contents (Elt F) → (⟨S1x256, .f32⟩ : BufTy).Contents (Elt F)),
    StableHlo.unary main_v293 main_v294 (broadcastInDim S50000x256 ![0, 1] bcast_S1x256_S50000x256_0_1 : (⟨S1x256, .f32⟩ : BufTy).Contents (Elt F) → (⟨S50000x256, .f32⟩ : BufTy).Contents (Elt F)),
    StableHlo.binary main_v292 main_v294 main_v295 (mulf : (⟨S50000x256, .f32⟩ : BufTy).Contents (Elt F) → (⟨S50000x256, .f32⟩ : BufTy).Contents (Elt F) → (⟨S50000x256, .f32⟩ : BufTy).Contents (Elt F)),
    StableHlo.unary main_v279 main_v296 (broadcastInDim S1x256 ![1] bcast_S256_S1x256_1 : (⟨S256, .f32⟩ : BufTy).Contents (Elt F) → (⟨S1x256, .f32⟩ : BufTy).Contents (Elt F)),
    StableHlo.unary main_v296 main_v297 (broadcastInDim S50000x256 ![0, 1] bcast_S1x256_S50000x256_0_1 : (⟨S1x256, .f32⟩ : BufTy).Contents (Elt F) → (⟨S50000x256, .f32⟩ : BufTy).Contents (Elt F)),
    StableHlo.binary main_v295 main_v297 main_v298 (addf : (⟨S50000x256, .f32⟩ : BufTy).Contents (Elt F) → (⟨S50000x256, .f32⟩ : BufTy).Contents (Elt F) → (⟨S50000x256, .f32⟩ : BufTy).Contents (Elt F)),
    StableHlo.nullary main_cst_45 (constant S_ .f32 0x00000000#32),
    StableHlo.binary main_v298 main_cst_45 main_v299 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_c_46 (constantI S_ 32 0#32),
    StableHlo.unary main_c_46 main_v300 (broadcastInDim S800000 ![] bcast_S_S800000 : (⟨S_, .i32⟩ : BufTy).Contents (Elt F) → (⟨S800000, .i32⟩ : BufTy).Contents (Elt F)),
    StableHlo.binary main_v1 main_v300 main_v301 (cmpi .slt : (⟨S800000, .i32⟩ : BufTy).Contents (Elt F) → (⟨S800000, .i32⟩ : BufTy).Contents (Elt F) → (⟨S800000, .i1⟩ : BufTy).Contents (Elt F)),
    StableHlo.nullary main_c_47 (constantI S_ 32 50000#32),
    StableHlo.unary main_c_47 main_v302 (broadcastInDim S800000 ![] bcast_S_S800000 : (⟨S_, .i32⟩ : BufTy).Contents (Elt F) → (⟨S800000, .i32⟩ : BufTy).Contents (Elt F)),
    StableHlo.binary main_v1 main_v302 main_v303 (addi : (⟨S800000, .i32⟩ : BufTy).Contents (Elt F) → (⟨S800000, .i32⟩ : BufTy).Contents (Elt F) → (⟨S800000, .i32⟩ : BufTy).Contents (Elt F)),
    StableHlo.ternary main_v301 main_v303 main_v1 main_v304 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v304 main_v305 (broadcastInDim S800000x1 ![0] bcast_S800000_S800000x1_0 : (⟨S800000, .i32⟩ : BufTy).Contents (Elt F) → (⟨S800000x1, .i32⟩ : BufTy).Contents (Elt F)),
    StableHlo.binary main_v298 main_v305 main_v306 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_48 (constant S_ .f32 0x00000000#32),
    StableHlo.unary main_cst_48 main_v307 (broadcastInDim S50000x256 ![] bcast_S_S50000x256 : (⟨S_, .f32⟩ : BufTy).Contents (Elt F) → (⟨S50000x256, .f32⟩ : BufTy).Contents (Elt F)),
    StableHlo.unary main_v3 main_v308 (broadcastInDim S800000x1 ![0] bcast_S800000_S800000x1_0 : (⟨S800000, .i32⟩ : BufTy).Contents (Elt F) → (⟨S800000x1, .i32⟩ : BufTy).Contents (Elt F)) ]

/-- The operations of the printed window `main_part6`, its calls unfolded: 102. -/
abbrev win6 : List (HloOp τ sig (Elt F)) :=
  [ StableHlo.ternary main_v307 main_v308 main_v306 main_v309 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v298 main_v309 main_v310 (addf : (⟨S50000x256, .f32⟩ : BufTy).Contents (Elt F) → (⟨S50000x256, .f32⟩ : BufTy).Contents (Elt F) → (⟨S50000x256, .f32⟩ : BufTy).Contents (Elt F)),
    StableHlo.unary main_arg2 main_v311 ((extractStridedSlice S1x256x256 ![4, 0, 0] · slices_S5x256x256_S1x256x256_4_0_0) : (⟨S5x256x256, .f32⟩ : BufTy).Contents (Elt F) → (⟨S1x256x256, .f32⟩ : BufTy).Contents (Elt F)),
    StableHlo.reshape main_v311 main_v312 rfl shapeCasts_S1x256x256_S256x256,
    StableHlo.binary main_v310 main_v312 main_v313 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v314 ((extractStridedSlice S1x256 ![4, 0] · slices_S5x256_S1x256_4_0) : (⟨S5x256, .f32⟩ : BufTy).Contents (Elt F) → (⟨S1x256, .f32⟩ : BufTy).Contents (Elt F)),
    StableHlo.reshape main_v314 main_v315 rfl shapeCasts_S1x256_S256,
    StableHlo.unary main_v315 main_v316 (broadcastInDim S1x256 ![1] bcast_S256_S1x256_1 : (⟨S256, .f32⟩ : BufTy).Contents (Elt F) → (⟨S1x256, .f32⟩ : BufTy).Contents (Elt F)),
    StableHlo.unary main_v316 main_v317 (broadcastInDim S50000x256 ![0, 1] bcast_S1x256_S50000x256_0_1 : (⟨S1x256, .f32⟩ : BufTy).Contents (Elt F) → (⟨S50000x256, .f32⟩ : BufTy).Contents (Elt F)),
    StableHlo.binary main_v313 main_v317 main_v318 (addf : (⟨S50000x256, .f32⟩ : BufTy).Contents (Elt F) → (⟨S50000x256, .f32⟩ : BufTy).Contents (Elt F) → (⟨S50000x256, .f32⟩ : BufTy).Contents (Elt F)),
    StableHlo.unary main_arg4 main_v319 ((extractStridedSlice S1x256 ![4, 0] · slices_S5x256_S1x256_4_0) : (⟨S5x256, .f32⟩ : BufTy).Contents (Elt F) → (⟨S1x256, .f32⟩ : BufTy).Contents (Elt F)),
    StableHlo.reshape main_v319 main_v320 rfl shapeCasts_S1x256_S256,
    StableHlo.unary main_arg5 main_v321 ((extractStridedSlice S1x256 ![4, 0] · slices_S5x256_S1x256_4_0) : (⟨S5x256, .f32⟩ : BufTy).Contents (Elt F) → (⟨S1x256, .f32⟩ : BufTy).Contents (Elt F)),
    StableHlo.reshape main_v321 main_v322 rfl shapeCasts_S1x256_S256,
    StableHlo.nullary main_cst_49 (constant S_ .f32 0x00000000#32),
    StableHlo.binary main_v318 main_cst_49 main_v323 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_50 (constant S_ .f32 0x47435000#32),
    StableHlo.unary main_cst_50 main_v324 (broadcastInDim S256 ![] bcast_S_S256 : (⟨S_, .f32⟩ : BufTy).Contents (Elt F) → (⟨S256, .f32⟩ : BufTy).Contents (Elt F)),
    StableHlo.binary main_v323 main_v324 main_v325 (Host.divf : (⟨S256, .f32⟩ : BufTy).Contents (Elt F) → (⟨S256, .f32⟩ : BufTy).Contents (Elt F) → (⟨S256, .f32⟩ : BufTy).Contents (Elt F)),
    StableHlo.nullary main_c_51 (constantI S_ 32 0#32),
    StableHlo.TRef.nullary main_call8.cst (constant S_ .f32 0x00000000#32),
    StableHlo.TRef.binary (.of main_v318 : StableHlo.TRef sig ⟨S50000x256, .f32⟩) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v318 : StableHlo.TRef sig ⟨S50000x256, .f32⟩) main_call8.v4 main_call8.v5 subf,
    StableHlo.TRef.binary main_call8.v5 main_call8.v5 main_call8.v6 mulf,
    StableHlo.TRef.unary (.of main_c_51 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v325 main_v327 (broadcastInDim S1x256 ![1] bcast_S256_S1x256_1 : (⟨S256, .f32⟩ : BufTy).Contents (Elt F) → (⟨S1x256, .f32⟩ : BufTy).Contents (Elt F)),
    StableHlo.unary main_v327 main_v328 (broadcastInDim S50000x256 ![0, 1] bcast_S1x256_S50000x256_0_1 : (⟨S1x256, .f32⟩ : BufTy).Contents (Elt F) → (⟨S50000x256, .f32⟩ : BufTy).Contents (Elt F)),
    StableHlo.binary main_v318 main_v328 main_v329 (subf : (⟨S50000x256, .f32⟩ : BufTy).Contents (Elt F) → (⟨S50000x256, .f32⟩ : BufTy).Contents (Elt F) → (⟨S50000x256, .f32⟩ : BufTy).Contents (Elt F)),
    StableHlo.nullary main_cst_52 (constant S_ .f32 0x3727C5AC#32),
    StableHlo.unary main_cst_52 main_v330 (broadcastInDim S256 ![] bcast_S_S256 : (⟨S_, .f32⟩ : BufTy).Contents (Elt F) → (⟨S256, .f32⟩ : BufTy).Contents (Elt F)),
    StableHlo.binary main_v326 main_v330 main_v331 (addf : (⟨S256, .f32⟩ : BufTy).Contents (Elt F) → (⟨S256, .f32⟩ : BufTy).Contents (Elt F) → (⟨S256, .f32⟩ : BufTy).Contents (Elt F)),
    StableHlo.unary main_v331 main_v332 (Host.rsqrt : (⟨S256, .f32⟩ : BufTy).Contents (Elt F) → (⟨S256, .f32⟩ : BufTy).Contents (Elt F)),
    StableHlo.unary main_v332 main_v333 (broadcastInDim S1x256 ![1] bcast_S256_S1x256_1 : (⟨S256, .f32⟩ : BufTy).Contents (Elt F) → (⟨S1x256, .f32⟩ : BufTy).Contents (Elt F)),
    StableHlo.unary main_v333 main_v334 (broadcastInDim S50000x256 ![0, 1] bcast_S1x256_S50000x256_0_1 : (⟨S1x256, .f32⟩ : BufTy).Contents (Elt F) → (⟨S50000x256, .f32⟩ : BufTy).Contents (Elt F)),
    StableHlo.binary main_v329 main_v334 main_v335 (mulf : (⟨S50000x256, .f32⟩ : BufTy).Contents (Elt F) → (⟨S50000x256, .f32⟩ : BufTy).Contents (Elt F) → (⟨S50000x256, .f32⟩ : BufTy).Contents (Elt F)),
    StableHlo.unary main_v320 main_v336 (broadcastInDim S1x256 ![1] bcast_S256_S1x256_1 : (⟨S256, .f32⟩ : BufTy).Contents (Elt F) → (⟨S1x256, .f32⟩ : BufTy).Contents (Elt F)),
    StableHlo.unary main_v336 main_v337 (broadcastInDim S50000x256 ![0, 1] bcast_S1x256_S50000x256_0_1 : (⟨S1x256, .f32⟩ : BufTy).Contents (Elt F) → (⟨S50000x256, .f32⟩ : BufTy).Contents (Elt F)),
    StableHlo.binary main_v335 main_v337 main_v338 (mulf : (⟨S50000x256, .f32⟩ : BufTy).Contents (Elt F) → (⟨S50000x256, .f32⟩ : BufTy).Contents (Elt F) → (⟨S50000x256, .f32⟩ : BufTy).Contents (Elt F)),
    StableHlo.unary main_v322 main_v339 (broadcastInDim S1x256 ![1] bcast_S256_S1x256_1 : (⟨S256, .f32⟩ : BufTy).Contents (Elt F) → (⟨S1x256, .f32⟩ : BufTy).Contents (Elt F)),
    StableHlo.unary main_v339 main_v340 (broadcastInDim S50000x256 ![0, 1] bcast_S1x256_S50000x256_0_1 : (⟨S1x256, .f32⟩ : BufTy).Contents (Elt F) → (⟨S50000x256, .f32⟩ : BufTy).Contents (Elt F)),
    StableHlo.binary main_v338 main_v340 main_v341 (addf : (⟨S50000x256, .f32⟩ : BufTy).Contents (Elt F) → (⟨S50000x256, .f32⟩ : BufTy).Contents (Elt F) → (⟨S50000x256, .f32⟩ : BufTy).Contents (Elt F)),
    StableHlo.unary main_arg6 main_v342 ((extractStridedSlice S1x256x256 ![4, 0, 0] · slices_S5x256x256_S1x256x256_4_0_0) : (⟨S5x256x256, .f32⟩ : BufTy).Contents (Elt F) → (⟨S1x256x256, .f32⟩ : BufTy).Contents (Elt F)),
    StableHlo.reshape main_v342 main_v343 rfl shapeCasts_S1x256x256_S256x256,
    StableHlo.binary main_v341 main_v343 main_v344 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v345 ((extractStridedSlice S1x256 ![4, 0] · slices_S5x256_S1x256_4_0) : (⟨S5x256, .f32⟩ : BufTy).Contents (Elt F) → (⟨S1x256, .f32⟩ : BufTy).Contents (Elt F)),
    StableHlo.reshape main_v345 main_v346 rfl shapeCasts_S1x256_S256,
    StableHlo.unary main_v346 main_v347 (broadcastInDim S1x256 ![1] bcast_S256_S1x256_1 : (⟨S256, .f32⟩ : BufTy).Contents (Elt F) → (⟨S1x256, .f32⟩ : BufTy).Contents (Elt F)),
    StableHlo.unary main_v347 main_v348 (broadcastInDim S50000x256 ![0, 1] bcast_S1x256_S50000x256_0_1 : (⟨S1x256, .f32⟩ : BufTy).Contents (Elt F) → (⟨S50000x256, .f32⟩ : BufTy).Contents (Elt F)),
    StableHlo.binary main_v344 main_v348 main_v349 (addf : (⟨S50000x256, .f32⟩ : BufTy).Contents (Elt F) → (⟨S50000x256, .f32⟩ : BufTy).Contents (Elt F) → (⟨S50000x256, .f32⟩ : BufTy).Contents (Elt F)),
    StableHlo.unary main_arg8 main_v350 ((extractStridedSlice S1x256 ![4, 0] · slices_S5x256_S1x256_4_0) : (⟨S5x256, .f32⟩ : BufTy).Contents (Elt F) → (⟨S1x256, .f32⟩ : BufTy).Contents (Elt F)),
    StableHlo.reshape main_v350 main_v351 rfl shapeCasts_S1x256_S256,
    StableHlo.unary main_arg9 main_v352 ((extractStridedSlice S1x256 ![4, 0] · slices_S5x256_S1x256_4_0) : (⟨S5x256, .f32⟩ : BufTy).Contents (Elt F) → (⟨S1x256, .f32⟩ : BufTy).Contents (Elt F)),
    StableHlo.reshape main_v352 main_v353 rfl shapeCasts_S1x256_S256,
    StableHlo.nullary main_cst_53 (constant S_ .f32 0x00000000#32),
    StableHlo.binary main_v349 main_cst_53 main_v354 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_54 (constant S_ .f32 0x47435000#32),
    StableHlo.unary main_cst_54 main_v355 (broadcastInDim S256 ![] bcast_S_S256 : (⟨S_, .f32⟩ : BufTy).Contents (Elt F) → (⟨S256, .f32⟩ : BufTy).Contents (Elt F)),
    StableHlo.binary main_v354 main_v355 main_v356 (Host.divf : (⟨S256, .f32⟩ : BufTy).Contents (Elt F) → (⟨S256, .f32⟩ : BufTy).Contents (Elt F) → (⟨S256, .f32⟩ : BufTy).Contents (Elt F)),
    StableHlo.nullary main_c_55 (constantI S_ 32 0#32),
    StableHlo.TRef.nullary main_call9.cst (constant S_ .f32 0x00000000#32),
    StableHlo.TRef.binary (.of main_v349 : StableHlo.TRef sig ⟨S50000x256, .f32⟩) main_call9.cst main_call9.v0 (fun x v => Host.reduceAdd x v reducesTo_S50000x256_S256_d0 h_S_),
    StableHlo.TRef.unary main_call9.v0 main_call9.v1 (broadcastInDim S1x256 ![1] bcast_S256_S1x256_1),
    StableHlo.TRef.nullary main_call9.cst_0 (constant S_ .f32 0x47435000#32),
    StableHlo.TRef.unary main_call9.cst_0 main_call9.v2 (broadcastInDim S1x256 ![] bcast_S_S1x256),
    StableHlo.TRef.binary main_call9.v1 main_call9.v2 main_call9.v3 Host.divf,
    StableHlo.TRef.unary main_call9.v3 main_call9.v4 (broadcastInDim S50000x256 ![0, 1] bcast_S1x256_S50000x256_0_1),
    StableHlo.TRef.binary (.of main_v349 : StableHlo.TRef sig ⟨S50000x256, .f32⟩) main_call9.v4 main_call9.v5 subf,
    StableHlo.TRef.binary main_call9.v5 main_call9.v5 main_call9.v6 mulf,
    StableHlo.TRef.unary (.of main_c_55 : StableHlo.TRef sig ⟨S_, .i32⟩) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x256_S256_d0 h_S_),
    StableHlo.TRef.unary main_call9.v8 main_call9.v10 (broadcastInDim S256 ![] bcast_S_S256),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S256 ![] bcast_S_S256),
    StableHlo.TRef.ternary main_call9.v12 main_call9.v11 main_call9.call0.v1 main_call9.call0.v2 (fun p a b => select (broadcastInDim S256 ![] bcast_S_S256 p) a b),
    StableHlo.unary main_v356 main_v358 (broadcastInDim S1x256 ![1] bcast_S256_S1x256_1 : (⟨S256, .f32⟩ : BufTy).Contents (Elt F) → (⟨S1x256, .f32⟩ : BufTy).Contents (Elt F)),
    StableHlo.unary main_v358 main_v359 (broadcastInDim S50000x256 ![0, 1] bcast_S1x256_S50000x256_0_1 : (⟨S1x256, .f32⟩ : BufTy).Contents (Elt F) → (⟨S50000x256, .f32⟩ : BufTy).Contents (Elt F)),
    StableHlo.binary main_v349 main_v359 main_v360 (subf : (⟨S50000x256, .f32⟩ : BufTy).Contents (Elt F) → (⟨S50000x256, .f32⟩ : BufTy).Contents (Elt F) → (⟨S50000x256, .f32⟩ : BufTy).Contents (Elt F)),
    StableHlo.nullary main_cst_56 (constant S_ .f32 0x3727C5AC#32) ]

/-- The operations of the printed window `main_part7`, its calls unfolded: 19. -/
abbrev win7 : List (HloOp τ sig (Elt F)) :=
  [ StableHlo.unary main_cst_56 main_v361 (broadcastInDim S256 ![] bcast_S_S256 : (⟨S_, .f32⟩ : BufTy).Contents (Elt F) → (⟨S256, .f32⟩ : BufTy).Contents (Elt F)),
    StableHlo.binary main_v357 main_v361 main_v362 (addf : (⟨S256, .f32⟩ : BufTy).Contents (Elt F) → (⟨S256, .f32⟩ : BufTy).Contents (Elt F) → (⟨S256, .f32⟩ : BufTy).Contents (Elt F)),
    StableHlo.unary main_v362 main_v363 (Host.rsqrt : (⟨S256, .f32⟩ : BufTy).Contents (Elt F) → (⟨S256, .f32⟩ : BufTy).Contents (Elt F)),
    StableHlo.unary main_v363 main_v364 (broadcastInDim S1x256 ![1] bcast_S256_S1x256_1 : (⟨S256, .f32⟩ : BufTy).Contents (Elt F) → (⟨S1x256, .f32⟩ : BufTy).Contents (Elt F)),
    StableHlo.unary main_v364 main_v365 (broadcastInDim S50000x256 ![0, 1] bcast_S1x256_S50000x256_0_1 : (⟨S1x256, .f32⟩ : BufTy).Contents (Elt F) → (⟨S50000x256, .f32⟩ : BufTy).Contents (Elt F)),
    StableHlo.binary main_v360 main_v365 main_v366 (mulf : (⟨S50000x256, .f32⟩ : BufTy).Contents (Elt F) → (⟨S50000x256, .f32⟩ : BufTy).Contents (Elt F) → (⟨S50000x256, .f32⟩ : BufTy).Contents (Elt F)),
    StableHlo.unary main_v351 main_v367 (broadcastInDim S1x256 ![1] bcast_S256_S1x256_1 : (⟨S256, .f32⟩ : BufTy).Contents (Elt F) → (⟨S1x256, .f32⟩ : BufTy).Contents (Elt F)),
    StableHlo.unary main_v367 main_v368 (broadcastInDim S50000x256 ![0, 1] bcast_S1x256_S50000x256_0_1 : (⟨S1x256, .f32⟩ : BufTy).Contents (Elt F) → (⟨S50000x256, .f32⟩ : BufTy).Contents (Elt F)),
    StableHlo.binary main_v366 main_v368 main_v369 (mulf : (⟨S50000x256, .f32⟩ : BufTy).Contents (Elt F) → (⟨S50000x256, .f32⟩ : BufTy).Contents (Elt F) → (⟨S50000x256, .f32⟩ : BufTy).Contents (Elt F)),
    StableHlo.unary main_v353 main_v370 (broadcastInDim S1x256 ![1] bcast_S256_S1x256_1 : (⟨S256, .f32⟩ : BufTy).Contents (Elt F) → (⟨S1x256, .f32⟩ : BufTy).Contents (Elt F)),
    StableHlo.unary main_v370 main_v371 (broadcastInDim S50000x256 ![0, 1] bcast_S1x256_S50000x256_0_1 : (⟨S1x256, .f32⟩ : BufTy).Contents (Elt F) → (⟨S50000x256, .f32⟩ : BufTy).Contents (Elt F)),
    StableHlo.binary main_v369 main_v371 main_v372 (addf : (⟨S50000x256, .f32⟩ : BufTy).Contents (Elt F) → (⟨S50000x256, .f32⟩ : BufTy).Contents (Elt F) → (⟨S50000x256, .f32⟩ : BufTy).Contents (Elt F)),
    StableHlo.nullary main_cst_57 (constant S_ .f32 0x00000000#32),
    StableHlo.binary main_v372 main_cst_57 main_v373 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nary ![main_v77, main_v151, main_v225, main_v299, main_v373] main_v374 (fun u => concatenate S1280 0 [⟨S256, u 0⟩, ⟨S256, u 1⟩, ⟨S256, u 2⟩, ⟨S256, u 3⟩, ⟨S256, u 4⟩] concatenates_S256_S256_S256_S256_S256_S1280_d0),
    StableHlo.unary main_v374 main_v375 (broadcastInDim S1x1280 ![1] bcast_S1280_S1x1280_1 : (⟨S1280, .f32⟩ : BufTy).Contents (Elt F) → (⟨S1x1280, .f32⟩ : BufTy).Contents (Elt F)),
    StableHlo.binary main_v375 main_arg10 main_v376 ((fun l r => Host.dotGeneral dot_S1x1280_S1280x10_S1x10_1_0_0_1_n_n none l r) : (⟨S1x1280, .f32⟩ : BufTy).Contents (Elt F) → (⟨S1280x10, .f32⟩ : BufTy).Contents (Elt F) → (⟨S1x10, .f32⟩ : BufTy).Contents (Elt F)),
    StableHlo.unary main_arg11 main_v377 (broadcastInDim S1x10 ![1] bcast_S10_S1x10_1 : (⟨S10, .f32⟩ : BufTy).Contents (Elt F) → (⟨S1x10, .f32⟩ : BufTy).Contents (Elt F)),
    StableHlo.binary main_v376 main_v377 main_v378 (addf : (⟨S1x10, .f32⟩ : BufTy).Contents (Elt F) → (⟨S1x10, .f32⟩ : BufTy).Contents (Elt F) → (⟨S1x10, .f32⟩ : BufTy).Contents (Elt F)) ]

/-- The windows one after the other. -/
abbrev wins : List (HloOp τ sig (Elt F)) := win0 ++ (win1 ++ (win2 ++ (win3 ++ (win4 ++ (win5 ++ (win6 ++ (win7)))))))

end Cert.ReferenceIdeal.Hand

end
-- ==== Proof.RI.Run.lean ====
import proofs.«102822_j3521873183180_1_alg».proof.Proof.RI.Ops
import proofs.«102822_j3521873183180_1_alg».proof.Proof.RI.Windows

/-!
# The run of the reference program

The reference is a host program: no kernel, 649 host operations in a straight line once its ten calls of
`@_var` (each with its inner `@_where`) are unfolded at their call sites. It is printed in eight windows; each
window is the straight line of its own operations (`main_partK_eq`), the windows' operations one after the other
are the layers' operations one after the other (`wins_eq`), so the whole program is `seq ops` (`main_eq`).
Every operation touches TensorCore references only, determines what it writes, and writes one buffer that is
not an argument (`HostStep`), so the program runs to its end from any memory, the result buffer ends at the fold
of the operations over the launch contents, and the twelve arguments end as they started (`run`, `frame`).
-/

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program is the straight line of its operations -/

-- a window is a chain of some hundred binds: unfolding it against `seq` of its list recurses once per operation
set_option maxRecDepth 8192 in
theorem main_part0_eq (c : Dev nD) : main_part0 (F := F) c = seq win0 := rfl
set_option maxRecDepth 8192 in
theorem main_part1_eq (c : Dev nD) : main_part1 (F := F) c = seq win1 := rfl
set_option maxRecDepth 8192 in
theorem main_part2_eq (c : Dev nD) : main_part2 (F := F) c = seq win2 := rfl
set_option maxRecDepth 8192 in
theorem main_part3_eq (c : Dev nD) : main_part3 (F := F) c = seq win3 := rfl
set_option maxRecDepth 8192 in
theorem main_part4_eq (c : Dev nD) : main_part4 (F := F) c = seq win4 := rfl
set_option maxRecDepth 8192 in
theorem main_part5_eq (c : Dev nD) : main_part5 (F := F) c = seq win5 := rfl
set_option maxRecDepth 8192 in
theorem main_part6_eq (c : Dev nD) : main_part6 (F := F) c = seq win6 := rfl
set_option maxRecDepth 8192 in
theorem main_part7_eq (c : Dev nD) : main_part7 (F := F) c = seq win7 := rfl

set_option maxRecDepth 16384 in
/-- Cut by window or cut by layer, the operations in order are the same 649. -/
theorem wins_eq : (wins : List (HloOp τ sig (Elt F))) = ops := rfl

/-- `@main` runs its eight windows in order; each is the line of its operations, and lines run one after the
    other are the line of the concatenation (`seq_append`). -/
theorem main_eq (c : Dev nD) : main (F := F) c = seq ops := by
  rw [← wins_eq]
  simp only [wins, seq_append, ← main_part0_eq c, ← main_part1_eq c, ← main_part2_eq c, ← main_part3_eq c,
    ← main_part4_eq c, ← main_part5_eq c, ← main_part6_eq c, ← main_part7_eq c]
  rfl

/-! ## No scoped buffer, no scoped semaphore -/

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

/-! ## Each operation, one by one -/

/-- The twelve arguments of the program. -/
abbrev args : List (Ref sig .tc) :=
  [main_arg0, main_arg1, main_arg2, main_arg3, main_arg4, main_arg5, main_arg6, main_arg7, main_arg8, main_arg9,
    main_arg10, main_arg11]

/-- What the run asks of one operation: it touches TensorCore references only, it determines everything it
    writes, and it writes none of the arguments. -/
structure HostStep (op : HloOp τ sig (Elt F)) : Prop where
  sub : op.bufs ⊆ tcRefs τ sig
  fresh : op.fresh = ∅
  keeps : ∀ r ∈ args, Proc.devRef (τ := τ) .tc r ∉ op.writes

/-- An operation whose one written buffer is the reference `y`, and `y` is not an argument. -/
theorem HostStep.of {op : HloOp τ sig (Elt F)} (y : Ref sig .tc) (hs : op.bufs ⊆ tcRefs τ sig) (hf : op.fresh = ∅)
    (hw : op.writes = {Proc.devRef .tc y}) (hy : y ∉ args) : HostStep op :=
  ⟨hs, hf, fun r hr hmem => by
    rw [hw, Finset.mem_singleton] at hmem
    exact hy (Proc.devRef_injective _ hmem ▸ hr)⟩

/-- One operation of a literal list: its buffers by the builder's own lemma, `fresh` and `writes` by computation,
    the written reference told apart from the twelve arguments by deciding equality of references. -/
local macro "host_step" : tactic =>
  `(tactic| exact HostStep.of _
      (by simp only [↓ nullary_bufs_sub, ↓ unary_bufs_sub, ↓ binary_bufs_sub, ↓ ternary_bufs_sub, ↓ reshape_bufs_sub,
        ↓ nary_bufs_sub])
      rfl rfl (by decide))
/-- Every operation of a literal list, in order. -/
local macro "host_steps" : tactic => `(tactic| repeat (first | host_step | (refine ⟨?_, ?_⟩; host_step)))

theorem opsPre_steps : (opsPre : List (HloOp τ sig (Elt F))).Forall HostStep := by host_steps
set_option maxRecDepth 8192 in
theorem opsL0_steps : (opsL0 : List (HloOp τ sig (Elt F))).Forall HostStep := by host_steps
set_option maxRecDepth 8192 in
theorem opsL1_steps : (opsL1 : List (HloOp τ sig (Elt F))).Forall HostStep := by host_steps
set_option maxRecDepth 8192 in
theorem opsL2_steps : (opsL2 : List (HloOp τ sig (Elt F))).Forall HostStep := by host_steps
set_option maxRecDepth 8192 in
theorem opsL3_steps : (opsL3 : List (HloOp τ sig (Elt F))).Forall HostStep := by host_steps
set_option maxRecDepth 8192 in
theorem opsL4_steps : (opsL4 : List (HloOp τ sig (Elt F))).Forall HostStep := by host_steps
theorem opsPost_steps : (opsPost : List (HloOp τ sig (Elt F))).Forall HostStep := by host_steps

/-- What holds of every element of two lists holds of every element of their concatenation. -/
theorem forall_mem_append {α : Type} {p : α → Prop} {l₁ l₂ : List α} (h₁ : l₁.Forall p) (h₂ : ∀ x ∈ l₂, p x) :
    ∀ x ∈ l₁ ++ l₂, p x :=
  fun x hx => (List.mem_append.mp hx).elim (List.forall_iff_forall_mem.mp h₁ x) (h₂ x)

/-- Every operation of the program. -/
theorem ops_steps : ∀ op ∈ (ops : List (HloOp τ sig (Elt F))), HostStep op := by
  intro op hop
  rcases List.mem_append.mp hop with hop | h
  rcases List.mem_append.mp hop with hop | h
  rcases List.mem_append.mp hop with hop | h
  rcases List.mem_append.mp hop with hop | h
  rcases List.mem_append.mp hop with hop | h
  rcases List.mem_append.mp hop with hop | h
  · exact List.forall_iff_forall_mem.mp opsPre_steps op hop
  · exact List.forall_iff_forall_mem.mp opsL0_steps op h
  · exact List.forall_iff_forall_mem.mp opsL1_steps op h
  · exact List.forall_iff_forall_mem.mp opsL2_steps op h
  · exact List.forall_iff_forall_mem.mp opsL3_steps op h
  · exact List.forall_iff_forall_mem.mp opsL4_steps op h
  · exact List.forall_iff_forall_mem.mp opsPost_steps op h

theorem ops_sub : (ops : List (HloOp τ sig (Elt F))).Forall fun op => op.bufs ⊆ tcRefs τ sig :=
  List.forall_iff_forall_mem.mpr fun op hop => (ops_steps op hop).sub

/-- No operation writes an argument: its buffer holds after the program what it held before. -/
theorem arg_kept (V : Valuation τ sig (Elt F)) (r : Ref sig .tc) (hr : r ∈ args) :
    after ops V (Proc.devRef .tc r) = V (Proc.devRef .tc r) :=
  after_of_forall_not_mem ops V fun op hop => (ops_steps op hop).keeps r hr

/-! ## The fold, layer by layer -/

/-- The fold over two lists one after the other is the fold over the second from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The buffers after the program: the shared index rows, then the five layers in order, then the readout. -/
theorem after_ops (V : Valuation τ sig (Elt F)) :
    after ops V
      = after opsPost (after opsL4 (after opsL3 (after opsL2 (after opsL1 (after opsL0 (after opsPre V)))))) := by
  simp only [ops, after_app]

/-! ## The run -/

/-- On every device, for any float values, from any memory with zero counters: every weakly fair execution of
    `@main` terminates, the result buffer at the fold of the 649 operations over the launch contents, the twelve
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v378) = after ops (launchContents m c) (Proc.devRef .tc main_v378)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v378,
      (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide))⟩)
    (run_seq scopedRefs_eq scopedSems_eq defs main (fun _ => ops) main_eq (fun _ => ops_sub) m ρ
      (fun _ op hop => (ops_steps op hop).fresh))

/-- The program runs to its end, nothing faulting, and leaves its arguments as they were. -/
theorem frame (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m g)

end Cert.ReferenceIdeal.Hand

end
-- ==== Proof.KI.ChainKeep.lean ====
/-
  What stays put along the run of the idealized kernel program. Three kinds of buffer are read long after they were
  written: the parameter arrays (never written: at every region's exit they hold the launch contents), the two rows of
  the edge list as vectors (written by the first stretch of host operations, read again by the first stretch of each
  later layer), and each of the first four layers' readouts as a vector (written by the first stretch of the next
  layer, read by the last stretch of all). Each fact is the chain of the per-region facts "a reference that the stretch
  does not write and that is no window's array in the region holds at the region's exit what it held before the stretch".
-/
import proofs.«102822_j3521873183180_1_alg».proof.Proof.KI.Data

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (ρ : Dev nD → PrngReg) (c : Dev nD)

/-! ## The parameter arrays -/

theorem untouched_main_arg2 : Untouched main_arg2 := by decide
theorem untouched_main_arg3 : Untouched main_arg3 := by decide
theorem untouched_main_arg4 : Untouched main_arg4 := by decide
theorem untouched_main_arg5 : Untouched main_arg5 := by decide
theorem untouched_main_arg6 : Untouched main_arg6 := by decide
theorem untouched_main_arg7 : Untouched main_arg7 := by decide
theorem untouched_main_arg8 : Untouched main_arg8 := by decide
theorem untouched_main_arg9 : Untouched main_arg9 := by decide
theorem untouched_main_arg10 : Untouched main_arg10 := by decide
theorem untouched_main_arg11 : Untouched main_arg11 := by decide

/-- A reference nothing touches holds the launch contents at every region's exit: region by region, each with the stretch
    that leads into it. -/
theorem W2_param (r : Ref sig .tc) (h : Untouched r) : W2 m ρ c (Proc.devRef .tc r) = m ((c : Thread nD τ).loc r) :=
  W2_keep m ρ c r h.1.1 h.1.2
theorem W4_param (r : Ref sig .tc) (h : Untouched r) : W4 m ρ c (Proc.devRef .tc r) = m ((c : Thread nD τ).loc r) :=
  (W4_keep m ρ c r h.2.1.1 h.2.1.2).trans (W2_param m ρ c r h)
theorem W6_param (r : Ref sig .tc) (h : Untouched r) : W6 m ρ c (Proc.devRef .tc r) = m ((c : Thread nD τ).loc r) :=
  (W6_keep m ρ c r h.2.2.1.1 h.2.2.1.2).trans (W4_param m ρ c r h)
theorem W8_param (r : Ref sig .tc) (h : Untouched r) : W8 m ρ c (Proc.devRef .tc r) = m ((c : Thread nD τ).loc r) :=
  (W8_keep m ρ c r h.2.2.2.1.1 h.2.2.2.1.2).trans (W6_param m ρ c r h)
theorem W10_param (r : Ref sig .tc) (h : Untouched r) : W10 m ρ c (Proc.devRef .tc r) = m ((c : Thread nD τ).loc r) :=
  (W10_keep m ρ c r h.2.2.2.2.1.1 h.2.2.2.2.1.2).trans (W8_param m ρ c r h)
theorem W12_param (r : Ref sig .tc) (h : Untouched r) : W12 m ρ c (Proc.devRef .tc r) = m ((c : Thread nD τ).loc r) :=
  (W12_keep m ρ c r h.2.2.2.2.2.1.1 h.2.2.2.2.2.1.2).trans (W10_param m ρ c r h)
theorem W14_param (r : Ref sig .tc) (h : Untouched r) : W14 m ρ c (Proc.devRef .tc r) = m ((c : Thread nD τ).loc r) :=
  (W14_keep m ρ c r h.2.2.2.2.2.2.1.1 h.2.2.2.2.2.2.1.2).trans (W12_param m ρ c r h)
theorem W16_param (r : Ref sig .tc) (h : Untouched r) : W16 m ρ c (Proc.devRef .tc r) = m ((c : Thread nD τ).loc r) :=
  (W16_keep m ρ c r h.2.2.2.2.2.2.2.1.1 h.2.2.2.2.2.2.2.1.2).trans (W14_param m ρ c r h)
theorem W18_param (r : Ref sig .tc) (h : Untouched r) : W18 m ρ c (Proc.devRef .tc r) = m ((c : Thread nD τ).loc r) :=
  (W18_keep m ρ c r h.2.2.2.2.2.2.2.2.1.1 h.2.2.2.2.2.2.2.2.1.2).trans (W16_param m ρ c r h)
theorem W20_param (r : Ref sig .tc) (h : Untouched r) : W20 m ρ c (Proc.devRef .tc r) = m ((c : Thread nD τ).loc r) :=
  (W20_keep m ρ c r h.2.2.2.2.2.2.2.2.2.1.1 h.2.2.2.2.2.2.2.2.2.1.2).trans (W18_param m ρ c r h)
theorem W22_param (r : Ref sig .tc) (h : Untouched r) : W22 m ρ c (Proc.devRef .tc r) = m ((c : Thread nD τ).loc r) :=
  (W22_keep m ρ c r h.2.2.2.2.2.2.2.2.2.2.1.1 h.2.2.2.2.2.2.2.2.2.2.1.2).trans (W20_param m ρ c r h)
theorem W24_param (r : Ref sig .tc) (h : Untouched r) : W24 m ρ c (Proc.devRef .tc r) = m ((c : Thread nD τ).loc r) :=
  (W24_keep m ρ c r h.2.2.2.2.2.2.2.2.2.2.2.1.1 h.2.2.2.2.2.2.2.2.2.2.2.1.2).trans (W22_param m ρ c r h)
theorem W26_param (r : Ref sig .tc) (h : Untouched r) : W26 m ρ c (Proc.devRef .tc r) = m ((c : Thread nD τ).loc r) :=
  (W26_keep m ρ c r h.2.2.2.2.2.2.2.2.2.2.2.2.1.1 h.2.2.2.2.2.2.2.2.2.2.2.2.1.2).trans (W24_param m ρ c r h)
theorem W28_param (r : Ref sig .tc) (h : Untouched r) : W28 m ρ c (Proc.devRef .tc r) = m ((c : Thread nD τ).loc r) :=
  (W28_keep m ρ c r h.2.2.2.2.2.2.2.2.2.2.2.2.2.1.1 h.2.2.2.2.2.2.2.2.2.2.2.2.2.1.2).trans (W26_param m ρ c r h)
theorem W30_param (r : Ref sig .tc) (h : Untouched r) : W30 m ρ c (Proc.devRef .tc r) = m ((c : Thread nD τ).loc r) :=
  (W30_keep m ρ c r h.2.2.2.2.2.2.2.2.2.2.2.2.2.2.1.1 h.2.2.2.2.2.2.2.2.2.2.2.2.2.2.1.2).trans (W28_param m ρ c r h)

/-! ## The rows of the edge list -/

/-- Nothing after the first stretch writes `r` up to the last layer's first stretch, and `r` is no window's array there. -/
abbrev EdgeKept (r : Ref sig .tc) : Prop :=
  (∀ w, Pipeline.arrRef spec0 w ≠ r) ∧
  (r ∉ hostOps1_W ∧ ∀ w, Pipeline.arrRef spec1 w ≠ r) ∧
  (r ∉ hostOps2_W ∧ ∀ w, Pipeline.arrRef spec2 w ≠ r) ∧
  (r ∉ hostOps3_W ∧ ∀ w, Pipeline.arrRef spec3 w ≠ r) ∧
  (r ∉ hostOps4_W ∧ ∀ w, Pipeline.arrRef spec4 w ≠ r) ∧
  (r ∉ hostOps5_W ∧ ∀ w, Pipeline.arrRef spec5 w ≠ r) ∧
  (r ∉ hostOps6_W ∧ ∀ w, Pipeline.arrRef spec6 w ≠ r) ∧
  (r ∉ hostOps7_W ∧ ∀ w, Pipeline.arrRef spec7 w ≠ r) ∧
  (r ∉ hostOps8_W ∧ ∀ w, Pipeline.arrRef spec8 w ≠ r) ∧
  (r ∉ hostOps9_W ∧ ∀ w, Pipeline.arrRef spec9 w ≠ r) ∧
  (r ∉ hostOps10_W ∧ ∀ w, Pipeline.arrRef spec10 w ≠ r) ∧
  (r ∉ hostOps11_W ∧ ∀ w, Pipeline.arrRef spec11 w ≠ r)

set_option synthInstance.maxSize 4096 in
instance instDecidableEdgeKept (r : Ref sig .tc) : Decidable (EdgeKept r) := by unfold EdgeKept; infer_instance

theorem edgeKept_main_v1 : EdgeKept main_v1 := by decide
theorem edgeKept_main_v3 : EdgeKept main_v3 := by decide

/-- Such a reference holds at every later region's exit what the first stretch left in it. -/
theorem W2_edge (r : Ref sig .tc) (h : EdgeKept r) : W2 m ρ c (Proc.devRef .tc r) = W1 m ρ c (Proc.devRef .tc r) :=
  W2_of_ne m ρ c r h.1
theorem W4_edge (r : Ref sig .tc) (h : EdgeKept r) : W4 m ρ c (Proc.devRef .tc r) = W1 m ρ c (Proc.devRef .tc r) :=
  (W4_keep m ρ c r h.2.1.1 h.2.1.2).trans (W2_edge m ρ c r h)
theorem W6_edge (r : Ref sig .tc) (h : EdgeKept r) : W6 m ρ c (Proc.devRef .tc r) = W1 m ρ c (Proc.devRef .tc r) :=
  (W6_keep m ρ c r h.2.2.1.1 h.2.2.1.2).trans (W4_edge m ρ c r h)
theorem W8_edge (r : Ref sig .tc) (h : EdgeKept r) : W8 m ρ c (Proc.devRef .tc r) = W1 m ρ c (Proc.devRef .tc r) :=
  (W8_keep m ρ c r h.2.2.2.1.1 h.2.2.2.1.2).trans (W6_edge m ρ c r h)
theorem W10_edge (r : Ref sig .tc) (h : EdgeKept r) : W10 m ρ c (Proc.devRef .tc r) = W1 m ρ c (Proc.devRef .tc r) :=
  (W10_keep m ρ c r h.2.2.2.2.1.1 h.2.2.2.2.1.2).trans (W8_edge m ρ c r h)
theorem W12_edge (r : Ref sig .tc) (h : EdgeKept r) : W12 m ρ c (Proc.devRef .tc r) = W1 m ρ c (Proc.devRef .tc r) :=
  (W12_keep m ρ c r h.2.2.2.2.2.1.1 h.2.2.2.2.2.1.2).trans (W10_edge m ρ c r h)
theorem W14_edge (r : Ref sig .tc) (h : EdgeKept r) : W14 m ρ c (Proc.devRef .tc r) = W1 m ρ c (Proc.devRef .tc r) :=
  (W14_keep m ρ c r h.2.2.2.2.2.2.1.1 h.2.2.2.2.2.2.1.2).trans (W12_edge m ρ c r h)
theorem W16_edge (r : Ref sig .tc) (h : EdgeKept r) : W16 m ρ c (Proc.devRef .tc r) = W1 m ρ c (Proc.devRef .tc r) :=
  (W16_keep m ρ c r h.2.2.2.2.2.2.2.1.1 h.2.2.2.2.2.2.2.1.2).trans (W14_edge m ρ c r h)
theorem W18_edge (r : Ref sig .tc) (h : EdgeKept r) : W18 m ρ c (Proc.devRef .tc r) = W1 m ρ c (Proc.devRef .tc r) :=
  (W18_keep m ρ c r h.2.2.2.2.2.2.2.2.1.1 h.2.2.2.2.2.2.2.2.1.2).trans (W16_edge m ρ c r h)
theorem W20_edge (r : Ref sig .tc) (h : EdgeKept r) : W20 m ρ c (Proc.devRef .tc r) = W1 m ρ c (Proc.devRef .tc r) :=
  (W20_keep m ρ c r h.2.2.2.2.2.2.2.2.2.1.1 h.2.2.2.2.2.2.2.2.2.1.2).trans (W18_edge m ρ c r h)
theorem W22_edge (r : Ref sig .tc) (h : EdgeKept r) : W22 m ρ c (Proc.devRef .tc r) = W1 m ρ c (Proc.devRef .tc r) :=
  (W22_keep m ρ c r h.2.2.2.2.2.2.2.2.2.2.1.1 h.2.2.2.2.2.2.2.2.2.2.1.2).trans (W20_edge m ρ c r h)
theorem W24_edge (r : Ref sig .tc) (h : EdgeKept r) : W24 m ρ c (Proc.devRef .tc r) = W1 m ρ c (Proc.devRef .tc r) :=
  (W24_keep m ρ c r h.2.2.2.2.2.2.2.2.2.2.2.1 h.2.2.2.2.2.2.2.2.2.2.2.2).trans (W22_edge m ρ c r h)

/-! ## The readouts as vectors -/

/-- Each of the first four layers' readouts, reshaped to a vector by the next layer's first stretch, is still there at the
    last region's exit. -/
theorem W30_main_v53 : W30 m ρ c (Proc.devRef .tc main_v53) = W7 m ρ c (Proc.devRef .tc main_v53) :=
  (W30_keep m ρ c main_v53 (by decide) (by decide)).trans <|
  (W28_keep m ρ c main_v53 (by decide) (by decide)).trans <|
  (W26_keep m ρ c main_v53 (by decide) (by decide)).trans <|
  (W24_keep m ρ c main_v53 (by decide) (by decide)).trans <|
  (W22_keep m ρ c main_v53 (by decide) (by decide)).trans <|
  (W20_keep m ρ c main_v53 (by decide) (by decide)).trans <|
  (W18_keep m ρ c main_v53 (by decide) (by decide)).trans <|
  (W16_keep m ρ c main_v53 (by decide) (by decide)).trans <|
  (W14_keep m ρ c main_v53 (by decide) (by decide)).trans <|
  (W12_keep m ρ c main_v53 (by decide) (by decide)).trans <|
  (W10_keep m ρ c main_v53 (by decide) (by decide)).trans <|
  W8_of_ne m ρ c main_v53 (by decide)
theorem W30_main_v103 : W30 m ρ c (Proc.devRef .tc main_v103) = W13 m ρ c (Proc.devRef .tc main_v103) :=
  (W30_keep m ρ c main_v103 (by decide) (by decide)).trans <|
  (W28_keep m ρ c main_v103 (by decide) (by decide)).trans <|
  (W26_keep m ρ c main_v103 (by decide) (by decide)).trans <|
  (W24_keep m ρ c main_v103 (by decide) (by decide)).trans <|
  (W22_keep m ρ c main_v103 (by decide) (by decide)).trans <|
  (W20_keep m ρ c main_v103 (by decide) (by decide)).trans <|
  (W18_keep m ρ c main_v103 (by decide) (by decide)).trans <|
  (W16_keep m ρ c main_v103 (by decide) (by decide)).trans <|
  W14_of_ne m ρ c main_v103 (by decide)
theorem W30_main_v153 : W30 m ρ c (Proc.devRef .tc main_v153) = W19 m ρ c (Proc.devRef .tc main_v153) :=
  (W30_keep m ρ c main_v153 (by decide) (by decide)).trans <|
  (W28_keep m ρ c main_v153 (by decide) (by decide)).trans <|
  (W26_keep m ρ c main_v153 (by decide) (by decide)).trans <|
  (W24_keep m ρ c main_v153 (by decide) (by decide)).trans <|
  (W22_keep m ρ c main_v153 (by decide) (by decide)).trans <|
  W20_of_ne m ρ c main_v153 (by decide)
theorem W30_main_v203 : W30 m ρ c (Proc.devRef .tc main_v203) = W25 m ρ c (Proc.devRef .tc main_v203) :=
  (W30_keep m ρ c main_v203 (by decide) (by decide)).trans <|
  (W28_keep m ρ c main_v203 (by decide) (by decide)).trans <|
  W26_of_ne m ρ c main_v203 (by decide)

end Cert.KernelIdeal.Hand

end
-- ==== Proof.Spec.lean ====
/-
  The mathematics of one graph-isomorphism layer, on plain index functions over the extended reals.

  A layer takes node features `h : [N, D]` (N = 50000 nodes, D = 256 features), adds to each node the sum of its
  in-neighbours' features (`agg`), and applies twice "affine map, then batch normalisation over the nodes":
  `lin z W b` is `z · W + b`, `bn u μ σ² γ β` is `(u - μ) · (σ² + ε)^(-1/2) · γ + β` column by column, with `μ` the
  column means. The two programs differ in how the column variance is computed: one as the mean of the squares minus
  the square of the mean (`varK`), the other as the mean of the squared deviations (`varR`). On FINITE entries these
  are one number (`var_eq`), and every stage of a layer keeps entries finite (the variance is non-negative, so
  `σ² + ε > 0` and its inverse square root is a real), so the two layers are one function on finite inputs
  (`layer_eq`).
-/
import Idealize.ShloMosaic.PureOps.Ideal
import Idealize.ShloMosaic.Lib.ValueIdx

noncomputable section

open scoped BigOperators

namespace Gin

open Idealize.ShloMosaic

abbrev N : Nat := 50000
abbrev D : Nat := 256
abbrev E : Nat := 800000
/-- Node features, a weight matrix, a row of per-feature numbers. -/
abbrev Mat := Fin N → Fin D → EReal
abbrev Wt := Fin D → Fin D → EReal
abbrev Row := Fin D → EReal

/-- The number of nodes as both programs spell it (the f32 word of 50000.0) and the batch-norm epsilon (the f32 word nearest 1e-5). -/
def nn : EReal := Ideal.ofBits .f32 0x47435000#32
def eps : EReal := Ideal.ofBits .f32 0x3727C5AC#32

/-- `z · W + b`. -/
def lin (z : Mat) (W : Wt) (b : Row) : Mat := fun r j => (∑ k, z r k * W k j) + b j
/-- Column sums over the nodes. -/
def colsum (u : Mat) : Row := fun j => ∑ r, u r j
/-- Column means. -/
def mean (u : Mat) : Row := fun j => Ideal.div (colsum u j) nn
/-- Column variance as E[u²] − E[u]². -/
def varK (u : Mat) : Row := fun j => Ideal.div (colsum (fun r j => u r j * u r j) j) nn - mean u j * mean u j
/-- Column variance as E[(u − E u)²]. -/
def varR (u : Mat) : Row := fun j => Ideal.div (colsum (fun r j => (u r j - mean u j) * (u r j - mean u j)) j) nn
/-- Batch normalisation with given column statistics. -/
def bn (u : Mat) (mu var g be : Row) : Mat := fun r j => (u r j - mu j) * Ideal.rsqrt (var j + eps) * g j + be j

/-- One layer's parameters. -/
structure Params where
  W1 : Wt
  b1 : Row
  g1 : Row
  be1 : Row
  W2 : Wt
  b2 : Row
  g2 : Row
  be2 : Row

/-- The layer with the variance as E[u²] − E[u]²: its two intermediate affine outputs and its result. -/
def u1 (h a : Mat) (p : Params) : Mat := lin (fun r k => h r k + a r k) p.W1 p.b1
def y1K (h a : Mat) (p : Params) : Mat := bn (u1 h a p) (mean (u1 h a p)) (varK (u1 h a p)) p.g1 p.be1
def u2K (h a : Mat) (p : Params) : Mat := lin (y1K h a p) p.W2 p.b2
def layerK (h a : Mat) (p : Params) : Mat := bn (u2K h a p) (mean (u2K h a p)) (varK (u2K h a p)) p.g2 p.be2
/-- The layer with the variance as E[(u − E u)²]. -/
def y1R (h a : Mat) (p : Params) : Mat := bn (u1 h a p) (mean (u1 h a p)) (varR (u1 h a p)) p.g1 p.be1
def u2R (h a : Mat) (p : Params) : Mat := lin (y1R h a p) p.W2 p.b2
def layerR (h a : Mat) (p : Params) : Mat := bn (u2R h a p) (mean (u2R h a p)) (varR (u2R h a p)) p.g2 p.be2

/-- Every entry is a real number. -/
def FinM (u : Mat) : Prop := ∀ r j, ∃ x : ℝ, u r j = (x : EReal)
def FinW (w : Wt) : Prop := ∀ k j, ∃ x : ℝ, w k j = (x : EReal)
def FinR (b : Row) : Prop := ∀ j, ∃ x : ℝ, b j = (x : EReal)
def FinP (p : Params) : Prop := FinW p.W1 ∧ FinR p.b1 ∧ FinR p.g1 ∧ FinR p.be1 ∧ FinW p.W2 ∧ FinR p.b2 ∧ FinR p.g2 ∧ FinR p.be2

/-- The edge aggregation: node `r` receives the features of the source node of every edge whose destination word, read
    signed, is `r`; a source word is first wrapped (a negative one gets N added) and then clamped into the node range. -/
def srcRow (s : BitVec 32) : Fin N :=
  let s' : BitVec 32 := if s.slt 0#32 then s + 50000#32 else s
  ⟨min s'.toInt.toNat 49999, Nat.lt_of_le_of_lt (Nat.min_le_right _ _) (by decide)⟩
def agg (h : Mat) (src dst : Fin E → BitVec 32) : Mat :=
  fun r p => 0 + ∑ e ∈ Finset.univ.filter (fun e : Fin E => (dst e).toInt = (r.val : Int)), h (srcRow (src e)) p

/-! ## Constants and sums of reals -/

theorem nn_eq : nn = ((50000 : ℝ) : EReal) := by
  unfold nn; simp [Ideal.ofBits, Ideal.ieee, -EReal.coe_mul]; norm_num

/-- The epsilon is a positive real (the dyadic 10995116 / 2^40). -/
theorem eps_eq : eps = ((10995116 / 1099511627776 : ℝ) : EReal) := by
  unfold eps; simp [Ideal.ofBits, Ideal.ieee, -EReal.coe_mul]; norm_num

/-- A finite sum of reals, read in the extended reals, is the sum of the readings. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Dividing a real by the node count. -/
theorem div_nn (x : ℝ) : Ideal.div (x : EReal) nn = ((x / 50000 : ℝ) : EReal) := by
  rw [nn_eq, Ideal.div_coe (by norm_num : (50000 : ℝ) ≠ 0), ← EReal.coe_mul, mul_one_div]

/-! ## The two variances agree on finite columns -/

theorem colsum_coe {u : Mat} {x : Fin N → Fin D → ℝ} (hx : ∀ r j, u r j = (x r j : EReal)) (j : Fin D) :
    colsum u j = ((∑ r, x r j : ℝ) : EReal) := by
  unfold colsum; rw [coe_sum]; exact Finset.sum_congr rfl fun r _ => hx r j

theorem mean_coe {u : Mat} {x : Fin N → Fin D → ℝ} (hx : ∀ r j, u r j = (x r j : EReal)) (j : Fin D) :
    mean u j = (((∑ r, x r j) / 50000 : ℝ) : EReal) := by
  unfold mean; rw [colsum_coe hx, div_nn]

theorem varK_coe {u : Mat} {x : Fin N → Fin D → ℝ} (hx : ∀ r j, u r j = (x r j : EReal)) (j : Fin D) :
    varK u j = (((∑ r, x r j * x r j) / 50000 - ((∑ r, x r j) / 50000) * ((∑ r, x r j) / 50000) : ℝ) : EReal) := by
  unfold varK
  rw [colsum_coe (u := fun r j => u r j * u r j) (x := fun r j => x r j * x r j) (fun r j => by rw [hx, ← EReal.coe_mul]),
    div_nn, mean_coe hx, ← EReal.coe_mul, ← EReal.coe_sub]

theorem varR_coe {u : Mat} {x : Fin N → Fin D → ℝ} (hx : ∀ r j, u r j = (x r j : EReal)) (j : Fin D) :
    varR u j = (((∑ r, (x r j - (∑ r, x r j) / 50000) * (x r j - (∑ r, x r j) / 50000)) / 50000 : ℝ) : EReal) := by
  unfold varR
  rw [colsum_coe (u := fun r j => (u r j - mean u j) * (u r j - mean u j))
      (x := fun r j => (x r j - (∑ r, x r j) / 50000) * (x r j - (∑ r, x r j) / 50000))
      (fun r j => by rw [hx, mean_coe hx, ← EReal.coe_sub, ← EReal.coe_mul]),
    div_nn]

/-- Mean of squares minus square of mean is the mean of squared deviations (over the reals). -/
theorem real_var (f : Fin N → ℝ) :
    (∑ r, f r * f r) / 50000 - ((∑ r, f r) / 50000) * ((∑ r, f r) / 50000)
      = (∑ r, (f r - (∑ r, f r) / 50000) * (f r - (∑ r, f r) / 50000)) / 50000 := by
  have hexp : ∀ r, (f r - (∑ r, f r) / 50000) * (f r - (∑ r, f r) / 50000)
      = f r * f r - 2 * ((∑ r, f r) / 50000) * f r + ((∑ r, f r) / 50000) * ((∑ r, f r) / 50000) := fun r => by ring
  rw [Finset.sum_congr rfl (fun r _ => hexp r), Finset.sum_add_distrib, Finset.sum_sub_distrib, ← Finset.mul_sum,
    Finset.sum_const, Finset.card_univ, Fintype.card_fin, nsmul_eq_mul]
  have hN : ((N : ℕ) : ℝ) = 50000 := by norm_num [N]
  rw [hN]
  ring

theorem var_eq {u : Mat} (hu : FinM u) : varK u = varR u := by
  funext j
  choose x hx using hu
  rw [varK_coe hx, varR_coe hx, real_var (fun r => x r j)]

/-! ## Every stage keeps entries finite -/

theorem fin_add {h a : Mat} (hh : FinM h) (ha : FinM a) : FinM (fun r k => h r k + a r k) := by
  intro r j
  obtain ⟨x, hx⟩ := hh r j
  obtain ⟨y, hy⟩ := ha r j
  exact ⟨x + y, by show h r j + a r j = _; rw [hx, hy, EReal.coe_add]⟩

theorem fin_lin {z : Mat} {W : Wt} {b : Row} (hz : FinM z) (hW : FinW W) (hb : FinR b) : FinM (lin z W b) := by
  intro r j
  choose x hx using hz
  choose w hw using hW
  obtain ⟨bb, hbb⟩ := hb j
  refine ⟨(∑ k, x r k * w k j) + bb, ?_⟩
  unfold lin
  rw [EReal.coe_add, coe_sum, hbb]
  congr 1
  exact Finset.sum_congr rfl fun k _ => by rw [hx, hw, EReal.coe_mul]

theorem fin_mean {u : Mat} (hu : FinM u) : FinR (mean u) := by
  choose x hx using hu
  exact fun j => ⟨_, mean_coe hx j⟩

/-- The variance of a finite column is a non-negative real. -/
theorem varR_nonneg {u : Mat} (hu : FinM u) : ∀ j, ∃ v : ℝ, 0 ≤ v ∧ varR u j = (v : EReal) := by
  choose x hx using hu
  intro j
  refine ⟨_, ?_, varR_coe hx j⟩
  exact div_nonneg (Finset.sum_nonneg fun r _ => mul_self_nonneg _) (by norm_num)

theorem fin_bn {u : Mat} {mu var g be : Row} (hu : FinM u) (hmu : FinR mu)
    (hv : ∀ j, ∃ v : ℝ, 0 ≤ v ∧ var j = (v : EReal)) (hg : FinR g) (hbe : FinR be) : FinM (bn u mu var g be) := by
  intro r j
  obtain ⟨x, hx⟩ := hu r j
  obtain ⟨m, hm⟩ := hmu j
  obtain ⟨v, hv0, hvj⟩ := hv j
  obtain ⟨gg, hgg⟩ := hg j
  obtain ⟨bb, hbb⟩ := hbe j
  have hpos : 0 < v + 10995116 / 1099511627776 := by positivity
  refine ⟨(x - m) * (Real.sqrt (v + 10995116 / 1099511627776))⁻¹ * gg + bb, ?_⟩
  unfold bn
  rw [hx, hm, hvj, hgg, hbb, eps_eq, ← EReal.coe_add, Ideal.rsqrt_coe, if_neg (not_lt.mpr hpos.le), if_neg hpos.ne',
    ← EReal.coe_sub, ← EReal.coe_mul, ← EReal.coe_mul, ← EReal.coe_add]

/-! ## The two layers agree on finite inputs -/

theorem fin_u1 {h a : Mat} {p : Params} (hh : FinM h) (ha : FinM a) (hp : FinP p) : FinM (u1 h a p) :=
  fin_lin (fin_add hh ha) hp.1 hp.2.1

theorem y1_eq {h a : Mat} {p : Params} (hh : FinM h) (ha : FinM a) (hp : FinP p) : y1K h a p = y1R h a p := by
  unfold y1K y1R; rw [var_eq (fin_u1 hh ha hp)]

theorem fin_y1R {h a : Mat} {p : Params} (hh : FinM h) (ha : FinM a) (hp : FinP p) : FinM (y1R h a p) :=
  fin_bn (fin_u1 hh ha hp) (fin_mean (fin_u1 hh ha hp)) (varR_nonneg (fin_u1 hh ha hp)) hp.2.2.1 hp.2.2.2.1

theorem fin_u2R {h a : Mat} {p : Params} (hh : FinM h) (ha : FinM a) (hp : FinP p) : FinM (u2R h a p) :=
  fin_lin (fin_y1R hh ha hp) hp.2.2.2.2.1 hp.2.2.2.2.2.1

theorem u2_eq {h a : Mat} {p : Params} (hh : FinM h) (ha : FinM a) (hp : FinP p) : u2K h a p = u2R h a p := by
  unfold u2K u2R; rw [y1_eq hh ha hp]

/-- On finite features, aggregate and parameters the two layers are one function … -/
theorem layer_eq {h a : Mat} {p : Params} (hh : FinM h) (ha : FinM a) (hp : FinP p) : layerK h a p = layerR h a p := by
  unfold layerK layerR; rw [u2_eq hh ha hp, var_eq (fin_u2R hh ha hp)]

/-- … with finite entries. -/
theorem fin_layerR {h a : Mat} {p : Params} (hh : FinM h) (ha : FinM a) (hp : FinP p) : FinM (layerR h a p) :=
  fin_bn (fin_u2R hh ha hp) (fin_mean (fin_u2R hh ha hp)) (varR_nonneg (fin_u2R hh ha hp)) hp.2.2.2.2.2.2.1 hp.2.2.2.2.2.2.2

/-- The aggregate of finite features is finite: a finite sum of entries. -/
theorem fin_agg {h : Mat} (hh : FinM h) (src dst : Fin E → BitVec 32) : FinM (agg h src dst) := by
  choose x hx using hh
  intro r p
  refine ⟨0 + ∑ e ∈ Finset.univ.filter (fun e : Fin E => (dst e).toInt = (r.val : Int)), x (srcRow (src e)) p, ?_⟩
  unfold agg
  rw [EReal.coe_add, coe_sum, EReal.coe_zero]
  refine congrArg (fun t : EReal => (0 : EReal) + t) ?_
  exact Finset.sum_congr rfl fun e _ => hx _ _

/-! ## Five layers in a row -/

/-- The features entering layer `i`: the input, then each layer applied to the features before it and their aggregate. -/
def chain (layer : Mat → Mat → Params → Mat) (x : Mat) (src dst : Fin E → BitVec 32) (P : ℕ → Params) : ℕ → Mat
  | 0 => x
  | i + 1 => layer (chain layer x src dst P i) (agg (chain layer x src dst P i) src dst) (P i)

/-- On a finite input and finite parameters the two chains agree at every depth, with finite entries. -/
theorem chain_eq {x : Mat} (hx : FinM x) (src dst : Fin E → BitVec 32) {P : ℕ → Params} (hP : ∀ i, FinP (P i)) :
    ∀ i, chain layerK x src dst P i = chain layerR x src dst P i ∧ FinM (chain layerR x src dst P i)
  | 0 => ⟨rfl, hx⟩
  | i + 1 => by
    obtain ⟨he, hf⟩ := chain_eq hx src dst hP i
    refine ⟨?_, fin_layerR hf (fin_agg hf src dst) (hP i)⟩
    show layerK (chain layerK x src dst P i) (agg (chain layerK x src dst P i) src dst) (P i)
      = layerR (chain layerR x src dst P i) (agg (chain layerR x src dst P i) src dst) (P i)
    rw [he]
    exact layer_eq hf (fin_agg hf src dst) (hP i)

/-! ## Reading an array of the programs as one of the specification's index functions -/

open Idealize.ShloMosaic.ValueIdx

/-- A `[N, D]` array as node features. -/
def toMat (x : (⟨2, ![N, D]⟩ : Shape).Idx → EReal) : Mat := fun r j => x (ix2 r j)
/-- A `[1, D]` array as a row. -/
def toRow (x : (⟨2, ![1, D]⟩ : Shape).Idx → EReal) : Row := fun j => x (ix2 0 j)
/-- A `[D]` array as a row. -/
def toRow1 (x : (⟨1, ![D]⟩ : Shape).Idx → EReal) : Row := fun j => x (ix1 j)
/-- A `[D, D]` array as a weight matrix. -/
def toWt (x : (⟨2, ![D, D]⟩ : Shape).Idx → EReal) : Wt := fun k j => x (ix2 k j)
/-- Layer `i`'s slice of a `[5, D, D]` parameter as a weight matrix, and of a `[5, D]` parameter as a row. -/
def layerWt (i : Fin 5) (x : (⟨3, ![5, D, D]⟩ : Shape).Idx → EReal) : Wt := fun k j => x (ix3 i k j)
def layerRow (i : Fin 5) (x : (⟨2, ![5, D]⟩ : Shape).Idx → EReal) : Row := fun j => x (ix2 i j)
/-- The two rows of the `[2, E]` edge list: source words and destination words. -/
def srcOf (x : (⟨2, ![2, E]⟩ : Shape).Idx → BitVec 32) : Fin E → BitVec 32 := fun e => x (ix2 0 e)
def dstOf (x : (⟨2, ![2, E]⟩ : Shape).Idx → BitVec 32) : Fin E → BitVec 32 := fun e => x (ix2 1 e)
/-- Layer `i`'s parameters out of the eight parameter arrays. -/
def paramsOf (i : Fin 5) (W1 : (⟨3, ![5, D, D]⟩ : Shape).Idx → EReal) (b1 g1 be1 : (⟨2, ![5, D]⟩ : Shape).Idx → EReal)
    (W2 : (⟨3, ![5, D, D]⟩ : Shape).Idx → EReal) (b2 g2 be2 : (⟨2, ![5, D]⟩ : Shape).Idx → EReal) : Params :=
  ⟨layerWt i W1, layerRow i b1, layerRow i g1, layerRow i be1, layerWt i W2, layerRow i b2, layerRow i g2, layerRow i be2⟩
/-- The parameters by layer number (layers 0 … 4; the numbering wraps, which is never used). -/
def paramsAt (W1 : (⟨3, ![5, D, D]⟩ : Shape).Idx → EReal) (b1 g1 be1 : (⟨2, ![5, D]⟩ : Shape).Idx → EReal)
    (W2 : (⟨3, ![5, D, D]⟩ : Shape).Idx → EReal) (b2 g2 be2 : (⟨2, ![5, D]⟩ : Shape).Idx → EReal) : ℕ → Params :=
  fun i => paramsOf ⟨i % 5, Nat.mod_lt _ (by decide)⟩ W1 b1 g1 be1 W2 b2 g2 be2

/-- Parameters with real entries give finite layer parameters. -/
theorem finP_paramsAt {W1 : (⟨3, ![5, D, D]⟩ : Shape).Idx → EReal} {b1 g1 be1 : (⟨2, ![5, D]⟩ : Shape).Idx → EReal}
    {W2 : (⟨3, ![5, D, D]⟩ : Shape).Idx → EReal} {b2 g2 be2 : (⟨2, ![5, D]⟩ : Shape).Idx → EReal}
    (hW1 : ∀ i, ∃ x : ℝ, W1 i = (x : EReal)) (hb1 : ∀ i, ∃ x : ℝ, b1 i = (x : EReal)) (hg1 : ∀ i, ∃ x : ℝ, g1 i = (x : EReal))
    (hbe1 : ∀ i, ∃ x : ℝ, be1 i = (x : EReal)) (hW2 : ∀ i, ∃ x : ℝ, W2 i = (x : EReal)) (hb2 : ∀ i, ∃ x : ℝ, b2 i = (x : EReal))
    (hg2 : ∀ i, ∃ x : ℝ, g2 i = (x : EReal)) (hbe2 : ∀ i, ∃ x : ℝ, be2 i = (x : EReal)) (i : ℕ) :
    FinP (paramsAt W1 b1 g1 be1 W2 b2 g2 be2 i) :=
  ⟨fun _ _ => hW1 _, fun _ => hb1 _, fun _ => hg1 _, fun _ => hbe1 _, fun _ _ => hW2 _, fun _ => hb2 _, fun _ => hg2 _, fun _ => hbe2 _⟩

end Gin

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.KI.HostVal.lean ====
/-
  The host operations between the kernel regions, read as the layer's mathematics.

  Between two regions the idealized program runs a short line of host operations. There are four kinds of line:
  the edge aggregation of the layer's input together with the cut of the first weight and bias (before a layer's
  first region), the column mean and variance from a region's two accumulators together with the cut of the next
  gain, shift, weight and bias (before the second and third regions), and the classifier on the five readouts
  (after the last region). This module names each line's composed operations as a function of the buffers it
  reads, and proves what those functions are as index functions over the extended reals: the aggregation is
  `Gin.agg`, a cut weight is the parameter's layer, a cut row is the parameter's row, the two statistics are
  `sum / n` and `sumsq / n - mean * mean`.
-/
import proofs.«102822_j3521873183180_1_alg».proof.Proof.Gen.KernelIdeal.Launch
import proofs.«102822_j3521873183180_1_alg».proof.Proof.Spec
import proofs.«102822_j3521873183180_1_alg».proof.Proof.LibRowOps
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

/-! ## Buffers read as index functions

The readers of the specification (`Gin.toMat`, `Gin.toRow` for a `[1, 256]` row, `Gin.toRow1` for a `[256]` vector, `Gin.toWt`,
`Gin.layerWt`, `Gin.layerRow`, `Gin.srcOf`, `Gin.dstOf`) apply to buffer contents as they are; one more reads a vector of words. -/

/-- An `[800000]` vector of words as a function of the edge. -/
def ofVec (x : IVec S800000 32) : Fin 800000 → BitVec 32 := fun e => x (ix1 e)

/-! ## The lines' operations, composed -/

/-- Row 0 and row 1 of the edge list, each as a vector. -/
def edgeRow0 (a : IVec S2x800000 32) : IVec S800000 32 :=
  shapeCast S800000 (extractStridedSlice S1x800000 ![0, 0] a slices_S2x800000_S1x800000_0_0) shapeCasts_S1x800000_S800000
def edgeRow1 (a : IVec S2x800000 32) : IVec S800000 32 :=
  shapeCast S800000 (extractStridedSlice S1x800000 ![1, 0] a slices_S2x800000_S1x800000_1_0) shapeCasts_S1x800000_S800000

/-- The gather's index column: a negative source word gets the number of nodes added. -/
def srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The scatter's index column: the destination words as they are. -/
def dstCol (d : IVec S800000 32) : IVec S800000x1 32 := broadcastInDim S800000x1 ![0] bcast_S800000_S800000x1_0 d
/-- The zero matrix the scatter adds into. -/
def zeroMat : FVec Ideal S50000x256 .f32 :=
  broadcastInDim S50000x256 ![] bcast_S_S50000x256 (constant (F := Ideal) S_ .f32 0x00000000#32)
/-- The edge aggregation: gather the source rows, scatter-add them at the destination rows into zeros. -/
def aggT (h : FVec Ideal S50000x256 .f32) (s d : IVec S800000 32) : FVec Ideal S50000x256 .f32 :=
  Host.scatterAdd (F := Ideal) scatter_S50000x256_S800000x1_S800000x256_1_0_0_1 zeroMat (dstCol d)
    (Host.gather gather_S50000x256_S800000x1_S800000x256_1_0_n_n_0_1_1256 h (srcCol s))

/-- Layer `o` of a weight parameter, cut, reshaped to a matrix and narrowed to bf16. -/
def wtT (o : Nat) (hs : S5x256x256.Slices ![o, 0, 0] S1x256x256) (W : FVec Ideal S5x256x256 .f32) : FVec Ideal S256x256 .bf16 :=
  truncf .bf16 (shapeCast S256x256 (extractStridedSlice S1x256x256 ![o, 0, 0] W hs) shapeCasts_S1x256x256_S256x256) bitsLt_bf16_f32
/-- Layer `o` of a row parameter, cut, reshaped to a vector and broadcast to one row. -/
def rowT (o : Nat) (hs : S5x256.Slices ![o, 0] S1x256) (B : FVec Ideal S5x256 .f32) : FVec Ideal S1x256 .f32 :=
  broadcastInDim S1x256 ![1] bcast_S256_S1x256_1 (shapeCast S256 (extractStridedSlice S1x256 ![o, 0] B hs) shapeCasts_S1x256_S256)

/-- The number of nodes, as a row. -/
def nnRow : FVec Ideal S1x256 .f32 := broadcastInDim S1x256 ![] bcast_S_S1x256 (constant (F := Ideal) S_ .f32 0x47435000#32)
/-- The column mean from the column sums, and the column variance from the sums and the sums of squares. -/
def meanT (s : FVec Ideal S1x256 .f32) : FVec Ideal S1x256 .f32 := Host.divf s nnRow
def varT (s q : FVec Ideal S1x256 .f32) : FVec Ideal S1x256 .f32 := subf (Host.divf q nnRow) (mulf (meanT s) (meanT s))

/-- A readout row as a vector. -/
def vecT (x : FVec Ideal S1x256 .f32) : FVec Ideal S256 .f32 := shapeCast S256 x shapeCasts_S1x256_S256

/-- The classifier on the five readouts: concatenate, multiply by the classifier weight, add its bias. -/
def post (r0 r1 r2 r3 r4 : FVec Ideal S256 .f32) (Wc : FVec Ideal S1280x10 .f32) (bc : FVec Ideal S10 .f32) : FVec Ideal S1x10 .f32 :=
  addf
    (Host.dotGeneral (F := Ideal) dot_S1x1280_S1280x10_S1x10_1_0_0_1_n_n none
      (broadcastInDim S1x1280 ![1] bcast_S1280_S1x1280_1
        (concatenate S1280 0 [⟨S256, r0⟩, ⟨S256, r1⟩, ⟨S256, r2⟩, ⟨S256, r3⟩, ⟨S256, r4⟩] concatenates_S256_S256_S256_S256_S256_S1280_d0))
      Wc)
    (broadcastInDim S1x10 ![1] bcast_S10_S1x10_1 bc)

/-! ## A five-operand operation's result, operand by operand -/

section Nary5
variable {τ' : Topo} {sig' : RefSig} {Val : EltTy → Type} {x a b c e y : Ref sig' .tc}

/-- The result of an operation over a literal family of five references, with each operand's contents at its own
    reference, so that the operands' own results can be rewritten in turn. -/
theorem nary5_result
    (f : ((k : Fin 5) → ((![x, a, b, c, e] : Fin 5 → Ref sig' .tc) k).ty.Contents Val) → y.ty.Contents Val) (hxs hy)
    (V : Valuation τ' sig' Val) :
    (nary (τ := τ') ![x, a, b, c, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  rw [nary_result]; congr 1; funext k; fin_cases k <;> rfl

end Nary5

/-- The fold of a literal line of operations at one reference, the five-operand operation included. -/
macro "after_results5" : tactic =>
  `(tactic| (simp only [after_cons, after_nil]
             repeat (first
               | rw [nullary_result] | rw [unary_result] | rw [binary_result] | rw [ternary_result]
               | rw [reshape_result] | rw [nary5_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## The edge list's rows -/

theorem edgeRow0_apply (a : IVec S2x800000 32) (e : Fin 800000) : edgeRow0 a (ix1 e) = a (ix2 (0 : Fin 2) e) := by
  unfold edgeRow0
  rw [shapeCast_1a_a_apply]
  exact slice2_axis0_apply 0 a _ (0 : Fin 1) e (0 : Fin 2) rfl
theorem edgeRow1_apply (a : IVec S2x800000 32) (e : Fin 800000) : edgeRow1 a (ix1 e) = a (ix2 (1 : Fin 2) e) := by
  unfold edgeRow1
  rw [shapeCast_1a_a_apply]
  exact slice2_axis0_apply 1 a _ (0 : Fin 1) e (1 : Fin 2) rfl
theorem ofVec_edgeRow0 (a : IVec S2x800000 32) : ofVec (edgeRow0 a) = Gin.srcOf a := funext fun e => edgeRow0_apply a e
theorem ofVec_edgeRow1 (a : IVec S2x800000 32) : ofVec (edgeRow1 a) = Gin.dstOf a := funext fun e => edgeRow1_apply a e

/-! ## The cut parameters -/

/-- The cut weight is the parameter's layer: the narrowing is the identity over the extended reals. -/
theorem toWt_wtT (o : Nat) (ho : o < 5) (hs : S5x256x256.Slices ![o, 0, 0] S1x256x256) (W : FVec Ideal S5x256x256 .f32) :
    Gin.toWt (wtT o hs W) = Gin.layerWt ⟨o, ho⟩ W := by
  funext k j
  show truncf .bf16 (shapeCast S256x256 (extractStridedSlice S1x256x256 ![o, 0, 0] W hs) shapeCasts_S1x256x256_S256x256)
    bitsLt_bf16_f32 (ix2 k j) = W (ix3 ⟨o, ho⟩ k j)
  rw [truncf_apply, shapeCast_1ab_ab_apply]
  refine extractStridedSlice_apply _ W hs _ _ fun a => ?_
  match a with
  | ⟨0, _⟩ => exact (Nat.add_zero o).symm
  | ⟨1, _⟩ => exact (Nat.zero_add _).symm
  | ⟨2, _⟩ => exact (Nat.zero_add _).symm

/-- The cut row is the parameter's row. -/
theorem toRow_rowT (o : Nat) (ho : o < 5) (hs : S5x256.Slices ![o, 0] S1x256) (B : FVec Ideal S5x256 .f32) :
    Gin.toRow (rowT o hs B) = Gin.layerRow ⟨o, ho⟩ B := by
  funext j
  show broadcastInDim S1x256 ![1] bcast_S256_S1x256_1
    (shapeCast S256 (extractStridedSlice S1x256 ![o, 0] B hs) shapeCasts_S1x256_S256) (ix2 (0 : Fin 1) j) = B (ix2 ⟨o, ho⟩ j)
  rw [broadcastInDim_apply ![1] bcast_S256_S1x256_1 _ (ix2 (0 : Fin 1) j) (ix1 j) (fun a => by match a with | ⟨0, _⟩ => rfl),
    shapeCast_1a_a_apply]
  exact slice2_axis0_apply o B hs (0 : Fin 1) j ⟨o, ho⟩ rfl

/-- A readout row reshaped to a vector reads the same. -/
theorem toRow1_vecT (x : FVec Ideal S1x256 .f32) : Gin.toRow1 (vecT x) = Gin.toRow x := by
  funext j
  show shapeCast S256 x shapeCasts_S1x256_S256 (ix1 j) = x (ix2 (0 : Fin 1) j)
  rw [shapeCast_1a_a_apply]

/-! ## The column statistics -/

theorem nnRow_apply (i : S1x256.Idx) : nnRow i = Gin.nn := rfl

theorem toRow_meanT (s : FVec Ideal S1x256 .f32) : Gin.toRow (meanT s) = fun j => Ideal.div (Gin.toRow s j) Gin.nn := rfl

theorem toRow_varT (s q : FVec Ideal S1x256 .f32) :
    Gin.toRow (varT s q) = fun j => Ideal.div (Gin.toRow q j) Gin.nn - Gin.toRow (meanT s) j * Gin.toRow (meanT s) j := rfl

/-- With the accumulator holding the column sums, the mean row is the column mean … -/
theorem toRow_meanT_of_colsum (s : FVec Ideal S1x256 .f32) (u : Gin.Mat) (hs : Gin.toRow s = Gin.colsum u) :
    Gin.toRow (meanT s) = Gin.mean u := by
  rw [toRow_meanT, hs]; rfl

/-- … and with the second accumulator holding the column sums of squares, the variance row is the column variance
    as the mean of the squares minus the square of the mean. -/
theorem toRow_varT_of_colsum (s q : FVec Ideal S1x256 .f32) (u : Gin.Mat) (hs : Gin.toRow s = Gin.colsum u)
    (hq : Gin.toRow q = Gin.colsum (fun r j => u r j * u r j)) : Gin.toRow (varT s q) = Gin.varK u := by
  rw [toRow_varT, toRow_meanT_of_colsum s u hs, hq]; rfl

/-! ## The edge aggregation -/

theorem srcCol_apply (s : IVec S800000 32) (e : Fin 800000) :
    srcCol s (ix2 e (0 : Fin 1)) = (if (s (ix1 e)).slt 0#32 then s (ix1 e) + 50000#32 else s (ix1 e)) := by
  unfold srcCol
  rw [broadcastInDim_apply ![0] bcast_S800000_S800000x1_0 _ (ix2 e (0 : Fin 1)) (ix1 e) (fun a => by match a with | ⟨0, _⟩ => rfl)]
  show Scalar.select (IntOp.cmpi .slt (s (ix1 e)) 0#32) (IntOp.addi (s (ix1 e)) 50000#32) (s (ix1 e)) = _
  unfold Scalar.select IntOp.cmpi IntOp.addi
  cases h : (s (ix1 e)).slt 0#32 <;> simp

theorem dstCol_apply (d : IVec S800000 32) (e : Fin 800000) : dstCol d (ix2 e (0 : Fin 1)) = d (ix1 e) := by
  unfold dstCol
  exact broadcastInDim_apply ![0] bcast_S800000_S800000x1_0 _ (ix2 e (0 : Fin 1)) (ix1 e) (fun a => by match a with | ⟨0, _⟩ => rfl)

theorem zeroMat_apply (i : S50000x256.Idx) : zeroMat i = 0 := Ideal.ofBits_zero_f32

/-- The gathered-then-scattered matrix is the aggregation of the specification. -/
theorem toMat_aggT (h : FVec Ideal S50000x256 .f32) (s d : IVec S800000 32) :
    Gin.toMat (aggT h s d) = Gin.agg (Gin.toMat h) (ofVec s) (ofVec d) := by
  funext r p
  refine (RowOps.scatterAdd_apply (N := 50000) (E := 800000) (C := 256) scatter_S50000x256_S800000x1_S800000x256_1_0_0_1_wf
    (dstCol d) zeroMat (Host.gather gather_S50000x256_S800000x1_S800000x256_1_0_n_n_0_1_1256 h (srcCol s)) r p).trans ?_
  rw [zeroMat_apply]
  simp only [dstCol_apply]
  unfold Gin.agg Gin.toMat ofVec
  beta_reduce
  have hg : ∀ e : Fin 800000, Host.gather gather_S50000x256_S800000x1_S800000x256_1_0_n_n_0_1_1256 h (srcCol s) (ix2 e p)
      = h (ix2 (Gin.srcRow (s (ix1 e))) p) := fun e => by
    refine (RowOps.gather_apply (N := 50000) (E := 800000) (C := 256) (by decide) gather_S50000x256_S800000x1_S800000x256_1_0_n_n_0_1_1256_wf
      h (srcCol s) e p).trans ?_
    rw [srcCol_apply]
    rfl
  simp only [hg]

end Cert.KernelIdeal.HostVal

end
-- ==== Proof.KI.HostVal.S0.lean ====
/-
  The host line before the first region of the first layer, from any buffer contents: the two rows of the edge
  list as vectors, the aggregation of the input features along the edges, the first weight of the layer cut and
  narrowed, the first bias cut and laid out as a row; each first as the composed operations, then as the
  specification's function of the arguments.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps0_main_v1 : StableHlo.after (hostOps0 (F := Ideal)) Wv (Proc.devRef .tc main_v1) = edgeRow0 (Wv (Proc.devRef .tc main_arg1)) := by
  after_results; rfl
theorem hostOps0_main_v3 : StableHlo.after (hostOps0 (F := Ideal)) Wv (Proc.devRef .tc main_v3) = edgeRow1 (Wv (Proc.devRef .tc main_arg1)) := by
  after_results; rfl
set_option maxHeartbeats 1000000 in
theorem hostOps0_main_v13 : StableHlo.after (hostOps0 (F := Ideal)) Wv (Proc.devRef .tc main_v13)
    = aggT (Wv (Proc.devRef .tc main_arg0)) (edgeRow0 (Wv (Proc.devRef .tc main_arg1))) (edgeRow1 (Wv (Proc.devRef .tc main_arg1))) := by
  after_results; rfl
theorem hostOps0_main_v16 : StableHlo.after (hostOps0 (F := Ideal)) Wv (Proc.devRef .tc main_v16) = wtT 0 slices_S5x256x256_S1x256x256_0_0_0 (Wv (Proc.devRef .tc main_arg2)) := by
  after_results; rfl
theorem hostOps0_main_v19 : StableHlo.after (hostOps0 (F := Ideal)) Wv (Proc.devRef .tc main_v19) = rowT 0 slices_S5x256_S1x256_0_0 (Wv (Proc.devRef .tc main_arg3)) := by
  after_results; rfl
/-- The input features are not written. -/
theorem hostOps0_main_arg0 : StableHlo.after (hostOps0 (F := Ideal)) Wv (Proc.devRef .tc main_arg0) = Wv (Proc.devRef .tc main_arg0) := by
  after_results

/-! ## The same, in the specification's terms -/

theorem hostOps0_main_v1_spec : ofVec (StableHlo.after (hostOps0 (F := Ideal)) Wv (Proc.devRef .tc main_v1)) = Gin.srcOf (Wv (Proc.devRef .tc main_arg1)) := by
  rw [hostOps0_main_v1, ofVec_edgeRow0]
theorem hostOps0_main_v3_spec : ofVec (StableHlo.after (hostOps0 (F := Ideal)) Wv (Proc.devRef .tc main_v3)) = Gin.dstOf (Wv (Proc.devRef .tc main_arg1)) := by
  rw [hostOps0_main_v3, ofVec_edgeRow1]
theorem hostOps0_main_v13_spec : Gin.toMat (StableHlo.after (hostOps0 (F := Ideal)) Wv (Proc.devRef .tc main_v13))
    = Gin.agg (Gin.toMat (Wv (Proc.devRef .tc main_arg0))) (Gin.srcOf (Wv (Proc.devRef .tc main_arg1))) (Gin.dstOf (Wv (Proc.devRef .tc main_arg1))) := by
  rw [hostOps0_main_v13, toMat_aggT, ofVec_edgeRow0, ofVec_edgeRow1]
theorem hostOps0_main_v16_spec : Gin.toWt (StableHlo.after (hostOps0 (F := Ideal)) Wv (Proc.devRef .tc main_v16)) = Gin.layerWt (0 : Fin 5) (Wv (Proc.devRef .tc main_arg2)) := by
  rw [hostOps0_main_v16]; exact toWt_wtT 0 (by decide) _ _
theorem hostOps0_main_v19_spec : Gin.toRow (StableHlo.after (hostOps0 (F := Ideal)) Wv (Proc.devRef .tc main_v19)) = Gin.layerRow (0 : Fin 5) (Wv (Proc.devRef .tc main_arg3)) := by
  rw [hostOps0_main_v19]; exact toRow_rowT 0 (by decide) _ _

end Cert.KernelIdeal.HostVal

end
-- ==== Proof.KI.HostVal.S1.lean ====
/-
  The host line between a layer's first and second regions, from any buffer contents: the column mean and the
  column variance of the first affine output from the first region's two accumulators (the column sums and the
  column sums of squares), and the cuts of the layer's first gain and shift, second weight and second bias; each
  first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps1_main_v22 : StableHlo.after (hostOps1 (F := Ideal)) Wv (Proc.devRef .tc main_v22) = meanT (Wv (Proc.devRef .tc main_v20_1)) := by
  after_results; rfl
theorem hostOps1_main_v26 : StableHlo.after (hostOps1 (F := Ideal)) Wv (Proc.devRef .tc main_v26) = varT (Wv (Proc.devRef .tc main_v20_1)) (Wv (Proc.devRef .tc main_v20_2)) := by
  after_results; rfl
theorem hostOps1_main_v29 : StableHlo.after (hostOps1 (F := Ideal)) Wv (Proc.devRef .tc main_v29) = rowT 0 slices_S5x256_S1x256_0_0 (Wv (Proc.devRef .tc main_arg4)) := by
  after_results; rfl
theorem hostOps1_main_v32 : StableHlo.after (hostOps1 (F := Ideal)) Wv (Proc.devRef .tc main_v32) = rowT 0 slices_S5x256_S1x256_0_0 (Wv (Proc.devRef .tc main_arg5)) := by
  after_results; rfl
theorem hostOps1_main_v35 : StableHlo.after (hostOps1 (F := Ideal)) Wv (Proc.devRef .tc main_v35) = wtT 0 slices_S5x256x256_S1x256x256_0_0_0 (Wv (Proc.devRef .tc main_arg6)) := by
  after_results; rfl
theorem hostOps1_main_v38 : StableHlo.after (hostOps1 (F := Ideal)) Wv (Proc.devRef .tc main_v38) = rowT 0 slices_S5x256_S1x256_0_0 (Wv (Proc.devRef .tc main_arg7)) := by
  after_results; rfl
/-- The first affine output is not written. -/
theorem hostOps1_main_v20_0 : StableHlo.after (hostOps1 (F := Ideal)) Wv (Proc.devRef .tc main_v20_0) = Wv (Proc.devRef .tc main_v20_0) := by
  after_results

/-! ## The same, in the specification's terms -/

theorem hostOps1_main_v22_spec : Gin.toRow (StableHlo.after (hostOps1 (F := Ideal)) Wv (Proc.devRef .tc main_v22))
    = fun j => Ideal.div (Gin.toRow (Wv (Proc.devRef .tc main_v20_1)) j) Gin.nn := by
  rw [hostOps1_main_v22, toRow_meanT]
theorem hostOps1_main_v26_spec : Gin.toRow (StableHlo.after (hostOps1 (F := Ideal)) Wv (Proc.devRef .tc main_v26))
    = fun j => Ideal.div (Gin.toRow (Wv (Proc.devRef .tc main_v20_2)) j) Gin.nn
        - Gin.toRow (StableHlo.after (hostOps1 (F := Ideal)) Wv (Proc.devRef .tc main_v22)) j * Gin.toRow (StableHlo.after (hostOps1 (F := Ideal)) Wv (Proc.devRef .tc main_v22)) j := by
  rw [hostOps1_main_v26, hostOps1_main_v22, toRow_varT]
/-- With the accumulators holding the column sums and the column sums of squares of `u`, the two rows are the
    column mean of `u` and its column variance as the mean of the squares minus the square of the mean. -/
theorem hostOps1_main_v22_mean (u : Gin.Mat) (hs : Gin.toRow (Wv (Proc.devRef .tc main_v20_1)) = Gin.colsum u) :
    Gin.toRow (StableHlo.after (hostOps1 (F := Ideal)) Wv (Proc.devRef .tc main_v22)) = Gin.mean u := by
  rw [hostOps1_main_v22]; exact toRow_meanT_of_colsum _ u hs
theorem hostOps1_main_v26_var (u : Gin.Mat) (hs : Gin.toRow (Wv (Proc.devRef .tc main_v20_1)) = Gin.colsum u)
    (hq : Gin.toRow (Wv (Proc.devRef .tc main_v20_2)) = Gin.colsum (fun r j => u r j * u r j)) :
    Gin.toRow (StableHlo.after (hostOps1 (F := Ideal)) Wv (Proc.devRef .tc main_v26)) = Gin.varK u := by
  rw [hostOps1_main_v26]; exact toRow_varT_of_colsum _ _ u hs hq
theorem hostOps1_main_v29_spec : Gin.toRow (StableHlo.after (hostOps1 (F := Ideal)) Wv (Proc.devRef .tc main_v29)) = Gin.layerRow (0 : Fin 5) (Wv (Proc.devRef .tc main_arg4)) := by
  rw [hostOps1_main_v29]; exact toRow_rowT 0 (by decide) _ _
theorem hostOps1_main_v32_spec : Gin.toRow (StableHlo.after (hostOps1 (F := Ideal)) Wv (Proc.devRef .tc main_v32)) = Gin.layerRow (0 : Fin 5) (Wv (Proc.devRef .tc main_arg5)) := by
  rw [hostOps1_main_v32]; exact toRow_rowT 0 (by decide) _ _
theorem hostOps1_main_v35_spec : Gin.toWt (StableHlo.after (hostOps1 (F := Ideal)) Wv (Proc.devRef .tc main_v35)) = Gin.layerWt (0 : Fin 5) (Wv (Proc.devRef .tc main_arg6)) := by
  rw [hostOps1_main_v35]; exact toWt_wtT 0 (by decide) _ _
theorem hostOps1_main_v38_spec : Gin.toRow (StableHlo.after (hostOps1 (F := Ideal)) Wv (Proc.devRef .tc main_v38)) = Gin.layerRow (0 : Fin 5) (Wv (Proc.devRef .tc main_arg7)) := by
  rw [hostOps1_main_v38]; exact toRow_rowT 0 (by decide) _ _

end Cert.KernelIdeal.HostVal

end
-- ==== Proof.KI.HostVal.S2.lean ====
/-
  The host line between a layer's second and third regions, from any buffer contents: the column mean and the
  column variance of the second affine output from the second region's two accumulators, and the cuts of the
  layer's second gain and shift; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps2_main_v41 : StableHlo.after (hostOps2 (F := Ideal)) Wv (Proc.devRef .tc main_v41) = meanT (Wv (Proc.devRef .tc main_v39_1)) := by
  after_results; rfl
theorem hostOps2_main_v45 : StableHlo.after (hostOps2 (F := Ideal)) Wv (Proc.devRef .tc main_v45) = varT (Wv (Proc.devRef .tc main_v39_1)) (Wv (Proc.devRef .tc main_v39_2)) := by
  after_results; rfl
theorem hostOps2_main_v48 : StableHlo.after (hostOps2 (F := Ideal)) Wv (Proc.devRef .tc main_v48) = rowT 0 slices_S5x256_S1x256_0_0 (Wv (Proc.devRef .tc main_arg8)) := by
  after_results; rfl
theorem hostOps2_main_v51 : StableHlo.after (hostOps2 (F := Ideal)) Wv (Proc.devRef .tc main_v51) = rowT 0 slices_S5x256_S1x256_0_0 (Wv (Proc.devRef .tc main_arg9)) := by
  after_results; rfl
/-- The second affine output is not written. -/
theorem hostOps2_main_v39_0 : StableHlo.after (hostOps2 (F := Ideal)) Wv (Proc.devRef .tc main_v39_0) = Wv (Proc.devRef .tc main_v39_0) := by
  after_results

/-! ## The same, in the specification's terms -/

theorem hostOps2_main_v41_spec : Gin.toRow (StableHlo.after (hostOps2 (F := Ideal)) Wv (Proc.devRef .tc main_v41))
    = fun j => Ideal.div (Gin.toRow (Wv (Proc.devRef .tc main_v39_1)) j) Gin.nn := by
  rw [hostOps2_main_v41, toRow_meanT]
theorem hostOps2_main_v45_spec : Gin.toRow (StableHlo.after (hostOps2 (F := Ideal)) Wv (Proc.devRef .tc main_v45))
    = fun j => Ideal.div (Gin.toRow (Wv (Proc.devRef .tc main_v39_2)) j) Gin.nn
        - Gin.toRow (StableHlo.after (hostOps2 (F := Ideal)) Wv (Proc.devRef .tc main_v41)) j * Gin.toRow (StableHlo.after (hostOps2 (F := Ideal)) Wv (Proc.devRef .tc main_v41)) j := by
  rw [hostOps2_main_v45, hostOps2_main_v41, toRow_varT]
/-- With the accumulators holding the column sums and the column sums of squares of `u`, the two rows are the
    column mean of `u` and its column variance as the mean of the squares minus the square of the mean. -/
theorem hostOps2_main_v41_mean (u : Gin.Mat) (hs : Gin.toRow (Wv (Proc.devRef .tc main_v39_1)) = Gin.colsum u) :
    Gin.toRow (StableHlo.after (hostOps2 (F := Ideal)) Wv (Proc.devRef .tc main_v41)) = Gin.mean u := by
  rw [hostOps2_main_v41]; exact toRow_meanT_of_colsum _ u hs
theorem hostOps2_main_v45_var (u : Gin.Mat) (hs : Gin.toRow (Wv (Proc.devRef .tc main_v39_1)) = Gin.colsum u)
    (hq : Gin.toRow (Wv (Proc.devRef .tc main_v39_2)) = Gin.colsum (fun r j => u r j * u r j)) :
    Gin.toRow (StableHlo.after (hostOps2 (F := Ideal)) Wv (Proc.devRef .tc main_v45)) = Gin.varK u := by
  rw [hostOps2_main_v45]; exact toRow_varT_of_colsum _ _ u hs hq
theorem hostOps2_main_v48_spec : Gin.toRow (StableHlo.after (hostOps2 (F := Ideal)) Wv (Proc.devRef .tc main_v48)) = Gin.layerRow (0 : Fin 5) (Wv (Proc.devRef .tc main_arg8)) := by
  rw [hostOps2_main_v48]; exact toRow_rowT 0 (by decide) _ _
theorem hostOps2_main_v51_spec : Gin.toRow (StableHlo.after (hostOps2 (F := Ideal)) Wv (Proc.devRef .tc main_v51)) = Gin.layerRow (0 : Fin 5) (Wv (Proc.devRef .tc main_arg9)) := by
  rw [hostOps2_main_v51]; exact toRow_rowT 0 (by decide) _ _

end Cert.KernelIdeal.HostVal

end
-- ==== Proof.KI.Pay0.lean ====
/-
  One launch of the kernel that multiplies, adds a bias row and keeps column statistics, read at an index at the ideal
  values: floats are extended reals, every operation is exact, and a change of float format is the identity. The
  generated skeleton states each value the body stores as one pure term of the values it loads, the payloads `k0_pay1` …
  `k0_pay5`. Here each payload is read at an index as plain sums and products of extended reals:
    • `k0_pay1`, `k0_pay2` — the zero row the two statistics start from — are 0 at every column;
    • `k0_pay3` at (p, q) is ∑ₖ (xa[p, k] + xb[p, k]) · w[k, q] + b[0, q]: row p of the sum of the two inputs against
      column q of the weights, plus the bias row;
    • `k0_pay4` at (0, q) is s[0, q] + ∑ₚ `k0_pay3`[p, q]: the running column sum;
    • `k0_pay5` at (0, q) is s[0, q] + ∑ₚ `k0_pay3`[p, q]²: the running column sum of squares.
  The steps: the same-shape casts are the identity; the matrix product into a zero accumulator is the sum over its one
  contracted axis, re-indexed by that axis's coordinate; the bias row is broadcast over the rows; the reduction over the
  rows is the sum over the row coordinate; a vector cast to one row reads the vector.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## The matrix product's operand indices, axis by axis

  The product contracts the left factor's axis 1 with the right factor's axis 0; the left factor's axis 0 and the right
  factor's axis 1 are the result's two axes. -/

/-- The left operand's row is the result's row. -/
private theorem lhs_rows_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column is the contracted coordinate. -/
private theorem lhs_rows_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- The right operand's row is the contracted coordinate. -/
private theorem rhs_cols_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- The right operand's column is the result's column. -/
private theorem rhs_cols_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product of a `[2000, 256]` matrix by a `[256, 256]` one accumulated into zero, read at `(p, q)`: row `p` of the
    left factor against column `q` of the right one. -/
private theorem matmul_zero_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs_rows_0 _ _
      | ⟨1, _⟩ => exact (lhs_rows_1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (rhs_cols_0 _ _).trans hk
      | ⟨1, _⟩ => exact rhs_cols_1 _ _)
  rw [el, er]

/-! ## The reduction over the rows -/

/-- The sum over the rows of a `[2000, 256]` array, read at column `q`. -/
private theorem sumRows_apply (X : FVec Ideal S2000x256 .f32) (h : S2000x256.Reduces [0] S256) (hφ : FKind.Formats .f32)
    (hacc : (0x00000000#32 : BitVec 32) = 0x00000000#32) (q : Fin 256) :
    multiReduction (F := Ideal) .add [0] S256 X 0x00000000#32 h hφ hacc (ix1 q) = ∑ p : Fin 2000, X (ix2 p q) := by
  refine (Ideal.multiReduction_add_single X 0x00000000#32 h hφ hacc (ix1 q)).trans ?_
  refine Finset.sum_congr rfl fun p _ => congrArg X ?_
  exact funext fun a => Fin.ext (by
    match a with
    | ⟨0, _⟩ => rfl
    | ⟨1, _⟩ => rfl)

/-! ## The stored values at an index -/

/-- The first statistics row starts from zero. -/
theorem k0_pay1_apply (q : Fin 256) : k0_pay1 (F := Ideal) (ix2 0 q) = 0 := by
  unfold k0_pay1
  exact Ideal.ofBits_zero_f32

/-- The second statistics row starts from zero. -/
theorem k0_pay2_apply (q : Fin 256) : k0_pay2 (F := Ideal) (ix2 0 q) = 0 := by
  unfold k0_pay2
  exact Ideal.ofBits_zero_f32

/-- The product block at `(p, q)`: row `p` of the sum of the two inputs against column `q` of the weights, plus the
    bias row at `q`. -/
theorem k0_pay3_apply (xa xb : Vec Ideal S2000x256 .f32) (w : Vec Ideal S256x256 .bf16) (b : Vec Ideal S1x256 .f32)
    (p : Fin 2000) (q : Fin 256) :
    k0_pay3 (F := Ideal) xa xb w b (ix2 p q)
      = (∑ k : Fin 256, (xa (ix2 p k) + xb (ix2 p k)) * w (ix2 k q)) + b (ix2 0 q) := by
  unfold k0_pay3
  simp only [shapeCast_self]
  rw [addf_apply, broadcastTo_1b_ab_apply, matmul_zero_apply]
  rfl

/-- The column sums: the row read so far plus the sum of the product block over its rows. -/
theorem k0_pay4_apply (xa xb : Vec Ideal S2000x256 .f32) (w : Vec Ideal S256x256 .bf16) (b : Vec Ideal S1x256 .f32)
    (s : Vec Ideal S1x256 .f32) (q : Fin 256) :
    k0_pay4 (F := Ideal) xa xb w b s (ix2 0 q)
      = s (ix2 0 q) + ∑ p : Fin 2000, k0_pay3 (F := Ideal) xa xb w b (ix2 p q) := by
  unfold k0_pay4
  simp only [shapeCast_self]
  rw [addf_apply, shapeCast_a_1a_apply, sumRows_apply]

/-- The column sums of squares: the row read so far plus the sum of the product block's squares over its rows. -/
theorem k0_pay5_apply (xa xb : Vec Ideal S2000x256 .f32) (w : Vec Ideal S256x256 .bf16) (b : Vec Ideal S1x256 .f32)
    (s : Vec Ideal S1x256 .f32) (q : Fin 256) :
    k0_pay5 (F := Ideal) xa xb w b s (ix2 0 q)
      = s (ix2 0 q) + ∑ p : Fin 2000, k0_pay3 (F := Ideal) xa xb w b (ix2 p q) * k0_pay3 (F := Ideal) xa xb w b (ix2 p q) := by
  unfold k0_pay5
  simp only [shapeCast_self]
  rw [addf_apply, shapeCast_a_1a_apply, sumRows_apply]
  rfl

end Cert.KernelIdeal.PayVal

end
-- ==== Proof.KI.R0Val.lean ====
/-
  What region 0 of the idealized kernel program leaves in its output arrays, at the exact instance, as functions of what it finds in its
  input arrays: the mathematics of the kernel body summed over the grid.

  Each output's staging contents are first read off the body's stores (at any float instance): u's block is the affine map of the
  blocks; each accumulator row is the row found there (the zero row at the first point) plus this block's column sums. At the
  exact instance the u blocks are the 2000-row bands of ONE matrix, the affine map of the whole arrays, so the written-back bands
  assemble it; and each accumulator after point n is the sum of that matrix's (squared) entries over the rows below 2000·(n+1), so
  what the last point writes back is the column sum over all rows.
-/
import proofs.«102822_j3521873183180_1_alg».proof.Proof.KI.R0
import proofs.«102822_j3521873183180_1_alg».proof.Proof.KI.Pay0
import proofs.«102822_j3521873183180_1_alg».proof.Proof.Spec
import Idealize.ShloMosaic.Lib.Pipeline.Value

set_option maxRecDepth 16384

noncomputable section

namespace Cert.KernelIdeal.Hand

open Cert.KernelIdeal Cert.KernelIdeal.Gen Cert.KernelIdeal.PayVal
open Idealize.ShloMosaic Idealize.ShloMosaic.TcCoe Idealize.ShloMosaic.Tactic Idealize.ShloMosaic.ValueIdx
open Idealize.ShloMosaic.Pipeline (Dat)
open scoped BigOperators

/-! ## What the pieces are: each output's staging contents as the kernel's arithmetic of what the body loads (any float instance) -/

section Pieces

variable {F : FTy → Type} [FloatOps F]

/-- Every store and load of the body is at the origin of its buffer. -/
theorem origin0 : (![0, 0] : Fin 2 → Nat) = fun _ => 0 := funext fun a => by fin_cases a <;> rfl

/-- At the first point u's buffer holds the affine map of the blocks: its one covering store's payload. -/
theorem resetOut0_4_eq (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) :
    resetOut0_4 c i arg1 harg1 arg2 harg2 arg3 harg3 arg4 harg4 arg5 harg5 arg6 harg6 arg7 harg7 hc0 x0 x1 x2 x3 = k0_pay3 x0 x1 x2 x3 := by
  unfold resetOut0_4
  rw [View.read_writes_eq_canon _ _ _ (resetCover0_4 c i arg1 harg1 arg2 harg2 arg3 harg3 arg4 harg4 arg5 harg5 arg6 harg6 arg7 harg7 hc0 x0 x1 x2 x3)]
  unfold resetRun0
  dsimp only
  sl_unfold_words
  rw [View.canon_unit_zero origin0]
  simp only [View.readAt_eq_ld, harg1.read_unread, harg2.read_unread, harg3.read_unread, harg4.read_unread, View.ld_unit_zero (S := S2000x256) origin0, View.ld_unit_zero (S := S256x256) origin0, View.ld_unit_zero (S := S1x256) origin0]

/-- At the first point the column-sum accumulator holds the zero row plus u's column sums: the reset's store, read back, then the update. -/
theorem resetOut0_5_eq (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) :
    resetOut0_5 c i arg1 harg1 arg2 harg2 arg3 harg3 arg4 harg4 arg5 harg5 arg6 harg6 arg7 harg7 hc0 x0 x1 x2 x3 = k0_pay4 x0 x1 x2 x3 (k0_pay1 (F := F)) := by
  unfold resetOut0_5
  rw [View.read_writes_eq_canon _ _ _ (resetCover0_5 c i arg1 harg1 arg2 harg2 arg3 harg3 arg4 harg4 arg5 harg5 arg6 harg6 arg7 harg7 hc0 x0 x1 x2 x3)]
  unfold resetRun0
  dsimp only
  sl_unfold_words
  rw [View.canon_cons_unit_zero (S := S1x256) origin0, View.readCov_unit_zero (S := S1x256) _ origin0]
  simp only [View.readAt_eq_ld, harg1.read_unread, harg2.read_unread, harg3.read_unread, harg4.read_unread, View.ld_unit_zero (S := S2000x256) origin0, View.ld_unit_zero (S := S256x256) origin0, View.ld_unit_zero (S := S1x256) origin0]

/-- At the first point the sum-of-squares accumulator holds the zero row plus the column sums of u·u. -/
theorem resetOut0_6_eq (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first0 i)
    (x0 : Vec F S2000x256 .f32) (x1 : Vec F S2000x256 .f32) (x2 : Vec F S256x256 .bf16) (x3 : Vec F S1x256 .f32) :
    resetOut0_6 c i arg1 harg1 arg2 harg2 arg3 harg3 arg4 harg4 arg5 harg5 arg6 harg6 arg7 harg7 hc0 x0 x1 x2 x3 = k0_pay5 x0 x1 x2 x3 (k0_pay2 (F := F)) := by
  unfold resetOut0_6
  rw [View.read_writes_eq_canon _ _ _ (resetCover0_6 c i arg1 harg1 arg2 harg2 arg3 harg3 arg4 harg4 arg5 harg5 arg6 harg6 arg7 harg7 hc0 x0 x1 x2 x3)]
  unfold resetRun0
  dsimp only
  sl_unfold_words
  rw [View.canon_cons_unit_zero (S := S1x256) origin0, View.readCov_unit_zero (S := S1x256) _ origin0]
  simp only [View.readAt_eq_ld, harg1.read_unread, harg2.read_unread, harg3.read_unread, harg4.read_unread, View.ld_unit_zero (S := S2000x256) origin0, View.ld_unit_zero (S := S256x256) origin0, View.ld_unit_zero (S := S1x256) origin0]

/-- At a later point u's buffer holds the affine map of the blocks, whatever the accumulators held. -/
theorem carryOut0_4_eq (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut0_4 c i arg1 harg1 arg2 harg2 arg3 harg3 arg4 harg4 arg5 harg5 arg6 harg6 arg7 harg7 hc0 x0 x1 x2 x3 xo5 xo6 = k0_pay3 x0 x1 x2 x3 := by
  unfold carryOut0_4
  rw [View.read_writes_eq_canon _ _ _ (carryCover0_4 c i arg1 harg1 arg2 harg2 arg3 harg3 arg4 harg4 arg5 harg5 arg6 harg6 arg7 harg7 hc0 x0 x1 x2 x3 xo5 xo6)]
  unfold carryRun0
  dsimp only
  sl_unfold_words
  rw [View.canon_unit_zero origin0]
  simp only [View.readAt_eq_ld, harg1.read_unread, harg2.read_unread, harg3.read_unread, harg4.read_unread, harg6.read_unread, harg7.read_unread, View.ld_unit_zero (S := S2000x256) origin0, View.ld_unit_zero (S := S256x256) origin0, View.ld_unit_zero (S := S1x256) origin0]

/-- At a later point the column-sum accumulator holds the row it found plus u's column sums. -/
theorem carryOut0_5_eq (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut0_5 c i arg1 harg1 arg2 harg2 arg3 harg3 arg4 harg4 arg5 harg5 arg6 harg6 arg7 harg7 hc0 x0 x1 x2 x3 xo5 xo6 = k0_pay4 x0 x1 x2 x3 xo5 := by
  unfold carryOut0_5
  rw [View.read_writes_eq_canon _ _ _ (carryCover0_5 c i arg1 harg1 arg2 harg2 arg3 harg3 arg4 harg4 arg5 harg5 arg6 harg6 arg7 harg7 hc0 x0 x1 x2 x3 xo5 xo6)]
  unfold carryRun0
  dsimp only
  sl_unfold_words
  rw [View.canon_unit_zero origin0]
  simp only [View.readAt_eq_ld, harg1.read_unread, harg2.read_unread, harg3.read_unread, harg4.read_unread, harg6.read_unread, harg7.read_unread, View.ld_unit_zero (S := S2000x256) origin0, View.ld_unit_zero (S := S256x256) origin0, View.ld_unit_zero (S := S1x256) origin0]

/-- At a later point the sum-of-squares accumulator holds the row it found plus the column sums of u·u. -/
theorem carryOut0_6_eq (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first0 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut0_6 c i arg1 harg1 arg2 harg2 arg3 harg3 arg4 harg4 arg5 harg5 arg6 harg6 arg7 harg7 hc0 x0 x1 x2 x3 xo5 xo6 = k0_pay5 x0 x1 x2 x3 xo6 := by
  unfold carryOut0_6
  rw [View.read_writes_eq_canon _ _ _ (carryCover0_6 c i arg1 harg1 arg2 harg2 arg3 harg3 arg4 harg4 arg5 harg5 arg6 harg6 arg7 harg7 hc0 x0 x1 x2 x3 xo5 xo6)]
  unfold carryRun0
  dsimp only
  sl_unfold_words
  rw [View.canon_unit_zero origin0]
  simp only [View.readAt_eq_ld, harg1.read_unread, harg2.read_unread, harg3.read_unread, harg4.read_unread, harg6.read_unread, harg7.read_unread, View.ld_unit_zero (S := S2000x256) origin0, View.ld_unit_zero (S := S256x256) origin0, View.ld_unit_zero (S := S1x256) origin0]

end Pieces

/-! ## At the exact instance -/

variable (V : (c : Dev nD) → (b : Ref sig .tc) → Buf (Elt Ideal) ((c : Thread nD τ).loc b))

/-- The four input arrays as the region finds them and the blocks the body loads at point `t`, each at its literal type. -/
abbrev hArr0 (c : Dev nD) : Vec Ideal S50000x256 .f32 := V c (Pipeline.arrRef spec0 0)
abbrev gArr0 (c : Dev nD) : Vec Ideal S50000x256 .f32 := V c (Pipeline.arrRef spec0 1)
abbrev wArr0 (c : Dev nD) : Vec Ideal S256x256 .bf16 := V c (Pipeline.arrRef spec0 2)
abbrev bArr0 (c : Dev nD) : Vec Ideal S1x256 .f32 := V c (Pipeline.arrRef spec0 3)
abbrev hBlk0 (c : Dev nD) (t : Fin cfg0.N) : Vec Ideal S2000x256 .f32 := iblk0 V c 0 t
abbrev gBlk0 (c : Dev nD) (t : Fin cfg0.N) : Vec Ideal S2000x256 .f32 := iblk0 V c 1 t
abbrev wBlk0 (c : Dev nD) (t : Fin cfg0.N) : Vec Ideal S256x256 .bf16 := iblk0 V c 2 t
abbrev bBlk0 (c : Dev nD) (t : Fin cfg0.N) : Vec Ideal S1x256 .f32 := iblk0 V c 3 t

/-- The printed index maps, decided over the grid: h, agg and u move one band of rows per point; the weight, the bias and the two
    accumulators stay at block (0, 0). -/
theorem bands0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of point `t`'s band of h is row 2000·t + p of h. -/
theorem hBlk0_apply (c : Dev nD) (t : Fin cfg0.N) (p : Fin 2000) (k : Fin 256) (r : Fin 50000) (hr : r.val = 2000 * t.val + p.val) :
    hBlk0 V c t (ix2 p k) = hArr0 V c (ix2 r k) := by
  show V c (Pipeline.arrRef spec0 0) (((cfg0.win 0).blk t).view.emb (ix2 p k)) = V c (Pipeline.arrRef spec0 0) (ix2 r k)
  refine congrArg _ ?_
  obtain ⟨e0, e1, -⟩ := bands0 t
  funext a; apply Fin.ext
  match a with
  | ⟨0, _⟩ => show win0_0.index t (0 : Fin 2) * 2000 + 1 * p.val = r.val; omega
  | ⟨1, _⟩ => show win0_0.index t (1 : Fin 2) * 256 + 1 * k.val = k.val; omega

/-- The same for the aggregate. -/
theorem gBlk0_apply (c : Dev nD) (t : Fin cfg0.N) (p : Fin 2000) (k : Fin 256) (r : Fin 50000) (hr : r.val = 2000 * t.val + p.val) :
    gBlk0 V c t (ix2 p k) = gArr0 V c (ix2 r k) := by
  show V c (Pipeline.arrRef spec0 1) (((cfg0.win 1).blk t).view.emb (ix2 p k)) = V c (Pipeline.arrRef spec0 1) (ix2 r k)
  refine congrArg _ ?_
  obtain ⟨-, -, e0, e1, -⟩ := bands0 t
  funext a; apply Fin.ext
  match a with
  | ⟨0, _⟩ => show win0_1.index t (0 : Fin 2) * 2000 + 1 * p.val = r.val; omega
  | ⟨1, _⟩ => show win0_1.index t (1 : Fin 2) * 256 + 1 * k.val = k.val; omega

/-- The weight's one block is the weight. -/
theorem wBlk0_apply (c : Dev nD) (t : Fin cfg0.N) (k : Fin 256) (q : Fin 256) : wBlk0 V c t (ix2 k q) = wArr0 V c (ix2 k q) := by
  show V c (Pipeline.arrRef spec0 2) (((cfg0.win 2).blk t).view.emb (ix2 k q)) = V c (Pipeline.arrRef spec0 2) (ix2 k q)
  refine congrArg _ ?_
  obtain ⟨-, -, -, -, e0, e1, -⟩ := bands0 t
  funext a; apply Fin.ext
  match a with
  | ⟨0, _⟩ => show win0_2.index t (0 : Fin 2) * 256 + 1 * k.val = k.val; omega
  | ⟨1, _⟩ => show win0_2.index t (1 : Fin 2) * 256 + 1 * q.val = q.val; omega

/-- The bias row's one block is the bias row. -/
theorem bBlk0_apply (c : Dev nD) (t : Fin cfg0.N) (q : Fin 256) : bBlk0 V c t (ix2 0 q) = bArr0 V c (ix2 0 q) := by
  show V c (Pipeline.arrRef spec0 3) (((cfg0.win 3).blk t).view.emb (ix2 0 q)) = V c (Pipeline.arrRef spec0 3) (ix2 0 q)
  refine congrArg _ ?_
  obtain ⟨-, -, -, -, -, -, e0, e1, -⟩ := bands0 t
  funext a; apply Fin.ext
  match a with
  | ⟨0, _⟩ => show win0_3.index t (0 : Fin 2) * 1 + 1 * 0 = 0; omega
  | ⟨1, _⟩ => show win0_3.index t (1 : Fin 2) * 256 + 1 * q.val = q.val; omega

/-- THE MATRIX u of the whole arrays: (h + agg) · W + b. -/
def uMat0 (c : Dev nD) : Gin.Mat :=
  Gin.lin (fun r k => Gin.toMat (V c (Pipeline.arrRef spec0 0)) r k + Gin.toMat (V c (Pipeline.arrRef spec0 1)) r k)
    (Gin.toWt (V c (Pipeline.arrRef spec0 2))) (Gin.toRow (V c (Pipeline.arrRef spec0 3)))

/-- The body's affine map of point `t`'s blocks is the band of rows 2000·t … 2000·t + 1999 of `uMat0`. -/
theorem band0 (c : Dev nD) (t : Fin cfg0.N) (p : Fin 2000) (q : Fin 256) (r : Fin 50000) (hr : r.val = 2000 * t.val + p.val) :
    k0_pay3 (F := Ideal) (hBlk0 V c t) (gBlk0 V c t) (wBlk0 V c t) (bBlk0 V c t) (ix2 p q) = uMat0 V c r q := by
  rw [k0_pay3_apply, bBlk0_apply V c t q]
  unfold uMat0 Gin.lin Gin.toMat Gin.toWt Gin.toRow
  refine congrArg (fun s : EReal => s + bArr0 V c (ix2 0 q)) (Finset.sum_congr rfl fun k _ => ?_)
  rw [hBlk0_apply V c t p k r hr, gBlk0_apply V c t p k r hr, wBlk0_apply V c t k q]

/-- The same band, squared entry by entry. -/
theorem bandSq0 (c : Dev nD) (t : Fin cfg0.N) (p : Fin 2000) (q : Fin 256) (r : Fin 50000) (hr : r.val = 2000 * t.val + p.val) :
    k0_pay3 (F := Ideal) (hBlk0 V c t) (gBlk0 V c t) (wBlk0 V c t) (bBlk0 V c t) (ix2 p q)
        * k0_pay3 (F := Ideal) (hBlk0 V c t) (gBlk0 V c t) (wBlk0 V c t) (bBlk0 V c t) (ix2 p q)
      = uMat0 V c r q * uMat0 V c r q := by
  rw [band0 V c t p q r hr]

/-- After EVERY point u's staging buffer holds the affine map of that point's blocks. -/
theorem uAt0 (c : Dev nD) (t : Fin cfg0.N) :
    (left0 V c t.val t.isLt).1 = k0_pay3 (F := Ideal) (hBlk0 V c t) (gBlk0 V c t) (wBlk0 V c t) (bBlk0 V c t) := by
  by_cases h0 : t.val = 0
  · rw [left0_first V c t h0]
    dsimp only
    exact resetOut0_4_eq (F := Ideal) c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) ((first0_iff t).mpr h0) (iblk0 V c 0 t) (iblk0 V c 1 t) (iblk0 V c 2 t) (iblk0 V c 3 t)
  · rw [left0_later V c t h0]
    dsimp only
    exact carryOut0_4_eq (F := Ideal) c (grid0.coords t) (buf0_0 t) (whole0_0 t) (buf0_1 t) (whole0_1 t) (buf0_2 t) (whole0_2 t) (buf0_3 t) (whole0_3 t) (buf0_4 t) (whole0_4 t) (buf0_5 t) (whole0_5 t) (buf0_6 t) (whole0_6 t) (fun h => h0 ((first0_iff t).mp h)) (iblk0 V c 0 t) (iblk0 V c 1 t) (iblk0 V c 2 t) (iblk0 V c 3 t) (left0 V c (t.val - 1) (Nat.lt_of_le_of_lt (Nat.sub_le _ _) t.isLt)).2.1 (left0 V c (t.val - 1) (Nat.lt_of_le_of_lt (Nat.sub_le _ _) t.isLt)).2.2

/-! ## Sums over the bands of rows -/

/-- Row `r` of a matrix at column `q`, and 0 past the last row: so that sums over rows are sums over ranges of naturals. -/
def rowOr0 (f : Gin.Mat) (q : Fin 256) (r : ℕ) : EReal := if h : r < 50000 then f ⟨r, h⟩ q else 0

/-- A sum over the 2000 rows of band `n`, each term that row's entry, is the sum of the entries over the band's range. -/
theorem bandSum0 (f : Gin.Mat) (q : Fin 256) (n : ℕ) (hn : n < 25) (g : Fin 2000 → EReal)
    (hg : ∀ (p : Fin 2000) (r : Fin 50000), r.val = 2000 * n + p.val → g p = f r q) :
    ∑ p : Fin 2000, g p = ∑ x ∈ Finset.range 2000, rowOr0 f q (2000 * n + x) := by
  rw [← Fin.sum_univ_eq_sum_range (fun x => rowOr0 f q (2000 * n + x)) 2000]
  refine Finset.sum_congr rfl fun p _ => ?_
  have hp := p.isLt
  have hr : 2000 * n + p.val < 50000 := by omega
  rw [hg p ⟨2000 * n + p.val, hr⟩ rfl]
  unfold rowOr0
  rw [dif_pos hr]

/-- The sum over all rows below 50000 is the column sum. -/
theorem allRows0 (f : Gin.Mat) (q : Fin 256) : ∑ x ∈ Finset.range 50000, rowOr0 f q x = Gin.colsum f q := by
  unfold Gin.colsum
  rw [← Fin.sum_univ_eq_sum_range (fun x => rowOr0 f q x) 50000]
  refine Finset.sum_congr rfl fun r _ => ?_
  unfold rowOr0
  rw [dif_pos r.isLt]

/-- THE COLUMN SUMS SO FAR. After point `n` the first accumulator's row holds the sum of `uMat0`'s entries over the rows below
    2000·(n+1): the zero row plus the first band's sums at the first point, the row found plus this band's sums later. -/
theorem sumAt0 (c : Dev nD) (q : Fin 256) : ∀ (n : ℕ) (hn : n < cfg0.N),
    (left0 V c n hn).2.1 (ix2 0 q) = ∑ x ∈ Finset.range (2000 * (n + 1)), rowOr0 (uMat0 V c) q x
  | 0, hn => by
    rw [left0_first V c ⟨0, hn⟩ rfl]
    dsimp only
    rw [resetOut0_5_eq (F := Ideal) c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) (buf0_5 ⟨0, hn⟩) (whole0_5 ⟨0, hn⟩) (buf0_6 ⟨0, hn⟩) (whole0_6 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩),
      k0_pay4_apply, k0_pay1_apply, zero_add,
      bandSum0 (uMat0 V c) q 0 (by omega) _ (fun p r hr => band0 V c ⟨0, hn⟩ p q r hr)]
    simp only [Nat.mul_zero, Nat.zero_add, Nat.mul_one]
  | n + 1, hn => by
    have hN : n + 1 < 25 := lt_of_lt_of_eq hn (show cfg0.N = 25 from N_0)
    rw [left0_later V c ⟨n + 1, hn⟩ (Nat.succ_ne_zero n)]
    dsimp only
    simp only [Nat.add_sub_cancel]
    rw [carryOut0_5_eq (F := Ideal) c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) (buf0_5 ⟨n + 1, hn⟩) (whole0_5 ⟨n + 1, hn⟩) (buf0_6 ⟨n + 1, hn⟩) (whole0_6 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (left0 V c n (Nat.lt_of_succ_lt hn)).2.1 (left0 V c n (Nat.lt_of_succ_lt hn)).2.2,
      k0_pay4_apply, sumAt0 c q n (Nat.lt_of_succ_lt hn),
      bandSum0 (uMat0 V c) q (n + 1) hN _ (fun p r hr => band0 V c ⟨n + 1, hn⟩ p q r hr),
      show 2000 * (n + 1 + 1) = 2000 * (n + 1) + 2000 from by ring, Finset.sum_range_add]

/-- THE COLUMN SUMS OF SQUARES SO FAR, the same way. -/
theorem sqAt0 (c : Dev nD) (q : Fin 256) : ∀ (n : ℕ) (hn : n < cfg0.N),
    (left0 V c n hn).2.2 (ix2 0 q) = ∑ x ∈ Finset.range (2000 * (n + 1)), rowOr0 (fun r j => uMat0 V c r j * uMat0 V c r j) q x
  | 0, hn => by
    rw [left0_first V c ⟨0, hn⟩ rfl]
    dsimp only
    rw [resetOut0_6_eq (F := Ideal) c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) (buf0_5 ⟨0, hn⟩) (whole0_5 ⟨0, hn⟩) (buf0_6 ⟨0, hn⟩) (whole0_6 ⟨0, hn⟩) ((first0_iff ⟨0, hn⟩).mpr rfl) (iblk0 V c 0 ⟨0, hn⟩) (iblk0 V c 1 ⟨0, hn⟩) (iblk0 V c 2 ⟨0, hn⟩) (iblk0 V c 3 ⟨0, hn⟩),
      k0_pay5_apply, k0_pay2_apply, zero_add,
      bandSum0 (fun r j => uMat0 V c r j * uMat0 V c r j) q 0 (by omega) _ (fun p r hr => bandSq0 V c ⟨0, hn⟩ p q r hr)]
    simp only [Nat.mul_zero, Nat.zero_add, Nat.mul_one]
  | n + 1, hn => by
    have hN : n + 1 < 25 := lt_of_lt_of_eq hn (show cfg0.N = 25 from N_0)
    rw [left0_later V c ⟨n + 1, hn⟩ (Nat.succ_ne_zero n)]
    dsimp only
    simp only [Nat.add_sub_cancel]
    rw [carryOut0_6_eq (F := Ideal) c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) (buf0_5 ⟨n + 1, hn⟩) (whole0_5 ⟨n + 1, hn⟩) (buf0_6 ⟨n + 1, hn⟩) (whole0_6 ⟨n + 1, hn⟩) (fun h => Nat.succ_ne_zero n ((first0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (left0 V c n (Nat.lt_of_succ_lt hn)).2.1 (left0 V c n (Nat.lt_of_succ_lt hn)).2.2,
      k0_pay5_apply, sqAt0 c q n (Nat.lt_of_succ_lt hn),
      bandSum0 (fun r j => uMat0 V c r j * uMat0 V c r j) q (n + 1) hN _ (fun p r hr => bandSq0 V c ⟨n + 1, hn⟩ p q r hr),
      show 2000 * (n + 1 + 1) = 2000 * (n + 1) + 2000 from by ring, Finset.sum_range_add]

/-! ## From the staging buffers to the arrays -/

/-- `uMat0` as contents of u's array. -/
def uArr0 (c : Dev nD) : Vec Ideal S50000x256 .f32 := fun i => uMat0 V c (i 0) (i 1)

/-- WHAT POINT `t` WRITES BACK is band `t` of `uArr0`. -/
theorem flushed0_4 (c : Dev nD) (t : Fin cfg0.N) :
    (dat0 V c).flushed 4 t = ((cfg0.win 4).blk t).view.read (Elt Ideal) (uArr0 V c) := by
  have hN : t.val < 25 := lt_of_lt_of_eq t.isLt (show cfg0.N = 25 from N_0)
  show (cfg0.win 4).cut (grid0.coords t) ((dat0 V c).after 4 t) = _
  rw [after0_4]
  funext j
  obtain ⟨p, q, rfl⟩ : ∃ (p : Fin 2000) (q : Fin 256), j = ix2 p q := ⟨j 0, j 1, eq_ix2 (n0 := 2000) (n1 := 256) j⟩
  obtain ⟨-, -, -, -, -, -, -, -, e0, e1, -⟩ := bands0 t
  have hp : p.val < 2000 := p.isLt
  have hr : 2000 * t.val + p.val < 50000 := by omega
  have hj : ((cfg0.win 4).blk t).view.emb (ix2 p q) = ix2 (⟨2000 * t.val + p.val, hr⟩ : Fin 50000) q := by
    funext a; apply Fin.ext
    match a with
    | ⟨0, _⟩ => show win0_4.index t (0 : Fin 2) * 2000 + 1 * p.val = 2000 * t.val + p.val; omega
    | ⟨1, _⟩ => show win0_4.index t (1 : Fin 2) * 256 + 1 * q.val = q.val; omega
  show (left0 V c t.val t.isLt).1 (ix2 p q) = uArr0 V c (((cfg0.win 4).blk t).view.emb (ix2 p q))
  rw [hj, uAt0 V c t]
  exact band0 V c t p q ⟨2000 * t.val + p.val, hr⟩ rfl

/-- An index of u's array is in point `t`'s block iff each coordinate is in the block's range on its axis. -/
theorem mem_blk0_4 (t : Fin cfg0.N) (i : (Pipeline.arrRef spec0 4).ty.shape.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole (Pipeline.arrRef spec0 4)).slice (win0_4.rect t)).set ↔ _
  rw [View.set_slice_whole, Rect.mem_set_unit]
  exact Iff.rfl

/-- The bands tile the array (row r is in band r / 2000), so u's array ends holding `uArr0`. -/
theorem final0_4 (c : Dev nD) : (dat0 V c).arrAt 4 cfg0.N = uArr0 V c :=
  (dat0 V c).arrAt_eq_of_cover 4 (uArr0 V c) (fun t _ => flushed0_4 V c t) fun i => by
    have hN : cfg0.N = 25 := N_0
    have hi0 : (i 0).val < 50000 := (i 0).isLt
    have hi1 : (i 1).val < 256 := (i 1).isLt
    refine ⟨⟨(i 0).val / 2000, by omega⟩, flush0_4 _, ?_⟩
    rw [mem_blk0_4]
    obtain ⟨-, -, -, -, -, -, -, -, e0, e1, -⟩ := bands0 (⟨(i 0).val / 2000, by omega⟩ : Fin cfg0.N)
    intro a
    match a with
    | ⟨0, _⟩ => show win0_4.index _ (0 : Fin 2) * 2000 ≤ (i 0).val ∧ (i 0).val < win0_4.index _ (0 : Fin 2) * 2000 + 2000; dsimp only at e0; omega
    | ⟨1, _⟩ => show win0_4.index _ (1 : Fin 2) * 256 ≤ (i 1).val ∧ (i 1).val < win0_4.index _ (1 : Fin 2) * 256 + 256; omega

/-- What the column-sum array is written back as: the column sums over all 50000 rows, as a row array. -/
def sumArr0 (c : Dev nD) : Vec Ideal S1x256 .f32 := fun i => Gin.colsum (uMat0 V c) (i 1)

set_option maxRecDepth 65536 in
/-- The one write-back of the column-sum array, after the last point, writes that row: block (0, 0) of the one-row array is the array, and the
    accumulator then holds the sum over every band. -/
theorem flushed0_5 (c : Dev nD) (t : Fin cfg0.N) (hf : (cfg0.win 5).flush t = true) :
    (dat0 V c).flushed 5 t = ((cfg0.win 5).blk t).view.read (Elt Ideal) (sumArr0 V c) := by
  have hN : cfg0.N = 25 := N_0
  have h24 : 2000 * (t.val + 1) = 50000 := by have := (flush0_5 t).mp hf; have := t.isLt; omega
  show (cfg0.win 5).cut (grid0.coords t) ((dat0 V c).after 5 t) = _
  rw [after0_5]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, e0, e1, -⟩ := bands0 t
  have hj : ((cfg0.win 5).blk t).view.emb (ix2 0 q) = ix2 0 q := by
    funext a; apply Fin.ext
    match a with
    | ⟨0, _⟩ => show win0_5.index t (0 : Fin 2) * 1 + 1 * 0 = 0; omega
    | ⟨1, _⟩ => show win0_5.index t (1 : Fin 2) * 256 + 1 * q.val = q.val; omega
  show (left0 V c t.val t.isLt).2.1 (ix2 0 q) = sumArr0 V c (((cfg0.win 5).blk t).view.emb (ix2 0 q))
  rw [hj]
  show (left0 V c t.val t.isLt).2.1 (ix2 0 q) = Gin.colsum (uMat0 V c) q
  rw [← allRows0, sumAt0 V c q t.val t.isLt, h24]

/-- An index of the column-sum array is in point `t`'s block iff each coordinate is in the block's range on its axis. -/
theorem mem_blk0_5 (t : Fin cfg0.N) (i : (Pipeline.arrRef spec0 5).ty.shape.Idx) :
    i ∈ ((cfg0.win 5).blk t).view.set ↔ ∀ a : Fin 2, win0_5.index t a * S1x256.size a ≤ (i a).val ∧ (i a).val < win0_5.index t a * S1x256.size a + S1x256.size a := by
  show i ∈ ((View.whole (Pipeline.arrRef spec0 5)).slice (win0_5.rect t)).set ↔ _
  rw [View.set_slice_whole, Rect.mem_set_unit]
  exact Iff.rfl

/-- So the column-sum array ends as that row. -/
theorem final0_5 (c : Dev nD) : (dat0 V c).arrAt 5 cfg0.N = sumArr0 V c :=
  (dat0 V c).arrAt_eq_of_cover 5 (sumArr0 V c) (flushed0_5 V c) fun i => by
    have hN : cfg0.N = 25 := N_0
    refine ⟨⟨24, by omega⟩, (flush0_5 _).mpr rfl, ?_⟩
    rw [mem_blk0_5]
    obtain ⟨-, -, -, -, -, -, -, -, -, -, e0, e1, -⟩ := bands0 (⟨24, by omega⟩ : Fin cfg0.N)
    intro a
    match a with
    | ⟨0, _⟩ => show win0_5.index _ (0 : Fin 2) * 1 ≤ (i 0).val ∧ (i 0).val < win0_5.index _ (0 : Fin 2) * 1 + 1; have hi0 : (i 0).val < 1 := (i 0).isLt; omega
    | ⟨1, _⟩ => show win0_5.index _ (1 : Fin 2) * 256 ≤ (i 1).val ∧ (i 1).val < win0_5.index _ (1 : Fin 2) * 256 + 256; have hi1 : (i 1).val < 256 := (i 1).isLt; omega

/-- What the sum-of-squares array is written back as: the column sums over all 50000 rows, as a row array. -/
def sqArr0 (c : Dev nD) : Vec Ideal S1x256 .f32 := fun i => Gin.colsum (fun r j => uMat0 V c r j * uMat0 V c r j) (i 1)

set_option maxRecDepth 65536 in
/-- The one write-back of the sum-of-squares array, after the last point, writes that row: block (0, 0) of the one-row array is the array, and the
    accumulator then holds the sum over every band. -/
theorem flushed0_6 (c : Dev nD) (t : Fin cfg0.N) (hf : (cfg0.win 6).flush t = true) :
    (dat0 V c).flushed 6 t = ((cfg0.win 6).blk t).view.read (Elt Ideal) (sqArr0 V c) := by
  have hN : cfg0.N = 25 := N_0
  have h24 : 2000 * (t.val + 1) = 50000 := by have := (flush0_6 t).mp hf; have := t.isLt; omega
  show (cfg0.win 6).cut (grid0.coords t) ((dat0 V c).after 6 t) = _
  rw [after0_6]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, -, -, e0, e1⟩ := bands0 t
  have hj : ((cfg0.win 6).blk t).view.emb (ix2 0 q) = ix2 0 q := by
    funext a; apply Fin.ext
    match a with
    | ⟨0, _⟩ => show win0_6.index t (0 : Fin 2) * 1 + 1 * 0 = 0; omega
    | ⟨1, _⟩ => show win0_6.index t (1 : Fin 2) * 256 + 1 * q.val = q.val; omega
  show (left0 V c t.val t.isLt).2.2 (ix2 0 q) = sqArr0 V c (((cfg0.win 6).blk t).view.emb (ix2 0 q))
  rw [hj]
  show (left0 V c t.val t.isLt).2.2 (ix2 0 q) = Gin.colsum (fun r j => uMat0 V c r j * uMat0 V c r j) q
  rw [← allRows0, sqAt0 V c q t.val t.isLt, h24]

/-- An index of the sum-of-squares array is in point `t`'s block iff each coordinate is in the block's range on its axis. -/
theorem mem_blk0_6 (t : Fin cfg0.N) (i : (Pipeline.arrRef spec0 6).ty.shape.Idx) :
    i ∈ ((cfg0.win 6).blk t).view.set ↔ ∀ a : Fin 2, win0_6.index t a * S1x256.size a ≤ (i a).val ∧ (i a).val < win0_6.index t a * S1x256.size a + S1x256.size a := by
  show i ∈ ((View.whole (Pipeline.arrRef spec0 6)).slice (win0_6.rect t)).set ↔ _
  rw [View.set_slice_whole, Rect.mem_set_unit]
  exact Iff.rfl

/-- So the sum-of-squares array ends as that row. -/
theorem final0_6 (c : Dev nD) : (dat0 V c).arrAt 6 cfg0.N = sqArr0 V c :=
  (dat0 V c).arrAt_eq_of_cover 6 (sqArr0 V c) (flushed0_6 V c) fun i => by
    have hN : cfg0.N = 25 := N_0
    refine ⟨⟨24, by omega⟩, (flush0_6 _).mpr rfl, ?_⟩
    rw [mem_blk0_6]
    obtain ⟨-, -, -, -, -, -, -, -, -, -, -, -, e0, e1⟩ := bands0 (⟨24, by omega⟩ : Fin cfg0.N)
    intro a
    match a with
    | ⟨0, _⟩ => show win0_6.index _ (0 : Fin 2) * 1 ≤ (i 0).val ∧ (i 0).val < win0_6.index _ (0 : Fin 2) * 1 + 1; have hi0 : (i 0).val < 1 := (i 0).isLt; omega
    | ⟨1, _⟩ => show win0_6.index _ (1 : Fin 2) * 256 ≤ (i 1).val ∧ (i 1).val < win0_6.index _ (1 : Fin 2) * 256 + 256; have hi1 : (i 1).val < 256 := (i 1).isLt; omega

/-! ## The region's three results -/

/-- The affine output: (h + agg) · W + b. -/
theorem val0_4 (c : Dev nD) : Gin.toMat ((dat0 V c).arrAt 4 cfg0.N)
    = Gin.lin (fun r k => Gin.toMat (V c (Pipeline.arrRef spec0 0)) r k + Gin.toMat (V c (Pipeline.arrRef spec0 1)) r k)
        (Gin.toWt (V c (Pipeline.arrRef spec0 2))) (Gin.toRow (V c (Pipeline.arrRef spec0 3))) := by
  rw [final0_4]
  rfl
/-- Its column sums. -/
theorem val0_5 (c : Dev nD) : Gin.toRow ((dat0 V c).arrAt 5 cfg0.N) = Gin.colsum (Gin.toMat ((dat0 V c).arrAt 4 cfg0.N)) := by
  rw [final0_5, final0_4]
  rfl
/-- The column sums of its squares. -/
theorem val0_6 (c : Dev nD) : Gin.toRow ((dat0 V c).arrAt 6 cfg0.N)
    = Gin.colsum (fun r j => Gin.toMat ((dat0 V c).arrAt 4 cfg0.N) r j * Gin.toMat ((dat0 V c).arrAt 4 cfg0.N) r j) := by
  rw [final0_6, final0_4]
  rfl

end Cert.KernelIdeal.Hand

end
-- ==== Proof.KI.Pay1.lean ====
/-
  The body of the normalise, multiply and accumulate-statistics step at the ideal values, read at an index (floats are
  extended reals, every operation exact, a change of float format the identity). Each value the body stores is, entry by
  entry, a plain sum or product of the entries it loaded: the normalised [2000,256] block times the [256,256] weight
  matrix plus the bias row; each accumulator row plus the column sums of a [2000,256] block, or of its squares; the zero
  rows of the first step; a row re-laid with its own layout.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx

/-! ## The [2000,256] × [256,256] product read at an entry -/

/-- Row axis of the left operand: the output's row. -/
theorem k1_lhs_axis0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- Column axis of the left operand: the contracted coordinate. -/
theorem k1_lhs_axis1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- Row axis of the right operand: the contracted coordinate. -/
theorem k1_rhs_axis0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- Column axis of the right operand: the output's column. -/
theorem k1_rhs_axis1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The matrix unit's product into a zero accumulator, at entry (p, q): the sum over the 256 contracted coordinates of
    the left operand's row p times the right operand's column q. -/
theorem k1_product_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  refine (Ideal.matmul_constant_zero_apply dot_S2000x256_S256x256_S2000x256_1_0_0_1_n_n none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact k1_lhs_axis0 _ _
      | ⟨1, _⟩ => exact (k1_lhs_axis1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (k1_rhs_axis0 _ _).trans hk
      | ⟨1, _⟩ => exact k1_rhs_axis1 _ _)
  rw [el, er]

/-! ## A column sum of a [2000,256] block, laid as a [1,256] row -/

/-- The sum over the 2000 rows, read at lane q. -/
theorem k1_colsum_apply (x : FVec Ideal S2000x256 .f32) (hacc : (0x00000000#32 : BitVec 32) = 0x00000000#32) (q : Fin 256) :
    multiReduction (F := Ideal) .add [0] S256 x 0x00000000#32 reduces_S2000x256_S256 (.inl rfl) hacc (ix1 q)
      = ∑ p : Fin 2000, x (ix2 p q) := by
  refine (Ideal.multiReduction_add_single x 0x00000000#32 reduces_S2000x256_S256 (.inl rfl) hacc (ix1 q)).trans ?_
  refine Finset.sum_congr rfl fun p _ => congrArg x ?_
  funext a
  match a with
  | ⟨0, _⟩ => rfl
  | ⟨1, _⟩ => rfl

/-! ## What the body stores, entry by entry -/

/-- The normalised block times the weights plus the bias: entry (p, q) is the sum over k of
    ((x[p,k] − mean[k]) · rsqrt(var[k] + ε) · gain[k] + shift[k]) · w[k,q], plus bias[q]; the narrowing to bf16 in
    front of the matrix unit is the identity on extended reals. -/
theorem k1_pay5_apply (v3 : Vec Ideal S2000x256 .f32) (v5 v9 v16 v20 : Vec Ideal S1x256 .f32)
    (v25 : Vec Ideal S256x256 .bf16) (v28 : Vec Ideal S1x256 .f32) (p : Fin 2000) (q : Fin 256) :
    k1_pay5 (F := Ideal) v3 v5 v9 v16 v20 v25 v28 (ix2 p q)
      = (∑ k : Fin 256, ((v3 (ix2 p k) - v5 (ix2 0 k)) * Ideal.rsqrt (v9 (ix2 0 k) + Ideal.ofBits .f32 0x3727C5AC#32)
            * v16 (ix2 0 k) + v20 (ix2 0 k)) * v25 (ix2 k q))
        + v28 (ix2 0 q) := by
  unfold k1_pay5
  simp only [shapeCast_self]
  refine (addf_apply _ _ _).trans ?_
  refine congrArg₂ (· + ·) ?_ ?_
  · refine (k1_product_apply _ _ p q).trans ?_
    refine Finset.sum_congr rfl fun k _ => congrArg (· * v25 (ix2 k q)) ?_
    show (v3 (ix2 p k) - broadcastTo S2000x256 v5 broadcasts_S1x256_S2000x256 (ix2 p k))
          * broadcastTo S2000x256 (rsqrt (addf v9 (broadcast S1x256 (Scalar.ofBits (F := Ideal) .f32 0x3727C5AC#32))))
              broadcasts_S1x256_S2000x256 (ix2 p k)
          * broadcastTo S2000x256 v16 broadcasts_S1x256_S2000x256 (ix2 p k)
        + broadcastTo S2000x256 v20 broadcasts_S1x256_S2000x256 (ix2 p k) = _
    rw [broadcastTo_1b_ab_apply v5 broadcasts_S1x256_S2000x256 p k,
      broadcastTo_1b_ab_apply (rsqrt (addf v9 (broadcast S1x256 (Scalar.ofBits (F := Ideal) .f32 0x3727C5AC#32))))
        broadcasts_S1x256_S2000x256 p k,
      broadcastTo_1b_ab_apply v16 broadcasts_S1x256_S2000x256 p k,
      broadcastTo_1b_ab_apply v20 broadcasts_S1x256_S2000x256 p k]
    rfl
  · exact broadcastTo_1b_ab_apply v28 broadcasts_S1x256_S2000x256 p q

/-- The first accumulator row plus the column sums of the block. -/
theorem k1_pay1_apply (v31 : FVec Ideal S2000x256 .f32) (v34 : FVec Ideal S1x256 .f32) (q : Fin 256) :
    k1_pay1 (F := Ideal) v31 v34 (ix2 0 q) = v34 (ix2 0 q) + ∑ p : Fin 2000, v31 (ix2 p q) := by
  unfold k1_pay1
  refine (addf_apply _ _ _).trans ?_
  refine congrArg (v34 (ix2 0 q) + ·) ?_
  refine (shapeCast_a_1a_apply _ shapeCasts_S256_S1x256 0 q).trans ?_
  exact k1_colsum_apply v31 rfl q

/-- The second accumulator row plus the column sums of the block's squares. -/
theorem k1_pay2_apply (v31 : FVec Ideal S2000x256 .f32) (v39 : Vec Ideal S1x256 .f32) (q : Fin 256) :
    k1_pay2 (F := Ideal) v31 v39 (ix2 0 q) = v39 (ix2 0 q) + ∑ p : Fin 2000, v31 (ix2 p q) * v31 (ix2 p q) := by
  unfold k1_pay2
  simp only [shapeCast_self]
  refine (addf_apply _ _ _).trans ?_
  refine congrArg (v39 (ix2 0 q) + ·) ?_
  refine (shapeCast_a_1a_apply _ shapeCasts_S256_S1x256 0 q).trans ?_
  exact k1_colsum_apply (mulf v31 v31) rfl q

/-- The zero row the first step stores into the first accumulator. -/
theorem k1_pay3_apply (q : Fin 256) : k1_pay3 (F := Ideal) (ix2 0 q) = 0 := by
  unfold k1_pay3
  exact Ideal.ofBits_zero_f32

/-- The zero row the first step stores into the second accumulator. -/
theorem k1_pay4_apply (q : Fin 256) : k1_pay4 (F := Ideal) (ix2 0 q) = 0 := by
  unfold k1_pay4
  exact Ideal.ofBits_zero_f32

/-- A [1,256] row re-laid as a [1,256] row is itself. -/
theorem k1_pay6_eq (v33 : Vec Ideal S1x256 .f32) : k1_pay6 (F := Ideal) v33 = v33 := by
  unfold k1_pay6
  exact shapeCast_self v33 shapeCasts_S1x256_S1x256

/-- … so at lane q it reads the row's lane q. -/
theorem k1_pay6_apply (v33 : Vec Ideal S1x256 .f32) (q : Fin 256) : k1_pay6 (F := Ideal) v33 (ix2 0 q) = v33 (ix2 0 q) :=
  congrFun (k1_pay6_eq v33) (ix2 0 q)

end Cert.KernelIdeal.PayVal

end
-- ==== Proof.LibBlockSum.lean ====
import Mathlib.Algebra.BigOperators.Fin

/-!
# A sum over 50000 rows, taken 25 blocks of 2000 rows at a time

In any commutative additive monoid: the sum of `f` over the rows below `2000 * n` (`upTo f n`, the first `n`
blocks) starts at zero, grows by one block's sum at each step, and is the whole sum after 25 steps. The core is
stated for any number of rows and any cut points (`below`), and specialised. Nothing here enumerates the rows:
the sets are compared element by element through linear arithmetic.
-/

namespace BlockSum

open Finset

variable {M : Type*} [AddCommMonoid M]

/-! ## Any number of rows, any cut point -/

/-- The sum of `f` over the rows whose index is below `k`. -/
def below {N : ℕ} (f : Fin N → M) (k : ℕ) : M := ∑ r ∈ univ.filter (fun r : Fin N => r.val < k), f r

/-- No row is below zero: the sum is zero. -/
theorem below_zero {N : ℕ} (f : Fin N → M) : below f 0 = 0 := by
  unfold below
  rw [filter_false_of_mem (fun r _ => Nat.not_lt_zero r.val), sum_empty]

/-- Every row is below a bound that is at least the number of rows: the sum is the whole sum. -/
theorem below_all {N : ℕ} (f : Fin N → M) (k : ℕ) (hk : N ≤ k) : below f k = ∑ r, f r := by
  unfold below
  rw [filter_true_of_mem (fun r _ => Nat.lt_of_lt_of_le r.isLt hk)]

/-- The rows from `k` up to `k + B`, as long as they exist, are the `B` rows `k + p`, `p < B`. -/
theorem sum_block {N : ℕ} (f : Fin N → M) (k B : ℕ) (h : k + B ≤ N) :
    ∑ r ∈ univ.filter (fun r : Fin N => k ≤ r.val ∧ r.val < k + B), f r
      = ∑ p : Fin B, f ⟨k + p.val, Nat.lt_of_lt_of_le (Nat.add_lt_add_left p.isLt k) h⟩ := by
  symm
  refine sum_bij (fun (p : Fin B) _ => (⟨k + p.val, Nat.lt_of_lt_of_le (Nat.add_lt_add_left p.isLt k) h⟩ : Fin N))
    ?_ ?_ ?_ ?_
  · intro p _
    have := p.isLt
    simp only [mem_filter, mem_univ, true_and]
    omega
  · intro p _ q _ hpq
    have := congrArg Fin.val hpq
    simp only at this
    exact Fin.ext (by omega)
  · intro r hr
    simp only [mem_filter, mem_univ, true_and] at hr
    exact ⟨⟨r.val - k, by omega⟩, mem_univ _, Fin.ext (by simp only; omega)⟩
  · intro p _
    rfl

/-- Raising the bound by `B` adds the block of the `B` rows from the old bound on. -/
theorem below_add {N : ℕ} (f : Fin N → M) (k B : ℕ) (h : k + B ≤ N) :
    below f (k + B) = below f k + ∑ p : Fin B, f ⟨k + p.val, Nat.lt_of_lt_of_le (Nat.add_lt_add_left p.isLt k) h⟩ := by
  have hsplit : univ.filter (fun r : Fin N => r.val < k + B)
      = univ.filter (fun r : Fin N => r.val < k) ∪ univ.filter (fun r : Fin N => k ≤ r.val ∧ r.val < k + B) := by
    ext r
    simp only [mem_filter, mem_univ, true_and, mem_union]
    omega
  have hdisj : Disjoint (univ.filter (fun r : Fin N => r.val < k))
      (univ.filter (fun r : Fin N => k ≤ r.val ∧ r.val < k + B)) := by
    rw [disjoint_filter]
    intro r _ h1 h2
    omega
  unfold below
  rw [hsplit, sum_union hdisj, sum_block f k B h]

/-! ## 50000 rows in 25 blocks of 2000 -/

/-- Row `p` of block `t` is one of the 50000 rows. -/
theorem row_of_block (t : Fin 25) (p : Fin 2000) : 2000 * t.val + p.val < 50000 := by
  have := t.isLt
  have := p.isLt
  omega

/-- Row `p` of block `n`, for a block number given as a natural number below 25. -/
theorem row_lt {n : ℕ} (hn : n < 25) (p : Fin 2000) : 2000 * n + p.val < 50000 := by
  have := p.isLt
  omega

/-- Every row lies in exactly one block: block `r / 2000` (one of the 25), at position `r % 2000` (one of the
    2000), and these two numbers give the row back. -/
theorem block_of_row (r : Fin 50000) :
    r.val / 2000 < 25 ∧ r.val % 2000 < 2000 ∧ 2000 * (r.val / 2000) + r.val % 2000 = r.val := by
  have := r.isLt
  omega

/-- The block that covers row `r`. -/
def blockOf (r : Fin 50000) : Fin 25 := ⟨r.val / 2000, (block_of_row r).1⟩

/-- The position of row `r` inside its block. -/
def posOf (r : Fin 50000) : Fin 2000 := ⟨r.val % 2000, (block_of_row r).2.1⟩

/-- A row is the row at its position in its block. -/
theorem row_eq (r : Fin 50000) : r = ⟨2000 * (blockOf r).val + (posOf r).val, row_of_block (blockOf r) (posOf r)⟩ :=
  Fin.ext (block_of_row r).2.2.symm

/-- The block and the position of row `p` of block `t` are `t` and `p`. -/
theorem blockOf_row (t : Fin 25) (p : Fin 2000) : blockOf ⟨2000 * t.val + p.val, row_of_block t p⟩ = t := by
  have := p.isLt
  exact Fin.ext (by simp only [blockOf]; omega)

@[inherit_doc blockOf_row]
theorem posOf_row (t : Fin 25) (p : Fin 2000) : posOf ⟨2000 * t.val + p.val, row_of_block t p⟩ = p := by
  have := p.isLt
  exact Fin.ext (by simp only [posOf]; omega)

/-- A row is below the first `n` blocks' end exactly when its block is one of the first `n`. -/
theorem lt_blocks_iff (r : Fin 50000) (n : ℕ) : r.val < 2000 * n ↔ (blockOf r).val < n := by
  simp only [blockOf]
  omega

/-- The sum of `f` over the first `n` blocks of 2000 rows. -/
def upTo (f : Fin 50000 → M) (n : ℕ) : M := ∑ r ∈ univ.filter (fun r : Fin 50000 => r.val < 2000 * n), f r

/-- `upTo` is `below` at the end of block `n`. -/
theorem upTo_eq_below (f : Fin 50000 → M) (n : ℕ) : upTo f n = below f (2000 * n) := rfl

/-- Before the first block the sum is zero. -/
theorem upTo_zero (f : Fin 50000 → M) : upTo f 0 = 0 := by
  rw [upTo_eq_below, Nat.mul_zero, below_zero]

/-- One more block adds that block's 2000 rows. -/
theorem upTo_succ (f : Fin 50000 → M) (n : ℕ) (hn : n < 25) :
    upTo f (n + 1) = upTo f n + ∑ p : Fin 2000, f ⟨2000 * n + p.val, by have := p.isLt; omega⟩ := by
  rw [upTo_eq_below, upTo_eq_below, Nat.mul_succ]
  exact below_add f (2000 * n) 2000 (by omega)

/-- After the 25 blocks the sum is the sum over all rows. -/
theorem upTo_all (f : Fin 50000 → M) : upTo f 25 = ∑ r, f r := by
  rw [upTo_eq_below]
  exact below_all f (2000 * 25) (by omega)

/-- An accumulator that starts at `a` and at step `n` (of 25) adds block `n`'s 2000 rows holds, after `n` steps,
    `a` plus the first `n` blocks. -/
theorem acc_eq (f : Fin 50000 → M) (a : M) (acc : ℕ → M) (h0 : acc 0 = a)
    (hs : ∀ n (hn : n < 25), acc (n + 1) = acc n + ∑ p : Fin 2000, f ⟨2000 * n + p.val, row_lt hn p⟩) :
    ∀ n, n ≤ 25 → acc n = a + upTo f n := by
  intro n
  induction n with
  | zero => intro _; rw [h0, upTo_zero, add_zero]
  | succ n ih =>
    intro hn
    rw [hs n (by omega), ih (by omega), upTo_succ f n (by omega), add_assoc]

/-- Such an accumulator holds, after the 25 steps, `a` plus the sum over all rows. -/
theorem acc_all (f : Fin 50000 → M) (a : M) (acc : ℕ → M) (h0 : acc 0 = a)
    (hs : ∀ n (hn : n < 25), acc (n + 1) = acc n + ∑ p : Fin 2000, f ⟨2000 * n + p.val, row_lt hn p⟩) :
    acc 25 = a + ∑ r, f r := by
  rw [acc_eq f a acc h0 hs 25 (Nat.le_refl _), upTo_all]

end BlockSum
-- ==== Proof.KI.R1Val.lean ====
/-
  What region 1 of the idealized kernel program leaves in its output arrays, at the exact instance, as functions of what it finds in its
  input arrays: the mathematics of the kernel body summed over the grid.
-/
import proofs.«102822_j3521873183180_1_alg».proof.Proof.KI.R1
import proofs.«102822_j3521873183180_1_alg».proof.Proof.Spec
import proofs.«102822_j3521873183180_1_alg».proof.Proof.KI.Pay1
import proofs.«102822_j3521873183180_1_alg».proof.Proof.LibBlockSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat)

section Pieces

variable {F : FTy → Type} [FloatOps F]

/-! ## What each case's stores leave, as the body's payloads of the blocks (any float instance) -/

theorem hz1 : (![0, 0] : Fin 2 → Nat) = fun _ => 0 := funext fun a => by fin_cases a <;> rfl

/-- At the first point the block output's buffer ends at the one store's payload: the affine map of the normalised input block. -/
theorem out1_A_7_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out1_A_7 c i arg1 harg1 arg2 harg2 arg3 harg3 arg4 harg4 arg5 harg5 arg6 harg6 arg7 harg7 arg8 harg8 arg9 harg9 arg10 harg10 hc0 x0 x1 x2 x3 x4 x5 x6 = k1_pay5 x0 x1 x2 x3 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_unit_zero hz1]
  simp only [View.readAt_eq_ld, harg1.read_unread, harg2.read_unread, harg3.read_unread, harg4.read_unread, harg5.read_unread, harg6.read_unread, harg7.read_unread, harg9.read_unread, harg10.read_unread,
    View.ld_unit_zero (S := S2000x256) hz1, View.ld_unit_zero (S := S1x256) hz1, View.ld_unit_zero (S := S256x256) hz1]

/-- At the first point the first accumulator ends at the zero row, read back, plus the block's column sums. -/
theorem out1_A_8_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out1_A_8 c i arg1 harg1 arg2 harg2 arg3 harg3 arg4 harg4 arg5 harg5 arg6 harg6 arg7 harg7 arg8 harg8 arg9 harg9 arg10 harg10 hc0 x0 x1 x2 x3 x4 x5 x6 = k1_pay1 (k1_pay5 x0 x1 x2 x3 x4 x5 x6) (k1_pay6 (k1_pay3 (F := F))) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_cons_unit_zero (S := S1x256) hz1, View.readCov_unit_zero (S := S1x256) _ hz1]
  simp only [View.readAt_eq_ld, harg1.read_unread, harg2.read_unread, harg3.read_unread, harg4.read_unread, harg5.read_unread, harg6.read_unread, harg7.read_unread, harg9.read_unread, harg10.read_unread,
    View.ld_unit_zero (S := S2000x256) hz1, View.ld_unit_zero (S := S1x256) hz1, View.ld_unit_zero (S := S256x256) hz1]

/-- At the first point the second accumulator ends at the zero row, read back, plus the column sums of the block's squares. -/
theorem out1_A_9_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out1_A_9 c i arg1 harg1 arg2 harg2 arg3 harg3 arg4 harg4 arg5 harg5 arg6 harg6 arg7 harg7 arg8 harg8 arg9 harg9 arg10 harg10 hc0 x0 x1 x2 x3 x4 x5 x6 = k1_pay2 (k1_pay5 x0 x1 x2 x3 x4 x5 x6) (k1_pay4 (F := F)) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  sl_unfold_words
  rw [View.canon_cons_unit_zero (S := S1x256) hz1, View.readCov_unit_zero (S := S1x256) _ hz1]
  simp only [View.readAt_eq_ld, harg1.read_unread, harg2.read_unread, harg3.read_unread, harg4.read_unread, harg5.read_unread, harg6.read_unread, harg7.read_unread, harg9.read_unread, harg10.read_unread,
    View.ld_unit_zero (S := S2000x256) hz1, View.ld_unit_zero (S := S1x256) hz1, View.ld_unit_zero (S := S256x256) hz1]

/-- At any other point the block output's buffer ends at the one store's payload: the affine map of the normalised input block. -/
theorem out1_B_7_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out1_B_7 c i arg1 harg1 arg2 harg2 arg3 harg3 arg4 harg4 arg5 harg5 arg6 harg6 arg7 harg7 arg8 harg8 arg9 harg9 arg10 harg10 hc0 x0 x1 x2 x3 x4 x5 x6 xo8 xo9 = k1_pay5 x0 x1 x2 x3 x4 x5 x6 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz1]
  simp only [View.readAt_eq_ld, harg1.read_unread, harg2.read_unread, harg3.read_unread, harg4.read_unread, harg5.read_unread, harg6.read_unread, harg7.read_unread, harg9.read_unread, harg10.read_unread,
    View.ld_unit_zero (S := S2000x256) hz1, View.ld_unit_zero (S := S1x256) hz1, View.ld_unit_zero (S := S256x256) hz1]

/-- At any other point the first accumulator ends at what it held plus the block's column sums. -/
theorem out1_B_8_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out1_B_8 c i arg1 harg1 arg2 harg2 arg3 harg3 arg4 harg4 arg5 harg5 arg6 harg6 arg7 harg7 arg8 harg8 arg9 harg9 arg10 harg10 hc0 x0 x1 x2 x3 x4 x5 x6 xo8 xo9 = k1_pay1 (k1_pay5 x0 x1 x2 x3 x4 x5 x6) (k1_pay6 xo8) := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz1]
  simp only [View.readAt_eq_ld, harg1.read_unread, harg2.read_unread, harg3.read_unread, harg4.read_unread, harg5.read_unread, harg6.read_unread, harg7.read_unread, harg9.read_unread, harg10.read_unread,
    View.ld_unit_zero (S := S2000x256) hz1, View.ld_unit_zero (S := S1x256) hz1, View.ld_unit_zero (S := S256x256) hz1]

/-- At any other point the second accumulator ends at what it held plus the column sums of the block's squares. -/
theorem out1_B_9_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond1_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out1_B_9 c i arg1 harg1 arg2 harg2 arg3 harg3 arg4 harg4 arg5 harg5 arg6 harg6 arg7 harg7 arg8 harg8 arg9 harg9 arg10 harg10 hc0 x0 x1 x2 x3 x4 x5 x6 xo8 xo9 = k1_pay2 (k1_pay5 x0 x1 x2 x3 x4 x5 x6) xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  sl_unfold_words
  rw [View.canon_unit_zero hz1]
  simp only [View.readAt_eq_ld, harg1.read_unread, harg2.read_unread, harg3.read_unread, harg4.read_unread, harg5.read_unread, harg6.read_unread, harg7.read_unread, harg9.read_unread, harg10.read_unread,
    View.ld_unit_zero (S := S2000x256) hz1, View.ld_unit_zero (S := S1x256) hz1, View.ld_unit_zero (S := S256x256) hz1]

end Pieces

/-! ## The region at the exact instance -/

variable (V : (c : Dev nD) → (b : Ref sig .tc) → Buf (Elt Ideal) ((c : Thread nD τ).loc b))

/-- The grid has 25 points: a point's number is below 25. -/
theorem pt_lt1 (t : Fin cfg1.N) : t.val < 25 := lt_of_lt_of_eq t.isLt N_1

/-- What the region computes into its block output: the affine map bn(u; μ, σ², γ, β) · W + b of its input arrays. -/
def aff1 (c : Dev nD) : Gin.Mat :=
  Gin.lin (Gin.bn (Gin.toMat (V c (Pipeline.arrRef spec1 0))) (Gin.toRow (V c (Pipeline.arrRef spec1 1))) (Gin.toRow (V c (Pipeline.arrRef spec1 2)))
      (Gin.toRow (V c (Pipeline.arrRef spec1 3))) (Gin.toRow (V c (Pipeline.arrRef spec1 4))))
    (Gin.toWt (V c (Pipeline.arrRef spec1 5))) (Gin.toRow (V c (Pipeline.arrRef spec1 6)))

/-! ## Where each window's block sits in its array -/

/-- The printed index maps, decided over the grid: the two row-blocked windows are at block `t`, every other window at block 0. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- Row `p` of block `t` of a row-blocked window is row `2000 t + p` of its array. -/
theorem emb1_0 (t : Fin cfg1.N) (p : Fin 2000) (q : Fin 256) :
    ((cfg1.win 0).blk t).view.emb (ix2 p q) = ix2 (⟨2000 * t.val + p.val, BlockSum.row_lt (pt_lt1 t) p⟩ : Fin 50000) q := by
  funext a; apply Fin.ext
  obtain ⟨e0, e1⟩ := idx1_0 t
  match a with
  | ⟨0, _⟩ => show win1_0.index t (0 : Fin 2) * 2000 + 1 * p.val = 2000 * t.val + p.val; rw [e0]; omega
  | ⟨1, _⟩ => show win1_0.index t (1 : Fin 2) * 256 + 1 * q.val = q.val; rw [e1]; omega
theorem emb1_7 (t : Fin cfg1.N) (p : Fin 2000) (q : Fin 256) :
    ((cfg1.win 7).blk t).view.emb (ix2 p q) = ix2 (⟨2000 * t.val + p.val, BlockSum.row_lt (pt_lt1 t) p⟩ : Fin 50000) q := by
  funext a; apply Fin.ext
  obtain ⟨e0, e1⟩ := idx1_7 t
  match a with
  | ⟨0, _⟩ => show win1_7.index t (0 : Fin 2) * 2000 + 1 * p.val = 2000 * t.val + p.val; rw [e0]; omega
  | ⟨1, _⟩ => show win1_7.index t (1 : Fin 2) * 256 + 1 * q.val = q.val; rw [e1]; omega
/-- The one block of a row window is its array. -/
theorem emb1_1 (t : Fin cfg1.N) (q : Fin 256) :
    ((cfg1.win 1).blk t).view.emb (ix2 (0 : Fin 1) q) = ix2 (0 : Fin 1) q := by
  funext a; apply Fin.ext
  obtain ⟨e0, e1⟩ := idx1_1 t
  match a with
  | ⟨0, _⟩ => show win1_1.index t (0 : Fin 2) * 1 + 1 * (0 : Fin 1).val = (0 : Fin 1).val; rw [e0]; omega
  | ⟨1, _⟩ => show win1_1.index t (1 : Fin 2) * 256 + 1 * q.val = q.val; rw [e1]; omega
theorem emb1_2 (t : Fin cfg1.N) (q : Fin 256) :
    ((cfg1.win 2).blk t).view.emb (ix2 (0 : Fin 1) q) = ix2 (0 : Fin 1) q := by
  funext a; apply Fin.ext
  obtain ⟨e0, e1⟩ := idx1_2 t
  match a with
  | ⟨0, _⟩ => show win1_2.index t (0 : Fin 2) * 1 + 1 * (0 : Fin 1).val = (0 : Fin 1).val; rw [e0]; omega
  | ⟨1, _⟩ => show win1_2.index t (1 : Fin 2) * 256 + 1 * q.val = q.val; rw [e1]; omega
theorem emb1_3 (t : Fin cfg1.N) (q : Fin 256) :
    ((cfg1.win 3).blk t).view.emb (ix2 (0 : Fin 1) q) = ix2 (0 : Fin 1) q := by
  funext a; apply Fin.ext
  obtain ⟨e0, e1⟩ := idx1_3 t
  match a with
  | ⟨0, _⟩ => show win1_3.index t (0 : Fin 2) * 1 + 1 * (0 : Fin 1).val = (0 : Fin 1).val; rw [e0]; omega
  | ⟨1, _⟩ => show win1_3.index t (1 : Fin 2) * 256 + 1 * q.val = q.val; rw [e1]; omega
theorem emb1_4 (t : Fin cfg1.N) (q : Fin 256) :
    ((cfg1.win 4).blk t).view.emb (ix2 (0 : Fin 1) q) = ix2 (0 : Fin 1) q := by
  funext a; apply Fin.ext
  obtain ⟨e0, e1⟩ := idx1_4 t
  match a with
  | ⟨0, _⟩ => show win1_4.index t (0 : Fin 2) * 1 + 1 * (0 : Fin 1).val = (0 : Fin 1).val; rw [e0]; omega
  | ⟨1, _⟩ => show win1_4.index t (1 : Fin 2) * 256 + 1 * q.val = q.val; rw [e1]; omega
theorem emb1_6 (t : Fin cfg1.N) (q : Fin 256) :
    ((cfg1.win 6).blk t).view.emb (ix2 (0 : Fin 1) q) = ix2 (0 : Fin 1) q := by
  funext a; apply Fin.ext
  obtain ⟨e0, e1⟩ := idx1_6 t
  match a with
  | ⟨0, _⟩ => show win1_6.index t (0 : Fin 2) * 1 + 1 * (0 : Fin 1).val = (0 : Fin 1).val; rw [e0]; omega
  | ⟨1, _⟩ => show win1_6.index t (1 : Fin 2) * 256 + 1 * q.val = q.val; rw [e1]; omega
theorem emb1_8 (t : Fin cfg1.N) (q : Fin 256) :
    ((cfg1.win 8).blk t).view.emb (ix2 (0 : Fin 1) q) = ix2 (0 : Fin 1) q := by
  funext a; apply Fin.ext
  obtain ⟨e0, e1⟩ := idx1_8 t
  match a with
  | ⟨0, _⟩ => show win1_8.index t (0 : Fin 2) * 1 + 1 * (0 : Fin 1).val = (0 : Fin 1).val; rw [e0]; omega
  | ⟨1, _⟩ => show win1_8.index t (1 : Fin 2) * 256 + 1 * q.val = q.val; rw [e1]; omega
theorem emb1_9 (t : Fin cfg1.N) (q : Fin 256) :
    ((cfg1.win 9).blk t).view.emb (ix2 (0 : Fin 1) q) = ix2 (0 : Fin 1) q := by
  funext a; apply Fin.ext
  obtain ⟨e0, e1⟩ := idx1_9 t
  match a with
  | ⟨0, _⟩ => show win1_9.index t (0 : Fin 2) * 1 + 1 * (0 : Fin 1).val = (0 : Fin 1).val; rw [e0]; omega
  | ⟨1, _⟩ => show win1_9.index t (1 : Fin 2) * 256 + 1 * q.val = q.val; rw [e1]; omega
/-- The one block of the weight window is its array. -/
theorem emb1_5 (t : Fin cfg1.N) (k : Fin 256) (q : Fin 256) :
    ((cfg1.win 5).blk t).view.emb (ix2 k q) = ix2 k q := by
  funext a; apply Fin.ext
  obtain ⟨e0, e1⟩ := idx1_5 t
  match a with
  | ⟨0, _⟩ => show win1_5.index t (0 : Fin 2) * 256 + 1 * k.val = k.val; rw [e0]; omega
  | ⟨1, _⟩ => show win1_5.index t (1 : Fin 2) * 256 + 1 * q.val = q.val; rw [e1]; omega

/-! ## The input blocks, entry by entry -/

theorem blk1_0_apply (c : Dev nD) (t : Fin cfg1.N) (p : Fin 2000) (k : Fin 256) :
    iblk1 V c 0 t (ix2 p k) = Gin.toMat (V c (Pipeline.arrRef spec1 0)) ⟨2000 * t.val + p.val, BlockSum.row_lt (pt_lt1 t) p⟩ k := by
  show V c (Pipeline.arrRef spec1 0) (((cfg1.win 0).blk t).view.emb (ix2 p k)) = _
  rw [emb1_0]
  rfl
theorem blk1_1_apply (c : Dev nD) (t : Fin cfg1.N) (k : Fin 256) :
    iblk1 V c 1 t (ix2 (0 : Fin 1) k) = Gin.toRow (V c (Pipeline.arrRef spec1 1)) k := by
  show V c (Pipeline.arrRef spec1 1) (((cfg1.win 1).blk t).view.emb (ix2 (0 : Fin 1) k)) = _
  rw [emb1_1]
  rfl
theorem blk1_2_apply (c : Dev nD) (t : Fin cfg1.N) (k : Fin 256) :
    iblk1 V c 2 t (ix2 (0 : Fin 1) k) = Gin.toRow (V c (Pipeline.arrRef spec1 2)) k := by
  show V c (Pipeline.arrRef spec1 2) (((cfg1.win 2).blk t).view.emb (ix2 (0 : Fin 1) k)) = _
  rw [emb1_2]
  rfl
theorem blk1_3_apply (c : Dev nD) (t : Fin cfg1.N) (k : Fin 256) :
    iblk1 V c 3 t (ix2 (0 : Fin 1) k) = Gin.toRow (V c (Pipeline.arrRef spec1 3)) k := by
  show V c (Pipeline.arrRef spec1 3) (((cfg1.win 3).blk t).view.emb (ix2 (0 : Fin 1) k)) = _
  rw [emb1_3]
  rfl
theorem blk1_4_apply (c : Dev nD) (t : Fin cfg1.N) (k : Fin 256) :
    iblk1 V c 4 t (ix2 (0 : Fin 1) k) = Gin.toRow (V c (Pipeline.arrRef spec1 4)) k := by
  show V c (Pipeline.arrRef spec1 4) (((cfg1.win 4).blk t).view.emb (ix2 (0 : Fin 1) k)) = _
  rw [emb1_4]
  rfl
theorem blk1_6_apply (c : Dev nD) (t : Fin cfg1.N) (k : Fin 256) :
    iblk1 V c 6 t (ix2 (0 : Fin 1) k) = Gin.toRow (V c (Pipeline.arrRef spec1 6)) k := by
  show V c (Pipeline.arrRef spec1 6) (((cfg1.win 6).blk t).view.emb (ix2 (0 : Fin 1) k)) = _
  rw [emb1_6]
  rfl
theorem blk1_5_apply (c : Dev nD) (t : Fin cfg1.N) (k : Fin 256) (q : Fin 256) :
    iblk1 V c 5 t (ix2 k q) = Gin.toWt (V c (Pipeline.arrRef spec1 5)) k q := by
  show V c (Pipeline.arrRef spec1 5) (((cfg1.win 5).blk t).view.emb (ix2 k q)) = _
  rw [emb1_5]
  rfl

/-- The body's block payload at the region's input blocks: row `p` of block `t` of the affine map. -/
theorem pay5_blocks1 (c : Dev nD) (t : Fin cfg1.N) (p : Fin 2000) (q : Fin 256) :
    k1_pay5 (F := Ideal) (iblk1 V c 0 t) (iblk1 V c 1 t) (iblk1 V c 2 t) (iblk1 V c 3 t) (iblk1 V c 4 t) (iblk1 V c 5 t) (iblk1 V c 6 t) (ix2 p q)
      = aff1 V c ⟨2000 * t.val + p.val, BlockSum.row_lt (pt_lt1 t) p⟩ q := by
  refine (PayVal.k1_pay5_apply (iblk1 V c 0 t) (iblk1 V c 1 t) (iblk1 V c 2 t) (iblk1 V c 3 t) (iblk1 V c 4 t) (iblk1 V c 5 t) (iblk1 V c 6 t) p q).trans ?_
  simp only [blk1_0_apply, blk1_1_apply, blk1_2_apply, blk1_3_apply, blk1_4_apply, blk1_5_apply, blk1_6_apply]
  rfl

/-! ## The block output -/

/-- The block output's array after the region: entry (r, j) of the affine map. -/
def G1_7 (c : Dev nD) : (⟨2, ![Gin.N, Gin.D]⟩ : Shape).Idx → EReal := fun i => aff1 V c (i 0) (i 1)

/-- What point `t` writes back of the block output is block `t` of it. -/
theorem flushed1_7_eq (c : Dev nD) (t : Fin cfg1.N) :
    (dat1 V c).flushed 7 t = ((cfg1.win 7).blk t).view.read (Elt Ideal) (G1_7 V c) := by
  show (cfg1.win 7).cut (grid1.coords t) ((dat1 V c).after 7 t) = _
  rw [after1_7]
  funext y
  obtain ⟨p, q, rfl⟩ : ∃ (p : Fin 2000) (q : Fin 256), y = ix2 p q := ⟨y 0, y 1, eq_ix2 (n0 := 2000) (n1 := 256) y⟩
  show (outsAt1 V c t.val t.isLt).1 (ix2 p q) = G1_7 V c (((cfg1.win 7).blk t).view.emb (ix2 p q))
  rw [emb1_7]
  show _ = aff1 V c ⟨2000 * t.val + p.val, BlockSum.row_lt (pt_lt1 t) p⟩ q
  by_cases h0 : t.val % 25 = 0
  · rw [outsAt1_A V c t h0]; dsimp only; rw [out1_A_7_eq]; exact pay5_blocks1 V c t p q
  · rw [outsAt1_B V c t h0]; dsimp only; rw [out1_B_7_eq]; exact pay5_blocks1 V c t p q

/-- The block output's array after the region, entry by entry. -/
theorem arr1_7_apply (c : Dev nD) (r : Fin 50000) (j : Fin 256) :
    Gin.toMat ((dat1 V c).arrAt 7 cfg1.N) r j = aff1 V c r j := by
  have ht : r.val / 2000 < cfg1.N := lt_of_lt_of_eq (BlockSum.block_of_row r).1 N_1.symm
  have h := Dat.arrAt_apply_of_mem (dat1 V c) 7 (G1_7 V c) (fun t _ => flushed1_7_eq V c t) cfg1.N ⟨r.val / 2000, ht⟩
    (((cfg1.win 7).blk ⟨r.val / 2000, ht⟩).view.emb (ix2 (BlockSum.posOf r) j)) ht (flush1_7 _) (View.emb_mem_set _ _)
  rw [emb1_7] at h
  have hrow : (⟨2000 * (⟨r.val / 2000, ht⟩ : Fin cfg1.N).val + (BlockSum.posOf r).val, BlockSum.row_lt (pt_lt1 ⟨r.val / 2000, ht⟩) (BlockSum.posOf r)⟩ : Fin 50000) = r :=
    Fin.ext (BlockSum.block_of_row r).2.2
  rw [hrow] at h
  exact h

/-- The affine output of the normalised input: bn(u; μ, σ², γ, β) · W + b. -/
theorem val1_7 (c : Dev nD) : Gin.toMat ((dat1 V c).arrAt 7 cfg1.N)
    = Gin.lin (Gin.bn (Gin.toMat (V c (Pipeline.arrRef spec1 0))) (Gin.toRow (V c (Pipeline.arrRef spec1 1))) (Gin.toRow (V c (Pipeline.arrRef spec1 2)))
          (Gin.toRow (V c (Pipeline.arrRef spec1 3))) (Gin.toRow (V c (Pipeline.arrRef spec1 4))))
        (Gin.toWt (V c (Pipeline.arrRef spec1 5))) (Gin.toRow (V c (Pipeline.arrRef spec1 6))) := by
  funext r j
  exact arr1_7_apply V c r j

/-! ## The two accumulators -/

/-- The last point of the grid, where the accumulators are written back. -/
abbrev tLast1 : Fin cfg1.N := ⟨24, lt_of_lt_of_eq (by decide : 24 < 25) N_1.symm⟩

/-- After point `n` the first accumulator holds, lane by lane, the column sums of the affine map over the rows of the blocks so far. -/
theorem acc1_8 (c : Dev nD) (q : Fin 256) : ∀ (n : ℕ) (h : n < cfg1.N),
    (outsAt1 V c n h).2.1 (ix2 (0 : Fin 1) q) = 0 + BlockSum.upTo (fun r => aff1 V c r q) (n + 1)
  | 0, h => by
    rw [outsAt1_A V c ⟨0, h⟩ rfl]
    dsimp only
    rw [out1_A_8_eq]
    refine (PayVal.k1_pay1_apply _ _ q).trans ?_
    rw [PayVal.k1_pay6_apply, PayVal.k1_pay3_apply, BlockSum.upTo_succ _ 0 (by omega), BlockSum.upTo_zero]
    simp only [zero_add]
    refine Finset.sum_congr rfl fun p _ => ?_
    rw [pay5_blocks1 V c ⟨0, h⟩ p q]
  | n + 1, h => by
    have hN : n + 1 < 25 := lt_of_lt_of_eq h N_1
    have hB : ¬(⟨n + 1, h⟩ : Fin cfg1.N).val % 25 = 0 := by dsimp only; omega
    rw [outsAt1_B V c ⟨n + 1, h⟩ hB]
    dsimp only
    rw [out1_B_8_eq]
    refine (PayVal.k1_pay1_apply _ _ q).trans ?_
    rw [PayVal.k1_pay6_apply]
    show (outsAt1 V c n _).2.1 (ix2 (0 : Fin 1) q) + _ = _
    rw [acc1_8 c q n, BlockSum.upTo_succ _ (n + 1) hN, ← add_assoc]
    refine congrArg (0 + BlockSum.upTo _ (n + 1) + ·) (Finset.sum_congr rfl fun p _ => ?_)
    rw [pay5_blocks1 V c ⟨n + 1, h⟩ p q]

/-- The accumulator's array after the region. -/
def G1_8 (c : Dev nD) : (⟨2, ![1, Gin.D]⟩ : Shape).Idx → EReal := fun i => 0 + ∑ r, (fun q => aff1 V c r q) (i 1)

/-- Its one write-back, at the last point, writes the whole sum. -/
theorem flushed1_8_eq (c : Dev nD) (t : Fin cfg1.N) (hf : (cfg1.win 8).flush t = true) :
    (dat1 V c).flushed 8 t = ((cfg1.win 8).blk t).view.read (Elt Ideal) (G1_8 V c) := by
  have h24 : t.val = 24 := by have := (flush1_8 t).mp hf; have := pt_lt1 t; omega
  show (cfg1.win 8).cut (grid1.coords t) ((dat1 V c).after 8 t) = _
  rw [after1_8]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt1 V c t.val t.isLt).2.1 (ix2 (0 : Fin 1) q) = G1_8 V c (((cfg1.win 8).blk t).view.emb (ix2 (0 : Fin 1) q))
  rw [emb1_8, acc1_8 V c q t.val t.isLt, h24, BlockSum.upTo_all]
  rfl

/-- The accumulator's array after the region, lane by lane. -/
theorem arr1_8_apply (c : Dev nD) (q : Fin 256) :
    Gin.toRow ((dat1 V c).arrAt 8 cfg1.N) q = ∑ r, aff1 V c r q := by
  have h := Dat.arrAt_apply_of_mem (dat1 V c) 8 (G1_8 V c) (fun t hf => flushed1_8_eq V c t hf) cfg1.N tLast1
    (((cfg1.win 8).blk tLast1).view.emb (ix2 (0 : Fin 1) q)) tLast1.isLt ((flush1_8 tLast1).mpr rfl) (View.emb_mem_set _ _)
  rw [emb1_8] at h
  exact h.trans (zero_add _ : (0 : EReal) + _ = _)

/-- After point `n` the second accumulator holds, lane by lane, the column sums of the affine map's squares over the rows of the blocks so far. -/
theorem acc1_9 (c : Dev nD) (q : Fin 256) : ∀ (n : ℕ) (h : n < cfg1.N),
    (outsAt1 V c n h).2.2 (ix2 (0 : Fin 1) q) = 0 + BlockSum.upTo (fun r => aff1 V c r q * aff1 V c r q) (n + 1)
  | 0, h => by
    rw [outsAt1_A V c ⟨0, h⟩ rfl]
    dsimp only
    rw [out1_A_9_eq]
    refine (PayVal.k1_pay2_apply _ _ q).trans ?_
    rw [PayVal.k1_pay4_apply, BlockSum.upTo_succ _ 0 (by omega), BlockSum.upTo_zero]
    simp only [zero_add]
    refine Finset.sum_congr rfl fun p _ => ?_
    rw [pay5_blocks1 V c ⟨0, h⟩ p q]
  | n + 1, h => by
    have hN : n + 1 < 25 := lt_of_lt_of_eq h N_1
    have hB : ¬(⟨n + 1, h⟩ : Fin cfg1.N).val % 25 = 0 := by dsimp only; omega
    rw [outsAt1_B V c ⟨n + 1, h⟩ hB]
    dsimp only
    rw [out1_B_9_eq]
    refine (PayVal.k1_pay2_apply _ _ q).trans ?_
    show (outsAt1 V c n _).2.2 (ix2 (0 : Fin 1) q) + _ = _
    rw [acc1_9 c q n, BlockSum.upTo_succ _ (n + 1) hN, ← add_assoc]
    refine congrArg (0 + BlockSum.upTo _ (n + 1) + ·) (Finset.sum_congr rfl fun p _ => ?_)
    rw [pay5_blocks1 V c ⟨n + 1, h⟩ p q]

/-- The accumulator's array after the region. -/
def G1_9 (c : Dev nD) : (⟨2, ![1, Gin.D]⟩ : Shape).Idx → EReal := fun i => 0 + ∑ r, (fun q => aff1 V c r q * aff1 V c r q) (i 1)

/-- Its one write-back, at the last point, writes the whole sum. -/
theorem flushed1_9_eq (c : Dev nD) (t : Fin cfg1.N) (hf : (cfg1.win 9).flush t = true) :
    (dat1 V c).flushed 9 t = ((cfg1.win 9).blk t).view.read (Elt Ideal) (G1_9 V c) := by
  have h24 : t.val = 24 := by have := (flush1_9 t).mp hf; have := pt_lt1 t; omega
  show (cfg1.win 9).cut (grid1.coords t) ((dat1 V c).after 9 t) = _
  rw [after1_9]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt1 V c t.val t.isLt).2.2 (ix2 (0 : Fin 1) q) = G1_9 V c (((cfg1.win 9).blk t).view.emb (ix2 (0 : Fin 1) q))
  rw [emb1_9, acc1_9 V c q t.val t.isLt, h24, BlockSum.upTo_all]
  rfl

/-- The accumulator's array after the region, lane by lane. -/
theorem arr1_9_apply (c : Dev nD) (q : Fin 256) :
    Gin.toRow ((dat1 V c).arrAt 9 cfg1.N) q = ∑ r, aff1 V c r q * aff1 V c r q := by
  have h := Dat.arrAt_apply_of_mem (dat1 V c) 9 (G1_9 V c) (fun t hf => flushed1_9_eq V c t hf) cfg1.N tLast1
    (((cfg1.win 9).blk tLast1).view.emb (ix2 (0 : Fin 1) q)) tLast1.isLt ((flush1_9 tLast1).mpr rfl) (View.emb_mem_set _ _)
  rw [emb1_9] at h
  exact h.trans (zero_add _ : (0 : EReal) + _ = _)

/-- Its column sums. -/
theorem val1_8 (c : Dev nD) : Gin.toRow ((dat1 V c).arrAt 8 cfg1.N) = Gin.colsum (Gin.toMat ((dat1 V c).arrAt 7 cfg1.N)) := by
  funext q
  show _ = ∑ r, Gin.toMat ((dat1 V c).arrAt 7 cfg1.N) r q
  exact (arr1_8_apply V c q).trans (Finset.sum_congr rfl fun r _ => (arr1_7_apply V c r q).symm)
/-- The column sums of its squares. -/
theorem val1_9 (c : Dev nD) : Gin.toRow ((dat1 V c).arrAt 9 cfg1.N)
    = Gin.colsum (fun r j => Gin.toMat ((dat1 V c).arrAt 7 cfg1.N) r j * Gin.toMat ((dat1 V c).arrAt 7 cfg1.N) r j) := by
  funext q
  show _ = ∑ r, Gin.toMat ((dat1 V c).arrAt 7 cfg1.N) r q * Gin.toMat ((dat1 V c).arrAt 7 cfg1.N) r q
  exact (arr1_9_apply V c q).trans (Finset.sum_congr rfl fun r _ => by rw [arr1_7_apply V c r q])

end Cert.KernelIdeal.Hand

end
-- ==== Proof.KI.Pay2.lean ====
/-
  One launch of the kernel that normalizes a block of rows and keeps a running row of column sums, read at an index at the
  ideal values: floats are extended reals, every operation is exact, and a change of float format is the identity. The
  generated skeleton states each value the body stores as one pure term of the values it loads, the payloads `k2_pay1`,
  `k2_pay2`, `k2_pay3`. Here each payload is read at an index as plain sums and products of extended reals.

  The body loads a block x of 2000 rows by 256 columns and four rows of 256 entries: the column means, the column
  variances, a scale and a shift.
    • `k2_pay2` at (p, q) is ((x[p, q] − mean[0, q]) · rsqrt(var[0, q] + ε)) · scale[0, q] + shift[0, q], with ε the binary32
      value nearest 1e-5 (the word 0x3727C5AC): the normalized block;
    • `k2_pay3` at (0, q) is s[0, q] + ∑ₚ `k2_pay2`[p, q]: the running row s plus the normalized block's column sums;
    • `k2_pay1` — the zero row the running row is reset to at the first grid point — is 0 at every column.
  The steps: the same-shape casts are the identity; a row broadcast over the block's rows reads its one row; the products,
  the sum and the difference read entrywise; the reduction over the rows is the sum over the row coordinate, and the index
  it inserts that coordinate into is (p, q); the cast of the 256 column sums to a one-row block reads the sum at its column.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-- A row of 256 entries laid over the 2000 rows of the block reads, at row p and column q, its entry q. (The body first
    casts the row to its own shape, which changes nothing.) -/
private theorem row_over_block (v : Vec Ideal S1x256 .f32) (p : Fin 2000) (q : Fin 256) :
    broadcastTo S2000x256 (shapeCast S1x256 v shapeCasts_S1x256_S1x256) broadcasts_S1x256_S2000x256 (ix2 p q)
      = v (ix2 0 q) := by
  rw [shapeCast_self]
  exact broadcastTo_1b_ab_apply v broadcasts_S1x256_S2000x256 p q

/-- The sum of a 2000 × 256 block over its rows reads, at column q, the sum over p of the block's entries (p, q): the
    index the reduction inserts coordinate p into is (p, q). -/
private theorem column_sum (src : FVec Ideal S2000x256 .f32) (hφ : FKind.Formats .f32)
    (hacc : (0x00000000#32 : BitVec 32) = FKind.add.neutral .f32 hφ) (q : Fin 256) :
    multiReduction (F := Ideal) .add [0] S256 src 0x00000000#32 reduces_S2000x256_S256 hφ hacc (ix1 q)
      = ∑ p : Fin 2000, src (ix2 p q) := by
  refine (Ideal.multiReduction_add_single src _ reduces_S2000x256_S256 hφ hacc (ix1 q)).trans ?_
  refine Finset.sum_congr rfl fun p _ => congrArg src ?_
  funext c
  apply Fin.ext
  match c with
  | ⟨0, _⟩ => rfl
  | ⟨1, _⟩ => rfl

/-- The running row's reset value is zero in every column. -/
theorem k2_pay1_apply (q : Fin 256) : k2_pay1 (F := Ideal) (ix2 0 q) = 0 := by
  unfold k2_pay1
  exact Ideal.ofBits_zero_f32

/-- The normalized block at row p and column q: subtract the column's mean, multiply by the reciprocal root of the column's
    variance plus ε, multiply by the column's scale, add the column's shift. -/
theorem k2_pay2_apply (v3 : Vec Ideal S2000x256 .f32) (v5 v9 v16 v20 : Vec Ideal S1x256 .f32) (p : Fin 2000) (q : Fin 256) :
    k2_pay2 (F := Ideal) v3 v5 v9 v16 v20 (ix2 p q)
      = (v3 (ix2 p q) - v5 (ix2 0 q)) * Ideal.rsqrt (v9 (ix2 0 q) + Ideal.ofBits .f32 0x3727C5AC#32) * v16 (ix2 0 q)
        + v20 (ix2 0 q) := by
  unfold k2_pay2
  simp only [addf_apply, mulf_apply, subf_apply]
  rw [row_over_block v5 p q, row_over_block v16 p q, row_over_block v20 p q, shapeCast_self, broadcastTo_1b_ab_apply,
    shapeCast_self]
  rfl

/-- The running row after the body, at column q: what it held plus the sum over the block's 2000 rows of the normalized
    block's entries in column q. -/
theorem k2_pay3_apply (v3 : Vec Ideal S2000x256 .f32) (v5 v9 v16 v20 v25 : Vec Ideal S1x256 .f32) (q : Fin 256) :
    k2_pay3 (F := Ideal) v3 v5 v9 v16 v20 v25 (ix2 0 q)
      = v25 (ix2 0 q) + ∑ p : Fin 2000, k2_pay2 (F := Ideal) v3 v5 v9 v16 v20 (ix2 p q) := by
  unfold k2_pay3
  simp only [addf_apply]
  rw [shapeCast_self, shapeCast_a_1a_apply]
  exact congrArg (v25 (ix2 0 q) + ·) (column_sum _ _ _ q)

end Cert.KernelIdeal.PayVal
-- ==== Proof.KI.R2Val.lean ====
/-
  What region 2 of the idealized kernel program leaves in its output arrays, at the exact instance, as functions of what it finds in its
  input arrays: the mathematics of the kernel body summed over the grid.

  The normalized block of a point is the normalization of that point's block of rows, so the array of normalized rows, written
  back block by block, is the normalization of the whole array of rows. The running row after a point is the sum of the normalized
  rows of all blocks up to that point (the first point starts from the zero row), so what the last point writes back is the sum
  over all rows.
-/
import proofs.«102822_j3521873183180_1_alg».proof.Proof.KI.R2
import proofs.«102822_j3521873183180_1_alg».proof.Proof.KI.Pay2
import proofs.«102822_j3521873183180_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat)
open scoped BigOperators

section Pieces
variable {F : FTy → Type} [FloatOps F]

/-- The offsets of every load and store of the body: zero on both axes (each is of a whole buffer). -/
theorem zeros2 : (![0, 0] : Fin 2 → Nat) = fun _ => 0 := funext fun a => by fin_cases a <;> rfl

/-! ## Each case's stores, read as values -/

/-- The first point leaves in the normalized block's buffer the normalization of the input blocks (its one whole-block store). -/
theorem rowsFirst2_eq (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) :
    rowsFirst2 c i arg1 harg1 arg2 harg2 arg3 harg3 arg4 harg4 arg5 harg5 arg6 harg6 arg7 harg7 hc u mean var gain shift = k2_pay2 u mean var gain shift := by
  unfold rowsFirst2
  unfold runFirst2
  dsimp only
  sl_unfold_words
  rw [View.canon_unit_zero zeros2]
  simp only [View.readAt_eq_ld, harg1.read_unread, harg2.read_unread, harg3.read_unread, harg4.read_unread, harg5.read_unread, harg7.read_unread,
    View.ld_unit_zero (S := S2000x256) zeros2, View.ld_unit_zero (S := S1x256) zeros2, View.readCov_unit_zero (S := S1x256) _ zeros2]

/-- The first point leaves in the running row's buffer the reset row plus the block's column sums: the last store covers the row,
    and the row it adds to is the reset row read back. -/
theorem sumsFirst2_eq (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst2 i)
    (u : Vec F S2000x256 .f32) (mean : Vec F S1x256 .f32) (var : Vec F S1x256 .f32) (gain : Vec F S1x256 .f32) (shift : Vec F S1x256 .f32) :
    sumsFirst2 c i arg1 harg1 arg2 harg2 arg3 harg3 arg4 harg4 arg5 harg5 arg6 harg6 arg7 harg7 hc u mean var gain shift = k2_pay3 u mean var gain shift (k2_pay1 (F := F)) := by
  unfold sumsFirst2
  unfold runFirst2
  dsimp only
  sl_unfold_words
  rw [View.canon_cons_unit_zero (S := S1x256) zeros2]
  simp only [View.readAt_eq_ld, harg1.read_unread, harg2.read_unread, harg3.read_unread, harg4.read_unread, harg5.read_unread, harg7.read_unread,
    View.ld_unit_zero (S := S2000x256) zeros2, View.ld_unit_zero (S := S1x256) zeros2, View.readCov_unit_zero (S := S1x256) _ zeros2]

/-- A later point leaves in the normalized block's buffer the normalization of the input blocks. -/
theorem rowsLater2_eq (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) :
    rowsLater2 c i arg1 harg1 arg2 harg2 arg3 harg3 arg4 harg4 arg5 harg5 arg6 harg6 arg7 harg7 hc u mean var gain shift acc = k2_pay2 u mean var gain shift := by
  unfold rowsLater2
  unfold runLater2
  dsimp only
  sl_unfold_words
  rw [View.canon_unit_zero zeros2]
  simp only [View.readAt_eq_ld, harg1.read_unread, harg2.read_unread, harg3.read_unread, harg4.read_unread, harg5.read_unread, harg7.read_unread,
    View.ld_unit_zero (S := S2000x256) zeros2, View.ld_unit_zero (S := S1x256) zeros2, View.readCov_unit_zero (S := S1x256) _ zeros2]

/-- A later point leaves in the running row's buffer the row it found plus the block's column sums. -/
theorem sumsLater2_eq (c : Dev nD) (i : grid2.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst2 i)
    (u : Vec F S2000x256 .f32) (mean : Vec F S1x256 .f32) (var : Vec F S1x256 .f32) (gain : Vec F S1x256 .f32) (shift : Vec F S1x256 .f32) (acc : Vec F S1x256 .f32) :
    sumsLater2 c i arg1 harg1 arg2 harg2 arg3 harg3 arg4 harg4 arg5 harg5 arg6 harg6 arg7 harg7 hc u mean var gain shift acc = k2_pay3 u mean var gain shift acc := by
  unfold sumsLater2
  unfold runLater2
  dsimp only
  sl_unfold_words
  rw [View.canon_unit_zero zeros2]
  simp only [View.readAt_eq_ld, harg1.read_unread, harg2.read_unread, harg3.read_unread, harg4.read_unread, harg5.read_unread, harg7.read_unread,
    View.ld_unit_zero (S := S2000x256) zeros2, View.ld_unit_zero (S := S1x256) zeros2, View.readCov_unit_zero (S := S1x256) _ zeros2]

end Pieces

variable (V : (c : Dev nD) → (b : Ref sig .tc) → Buf (Elt Ideal) ((c : Thread nD τ).loc b))

/-! ## The same at a grid point, over the point's input blocks -/

/-- The input blocks of point `t` at their literal types: the block of rows, and the mean, variance, gain and shift rows. -/
abbrev rowsIn2 (c : Dev nD) (t : Fin cfg2.N) : Vec Ideal S2000x256 .f32 := iblk2 V c 0 t
abbrev meanIn2 (c : Dev nD) (t : Fin cfg2.N) : Vec Ideal S1x256 .f32 := iblk2 V c 1 t
abbrev varIn2 (c : Dev nD) (t : Fin cfg2.N) : Vec Ideal S1x256 .f32 := iblk2 V c 2 t
abbrev gainIn2 (c : Dev nD) (t : Fin cfg2.N) : Vec Ideal S1x256 .f32 := iblk2 V c 3 t
abbrev shiftIn2 (c : Dev nD) (t : Fin cfg2.N) : Vec Ideal S1x256 .f32 := iblk2 V c 4 t

/-- The normalized block after any point is the normalization of that point's input blocks (the same in both cases). -/
theorem rowsAt2_eq (c : Dev nD) (t : Fin cfg2.N) :
    rowsAt2 V c t = k2_pay2 (rowsIn2 V c t) (meanIn2 V c t) (varIn2 V c t) (gainIn2 V c t) (shiftIn2 V c t) := by
  by_cases h0 : t.val % 25 = 0
  · rw [rowsAt2_first V c t h0]
    unfold rowsFirstAt2
    exact rowsFirst2_eq c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) ((atFirst2_iff t).mpr h0) (iblk2 V c 0 t) (iblk2 V c 1 t) (iblk2 V c 2 t) (iblk2 V c 3 t) (iblk2 V c 4 t)
  · rw [rowsAt2_later V c t h0]
    unfold rowsLaterAt2
    exact rowsLater2_eq c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) (fun h => h0 ((atFirst2_iff t).mp h)) (iblk2 V c 0 t) (iblk2 V c 1 t) (iblk2 V c 2 t) (iblk2 V c 3 t) (iblk2 V c 4 t) (sumsBefore2 V c t)

/-- The running row after the first point: the reset row plus the first block's column sums. -/
theorem sumsAt2_reset (c : Dev nD) (t : Fin cfg2.N) (h0 : t.val % 25 = 0) :
    sumsAt2 V c t.val t.isLt = k2_pay3 (rowsIn2 V c t) (meanIn2 V c t) (varIn2 V c t) (gainIn2 V c t) (shiftIn2 V c t) (k2_pay1 (F := Ideal)) := by
  rw [sumsAt2_first V c t h0]
  unfold sumsFirstAt2
  exact sumsFirst2_eq c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) ((atFirst2_iff t).mpr h0) (iblk2 V c 0 t) (iblk2 V c 1 t) (iblk2 V c 2 t) (iblk2 V c 3 t) (iblk2 V c 4 t)

/-- The running row after a later point: the row after the point before plus this block's column sums. -/
theorem sumsAt2_step (c : Dev nD) (t : Fin cfg2.N) (h0 : ¬t.val % 25 = 0) :
    sumsAt2 V c t.val t.isLt = k2_pay3 (rowsIn2 V c t) (meanIn2 V c t) (varIn2 V c t) (gainIn2 V c t) (shiftIn2 V c t) (sumsBefore2 V c t) := by
  rw [sumsAt2_later V c t h0]
  unfold sumsLaterAt2
  exact sumsLater2_eq c (grid2.coords t) (stg2_0 t) (stgWhole2_0 t) (stg2_1 t) (stgWhole2_1 t) (stg2_2 t) (stgWhole2_2 t) (stg2_3 t) (stgWhole2_3 t) (stg2_4 t) (stgWhole2_4 t) (stg2_5 t) (stgWhole2_5 t) (stg2_6 t) (stgWhole2_6 t) (fun h => h0 ((atFirst2_iff t).mp h)) (iblk2 V c 0 t) (iblk2 V c 1 t) (iblk2 V c 2 t) (iblk2 V c 3 t) (iblk2 V c 4 t) (sumsBefore2 V c t)

/-! ## Where a block's elements sit in its array -/

/-- The block index of each window at each point, decided over the grid: the blocks of rows (windows 0 and 5) move down with the
    point; the rows (windows 1 to 4 and 6) stay. -/
theorem blockIndex2 : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0 :=
  (by decide +kernel : ∀ t : Fin grid2.N, _)

theorem point_lt2 (t : Fin cfg2.N) : t.val < 25 := lt_of_lt_of_eq t.isLt (show cfg2.N = 25 from N_2)

/-- Row `r` of point `t`'s block is row `2000 t + r` of the array. -/
def rowOf2 (t : Fin cfg2.N) (r : Fin 2000) : Fin 50000 :=
  ⟨2000 * t.val + r.val, by have := point_lt2 t; have := r.isLt; omega⟩

/-- The arrays the region reads, as it finds them, at their literal types. -/
abbrev rowsArr2 (c : Dev nD) : Vec Ideal S50000x256 .f32 := V c (Pipeline.arrRef spec2 0)
abbrev meanArr2 (c : Dev nD) : Vec Ideal S1x256 .f32 := V c (Pipeline.arrRef spec2 1)
abbrev varArr2 (c : Dev nD) : Vec Ideal S1x256 .f32 := V c (Pipeline.arrRef spec2 2)
abbrev gainArr2 (c : Dev nD) : Vec Ideal S1x256 .f32 := V c (Pipeline.arrRef spec2 3)
abbrev shiftArr2 (c : Dev nD) : Vec Ideal S1x256 .f32 := V c (Pipeline.arrRef spec2 4)

/-- An element of point `t`'s block of rows is the array's element in row `2000 t + r`. -/
theorem rowsIn2_apply (c : Dev nD) (t : Fin cfg2.N) (r : Fin 2000) (j : Fin 256) :
    rowsIn2 V c t (ix2 r j) = rowsArr2 V c (ix2 (rowOf2 t r) j) := by
  obtain ⟨e0, e1, -⟩ := blockIndex2 t
  unfold rowsIn2 iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * r.val = 2000 * t.val + r.val; omega
  | ⟨1, _⟩ => show win2_0.index t (1 : Fin 2) * 256 + 1 * j.val = j.val; omega

/-- The mean row's block at any point is the whole row. -/
theorem meanIn2_apply (c : Dev nD) (t : Fin cfg2.N) (j : Fin 256) :
    meanIn2 V c t (ix2 0 j) = meanArr2 V c (ix2 0 j) := by
  have e := blockIndex2 t
  unfold meanIn2 iblk2
  rw [View.read_apply]
  show V c (Pipeline.arrRef spec2 1) _ = V c (Pipeline.arrRef spec2 1) _
  congr 1
  funext a
  apply Fin.ext
  match a with
  | ⟨0, _⟩ => show win2_1.index t (0 : Fin 2) * 1 + 1 * 0 = 0; omega
  | ⟨1, _⟩ => show win2_1.index t (1 : Fin 2) * 256 + 1 * j.val = j.val; omega

/-- The var row's block at any point is the whole row. -/
theorem varIn2_apply (c : Dev nD) (t : Fin cfg2.N) (j : Fin 256) :
    varIn2 V c t (ix2 0 j) = varArr2 V c (ix2 0 j) := by
  have e := blockIndex2 t
  unfold varIn2 iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; omega
  | ⟨1, _⟩ => show win2_2.index t (1 : Fin 2) * 256 + 1 * j.val = j.val; omega

/-- The gain row's block at any point is the whole row. -/
theorem gainIn2_apply (c : Dev nD) (t : Fin cfg2.N) (j : Fin 256) :
    gainIn2 V c t (ix2 0 j) = gainArr2 V c (ix2 0 j) := by
  have e := blockIndex2 t
  unfold gainIn2 iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * 0 = 0; omega
  | ⟨1, _⟩ => show win2_3.index t (1 : Fin 2) * 256 + 1 * j.val = j.val; omega

/-- The shift row's block at any point is the whole row. -/
theorem shiftIn2_apply (c : Dev nD) (t : Fin cfg2.N) (j : Fin 256) :
    shiftIn2 V c t (ix2 0 j) = shiftArr2 V c (ix2 0 j) := by
  have e := blockIndex2 t
  unfold shiftIn2 iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * 0 = 0; omega
  | ⟨1, _⟩ => show win2_4.index t (1 : Fin 2) * 256 + 1 * j.val = j.val; omega

/-! ## The array of normalized rows -/

/-- The normalization of the whole array of rows by the mean, variance, gain and shift rows, as a matrix -/
abbrev hnewMat2 (c : Dev nD) : Gin.Mat :=
  Gin.bn (Gin.toMat (rowsArr2 V c)) (Gin.toRow (meanArr2 V c)) (Gin.toRow (varArr2 V c)) (Gin.toRow (gainArr2 V c)) (Gin.toRow (shiftArr2 V c))

/-- and as contents of the output array. -/
def hnewArr2 (c : Dev nD) : Vec Ideal S50000x256 .f32 := fun i => hnewMat2 V c (i 0) (i 1)

/-- An element of the block the body computes at point `t` is the normalized matrix's element in row `2000 t + r`. -/
theorem normalized2_apply (c : Dev nD) (t : Fin cfg2.N) (r : Fin 2000) (j : Fin 256) :
    k2_pay2 (rowsIn2 V c t) (meanIn2 V c t) (varIn2 V c t) (gainIn2 V c t) (shiftIn2 V c t) (ix2 r j) = hnewMat2 V c (rowOf2 t r) j := by
  rw [PayVal.k2_pay2_apply, rowsIn2_apply, meanIn2_apply, varIn2_apply, gainIn2_apply, shiftIn2_apply]
  rfl

/-- Where an element of point `t`'s output block sits in the output array: row `2000 t + r`, the same column. -/
theorem emb2_5 (t : Fin cfg2.N) (r : Fin 2000) (j : Fin 256) :
    ((cfg2.win 5).blk t).view.emb (ix2 r j) = ix2 (rowOf2 t r) j := by
  obtain ⟨-, -, e0, e1, -⟩ := blockIndex2 t
  funext a
  apply Fin.ext
  match a with
  | ⟨0, _⟩ => show win2_5.index t (0 : Fin 2) * 2000 + 1 * r.val = 2000 * t.val + r.val; omega
  | ⟨1, _⟩ => show win2_5.index t (1 : Fin 2) * 256 + 1 * j.val = j.val; omega

/-- WHAT POINT `t` WRITES BACK is block `t` of the array of normalized rows. -/
theorem flushed2_5 (c : Dev nD) (t : Fin cfg2.N) :
    (dat2 V c).flushed 5 t = ((cfg2.win 5).blk t).view.read (Elt Ideal) (hnewArr2 V c) := by
  show (cfg2.win 5).cut (grid2.coords t) ((dat2 V c).after 5 t) = _
  rw [after2_5, rowsAt2_eq]
  funext y
  obtain ⟨r, j, rfl⟩ : ∃ (r : Fin 2000) (j : Fin 256), y = ix2 r j := ⟨y 0, y 1, eq_ix2 y⟩
  rw [View.read_apply, emb2_5]
  exact normalized2_apply V c t r j

/-- An index of the output array is in point `t`'s block iff each coordinate is in the block's range on its axis. -/
theorem mem_blk2_5 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole (Pipeline.arrRef spec2 5)).slice (win2_5.rect t)).set ↔ _
  rw [View.set_slice_whole, Rect.mem_set_unit]
  exact Iff.rfl

/-- Every row of the output array is in the block of the point that row falls in, and every point writes its block back. -/
theorem cover2_5 (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hq : (i 0).val / 2000 < cfg2.N := by rw [show cfg2.N = 25 from N_2]; omega
  refine ⟨⟨(i 0).val / 2000, hq⟩, flush2_5 _, ?_⟩
  rw [mem_blk2_5]
  obtain ⟨-, -, e0, e1, -⟩ := blockIndex2 ⟨(i 0).val / 2000, hq⟩
  intro a
  match a with
  | ⟨0, _⟩ =>
    show win2_5.index ⟨(i 0).val / 2000, hq⟩ (0 : Fin 2) * 2000 ≤ (i 0).val ∧ (i 0).val < win2_5.index ⟨(i 0).val / 2000, hq⟩ (0 : Fin 2) * 2000 + 2000
    rw [e0]; dsimp only; omega
  | ⟨1, _⟩ =>
    show win2_5.index ⟨(i 0).val / 2000, hq⟩ (1 : Fin 2) * 256 ≤ (i 1).val ∧ (i 1).val < win2_5.index ⟨(i 0).val / 2000, hq⟩ (1 : Fin 2) * 256 + 256
    rw [e1]; omega

/-- So the output array ends holding the normalized rows. -/
theorem hnewFinal2 (c : Dev nD) : (dat2 V c).arrAt 5 cfg2.N = hnewArr2 V c :=
  (dat2 V c).arrAt_eq_of_cover 5 (hnewArr2 V c) (fun t _ => flushed2_5 V c t) cover2_5

/-- The normalised output: bn(u; μ, σ², γ, β). -/
theorem val2_5 (c : Dev nD) : Gin.toMat ((dat2 V c).arrAt 5 cfg2.N)
    = Gin.bn (Gin.toMat (V c (Pipeline.arrRef spec2 0))) (Gin.toRow (V c (Pipeline.arrRef spec2 1))) (Gin.toRow (V c (Pipeline.arrRef spec2 2)))
        (Gin.toRow (V c (Pipeline.arrRef spec2 3))) (Gin.toRow (V c (Pipeline.arrRef spec2 4))) := by
  rw [hnewFinal2]
  rfl

/-! ## The running row: the sum of the normalized rows so far -/

/-- Row `k` of the normalized matrix at column `j` (zero past the last row): the summand of the running sums. -/
def term2 (c : Dev nD) (j : Fin 256) (k : ℕ) : EReal := if h : k < 50000 then hnewMat2 V c ⟨k, h⟩ j else 0

/-- The column sums of the block the body computes at point `t`: the summands of rows `2000 t` to `2000 t + 1999`. -/
theorem blockSum2 (c : Dev nD) (t : Fin cfg2.N) (j : Fin 256) :
    (∑ r : Fin 2000, k2_pay2 (rowsIn2 V c t) (meanIn2 V c t) (varIn2 V c t) (gainIn2 V c t) (shiftIn2 V c t) (ix2 r j))
      = ∑ x ∈ Finset.range 2000, term2 V c j (2000 * t.val + x) := by
  rw [Finset.sum_range]
  refine Finset.sum_congr rfl fun r _ => ?_
  have ht := point_lt2 t
  have hr := r.isLt
  unfold term2
  rw [dif_pos (by omega)]
  exact normalized2_apply V c t r j

/-- THE INVARIANT: after the body at position `n` the running row holds, column by column, the sum of the normalized rows of the
    blocks up to `n`, by induction on the position. -/
theorem sumsAt2_sum (c : Dev nD) : ∀ (n : ℕ) (hn : n < cfg2.N) (j : Fin 256),
    sumsAt2 V c n hn (ix2 0 j) = ∑ k ∈ Finset.range (2000 * (n + 1)), term2 V c j k
  | 0, hn, j => by
    have h := congrFun (sumsAt2_reset V c ⟨0, hn⟩ (Nat.zero_mod _)) (ix2 0 j)
    refine h.trans ?_
    rw [PayVal.k2_pay3_apply, PayVal.k2_pay1_apply, zero_add, blockSum2]
    refine Finset.sum_congr rfl fun x _ => ?_
    show term2 V c j (2000 * 0 + x) = term2 V c j x
    rw [Nat.mul_zero, Nat.zero_add]
  | n + 1, hn, j => by
    have hN : n + 1 < 25 := lt_of_lt_of_eq hn (show cfg2.N = 25 from N_2)
    have hB : ¬(⟨n + 1, hn⟩ : Fin cfg2.N).val % 25 = 0 := by dsimp only; omega
    have h := congrFun (sumsAt2_step V c ⟨n + 1, hn⟩ hB) (ix2 0 j)
    refine h.trans ?_
    rw [PayVal.k2_pay3_apply, blockSum2]
    show sumsAt2 V c n _ (ix2 0 j) + _ = _
    rw [sumsAt2_sum c n _ j, show 2000 * (n + 1 + 1) = 2000 * (n + 1) + 2000 from by omega, Finset.sum_range_add]

/-- The last point of the grid, the one that writes the running row back. -/
def lastPoint2 : Fin cfg2.N := ⟨24, by rw [show cfg2.N = 25 from N_2]; decide⟩

/-- The running row after the last point, as contents of its array. -/
def sumsArr2 (c : Dev nD) : Vec Ideal S1x256 .f32 := sumsAt2 V c lastPoint2.val lastPoint2.isLt

/-- An element of the running row's block sits at the same place in its array: the block is the whole array. -/
theorem emb2_6 (t : Fin cfg2.N) (y : S1x256.Idx) : ((cfg2.win 6).blk t).view.emb y = y := by
  have e := blockIndex2 t
  funext a
  apply Fin.ext
  match a with
  | ⟨0, _⟩ => show win2_6.index t (0 : Fin 2) * 1 + 1 * (y 0).val = (y 0).val; omega
  | ⟨1, _⟩ => show win2_6.index t (1 : Fin 2) * 256 + 1 * (y 1).val = (y 1).val; omega

/-- The one write-back of the running row, at the last point, writes the row that point leaves. -/
theorem flushed2_6 (c : Dev nD) (t : Fin cfg2.N) (hf : (cfg2.win 6).flush t = true) :
    (dat2 V c).flushed 6 t = ((cfg2.win 6).blk t).view.read (Elt Ideal) (sumsArr2 V c) := by
  have h24 : t.val = 24 := by have := (flush2_6 t).mp hf; have := point_lt2 t; omega
  obtain rfl : t = lastPoint2 := Fin.ext h24
  show (cfg2.win 6).cut (grid2.coords lastPoint2) ((dat2 V c).after 6 lastPoint2) = _
  rw [after2_6]
  funext y
  rw [View.read_apply, emb2_6]
  rfl

/-- Every index of the running row's array is in the last point's block. -/
theorem cover2_6 (i : S1x256.Idx) : ∃ t : Fin cfg2.N, (cfg2.win 6).flush t = true ∧ i ∈ ((cfg2.win 6).blk t).view.set := by
  refine ⟨lastPoint2, (flush2_6 lastPoint2).mpr rfl, ?_⟩
  have e := blockIndex2 lastPoint2
  have hi0 : (i 0).val < 1 := (i 0).isLt
  have hi1 : (i 1).val < 256 := (i 1).isLt
  show i ∈ ((View.whole (Pipeline.arrRef spec2 6)).slice (win2_6.rect lastPoint2)).set
  rw [View.set_slice_whole, Rect.mem_set_unit]
  intro a
  match a with
  | ⟨0, _⟩ =>
    show win2_6.index lastPoint2 (0 : Fin 2) * 1 ≤ (i 0).val ∧ (i 0).val < win2_6.index lastPoint2 (0 : Fin 2) * 1 + 1
    omega
  | ⟨1, _⟩ =>
    show win2_6.index lastPoint2 (1 : Fin 2) * 256 ≤ (i 1).val ∧ (i 1).val < win2_6.index lastPoint2 (1 : Fin 2) * 256 + 256
    omega

/-- So the running row's array ends holding the row the last point leaves. -/
theorem sumsFinal2 (c : Dev nD) : (dat2 V c).arrAt 6 cfg2.N = sumsArr2 V c :=
  (dat2 V c).arrAt_eq_of_cover 6 (sumsArr2 V c) (flushed2_6 V c) cover2_6

/-- Its column sums: the layer's readout. -/
theorem val2_6 (c : Dev nD) : Gin.toRow ((dat2 V c).arrAt 6 cfg2.N) = Gin.colsum (Gin.toMat ((dat2 V c).arrAt 5 cfg2.N)) := by
  rw [sumsFinal2, hnewFinal2]
  funext j
  show sumsAt2 V c lastPoint2.val lastPoint2.isLt (ix2 0 j) = ∑ r : Fin 50000, hnewArr2 V c (ix2 r j)
  rw [sumsAt2_sum V c lastPoint2.val lastPoint2.isLt j, show 2000 * (lastPoint2.val + 1) = 50000 from rfl, Finset.sum_range]
  refine Finset.sum_congr rfl fun r _ => ?_
  unfold term2
  rw [dif_pos r.isLt]
  rfl

end Cert.KernelIdeal.Hand

end
-- ==== Proof.KI.Chain0.lean ====
/-
  The first layer of the idealized kernel program, against the specification.

  The specification's inputs are read off the launch memory: the node features, the two rows of the edge list, and the
  eight parameter arrays cut layer by layer. `feat i` is the features entering layer `i`: the input, then each layer
  applied in turn to the features before it and their aggregate along the edges.

  A layer is three kernel regions, each entered through a stretch of host operations. The first stretch aggregates the
  layer's input along the edges and cuts the first weight and bias; the first region leaves the first affine output
  `u1 = (h + agg h) · W1 + b1` with its column sums and column sums of squares. The second stretch turns the two
  accumulators into the column mean and variance and cuts the first gain and shift, the second weight and bias; the
  second region leaves the second affine output `u2 = bn(u1) · W2 + b2` with its two accumulators. The third stretch
  does the same for `u2`; the third region leaves the layer's result `bn(u2)` and its column sums, the layer's readout.
  Region by region: what a region leaves is its value lemma's function of what it finds, and what it finds is what the
  stretch before it computes from the buffers the region before that left.
-/
import proofs.«102822_j3521873183180_1_alg».proof.Proof.KI.ChainKeep
import proofs.«102822_j3521873183180_1_alg».proof.Proof.KI.HostVal.S0
import proofs.«102822_j3521873183180_1_alg».proof.Proof.KI.HostVal.S1
import proofs.«102822_j3521873183180_1_alg».proof.Proof.KI.HostVal.S2
import proofs.«102822_j3521873183180_1_alg».proof.Proof.KI.R0Val
import proofs.«102822_j3521873183180_1_alg».proof.Proof.KI.R1Val
import proofs.«102822_j3521873183180_1_alg».proof.Proof.KI.R2Val

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg) (c : Dev nD)

/-! ## The specification's inputs -/

/-- The input features, the source and destination words of the edges, and the parameters by layer, off the launch memory. -/
abbrev inX : Gin.Mat := Gin.toMat (m ((c : Thread nD τ).loc main_arg0))
abbrev inSrc : Fin Gin.E → BitVec 32 := Gin.srcOf (m ((c : Thread nD τ).loc main_arg1))
abbrev inDst : Fin Gin.E → BitVec 32 := Gin.dstOf (m ((c : Thread nD τ).loc main_arg1))
abbrev inP : ℕ → Gin.Params :=
  Gin.paramsAt (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))
/-- The features entering layer `i`, and their aggregate along the edges. -/
abbrev feat (i : ℕ) : Gin.Mat := Gin.chain Gin.layerK (inX m c) (inSrc m c) (inDst m c) (inP m c) i
abbrev aggr (i : ℕ) : Gin.Mat := Gin.agg (feat m c i) (inSrc m c) (inDst m c)

/-- One more layer: the layer's function of the features before it, their aggregate, and the layer's parameters. -/
theorem feat_succ (i : ℕ) : feat m c (i + 1) = Gin.layerK (feat m c i) (aggr m c i) (inP m c i) := rfl

/-- What the first stretch left in the two vectors of the edge list, read as the source and destination words. -/
theorem src_at {x : IVec S800000 32} (h : x = W1 m ρ c (Proc.devRef .tc main_v1)) : HostVal.ofVec x = inSrc m c :=
  by subst h; exact HostVal.hostOps0_main_v1_spec (W0 m ρ c)
theorem dst_at {x : IVec S800000 32} (h : x = W1 m ρ c (Proc.devRef .tc main_v3)) : HostVal.ofVec x = inDst m c :=
  by subst h; exact HostVal.hostOps0_main_v3_spec (W0 m ρ c)

/-! ## Layer 0, first region: the first affine output -/

/-- What region 0 finds: the input features, their aggregate, the first weight and the first bias of layer 0. -/
theorem l0_in_h : Gin.toMat (V1 m ρ c (Pipeline.arrRef spec0 0)) = feat m c 0 :=
  congrArg Gin.toMat (HostVal.hostOps0_main_arg0 (W0 m ρ c))
theorem l0_in_a : Gin.toMat (V1 m ρ c (Pipeline.arrRef spec0 1)) = aggr m c 0 :=
  HostVal.hostOps0_main_v13_spec (W0 m ρ c)
theorem l0_in_W1 : Gin.toWt (V1 m ρ c (Pipeline.arrRef spec0 2)) = (inP m c 0).W1 :=
  HostVal.hostOps0_main_v16_spec (W0 m ρ c)
theorem l0_in_b1 : Gin.toRow (V1 m ρ c (Pipeline.arrRef spec0 3)) = (inP m c 0).b1 :=
  HostVal.hostOps0_main_v19_spec (W0 m ρ c)

/-- What region 0 leaves: the first affine output of layer 0, its column sums, the column sums of its squares. -/
theorem l0_u1 : Gin.toMat ((dat0 (V1 m ρ) c).arrAt 4 cfg0.N) = Gin.u1 (feat m c 0) (aggr m c 0) (inP m c 0) := by
  rw [val0_4, l0_in_h, l0_in_a, l0_in_W1, l0_in_b1]; rfl
theorem l0_s1 : Gin.toRow (W2 m ρ c (Proc.devRef .tc main_v20_1)) = Gin.colsum (Gin.u1 (feat m c 0) (aggr m c 0) (inP m c 0)) := by
  rw [show W2 m ρ c (Proc.devRef .tc main_v20_1) = (dat0 (V1 m ρ) c).arrAt 5 cfg0.N from W2_arr m ρ c 5, val0_5, l0_u1]
theorem l0_q1 : Gin.toRow (W2 m ρ c (Proc.devRef .tc main_v20_2))
    = Gin.colsum (fun r j => Gin.u1 (feat m c 0) (aggr m c 0) (inP m c 0) r j * Gin.u1 (feat m c 0) (aggr m c 0) (inP m c 0) r j) := by
  rw [show W2 m ρ c (Proc.devRef .tc main_v20_2) = (dat0 (V1 m ρ) c).arrAt 6 cfg0.N from W2_arr m ρ c 6, val0_6, l0_u1]

/-! ## Layer 0, second region: the second affine output -/

/-- What region 1 finds: the first affine output, its column mean and variance, the first gain and shift, the second
    weight and bias of layer 0. -/
theorem l0_in_u1 : Gin.toMat (V3 m ρ c (Pipeline.arrRef spec1 0)) = Gin.u1 (feat m c 0) (aggr m c 0) (inP m c 0) :=
  (congrArg Gin.toMat ((StableHlo.after_of_writes_sub (r := main_v20_0) hostOps1 (W2 m ρ c) hostOps1_writes (by decide)).trans (W2_arr m ρ c 4))).trans (l0_u1 m ρ c)
theorem l0_in_mean1 : Gin.toRow (V3 m ρ c (Pipeline.arrRef spec1 1)) = Gin.mean (Gin.u1 (feat m c 0) (aggr m c 0) (inP m c 0)) :=
  HostVal.hostOps1_main_v22_mean (W2 m ρ c) _ (l0_s1 m ρ c)
theorem l0_in_var1 : Gin.toRow (V3 m ρ c (Pipeline.arrRef spec1 2)) = Gin.varK (Gin.u1 (feat m c 0) (aggr m c 0) (inP m c 0)) :=
  HostVal.hostOps1_main_v26_var (W2 m ρ c) _ (l0_s1 m ρ c) (l0_q1 m ρ c)
theorem l0_in_g1 : Gin.toRow (V3 m ρ c (Pipeline.arrRef spec1 3)) = (inP m c 0).g1 :=
  (HostVal.hostOps1_main_v29_spec (W2 m ρ c)).trans (congrArg (Gin.layerRow 0) (W2_param m ρ c main_arg4 untouched_main_arg4))
theorem l0_in_be1 : Gin.toRow (V3 m ρ c (Pipeline.arrRef spec1 4)) = (inP m c 0).be1 :=
  (HostVal.hostOps1_main_v32_spec (W2 m ρ c)).trans (congrArg (Gin.layerRow 0) (W2_param m ρ c main_arg5 untouched_main_arg5))
theorem l0_in_W2 : Gin.toWt (V3 m ρ c (Pipeline.arrRef spec1 5)) = (inP m c 0).W2 :=
  (HostVal.hostOps1_main_v35_spec (W2 m ρ c)).trans (congrArg (Gin.layerWt 0) (W2_param m ρ c main_arg6 untouched_main_arg6))
theorem l0_in_b2 : Gin.toRow (V3 m ρ c (Pipeline.arrRef spec1 6)) = (inP m c 0).b2 :=
  (HostVal.hostOps1_main_v38_spec (W2 m ρ c)).trans (congrArg (Gin.layerRow 0) (W2_param m ρ c main_arg7 untouched_main_arg7))

/-- What region 1 leaves: the second affine output of layer 0, its column sums, the column sums of its squares. -/
theorem l0_u2 : Gin.toMat ((dat1 (V3 m ρ) c).arrAt 7 cfg1.N) = Gin.u2K (feat m c 0) (aggr m c 0) (inP m c 0) := by
  rw [val1_7, l0_in_u1, l0_in_mean1, l0_in_var1, l0_in_g1, l0_in_be1, l0_in_W2, l0_in_b2]; rfl
theorem l0_s2 : Gin.toRow (W4 m ρ c (Proc.devRef .tc main_v39_1)) = Gin.colsum (Gin.u2K (feat m c 0) (aggr m c 0) (inP m c 0)) := by
  rw [show W4 m ρ c (Proc.devRef .tc main_v39_1) = (dat1 (V3 m ρ) c).arrAt 8 cfg1.N from W4_arr m ρ c 8, val1_8, l0_u2]
theorem l0_q2 : Gin.toRow (W4 m ρ c (Proc.devRef .tc main_v39_2))
    = Gin.colsum (fun r j => Gin.u2K (feat m c 0) (aggr m c 0) (inP m c 0) r j * Gin.u2K (feat m c 0) (aggr m c 0) (inP m c 0) r j) := by
  rw [show W4 m ρ c (Proc.devRef .tc main_v39_2) = (dat1 (V3 m ρ) c).arrAt 9 cfg1.N from W4_arr m ρ c 9, val1_9, l0_u2]

/-! ## Layer 0, third region: the layer's result and its readout -/

/-- What region 2 finds: the second affine output, its column mean and variance, the second gain and shift of layer 0. -/
theorem l0_in_u2 : Gin.toMat (V5 m ρ c (Pipeline.arrRef spec2 0)) = Gin.u2K (feat m c 0) (aggr m c 0) (inP m c 0) :=
  (congrArg Gin.toMat ((StableHlo.after_of_writes_sub (r := main_v39_0) hostOps2 (W4 m ρ c) hostOps2_writes (by decide)).trans (W4_arr m ρ c 7))).trans (l0_u2 m ρ c)
theorem l0_in_mean2 : Gin.toRow (V5 m ρ c (Pipeline.arrRef spec2 1)) = Gin.mean (Gin.u2K (feat m c 0) (aggr m c 0) (inP m c 0)) :=
  HostVal.hostOps2_main_v41_mean (W4 m ρ c) _ (l0_s2 m ρ c)
theorem l0_in_var2 : Gin.toRow (V5 m ρ c (Pipeline.arrRef spec2 2)) = Gin.varK (Gin.u2K (feat m c 0) (aggr m c 0) (inP m c 0)) :=
  HostVal.hostOps2_main_v45_var (W4 m ρ c) _ (l0_s2 m ρ c) (l0_q2 m ρ c)
theorem l0_in_g2 : Gin.toRow (V5 m ρ c (Pipeline.arrRef spec2 3)) = (inP m c 0).g2 :=
  (HostVal.hostOps2_main_v48_spec (W4 m ρ c)).trans (congrArg (Gin.layerRow 0) (W4_param m ρ c main_arg8 untouched_main_arg8))
theorem l0_in_be2 : Gin.toRow (V5 m ρ c (Pipeline.arrRef spec2 4)) = (inP m c 0).be2 :=
  (HostVal.hostOps2_main_v51_spec (W4 m ρ c)).trans (congrArg (Gin.layerRow 0) (W4_param m ρ c main_arg9 untouched_main_arg9))

/-- What region 2 leaves: the result of layer 0. -/
theorem l0_out : Gin.toMat ((dat2 (V5 m ρ) c).arrAt 5 cfg2.N) = feat m c 1 := by
  rw [val2_5, l0_in_u2, l0_in_mean2, l0_in_var2, l0_in_g2, l0_in_be2]; rfl

/-- After layer 0 the features are the specification's after one layer, -/
theorem layer0_feat : Gin.toMat (W6 m ρ c (Proc.devRef .tc main_v52_0)) = feat m c 1 :=
  (congrArg Gin.toMat (W6_arr m ρ c 5)).trans (l0_out m ρ c)
/-- and the readout is their column sums. -/
theorem layer0_readout : Gin.toRow (W6 m ρ c (Proc.devRef .tc main_v52_1)) = Gin.colsum (feat m c 1) := by
  rw [show W6 m ρ c (Proc.devRef .tc main_v52_1) = (dat2 (V5 m ρ) c).arrAt 6 cfg2.N from W6_arr m ρ c 6, val2_6, l0_out]

end Cert.KernelIdeal.Hand

end
-- ==== Proof.KI.HostVal.S3.lean ====
/-
  The host line before the first region of a later layer, from any buffer contents: the previous layer's readout
  row as a vector, the aggregation of the previous layer's output along the edges (the two rows of the edge list
  read back as the first line left them), the first weight of the layer cut and narrowed, the first bias cut and
  laid out as a row; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps3_main_v53 : StableHlo.after (hostOps3 (F := Ideal)) Wv (Proc.devRef .tc main_v53) = vecT (Wv (Proc.devRef .tc main_v52_1)) := by
  after_results; rfl
set_option maxHeartbeats 1000000 in
theorem hostOps3_main_v63 : StableHlo.after (hostOps3 (F := Ideal)) Wv (Proc.devRef .tc main_v63)
    = aggT (Wv (Proc.devRef .tc main_v52_0)) (Wv (Proc.devRef .tc main_v1)) (Wv (Proc.devRef .tc main_v3)) := by
  after_results; rfl
theorem hostOps3_main_v66 : StableHlo.after (hostOps3 (F := Ideal)) Wv (Proc.devRef .tc main_v66) = wtT 1 slices_S5x256x256_S1x256x256_1_0_0 (Wv (Proc.devRef .tc main_arg2)) := by
  after_results; rfl
theorem hostOps3_main_v69 : StableHlo.after (hostOps3 (F := Ideal)) Wv (Proc.devRef .tc main_v69) = rowT 1 slices_S5x256_S1x256_1_0 (Wv (Proc.devRef .tc main_arg3)) := by
  after_results; rfl
/-- The previous layer's output and the two rows of the edge list are not written. -/
theorem hostOps3_main_v52_0 : StableHlo.after (hostOps3 (F := Ideal)) Wv (Proc.devRef .tc main_v52_0) = Wv (Proc.devRef .tc main_v52_0) := by
  after_results
theorem hostOps3_main_v1 : StableHlo.after (hostOps3 (F := Ideal)) Wv (Proc.devRef .tc main_v1) = Wv (Proc.devRef .tc main_v1) := by
  after_results
theorem hostOps3_main_v3 : StableHlo.after (hostOps3 (F := Ideal)) Wv (Proc.devRef .tc main_v3) = Wv (Proc.devRef .tc main_v3) := by
  after_results

/-! ## The same, in the specification's terms -/

theorem hostOps3_main_v53_spec : Gin.toRow1 (StableHlo.after (hostOps3 (F := Ideal)) Wv (Proc.devRef .tc main_v53)) = Gin.toRow (Wv (Proc.devRef .tc main_v52_1)) := by
  rw [hostOps3_main_v53, toRow1_vecT]
theorem hostOps3_main_v63_spec : Gin.toMat (StableHlo.after (hostOps3 (F := Ideal)) Wv (Proc.devRef .tc main_v63))
    = Gin.agg (Gin.toMat (Wv (Proc.devRef .tc main_v52_0))) (ofVec (Wv (Proc.devRef .tc main_v1))) (ofVec (Wv (Proc.devRef .tc main_v3))) := by
  rw [hostOps3_main_v63, toMat_aggT]
theorem hostOps3_main_v66_spec : Gin.toWt (StableHlo.after (hostOps3 (F := Ideal)) Wv (Proc.devRef .tc main_v66)) = Gin.layerWt (1 : Fin 5) (Wv (Proc.devRef .tc main_arg2)) := by
  rw [hostOps3_main_v66]; exact toWt_wtT 1 (by decide) _ _
theorem hostOps3_main_v69_spec : Gin.toRow (StableHlo.after (hostOps3 (F := Ideal)) Wv (Proc.devRef .tc main_v69)) = Gin.layerRow (1 : Fin 5) (Wv (Proc.devRef .tc main_arg3)) := by
  rw [hostOps3_main_v69]; exact toRow_rowT 1 (by decide) _ _

end Cert.KernelIdeal.HostVal

end
-- ==== Proof.KI.HostVal.S4.lean ====
/-
  The host line between a layer's first and second regions, from any buffer contents: the column mean and the
  column variance of the first affine output from the first region's two accumulators (the column sums and the
  column sums of squares), and the cuts of the layer's first gain and shift, second weight and second bias; each
  first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps4_main_v72 : StableHlo.after (hostOps4 (F := Ideal)) Wv (Proc.devRef .tc main_v72) = meanT (Wv (Proc.devRef .tc main_v70_1)) := by
  after_results; rfl
theorem hostOps4_main_v76 : StableHlo.after (hostOps4 (F := Ideal)) Wv (Proc.devRef .tc main_v76) = varT (Wv (Proc.devRef .tc main_v70_1)) (Wv (Proc.devRef .tc main_v70_2)) := by
  after_results; rfl
theorem hostOps4_main_v79 : StableHlo.after (hostOps4 (F := Ideal)) Wv (Proc.devRef .tc main_v79) = rowT 1 slices_S5x256_S1x256_1_0 (Wv (Proc.devRef .tc main_arg4)) := by
  after_results; rfl
theorem hostOps4_main_v82 : StableHlo.after (hostOps4 (F := Ideal)) Wv (Proc.devRef .tc main_v82) = rowT 1 slices_S5x256_S1x256_1_0 (Wv (Proc.devRef .tc main_arg5)) := by
  after_results; rfl
theorem hostOps4_main_v85 : StableHlo.after (hostOps4 (F := Ideal)) Wv (Proc.devRef .tc main_v85) = wtT 1 slices_S5x256x256_S1x256x256_1_0_0 (Wv (Proc.devRef .tc main_arg6)) := by
  after_results; rfl
theorem hostOps4_main_v88 : StableHlo.after (hostOps4 (F := Ideal)) Wv (Proc.devRef .tc main_v88) = rowT 1 slices_S5x256_S1x256_1_0 (Wv (Proc.devRef .tc main_arg7)) := by
  after_results; rfl
/-- The first affine output is not written. -/
theorem hostOps4_main_v70_0 : StableHlo.after (hostOps4 (F := Ideal)) Wv (Proc.devRef .tc main_v70_0) = Wv (Proc.devRef .tc main_v70_0) := by
  after_results

/-! ## The same, in the specification's terms -/

theorem hostOps4_main_v72_spec : Gin.toRow (StableHlo.after (hostOps4 (F := Ideal)) Wv (Proc.devRef .tc main_v72))
    = fun j => Ideal.div (Gin.toRow (Wv (Proc.devRef .tc main_v70_1)) j) Gin.nn := by
  rw [hostOps4_main_v72, toRow_meanT]
theorem hostOps4_main_v76_spec : Gin.toRow (StableHlo.after (hostOps4 (F := Ideal)) Wv (Proc.devRef .tc main_v76))
    = fun j => Ideal.div (Gin.toRow (Wv (Proc.devRef .tc main_v70_2)) j) Gin.nn
        - Gin.toRow (StableHlo.after (hostOps4 (F := Ideal)) Wv (Proc.devRef .tc main_v72)) j * Gin.toRow (StableHlo.after (hostOps4 (F := Ideal)) Wv (Proc.devRef .tc main_v72)) j := by
  rw [hostOps4_main_v76, hostOps4_main_v72, toRow_varT]
/-- With the accumulators holding the column sums and the column sums of squares of `u`, the two rows are the
    column mean of `u` and its column variance as the mean of the squares minus the square of the mean. -/
theorem hostOps4_main_v72_mean (u : Gin.Mat) (hs : Gin.toRow (Wv (Proc.devRef .tc main_v70_1)) = Gin.colsum u) :
    Gin.toRow (StableHlo.after (hostOps4 (F := Ideal)) Wv (Proc.devRef .tc main_v72)) = Gin.mean u := by
  rw [hostOps4_main_v72]; exact toRow_meanT_of_colsum _ u hs
theorem hostOps4_main_v76_var (u : Gin.Mat) (hs : Gin.toRow (Wv (Proc.devRef .tc main_v70_1)) = Gin.colsum u)
    (hq : Gin.toRow (Wv (Proc.devRef .tc main_v70_2)) = Gin.colsum (fun r j => u r j * u r j)) :
    Gin.toRow (StableHlo.after (hostOps4 (F := Ideal)) Wv (Proc.devRef .tc main_v76)) = Gin.varK u := by
  rw [hostOps4_main_v76]; exact toRow_varT_of_colsum _ _ u hs hq
theorem hostOps4_main_v79_spec : Gin.toRow (StableHlo.after (hostOps4 (F := Ideal)) Wv (Proc.devRef .tc main_v79)) = Gin.layerRow (1 : Fin 5) (Wv (Proc.devRef .tc main_arg4)) := by
  rw [hostOps4_main_v79]; exact toRow_rowT 1 (by decide) _ _
theorem hostOps4_main_v82_spec : Gin.toRow (StableHlo.after (hostOps4 (F := Ideal)) Wv (Proc.devRef .tc main_v82)) = Gin.layerRow (1 : Fin 5) (Wv (Proc.devRef .tc main_arg5)) := by
  rw [hostOps4_main_v82]; exact toRow_rowT 1 (by decide) _ _
theorem hostOps4_main_v85_spec : Gin.toWt (StableHlo.after (hostOps4 (F := Ideal)) Wv (Proc.devRef .tc main_v85)) = Gin.layerWt (1 : Fin 5) (Wv (Proc.devRef .tc main_arg6)) := by
  rw [hostOps4_main_v85]; exact toWt_wtT 1 (by decide) _ _
theorem hostOps4_main_v88_spec : Gin.toRow (StableHlo.after (hostOps4 (F := Ideal)) Wv (Proc.devRef .tc main_v88)) = Gin.layerRow (1 : Fin 5) (Wv (Proc.devRef .tc main_arg7)) := by
  rw [hostOps4_main_v88]; exact toRow_rowT 1 (by decide) _ _

end Cert.KernelIdeal.HostVal

end
-- ==== Proof.KI.HostVal.S5.lean ====
/-
  The host line between a layer's second and third regions, from any buffer contents: the column mean and the
  column variance of the second affine output from the second region's two accumulators, and the cuts of the
  layer's second gain and shift; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps5_main_v91 : StableHlo.after (hostOps5 (F := Ideal)) Wv (Proc.devRef .tc main_v91) = meanT (Wv (Proc.devRef .tc main_v89_1)) := by
  after_results; rfl
theorem hostOps5_main_v95 : StableHlo.after (hostOps5 (F := Ideal)) Wv (Proc.devRef .tc main_v95) = varT (Wv (Proc.devRef .tc main_v89_1)) (Wv (Proc.devRef .tc main_v89_2)) := by
  after_results; rfl
theorem hostOps5_main_v98 : StableHlo.after (hostOps5 (F := Ideal)) Wv (Proc.devRef .tc main_v98) = rowT 1 slices_S5x256_S1x256_1_0 (Wv (Proc.devRef .tc main_arg8)) := by
  after_results; rfl
theorem hostOps5_main_v101 : StableHlo.after (hostOps5 (F := Ideal)) Wv (Proc.devRef .tc main_v101) = rowT 1 slices_S5x256_S1x256_1_0 (Wv (Proc.devRef .tc main_arg9)) := by
  after_results; rfl
/-- The second affine output is not written. -/
theorem hostOps5_main_v89_0 : StableHlo.after (hostOps5 (F := Ideal)) Wv (Proc.devRef .tc main_v89_0) = Wv (Proc.devRef .tc main_v89_0) := by
  after_results

/-! ## The same, in the specification's terms -/

theorem hostOps5_main_v91_spec : Gin.toRow (StableHlo.after (hostOps5 (F := Ideal)) Wv (Proc.devRef .tc main_v91))
    = fun j => Ideal.div (Gin.toRow (Wv (Proc.devRef .tc main_v89_1)) j) Gin.nn := by
  rw [hostOps5_main_v91, toRow_meanT]
theorem hostOps5_main_v95_spec : Gin.toRow (StableHlo.after (hostOps5 (F := Ideal)) Wv (Proc.devRef .tc main_v95))
    = fun j => Ideal.div (Gin.toRow (Wv (Proc.devRef .tc main_v89_2)) j) Gin.nn
        - Gin.toRow (StableHlo.after (hostOps5 (F := Ideal)) Wv (Proc.devRef .tc main_v91)) j * Gin.toRow (StableHlo.after (hostOps5 (F := Ideal)) Wv (Proc.devRef .tc main_v91)) j := by
  rw [hostOps5_main_v95, hostOps5_main_v91, toRow_varT]
/-- With the accumulators holding the column sums and the column sums of squares of `u`, the two rows are the
    column mean of `u` and its column variance as the mean of the squares minus the square of the mean. -/
theorem hostOps5_main_v91_mean (u : Gin.Mat) (hs : Gin.toRow (Wv (Proc.devRef .tc main_v89_1)) = Gin.colsum u) :
    Gin.toRow (StableHlo.after (hostOps5 (F := Ideal)) Wv (Proc.devRef .tc main_v91)) = Gin.mean u := by
  rw [hostOps5_main_v91]; exact toRow_meanT_of_colsum _ u hs
theorem hostOps5_main_v95_var (u : Gin.Mat) (hs : Gin.toRow (Wv (Proc.devRef .tc main_v89_1)) = Gin.colsum u)
    (hq : Gin.toRow (Wv (Proc.devRef .tc main_v89_2)) = Gin.colsum (fun r j => u r j * u r j)) :
    Gin.toRow (StableHlo.after (hostOps5 (F := Ideal)) Wv (Proc.devRef .tc main_v95)) = Gin.varK u := by
  rw [hostOps5_main_v95]; exact toRow_varT_of_colsum _ _ u hs hq
theorem hostOps5_main_v98_spec : Gin.toRow (StableHlo.after (hostOps5 (F := Ideal)) Wv (Proc.devRef .tc main_v98)) = Gin.layerRow (1 : Fin 5) (Wv (Proc.devRef .tc main_arg8)) := by
  rw [hostOps5_main_v98]; exact toRow_rowT 1 (by decide) _ _
theorem hostOps5_main_v101_spec : Gin.toRow (StableHlo.after (hostOps5 (F := Ideal)) Wv (Proc.devRef .tc main_v101)) = Gin.layerRow (1 : Fin 5) (Wv (Proc.devRef .tc main_arg9)) := by
  rw [hostOps5_main_v101]; exact toRow_rowT 1 (by decide) _ _

end Cert.KernelIdeal.HostVal

end
-- ==== Proof.KI.Pay3.lean ====
/-
  One launch of the kernel that multiplies, adds a bias row and keeps column statistics, read at an index at the ideal
  values: floats are extended reals, every operation is exact, and a change of float format is the identity. The
  generated skeleton states each value the body stores as one pure term of the values it loads, the payloads `k3_pay1` …
  `k3_pay5`. Here each payload is read at an index as plain sums and products of extended reals:
    • `k3_pay1`, `k3_pay2` — the zero row the two statistics start from — are 0 at every column;
    • `k3_pay3` at (p, q) is ∑ₖ (xa[p, k] + xb[p, k]) · w[k, q] + b[0, q]: row p of the sum of the two inputs against
      column q of the weights, plus the bias row;
    • `k3_pay4` at (0, q) is s[0, q] + ∑ₚ `k3_pay3`[p, q]: the running column sum;
    • `k3_pay5` at (0, q) is s[0, q] + ∑ₚ `k3_pay3`[p, q]²: the running column sum of squares.
  The steps: the same-shape casts are the identity; the matrix product into a zero accumulator is the sum over its one
  contracted axis, re-indexed by that axis's coordinate; the bias row is broadcast over the rows; the reduction over the
  rows is the sum over the row coordinate; a vector cast to one row reads the vector.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## The matrix product's operand indices, axis by axis

  The product contracts the left factor's axis 1 with the right factor's axis 0; the left factor's axis 0 and the right
  factor's axis 1 are the result's two axes. -/

/-- The left operand's row is the result's row. -/
private theorem lhs_rows_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column is the contracted coordinate. -/
private theorem lhs_rows_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- The right operand's row is the contracted coordinate. -/
private theorem rhs_cols_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- The right operand's column is the result's column. -/
private theorem rhs_cols_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product of a `[2000, 256]` matrix by a `[256, 256]` one accumulated into zero, read at `(p, q)`: row `p` of the
    left factor against column `q` of the right one. -/
private theorem matmul_zero_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs_rows_0 _ _
      | ⟨1, _⟩ => exact (lhs_rows_1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (rhs_cols_0 _ _).trans hk
      | ⟨1, _⟩ => exact rhs_cols_1 _ _)
  rw [el, er]

/-! ## The reduction over the rows -/

/-- The sum over the rows of a `[2000, 256]` array, read at column `q`. -/
private theorem sumRows_apply (X : FVec Ideal S2000x256 .f32) (h : S2000x256.Reduces [0] S256) (hφ : FKind.Formats .f32)
    (hacc : (0x00000000#32 : BitVec 32) = 0x00000000#32) (q : Fin 256) :
    multiReduction (F := Ideal) .add [0] S256 X 0x00000000#32 h hφ hacc (ix1 q) = ∑ p : Fin 2000, X (ix2 p q) := by
  refine (Ideal.multiReduction_add_single X 0x00000000#32 h hφ hacc (ix1 q)).trans ?_
  refine Finset.sum_congr rfl fun p _ => congrArg X ?_
  exact funext fun a => Fin.ext (by
    match a with
    | ⟨0, _⟩ => rfl
    | ⟨1, _⟩ => rfl)

/-! ## The stored values at an index -/

/-- The first statistics row starts from zero. -/
theorem k3_pay1_apply (q : Fin 256) : k3_pay1 (F := Ideal) (ix2 0 q) = 0 := by
  unfold k3_pay1
  exact Ideal.ofBits_zero_f32

/-- The second statistics row starts from zero. -/
theorem k3_pay2_apply (q : Fin 256) : k3_pay2 (F := Ideal) (ix2 0 q) = 0 := by
  unfold k3_pay2
  exact Ideal.ofBits_zero_f32

/-- The product block at `(p, q)`: row `p` of the sum of the two inputs against column `q` of the weights, plus the
    bias row at `q`. -/
theorem k3_pay3_apply (xa xb : Vec Ideal S2000x256 .f32) (w : Vec Ideal S256x256 .bf16) (b : Vec Ideal S1x256 .f32)
    (p : Fin 2000) (q : Fin 256) :
    k3_pay3 (F := Ideal) xa xb w b (ix2 p q)
      = (∑ k : Fin 256, (xa (ix2 p k) + xb (ix2 p k)) * w (ix2 k q)) + b (ix2 0 q) := by
  unfold k3_pay3
  simp only [shapeCast_self]
  rw [addf_apply, broadcastTo_1b_ab_apply, matmul_zero_apply]
  rfl

/-- The column sums: the row read so far plus the sum of the product block over its rows. -/
theorem k3_pay4_apply (xa xb : Vec Ideal S2000x256 .f32) (w : Vec Ideal S256x256 .bf16) (b : Vec Ideal S1x256 .f32)
    (s : Vec Ideal S1x256 .f32) (q : Fin 256) :
    k3_pay4 (F := Ideal) xa xb w b s (ix2 0 q)
      = s (ix2 0 q) + ∑ p : Fin 2000, k3_pay3 (F := Ideal) xa xb w b (ix2 p q) := by
  unfold k3_pay4
  simp only [shapeCast_self]
  rw [addf_apply, shapeCast_a_1a_apply, sumRows_apply]

/-- The column sums of squares: the row read so far plus the sum of the product block's squares over its rows. -/
theorem k3_pay5_apply (xa xb : Vec Ideal S2000x256 .f32) (w : Vec Ideal S256x256 .bf16) (b : Vec Ideal S1x256 .f32)
    (s : Vec Ideal S1x256 .f32) (q : Fin 256) :
    k3_pay5 (F := Ideal) xa xb w b s (ix2 0 q)
      = s (ix2 0 q) + ∑ p : Fin 2000, k3_pay3 (F := Ideal) xa xb w b (ix2 p q) * k3_pay3 (F := Ideal) xa xb w b (ix2 p q) := by
  unfold k3_pay5
  simp only [shapeCast_self]
  rw [addf_apply, shapeCast_a_1a_apply, sumRows_apply]
  rfl

end Cert.KernelIdeal.PayVal

end
-- ==== Proof.KI.R3Val.lean ====
/-
  What region 3 of the idealized kernel program leaves in its output arrays, at the exact instance, as functions of what it finds in its
  input arrays: the mathematics of the kernel body summed over the grid.

  Each output's staging contents are first read off the body's stores (at any float instance): u's block is the affine map of the
  blocks; each accumulator row is the row found there (the zero row at the first point) plus this block's column sums. At the
  exact instance the u blocks are the 2000-row bands of ONE matrix, the affine map of the whole arrays, so the written-back bands
  assemble it; and each accumulator after point n is the sum of that matrix's (squared) entries over the rows below 2000·(n+1), so
  what the last point writes back is the column sum over all rows.
-/
import proofs.«102822_j3521873183180_1_alg».proof.Proof.KI.R3
import proofs.«102822_j3521873183180_1_alg».proof.Proof.KI.Pay3
import proofs.«102822_j3521873183180_1_alg».proof.Proof.Spec
import Idealize.ShloMosaic.Lib.Pipeline.Value

set_option maxRecDepth 16384

noncomputable section

namespace Cert.KernelIdeal.Hand

open Cert.KernelIdeal Cert.KernelIdeal.Gen Cert.KernelIdeal.PayVal
open Idealize.ShloMosaic Idealize.ShloMosaic.TcCoe Idealize.ShloMosaic.Tactic Idealize.ShloMosaic.ValueIdx
open Idealize.ShloMosaic.Pipeline (Dat)
open scoped BigOperators

/-! ## What the pieces are: each output's staging contents as the kernel's arithmetic of what the body loads (any float instance) -/

section Pieces

variable {F : FTy → Type} [FloatOps F]

/-- Every store and load of the body is at the origin of its buffer. -/
theorem origin3 : (![0, 0] : Fin 2 → Nat) = fun _ => 0 := funext fun a => by fin_cases a <;> rfl

/-- At the first point u's buffer holds the affine map of the blocks: its one covering store's payload. -/
theorem resetOut3_4_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) :
    resetOut3_4 c i arg1 harg1 arg2 harg2 arg3 harg3 arg4 harg4 arg5 harg5 arg6 harg6 arg7 harg7 hc0 x0 x1 x2 x3 = k3_pay3 x0 x1 x2 x3 := by
  unfold resetOut3_4
  rw [View.read_writes_eq_canon _ _ _ (resetCover3_4 c i arg1 harg1 arg2 harg2 arg3 harg3 arg4 harg4 arg5 harg5 arg6 harg6 arg7 harg7 hc0 x0 x1 x2 x3)]
  unfold resetRun3
  dsimp only
  sl_unfold_words
  rw [View.canon_unit_zero origin3]
  simp only [View.readAt_eq_ld, harg1.read_unread, harg2.read_unread, harg3.read_unread, harg4.read_unread, View.ld_unit_zero (S := S2000x256) origin3, View.ld_unit_zero (S := S256x256) origin3, View.ld_unit_zero (S := S1x256) origin3]

/-- At the first point the column-sum accumulator holds the zero row plus u's column sums: the reset's store, read back, then the update. -/
theorem resetOut3_5_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) :
    resetOut3_5 c i arg1 harg1 arg2 harg2 arg3 harg3 arg4 harg4 arg5 harg5 arg6 harg6 arg7 harg7 hc0 x0 x1 x2 x3 = k3_pay4 x0 x1 x2 x3 (k3_pay1 (F := F)) := by
  unfold resetOut3_5
  rw [View.read_writes_eq_canon _ _ _ (resetCover3_5 c i arg1 harg1 arg2 harg2 arg3 harg3 arg4 harg4 arg5 harg5 arg6 harg6 arg7 harg7 hc0 x0 x1 x2 x3)]
  unfold resetRun3
  dsimp only
  sl_unfold_words
  rw [View.canon_cons_unit_zero (S := S1x256) origin3, View.readCov_unit_zero (S := S1x256) _ origin3]
  simp only [View.readAt_eq_ld, harg1.read_unread, harg2.read_unread, harg3.read_unread, harg4.read_unread, View.ld_unit_zero (S := S2000x256) origin3, View.ld_unit_zero (S := S256x256) origin3, View.ld_unit_zero (S := S1x256) origin3]

/-- At the first point the sum-of-squares accumulator holds the zero row plus the column sums of u·u. -/
theorem resetOut3_6_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first3 i)
    (x0 : Vec F S2000x256 .f32) (x1 : Vec F S2000x256 .f32) (x2 : Vec F S256x256 .bf16) (x3 : Vec F S1x256 .f32) :
    resetOut3_6 c i arg1 harg1 arg2 harg2 arg3 harg3 arg4 harg4 arg5 harg5 arg6 harg6 arg7 harg7 hc0 x0 x1 x2 x3 = k3_pay5 x0 x1 x2 x3 (k3_pay2 (F := F)) := by
  unfold resetOut3_6
  rw [View.read_writes_eq_canon _ _ _ (resetCover3_6 c i arg1 harg1 arg2 harg2 arg3 harg3 arg4 harg4 arg5 harg5 arg6 harg6 arg7 harg7 hc0 x0 x1 x2 x3)]
  unfold resetRun3
  dsimp only
  sl_unfold_words
  rw [View.canon_cons_unit_zero (S := S1x256) origin3, View.readCov_unit_zero (S := S1x256) _ origin3]
  simp only [View.readAt_eq_ld, harg1.read_unread, harg2.read_unread, harg3.read_unread, harg4.read_unread, View.ld_unit_zero (S := S2000x256) origin3, View.ld_unit_zero (S := S256x256) origin3, View.ld_unit_zero (S := S1x256) origin3]

/-- At a later point u's buffer holds the affine map of the blocks, whatever the accumulators held. -/
theorem carryOut3_4_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut3_4 c i arg1 harg1 arg2 harg2 arg3 harg3 arg4 harg4 arg5 harg5 arg6 harg6 arg7 harg7 hc0 x0 x1 x2 x3 xo5 xo6 = k3_pay3 x0 x1 x2 x3 := by
  unfold carryOut3_4
  rw [View.read_writes_eq_canon _ _ _ (carryCover3_4 c i arg1 harg1 arg2 harg2 arg3 harg3 arg4 harg4 arg5 harg5 arg6 harg6 arg7 harg7 hc0 x0 x1 x2 x3 xo5 xo6)]
  unfold carryRun3
  dsimp only
  sl_unfold_words
  rw [View.canon_unit_zero origin3]
  simp only [View.readAt_eq_ld, harg1.read_unread, harg2.read_unread, harg3.read_unread, harg4.read_unread, harg6.read_unread, harg7.read_unread, View.ld_unit_zero (S := S2000x256) origin3, View.ld_unit_zero (S := S256x256) origin3, View.ld_unit_zero (S := S1x256) origin3]

/-- At a later point the column-sum accumulator holds the row it found plus u's column sums. -/
theorem carryOut3_5_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut3_5 c i arg1 harg1 arg2 harg2 arg3 harg3 arg4 harg4 arg5 harg5 arg6 harg6 arg7 harg7 hc0 x0 x1 x2 x3 xo5 xo6 = k3_pay4 x0 x1 x2 x3 xo5 := by
  unfold carryOut3_5
  rw [View.read_writes_eq_canon _ _ _ (carryCover3_5 c i arg1 harg1 arg2 harg2 arg3 harg3 arg4 harg4 arg5 harg5 arg6 harg6 arg7 harg7 hc0 x0 x1 x2 x3 xo5 xo6)]
  unfold carryRun3
  dsimp only
  sl_unfold_words
  rw [View.canon_unit_zero origin3]
  simp only [View.readAt_eq_ld, harg1.read_unread, harg2.read_unread, harg3.read_unread, harg4.read_unread, harg6.read_unread, harg7.read_unread, View.ld_unit_zero (S := S2000x256) origin3, View.ld_unit_zero (S := S256x256) origin3, View.ld_unit_zero (S := S1x256) origin3]

/-- At a later point the sum-of-squares accumulator holds the row it found plus the column sums of u·u. -/
theorem carryOut3_6_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first3 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut3_6 c i arg1 harg1 arg2 harg2 arg3 harg3 arg4 harg4 arg5 harg5 arg6 harg6 arg7 harg7 hc0 x0 x1 x2 x3 xo5 xo6 = k3_pay5 x0 x1 x2 x3 xo6 := by
  unfold carryOut3_6
  rw [View.read_writes_eq_canon _ _ _ (carryCover3_6 c i arg1 harg1 arg2 harg2 arg3 harg3 arg4 harg4 arg5 harg5 arg6 harg6 arg7 harg7 hc0 x0 x1 x2 x3 xo5 xo6)]
  unfold carryRun3
  dsimp only
  sl_unfold_words
  rw [View.canon_unit_zero origin3]
  simp only [View.readAt_eq_ld, harg1.read_unread, harg2.read_unread, harg3.read_unread, harg4.read_unread, harg6.read_unread, harg7.read_unread, View.ld_unit_zero (S := S2000x256) origin3, View.ld_unit_zero (S := S256x256) origin3, View.ld_unit_zero (S := S1x256) origin3]

end Pieces

/-! ## At the exact instance -/

variable (V : (c : Dev nD) → (b : Ref sig .tc) → Buf (Elt Ideal) ((c : Thread nD τ).loc b))

/-- The four input arrays as the region finds them and the blocks the body loads at point `t`, each at its literal type. -/
abbrev hArr3 (c : Dev nD) : Vec Ideal S50000x256 .f32 := V c (Pipeline.arrRef spec3 0)
abbrev gArr3 (c : Dev nD) : Vec Ideal S50000x256 .f32 := V c (Pipeline.arrRef spec3 1)
abbrev wArr3 (c : Dev nD) : Vec Ideal S256x256 .bf16 := V c (Pipeline.arrRef spec3 2)
abbrev bArr3 (c : Dev nD) : Vec Ideal S1x256 .f32 := V c (Pipeline.arrRef spec3 3)
abbrev hBlk3 (c : Dev nD) (t : Fin cfg3.N) : Vec Ideal S2000x256 .f32 := iblk3 V c 0 t
abbrev gBlk3 (c : Dev nD) (t : Fin cfg3.N) : Vec Ideal S2000x256 .f32 := iblk3 V c 1 t
abbrev wBlk3 (c : Dev nD) (t : Fin cfg3.N) : Vec Ideal S256x256 .bf16 := iblk3 V c 2 t
abbrev bBlk3 (c : Dev nD) (t : Fin cfg3.N) : Vec Ideal S1x256 .f32 := iblk3 V c 3 t

/-- The printed index maps, decided over the grid: h, agg and u move one band of rows per point; the weight, the bias and the two
    accumulators stay at block (0, 0). -/
theorem bands3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row `p` of point `t`'s band of h is row 2000·t + p of h. -/
theorem hBlk3_apply (c : Dev nD) (t : Fin cfg3.N) (p : Fin 2000) (k : Fin 256) (r : Fin 50000) (hr : r.val = 2000 * t.val + p.val) :
    hBlk3 V c t (ix2 p k) = hArr3 V c (ix2 r k) := by
  show V c (Pipeline.arrRef spec3 0) (((cfg3.win 0).blk t).view.emb (ix2 p k)) = V c (Pipeline.arrRef spec3 0) (ix2 r k)
  refine congrArg _ ?_
  obtain ⟨e0, e1, -⟩ := bands3 t
  funext a; apply Fin.ext
  match a with
  | ⟨0, _⟩ => show win3_0.index t (0 : Fin 2) * 2000 + 1 * p.val = r.val; omega
  | ⟨1, _⟩ => show win3_0.index t (1 : Fin 2) * 256 + 1 * k.val = k.val; omega

/-- The same for the aggregate. -/
theorem gBlk3_apply (c : Dev nD) (t : Fin cfg3.N) (p : Fin 2000) (k : Fin 256) (r : Fin 50000) (hr : r.val = 2000 * t.val + p.val) :
    gBlk3 V c t (ix2 p k) = gArr3 V c (ix2 r k) := by
  show V c (Pipeline.arrRef spec3 1) (((cfg3.win 1).blk t).view.emb (ix2 p k)) = V c (Pipeline.arrRef spec3 1) (ix2 r k)
  refine congrArg _ ?_
  obtain ⟨-, -, e0, e1, -⟩ := bands3 t
  funext a; apply Fin.ext
  match a with
  | ⟨0, _⟩ => show win3_1.index t (0 : Fin 2) * 2000 + 1 * p.val = r.val; omega
  | ⟨1, _⟩ => show win3_1.index t (1 : Fin 2) * 256 + 1 * k.val = k.val; omega

/-- The weight's one block is the weight. -/
theorem wBlk3_apply (c : Dev nD) (t : Fin cfg3.N) (k : Fin 256) (q : Fin 256) : wBlk3 V c t (ix2 k q) = wArr3 V c (ix2 k q) := by
  show V c (Pipeline.arrRef spec3 2) (((cfg3.win 2).blk t).view.emb (ix2 k q)) = V c (Pipeline.arrRef spec3 2) (ix2 k q)
  refine congrArg _ ?_
  obtain ⟨-, -, -, -, e0, e1, -⟩ := bands3 t
  funext a; apply Fin.ext
  match a with
  | ⟨0, _⟩ => show win3_2.index t (0 : Fin 2) * 256 + 1 * k.val = k.val; omega
  | ⟨1, _⟩ => show win3_2.index t (1 : Fin 2) * 256 + 1 * q.val = q.val; omega

/-- The bias row's one block is the bias row. -/
theorem bBlk3_apply (c : Dev nD) (t : Fin cfg3.N) (q : Fin 256) : bBlk3 V c t (ix2 0 q) = bArr3 V c (ix2 0 q) := by
  show V c (Pipeline.arrRef spec3 3) (((cfg3.win 3).blk t).view.emb (ix2 0 q)) = V c (Pipeline.arrRef spec3 3) (ix2 0 q)
  refine congrArg _ ?_
  obtain ⟨-, -, -, -, -, -, e0, e1, -⟩ := bands3 t
  funext a; apply Fin.ext
  match a with
  | ⟨0, _⟩ => show win3_3.index t (0 : Fin 2) * 1 + 1 * 0 = 0; omega
  | ⟨1, _⟩ => show win3_3.index t (1 : Fin 2) * 256 + 1 * q.val = q.val; omega

/-- THE MATRIX u of the whole arrays: (h + agg) · W + b. -/
def uMat3 (c : Dev nD) : Gin.Mat :=
  Gin.lin (fun r k => Gin.toMat (V c (Pipeline.arrRef spec3 0)) r k + Gin.toMat (V c (Pipeline.arrRef spec3 1)) r k)
    (Gin.toWt (V c (Pipeline.arrRef spec3 2))) (Gin.toRow (V c (Pipeline.arrRef spec3 3)))

/-- The body's affine map of point `t`'s blocks is the band of rows 2000·t … 2000·t + 1999 of `uMat3`. -/
theorem band3 (c : Dev nD) (t : Fin cfg3.N) (p : Fin 2000) (q : Fin 256) (r : Fin 50000) (hr : r.val = 2000 * t.val + p.val) :
    k3_pay3 (F := Ideal) (hBlk3 V c t) (gBlk3 V c t) (wBlk3 V c t) (bBlk3 V c t) (ix2 p q) = uMat3 V c r q := by
  rw [k3_pay3_apply, bBlk3_apply V c t q]
  unfold uMat3 Gin.lin Gin.toMat Gin.toWt Gin.toRow
  refine congrArg (fun s : EReal => s + bArr3 V c (ix2 0 q)) (Finset.sum_congr rfl fun k _ => ?_)
  rw [hBlk3_apply V c t p k r hr, gBlk3_apply V c t p k r hr, wBlk3_apply V c t k q]

/-- The same band, squared entry by entry. -/
theorem bandSq3 (c : Dev nD) (t : Fin cfg3.N) (p : Fin 2000) (q : Fin 256) (r : Fin 50000) (hr : r.val = 2000 * t.val + p.val) :
    k3_pay3 (F := Ideal) (hBlk3 V c t) (gBlk3 V c t) (wBlk3 V c t) (bBlk3 V c t) (ix2 p q)
        * k3_pay3 (F := Ideal) (hBlk3 V c t) (gBlk3 V c t) (wBlk3 V c t) (bBlk3 V c t) (ix2 p q)
      = uMat3 V c r q * uMat3 V c r q := by
  rw [band3 V c t p q r hr]

/-- After EVERY point u's staging buffer holds the affine map of that point's blocks. -/
theorem uAt3 (c : Dev nD) (t : Fin cfg3.N) :
    (left3 V c t.val t.isLt).1 = k3_pay3 (F := Ideal) (hBlk3 V c t) (gBlk3 V c t) (wBlk3 V c t) (bBlk3 V c t) := by
  by_cases h0 : t.val = 0
  · rw [left3_first V c t h0]
    dsimp only
    exact resetOut3_4_eq (F := Ideal) c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) ((first3_iff t).mpr h0) (iblk3 V c 0 t) (iblk3 V c 1 t) (iblk3 V c 2 t) (iblk3 V c 3 t)
  · rw [left3_later V c t h0]
    dsimp only
    exact carryOut3_4_eq (F := Ideal) c (grid3.coords t) (buf3_0 t) (whole3_0 t) (buf3_1 t) (whole3_1 t) (buf3_2 t) (whole3_2 t) (buf3_3 t) (whole3_3 t) (buf3_4 t) (whole3_4 t) (buf3_5 t) (whole3_5 t) (buf3_6 t) (whole3_6 t) (fun h => h0 ((first3_iff t).mp h)) (iblk3 V c 0 t) (iblk3 V c 1 t) (iblk3 V c 2 t) (iblk3 V c 3 t) (left3 V c (t.val - 1) (Nat.lt_of_le_of_lt (Nat.sub_le _ _) t.isLt)).2.1 (left3 V c (t.val - 1) (Nat.lt_of_le_of_lt (Nat.sub_le _ _) t.isLt)).2.2

/-! ## Sums over the bands of rows -/

/-- Row `r` of a matrix at column `q`, and 0 past the last row: so that sums over rows are sums over ranges of naturals. -/
def rowOr3 (f : Gin.Mat) (q : Fin 256) (r : ℕ) : EReal := if h : r < 50000 then f ⟨r, h⟩ q else 0

/-- A sum over the 2000 rows of band `n`, each term that row's entry, is the sum of the entries over the band's range. -/
theorem bandSum3 (f : Gin.Mat) (q : Fin 256) (n : ℕ) (hn : n < 25) (g : Fin 2000 → EReal)
    (hg : ∀ (p : Fin 2000) (r : Fin 50000), r.val = 2000 * n + p.val → g p = f r q) :
    ∑ p : Fin 2000, g p = ∑ x ∈ Finset.range 2000, rowOr3 f q (2000 * n + x) := by
  rw [← Fin.sum_univ_eq_sum_range (fun x => rowOr3 f q (2000 * n + x)) 2000]
  refine Finset.sum_congr rfl fun p _ => ?_
  have hp := p.isLt
  have hr : 2000 * n + p.val < 50000 := by omega
  rw [hg p ⟨2000 * n + p.val, hr⟩ rfl]
  unfold rowOr3
  rw [dif_pos hr]

/-- The sum over all rows below 50000 is the column sum. -/
theorem allRows3 (f : Gin.Mat) (q : Fin 256) : ∑ x ∈ Finset.range 50000, rowOr3 f q x = Gin.colsum f q := by
  unfold Gin.colsum
  rw [← Fin.sum_univ_eq_sum_range (fun x => rowOr3 f q x) 50000]
  refine Finset.sum_congr rfl fun r _ => ?_
  unfold rowOr3
  rw [dif_pos r.isLt]

/-- THE COLUMN SUMS SO FAR. After point `n` the first accumulator's row holds the sum of `uMat3`'s entries over the rows below
    2000·(n+1): the zero row plus the first band's sums at the first point, the row found plus this band's sums later. -/
theorem sumAt3 (c : Dev nD) (q : Fin 256) : ∀ (n : ℕ) (hn : n < cfg3.N),
    (left3 V c n hn).2.1 (ix2 0 q) = ∑ x ∈ Finset.range (2000 * (n + 1)), rowOr3 (uMat3 V c) q x
  | 0, hn => by
    rw [left3_first V c ⟨0, hn⟩ rfl]
    dsimp only
    rw [resetOut3_5_eq (F := Ideal) c (grid3.coords ⟨0, hn⟩) (buf3_0 ⟨0, hn⟩) (whole3_0 ⟨0, hn⟩) (buf3_1 ⟨0, hn⟩) (whole3_1 ⟨0, hn⟩) (buf3_2 ⟨0, hn⟩) (whole3_2 ⟨0, hn⟩) (buf3_3 ⟨0, hn⟩) (whole3_3 ⟨0, hn⟩) (buf3_4 ⟨0, hn⟩) (whole3_4 ⟨0, hn⟩) (buf3_5 ⟨0, hn⟩) (whole3_5 ⟨0, hn⟩) (buf3_6 ⟨0, hn⟩) (whole3_6 ⟨0, hn⟩) ((first3_iff ⟨0, hn⟩).mpr rfl) (iblk3 V c 0 ⟨0, hn⟩) (iblk3 V c 1 ⟨0, hn⟩) (iblk3 V c 2 ⟨0, hn⟩) (iblk3 V c 3 ⟨0, hn⟩),
      k3_pay4_apply, k3_pay1_apply, zero_add,
      bandSum3 (uMat3 V c) q 0 (by omega) _ (fun p r hr => band3 V c ⟨0, hn⟩ p q r hr)]
    simp only [Nat.mul_zero, Nat.zero_add, Nat.mul_one]
  | n + 1, hn => by
    have hN : n + 1 < 25 := lt_of_lt_of_eq hn (show cfg3.N = 25 from N_3)
    rw [left3_later V c ⟨n + 1, hn⟩ (Nat.succ_ne_zero n)]
    dsimp only
    simp only [Nat.add_sub_cancel]
    rw [carryOut3_5_eq (F := Ideal) c (grid3.coords ⟨n + 1, hn⟩) (buf3_0 ⟨n + 1, hn⟩) (whole3_0 ⟨n + 1, hn⟩) (buf3_1 ⟨n + 1, hn⟩) (whole3_1 ⟨n + 1, hn⟩) (buf3_2 ⟨n + 1, hn⟩) (whole3_2 ⟨n + 1, hn⟩) (buf3_3 ⟨n + 1, hn⟩) (whole3_3 ⟨n + 1, hn⟩) (buf3_4 ⟨n + 1, hn⟩) (whole3_4 ⟨n + 1, hn⟩) (buf3_5 ⟨n + 1, hn⟩) (whole3_5 ⟨n + 1, hn⟩) (buf3_6 ⟨n + 1, hn⟩) (whole3_6 ⟨n + 1, hn⟩) (fun h => Nat.succ_ne_zero n ((first3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (left3 V c n (Nat.lt_of_succ_lt hn)).2.1 (left3 V c n (Nat.lt_of_succ_lt hn)).2.2,
      k3_pay4_apply, sumAt3 c q n (Nat.lt_of_succ_lt hn),
      bandSum3 (uMat3 V c) q (n + 1) hN _ (fun p r hr => band3 V c ⟨n + 1, hn⟩ p q r hr),
      show 2000 * (n + 1 + 1) = 2000 * (n + 1) + 2000 from by ring, Finset.sum_range_add]

/-- THE COLUMN SUMS OF SQUARES SO FAR, the same way. -/
theorem sqAt3 (c : Dev nD) (q : Fin 256) : ∀ (n : ℕ) (hn : n < cfg3.N),
    (left3 V c n hn).2.2 (ix2 0 q) = ∑ x ∈ Finset.range (2000 * (n + 1)), rowOr3 (fun r j => uMat3 V c r j * uMat3 V c r j) q x
  | 0, hn => by
    rw [left3_first V c ⟨0, hn⟩ rfl]
    dsimp only
    rw [resetOut3_6_eq (F := Ideal) c (grid3.coords ⟨0, hn⟩) (buf3_0 ⟨0, hn⟩) (whole3_0 ⟨0, hn⟩) (buf3_1 ⟨0, hn⟩) (whole3_1 ⟨0, hn⟩) (buf3_2 ⟨0, hn⟩) (whole3_2 ⟨0, hn⟩) (buf3_3 ⟨0, hn⟩) (whole3_3 ⟨0, hn⟩) (buf3_4 ⟨0, hn⟩) (whole3_4 ⟨0, hn⟩) (buf3_5 ⟨0, hn⟩) (whole3_5 ⟨0, hn⟩) (buf3_6 ⟨0, hn⟩) (whole3_6 ⟨0, hn⟩) ((first3_iff ⟨0, hn⟩).mpr rfl) (iblk3 V c 0 ⟨0, hn⟩) (iblk3 V c 1 ⟨0, hn⟩) (iblk3 V c 2 ⟨0, hn⟩) (iblk3 V c 3 ⟨0, hn⟩),
      k3_pay5_apply, k3_pay2_apply, zero_add,
      bandSum3 (fun r j => uMat3 V c r j * uMat3 V c r j) q 0 (by omega) _ (fun p r hr => bandSq3 V c ⟨0, hn⟩ p q r hr)]
    simp only [Nat.mul_zero, Nat.zero_add, Nat.mul_one]
  | n + 1, hn => by
    have hN : n + 1 < 25 := lt_of_lt_of_eq hn (show cfg3.N = 25 from N_3)
    rw [left3_later V c ⟨n + 1, hn⟩ (Nat.succ_ne_zero n)]
    dsimp only
    simp only [Nat.add_sub_cancel]
    rw [carryOut3_6_eq (F := Ideal) c (grid3.coords ⟨n + 1, hn⟩) (buf3_0 ⟨n + 1, hn⟩) (whole3_0 ⟨n + 1, hn⟩) (buf3_1 ⟨n + 1, hn⟩) (whole3_1 ⟨n + 1, hn⟩) (buf3_2 ⟨n + 1, hn⟩) (whole3_2 ⟨n + 1, hn⟩) (buf3_3 ⟨n + 1, hn⟩) (whole3_3 ⟨n + 1, hn⟩) (buf3_4 ⟨n + 1, hn⟩) (whole3_4 ⟨n + 1, hn⟩) (buf3_5 ⟨n + 1, hn⟩) (whole3_5 ⟨n + 1, hn⟩) (buf3_6 ⟨n + 1, hn⟩) (whole3_6 ⟨n + 1, hn⟩) (fun h => Nat.succ_ne_zero n ((first3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (left3 V c n (Nat.lt_of_succ_lt hn)).2.1 (left3 V c n (Nat.lt_of_succ_lt hn)).2.2,
      k3_pay5_apply, sqAt3 c q n (Nat.lt_of_succ_lt hn),
      bandSum3 (fun r j => uMat3 V c r j * uMat3 V c r j) q (n + 1) hN _ (fun p r hr => bandSq3 V c ⟨n + 1, hn⟩ p q r hr),
      show 2000 * (n + 1 + 1) = 2000 * (n + 1) + 2000 from by ring, Finset.sum_range_add]

/-! ## From the staging buffers to the arrays -/

/-- `uMat3` as contents of u's array. -/
def uArr3 (c : Dev nD) : Vec Ideal S50000x256 .f32 := fun i => uMat3 V c (i 0) (i 1)

/-- WHAT POINT `t` WRITES BACK is band `t` of `uArr3`. -/
theorem flushed3_4 (c : Dev nD) (t : Fin cfg3.N) :
    (dat3 V c).flushed 4 t = ((cfg3.win 4).blk t).view.read (Elt Ideal) (uArr3 V c) := by
  have hN : t.val < 25 := lt_of_lt_of_eq t.isLt (show cfg3.N = 25 from N_3)
  show (cfg3.win 4).cut (grid3.coords t) ((dat3 V c).after 4 t) = _
  rw [after3_4]
  funext j
  obtain ⟨p, q, rfl⟩ : ∃ (p : Fin 2000) (q : Fin 256), j = ix2 p q := ⟨j 0, j 1, eq_ix2 (n0 := 2000) (n1 := 256) j⟩
  obtain ⟨-, -, -, -, -, -, -, -, e0, e1, -⟩ := bands3 t
  have hp : p.val < 2000 := p.isLt
  have hr : 2000 * t.val + p.val < 50000 := by omega
  have hj : ((cfg3.win 4).blk t).view.emb (ix2 p q) = ix2 (⟨2000 * t.val + p.val, hr⟩ : Fin 50000) q := by
    funext a; apply Fin.ext
    match a with
    | ⟨0, _⟩ => show win3_4.index t (0 : Fin 2) * 2000 + 1 * p.val = 2000 * t.val + p.val; omega
    | ⟨1, _⟩ => show win3_4.index t (1 : Fin 2) * 256 + 1 * q.val = q.val; omega
  show (left3 V c t.val t.isLt).1 (ix2 p q) = uArr3 V c (((cfg3.win 4).blk t).view.emb (ix2 p q))
  rw [hj, uAt3 V c t]
  exact band3 V c t p q ⟨2000 * t.val + p.val, hr⟩ rfl

/-- An index of u's array is in point `t`'s block iff each coordinate is in the block's range on its axis. -/
theorem mem_blk3_4 (t : Fin cfg3.N) (i : (Pipeline.arrRef spec3 4).ty.shape.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole (Pipeline.arrRef spec3 4)).slice (win3_4.rect t)).set ↔ _
  rw [View.set_slice_whole, Rect.mem_set_unit]
  exact Iff.rfl

/-- The bands tile the array (row r is in band r / 2000), so u's array ends holding `uArr3`. -/
theorem final3_4 (c : Dev nD) : (dat3 V c).arrAt 4 cfg3.N = uArr3 V c :=
  (dat3 V c).arrAt_eq_of_cover 4 (uArr3 V c) (fun t _ => flushed3_4 V c t) fun i => by
    have hN : cfg3.N = 25 := N_3
    have hi0 : (i 0).val < 50000 := (i 0).isLt
    have hi1 : (i 1).val < 256 := (i 1).isLt
    refine ⟨⟨(i 0).val / 2000, by omega⟩, flush3_4 _, ?_⟩
    rw [mem_blk3_4]
    obtain ⟨-, -, -, -, -, -, -, -, e0, e1, -⟩ := bands3 (⟨(i 0).val / 2000, by omega⟩ : Fin cfg3.N)
    intro a
    match a with
    | ⟨0, _⟩ => show win3_4.index _ (0 : Fin 2) * 2000 ≤ (i 0).val ∧ (i 0).val < win3_4.index _ (0 : Fin 2) * 2000 + 2000; dsimp only at e0; omega
    | ⟨1, _⟩ => show win3_4.index _ (1 : Fin 2) * 256 ≤ (i 1).val ∧ (i 1).val < win3_4.index _ (1 : Fin 2) * 256 + 256; omega

/-- What the column-sum array is written back as: the column sums over all 50000 rows, as a row array. -/
def sumArr3 (c : Dev nD) : Vec Ideal S1x256 .f32 := fun i => Gin.colsum (uMat3 V c) (i 1)

set_option maxRecDepth 65536 in
/-- The one write-back of the column-sum array, after the last point, writes that row: block (0, 0) of the one-row array is the array, and the
    accumulator then holds the sum over every band. -/
theorem flushed3_5 (c : Dev nD) (t : Fin cfg3.N) (hf : (cfg3.win 5).flush t = true) :
    (dat3 V c).flushed 5 t = ((cfg3.win 5).blk t).view.read (Elt Ideal) (sumArr3 V c) := by
  have hN : cfg3.N = 25 := N_3
  have h24 : 2000 * (t.val + 1) = 50000 := by have := (flush3_5 t).mp hf; have := t.isLt; omega
  show (cfg3.win 5).cut (grid3.coords t) ((dat3 V c).after 5 t) = _
  rw [after3_5]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, e0, e1, -⟩ := bands3 t
  have hj : ((cfg3.win 5).blk t).view.emb (ix2 0 q) = ix2 0 q := by
    funext a; apply Fin.ext
    match a with
    | ⟨0, _⟩ => show win3_5.index t (0 : Fin 2) * 1 + 1 * 0 = 0; omega
    | ⟨1, _⟩ => show win3_5.index t (1 : Fin 2) * 256 + 1 * q.val = q.val; omega
  show (left3 V c t.val t.isLt).2.1 (ix2 0 q) = sumArr3 V c (((cfg3.win 5).blk t).view.emb (ix2 0 q))
  rw [hj]
  show (left3 V c t.val t.isLt).2.1 (ix2 0 q) = Gin.colsum (uMat3 V c) q
  rw [← allRows3, sumAt3 V c q t.val t.isLt, h24]

/-- An index of the column-sum array is in point `t`'s block iff each coordinate is in the block's range on its axis. -/
theorem mem_blk3_5 (t : Fin cfg3.N) (i : (Pipeline.arrRef spec3 5).ty.shape.Idx) :
    i ∈ ((cfg3.win 5).blk t).view.set ↔ ∀ a : Fin 2, win3_5.index t a * S1x256.size a ≤ (i a).val ∧ (i a).val < win3_5.index t a * S1x256.size a + S1x256.size a := by
  show i ∈ ((View.whole (Pipeline.arrRef spec3 5)).slice (win3_5.rect t)).set ↔ _
  rw [View.set_slice_whole, Rect.mem_set_unit]
  exact Iff.rfl

/-- So the column-sum array ends as that row. -/
theorem final3_5 (c : Dev nD) : (dat3 V c).arrAt 5 cfg3.N = sumArr3 V c :=
  (dat3 V c).arrAt_eq_of_cover 5 (sumArr3 V c) (flushed3_5 V c) fun i => by
    have hN : cfg3.N = 25 := N_3
    refine ⟨⟨24, by omega⟩, (flush3_5 _).mpr rfl, ?_⟩
    rw [mem_blk3_5]
    obtain ⟨-, -, -, -, -, -, -, -, -, -, e0, e1, -⟩ := bands3 (⟨24, by omega⟩ : Fin cfg3.N)
    intro a
    match a with
    | ⟨0, _⟩ => show win3_5.index _ (0 : Fin 2) * 1 ≤ (i 0).val ∧ (i 0).val < win3_5.index _ (0 : Fin 2) * 1 + 1; have hi0 : (i 0).val < 1 := (i 0).isLt; omega
    | ⟨1, _⟩ => show win3_5.index _ (1 : Fin 2) * 256 ≤ (i 1).val ∧ (i 1).val < win3_5.index _ (1 : Fin 2) * 256 + 256; have hi1 : (i 1).val < 256 := (i 1).isLt; omega

/-- What the sum-of-squares array is written back as: the column sums over all 50000 rows, as a row array. -/
def sqArr3 (c : Dev nD) : Vec Ideal S1x256 .f32 := fun i => Gin.colsum (fun r j => uMat3 V c r j * uMat3 V c r j) (i 1)

set_option maxRecDepth 65536 in
/-- The one write-back of the sum-of-squares array, after the last point, writes that row: block (0, 0) of the one-row array is the array, and the
    accumulator then holds the sum over every band. -/
theorem flushed3_6 (c : Dev nD) (t : Fin cfg3.N) (hf : (cfg3.win 6).flush t = true) :
    (dat3 V c).flushed 6 t = ((cfg3.win 6).blk t).view.read (Elt Ideal) (sqArr3 V c) := by
  have hN : cfg3.N = 25 := N_3
  have h24 : 2000 * (t.val + 1) = 50000 := by have := (flush3_6 t).mp hf; have := t.isLt; omega
  show (cfg3.win 6).cut (grid3.coords t) ((dat3 V c).after 6 t) = _
  rw [after3_6]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, -, -, e0, e1⟩ := bands3 t
  have hj : ((cfg3.win 6).blk t).view.emb (ix2 0 q) = ix2 0 q := by
    funext a; apply Fin.ext
    match a with
    | ⟨0, _⟩ => show win3_6.index t (0 : Fin 2) * 1 + 1 * 0 = 0; omega
    | ⟨1, _⟩ => show win3_6.index t (1 : Fin 2) * 256 + 1 * q.val = q.val; omega
  show (left3 V c t.val t.isLt).2.2 (ix2 0 q) = sqArr3 V c (((cfg3.win 6).blk t).view.emb (ix2 0 q))
  rw [hj]
  show (left3 V c t.val t.isLt).2.2 (ix2 0 q) = Gin.colsum (fun r j => uMat3 V c r j * uMat3 V c r j) q
  rw [← allRows3, sqAt3 V c q t.val t.isLt, h24]

/-- An index of the sum-of-squares array is in point `t`'s block iff each coordinate is in the block's range on its axis. -/
theorem mem_blk3_6 (t : Fin cfg3.N) (i : (Pipeline.arrRef spec3 6).ty.shape.Idx) :
    i ∈ ((cfg3.win 6).blk t).view.set ↔ ∀ a : Fin 2, win3_6.index t a * S1x256.size a ≤ (i a).val ∧ (i a).val < win3_6.index t a * S1x256.size a + S1x256.size a := by
  show i ∈ ((View.whole (Pipeline.arrRef spec3 6)).slice (win3_6.rect t)).set ↔ _
  rw [View.set_slice_whole, Rect.mem_set_unit]
  exact Iff.rfl

/-- So the sum-of-squares array ends as that row. -/
theorem final3_6 (c : Dev nD) : (dat3 V c).arrAt 6 cfg3.N = sqArr3 V c :=
  (dat3 V c).arrAt_eq_of_cover 6 (sqArr3 V c) (flushed3_6 V c) fun i => by
    have hN : cfg3.N = 25 := N_3
    refine ⟨⟨24, by omega⟩, (flush3_6 _).mpr rfl, ?_⟩
    rw [mem_blk3_6]
    obtain ⟨-, -, -, -, -, -, -, -, -, -, -, -, e0, e1⟩ := bands3 (⟨24, by omega⟩ : Fin cfg3.N)
    intro a
    match a with
    | ⟨0, _⟩ => show win3_6.index _ (0 : Fin 2) * 1 ≤ (i 0).val ∧ (i 0).val < win3_6.index _ (0 : Fin 2) * 1 + 1; have hi0 : (i 0).val < 1 := (i 0).isLt; omega
    | ⟨1, _⟩ => show win3_6.index _ (1 : Fin 2) * 256 ≤ (i 1).val ∧ (i 1).val < win3_6.index _ (1 : Fin 2) * 256 + 256; have hi1 : (i 1).val < 256 := (i 1).isLt; omega

/-! ## The region's three results -/

/-- The affine output: (h + agg) · W + b. -/
theorem val3_4 (c : Dev nD) : Gin.toMat ((dat3 V c).arrAt 4 cfg3.N)
    = Gin.lin (fun r k => Gin.toMat (V c (Pipeline.arrRef spec3 0)) r k + Gin.toMat (V c (Pipeline.arrRef spec3 1)) r k)
        (Gin.toWt (V c (Pipeline.arrRef spec3 2))) (Gin.toRow (V c (Pipeline.arrRef spec3 3))) := by
  rw [final3_4]
  rfl
/-- Its column sums. -/
theorem val3_5 (c : Dev nD) : Gin.toRow ((dat3 V c).arrAt 5 cfg3.N) = Gin.colsum (Gin.toMat ((dat3 V c).arrAt 4 cfg3.N)) := by
  rw [final3_5, final3_4]
  rfl
/-- The column sums of its squares. -/
theorem val3_6 (c : Dev nD) : Gin.toRow ((dat3 V c).arrAt 6 cfg3.N)
    = Gin.colsum (fun r j => Gin.toMat ((dat3 V c).arrAt 4 cfg3.N) r j * Gin.toMat ((dat3 V c).arrAt 4 cfg3.N) r j) := by
  rw [final3_6, final3_4]
  rfl

end Cert.KernelIdeal.Hand

end
-- ==== Proof.KI.Pay4.lean ====
/-
  The body of the normalise, multiply and accumulate-statistics step at the ideal values, read at an index (floats are
  extended reals, every operation exact, a change of float format the identity). Each value the body stores is, entry by
  entry, a plain sum or product of the entries it loaded: the normalised [2000,256] block times the [256,256] weight
  matrix plus the bias row; each accumulator row plus the column sums of a [2000,256] block, or of its squares; the zero
  rows of the first step; a row re-laid with its own layout.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx

/-! ## The [2000,256] × [256,256] product read at an entry -/

/-- Row axis of the left operand: the output's row. -/
theorem k4_lhs_axis0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- Column axis of the left operand: the contracted coordinate. -/
theorem k4_lhs_axis1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- Row axis of the right operand: the contracted coordinate. -/
theorem k4_rhs_axis0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- Column axis of the right operand: the output's column. -/
theorem k4_rhs_axis1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The matrix unit's product into a zero accumulator, at entry (p, q): the sum over the 256 contracted coordinates of
    the left operand's row p times the right operand's column q. -/
theorem k4_product_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  refine (Ideal.matmul_constant_zero_apply dot_S2000x256_S256x256_S2000x256_1_0_0_1_n_n none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact k4_lhs_axis0 _ _
      | ⟨1, _⟩ => exact (k4_lhs_axis1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (k4_rhs_axis0 _ _).trans hk
      | ⟨1, _⟩ => exact k4_rhs_axis1 _ _)
  rw [el, er]

/-! ## A column sum of a [2000,256] block, laid as a [1,256] row -/

/-- The sum over the 2000 rows, read at lane q. -/
theorem k4_colsum_apply (x : FVec Ideal S2000x256 .f32) (hacc : (0x00000000#32 : BitVec 32) = 0x00000000#32) (q : Fin 256) :
    multiReduction (F := Ideal) .add [0] S256 x 0x00000000#32 reduces_S2000x256_S256 (.inl rfl) hacc (ix1 q)
      = ∑ p : Fin 2000, x (ix2 p q) := by
  refine (Ideal.multiReduction_add_single x 0x00000000#32 reduces_S2000x256_S256 (.inl rfl) hacc (ix1 q)).trans ?_
  refine Finset.sum_congr rfl fun p _ => congrArg x ?_
  funext a
  match a with
  | ⟨0, _⟩ => rfl
  | ⟨1, _⟩ => rfl

/-! ## What the body stores, entry by entry -/

/-- The normalised block times the weights plus the bias: entry (p, q) is the sum over k of
    ((x[p,k] − mean[k]) · rsqrt(var[k] + ε) · gain[k] + shift[k]) · w[k,q], plus bias[q]; the narrowing to bf16 in
    front of the matrix unit is the identity on extended reals. -/
theorem k4_pay5_apply (v3 : Vec Ideal S2000x256 .f32) (v5 v9 v16 v20 : Vec Ideal S1x256 .f32)
    (v25 : Vec Ideal S256x256 .bf16) (v28 : Vec Ideal S1x256 .f32) (p : Fin 2000) (q : Fin 256) :
    k4_pay5 (F := Ideal) v3 v5 v9 v16 v20 v25 v28 (ix2 p q)
      = (∑ k : Fin 256, ((v3 (ix2 p k) - v5 (ix2 0 k)) * Ideal.rsqrt (v9 (ix2 0 k) + Ideal.ofBits .f32 0x3727C5AC#32)
            * v16 (ix2 0 k) + v20 (ix2 0 k)) * v25 (ix2 k q))
        + v28 (ix2 0 q) := by
  unfold k4_pay5
  simp only [shapeCast_self]
  refine (addf_apply _ _ _).trans ?_
  refine congrArg₂ (· + ·) ?_ ?_
  · refine (k4_product_apply _ _ p q).trans ?_
    refine Finset.sum_congr rfl fun k _ => congrArg (· * v25 (ix2 k q)) ?_
    show (v3 (ix2 p k) - broadcastTo S2000x256 v5 broadcasts_S1x256_S2000x256 (ix2 p k))
          * broadcastTo S2000x256 (rsqrt (addf v9 (broadcast S1x256 (Scalar.ofBits (F := Ideal) .f32 0x3727C5AC#32))))
              broadcasts_S1x256_S2000x256 (ix2 p k)
          * broadcastTo S2000x256 v16 broadcasts_S1x256_S2000x256 (ix2 p k)
        + broadcastTo S2000x256 v20 broadcasts_S1x256_S2000x256 (ix2 p k) = _
    rw [broadcastTo_1b_ab_apply v5 broadcasts_S1x256_S2000x256 p k,
      broadcastTo_1b_ab_apply (rsqrt (addf v9 (broadcast S1x256 (Scalar.ofBits (F := Ideal) .f32 0x3727C5AC#32))))
        broadcasts_S1x256_S2000x256 p k,
      broadcastTo_1b_ab_apply v16 broadcasts_S1x256_S2000x256 p k,
      broadcastTo_1b_ab_apply v20 broadcasts_S1x256_S2000x256 p k]
    rfl
  · exact broadcastTo_1b_ab_apply v28 broadcasts_S1x256_S2000x256 p q

/-- The first accumulator row plus the column sums of the block. -/
theorem k4_pay1_apply (v31 : FVec Ideal S2000x256 .f32) (v34 : FVec Ideal S1x256 .f32) (q : Fin 256) :
    k4_pay1 (F := Ideal) v31 v34 (ix2 0 q) = v34 (ix2 0 q) + ∑ p : Fin 2000, v31 (ix2 p q) := by
  unfold k4_pay1
  refine (addf_apply _ _ _).trans ?_
  refine congrArg (v34 (ix2 0 q) + ·) ?_
  refine (shapeCast_a_1a_apply _ shapeCasts_S256_S1x256 0 q).trans ?_
  exact k4_colsum_apply v31 rfl q

/-- The second accumulator row plus the column sums of the block's squares. -/
theorem k4_pay2_apply (v31 : FVec Ideal S2000x256 .f32) (v39 : Vec Ideal S1x256 .f32) (q : Fin 256) :
    k4_pay2 (F := Ideal) v31 v39 (ix2 0 q) = v39 (ix2 0 q) + ∑ p : Fin 2000, v31 (ix2 p q) * v31 (ix2 p q) := by
  unfold k4_pay2
  simp only [shapeCast_self]
  refine (addf_apply _ _ _).trans ?_
  refine congrArg (v39 (ix2 0 q) + ·) ?_
  refine (shapeCast_a_1a_apply _ shapeCasts_S256_S1x256 0 q).trans ?_
  exact k4_colsum_apply (mulf v31 v31) rfl q

/-- The zero row the first step stores into the first accumulator. -/
theorem k4_pay3_apply (q : Fin 256) : k4_pay3 (F := Ideal) (ix2 0 q) = 0 := by
  unfold k4_pay3
  exact Ideal.ofBits_zero_f32

/-- The zero row the first step stores into the second accumulator. -/
theorem k4_pay4_apply (q : Fin 256) : k4_pay4 (F := Ideal) (ix2 0 q) = 0 := by
  unfold k4_pay4
  exact Ideal.ofBits_zero_f32

/-- A [1,256] row re-laid as a [1,256] row is itself. -/
theorem k4_pay6_eq (v33 : Vec Ideal S1x256 .f32) : k4_pay6 (F := Ideal) v33 = v33 := by
  unfold k4_pay6
  exact shapeCast_self v33 shapeCasts_S1x256_S1x256

/-- … so at lane q it reads the row's lane q. -/
theorem k4_pay6_apply (v33 : Vec Ideal S1x256 .f32) (q : Fin 256) : k4_pay6 (F := Ideal) v33 (ix2 0 q) = v33 (ix2 0 q) :=
  congrFun (k4_pay6_eq v33) (ix2 0 q)

end Cert.KernelIdeal.PayVal

end
-- ==== Proof.KI.R4Val.lean ====
/-
  What region 4 of the idealized kernel program leaves in its output arrays, at the exact instance, as functions of what it finds in its
  input arrays: the mathematics of the kernel body summed over the grid.
-/
import proofs.«102822_j3521873183180_1_alg».proof.Proof.KI.R4
import proofs.«102822_j3521873183180_1_alg».proof.Proof.Spec
import proofs.«102822_j3521873183180_1_alg».proof.Proof.KI.Pay4
import proofs.«102822_j3521873183180_1_alg».proof.Proof.LibBlockSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat)

section Pieces

variable {F : FTy → Type} [FloatOps F]

/-! ## What each case's stores leave, as the body's payloads of the blocks (any float instance) -/

theorem hz4 : (![0, 0] : Fin 2 → Nat) = fun _ => 0 := funext fun a => by fin_cases a <;> rfl

/-- At the first point the block output's buffer ends at the one store's payload: the affine map of the normalised input block. -/
theorem out4_A_7_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out4_A_7 c i arg1 harg1 arg2 harg2 arg3 harg3 arg4 harg4 arg5 harg5 arg6 harg6 arg7 harg7 arg8 harg8 arg9 harg9 arg10 harg10 hc0 x0 x1 x2 x3 x4 x5 x6 = k4_pay5 x0 x1 x2 x3 x4 x5 x6 := by
  unfold out4_A_7
  rw [View.read_writes_eq_canon _ _ _ (cover4_A_7 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  sl_unfold_words
  rw [View.canon_unit_zero hz4]
  simp only [View.readAt_eq_ld, harg1.read_unread, harg2.read_unread, harg3.read_unread, harg4.read_unread, harg5.read_unread, harg6.read_unread, harg7.read_unread, harg9.read_unread, harg10.read_unread,
    View.ld_unit_zero (S := S2000x256) hz4, View.ld_unit_zero (S := S1x256) hz4, View.ld_unit_zero (S := S256x256) hz4]

/-- At the first point the first accumulator ends at the zero row, read back, plus the block's column sums. -/
theorem out4_A_8_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out4_A_8 c i arg1 harg1 arg2 harg2 arg3 harg3 arg4 harg4 arg5 harg5 arg6 harg6 arg7 harg7 arg8 harg8 arg9 harg9 arg10 harg10 hc0 x0 x1 x2 x3 x4 x5 x6 = k4_pay1 (k4_pay5 x0 x1 x2 x3 x4 x5 x6) (k4_pay6 (k4_pay3 (F := F))) := by
  unfold out4_A_8
  rw [View.read_writes_eq_canon _ _ _ (cover4_A_8 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  sl_unfold_words
  rw [View.canon_cons_unit_zero (S := S1x256) hz4, View.readCov_unit_zero (S := S1x256) _ hz4]
  simp only [View.readAt_eq_ld, harg1.read_unread, harg2.read_unread, harg3.read_unread, harg4.read_unread, harg5.read_unread, harg6.read_unread, harg7.read_unread, harg9.read_unread, harg10.read_unread,
    View.ld_unit_zero (S := S2000x256) hz4, View.ld_unit_zero (S := S1x256) hz4, View.ld_unit_zero (S := S256x256) hz4]

/-- At the first point the second accumulator ends at the zero row, read back, plus the column sums of the block's squares. -/
theorem out4_A_9_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out4_A_9 c i arg1 harg1 arg2 harg2 arg3 harg3 arg4 harg4 arg5 harg5 arg6 harg6 arg7 harg7 arg8 harg8 arg9 harg9 arg10 harg10 hc0 x0 x1 x2 x3 x4 x5 x6 = k4_pay2 (k4_pay5 x0 x1 x2 x3 x4 x5 x6) (k4_pay4 (F := F)) := by
  unfold out4_A_9
  rw [View.read_writes_eq_canon _ _ _ (cover4_A_9 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  sl_unfold_words
  rw [View.canon_cons_unit_zero (S := S1x256) hz4, View.readCov_unit_zero (S := S1x256) _ hz4]
  simp only [View.readAt_eq_ld, harg1.read_unread, harg2.read_unread, harg3.read_unread, harg4.read_unread, harg5.read_unread, harg6.read_unread, harg7.read_unread, harg9.read_unread, harg10.read_unread,
    View.ld_unit_zero (S := S2000x256) hz4, View.ld_unit_zero (S := S1x256) hz4, View.ld_unit_zero (S := S256x256) hz4]

/-- At any other point the block output's buffer ends at the one store's payload: the affine map of the normalised input block. -/
theorem out4_B_7_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out4_B_7 c i arg1 harg1 arg2 harg2 arg3 harg3 arg4 harg4 arg5 harg5 arg6 harg6 arg7 harg7 arg8 harg8 arg9 harg9 arg10 harg10 hc0 x0 x1 x2 x3 x4 x5 x6 xo8 xo9 = k4_pay5 x0 x1 x2 x3 x4 x5 x6 := by
  unfold out4_B_7
  rw [View.read_writes_eq_canon _ _ _ (cover4_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  sl_unfold_words
  rw [View.canon_unit_zero hz4]
  simp only [View.readAt_eq_ld, harg1.read_unread, harg2.read_unread, harg3.read_unread, harg4.read_unread, harg5.read_unread, harg6.read_unread, harg7.read_unread, harg9.read_unread, harg10.read_unread,
    View.ld_unit_zero (S := S2000x256) hz4, View.ld_unit_zero (S := S1x256) hz4, View.ld_unit_zero (S := S256x256) hz4]

/-- At any other point the first accumulator ends at what it held plus the block's column sums. -/
theorem out4_B_8_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out4_B_8 c i arg1 harg1 arg2 harg2 arg3 harg3 arg4 harg4 arg5 harg5 arg6 harg6 arg7 harg7 arg8 harg8 arg9 harg9 arg10 harg10 hc0 x0 x1 x2 x3 x4 x5 x6 xo8 xo9 = k4_pay1 (k4_pay5 x0 x1 x2 x3 x4 x5 x6) (k4_pay6 xo8) := by
  unfold out4_B_8
  rw [View.read_writes_eq_canon _ _ _ (cover4_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  sl_unfold_words
  rw [View.canon_unit_zero hz4]
  simp only [View.readAt_eq_ld, harg1.read_unread, harg2.read_unread, harg3.read_unread, harg4.read_unread, harg5.read_unread, harg6.read_unread, harg7.read_unread, harg9.read_unread, harg10.read_unread,
    View.ld_unit_zero (S := S2000x256) hz4, View.ld_unit_zero (S := S1x256) hz4, View.ld_unit_zero (S := S256x256) hz4]

/-- At any other point the second accumulator ends at what it held plus the column sums of the block's squares. -/
theorem out4_B_9_eq (c : Dev nD) (i : grid4.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond4_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out4_B_9 c i arg1 harg1 arg2 harg2 arg3 harg3 arg4 harg4 arg5 harg5 arg6 harg6 arg7 harg7 arg8 harg8 arg9 harg9 arg10 harg10 hc0 x0 x1 x2 x3 x4 x5 x6 xo8 xo9 = k4_pay2 (k4_pay5 x0 x1 x2 x3 x4 x5 x6) xo9 := by
  unfold out4_B_9
  rw [View.read_writes_eq_canon _ _ _ (cover4_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  sl_unfold_words
  rw [View.canon_unit_zero hz4]
  simp only [View.readAt_eq_ld, harg1.read_unread, harg2.read_unread, harg3.read_unread, harg4.read_unread, harg5.read_unread, harg6.read_unread, harg7.read_unread, harg9.read_unread, harg10.read_unread,
    View.ld_unit_zero (S := S2000x256) hz4, View.ld_unit_zero (S := S1x256) hz4, View.ld_unit_zero (S := S256x256) hz4]

end Pieces

/-! ## The region at the exact instance -/

variable (V : (c : Dev nD) → (b : Ref sig .tc) → Buf (Elt Ideal) ((c : Thread nD τ).loc b))

/-- The grid has 25 points: a point's number is below 25. -/
theorem pt_lt4 (t : Fin cfg4.N) : t.val < 25 := lt_of_lt_of_eq t.isLt N_4

/-- What the region computes into its block output: the affine map bn(u; μ, σ², γ, β) · W + b of its input arrays. -/
def aff4 (c : Dev nD) : Gin.Mat :=
  Gin.lin (Gin.bn (Gin.toMat (V c (Pipeline.arrRef spec4 0))) (Gin.toRow (V c (Pipeline.arrRef spec4 1))) (Gin.toRow (V c (Pipeline.arrRef spec4 2)))
      (Gin.toRow (V c (Pipeline.arrRef spec4 3))) (Gin.toRow (V c (Pipeline.arrRef spec4 4))))
    (Gin.toWt (V c (Pipeline.arrRef spec4 5))) (Gin.toRow (V c (Pipeline.arrRef spec4 6)))

/-! ## Where each window's block sits in its array -/

/-- The printed index maps, decided over the grid: the two row-blocked windows are at block `t`, every other window at block 0. -/
theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)
theorem idx4_2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)
theorem idx4_3 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
theorem idx4_4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
theorem idx4_5 : ∀ t : Fin cfg4.N, win4_5.index t (0 : Fin 2) = 0 ∧ win4_5.index t (1 : Fin 2) = 0 :=
  (by decide +kernel : ∀ t : Fin grid4.N, win4_5.index t (0 : Fin 2) = 0 ∧ win4_5.index t (1 : Fin 2) = 0)
theorem idx4_6 : ∀ t : Fin cfg4.N, win4_6.index t (0 : Fin 2) = 0 ∧ win4_6.index t (1 : Fin 2) = 0 :=
  (by decide +kernel : ∀ t : Fin grid4.N, win4_6.index t (0 : Fin 2) = 0 ∧ win4_6.index t (1 : Fin 2) = 0)
theorem idx4_7 : ∀ t : Fin cfg4.N, win4_7.index t (0 : Fin 2) = t.val ∧ win4_7.index t (1 : Fin 2) = 0 :=
  (by decide +kernel : ∀ t : Fin grid4.N, win4_7.index t (0 : Fin 2) = t.val ∧ win4_7.index t (1 : Fin 2) = 0)
theorem idx4_8 : ∀ t : Fin cfg4.N, win4_8.index t (0 : Fin 2) = 0 ∧ win4_8.index t (1 : Fin 2) = 0 :=
  (by decide +kernel : ∀ t : Fin grid4.N, win4_8.index t (0 : Fin 2) = 0 ∧ win4_8.index t (1 : Fin 2) = 0)
theorem idx4_9 : ∀ t : Fin cfg4.N, win4_9.index t (0 : Fin 2) = 0 ∧ win4_9.index t (1 : Fin 2) = 0 :=
  (by decide +kernel : ∀ t : Fin grid4.N, win4_9.index t (0 : Fin 2) = 0 ∧ win4_9.index t (1 : Fin 2) = 0)

/-- Row `p` of block `t` of a row-blocked window is row `2000 t + p` of its array. -/
theorem emb4_0 (t : Fin cfg4.N) (p : Fin 2000) (q : Fin 256) :
    ((cfg4.win 0).blk t).view.emb (ix2 p q) = ix2 (⟨2000 * t.val + p.val, BlockSum.row_lt (pt_lt4 t) p⟩ : Fin 50000) q := by
  funext a; apply Fin.ext
  obtain ⟨e0, e1⟩ := idx4_0 t
  match a with
  | ⟨0, _⟩ => show win4_0.index t (0 : Fin 2) * 2000 + 1 * p.val = 2000 * t.val + p.val; rw [e0]; omega
  | ⟨1, _⟩ => show win4_0.index t (1 : Fin 2) * 256 + 1 * q.val = q.val; rw [e1]; omega
theorem emb4_7 (t : Fin cfg4.N) (p : Fin 2000) (q : Fin 256) :
    ((cfg4.win 7).blk t).view.emb (ix2 p q) = ix2 (⟨2000 * t.val + p.val, BlockSum.row_lt (pt_lt4 t) p⟩ : Fin 50000) q := by
  funext a; apply Fin.ext
  obtain ⟨e0, e1⟩ := idx4_7 t
  match a with
  | ⟨0, _⟩ => show win4_7.index t (0 : Fin 2) * 2000 + 1 * p.val = 2000 * t.val + p.val; rw [e0]; omega
  | ⟨1, _⟩ => show win4_7.index t (1 : Fin 2) * 256 + 1 * q.val = q.val; rw [e1]; omega
/-- The one block of a row window is its array. -/
theorem emb4_1 (t : Fin cfg4.N) (q : Fin 256) :
    ((cfg4.win 1).blk t).view.emb (ix2 (0 : Fin 1) q) = ix2 (0 : Fin 1) q := by
  funext a; apply Fin.ext
  obtain ⟨e0, e1⟩ := idx4_1 t
  match a with
  | ⟨0, _⟩ => show win4_1.index t (0 : Fin 2) * 1 + 1 * (0 : Fin 1).val = (0 : Fin 1).val; rw [e0]; omega
  | ⟨1, _⟩ => show win4_1.index t (1 : Fin 2) * 256 + 1 * q.val = q.val; rw [e1]; omega
theorem emb4_2 (t : Fin cfg4.N) (q : Fin 256) :
    ((cfg4.win 2).blk t).view.emb (ix2 (0 : Fin 1) q) = ix2 (0 : Fin 1) q := by
  funext a; apply Fin.ext
  obtain ⟨e0, e1⟩ := idx4_2 t
  match a with
  | ⟨0, _⟩ => show win4_2.index t (0 : Fin 2) * 1 + 1 * (0 : Fin 1).val = (0 : Fin 1).val; rw [e0]; omega
  | ⟨1, _⟩ => show win4_2.index t (1 : Fin 2) * 256 + 1 * q.val = q.val; rw [e1]; omega
theorem emb4_3 (t : Fin cfg4.N) (q : Fin 256) :
    ((cfg4.win 3).blk t).view.emb (ix2 (0 : Fin 1) q) = ix2 (0 : Fin 1) q := by
  funext a; apply Fin.ext
  obtain ⟨e0, e1⟩ := idx4_3 t
  match a with
  | ⟨0, _⟩ => show win4_3.index t (0 : Fin 2) * 1 + 1 * (0 : Fin 1).val = (0 : Fin 1).val; rw [e0]; omega
  | ⟨1, _⟩ => show win4_3.index t (1 : Fin 2) * 256 + 1 * q.val = q.val; rw [e1]; omega
theorem emb4_4 (t : Fin cfg4.N) (q : Fin 256) :
    ((cfg4.win 4).blk t).view.emb (ix2 (0 : Fin 1) q) = ix2 (0 : Fin 1) q := by
  funext a; apply Fin.ext
  obtain ⟨e0, e1⟩ := idx4_4 t
  match a with
  | ⟨0, _⟩ => show win4_4.index t (0 : Fin 2) * 1 + 1 * (0 : Fin 1).val = (0 : Fin 1).val; rw [e0]; omega
  | ⟨1, _⟩ => show win4_4.index t (1 : Fin 2) * 256 + 1 * q.val = q.val; rw [e1]; omega
theorem emb4_6 (t : Fin cfg4.N) (q : Fin 256) :
    ((cfg4.win 6).blk t).view.emb (ix2 (0 : Fin 1) q) = ix2 (0 : Fin 1) q := by
  funext a; apply Fin.ext
  obtain ⟨e0, e1⟩ := idx4_6 t
  match a with
  | ⟨0, _⟩ => show win4_6.index t (0 : Fin 2) * 1 + 1 * (0 : Fin 1).val = (0 : Fin 1).val; rw [e0]; omega
  | ⟨1, _⟩ => show win4_6.index t (1 : Fin 2) * 256 + 1 * q.val = q.val; rw [e1]; omega
theorem emb4_8 (t : Fin cfg4.N) (q : Fin 256) :
    ((cfg4.win 8).blk t).view.emb (ix2 (0 : Fin 1) q) = ix2 (0 : Fin 1) q := by
  funext a; apply Fin.ext
  obtain ⟨e0, e1⟩ := idx4_8 t
  match a with
  | ⟨0, _⟩ => show win4_8.index t (0 : Fin 2) * 1 + 1 * (0 : Fin 1).val = (0 : Fin 1).val; rw [e0]; omega
  | ⟨1, _⟩ => show win4_8.index t (1 : Fin 2) * 256 + 1 * q.val = q.val; rw [e1]; omega
theorem emb4_9 (t : Fin cfg4.N) (q : Fin 256) :
    ((cfg4.win 9).blk t).view.emb (ix2 (0 : Fin 1) q) = ix2 (0 : Fin 1) q := by
  funext a; apply Fin.ext
  obtain ⟨e0, e1⟩ := idx4_9 t
  match a with
  | ⟨0, _⟩ => show win4_9.index t (0 : Fin 2) * 1 + 1 * (0 : Fin 1).val = (0 : Fin 1).val; rw [e0]; omega
  | ⟨1, _⟩ => show win4_9.index t (1 : Fin 2) * 256 + 1 * q.val = q.val; rw [e1]; omega
/-- The one block of the weight window is its array. -/
theorem emb4_5 (t : Fin cfg4.N) (k : Fin 256) (q : Fin 256) :
    ((cfg4.win 5).blk t).view.emb (ix2 k q) = ix2 k q := by
  funext a; apply Fin.ext
  obtain ⟨e0, e1⟩ := idx4_5 t
  match a with
  | ⟨0, _⟩ => show win4_5.index t (0 : Fin 2) * 256 + 1 * k.val = k.val; rw [e0]; omega
  | ⟨1, _⟩ => show win4_5.index t (1 : Fin 2) * 256 + 1 * q.val = q.val; rw [e1]; omega

/-! ## The input blocks, entry by entry -/

theorem blk4_0_apply (c : Dev nD) (t : Fin cfg4.N) (p : Fin 2000) (k : Fin 256) :
    iblk4 V c 0 t (ix2 p k) = Gin.toMat (V c (Pipeline.arrRef spec4 0)) ⟨2000 * t.val + p.val, BlockSum.row_lt (pt_lt4 t) p⟩ k := by
  show V c (Pipeline.arrRef spec4 0) (((cfg4.win 0).blk t).view.emb (ix2 p k)) = _
  rw [emb4_0]
  rfl
theorem blk4_1_apply (c : Dev nD) (t : Fin cfg4.N) (k : Fin 256) :
    iblk4 V c 1 t (ix2 (0 : Fin 1) k) = Gin.toRow (V c (Pipeline.arrRef spec4 1)) k := by
  show V c (Pipeline.arrRef spec4 1) (((cfg4.win 1).blk t).view.emb (ix2 (0 : Fin 1) k)) = _
  rw [emb4_1]
  rfl
theorem blk4_2_apply (c : Dev nD) (t : Fin cfg4.N) (k : Fin 256) :
    iblk4 V c 2 t (ix2 (0 : Fin 1) k) = Gin.toRow (V c (Pipeline.arrRef spec4 2)) k := by
  show V c (Pipeline.arrRef spec4 2) (((cfg4.win 2).blk t).view.emb (ix2 (0 : Fin 1) k)) = _
  rw [emb4_2]
  rfl
theorem blk4_3_apply (c : Dev nD) (t : Fin cfg4.N) (k : Fin 256) :
    iblk4 V c 3 t (ix2 (0 : Fin 1) k) = Gin.toRow (V c (Pipeline.arrRef spec4 3)) k := by
  show V c (Pipeline.arrRef spec4 3) (((cfg4.win 3).blk t).view.emb (ix2 (0 : Fin 1) k)) = _
  rw [emb4_3]
  rfl
theorem blk4_4_apply (c : Dev nD) (t : Fin cfg4.N) (k : Fin 256) :
    iblk4 V c 4 t (ix2 (0 : Fin 1) k) = Gin.toRow (V c (Pipeline.arrRef spec4 4)) k := by
  show V c (Pipeline.arrRef spec4 4) (((cfg4.win 4).blk t).view.emb (ix2 (0 : Fin 1) k)) = _
  rw [emb4_4]
  rfl
theorem blk4_6_apply (c : Dev nD) (t : Fin cfg4.N) (k : Fin 256) :
    iblk4 V c 6 t (ix2 (0 : Fin 1) k) = Gin.toRow (V c (Pipeline.arrRef spec4 6)) k := by
  show V c (Pipeline.arrRef spec4 6) (((cfg4.win 6).blk t).view.emb (ix2 (0 : Fin 1) k)) = _
  rw [emb4_6]
  rfl
theorem blk4_5_apply (c : Dev nD) (t : Fin cfg4.N) (k : Fin 256) (q : Fin 256) :
    iblk4 V c 5 t (ix2 k q) = Gin.toWt (V c (Pipeline.arrRef spec4 5)) k q := by
  show V c (Pipeline.arrRef spec4 5) (((cfg4.win 5).blk t).view.emb (ix2 k q)) = _
  rw [emb4_5]
  rfl

/-- The body's block payload at the region's input blocks: row `p` of block `t` of the affine map. -/
theorem pay5_blocks4 (c : Dev nD) (t : Fin cfg4.N) (p : Fin 2000) (q : Fin 256) :
    k4_pay5 (F := Ideal) (iblk4 V c 0 t) (iblk4 V c 1 t) (iblk4 V c 2 t) (iblk4 V c 3 t) (iblk4 V c 4 t) (iblk4 V c 5 t) (iblk4 V c 6 t) (ix2 p q)
      = aff4 V c ⟨2000 * t.val + p.val, BlockSum.row_lt (pt_lt4 t) p⟩ q := by
  refine (PayVal.k4_pay5_apply (iblk4 V c 0 t) (iblk4 V c 1 t) (iblk4 V c 2 t) (iblk4 V c 3 t) (iblk4 V c 4 t) (iblk4 V c 5 t) (iblk4 V c 6 t) p q).trans ?_
  simp only [blk4_0_apply, blk4_1_apply, blk4_2_apply, blk4_3_apply, blk4_4_apply, blk4_5_apply, blk4_6_apply]
  rfl

/-! ## The block output -/

/-- The block output's array after the region: entry (r, j) of the affine map. -/
def G4_7 (c : Dev nD) : (⟨2, ![Gin.N, Gin.D]⟩ : Shape).Idx → EReal := fun i => aff4 V c (i 0) (i 1)

/-- What point `t` writes back of the block output is block `t` of it. -/
theorem flushed4_7_eq (c : Dev nD) (t : Fin cfg4.N) :
    (dat4 V c).flushed 7 t = ((cfg4.win 7).blk t).view.read (Elt Ideal) (G4_7 V c) := by
  show (cfg4.win 7).cut (grid4.coords t) ((dat4 V c).after 7 t) = _
  rw [after4_7]
  funext y
  obtain ⟨p, q, rfl⟩ : ∃ (p : Fin 2000) (q : Fin 256), y = ix2 p q := ⟨y 0, y 1, eq_ix2 (n0 := 2000) (n1 := 256) y⟩
  show (outsAt4 V c t.val t.isLt).1 (ix2 p q) = G4_7 V c (((cfg4.win 7).blk t).view.emb (ix2 p q))
  rw [emb4_7]
  show _ = aff4 V c ⟨2000 * t.val + p.val, BlockSum.row_lt (pt_lt4 t) p⟩ q
  by_cases h0 : t.val % 25 = 0
  · rw [outsAt4_A V c t h0]; dsimp only; rw [out4_A_7_eq]; exact pay5_blocks4 V c t p q
  · rw [outsAt4_B V c t h0]; dsimp only; rw [out4_B_7_eq]; exact pay5_blocks4 V c t p q

/-- The block output's array after the region, entry by entry. -/
theorem arr4_7_apply (c : Dev nD) (r : Fin 50000) (j : Fin 256) :
    Gin.toMat ((dat4 V c).arrAt 7 cfg4.N) r j = aff4 V c r j := by
  have ht : r.val / 2000 < cfg4.N := lt_of_lt_of_eq (BlockSum.block_of_row r).1 N_4.symm
  have h := Dat.arrAt_apply_of_mem (dat4 V c) 7 (G4_7 V c) (fun t _ => flushed4_7_eq V c t) cfg4.N ⟨r.val / 2000, ht⟩
    (((cfg4.win 7).blk ⟨r.val / 2000, ht⟩).view.emb (ix2 (BlockSum.posOf r) j)) ht (flush4_7 _) (View.emb_mem_set _ _)
  rw [emb4_7] at h
  have hrow : (⟨2000 * (⟨r.val / 2000, ht⟩ : Fin cfg4.N).val + (BlockSum.posOf r).val, BlockSum.row_lt (pt_lt4 ⟨r.val / 2000, ht⟩) (BlockSum.posOf r)⟩ : Fin 50000) = r :=
    Fin.ext (BlockSum.block_of_row r).2.2
  rw [hrow] at h
  exact h

/-- The affine output of the normalised input: bn(u; μ, σ², γ, β) · W + b. -/
theorem val4_7 (c : Dev nD) : Gin.toMat ((dat4 V c).arrAt 7 cfg4.N)
    = Gin.lin (Gin.bn (Gin.toMat (V c (Pipeline.arrRef spec4 0))) (Gin.toRow (V c (Pipeline.arrRef spec4 1))) (Gin.toRow (V c (Pipeline.arrRef spec4 2)))
          (Gin.toRow (V c (Pipeline.arrRef spec4 3))) (Gin.toRow (V c (Pipeline.arrRef spec4 4))))
        (Gin.toWt (V c (Pipeline.arrRef spec4 5))) (Gin.toRow (V c (Pipeline.arrRef spec4 6))) := by
  funext r j
  exact arr4_7_apply V c r j

/-! ## The two accumulators -/

/-- The last point of the grid, where the accumulators are written back. -/
abbrev tLast4 : Fin cfg4.N := ⟨24, lt_of_lt_of_eq (by decide : 24 < 25) N_4.symm⟩

/-- After point `n` the first accumulator holds, lane by lane, the column sums of the affine map over the rows of the blocks so far. -/
theorem acc4_8 (c : Dev nD) (q : Fin 256) : ∀ (n : ℕ) (h : n < cfg4.N),
    (outsAt4 V c n h).2.1 (ix2 (0 : Fin 1) q) = 0 + BlockSum.upTo (fun r => aff4 V c r q) (n + 1)
  | 0, h => by
    rw [outsAt4_A V c ⟨0, h⟩ rfl]
    dsimp only
    rw [out4_A_8_eq]
    refine (PayVal.k4_pay1_apply _ _ q).trans ?_
    rw [PayVal.k4_pay6_apply, PayVal.k4_pay3_apply, BlockSum.upTo_succ _ 0 (by omega), BlockSum.upTo_zero]
    simp only [zero_add]
    refine Finset.sum_congr rfl fun p _ => ?_
    rw [pay5_blocks4 V c ⟨0, h⟩ p q]
  | n + 1, h => by
    have hN : n + 1 < 25 := lt_of_lt_of_eq h N_4
    have hB : ¬(⟨n + 1, h⟩ : Fin cfg4.N).val % 25 = 0 := by dsimp only; omega
    rw [outsAt4_B V c ⟨n + 1, h⟩ hB]
    dsimp only
    rw [out4_B_8_eq]
    refine (PayVal.k4_pay1_apply _ _ q).trans ?_
    rw [PayVal.k4_pay6_apply]
    show (outsAt4 V c n _).2.1 (ix2 (0 : Fin 1) q) + _ = _
    rw [acc4_8 c q n, BlockSum.upTo_succ _ (n + 1) hN, ← add_assoc]
    refine congrArg (0 + BlockSum.upTo _ (n + 1) + ·) (Finset.sum_congr rfl fun p _ => ?_)
    rw [pay5_blocks4 V c ⟨n + 1, h⟩ p q]

/-- The accumulator's array after the region. -/
def G4_8 (c : Dev nD) : (⟨2, ![1, Gin.D]⟩ : Shape).Idx → EReal := fun i => 0 + ∑ r, (fun q => aff4 V c r q) (i 1)

/-- Its one write-back, at the last point, writes the whole sum. -/
theorem flushed4_8_eq (c : Dev nD) (t : Fin cfg4.N) (hf : (cfg4.win 8).flush t = true) :
    (dat4 V c).flushed 8 t = ((cfg4.win 8).blk t).view.read (Elt Ideal) (G4_8 V c) := by
  have h24 : t.val = 24 := by have := (flush4_8 t).mp hf; have := pt_lt4 t; omega
  show (cfg4.win 8).cut (grid4.coords t) ((dat4 V c).after 8 t) = _
  rw [after4_8]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt4 V c t.val t.isLt).2.1 (ix2 (0 : Fin 1) q) = G4_8 V c (((cfg4.win 8).blk t).view.emb (ix2 (0 : Fin 1) q))
  rw [emb4_8, acc4_8 V c q t.val t.isLt, h24, BlockSum.upTo_all]
  rfl

/-- The accumulator's array after the region, lane by lane. -/
theorem arr4_8_apply (c : Dev nD) (q : Fin 256) :
    Gin.toRow ((dat4 V c).arrAt 8 cfg4.N) q = ∑ r, aff4 V c r q := by
  have h := Dat.arrAt_apply_of_mem (dat4 V c) 8 (G4_8 V c) (fun t hf => flushed4_8_eq V c t hf) cfg4.N tLast4
    (((cfg4.win 8).blk tLast4).view.emb (ix2 (0 : Fin 1) q)) tLast4.isLt ((flush4_8 tLast4).mpr rfl) (View.emb_mem_set _ _)
  rw [emb4_8] at h
  exact h.trans (zero_add _ : (0 : EReal) + _ = _)

/-- After point `n` the second accumulator holds, lane by lane, the column sums of the affine map's squares over the rows of the blocks so far. -/
theorem acc4_9 (c : Dev nD) (q : Fin 256) : ∀ (n : ℕ) (h : n < cfg4.N),
    (outsAt4 V c n h).2.2 (ix2 (0 : Fin 1) q) = 0 + BlockSum.upTo (fun r => aff4 V c r q * aff4 V c r q) (n + 1)
  | 0, h => by
    rw [outsAt4_A V c ⟨0, h⟩ rfl]
    dsimp only
    rw [out4_A_9_eq]
    refine (PayVal.k4_pay2_apply _ _ q).trans ?_
    rw [PayVal.k4_pay4_apply, BlockSum.upTo_succ _ 0 (by omega), BlockSum.upTo_zero]
    simp only [zero_add]
    refine Finset.sum_congr rfl fun p _ => ?_
    rw [pay5_blocks4 V c ⟨0, h⟩ p q]
  | n + 1, h => by
    have hN : n + 1 < 25 := lt_of_lt_of_eq h N_4
    have hB : ¬(⟨n + 1, h⟩ : Fin cfg4.N).val % 25 = 0 := by dsimp only; omega
    rw [outsAt4_B V c ⟨n + 1, h⟩ hB]
    dsimp only
    rw [out4_B_9_eq]
    refine (PayVal.k4_pay2_apply _ _ q).trans ?_
    show (outsAt4 V c n _).2.2 (ix2 (0 : Fin 1) q) + _ = _
    rw [acc4_9 c q n, BlockSum.upTo_succ _ (n + 1) hN, ← add_assoc]
    refine congrArg (0 + BlockSum.upTo _ (n + 1) + ·) (Finset.sum_congr rfl fun p _ => ?_)
    rw [pay5_blocks4 V c ⟨n + 1, h⟩ p q]

/-- The accumulator's array after the region. -/
def G4_9 (c : Dev nD) : (⟨2, ![1, Gin.D]⟩ : Shape).Idx → EReal := fun i => 0 + ∑ r, (fun q => aff4 V c r q * aff4 V c r q) (i 1)

/-- Its one write-back, at the last point, writes the whole sum. -/
theorem flushed4_9_eq (c : Dev nD) (t : Fin cfg4.N) (hf : (cfg4.win 9).flush t = true) :
    (dat4 V c).flushed 9 t = ((cfg4.win 9).blk t).view.read (Elt Ideal) (G4_9 V c) := by
  have h24 : t.val = 24 := by have := (flush4_9 t).mp hf; have := pt_lt4 t; omega
  show (cfg4.win 9).cut (grid4.coords t) ((dat4 V c).after 9 t) = _
  rw [after4_9]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt4 V c t.val t.isLt).2.2 (ix2 (0 : Fin 1) q) = G4_9 V c (((cfg4.win 9).blk t).view.emb (ix2 (0 : Fin 1) q))
  rw [emb4_9, acc4_9 V c q t.val t.isLt, h24, BlockSum.upTo_all]
  rfl

/-- The accumulator's array after the region, lane by lane. -/
theorem arr4_9_apply (c : Dev nD) (q : Fin 256) :
    Gin.toRow ((dat4 V c).arrAt 9 cfg4.N) q = ∑ r, aff4 V c r q * aff4 V c r q := by
  have h := Dat.arrAt_apply_of_mem (dat4 V c) 9 (G4_9 V c) (fun t hf => flushed4_9_eq V c t hf) cfg4.N tLast4
    (((cfg4.win 9).blk tLast4).view.emb (ix2 (0 : Fin 1) q)) tLast4.isLt ((flush4_9 tLast4).mpr rfl) (View.emb_mem_set _ _)
  rw [emb4_9] at h
  exact h.trans (zero_add _ : (0 : EReal) + _ = _)

/-- Its column sums. -/
theorem val4_8 (c : Dev nD) : Gin.toRow ((dat4 V c).arrAt 8 cfg4.N) = Gin.colsum (Gin.toMat ((dat4 V c).arrAt 7 cfg4.N)) := by
  funext q
  show _ = ∑ r, Gin.toMat ((dat4 V c).arrAt 7 cfg4.N) r q
  exact (arr4_8_apply V c q).trans (Finset.sum_congr rfl fun r _ => (arr4_7_apply V c r q).symm)
/-- The column sums of its squares. -/
theorem val4_9 (c : Dev nD) : Gin.toRow ((dat4 V c).arrAt 9 cfg4.N)
    = Gin.colsum (fun r j => Gin.toMat ((dat4 V c).arrAt 7 cfg4.N) r j * Gin.toMat ((dat4 V c).arrAt 7 cfg4.N) r j) := by
  funext q
  show _ = ∑ r, Gin.toMat ((dat4 V c).arrAt 7 cfg4.N) r q * Gin.toMat ((dat4 V c).arrAt 7 cfg4.N) r q
  exact (arr4_9_apply V c q).trans (Finset.sum_congr rfl fun r _ => by rw [arr4_7_apply V c r q])

end Cert.KernelIdeal.Hand

end
-- ==== Proof.KI.Pay5.lean ====
/-
  One launch of the kernel that normalizes a block of rows and keeps a running row of column sums, read at an index at the
  ideal values: floats are extended reals, every operation is exact, and a change of float format is the identity. The
  generated skeleton states each value the body stores as one pure term of the values it loads, the payloads `k5_pay1`,
  `k5_pay2`, `k5_pay3`. Here each payload is read at an index as plain sums and products of extended reals.

  The body loads a block x of 2000 rows by 256 columns and four rows of 256 entries: the column means, the column
  variances, a scale and a shift.
    • `k5_pay2` at (p, q) is ((x[p, q] − mean[0, q]) · rsqrt(var[0, q] + ε)) · scale[0, q] + shift[0, q], with ε the binary32
      value nearest 1e-5 (the word 0x3727C5AC): the normalized block;
    • `k5_pay3` at (0, q) is s[0, q] + ∑ₚ `k5_pay2`[p, q]: the running row s plus the normalized block's column sums;
    • `k5_pay1` — the zero row the running row is reset to at the first grid point — is 0 at every column.
  The steps: the same-shape casts are the identity; a row broadcast over the block's rows reads its one row; the products,
  the sum and the difference read entrywise; the reduction over the rows is the sum over the row coordinate, and the index
  it inserts that coordinate into is (p, q); the cast of the 256 column sums to a one-row block reads the sum at its column.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-- A row of 256 entries laid over the 2000 rows of the block reads, at row p and column q, its entry q. (The body first
    casts the row to its own shape, which changes nothing.) -/
private theorem row_over_block (v : Vec Ideal S1x256 .f32) (p : Fin 2000) (q : Fin 256) :
    broadcastTo S2000x256 (shapeCast S1x256 v shapeCasts_S1x256_S1x256) broadcasts_S1x256_S2000x256 (ix2 p q)
      = v (ix2 0 q) := by
  rw [shapeCast_self]
  exact broadcastTo_1b_ab_apply v broadcasts_S1x256_S2000x256 p q

/-- The sum of a 2000 × 256 block over its rows reads, at column q, the sum over p of the block's entries (p, q): the
    index the reduction inserts coordinate p into is (p, q). -/
private theorem column_sum (src : FVec Ideal S2000x256 .f32) (hφ : FKind.Formats .f32)
    (hacc : (0x00000000#32 : BitVec 32) = FKind.add.neutral .f32 hφ) (q : Fin 256) :
    multiReduction (F := Ideal) .add [0] S256 src 0x00000000#32 reduces_S2000x256_S256 hφ hacc (ix1 q)
      = ∑ p : Fin 2000, src (ix2 p q) := by
  refine (Ideal.multiReduction_add_single src _ reduces_S2000x256_S256 hφ hacc (ix1 q)).trans ?_
  refine Finset.sum_congr rfl fun p _ => congrArg src ?_
  funext c
  apply Fin.ext
  match c with
  | ⟨0, _⟩ => rfl
  | ⟨1, _⟩ => rfl

/-- The running row's reset value is zero in every column. -/
theorem k5_pay1_apply (q : Fin 256) : k5_pay1 (F := Ideal) (ix2 0 q) = 0 := by
  unfold k5_pay1
  exact Ideal.ofBits_zero_f32

/-- The normalized block at row p and column q: subtract the column's mean, multiply by the reciprocal root of the column's
    variance plus ε, multiply by the column's scale, add the column's shift. -/
theorem k5_pay2_apply (v3 : Vec Ideal S2000x256 .f32) (v5 v9 v16 v20 : Vec Ideal S1x256 .f32) (p : Fin 2000) (q : Fin 256) :
    k5_pay2 (F := Ideal) v3 v5 v9 v16 v20 (ix2 p q)
      = (v3 (ix2 p q) - v5 (ix2 0 q)) * Ideal.rsqrt (v9 (ix2 0 q) + Ideal.ofBits .f32 0x3727C5AC#32) * v16 (ix2 0 q)
        + v20 (ix2 0 q) := by
  unfold k5_pay2
  simp only [addf_apply, mulf_apply, subf_apply]
  rw [row_over_block v5 p q, row_over_block v16 p q, row_over_block v20 p q, shapeCast_self, broadcastTo_1b_ab_apply,
    shapeCast_self]
  rfl

/-- The running row after the body, at column q: what it held plus the sum over the block's 2000 rows of the normalized
    block's entries in column q. -/
theorem k5_pay3_apply (v3 : Vec Ideal S2000x256 .f32) (v5 v9 v16 v20 v25 : Vec Ideal S1x256 .f32) (q : Fin 256) :
    k5_pay3 (F := Ideal) v3 v5 v9 v16 v20 v25 (ix2 0 q)
      = v25 (ix2 0 q) + ∑ p : Fin 2000, k5_pay2 (F := Ideal) v3 v5 v9 v16 v20 (ix2 p q) := by
  unfold k5_pay3
  simp only [addf_apply]
  rw [shapeCast_self, shapeCast_a_1a_apply]
  exact congrArg (v25 (ix2 0 q) + ·) (column_sum _ _ _ q)

end Cert.KernelIdeal.PayVal
-- ==== Proof.KI.R5Val.lean ====
/-
  What region 5 of the idealized kernel program leaves in its output arrays, at the exact instance, as functions of what it finds in its
  input arrays: the mathematics of the kernel body summed over the grid.

  The normalized block of a point is the normalization of that point's block of rows, so the array of normalized rows, written
  back block by block, is the normalization of the whole array of rows. The running row after a point is the sum of the normalized
  rows of all blocks up to that point (the first point starts from the zero row), so what the last point writes back is the sum
  over all rows.
-/
import proofs.«102822_j3521873183180_1_alg».proof.Proof.KI.R5
import proofs.«102822_j3521873183180_1_alg».proof.Proof.KI.Pay5
import proofs.«102822_j3521873183180_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat)
open scoped BigOperators

section Pieces
variable {F : FTy → Type} [FloatOps F]

/-- The offsets of every load and store of the body: zero on both axes (each is of a whole buffer). -/
theorem zeros5 : (![0, 0] : Fin 2 → Nat) = fun _ => 0 := funext fun a => by fin_cases a <;> rfl

/-! ## Each case's stores, read as values -/

/-- The first point leaves in the normalized block's buffer the normalization of the input blocks (its one whole-block store). -/
theorem rowsFirst5_eq (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) :
    rowsFirst5 c i arg1 harg1 arg2 harg2 arg3 harg3 arg4 harg4 arg5 harg5 arg6 harg6 arg7 harg7 hc u mean var gain shift = k5_pay2 u mean var gain shift := by
  unfold rowsFirst5
  unfold runFirst5
  dsimp only
  sl_unfold_words
  rw [View.canon_unit_zero zeros5]
  simp only [View.readAt_eq_ld, harg1.read_unread, harg2.read_unread, harg3.read_unread, harg4.read_unread, harg5.read_unread, harg7.read_unread,
    View.ld_unit_zero (S := S2000x256) zeros5, View.ld_unit_zero (S := S1x256) zeros5, View.readCov_unit_zero (S := S1x256) _ zeros5]

/-- The first point leaves in the running row's buffer the reset row plus the block's column sums: the last store covers the row,
    and the row it adds to is the reset row read back. -/
theorem sumsFirst5_eq (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst5 i)
    (u : Vec F S2000x256 .f32) (mean : Vec F S1x256 .f32) (var : Vec F S1x256 .f32) (gain : Vec F S1x256 .f32) (shift : Vec F S1x256 .f32) :
    sumsFirst5 c i arg1 harg1 arg2 harg2 arg3 harg3 arg4 harg4 arg5 harg5 arg6 harg6 arg7 harg7 hc u mean var gain shift = k5_pay3 u mean var gain shift (k5_pay1 (F := F)) := by
  unfold sumsFirst5
  unfold runFirst5
  dsimp only
  sl_unfold_words
  rw [View.canon_cons_unit_zero (S := S1x256) zeros5]
  simp only [View.readAt_eq_ld, harg1.read_unread, harg2.read_unread, harg3.read_unread, harg4.read_unread, harg5.read_unread, harg7.read_unread,
    View.ld_unit_zero (S := S2000x256) zeros5, View.ld_unit_zero (S := S1x256) zeros5, View.readCov_unit_zero (S := S1x256) _ zeros5]

/-- A later point leaves in the normalized block's buffer the normalization of the input blocks. -/
theorem rowsLater5_eq (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) :
    rowsLater5 c i arg1 harg1 arg2 harg2 arg3 harg3 arg4 harg4 arg5 harg5 arg6 harg6 arg7 harg7 hc u mean var gain shift acc = k5_pay2 u mean var gain shift := by
  unfold rowsLater5
  unfold runLater5
  dsimp only
  sl_unfold_words
  rw [View.canon_unit_zero zeros5]
  simp only [View.readAt_eq_ld, harg1.read_unread, harg2.read_unread, harg3.read_unread, harg4.read_unread, harg5.read_unread, harg7.read_unread,
    View.ld_unit_zero (S := S2000x256) zeros5, View.ld_unit_zero (S := S1x256) zeros5, View.readCov_unit_zero (S := S1x256) _ zeros5]

/-- A later point leaves in the running row's buffer the row it found plus the block's column sums. -/
theorem sumsLater5_eq (c : Dev nD) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst5 i)
    (u : Vec F S2000x256 .f32) (mean : Vec F S1x256 .f32) (var : Vec F S1x256 .f32) (gain : Vec F S1x256 .f32) (shift : Vec F S1x256 .f32) (acc : Vec F S1x256 .f32) :
    sumsLater5 c i arg1 harg1 arg2 harg2 arg3 harg3 arg4 harg4 arg5 harg5 arg6 harg6 arg7 harg7 hc u mean var gain shift acc = k5_pay3 u mean var gain shift acc := by
  unfold sumsLater5
  unfold runLater5
  dsimp only
  sl_unfold_words
  rw [View.canon_unit_zero zeros5]
  simp only [View.readAt_eq_ld, harg1.read_unread, harg2.read_unread, harg3.read_unread, harg4.read_unread, harg5.read_unread, harg7.read_unread,
    View.ld_unit_zero (S := S2000x256) zeros5, View.ld_unit_zero (S := S1x256) zeros5, View.readCov_unit_zero (S := S1x256) _ zeros5]

end Pieces

variable (V : (c : Dev nD) → (b : Ref sig .tc) → Buf (Elt Ideal) ((c : Thread nD τ).loc b))

/-! ## The same at a grid point, over the point's input blocks -/

/-- The input blocks of point `t` at their literal types: the block of rows, and the mean, variance, gain and shift rows. -/
abbrev rowsIn5 (c : Dev nD) (t : Fin cfg5.N) : Vec Ideal S2000x256 .f32 := iblk5 V c 0 t
abbrev meanIn5 (c : Dev nD) (t : Fin cfg5.N) : Vec Ideal S1x256 .f32 := iblk5 V c 1 t
abbrev varIn5 (c : Dev nD) (t : Fin cfg5.N) : Vec Ideal S1x256 .f32 := iblk5 V c 2 t
abbrev gainIn5 (c : Dev nD) (t : Fin cfg5.N) : Vec Ideal S1x256 .f32 := iblk5 V c 3 t
abbrev shiftIn5 (c : Dev nD) (t : Fin cfg5.N) : Vec Ideal S1x256 .f32 := iblk5 V c 4 t

/-- The normalized block after any point is the normalization of that point's input blocks (the same in both cases). -/
theorem rowsAt5_eq (c : Dev nD) (t : Fin cfg5.N) :
    rowsAt5 V c t = k5_pay2 (rowsIn5 V c t) (meanIn5 V c t) (varIn5 V c t) (gainIn5 V c t) (shiftIn5 V c t) := by
  by_cases h0 : t.val % 25 = 0
  · rw [rowsAt5_first V c t h0]
    unfold rowsFirstAt5
    exact rowsFirst5_eq c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) ((atFirst5_iff t).mpr h0) (iblk5 V c 0 t) (iblk5 V c 1 t) (iblk5 V c 2 t) (iblk5 V c 3 t) (iblk5 V c 4 t)
  · rw [rowsAt5_later V c t h0]
    unfold rowsLaterAt5
    exact rowsLater5_eq c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) (fun h => h0 ((atFirst5_iff t).mp h)) (iblk5 V c 0 t) (iblk5 V c 1 t) (iblk5 V c 2 t) (iblk5 V c 3 t) (iblk5 V c 4 t) (sumsBefore5 V c t)

/-- The running row after the first point: the reset row plus the first block's column sums. -/
theorem sumsAt5_reset (c : Dev nD) (t : Fin cfg5.N) (h0 : t.val % 25 = 0) :
    sumsAt5 V c t.val t.isLt = k5_pay3 (rowsIn5 V c t) (meanIn5 V c t) (varIn5 V c t) (gainIn5 V c t) (shiftIn5 V c t) (k5_pay1 (F := Ideal)) := by
  rw [sumsAt5_first V c t h0]
  unfold sumsFirstAt5
  exact sumsFirst5_eq c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) ((atFirst5_iff t).mpr h0) (iblk5 V c 0 t) (iblk5 V c 1 t) (iblk5 V c 2 t) (iblk5 V c 3 t) (iblk5 V c 4 t)

/-- The running row after a later point: the row after the point before plus this block's column sums. -/
theorem sumsAt5_step (c : Dev nD) (t : Fin cfg5.N) (h0 : ¬t.val % 25 = 0) :
    sumsAt5 V c t.val t.isLt = k5_pay3 (rowsIn5 V c t) (meanIn5 V c t) (varIn5 V c t) (gainIn5 V c t) (shiftIn5 V c t) (sumsBefore5 V c t) := by
  rw [sumsAt5_later V c t h0]
  unfold sumsLaterAt5
  exact sumsLater5_eq c (grid5.coords t) (stg5_0 t) (stgWhole5_0 t) (stg5_1 t) (stgWhole5_1 t) (stg5_2 t) (stgWhole5_2 t) (stg5_3 t) (stgWhole5_3 t) (stg5_4 t) (stgWhole5_4 t) (stg5_5 t) (stgWhole5_5 t) (stg5_6 t) (stgWhole5_6 t) (fun h => h0 ((atFirst5_iff t).mp h)) (iblk5 V c 0 t) (iblk5 V c 1 t) (iblk5 V c 2 t) (iblk5 V c 3 t) (iblk5 V c 4 t) (sumsBefore5 V c t)

/-! ## Where a block's elements sit in its array -/

/-- The block index of each window at each point, decided over the grid: the blocks of rows (windows 0 and 5) move down with the
    point; the rows (windows 1 to 4 and 6) stay. -/
theorem blockIndex5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_6.index t (0 : Fin 2) = 0 ∧ win5_6.index t (1 : Fin 2) = 0 :=
  (by decide +kernel : ∀ t : Fin grid5.N, _)

theorem point_lt5 (t : Fin cfg5.N) : t.val < 25 := lt_of_lt_of_eq t.isLt (show cfg5.N = 25 from N_5)

/-- Row `r` of point `t`'s block is row `2000 t + r` of the array. -/
def rowOf5 (t : Fin cfg5.N) (r : Fin 2000) : Fin 50000 :=
  ⟨2000 * t.val + r.val, by have := point_lt5 t; have := r.isLt; omega⟩

/-- The arrays the region reads, as it finds them, at their literal types. -/
abbrev rowsArr5 (c : Dev nD) : Vec Ideal S50000x256 .f32 := V c (Pipeline.arrRef spec5 0)
abbrev meanArr5 (c : Dev nD) : Vec Ideal S1x256 .f32 := V c (Pipeline.arrRef spec5 1)
abbrev varArr5 (c : Dev nD) : Vec Ideal S1x256 .f32 := V c (Pipeline.arrRef spec5 2)
abbrev gainArr5 (c : Dev nD) : Vec Ideal S1x256 .f32 := V c (Pipeline.arrRef spec5 3)
abbrev shiftArr5 (c : Dev nD) : Vec Ideal S1x256 .f32 := V c (Pipeline.arrRef spec5 4)

/-- An element of point `t`'s block of rows is the array's element in row `2000 t + r`. -/
theorem rowsIn5_apply (c : Dev nD) (t : Fin cfg5.N) (r : Fin 2000) (j : Fin 256) :
    rowsIn5 V c t (ix2 r j) = rowsArr5 V c (ix2 (rowOf5 t r) j) := by
  obtain ⟨e0, e1, -⟩ := blockIndex5 t
  unfold rowsIn5 iblk5
  rw [View.read_apply]
  show V c (Pipeline.arrRef spec5 0) _ = V c (Pipeline.arrRef spec5 0) _
  congr 1
  funext a
  apply Fin.ext
  match a with
  | ⟨0, _⟩ => show win5_0.index t (0 : Fin 2) * 2000 + 1 * r.val = 2000 * t.val + r.val; omega
  | ⟨1, _⟩ => show win5_0.index t (1 : Fin 2) * 256 + 1 * j.val = j.val; omega

/-- The mean row's block at any point is the whole row. -/
theorem meanIn5_apply (c : Dev nD) (t : Fin cfg5.N) (j : Fin 256) :
    meanIn5 V c t (ix2 0 j) = meanArr5 V c (ix2 0 j) := by
  have e := blockIndex5 t
  unfold meanIn5 iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * 0 = 0; omega
  | ⟨1, _⟩ => show win5_1.index t (1 : Fin 2) * 256 + 1 * j.val = j.val; omega

/-- The var row's block at any point is the whole row. -/
theorem varIn5_apply (c : Dev nD) (t : Fin cfg5.N) (j : Fin 256) :
    varIn5 V c t (ix2 0 j) = varArr5 V c (ix2 0 j) := by
  have e := blockIndex5 t
  unfold varIn5 iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * 0 = 0; omega
  | ⟨1, _⟩ => show win5_2.index t (1 : Fin 2) * 256 + 1 * j.val = j.val; omega

/-- The gain row's block at any point is the whole row. -/
theorem gainIn5_apply (c : Dev nD) (t : Fin cfg5.N) (j : Fin 256) :
    gainIn5 V c t (ix2 0 j) = gainArr5 V c (ix2 0 j) := by
  have e := blockIndex5 t
  unfold gainIn5 iblk5
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * 0 = 0; omega
  | ⟨1, _⟩ => show win5_3.index t (1 : Fin 2) * 256 + 1 * j.val = j.val; omega

/-- The shift row's block at any point is the whole row. -/
theorem shiftIn5_apply (c : Dev nD) (t : Fin cfg5.N) (j : Fin 256) :
    shiftIn5 V c t (ix2 0 j) = shiftArr5 V c (ix2 0 j) := by
  have e := blockIndex5 t
  unfold shiftIn5 iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * 0 = 0; omega
  | ⟨1, _⟩ => show win5_4.index t (1 : Fin 2) * 256 + 1 * j.val = j.val; omega

/-! ## The array of normalized rows -/

/-- The normalization of the whole array of rows by the mean, variance, gain and shift rows, as a matrix -/
abbrev hnewMat5 (c : Dev nD) : Gin.Mat :=
  Gin.bn (Gin.toMat (rowsArr5 V c)) (Gin.toRow (meanArr5 V c)) (Gin.toRow (varArr5 V c)) (Gin.toRow (gainArr5 V c)) (Gin.toRow (shiftArr5 V c))

/-- and as contents of the output array. -/
def hnewArr5 (c : Dev nD) : Vec Ideal S50000x256 .f32 := fun i => hnewMat5 V c (i 0) (i 1)

/-- An element of the block the body computes at point `t` is the normalized matrix's element in row `2000 t + r`. -/
theorem normalized5_apply (c : Dev nD) (t : Fin cfg5.N) (r : Fin 2000) (j : Fin 256) :
    k5_pay2 (rowsIn5 V c t) (meanIn5 V c t) (varIn5 V c t) (gainIn5 V c t) (shiftIn5 V c t) (ix2 r j) = hnewMat5 V c (rowOf5 t r) j := by
  rw [PayVal.k5_pay2_apply, rowsIn5_apply, meanIn5_apply, varIn5_apply, gainIn5_apply, shiftIn5_apply]
  rfl

/-- Where an element of point `t`'s output block sits in the output array: row `2000 t + r`, the same column. -/
theorem emb5_5 (t : Fin cfg5.N) (r : Fin 2000) (j : Fin 256) :
    ((cfg5.win 5).blk t).view.emb (ix2 r j) = ix2 (rowOf5 t r) j := by
  obtain ⟨-, -, e0, e1, -⟩ := blockIndex5 t
  funext a
  apply Fin.ext
  match a with
  | ⟨0, _⟩ => show win5_5.index t (0 : Fin 2) * 2000 + 1 * r.val = 2000 * t.val + r.val; omega
  | ⟨1, _⟩ => show win5_5.index t (1 : Fin 2) * 256 + 1 * j.val = j.val; omega

/-- WHAT POINT `t` WRITES BACK is block `t` of the array of normalized rows. -/
theorem flushed5_5 (c : Dev nD) (t : Fin cfg5.N) :
    (dat5 V c).flushed 5 t = ((cfg5.win 5).blk t).view.read (Elt Ideal) (hnewArr5 V c) := by
  show (cfg5.win 5).cut (grid5.coords t) ((dat5 V c).after 5 t) = _
  rw [after5_5, rowsAt5_eq]
  funext y
  obtain ⟨r, j, rfl⟩ : ∃ (r : Fin 2000) (j : Fin 256), y = ix2 r j := ⟨y 0, y 1, eq_ix2 y⟩
  rw [View.read_apply, emb5_5]
  exact normalized5_apply V c t r j

/-- An index of the output array is in point `t`'s block iff each coordinate is in the block's range on its axis. -/
theorem mem_blk5_5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole (Pipeline.arrRef spec5 5)).slice (win5_5.rect t)).set ↔ _
  rw [View.set_slice_whole, Rect.mem_set_unit]
  exact Iff.rfl

/-- Every row of the output array is in the block of the point that row falls in, and every point writes its block back. -/
theorem cover5_5 (i : S50000x256.Idx) : ∃ t : Fin cfg5.N, (cfg5.win 5).flush t = true ∧ i ∈ ((cfg5.win 5).blk t).view.set := by
  have hi0 : (i 0).val < 50000 := (i 0).isLt
  have hi1 : (i 1).val < 256 := (i 1).isLt
  have hq : (i 0).val / 2000 < cfg5.N := by rw [show cfg5.N = 25 from N_5]; omega
  refine ⟨⟨(i 0).val / 2000, hq⟩, flush5_5 _, ?_⟩
  rw [mem_blk5_5]
  obtain ⟨-, -, e0, e1, -⟩ := blockIndex5 ⟨(i 0).val / 2000, hq⟩
  intro a
  match a with
  | ⟨0, _⟩ =>
    show win5_5.index ⟨(i 0).val / 2000, hq⟩ (0 : Fin 2) * 2000 ≤ (i 0).val ∧ (i 0).val < win5_5.index ⟨(i 0).val / 2000, hq⟩ (0 : Fin 2) * 2000 + 2000
    rw [e0]; dsimp only; omega
  | ⟨1, _⟩ =>
    show win5_5.index ⟨(i 0).val / 2000, hq⟩ (1 : Fin 2) * 256 ≤ (i 1).val ∧ (i 1).val < win5_5.index ⟨(i 0).val / 2000, hq⟩ (1 : Fin 2) * 256 + 256
    rw [e1]; omega

/-- So the output array ends holding the normalized rows. -/
theorem hnewFinal5 (c : Dev nD) : (dat5 V c).arrAt 5 cfg5.N = hnewArr5 V c :=
  (dat5 V c).arrAt_eq_of_cover 5 (hnewArr5 V c) (fun t _ => flushed5_5 V c t) cover5_5

/-- The normalised output: bn(u; μ, σ², γ, β). -/
theorem val5_5 (c : Dev nD) : Gin.toMat ((dat5 V c).arrAt 5 cfg5.N)
    = Gin.bn (Gin.toMat (V c (Pipeline.arrRef spec5 0))) (Gin.toRow (V c (Pipeline.arrRef spec5 1))) (Gin.toRow (V c (Pipeline.arrRef spec5 2)))
        (Gin.toRow (V c (Pipeline.arrRef spec5 3))) (Gin.toRow (V c (Pipeline.arrRef spec5 4))) := by
  rw [hnewFinal5]
  rfl

/-! ## The running row: the sum of the normalized rows so far -/

/-- Row `k` of the normalized matrix at column `j` (zero past the last row): the summand of the running sums. -/
def term5 (c : Dev nD) (j : Fin 256) (k : ℕ) : EReal := if h : k < 50000 then hnewMat5 V c ⟨k, h⟩ j else 0

/-- The column sums of the block the body computes at point `t`: the summands of rows `2000 t` to `2000 t + 1999`. -/
theorem blockSum5 (c : Dev nD) (t : Fin cfg5.N) (j : Fin 256) :
    (∑ r : Fin 2000, k5_pay2 (rowsIn5 V c t) (meanIn5 V c t) (varIn5 V c t) (gainIn5 V c t) (shiftIn5 V c t) (ix2 r j))
      = ∑ x ∈ Finset.range 2000, term5 V c j (2000 * t.val + x) := by
  rw [Finset.sum_range]
  refine Finset.sum_congr rfl fun r _ => ?_
  have ht := point_lt5 t
  have hr := r.isLt
  unfold term5
  rw [dif_pos (by omega)]
  exact normalized5_apply V c t r j

/-- THE INVARIANT: after the body at position `n` the running row holds, column by column, the sum of the normalized rows of the
    blocks up to `n`, by induction on the position. -/
theorem sumsAt5_sum (c : Dev nD) : ∀ (n : ℕ) (hn : n < cfg5.N) (j : Fin 256),
    sumsAt5 V c n hn (ix2 0 j) = ∑ k ∈ Finset.range (2000 * (n + 1)), term5 V c j k
  | 0, hn, j => by
    have h := congrFun (sumsAt5_reset V c ⟨0, hn⟩ (Nat.zero_mod _)) (ix2 0 j)
    refine h.trans ?_
    rw [PayVal.k5_pay3_apply, PayVal.k5_pay1_apply, zero_add, blockSum5]
    refine Finset.sum_congr rfl fun x _ => ?_
    show term5 V c j (2000 * 0 + x) = term5 V c j x
    rw [Nat.mul_zero, Nat.zero_add]
  | n + 1, hn, j => by
    have hN : n + 1 < 25 := lt_of_lt_of_eq hn (show cfg5.N = 25 from N_5)
    have hB : ¬(⟨n + 1, hn⟩ : Fin cfg5.N).val % 25 = 0 := by dsimp only; omega
    have h := congrFun (sumsAt5_step V c ⟨n + 1, hn⟩ hB) (ix2 0 j)
    refine h.trans ?_
    rw [PayVal.k5_pay3_apply, blockSum5]
    show sumsAt5 V c n _ (ix2 0 j) + _ = _
    rw [sumsAt5_sum c n _ j, show 2000 * (n + 1 + 1) = 2000 * (n + 1) + 2000 from by omega, Finset.sum_range_add]

/-- The last point of the grid, the one that writes the running row back. -/
def lastPoint5 : Fin cfg5.N := ⟨24, by rw [show cfg5.N = 25 from N_5]; decide⟩

/-- The running row after the last point, as contents of its array. -/
def sumsArr5 (c : Dev nD) : Vec Ideal S1x256 .f32 := sumsAt5 V c lastPoint5.val lastPoint5.isLt

/-- An element of the running row's block sits at the same place in its array: the block is the whole array. -/
theorem emb5_6 (t : Fin cfg5.N) (y : S1x256.Idx) : ((cfg5.win 6).blk t).view.emb y = y := by
  have e := blockIndex5 t
  funext a
  apply Fin.ext
  match a with
  | ⟨0, _⟩ => show win5_6.index t (0 : Fin 2) * 1 + 1 * (y 0).val = (y 0).val; omega
  | ⟨1, _⟩ => show win5_6.index t (1 : Fin 2) * 256 + 1 * (y 1).val = (y 1).val; omega

/-- The one write-back of the running row, at the last point, writes the row that point leaves. -/
theorem flushed5_6 (c : Dev nD) (t : Fin cfg5.N) (hf : (cfg5.win 6).flush t = true) :
    (dat5 V c).flushed 6 t = ((cfg5.win 6).blk t).view.read (Elt Ideal) (sumsArr5 V c) := by
  have h24 : t.val = 24 := by have := (flush5_6 t).mp hf; have := point_lt5 t; omega
  obtain rfl : t = lastPoint5 := Fin.ext h24
  show (cfg5.win 6).cut (grid5.coords lastPoint5) ((dat5 V c).after 6 lastPoint5) = _
  rw [after5_6]
  funext y
  rw [View.read_apply, emb5_6]
  rfl

/-- Every index of the running row's array is in the last point's block. -/
theorem cover5_6 (i : S1x256.Idx) : ∃ t : Fin cfg5.N, (cfg5.win 6).flush t = true ∧ i ∈ ((cfg5.win 6).blk t).view.set := by
  refine ⟨lastPoint5, (flush5_6 lastPoint5).mpr rfl, ?_⟩
  have e := blockIndex5 lastPoint5
  have hi0 : (i 0).val < 1 := (i 0).isLt
  have hi1 : (i 1).val < 256 := (i 1).isLt
  show i ∈ ((View.whole (Pipeline.arrRef spec5 6)).slice (win5_6.rect lastPoint5)).set
  rw [View.set_slice_whole, Rect.mem_set_unit]
  intro a
  match a with
  | ⟨0, _⟩ =>
    show win5_6.index lastPoint5 (0 : Fin 2) * 1 ≤ (i 0).val ∧ (i 0).val < win5_6.index lastPoint5 (0 : Fin 2) * 1 + 1
    omega
  | ⟨1, _⟩ =>
    show win5_6.index lastPoint5 (1 : Fin 2) * 256 ≤ (i 1).val ∧ (i 1).val < win5_6.index lastPoint5 (1 : Fin 2) * 256 + 256
    omega

/-- So the running row's array ends holding the row the last point leaves. -/
theorem sumsFinal5 (c : Dev nD) : (dat5 V c).arrAt 6 cfg5.N = sumsArr5 V c :=
  (dat5 V c).arrAt_eq_of_cover 6 (sumsArr5 V c) (flushed5_6 V c) cover5_6

/-- Its column sums: the layer's readout. -/
theorem val5_6 (c : Dev nD) : Gin.toRow ((dat5 V c).arrAt 6 cfg5.N) = Gin.colsum (Gin.toMat ((dat5 V c).arrAt 5 cfg5.N)) := by
  rw [sumsFinal5, hnewFinal5]
  funext j
  show sumsAt5 V c lastPoint5.val lastPoint5.isLt (ix2 0 j) = ∑ r : Fin 50000, hnewArr5 V c (ix2 r j)
  rw [sumsAt5_sum V c lastPoint5.val lastPoint5.isLt j, show 2000 * (lastPoint5.val + 1) = 50000 from rfl, Finset.sum_range]
  refine Finset.sum_congr rfl fun r _ => ?_
  unfold term5
  rw [dif_pos r.isLt]
  rfl

end Cert.KernelIdeal.Hand

end
-- ==== Proof.KI.Chain1.lean ====
/-
  Layer 1 of the idealized kernel program, against the specification: the same three regions as the first layer, each
  entered through its stretch of host operations, from the features the layer before left. The first stretch aggregates
  those features along the edges (the two rows of the edge list read back as the program's first stretch left them) and
  cuts the layer's first weight and bias; the first region leaves the first affine output with its column sums and
  column sums of squares; the second stretch and region do the same through the first batch normalisation and the
  second affine map; the third stretch and region leave the layer's result and its column sums, the layer's readout.
-/
import proofs.«102822_j3521873183180_1_alg».proof.Proof.KI.Chain0
import proofs.«102822_j3521873183180_1_alg».proof.Proof.KI.HostVal.S3
import proofs.«102822_j3521873183180_1_alg».proof.Proof.KI.HostVal.S4
import proofs.«102822_j3521873183180_1_alg».proof.Proof.KI.HostVal.S5
import proofs.«102822_j3521873183180_1_alg».proof.Proof.KI.R3Val
import proofs.«102822_j3521873183180_1_alg».proof.Proof.KI.R4Val
import proofs.«102822_j3521873183180_1_alg».proof.Proof.KI.R5Val

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg) (c : Dev nD)

/-! ## Layer 1, first region: the first affine output -/

/-- What region 3 finds: the features the layer before left, their aggregate, the first weight and the first bias of layer 1. -/
theorem l1_in_h : Gin.toMat (V7 m ρ c (Pipeline.arrRef spec3 0)) = feat m c 1 :=
  (congrArg Gin.toMat (StableHlo.after_of_writes_sub (r := main_v52_0) hostOps3 (W6 m ρ c) hostOps3_writes (by decide))).trans (layer0_feat m ρ c)
theorem l1_in_a : Gin.toMat (V7 m ρ c (Pipeline.arrRef spec3 1)) = aggr m c 1 :=
  (HostVal.hostOps3_main_v63_spec (W6 m ρ c)).trans (by
    rw [layer0_feat m ρ c, src_at m ρ c (W6_edge m ρ c main_v1 edgeKept_main_v1),
      dst_at m ρ c (W6_edge m ρ c main_v3 edgeKept_main_v3)])
theorem l1_in_W1 : Gin.toWt (V7 m ρ c (Pipeline.arrRef spec3 2)) = (inP m c 1).W1 :=
  (HostVal.hostOps3_main_v66_spec (W6 m ρ c)).trans (congrArg (Gin.layerWt (1 : Fin 5)) (W6_param m ρ c main_arg2 untouched_main_arg2))
theorem l1_in_b1 : Gin.toRow (V7 m ρ c (Pipeline.arrRef spec3 3)) = (inP m c 1).b1 :=
  (HostVal.hostOps3_main_v69_spec (W6 m ρ c)).trans (congrArg (Gin.layerRow (1 : Fin 5)) (W6_param m ρ c main_arg3 untouched_main_arg3))

/-- What region 3 leaves: the first affine output of layer 1, its column sums, the column sums of its squares. -/
theorem l1_u1 : Gin.toMat ((dat3 (V7 m ρ) c).arrAt 4 cfg3.N) = Gin.u1 (feat m c 1) (aggr m c 1) (inP m c 1) := by
  rw [val3_4, l1_in_h, l1_in_a, l1_in_W1, l1_in_b1]; rfl
theorem l1_s1 : Gin.toRow (W8 m ρ c (Proc.devRef .tc main_v70_1)) = Gin.colsum (Gin.u1 (feat m c 1) (aggr m c 1) (inP m c 1)) := by
  rw [show W8 m ρ c (Proc.devRef .tc main_v70_1) = (dat3 (V7 m ρ) c).arrAt 5 cfg3.N from W8_arr m ρ c 5, val3_5, l1_u1]
theorem l1_q1 : Gin.toRow (W8 m ρ c (Proc.devRef .tc main_v70_2))
    = Gin.colsum (fun r j => Gin.u1 (feat m c 1) (aggr m c 1) (inP m c 1) r j * Gin.u1 (feat m c 1) (aggr m c 1) (inP m c 1) r j) := by
  rw [show W8 m ρ c (Proc.devRef .tc main_v70_2) = (dat3 (V7 m ρ) c).arrAt 6 cfg3.N from W8_arr m ρ c 6, val3_6, l1_u1]

/-! ## Layer 1, second region: the second affine output -/

/-- What region 4 finds: the first affine output, its column mean and variance, the first gain and shift, the second
    weight and bias of layer 1. -/
theorem l1_in_u1 : Gin.toMat (V9 m ρ c (Pipeline.arrRef spec4 0)) = Gin.u1 (feat m c 1) (aggr m c 1) (inP m c 1) :=
  (congrArg Gin.toMat ((StableHlo.after_of_writes_sub (r := main_v70_0) hostOps4 (W8 m ρ c) hostOps4_writes (by decide)).trans (W8_arr m ρ c 4))).trans (l1_u1 m ρ c)
theorem l1_in_mean1 : Gin.toRow (V9 m ρ c (Pipeline.arrRef spec4 1)) = Gin.mean (Gin.u1 (feat m c 1) (aggr m c 1) (inP m c 1)) :=
  HostVal.hostOps4_main_v72_mean (W8 m ρ c) _ (l1_s1 m ρ c)
theorem l1_in_var1 : Gin.toRow (V9 m ρ c (Pipeline.arrRef spec4 2)) = Gin.varK (Gin.u1 (feat m c 1) (aggr m c 1) (inP m c 1)) :=
  HostVal.hostOps4_main_v76_var (W8 m ρ c) _ (l1_s1 m ρ c) (l1_q1 m ρ c)
theorem l1_in_g1 : Gin.toRow (V9 m ρ c (Pipeline.arrRef spec4 3)) = (inP m c 1).g1 :=
  (HostVal.hostOps4_main_v79_spec (W8 m ρ c)).trans (congrArg (Gin.layerRow (1 : Fin 5)) (W8_param m ρ c main_arg4 untouched_main_arg4))
theorem l1_in_be1 : Gin.toRow (V9 m ρ c (Pipeline.arrRef spec4 4)) = (inP m c 1).be1 :=
  (HostVal.hostOps4_main_v82_spec (W8 m ρ c)).trans (congrArg (Gin.layerRow (1 : Fin 5)) (W8_param m ρ c main_arg5 untouched_main_arg5))
theorem l1_in_W2 : Gin.toWt (V9 m ρ c (Pipeline.arrRef spec4 5)) = (inP m c 1).W2 :=
  (HostVal.hostOps4_main_v85_spec (W8 m ρ c)).trans (congrArg (Gin.layerWt (1 : Fin 5)) (W8_param m ρ c main_arg6 untouched_main_arg6))
theorem l1_in_b2 : Gin.toRow (V9 m ρ c (Pipeline.arrRef spec4 6)) = (inP m c 1).b2 :=
  (HostVal.hostOps4_main_v88_spec (W8 m ρ c)).trans (congrArg (Gin.layerRow (1 : Fin 5)) (W8_param m ρ c main_arg7 untouched_main_arg7))

/-- What region 4 leaves: the second affine output of layer 1, its column sums, the column sums of its squares. -/
theorem l1_u2 : Gin.toMat ((dat4 (V9 m ρ) c).arrAt 7 cfg4.N) = Gin.u2K (feat m c 1) (aggr m c 1) (inP m c 1) := by
  rw [val4_7, l1_in_u1, l1_in_mean1, l1_in_var1, l1_in_g1, l1_in_be1, l1_in_W2, l1_in_b2]; rfl
theorem l1_s2 : Gin.toRow (W10 m ρ c (Proc.devRef .tc main_v89_1)) = Gin.colsum (Gin.u2K (feat m c 1) (aggr m c 1) (inP m c 1)) := by
  rw [show W10 m ρ c (Proc.devRef .tc main_v89_1) = (dat4 (V9 m ρ) c).arrAt 8 cfg4.N from W10_arr m ρ c 8, val4_8, l1_u2]
theorem l1_q2 : Gin.toRow (W10 m ρ c (Proc.devRef .tc main_v89_2))
    = Gin.colsum (fun r j => Gin.u2K (feat m c 1) (aggr m c 1) (inP m c 1) r j * Gin.u2K (feat m c 1) (aggr m c 1) (inP m c 1) r j) := by
  rw [show W10 m ρ c (Proc.devRef .tc main_v89_2) = (dat4 (V9 m ρ) c).arrAt 9 cfg4.N from W10_arr m ρ c 9, val4_9, l1_u2]

/-! ## Layer 1, third region: the layer's result and its readout -/

/-- What region 5 finds: the second affine output, its column mean and variance, the second gain and shift of layer 1. -/
theorem l1_in_u2 : Gin.toMat (V11 m ρ c (Pipeline.arrRef spec5 0)) = Gin.u2K (feat m c 1) (aggr m c 1) (inP m c 1) :=
  (congrArg Gin.toMat ((StableHlo.after_of_writes_sub (r := main_v89_0) hostOps5 (W10 m ρ c) hostOps5_writes (by decide)).trans (W10_arr m ρ c 7))).trans (l1_u2 m ρ c)
theorem l1_in_mean2 : Gin.toRow (V11 m ρ c (Pipeline.arrRef spec5 1)) = Gin.mean (Gin.u2K (feat m c 1) (aggr m c 1) (inP m c 1)) :=
  HostVal.hostOps5_main_v91_mean (W10 m ρ c) _ (l1_s2 m ρ c)
theorem l1_in_var2 : Gin.toRow (V11 m ρ c (Pipeline.arrRef spec5 2)) = Gin.varK (Gin.u2K (feat m c 1) (aggr m c 1) (inP m c 1)) :=
  HostVal.hostOps5_main_v95_var (W10 m ρ c) _ (l1_s2 m ρ c) (l1_q2 m ρ c)
theorem l1_in_g2 : Gin.toRow (V11 m ρ c (Pipeline.arrRef spec5 3)) = (inP m c 1).g2 :=
  (HostVal.hostOps5_main_v98_spec (W10 m ρ c)).trans (congrArg (Gin.layerRow (1 : Fin 5)) (W10_param m ρ c main_arg8 untouched_main_arg8))
theorem l1_in_be2 : Gin.toRow (V11 m ρ c (Pipeline.arrRef spec5 4)) = (inP m c 1).be2 :=
  (HostVal.hostOps5_main_v101_spec (W10 m ρ c)).trans (congrArg (Gin.layerRow (1 : Fin 5)) (W10_param m ρ c main_arg9 untouched_main_arg9))

/-- What region 5 leaves: the result of layer 1. -/
theorem l1_out : Gin.toMat ((dat5 (V11 m ρ) c).arrAt 5 cfg5.N) = feat m c 2 := by
  rw [val5_5, l1_in_u2, l1_in_mean2, l1_in_var2, l1_in_g2, l1_in_be2]; rfl

/-- After layer 1 the features are the specification's after 2 layers, -/
theorem layer1_feat : Gin.toMat (W12 m ρ c (Proc.devRef .tc main_v102_0)) = feat m c 2 :=
  (congrArg Gin.toMat (W12_arr m ρ c 5)).trans (l1_out m ρ c)
/-- and the readout is their column sums. -/
theorem layer1_readout : Gin.toRow (W12 m ρ c (Proc.devRef .tc main_v102_1)) = Gin.colsum (feat m c 2) := by
  rw [show W12 m ρ c (Proc.devRef .tc main_v102_1) = (dat5 (V11 m ρ) c).arrAt 6 cfg5.N from W12_arr m ρ c 6, val5_6, l1_out]

end Cert.KernelIdeal.Hand

end
-- ==== Proof.KI.HostVal.S6.lean ====
/-
  The host line before the first region of a later layer, from any buffer contents: the previous layer's readout
  row as a vector, the aggregation of the previous layer's output along the edges (the two rows of the edge list
  read back as the first line left them), the first weight of the layer cut and narrowed, the first bias cut and
  laid out as a row; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps6_main_v103 : StableHlo.after (hostOps6 (F := Ideal)) Wv (Proc.devRef .tc main_v103) = vecT (Wv (Proc.devRef .tc main_v102_1)) := by
  after_results; rfl
set_option maxHeartbeats 1000000 in
theorem hostOps6_main_v113 : StableHlo.after (hostOps6 (F := Ideal)) Wv (Proc.devRef .tc main_v113)
    = aggT (Wv (Proc.devRef .tc main_v102_0)) (Wv (Proc.devRef .tc main_v1)) (Wv (Proc.devRef .tc main_v3)) := by
  after_results; rfl
theorem hostOps6_main_v116 : StableHlo.after (hostOps6 (F := Ideal)) Wv (Proc.devRef .tc main_v116) = wtT 2 slices_S5x256x256_S1x256x256_2_0_0 (Wv (Proc.devRef .tc main_arg2)) := by
  after_results; rfl
theorem hostOps6_main_v119 : StableHlo.after (hostOps6 (F := Ideal)) Wv (Proc.devRef .tc main_v119) = rowT 2 slices_S5x256_S1x256_2_0 (Wv (Proc.devRef .tc main_arg3)) := by
  after_results; rfl
/-- The previous layer's output and the two rows of the edge list are not written. -/
theorem hostOps6_main_v102_0 : StableHlo.after (hostOps6 (F := Ideal)) Wv (Proc.devRef .tc main_v102_0) = Wv (Proc.devRef .tc main_v102_0) := by
  after_results
theorem hostOps6_main_v1 : StableHlo.after (hostOps6 (F := Ideal)) Wv (Proc.devRef .tc main_v1) = Wv (Proc.devRef .tc main_v1) := by
  after_results
theorem hostOps6_main_v3 : StableHlo.after (hostOps6 (F := Ideal)) Wv (Proc.devRef .tc main_v3) = Wv (Proc.devRef .tc main_v3) := by
  after_results

/-! ## The same, in the specification's terms -/

theorem hostOps6_main_v103_spec : Gin.toRow1 (StableHlo.after (hostOps6 (F := Ideal)) Wv (Proc.devRef .tc main_v103)) = Gin.toRow (Wv (Proc.devRef .tc main_v102_1)) := by
  rw [hostOps6_main_v103, toRow1_vecT]
theorem hostOps6_main_v113_spec : Gin.toMat (StableHlo.after (hostOps6 (F := Ideal)) Wv (Proc.devRef .tc main_v113))
    = Gin.agg (Gin.toMat (Wv (Proc.devRef .tc main_v102_0))) (ofVec (Wv (Proc.devRef .tc main_v1))) (ofVec (Wv (Proc.devRef .tc main_v3))) := by
  rw [hostOps6_main_v113, toMat_aggT]
theorem hostOps6_main_v116_spec : Gin.toWt (StableHlo.after (hostOps6 (F := Ideal)) Wv (Proc.devRef .tc main_v116)) = Gin.layerWt (2 : Fin 5) (Wv (Proc.devRef .tc main_arg2)) := by
  rw [hostOps6_main_v116]; exact toWt_wtT 2 (by decide) _ _
theorem hostOps6_main_v119_spec : Gin.toRow (StableHlo.after (hostOps6 (F := Ideal)) Wv (Proc.devRef .tc main_v119)) = Gin.layerRow (2 : Fin 5) (Wv (Proc.devRef .tc main_arg3)) := by
  rw [hostOps6_main_v119]; exact toRow_rowT 2 (by decide) _ _

end Cert.KernelIdeal.HostVal

end
-- ==== Proof.KI.HostVal.S7.lean ====
/-
  The host line between a layer's first and second regions, from any buffer contents: the column mean and the
  column variance of the first affine output from the first region's two accumulators (the column sums and the
  column sums of squares), and the cuts of the layer's first gain and shift, second weight and second bias; each
  first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps7_main_v122 : StableHlo.after (hostOps7 (F := Ideal)) Wv (Proc.devRef .tc main_v122) = meanT (Wv (Proc.devRef .tc main_v120_1)) := by
  after_results; rfl
theorem hostOps7_main_v126 : StableHlo.after (hostOps7 (F := Ideal)) Wv (Proc.devRef .tc main_v126) = varT (Wv (Proc.devRef .tc main_v120_1)) (Wv (Proc.devRef .tc main_v120_2)) := by
  after_results; rfl
theorem hostOps7_main_v129 : StableHlo.after (hostOps7 (F := Ideal)) Wv (Proc.devRef .tc main_v129) = rowT 2 slices_S5x256_S1x256_2_0 (Wv (Proc.devRef .tc main_arg4)) := by
  after_results; rfl
theorem hostOps7_main_v132 : StableHlo.after (hostOps7 (F := Ideal)) Wv (Proc.devRef .tc main_v132) = rowT 2 slices_S5x256_S1x256_2_0 (Wv (Proc.devRef .tc main_arg5)) := by
  after_results; rfl
theorem hostOps7_main_v135 : StableHlo.after (hostOps7 (F := Ideal)) Wv (Proc.devRef .tc main_v135) = wtT 2 slices_S5x256x256_S1x256x256_2_0_0 (Wv (Proc.devRef .tc main_arg6)) := by
  after_results; rfl
theorem hostOps7_main_v138 : StableHlo.after (hostOps7 (F := Ideal)) Wv (Proc.devRef .tc main_v138) = rowT 2 slices_S5x256_S1x256_2_0 (Wv (Proc.devRef .tc main_arg7)) := by
  after_results; rfl
/-- The first affine output is not written. -/
theorem hostOps7_main_v120_0 : StableHlo.after (hostOps7 (F := Ideal)) Wv (Proc.devRef .tc main_v120_0) = Wv (Proc.devRef .tc main_v120_0) := by
  after_results

/-! ## The same, in the specification's terms -/

theorem hostOps7_main_v122_spec : Gin.toRow (StableHlo.after (hostOps7 (F := Ideal)) Wv (Proc.devRef .tc main_v122))
    = fun j => Ideal.div (Gin.toRow (Wv (Proc.devRef .tc main_v120_1)) j) Gin.nn := by
  rw [hostOps7_main_v122, toRow_meanT]
theorem hostOps7_main_v126_spec : Gin.toRow (StableHlo.after (hostOps7 (F := Ideal)) Wv (Proc.devRef .tc main_v126))
    = fun j => Ideal.div (Gin.toRow (Wv (Proc.devRef .tc main_v120_2)) j) Gin.nn
        - Gin.toRow (StableHlo.after (hostOps7 (F := Ideal)) Wv (Proc.devRef .tc main_v122)) j * Gin.toRow (StableHlo.after (hostOps7 (F := Ideal)) Wv (Proc.devRef .tc main_v122)) j := by
  rw [hostOps7_main_v126, hostOps7_main_v122, toRow_varT]
/-- With the accumulators holding the column sums and the column sums of squares of `u`, the two rows are the
    column mean of `u` and its column variance as the mean of the squares minus the square of the mean. -/
theorem hostOps7_main_v122_mean (u : Gin.Mat) (hs : Gin.toRow (Wv (Proc.devRef .tc main_v120_1)) = Gin.colsum u) :
    Gin.toRow (StableHlo.after (hostOps7 (F := Ideal)) Wv (Proc.devRef .tc main_v122)) = Gin.mean u := by
  rw [hostOps7_main_v122]; exact toRow_meanT_of_colsum _ u hs
theorem hostOps7_main_v126_var (u : Gin.Mat) (hs : Gin.toRow (Wv (Proc.devRef .tc main_v120_1)) = Gin.colsum u)
    (hq : Gin.toRow (Wv (Proc.devRef .tc main_v120_2)) = Gin.colsum (fun r j => u r j * u r j)) :
    Gin.toRow (StableHlo.after (hostOps7 (F := Ideal)) Wv (Proc.devRef .tc main_v126)) = Gin.varK u := by
  rw [hostOps7_main_v126]; exact toRow_varT_of_colsum _ _ u hs hq
theorem hostOps7_main_v129_spec : Gin.toRow (StableHlo.after (hostOps7 (F := Ideal)) Wv (Proc.devRef .tc main_v129)) = Gin.layerRow (2 : Fin 5) (Wv (Proc.devRef .tc main_arg4)) := by
  rw [hostOps7_main_v129]; exact toRow_rowT 2 (by decide) _ _
theorem hostOps7_main_v132_spec : Gin.toRow (StableHlo.after (hostOps7 (F := Ideal)) Wv (Proc.devRef .tc main_v132)) = Gin.layerRow (2 : Fin 5) (Wv (Proc.devRef .tc main_arg5)) := by
  rw [hostOps7_main_v132]; exact toRow_rowT 2 (by decide) _ _
theorem hostOps7_main_v135_spec : Gin.toWt (StableHlo.after (hostOps7 (F := Ideal)) Wv (Proc.devRef .tc main_v135)) = Gin.layerWt (2 : Fin 5) (Wv (Proc.devRef .tc main_arg6)) := by
  rw [hostOps7_main_v135]; exact toWt_wtT 2 (by decide) _ _
theorem hostOps7_main_v138_spec : Gin.toRow (StableHlo.after (hostOps7 (F := Ideal)) Wv (Proc.devRef .tc main_v138)) = Gin.layerRow (2 : Fin 5) (Wv (Proc.devRef .tc main_arg7)) := by
  rw [hostOps7_main_v138]; exact toRow_rowT 2 (by decide) _ _

end Cert.KernelIdeal.HostVal

end
-- ==== Proof.KI.HostVal.S8.lean ====
/-
  The host line between a layer's second and third regions, from any buffer contents: the column mean and the
  column variance of the second affine output from the second region's two accumulators, and the cuts of the
  layer's second gain and shift; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps8_main_v141 : StableHlo.after (hostOps8 (F := Ideal)) Wv (Proc.devRef .tc main_v141) = meanT (Wv (Proc.devRef .tc main_v139_1)) := by
  after_results; rfl
theorem hostOps8_main_v145 : StableHlo.after (hostOps8 (F := Ideal)) Wv (Proc.devRef .tc main_v145) = varT (Wv (Proc.devRef .tc main_v139_1)) (Wv (Proc.devRef .tc main_v139_2)) := by
  after_results; rfl
theorem hostOps8_main_v148 : StableHlo.after (hostOps8 (F := Ideal)) Wv (Proc.devRef .tc main_v148) = rowT 2 slices_S5x256_S1x256_2_0 (Wv (Proc.devRef .tc main_arg8)) := by
  after_results; rfl
theorem hostOps8_main_v151 : StableHlo.after (hostOps8 (F := Ideal)) Wv (Proc.devRef .tc main_v151) = rowT 2 slices_S5x256_S1x256_2_0 (Wv (Proc.devRef .tc main_arg9)) := by
  after_results; rfl
/-- The second affine output is not written. -/
theorem hostOps8_main_v139_0 : StableHlo.after (hostOps8 (F := Ideal)) Wv (Proc.devRef .tc main_v139_0) = Wv (Proc.devRef .tc main_v139_0) := by
  after_results

/-! ## The same, in the specification's terms -/

theorem hostOps8_main_v141_spec : Gin.toRow (StableHlo.after (hostOps8 (F := Ideal)) Wv (Proc.devRef .tc main_v141))
    = fun j => Ideal.div (Gin.toRow (Wv (Proc.devRef .tc main_v139_1)) j) Gin.nn := by
  rw [hostOps8_main_v141, toRow_meanT]
theorem hostOps8_main_v145_spec : Gin.toRow (StableHlo.after (hostOps8 (F := Ideal)) Wv (Proc.devRef .tc main_v145))
    = fun j => Ideal.div (Gin.toRow (Wv (Proc.devRef .tc main_v139_2)) j) Gin.nn
        - Gin.toRow (StableHlo.after (hostOps8 (F := Ideal)) Wv (Proc.devRef .tc main_v141)) j * Gin.toRow (StableHlo.after (hostOps8 (F := Ideal)) Wv (Proc.devRef .tc main_v141)) j := by
  rw [hostOps8_main_v145, hostOps8_main_v141, toRow_varT]
/-- With the accumulators holding the column sums and the column sums of squares of `u`, the two rows are the
    column mean of `u` and its column variance as the mean of the squares minus the square of the mean. -/
theorem hostOps8_main_v141_mean (u : Gin.Mat) (hs : Gin.toRow (Wv (Proc.devRef .tc main_v139_1)) = Gin.colsum u) :
    Gin.toRow (StableHlo.after (hostOps8 (F := Ideal)) Wv (Proc.devRef .tc main_v141)) = Gin.mean u := by
  rw [hostOps8_main_v141]; exact toRow_meanT_of_colsum _ u hs
theorem hostOps8_main_v145_var (u : Gin.Mat) (hs : Gin.toRow (Wv (Proc.devRef .tc main_v139_1)) = Gin.colsum u)
    (hq : Gin.toRow (Wv (Proc.devRef .tc main_v139_2)) = Gin.colsum (fun r j => u r j * u r j)) :
    Gin.toRow (StableHlo.after (hostOps8 (F := Ideal)) Wv (Proc.devRef .tc main_v145)) = Gin.varK u := by
  rw [hostOps8_main_v145]; exact toRow_varT_of_colsum _ _ u hs hq
theorem hostOps8_main_v148_spec : Gin.toRow (StableHlo.after (hostOps8 (F := Ideal)) Wv (Proc.devRef .tc main_v148)) = Gin.layerRow (2 : Fin 5) (Wv (Proc.devRef .tc main_arg8)) := by
  rw [hostOps8_main_v148]; exact toRow_rowT 2 (by decide) _ _
theorem hostOps8_main_v151_spec : Gin.toRow (StableHlo.after (hostOps8 (F := Ideal)) Wv (Proc.devRef .tc main_v151)) = Gin.layerRow (2 : Fin 5) (Wv (Proc.devRef .tc main_arg9)) := by
  rw [hostOps8_main_v151]; exact toRow_rowT 2 (by decide) _ _

end Cert.KernelIdeal.HostVal

end
-- ==== Proof.KI.Pay6.lean ====
/-
  One launch of the kernel that multiplies, adds a bias row and keeps column statistics, read at an index at the ideal
  values: floats are extended reals, every operation is exact, and a change of float format is the identity. The
  generated skeleton states each value the body stores as one pure term of the values it loads, the payloads `k6_pay1` …
  `k6_pay5`. Here each payload is read at an index as plain sums and products of extended reals:
    • `k6_pay1`, `k6_pay2` — the zero row the two statistics start from — are 0 at every column;
    • `k6_pay3` at (p, q) is ∑ₖ (xa[p, k] + xb[p, k]) · w[k, q] + b[0, q]: row p of the sum of the two inputs against
      column q of the weights, plus the bias row;
    • `k6_pay4` at (0, q) is s[0, q] + ∑ₚ `k6_pay3`[p, q]: the running column sum;
    • `k6_pay5` at (0, q) is s[0, q] + ∑ₚ `k6_pay3`[p, q]²: the running column sum of squares.
  The steps: the same-shape casts are the identity; the matrix product into a zero accumulator is the sum over its one
  contracted axis, re-indexed by that axis's coordinate; the bias row is broadcast over the rows; the reduction over the
  rows is the sum over the row coordinate; a vector cast to one row reads the vector.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## The matrix product's operand indices, axis by axis

  The product contracts the left factor's axis 1 with the right factor's axis 0; the left factor's axis 0 and the right
  factor's axis 1 are the result's two axes. -/

/-- The left operand's row is the result's row. -/
private theorem lhs_rows_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column is the contracted coordinate. -/
private theorem lhs_rows_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- The right operand's row is the contracted coordinate. -/
private theorem rhs_cols_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- The right operand's column is the result's column. -/
private theorem rhs_cols_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product of a `[2000, 256]` matrix by a `[256, 256]` one accumulated into zero, read at `(p, q)`: row `p` of the
    left factor against column `q` of the right one. -/
private theorem matmul_zero_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs_rows_0 _ _
      | ⟨1, _⟩ => exact (lhs_rows_1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (rhs_cols_0 _ _).trans hk
      | ⟨1, _⟩ => exact rhs_cols_1 _ _)
  rw [el, er]

/-! ## The reduction over the rows -/

/-- The sum over the rows of a `[2000, 256]` array, read at column `q`. -/
private theorem sumRows_apply (X : FVec Ideal S2000x256 .f32) (h : S2000x256.Reduces [0] S256) (hφ : FKind.Formats .f32)
    (hacc : (0x00000000#32 : BitVec 32) = 0x00000000#32) (q : Fin 256) :
    multiReduction (F := Ideal) .add [0] S256 X 0x00000000#32 h hφ hacc (ix1 q) = ∑ p : Fin 2000, X (ix2 p q) := by
  refine (Ideal.multiReduction_add_single X 0x00000000#32 h hφ hacc (ix1 q)).trans ?_
  refine Finset.sum_congr rfl fun p _ => congrArg X ?_
  exact funext fun a => Fin.ext (by
    match a with
    | ⟨0, _⟩ => rfl
    | ⟨1, _⟩ => rfl)

/-! ## The stored values at an index -/

/-- The first statistics row starts from zero. -/
theorem k6_pay1_apply (q : Fin 256) : k6_pay1 (F := Ideal) (ix2 0 q) = 0 := by
  unfold k6_pay1
  exact Ideal.ofBits_zero_f32

/-- The second statistics row starts from zero. -/
theorem k6_pay2_apply (q : Fin 256) : k6_pay2 (F := Ideal) (ix2 0 q) = 0 := by
  unfold k6_pay2
  exact Ideal.ofBits_zero_f32

/-- The product block at `(p, q)`: row `p` of the sum of the two inputs against column `q` of the weights, plus the
    bias row at `q`. -/
theorem k6_pay3_apply (xa xb : Vec Ideal S2000x256 .f32) (w : Vec Ideal S256x256 .bf16) (b : Vec Ideal S1x256 .f32)
    (p : Fin 2000) (q : Fin 256) :
    k6_pay3 (F := Ideal) xa xb w b (ix2 p q)
      = (∑ k : Fin 256, (xa (ix2 p k) + xb (ix2 p k)) * w (ix2 k q)) + b (ix2 0 q) := by
  unfold k6_pay3
  simp only [shapeCast_self]
  rw [addf_apply, broadcastTo_1b_ab_apply, matmul_zero_apply]
  rfl

/-- The column sums: the row read so far plus the sum of the product block over its rows. -/
theorem k6_pay4_apply (xa xb : Vec Ideal S2000x256 .f32) (w : Vec Ideal S256x256 .bf16) (b : Vec Ideal S1x256 .f32)
    (s : Vec Ideal S1x256 .f32) (q : Fin 256) :
    k6_pay4 (F := Ideal) xa xb w b s (ix2 0 q)
      = s (ix2 0 q) + ∑ p : Fin 2000, k6_pay3 (F := Ideal) xa xb w b (ix2 p q) := by
  unfold k6_pay4
  simp only [shapeCast_self]
  rw [addf_apply, shapeCast_a_1a_apply, sumRows_apply]

/-- The column sums of squares: the row read so far plus the sum of the product block's squares over its rows. -/
theorem k6_pay5_apply (xa xb : Vec Ideal S2000x256 .f32) (w : Vec Ideal S256x256 .bf16) (b : Vec Ideal S1x256 .f32)
    (s : Vec Ideal S1x256 .f32) (q : Fin 256) :
    k6_pay5 (F := Ideal) xa xb w b s (ix2 0 q)
      = s (ix2 0 q) + ∑ p : Fin 2000, k6_pay3 (F := Ideal) xa xb w b (ix2 p q) * k6_pay3 (F := Ideal) xa xb w b (ix2 p q) := by
  unfold k6_pay5
  simp only [shapeCast_self]
  rw [addf_apply, shapeCast_a_1a_apply, sumRows_apply]
  rfl

end Cert.KernelIdeal.PayVal

end
-- ==== Proof.KI.R6Val.lean ====
/-
  What region 6 of the idealized kernel program leaves in its output arrays, at the exact instance, as functions of what it finds in its
  input arrays: the mathematics of the kernel body summed over the grid.

  Each output's staging contents are first read off the body's stores (at any float instance): u's block is the affine map of the
  blocks; each accumulator row is the row found there (the zero row at the first point) plus this block's column sums. At the
  exact instance the u blocks are the 2000-row bands of ONE matrix, the affine map of the whole arrays, so the written-back bands
  assemble it; and each accumulator after point n is the sum of that matrix's (squared) entries over the rows below 2000·(n+1), so
  what the last point writes back is the column sum over all rows.
-/
import proofs.«102822_j3521873183180_1_alg».proof.Proof.KI.R6
import proofs.«102822_j3521873183180_1_alg».proof.Proof.KI.Pay6
import proofs.«102822_j3521873183180_1_alg».proof.Proof.Spec
import Idealize.ShloMosaic.Lib.Pipeline.Value

set_option maxRecDepth 16384

noncomputable section

namespace Cert.KernelIdeal.Hand

open Cert.KernelIdeal Cert.KernelIdeal.Gen Cert.KernelIdeal.PayVal
open Idealize.ShloMosaic Idealize.ShloMosaic.TcCoe Idealize.ShloMosaic.Tactic Idealize.ShloMosaic.ValueIdx
open Idealize.ShloMosaic.Pipeline (Dat)
open scoped BigOperators

/-! ## What the pieces are: each output's staging contents as the kernel's arithmetic of what the body loads (any float instance) -/

section Pieces

variable {F : FTy → Type} [FloatOps F]

/-- Every store and load of the body is at the origin of its buffer. -/
theorem origin6 : (![0, 0] : Fin 2 → Nat) = fun _ => 0 := funext fun a => by fin_cases a <;> rfl

/-- At the first point u's buffer holds the affine map of the blocks: its one covering store's payload. -/
theorem resetOut6_4_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) :
    resetOut6_4 c i arg1 harg1 arg2 harg2 arg3 harg3 arg4 harg4 arg5 harg5 arg6 harg6 arg7 harg7 hc0 x0 x1 x2 x3 = k6_pay3 x0 x1 x2 x3 := by
  unfold resetOut6_4
  rw [View.read_writes_eq_canon _ _ _ (resetCover6_4 c i arg1 harg1 arg2 harg2 arg3 harg3 arg4 harg4 arg5 harg5 arg6 harg6 arg7 harg7 hc0 x0 x1 x2 x3)]
  unfold resetRun6
  dsimp only
  sl_unfold_words
  rw [View.canon_unit_zero origin6]
  simp only [View.readAt_eq_ld, harg1.read_unread, harg2.read_unread, harg3.read_unread, harg4.read_unread, View.ld_unit_zero (S := S2000x256) origin6, View.ld_unit_zero (S := S256x256) origin6, View.ld_unit_zero (S := S1x256) origin6]

/-- At the first point the column-sum accumulator holds the zero row plus u's column sums: the reset's store, read back, then the update. -/
theorem resetOut6_5_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) :
    resetOut6_5 c i arg1 harg1 arg2 harg2 arg3 harg3 arg4 harg4 arg5 harg5 arg6 harg6 arg7 harg7 hc0 x0 x1 x2 x3 = k6_pay4 x0 x1 x2 x3 (k6_pay1 (F := F)) := by
  unfold resetOut6_5
  rw [View.read_writes_eq_canon _ _ _ (resetCover6_5 c i arg1 harg1 arg2 harg2 arg3 harg3 arg4 harg4 arg5 harg5 arg6 harg6 arg7 harg7 hc0 x0 x1 x2 x3)]
  unfold resetRun6
  dsimp only
  sl_unfold_words
  rw [View.canon_cons_unit_zero (S := S1x256) origin6, View.readCov_unit_zero (S := S1x256) _ origin6]
  simp only [View.readAt_eq_ld, harg1.read_unread, harg2.read_unread, harg3.read_unread, harg4.read_unread, View.ld_unit_zero (S := S2000x256) origin6, View.ld_unit_zero (S := S256x256) origin6, View.ld_unit_zero (S := S1x256) origin6]

/-- At the first point the sum-of-squares accumulator holds the zero row plus the column sums of u·u. -/
theorem resetOut6_6_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first6 i)
    (x0 : Vec F S2000x256 .f32) (x1 : Vec F S2000x256 .f32) (x2 : Vec F S256x256 .bf16) (x3 : Vec F S1x256 .f32) :
    resetOut6_6 c i arg1 harg1 arg2 harg2 arg3 harg3 arg4 harg4 arg5 harg5 arg6 harg6 arg7 harg7 hc0 x0 x1 x2 x3 = k6_pay5 x0 x1 x2 x3 (k6_pay2 (F := F)) := by
  unfold resetOut6_6
  rw [View.read_writes_eq_canon _ _ _ (resetCover6_6 c i arg1 harg1 arg2 harg2 arg3 harg3 arg4 harg4 arg5 harg5 arg6 harg6 arg7 harg7 hc0 x0 x1 x2 x3)]
  unfold resetRun6
  dsimp only
  sl_unfold_words
  rw [View.canon_cons_unit_zero (S := S1x256) origin6, View.readCov_unit_zero (S := S1x256) _ origin6]
  simp only [View.readAt_eq_ld, harg1.read_unread, harg2.read_unread, harg3.read_unread, harg4.read_unread, View.ld_unit_zero (S := S2000x256) origin6, View.ld_unit_zero (S := S256x256) origin6, View.ld_unit_zero (S := S1x256) origin6]

/-- At a later point u's buffer holds the affine map of the blocks, whatever the accumulators held. -/
theorem carryOut6_4_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut6_4 c i arg1 harg1 arg2 harg2 arg3 harg3 arg4 harg4 arg5 harg5 arg6 harg6 arg7 harg7 hc0 x0 x1 x2 x3 xo5 xo6 = k6_pay3 x0 x1 x2 x3 := by
  unfold carryOut6_4
  rw [View.read_writes_eq_canon _ _ _ (carryCover6_4 c i arg1 harg1 arg2 harg2 arg3 harg3 arg4 harg4 arg5 harg5 arg6 harg6 arg7 harg7 hc0 x0 x1 x2 x3 xo5 xo6)]
  unfold carryRun6
  dsimp only
  sl_unfold_words
  rw [View.canon_unit_zero origin6]
  simp only [View.readAt_eq_ld, harg1.read_unread, harg2.read_unread, harg3.read_unread, harg4.read_unread, harg6.read_unread, harg7.read_unread, View.ld_unit_zero (S := S2000x256) origin6, View.ld_unit_zero (S := S256x256) origin6, View.ld_unit_zero (S := S1x256) origin6]

/-- At a later point the column-sum accumulator holds the row it found plus u's column sums. -/
theorem carryOut6_5_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut6_5 c i arg1 harg1 arg2 harg2 arg3 harg3 arg4 harg4 arg5 harg5 arg6 harg6 arg7 harg7 hc0 x0 x1 x2 x3 xo5 xo6 = k6_pay4 x0 x1 x2 x3 xo5 := by
  unfold carryOut6_5
  rw [View.read_writes_eq_canon _ _ _ (carryCover6_5 c i arg1 harg1 arg2 harg2 arg3 harg3 arg4 harg4 arg5 harg5 arg6 harg6 arg7 harg7 hc0 x0 x1 x2 x3 xo5 xo6)]
  unfold carryRun6
  dsimp only
  sl_unfold_words
  rw [View.canon_unit_zero origin6]
  simp only [View.readAt_eq_ld, harg1.read_unread, harg2.read_unread, harg3.read_unread, harg4.read_unread, harg6.read_unread, harg7.read_unread, View.ld_unit_zero (S := S2000x256) origin6, View.ld_unit_zero (S := S256x256) origin6, View.ld_unit_zero (S := S1x256) origin6]

/-- At a later point the sum-of-squares accumulator holds the row it found plus the column sums of u·u. -/
theorem carryOut6_6_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first6 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut6_6 c i arg1 harg1 arg2 harg2 arg3 harg3 arg4 harg4 arg5 harg5 arg6 harg6 arg7 harg7 hc0 x0 x1 x2 x3 xo5 xo6 = k6_pay5 x0 x1 x2 x3 xo6 := by
  unfold carryOut6_6
  rw [View.read_writes_eq_canon _ _ _ (carryCover6_6 c i arg1 harg1 arg2 harg2 arg3 harg3 arg4 harg4 arg5 harg5 arg6 harg6 arg7 harg7 hc0 x0 x1 x2 x3 xo5 xo6)]
  unfold carryRun6
  dsimp only
  sl_unfold_words
  rw [View.canon_unit_zero origin6]
  simp only [View.readAt_eq_ld, harg1.read_unread, harg2.read_unread, harg3.read_unread, harg4.read_unread, harg6.read_unread, harg7.read_unread, View.ld_unit_zero (S := S2000x256) origin6, View.ld_unit_zero (S := S256x256) origin6, View.ld_unit_zero (S := S1x256) origin6]

end Pieces

/-! ## At the exact instance -/

variable (V : (c : Dev nD) → (b : Ref sig .tc) → Buf (Elt Ideal) ((c : Thread nD τ).loc b))

/-- The four input arrays as the region finds them and the blocks the body loads at point `t`, each at its literal type. -/
abbrev hArr6 (c : Dev nD) : Vec Ideal S50000x256 .f32 := V c (Pipeline.arrRef spec6 0)
abbrev gArr6 (c : Dev nD) : Vec Ideal S50000x256 .f32 := V c (Pipeline.arrRef spec6 1)
abbrev wArr6 (c : Dev nD) : Vec Ideal S256x256 .bf16 := V c (Pipeline.arrRef spec6 2)
abbrev bArr6 (c : Dev nD) : Vec Ideal S1x256 .f32 := V c (Pipeline.arrRef spec6 3)
abbrev hBlk6 (c : Dev nD) (t : Fin cfg6.N) : Vec Ideal S2000x256 .f32 := iblk6 V c 0 t
abbrev gBlk6 (c : Dev nD) (t : Fin cfg6.N) : Vec Ideal S2000x256 .f32 := iblk6 V c 1 t
abbrev wBlk6 (c : Dev nD) (t : Fin cfg6.N) : Vec Ideal S256x256 .bf16 := iblk6 V c 2 t
abbrev bBlk6 (c : Dev nD) (t : Fin cfg6.N) : Vec Ideal S1x256 .f32 := iblk6 V c 3 t

/-- The printed index maps, decided over the grid: h, agg and u move one band of rows per point; the weight, the bias and the two
    accumulators stay at block (0, 0). -/
theorem bands6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Row `p` of point `t`'s band of h is row 2000·t + p of h. -/
theorem hBlk6_apply (c : Dev nD) (t : Fin cfg6.N) (p : Fin 2000) (k : Fin 256) (r : Fin 50000) (hr : r.val = 2000 * t.val + p.val) :
    hBlk6 V c t (ix2 p k) = hArr6 V c (ix2 r k) := by
  show V c (Pipeline.arrRef spec6 0) (((cfg6.win 0).blk t).view.emb (ix2 p k)) = V c (Pipeline.arrRef spec6 0) (ix2 r k)
  refine congrArg _ ?_
  obtain ⟨e0, e1, -⟩ := bands6 t
  funext a; apply Fin.ext
  match a with
  | ⟨0, _⟩ => show win6_0.index t (0 : Fin 2) * 2000 + 1 * p.val = r.val; omega
  | ⟨1, _⟩ => show win6_0.index t (1 : Fin 2) * 256 + 1 * k.val = k.val; omega

/-- The same for the aggregate. -/
theorem gBlk6_apply (c : Dev nD) (t : Fin cfg6.N) (p : Fin 2000) (k : Fin 256) (r : Fin 50000) (hr : r.val = 2000 * t.val + p.val) :
    gBlk6 V c t (ix2 p k) = gArr6 V c (ix2 r k) := by
  show V c (Pipeline.arrRef spec6 1) (((cfg6.win 1).blk t).view.emb (ix2 p k)) = V c (Pipeline.arrRef spec6 1) (ix2 r k)
  refine congrArg _ ?_
  obtain ⟨-, -, e0, e1, -⟩ := bands6 t
  funext a; apply Fin.ext
  match a with
  | ⟨0, _⟩ => show win6_1.index t (0 : Fin 2) * 2000 + 1 * p.val = r.val; omega
  | ⟨1, _⟩ => show win6_1.index t (1 : Fin 2) * 256 + 1 * k.val = k.val; omega

/-- The weight's one block is the weight. -/
theorem wBlk6_apply (c : Dev nD) (t : Fin cfg6.N) (k : Fin 256) (q : Fin 256) : wBlk6 V c t (ix2 k q) = wArr6 V c (ix2 k q) := by
  show V c (Pipeline.arrRef spec6 2) (((cfg6.win 2).blk t).view.emb (ix2 k q)) = V c (Pipeline.arrRef spec6 2) (ix2 k q)
  refine congrArg _ ?_
  obtain ⟨-, -, -, -, e0, e1, -⟩ := bands6 t
  funext a; apply Fin.ext
  match a with
  | ⟨0, _⟩ => show win6_2.index t (0 : Fin 2) * 256 + 1 * k.val = k.val; omega
  | ⟨1, _⟩ => show win6_2.index t (1 : Fin 2) * 256 + 1 * q.val = q.val; omega

/-- The bias row's one block is the bias row. -/
theorem bBlk6_apply (c : Dev nD) (t : Fin cfg6.N) (q : Fin 256) : bBlk6 V c t (ix2 0 q) = bArr6 V c (ix2 0 q) := by
  show V c (Pipeline.arrRef spec6 3) (((cfg6.win 3).blk t).view.emb (ix2 0 q)) = V c (Pipeline.arrRef spec6 3) (ix2 0 q)
  refine congrArg _ ?_
  obtain ⟨-, -, -, -, -, -, e0, e1, -⟩ := bands6 t
  funext a; apply Fin.ext
  match a with
  | ⟨0, _⟩ => show win6_3.index t (0 : Fin 2) * 1 + 1 * 0 = 0; omega
  | ⟨1, _⟩ => show win6_3.index t (1 : Fin 2) * 256 + 1 * q.val = q.val; omega

/-- THE MATRIX u of the whole arrays: (h + agg) · W + b. -/
def uMat6 (c : Dev nD) : Gin.Mat :=
  Gin.lin (fun r k => Gin.toMat (V c (Pipeline.arrRef spec6 0)) r k + Gin.toMat (V c (Pipeline.arrRef spec6 1)) r k)
    (Gin.toWt (V c (Pipeline.arrRef spec6 2))) (Gin.toRow (V c (Pipeline.arrRef spec6 3)))

/-- The body's affine map of point `t`'s blocks is the band of rows 2000·t … 2000·t + 1999 of `uMat6`. -/
theorem band6 (c : Dev nD) (t : Fin cfg6.N) (p : Fin 2000) (q : Fin 256) (r : Fin 50000) (hr : r.val = 2000 * t.val + p.val) :
    k6_pay3 (F := Ideal) (hBlk6 V c t) (gBlk6 V c t) (wBlk6 V c t) (bBlk6 V c t) (ix2 p q) = uMat6 V c r q := by
  rw [k6_pay3_apply, bBlk6_apply V c t q]
  unfold uMat6 Gin.lin Gin.toMat Gin.toWt Gin.toRow
  refine congrArg (fun s : EReal => s + bArr6 V c (ix2 0 q)) (Finset.sum_congr rfl fun k _ => ?_)
  rw [hBlk6_apply V c t p k r hr, gBlk6_apply V c t p k r hr, wBlk6_apply V c t k q]

/-- The same band, squared entry by entry. -/
theorem bandSq6 (c : Dev nD) (t : Fin cfg6.N) (p : Fin 2000) (q : Fin 256) (r : Fin 50000) (hr : r.val = 2000 * t.val + p.val) :
    k6_pay3 (F := Ideal) (hBlk6 V c t) (gBlk6 V c t) (wBlk6 V c t) (bBlk6 V c t) (ix2 p q)
        * k6_pay3 (F := Ideal) (hBlk6 V c t) (gBlk6 V c t) (wBlk6 V c t) (bBlk6 V c t) (ix2 p q)
      = uMat6 V c r q * uMat6 V c r q := by
  rw [band6 V c t p q r hr]

/-- After EVERY point u's staging buffer holds the affine map of that point's blocks. -/
theorem uAt6 (c : Dev nD) (t : Fin cfg6.N) :
    (left6 V c t.val t.isLt).1 = k6_pay3 (F := Ideal) (hBlk6 V c t) (gBlk6 V c t) (wBlk6 V c t) (bBlk6 V c t) := by
  by_cases h0 : t.val = 0
  · rw [left6_first V c t h0]
    dsimp only
    exact resetOut6_4_eq (F := Ideal) c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) ((first6_iff t).mpr h0) (iblk6 V c 0 t) (iblk6 V c 1 t) (iblk6 V c 2 t) (iblk6 V c 3 t)
  · rw [left6_later V c t h0]
    dsimp only
    exact carryOut6_4_eq (F := Ideal) c (grid6.coords t) (buf6_0 t) (whole6_0 t) (buf6_1 t) (whole6_1 t) (buf6_2 t) (whole6_2 t) (buf6_3 t) (whole6_3 t) (buf6_4 t) (whole6_4 t) (buf6_5 t) (whole6_5 t) (buf6_6 t) (whole6_6 t) (fun h => h0 ((first6_iff t).mp h)) (iblk6 V c 0 t) (iblk6 V c 1 t) (iblk6 V c 2 t) (iblk6 V c 3 t) (left6 V c (t.val - 1) (Nat.lt_of_le_of_lt (Nat.sub_le _ _) t.isLt)).2.1 (left6 V c (t.val - 1) (Nat.lt_of_le_of_lt (Nat.sub_le _ _) t.isLt)).2.2

/-! ## Sums over the bands of rows -/

/-- Row `r` of a matrix at column `q`, and 0 past the last row: so that sums over rows are sums over ranges of naturals. -/
def rowOr6 (f : Gin.Mat) (q : Fin 256) (r : ℕ) : EReal := if h : r < 50000 then f ⟨r, h⟩ q else 0

/-- A sum over the 2000 rows of band `n`, each term that row's entry, is the sum of the entries over the band's range. -/
theorem bandSum6 (f : Gin.Mat) (q : Fin 256) (n : ℕ) (hn : n < 25) (g : Fin 2000 → EReal)
    (hg : ∀ (p : Fin 2000) (r : Fin 50000), r.val = 2000 * n + p.val → g p = f r q) :
    ∑ p : Fin 2000, g p = ∑ x ∈ Finset.range 2000, rowOr6 f q (2000 * n + x) := by
  rw [← Fin.sum_univ_eq_sum_range (fun x => rowOr6 f q (2000 * n + x)) 2000]
  refine Finset.sum_congr rfl fun p _ => ?_
  have hp := p.isLt
  have hr : 2000 * n + p.val < 50000 := by omega
  rw [hg p ⟨2000 * n + p.val, hr⟩ rfl]
  unfold rowOr6
  rw [dif_pos hr]

/-- The sum over all rows below 50000 is the column sum. -/
theorem allRows6 (f : Gin.Mat) (q : Fin 256) : ∑ x ∈ Finset.range 50000, rowOr6 f q x = Gin.colsum f q := by
  unfold Gin.colsum
  rw [← Fin.sum_univ_eq_sum_range (fun x => rowOr6 f q x) 50000]
  refine Finset.sum_congr rfl fun r _ => ?_
  unfold rowOr6
  rw [dif_pos r.isLt]

/-- THE COLUMN SUMS SO FAR. After point `n` the first accumulator's row holds the sum of `uMat6`'s entries over the rows below
    2000·(n+1): the zero row plus the first band's sums at the first point, the row found plus this band's sums later. -/
theorem sumAt6 (c : Dev nD) (q : Fin 256) : ∀ (n : ℕ) (hn : n < cfg6.N),
    (left6 V c n hn).2.1 (ix2 0 q) = ∑ x ∈ Finset.range (2000 * (n + 1)), rowOr6 (uMat6 V c) q x
  | 0, hn => by
    rw [left6_first V c ⟨0, hn⟩ rfl]
    dsimp only
    rw [resetOut6_5_eq (F := Ideal) c (grid6.coords ⟨0, hn⟩) (buf6_0 ⟨0, hn⟩) (whole6_0 ⟨0, hn⟩) (buf6_1 ⟨0, hn⟩) (whole6_1 ⟨0, hn⟩) (buf6_2 ⟨0, hn⟩) (whole6_2 ⟨0, hn⟩) (buf6_3 ⟨0, hn⟩) (whole6_3 ⟨0, hn⟩) (buf6_4 ⟨0, hn⟩) (whole6_4 ⟨0, hn⟩) (buf6_5 ⟨0, hn⟩) (whole6_5 ⟨0, hn⟩) (buf6_6 ⟨0, hn⟩) (whole6_6 ⟨0, hn⟩) ((first6_iff ⟨0, hn⟩).mpr rfl) (iblk6 V c 0 ⟨0, hn⟩) (iblk6 V c 1 ⟨0, hn⟩) (iblk6 V c 2 ⟨0, hn⟩) (iblk6 V c 3 ⟨0, hn⟩),
      k6_pay4_apply, k6_pay1_apply, zero_add,
      bandSum6 (uMat6 V c) q 0 (by omega) _ (fun p r hr => band6 V c ⟨0, hn⟩ p q r hr)]
    simp only [Nat.mul_zero, Nat.zero_add, Nat.mul_one]
  | n + 1, hn => by
    have hN : n + 1 < 25 := lt_of_lt_of_eq hn (show cfg6.N = 25 from N_6)
    rw [left6_later V c ⟨n + 1, hn⟩ (Nat.succ_ne_zero n)]
    dsimp only
    simp only [Nat.add_sub_cancel]
    rw [carryOut6_5_eq (F := Ideal) c (grid6.coords ⟨n + 1, hn⟩) (buf6_0 ⟨n + 1, hn⟩) (whole6_0 ⟨n + 1, hn⟩) (buf6_1 ⟨n + 1, hn⟩) (whole6_1 ⟨n + 1, hn⟩) (buf6_2 ⟨n + 1, hn⟩) (whole6_2 ⟨n + 1, hn⟩) (buf6_3 ⟨n + 1, hn⟩) (whole6_3 ⟨n + 1, hn⟩) (buf6_4 ⟨n + 1, hn⟩) (whole6_4 ⟨n + 1, hn⟩) (buf6_5 ⟨n + 1, hn⟩) (whole6_5 ⟨n + 1, hn⟩) (buf6_6 ⟨n + 1, hn⟩) (whole6_6 ⟨n + 1, hn⟩) (fun h => Nat.succ_ne_zero n ((first6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (left6 V c n (Nat.lt_of_succ_lt hn)).2.1 (left6 V c n (Nat.lt_of_succ_lt hn)).2.2,
      k6_pay4_apply, sumAt6 c q n (Nat.lt_of_succ_lt hn),
      bandSum6 (uMat6 V c) q (n + 1) hN _ (fun p r hr => band6 V c ⟨n + 1, hn⟩ p q r hr),
      show 2000 * (n + 1 + 1) = 2000 * (n + 1) + 2000 from by ring, Finset.sum_range_add]

/-- THE COLUMN SUMS OF SQUARES SO FAR, the same way. -/
theorem sqAt6 (c : Dev nD) (q : Fin 256) : ∀ (n : ℕ) (hn : n < cfg6.N),
    (left6 V c n hn).2.2 (ix2 0 q) = ∑ x ∈ Finset.range (2000 * (n + 1)), rowOr6 (fun r j => uMat6 V c r j * uMat6 V c r j) q x
  | 0, hn => by
    rw [left6_first V c ⟨0, hn⟩ rfl]
    dsimp only
    rw [resetOut6_6_eq (F := Ideal) c (grid6.coords ⟨0, hn⟩) (buf6_0 ⟨0, hn⟩) (whole6_0 ⟨0, hn⟩) (buf6_1 ⟨0, hn⟩) (whole6_1 ⟨0, hn⟩) (buf6_2 ⟨0, hn⟩) (whole6_2 ⟨0, hn⟩) (buf6_3 ⟨0, hn⟩) (whole6_3 ⟨0, hn⟩) (buf6_4 ⟨0, hn⟩) (whole6_4 ⟨0, hn⟩) (buf6_5 ⟨0, hn⟩) (whole6_5 ⟨0, hn⟩) (buf6_6 ⟨0, hn⟩) (whole6_6 ⟨0, hn⟩) ((first6_iff ⟨0, hn⟩).mpr rfl) (iblk6 V c 0 ⟨0, hn⟩) (iblk6 V c 1 ⟨0, hn⟩) (iblk6 V c 2 ⟨0, hn⟩) (iblk6 V c 3 ⟨0, hn⟩),
      k6_pay5_apply, k6_pay2_apply, zero_add,
      bandSum6 (fun r j => uMat6 V c r j * uMat6 V c r j) q 0 (by omega) _ (fun p r hr => bandSq6 V c ⟨0, hn⟩ p q r hr)]
    simp only [Nat.mul_zero, Nat.zero_add, Nat.mul_one]
  | n + 1, hn => by
    have hN : n + 1 < 25 := lt_of_lt_of_eq hn (show cfg6.N = 25 from N_6)
    rw [left6_later V c ⟨n + 1, hn⟩ (Nat.succ_ne_zero n)]
    dsimp only
    simp only [Nat.add_sub_cancel]
    rw [carryOut6_6_eq (F := Ideal) c (grid6.coords ⟨n + 1, hn⟩) (buf6_0 ⟨n + 1, hn⟩) (whole6_0 ⟨n + 1, hn⟩) (buf6_1 ⟨n + 1, hn⟩) (whole6_1 ⟨n + 1, hn⟩) (buf6_2 ⟨n + 1, hn⟩) (whole6_2 ⟨n + 1, hn⟩) (buf6_3 ⟨n + 1, hn⟩) (whole6_3 ⟨n + 1, hn⟩) (buf6_4 ⟨n + 1, hn⟩) (whole6_4 ⟨n + 1, hn⟩) (buf6_5 ⟨n + 1, hn⟩) (whole6_5 ⟨n + 1, hn⟩) (buf6_6 ⟨n + 1, hn⟩) (whole6_6 ⟨n + 1, hn⟩) (fun h => Nat.succ_ne_zero n ((first6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (left6 V c n (Nat.lt_of_succ_lt hn)).2.1 (left6 V c n (Nat.lt_of_succ_lt hn)).2.2,
      k6_pay5_apply, sqAt6 c q n (Nat.lt_of_succ_lt hn),
      bandSum6 (fun r j => uMat6 V c r j * uMat6 V c r j) q (n + 1) hN _ (fun p r hr => bandSq6 V c ⟨n + 1, hn⟩ p q r hr),
      show 2000 * (n + 1 + 1) = 2000 * (n + 1) + 2000 from by ring, Finset.sum_range_add]

/-! ## From the staging buffers to the arrays -/

/-- `uMat6` as contents of u's array. -/
def uArr6 (c : Dev nD) : Vec Ideal S50000x256 .f32 := fun i => uMat6 V c (i 0) (i 1)

/-- WHAT POINT `t` WRITES BACK is band `t` of `uArr6`. -/
theorem flushed6_4 (c : Dev nD) (t : Fin cfg6.N) :
    (dat6 V c).flushed 4 t = ((cfg6.win 4).blk t).view.read (Elt Ideal) (uArr6 V c) := by
  have hN : t.val < 25 := lt_of_lt_of_eq t.isLt (show cfg6.N = 25 from N_6)
  show (cfg6.win 4).cut (grid6.coords t) ((dat6 V c).after 4 t) = _
  rw [after6_4]
  funext j
  obtain ⟨p, q, rfl⟩ : ∃ (p : Fin 2000) (q : Fin 256), j = ix2 p q := ⟨j 0, j 1, eq_ix2 (n0 := 2000) (n1 := 256) j⟩
  obtain ⟨-, -, -, -, -, -, -, -, e0, e1, -⟩ := bands6 t
  have hp : p.val < 2000 := p.isLt
  have hr : 2000 * t.val + p.val < 50000 := by omega
  have hj : ((cfg6.win 4).blk t).view.emb (ix2 p q) = ix2 (⟨2000 * t.val + p.val, hr⟩ : Fin 50000) q := by
    funext a; apply Fin.ext
    match a with
    | ⟨0, _⟩ => show win6_4.index t (0 : Fin 2) * 2000 + 1 * p.val = 2000 * t.val + p.val; omega
    | ⟨1, _⟩ => show win6_4.index t (1 : Fin 2) * 256 + 1 * q.val = q.val; omega
  show (left6 V c t.val t.isLt).1 (ix2 p q) = uArr6 V c (((cfg6.win 4).blk t).view.emb (ix2 p q))
  rw [hj, uAt6 V c t]
  exact band6 V c t p q ⟨2000 * t.val + p.val, hr⟩ rfl

/-- An index of u's array is in point `t`'s block iff each coordinate is in the block's range on its axis. -/
theorem mem_blk6_4 (t : Fin cfg6.N) (i : (Pipeline.arrRef spec6 4).ty.shape.Idx) :
    i ∈ ((cfg6.win 4).blk t).view.set ↔ ∀ a : Fin 2, win6_4.index t a * S2000x256.size a ≤ (i a).val ∧ (i a).val < win6_4.index t a * S2000x256.size a + S2000x256.size a := by
  show i ∈ ((View.whole (Pipeline.arrRef spec6 4)).slice (win6_4.rect t)).set ↔ _
  rw [View.set_slice_whole, Rect.mem_set_unit]
  exact Iff.rfl

/-- The bands tile the array (row r is in band r / 2000), so u's array ends holding `uArr6`. -/
theorem final6_4 (c : Dev nD) : (dat6 V c).arrAt 4 cfg6.N = uArr6 V c :=
  (dat6 V c).arrAt_eq_of_cover 4 (uArr6 V c) (fun t _ => flushed6_4 V c t) fun i => by
    have hN : cfg6.N = 25 := N_6
    have hi0 : (i 0).val < 50000 := (i 0).isLt
    have hi1 : (i 1).val < 256 := (i 1).isLt
    refine ⟨⟨(i 0).val / 2000, by omega⟩, flush6_4 _, ?_⟩
    rw [mem_blk6_4]
    obtain ⟨-, -, -, -, -, -, -, -, e0, e1, -⟩ := bands6 (⟨(i 0).val / 2000, by omega⟩ : Fin cfg6.N)
    intro a
    match a with
    | ⟨0, _⟩ => show win6_4.index _ (0 : Fin 2) * 2000 ≤ (i 0).val ∧ (i 0).val < win6_4.index _ (0 : Fin 2) * 2000 + 2000; dsimp only at e0; omega
    | ⟨1, _⟩ => show win6_4.index _ (1 : Fin 2) * 256 ≤ (i 1).val ∧ (i 1).val < win6_4.index _ (1 : Fin 2) * 256 + 256; omega

/-- What the column-sum array is written back as: the column sums over all 50000 rows, as a row array. -/
def sumArr6 (c : Dev nD) : Vec Ideal S1x256 .f32 := fun i => Gin.colsum (uMat6 V c) (i 1)

set_option maxRecDepth 65536 in
/-- The one write-back of the column-sum array, after the last point, writes that row: block (0, 0) of the one-row array is the array, and the
    accumulator then holds the sum over every band. -/
theorem flushed6_5 (c : Dev nD) (t : Fin cfg6.N) (hf : (cfg6.win 5).flush t = true) :
    (dat6 V c).flushed 5 t = ((cfg6.win 5).blk t).view.read (Elt Ideal) (sumArr6 V c) := by
  have hN : cfg6.N = 25 := N_6
  have h24 : 2000 * (t.val + 1) = 50000 := by have := (flush6_5 t).mp hf; have := t.isLt; omega
  show (cfg6.win 5).cut (grid6.coords t) ((dat6 V c).after 5 t) = _
  rw [after6_5]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, e0, e1, -⟩ := bands6 t
  have hj : ((cfg6.win 5).blk t).view.emb (ix2 0 q) = ix2 0 q := by
    funext a; apply Fin.ext
    match a with
    | ⟨0, _⟩ => show win6_5.index t (0 : Fin 2) * 1 + 1 * 0 = 0; omega
    | ⟨1, _⟩ => show win6_5.index t (1 : Fin 2) * 256 + 1 * q.val = q.val; omega
  show (left6 V c t.val t.isLt).2.1 (ix2 0 q) = sumArr6 V c (((cfg6.win 5).blk t).view.emb (ix2 0 q))
  rw [hj]
  show (left6 V c t.val t.isLt).2.1 (ix2 0 q) = Gin.colsum (uMat6 V c) q
  rw [← allRows6, sumAt6 V c q t.val t.isLt, h24]

/-- An index of the column-sum array is in point `t`'s block iff each coordinate is in the block's range on its axis. -/
theorem mem_blk6_5 (t : Fin cfg6.N) (i : (Pipeline.arrRef spec6 5).ty.shape.Idx) :
    i ∈ ((cfg6.win 5).blk t).view.set ↔ ∀ a : Fin 2, win6_5.index t a * S1x256.size a ≤ (i a).val ∧ (i a).val < win6_5.index t a * S1x256.size a + S1x256.size a := by
  show i ∈ ((View.whole (Pipeline.arrRef spec6 5)).slice (win6_5.rect t)).set ↔ _
  rw [View.set_slice_whole, Rect.mem_set_unit]
  exact Iff.rfl

/-- So the column-sum array ends as that row. -/
theorem final6_5 (c : Dev nD) : (dat6 V c).arrAt 5 cfg6.N = sumArr6 V c :=
  (dat6 V c).arrAt_eq_of_cover 5 (sumArr6 V c) (flushed6_5 V c) fun i => by
    have hN : cfg6.N = 25 := N_6
    refine ⟨⟨24, by omega⟩, (flush6_5 _).mpr rfl, ?_⟩
    rw [mem_blk6_5]
    obtain ⟨-, -, -, -, -, -, -, -, -, -, e0, e1, -⟩ := bands6 (⟨24, by omega⟩ : Fin cfg6.N)
    intro a
    match a with
    | ⟨0, _⟩ => show win6_5.index _ (0 : Fin 2) * 1 ≤ (i 0).val ∧ (i 0).val < win6_5.index _ (0 : Fin 2) * 1 + 1; have hi0 : (i 0).val < 1 := (i 0).isLt; omega
    | ⟨1, _⟩ => show win6_5.index _ (1 : Fin 2) * 256 ≤ (i 1).val ∧ (i 1).val < win6_5.index _ (1 : Fin 2) * 256 + 256; have hi1 : (i 1).val < 256 := (i 1).isLt; omega

/-- What the sum-of-squares array is written back as: the column sums over all 50000 rows, as a row array. -/
def sqArr6 (c : Dev nD) : Vec Ideal S1x256 .f32 := fun i => Gin.colsum (fun r j => uMat6 V c r j * uMat6 V c r j) (i 1)

set_option maxRecDepth 65536 in
/-- The one write-back of the sum-of-squares array, after the last point, writes that row: block (0, 0) of the one-row array is the array, and the
    accumulator then holds the sum over every band. -/
theorem flushed6_6 (c : Dev nD) (t : Fin cfg6.N) (hf : (cfg6.win 6).flush t = true) :
    (dat6 V c).flushed 6 t = ((cfg6.win 6).blk t).view.read (Elt Ideal) (sqArr6 V c) := by
  have hN : cfg6.N = 25 := N_6
  have h24 : 2000 * (t.val + 1) = 50000 := by have := (flush6_6 t).mp hf; have := t.isLt; omega
  show (cfg6.win 6).cut (grid6.coords t) ((dat6 V c).after 6 t) = _
  rw [after6_6]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, -, -, e0, e1⟩ := bands6 t
  have hj : ((cfg6.win 6).blk t).view.emb (ix2 0 q) = ix2 0 q := by
    funext a; apply Fin.ext
    match a with
    | ⟨0, _⟩ => show win6_6.index t (0 : Fin 2) * 1 + 1 * 0 = 0; omega
    | ⟨1, _⟩ => show win6_6.index t (1 : Fin 2) * 256 + 1 * q.val = q.val; omega
  show (left6 V c t.val t.isLt).2.2 (ix2 0 q) = sqArr6 V c (((cfg6.win 6).blk t).view.emb (ix2 0 q))
  rw [hj]
  show (left6 V c t.val t.isLt).2.2 (ix2 0 q) = Gin.colsum (fun r j => uMat6 V c r j * uMat6 V c r j) q
  rw [← allRows6, sqAt6 V c q t.val t.isLt, h24]

/-- An index of the sum-of-squares array is in point `t`'s block iff each coordinate is in the block's range on its axis. -/
theorem mem_blk6_6 (t : Fin cfg6.N) (i : (Pipeline.arrRef spec6 6).ty.shape.Idx) :
    i ∈ ((cfg6.win 6).blk t).view.set ↔ ∀ a : Fin 2, win6_6.index t a * S1x256.size a ≤ (i a).val ∧ (i a).val < win6_6.index t a * S1x256.size a + S1x256.size a := by
  show i ∈ ((View.whole (Pipeline.arrRef spec6 6)).slice (win6_6.rect t)).set ↔ _
  rw [View.set_slice_whole, Rect.mem_set_unit]
  exact Iff.rfl

/-- So the sum-of-squares array ends as that row. -/
theorem final6_6 (c : Dev nD) : (dat6 V c).arrAt 6 cfg6.N = sqArr6 V c :=
  (dat6 V c).arrAt_eq_of_cover 6 (sqArr6 V c) (flushed6_6 V c) fun i => by
    have hN : cfg6.N = 25 := N_6
    refine ⟨⟨24, by omega⟩, (flush6_6 _).mpr rfl, ?_⟩
    rw [mem_blk6_6]
    obtain ⟨-, -, -, -, -, -, -, -, -, -, -, -, e0, e1⟩ := bands6 (⟨24, by omega⟩ : Fin cfg6.N)
    intro a
    match a with
    | ⟨0, _⟩ => show win6_6.index _ (0 : Fin 2) * 1 ≤ (i 0).val ∧ (i 0).val < win6_6.index _ (0 : Fin 2) * 1 + 1; have hi0 : (i 0).val < 1 := (i 0).isLt; omega
    | ⟨1, _⟩ => show win6_6.index _ (1 : Fin 2) * 256 ≤ (i 1).val ∧ (i 1).val < win6_6.index _ (1 : Fin 2) * 256 + 256; have hi1 : (i 1).val < 256 := (i 1).isLt; omega

/-! ## The region's three results -/

/-- The affine output: (h + agg) · W + b. -/
theorem val6_4 (c : Dev nD) : Gin.toMat ((dat6 V c).arrAt 4 cfg6.N)
    = Gin.lin (fun r k => Gin.toMat (V c (Pipeline.arrRef spec6 0)) r k + Gin.toMat (V c (Pipeline.arrRef spec6 1)) r k)
        (Gin.toWt (V c (Pipeline.arrRef spec6 2))) (Gin.toRow (V c (Pipeline.arrRef spec6 3))) := by
  rw [final6_4]
  rfl
/-- Its column sums. -/
theorem val6_5 (c : Dev nD) : Gin.toRow ((dat6 V c).arrAt 5 cfg6.N) = Gin.colsum (Gin.toMat ((dat6 V c).arrAt 4 cfg6.N)) := by
  rw [final6_5, final6_4]
  rfl
/-- The column sums of its squares. -/
theorem val6_6 (c : Dev nD) : Gin.toRow ((dat6 V c).arrAt 6 cfg6.N)
    = Gin.colsum (fun r j => Gin.toMat ((dat6 V c).arrAt 4 cfg6.N) r j * Gin.toMat ((dat6 V c).arrAt 4 cfg6.N) r j) := by
  rw [final6_6, final6_4]
  rfl

end Cert.KernelIdeal.Hand

end
-- ==== Proof.KI.Pay7.lean ====
/-
  The body of the normalise, multiply and accumulate-statistics step at the ideal values, read at an index (floats are
  extended reals, every operation exact, a change of float format the identity). Each value the body stores is, entry by
  entry, a plain sum or product of the entries it loaded: the normalised [2000,256] block times the [256,256] weight
  matrix plus the bias row; each accumulator row plus the column sums of a [2000,256] block, or of its squares; the zero
  rows of the first step; a row re-laid with its own layout.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx

/-! ## The [2000,256] × [256,256] product read at an entry -/

/-- Row axis of the left operand: the output's row. -/
theorem k7_lhs_axis0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- Column axis of the left operand: the contracted coordinate. -/
theorem k7_lhs_axis1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- Row axis of the right operand: the contracted coordinate. -/
theorem k7_rhs_axis0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- Column axis of the right operand: the output's column. -/
theorem k7_rhs_axis1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The matrix unit's product into a zero accumulator, at entry (p, q): the sum over the 256 contracted coordinates of
    the left operand's row p times the right operand's column q. -/
theorem k7_product_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  refine (Ideal.matmul_constant_zero_apply dot_S2000x256_S256x256_S2000x256_1_0_0_1_n_n none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact k7_lhs_axis0 _ _
      | ⟨1, _⟩ => exact (k7_lhs_axis1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (k7_rhs_axis0 _ _).trans hk
      | ⟨1, _⟩ => exact k7_rhs_axis1 _ _)
  rw [el, er]

/-! ## A column sum of a [2000,256] block, laid as a [1,256] row -/

/-- The sum over the 2000 rows, read at lane q. -/
theorem k7_colsum_apply (x : FVec Ideal S2000x256 .f32) (hacc : (0x00000000#32 : BitVec 32) = 0x00000000#32) (q : Fin 256) :
    multiReduction (F := Ideal) .add [0] S256 x 0x00000000#32 reduces_S2000x256_S256 (.inl rfl) hacc (ix1 q)
      = ∑ p : Fin 2000, x (ix2 p q) := by
  refine (Ideal.multiReduction_add_single x 0x00000000#32 reduces_S2000x256_S256 (.inl rfl) hacc (ix1 q)).trans ?_
  refine Finset.sum_congr rfl fun p _ => congrArg x ?_
  funext a
  match a with
  | ⟨0, _⟩ => rfl
  | ⟨1, _⟩ => rfl

/-! ## What the body stores, entry by entry -/

/-- The normalised block times the weights plus the bias: entry (p, q) is the sum over k of
    ((x[p,k] − mean[k]) · rsqrt(var[k] + ε) · gain[k] + shift[k]) · w[k,q], plus bias[q]; the narrowing to bf16 in
    front of the matrix unit is the identity on extended reals. -/
theorem k7_pay5_apply (v3 : Vec Ideal S2000x256 .f32) (v5 v9 v16 v20 : Vec Ideal S1x256 .f32)
    (v25 : Vec Ideal S256x256 .bf16) (v28 : Vec Ideal S1x256 .f32) (p : Fin 2000) (q : Fin 256) :
    k7_pay5 (F := Ideal) v3 v5 v9 v16 v20 v25 v28 (ix2 p q)
      = (∑ k : Fin 256, ((v3 (ix2 p k) - v5 (ix2 0 k)) * Ideal.rsqrt (v9 (ix2 0 k) + Ideal.ofBits .f32 0x3727C5AC#32)
            * v16 (ix2 0 k) + v20 (ix2 0 k)) * v25 (ix2 k q))
        + v28 (ix2 0 q) := by
  unfold k7_pay5
  simp only [shapeCast_self]
  refine (addf_apply _ _ _).trans ?_
  refine congrArg₂ (· + ·) ?_ ?_
  · refine (k7_product_apply _ _ p q).trans ?_
    refine Finset.sum_congr rfl fun k _ => congrArg (· * v25 (ix2 k q)) ?_
    show (v3 (ix2 p k) - broadcastTo S2000x256 v5 broadcasts_S1x256_S2000x256 (ix2 p k))
          * broadcastTo S2000x256 (rsqrt (addf v9 (broadcast S1x256 (Scalar.ofBits (F := Ideal) .f32 0x3727C5AC#32))))
              broadcasts_S1x256_S2000x256 (ix2 p k)
          * broadcastTo S2000x256 v16 broadcasts_S1x256_S2000x256 (ix2 p k)
        + broadcastTo S2000x256 v20 broadcasts_S1x256_S2000x256 (ix2 p k) = _
    rw [broadcastTo_1b_ab_apply v5 broadcasts_S1x256_S2000x256 p k,
      broadcastTo_1b_ab_apply (rsqrt (addf v9 (broadcast S1x256 (Scalar.ofBits (F := Ideal) .f32 0x3727C5AC#32))))
        broadcasts_S1x256_S2000x256 p k,
      broadcastTo_1b_ab_apply v16 broadcasts_S1x256_S2000x256 p k,
      broadcastTo_1b_ab_apply v20 broadcasts_S1x256_S2000x256 p k]
    rfl
  · exact broadcastTo_1b_ab_apply v28 broadcasts_S1x256_S2000x256 p q

/-- The first accumulator row plus the column sums of the block. -/
theorem k7_pay1_apply (v31 : FVec Ideal S2000x256 .f32) (v34 : FVec Ideal S1x256 .f32) (q : Fin 256) :
    k7_pay1 (F := Ideal) v31 v34 (ix2 0 q) = v34 (ix2 0 q) + ∑ p : Fin 2000, v31 (ix2 p q) := by
  unfold k7_pay1
  refine (addf_apply _ _ _).trans ?_
  refine congrArg (v34 (ix2 0 q) + ·) ?_
  refine (shapeCast_a_1a_apply _ shapeCasts_S256_S1x256 0 q).trans ?_
  exact k7_colsum_apply v31 rfl q

/-- The second accumulator row plus the column sums of the block's squares. -/
theorem k7_pay2_apply (v31 : FVec Ideal S2000x256 .f32) (v39 : Vec Ideal S1x256 .f32) (q : Fin 256) :
    k7_pay2 (F := Ideal) v31 v39 (ix2 0 q) = v39 (ix2 0 q) + ∑ p : Fin 2000, v31 (ix2 p q) * v31 (ix2 p q) := by
  unfold k7_pay2
  simp only [shapeCast_self]
  refine (addf_apply _ _ _).trans ?_
  refine congrArg (v39 (ix2 0 q) + ·) ?_
  refine (shapeCast_a_1a_apply _ shapeCasts_S256_S1x256 0 q).trans ?_
  exact k7_colsum_apply (mulf v31 v31) rfl q

/-- The zero row the first step stores into the first accumulator. -/
theorem k7_pay3_apply (q : Fin 256) : k7_pay3 (F := Ideal) (ix2 0 q) = 0 := by
  unfold k7_pay3
  exact Ideal.ofBits_zero_f32

/-- The zero row the first step stores into the second accumulator. -/
theorem k7_pay4_apply (q : Fin 256) : k7_pay4 (F := Ideal) (ix2 0 q) = 0 := by
  unfold k7_pay4
  exact Ideal.ofBits_zero_f32

/-- A [1,256] row re-laid as a [1,256] row is itself. -/
theorem k7_pay6_eq (v33 : Vec Ideal S1x256 .f32) : k7_pay6 (F := Ideal) v33 = v33 := by
  unfold k7_pay6
  exact shapeCast_self v33 shapeCasts_S1x256_S1x256

/-- … so at lane q it reads the row's lane q. -/
theorem k7_pay6_apply (v33 : Vec Ideal S1x256 .f32) (q : Fin 256) : k7_pay6 (F := Ideal) v33 (ix2 0 q) = v33 (ix2 0 q) :=
  congrFun (k7_pay6_eq v33) (ix2 0 q)

end Cert.KernelIdeal.PayVal

end
-- ==== Proof.KI.R7Val.lean ====
/-
  What region 7 of the idealized kernel program leaves in its output arrays, at the exact instance, as functions of what it finds in its
  input arrays: the mathematics of the kernel body summed over the grid.
-/
import proofs.«102822_j3521873183180_1_alg».proof.Proof.KI.R7
import proofs.«102822_j3521873183180_1_alg».proof.Proof.Spec
import proofs.«102822_j3521873183180_1_alg».proof.Proof.KI.Pay7
import proofs.«102822_j3521873183180_1_alg».proof.Proof.LibBlockSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat)

section Pieces

variable {F : FTy → Type} [FloatOps F]

/-! ## What each case's stores leave, as the body's payloads of the blocks (any float instance) -/

theorem hz7 : (![0, 0] : Fin 2 → Nat) = fun _ => 0 := funext fun a => by fin_cases a <;> rfl

/-- At the first point the block output's buffer ends at the one store's payload: the affine map of the normalised input block. -/
theorem out7_A_7_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out7_A_7 c i arg1 harg1 arg2 harg2 arg3 harg3 arg4 harg4 arg5 harg5 arg6 harg6 arg7 harg7 arg8 harg8 arg9 harg9 arg10 harg10 hc0 x0 x1 x2 x3 x4 x5 x6 = k7_pay5 x0 x1 x2 x3 x4 x5 x6 := by
  unfold out7_A_7
  rw [View.read_writes_eq_canon _ _ _ (cover7_A_7 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  sl_unfold_words
  rw [View.canon_unit_zero hz7]
  simp only [View.readAt_eq_ld, harg1.read_unread, harg2.read_unread, harg3.read_unread, harg4.read_unread, harg5.read_unread, harg6.read_unread, harg7.read_unread, harg9.read_unread, harg10.read_unread,
    View.ld_unit_zero (S := S2000x256) hz7, View.ld_unit_zero (S := S1x256) hz7, View.ld_unit_zero (S := S256x256) hz7]

/-- At the first point the first accumulator ends at the zero row, read back, plus the block's column sums. -/
theorem out7_A_8_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out7_A_8 c i arg1 harg1 arg2 harg2 arg3 harg3 arg4 harg4 arg5 harg5 arg6 harg6 arg7 harg7 arg8 harg8 arg9 harg9 arg10 harg10 hc0 x0 x1 x2 x3 x4 x5 x6 = k7_pay1 (k7_pay5 x0 x1 x2 x3 x4 x5 x6) (k7_pay6 (k7_pay3 (F := F))) := by
  unfold out7_A_8
  rw [View.read_writes_eq_canon _ _ _ (cover7_A_8 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  sl_unfold_words
  rw [View.canon_cons_unit_zero (S := S1x256) hz7, View.readCov_unit_zero (S := S1x256) _ hz7]
  simp only [View.readAt_eq_ld, harg1.read_unread, harg2.read_unread, harg3.read_unread, harg4.read_unread, harg5.read_unread, harg6.read_unread, harg7.read_unread, harg9.read_unread, harg10.read_unread,
    View.ld_unit_zero (S := S2000x256) hz7, View.ld_unit_zero (S := S1x256) hz7, View.ld_unit_zero (S := S256x256) hz7]

/-- At the first point the second accumulator ends at the zero row, read back, plus the column sums of the block's squares. -/
theorem out7_A_9_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out7_A_9 c i arg1 harg1 arg2 harg2 arg3 harg3 arg4 harg4 arg5 harg5 arg6 harg6 arg7 harg7 arg8 harg8 arg9 harg9 arg10 harg10 hc0 x0 x1 x2 x3 x4 x5 x6 = k7_pay2 (k7_pay5 x0 x1 x2 x3 x4 x5 x6) (k7_pay4 (F := F)) := by
  unfold out7_A_9
  rw [View.read_writes_eq_canon _ _ _ (cover7_A_9 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  sl_unfold_words
  rw [View.canon_cons_unit_zero (S := S1x256) hz7, View.readCov_unit_zero (S := S1x256) _ hz7]
  simp only [View.readAt_eq_ld, harg1.read_unread, harg2.read_unread, harg3.read_unread, harg4.read_unread, harg5.read_unread, harg6.read_unread, harg7.read_unread, harg9.read_unread, harg10.read_unread,
    View.ld_unit_zero (S := S2000x256) hz7, View.ld_unit_zero (S := S1x256) hz7, View.ld_unit_zero (S := S256x256) hz7]

/-- At any other point the block output's buffer ends at the one store's payload: the affine map of the normalised input block. -/
theorem out7_B_7_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out7_B_7 c i arg1 harg1 arg2 harg2 arg3 harg3 arg4 harg4 arg5 harg5 arg6 harg6 arg7 harg7 arg8 harg8 arg9 harg9 arg10 harg10 hc0 x0 x1 x2 x3 x4 x5 x6 xo8 xo9 = k7_pay5 x0 x1 x2 x3 x4 x5 x6 := by
  unfold out7_B_7
  rw [View.read_writes_eq_canon _ _ _ (cover7_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  sl_unfold_words
  rw [View.canon_unit_zero hz7]
  simp only [View.readAt_eq_ld, harg1.read_unread, harg2.read_unread, harg3.read_unread, harg4.read_unread, harg5.read_unread, harg6.read_unread, harg7.read_unread, harg9.read_unread, harg10.read_unread,
    View.ld_unit_zero (S := S2000x256) hz7, View.ld_unit_zero (S := S1x256) hz7, View.ld_unit_zero (S := S256x256) hz7]

/-- At any other point the first accumulator ends at what it held plus the block's column sums. -/
theorem out7_B_8_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out7_B_8 c i arg1 harg1 arg2 harg2 arg3 harg3 arg4 harg4 arg5 harg5 arg6 harg6 arg7 harg7 arg8 harg8 arg9 harg9 arg10 harg10 hc0 x0 x1 x2 x3 x4 x5 x6 xo8 xo9 = k7_pay1 (k7_pay5 x0 x1 x2 x3 x4 x5 x6) (k7_pay6 xo8) := by
  unfold out7_B_8
  rw [View.read_writes_eq_canon _ _ _ (cover7_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  sl_unfold_words
  rw [View.canon_unit_zero hz7]
  simp only [View.readAt_eq_ld, harg1.read_unread, harg2.read_unread, harg3.read_unread, harg4.read_unread, harg5.read_unread, harg6.read_unread, harg7.read_unread, harg9.read_unread, harg10.read_unread,
    View.ld_unit_zero (S := S2000x256) hz7, View.ld_unit_zero (S := S1x256) hz7, View.ld_unit_zero (S := S256x256) hz7]

/-- At any other point the second accumulator ends at what it held plus the column sums of the block's squares. -/
theorem out7_B_9_eq (c : Dev nD) (i : grid7.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond7_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out7_B_9 c i arg1 harg1 arg2 harg2 arg3 harg3 arg4 harg4 arg5 harg5 arg6 harg6 arg7 harg7 arg8 harg8 arg9 harg9 arg10 harg10 hc0 x0 x1 x2 x3 x4 x5 x6 xo8 xo9 = k7_pay2 (k7_pay5 x0 x1 x2 x3 x4 x5 x6) xo9 := by
  unfold out7_B_9
  rw [View.read_writes_eq_canon _ _ _ (cover7_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  sl_unfold_words
  rw [View.canon_unit_zero hz7]
  simp only [View.readAt_eq_ld, harg1.read_unread, harg2.read_unread, harg3.read_unread, harg4.read_unread, harg5.read_unread, harg6.read_unread, harg7.read_unread, harg9.read_unread, harg10.read_unread,
    View.ld_unit_zero (S := S2000x256) hz7, View.ld_unit_zero (S := S1x256) hz7, View.ld_unit_zero (S := S256x256) hz7]

end Pieces

/-! ## The region at the exact instance -/

variable (V : (c : Dev nD) → (b : Ref sig .tc) → Buf (Elt Ideal) ((c : Thread nD τ).loc b))

/-- The grid has 25 points: a point's number is below 25. -/
theorem pt_lt7 (t : Fin cfg7.N) : t.val < 25 := lt_of_lt_of_eq t.isLt N_7

/-- What the region computes into its block output: the affine map bn(u; μ, σ², γ, β) · W + b of its input arrays. -/
def aff7 (c : Dev nD) : Gin.Mat :=
  Gin.lin (Gin.bn (Gin.toMat (V c (Pipeline.arrRef spec7 0))) (Gin.toRow (V c (Pipeline.arrRef spec7 1))) (Gin.toRow (V c (Pipeline.arrRef spec7 2)))
      (Gin.toRow (V c (Pipeline.arrRef spec7 3))) (Gin.toRow (V c (Pipeline.arrRef spec7 4))))
    (Gin.toWt (V c (Pipeline.arrRef spec7 5))) (Gin.toRow (V c (Pipeline.arrRef spec7 6)))

/-! ## Where each window's block sits in its array -/

/-- The printed index maps, decided over the grid: the two row-blocked windows are at block `t`, every other window at block 0. -/
theorem idx7_0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)
theorem idx7_1 : ∀ t : Fin cfg7.N, win7_1.index t (0 : Fin 2) = 0 ∧ win7_1.index t (1 : Fin 2) = 0 :=
  (by decide +kernel : ∀ t : Fin grid7.N, win7_1.index t (0 : Fin 2) = 0 ∧ win7_1.index t (1 : Fin 2) = 0)
theorem idx7_2 : ∀ t : Fin cfg7.N, win7_2.index t (0 : Fin 2) = 0 ∧ win7_2.index t (1 : Fin 2) = 0 :=
  (by decide +kernel : ∀ t : Fin grid7.N, win7_2.index t (0 : Fin 2) = 0 ∧ win7_2.index t (1 : Fin 2) = 0)
theorem idx7_3 : ∀ t : Fin cfg7.N, win7_3.index t (0 : Fin 2) = 0 ∧ win7_3.index t (1 : Fin 2) = 0 :=
  (by decide +kernel : ∀ t : Fin grid7.N, win7_3.index t (0 : Fin 2) = 0 ∧ win7_3.index t (1 : Fin 2) = 0)
theorem idx7_4 : ∀ t : Fin cfg7.N, win7_4.index t (0 : Fin 2) = 0 ∧ win7_4.index t (1 : Fin 2) = 0 :=
  (by decide +kernel : ∀ t : Fin grid7.N, win7_4.index t (0 : Fin 2) = 0 ∧ win7_4.index t (1 : Fin 2) = 0)
theorem idx7_5 : ∀ t : Fin cfg7.N, win7_5.index t (0 : Fin 2) = 0 ∧ win7_5.index t (1 : Fin 2) = 0 :=
  (by decide +kernel : ∀ t : Fin grid7.N, win7_5.index t (0 : Fin 2) = 0 ∧ win7_5.index t (1 : Fin 2) = 0)
theorem idx7_6 : ∀ t : Fin cfg7.N, win7_6.index t (0 : Fin 2) = 0 ∧ win7_6.index t (1 : Fin 2) = 0 :=
  (by decide +kernel : ∀ t : Fin grid7.N, win7_6.index t (0 : Fin 2) = 0 ∧ win7_6.index t (1 : Fin 2) = 0)
theorem idx7_7 : ∀ t : Fin cfg7.N, win7_7.index t (0 : Fin 2) = t.val ∧ win7_7.index t (1 : Fin 2) = 0 :=
  (by decide +kernel : ∀ t : Fin grid7.N, win7_7.index t (0 : Fin 2) = t.val ∧ win7_7.index t (1 : Fin 2) = 0)
theorem idx7_8 : ∀ t : Fin cfg7.N, win7_8.index t (0 : Fin 2) = 0 ∧ win7_8.index t (1 : Fin 2) = 0 :=
  (by decide +kernel : ∀ t : Fin grid7.N, win7_8.index t (0 : Fin 2) = 0 ∧ win7_8.index t (1 : Fin 2) = 0)
theorem idx7_9 : ∀ t : Fin cfg7.N, win7_9.index t (0 : Fin 2) = 0 ∧ win7_9.index t (1 : Fin 2) = 0 :=
  (by decide +kernel : ∀ t : Fin grid7.N, win7_9.index t (0 : Fin 2) = 0 ∧ win7_9.index t (1 : Fin 2) = 0)

/-- Row `p` of block `t` of a row-blocked window is row `2000 t + p` of its array. -/
theorem emb7_0 (t : Fin cfg7.N) (p : Fin 2000) (q : Fin 256) :
    ((cfg7.win 0).blk t).view.emb (ix2 p q) = ix2 (⟨2000 * t.val + p.val, BlockSum.row_lt (pt_lt7 t) p⟩ : Fin 50000) q := by
  funext a; apply Fin.ext
  obtain ⟨e0, e1⟩ := idx7_0 t
  match a with
  | ⟨0, _⟩ => show win7_0.index t (0 : Fin 2) * 2000 + 1 * p.val = 2000 * t.val + p.val; rw [e0]; omega
  | ⟨1, _⟩ => show win7_0.index t (1 : Fin 2) * 256 + 1 * q.val = q.val; rw [e1]; omega
theorem emb7_7 (t : Fin cfg7.N) (p : Fin 2000) (q : Fin 256) :
    ((cfg7.win 7).blk t).view.emb (ix2 p q) = ix2 (⟨2000 * t.val + p.val, BlockSum.row_lt (pt_lt7 t) p⟩ : Fin 50000) q := by
  funext a; apply Fin.ext
  obtain ⟨e0, e1⟩ := idx7_7 t
  match a with
  | ⟨0, _⟩ => show win7_7.index t (0 : Fin 2) * 2000 + 1 * p.val = 2000 * t.val + p.val; rw [e0]; omega
  | ⟨1, _⟩ => show win7_7.index t (1 : Fin 2) * 256 + 1 * q.val = q.val; rw [e1]; omega
/-- The one block of a row window is its array. -/
theorem emb7_1 (t : Fin cfg7.N) (q : Fin 256) :
    ((cfg7.win 1).blk t).view.emb (ix2 (0 : Fin 1) q) = ix2 (0 : Fin 1) q := by
  funext a; apply Fin.ext
  obtain ⟨e0, e1⟩ := idx7_1 t
  match a with
  | ⟨0, _⟩ => show win7_1.index t (0 : Fin 2) * 1 + 1 * (0 : Fin 1).val = (0 : Fin 1).val; rw [e0]; omega
  | ⟨1, _⟩ => show win7_1.index t (1 : Fin 2) * 256 + 1 * q.val = q.val; rw [e1]; omega
theorem emb7_2 (t : Fin cfg7.N) (q : Fin 256) :
    ((cfg7.win 2).blk t).view.emb (ix2 (0 : Fin 1) q) = ix2 (0 : Fin 1) q := by
  funext a; apply Fin.ext
  obtain ⟨e0, e1⟩ := idx7_2 t
  match a with
  | ⟨0, _⟩ => show win7_2.index t (0 : Fin 2) * 1 + 1 * (0 : Fin 1).val = (0 : Fin 1).val; rw [e0]; omega
  | ⟨1, _⟩ => show win7_2.index t (1 : Fin 2) * 256 + 1 * q.val = q.val; rw [e1]; omega
theorem emb7_3 (t : Fin cfg7.N) (q : Fin 256) :
    ((cfg7.win 3).blk t).view.emb (ix2 (0 : Fin 1) q) = ix2 (0 : Fin 1) q := by
  funext a; apply Fin.ext
  obtain ⟨e0, e1⟩ := idx7_3 t
  match a with
  | ⟨0, _⟩ => show win7_3.index t (0 : Fin 2) * 1 + 1 * (0 : Fin 1).val = (0 : Fin 1).val; rw [e0]; omega
  | ⟨1, _⟩ => show win7_3.index t (1 : Fin 2) * 256 + 1 * q.val = q.val; rw [e1]; omega
theorem emb7_4 (t : Fin cfg7.N) (q : Fin 256) :
    ((cfg7.win 4).blk t).view.emb (ix2 (0 : Fin 1) q) = ix2 (0 : Fin 1) q := by
  funext a; apply Fin.ext
  obtain ⟨e0, e1⟩ := idx7_4 t
  match a with
  | ⟨0, _⟩ => show win7_4.index t (0 : Fin 2) * 1 + 1 * (0 : Fin 1).val = (0 : Fin 1).val; rw [e0]; omega
  | ⟨1, _⟩ => show win7_4.index t (1 : Fin 2) * 256 + 1 * q.val = q.val; rw [e1]; omega
theorem emb7_6 (t : Fin cfg7.N) (q : Fin 256) :
    ((cfg7.win 6).blk t).view.emb (ix2 (0 : Fin 1) q) = ix2 (0 : Fin 1) q := by
  funext a; apply Fin.ext
  obtain ⟨e0, e1⟩ := idx7_6 t
  match a with
  | ⟨0, _⟩ => show win7_6.index t (0 : Fin 2) * 1 + 1 * (0 : Fin 1).val = (0 : Fin 1).val; rw [e0]; omega
  | ⟨1, _⟩ => show win7_6.index t (1 : Fin 2) * 256 + 1 * q.val = q.val; rw [e1]; omega
theorem emb7_8 (t : Fin cfg7.N) (q : Fin 256) :
    ((cfg7.win 8).blk t).view.emb (ix2 (0 : Fin 1) q) = ix2 (0 : Fin 1) q := by
  funext a; apply Fin.ext
  obtain ⟨e0, e1⟩ := idx7_8 t
  match a with
  | ⟨0, _⟩ => show win7_8.index t (0 : Fin 2) * 1 + 1 * (0 : Fin 1).val = (0 : Fin 1).val; rw [e0]; omega
  | ⟨1, _⟩ => show win7_8.index t (1 : Fin 2) * 256 + 1 * q.val = q.val; rw [e1]; omega
theorem emb7_9 (t : Fin cfg7.N) (q : Fin 256) :
    ((cfg7.win 9).blk t).view.emb (ix2 (0 : Fin 1) q) = ix2 (0 : Fin 1) q := by
  funext a; apply Fin.ext
  obtain ⟨e0, e1⟩ := idx7_9 t
  match a with
  | ⟨0, _⟩ => show win7_9.index t (0 : Fin 2) * 1 + 1 * (0 : Fin 1).val = (0 : Fin 1).val; rw [e0]; omega
  | ⟨1, _⟩ => show win7_9.index t (1 : Fin 2) * 256 + 1 * q.val = q.val; rw [e1]; omega
/-- The one block of the weight window is its array. -/
theorem emb7_5 (t : Fin cfg7.N) (k : Fin 256) (q : Fin 256) :
    ((cfg7.win 5).blk t).view.emb (ix2 k q) = ix2 k q := by
  funext a; apply Fin.ext
  obtain ⟨e0, e1⟩ := idx7_5 t
  match a with
  | ⟨0, _⟩ => show win7_5.index t (0 : Fin 2) * 256 + 1 * k.val = k.val; rw [e0]; omega
  | ⟨1, _⟩ => show win7_5.index t (1 : Fin 2) * 256 + 1 * q.val = q.val; rw [e1]; omega

/-! ## The input blocks, entry by entry -/

theorem blk7_0_apply (c : Dev nD) (t : Fin cfg7.N) (p : Fin 2000) (k : Fin 256) :
    iblk7 V c 0 t (ix2 p k) = Gin.toMat (V c (Pipeline.arrRef spec7 0)) ⟨2000 * t.val + p.val, BlockSum.row_lt (pt_lt7 t) p⟩ k := by
  show V c (Pipeline.arrRef spec7 0) (((cfg7.win 0).blk t).view.emb (ix2 p k)) = _
  rw [emb7_0]
  rfl
theorem blk7_1_apply (c : Dev nD) (t : Fin cfg7.N) (k : Fin 256) :
    iblk7 V c 1 t (ix2 (0 : Fin 1) k) = Gin.toRow (V c (Pipeline.arrRef spec7 1)) k := by
  show V c (Pipeline.arrRef spec7 1) (((cfg7.win 1).blk t).view.emb (ix2 (0 : Fin 1) k)) = _
  rw [emb7_1]
  rfl
theorem blk7_2_apply (c : Dev nD) (t : Fin cfg7.N) (k : Fin 256) :
    iblk7 V c 2 t (ix2 (0 : Fin 1) k) = Gin.toRow (V c (Pipeline.arrRef spec7 2)) k := by
  show V c (Pipeline.arrRef spec7 2) (((cfg7.win 2).blk t).view.emb (ix2 (0 : Fin 1) k)) = _
  rw [emb7_2]
  rfl
theorem blk7_3_apply (c : Dev nD) (t : Fin cfg7.N) (k : Fin 256) :
    iblk7 V c 3 t (ix2 (0 : Fin 1) k) = Gin.toRow (V c (Pipeline.arrRef spec7 3)) k := by
  show V c (Pipeline.arrRef spec7 3) (((cfg7.win 3).blk t).view.emb (ix2 (0 : Fin 1) k)) = _
  rw [emb7_3]
  rfl
theorem blk7_4_apply (c : Dev nD) (t : Fin cfg7.N) (k : Fin 256) :
    iblk7 V c 4 t (ix2 (0 : Fin 1) k) = Gin.toRow (V c (Pipeline.arrRef spec7 4)) k := by
  show V c (Pipeline.arrRef spec7 4) (((cfg7.win 4).blk t).view.emb (ix2 (0 : Fin 1) k)) = _
  rw [emb7_4]
  rfl
theorem blk7_6_apply (c : Dev nD) (t : Fin cfg7.N) (k : Fin 256) :
    iblk7 V c 6 t (ix2 (0 : Fin 1) k) = Gin.toRow (V c (Pipeline.arrRef spec7 6)) k := by
  show V c (Pipeline.arrRef spec7 6) (((cfg7.win 6).blk t).view.emb (ix2 (0 : Fin 1) k)) = _
  rw [emb7_6]
  rfl
theorem blk7_5_apply (c : Dev nD) (t : Fin cfg7.N) (k : Fin 256) (q : Fin 256) :
    iblk7 V c 5 t (ix2 k q) = Gin.toWt (V c (Pipeline.arrRef spec7 5)) k q := by
  show V c (Pipeline.arrRef spec7 5) (((cfg7.win 5).blk t).view.emb (ix2 k q)) = _
  rw [emb7_5]
  rfl

/-- The body's block payload at the region's input blocks: row `p` of block `t` of the affine map. -/
theorem pay5_blocks7 (c : Dev nD) (t : Fin cfg7.N) (p : Fin 2000) (q : Fin 256) :
    k7_pay5 (F := Ideal) (iblk7 V c 0 t) (iblk7 V c 1 t) (iblk7 V c 2 t) (iblk7 V c 3 t) (iblk7 V c 4 t) (iblk7 V c 5 t) (iblk7 V c 6 t) (ix2 p q)
      = aff7 V c ⟨2000 * t.val + p.val, BlockSum.row_lt (pt_lt7 t) p⟩ q := by
  refine (PayVal.k7_pay5_apply (iblk7 V c 0 t) (iblk7 V c 1 t) (iblk7 V c 2 t) (iblk7 V c 3 t) (iblk7 V c 4 t) (iblk7 V c 5 t) (iblk7 V c 6 t) p q).trans ?_
  simp only [blk7_0_apply, blk7_1_apply, blk7_2_apply, blk7_3_apply, blk7_4_apply, blk7_5_apply, blk7_6_apply]
  rfl

/-! ## The block output -/

/-- The block output's array after the region: entry (r, j) of the affine map. -/
def G7_7 (c : Dev nD) : (⟨2, ![Gin.N, Gin.D]⟩ : Shape).Idx → EReal := fun i => aff7 V c (i 0) (i 1)

/-- What point `t` writes back of the block output is block `t` of it. -/
theorem flushed7_7_eq (c : Dev nD) (t : Fin cfg7.N) :
    (dat7 V c).flushed 7 t = ((cfg7.win 7).blk t).view.read (Elt Ideal) (G7_7 V c) := by
  show (cfg7.win 7).cut (grid7.coords t) ((dat7 V c).after 7 t) = _
  rw [after7_7]
  funext y
  obtain ⟨p, q, rfl⟩ : ∃ (p : Fin 2000) (q : Fin 256), y = ix2 p q := ⟨y 0, y 1, eq_ix2 (n0 := 2000) (n1 := 256) y⟩
  show (outsAt7 V c t.val t.isLt).1 (ix2 p q) = G7_7 V c (((cfg7.win 7).blk t).view.emb (ix2 p q))
  rw [emb7_7]
  show _ = aff7 V c ⟨2000 * t.val + p.val, BlockSum.row_lt (pt_lt7 t) p⟩ q
  by_cases h0 : t.val % 25 = 0
  · rw [outsAt7_A V c t h0]; dsimp only; rw [out7_A_7_eq]; exact pay5_blocks7 V c t p q
  · rw [outsAt7_B V c t h0]; dsimp only; rw [out7_B_7_eq]; exact pay5_blocks7 V c t p q

/-- The block output's array after the region, entry by entry. -/
theorem arr7_7_apply (c : Dev nD) (r : Fin 50000) (j : Fin 256) :
    Gin.toMat ((dat7 V c).arrAt 7 cfg7.N) r j = aff7 V c r j := by
  have ht : r.val / 2000 < cfg7.N := lt_of_lt_of_eq (BlockSum.block_of_row r).1 N_7.symm
  have h := Dat.arrAt_apply_of_mem (dat7 V c) 7 (G7_7 V c) (fun t _ => flushed7_7_eq V c t) cfg7.N ⟨r.val / 2000, ht⟩
    (((cfg7.win 7).blk ⟨r.val / 2000, ht⟩).view.emb (ix2 (BlockSum.posOf r) j)) ht (flush7_7 _) (View.emb_mem_set _ _)
  rw [emb7_7] at h
  have hrow : (⟨2000 * (⟨r.val / 2000, ht⟩ : Fin cfg7.N).val + (BlockSum.posOf r).val, BlockSum.row_lt (pt_lt7 ⟨r.val / 2000, ht⟩) (BlockSum.posOf r)⟩ : Fin 50000) = r :=
    Fin.ext (BlockSum.block_of_row r).2.2
  rw [hrow] at h
  exact h

/-- The affine output of the normalised input: bn(u; μ, σ², γ, β) · W + b. -/
theorem val7_7 (c : Dev nD) : Gin.toMat ((dat7 V c).arrAt 7 cfg7.N)
    = Gin.lin (Gin.bn (Gin.toMat (V c (Pipeline.arrRef spec7 0))) (Gin.toRow (V c (Pipeline.arrRef spec7 1))) (Gin.toRow (V c (Pipeline.arrRef spec7 2)))
          (Gin.toRow (V c (Pipeline.arrRef spec7 3))) (Gin.toRow (V c (Pipeline.arrRef spec7 4))))
        (Gin.toWt (V c (Pipeline.arrRef spec7 5))) (Gin.toRow (V c (Pipeline.arrRef spec7 6))) := by
  funext r j
  exact arr7_7_apply V c r j

/-! ## The two accumulators -/

/-- The last point of the grid, where the accumulators are written back. -/
abbrev tLast7 : Fin cfg7.N := ⟨24, lt_of_lt_of_eq (by decide : 24 < 25) N_7.symm⟩

/-- After point `n` the first accumulator holds, lane by lane, the column sums of the affine map over the rows of the blocks so far. -/
theorem acc7_8 (c : Dev nD) (q : Fin 256) : ∀ (n : ℕ) (h : n < cfg7.N),
    (outsAt7 V c n h).2.1 (ix2 (0 : Fin 1) q) = 0 + BlockSum.upTo (fun r => aff7 V c r q) (n + 1)
  | 0, h => by
    rw [outsAt7_A V c ⟨0, h⟩ rfl]
    dsimp only
    rw [out7_A_8_eq]
    refine (PayVal.k7_pay1_apply _ _ q).trans ?_
    rw [PayVal.k7_pay6_apply, PayVal.k7_pay3_apply, BlockSum.upTo_succ _ 0 (by omega), BlockSum.upTo_zero]
    simp only [zero_add]
    refine Finset.sum_congr rfl fun p _ => ?_
    rw [pay5_blocks7 V c ⟨0, h⟩ p q]
  | n + 1, h => by
    have hN : n + 1 < 25 := lt_of_lt_of_eq h N_7
    have hB : ¬(⟨n + 1, h⟩ : Fin cfg7.N).val % 25 = 0 := by dsimp only; omega
    rw [outsAt7_B V c ⟨n + 1, h⟩ hB]
    dsimp only
    rw [out7_B_8_eq]
    refine (PayVal.k7_pay1_apply _ _ q).trans ?_
    rw [PayVal.k7_pay6_apply]
    show (outsAt7 V c n _).2.1 (ix2 (0 : Fin 1) q) + _ = _
    rw [acc7_8 c q n, BlockSum.upTo_succ _ (n + 1) hN, ← add_assoc]
    refine congrArg (0 + BlockSum.upTo _ (n + 1) + ·) (Finset.sum_congr rfl fun p _ => ?_)
    rw [pay5_blocks7 V c ⟨n + 1, h⟩ p q]

/-- The accumulator's array after the region. -/
def G7_8 (c : Dev nD) : (⟨2, ![1, Gin.D]⟩ : Shape).Idx → EReal := fun i => 0 + ∑ r, (fun q => aff7 V c r q) (i 1)

/-- Its one write-back, at the last point, writes the whole sum. -/
theorem flushed7_8_eq (c : Dev nD) (t : Fin cfg7.N) (hf : (cfg7.win 8).flush t = true) :
    (dat7 V c).flushed 8 t = ((cfg7.win 8).blk t).view.read (Elt Ideal) (G7_8 V c) := by
  have h24 : t.val = 24 := by have := (flush7_8 t).mp hf; have := pt_lt7 t; omega
  show (cfg7.win 8).cut (grid7.coords t) ((dat7 V c).after 8 t) = _
  rw [after7_8]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt7 V c t.val t.isLt).2.1 (ix2 (0 : Fin 1) q) = G7_8 V c (((cfg7.win 8).blk t).view.emb (ix2 (0 : Fin 1) q))
  rw [emb7_8, acc7_8 V c q t.val t.isLt, h24, BlockSum.upTo_all]
  rfl

/-- The accumulator's array after the region, lane by lane. -/
theorem arr7_8_apply (c : Dev nD) (q : Fin 256) :
    Gin.toRow ((dat7 V c).arrAt 8 cfg7.N) q = ∑ r, aff7 V c r q := by
  have h := Dat.arrAt_apply_of_mem (dat7 V c) 8 (G7_8 V c) (fun t hf => flushed7_8_eq V c t hf) cfg7.N tLast7
    (((cfg7.win 8).blk tLast7).view.emb (ix2 (0 : Fin 1) q)) tLast7.isLt ((flush7_8 tLast7).mpr rfl) (View.emb_mem_set _ _)
  rw [emb7_8] at h
  exact h.trans (zero_add _ : (0 : EReal) + _ = _)

/-- After point `n` the second accumulator holds, lane by lane, the column sums of the affine map's squares over the rows of the blocks so far. -/
theorem acc7_9 (c : Dev nD) (q : Fin 256) : ∀ (n : ℕ) (h : n < cfg7.N),
    (outsAt7 V c n h).2.2 (ix2 (0 : Fin 1) q) = 0 + BlockSum.upTo (fun r => aff7 V c r q * aff7 V c r q) (n + 1)
  | 0, h => by
    rw [outsAt7_A V c ⟨0, h⟩ rfl]
    dsimp only
    rw [out7_A_9_eq]
    refine (PayVal.k7_pay2_apply _ _ q).trans ?_
    rw [PayVal.k7_pay4_apply, BlockSum.upTo_succ _ 0 (by omega), BlockSum.upTo_zero]
    simp only [zero_add]
    refine Finset.sum_congr rfl fun p _ => ?_
    rw [pay5_blocks7 V c ⟨0, h⟩ p q]
  | n + 1, h => by
    have hN : n + 1 < 25 := lt_of_lt_of_eq h N_7
    have hB : ¬(⟨n + 1, h⟩ : Fin cfg7.N).val % 25 = 0 := by dsimp only; omega
    rw [outsAt7_B V c ⟨n + 1, h⟩ hB]
    dsimp only
    rw [out7_B_9_eq]
    refine (PayVal.k7_pay2_apply _ _ q).trans ?_
    show (outsAt7 V c n _).2.2 (ix2 (0 : Fin 1) q) + _ = _
    rw [acc7_9 c q n, BlockSum.upTo_succ _ (n + 1) hN, ← add_assoc]
    refine congrArg (0 + BlockSum.upTo _ (n + 1) + ·) (Finset.sum_congr rfl fun p _ => ?_)
    rw [pay5_blocks7 V c ⟨n + 1, h⟩ p q]

/-- The accumulator's array after the region. -/
def G7_9 (c : Dev nD) : (⟨2, ![1, Gin.D]⟩ : Shape).Idx → EReal := fun i => 0 + ∑ r, (fun q => aff7 V c r q * aff7 V c r q) (i 1)

/-- Its one write-back, at the last point, writes the whole sum. -/
theorem flushed7_9_eq (c : Dev nD) (t : Fin cfg7.N) (hf : (cfg7.win 9).flush t = true) :
    (dat7 V c).flushed 9 t = ((cfg7.win 9).blk t).view.read (Elt Ideal) (G7_9 V c) := by
  have h24 : t.val = 24 := by have := (flush7_9 t).mp hf; have := pt_lt7 t; omega
  show (cfg7.win 9).cut (grid7.coords t) ((dat7 V c).after 9 t) = _
  rw [after7_9]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt7 V c t.val t.isLt).2.2 (ix2 (0 : Fin 1) q) = G7_9 V c (((cfg7.win 9).blk t).view.emb (ix2 (0 : Fin 1) q))
  rw [emb7_9, acc7_9 V c q t.val t.isLt, h24, BlockSum.upTo_all]
  rfl

/-- The accumulator's array after the region, lane by lane. -/
theorem arr7_9_apply (c : Dev nD) (q : Fin 256) :
    Gin.toRow ((dat7 V c).arrAt 9 cfg7.N) q = ∑ r, aff7 V c r q * aff7 V c r q := by
  have h := Dat.arrAt_apply_of_mem (dat7 V c) 9 (G7_9 V c) (fun t hf => flushed7_9_eq V c t hf) cfg7.N tLast7
    (((cfg7.win 9).blk tLast7).view.emb (ix2 (0 : Fin 1) q)) tLast7.isLt ((flush7_9 tLast7).mpr rfl) (View.emb_mem_set _ _)
  rw [emb7_9] at h
  exact h.trans (zero_add _ : (0 : EReal) + _ = _)

/-- Its column sums. -/
theorem val7_8 (c : Dev nD) : Gin.toRow ((dat7 V c).arrAt 8 cfg7.N) = Gin.colsum (Gin.toMat ((dat7 V c).arrAt 7 cfg7.N)) := by
  funext q
  show _ = ∑ r, Gin.toMat ((dat7 V c).arrAt 7 cfg7.N) r q
  exact (arr7_8_apply V c q).trans (Finset.sum_congr rfl fun r _ => (arr7_7_apply V c r q).symm)
/-- The column sums of its squares. -/
theorem val7_9 (c : Dev nD) : Gin.toRow ((dat7 V c).arrAt 9 cfg7.N)
    = Gin.colsum (fun r j => Gin.toMat ((dat7 V c).arrAt 7 cfg7.N) r j * Gin.toMat ((dat7 V c).arrAt 7 cfg7.N) r j) := by
  funext q
  show _ = ∑ r, Gin.toMat ((dat7 V c).arrAt 7 cfg7.N) r q * Gin.toMat ((dat7 V c).arrAt 7 cfg7.N) r q
  exact (arr7_9_apply V c q).trans (Finset.sum_congr rfl fun r _ => by rw [arr7_7_apply V c r q])

end Cert.KernelIdeal.Hand

end
-- ==== Proof.KI.Pay8.lean ====
/-
  One launch of the kernel that normalizes a block of rows and keeps a running row of column sums, read at an index at the
  ideal values: floats are extended reals, every operation is exact, and a change of float format is the identity. The
  generated skeleton states each value the body stores as one pure term of the values it loads, the payloads `k8_pay1`,
  `k8_pay2`, `k8_pay3`. Here each payload is read at an index as plain sums and products of extended reals.

  The body loads a block x of 2000 rows by 256 columns and four rows of 256 entries: the column means, the column
  variances, a scale and a shift.
    • `k8_pay2` at (p, q) is ((x[p, q] − mean[0, q]) · rsqrt(var[0, q] + ε)) · scale[0, q] + shift[0, q], with ε the binary32
      value nearest 1e-5 (the word 0x3727C5AC): the normalized block;
    • `k8_pay3` at (0, q) is s[0, q] + ∑ₚ `k8_pay2`[p, q]: the running row s plus the normalized block's column sums;
    • `k8_pay1` — the zero row the running row is reset to at the first grid point — is 0 at every column.
  The steps: the same-shape casts are the identity; a row broadcast over the block's rows reads its one row; the products,
  the sum and the difference read entrywise; the reduction over the rows is the sum over the row coordinate, and the index
  it inserts that coordinate into is (p, q); the cast of the 256 column sums to a one-row block reads the sum at its column.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-- A row of 256 entries laid over the 2000 rows of the block reads, at row p and column q, its entry q. (The body first
    casts the row to its own shape, which changes nothing.) -/
private theorem row_over_block (v : Vec Ideal S1x256 .f32) (p : Fin 2000) (q : Fin 256) :
    broadcastTo S2000x256 (shapeCast S1x256 v shapeCasts_S1x256_S1x256) broadcasts_S1x256_S2000x256 (ix2 p q)
      = v (ix2 0 q) := by
  rw [shapeCast_self]
  exact broadcastTo_1b_ab_apply v broadcasts_S1x256_S2000x256 p q

/-- The sum of a 2000 × 256 block over its rows reads, at column q, the sum over p of the block's entries (p, q): the
    index the reduction inserts coordinate p into is (p, q). -/
private theorem column_sum (src : FVec Ideal S2000x256 .f32) (hφ : FKind.Formats .f32)
    (hacc : (0x00000000#32 : BitVec 32) = FKind.add.neutral .f32 hφ) (q : Fin 256) :
    multiReduction (F := Ideal) .add [0] S256 src 0x00000000#32 reduces_S2000x256_S256 hφ hacc (ix1 q)
      = ∑ p : Fin 2000, src (ix2 p q) := by
  refine (Ideal.multiReduction_add_single src _ reduces_S2000x256_S256 hφ hacc (ix1 q)).trans ?_
  refine Finset.sum_congr rfl fun p _ => congrArg src ?_
  funext c
  apply Fin.ext
  match c with
  | ⟨0, _⟩ => rfl
  | ⟨1, _⟩ => rfl

/-- The running row's reset value is zero in every column. -/
theorem k8_pay1_apply (q : Fin 256) : k8_pay1 (F := Ideal) (ix2 0 q) = 0 := by
  unfold k8_pay1
  exact Ideal.ofBits_zero_f32

/-- The normalized block at row p and column q: subtract the column's mean, multiply by the reciprocal root of the column's
    variance plus ε, multiply by the column's scale, add the column's shift. -/
theorem k8_pay2_apply (v3 : Vec Ideal S2000x256 .f32) (v5 v9 v16 v20 : Vec Ideal S1x256 .f32) (p : Fin 2000) (q : Fin 256) :
    k8_pay2 (F := Ideal) v3 v5 v9 v16 v20 (ix2 p q)
      = (v3 (ix2 p q) - v5 (ix2 0 q)) * Ideal.rsqrt (v9 (ix2 0 q) + Ideal.ofBits .f32 0x3727C5AC#32) * v16 (ix2 0 q)
        + v20 (ix2 0 q) := by
  unfold k8_pay2
  simp only [addf_apply, mulf_apply, subf_apply]
  rw [row_over_block v5 p q, row_over_block v16 p q, row_over_block v20 p q, shapeCast_self, broadcastTo_1b_ab_apply,
    shapeCast_self]
  rfl

/-- The running row after the body, at column q: what it held plus the sum over the block's 2000 rows of the normalized
    block's entries in column q. -/
theorem k8_pay3_apply (v3 : Vec Ideal S2000x256 .f32) (v5 v9 v16 v20 v25 : Vec Ideal S1x256 .f32) (q : Fin 256) :
    k8_pay3 (F := Ideal) v3 v5 v9 v16 v20 v25 (ix2 0 q)
      = v25 (ix2 0 q) + ∑ p : Fin 2000, k8_pay2 (F := Ideal) v3 v5 v9 v16 v20 (ix2 p q) := by
  unfold k8_pay3
  simp only [addf_apply]
  rw [shapeCast_self, shapeCast_a_1a_apply]
  exact congrArg (v25 (ix2 0 q) + ·) (column_sum _ _ _ q)

end Cert.KernelIdeal.PayVal
-- ==== Proof.KI.R8Val.lean ====
/-
  What region 8 of the idealized kernel program leaves in its output arrays, at the exact instance, as functions of what it finds in its
  input arrays: the mathematics of the kernel body summed over the grid.

  The normalized block of a point is the normalization of that point's block of rows, so the array of normalized rows, written
  back block by block, is the normalization of the whole array of rows. The running row after a point is the sum of the normalized
  rows of all blocks up to that point (the first point starts from the zero row), so what the last point writes back is the sum
  over all rows.
-/
import proofs.«102822_j3521873183180_1_alg».proof.Proof.KI.R8
import proofs.«102822_j3521873183180_1_alg».proof.Proof.KI.Pay8
import proofs.«102822_j3521873183180_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat)
open scoped BigOperators

section Pieces
variable {F : FTy → Type} [FloatOps F]

/-- The offsets of every load and store of the body: zero on both axes (each is of a whole buffer). -/
theorem zeros8 : (![0, 0] : Fin 2 → Nat) = fun _ => 0 := funext fun a => by fin_cases a <;> rfl

/-! ## Each case's stores, read as values -/

/-- The first point leaves in the normalized block's buffer the normalization of the input blocks (its one whole-block store). -/
theorem rowsFirst8_eq (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) :
    rowsFirst8 c i arg1 harg1 arg2 harg2 arg3 harg3 arg4 harg4 arg5 harg5 arg6 harg6 arg7 harg7 hc u mean var gain shift = k8_pay2 u mean var gain shift := by
  unfold rowsFirst8
  unfold runFirst8
  dsimp only
  sl_unfold_words
  rw [View.canon_unit_zero zeros8]
  simp only [View.readAt_eq_ld, harg1.read_unread, harg2.read_unread, harg3.read_unread, harg4.read_unread, harg5.read_unread, harg7.read_unread,
    View.ld_unit_zero (S := S2000x256) zeros8, View.ld_unit_zero (S := S1x256) zeros8, View.readCov_unit_zero (S := S1x256) _ zeros8]

/-- The first point leaves in the running row's buffer the reset row plus the block's column sums: the last store covers the row,
    and the row it adds to is the reset row read back. -/
theorem sumsFirst8_eq (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst8 i)
    (u : Vec F S2000x256 .f32) (mean : Vec F S1x256 .f32) (var : Vec F S1x256 .f32) (gain : Vec F S1x256 .f32) (shift : Vec F S1x256 .f32) :
    sumsFirst8 c i arg1 harg1 arg2 harg2 arg3 harg3 arg4 harg4 arg5 harg5 arg6 harg6 arg7 harg7 hc u mean var gain shift = k8_pay3 u mean var gain shift (k8_pay1 (F := F)) := by
  unfold sumsFirst8
  unfold runFirst8
  dsimp only
  sl_unfold_words
  rw [View.canon_cons_unit_zero (S := S1x256) zeros8]
  simp only [View.readAt_eq_ld, harg1.read_unread, harg2.read_unread, harg3.read_unread, harg4.read_unread, harg5.read_unread, harg7.read_unread,
    View.ld_unit_zero (S := S2000x256) zeros8, View.ld_unit_zero (S := S1x256) zeros8, View.readCov_unit_zero (S := S1x256) _ zeros8]

/-- A later point leaves in the normalized block's buffer the normalization of the input blocks. -/
theorem rowsLater8_eq (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) :
    rowsLater8 c i arg1 harg1 arg2 harg2 arg3 harg3 arg4 harg4 arg5 harg5 arg6 harg6 arg7 harg7 hc u mean var gain shift acc = k8_pay2 u mean var gain shift := by
  unfold rowsLater8
  unfold runLater8
  dsimp only
  sl_unfold_words
  rw [View.canon_unit_zero zeros8]
  simp only [View.readAt_eq_ld, harg1.read_unread, harg2.read_unread, harg3.read_unread, harg4.read_unread, harg5.read_unread, harg7.read_unread,
    View.ld_unit_zero (S := S2000x256) zeros8, View.ld_unit_zero (S := S1x256) zeros8, View.readCov_unit_zero (S := S1x256) _ zeros8]

/-- A later point leaves in the running row's buffer the row it found plus the block's column sums. -/
theorem sumsLater8_eq (c : Dev nD) (i : grid8.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst8 i)
    (u : Vec F S2000x256 .f32) (mean : Vec F S1x256 .f32) (var : Vec F S1x256 .f32) (gain : Vec F S1x256 .f32) (shift : Vec F S1x256 .f32) (acc : Vec F S1x256 .f32) :
    sumsLater8 c i arg1 harg1 arg2 harg2 arg3 harg3 arg4 harg4 arg5 harg5 arg6 harg6 arg7 harg7 hc u mean var gain shift acc = k8_pay3 u mean var gain shift acc := by
  unfold sumsLater8
  unfold runLater8
  dsimp only
  sl_unfold_words
  rw [View.canon_unit_zero zeros8]
  simp only [View.readAt_eq_ld, harg1.read_unread, harg2.read_unread, harg3.read_unread, harg4.read_unread, harg5.read_unread, harg7.read_unread,
    View.ld_unit_zero (S := S2000x256) zeros8, View.ld_unit_zero (S := S1x256) zeros8, View.readCov_unit_zero (S := S1x256) _ zeros8]

end Pieces

variable (V : (c : Dev nD) → (b : Ref sig .tc) → Buf (Elt Ideal) ((c : Thread nD τ).loc b))

/-! ## The same at a grid point, over the point's input blocks -/

/-- The input blocks of point `t` at their literal types: the block of rows, and the mean, variance, gain and shift rows. -/
abbrev rowsIn8 (c : Dev nD) (t : Fin cfg8.N) : Vec Ideal S2000x256 .f32 := iblk8 V c 0 t
abbrev meanIn8 (c : Dev nD) (t : Fin cfg8.N) : Vec Ideal S1x256 .f32 := iblk8 V c 1 t
abbrev varIn8 (c : Dev nD) (t : Fin cfg8.N) : Vec Ideal S1x256 .f32 := iblk8 V c 2 t
abbrev gainIn8 (c : Dev nD) (t : Fin cfg8.N) : Vec Ideal S1x256 .f32 := iblk8 V c 3 t
abbrev shiftIn8 (c : Dev nD) (t : Fin cfg8.N) : Vec Ideal S1x256 .f32 := iblk8 V c 4 t

/-- The normalized block after any point is the normalization of that point's input blocks (the same in both cases). -/
theorem rowsAt8_eq (c : Dev nD) (t : Fin cfg8.N) :
    rowsAt8 V c t = k8_pay2 (rowsIn8 V c t) (meanIn8 V c t) (varIn8 V c t) (gainIn8 V c t) (shiftIn8 V c t) := by
  by_cases h0 : t.val % 25 = 0
  · rw [rowsAt8_first V c t h0]
    unfold rowsFirstAt8
    exact rowsFirst8_eq c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) ((atFirst8_iff t).mpr h0) (iblk8 V c 0 t) (iblk8 V c 1 t) (iblk8 V c 2 t) (iblk8 V c 3 t) (iblk8 V c 4 t)
  · rw [rowsAt8_later V c t h0]
    unfold rowsLaterAt8
    exact rowsLater8_eq c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) (fun h => h0 ((atFirst8_iff t).mp h)) (iblk8 V c 0 t) (iblk8 V c 1 t) (iblk8 V c 2 t) (iblk8 V c 3 t) (iblk8 V c 4 t) (sumsBefore8 V c t)

/-- The running row after the first point: the reset row plus the first block's column sums. -/
theorem sumsAt8_reset (c : Dev nD) (t : Fin cfg8.N) (h0 : t.val % 25 = 0) :
    sumsAt8 V c t.val t.isLt = k8_pay3 (rowsIn8 V c t) (meanIn8 V c t) (varIn8 V c t) (gainIn8 V c t) (shiftIn8 V c t) (k8_pay1 (F := Ideal)) := by
  rw [sumsAt8_first V c t h0]
  unfold sumsFirstAt8
  exact sumsFirst8_eq c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) ((atFirst8_iff t).mpr h0) (iblk8 V c 0 t) (iblk8 V c 1 t) (iblk8 V c 2 t) (iblk8 V c 3 t) (iblk8 V c 4 t)

/-- The running row after a later point: the row after the point before plus this block's column sums. -/
theorem sumsAt8_step (c : Dev nD) (t : Fin cfg8.N) (h0 : ¬t.val % 25 = 0) :
    sumsAt8 V c t.val t.isLt = k8_pay3 (rowsIn8 V c t) (meanIn8 V c t) (varIn8 V c t) (gainIn8 V c t) (shiftIn8 V c t) (sumsBefore8 V c t) := by
  rw [sumsAt8_later V c t h0]
  unfold sumsLaterAt8
  exact sumsLater8_eq c (grid8.coords t) (stg8_0 t) (stgWhole8_0 t) (stg8_1 t) (stgWhole8_1 t) (stg8_2 t) (stgWhole8_2 t) (stg8_3 t) (stgWhole8_3 t) (stg8_4 t) (stgWhole8_4 t) (stg8_5 t) (stgWhole8_5 t) (stg8_6 t) (stgWhole8_6 t) (fun h => h0 ((atFirst8_iff t).mp h)) (iblk8 V c 0 t) (iblk8 V c 1 t) (iblk8 V c 2 t) (iblk8 V c 3 t) (iblk8 V c 4 t) (sumsBefore8 V c t)

/-! ## Where a block's elements sit in its array -/

/-- The block index of each window at each point, decided over the grid: the blocks of rows (windows 0 and 5) move down with the
    point; the rows (windows 1 to 4 and 6) stay. -/
theorem blockIndex8 : ∀ t : Fin cfg8.N,
    win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_6.index t (0 : Fin 2) = 0 ∧ win8_6.index t (1 : Fin 2) = 0 :=
  (by decide +kernel : ∀ t : Fin grid8.N, _)

theorem point_lt8 (t : Fin cfg8.N) : t.val < 25 := lt_of_lt_of_eq t.isLt (show cfg8.N = 25 from N_8)

/-- Row `r` of point `t`'s block is row `2000 t + r` of the array. -/
def rowOf8 (t : Fin cfg8.N) (r : Fin 2000) : Fin 50000 :=
  ⟨2000 * t.val + r.val, by have := point_lt8 t; have := r.isLt; omega⟩

/-- The arrays the region reads, as it finds them, at their literal types. -/
abbrev rowsArr8 (c : Dev nD) : Vec Ideal S50000x256 .f32 := V c (Pipeline.arrRef spec8 0)
abbrev meanArr8 (c : Dev nD) : Vec Ideal S1x256 .f32 := V c (Pipeline.arrRef spec8 1)
abbrev varArr8 (c : Dev nD) : Vec Ideal S1x256 .f32 := V c (Pipeline.arrRef spec8 2)
abbrev gainArr8 (c : Dev nD) : Vec Ideal S1x256 .f32 := V c (Pipeline.arrRef spec8 3)
abbrev shiftArr8 (c : Dev nD) : Vec Ideal S1x256 .f32 := V c (Pipeline.arrRef spec8 4)

/-- An element of point `t`'s block of rows is the array's element in row `2000 t + r`. -/
theorem rowsIn8_apply (c : Dev nD) (t : Fin cfg8.N) (r : Fin 2000) (j : Fin 256) :
    rowsIn8 V c t (ix2 r j) = rowsArr8 V c (ix2 (rowOf8 t r) j) := by
  obtain ⟨e0, e1, -⟩ := blockIndex8 t
  unfold rowsIn8 iblk8
  rw [View.read_apply]
  show V c (Pipeline.arrRef spec8 0) _ = V c (Pipeline.arrRef spec8 0) _
  congr 1
  funext a
  apply Fin.ext
  match a with
  | ⟨0, _⟩ => show win8_0.index t (0 : Fin 2) * 2000 + 1 * r.val = 2000 * t.val + r.val; omega
  | ⟨1, _⟩ => show win8_0.index t (1 : Fin 2) * 256 + 1 * j.val = j.val; omega

/-- The mean row's block at any point is the whole row. -/
theorem meanIn8_apply (c : Dev nD) (t : Fin cfg8.N) (j : Fin 256) :
    meanIn8 V c t (ix2 0 j) = meanArr8 V c (ix2 0 j) := by
  have e := blockIndex8 t
  unfold meanIn8 iblk8
  rw [View.read_apply]
  show V c (Pipeline.arrRef spec8 1) _ = V c (Pipeline.arrRef spec8 1) _
  congr 1
  funext a
  apply Fin.ext
  match a with
  | ⟨0, _⟩ => show win8_1.index t (0 : Fin 2) * 1 + 1 * 0 = 0; omega
  | ⟨1, _⟩ => show win8_1.index t (1 : Fin 2) * 256 + 1 * j.val = j.val; omega

/-- The var row's block at any point is the whole row. -/
theorem varIn8_apply (c : Dev nD) (t : Fin cfg8.N) (j : Fin 256) :
    varIn8 V c t (ix2 0 j) = varArr8 V c (ix2 0 j) := by
  have e := blockIndex8 t
  unfold varIn8 iblk8
  rw [View.read_apply]
  show V c (Pipeline.arrRef spec8 2) _ = V c (Pipeline.arrRef spec8 2) _
  congr 1
  funext a
  apply Fin.ext
  match a with
  | ⟨0, _⟩ => show win8_2.index t (0 : Fin 2) * 1 + 1 * 0 = 0; omega
  | ⟨1, _⟩ => show win8_2.index t (1 : Fin 2) * 256 + 1 * j.val = j.val; omega

/-- The gain row's block at any point is the whole row. -/
theorem gainIn8_apply (c : Dev nD) (t : Fin cfg8.N) (j : Fin 256) :
    gainIn8 V c t (ix2 0 j) = gainArr8 V c (ix2 0 j) := by
  have e := blockIndex8 t
  unfold gainIn8 iblk8
  rw [View.read_apply]
  show V c (Pipeline.arrRef spec8 3) _ = V c (Pipeline.arrRef spec8 3) _
  congr 1
  funext a
  apply Fin.ext
  match a with
  | ⟨0, _⟩ => show win8_3.index t (0 : Fin 2) * 1 + 1 * 0 = 0; omega
  | ⟨1, _⟩ => show win8_3.index t (1 : Fin 2) * 256 + 1 * j.val = j.val; omega

/-- The shift row's block at any point is the whole row. -/
theorem shiftIn8_apply (c : Dev nD) (t : Fin cfg8.N) (j : Fin 256) :
    shiftIn8 V c t (ix2 0 j) = shiftArr8 V c (ix2 0 j) := by
  have e := blockIndex8 t
  unfold shiftIn8 iblk8
  rw [View.read_apply]
  show V c (Pipeline.arrRef spec8 4) _ = V c (Pipeline.arrRef spec8 4) _
  congr 1
  funext a
  apply Fin.ext
  match a with
  | ⟨0, _⟩ => show win8_4.index t (0 : Fin 2) * 1 + 1 * 0 = 0; omega
  | ⟨1, _⟩ => show win8_4.index t (1 : Fin 2) * 256 + 1 * j.val = j.val; omega

/-! ## The array of normalized rows -/

/-- The normalization of the whole array of rows by the mean, variance, gain and shift rows, as a matrix -/
abbrev hnewMat8 (c : Dev nD) : Gin.Mat :=
  Gin.bn (Gin.toMat (rowsArr8 V c)) (Gin.toRow (meanArr8 V c)) (Gin.toRow (varArr8 V c)) (Gin.toRow (gainArr8 V c)) (Gin.toRow (shiftArr8 V c))

/-- and as contents of the output array. -/
def hnewArr8 (c : Dev nD) : Vec Ideal S50000x256 .f32 := fun i => hnewMat8 V c (i 0) (i 1)

/-- An element of the block the body computes at point `t` is the normalized matrix's element in row `2000 t + r`. -/
theorem normalized8_apply (c : Dev nD) (t : Fin cfg8.N) (r : Fin 2000) (j : Fin 256) :
    k8_pay2 (rowsIn8 V c t) (meanIn8 V c t) (varIn8 V c t) (gainIn8 V c t) (shiftIn8 V c t) (ix2 r j) = hnewMat8 V c (rowOf8 t r) j := by
  rw [PayVal.k8_pay2_apply, rowsIn8_apply, meanIn8_apply, varIn8_apply, gainIn8_apply, shiftIn8_apply]
  rfl

/-- Where an element of point `t`'s output block sits in the output array: row `2000 t + r`, the same column. -/
theorem emb8_5 (t : Fin cfg8.N) (r : Fin 2000) (j : Fin 256) :
    ((cfg8.win 5).blk t).view.emb (ix2 r j) = ix2 (rowOf8 t r) j := by
  obtain ⟨-, -, e0, e1, -⟩ := blockIndex8 t
  funext a
  apply Fin.ext
  match a with
  | ⟨0, _⟩ => show win8_5.index t (0 : Fin 2) * 2000 + 1 * r.val = 2000 * t.val + r.val; omega
  | ⟨1, _⟩ => show win8_5.index t (1 : Fin 2) * 256 + 1 * j.val = j.val; omega

/-- WHAT POINT `t` WRITES BACK is block `t` of the array of normalized rows. -/
theorem flushed8_5 (c : Dev nD) (t : Fin cfg8.N) :
    (dat8 V c).flushed 5 t = ((cfg8.win 5).blk t).view.read (Elt Ideal) (hnewArr8 V c) := by
  show (cfg8.win 5).cut (grid8.coords t) ((dat8 V c).after 5 t) = _
  rw [after8_5, rowsAt8_eq]
  funext y
  obtain ⟨r, j, rfl⟩ : ∃ (r : Fin 2000) (j : Fin 256), y = ix2 r j := ⟨y 0, y 1, eq_ix2 y⟩
  rw [View.read_apply, emb8_5]
  exact normalized8_apply V c t r j

/-- An index of the output array is in point `t`'s block iff each coordinate is in the block's range on its axis. -/
theorem mem_blk8_5 (t : Fin cfg8.N) (i : S50000x256.Idx) :
    i ∈ ((cfg8.win 5).blk t).view.set ↔ ∀ a : Fin 2, win8_5.index t a * S2000x256.size a ≤ (i a).val ∧ (i a).val < win8_5.index t a * S2000x256.size a + S2000x256.size a := by
  show i ∈ ((View.whole (Pipeline.arrRef spec8 5)).slice (win8_5.rect t)).set ↔ _
  rw [View.set_slice_whole, Rect.mem_set_unit]
  exact Iff.rfl

/-- Every row of the output array is in the block of the point that row falls in, and every point writes its block back. -/
theorem cover8_5 (i : S50000x256.Idx) : ∃ t : Fin cfg8.N, (cfg8.win 5).flush t = true ∧ i ∈ ((cfg8.win 5).blk t).view.set := by
  have hi0 : (i 0).val < 50000 := (i 0).isLt
  have hi1 : (i 1).val < 256 := (i 1).isLt
  have hq : (i 0).val / 2000 < cfg8.N := by rw [show cfg8.N = 25 from N_8]; omega
  refine ⟨⟨(i 0).val / 2000, hq⟩, flush8_5 _, ?_⟩
  rw [mem_blk8_5]
  obtain ⟨-, -, e0, e1, -⟩ := blockIndex8 ⟨(i 0).val / 2000, hq⟩
  intro a
  match a with
  | ⟨0, _⟩ =>
    show win8_5.index ⟨(i 0).val / 2000, hq⟩ (0 : Fin 2) * 2000 ≤ (i 0).val ∧ (i 0).val < win8_5.index ⟨(i 0).val / 2000, hq⟩ (0 : Fin 2) * 2000 + 2000
    rw [e0]; dsimp only; omega
  | ⟨1, _⟩ =>
    show win8_5.index ⟨(i 0).val / 2000, hq⟩ (1 : Fin 2) * 256 ≤ (i 1).val ∧ (i 1).val < win8_5.index ⟨(i 0).val / 2000, hq⟩ (1 : Fin 2) * 256 + 256
    rw [e1]; omega

/-- So the output array ends holding the normalized rows. -/
theorem hnewFinal8 (c : Dev nD) : (dat8 V c).arrAt 5 cfg8.N = hnewArr8 V c :=
  (dat8 V c).arrAt_eq_of_cover 5 (hnewArr8 V c) (fun t _ => flushed8_5 V c t) cover8_5

/-- The normalised output: bn(u; μ, σ², γ, β). -/
theorem val8_5 (c : Dev nD) : Gin.toMat ((dat8 V c).arrAt 5 cfg8.N)
    = Gin.bn (Gin.toMat (V c (Pipeline.arrRef spec8 0))) (Gin.toRow (V c (Pipeline.arrRef spec8 1))) (Gin.toRow (V c (Pipeline.arrRef spec8 2)))
        (Gin.toRow (V c (Pipeline.arrRef spec8 3))) (Gin.toRow (V c (Pipeline.arrRef spec8 4))) := by
  rw [hnewFinal8]
  rfl

/-! ## The running row: the sum of the normalized rows so far -/

/-- Row `k` of the normalized matrix at column `j` (zero past the last row): the summand of the running sums. -/
def term8 (c : Dev nD) (j : Fin 256) (k : ℕ) : EReal := if h : k < 50000 then hnewMat8 V c ⟨k, h⟩ j else 0

/-- The column sums of the block the body computes at point `t`: the summands of rows `2000 t` to `2000 t + 1999`. -/
theorem blockSum8 (c : Dev nD) (t : Fin cfg8.N) (j : Fin 256) :
    (∑ r : Fin 2000, k8_pay2 (rowsIn8 V c t) (meanIn8 V c t) (varIn8 V c t) (gainIn8 V c t) (shiftIn8 V c t) (ix2 r j))
      = ∑ x ∈ Finset.range 2000, term8 V c j (2000 * t.val + x) := by
  rw [Finset.sum_range]
  refine Finset.sum_congr rfl fun r _ => ?_
  have ht := point_lt8 t
  have hr := r.isLt
  unfold term8
  rw [dif_pos (by omega)]
  exact normalized8_apply V c t r j

/-- THE INVARIANT: after the body at position `n` the running row holds, column by column, the sum of the normalized rows of the
    blocks up to `n`, by induction on the position. -/
theorem sumsAt8_sum (c : Dev nD) : ∀ (n : ℕ) (hn : n < cfg8.N) (j : Fin 256),
    sumsAt8 V c n hn (ix2 0 j) = ∑ k ∈ Finset.range (2000 * (n + 1)), term8 V c j k
  | 0, hn, j => by
    have h := congrFun (sumsAt8_reset V c ⟨0, hn⟩ (Nat.zero_mod _)) (ix2 0 j)
    refine h.trans ?_
    rw [PayVal.k8_pay3_apply, PayVal.k8_pay1_apply, zero_add, blockSum8]
    refine Finset.sum_congr rfl fun x _ => ?_
    show term8 V c j (2000 * 0 + x) = term8 V c j x
    rw [Nat.mul_zero, Nat.zero_add]
  | n + 1, hn, j => by
    have hN : n + 1 < 25 := lt_of_lt_of_eq hn (show cfg8.N = 25 from N_8)
    have hB : ¬(⟨n + 1, hn⟩ : Fin cfg8.N).val % 25 = 0 := by dsimp only; omega
    have h := congrFun (sumsAt8_step V c ⟨n + 1, hn⟩ hB) (ix2 0 j)
    refine h.trans ?_
    rw [PayVal.k8_pay3_apply, blockSum8]
    show sumsAt8 V c n _ (ix2 0 j) + _ = _
    rw [sumsAt8_sum c n _ j, show 2000 * (n + 1 + 1) = 2000 * (n + 1) + 2000 from by omega, Finset.sum_range_add]

/-- The last point of the grid, the one that writes the running row back. -/
def lastPoint8 : Fin cfg8.N := ⟨24, by rw [show cfg8.N = 25 from N_8]; decide⟩

/-- The running row after the last point, as contents of its array. -/
def sumsArr8 (c : Dev nD) : Vec Ideal S1x256 .f32 := sumsAt8 V c lastPoint8.val lastPoint8.isLt

/-- An element of the running row's block sits at the same place in its array: the block is the whole array. -/
theorem emb8_6 (t : Fin cfg8.N) (y : S1x256.Idx) : ((cfg8.win 6).blk t).view.emb y = y := by
  have e := blockIndex8 t
  funext a
  apply Fin.ext
  match a with
  | ⟨0, _⟩ => show win8_6.index t (0 : Fin 2) * 1 + 1 * (y 0).val = (y 0).val; omega
  | ⟨1, _⟩ => show win8_6.index t (1 : Fin 2) * 256 + 1 * (y 1).val = (y 1).val; omega

/-- The one write-back of the running row, at the last point, writes the row that point leaves. -/
theorem flushed8_6 (c : Dev nD) (t : Fin cfg8.N) (hf : (cfg8.win 6).flush t = true) :
    (dat8 V c).flushed 6 t = ((cfg8.win 6).blk t).view.read (Elt Ideal) (sumsArr8 V c) := by
  have h24 : t.val = 24 := by have := (flush8_6 t).mp hf; have := point_lt8 t; omega
  obtain rfl : t = lastPoint8 := Fin.ext h24
  show (cfg8.win 6).cut (grid8.coords lastPoint8) ((dat8 V c).after 6 lastPoint8) = _
  rw [after8_6]
  funext y
  rw [View.read_apply, emb8_6]
  rfl

/-- Every index of the running row's array is in the last point's block. -/
theorem cover8_6 (i : S1x256.Idx) : ∃ t : Fin cfg8.N, (cfg8.win 6).flush t = true ∧ i ∈ ((cfg8.win 6).blk t).view.set := by
  refine ⟨lastPoint8, (flush8_6 lastPoint8).mpr rfl, ?_⟩
  have e := blockIndex8 lastPoint8
  have hi0 : (i 0).val < 1 := (i 0).isLt
  have hi1 : (i 1).val < 256 := (i 1).isLt
  show i ∈ ((View.whole (Pipeline.arrRef spec8 6)).slice (win8_6.rect lastPoint8)).set
  rw [View.set_slice_whole, Rect.mem_set_unit]
  intro a
  match a with
  | ⟨0, _⟩ =>
    show win8_6.index lastPoint8 (0 : Fin 2) * 1 ≤ (i 0).val ∧ (i 0).val < win8_6.index lastPoint8 (0 : Fin 2) * 1 + 1
    omega
  | ⟨1, _⟩ =>
    show win8_6.index lastPoint8 (1 : Fin 2) * 256 ≤ (i 1).val ∧ (i 1).val < win8_6.index lastPoint8 (1 : Fin 2) * 256 + 256
    omega

/-- So the running row's array ends holding the row the last point leaves. -/
theorem sumsFinal8 (c : Dev nD) : (dat8 V c).arrAt 6 cfg8.N = sumsArr8 V c :=
  (dat8 V c).arrAt_eq_of_cover 6 (sumsArr8 V c) (flushed8_6 V c) cover8_6

/-- Its column sums: the layer's readout. -/
theorem val8_6 (c : Dev nD) : Gin.toRow ((dat8 V c).arrAt 6 cfg8.N) = Gin.colsum (Gin.toMat ((dat8 V c).arrAt 5 cfg8.N)) := by
  rw [sumsFinal8, hnewFinal8]
  funext j
  show sumsAt8 V c lastPoint8.val lastPoint8.isLt (ix2 0 j) = ∑ r : Fin 50000, hnewArr8 V c (ix2 r j)
  rw [sumsAt8_sum V c lastPoint8.val lastPoint8.isLt j, show 2000 * (lastPoint8.val + 1) = 50000 from rfl, Finset.sum_range]
  refine Finset.sum_congr rfl fun r _ => ?_
  unfold term8
  rw [dif_pos r.isLt]
  rfl

end Cert.KernelIdeal.Hand

end
-- ==== Proof.KI.Chain2.lean ====
/-
  Layer 2 of the idealized kernel program, against the specification: the same three regions as the first layer, each
  entered through its stretch of host operations, from the features the layer before left. The first stretch aggregates
  those features along the edges (the two rows of the edge list read back as the program's first stretch left them) and
  cuts the layer's first weight and bias; the first region leaves the first affine output with its column sums and
  column sums of squares; the second stretch and region do the same through the first batch normalisation and the
  second affine map; the third stretch and region leave the layer's result and its column sums, the layer's readout.
-/
import proofs.«102822_j3521873183180_1_alg».proof.Proof.KI.Chain1
import proofs.«102822_j3521873183180_1_alg».proof.Proof.KI.HostVal.S6
import proofs.«102822_j3521873183180_1_alg».proof.Proof.KI.HostVal.S7
import proofs.«102822_j3521873183180_1_alg».proof.Proof.KI.HostVal.S8
import proofs.«102822_j3521873183180_1_alg».proof.Proof.KI.R6Val
import proofs.«102822_j3521873183180_1_alg».proof.Proof.KI.R7Val
import proofs.«102822_j3521873183180_1_alg».proof.Proof.KI.R8Val

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg) (c : Dev nD)

/-! ## Layer 2, first region: the first affine output -/

/-- What region 6 finds: the features the layer before left, their aggregate, the first weight and the first bias of layer 2. -/
theorem l2_in_h : Gin.toMat (V13 m ρ c (Pipeline.arrRef spec6 0)) = feat m c 2 :=
  (congrArg Gin.toMat (StableHlo.after_of_writes_sub (r := main_v102_0) hostOps6 (W12 m ρ c) hostOps6_writes (by decide))).trans (layer1_feat m ρ c)
theorem l2_in_a : Gin.toMat (V13 m ρ c (Pipeline.arrRef spec6 1)) = aggr m c 2 :=
  (HostVal.hostOps6_main_v113_spec (W12 m ρ c)).trans (by
    rw [layer1_feat m ρ c, src_at m ρ c (W12_edge m ρ c main_v1 edgeKept_main_v1),
      dst_at m ρ c (W12_edge m ρ c main_v3 edgeKept_main_v3)])
theorem l2_in_W1 : Gin.toWt (V13 m ρ c (Pipeline.arrRef spec6 2)) = (inP m c 2).W1 :=
  (HostVal.hostOps6_main_v116_spec (W12 m ρ c)).trans (congrArg (Gin.layerWt (2 : Fin 5)) (W12_param m ρ c main_arg2 untouched_main_arg2))
theorem l2_in_b1 : Gin.toRow (V13 m ρ c (Pipeline.arrRef spec6 3)) = (inP m c 2).b1 :=
  (HostVal.hostOps6_main_v119_spec (W12 m ρ c)).trans (congrArg (Gin.layerRow (2 : Fin 5)) (W12_param m ρ c main_arg3 untouched_main_arg3))

/-- What region 6 leaves: the first affine output of layer 2, its column sums, the column sums of its squares. -/
theorem l2_u1 : Gin.toMat ((dat6 (V13 m ρ) c).arrAt 4 cfg6.N) = Gin.u1 (feat m c 2) (aggr m c 2) (inP m c 2) := by
  rw [val6_4, l2_in_h, l2_in_a, l2_in_W1, l2_in_b1]; rfl
theorem l2_s1 : Gin.toRow (W14 m ρ c (Proc.devRef .tc main_v120_1)) = Gin.colsum (Gin.u1 (feat m c 2) (aggr m c 2) (inP m c 2)) := by
  rw [show W14 m ρ c (Proc.devRef .tc main_v120_1) = (dat6 (V13 m ρ) c).arrAt 5 cfg6.N from W14_arr m ρ c 5, val6_5, l2_u1]
theorem l2_q1 : Gin.toRow (W14 m ρ c (Proc.devRef .tc main_v120_2))
    = Gin.colsum (fun r j => Gin.u1 (feat m c 2) (aggr m c 2) (inP m c 2) r j * Gin.u1 (feat m c 2) (aggr m c 2) (inP m c 2) r j) := by
  rw [show W14 m ρ c (Proc.devRef .tc main_v120_2) = (dat6 (V13 m ρ) c).arrAt 6 cfg6.N from W14_arr m ρ c 6, val6_6, l2_u1]

/-! ## Layer 2, second region: the second affine output -/

/-- What region 7 finds: the first affine output, its column mean and variance, the first gain and shift, the second
    weight and bias of layer 2. -/
theorem l2_in_u1 : Gin.toMat (V15 m ρ c (Pipeline.arrRef spec7 0)) = Gin.u1 (feat m c 2) (aggr m c 2) (inP m c 2) :=
  (congrArg Gin.toMat ((StableHlo.after_of_writes_sub (r := main_v120_0) hostOps7 (W14 m ρ c) hostOps7_writes (by decide)).trans (W14_arr m ρ c 4))).trans (l2_u1 m ρ c)
theorem l2_in_mean1 : Gin.toRow (V15 m ρ c (Pipeline.arrRef spec7 1)) = Gin.mean (Gin.u1 (feat m c 2) (aggr m c 2) (inP m c 2)) :=
  HostVal.hostOps7_main_v122_mean (W14 m ρ c) _ (l2_s1 m ρ c)
theorem l2_in_var1 : Gin.toRow (V15 m ρ c (Pipeline.arrRef spec7 2)) = Gin.varK (Gin.u1 (feat m c 2) (aggr m c 2) (inP m c 2)) :=
  HostVal.hostOps7_main_v126_var (W14 m ρ c) _ (l2_s1 m ρ c) (l2_q1 m ρ c)
theorem l2_in_g1 : Gin.toRow (V15 m ρ c (Pipeline.arrRef spec7 3)) = (inP m c 2).g1 :=
  (HostVal.hostOps7_main_v129_spec (W14 m ρ c)).trans (congrArg (Gin.layerRow (2 : Fin 5)) (W14_param m ρ c main_arg4 untouched_main_arg4))
theorem l2_in_be1 : Gin.toRow (V15 m ρ c (Pipeline.arrRef spec7 4)) = (inP m c 2).be1 :=
  (HostVal.hostOps7_main_v132_spec (W14 m ρ c)).trans (congrArg (Gin.layerRow (2 : Fin 5)) (W14_param m ρ c main_arg5 untouched_main_arg5))
theorem l2_in_W2 : Gin.toWt (V15 m ρ c (Pipeline.arrRef spec7 5)) = (inP m c 2).W2 :=
  (HostVal.hostOps7_main_v135_spec (W14 m ρ c)).trans (congrArg (Gin.layerWt (2 : Fin 5)) (W14_param m ρ c main_arg6 untouched_main_arg6))
theorem l2_in_b2 : Gin.toRow (V15 m ρ c (Pipeline.arrRef spec7 6)) = (inP m c 2).b2 :=
  (HostVal.hostOps7_main_v138_spec (W14 m ρ c)).trans (congrArg (Gin.layerRow (2 : Fin 5)) (W14_param m ρ c main_arg7 untouched_main_arg7))

/-- What region 7 leaves: the second affine output of layer 2, its column sums, the column sums of its squares. -/
theorem l2_u2 : Gin.toMat ((dat7 (V15 m ρ) c).arrAt 7 cfg7.N) = Gin.u2K (feat m c 2) (aggr m c 2) (inP m c 2) := by
  rw [val7_7, l2_in_u1, l2_in_mean1, l2_in_var1, l2_in_g1, l2_in_be1, l2_in_W2, l2_in_b2]; rfl
theorem l2_s2 : Gin.toRow (W16 m ρ c (Proc.devRef .tc main_v139_1)) = Gin.colsum (Gin.u2K (feat m c 2) (aggr m c 2) (inP m c 2)) := by
  rw [show W16 m ρ c (Proc.devRef .tc main_v139_1) = (dat7 (V15 m ρ) c).arrAt 8 cfg7.N from W16_arr m ρ c 8, val7_8, l2_u2]
theorem l2_q2 : Gin.toRow (W16 m ρ c (Proc.devRef .tc main_v139_2))
    = Gin.colsum (fun r j => Gin.u2K (feat m c 2) (aggr m c 2) (inP m c 2) r j * Gin.u2K (feat m c 2) (aggr m c 2) (inP m c 2) r j) := by
  rw [show W16 m ρ c (Proc.devRef .tc main_v139_2) = (dat7 (V15 m ρ) c).arrAt 9 cfg7.N from W16_arr m ρ c 9, val7_9, l2_u2]

/-! ## Layer 2, third region: the layer's result and its readout -/

/-- What region 8 finds: the second affine output, its column mean and variance, the second gain and shift of layer 2. -/
theorem l2_in_u2 : Gin.toMat (V17 m ρ c (Pipeline.arrRef spec8 0)) = Gin.u2K (feat m c 2) (aggr m c 2) (inP m c 2) :=
  (congrArg Gin.toMat ((StableHlo.after_of_writes_sub (r := main_v139_0) hostOps8 (W16 m ρ c) hostOps8_writes (by decide)).trans (W16_arr m ρ c 7))).trans (l2_u2 m ρ c)
theorem l2_in_mean2 : Gin.toRow (V17 m ρ c (Pipeline.arrRef spec8 1)) = Gin.mean (Gin.u2K (feat m c 2) (aggr m c 2) (inP m c 2)) :=
  HostVal.hostOps8_main_v141_mean (W16 m ρ c) _ (l2_s2 m ρ c)
theorem l2_in_var2 : Gin.toRow (V17 m ρ c (Pipeline.arrRef spec8 2)) = Gin.varK (Gin.u2K (feat m c 2) (aggr m c 2) (inP m c 2)) :=
  HostVal.hostOps8_main_v145_var (W16 m ρ c) _ (l2_s2 m ρ c) (l2_q2 m ρ c)
theorem l2_in_g2 : Gin.toRow (V17 m ρ c (Pipeline.arrRef spec8 3)) = (inP m c 2).g2 :=
  (HostVal.hostOps8_main_v148_spec (W16 m ρ c)).trans (congrArg (Gin.layerRow (2 : Fin 5)) (W16_param m ρ c main_arg8 untouched_main_arg8))
theorem l2_in_be2 : Gin.toRow (V17 m ρ c (Pipeline.arrRef spec8 4)) = (inP m c 2).be2 :=
  (HostVal.hostOps8_main_v151_spec (W16 m ρ c)).trans (congrArg (Gin.layerRow (2 : Fin 5)) (W16_param m ρ c main_arg9 untouched_main_arg9))

/-- What region 8 leaves: the result of layer 2. -/
theorem l2_out : Gin.toMat ((dat8 (V17 m ρ) c).arrAt 5 cfg8.N) = feat m c 3 := by
  rw [val8_5, l2_in_u2, l2_in_mean2, l2_in_var2, l2_in_g2, l2_in_be2]; rfl

/-- After layer 2 the features are the specification's after 3 layers, -/
theorem layer2_feat : Gin.toMat (W18 m ρ c (Proc.devRef .tc main_v152_0)) = feat m c 3 :=
  (congrArg Gin.toMat (W18_arr m ρ c 5)).trans (l2_out m ρ c)
/-- and the readout is their column sums. -/
theorem layer2_readout : Gin.toRow (W18 m ρ c (Proc.devRef .tc main_v152_1)) = Gin.colsum (feat m c 3) := by
  rw [show W18 m ρ c (Proc.devRef .tc main_v152_1) = (dat8 (V17 m ρ) c).arrAt 6 cfg8.N from W18_arr m ρ c 6, val8_6, l2_out]

end Cert.KernelIdeal.Hand

end
-- ==== Proof.KI.HostVal.S9.lean ====
/-
  The host line before the first region of a later layer, from any buffer contents: the previous layer's readout
  row as a vector, the aggregation of the previous layer's output along the edges (the two rows of the edge list
  read back as the first line left them), the first weight of the layer cut and narrowed, the first bias cut and
  laid out as a row; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps9_main_v153 : StableHlo.after (hostOps9 (F := Ideal)) Wv (Proc.devRef .tc main_v153) = vecT (Wv (Proc.devRef .tc main_v152_1)) := by
  after_results; rfl
set_option maxHeartbeats 1000000 in
theorem hostOps9_main_v163 : StableHlo.after (hostOps9 (F := Ideal)) Wv (Proc.devRef .tc main_v163)
    = aggT (Wv (Proc.devRef .tc main_v152_0)) (Wv (Proc.devRef .tc main_v1)) (Wv (Proc.devRef .tc main_v3)) := by
  after_results; rfl
theorem hostOps9_main_v166 : StableHlo.after (hostOps9 (F := Ideal)) Wv (Proc.devRef .tc main_v166) = wtT 3 slices_S5x256x256_S1x256x256_3_0_0 (Wv (Proc.devRef .tc main_arg2)) := by
  after_results; rfl
theorem hostOps9_main_v169 : StableHlo.after (hostOps9 (F := Ideal)) Wv (Proc.devRef .tc main_v169) = rowT 3 slices_S5x256_S1x256_3_0 (Wv (Proc.devRef .tc main_arg3)) := by
  after_results; rfl
/-- The previous layer's output and the two rows of the edge list are not written. -/
theorem hostOps9_main_v152_0 : StableHlo.after (hostOps9 (F := Ideal)) Wv (Proc.devRef .tc main_v152_0) = Wv (Proc.devRef .tc main_v152_0) := by
  after_results
theorem hostOps9_main_v1 : StableHlo.after (hostOps9 (F := Ideal)) Wv (Proc.devRef .tc main_v1) = Wv (Proc.devRef .tc main_v1) := by
  after_results
theorem hostOps9_main_v3 : StableHlo.after (hostOps9 (F := Ideal)) Wv (Proc.devRef .tc main_v3) = Wv (Proc.devRef .tc main_v3) := by
  after_results

/-! ## The same, in the specification's terms -/

theorem hostOps9_main_v153_spec : Gin.toRow1 (StableHlo.after (hostOps9 (F := Ideal)) Wv (Proc.devRef .tc main_v153)) = Gin.toRow (Wv (Proc.devRef .tc main_v152_1)) := by
  rw [hostOps9_main_v153, toRow1_vecT]
theorem hostOps9_main_v163_spec : Gin.toMat (StableHlo.after (hostOps9 (F := Ideal)) Wv (Proc.devRef .tc main_v163))
    = Gin.agg (Gin.toMat (Wv (Proc.devRef .tc main_v152_0))) (ofVec (Wv (Proc.devRef .tc main_v1))) (ofVec (Wv (Proc.devRef .tc main_v3))) := by
  rw [hostOps9_main_v163, toMat_aggT]
theorem hostOps9_main_v166_spec : Gin.toWt (StableHlo.after (hostOps9 (F := Ideal)) Wv (Proc.devRef .tc main_v166)) = Gin.layerWt (3 : Fin 5) (Wv (Proc.devRef .tc main_arg2)) := by
  rw [hostOps9_main_v166]; exact toWt_wtT 3 (by decide) _ _
theorem hostOps9_main_v169_spec : Gin.toRow (StableHlo.after (hostOps9 (F := Ideal)) Wv (Proc.devRef .tc main_v169)) = Gin.layerRow (3 : Fin 5) (Wv (Proc.devRef .tc main_arg3)) := by
  rw [hostOps9_main_v169]; exact toRow_rowT 3 (by decide) _ _

end Cert.KernelIdeal.HostVal

end
-- ==== Proof.KI.HostVal.S10.lean ====
/-
  The host line between a layer's first and second regions, from any buffer contents: the column mean and the
  column variance of the first affine output from the first region's two accumulators (the column sums and the
  column sums of squares), and the cuts of the layer's first gain and shift, second weight and second bias; each
  first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps10_main_v172 : StableHlo.after (hostOps10 (F := Ideal)) Wv (Proc.devRef .tc main_v172) = meanT (Wv (Proc.devRef .tc main_v170_1)) := by
  after_results; rfl
theorem hostOps10_main_v176 : StableHlo.after (hostOps10 (F := Ideal)) Wv (Proc.devRef .tc main_v176) = varT (Wv (Proc.devRef .tc main_v170_1)) (Wv (Proc.devRef .tc main_v170_2)) := by
  after_results; rfl
theorem hostOps10_main_v179 : StableHlo.after (hostOps10 (F := Ideal)) Wv (Proc.devRef .tc main_v179) = rowT 3 slices_S5x256_S1x256_3_0 (Wv (Proc.devRef .tc main_arg4)) := by
  after_results; rfl
theorem hostOps10_main_v182 : StableHlo.after (hostOps10 (F := Ideal)) Wv (Proc.devRef .tc main_v182) = rowT 3 slices_S5x256_S1x256_3_0 (Wv (Proc.devRef .tc main_arg5)) := by
  after_results; rfl
theorem hostOps10_main_v185 : StableHlo.after (hostOps10 (F := Ideal)) Wv (Proc.devRef .tc main_v185) = wtT 3 slices_S5x256x256_S1x256x256_3_0_0 (Wv (Proc.devRef .tc main_arg6)) := by
  after_results; rfl
theorem hostOps10_main_v188 : StableHlo.after (hostOps10 (F := Ideal)) Wv (Proc.devRef .tc main_v188) = rowT 3 slices_S5x256_S1x256_3_0 (Wv (Proc.devRef .tc main_arg7)) := by
  after_results; rfl
/-- The first affine output is not written. -/
theorem hostOps10_main_v170_0 : StableHlo.after (hostOps10 (F := Ideal)) Wv (Proc.devRef .tc main_v170_0) = Wv (Proc.devRef .tc main_v170_0) := by
  after_results

/-! ## The same, in the specification's terms -/

theorem hostOps10_main_v172_spec : Gin.toRow (StableHlo.after (hostOps10 (F := Ideal)) Wv (Proc.devRef .tc main_v172))
    = fun j => Ideal.div (Gin.toRow (Wv (Proc.devRef .tc main_v170_1)) j) Gin.nn := by
  rw [hostOps10_main_v172, toRow_meanT]
theorem hostOps10_main_v176_spec : Gin.toRow (StableHlo.after (hostOps10 (F := Ideal)) Wv (Proc.devRef .tc main_v176))
    = fun j => Ideal.div (Gin.toRow (Wv (Proc.devRef .tc main_v170_2)) j) Gin.nn
        - Gin.toRow (StableHlo.after (hostOps10 (F := Ideal)) Wv (Proc.devRef .tc main_v172)) j * Gin.toRow (StableHlo.after (hostOps10 (F := Ideal)) Wv (Proc.devRef .tc main_v172)) j := by
  rw [hostOps10_main_v176, hostOps10_main_v172, toRow_varT]
/-- With the accumulators holding the column sums and the column sums of squares of `u`, the two rows are the
    column mean of `u` and its column variance as the mean of the squares minus the square of the mean. -/
theorem hostOps10_main_v172_mean (u : Gin.Mat) (hs : Gin.toRow (Wv (Proc.devRef .tc main_v170_1)) = Gin.colsum u) :
    Gin.toRow (StableHlo.after (hostOps10 (F := Ideal)) Wv (Proc.devRef .tc main_v172)) = Gin.mean u := by
  rw [hostOps10_main_v172]; exact toRow_meanT_of_colsum _ u hs
theorem hostOps10_main_v176_var (u : Gin.Mat) (hs : Gin.toRow (Wv (Proc.devRef .tc main_v170_1)) = Gin.colsum u)
    (hq : Gin.toRow (Wv (Proc.devRef .tc main_v170_2)) = Gin.colsum (fun r j => u r j * u r j)) :
    Gin.toRow (StableHlo.after (hostOps10 (F := Ideal)) Wv (Proc.devRef .tc main_v176)) = Gin.varK u := by
  rw [hostOps10_main_v176]; exact toRow_varT_of_colsum _ _ u hs hq
theorem hostOps10_main_v179_spec : Gin.toRow (StableHlo.after (hostOps10 (F := Ideal)) Wv (Proc.devRef .tc main_v179)) = Gin.layerRow (3 : Fin 5) (Wv (Proc.devRef .tc main_arg4)) := by
  rw [hostOps10_main_v179]; exact toRow_rowT 3 (by decide) _ _
theorem hostOps10_main_v182_spec : Gin.toRow (StableHlo.after (hostOps10 (F := Ideal)) Wv (Proc.devRef .tc main_v182)) = Gin.layerRow (3 : Fin 5) (Wv (Proc.devRef .tc main_arg5)) := by
  rw [hostOps10_main_v182]; exact toRow_rowT 3 (by decide) _ _
theorem hostOps10_main_v185_spec : Gin.toWt (StableHlo.after (hostOps10 (F := Ideal)) Wv (Proc.devRef .tc main_v185)) = Gin.layerWt (3 : Fin 5) (Wv (Proc.devRef .tc main_arg6)) := by
  rw [hostOps10_main_v185]; exact toWt_wtT 3 (by decide) _ _
theorem hostOps10_main_v188_spec : Gin.toRow (StableHlo.after (hostOps10 (F := Ideal)) Wv (Proc.devRef .tc main_v188)) = Gin.layerRow (3 : Fin 5) (Wv (Proc.devRef .tc main_arg7)) := by
  rw [hostOps10_main_v188]; exact toRow_rowT 3 (by decide) _ _

end Cert.KernelIdeal.HostVal

end
-- ==== Proof.KI.HostVal.S11.lean ====
/-
  The host line between a layer's second and third regions, from any buffer contents: the column mean and the
  column variance of the second affine output from the second region's two accumulators, and the cuts of the
  layer's second gain and shift; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps11_main_v191 : StableHlo.after (hostOps11 (F := Ideal)) Wv (Proc.devRef .tc main_v191) = meanT (Wv (Proc.devRef .tc main_v189_1)) := by
  after_results; rfl
theorem hostOps11_main_v195 : StableHlo.after (hostOps11 (F := Ideal)) Wv (Proc.devRef .tc main_v195) = varT (Wv (Proc.devRef .tc main_v189_1)) (Wv (Proc.devRef .tc main_v189_2)) := by
  after_results; rfl
theorem hostOps11_main_v198 : StableHlo.after (hostOps11 (F := Ideal)) Wv (Proc.devRef .tc main_v198) = rowT 3 slices_S5x256_S1x256_3_0 (Wv (Proc.devRef .tc main_arg8)) := by
  after_results; rfl
theorem hostOps11_main_v201 : StableHlo.after (hostOps11 (F := Ideal)) Wv (Proc.devRef .tc main_v201) = rowT 3 slices_S5x256_S1x256_3_0 (Wv (Proc.devRef .tc main_arg9)) := by
  after_results; rfl
/-- The second affine output is not written. -/
theorem hostOps11_main_v189_0 : StableHlo.after (hostOps11 (F := Ideal)) Wv (Proc.devRef .tc main_v189_0) = Wv (Proc.devRef .tc main_v189_0) := by
  after_results

/-! ## The same, in the specification's terms -/

theorem hostOps11_main_v191_spec : Gin.toRow (StableHlo.after (hostOps11 (F := Ideal)) Wv (Proc.devRef .tc main_v191))
    = fun j => Ideal.div (Gin.toRow (Wv (Proc.devRef .tc main_v189_1)) j) Gin.nn := by
  rw [hostOps11_main_v191, toRow_meanT]
theorem hostOps11_main_v195_spec : Gin.toRow (StableHlo.after (hostOps11 (F := Ideal)) Wv (Proc.devRef .tc main_v195))
    = fun j => Ideal.div (Gin.toRow (Wv (Proc.devRef .tc main_v189_2)) j) Gin.nn
        - Gin.toRow (StableHlo.after (hostOps11 (F := Ideal)) Wv (Proc.devRef .tc main_v191)) j * Gin.toRow (StableHlo.after (hostOps11 (F := Ideal)) Wv (Proc.devRef .tc main_v191)) j := by
  rw [hostOps11_main_v195, hostOps11_main_v191, toRow_varT]
/-- With the accumulators holding the column sums and the column sums of squares of `u`, the two rows are the
    column mean of `u` and its column variance as the mean of the squares minus the square of the mean. -/
theorem hostOps11_main_v191_mean (u : Gin.Mat) (hs : Gin.toRow (Wv (Proc.devRef .tc main_v189_1)) = Gin.colsum u) :
    Gin.toRow (StableHlo.after (hostOps11 (F := Ideal)) Wv (Proc.devRef .tc main_v191)) = Gin.mean u := by
  rw [hostOps11_main_v191]; exact toRow_meanT_of_colsum _ u hs
theorem hostOps11_main_v195_var (u : Gin.Mat) (hs : Gin.toRow (Wv (Proc.devRef .tc main_v189_1)) = Gin.colsum u)
    (hq : Gin.toRow (Wv (Proc.devRef .tc main_v189_2)) = Gin.colsum (fun r j => u r j * u r j)) :
    Gin.toRow (StableHlo.after (hostOps11 (F := Ideal)) Wv (Proc.devRef .tc main_v195)) = Gin.varK u := by
  rw [hostOps11_main_v195]; exact toRow_varT_of_colsum _ _ u hs hq
theorem hostOps11_main_v198_spec : Gin.toRow (StableHlo.after (hostOps11 (F := Ideal)) Wv (Proc.devRef .tc main_v198)) = Gin.layerRow (3 : Fin 5) (Wv (Proc.devRef .tc main_arg8)) := by
  rw [hostOps11_main_v198]; exact toRow_rowT 3 (by decide) _ _
theorem hostOps11_main_v201_spec : Gin.toRow (StableHlo.after (hostOps11 (F := Ideal)) Wv (Proc.devRef .tc main_v201)) = Gin.layerRow (3 : Fin 5) (Wv (Proc.devRef .tc main_arg9)) := by
  rw [hostOps11_main_v201]; exact toRow_rowT 3 (by decide) _ _

end Cert.KernelIdeal.HostVal

end
-- ==== Proof.KI.Pay9.lean ====
/-
  One launch of the kernel that multiplies, adds a bias row and keeps column statistics, read at an index at the ideal
  values: floats are extended reals, every operation is exact, and a change of float format is the identity. The
  generated skeleton states each value the body stores as one pure term of the values it loads, the payloads `k9_pay1` …
  `k9_pay5`. Here each payload is read at an index as plain sums and products of extended reals:
    • `k9_pay1`, `k9_pay2` — the zero row the two statistics start from — are 0 at every column;
    • `k9_pay3` at (p, q) is ∑ₖ (xa[p, k] + xb[p, k]) · w[k, q] + b[0, q]: row p of the sum of the two inputs against
      column q of the weights, plus the bias row;
    • `k9_pay4` at (0, q) is s[0, q] + ∑ₚ `k9_pay3`[p, q]: the running column sum;
    • `k9_pay5` at (0, q) is s[0, q] + ∑ₚ `k9_pay3`[p, q]²: the running column sum of squares.
  The steps: the same-shape casts are the identity; the matrix product into a zero accumulator is the sum over its one
  contracted axis, re-indexed by that axis's coordinate; the bias row is broadcast over the rows; the reduction over the
  rows is the sum over the row coordinate; a vector cast to one row reads the vector.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## The matrix product's operand indices, axis by axis

  The product contracts the left factor's axis 1 with the right factor's axis 0; the left factor's axis 0 and the right
  factor's axis 1 are the result's two axes. -/

/-- The left operand's row is the result's row. -/
private theorem lhs_rows_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column is the contracted coordinate. -/
private theorem lhs_rows_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- The right operand's row is the contracted coordinate. -/
private theorem rhs_cols_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- The right operand's column is the result's column. -/
private theorem rhs_cols_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product of a `[2000, 256]` matrix by a `[256, 256]` one accumulated into zero, read at `(p, q)`: row `p` of the
    left factor against column `q` of the right one. -/
private theorem matmul_zero_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs_rows_0 _ _
      | ⟨1, _⟩ => exact (lhs_rows_1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (rhs_cols_0 _ _).trans hk
      | ⟨1, _⟩ => exact rhs_cols_1 _ _)
  rw [el, er]

/-! ## The reduction over the rows -/

/-- The sum over the rows of a `[2000, 256]` array, read at column `q`. -/
private theorem sumRows_apply (X : FVec Ideal S2000x256 .f32) (h : S2000x256.Reduces [0] S256) (hφ : FKind.Formats .f32)
    (hacc : (0x00000000#32 : BitVec 32) = 0x00000000#32) (q : Fin 256) :
    multiReduction (F := Ideal) .add [0] S256 X 0x00000000#32 h hφ hacc (ix1 q) = ∑ p : Fin 2000, X (ix2 p q) := by
  refine (Ideal.multiReduction_add_single X 0x00000000#32 h hφ hacc (ix1 q)).trans ?_
  refine Finset.sum_congr rfl fun p _ => congrArg X ?_
  exact funext fun a => Fin.ext (by
    match a with
    | ⟨0, _⟩ => rfl
    | ⟨1, _⟩ => rfl)

/-! ## The stored values at an index -/

/-- The first statistics row starts from zero. -/
theorem k9_pay1_apply (q : Fin 256) : k9_pay1 (F := Ideal) (ix2 0 q) = 0 := by
  unfold k9_pay1
  exact Ideal.ofBits_zero_f32

/-- The second statistics row starts from zero. -/
theorem k9_pay2_apply (q : Fin 256) : k9_pay2 (F := Ideal) (ix2 0 q) = 0 := by
  unfold k9_pay2
  exact Ideal.ofBits_zero_f32

/-- The product block at `(p, q)`: row `p` of the sum of the two inputs against column `q` of the weights, plus the
    bias row at `q`. -/
theorem k9_pay3_apply (xa xb : Vec Ideal S2000x256 .f32) (w : Vec Ideal S256x256 .bf16) (b : Vec Ideal S1x256 .f32)
    (p : Fin 2000) (q : Fin 256) :
    k9_pay3 (F := Ideal) xa xb w b (ix2 p q)
      = (∑ k : Fin 256, (xa (ix2 p k) + xb (ix2 p k)) * w (ix2 k q)) + b (ix2 0 q) := by
  unfold k9_pay3
  simp only [shapeCast_self]
  rw [addf_apply, broadcastTo_1b_ab_apply, matmul_zero_apply]
  rfl

/-- The column sums: the row read so far plus the sum of the product block over its rows. -/
theorem k9_pay4_apply (xa xb : Vec Ideal S2000x256 .f32) (w : Vec Ideal S256x256 .bf16) (b : Vec Ideal S1x256 .f32)
    (s : Vec Ideal S1x256 .f32) (q : Fin 256) :
    k9_pay4 (F := Ideal) xa xb w b s (ix2 0 q)
      = s (ix2 0 q) + ∑ p : Fin 2000, k9_pay3 (F := Ideal) xa xb w b (ix2 p q) := by
  unfold k9_pay4
  simp only [shapeCast_self]
  rw [addf_apply, shapeCast_a_1a_apply, sumRows_apply]

/-- The column sums of squares: the row read so far plus the sum of the product block's squares over its rows. -/
theorem k9_pay5_apply (xa xb : Vec Ideal S2000x256 .f32) (w : Vec Ideal S256x256 .bf16) (b : Vec Ideal S1x256 .f32)
    (s : Vec Ideal S1x256 .f32) (q : Fin 256) :
    k9_pay5 (F := Ideal) xa xb w b s (ix2 0 q)
      = s (ix2 0 q) + ∑ p : Fin 2000, k9_pay3 (F := Ideal) xa xb w b (ix2 p q) * k9_pay3 (F := Ideal) xa xb w b (ix2 p q) := by
  unfold k9_pay5
  simp only [shapeCast_self]
  rw [addf_apply, shapeCast_a_1a_apply, sumRows_apply]
  rfl

end Cert.KernelIdeal.PayVal

end
-- ==== Proof.KI.R9Val.lean ====
/-
  What region 9 of the idealized kernel program leaves in its output arrays, at the exact instance, as functions of what it finds in its
  input arrays: the mathematics of the kernel body summed over the grid.

  Each output's staging contents are first read off the body's stores (at any float instance): u's block is the affine map of the
  blocks; each accumulator row is the row found there (the zero row at the first point) plus this block's column sums. At the
  exact instance the u blocks are the 2000-row bands of ONE matrix, the affine map of the whole arrays, so the written-back bands
  assemble it; and each accumulator after point n is the sum of that matrix's (squared) entries over the rows below 2000·(n+1), so
  what the last point writes back is the column sum over all rows.
-/
import proofs.«102822_j3521873183180_1_alg».proof.Proof.KI.R9
import proofs.«102822_j3521873183180_1_alg».proof.Proof.KI.Pay9
import proofs.«102822_j3521873183180_1_alg».proof.Proof.Spec
import Idealize.ShloMosaic.Lib.Pipeline.Value

set_option maxRecDepth 16384

noncomputable section

namespace Cert.KernelIdeal.Hand

open Cert.KernelIdeal Cert.KernelIdeal.Gen Cert.KernelIdeal.PayVal
open Idealize.ShloMosaic Idealize.ShloMosaic.TcCoe Idealize.ShloMosaic.Tactic Idealize.ShloMosaic.ValueIdx
open Idealize.ShloMosaic.Pipeline (Dat)
open scoped BigOperators

/-! ## What the pieces are: each output's staging contents as the kernel's arithmetic of what the body loads (any float instance) -/

section Pieces

variable {F : FTy → Type} [FloatOps F]

/-- Every store and load of the body is at the origin of its buffer. -/
theorem origin9 : (![0, 0] : Fin 2 → Nat) = fun _ => 0 := funext fun a => by fin_cases a <;> rfl

/-- At the first point u's buffer holds the affine map of the blocks: its one covering store's payload. -/
theorem resetOut9_4_eq (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) :
    resetOut9_4 c i arg1 harg1 arg2 harg2 arg3 harg3 arg4 harg4 arg5 harg5 arg6 harg6 arg7 harg7 hc0 x0 x1 x2 x3 = k9_pay3 x0 x1 x2 x3 := by
  unfold resetOut9_4
  rw [View.read_writes_eq_canon _ _ _ (resetCover9_4 c i arg1 harg1 arg2 harg2 arg3 harg3 arg4 harg4 arg5 harg5 arg6 harg6 arg7 harg7 hc0 x0 x1 x2 x3)]
  unfold resetRun9
  dsimp only
  sl_unfold_words
  rw [View.canon_unit_zero origin9]
  simp only [View.readAt_eq_ld, harg1.read_unread, harg2.read_unread, harg3.read_unread, harg4.read_unread, View.ld_unit_zero (S := S2000x256) origin9, View.ld_unit_zero (S := S256x256) origin9, View.ld_unit_zero (S := S1x256) origin9]

/-- At the first point the column-sum accumulator holds the zero row plus u's column sums: the reset's store, read back, then the update. -/
theorem resetOut9_5_eq (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) :
    resetOut9_5 c i arg1 harg1 arg2 harg2 arg3 harg3 arg4 harg4 arg5 harg5 arg6 harg6 arg7 harg7 hc0 x0 x1 x2 x3 = k9_pay4 x0 x1 x2 x3 (k9_pay1 (F := F)) := by
  unfold resetOut9_5
  rw [View.read_writes_eq_canon _ _ _ (resetCover9_5 c i arg1 harg1 arg2 harg2 arg3 harg3 arg4 harg4 arg5 harg5 arg6 harg6 arg7 harg7 hc0 x0 x1 x2 x3)]
  unfold resetRun9
  dsimp only
  sl_unfold_words
  rw [View.canon_cons_unit_zero (S := S1x256) origin9, View.readCov_unit_zero (S := S1x256) _ origin9]
  simp only [View.readAt_eq_ld, harg1.read_unread, harg2.read_unread, harg3.read_unread, harg4.read_unread, View.ld_unit_zero (S := S2000x256) origin9, View.ld_unit_zero (S := S256x256) origin9, View.ld_unit_zero (S := S1x256) origin9]

/-- At the first point the sum-of-squares accumulator holds the zero row plus the column sums of u·u. -/
theorem resetOut9_6_eq (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first9 i)
    (x0 : Vec F S2000x256 .f32) (x1 : Vec F S2000x256 .f32) (x2 : Vec F S256x256 .bf16) (x3 : Vec F S1x256 .f32) :
    resetOut9_6 c i arg1 harg1 arg2 harg2 arg3 harg3 arg4 harg4 arg5 harg5 arg6 harg6 arg7 harg7 hc0 x0 x1 x2 x3 = k9_pay5 x0 x1 x2 x3 (k9_pay2 (F := F)) := by
  unfold resetOut9_6
  rw [View.read_writes_eq_canon _ _ _ (resetCover9_6 c i arg1 harg1 arg2 harg2 arg3 harg3 arg4 harg4 arg5 harg5 arg6 harg6 arg7 harg7 hc0 x0 x1 x2 x3)]
  unfold resetRun9
  dsimp only
  sl_unfold_words
  rw [View.canon_cons_unit_zero (S := S1x256) origin9, View.readCov_unit_zero (S := S1x256) _ origin9]
  simp only [View.readAt_eq_ld, harg1.read_unread, harg2.read_unread, harg3.read_unread, harg4.read_unread, View.ld_unit_zero (S := S2000x256) origin9, View.ld_unit_zero (S := S256x256) origin9, View.ld_unit_zero (S := S1x256) origin9]

/-- At a later point u's buffer holds the affine map of the blocks, whatever the accumulators held. -/
theorem carryOut9_4_eq (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut9_4 c i arg1 harg1 arg2 harg2 arg3 harg3 arg4 harg4 arg5 harg5 arg6 harg6 arg7 harg7 hc0 x0 x1 x2 x3 xo5 xo6 = k9_pay3 x0 x1 x2 x3 := by
  unfold carryOut9_4
  rw [View.read_writes_eq_canon _ _ _ (carryCover9_4 c i arg1 harg1 arg2 harg2 arg3 harg3 arg4 harg4 arg5 harg5 arg6 harg6 arg7 harg7 hc0 x0 x1 x2 x3 xo5 xo6)]
  unfold carryRun9
  dsimp only
  sl_unfold_words
  rw [View.canon_unit_zero origin9]
  simp only [View.readAt_eq_ld, harg1.read_unread, harg2.read_unread, harg3.read_unread, harg4.read_unread, harg6.read_unread, harg7.read_unread, View.ld_unit_zero (S := S2000x256) origin9, View.ld_unit_zero (S := S256x256) origin9, View.ld_unit_zero (S := S1x256) origin9]

/-- At a later point the column-sum accumulator holds the row it found plus u's column sums. -/
theorem carryOut9_5_eq (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut9_5 c i arg1 harg1 arg2 harg2 arg3 harg3 arg4 harg4 arg5 harg5 arg6 harg6 arg7 harg7 hc0 x0 x1 x2 x3 xo5 xo6 = k9_pay4 x0 x1 x2 x3 xo5 := by
  unfold carryOut9_5
  rw [View.read_writes_eq_canon _ _ _ (carryCover9_5 c i arg1 harg1 arg2 harg2 arg3 harg3 arg4 harg4 arg5 harg5 arg6 harg6 arg7 harg7 hc0 x0 x1 x2 x3 xo5 xo6)]
  unfold carryRun9
  dsimp only
  sl_unfold_words
  rw [View.canon_unit_zero origin9]
  simp only [View.readAt_eq_ld, harg1.read_unread, harg2.read_unread, harg3.read_unread, harg4.read_unread, harg6.read_unread, harg7.read_unread, View.ld_unit_zero (S := S2000x256) origin9, View.ld_unit_zero (S := S256x256) origin9, View.ld_unit_zero (S := S1x256) origin9]

/-- At a later point the sum-of-squares accumulator holds the row it found plus the column sums of u·u. -/
theorem carryOut9_6_eq (c : Dev nD) (i : grid9.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first9 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut9_6 c i arg1 harg1 arg2 harg2 arg3 harg3 arg4 harg4 arg5 harg5 arg6 harg6 arg7 harg7 hc0 x0 x1 x2 x3 xo5 xo6 = k9_pay5 x0 x1 x2 x3 xo6 := by
  unfold carryOut9_6
  rw [View.read_writes_eq_canon _ _ _ (carryCover9_6 c i arg1 harg1 arg2 harg2 arg3 harg3 arg4 harg4 arg5 harg5 arg6 harg6 arg7 harg7 hc0 x0 x1 x2 x3 xo5 xo6)]
  unfold carryRun9
  dsimp only
  sl_unfold_words
  rw [View.canon_unit_zero origin9]
  simp only [View.readAt_eq_ld, harg1.read_unread, harg2.read_unread, harg3.read_unread, harg4.read_unread, harg6.read_unread, harg7.read_unread, View.ld_unit_zero (S := S2000x256) origin9, View.ld_unit_zero (S := S256x256) origin9, View.ld_unit_zero (S := S1x256) origin9]

end Pieces

/-! ## At the exact instance -/

variable (V : (c : Dev nD) → (b : Ref sig .tc) → Buf (Elt Ideal) ((c : Thread nD τ).loc b))

/-- The four input arrays as the region finds them and the blocks the body loads at point `t`, each at its literal type. -/
abbrev hArr9 (c : Dev nD) : Vec Ideal S50000x256 .f32 := V c (Pipeline.arrRef spec9 0)
abbrev gArr9 (c : Dev nD) : Vec Ideal S50000x256 .f32 := V c (Pipeline.arrRef spec9 1)
abbrev wArr9 (c : Dev nD) : Vec Ideal S256x256 .bf16 := V c (Pipeline.arrRef spec9 2)
abbrev bArr9 (c : Dev nD) : Vec Ideal S1x256 .f32 := V c (Pipeline.arrRef spec9 3)
abbrev hBlk9 (c : Dev nD) (t : Fin cfg9.N) : Vec Ideal S2000x256 .f32 := iblk9 V c 0 t
abbrev gBlk9 (c : Dev nD) (t : Fin cfg9.N) : Vec Ideal S2000x256 .f32 := iblk9 V c 1 t
abbrev wBlk9 (c : Dev nD) (t : Fin cfg9.N) : Vec Ideal S256x256 .bf16 := iblk9 V c 2 t
abbrev bBlk9 (c : Dev nD) (t : Fin cfg9.N) : Vec Ideal S1x256 .f32 := iblk9 V c 3 t

/-- The printed index maps, decided over the grid: h, agg and u move one band of rows per point; the weight, the bias and the two
    accumulators stay at block (0, 0). -/
theorem bands9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0 :=
  (by decide +kernel : ∀ t : Fin grid9.N, _)

/-- Row `p` of point `t`'s band of h is row 2000·t + p of h. -/
theorem hBlk9_apply (c : Dev nD) (t : Fin cfg9.N) (p : Fin 2000) (k : Fin 256) (r : Fin 50000) (hr : r.val = 2000 * t.val + p.val) :
    hBlk9 V c t (ix2 p k) = hArr9 V c (ix2 r k) := by
  show V c (Pipeline.arrRef spec9 0) (((cfg9.win 0).blk t).view.emb (ix2 p k)) = V c (Pipeline.arrRef spec9 0) (ix2 r k)
  refine congrArg _ ?_
  obtain ⟨e0, e1, -⟩ := bands9 t
  funext a; apply Fin.ext
  match a with
  | ⟨0, _⟩ => show win9_0.index t (0 : Fin 2) * 2000 + 1 * p.val = r.val; omega
  | ⟨1, _⟩ => show win9_0.index t (1 : Fin 2) * 256 + 1 * k.val = k.val; omega

/-- The same for the aggregate. -/
theorem gBlk9_apply (c : Dev nD) (t : Fin cfg9.N) (p : Fin 2000) (k : Fin 256) (r : Fin 50000) (hr : r.val = 2000 * t.val + p.val) :
    gBlk9 V c t (ix2 p k) = gArr9 V c (ix2 r k) := by
  show V c (Pipeline.arrRef spec9 1) (((cfg9.win 1).blk t).view.emb (ix2 p k)) = V c (Pipeline.arrRef spec9 1) (ix2 r k)
  refine congrArg _ ?_
  obtain ⟨-, -, e0, e1, -⟩ := bands9 t
  funext a; apply Fin.ext
  match a with
  | ⟨0, _⟩ => show win9_1.index t (0 : Fin 2) * 2000 + 1 * p.val = r.val; omega
  | ⟨1, _⟩ => show win9_1.index t (1 : Fin 2) * 256 + 1 * k.val = k.val; omega

/-- The weight's one block is the weight. -/
theorem wBlk9_apply (c : Dev nD) (t : Fin cfg9.N) (k : Fin 256) (q : Fin 256) : wBlk9 V c t (ix2 k q) = wArr9 V c (ix2 k q) := by
  show V c (Pipeline.arrRef spec9 2) (((cfg9.win 2).blk t).view.emb (ix2 k q)) = V c (Pipeline.arrRef spec9 2) (ix2 k q)
  refine congrArg _ ?_
  obtain ⟨-, -, -, -, e0, e1, -⟩ := bands9 t
  funext a; apply Fin.ext
  match a with
  | ⟨0, _⟩ => show win9_2.index t (0 : Fin 2) * 256 + 1 * k.val = k.val; omega
  | ⟨1, _⟩ => show win9_2.index t (1 : Fin 2) * 256 + 1 * q.val = q.val; omega

/-- The bias row's one block is the bias row. -/
theorem bBlk9_apply (c : Dev nD) (t : Fin cfg9.N) (q : Fin 256) : bBlk9 V c t (ix2 0 q) = bArr9 V c (ix2 0 q) := by
  show V c (Pipeline.arrRef spec9 3) (((cfg9.win 3).blk t).view.emb (ix2 0 q)) = V c (Pipeline.arrRef spec9 3) (ix2 0 q)
  refine congrArg _ ?_
  obtain ⟨-, -, -, -, -, -, e0, e1, -⟩ := bands9 t
  funext a; apply Fin.ext
  match a with
  | ⟨0, _⟩ => show win9_3.index t (0 : Fin 2) * 1 + 1 * 0 = 0; omega
  | ⟨1, _⟩ => show win9_3.index t (1 : Fin 2) * 256 + 1 * q.val = q.val; omega

/-- THE MATRIX u of the whole arrays: (h + agg) · W + b. -/
def uMat9 (c : Dev nD) : Gin.Mat :=
  Gin.lin (fun r k => Gin.toMat (V c (Pipeline.arrRef spec9 0)) r k + Gin.toMat (V c (Pipeline.arrRef spec9 1)) r k)
    (Gin.toWt (V c (Pipeline.arrRef spec9 2))) (Gin.toRow (V c (Pipeline.arrRef spec9 3)))

/-- The body's affine map of point `t`'s blocks is the band of rows 2000·t … 2000·t + 1999 of `uMat9`. -/
theorem band9 (c : Dev nD) (t : Fin cfg9.N) (p : Fin 2000) (q : Fin 256) (r : Fin 50000) (hr : r.val = 2000 * t.val + p.val) :
    k9_pay3 (F := Ideal) (hBlk9 V c t) (gBlk9 V c t) (wBlk9 V c t) (bBlk9 V c t) (ix2 p q) = uMat9 V c r q := by
  rw [k9_pay3_apply, bBlk9_apply V c t q]
  unfold uMat9 Gin.lin Gin.toMat Gin.toWt Gin.toRow
  refine congrArg (fun s : EReal => s + bArr9 V c (ix2 0 q)) (Finset.sum_congr rfl fun k _ => ?_)
  rw [hBlk9_apply V c t p k r hr, gBlk9_apply V c t p k r hr, wBlk9_apply V c t k q]

/-- The same band, squared entry by entry. -/
theorem bandSq9 (c : Dev nD) (t : Fin cfg9.N) (p : Fin 2000) (q : Fin 256) (r : Fin 50000) (hr : r.val = 2000 * t.val + p.val) :
    k9_pay3 (F := Ideal) (hBlk9 V c t) (gBlk9 V c t) (wBlk9 V c t) (bBlk9 V c t) (ix2 p q)
        * k9_pay3 (F := Ideal) (hBlk9 V c t) (gBlk9 V c t) (wBlk9 V c t) (bBlk9 V c t) (ix2 p q)
      = uMat9 V c r q * uMat9 V c r q := by
  rw [band9 V c t p q r hr]

/-- After EVERY point u's staging buffer holds the affine map of that point's blocks. -/
theorem uAt9 (c : Dev nD) (t : Fin cfg9.N) :
    (left9 V c t.val t.isLt).1 = k9_pay3 (F := Ideal) (hBlk9 V c t) (gBlk9 V c t) (wBlk9 V c t) (bBlk9 V c t) := by
  by_cases h0 : t.val = 0
  · rw [left9_first V c t h0]
    dsimp only
    exact resetOut9_4_eq (F := Ideal) c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) ((first9_iff t).mpr h0) (iblk9 V c 0 t) (iblk9 V c 1 t) (iblk9 V c 2 t) (iblk9 V c 3 t)
  · rw [left9_later V c t h0]
    dsimp only
    exact carryOut9_4_eq (F := Ideal) c (grid9.coords t) (buf9_0 t) (whole9_0 t) (buf9_1 t) (whole9_1 t) (buf9_2 t) (whole9_2 t) (buf9_3 t) (whole9_3 t) (buf9_4 t) (whole9_4 t) (buf9_5 t) (whole9_5 t) (buf9_6 t) (whole9_6 t) (fun h => h0 ((first9_iff t).mp h)) (iblk9 V c 0 t) (iblk9 V c 1 t) (iblk9 V c 2 t) (iblk9 V c 3 t) (left9 V c (t.val - 1) (Nat.lt_of_le_of_lt (Nat.sub_le _ _) t.isLt)).2.1 (left9 V c (t.val - 1) (Nat.lt_of_le_of_lt (Nat.sub_le _ _) t.isLt)).2.2

/-! ## Sums over the bands of rows -/

/-- Row `r` of a matrix at column `q`, and 0 past the last row: so that sums over rows are sums over ranges of naturals. -/
def rowOr9 (f : Gin.Mat) (q : Fin 256) (r : ℕ) : EReal := if h : r < 50000 then f ⟨r, h⟩ q else 0

/-- A sum over the 2000 rows of band `n`, each term that row's entry, is the sum of the entries over the band's range. -/
theorem bandSum9 (f : Gin.Mat) (q : Fin 256) (n : ℕ) (hn : n < 25) (g : Fin 2000 → EReal)
    (hg : ∀ (p : Fin 2000) (r : Fin 50000), r.val = 2000 * n + p.val → g p = f r q) :
    ∑ p : Fin 2000, g p = ∑ x ∈ Finset.range 2000, rowOr9 f q (2000 * n + x) := by
  rw [← Fin.sum_univ_eq_sum_range (fun x => rowOr9 f q (2000 * n + x)) 2000]
  refine Finset.sum_congr rfl fun p _ => ?_
  have hp := p.isLt
  have hr : 2000 * n + p.val < 50000 := by omega
  rw [hg p ⟨2000 * n + p.val, hr⟩ rfl]
  unfold rowOr9
  rw [dif_pos hr]

/-- The sum over all rows below 50000 is the column sum. -/
theorem allRows9 (f : Gin.Mat) (q : Fin 256) : ∑ x ∈ Finset.range 50000, rowOr9 f q x = Gin.colsum f q := by
  unfold Gin.colsum
  rw [← Fin.sum_univ_eq_sum_range (fun x => rowOr9 f q x) 50000]
  refine Finset.sum_congr rfl fun r _ => ?_
  unfold rowOr9
  rw [dif_pos r.isLt]

/-- THE COLUMN SUMS SO FAR. After point `n` the first accumulator's row holds the sum of `uMat9`'s entries over the rows below
    2000·(n+1): the zero row plus the first band's sums at the first point, the row found plus this band's sums later. -/
theorem sumAt9 (c : Dev nD) (q : Fin 256) : ∀ (n : ℕ) (hn : n < cfg9.N),
    (left9 V c n hn).2.1 (ix2 0 q) = ∑ x ∈ Finset.range (2000 * (n + 1)), rowOr9 (uMat9 V c) q x
  | 0, hn => by
    rw [left9_first V c ⟨0, hn⟩ rfl]
    dsimp only
    rw [resetOut9_5_eq (F := Ideal) c (grid9.coords ⟨0, hn⟩) (buf9_0 ⟨0, hn⟩) (whole9_0 ⟨0, hn⟩) (buf9_1 ⟨0, hn⟩) (whole9_1 ⟨0, hn⟩) (buf9_2 ⟨0, hn⟩) (whole9_2 ⟨0, hn⟩) (buf9_3 ⟨0, hn⟩) (whole9_3 ⟨0, hn⟩) (buf9_4 ⟨0, hn⟩) (whole9_4 ⟨0, hn⟩) (buf9_5 ⟨0, hn⟩) (whole9_5 ⟨0, hn⟩) (buf9_6 ⟨0, hn⟩) (whole9_6 ⟨0, hn⟩) ((first9_iff ⟨0, hn⟩).mpr rfl) (iblk9 V c 0 ⟨0, hn⟩) (iblk9 V c 1 ⟨0, hn⟩) (iblk9 V c 2 ⟨0, hn⟩) (iblk9 V c 3 ⟨0, hn⟩),
      k9_pay4_apply, k9_pay1_apply, zero_add,
      bandSum9 (uMat9 V c) q 0 (by omega) _ (fun p r hr => band9 V c ⟨0, hn⟩ p q r hr)]
    simp only [Nat.mul_zero, Nat.zero_add, Nat.mul_one]
  | n + 1, hn => by
    have hN : n + 1 < 25 := lt_of_lt_of_eq hn (show cfg9.N = 25 from N_9)
    rw [left9_later V c ⟨n + 1, hn⟩ (Nat.succ_ne_zero n)]
    dsimp only
    simp only [Nat.add_sub_cancel]
    rw [carryOut9_5_eq (F := Ideal) c (grid9.coords ⟨n + 1, hn⟩) (buf9_0 ⟨n + 1, hn⟩) (whole9_0 ⟨n + 1, hn⟩) (buf9_1 ⟨n + 1, hn⟩) (whole9_1 ⟨n + 1, hn⟩) (buf9_2 ⟨n + 1, hn⟩) (whole9_2 ⟨n + 1, hn⟩) (buf9_3 ⟨n + 1, hn⟩) (whole9_3 ⟨n + 1, hn⟩) (buf9_4 ⟨n + 1, hn⟩) (whole9_4 ⟨n + 1, hn⟩) (buf9_5 ⟨n + 1, hn⟩) (whole9_5 ⟨n + 1, hn⟩) (buf9_6 ⟨n + 1, hn⟩) (whole9_6 ⟨n + 1, hn⟩) (fun h => Nat.succ_ne_zero n ((first9_iff ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (left9 V c n (Nat.lt_of_succ_lt hn)).2.1 (left9 V c n (Nat.lt_of_succ_lt hn)).2.2,
      k9_pay4_apply, sumAt9 c q n (Nat.lt_of_succ_lt hn),
      bandSum9 (uMat9 V c) q (n + 1) hN _ (fun p r hr => band9 V c ⟨n + 1, hn⟩ p q r hr),
      show 2000 * (n + 1 + 1) = 2000 * (n + 1) + 2000 from by ring, Finset.sum_range_add]

/-- THE COLUMN SUMS OF SQUARES SO FAR, the same way. -/
theorem sqAt9 (c : Dev nD) (q : Fin 256) : ∀ (n : ℕ) (hn : n < cfg9.N),
    (left9 V c n hn).2.2 (ix2 0 q) = ∑ x ∈ Finset.range (2000 * (n + 1)), rowOr9 (fun r j => uMat9 V c r j * uMat9 V c r j) q x
  | 0, hn => by
    rw [left9_first V c ⟨0, hn⟩ rfl]
    dsimp only
    rw [resetOut9_6_eq (F := Ideal) c (grid9.coords ⟨0, hn⟩) (buf9_0 ⟨0, hn⟩) (whole9_0 ⟨0, hn⟩) (buf9_1 ⟨0, hn⟩) (whole9_1 ⟨0, hn⟩) (buf9_2 ⟨0, hn⟩) (whole9_2 ⟨0, hn⟩) (buf9_3 ⟨0, hn⟩) (whole9_3 ⟨0, hn⟩) (buf9_4 ⟨0, hn⟩) (whole9_4 ⟨0, hn⟩) (buf9_5 ⟨0, hn⟩) (whole9_5 ⟨0, hn⟩) (buf9_6 ⟨0, hn⟩) (whole9_6 ⟨0, hn⟩) ((first9_iff ⟨0, hn⟩).mpr rfl) (iblk9 V c 0 ⟨0, hn⟩) (iblk9 V c 1 ⟨0, hn⟩) (iblk9 V c 2 ⟨0, hn⟩) (iblk9 V c 3 ⟨0, hn⟩),
      k9_pay5_apply, k9_pay2_apply, zero_add,
      bandSum9 (fun r j => uMat9 V c r j * uMat9 V c r j) q 0 (by omega) _ (fun p r hr => bandSq9 V c ⟨0, hn⟩ p q r hr)]
    simp only [Nat.mul_zero, Nat.zero_add, Nat.mul_one]
  | n + 1, hn => by
    have hN : n + 1 < 25 := lt_of_lt_of_eq hn (show cfg9.N = 25 from N_9)
    rw [left9_later V c ⟨n + 1, hn⟩ (Nat.succ_ne_zero n)]
    dsimp only
    simp only [Nat.add_sub_cancel]
    rw [carryOut9_6_eq (F := Ideal) c (grid9.coords ⟨n + 1, hn⟩) (buf9_0 ⟨n + 1, hn⟩) (whole9_0 ⟨n + 1, hn⟩) (buf9_1 ⟨n + 1, hn⟩) (whole9_1 ⟨n + 1, hn⟩) (buf9_2 ⟨n + 1, hn⟩) (whole9_2 ⟨n + 1, hn⟩) (buf9_3 ⟨n + 1, hn⟩) (whole9_3 ⟨n + 1, hn⟩) (buf9_4 ⟨n + 1, hn⟩) (whole9_4 ⟨n + 1, hn⟩) (buf9_5 ⟨n + 1, hn⟩) (whole9_5 ⟨n + 1, hn⟩) (buf9_6 ⟨n + 1, hn⟩) (whole9_6 ⟨n + 1, hn⟩) (fun h => Nat.succ_ne_zero n ((first9_iff ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (left9 V c n (Nat.lt_of_succ_lt hn)).2.1 (left9 V c n (Nat.lt_of_succ_lt hn)).2.2,
      k9_pay5_apply, sqAt9 c q n (Nat.lt_of_succ_lt hn),
      bandSum9 (fun r j => uMat9 V c r j * uMat9 V c r j) q (n + 1) hN _ (fun p r hr => bandSq9 V c ⟨n + 1, hn⟩ p q r hr),
      show 2000 * (n + 1 + 1) = 2000 * (n + 1) + 2000 from by ring, Finset.sum_range_add]

/-! ## From the staging buffers to the arrays -/

/-- `uMat9` as contents of u's array. -/
def uArr9 (c : Dev nD) : Vec Ideal S50000x256 .f32 := fun i => uMat9 V c (i 0) (i 1)

/-- WHAT POINT `t` WRITES BACK is band `t` of `uArr9`. -/
theorem flushed9_4 (c : Dev nD) (t : Fin cfg9.N) :
    (dat9 V c).flushed 4 t = ((cfg9.win 4).blk t).view.read (Elt Ideal) (uArr9 V c) := by
  have hN : t.val < 25 := lt_of_lt_of_eq t.isLt (show cfg9.N = 25 from N_9)
  show (cfg9.win 4).cut (grid9.coords t) ((dat9 V c).after 4 t) = _
  rw [after9_4]
  funext j
  obtain ⟨p, q, rfl⟩ : ∃ (p : Fin 2000) (q : Fin 256), j = ix2 p q := ⟨j 0, j 1, eq_ix2 (n0 := 2000) (n1 := 256) j⟩
  obtain ⟨-, -, -, -, -, -, -, -, e0, e1, -⟩ := bands9 t
  have hp : p.val < 2000 := p.isLt
  have hr : 2000 * t.val + p.val < 50000 := by omega
  have hj : ((cfg9.win 4).blk t).view.emb (ix2 p q) = ix2 (⟨2000 * t.val + p.val, hr⟩ : Fin 50000) q := by
    funext a; apply Fin.ext
    match a with
    | ⟨0, _⟩ => show win9_4.index t (0 : Fin 2) * 2000 + 1 * p.val = 2000 * t.val + p.val; omega
    | ⟨1, _⟩ => show win9_4.index t (1 : Fin 2) * 256 + 1 * q.val = q.val; omega
  show (left9 V c t.val t.isLt).1 (ix2 p q) = uArr9 V c (((cfg9.win 4).blk t).view.emb (ix2 p q))
  rw [hj, uAt9 V c t]
  exact band9 V c t p q ⟨2000 * t.val + p.val, hr⟩ rfl

/-- An index of u's array is in point `t`'s block iff each coordinate is in the block's range on its axis. -/
theorem mem_blk9_4 (t : Fin cfg9.N) (i : (Pipeline.arrRef spec9 4).ty.shape.Idx) :
    i ∈ ((cfg9.win 4).blk t).view.set ↔ ∀ a : Fin 2, win9_4.index t a * S2000x256.size a ≤ (i a).val ∧ (i a).val < win9_4.index t a * S2000x256.size a + S2000x256.size a := by
  show i ∈ ((View.whole (Pipeline.arrRef spec9 4)).slice (win9_4.rect t)).set ↔ _
  rw [View.set_slice_whole, Rect.mem_set_unit]
  exact Iff.rfl

/-- The bands tile the array (row r is in band r / 2000), so u's array ends holding `uArr9`. -/
theorem final9_4 (c : Dev nD) : (dat9 V c).arrAt 4 cfg9.N = uArr9 V c :=
  (dat9 V c).arrAt_eq_of_cover 4 (uArr9 V c) (fun t _ => flushed9_4 V c t) fun i => by
    have hN : cfg9.N = 25 := N_9
    have hi0 : (i 0).val < 50000 := (i 0).isLt
    have hi1 : (i 1).val < 256 := (i 1).isLt
    refine ⟨⟨(i 0).val / 2000, by omega⟩, flush9_4 _, ?_⟩
    rw [mem_blk9_4]
    obtain ⟨-, -, -, -, -, -, -, -, e0, e1, -⟩ := bands9 (⟨(i 0).val / 2000, by omega⟩ : Fin cfg9.N)
    intro a
    match a with
    | ⟨0, _⟩ => show win9_4.index _ (0 : Fin 2) * 2000 ≤ (i 0).val ∧ (i 0).val < win9_4.index _ (0 : Fin 2) * 2000 + 2000; dsimp only at e0; omega
    | ⟨1, _⟩ => show win9_4.index _ (1 : Fin 2) * 256 ≤ (i 1).val ∧ (i 1).val < win9_4.index _ (1 : Fin 2) * 256 + 256; omega

/-- What the column-sum array is written back as: the column sums over all 50000 rows, as a row array. -/
def sumArr9 (c : Dev nD) : Vec Ideal S1x256 .f32 := fun i => Gin.colsum (uMat9 V c) (i 1)

set_option maxRecDepth 65536 in
/-- The one write-back of the column-sum array, after the last point, writes that row: block (0, 0) of the one-row array is the array, and the
    accumulator then holds the sum over every band. -/
theorem flushed9_5 (c : Dev nD) (t : Fin cfg9.N) (hf : (cfg9.win 5).flush t = true) :
    (dat9 V c).flushed 5 t = ((cfg9.win 5).blk t).view.read (Elt Ideal) (sumArr9 V c) := by
  have hN : cfg9.N = 25 := N_9
  have h24 : 2000 * (t.val + 1) = 50000 := by have := (flush9_5 t).mp hf; have := t.isLt; omega
  show (cfg9.win 5).cut (grid9.coords t) ((dat9 V c).after 5 t) = _
  rw [after9_5]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, e0, e1, -⟩ := bands9 t
  have hj : ((cfg9.win 5).blk t).view.emb (ix2 0 q) = ix2 0 q := by
    funext a; apply Fin.ext
    match a with
    | ⟨0, _⟩ => show win9_5.index t (0 : Fin 2) * 1 + 1 * 0 = 0; omega
    | ⟨1, _⟩ => show win9_5.index t (1 : Fin 2) * 256 + 1 * q.val = q.val; omega
  show (left9 V c t.val t.isLt).2.1 (ix2 0 q) = sumArr9 V c (((cfg9.win 5).blk t).view.emb (ix2 0 q))
  rw [hj]
  show (left9 V c t.val t.isLt).2.1 (ix2 0 q) = Gin.colsum (uMat9 V c) q
  rw [← allRows9, sumAt9 V c q t.val t.isLt, h24]

/-- An index of the column-sum array is in point `t`'s block iff each coordinate is in the block's range on its axis. -/
theorem mem_blk9_5 (t : Fin cfg9.N) (i : (Pipeline.arrRef spec9 5).ty.shape.Idx) :
    i ∈ ((cfg9.win 5).blk t).view.set ↔ ∀ a : Fin 2, win9_5.index t a * S1x256.size a ≤ (i a).val ∧ (i a).val < win9_5.index t a * S1x256.size a + S1x256.size a := by
  show i ∈ ((View.whole (Pipeline.arrRef spec9 5)).slice (win9_5.rect t)).set ↔ _
  rw [View.set_slice_whole, Rect.mem_set_unit]
  exact Iff.rfl

/-- So the column-sum array ends as that row. -/
theorem final9_5 (c : Dev nD) : (dat9 V c).arrAt 5 cfg9.N = sumArr9 V c :=
  (dat9 V c).arrAt_eq_of_cover 5 (sumArr9 V c) (flushed9_5 V c) fun i => by
    have hN : cfg9.N = 25 := N_9
    refine ⟨⟨24, by omega⟩, (flush9_5 _).mpr rfl, ?_⟩
    rw [mem_blk9_5]
    obtain ⟨-, -, -, -, -, -, -, -, -, -, e0, e1, -⟩ := bands9 (⟨24, by omega⟩ : Fin cfg9.N)
    intro a
    match a with
    | ⟨0, _⟩ => show win9_5.index _ (0 : Fin 2) * 1 ≤ (i 0).val ∧ (i 0).val < win9_5.index _ (0 : Fin 2) * 1 + 1; have hi0 : (i 0).val < 1 := (i 0).isLt; omega
    | ⟨1, _⟩ => show win9_5.index _ (1 : Fin 2) * 256 ≤ (i 1).val ∧ (i 1).val < win9_5.index _ (1 : Fin 2) * 256 + 256; have hi1 : (i 1).val < 256 := (i 1).isLt; omega

/-- What the sum-of-squares array is written back as: the column sums over all 50000 rows, as a row array. -/
def sqArr9 (c : Dev nD) : Vec Ideal S1x256 .f32 := fun i => Gin.colsum (fun r j => uMat9 V c r j * uMat9 V c r j) (i 1)

set_option maxRecDepth 65536 in
/-- The one write-back of the sum-of-squares array, after the last point, writes that row: block (0, 0) of the one-row array is the array, and the
    accumulator then holds the sum over every band. -/
theorem flushed9_6 (c : Dev nD) (t : Fin cfg9.N) (hf : (cfg9.win 6).flush t = true) :
    (dat9 V c).flushed 6 t = ((cfg9.win 6).blk t).view.read (Elt Ideal) (sqArr9 V c) := by
  have hN : cfg9.N = 25 := N_9
  have h24 : 2000 * (t.val + 1) = 50000 := by have := (flush9_6 t).mp hf; have := t.isLt; omega
  show (cfg9.win 6).cut (grid9.coords t) ((dat9 V c).after 6 t) = _
  rw [after9_6]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, -, -, e0, e1⟩ := bands9 t
  have hj : ((cfg9.win 6).blk t).view.emb (ix2 0 q) = ix2 0 q := by
    funext a; apply Fin.ext
    match a with
    | ⟨0, _⟩ => show win9_6.index t (0 : Fin 2) * 1 + 1 * 0 = 0; omega
    | ⟨1, _⟩ => show win9_6.index t (1 : Fin 2) * 256 + 1 * q.val = q.val; omega
  show (left9 V c t.val t.isLt).2.2 (ix2 0 q) = sqArr9 V c (((cfg9.win 6).blk t).view.emb (ix2 0 q))
  rw [hj]
  show (left9 V c t.val t.isLt).2.2 (ix2 0 q) = Gin.colsum (fun r j => uMat9 V c r j * uMat9 V c r j) q
  rw [← allRows9, sqAt9 V c q t.val t.isLt, h24]

/-- An index of the sum-of-squares array is in point `t`'s block iff each coordinate is in the block's range on its axis. -/
theorem mem_blk9_6 (t : Fin cfg9.N) (i : (Pipeline.arrRef spec9 6).ty.shape.Idx) :
    i ∈ ((cfg9.win 6).blk t).view.set ↔ ∀ a : Fin 2, win9_6.index t a * S1x256.size a ≤ (i a).val ∧ (i a).val < win9_6.index t a * S1x256.size a + S1x256.size a := by
  show i ∈ ((View.whole (Pipeline.arrRef spec9 6)).slice (win9_6.rect t)).set ↔ _
  rw [View.set_slice_whole, Rect.mem_set_unit]
  exact Iff.rfl

/-- So the sum-of-squares array ends as that row. -/
theorem final9_6 (c : Dev nD) : (dat9 V c).arrAt 6 cfg9.N = sqArr9 V c :=
  (dat9 V c).arrAt_eq_of_cover 6 (sqArr9 V c) (flushed9_6 V c) fun i => by
    have hN : cfg9.N = 25 := N_9
    refine ⟨⟨24, by omega⟩, (flush9_6 _).mpr rfl, ?_⟩
    rw [mem_blk9_6]
    obtain ⟨-, -, -, -, -, -, -, -, -, -, -, -, e0, e1⟩ := bands9 (⟨24, by omega⟩ : Fin cfg9.N)
    intro a
    match a with
    | ⟨0, _⟩ => show win9_6.index _ (0 : Fin 2) * 1 ≤ (i 0).val ∧ (i 0).val < win9_6.index _ (0 : Fin 2) * 1 + 1; have hi0 : (i 0).val < 1 := (i 0).isLt; omega
    | ⟨1, _⟩ => show win9_6.index _ (1 : Fin 2) * 256 ≤ (i 1).val ∧ (i 1).val < win9_6.index _ (1 : Fin 2) * 256 + 256; have hi1 : (i 1).val < 256 := (i 1).isLt; omega

/-! ## The region's three results -/

/-- The affine output: (h + agg) · W + b. -/
theorem val9_4 (c : Dev nD) : Gin.toMat ((dat9 V c).arrAt 4 cfg9.N)
    = Gin.lin (fun r k => Gin.toMat (V c (Pipeline.arrRef spec9 0)) r k + Gin.toMat (V c (Pipeline.arrRef spec9 1)) r k)
        (Gin.toWt (V c (Pipeline.arrRef spec9 2))) (Gin.toRow (V c (Pipeline.arrRef spec9 3))) := by
  rw [final9_4]
  rfl
/-- Its column sums. -/
theorem val9_5 (c : Dev nD) : Gin.toRow ((dat9 V c).arrAt 5 cfg9.N) = Gin.colsum (Gin.toMat ((dat9 V c).arrAt 4 cfg9.N)) := by
  rw [final9_5, final9_4]
  rfl
/-- The column sums of its squares. -/
theorem val9_6 (c : Dev nD) : Gin.toRow ((dat9 V c).arrAt 6 cfg9.N)
    = Gin.colsum (fun r j => Gin.toMat ((dat9 V c).arrAt 4 cfg9.N) r j * Gin.toMat ((dat9 V c).arrAt 4 cfg9.N) r j) := by
  rw [final9_6, final9_4]
  rfl

end Cert.KernelIdeal.Hand

end
-- ==== Proof.KI.Pay10.lean ====
/-
  The body of the normalise, multiply and accumulate-statistics step at the ideal values, read at an index (floats are
  extended reals, every operation exact, a change of float format the identity). Each value the body stores is, entry by
  entry, a plain sum or product of the entries it loaded: the normalised [2000,256] block times the [256,256] weight
  matrix plus the bias row; each accumulator row plus the column sums of a [2000,256] block, or of its squares; the zero
  rows of the first step; a row re-laid with its own layout.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx

/-! ## The [2000,256] × [256,256] product read at an entry -/

/-- Row axis of the left operand: the output's row. -/
theorem k10_lhs_axis0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- Column axis of the left operand: the contracted coordinate. -/
theorem k10_lhs_axis1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- Row axis of the right operand: the contracted coordinate. -/
theorem k10_rhs_axis0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- Column axis of the right operand: the output's column. -/
theorem k10_rhs_axis1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The matrix unit's product into a zero accumulator, at entry (p, q): the sum over the 256 contracted coordinates of
    the left operand's row p times the right operand's column q. -/
theorem k10_product_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  refine (Ideal.matmul_constant_zero_apply dot_S2000x256_S256x256_S2000x256_1_0_0_1_n_n none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact k10_lhs_axis0 _ _
      | ⟨1, _⟩ => exact (k10_lhs_axis1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (k10_rhs_axis0 _ _).trans hk
      | ⟨1, _⟩ => exact k10_rhs_axis1 _ _)
  rw [el, er]

/-! ## A column sum of a [2000,256] block, laid as a [1,256] row -/

/-- The sum over the 2000 rows, read at lane q. -/
theorem k10_colsum_apply (x : FVec Ideal S2000x256 .f32) (hacc : (0x00000000#32 : BitVec 32) = 0x00000000#32) (q : Fin 256) :
    multiReduction (F := Ideal) .add [0] S256 x 0x00000000#32 reduces_S2000x256_S256 (.inl rfl) hacc (ix1 q)
      = ∑ p : Fin 2000, x (ix2 p q) := by
  refine (Ideal.multiReduction_add_single x 0x00000000#32 reduces_S2000x256_S256 (.inl rfl) hacc (ix1 q)).trans ?_
  refine Finset.sum_congr rfl fun p _ => congrArg x ?_
  funext a
  match a with
  | ⟨0, _⟩ => rfl
  | ⟨1, _⟩ => rfl

/-! ## What the body stores, entry by entry -/

/-- The normalised block times the weights plus the bias: entry (p, q) is the sum over k of
    ((x[p,k] − mean[k]) · rsqrt(var[k] + ε) · gain[k] + shift[k]) · w[k,q], plus bias[q]; the narrowing to bf16 in
    front of the matrix unit is the identity on extended reals. -/
theorem k10_pay5_apply (v3 : Vec Ideal S2000x256 .f32) (v5 v9 v16 v20 : Vec Ideal S1x256 .f32)
    (v25 : Vec Ideal S256x256 .bf16) (v28 : Vec Ideal S1x256 .f32) (p : Fin 2000) (q : Fin 256) :
    k10_pay5 (F := Ideal) v3 v5 v9 v16 v20 v25 v28 (ix2 p q)
      = (∑ k : Fin 256, ((v3 (ix2 p k) - v5 (ix2 0 k)) * Ideal.rsqrt (v9 (ix2 0 k) + Ideal.ofBits .f32 0x3727C5AC#32)
            * v16 (ix2 0 k) + v20 (ix2 0 k)) * v25 (ix2 k q))
        + v28 (ix2 0 q) := by
  unfold k10_pay5
  simp only [shapeCast_self]
  refine (addf_apply _ _ _).trans ?_
  refine congrArg₂ (· + ·) ?_ ?_
  · refine (k10_product_apply _ _ p q).trans ?_
    refine Finset.sum_congr rfl fun k _ => congrArg (· * v25 (ix2 k q)) ?_
    show (v3 (ix2 p k) - broadcastTo S2000x256 v5 broadcasts_S1x256_S2000x256 (ix2 p k))
          * broadcastTo S2000x256 (rsqrt (addf v9 (broadcast S1x256 (Scalar.ofBits (F := Ideal) .f32 0x3727C5AC#32))))
              broadcasts_S1x256_S2000x256 (ix2 p k)
          * broadcastTo S2000x256 v16 broadcasts_S1x256_S2000x256 (ix2 p k)
        + broadcastTo S2000x256 v20 broadcasts_S1x256_S2000x256 (ix2 p k) = _
    rw [broadcastTo_1b_ab_apply v5 broadcasts_S1x256_S2000x256 p k,
      broadcastTo_1b_ab_apply (rsqrt (addf v9 (broadcast S1x256 (Scalar.ofBits (F := Ideal) .f32 0x3727C5AC#32))))
        broadcasts_S1x256_S2000x256 p k,
      broadcastTo_1b_ab_apply v16 broadcasts_S1x256_S2000x256 p k,
      broadcastTo_1b_ab_apply v20 broadcasts_S1x256_S2000x256 p k]
    rfl
  · exact broadcastTo_1b_ab_apply v28 broadcasts_S1x256_S2000x256 p q

/-- The first accumulator row plus the column sums of the block. -/
theorem k10_pay1_apply (v31 : FVec Ideal S2000x256 .f32) (v34 : FVec Ideal S1x256 .f32) (q : Fin 256) :
    k10_pay1 (F := Ideal) v31 v34 (ix2 0 q) = v34 (ix2 0 q) + ∑ p : Fin 2000, v31 (ix2 p q) := by
  unfold k10_pay1
  refine (addf_apply _ _ _).trans ?_
  refine congrArg (v34 (ix2 0 q) + ·) ?_
  refine (shapeCast_a_1a_apply _ shapeCasts_S256_S1x256 0 q).trans ?_
  exact k10_colsum_apply v31 rfl q

/-- The second accumulator row plus the column sums of the block's squares. -/
theorem k10_pay2_apply (v31 : FVec Ideal S2000x256 .f32) (v39 : Vec Ideal S1x256 .f32) (q : Fin 256) :
    k10_pay2 (F := Ideal) v31 v39 (ix2 0 q) = v39 (ix2 0 q) + ∑ p : Fin 2000, v31 (ix2 p q) * v31 (ix2 p q) := by
  unfold k10_pay2
  simp only [shapeCast_self]
  refine (addf_apply _ _ _).trans ?_
  refine congrArg (v39 (ix2 0 q) + ·) ?_
  refine (shapeCast_a_1a_apply _ shapeCasts_S256_S1x256 0 q).trans ?_
  exact k10_colsum_apply (mulf v31 v31) rfl q

/-- The zero row the first step stores into the first accumulator. -/
theorem k10_pay3_apply (q : Fin 256) : k10_pay3 (F := Ideal) (ix2 0 q) = 0 := by
  unfold k10_pay3
  exact Ideal.ofBits_zero_f32

/-- The zero row the first step stores into the second accumulator. -/
theorem k10_pay4_apply (q : Fin 256) : k10_pay4 (F := Ideal) (ix2 0 q) = 0 := by
  unfold k10_pay4
  exact Ideal.ofBits_zero_f32

/-- A [1,256] row re-laid as a [1,256] row is itself. -/
theorem k10_pay6_eq (v33 : Vec Ideal S1x256 .f32) : k10_pay6 (F := Ideal) v33 = v33 := by
  unfold k10_pay6
  exact shapeCast_self v33 shapeCasts_S1x256_S1x256

/-- … so at lane q it reads the row's lane q. -/
theorem k10_pay6_apply (v33 : Vec Ideal S1x256 .f32) (q : Fin 256) : k10_pay6 (F := Ideal) v33 (ix2 0 q) = v33 (ix2 0 q) :=
  congrFun (k10_pay6_eq v33) (ix2 0 q)

end Cert.KernelIdeal.PayVal

end
-- ==== Proof.KI.R10Val.lean ====
/-
  What region 10 of the idealized kernel program leaves in its output arrays, at the exact instance, as functions of what it finds in its
  input arrays: the mathematics of the kernel body summed over the grid.
-/
import proofs.«102822_j3521873183180_1_alg».proof.Proof.KI.R10
import proofs.«102822_j3521873183180_1_alg».proof.Proof.Spec
import proofs.«102822_j3521873183180_1_alg».proof.Proof.KI.Pay10
import proofs.«102822_j3521873183180_1_alg».proof.Proof.LibBlockSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat)

section Pieces

variable {F : FTy → Type} [FloatOps F]

/-! ## What each case's stores leave, as the body's payloads of the blocks (any float instance) -/

theorem hz10 : (![0, 0] : Fin 2 → Nat) = fun _ => 0 := funext fun a => by fin_cases a <;> rfl

/-- At the first point the block output's buffer ends at the one store's payload: the affine map of the normalised input block. -/
theorem out10_A_7_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out10_A_7 c i arg1 harg1 arg2 harg2 arg3 harg3 arg4 harg4 arg5 harg5 arg6 harg6 arg7 harg7 arg8 harg8 arg9 harg9 arg10 harg10 hc0 x0 x1 x2 x3 x4 x5 x6 = k10_pay5 x0 x1 x2 x3 x4 x5 x6 := by
  unfold out10_A_7
  rw [View.read_writes_eq_canon _ _ _ (cover10_A_7 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  sl_unfold_words
  rw [View.canon_unit_zero hz10]
  simp only [View.readAt_eq_ld, harg1.read_unread, harg2.read_unread, harg3.read_unread, harg4.read_unread, harg5.read_unread, harg6.read_unread, harg7.read_unread, harg9.read_unread, harg10.read_unread,
    View.ld_unit_zero (S := S2000x256) hz10, View.ld_unit_zero (S := S1x256) hz10, View.ld_unit_zero (S := S256x256) hz10]

/-- At the first point the first accumulator ends at the zero row, read back, plus the block's column sums. -/
theorem out10_A_8_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out10_A_8 c i arg1 harg1 arg2 harg2 arg3 harg3 arg4 harg4 arg5 harg5 arg6 harg6 arg7 harg7 arg8 harg8 arg9 harg9 arg10 harg10 hc0 x0 x1 x2 x3 x4 x5 x6 = k10_pay1 (k10_pay5 x0 x1 x2 x3 x4 x5 x6) (k10_pay6 (k10_pay3 (F := F))) := by
  unfold out10_A_8
  rw [View.read_writes_eq_canon _ _ _ (cover10_A_8 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  sl_unfold_words
  rw [View.canon_cons_unit_zero (S := S1x256) hz10, View.readCov_unit_zero (S := S1x256) _ hz10]
  simp only [View.readAt_eq_ld, harg1.read_unread, harg2.read_unread, harg3.read_unread, harg4.read_unread, harg5.read_unread, harg6.read_unread, harg7.read_unread, harg9.read_unread, harg10.read_unread,
    View.ld_unit_zero (S := S2000x256) hz10, View.ld_unit_zero (S := S1x256) hz10, View.ld_unit_zero (S := S256x256) hz10]

/-- At the first point the second accumulator ends at the zero row, read back, plus the column sums of the block's squares. -/
theorem out10_A_9_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out10_A_9 c i arg1 harg1 arg2 harg2 arg3 harg3 arg4 harg4 arg5 harg5 arg6 harg6 arg7 harg7 arg8 harg8 arg9 harg9 arg10 harg10 hc0 x0 x1 x2 x3 x4 x5 x6 = k10_pay2 (k10_pay5 x0 x1 x2 x3 x4 x5 x6) (k10_pay4 (F := F)) := by
  unfold out10_A_9
  rw [View.read_writes_eq_canon _ _ _ (cover10_A_9 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  sl_unfold_words
  rw [View.canon_cons_unit_zero (S := S1x256) hz10, View.readCov_unit_zero (S := S1x256) _ hz10]
  simp only [View.readAt_eq_ld, harg1.read_unread, harg2.read_unread, harg3.read_unread, harg4.read_unread, harg5.read_unread, harg6.read_unread, harg7.read_unread, harg9.read_unread, harg10.read_unread,
    View.ld_unit_zero (S := S2000x256) hz10, View.ld_unit_zero (S := S1x256) hz10, View.ld_unit_zero (S := S256x256) hz10]

/-- At any other point the block output's buffer ends at the one store's payload: the affine map of the normalised input block. -/
theorem out10_B_7_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out10_B_7 c i arg1 harg1 arg2 harg2 arg3 harg3 arg4 harg4 arg5 harg5 arg6 harg6 arg7 harg7 arg8 harg8 arg9 harg9 arg10 harg10 hc0 x0 x1 x2 x3 x4 x5 x6 xo8 xo9 = k10_pay5 x0 x1 x2 x3 x4 x5 x6 := by
  unfold out10_B_7
  rw [View.read_writes_eq_canon _ _ _ (cover10_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  sl_unfold_words
  rw [View.canon_unit_zero hz10]
  simp only [View.readAt_eq_ld, harg1.read_unread, harg2.read_unread, harg3.read_unread, harg4.read_unread, harg5.read_unread, harg6.read_unread, harg7.read_unread, harg9.read_unread, harg10.read_unread,
    View.ld_unit_zero (S := S2000x256) hz10, View.ld_unit_zero (S := S1x256) hz10, View.ld_unit_zero (S := S256x256) hz10]

/-- At any other point the first accumulator ends at what it held plus the block's column sums. -/
theorem out10_B_8_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out10_B_8 c i arg1 harg1 arg2 harg2 arg3 harg3 arg4 harg4 arg5 harg5 arg6 harg6 arg7 harg7 arg8 harg8 arg9 harg9 arg10 harg10 hc0 x0 x1 x2 x3 x4 x5 x6 xo8 xo9 = k10_pay1 (k10_pay5 x0 x1 x2 x3 x4 x5 x6) (k10_pay6 xo8) := by
  unfold out10_B_8
  rw [View.read_writes_eq_canon _ _ _ (cover10_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  sl_unfold_words
  rw [View.canon_unit_zero hz10]
  simp only [View.readAt_eq_ld, harg1.read_unread, harg2.read_unread, harg3.read_unread, harg4.read_unread, harg5.read_unread, harg6.read_unread, harg7.read_unread, harg9.read_unread, harg10.read_unread,
    View.ld_unit_zero (S := S2000x256) hz10, View.ld_unit_zero (S := S1x256) hz10, View.ld_unit_zero (S := S256x256) hz10]

/-- At any other point the second accumulator ends at what it held plus the column sums of the block's squares. -/
theorem out10_B_9_eq (c : Dev nD) (i : grid10.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond10_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out10_B_9 c i arg1 harg1 arg2 harg2 arg3 harg3 arg4 harg4 arg5 harg5 arg6 harg6 arg7 harg7 arg8 harg8 arg9 harg9 arg10 harg10 hc0 x0 x1 x2 x3 x4 x5 x6 xo8 xo9 = k10_pay2 (k10_pay5 x0 x1 x2 x3 x4 x5 x6) xo9 := by
  unfold out10_B_9
  rw [View.read_writes_eq_canon _ _ _ (cover10_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  sl_unfold_words
  rw [View.canon_unit_zero hz10]
  simp only [View.readAt_eq_ld, harg1.read_unread, harg2.read_unread, harg3.read_unread, harg4.read_unread, harg5.read_unread, harg6.read_unread, harg7.read_unread, harg9.read_unread, harg10.read_unread,
    View.ld_unit_zero (S := S2000x256) hz10, View.ld_unit_zero (S := S1x256) hz10, View.ld_unit_zero (S := S256x256) hz10]

end Pieces

/-! ## The region at the exact instance -/

variable (V : (c : Dev nD) → (b : Ref sig .tc) → Buf (Elt Ideal) ((c : Thread nD τ).loc b))

/-- The grid has 25 points: a point's number is below 25. -/
theorem pt_lt10 (t : Fin cfg10.N) : t.val < 25 := lt_of_lt_of_eq t.isLt N_10

/-- What the region computes into its block output: the affine map bn(u; μ, σ², γ, β) · W + b of its input arrays. -/
def aff10 (c : Dev nD) : Gin.Mat :=
  Gin.lin (Gin.bn (Gin.toMat (V c (Pipeline.arrRef spec10 0))) (Gin.toRow (V c (Pipeline.arrRef spec10 1))) (Gin.toRow (V c (Pipeline.arrRef spec10 2)))
      (Gin.toRow (V c (Pipeline.arrRef spec10 3))) (Gin.toRow (V c (Pipeline.arrRef spec10 4))))
    (Gin.toWt (V c (Pipeline.arrRef spec10 5))) (Gin.toRow (V c (Pipeline.arrRef spec10 6)))

/-! ## Where each window's block sits in its array -/

/-- The printed index maps, decided over the grid: the two row-blocked windows are at block `t`, every other window at block 0. -/
theorem idx10_0 : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)
theorem idx10_1 : ∀ t : Fin cfg10.N, win10_1.index t (0 : Fin 2) = 0 ∧ win10_1.index t (1 : Fin 2) = 0 :=
  (by decide +kernel : ∀ t : Fin grid10.N, win10_1.index t (0 : Fin 2) = 0 ∧ win10_1.index t (1 : Fin 2) = 0)
theorem idx10_2 : ∀ t : Fin cfg10.N, win10_2.index t (0 : Fin 2) = 0 ∧ win10_2.index t (1 : Fin 2) = 0 :=
  (by decide +kernel : ∀ t : Fin grid10.N, win10_2.index t (0 : Fin 2) = 0 ∧ win10_2.index t (1 : Fin 2) = 0)
theorem idx10_3 : ∀ t : Fin cfg10.N, win10_3.index t (0 : Fin 2) = 0 ∧ win10_3.index t (1 : Fin 2) = 0 :=
  (by decide +kernel : ∀ t : Fin grid10.N, win10_3.index t (0 : Fin 2) = 0 ∧ win10_3.index t (1 : Fin 2) = 0)
theorem idx10_4 : ∀ t : Fin cfg10.N, win10_4.index t (0 : Fin 2) = 0 ∧ win10_4.index t (1 : Fin 2) = 0 :=
  (by decide +kernel : ∀ t : Fin grid10.N, win10_4.index t (0 : Fin 2) = 0 ∧ win10_4.index t (1 : Fin 2) = 0)
theorem idx10_5 : ∀ t : Fin cfg10.N, win10_5.index t (0 : Fin 2) = 0 ∧ win10_5.index t (1 : Fin 2) = 0 :=
  (by decide +kernel : ∀ t : Fin grid10.N, win10_5.index t (0 : Fin 2) = 0 ∧ win10_5.index t (1 : Fin 2) = 0)
theorem idx10_6 : ∀ t : Fin cfg10.N, win10_6.index t (0 : Fin 2) = 0 ∧ win10_6.index t (1 : Fin 2) = 0 :=
  (by decide +kernel : ∀ t : Fin grid10.N, win10_6.index t (0 : Fin 2) = 0 ∧ win10_6.index t (1 : Fin 2) = 0)
theorem idx10_7 : ∀ t : Fin cfg10.N, win10_7.index t (0 : Fin 2) = t.val ∧ win10_7.index t (1 : Fin 2) = 0 :=
  (by decide +kernel : ∀ t : Fin grid10.N, win10_7.index t (0 : Fin 2) = t.val ∧ win10_7.index t (1 : Fin 2) = 0)
theorem idx10_8 : ∀ t : Fin cfg10.N, win10_8.index t (0 : Fin 2) = 0 ∧ win10_8.index t (1 : Fin 2) = 0 :=
  (by decide +kernel : ∀ t : Fin grid10.N, win10_8.index t (0 : Fin 2) = 0 ∧ win10_8.index t (1 : Fin 2) = 0)
theorem idx10_9 : ∀ t : Fin cfg10.N, win10_9.index t (0 : Fin 2) = 0 ∧ win10_9.index t (1 : Fin 2) = 0 :=
  (by decide +kernel : ∀ t : Fin grid10.N, win10_9.index t (0 : Fin 2) = 0 ∧ win10_9.index t (1 : Fin 2) = 0)

/-- Row `p` of block `t` of a row-blocked window is row `2000 t + p` of its array. -/
theorem emb10_0 (t : Fin cfg10.N) (p : Fin 2000) (q : Fin 256) :
    ((cfg10.win 0).blk t).view.emb (ix2 p q) = ix2 (⟨2000 * t.val + p.val, BlockSum.row_lt (pt_lt10 t) p⟩ : Fin 50000) q := by
  funext a; apply Fin.ext
  obtain ⟨e0, e1⟩ := idx10_0 t
  match a with
  | ⟨0, _⟩ => show win10_0.index t (0 : Fin 2) * 2000 + 1 * p.val = 2000 * t.val + p.val; rw [e0]; omega
  | ⟨1, _⟩ => show win10_0.index t (1 : Fin 2) * 256 + 1 * q.val = q.val; rw [e1]; omega
theorem emb10_7 (t : Fin cfg10.N) (p : Fin 2000) (q : Fin 256) :
    ((cfg10.win 7).blk t).view.emb (ix2 p q) = ix2 (⟨2000 * t.val + p.val, BlockSum.row_lt (pt_lt10 t) p⟩ : Fin 50000) q := by
  funext a; apply Fin.ext
  obtain ⟨e0, e1⟩ := idx10_7 t
  match a with
  | ⟨0, _⟩ => show win10_7.index t (0 : Fin 2) * 2000 + 1 * p.val = 2000 * t.val + p.val; rw [e0]; omega
  | ⟨1, _⟩ => show win10_7.index t (1 : Fin 2) * 256 + 1 * q.val = q.val; rw [e1]; omega
/-- The one block of a row window is its array. -/
theorem emb10_1 (t : Fin cfg10.N) (q : Fin 256) :
    ((cfg10.win 1).blk t).view.emb (ix2 (0 : Fin 1) q) = ix2 (0 : Fin 1) q := by
  funext a; apply Fin.ext
  obtain ⟨e0, e1⟩ := idx10_1 t
  match a with
  | ⟨0, _⟩ => show win10_1.index t (0 : Fin 2) * 1 + 1 * (0 : Fin 1).val = (0 : Fin 1).val; rw [e0]; omega
  | ⟨1, _⟩ => show win10_1.index t (1 : Fin 2) * 256 + 1 * q.val = q.val; rw [e1]; omega
theorem emb10_2 (t : Fin cfg10.N) (q : Fin 256) :
    ((cfg10.win 2).blk t).view.emb (ix2 (0 : Fin 1) q) = ix2 (0 : Fin 1) q := by
  funext a; apply Fin.ext
  obtain ⟨e0, e1⟩ := idx10_2 t
  match a with
  | ⟨0, _⟩ => show win10_2.index t (0 : Fin 2) * 1 + 1 * (0 : Fin 1).val = (0 : Fin 1).val; rw [e0]; omega
  | ⟨1, _⟩ => show win10_2.index t (1 : Fin 2) * 256 + 1 * q.val = q.val; rw [e1]; omega
theorem emb10_3 (t : Fin cfg10.N) (q : Fin 256) :
    ((cfg10.win 3).blk t).view.emb (ix2 (0 : Fin 1) q) = ix2 (0 : Fin 1) q := by
  funext a; apply Fin.ext
  obtain ⟨e0, e1⟩ := idx10_3 t
  match a with
  | ⟨0, _⟩ => show win10_3.index t (0 : Fin 2) * 1 + 1 * (0 : Fin 1).val = (0 : Fin 1).val; rw [e0]; omega
  | ⟨1, _⟩ => show win10_3.index t (1 : Fin 2) * 256 + 1 * q.val = q.val; rw [e1]; omega
theorem emb10_4 (t : Fin cfg10.N) (q : Fin 256) :
    ((cfg10.win 4).blk t).view.emb (ix2 (0 : Fin 1) q) = ix2 (0 : Fin 1) q := by
  funext a; apply Fin.ext
  obtain ⟨e0, e1⟩ := idx10_4 t
  match a with
  | ⟨0, _⟩ => show win10_4.index t (0 : Fin 2) * 1 + 1 * (0 : Fin 1).val = (0 : Fin 1).val; rw [e0]; omega
  | ⟨1, _⟩ => show win10_4.index t (1 : Fin 2) * 256 + 1 * q.val = q.val; rw [e1]; omega
theorem emb10_6 (t : Fin cfg10.N) (q : Fin 256) :
    ((cfg10.win 6).blk t).view.emb (ix2 (0 : Fin 1) q) = ix2 (0 : Fin 1) q := by
  funext a; apply Fin.ext
  obtain ⟨e0, e1⟩ := idx10_6 t
  match a with
  | ⟨0, _⟩ => show win10_6.index t (0 : Fin 2) * 1 + 1 * (0 : Fin 1).val = (0 : Fin 1).val; rw [e0]; omega
  | ⟨1, _⟩ => show win10_6.index t (1 : Fin 2) * 256 + 1 * q.val = q.val; rw [e1]; omega
theorem emb10_8 (t : Fin cfg10.N) (q : Fin 256) :
    ((cfg10.win 8).blk t).view.emb (ix2 (0 : Fin 1) q) = ix2 (0 : Fin 1) q := by
  funext a; apply Fin.ext
  obtain ⟨e0, e1⟩ := idx10_8 t
  match a with
  | ⟨0, _⟩ => show win10_8.index t (0 : Fin 2) * 1 + 1 * (0 : Fin 1).val = (0 : Fin 1).val; rw [e0]; omega
  | ⟨1, _⟩ => show win10_8.index t (1 : Fin 2) * 256 + 1 * q.val = q.val; rw [e1]; omega
theorem emb10_9 (t : Fin cfg10.N) (q : Fin 256) :
    ((cfg10.win 9).blk t).view.emb (ix2 (0 : Fin 1) q) = ix2 (0 : Fin 1) q := by
  funext a; apply Fin.ext
  obtain ⟨e0, e1⟩ := idx10_9 t
  match a with
  | ⟨0, _⟩ => show win10_9.index t (0 : Fin 2) * 1 + 1 * (0 : Fin 1).val = (0 : Fin 1).val; rw [e0]; omega
  | ⟨1, _⟩ => show win10_9.index t (1 : Fin 2) * 256 + 1 * q.val = q.val; rw [e1]; omega
/-- The one block of the weight window is its array. -/
theorem emb10_5 (t : Fin cfg10.N) (k : Fin 256) (q : Fin 256) :
    ((cfg10.win 5).blk t).view.emb (ix2 k q) = ix2 k q := by
  funext a; apply Fin.ext
  obtain ⟨e0, e1⟩ := idx10_5 t
  match a with
  | ⟨0, _⟩ => show win10_5.index t (0 : Fin 2) * 256 + 1 * k.val = k.val; rw [e0]; omega
  | ⟨1, _⟩ => show win10_5.index t (1 : Fin 2) * 256 + 1 * q.val = q.val; rw [e1]; omega

/-! ## The input blocks, entry by entry -/

theorem blk10_0_apply (c : Dev nD) (t : Fin cfg10.N) (p : Fin 2000) (k : Fin 256) :
    iblk10 V c 0 t (ix2 p k) = Gin.toMat (V c (Pipeline.arrRef spec10 0)) ⟨2000 * t.val + p.val, BlockSum.row_lt (pt_lt10 t) p⟩ k := by
  show V c (Pipeline.arrRef spec10 0) (((cfg10.win 0).blk t).view.emb (ix2 p k)) = _
  rw [emb10_0]
  rfl
theorem blk10_1_apply (c : Dev nD) (t : Fin cfg10.N) (k : Fin 256) :
    iblk10 V c 1 t (ix2 (0 : Fin 1) k) = Gin.toRow (V c (Pipeline.arrRef spec10 1)) k := by
  show V c (Pipeline.arrRef spec10 1) (((cfg10.win 1).blk t).view.emb (ix2 (0 : Fin 1) k)) = _
  rw [emb10_1]
  rfl
theorem blk10_2_apply (c : Dev nD) (t : Fin cfg10.N) (k : Fin 256) :
    iblk10 V c 2 t (ix2 (0 : Fin 1) k) = Gin.toRow (V c (Pipeline.arrRef spec10 2)) k := by
  show V c (Pipeline.arrRef spec10 2) (((cfg10.win 2).blk t).view.emb (ix2 (0 : Fin 1) k)) = _
  rw [emb10_2]
  rfl
theorem blk10_3_apply (c : Dev nD) (t : Fin cfg10.N) (k : Fin 256) :
    iblk10 V c 3 t (ix2 (0 : Fin 1) k) = Gin.toRow (V c (Pipeline.arrRef spec10 3)) k := by
  show V c (Pipeline.arrRef spec10 3) (((cfg10.win 3).blk t).view.emb (ix2 (0 : Fin 1) k)) = _
  rw [emb10_3]
  rfl
theorem blk10_4_apply (c : Dev nD) (t : Fin cfg10.N) (k : Fin 256) :
    iblk10 V c 4 t (ix2 (0 : Fin 1) k) = Gin.toRow (V c (Pipeline.arrRef spec10 4)) k := by
  show V c (Pipeline.arrRef spec10 4) (((cfg10.win 4).blk t).view.emb (ix2 (0 : Fin 1) k)) = _
  rw [emb10_4]
  rfl
theorem blk10_6_apply (c : Dev nD) (t : Fin cfg10.N) (k : Fin 256) :
    iblk10 V c 6 t (ix2 (0 : Fin 1) k) = Gin.toRow (V c (Pipeline.arrRef spec10 6)) k := by
  show V c (Pipeline.arrRef spec10 6) (((cfg10.win 6).blk t).view.emb (ix2 (0 : Fin 1) k)) = _
  rw [emb10_6]
  rfl
theorem blk10_5_apply (c : Dev nD) (t : Fin cfg10.N) (k : Fin 256) (q : Fin 256) :
    iblk10 V c 5 t (ix2 k q) = Gin.toWt (V c (Pipeline.arrRef spec10 5)) k q := by
  show V c (Pipeline.arrRef spec10 5) (((cfg10.win 5).blk t).view.emb (ix2 k q)) = _
  rw [emb10_5]
  rfl

/-- The body's block payload at the region's input blocks: row `p` of block `t` of the affine map. -/
theorem pay5_blocks10 (c : Dev nD) (t : Fin cfg10.N) (p : Fin 2000) (q : Fin 256) :
    k10_pay5 (F := Ideal) (iblk10 V c 0 t) (iblk10 V c 1 t) (iblk10 V c 2 t) (iblk10 V c 3 t) (iblk10 V c 4 t) (iblk10 V c 5 t) (iblk10 V c 6 t) (ix2 p q)
      = aff10 V c ⟨2000 * t.val + p.val, BlockSum.row_lt (pt_lt10 t) p⟩ q := by
  refine (PayVal.k10_pay5_apply (iblk10 V c 0 t) (iblk10 V c 1 t) (iblk10 V c 2 t) (iblk10 V c 3 t) (iblk10 V c 4 t) (iblk10 V c 5 t) (iblk10 V c 6 t) p q).trans ?_
  simp only [blk10_0_apply, blk10_1_apply, blk10_2_apply, blk10_3_apply, blk10_4_apply, blk10_5_apply, blk10_6_apply]
  rfl

/-! ## The block output -/

/-- The block output's array after the region: entry (r, j) of the affine map. -/
def G10_7 (c : Dev nD) : (⟨2, ![Gin.N, Gin.D]⟩ : Shape).Idx → EReal := fun i => aff10 V c (i 0) (i 1)

/-- What point `t` writes back of the block output is block `t` of it. -/
theorem flushed10_7_eq (c : Dev nD) (t : Fin cfg10.N) :
    (dat10 V c).flushed 7 t = ((cfg10.win 7).blk t).view.read (Elt Ideal) (G10_7 V c) := by
  show (cfg10.win 7).cut (grid10.coords t) ((dat10 V c).after 7 t) = _
  rw [after10_7]
  funext y
  obtain ⟨p, q, rfl⟩ : ∃ (p : Fin 2000) (q : Fin 256), y = ix2 p q := ⟨y 0, y 1, eq_ix2 (n0 := 2000) (n1 := 256) y⟩
  show (outsAt10 V c t.val t.isLt).1 (ix2 p q) = G10_7 V c (((cfg10.win 7).blk t).view.emb (ix2 p q))
  rw [emb10_7]
  show _ = aff10 V c ⟨2000 * t.val + p.val, BlockSum.row_lt (pt_lt10 t) p⟩ q
  by_cases h0 : t.val % 25 = 0
  · rw [outsAt10_A V c t h0]; dsimp only; rw [out10_A_7_eq]; exact pay5_blocks10 V c t p q
  · rw [outsAt10_B V c t h0]; dsimp only; rw [out10_B_7_eq]; exact pay5_blocks10 V c t p q

/-- The block output's array after the region, entry by entry. -/
theorem arr10_7_apply (c : Dev nD) (r : Fin 50000) (j : Fin 256) :
    Gin.toMat ((dat10 V c).arrAt 7 cfg10.N) r j = aff10 V c r j := by
  have ht : r.val / 2000 < cfg10.N := lt_of_lt_of_eq (BlockSum.block_of_row r).1 N_10.symm
  have h := Dat.arrAt_apply_of_mem (dat10 V c) 7 (G10_7 V c) (fun t _ => flushed10_7_eq V c t) cfg10.N ⟨r.val / 2000, ht⟩
    (((cfg10.win 7).blk ⟨r.val / 2000, ht⟩).view.emb (ix2 (BlockSum.posOf r) j)) ht (flush10_7 _) (View.emb_mem_set _ _)
  rw [emb10_7] at h
  have hrow : (⟨2000 * (⟨r.val / 2000, ht⟩ : Fin cfg10.N).val + (BlockSum.posOf r).val, BlockSum.row_lt (pt_lt10 ⟨r.val / 2000, ht⟩) (BlockSum.posOf r)⟩ : Fin 50000) = r :=
    Fin.ext (BlockSum.block_of_row r).2.2
  rw [hrow] at h
  exact h

/-- The affine output of the normalised input: bn(u; μ, σ², γ, β) · W + b. -/
theorem val10_7 (c : Dev nD) : Gin.toMat ((dat10 V c).arrAt 7 cfg10.N)
    = Gin.lin (Gin.bn (Gin.toMat (V c (Pipeline.arrRef spec10 0))) (Gin.toRow (V c (Pipeline.arrRef spec10 1))) (Gin.toRow (V c (Pipeline.arrRef spec10 2)))
          (Gin.toRow (V c (Pipeline.arrRef spec10 3))) (Gin.toRow (V c (Pipeline.arrRef spec10 4))))
        (Gin.toWt (V c (Pipeline.arrRef spec10 5))) (Gin.toRow (V c (Pipeline.arrRef spec10 6))) := by
  funext r j
  exact arr10_7_apply V c r j

/-! ## The two accumulators -/

/-- The last point of the grid, where the accumulators are written back. -/
abbrev tLast10 : Fin cfg10.N := ⟨24, lt_of_lt_of_eq (by decide : 24 < 25) N_10.symm⟩

/-- After point `n` the first accumulator holds, lane by lane, the column sums of the affine map over the rows of the blocks so far. -/
theorem acc10_8 (c : Dev nD) (q : Fin 256) : ∀ (n : ℕ) (h : n < cfg10.N),
    (outsAt10 V c n h).2.1 (ix2 (0 : Fin 1) q) = 0 + BlockSum.upTo (fun r => aff10 V c r q) (n + 1)
  | 0, h => by
    rw [outsAt10_A V c ⟨0, h⟩ rfl]
    dsimp only
    rw [out10_A_8_eq]
    refine (PayVal.k10_pay1_apply _ _ q).trans ?_
    rw [PayVal.k10_pay6_apply, PayVal.k10_pay3_apply, BlockSum.upTo_succ _ 0 (by omega), BlockSum.upTo_zero]
    simp only [zero_add]
    refine Finset.sum_congr rfl fun p _ => ?_
    rw [pay5_blocks10 V c ⟨0, h⟩ p q]
  | n + 1, h => by
    have hN : n + 1 < 25 := lt_of_lt_of_eq h N_10
    have hB : ¬(⟨n + 1, h⟩ : Fin cfg10.N).val % 25 = 0 := by dsimp only; omega
    rw [outsAt10_B V c ⟨n + 1, h⟩ hB]
    dsimp only
    rw [out10_B_8_eq]
    refine (PayVal.k10_pay1_apply _ _ q).trans ?_
    rw [PayVal.k10_pay6_apply]
    show (outsAt10 V c n _).2.1 (ix2 (0 : Fin 1) q) + _ = _
    rw [acc10_8 c q n, BlockSum.upTo_succ _ (n + 1) hN, ← add_assoc]
    refine congrArg (0 + BlockSum.upTo _ (n + 1) + ·) (Finset.sum_congr rfl fun p _ => ?_)
    rw [pay5_blocks10 V c ⟨n + 1, h⟩ p q]

/-- The accumulator's array after the region. -/
def G10_8 (c : Dev nD) : (⟨2, ![1, Gin.D]⟩ : Shape).Idx → EReal := fun i => 0 + ∑ r, (fun q => aff10 V c r q) (i 1)

/-- Its one write-back, at the last point, writes the whole sum. -/
theorem flushed10_8_eq (c : Dev nD) (t : Fin cfg10.N) (hf : (cfg10.win 8).flush t = true) :
    (dat10 V c).flushed 8 t = ((cfg10.win 8).blk t).view.read (Elt Ideal) (G10_8 V c) := by
  have h24 : t.val = 24 := by have := (flush10_8 t).mp hf; have := pt_lt10 t; omega
  show (cfg10.win 8).cut (grid10.coords t) ((dat10 V c).after 8 t) = _
  rw [after10_8]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt10 V c t.val t.isLt).2.1 (ix2 (0 : Fin 1) q) = G10_8 V c (((cfg10.win 8).blk t).view.emb (ix2 (0 : Fin 1) q))
  rw [emb10_8, acc10_8 V c q t.val t.isLt, h24, BlockSum.upTo_all]
  rfl

/-- The accumulator's array after the region, lane by lane. -/
theorem arr10_8_apply (c : Dev nD) (q : Fin 256) :
    Gin.toRow ((dat10 V c).arrAt 8 cfg10.N) q = ∑ r, aff10 V c r q := by
  have h := Dat.arrAt_apply_of_mem (dat10 V c) 8 (G10_8 V c) (fun t hf => flushed10_8_eq V c t hf) cfg10.N tLast10
    (((cfg10.win 8).blk tLast10).view.emb (ix2 (0 : Fin 1) q)) tLast10.isLt ((flush10_8 tLast10).mpr rfl) (View.emb_mem_set _ _)
  rw [emb10_8] at h
  exact h.trans (zero_add _ : (0 : EReal) + _ = _)

/-- After point `n` the second accumulator holds, lane by lane, the column sums of the affine map's squares over the rows of the blocks so far. -/
theorem acc10_9 (c : Dev nD) (q : Fin 256) : ∀ (n : ℕ) (h : n < cfg10.N),
    (outsAt10 V c n h).2.2 (ix2 (0 : Fin 1) q) = 0 + BlockSum.upTo (fun r => aff10 V c r q * aff10 V c r q) (n + 1)
  | 0, h => by
    rw [outsAt10_A V c ⟨0, h⟩ rfl]
    dsimp only
    rw [out10_A_9_eq]
    refine (PayVal.k10_pay2_apply _ _ q).trans ?_
    rw [PayVal.k10_pay4_apply, BlockSum.upTo_succ _ 0 (by omega), BlockSum.upTo_zero]
    simp only [zero_add]
    refine Finset.sum_congr rfl fun p _ => ?_
    rw [pay5_blocks10 V c ⟨0, h⟩ p q]
  | n + 1, h => by
    have hN : n + 1 < 25 := lt_of_lt_of_eq h N_10
    have hB : ¬(⟨n + 1, h⟩ : Fin cfg10.N).val % 25 = 0 := by dsimp only; omega
    rw [outsAt10_B V c ⟨n + 1, h⟩ hB]
    dsimp only
    rw [out10_B_9_eq]
    refine (PayVal.k10_pay2_apply _ _ q).trans ?_
    show (outsAt10 V c n _).2.2 (ix2 (0 : Fin 1) q) + _ = _
    rw [acc10_9 c q n, BlockSum.upTo_succ _ (n + 1) hN, ← add_assoc]
    refine congrArg (0 + BlockSum.upTo _ (n + 1) + ·) (Finset.sum_congr rfl fun p _ => ?_)
    rw [pay5_blocks10 V c ⟨n + 1, h⟩ p q]

/-- The accumulator's array after the region. -/
def G10_9 (c : Dev nD) : (⟨2, ![1, Gin.D]⟩ : Shape).Idx → EReal := fun i => 0 + ∑ r, (fun q => aff10 V c r q * aff10 V c r q) (i 1)

/-- Its one write-back, at the last point, writes the whole sum. -/
theorem flushed10_9_eq (c : Dev nD) (t : Fin cfg10.N) (hf : (cfg10.win 9).flush t = true) :
    (dat10 V c).flushed 9 t = ((cfg10.win 9).blk t).view.read (Elt Ideal) (G10_9 V c) := by
  have h24 : t.val = 24 := by have := (flush10_9 t).mp hf; have := pt_lt10 t; omega
  show (cfg10.win 9).cut (grid10.coords t) ((dat10 V c).after 9 t) = _
  rw [after10_9]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt10 V c t.val t.isLt).2.2 (ix2 (0 : Fin 1) q) = G10_9 V c (((cfg10.win 9).blk t).view.emb (ix2 (0 : Fin 1) q))
  rw [emb10_9, acc10_9 V c q t.val t.isLt, h24, BlockSum.upTo_all]
  rfl

/-- The accumulator's array after the region, lane by lane. -/
theorem arr10_9_apply (c : Dev nD) (q : Fin 256) :
    Gin.toRow ((dat10 V c).arrAt 9 cfg10.N) q = ∑ r, aff10 V c r q * aff10 V c r q := by
  have h := Dat.arrAt_apply_of_mem (dat10 V c) 9 (G10_9 V c) (fun t hf => flushed10_9_eq V c t hf) cfg10.N tLast10
    (((cfg10.win 9).blk tLast10).view.emb (ix2 (0 : Fin 1) q)) tLast10.isLt ((flush10_9 tLast10).mpr rfl) (View.emb_mem_set _ _)
  rw [emb10_9] at h
  exact h.trans (zero_add _ : (0 : EReal) + _ = _)

/-- Its column sums. -/
theorem val10_8 (c : Dev nD) : Gin.toRow ((dat10 V c).arrAt 8 cfg10.N) = Gin.colsum (Gin.toMat ((dat10 V c).arrAt 7 cfg10.N)) := by
  funext q
  show _ = ∑ r, Gin.toMat ((dat10 V c).arrAt 7 cfg10.N) r q
  exact (arr10_8_apply V c q).trans (Finset.sum_congr rfl fun r _ => (arr10_7_apply V c r q).symm)
/-- The column sums of its squares. -/
theorem val10_9 (c : Dev nD) : Gin.toRow ((dat10 V c).arrAt 9 cfg10.N)
    = Gin.colsum (fun r j => Gin.toMat ((dat10 V c).arrAt 7 cfg10.N) r j * Gin.toMat ((dat10 V c).arrAt 7 cfg10.N) r j) := by
  funext q
  show _ = ∑ r, Gin.toMat ((dat10 V c).arrAt 7 cfg10.N) r q * Gin.toMat ((dat10 V c).arrAt 7 cfg10.N) r q
  exact (arr10_9_apply V c q).trans (Finset.sum_congr rfl fun r _ => by rw [arr10_7_apply V c r q])

end Cert.KernelIdeal.Hand

end
-- ==== Proof.KI.Pay11.lean ====
/-
  One launch of the kernel that normalizes a block of rows and keeps a running row of column sums, read at an index at the
  ideal values: floats are extended reals, every operation is exact, and a change of float format is the identity. The
  generated skeleton states each value the body stores as one pure term of the values it loads, the payloads `k11_pay1`,
  `k11_pay2`, `k11_pay3`. Here each payload is read at an index as plain sums and products of extended reals.

  The body loads a block x of 2000 rows by 256 columns and four rows of 256 entries: the column means, the column
  variances, a scale and a shift.
    • `k11_pay2` at (p, q) is ((x[p, q] − mean[0, q]) · rsqrt(var[0, q] + ε)) · scale[0, q] + shift[0, q], with ε the binary32
      value nearest 1e-5 (the word 0x3727C5AC): the normalized block;
    • `k11_pay3` at (0, q) is s[0, q] + ∑ₚ `k11_pay2`[p, q]: the running row s plus the normalized block's column sums;
    • `k11_pay1` — the zero row the running row is reset to at the first grid point — is 0 at every column.
  The steps: the same-shape casts are the identity; a row broadcast over the block's rows reads its one row; the products,
  the sum and the difference read entrywise; the reduction over the rows is the sum over the row coordinate, and the index
  it inserts that coordinate into is (p, q); the cast of the 256 column sums to a one-row block reads the sum at its column.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-- A row of 256 entries laid over the 2000 rows of the block reads, at row p and column q, its entry q. (The body first
    casts the row to its own shape, which changes nothing.) -/
private theorem row_over_block (v : Vec Ideal S1x256 .f32) (p : Fin 2000) (q : Fin 256) :
    broadcastTo S2000x256 (shapeCast S1x256 v shapeCasts_S1x256_S1x256) broadcasts_S1x256_S2000x256 (ix2 p q)
      = v (ix2 0 q) := by
  rw [shapeCast_self]
  exact broadcastTo_1b_ab_apply v broadcasts_S1x256_S2000x256 p q

/-- The sum of a 2000 × 256 block over its rows reads, at column q, the sum over p of the block's entries (p, q): the
    index the reduction inserts coordinate p into is (p, q). -/
private theorem column_sum (src : FVec Ideal S2000x256 .f32) (hφ : FKind.Formats .f32)
    (hacc : (0x00000000#32 : BitVec 32) = FKind.add.neutral .f32 hφ) (q : Fin 256) :
    multiReduction (F := Ideal) .add [0] S256 src 0x00000000#32 reduces_S2000x256_S256 hφ hacc (ix1 q)
      = ∑ p : Fin 2000, src (ix2 p q) := by
  refine (Ideal.multiReduction_add_single src _ reduces_S2000x256_S256 hφ hacc (ix1 q)).trans ?_
  refine Finset.sum_congr rfl fun p _ => congrArg src ?_
  funext c
  apply Fin.ext
  match c with
  | ⟨0, _⟩ => rfl
  | ⟨1, _⟩ => rfl

/-- The running row's reset value is zero in every column. -/
theorem k11_pay1_apply (q : Fin 256) : k11_pay1 (F := Ideal) (ix2 0 q) = 0 := by
  unfold k11_pay1
  exact Ideal.ofBits_zero_f32

/-- The normalized block at row p and column q: subtract the column's mean, multiply by the reciprocal root of the column's
    variance plus ε, multiply by the column's scale, add the column's shift. -/
theorem k11_pay2_apply (v3 : Vec Ideal S2000x256 .f32) (v5 v9 v16 v20 : Vec Ideal S1x256 .f32) (p : Fin 2000) (q : Fin 256) :
    k11_pay2 (F := Ideal) v3 v5 v9 v16 v20 (ix2 p q)
      = (v3 (ix2 p q) - v5 (ix2 0 q)) * Ideal.rsqrt (v9 (ix2 0 q) + Ideal.ofBits .f32 0x3727C5AC#32) * v16 (ix2 0 q)
        + v20 (ix2 0 q) := by
  unfold k11_pay2
  simp only [addf_apply, mulf_apply, subf_apply]
  rw [row_over_block v5 p q, row_over_block v16 p q, row_over_block v20 p q, shapeCast_self, broadcastTo_1b_ab_apply,
    shapeCast_self]
  rfl

/-- The running row after the body, at column q: what it held plus the sum over the block's 2000 rows of the normalized
    block's entries in column q. -/
theorem k11_pay3_apply (v3 : Vec Ideal S2000x256 .f32) (v5 v9 v16 v20 v25 : Vec Ideal S1x256 .f32) (q : Fin 256) :
    k11_pay3 (F := Ideal) v3 v5 v9 v16 v20 v25 (ix2 0 q)
      = v25 (ix2 0 q) + ∑ p : Fin 2000, k11_pay2 (F := Ideal) v3 v5 v9 v16 v20 (ix2 p q) := by
  unfold k11_pay3
  simp only [addf_apply]
  rw [shapeCast_self, shapeCast_a_1a_apply]
  exact congrArg (v25 (ix2 0 q) + ·) (column_sum _ _ _ q)

end Cert.KernelIdeal.PayVal
-- ==== Proof.KI.R11Val.lean ====
/-
  What region 11 of the idealized kernel program leaves in its output arrays, at the exact instance, as functions of what it finds in its
  input arrays: the mathematics of the kernel body summed over the grid.

  The normalized block of a point is the normalization of that point's block of rows, so the array of normalized rows, written
  back block by block, is the normalization of the whole array of rows. The running row after a point is the sum of the normalized
  rows of all blocks up to that point (the first point starts from the zero row), so what the last point writes back is the sum
  over all rows.
-/
import proofs.«102822_j3521873183180_1_alg».proof.Proof.KI.R11
import proofs.«102822_j3521873183180_1_alg».proof.Proof.KI.Pay11
import proofs.«102822_j3521873183180_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat)
open scoped BigOperators

section Pieces
variable {F : FTy → Type} [FloatOps F]

/-- The offsets of every load and store of the body: zero on both axes (each is of a whole buffer). -/
theorem zeros11 : (![0, 0] : Fin 2 → Nat) = fun _ => 0 := funext fun a => by fin_cases a <;> rfl

/-! ## Each case's stores, read as values -/

/-- The first point leaves in the normalized block's buffer the normalization of the input blocks (its one whole-block store). -/
theorem rowsFirst11_eq (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) :
    rowsFirst11 c i arg1 harg1 arg2 harg2 arg3 harg3 arg4 harg4 arg5 harg5 arg6 harg6 arg7 harg7 hc u mean var gain shift = k11_pay2 u mean var gain shift := by
  unfold rowsFirst11
  unfold runFirst11
  dsimp only
  sl_unfold_words
  rw [View.canon_unit_zero zeros11]
  simp only [View.readAt_eq_ld, harg1.read_unread, harg2.read_unread, harg3.read_unread, harg4.read_unread, harg5.read_unread, harg7.read_unread,
    View.ld_unit_zero (S := S2000x256) zeros11, View.ld_unit_zero (S := S1x256) zeros11, View.readCov_unit_zero (S := S1x256) _ zeros11]

/-- The first point leaves in the running row's buffer the reset row plus the block's column sums: the last store covers the row,
    and the row it adds to is the reset row read back. -/
theorem sumsFirst11_eq (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst11 i)
    (u : Vec F S2000x256 .f32) (mean : Vec F S1x256 .f32) (var : Vec F S1x256 .f32) (gain : Vec F S1x256 .f32) (shift : Vec F S1x256 .f32) :
    sumsFirst11 c i arg1 harg1 arg2 harg2 arg3 harg3 arg4 harg4 arg5 harg5 arg6 harg6 arg7 harg7 hc u mean var gain shift = k11_pay3 u mean var gain shift (k11_pay1 (F := F)) := by
  unfold sumsFirst11
  unfold runFirst11
  dsimp only
  sl_unfold_words
  rw [View.canon_cons_unit_zero (S := S1x256) zeros11]
  simp only [View.readAt_eq_ld, harg1.read_unread, harg2.read_unread, harg3.read_unread, harg4.read_unread, harg5.read_unread, harg7.read_unread,
    View.ld_unit_zero (S := S2000x256) zeros11, View.ld_unit_zero (S := S1x256) zeros11, View.readCov_unit_zero (S := S1x256) _ zeros11]

/-- A later point leaves in the normalized block's buffer the normalization of the input blocks. -/
theorem rowsLater11_eq (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) :
    rowsLater11 c i arg1 harg1 arg2 harg2 arg3 harg3 arg4 harg4 arg5 harg5 arg6 harg6 arg7 harg7 hc u mean var gain shift acc = k11_pay2 u mean var gain shift := by
  unfold rowsLater11
  unfold runLater11
  dsimp only
  sl_unfold_words
  rw [View.canon_unit_zero zeros11]
  simp only [View.readAt_eq_ld, harg1.read_unread, harg2.read_unread, harg3.read_unread, harg4.read_unread, harg5.read_unread, harg7.read_unread,
    View.ld_unit_zero (S := S2000x256) zeros11, View.ld_unit_zero (S := S1x256) zeros11, View.readCov_unit_zero (S := S1x256) _ zeros11]

/-- A later point leaves in the running row's buffer the row it found plus the block's column sums. -/
theorem sumsLater11_eq (c : Dev nD) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst11 i)
    (u : Vec F S2000x256 .f32) (mean : Vec F S1x256 .f32) (var : Vec F S1x256 .f32) (gain : Vec F S1x256 .f32) (shift : Vec F S1x256 .f32) (acc : Vec F S1x256 .f32) :
    sumsLater11 c i arg1 harg1 arg2 harg2 arg3 harg3 arg4 harg4 arg5 harg5 arg6 harg6 arg7 harg7 hc u mean var gain shift acc = k11_pay3 u mean var gain shift acc := by
  unfold sumsLater11
  unfold runLater11
  dsimp only
  sl_unfold_words
  rw [View.canon_unit_zero zeros11]
  simp only [View.readAt_eq_ld, harg1.read_unread, harg2.read_unread, harg3.read_unread, harg4.read_unread, harg5.read_unread, harg7.read_unread,
    View.ld_unit_zero (S := S2000x256) zeros11, View.ld_unit_zero (S := S1x256) zeros11, View.readCov_unit_zero (S := S1x256) _ zeros11]

end Pieces

variable (V : (c : Dev nD) → (b : Ref sig .tc) → Buf (Elt Ideal) ((c : Thread nD τ).loc b))

/-! ## The same at a grid point, over the point's input blocks -/

/-- The input blocks of point `t` at their literal types: the block of rows, and the mean, variance, gain and shift rows. -/
abbrev rowsIn11 (c : Dev nD) (t : Fin cfg11.N) : Vec Ideal S2000x256 .f32 := iblk11 V c 0 t
abbrev meanIn11 (c : Dev nD) (t : Fin cfg11.N) : Vec Ideal S1x256 .f32 := iblk11 V c 1 t
abbrev varIn11 (c : Dev nD) (t : Fin cfg11.N) : Vec Ideal S1x256 .f32 := iblk11 V c 2 t
abbrev gainIn11 (c : Dev nD) (t : Fin cfg11.N) : Vec Ideal S1x256 .f32 := iblk11 V c 3 t
abbrev shiftIn11 (c : Dev nD) (t : Fin cfg11.N) : Vec Ideal S1x256 .f32 := iblk11 V c 4 t

/-- The normalized block after any point is the normalization of that point's input blocks (the same in both cases). -/
theorem rowsAt11_eq (c : Dev nD) (t : Fin cfg11.N) :
    rowsAt11 V c t = k11_pay2 (rowsIn11 V c t) (meanIn11 V c t) (varIn11 V c t) (gainIn11 V c t) (shiftIn11 V c t) := by
  by_cases h0 : t.val % 25 = 0
  · rw [rowsAt11_first V c t h0]
    unfold rowsFirstAt11
    exact rowsFirst11_eq c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) ((atFirst11_iff t).mpr h0) (iblk11 V c 0 t) (iblk11 V c 1 t) (iblk11 V c 2 t) (iblk11 V c 3 t) (iblk11 V c 4 t)
  · rw [rowsAt11_later V c t h0]
    unfold rowsLaterAt11
    exact rowsLater11_eq c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) (fun h => h0 ((atFirst11_iff t).mp h)) (iblk11 V c 0 t) (iblk11 V c 1 t) (iblk11 V c 2 t) (iblk11 V c 3 t) (iblk11 V c 4 t) (sumsBefore11 V c t)

/-- The running row after the first point: the reset row plus the first block's column sums. -/
theorem sumsAt11_reset (c : Dev nD) (t : Fin cfg11.N) (h0 : t.val % 25 = 0) :
    sumsAt11 V c t.val t.isLt = k11_pay3 (rowsIn11 V c t) (meanIn11 V c t) (varIn11 V c t) (gainIn11 V c t) (shiftIn11 V c t) (k11_pay1 (F := Ideal)) := by
  rw [sumsAt11_first V c t h0]
  unfold sumsFirstAt11
  exact sumsFirst11_eq c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) ((atFirst11_iff t).mpr h0) (iblk11 V c 0 t) (iblk11 V c 1 t) (iblk11 V c 2 t) (iblk11 V c 3 t) (iblk11 V c 4 t)

/-- The running row after a later point: the row after the point before plus this block's column sums. -/
theorem sumsAt11_step (c : Dev nD) (t : Fin cfg11.N) (h0 : ¬t.val % 25 = 0) :
    sumsAt11 V c t.val t.isLt = k11_pay3 (rowsIn11 V c t) (meanIn11 V c t) (varIn11 V c t) (gainIn11 V c t) (shiftIn11 V c t) (sumsBefore11 V c t) := by
  rw [sumsAt11_later V c t h0]
  unfold sumsLaterAt11
  exact sumsLater11_eq c (grid11.coords t) (stg11_0 t) (stgWhole11_0 t) (stg11_1 t) (stgWhole11_1 t) (stg11_2 t) (stgWhole11_2 t) (stg11_3 t) (stgWhole11_3 t) (stg11_4 t) (stgWhole11_4 t) (stg11_5 t) (stgWhole11_5 t) (stg11_6 t) (stgWhole11_6 t) (fun h => h0 ((atFirst11_iff t).mp h)) (iblk11 V c 0 t) (iblk11 V c 1 t) (iblk11 V c 2 t) (iblk11 V c 3 t) (iblk11 V c 4 t) (sumsBefore11 V c t)

/-! ## Where a block's elements sit in its array -/

/-- The block index of each window at each point, decided over the grid: the blocks of rows (windows 0 and 5) move down with the
    point; the rows (windows 1 to 4 and 6) stay. -/
theorem blockIndex11 : ∀ t : Fin cfg11.N,
    win11_0.index t (0 : Fin 2) = t.val ∧ win11_0.index t (1 : Fin 2) = 0
    ∧ win11_5.index t (0 : Fin 2) = t.val ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_6.index t (0 : Fin 2) = 0 ∧ win11_6.index t (1 : Fin 2) = 0 :=
  (by decide +kernel : ∀ t : Fin grid11.N, _)

theorem point_lt11 (t : Fin cfg11.N) : t.val < 25 := lt_of_lt_of_eq t.isLt (show cfg11.N = 25 from N_11)

/-- Row `r` of point `t`'s block is row `2000 t + r` of the array. -/
def rowOf11 (t : Fin cfg11.N) (r : Fin 2000) : Fin 50000 :=
  ⟨2000 * t.val + r.val, by have := point_lt11 t; have := r.isLt; omega⟩

/-- The arrays the region reads, as it finds them, at their literal types. -/
abbrev rowsArr11 (c : Dev nD) : Vec Ideal S50000x256 .f32 := V c (Pipeline.arrRef spec11 0)
abbrev meanArr11 (c : Dev nD) : Vec Ideal S1x256 .f32 := V c (Pipeline.arrRef spec11 1)
abbrev varArr11 (c : Dev nD) : Vec Ideal S1x256 .f32 := V c (Pipeline.arrRef spec11 2)
abbrev gainArr11 (c : Dev nD) : Vec Ideal S1x256 .f32 := V c (Pipeline.arrRef spec11 3)
abbrev shiftArr11 (c : Dev nD) : Vec Ideal S1x256 .f32 := V c (Pipeline.arrRef spec11 4)

/-- An element of point `t`'s block of rows is the array's element in row `2000 t + r`. -/
theorem rowsIn11_apply (c : Dev nD) (t : Fin cfg11.N) (r : Fin 2000) (j : Fin 256) :
    rowsIn11 V c t (ix2 r j) = rowsArr11 V c (ix2 (rowOf11 t r) j) := by
  obtain ⟨e0, e1, -⟩ := blockIndex11 t
  unfold rowsIn11 iblk11
  rw [View.read_apply]
  show V c (Pipeline.arrRef spec11 0) _ = V c (Pipeline.arrRef spec11 0) _
  congr 1
  funext a
  apply Fin.ext
  match a with
  | ⟨0, _⟩ => show win11_0.index t (0 : Fin 2) * 2000 + 1 * r.val = 2000 * t.val + r.val; omega
  | ⟨1, _⟩ => show win11_0.index t (1 : Fin 2) * 256 + 1 * j.val = j.val; omega

/-- The mean row's block at any point is the whole row. -/
theorem meanIn11_apply (c : Dev nD) (t : Fin cfg11.N) (j : Fin 256) :
    meanIn11 V c t (ix2 0 j) = meanArr11 V c (ix2 0 j) := by
  have e := blockIndex11 t
  unfold meanIn11 iblk11
  rw [View.read_apply]
  show V c (Pipeline.arrRef spec11 1) _ = V c (Pipeline.arrRef spec11 1) _
  congr 1
  funext a
  apply Fin.ext
  match a with
  | ⟨0, _⟩ => show win11_1.index t (0 : Fin 2) * 1 + 1 * 0 = 0; omega
  | ⟨1, _⟩ => show win11_1.index t (1 : Fin 2) * 256 + 1 * j.val = j.val; omega

/-- The var row's block at any point is the whole row. -/
theorem varIn11_apply (c : Dev nD) (t : Fin cfg11.N) (j : Fin 256) :
    varIn11 V c t (ix2 0 j) = varArr11 V c (ix2 0 j) := by
  have e := blockIndex11 t
  unfold varIn11 iblk11
  rw [View.read_apply]
  show V c (Pipeline.arrRef spec11 2) _ = V c (Pipeline.arrRef spec11 2) _
  congr 1
  funext a
  apply Fin.ext
  match a with
  | ⟨0, _⟩ => show win11_2.index t (0 : Fin 2) * 1 + 1 * 0 = 0; omega
  | ⟨1, _⟩ => show win11_2.index t (1 : Fin 2) * 256 + 1 * j.val = j.val; omega

/-- The gain row's block at any point is the whole row. -/
theorem gainIn11_apply (c : Dev nD) (t : Fin cfg11.N) (j : Fin 256) :
    gainIn11 V c t (ix2 0 j) = gainArr11 V c (ix2 0 j) := by
  have e := blockIndex11 t
  unfold gainIn11 iblk11
  rw [View.read_apply]
  show V c (Pipeline.arrRef spec11 3) _ = V c (Pipeline.arrRef spec11 3) _
  congr 1
  funext a
  apply Fin.ext
  match a with
  | ⟨0, _⟩ => show win11_3.index t (0 : Fin 2) * 1 + 1 * 0 = 0; omega
  | ⟨1, _⟩ => show win11_3.index t (1 : Fin 2) * 256 + 1 * j.val = j.val; omega

/-- The shift row's block at any point is the whole row. -/
theorem shiftIn11_apply (c : Dev nD) (t : Fin cfg11.N) (j : Fin 256) :
    shiftIn11 V c t (ix2 0 j) = shiftArr11 V c (ix2 0 j) := by
  have e := blockIndex11 t
  unfold shiftIn11 iblk11
  rw [View.read_apply]
  show V c (Pipeline.arrRef spec11 4) _ = V c (Pipeline.arrRef spec11 4) _
  congr 1
  funext a
  apply Fin.ext
  match a with
  | ⟨0, _⟩ => show win11_4.index t (0 : Fin 2) * 1 + 1 * 0 = 0; omega
  | ⟨1, _⟩ => show win11_4.index t (1 : Fin 2) * 256 + 1 * j.val = j.val; omega

/-! ## The array of normalized rows -/

/-- The normalization of the whole array of rows by the mean, variance, gain and shift rows, as a matrix -/
abbrev hnewMat11 (c : Dev nD) : Gin.Mat :=
  Gin.bn (Gin.toMat (rowsArr11 V c)) (Gin.toRow (meanArr11 V c)) (Gin.toRow (varArr11 V c)) (Gin.toRow (gainArr11 V c)) (Gin.toRow (shiftArr11 V c))

/-- and as contents of the output array. -/
def hnewArr11 (c : Dev nD) : Vec Ideal S50000x256 .f32 := fun i => hnewMat11 V c (i 0) (i 1)

/-- An element of the block the body computes at point `t` is the normalized matrix's element in row `2000 t + r`. -/
theorem normalized11_apply (c : Dev nD) (t : Fin cfg11.N) (r : Fin 2000) (j : Fin 256) :
    k11_pay2 (rowsIn11 V c t) (meanIn11 V c t) (varIn11 V c t) (gainIn11 V c t) (shiftIn11 V c t) (ix2 r j) = hnewMat11 V c (rowOf11 t r) j := by
  rw [PayVal.k11_pay2_apply, rowsIn11_apply, meanIn11_apply, varIn11_apply, gainIn11_apply, shiftIn11_apply]
  rfl

/-- Where an element of point `t`'s output block sits in the output array: row `2000 t + r`, the same column. -/
theorem emb11_5 (t : Fin cfg11.N) (r : Fin 2000) (j : Fin 256) :
    ((cfg11.win 5).blk t).view.emb (ix2 r j) = ix2 (rowOf11 t r) j := by
  obtain ⟨-, -, e0, e1, -⟩ := blockIndex11 t
  funext a
  apply Fin.ext
  match a with
  | ⟨0, _⟩ => show win11_5.index t (0 : Fin 2) * 2000 + 1 * r.val = 2000 * t.val + r.val; omega
  | ⟨1, _⟩ => show win11_5.index t (1 : Fin 2) * 256 + 1 * j.val = j.val; omega

/-- WHAT POINT `t` WRITES BACK is block `t` of the array of normalized rows. -/
theorem flushed11_5 (c : Dev nD) (t : Fin cfg11.N) :
    (dat11 V c).flushed 5 t = ((cfg11.win 5).blk t).view.read (Elt Ideal) (hnewArr11 V c) := by
  show (cfg11.win 5).cut (grid11.coords t) ((dat11 V c).after 5 t) = _
  rw [after11_5, rowsAt11_eq]
  funext y
  obtain ⟨r, j, rfl⟩ : ∃ (r : Fin 2000) (j : Fin 256), y = ix2 r j := ⟨y 0, y 1, eq_ix2 y⟩
  rw [View.read_apply, emb11_5]
  exact normalized11_apply V c t r j

/-- An index of the output array is in point `t`'s block iff each coordinate is in the block's range on its axis. -/
theorem mem_blk11_5 (t : Fin cfg11.N) (i : S50000x256.Idx) :
    i ∈ ((cfg11.win 5).blk t).view.set ↔ ∀ a : Fin 2, win11_5.index t a * S2000x256.size a ≤ (i a).val ∧ (i a).val < win11_5.index t a * S2000x256.size a + S2000x256.size a := by
  show i ∈ ((View.whole (Pipeline.arrRef spec11 5)).slice (win11_5.rect t)).set ↔ _
  rw [View.set_slice_whole, Rect.mem_set_unit]
  exact Iff.rfl

/-- Every row of the output array is in the block of the point that row falls in, and every point writes its block back. -/
theorem cover11_5 (i : S50000x256.Idx) : ∃ t : Fin cfg11.N, (cfg11.win 5).flush t = true ∧ i ∈ ((cfg11.win 5).blk t).view.set := by
  have hi0 : (i 0).val < 50000 := (i 0).isLt
  have hi1 : (i 1).val < 256 := (i 1).isLt
  have hq : (i 0).val / 2000 < cfg11.N := by rw [show cfg11.N = 25 from N_11]; omega
  refine ⟨⟨(i 0).val / 2000, hq⟩, flush11_5 _, ?_⟩
  rw [mem_blk11_5]
  obtain ⟨-, -, e0, e1, -⟩ := blockIndex11 ⟨(i 0).val / 2000, hq⟩
  intro a
  match a with
  | ⟨0, _⟩ =>
    show win11_5.index ⟨(i 0).val / 2000, hq⟩ (0 : Fin 2) * 2000 ≤ (i 0).val ∧ (i 0).val < win11_5.index ⟨(i 0).val / 2000, hq⟩ (0 : Fin 2) * 2000 + 2000
    rw [e0]; dsimp only; omega
  | ⟨1, _⟩ =>
    show win11_5.index ⟨(i 0).val / 2000, hq⟩ (1 : Fin 2) * 256 ≤ (i 1).val ∧ (i 1).val < win11_5.index ⟨(i 0).val / 2000, hq⟩ (1 : Fin 2) * 256 + 256
    rw [e1]; omega

/-- So the output array ends holding the normalized rows. -/
theorem hnewFinal11 (c : Dev nD) : (dat11 V c).arrAt 5 cfg11.N = hnewArr11 V c :=
  (dat11 V c).arrAt_eq_of_cover 5 (hnewArr11 V c) (fun t _ => flushed11_5 V c t) cover11_5

/-- The normalised output: bn(u; μ, σ², γ, β). -/
theorem val11_5 (c : Dev nD) : Gin.toMat ((dat11 V c).arrAt 5 cfg11.N)
    = Gin.bn (Gin.toMat (V c (Pipeline.arrRef spec11 0))) (Gin.toRow (V c (Pipeline.arrRef spec11 1))) (Gin.toRow (V c (Pipeline.arrRef spec11 2)))
        (Gin.toRow (V c (Pipeline.arrRef spec11 3))) (Gin.toRow (V c (Pipeline.arrRef spec11 4))) := by
  rw [hnewFinal11]
  rfl

/-! ## The running row: the sum of the normalized rows so far -/

/-- Row `k` of the normalized matrix at column `j` (zero past the last row): the summand of the running sums. -/
def term11 (c : Dev nD) (j : Fin 256) (k : ℕ) : EReal := if h : k < 50000 then hnewMat11 V c ⟨k, h⟩ j else 0

/-- The column sums of the block the body computes at point `t`: the summands of rows `2000 t` to `2000 t + 1999`. -/
theorem blockSum11 (c : Dev nD) (t : Fin cfg11.N) (j : Fin 256) :
    (∑ r : Fin 2000, k11_pay2 (rowsIn11 V c t) (meanIn11 V c t) (varIn11 V c t) (gainIn11 V c t) (shiftIn11 V c t) (ix2 r j))
      = ∑ x ∈ Finset.range 2000, term11 V c j (2000 * t.val + x) := by
  rw [Finset.sum_range]
  refine Finset.sum_congr rfl fun r _ => ?_
  have ht := point_lt11 t
  have hr := r.isLt
  unfold term11
  rw [dif_pos (by omega)]
  exact normalized11_apply V c t r j

/-- THE INVARIANT: after the body at position `n` the running row holds, column by column, the sum of the normalized rows of the
    blocks up to `n`, by induction on the position. -/
theorem sumsAt11_sum (c : Dev nD) : ∀ (n : ℕ) (hn : n < cfg11.N) (j : Fin 256),
    sumsAt11 V c n hn (ix2 0 j) = ∑ k ∈ Finset.range (2000 * (n + 1)), term11 V c j k
  | 0, hn, j => by
    have h := congrFun (sumsAt11_reset V c ⟨0, hn⟩ (Nat.zero_mod _)) (ix2 0 j)
    refine h.trans ?_
    rw [PayVal.k11_pay3_apply, PayVal.k11_pay1_apply, zero_add, blockSum11]
    refine Finset.sum_congr rfl fun x _ => ?_
    show term11 V c j (2000 * 0 + x) = term11 V c j x
    rw [Nat.mul_zero, Nat.zero_add]
  | n + 1, hn, j => by
    have hN : n + 1 < 25 := lt_of_lt_of_eq hn (show cfg11.N = 25 from N_11)
    have hB : ¬(⟨n + 1, hn⟩ : Fin cfg11.N).val % 25 = 0 := by dsimp only; omega
    have h := congrFun (sumsAt11_step V c ⟨n + 1, hn⟩ hB) (ix2 0 j)
    refine h.trans ?_
    rw [PayVal.k11_pay3_apply, blockSum11]
    show sumsAt11 V c n _ (ix2 0 j) + _ = _
    rw [sumsAt11_sum c n _ j, show 2000 * (n + 1 + 1) = 2000 * (n + 1) + 2000 from by omega, Finset.sum_range_add]

/-- The last point of the grid, the one that writes the running row back. -/
def lastPoint11 : Fin cfg11.N := ⟨24, by rw [show cfg11.N = 25 from N_11]; decide⟩

/-- The running row after the last point, as contents of its array. -/
def sumsArr11 (c : Dev nD) : Vec Ideal S1x256 .f32 := sumsAt11 V c lastPoint11.val lastPoint11.isLt

/-- An element of the running row's block sits at the same place in its array: the block is the whole array. -/
theorem emb11_6 (t : Fin cfg11.N) (y : S1x256.Idx) : ((cfg11.win 6).blk t).view.emb y = y := by
  have e := blockIndex11 t
  funext a
  apply Fin.ext
  match a with
  | ⟨0, _⟩ => show win11_6.index t (0 : Fin 2) * 1 + 1 * (y 0).val = (y 0).val; omega
  | ⟨1, _⟩ => show win11_6.index t (1 : Fin 2) * 256 + 1 * (y 1).val = (y 1).val; omega

/-- The one write-back of the running row, at the last point, writes the row that point leaves. -/
theorem flushed11_6 (c : Dev nD) (t : Fin cfg11.N) (hf : (cfg11.win 6).flush t = true) :
    (dat11 V c).flushed 6 t = ((cfg11.win 6).blk t).view.read (Elt Ideal) (sumsArr11 V c) := by
  have h24 : t.val = 24 := by have := (flush11_6 t).mp hf; have := point_lt11 t; omega
  obtain rfl : t = lastPoint11 := Fin.ext h24
  show (cfg11.win 6).cut (grid11.coords lastPoint11) ((dat11 V c).after 6 lastPoint11) = _
  rw [after11_6]
  funext y
  rw [View.read_apply, emb11_6]
  rfl

/-- Every index of the running row's array is in the last point's block. -/
theorem cover11_6 (i : S1x256.Idx) : ∃ t : Fin cfg11.N, (cfg11.win 6).flush t = true ∧ i ∈ ((cfg11.win 6).blk t).view.set := by
  refine ⟨lastPoint11, (flush11_6 lastPoint11).mpr rfl, ?_⟩
  have e := blockIndex11 lastPoint11
  have hi0 : (i 0).val < 1 := (i 0).isLt
  have hi1 : (i 1).val < 256 := (i 1).isLt
  show i ∈ ((View.whole (Pipeline.arrRef spec11 6)).slice (win11_6.rect lastPoint11)).set
  rw [View.set_slice_whole, Rect.mem_set_unit]
  intro a
  match a with
  | ⟨0, _⟩ =>
    show win11_6.index lastPoint11 (0 : Fin 2) * 1 ≤ (i 0).val ∧ (i 0).val < win11_6.index lastPoint11 (0 : Fin 2) * 1 + 1
    omega
  | ⟨1, _⟩ =>
    show win11_6.index lastPoint11 (1 : Fin 2) * 256 ≤ (i 1).val ∧ (i 1).val < win11_6.index lastPoint11 (1 : Fin 2) * 256 + 256
    omega

/-- So the running row's array ends holding the row the last point leaves. -/
theorem sumsFinal11 (c : Dev nD) : (dat11 V c).arrAt 6 cfg11.N = sumsArr11 V c :=
  (dat11 V c).arrAt_eq_of_cover 6 (sumsArr11 V c) (flushed11_6 V c) cover11_6

/-- Its column sums: the layer's readout. -/
theorem val11_6 (c : Dev nD) : Gin.toRow ((dat11 V c).arrAt 6 cfg11.N) = Gin.colsum (Gin.toMat ((dat11 V c).arrAt 5 cfg11.N)) := by
  rw [sumsFinal11, hnewFinal11]
  funext j
  show sumsAt11 V c lastPoint11.val lastPoint11.isLt (ix2 0 j) = ∑ r : Fin 50000, hnewArr11 V c (ix2 r j)
  rw [sumsAt11_sum V c lastPoint11.val lastPoint11.isLt j, show 2000 * (lastPoint11.val + 1) = 50000 from rfl, Finset.sum_range]
  refine Finset.sum_congr rfl fun r _ => ?_
  unfold term11
  rw [dif_pos r.isLt]
  rfl

end Cert.KernelIdeal.Hand

end
-- ==== Proof.KI.Chain3.lean ====
/-
  Layer 3 of the idealized kernel program, against the specification: the same three regions as the first layer, each
  entered through its stretch of host operations, from the features the layer before left. The first stretch aggregates
  those features along the edges (the two rows of the edge list read back as the program's first stretch left them) and
  cuts the layer's first weight and bias; the first region leaves the first affine output with its column sums and
  column sums of squares; the second stretch and region do the same through the first batch normalisation and the
  second affine map; the third stretch and region leave the layer's result and its column sums, the layer's readout.
-/
import proofs.«102822_j3521873183180_1_alg».proof.Proof.KI.Chain2
import proofs.«102822_j3521873183180_1_alg».proof.Proof.KI.HostVal.S9
import proofs.«102822_j3521873183180_1_alg».proof.Proof.KI.HostVal.S10
import proofs.«102822_j3521873183180_1_alg».proof.Proof.KI.HostVal.S11
import proofs.«102822_j3521873183180_1_alg».proof.Proof.KI.R9Val
import proofs.«102822_j3521873183180_1_alg».proof.Proof.KI.R10Val
import proofs.«102822_j3521873183180_1_alg».proof.Proof.KI.R11Val

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg) (c : Dev nD)

/-! ## Layer 3, first region: the first affine output -/

/-- What region 9 finds: the features the layer before left, their aggregate, the first weight and the first bias of layer 3. -/
theorem l3_in_h : Gin.toMat (V19 m ρ c (Pipeline.arrRef spec9 0)) = feat m c 3 :=
  (congrArg Gin.toMat (StableHlo.after_of_writes_sub (r := main_v152_0) hostOps9 (W18 m ρ c) hostOps9_writes (by decide))).trans (layer2_feat m ρ c)
theorem l3_in_a : Gin.toMat (V19 m ρ c (Pipeline.arrRef spec9 1)) = aggr m c 3 :=
  (HostVal.hostOps9_main_v163_spec (W18 m ρ c)).trans (by
    rw [layer2_feat m ρ c, src_at m ρ c (W18_edge m ρ c main_v1 edgeKept_main_v1),
      dst_at m ρ c (W18_edge m ρ c main_v3 edgeKept_main_v3)])
theorem l3_in_W1 : Gin.toWt (V19 m ρ c (Pipeline.arrRef spec9 2)) = (inP m c 3).W1 :=
  (HostVal.hostOps9_main_v166_spec (W18 m ρ c)).trans (congrArg (Gin.layerWt (3 : Fin 5)) (W18_param m ρ c main_arg2 untouched_main_arg2))
theorem l3_in_b1 : Gin.toRow (V19 m ρ c (Pipeline.arrRef spec9 3)) = (inP m c 3).b1 :=
  (HostVal.hostOps9_main_v169_spec (W18 m ρ c)).trans (congrArg (Gin.layerRow (3 : Fin 5)) (W18_param m ρ c main_arg3 untouched_main_arg3))

/-- What region 9 leaves: the first affine output of layer 3, its column sums, the column sums of its squares. -/
theorem l3_u1 : Gin.toMat ((dat9 (V19 m ρ) c).arrAt 4 cfg9.N) = Gin.u1 (feat m c 3) (aggr m c 3) (inP m c 3) := by
  rw [val9_4, l3_in_h, l3_in_a, l3_in_W1, l3_in_b1]; rfl
theorem l3_s1 : Gin.toRow (W20 m ρ c (Proc.devRef .tc main_v170_1)) = Gin.colsum (Gin.u1 (feat m c 3) (aggr m c 3) (inP m c 3)) := by
  rw [show W20 m ρ c (Proc.devRef .tc main_v170_1) = (dat9 (V19 m ρ) c).arrAt 5 cfg9.N from W20_arr m ρ c 5, val9_5, l3_u1]
theorem l3_q1 : Gin.toRow (W20 m ρ c (Proc.devRef .tc main_v170_2))
    = Gin.colsum (fun r j => Gin.u1 (feat m c 3) (aggr m c 3) (inP m c 3) r j * Gin.u1 (feat m c 3) (aggr m c 3) (inP m c 3) r j) := by
  rw [show W20 m ρ c (Proc.devRef .tc main_v170_2) = (dat9 (V19 m ρ) c).arrAt 6 cfg9.N from W20_arr m ρ c 6, val9_6, l3_u1]

/-! ## Layer 3, second region: the second affine output -/

/-- What region 10 finds: the first affine output, its column mean and variance, the first gain and shift, the second
    weight and bias of layer 3. -/
theorem l3_in_u1 : Gin.toMat (V21 m ρ c (Pipeline.arrRef spec10 0)) = Gin.u1 (feat m c 3) (aggr m c 3) (inP m c 3) :=
  (congrArg Gin.toMat ((StableHlo.after_of_writes_sub (r := main_v170_0) hostOps10 (W20 m ρ c) hostOps10_writes (by decide)).trans (W20_arr m ρ c 4))).trans (l3_u1 m ρ c)
theorem l3_in_mean1 : Gin.toRow (V21 m ρ c (Pipeline.arrRef spec10 1)) = Gin.mean (Gin.u1 (feat m c 3) (aggr m c 3) (inP m c 3)) :=
  HostVal.hostOps10_main_v172_mean (W20 m ρ c) _ (l3_s1 m ρ c)
theorem l3_in_var1 : Gin.toRow (V21 m ρ c (Pipeline.arrRef spec10 2)) = Gin.varK (Gin.u1 (feat m c 3) (aggr m c 3) (inP m c 3)) :=
  HostVal.hostOps10_main_v176_var (W20 m ρ c) _ (l3_s1 m ρ c) (l3_q1 m ρ c)
theorem l3_in_g1 : Gin.toRow (V21 m ρ c (Pipeline.arrRef spec10 3)) = (inP m c 3).g1 :=
  (HostVal.hostOps10_main_v179_spec (W20 m ρ c)).trans (congrArg (Gin.layerRow (3 : Fin 5)) (W20_param m ρ c main_arg4 untouched_main_arg4))
theorem l3_in_be1 : Gin.toRow (V21 m ρ c (Pipeline.arrRef spec10 4)) = (inP m c 3).be1 :=
  (HostVal.hostOps10_main_v182_spec (W20 m ρ c)).trans (congrArg (Gin.layerRow (3 : Fin 5)) (W20_param m ρ c main_arg5 untouched_main_arg5))
theorem l3_in_W2 : Gin.toWt (V21 m ρ c (Pipeline.arrRef spec10 5)) = (inP m c 3).W2 :=
  (HostVal.hostOps10_main_v185_spec (W20 m ρ c)).trans (congrArg (Gin.layerWt (3 : Fin 5)) (W20_param m ρ c main_arg6 untouched_main_arg6))
theorem l3_in_b2 : Gin.toRow (V21 m ρ c (Pipeline.arrRef spec10 6)) = (inP m c 3).b2 :=
  (HostVal.hostOps10_main_v188_spec (W20 m ρ c)).trans (congrArg (Gin.layerRow (3 : Fin 5)) (W20_param m ρ c main_arg7 untouched_main_arg7))

/-- What region 10 leaves: the second affine output of layer 3, its column sums, the column sums of its squares. -/
theorem l3_u2 : Gin.toMat ((dat10 (V21 m ρ) c).arrAt 7 cfg10.N) = Gin.u2K (feat m c 3) (aggr m c 3) (inP m c 3) := by
  rw [val10_7, l3_in_u1, l3_in_mean1, l3_in_var1, l3_in_g1, l3_in_be1, l3_in_W2, l3_in_b2]; rfl
theorem l3_s2 : Gin.toRow (W22 m ρ c (Proc.devRef .tc main_v189_1)) = Gin.colsum (Gin.u2K (feat m c 3) (aggr m c 3) (inP m c 3)) := by
  rw [show W22 m ρ c (Proc.devRef .tc main_v189_1) = (dat10 (V21 m ρ) c).arrAt 8 cfg10.N from W22_arr m ρ c 8, val10_8, l3_u2]
theorem l3_q2 : Gin.toRow (W22 m ρ c (Proc.devRef .tc main_v189_2))
    = Gin.colsum (fun r j => Gin.u2K (feat m c 3) (aggr m c 3) (inP m c 3) r j * Gin.u2K (feat m c 3) (aggr m c 3) (inP m c 3) r j) := by
  rw [show W22 m ρ c (Proc.devRef .tc main_v189_2) = (dat10 (V21 m ρ) c).arrAt 9 cfg10.N from W22_arr m ρ c 9, val10_9, l3_u2]

/-! ## Layer 3, third region: the layer's result and its readout -/

/-- What region 11 finds: the second affine output, its column mean and variance, the second gain and shift of layer 3. -/
theorem l3_in_u2 : Gin.toMat (V23 m ρ c (Pipeline.arrRef spec11 0)) = Gin.u2K (feat m c 3) (aggr m c 3) (inP m c 3) :=
  (congrArg Gin.toMat ((StableHlo.after_of_writes_sub (r := main_v189_0) hostOps11 (W22 m ρ c) hostOps11_writes (by decide)).trans (W22_arr m ρ c 7))).trans (l3_u2 m ρ c)
theorem l3_in_mean2 : Gin.toRow (V23 m ρ c (Pipeline.arrRef spec11 1)) = Gin.mean (Gin.u2K (feat m c 3) (aggr m c 3) (inP m c 3)) :=
  HostVal.hostOps11_main_v191_mean (W22 m ρ c) _ (l3_s2 m ρ c)
theorem l3_in_var2 : Gin.toRow (V23 m ρ c (Pipeline.arrRef spec11 2)) = Gin.varK (Gin.u2K (feat m c 3) (aggr m c 3) (inP m c 3)) :=
  HostVal.hostOps11_main_v195_var (W22 m ρ c) _ (l3_s2 m ρ c) (l3_q2 m ρ c)
theorem l3_in_g2 : Gin.toRow (V23 m ρ c (Pipeline.arrRef spec11 3)) = (inP m c 3).g2 :=
  (HostVal.hostOps11_main_v198_spec (W22 m ρ c)).trans (congrArg (Gin.layerRow (3 : Fin 5)) (W22_param m ρ c main_arg8 untouched_main_arg8))
theorem l3_in_be2 : Gin.toRow (V23 m ρ c (Pipeline.arrRef spec11 4)) = (inP m c 3).be2 :=
  (HostVal.hostOps11_main_v201_spec (W22 m ρ c)).trans (congrArg (Gin.layerRow (3 : Fin 5)) (W22_param m ρ c main_arg9 untouched_main_arg9))

/-- What region 11 leaves: the result of layer 3. -/
theorem l3_out : Gin.toMat ((dat11 (V23 m ρ) c).arrAt 5 cfg11.N) = feat m c 4 := by
  rw [val11_5, l3_in_u2, l3_in_mean2, l3_in_var2, l3_in_g2, l3_in_be2]; rfl

/-- After layer 3 the features are the specification's after 4 layers, -/
theorem layer3_feat : Gin.toMat (W24 m ρ c (Proc.devRef .tc main_v202_0)) = feat m c 4 :=
  (congrArg Gin.toMat (W24_arr m ρ c 5)).trans (l3_out m ρ c)
/-- and the readout is their column sums. -/
theorem layer3_readout : Gin.toRow (W24 m ρ c (Proc.devRef .tc main_v202_1)) = Gin.colsum (feat m c 4) := by
  rw [show W24 m ρ c (Proc.devRef .tc main_v202_1) = (dat11 (V23 m ρ) c).arrAt 6 cfg11.N from W24_arr m ρ c 6, val11_6, l3_out]

end Cert.KernelIdeal.Hand

end
-- ==== Proof.KI.HostVal.S12.lean ====
/-
  The host line before the first region of a later layer, from any buffer contents: the previous layer's readout
  row as a vector, the aggregation of the previous layer's output along the edges (the two rows of the edge list
  read back as the first line left them), the first weight of the layer cut and narrowed, the first bias cut and
  laid out as a row; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps12_main_v203 : StableHlo.after (hostOps12 (F := Ideal)) Wv (Proc.devRef .tc main_v203) = vecT (Wv (Proc.devRef .tc main_v202_1)) := by
  after_results; rfl
set_option maxHeartbeats 1000000 in
theorem hostOps12_main_v213 : StableHlo.after (hostOps12 (F := Ideal)) Wv (Proc.devRef .tc main_v213)
    = aggT (Wv (Proc.devRef .tc main_v202_0)) (Wv (Proc.devRef .tc main_v1)) (Wv (Proc.devRef .tc main_v3)) := by
  after_results; rfl
theorem hostOps12_main_v216 : StableHlo.after (hostOps12 (F := Ideal)) Wv (Proc.devRef .tc main_v216) = wtT 4 slices_S5x256x256_S1x256x256_4_0_0 (Wv (Proc.devRef .tc main_arg2)) := by
  after_results; rfl
theorem hostOps12_main_v219 : StableHlo.after (hostOps12 (F := Ideal)) Wv (Proc.devRef .tc main_v219) = rowT 4 slices_S5x256_S1x256_4_0 (Wv (Proc.devRef .tc main_arg3)) := by
  after_results; rfl
/-- The previous layer's output and the two rows of the edge list are not written. -/
theorem hostOps12_main_v202_0 : StableHlo.after (hostOps12 (F := Ideal)) Wv (Proc.devRef .tc main_v202_0) = Wv (Proc.devRef .tc main_v202_0) := by
  after_results
theorem hostOps12_main_v1 : StableHlo.after (hostOps12 (F := Ideal)) Wv (Proc.devRef .tc main_v1) = Wv (Proc.devRef .tc main_v1) := by
  after_results
theorem hostOps12_main_v3 : StableHlo.after (hostOps12 (F := Ideal)) Wv (Proc.devRef .tc main_v3) = Wv (Proc.devRef .tc main_v3) := by
  after_results

/-! ## The same, in the specification's terms -/

theorem hostOps12_main_v203_spec : Gin.toRow1 (StableHlo.after (hostOps12 (F := Ideal)) Wv (Proc.devRef .tc main_v203)) = Gin.toRow (Wv (Proc.devRef .tc main_v202_1)) := by
  rw [hostOps12_main_v203, toRow1_vecT]
theorem hostOps12_main_v213_spec : Gin.toMat (StableHlo.after (hostOps12 (F := Ideal)) Wv (Proc.devRef .tc main_v213))
    = Gin.agg (Gin.toMat (Wv (Proc.devRef .tc main_v202_0))) (ofVec (Wv (Proc.devRef .tc main_v1))) (ofVec (Wv (Proc.devRef .tc main_v3))) := by
  rw [hostOps12_main_v213, toMat_aggT]
theorem hostOps12_main_v216_spec : Gin.toWt (StableHlo.after (hostOps12 (F := Ideal)) Wv (Proc.devRef .tc main_v216)) = Gin.layerWt (4 : Fin 5) (Wv (Proc.devRef .tc main_arg2)) := by
  rw [hostOps12_main_v216]; exact toWt_wtT 4 (by decide) _ _
theorem hostOps12_main_v219_spec : Gin.toRow (StableHlo.after (hostOps12 (F := Ideal)) Wv (Proc.devRef .tc main_v219)) = Gin.layerRow (4 : Fin 5) (Wv (Proc.devRef .tc main_arg3)) := by
  rw [hostOps12_main_v219]; exact toRow_rowT 4 (by decide) _ _

end Cert.KernelIdeal.HostVal

end
-- ==== Proof.KI.HostVal.S13.lean ====
/-
  The host line between a layer's first and second regions, from any buffer contents: the column mean and the
  column variance of the first affine output from the first region's two accumulators (the column sums and the
  column sums of squares), and the cuts of the layer's first gain and shift, second weight and second bias; each
  first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps13_main_v222 : StableHlo.after (hostOps13 (F := Ideal)) Wv (Proc.devRef .tc main_v222) = meanT (Wv (Proc.devRef .tc main_v220_1)) := by
  after_results; rfl
theorem hostOps13_main_v226 : StableHlo.after (hostOps13 (F := Ideal)) Wv (Proc.devRef .tc main_v226) = varT (Wv (Proc.devRef .tc main_v220_1)) (Wv (Proc.devRef .tc main_v220_2)) := by
  after_results; rfl
theorem hostOps13_main_v229 : StableHlo.after (hostOps13 (F := Ideal)) Wv (Proc.devRef .tc main_v229) = rowT 4 slices_S5x256_S1x256_4_0 (Wv (Proc.devRef .tc main_arg4)) := by
  after_results; rfl
theorem hostOps13_main_v232 : StableHlo.after (hostOps13 (F := Ideal)) Wv (Proc.devRef .tc main_v232) = rowT 4 slices_S5x256_S1x256_4_0 (Wv (Proc.devRef .tc main_arg5)) := by
  after_results; rfl
theorem hostOps13_main_v235 : StableHlo.after (hostOps13 (F := Ideal)) Wv (Proc.devRef .tc main_v235) = wtT 4 slices_S5x256x256_S1x256x256_4_0_0 (Wv (Proc.devRef .tc main_arg6)) := by
  after_results; rfl
theorem hostOps13_main_v238 : StableHlo.after (hostOps13 (F := Ideal)) Wv (Proc.devRef .tc main_v238) = rowT 4 slices_S5x256_S1x256_4_0 (Wv (Proc.devRef .tc main_arg7)) := by
  after_results; rfl
/-- The first affine output is not written. -/
theorem hostOps13_main_v220_0 : StableHlo.after (hostOps13 (F := Ideal)) Wv (Proc.devRef .tc main_v220_0) = Wv (Proc.devRef .tc main_v220_0) := by
  after_results

/-! ## The same, in the specification's terms -/

theorem hostOps13_main_v222_spec : Gin.toRow (StableHlo.after (hostOps13 (F := Ideal)) Wv (Proc.devRef .tc main_v222))
    = fun j => Ideal.div (Gin.toRow (Wv (Proc.devRef .tc main_v220_1)) j) Gin.nn := by
  rw [hostOps13_main_v222, toRow_meanT]
theorem hostOps13_main_v226_spec : Gin.toRow (StableHlo.after (hostOps13 (F := Ideal)) Wv (Proc.devRef .tc main_v226))
    = fun j => Ideal.div (Gin.toRow (Wv (Proc.devRef .tc main_v220_2)) j) Gin.nn
        - Gin.toRow (StableHlo.after (hostOps13 (F := Ideal)) Wv (Proc.devRef .tc main_v222)) j * Gin.toRow (StableHlo.after (hostOps13 (F := Ideal)) Wv (Proc.devRef .tc main_v222)) j := by
  rw [hostOps13_main_v226, hostOps13_main_v222, toRow_varT]
/-- With the accumulators holding the column sums and the column sums of squares of `u`, the two rows are the
    column mean of `u` and its column variance as the mean of the squares minus the square of the mean. -/
theorem hostOps13_main_v222_mean (u : Gin.Mat) (hs : Gin.toRow (Wv (Proc.devRef .tc main_v220_1)) = Gin.colsum u) :
    Gin.toRow (StableHlo.after (hostOps13 (F := Ideal)) Wv (Proc.devRef .tc main_v222)) = Gin.mean u := by
  rw [hostOps13_main_v222]; exact toRow_meanT_of_colsum _ u hs
theorem hostOps13_main_v226_var (u : Gin.Mat) (hs : Gin.toRow (Wv (Proc.devRef .tc main_v220_1)) = Gin.colsum u)
    (hq : Gin.toRow (Wv (Proc.devRef .tc main_v220_2)) = Gin.colsum (fun r j => u r j * u r j)) :
    Gin.toRow (StableHlo.after (hostOps13 (F := Ideal)) Wv (Proc.devRef .tc main_v226)) = Gin.varK u := by
  rw [hostOps13_main_v226]; exact toRow_varT_of_colsum _ _ u hs hq
theorem hostOps13_main_v229_spec : Gin.toRow (StableHlo.after (hostOps13 (F := Ideal)) Wv (Proc.devRef .tc main_v229)) = Gin.layerRow (4 : Fin 5) (Wv (Proc.devRef .tc main_arg4)) := by
  rw [hostOps13_main_v229]; exact toRow_rowT 4 (by decide) _ _
theorem hostOps13_main_v232_spec : Gin.toRow (StableHlo.after (hostOps13 (F := Ideal)) Wv (Proc.devRef .tc main_v232)) = Gin.layerRow (4 : Fin 5) (Wv (Proc.devRef .tc main_arg5)) := by
  rw [hostOps13_main_v232]; exact toRow_rowT 4 (by decide) _ _
theorem hostOps13_main_v235_spec : Gin.toWt (StableHlo.after (hostOps13 (F := Ideal)) Wv (Proc.devRef .tc main_v235)) = Gin.layerWt (4 : Fin 5) (Wv (Proc.devRef .tc main_arg6)) := by
  rw [hostOps13_main_v235]; exact toWt_wtT 4 (by decide) _ _
theorem hostOps13_main_v238_spec : Gin.toRow (StableHlo.after (hostOps13 (F := Ideal)) Wv (Proc.devRef .tc main_v238)) = Gin.layerRow (4 : Fin 5) (Wv (Proc.devRef .tc main_arg7)) := by
  rw [hostOps13_main_v238]; exact toRow_rowT 4 (by decide) _ _

end Cert.KernelIdeal.HostVal

end
-- ==== Proof.KI.HostVal.S14.lean ====
/-
  The host line between a layer's second and third regions, from any buffer contents: the column mean and the
  column variance of the second affine output from the second region's two accumulators, and the cuts of the
  layer's second gain and shift; each first as the composed operations, then in the specification's terms.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

/-! ## The composed operations -/

theorem hostOps14_main_v241 : StableHlo.after (hostOps14 (F := Ideal)) Wv (Proc.devRef .tc main_v241) = meanT (Wv (Proc.devRef .tc main_v239_1)) := by
  after_results; rfl
theorem hostOps14_main_v245 : StableHlo.after (hostOps14 (F := Ideal)) Wv (Proc.devRef .tc main_v245) = varT (Wv (Proc.devRef .tc main_v239_1)) (Wv (Proc.devRef .tc main_v239_2)) := by
  after_results; rfl
theorem hostOps14_main_v248 : StableHlo.after (hostOps14 (F := Ideal)) Wv (Proc.devRef .tc main_v248) = rowT 4 slices_S5x256_S1x256_4_0 (Wv (Proc.devRef .tc main_arg8)) := by
  after_results; rfl
theorem hostOps14_main_v251 : StableHlo.after (hostOps14 (F := Ideal)) Wv (Proc.devRef .tc main_v251) = rowT 4 slices_S5x256_S1x256_4_0 (Wv (Proc.devRef .tc main_arg9)) := by
  after_results; rfl
/-- The second affine output is not written. -/
theorem hostOps14_main_v239_0 : StableHlo.after (hostOps14 (F := Ideal)) Wv (Proc.devRef .tc main_v239_0) = Wv (Proc.devRef .tc main_v239_0) := by
  after_results

/-! ## The same, in the specification's terms -/

theorem hostOps14_main_v241_spec : Gin.toRow (StableHlo.after (hostOps14 (F := Ideal)) Wv (Proc.devRef .tc main_v241))
    = fun j => Ideal.div (Gin.toRow (Wv (Proc.devRef .tc main_v239_1)) j) Gin.nn := by
  rw [hostOps14_main_v241, toRow_meanT]
theorem hostOps14_main_v245_spec : Gin.toRow (StableHlo.after (hostOps14 (F := Ideal)) Wv (Proc.devRef .tc main_v245))
    = fun j => Ideal.div (Gin.toRow (Wv (Proc.devRef .tc main_v239_2)) j) Gin.nn
        - Gin.toRow (StableHlo.after (hostOps14 (F := Ideal)) Wv (Proc.devRef .tc main_v241)) j * Gin.toRow (StableHlo.after (hostOps14 (F := Ideal)) Wv (Proc.devRef .tc main_v241)) j := by
  rw [hostOps14_main_v245, hostOps14_main_v241, toRow_varT]
/-- With the accumulators holding the column sums and the column sums of squares of `u`, the two rows are the
    column mean of `u` and its column variance as the mean of the squares minus the square of the mean. -/
theorem hostOps14_main_v241_mean (u : Gin.Mat) (hs : Gin.toRow (Wv (Proc.devRef .tc main_v239_1)) = Gin.colsum u) :
    Gin.toRow (StableHlo.after (hostOps14 (F := Ideal)) Wv (Proc.devRef .tc main_v241)) = Gin.mean u := by
  rw [hostOps14_main_v241]; exact toRow_meanT_of_colsum _ u hs
theorem hostOps14_main_v245_var (u : Gin.Mat) (hs : Gin.toRow (Wv (Proc.devRef .tc main_v239_1)) = Gin.colsum u)
    (hq : Gin.toRow (Wv (Proc.devRef .tc main_v239_2)) = Gin.colsum (fun r j => u r j * u r j)) :
    Gin.toRow (StableHlo.after (hostOps14 (F := Ideal)) Wv (Proc.devRef .tc main_v245)) = Gin.varK u := by
  rw [hostOps14_main_v245]; exact toRow_varT_of_colsum _ _ u hs hq
theorem hostOps14_main_v248_spec : Gin.toRow (StableHlo.after (hostOps14 (F := Ideal)) Wv (Proc.devRef .tc main_v248)) = Gin.layerRow (4 : Fin 5) (Wv (Proc.devRef .tc main_arg8)) := by
  rw [hostOps14_main_v248]; exact toRow_rowT 4 (by decide) _ _
theorem hostOps14_main_v251_spec : Gin.toRow (StableHlo.after (hostOps14 (F := Ideal)) Wv (Proc.devRef .tc main_v251)) = Gin.layerRow (4 : Fin 5) (Wv (Proc.devRef .tc main_arg9)) := by
  rw [hostOps14_main_v251]; exact toRow_rowT 4 (by decide) _ _

end Cert.KernelIdeal.HostVal

end
-- ==== Proof.KI.Pay12.lean ====
/-
  One launch of the kernel that multiplies, adds a bias row and keeps column statistics, read at an index at the ideal
  values: floats are extended reals, every operation is exact, and a change of float format is the identity. The
  generated skeleton states each value the body stores as one pure term of the values it loads, the payloads `k12_pay1` …
  `k12_pay5`. Here each payload is read at an index as plain sums and products of extended reals:
    • `k12_pay1`, `k12_pay2` — the zero row the two statistics start from — are 0 at every column;
    • `k12_pay3` at (p, q) is ∑ₖ (xa[p, k] + xb[p, k]) · w[k, q] + b[0, q]: row p of the sum of the two inputs against
      column q of the weights, plus the bias row;
    • `k12_pay4` at (0, q) is s[0, q] + ∑ₚ `k12_pay3`[p, q]: the running column sum;
    • `k12_pay5` at (0, q) is s[0, q] + ∑ₚ `k12_pay3`[p, q]²: the running column sum of squares.
  The steps: the same-shape casts are the identity; the matrix product into a zero accumulator is the sum over its one
  contracted axis, re-indexed by that axis's coordinate; the bias row is broadcast over the rows; the reduction over the
  rows is the sum over the row coordinate; a vector cast to one row reads the vector.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## The matrix product's operand indices, axis by axis

  The product contracts the left factor's axis 1 with the right factor's axis 0; the left factor's axis 0 and the right
  factor's axis 1 are the result's two axes. -/

/-- The left operand's row is the result's row. -/
private theorem lhs_rows_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column is the contracted coordinate. -/
private theorem lhs_rows_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- The right operand's row is the contracted coordinate. -/
private theorem rhs_cols_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- The right operand's column is the result's column. -/
private theorem rhs_cols_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product of a `[2000, 256]` matrix by a `[256, 256]` one accumulated into zero, read at `(p, q)`: row `p` of the
    left factor against column `q` of the right one. -/
private theorem matmul_zero_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs_rows_0 _ _
      | ⟨1, _⟩ => exact (lhs_rows_1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (rhs_cols_0 _ _).trans hk
      | ⟨1, _⟩ => exact rhs_cols_1 _ _)
  rw [el, er]

/-! ## The reduction over the rows -/

/-- The sum over the rows of a `[2000, 256]` array, read at column `q`. -/
private theorem sumRows_apply (X : FVec Ideal S2000x256 .f32) (h : S2000x256.Reduces [0] S256) (hφ : FKind.Formats .f32)
    (hacc : (0x00000000#32 : BitVec 32) = 0x00000000#32) (q : Fin 256) :
    multiReduction (F := Ideal) .add [0] S256 X 0x00000000#32 h hφ hacc (ix1 q) = ∑ p : Fin 2000, X (ix2 p q) := by
  refine (Ideal.multiReduction_add_single X 0x00000000#32 h hφ hacc (ix1 q)).trans ?_
  refine Finset.sum_congr rfl fun p _ => congrArg X ?_
  exact funext fun a => Fin.ext (by
    match a with
    | ⟨0, _⟩ => rfl
    | ⟨1, _⟩ => rfl)

/-! ## The stored values at an index -/

/-- The first statistics row starts from zero. -/
theorem k12_pay1_apply (q : Fin 256) : k12_pay1 (F := Ideal) (ix2 0 q) = 0 := by
  unfold k12_pay1
  exact Ideal.ofBits_zero_f32

/-- The second statistics row starts from zero. -/
theorem k12_pay2_apply (q : Fin 256) : k12_pay2 (F := Ideal) (ix2 0 q) = 0 := by
  unfold k12_pay2
  exact Ideal.ofBits_zero_f32

/-- The product block at `(p, q)`: row `p` of the sum of the two inputs against column `q` of the weights, plus the
    bias row at `q`. -/
theorem k12_pay3_apply (xa xb : Vec Ideal S2000x256 .f32) (w : Vec Ideal S256x256 .bf16) (b : Vec Ideal S1x256 .f32)
    (p : Fin 2000) (q : Fin 256) :
    k12_pay3 (F := Ideal) xa xb w b (ix2 p q)
      = (∑ k : Fin 256, (xa (ix2 p k) + xb (ix2 p k)) * w (ix2 k q)) + b (ix2 0 q) := by
  unfold k12_pay3
  simp only [shapeCast_self]
  rw [addf_apply, broadcastTo_1b_ab_apply, matmul_zero_apply]
  rfl

/-- The column sums: the row read so far plus the sum of the product block over its rows. -/
theorem k12_pay4_apply (xa xb : Vec Ideal S2000x256 .f32) (w : Vec Ideal S256x256 .bf16) (b : Vec Ideal S1x256 .f32)
    (s : Vec Ideal S1x256 .f32) (q : Fin 256) :
    k12_pay4 (F := Ideal) xa xb w b s (ix2 0 q)
      = s (ix2 0 q) + ∑ p : Fin 2000, k12_pay3 (F := Ideal) xa xb w b (ix2 p q) := by
  unfold k12_pay4
  simp only [shapeCast_self]
  rw [addf_apply, shapeCast_a_1a_apply, sumRows_apply]

/-- The column sums of squares: the row read so far plus the sum of the product block's squares over its rows. -/
theorem k12_pay5_apply (xa xb : Vec Ideal S2000x256 .f32) (w : Vec Ideal S256x256 .bf16) (b : Vec Ideal S1x256 .f32)
    (s : Vec Ideal S1x256 .f32) (q : Fin 256) :
    k12_pay5 (F := Ideal) xa xb w b s (ix2 0 q)
      = s (ix2 0 q) + ∑ p : Fin 2000, k12_pay3 (F := Ideal) xa xb w b (ix2 p q) * k12_pay3 (F := Ideal) xa xb w b (ix2 p q) := by
  unfold k12_pay5
  simp only [shapeCast_self]
  rw [addf_apply, shapeCast_a_1a_apply, sumRows_apply]
  rfl

end Cert.KernelIdeal.PayVal

end
-- ==== Proof.KI.R12Val.lean ====
/-
  What region 12 of the idealized kernel program leaves in its output arrays, at the exact instance, as functions of what it finds in its
  input arrays: the mathematics of the kernel body summed over the grid.

  Each output's staging contents are first read off the body's stores (at any float instance): u's block is the affine map of the
  blocks; each accumulator row is the row found there (the zero row at the first point) plus this block's column sums. At the
  exact instance the u blocks are the 2000-row bands of ONE matrix, the affine map of the whole arrays, so the written-back bands
  assemble it; and each accumulator after point n is the sum of that matrix's (squared) entries over the rows below 2000·(n+1), so
  what the last point writes back is the column sum over all rows.
-/
import proofs.«102822_j3521873183180_1_alg».proof.Proof.KI.R12
import proofs.«102822_j3521873183180_1_alg».proof.Proof.KI.Pay12
import proofs.«102822_j3521873183180_1_alg».proof.Proof.Spec
import Idealize.ShloMosaic.Lib.Pipeline.Value

set_option maxRecDepth 16384

noncomputable section

namespace Cert.KernelIdeal.Hand

open Cert.KernelIdeal Cert.KernelIdeal.Gen Cert.KernelIdeal.PayVal
open Idealize.ShloMosaic Idealize.ShloMosaic.TcCoe Idealize.ShloMosaic.Tactic Idealize.ShloMosaic.ValueIdx
open Idealize.ShloMosaic.Pipeline (Dat)
open scoped BigOperators

/-! ## What the pieces are: each output's staging contents as the kernel's arithmetic of what the body loads (any float instance) -/

section Pieces

variable {F : FTy → Type} [FloatOps F]

/-- Every store and load of the body is at the origin of its buffer. -/
theorem origin12 : (![0, 0] : Fin 2 → Nat) = fun _ => 0 := funext fun a => by fin_cases a <;> rfl

/-- At the first point u's buffer holds the affine map of the blocks: its one covering store's payload. -/
theorem resetOut12_4_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) :
    resetOut12_4 c i arg1 harg1 arg2 harg2 arg3 harg3 arg4 harg4 arg5 harg5 arg6 harg6 arg7 harg7 hc0 x0 x1 x2 x3 = k12_pay3 x0 x1 x2 x3 := by
  unfold resetOut12_4
  rw [View.read_writes_eq_canon _ _ _ (resetCover12_4 c i arg1 harg1 arg2 harg2 arg3 harg3 arg4 harg4 arg5 harg5 arg6 harg6 arg7 harg7 hc0 x0 x1 x2 x3)]
  unfold resetRun12
  dsimp only
  sl_unfold_words
  rw [View.canon_unit_zero origin12]
  simp only [View.readAt_eq_ld, harg1.read_unread, harg2.read_unread, harg3.read_unread, harg4.read_unread, View.ld_unit_zero (S := S2000x256) origin12, View.ld_unit_zero (S := S256x256) origin12, View.ld_unit_zero (S := S1x256) origin12]

/-- At the first point the column-sum accumulator holds the zero row plus u's column sums: the reset's store, read back, then the update. -/
theorem resetOut12_5_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) :
    resetOut12_5 c i arg1 harg1 arg2 harg2 arg3 harg3 arg4 harg4 arg5 harg5 arg6 harg6 arg7 harg7 hc0 x0 x1 x2 x3 = k12_pay4 x0 x1 x2 x3 (k12_pay1 (F := F)) := by
  unfold resetOut12_5
  rw [View.read_writes_eq_canon _ _ _ (resetCover12_5 c i arg1 harg1 arg2 harg2 arg3 harg3 arg4 harg4 arg5 harg5 arg6 harg6 arg7 harg7 hc0 x0 x1 x2 x3)]
  unfold resetRun12
  dsimp only
  sl_unfold_words
  rw [View.canon_cons_unit_zero (S := S1x256) origin12, View.readCov_unit_zero (S := S1x256) _ origin12]
  simp only [View.readAt_eq_ld, harg1.read_unread, harg2.read_unread, harg3.read_unread, harg4.read_unread, View.ld_unit_zero (S := S2000x256) origin12, View.ld_unit_zero (S := S256x256) origin12, View.ld_unit_zero (S := S1x256) origin12]

/-- At the first point the sum-of-squares accumulator holds the zero row plus the column sums of u·u. -/
theorem resetOut12_6_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : first12 i)
    (x0 : Vec F S2000x256 .f32) (x1 : Vec F S2000x256 .f32) (x2 : Vec F S256x256 .bf16) (x3 : Vec F S1x256 .f32) :
    resetOut12_6 c i arg1 harg1 arg2 harg2 arg3 harg3 arg4 harg4 arg5 harg5 arg6 harg6 arg7 harg7 hc0 x0 x1 x2 x3 = k12_pay5 x0 x1 x2 x3 (k12_pay2 (F := F)) := by
  unfold resetOut12_6
  rw [View.read_writes_eq_canon _ _ _ (resetCover12_6 c i arg1 harg1 arg2 harg2 arg3 harg3 arg4 harg4 arg5 harg5 arg6 harg6 arg7 harg7 hc0 x0 x1 x2 x3)]
  unfold resetRun12
  dsimp only
  sl_unfold_words
  rw [View.canon_cons_unit_zero (S := S1x256) origin12, View.readCov_unit_zero (S := S1x256) _ origin12]
  simp only [View.readAt_eq_ld, harg1.read_unread, harg2.read_unread, harg3.read_unread, harg4.read_unread, View.ld_unit_zero (S := S2000x256) origin12, View.ld_unit_zero (S := S256x256) origin12, View.ld_unit_zero (S := S1x256) origin12]

/-- At a later point u's buffer holds the affine map of the blocks, whatever the accumulators held. -/
theorem carryOut12_4_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut12_4 c i arg1 harg1 arg2 harg2 arg3 harg3 arg4 harg4 arg5 harg5 arg6 harg6 arg7 harg7 hc0 x0 x1 x2 x3 xo5 xo6 = k12_pay3 x0 x1 x2 x3 := by
  unfold carryOut12_4
  rw [View.read_writes_eq_canon _ _ _ (carryCover12_4 c i arg1 harg1 arg2 harg2 arg3 harg3 arg4 harg4 arg5 harg5 arg6 harg6 arg7 harg7 hc0 x0 x1 x2 x3 xo5 xo6)]
  unfold carryRun12
  dsimp only
  sl_unfold_words
  rw [View.canon_unit_zero origin12]
  simp only [View.readAt_eq_ld, harg1.read_unread, harg2.read_unread, harg3.read_unread, harg4.read_unread, harg6.read_unread, harg7.read_unread, View.ld_unit_zero (S := S2000x256) origin12, View.ld_unit_zero (S := S256x256) origin12, View.ld_unit_zero (S := S1x256) origin12]

/-- At a later point the column-sum accumulator holds the row it found plus u's column sums. -/
theorem carryOut12_5_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut12_5 c i arg1 harg1 arg2 harg2 arg3 harg3 arg4 harg4 arg5 harg5 arg6 harg6 arg7 harg7 hc0 x0 x1 x2 x3 xo5 xo6 = k12_pay4 x0 x1 x2 x3 xo5 := by
  unfold carryOut12_5
  rw [View.read_writes_eq_canon _ _ _ (carryCover12_5 c i arg1 harg1 arg2 harg2 arg3 harg3 arg4 harg4 arg5 harg5 arg6 harg6 arg7 harg7 hc0 x0 x1 x2 x3 xo5 xo6)]
  unfold carryRun12
  dsimp only
  sl_unfold_words
  rw [View.canon_unit_zero origin12]
  simp only [View.readAt_eq_ld, harg1.read_unread, harg2.read_unread, harg3.read_unread, harg4.read_unread, harg6.read_unread, harg7.read_unread, View.ld_unit_zero (S := S2000x256) origin12, View.ld_unit_zero (S := S256x256) origin12, View.ld_unit_zero (S := S1x256) origin12]

/-- At a later point the sum-of-squares accumulator holds the row it found plus the column sums of u·u. -/
theorem carryOut12_6_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬first12 i)
    (x0 : Vec F S2000x256 .f32) (x1 : Vec F S2000x256 .f32) (x2 : Vec F S256x256 .bf16) (x3 : Vec F S1x256 .f32) (xo5 : Vec F S1x256 .f32) (xo6 : Vec F S1x256 .f32) :
    carryOut12_6 c i arg1 harg1 arg2 harg2 arg3 harg3 arg4 harg4 arg5 harg5 arg6 harg6 arg7 harg7 hc0 x0 x1 x2 x3 xo5 xo6 = k12_pay5 x0 x1 x2 x3 xo6 := by
  unfold carryOut12_6
  rw [View.read_writes_eq_canon _ _ _ (carryCover12_6 c i arg1 harg1 arg2 harg2 arg3 harg3 arg4 harg4 arg5 harg5 arg6 harg6 arg7 harg7 hc0 x0 x1 x2 x3 xo5 xo6)]
  unfold carryRun12
  dsimp only
  sl_unfold_words
  rw [View.canon_unit_zero origin12]
  simp only [View.readAt_eq_ld, harg1.read_unread, harg2.read_unread, harg3.read_unread, harg4.read_unread, harg6.read_unread, harg7.read_unread, View.ld_unit_zero (S := S2000x256) origin12, View.ld_unit_zero (S := S256x256) origin12, View.ld_unit_zero (S := S1x256) origin12]

end Pieces

/-! ## At the exact instance -/

variable (V : (c : Dev nD) → (b : Ref sig .tc) → Buf (Elt Ideal) ((c : Thread nD τ).loc b))

/-- The four input arrays as the region finds them and the blocks the body loads at point `t`, each at its literal type. -/
abbrev hArr12 (c : Dev nD) : Vec Ideal S50000x256 .f32 := V c (Pipeline.arrRef spec12 0)
abbrev gArr12 (c : Dev nD) : Vec Ideal S50000x256 .f32 := V c (Pipeline.arrRef spec12 1)
abbrev wArr12 (c : Dev nD) : Vec Ideal S256x256 .bf16 := V c (Pipeline.arrRef spec12 2)
abbrev bArr12 (c : Dev nD) : Vec Ideal S1x256 .f32 := V c (Pipeline.arrRef spec12 3)
abbrev hBlk12 (c : Dev nD) (t : Fin cfg12.N) : Vec Ideal S2000x256 .f32 := iblk12 V c 0 t
abbrev gBlk12 (c : Dev nD) (t : Fin cfg12.N) : Vec Ideal S2000x256 .f32 := iblk12 V c 1 t
abbrev wBlk12 (c : Dev nD) (t : Fin cfg12.N) : Vec Ideal S256x256 .bf16 := iblk12 V c 2 t
abbrev bBlk12 (c : Dev nD) (t : Fin cfg12.N) : Vec Ideal S1x256 .f32 := iblk12 V c 3 t

/-- The printed index maps, decided over the grid: h, agg and u move one band of rows per point; the weight, the bias and the two
    accumulators stay at block (0, 0). -/
theorem bands12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0 :=
  (by decide +kernel : ∀ t : Fin grid12.N, _)

/-- Row `p` of point `t`'s band of h is row 2000·t + p of h. -/
theorem hBlk12_apply (c : Dev nD) (t : Fin cfg12.N) (p : Fin 2000) (k : Fin 256) (r : Fin 50000) (hr : r.val = 2000 * t.val + p.val) :
    hBlk12 V c t (ix2 p k) = hArr12 V c (ix2 r k) := by
  show V c (Pipeline.arrRef spec12 0) (((cfg12.win 0).blk t).view.emb (ix2 p k)) = V c (Pipeline.arrRef spec12 0) (ix2 r k)
  refine congrArg _ ?_
  obtain ⟨e0, e1, -⟩ := bands12 t
  funext a; apply Fin.ext
  match a with
  | ⟨0, _⟩ => show win12_0.index t (0 : Fin 2) * 2000 + 1 * p.val = r.val; omega
  | ⟨1, _⟩ => show win12_0.index t (1 : Fin 2) * 256 + 1 * k.val = k.val; omega

/-- The same for the aggregate. -/
theorem gBlk12_apply (c : Dev nD) (t : Fin cfg12.N) (p : Fin 2000) (k : Fin 256) (r : Fin 50000) (hr : r.val = 2000 * t.val + p.val) :
    gBlk12 V c t (ix2 p k) = gArr12 V c (ix2 r k) := by
  show V c (Pipeline.arrRef spec12 1) (((cfg12.win 1).blk t).view.emb (ix2 p k)) = V c (Pipeline.arrRef spec12 1) (ix2 r k)
  refine congrArg _ ?_
  obtain ⟨-, -, e0, e1, -⟩ := bands12 t
  funext a; apply Fin.ext
  match a with
  | ⟨0, _⟩ => show win12_1.index t (0 : Fin 2) * 2000 + 1 * p.val = r.val; omega
  | ⟨1, _⟩ => show win12_1.index t (1 : Fin 2) * 256 + 1 * k.val = k.val; omega

/-- The weight's one block is the weight. -/
theorem wBlk12_apply (c : Dev nD) (t : Fin cfg12.N) (k : Fin 256) (q : Fin 256) : wBlk12 V c t (ix2 k q) = wArr12 V c (ix2 k q) := by
  show V c (Pipeline.arrRef spec12 2) (((cfg12.win 2).blk t).view.emb (ix2 k q)) = V c (Pipeline.arrRef spec12 2) (ix2 k q)
  refine congrArg _ ?_
  obtain ⟨-, -, -, -, e0, e1, -⟩ := bands12 t
  funext a; apply Fin.ext
  match a with
  | ⟨0, _⟩ => show win12_2.index t (0 : Fin 2) * 256 + 1 * k.val = k.val; omega
  | ⟨1, _⟩ => show win12_2.index t (1 : Fin 2) * 256 + 1 * q.val = q.val; omega

/-- The bias row's one block is the bias row. -/
theorem bBlk12_apply (c : Dev nD) (t : Fin cfg12.N) (q : Fin 256) : bBlk12 V c t (ix2 0 q) = bArr12 V c (ix2 0 q) := by
  show V c (Pipeline.arrRef spec12 3) (((cfg12.win 3).blk t).view.emb (ix2 0 q)) = V c (Pipeline.arrRef spec12 3) (ix2 0 q)
  refine congrArg _ ?_
  obtain ⟨-, -, -, -, -, -, e0, e1, -⟩ := bands12 t
  funext a; apply Fin.ext
  match a with
  | ⟨0, _⟩ => show win12_3.index t (0 : Fin 2) * 1 + 1 * 0 = 0; omega
  | ⟨1, _⟩ => show win12_3.index t (1 : Fin 2) * 256 + 1 * q.val = q.val; omega

/-- THE MATRIX u of the whole arrays: (h + agg) · W + b. -/
def uMat12 (c : Dev nD) : Gin.Mat :=
  Gin.lin (fun r k => Gin.toMat (V c (Pipeline.arrRef spec12 0)) r k + Gin.toMat (V c (Pipeline.arrRef spec12 1)) r k)
    (Gin.toWt (V c (Pipeline.arrRef spec12 2))) (Gin.toRow (V c (Pipeline.arrRef spec12 3)))

/-- The body's affine map of point `t`'s blocks is the band of rows 2000·t … 2000·t + 1999 of `uMat12`. -/
theorem band12 (c : Dev nD) (t : Fin cfg12.N) (p : Fin 2000) (q : Fin 256) (r : Fin 50000) (hr : r.val = 2000 * t.val + p.val) :
    k12_pay3 (F := Ideal) (hBlk12 V c t) (gBlk12 V c t) (wBlk12 V c t) (bBlk12 V c t) (ix2 p q) = uMat12 V c r q := by
  rw [k12_pay3_apply, bBlk12_apply V c t q]
  unfold uMat12 Gin.lin Gin.toMat Gin.toWt Gin.toRow
  refine congrArg (fun s : EReal => s + bArr12 V c (ix2 0 q)) (Finset.sum_congr rfl fun k _ => ?_)
  rw [hBlk12_apply V c t p k r hr, gBlk12_apply V c t p k r hr, wBlk12_apply V c t k q]

/-- The same band, squared entry by entry. -/
theorem bandSq12 (c : Dev nD) (t : Fin cfg12.N) (p : Fin 2000) (q : Fin 256) (r : Fin 50000) (hr : r.val = 2000 * t.val + p.val) :
    k12_pay3 (F := Ideal) (hBlk12 V c t) (gBlk12 V c t) (wBlk12 V c t) (bBlk12 V c t) (ix2 p q)
        * k12_pay3 (F := Ideal) (hBlk12 V c t) (gBlk12 V c t) (wBlk12 V c t) (bBlk12 V c t) (ix2 p q)
      = uMat12 V c r q * uMat12 V c r q := by
  rw [band12 V c t p q r hr]

/-- After EVERY point u's staging buffer holds the affine map of that point's blocks. -/
theorem uAt12 (c : Dev nD) (t : Fin cfg12.N) :
    (left12 V c t.val t.isLt).1 = k12_pay3 (F := Ideal) (hBlk12 V c t) (gBlk12 V c t) (wBlk12 V c t) (bBlk12 V c t) := by
  by_cases h0 : t.val = 0
  · rw [left12_first V c t h0]
    dsimp only
    exact resetOut12_4_eq (F := Ideal) c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) ((first12_iff t).mpr h0) (iblk12 V c 0 t) (iblk12 V c 1 t) (iblk12 V c 2 t) (iblk12 V c 3 t)
  · rw [left12_later V c t h0]
    dsimp only
    exact carryOut12_4_eq (F := Ideal) c (grid12.coords t) (buf12_0 t) (whole12_0 t) (buf12_1 t) (whole12_1 t) (buf12_2 t) (whole12_2 t) (buf12_3 t) (whole12_3 t) (buf12_4 t) (whole12_4 t) (buf12_5 t) (whole12_5 t) (buf12_6 t) (whole12_6 t) (fun h => h0 ((first12_iff t).mp h)) (iblk12 V c 0 t) (iblk12 V c 1 t) (iblk12 V c 2 t) (iblk12 V c 3 t) (left12 V c (t.val - 1) (Nat.lt_of_le_of_lt (Nat.sub_le _ _) t.isLt)).2.1 (left12 V c (t.val - 1) (Nat.lt_of_le_of_lt (Nat.sub_le _ _) t.isLt)).2.2

/-! ## Sums over the bands of rows -/

/-- Row `r` of a matrix at column `q`, and 0 past the last row: so that sums over rows are sums over ranges of naturals. -/
def rowOr12 (f : Gin.Mat) (q : Fin 256) (r : ℕ) : EReal := if h : r < 50000 then f ⟨r, h⟩ q else 0

/-- A sum over the 2000 rows of band `n`, each term that row's entry, is the sum of the entries over the band's range. -/
theorem bandSum12 (f : Gin.Mat) (q : Fin 256) (n : ℕ) (hn : n < 25) (g : Fin 2000 → EReal)
    (hg : ∀ (p : Fin 2000) (r : Fin 50000), r.val = 2000 * n + p.val → g p = f r q) :
    ∑ p : Fin 2000, g p = ∑ x ∈ Finset.range 2000, rowOr12 f q (2000 * n + x) := by
  rw [← Fin.sum_univ_eq_sum_range (fun x => rowOr12 f q (2000 * n + x)) 2000]
  refine Finset.sum_congr rfl fun p _ => ?_
  have hp := p.isLt
  have hr : 2000 * n + p.val < 50000 := by omega
  rw [hg p ⟨2000 * n + p.val, hr⟩ rfl]
  unfold rowOr12
  rw [dif_pos hr]

/-- The sum over all rows below 50000 is the column sum. -/
theorem allRows12 (f : Gin.Mat) (q : Fin 256) : ∑ x ∈ Finset.range 50000, rowOr12 f q x = Gin.colsum f q := by
  unfold Gin.colsum
  rw [← Fin.sum_univ_eq_sum_range (fun x => rowOr12 f q x) 50000]
  refine Finset.sum_congr rfl fun r _ => ?_
  unfold rowOr12
  rw [dif_pos r.isLt]

/-- THE COLUMN SUMS SO FAR. After point `n` the first accumulator's row holds the sum of `uMat12`'s entries over the rows below
    2000·(n+1): the zero row plus the first band's sums at the first point, the row found plus this band's sums later. -/
theorem sumAt12 (c : Dev nD) (q : Fin 256) : ∀ (n : ℕ) (hn : n < cfg12.N),
    (left12 V c n hn).2.1 (ix2 0 q) = ∑ x ∈ Finset.range (2000 * (n + 1)), rowOr12 (uMat12 V c) q x
  | 0, hn => by
    rw [left12_first V c ⟨0, hn⟩ rfl]
    dsimp only
    rw [resetOut12_5_eq (F := Ideal) c (grid12.coords ⟨0, hn⟩) (buf12_0 ⟨0, hn⟩) (whole12_0 ⟨0, hn⟩) (buf12_1 ⟨0, hn⟩) (whole12_1 ⟨0, hn⟩) (buf12_2 ⟨0, hn⟩) (whole12_2 ⟨0, hn⟩) (buf12_3 ⟨0, hn⟩) (whole12_3 ⟨0, hn⟩) (buf12_4 ⟨0, hn⟩) (whole12_4 ⟨0, hn⟩) (buf12_5 ⟨0, hn⟩) (whole12_5 ⟨0, hn⟩) (buf12_6 ⟨0, hn⟩) (whole12_6 ⟨0, hn⟩) ((first12_iff ⟨0, hn⟩).mpr rfl) (iblk12 V c 0 ⟨0, hn⟩) (iblk12 V c 1 ⟨0, hn⟩) (iblk12 V c 2 ⟨0, hn⟩) (iblk12 V c 3 ⟨0, hn⟩),
      k12_pay4_apply, k12_pay1_apply, zero_add,
      bandSum12 (uMat12 V c) q 0 (by omega) _ (fun p r hr => band12 V c ⟨0, hn⟩ p q r hr)]
    simp only [Nat.mul_zero, Nat.zero_add, Nat.mul_one]
  | n + 1, hn => by
    have hN : n + 1 < 25 := lt_of_lt_of_eq hn (show cfg12.N = 25 from N_12)
    rw [left12_later V c ⟨n + 1, hn⟩ (Nat.succ_ne_zero n)]
    dsimp only
    simp only [Nat.add_sub_cancel]
    rw [carryOut12_5_eq (F := Ideal) c (grid12.coords ⟨n + 1, hn⟩) (buf12_0 ⟨n + 1, hn⟩) (whole12_0 ⟨n + 1, hn⟩) (buf12_1 ⟨n + 1, hn⟩) (whole12_1 ⟨n + 1, hn⟩) (buf12_2 ⟨n + 1, hn⟩) (whole12_2 ⟨n + 1, hn⟩) (buf12_3 ⟨n + 1, hn⟩) (whole12_3 ⟨n + 1, hn⟩) (buf12_4 ⟨n + 1, hn⟩) (whole12_4 ⟨n + 1, hn⟩) (buf12_5 ⟨n + 1, hn⟩) (whole12_5 ⟨n + 1, hn⟩) (buf12_6 ⟨n + 1, hn⟩) (whole12_6 ⟨n + 1, hn⟩) (fun h => Nat.succ_ne_zero n ((first12_iff ⟨n + 1, hn⟩).mp h)) (iblk12 V c 0 ⟨n + 1, hn⟩) (iblk12 V c 1 ⟨n + 1, hn⟩) (iblk12 V c 2 ⟨n + 1, hn⟩) (iblk12 V c 3 ⟨n + 1, hn⟩) (left12 V c n (Nat.lt_of_succ_lt hn)).2.1 (left12 V c n (Nat.lt_of_succ_lt hn)).2.2,
      k12_pay4_apply, sumAt12 c q n (Nat.lt_of_succ_lt hn),
      bandSum12 (uMat12 V c) q (n + 1) hN _ (fun p r hr => band12 V c ⟨n + 1, hn⟩ p q r hr),
      show 2000 * (n + 1 + 1) = 2000 * (n + 1) + 2000 from by ring, Finset.sum_range_add]

/-- THE COLUMN SUMS OF SQUARES SO FAR, the same way. -/
theorem sqAt12 (c : Dev nD) (q : Fin 256) : ∀ (n : ℕ) (hn : n < cfg12.N),
    (left12 V c n hn).2.2 (ix2 0 q) = ∑ x ∈ Finset.range (2000 * (n + 1)), rowOr12 (fun r j => uMat12 V c r j * uMat12 V c r j) q x
  | 0, hn => by
    rw [left12_first V c ⟨0, hn⟩ rfl]
    dsimp only
    rw [resetOut12_6_eq (F := Ideal) c (grid12.coords ⟨0, hn⟩) (buf12_0 ⟨0, hn⟩) (whole12_0 ⟨0, hn⟩) (buf12_1 ⟨0, hn⟩) (whole12_1 ⟨0, hn⟩) (buf12_2 ⟨0, hn⟩) (whole12_2 ⟨0, hn⟩) (buf12_3 ⟨0, hn⟩) (whole12_3 ⟨0, hn⟩) (buf12_4 ⟨0, hn⟩) (whole12_4 ⟨0, hn⟩) (buf12_5 ⟨0, hn⟩) (whole12_5 ⟨0, hn⟩) (buf12_6 ⟨0, hn⟩) (whole12_6 ⟨0, hn⟩) ((first12_iff ⟨0, hn⟩).mpr rfl) (iblk12 V c 0 ⟨0, hn⟩) (iblk12 V c 1 ⟨0, hn⟩) (iblk12 V c 2 ⟨0, hn⟩) (iblk12 V c 3 ⟨0, hn⟩),
      k12_pay5_apply, k12_pay2_apply, zero_add,
      bandSum12 (fun r j => uMat12 V c r j * uMat12 V c r j) q 0 (by omega) _ (fun p r hr => bandSq12 V c ⟨0, hn⟩ p q r hr)]
    simp only [Nat.mul_zero, Nat.zero_add, Nat.mul_one]
  | n + 1, hn => by
    have hN : n + 1 < 25 := lt_of_lt_of_eq hn (show cfg12.N = 25 from N_12)
    rw [left12_later V c ⟨n + 1, hn⟩ (Nat.succ_ne_zero n)]
    dsimp only
    simp only [Nat.add_sub_cancel]
    rw [carryOut12_6_eq (F := Ideal) c (grid12.coords ⟨n + 1, hn⟩) (buf12_0 ⟨n + 1, hn⟩) (whole12_0 ⟨n + 1, hn⟩) (buf12_1 ⟨n + 1, hn⟩) (whole12_1 ⟨n + 1, hn⟩) (buf12_2 ⟨n + 1, hn⟩) (whole12_2 ⟨n + 1, hn⟩) (buf12_3 ⟨n + 1, hn⟩) (whole12_3 ⟨n + 1, hn⟩) (buf12_4 ⟨n + 1, hn⟩) (whole12_4 ⟨n + 1, hn⟩) (buf12_5 ⟨n + 1, hn⟩) (whole12_5 ⟨n + 1, hn⟩) (buf12_6 ⟨n + 1, hn⟩) (whole12_6 ⟨n + 1, hn⟩) (fun h => Nat.succ_ne_zero n ((first12_iff ⟨n + 1, hn⟩).mp h)) (iblk12 V c 0 ⟨n + 1, hn⟩) (iblk12 V c 1 ⟨n + 1, hn⟩) (iblk12 V c 2 ⟨n + 1, hn⟩) (iblk12 V c 3 ⟨n + 1, hn⟩) (left12 V c n (Nat.lt_of_succ_lt hn)).2.1 (left12 V c n (Nat.lt_of_succ_lt hn)).2.2,
      k12_pay5_apply, sqAt12 c q n (Nat.lt_of_succ_lt hn),
      bandSum12 (fun r j => uMat12 V c r j * uMat12 V c r j) q (n + 1) hN _ (fun p r hr => bandSq12 V c ⟨n + 1, hn⟩ p q r hr),
      show 2000 * (n + 1 + 1) = 2000 * (n + 1) + 2000 from by ring, Finset.sum_range_add]

/-! ## From the staging buffers to the arrays -/

/-- `uMat12` as contents of u's array. -/
def uArr12 (c : Dev nD) : Vec Ideal S50000x256 .f32 := fun i => uMat12 V c (i 0) (i 1)

/-- WHAT POINT `t` WRITES BACK is band `t` of `uArr12`. -/
theorem flushed12_4 (c : Dev nD) (t : Fin cfg12.N) :
    (dat12 V c).flushed 4 t = ((cfg12.win 4).blk t).view.read (Elt Ideal) (uArr12 V c) := by
  have hN : t.val < 25 := lt_of_lt_of_eq t.isLt (show cfg12.N = 25 from N_12)
  show (cfg12.win 4).cut (grid12.coords t) ((dat12 V c).after 4 t) = _
  rw [after12_4]
  funext j
  obtain ⟨p, q, rfl⟩ : ∃ (p : Fin 2000) (q : Fin 256), j = ix2 p q := ⟨j 0, j 1, eq_ix2 (n0 := 2000) (n1 := 256) j⟩
  obtain ⟨-, -, -, -, -, -, -, -, e0, e1, -⟩ := bands12 t
  have hp : p.val < 2000 := p.isLt
  have hr : 2000 * t.val + p.val < 50000 := by omega
  have hj : ((cfg12.win 4).blk t).view.emb (ix2 p q) = ix2 (⟨2000 * t.val + p.val, hr⟩ : Fin 50000) q := by
    funext a; apply Fin.ext
    match a with
    | ⟨0, _⟩ => show win12_4.index t (0 : Fin 2) * 2000 + 1 * p.val = 2000 * t.val + p.val; omega
    | ⟨1, _⟩ => show win12_4.index t (1 : Fin 2) * 256 + 1 * q.val = q.val; omega
  show (left12 V c t.val t.isLt).1 (ix2 p q) = uArr12 V c (((cfg12.win 4).blk t).view.emb (ix2 p q))
  rw [hj, uAt12 V c t]
  exact band12 V c t p q ⟨2000 * t.val + p.val, hr⟩ rfl

/-- An index of u's array is in point `t`'s block iff each coordinate is in the block's range on its axis. -/
theorem mem_blk12_4 (t : Fin cfg12.N) (i : (Pipeline.arrRef spec12 4).ty.shape.Idx) :
    i ∈ ((cfg12.win 4).blk t).view.set ↔ ∀ a : Fin 2, win12_4.index t a * S2000x256.size a ≤ (i a).val ∧ (i a).val < win12_4.index t a * S2000x256.size a + S2000x256.size a := by
  show i ∈ ((View.whole (Pipeline.arrRef spec12 4)).slice (win12_4.rect t)).set ↔ _
  rw [View.set_slice_whole, Rect.mem_set_unit]
  exact Iff.rfl

/-- The bands tile the array (row r is in band r / 2000), so u's array ends holding `uArr12`. -/
theorem final12_4 (c : Dev nD) : (dat12 V c).arrAt 4 cfg12.N = uArr12 V c :=
  (dat12 V c).arrAt_eq_of_cover 4 (uArr12 V c) (fun t _ => flushed12_4 V c t) fun i => by
    have hN : cfg12.N = 25 := N_12
    have hi0 : (i 0).val < 50000 := (i 0).isLt
    have hi1 : (i 1).val < 256 := (i 1).isLt
    refine ⟨⟨(i 0).val / 2000, by omega⟩, flush12_4 _, ?_⟩
    rw [mem_blk12_4]
    obtain ⟨-, -, -, -, -, -, -, -, e0, e1, -⟩ := bands12 (⟨(i 0).val / 2000, by omega⟩ : Fin cfg12.N)
    intro a
    match a with
    | ⟨0, _⟩ => show win12_4.index _ (0 : Fin 2) * 2000 ≤ (i 0).val ∧ (i 0).val < win12_4.index _ (0 : Fin 2) * 2000 + 2000; dsimp only at e0; omega
    | ⟨1, _⟩ => show win12_4.index _ (1 : Fin 2) * 256 ≤ (i 1).val ∧ (i 1).val < win12_4.index _ (1 : Fin 2) * 256 + 256; omega

/-- What the column-sum array is written back as: the column sums over all 50000 rows, as a row array. -/
def sumArr12 (c : Dev nD) : Vec Ideal S1x256 .f32 := fun i => Gin.colsum (uMat12 V c) (i 1)

set_option maxRecDepth 65536 in
/-- The one write-back of the column-sum array, after the last point, writes that row: block (0, 0) of the one-row array is the array, and the
    accumulator then holds the sum over every band. -/
theorem flushed12_5 (c : Dev nD) (t : Fin cfg12.N) (hf : (cfg12.win 5).flush t = true) :
    (dat12 V c).flushed 5 t = ((cfg12.win 5).blk t).view.read (Elt Ideal) (sumArr12 V c) := by
  have hN : cfg12.N = 25 := N_12
  have h24 : 2000 * (t.val + 1) = 50000 := by have := (flush12_5 t).mp hf; have := t.isLt; omega
  show (cfg12.win 5).cut (grid12.coords t) ((dat12 V c).after 5 t) = _
  rw [after12_5]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, e0, e1, -⟩ := bands12 t
  have hj : ((cfg12.win 5).blk t).view.emb (ix2 0 q) = ix2 0 q := by
    funext a; apply Fin.ext
    match a with
    | ⟨0, _⟩ => show win12_5.index t (0 : Fin 2) * 1 + 1 * 0 = 0; omega
    | ⟨1, _⟩ => show win12_5.index t (1 : Fin 2) * 256 + 1 * q.val = q.val; omega
  show (left12 V c t.val t.isLt).2.1 (ix2 0 q) = sumArr12 V c (((cfg12.win 5).blk t).view.emb (ix2 0 q))
  rw [hj]
  show (left12 V c t.val t.isLt).2.1 (ix2 0 q) = Gin.colsum (uMat12 V c) q
  rw [← allRows12, sumAt12 V c q t.val t.isLt, h24]

/-- An index of the column-sum array is in point `t`'s block iff each coordinate is in the block's range on its axis. -/
theorem mem_blk12_5 (t : Fin cfg12.N) (i : (Pipeline.arrRef spec12 5).ty.shape.Idx) :
    i ∈ ((cfg12.win 5).blk t).view.set ↔ ∀ a : Fin 2, win12_5.index t a * S1x256.size a ≤ (i a).val ∧ (i a).val < win12_5.index t a * S1x256.size a + S1x256.size a := by
  show i ∈ ((View.whole (Pipeline.arrRef spec12 5)).slice (win12_5.rect t)).set ↔ _
  rw [View.set_slice_whole, Rect.mem_set_unit]
  exact Iff.rfl

/-- So the column-sum array ends as that row. -/
theorem final12_5 (c : Dev nD) : (dat12 V c).arrAt 5 cfg12.N = sumArr12 V c :=
  (dat12 V c).arrAt_eq_of_cover 5 (sumArr12 V c) (flushed12_5 V c) fun i => by
    have hN : cfg12.N = 25 := N_12
    refine ⟨⟨24, by omega⟩, (flush12_5 _).mpr rfl, ?_⟩
    rw [mem_blk12_5]
    obtain ⟨-, -, -, -, -, -, -, -, -, -, e0, e1, -⟩ := bands12 (⟨24, by omega⟩ : Fin cfg12.N)
    intro a
    match a with
    | ⟨0, _⟩ => show win12_5.index _ (0 : Fin 2) * 1 ≤ (i 0).val ∧ (i 0).val < win12_5.index _ (0 : Fin 2) * 1 + 1; have hi0 : (i 0).val < 1 := (i 0).isLt; omega
    | ⟨1, _⟩ => show win12_5.index _ (1 : Fin 2) * 256 ≤ (i 1).val ∧ (i 1).val < win12_5.index _ (1 : Fin 2) * 256 + 256; have hi1 : (i 1).val < 256 := (i 1).isLt; omega

/-- What the sum-of-squares array is written back as: the column sums over all 50000 rows, as a row array. -/
def sqArr12 (c : Dev nD) : Vec Ideal S1x256 .f32 := fun i => Gin.colsum (fun r j => uMat12 V c r j * uMat12 V c r j) (i 1)

set_option maxRecDepth 65536 in
/-- The one write-back of the sum-of-squares array, after the last point, writes that row: block (0, 0) of the one-row array is the array, and the
    accumulator then holds the sum over every band. -/
theorem flushed12_6 (c : Dev nD) (t : Fin cfg12.N) (hf : (cfg12.win 6).flush t = true) :
    (dat12 V c).flushed 6 t = ((cfg12.win 6).blk t).view.read (Elt Ideal) (sqArr12 V c) := by
  have hN : cfg12.N = 25 := N_12
  have h24 : 2000 * (t.val + 1) = 50000 := by have := (flush12_6 t).mp hf; have := t.isLt; omega
  show (cfg12.win 6).cut (grid12.coords t) ((dat12 V c).after 6 t) = _
  rw [after12_6]
  funext j
  obtain ⟨z, q, rfl⟩ : ∃ (z : Fin 1) (q : Fin 256), j = ix2 z q := ⟨j 0, j 1, eq_ix2 (n0 := 1) (n1 := 256) j⟩
  obtain rfl : z = 0 := Fin.ext (by have hz : z.val < 1 := z.isLt; show z.val = 0; omega)
  obtain ⟨-, -, -, -, -, -, -, -, -, -, -, -, e0, e1⟩ := bands12 t
  have hj : ((cfg12.win 6).blk t).view.emb (ix2 0 q) = ix2 0 q := by
    funext a; apply Fin.ext
    match a with
    | ⟨0, _⟩ => show win12_6.index t (0 : Fin 2) * 1 + 1 * 0 = 0; omega
    | ⟨1, _⟩ => show win12_6.index t (1 : Fin 2) * 256 + 1 * q.val = q.val; omega
  show (left12 V c t.val t.isLt).2.2 (ix2 0 q) = sqArr12 V c (((cfg12.win 6).blk t).view.emb (ix2 0 q))
  rw [hj]
  show (left12 V c t.val t.isLt).2.2 (ix2 0 q) = Gin.colsum (fun r j => uMat12 V c r j * uMat12 V c r j) q
  rw [← allRows12, sqAt12 V c q t.val t.isLt, h24]

/-- An index of the sum-of-squares array is in point `t`'s block iff each coordinate is in the block's range on its axis. -/
theorem mem_blk12_6 (t : Fin cfg12.N) (i : (Pipeline.arrRef spec12 6).ty.shape.Idx) :
    i ∈ ((cfg12.win 6).blk t).view.set ↔ ∀ a : Fin 2, win12_6.index t a * S1x256.size a ≤ (i a).val ∧ (i a).val < win12_6.index t a * S1x256.size a + S1x256.size a := by
  show i ∈ ((View.whole (Pipeline.arrRef spec12 6)).slice (win12_6.rect t)).set ↔ _
  rw [View.set_slice_whole, Rect.mem_set_unit]
  exact Iff.rfl

/-- So the sum-of-squares array ends as that row. -/
theorem final12_6 (c : Dev nD) : (dat12 V c).arrAt 6 cfg12.N = sqArr12 V c :=
  (dat12 V c).arrAt_eq_of_cover 6 (sqArr12 V c) (flushed12_6 V c) fun i => by
    have hN : cfg12.N = 25 := N_12
    refine ⟨⟨24, by omega⟩, (flush12_6 _).mpr rfl, ?_⟩
    rw [mem_blk12_6]
    obtain ⟨-, -, -, -, -, -, -, -, -, -, -, -, e0, e1⟩ := bands12 (⟨24, by omega⟩ : Fin cfg12.N)
    intro a
    match a with
    | ⟨0, _⟩ => show win12_6.index _ (0 : Fin 2) * 1 ≤ (i 0).val ∧ (i 0).val < win12_6.index _ (0 : Fin 2) * 1 + 1; have hi0 : (i 0).val < 1 := (i 0).isLt; omega
    | ⟨1, _⟩ => show win12_6.index _ (1 : Fin 2) * 256 ≤ (i 1).val ∧ (i 1).val < win12_6.index _ (1 : Fin 2) * 256 + 256; have hi1 : (i 1).val < 256 := (i 1).isLt; omega

/-! ## The region's three results -/

/-- The affine output: (h + agg) · W + b. -/
theorem val12_4 (c : Dev nD) : Gin.toMat ((dat12 V c).arrAt 4 cfg12.N)
    = Gin.lin (fun r k => Gin.toMat (V c (Pipeline.arrRef spec12 0)) r k + Gin.toMat (V c (Pipeline.arrRef spec12 1)) r k)
        (Gin.toWt (V c (Pipeline.arrRef spec12 2))) (Gin.toRow (V c (Pipeline.arrRef spec12 3))) := by
  rw [final12_4]
  rfl
/-- Its column sums. -/
theorem val12_5 (c : Dev nD) : Gin.toRow ((dat12 V c).arrAt 5 cfg12.N) = Gin.colsum (Gin.toMat ((dat12 V c).arrAt 4 cfg12.N)) := by
  rw [final12_5, final12_4]
  rfl
/-- The column sums of its squares. -/
theorem val12_6 (c : Dev nD) : Gin.toRow ((dat12 V c).arrAt 6 cfg12.N)
    = Gin.colsum (fun r j => Gin.toMat ((dat12 V c).arrAt 4 cfg12.N) r j * Gin.toMat ((dat12 V c).arrAt 4 cfg12.N) r j) := by
  rw [final12_6, final12_4]
  rfl

end Cert.KernelIdeal.Hand

end
-- ==== Proof.KI.Pay13.lean ====
/-
  The body of the normalise, multiply and accumulate-statistics step at the ideal values, read at an index (floats are
  extended reals, every operation exact, a change of float format the identity). Each value the body stores is, entry by
  entry, a plain sum or product of the entries it loaded: the normalised [2000,256] block times the [256,256] weight
  matrix plus the bias row; each accumulator row plus the column sums of a [2000,256] block, or of its squares; the zero
  rows of the first step; a row re-laid with its own layout.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx

/-! ## The [2000,256] × [256,256] product read at an entry -/

/-- Row axis of the left operand: the output's row. -/
theorem k13_lhs_axis0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- Column axis of the left operand: the contracted coordinate. -/
theorem k13_lhs_axis1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

/-- Row axis of the right operand: the contracted coordinate. -/
theorem k13_rhs_axis0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

/-- Column axis of the right operand: the output's column. -/
theorem k13_rhs_axis1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The matrix unit's product into a zero accumulator, at entry (p, q): the sum over the 256 contracted coordinates of
    the left operand's row p times the right operand's column q. -/
theorem k13_product_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ k : Fin 256, A (ix2 p k) * B (ix2 k q) := by
  refine (Ideal.matmul_constant_zero_apply dot_S2000x256_S256x256_S2000x256_1_0_0_1_n_n none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact k13_lhs_axis0 _ _
      | ⟨1, _⟩ => exact (k13_lhs_axis1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (k13_rhs_axis0 _ _).trans hk
      | ⟨1, _⟩ => exact k13_rhs_axis1 _ _)
  rw [el, er]

/-! ## A column sum of a [2000,256] block, laid as a [1,256] row -/

/-- The sum over the 2000 rows, read at lane q. -/
theorem k13_colsum_apply (x : FVec Ideal S2000x256 .f32) (hacc : (0x00000000#32 : BitVec 32) = 0x00000000#32) (q : Fin 256) :
    multiReduction (F := Ideal) .add [0] S256 x 0x00000000#32 reduces_S2000x256_S256 (.inl rfl) hacc (ix1 q)
      = ∑ p : Fin 2000, x (ix2 p q) := by
  refine (Ideal.multiReduction_add_single x 0x00000000#32 reduces_S2000x256_S256 (.inl rfl) hacc (ix1 q)).trans ?_
  refine Finset.sum_congr rfl fun p _ => congrArg x ?_
  funext a
  match a with
  | ⟨0, _⟩ => rfl
  | ⟨1, _⟩ => rfl

/-! ## What the body stores, entry by entry -/

/-- The normalised block times the weights plus the bias: entry (p, q) is the sum over k of
    ((x[p,k] − mean[k]) · rsqrt(var[k] + ε) · gain[k] + shift[k]) · w[k,q], plus bias[q]; the narrowing to bf16 in
    front of the matrix unit is the identity on extended reals. -/
theorem k13_pay5_apply (v3 : Vec Ideal S2000x256 .f32) (v5 v9 v16 v20 : Vec Ideal S1x256 .f32)
    (v25 : Vec Ideal S256x256 .bf16) (v28 : Vec Ideal S1x256 .f32) (p : Fin 2000) (q : Fin 256) :
    k13_pay5 (F := Ideal) v3 v5 v9 v16 v20 v25 v28 (ix2 p q)
      = (∑ k : Fin 256, ((v3 (ix2 p k) - v5 (ix2 0 k)) * Ideal.rsqrt (v9 (ix2 0 k) + Ideal.ofBits .f32 0x3727C5AC#32)
            * v16 (ix2 0 k) + v20 (ix2 0 k)) * v25 (ix2 k q))
        + v28 (ix2 0 q) := by
  unfold k13_pay5
  simp only [shapeCast_self]
  refine (addf_apply _ _ _).trans ?_
  refine congrArg₂ (· + ·) ?_ ?_
  · refine (k13_product_apply _ _ p q).trans ?_
    refine Finset.sum_congr rfl fun k _ => congrArg (· * v25 (ix2 k q)) ?_
    show (v3 (ix2 p k) - broadcastTo S2000x256 v5 broadcasts_S1x256_S2000x256 (ix2 p k))
          * broadcastTo S2000x256 (rsqrt (addf v9 (broadcast S1x256 (Scalar.ofBits (F := Ideal) .f32 0x3727C5AC#32))))
              broadcasts_S1x256_S2000x256 (ix2 p k)
          * broadcastTo S2000x256 v16 broadcasts_S1x256_S2000x256 (ix2 p k)
        + broadcastTo S2000x256 v20 broadcasts_S1x256_S2000x256 (ix2 p k) = _
    rw [broadcastTo_1b_ab_apply v5 broadcasts_S1x256_S2000x256 p k,
      broadcastTo_1b_ab_apply (rsqrt (addf v9 (broadcast S1x256 (Scalar.ofBits (F := Ideal) .f32 0x3727C5AC#32))))
        broadcasts_S1x256_S2000x256 p k,
      broadcastTo_1b_ab_apply v16 broadcasts_S1x256_S2000x256 p k,
      broadcastTo_1b_ab_apply v20 broadcasts_S1x256_S2000x256 p k]
    rfl
  · exact broadcastTo_1b_ab_apply v28 broadcasts_S1x256_S2000x256 p q

/-- The first accumulator row plus the column sums of the block. -/
theorem k13_pay1_apply (v31 : FVec Ideal S2000x256 .f32) (v34 : FVec Ideal S1x256 .f32) (q : Fin 256) :
    k13_pay1 (F := Ideal) v31 v34 (ix2 0 q) = v34 (ix2 0 q) + ∑ p : Fin 2000, v31 (ix2 p q) := by
  unfold k13_pay1
  refine (addf_apply _ _ _).trans ?_
  refine congrArg (v34 (ix2 0 q) + ·) ?_
  refine (shapeCast_a_1a_apply _ shapeCasts_S256_S1x256 0 q).trans ?_
  exact k13_colsum_apply v31 rfl q

/-- The second accumulator row plus the column sums of the block's squares. -/
theorem k13_pay2_apply (v31 : FVec Ideal S2000x256 .f32) (v39 : Vec Ideal S1x256 .f32) (q : Fin 256) :
    k13_pay2 (F := Ideal) v31 v39 (ix2 0 q) = v39 (ix2 0 q) + ∑ p : Fin 2000, v31 (ix2 p q) * v31 (ix2 p q) := by
  unfold k13_pay2
  simp only [shapeCast_self]
  refine (addf_apply _ _ _).trans ?_
  refine congrArg (v39 (ix2 0 q) + ·) ?_
  refine (shapeCast_a_1a_apply _ shapeCasts_S256_S1x256 0 q).trans ?_
  exact k13_colsum_apply (mulf v31 v31) rfl q

/-- The zero row the first step stores into the first accumulator. -/
theorem k13_pay3_apply (q : Fin 256) : k13_pay3 (F := Ideal) (ix2 0 q) = 0 := by
  unfold k13_pay3
  exact Ideal.ofBits_zero_f32

/-- The zero row the first step stores into the second accumulator. -/
theorem k13_pay4_apply (q : Fin 256) : k13_pay4 (F := Ideal) (ix2 0 q) = 0 := by
  unfold k13_pay4
  exact Ideal.ofBits_zero_f32

/-- A [1,256] row re-laid as a [1,256] row is itself. -/
theorem k13_pay6_eq (v33 : Vec Ideal S1x256 .f32) : k13_pay6 (F := Ideal) v33 = v33 := by
  unfold k13_pay6
  exact shapeCast_self v33 shapeCasts_S1x256_S1x256

/-- … so at lane q it reads the row's lane q. -/
theorem k13_pay6_apply (v33 : Vec Ideal S1x256 .f32) (q : Fin 256) : k13_pay6 (F := Ideal) v33 (ix2 0 q) = v33 (ix2 0 q) :=
  congrFun (k13_pay6_eq v33) (ix2 0 q)

end Cert.KernelIdeal.PayVal

end
-- ==== Proof.KI.R13Val.lean ====
/-
  What region 13 of the idealized kernel program leaves in its output arrays, at the exact instance, as functions of what it finds in its
  input arrays: the mathematics of the kernel body summed over the grid.
-/
import proofs.«102822_j3521873183180_1_alg».proof.Proof.KI.R13
import proofs.«102822_j3521873183180_1_alg».proof.Proof.Spec
import proofs.«102822_j3521873183180_1_alg».proof.Proof.KI.Pay13
import proofs.«102822_j3521873183180_1_alg».proof.Proof.LibBlockSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat)

section Pieces

variable {F : FTy → Type} [FloatOps F]

/-! ## What each case's stores leave, as the body's payloads of the blocks (any float instance) -/

theorem hz13 : (![0, 0] : Fin 2 → Nat) = fun _ => 0 := funext fun a => by fin_cases a <;> rfl

/-- At the first point the block output's buffer ends at the one store's payload: the affine map of the normalised input block. -/
theorem out13_A_7_eq (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out13_A_7 c i arg1 harg1 arg2 harg2 arg3 harg3 arg4 harg4 arg5 harg5 arg6 harg6 arg7 harg7 arg8 harg8 arg9 harg9 arg10 harg10 hc0 x0 x1 x2 x3 x4 x5 x6 = k13_pay5 x0 x1 x2 x3 x4 x5 x6 := by
  unfold out13_A_7
  rw [View.read_writes_eq_canon _ _ _ (cover13_A_7 c i arg1 harg1 arg2 harg2 arg3 harg3 arg4 harg4 arg5 harg5 arg6 harg6 arg7 harg7 arg8 harg8 arg9 harg9 arg10 harg10 hc0 x0 x1 x2 x3 x4 x5 x6)]
  unfold kernelRun13_A
  dsimp only
  sl_unfold_words
  rw [View.canon_unit_zero hz13]
  simp only [View.readAt_eq_ld, harg1.read_unread, harg2.read_unread, harg3.read_unread, harg4.read_unread, harg5.read_unread, harg6.read_unread, harg7.read_unread, harg9.read_unread, harg10.read_unread,
    View.ld_unit_zero (S := S2000x256) hz13, View.ld_unit_zero (S := S1x256) hz13, View.ld_unit_zero (S := S256x256) hz13]

/-- At the first point the first accumulator ends at the zero row, read back, plus the block's column sums. -/
theorem out13_A_8_eq (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out13_A_8 c i arg1 harg1 arg2 harg2 arg3 harg3 arg4 harg4 arg5 harg5 arg6 harg6 arg7 harg7 arg8 harg8 arg9 harg9 arg10 harg10 hc0 x0 x1 x2 x3 x4 x5 x6 = k13_pay1 (k13_pay5 x0 x1 x2 x3 x4 x5 x6) (k13_pay6 (k13_pay3 (F := F))) := by
  unfold out13_A_8
  rw [View.read_writes_eq_canon _ _ _ (cover13_A_8 c i arg1 harg1 arg2 harg2 arg3 harg3 arg4 harg4 arg5 harg5 arg6 harg6 arg7 harg7 arg8 harg8 arg9 harg9 arg10 harg10 hc0 x0 x1 x2 x3 x4 x5 x6)]
  unfold kernelRun13_A
  dsimp only
  sl_unfold_words
  rw [View.canon_cons_unit_zero (S := S1x256) hz13, View.readCov_unit_zero (S := S1x256) _ hz13]
  simp only [View.readAt_eq_ld, harg1.read_unread, harg2.read_unread, harg3.read_unread, harg4.read_unread, harg5.read_unread, harg6.read_unread, harg7.read_unread, harg9.read_unread, harg10.read_unread,
    View.ld_unit_zero (S := S2000x256) hz13, View.ld_unit_zero (S := S1x256) hz13, View.ld_unit_zero (S := S256x256) hz13]

/-- At the first point the second accumulator ends at the zero row, read back, plus the column sums of the block's squares. -/
theorem out13_A_9_eq (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) :
    out13_A_9 c i arg1 harg1 arg2 harg2 arg3 harg3 arg4 harg4 arg5 harg5 arg6 harg6 arg7 harg7 arg8 harg8 arg9 harg9 arg10 harg10 hc0 x0 x1 x2 x3 x4 x5 x6 = k13_pay2 (k13_pay5 x0 x1 x2 x3 x4 x5 x6) (k13_pay4 (F := F)) := by
  unfold out13_A_9
  rw [View.read_writes_eq_canon _ _ _ (cover13_A_9 c i arg1 harg1 arg2 harg2 arg3 harg3 arg4 harg4 arg5 harg5 arg6 harg6 arg7 harg7 arg8 harg8 arg9 harg9 arg10 harg10 hc0 x0 x1 x2 x3 x4 x5 x6)]
  unfold kernelRun13_A
  dsimp only
  sl_unfold_words
  rw [View.canon_cons_unit_zero (S := S1x256) hz13, View.readCov_unit_zero (S := S1x256) _ hz13]
  simp only [View.readAt_eq_ld, harg1.read_unread, harg2.read_unread, harg3.read_unread, harg4.read_unread, harg5.read_unread, harg6.read_unread, harg7.read_unread, harg9.read_unread, harg10.read_unread,
    View.ld_unit_zero (S := S2000x256) hz13, View.ld_unit_zero (S := S1x256) hz13, View.ld_unit_zero (S := S256x256) hz13]

/-- At any other point the block output's buffer ends at the one store's payload: the affine map of the normalised input block. -/
theorem out13_B_7_eq (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out13_B_7 c i arg1 harg1 arg2 harg2 arg3 harg3 arg4 harg4 arg5 harg5 arg6 harg6 arg7 harg7 arg8 harg8 arg9 harg9 arg10 harg10 hc0 x0 x1 x2 x3 x4 x5 x6 xo8 xo9 = k13_pay5 x0 x1 x2 x3 x4 x5 x6 := by
  unfold out13_B_7
  rw [View.read_writes_eq_canon _ _ _ (cover13_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun13_B
  dsimp only
  sl_unfold_words
  rw [View.canon_unit_zero hz13]
  simp only [View.readAt_eq_ld, harg1.read_unread, harg2.read_unread, harg3.read_unread, harg4.read_unread, harg5.read_unread, harg6.read_unread, harg7.read_unread, harg9.read_unread, harg10.read_unread,
    View.ld_unit_zero (S := S2000x256) hz13, View.ld_unit_zero (S := S1x256) hz13, View.ld_unit_zero (S := S256x256) hz13]

/-- At any other point the first accumulator ends at what it held plus the block's column sums. -/
theorem out13_B_8_eq (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out13_B_8 c i arg1 harg1 arg2 harg2 arg3 harg3 arg4 harg4 arg5 harg5 arg6 harg6 arg7 harg7 arg8 harg8 arg9 harg9 arg10 harg10 hc0 x0 x1 x2 x3 x4 x5 x6 xo8 xo9 = k13_pay1 (k13_pay5 x0 x1 x2 x3 x4 x5 x6) (k13_pay6 xo8) := by
  unfold out13_B_8
  rw [View.read_writes_eq_canon _ _ _ (cover13_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun13_B
  dsimp only
  sl_unfold_words
  rw [View.canon_unit_zero hz13]
  simp only [View.readAt_eq_ld, harg1.read_unread, harg2.read_unread, harg3.read_unread, harg4.read_unread, harg5.read_unread, harg6.read_unread, harg7.read_unread, harg9.read_unread, harg10.read_unread,
    View.ld_unit_zero (S := S2000x256) hz13, View.ld_unit_zero (S := S1x256) hz13, View.ld_unit_zero (S := S256x256) hz13]

/-- At any other point the second accumulator ends at what it held plus the column sums of the block's squares. -/
theorem out13_B_9_eq (c : Dev nD) (i : grid13.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S2000x256 .f32) (harg8 : arg8.IsWhole) (arg9 : Memref sig .tc .vmem S1x256 .f32) (harg9 : arg9.IsWhole) (arg10 : Memref sig .tc .vmem S1x256 .f32) (harg10 : arg10.IsWhole) (hc0 : ¬cond13_0 i)
    (x0 : Vec F S2000x256 .f32) (x1 : Vec F S1x256 .f32) (x2 : Vec F S1x256 .f32) (x3 : Vec F S1x256 .f32) (x4 : Vec F S1x256 .f32) (x5 : Vec F S256x256 .bf16) (x6 : Vec F S1x256 .f32) (xo8 : Vec F S1x256 .f32) (xo9 : Vec F S1x256 .f32) :
    out13_B_9 c i arg1 harg1 arg2 harg2 arg3 harg3 arg4 harg4 arg5 harg5 arg6 harg6 arg7 harg7 arg8 harg8 arg9 harg9 arg10 harg10 hc0 x0 x1 x2 x3 x4 x5 x6 xo8 xo9 = k13_pay2 (k13_pay5 x0 x1 x2 x3 x4 x5 x6) xo9 := by
  unfold out13_B_9
  rw [View.read_writes_eq_canon _ _ _ (cover13_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun13_B
  dsimp only
  sl_unfold_words
  rw [View.canon_unit_zero hz13]
  simp only [View.readAt_eq_ld, harg1.read_unread, harg2.read_unread, harg3.read_unread, harg4.read_unread, harg5.read_unread, harg6.read_unread, harg7.read_unread, harg9.read_unread, harg10.read_unread,
    View.ld_unit_zero (S := S2000x256) hz13, View.ld_unit_zero (S := S1x256) hz13, View.ld_unit_zero (S := S256x256) hz13]

end Pieces

/-! ## The region at the exact instance -/

variable (V : (c : Dev nD) → (b : Ref sig .tc) → Buf (Elt Ideal) ((c : Thread nD τ).loc b))

/-- The grid has 25 points: a point's number is below 25. -/
theorem pt_lt13 (t : Fin cfg13.N) : t.val < 25 := lt_of_lt_of_eq t.isLt N_13

/-- What the region computes into its block output: the affine map bn(u; μ, σ², γ, β) · W + b of its input arrays. -/
def aff13 (c : Dev nD) : Gin.Mat :=
  Gin.lin (Gin.bn (Gin.toMat (V c (Pipeline.arrRef spec13 0))) (Gin.toRow (V c (Pipeline.arrRef spec13 1))) (Gin.toRow (V c (Pipeline.arrRef spec13 2)))
      (Gin.toRow (V c (Pipeline.arrRef spec13 3))) (Gin.toRow (V c (Pipeline.arrRef spec13 4))))
    (Gin.toWt (V c (Pipeline.arrRef spec13 5))) (Gin.toRow (V c (Pipeline.arrRef spec13 6)))

/-! ## Where each window's block sits in its array -/

/-- The printed index maps, decided over the grid: the two row-blocked windows are at block `t`, every other window at block 0. -/
theorem idx13_0 : ∀ t : Fin cfg13.N, win13_0.index t (0 : Fin 2) = t.val ∧ win13_0.index t (1 : Fin 2) = 0 :=
  (by decide +kernel : ∀ t : Fin grid13.N, win13_0.index t (0 : Fin 2) = t.val ∧ win13_0.index t (1 : Fin 2) = 0)
theorem idx13_1 : ∀ t : Fin cfg13.N, win13_1.index t (0 : Fin 2) = 0 ∧ win13_1.index t (1 : Fin 2) = 0 :=
  (by decide +kernel : ∀ t : Fin grid13.N, win13_1.index t (0 : Fin 2) = 0 ∧ win13_1.index t (1 : Fin 2) = 0)
theorem idx13_2 : ∀ t : Fin cfg13.N, win13_2.index t (0 : Fin 2) = 0 ∧ win13_2.index t (1 : Fin 2) = 0 :=
  (by decide +kernel : ∀ t : Fin grid13.N, win13_2.index t (0 : Fin 2) = 0 ∧ win13_2.index t (1 : Fin 2) = 0)
theorem idx13_3 : ∀ t : Fin cfg13.N, win13_3.index t (0 : Fin 2) = 0 ∧ win13_3.index t (1 : Fin 2) = 0 :=
  (by decide +kernel : ∀ t : Fin grid13.N, win13_3.index t (0 : Fin 2) = 0 ∧ win13_3.index t (1 : Fin 2) = 0)
theorem idx13_4 : ∀ t : Fin cfg13.N, win13_4.index t (0 : Fin 2) = 0 ∧ win13_4.index t (1 : Fin 2) = 0 :=
  (by decide +kernel : ∀ t : Fin grid13.N, win13_4.index t (0 : Fin 2) = 0 ∧ win13_4.index t (1 : Fin 2) = 0)
theorem idx13_5 : ∀ t : Fin cfg13.N, win13_5.index t (0 : Fin 2) = 0 ∧ win13_5.index t (1 : Fin 2) = 0 :=
  (by decide +kernel : ∀ t : Fin grid13.N, win13_5.index t (0 : Fin 2) = 0 ∧ win13_5.index t (1 : Fin 2) = 0)
theorem idx13_6 : ∀ t : Fin cfg13.N, win13_6.index t (0 : Fin 2) = 0 ∧ win13_6.index t (1 : Fin 2) = 0 :=
  (by decide +kernel : ∀ t : Fin grid13.N, win13_6.index t (0 : Fin 2) = 0 ∧ win13_6.index t (1 : Fin 2) = 0)
theorem idx13_7 : ∀ t : Fin cfg13.N, win13_7.index t (0 : Fin 2) = t.val ∧ win13_7.index t (1 : Fin 2) = 0 :=
  (by decide +kernel : ∀ t : Fin grid13.N, win13_7.index t (0 : Fin 2) = t.val ∧ win13_7.index t (1 : Fin 2) = 0)
theorem idx13_8 : ∀ t : Fin cfg13.N, win13_8.index t (0 : Fin 2) = 0 ∧ win13_8.index t (1 : Fin 2) = 0 :=
  (by decide +kernel : ∀ t : Fin grid13.N, win13_8.index t (0 : Fin 2) = 0 ∧ win13_8.index t (1 : Fin 2) = 0)
theorem idx13_9 : ∀ t : Fin cfg13.N, win13_9.index t (0 : Fin 2) = 0 ∧ win13_9.index t (1 : Fin 2) = 0 :=
  (by decide +kernel : ∀ t : Fin grid13.N, win13_9.index t (0 : Fin 2) = 0 ∧ win13_9.index t (1 : Fin 2) = 0)

/-- Row `p` of block `t` of a row-blocked window is row `2000 t + p` of its array. -/
theorem emb13_0 (t : Fin cfg13.N) (p : Fin 2000) (q : Fin 256) :
    ((cfg13.win 0).blk t).view.emb (ix2 p q) = ix2 (⟨2000 * t.val + p.val, BlockSum.row_lt (pt_lt13 t) p⟩ : Fin 50000) q := by
  funext a; apply Fin.ext
  obtain ⟨e0, e1⟩ := idx13_0 t
  match a with
  | ⟨0, _⟩ => show win13_0.index t (0 : Fin 2) * 2000 + 1 * p.val = 2000 * t.val + p.val; rw [e0]; omega
  | ⟨1, _⟩ => show win13_0.index t (1 : Fin 2) * 256 + 1 * q.val = q.val; rw [e1]; omega
theorem emb13_7 (t : Fin cfg13.N) (p : Fin 2000) (q : Fin 256) :
    ((cfg13.win 7).blk t).view.emb (ix2 p q) = ix2 (⟨2000 * t.val + p.val, BlockSum.row_lt (pt_lt13 t) p⟩ : Fin 50000) q := by
  funext a; apply Fin.ext
  obtain ⟨e0, e1⟩ := idx13_7 t
  match a with
  | ⟨0, _⟩ => show win13_7.index t (0 : Fin 2) * 2000 + 1 * p.val = 2000 * t.val + p.val; rw [e0]; omega
  | ⟨1, _⟩ => show win13_7.index t (1 : Fin 2) * 256 + 1 * q.val = q.val; rw [e1]; omega
/-- The one block of a row window is its array. -/
theorem emb13_1 (t : Fin cfg13.N) (q : Fin 256) :
    ((cfg13.win 1).blk t).view.emb (ix2 (0 : Fin 1) q) = ix2 (0 : Fin 1) q := by
  funext a; apply Fin.ext
  obtain ⟨e0, e1⟩ := idx13_1 t
  match a with
  | ⟨0, _⟩ => show win13_1.index t (0 : Fin 2) * 1 + 1 * (0 : Fin 1).val = (0 : Fin 1).val; rw [e0]; omega
  | ⟨1, _⟩ => show win13_1.index t (1 : Fin 2) * 256 + 1 * q.val = q.val; rw [e1]; omega
theorem emb13_2 (t : Fin cfg13.N) (q : Fin 256) :
    ((cfg13.win 2).blk t).view.emb (ix2 (0 : Fin 1) q) = ix2 (0 : Fin 1) q := by
  funext a; apply Fin.ext
  obtain ⟨e0, e1⟩ := idx13_2 t
  match a with
  | ⟨0, _⟩ => show win13_2.index t (0 : Fin 2) * 1 + 1 * (0 : Fin 1).val = (0 : Fin 1).val; rw [e0]; omega
  | ⟨1, _⟩ => show win13_2.index t (1 : Fin 2) * 256 + 1 * q.val = q.val; rw [e1]; omega
theorem emb13_3 (t : Fin cfg13.N) (q : Fin 256) :
    ((cfg13.win 3).blk t).view.emb (ix2 (0 : Fin 1) q) = ix2 (0 : Fin 1) q := by
  funext a; apply Fin.ext
  obtain ⟨e0, e1⟩ := idx13_3 t
  match a with
  | ⟨0, _⟩ => show win13_3.index t (0 : Fin 2) * 1 + 1 * (0 : Fin 1).val = (0 : Fin 1).val; rw [e0]; omega
  | ⟨1, _⟩ => show win13_3.index t (1 : Fin 2) * 256 + 1 * q.val = q.val; rw [e1]; omega
theorem emb13_4 (t : Fin cfg13.N) (q : Fin 256) :
    ((cfg13.win 4).blk t).view.emb (ix2 (0 : Fin 1) q) = ix2 (0 : Fin 1) q := by
  funext a; apply Fin.ext
  obtain ⟨e0, e1⟩ := idx13_4 t
  match a with
  | ⟨0, _⟩ => show win13_4.index t (0 : Fin 2) * 1 + 1 * (0 : Fin 1).val = (0 : Fin 1).val; rw [e0]; omega
  | ⟨1, _⟩ => show win13_4.index t (1 : Fin 2) * 256 + 1 * q.val = q.val; rw [e1]; omega
theorem emb13_6 (t : Fin cfg13.N) (q : Fin 256) :
    ((cfg13.win 6).blk t).view.emb (ix2 (0 : Fin 1) q) = ix2 (0 : Fin 1) q := by
  funext a; apply Fin.ext
  obtain ⟨e0, e1⟩ := idx13_6 t
  match a with
  | ⟨0, _⟩ => show win13_6.index t (0 : Fin 2) * 1 + 1 * (0 : Fin 1).val = (0 : Fin 1).val; rw [e0]; omega
  | ⟨1, _⟩ => show win13_6.index t (1 : Fin 2) * 256 + 1 * q.val = q.val; rw [e1]; omega
theorem emb13_8 (t : Fin cfg13.N) (q : Fin 256) :
    ((cfg13.win 8).blk t).view.emb (ix2 (0 : Fin 1) q) = ix2 (0 : Fin 1) q := by
  funext a; apply Fin.ext
  obtain ⟨e0, e1⟩ := idx13_8 t
  match a with
  | ⟨0, _⟩ => show win13_8.index t (0 : Fin 2) * 1 + 1 * (0 : Fin 1).val = (0 : Fin 1).val; rw [e0]; omega
  | ⟨1, _⟩ => show win13_8.index t (1 : Fin 2) * 256 + 1 * q.val = q.val; rw [e1]; omega
theorem emb13_9 (t : Fin cfg13.N) (q : Fin 256) :
    ((cfg13.win 9).blk t).view.emb (ix2 (0 : Fin 1) q) = ix2 (0 : Fin 1) q := by
  funext a; apply Fin.ext
  obtain ⟨e0, e1⟩ := idx13_9 t
  match a with
  | ⟨0, _⟩ => show win13_9.index t (0 : Fin 2) * 1 + 1 * (0 : Fin 1).val = (0 : Fin 1).val; rw [e0]; omega
  | ⟨1, _⟩ => show win13_9.index t (1 : Fin 2) * 256 + 1 * q.val = q.val; rw [e1]; omega
/-- The one block of the weight window is its array. -/
theorem emb13_5 (t : Fin cfg13.N) (k : Fin 256) (q : Fin 256) :
    ((cfg13.win 5).blk t).view.emb (ix2 k q) = ix2 k q := by
  funext a; apply Fin.ext
  obtain ⟨e0, e1⟩ := idx13_5 t
  match a with
  | ⟨0, _⟩ => show win13_5.index t (0 : Fin 2) * 256 + 1 * k.val = k.val; rw [e0]; omega
  | ⟨1, _⟩ => show win13_5.index t (1 : Fin 2) * 256 + 1 * q.val = q.val; rw [e1]; omega

/-! ## The input blocks, entry by entry -/

theorem blk13_0_apply (c : Dev nD) (t : Fin cfg13.N) (p : Fin 2000) (k : Fin 256) :
    iblk13 V c 0 t (ix2 p k) = Gin.toMat (V c (Pipeline.arrRef spec13 0)) ⟨2000 * t.val + p.val, BlockSum.row_lt (pt_lt13 t) p⟩ k := by
  show V c (Pipeline.arrRef spec13 0) (((cfg13.win 0).blk t).view.emb (ix2 p k)) = _
  rw [emb13_0]
  rfl
theorem blk13_1_apply (c : Dev nD) (t : Fin cfg13.N) (k : Fin 256) :
    iblk13 V c 1 t (ix2 (0 : Fin 1) k) = Gin.toRow (V c (Pipeline.arrRef spec13 1)) k := by
  show V c (Pipeline.arrRef spec13 1) (((cfg13.win 1).blk t).view.emb (ix2 (0 : Fin 1) k)) = _
  rw [emb13_1]
  rfl
theorem blk13_2_apply (c : Dev nD) (t : Fin cfg13.N) (k : Fin 256) :
    iblk13 V c 2 t (ix2 (0 : Fin 1) k) = Gin.toRow (V c (Pipeline.arrRef spec13 2)) k := by
  show V c (Pipeline.arrRef spec13 2) (((cfg13.win 2).blk t).view.emb (ix2 (0 : Fin 1) k)) = _
  rw [emb13_2]
  rfl
theorem blk13_3_apply (c : Dev nD) (t : Fin cfg13.N) (k : Fin 256) :
    iblk13 V c 3 t (ix2 (0 : Fin 1) k) = Gin.toRow (V c (Pipeline.arrRef spec13 3)) k := by
  show V c (Pipeline.arrRef spec13 3) (((cfg13.win 3).blk t).view.emb (ix2 (0 : Fin 1) k)) = _
  rw [emb13_3]
  rfl
theorem blk13_4_apply (c : Dev nD) (t : Fin cfg13.N) (k : Fin 256) :
    iblk13 V c 4 t (ix2 (0 : Fin 1) k) = Gin.toRow (V c (Pipeline.arrRef spec13 4)) k := by
  show V c (Pipeline.arrRef spec13 4) (((cfg13.win 4).blk t).view.emb (ix2 (0 : Fin 1) k)) = _
  rw [emb13_4]
  rfl
theorem blk13_6_apply (c : Dev nD) (t : Fin cfg13.N) (k : Fin 256) :
    iblk13 V c 6 t (ix2 (0 : Fin 1) k) = Gin.toRow (V c (Pipeline.arrRef spec13 6)) k := by
  show V c (Pipeline.arrRef spec13 6) (((cfg13.win 6).blk t).view.emb (ix2 (0 : Fin 1) k)) = _
  rw [emb13_6]
  rfl
theorem blk13_5_apply (c : Dev nD) (t : Fin cfg13.N) (k : Fin 256) (q : Fin 256) :
    iblk13 V c 5 t (ix2 k q) = Gin.toWt (V c (Pipeline.arrRef spec13 5)) k q := by
  show V c (Pipeline.arrRef spec13 5) (((cfg13.win 5).blk t).view.emb (ix2 k q)) = _
  rw [emb13_5]
  rfl

/-- The body's block payload at the region's input blocks: row `p` of block `t` of the affine map. -/
theorem pay5_blocks13 (c : Dev nD) (t : Fin cfg13.N) (p : Fin 2000) (q : Fin 256) :
    k13_pay5 (F := Ideal) (iblk13 V c 0 t) (iblk13 V c 1 t) (iblk13 V c 2 t) (iblk13 V c 3 t) (iblk13 V c 4 t) (iblk13 V c 5 t) (iblk13 V c 6 t) (ix2 p q)
      = aff13 V c ⟨2000 * t.val + p.val, BlockSum.row_lt (pt_lt13 t) p⟩ q := by
  refine (PayVal.k13_pay5_apply (iblk13 V c 0 t) (iblk13 V c 1 t) (iblk13 V c 2 t) (iblk13 V c 3 t) (iblk13 V c 4 t) (iblk13 V c 5 t) (iblk13 V c 6 t) p q).trans ?_
  simp only [blk13_0_apply, blk13_1_apply, blk13_2_apply, blk13_3_apply, blk13_4_apply, blk13_5_apply, blk13_6_apply]
  rfl

/-! ## The block output -/

/-- The block output's array after the region: entry (r, j) of the affine map. -/
def G13_7 (c : Dev nD) : (⟨2, ![Gin.N, Gin.D]⟩ : Shape).Idx → EReal := fun i => aff13 V c (i 0) (i 1)

/-- What point `t` writes back of the block output is block `t` of it. -/
theorem flushed13_7_eq (c : Dev nD) (t : Fin cfg13.N) :
    (dat13 V c).flushed 7 t = ((cfg13.win 7).blk t).view.read (Elt Ideal) (G13_7 V c) := by
  show (cfg13.win 7).cut (grid13.coords t) ((dat13 V c).after 7 t) = _
  rw [after13_7]
  funext y
  obtain ⟨p, q, rfl⟩ : ∃ (p : Fin 2000) (q : Fin 256), y = ix2 p q := ⟨y 0, y 1, eq_ix2 (n0 := 2000) (n1 := 256) y⟩
  show (outsAt13 V c t.val t.isLt).1 (ix2 p q) = G13_7 V c (((cfg13.win 7).blk t).view.emb (ix2 p q))
  rw [emb13_7]
  show _ = aff13 V c ⟨2000 * t.val + p.val, BlockSum.row_lt (pt_lt13 t) p⟩ q
  by_cases h0 : t.val % 25 = 0
  · rw [outsAt13_A V c t h0]; dsimp only; rw [out13_A_7_eq]; exact pay5_blocks13 V c t p q
  · rw [outsAt13_B V c t h0]; dsimp only; rw [out13_B_7_eq]; exact pay5_blocks13 V c t p q

/-- The block output's array after the region, entry by entry. -/
theorem arr13_7_apply (c : Dev nD) (r : Fin 50000) (j : Fin 256) :
    Gin.toMat ((dat13 V c).arrAt 7 cfg13.N) r j = aff13 V c r j := by
  have ht : r.val / 2000 < cfg13.N := lt_of_lt_of_eq (BlockSum.block_of_row r).1 N_13.symm
  have h := Dat.arrAt_apply_of_mem (dat13 V c) 7 (G13_7 V c) (fun t _ => flushed13_7_eq V c t) cfg13.N ⟨r.val / 2000, ht⟩
    (((cfg13.win 7).blk ⟨r.val / 2000, ht⟩).view.emb (ix2 (BlockSum.posOf r) j)) ht (flush13_7 _) (View.emb_mem_set _ _)
  rw [emb13_7] at h
  have hrow : (⟨2000 * (⟨r.val / 2000, ht⟩ : Fin cfg13.N).val + (BlockSum.posOf r).val, BlockSum.row_lt (pt_lt13 ⟨r.val / 2000, ht⟩) (BlockSum.posOf r)⟩ : Fin 50000) = r :=
    Fin.ext (BlockSum.block_of_row r).2.2
  rw [hrow] at h
  exact h

/-- The affine output of the normalised input: bn(u; μ, σ², γ, β) · W + b. -/
theorem val13_7 (c : Dev nD) : Gin.toMat ((dat13 V c).arrAt 7 cfg13.N)
    = Gin.lin (Gin.bn (Gin.toMat (V c (Pipeline.arrRef spec13 0))) (Gin.toRow (V c (Pipeline.arrRef spec13 1))) (Gin.toRow (V c (Pipeline.arrRef spec13 2)))
          (Gin.toRow (V c (Pipeline.arrRef spec13 3))) (Gin.toRow (V c (Pipeline.arrRef spec13 4))))
        (Gin.toWt (V c (Pipeline.arrRef spec13 5))) (Gin.toRow (V c (Pipeline.arrRef spec13 6))) := by
  funext r j
  exact arr13_7_apply V c r j

/-! ## The two accumulators -/

/-- The last point of the grid, where the accumulators are written back. -/
abbrev tLast13 : Fin cfg13.N := ⟨24, lt_of_lt_of_eq (by decide : 24 < 25) N_13.symm⟩

/-- After point `n` the first accumulator holds, lane by lane, the column sums of the affine map over the rows of the blocks so far. -/
theorem acc13_8 (c : Dev nD) (q : Fin 256) : ∀ (n : ℕ) (h : n < cfg13.N),
    (outsAt13 V c n h).2.1 (ix2 (0 : Fin 1) q) = 0 + BlockSum.upTo (fun r => aff13 V c r q) (n + 1)
  | 0, h => by
    rw [outsAt13_A V c ⟨0, h⟩ rfl]
    dsimp only
    rw [out13_A_8_eq]
    refine (PayVal.k13_pay1_apply _ _ q).trans ?_
    rw [PayVal.k13_pay6_apply, PayVal.k13_pay3_apply, BlockSum.upTo_succ _ 0 (by omega), BlockSum.upTo_zero]
    simp only [zero_add]
    refine Finset.sum_congr rfl fun p _ => ?_
    rw [pay5_blocks13 V c ⟨0, h⟩ p q]
  | n + 1, h => by
    have hN : n + 1 < 25 := lt_of_lt_of_eq h N_13
    have hB : ¬(⟨n + 1, h⟩ : Fin cfg13.N).val % 25 = 0 := by dsimp only; omega
    rw [outsAt13_B V c ⟨n + 1, h⟩ hB]
    dsimp only
    rw [out13_B_8_eq]
    refine (PayVal.k13_pay1_apply _ _ q).trans ?_
    rw [PayVal.k13_pay6_apply]
    show (outsAt13 V c n _).2.1 (ix2 (0 : Fin 1) q) + _ = _
    rw [acc13_8 c q n, BlockSum.upTo_succ _ (n + 1) hN, ← add_assoc]
    refine congrArg (0 + BlockSum.upTo _ (n + 1) + ·) (Finset.sum_congr rfl fun p _ => ?_)
    rw [pay5_blocks13 V c ⟨n + 1, h⟩ p q]

/-- The accumulator's array after the region. -/
def G13_8 (c : Dev nD) : (⟨2, ![1, Gin.D]⟩ : Shape).Idx → EReal := fun i => 0 + ∑ r, (fun q => aff13 V c r q) (i 1)

/-- Its one write-back, at the last point, writes the whole sum. -/
theorem flushed13_8_eq (c : Dev nD) (t : Fin cfg13.N) (hf : (cfg13.win 8).flush t = true) :
    (dat13 V c).flushed 8 t = ((cfg13.win 8).blk t).view.read (Elt Ideal) (G13_8 V c) := by
  have h24 : t.val = 24 := by have := (flush13_8 t).mp hf; have := pt_lt13 t; omega
  show (cfg13.win 8).cut (grid13.coords t) ((dat13 V c).after 8 t) = _
  rw [after13_8]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt13 V c t.val t.isLt).2.1 (ix2 (0 : Fin 1) q) = G13_8 V c (((cfg13.win 8).blk t).view.emb (ix2 (0 : Fin 1) q))
  rw [emb13_8, acc13_8 V c q t.val t.isLt, h24, BlockSum.upTo_all]
  rfl

/-- The accumulator's array after the region, lane by lane. -/
theorem arr13_8_apply (c : Dev nD) (q : Fin 256) :
    Gin.toRow ((dat13 V c).arrAt 8 cfg13.N) q = ∑ r, aff13 V c r q := by
  have h := Dat.arrAt_apply_of_mem (dat13 V c) 8 (G13_8 V c) (fun t hf => flushed13_8_eq V c t hf) cfg13.N tLast13
    (((cfg13.win 8).blk tLast13).view.emb (ix2 (0 : Fin 1) q)) tLast13.isLt ((flush13_8 tLast13).mpr rfl) (View.emb_mem_set _ _)
  rw [emb13_8] at h
  exact h.trans (zero_add _ : (0 : EReal) + _ = _)

/-- After point `n` the second accumulator holds, lane by lane, the column sums of the affine map's squares over the rows of the blocks so far. -/
theorem acc13_9 (c : Dev nD) (q : Fin 256) : ∀ (n : ℕ) (h : n < cfg13.N),
    (outsAt13 V c n h).2.2 (ix2 (0 : Fin 1) q) = 0 + BlockSum.upTo (fun r => aff13 V c r q * aff13 V c r q) (n + 1)
  | 0, h => by
    rw [outsAt13_A V c ⟨0, h⟩ rfl]
    dsimp only
    rw [out13_A_9_eq]
    refine (PayVal.k13_pay2_apply _ _ q).trans ?_
    rw [PayVal.k13_pay4_apply, BlockSum.upTo_succ _ 0 (by omega), BlockSum.upTo_zero]
    simp only [zero_add]
    refine Finset.sum_congr rfl fun p _ => ?_
    rw [pay5_blocks13 V c ⟨0, h⟩ p q]
  | n + 1, h => by
    have hN : n + 1 < 25 := lt_of_lt_of_eq h N_13
    have hB : ¬(⟨n + 1, h⟩ : Fin cfg13.N).val % 25 = 0 := by dsimp only; omega
    rw [outsAt13_B V c ⟨n + 1, h⟩ hB]
    dsimp only
    rw [out13_B_9_eq]
    refine (PayVal.k13_pay2_apply _ _ q).trans ?_
    show (outsAt13 V c n _).2.2 (ix2 (0 : Fin 1) q) + _ = _
    rw [acc13_9 c q n, BlockSum.upTo_succ _ (n + 1) hN, ← add_assoc]
    refine congrArg (0 + BlockSum.upTo _ (n + 1) + ·) (Finset.sum_congr rfl fun p _ => ?_)
    rw [pay5_blocks13 V c ⟨n + 1, h⟩ p q]

/-- The accumulator's array after the region. -/
def G13_9 (c : Dev nD) : (⟨2, ![1, Gin.D]⟩ : Shape).Idx → EReal := fun i => 0 + ∑ r, (fun q => aff13 V c r q * aff13 V c r q) (i 1)

/-- Its one write-back, at the last point, writes the whole sum. -/
theorem flushed13_9_eq (c : Dev nD) (t : Fin cfg13.N) (hf : (cfg13.win 9).flush t = true) :
    (dat13 V c).flushed 9 t = ((cfg13.win 9).blk t).view.read (Elt Ideal) (G13_9 V c) := by
  have h24 : t.val = 24 := by have := (flush13_9 t).mp hf; have := pt_lt13 t; omega
  show (cfg13.win 9).cut (grid13.coords t) ((dat13 V c).after 9 t) = _
  rw [after13_9]
  funext y
  obtain ⟨z, q, rfl⟩ : ∃ (z : Fin 1) (q : Fin 256), y = ix2 z q := ⟨y 0, y 1, eq_ix2 (n0 := 1) (n1 := 256) y⟩
  obtain rfl : z = 0 := Subsingleton.elim _ _
  show (outsAt13 V c t.val t.isLt).2.2 (ix2 (0 : Fin 1) q) = G13_9 V c (((cfg13.win 9).blk t).view.emb (ix2 (0 : Fin 1) q))
  rw [emb13_9, acc13_9 V c q t.val t.isLt, h24, BlockSum.upTo_all]
  rfl

/-- The accumulator's array after the region, lane by lane. -/
theorem arr13_9_apply (c : Dev nD) (q : Fin 256) :
    Gin.toRow ((dat13 V c).arrAt 9 cfg13.N) q = ∑ r, aff13 V c r q * aff13 V c r q := by
  have h := Dat.arrAt_apply_of_mem (dat13 V c) 9 (G13_9 V c) (fun t hf => flushed13_9_eq V c t hf) cfg13.N tLast13
    (((cfg13.win 9).blk tLast13).view.emb (ix2 (0 : Fin 1) q)) tLast13.isLt ((flush13_9 tLast13).mpr rfl) (View.emb_mem_set _ _)
  rw [emb13_9] at h
  exact h.trans (zero_add _ : (0 : EReal) + _ = _)

/-- Its column sums. -/
theorem val13_8 (c : Dev nD) : Gin.toRow ((dat13 V c).arrAt 8 cfg13.N) = Gin.colsum (Gin.toMat ((dat13 V c).arrAt 7 cfg13.N)) := by
  funext q
  show _ = ∑ r, Gin.toMat ((dat13 V c).arrAt 7 cfg13.N) r q
  exact (arr13_8_apply V c q).trans (Finset.sum_congr rfl fun r _ => (arr13_7_apply V c r q).symm)
/-- The column sums of its squares. -/
theorem val13_9 (c : Dev nD) : Gin.toRow ((dat13 V c).arrAt 9 cfg13.N)
    = Gin.colsum (fun r j => Gin.toMat ((dat13 V c).arrAt 7 cfg13.N) r j * Gin.toMat ((dat13 V c).arrAt 7 cfg13.N) r j) := by
  funext q
  show _ = ∑ r, Gin.toMat ((dat13 V c).arrAt 7 cfg13.N) r q * Gin.toMat ((dat13 V c).arrAt 7 cfg13.N) r q
  exact (arr13_9_apply V c q).trans (Finset.sum_congr rfl fun r _ => by rw [arr13_7_apply V c r q])

end Cert.KernelIdeal.Hand

end
-- ==== Proof.KI.Pay14.lean ====
/-
  One launch of the kernel that normalizes a block of rows and keeps a running row of column sums, read at an index at the
  ideal values: floats are extended reals, every operation is exact, and a change of float format is the identity. The
  generated skeleton states each value the body stores as one pure term of the values it loads, the payloads `k14_pay1`,
  `k14_pay2`, `k14_pay3`. Here each payload is read at an index as plain sums and products of extended reals.

  The body loads a block x of 2000 rows by 256 columns and four rows of 256 entries: the column means, the column
  variances, a scale and a shift.
    • `k14_pay2` at (p, q) is ((x[p, q] − mean[0, q]) · rsqrt(var[0, q] + ε)) · scale[0, q] + shift[0, q], with ε the binary32
      value nearest 1e-5 (the word 0x3727C5AC): the normalized block;
    • `k14_pay3` at (0, q) is s[0, q] + ∑ₚ `k14_pay2`[p, q]: the running row s plus the normalized block's column sums;
    • `k14_pay1` — the zero row the running row is reset to at the first grid point — is 0 at every column.
  The steps: the same-shape casts are the identity; a row broadcast over the block's rows reads its one row; the products,
  the sum and the difference read entrywise; the reduction over the rows is the sum over the row coordinate, and the index
  it inserts that coordinate into is (p, q); the cast of the 256 column sums to a one-row block reads the sum at its column.
-/
import proofs.«102822_j3521873183180_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-- A row of 256 entries laid over the 2000 rows of the block reads, at row p and column q, its entry q. (The body first
    casts the row to its own shape, which changes nothing.) -/
private theorem row_over_block (v : Vec Ideal S1x256 .f32) (p : Fin 2000) (q : Fin 256) :
    broadcastTo S2000x256 (shapeCast S1x256 v shapeCasts_S1x256_S1x256) broadcasts_S1x256_S2000x256 (ix2 p q)
      = v (ix2 0 q) := by
  rw [shapeCast_self]
  exact broadcastTo_1b_ab_apply v broadcasts_S1x256_S2000x256 p q

/-- The sum of a 2000 × 256 block over its rows reads, at column q, the sum over p of the block's entries (p, q): the
    index the reduction inserts coordinate p into is (p, q). -/
private theorem column_sum (src : FVec Ideal S2000x256 .f32) (hφ : FKind.Formats .f32)
    (hacc : (0x00000000#32 : BitVec 32) = FKind.add.neutral .f32 hφ) (q : Fin 256) :
    multiReduction (F := Ideal) .add [0] S256 src 0x00000000#32 reduces_S2000x256_S256 hφ hacc (ix1 q)
      = ∑ p : Fin 2000, src (ix2 p q) := by
  refine (Ideal.multiReduction_add_single src _ reduces_S2000x256_S256 hφ hacc (ix1 q)).trans ?_
  refine Finset.sum_congr rfl fun p _ => congrArg src ?_
  funext c
  apply Fin.ext
  match c with
  | ⟨0, _⟩ => rfl
  | ⟨1, _⟩ => rfl

/-- The running row's reset value is zero in every column. -/
theorem k14_pay1_apply (q : Fin 256) : k14_pay1 (F := Ideal) (ix2 0 q) = 0 := by
  unfold k14_pay1
  exact Ideal.ofBits_zero_f32

/-- The normalized block at row p and column q: subtract the column's mean, multiply by the reciprocal root of the column's
    variance plus ε, multiply by the column's scale, add the column's shift. -/
theorem k14_pay2_apply (v3 : Vec Ideal S2000x256 .f32) (v5 v9 v16 v20 : Vec Ideal S1x256 .f32) (p : Fin 2000) (q : Fin 256) :
    k14_pay2 (F := Ideal) v3 v5 v9 v16 v20 (ix2 p q)
      = (v3 (ix2 p q) - v5 (ix2 0 q)) * Ideal.rsqrt (v9 (ix2 0 q) + Ideal.ofBits .f32 0x3727C5AC#32) * v16 (ix2 0 q)
        + v20 (ix2 0 q) := by
  unfold k14_pay2
  simp only [addf_apply, mulf_apply, subf_apply]
  rw [row_over_block v5 p q, row_over_block v16 p q, row_over_block v20 p q, shapeCast_self, broadcastTo_1b_ab_apply,
    shapeCast_self]
  rfl

/-- The running row after the body, at column q: what it held plus the sum over the block's 2000 rows of the normalized
    block's entries in column q. -/
theorem k14_pay3_apply (v3 : Vec Ideal S2000x256 .f32) (v5 v9 v16 v20 v25 : Vec Ideal S1x256 .f32) (q : Fin 256) :
    k14_pay3 (F := Ideal) v3 v5 v9 v16 v20 v25 (ix2 0 q)
      = v25 (ix2 0 q) + ∑ p : Fin 2000, k14_pay2 (F := Ideal) v3 v5 v9 v16 v20 (ix2 p q) := by
  unfold k14_pay3
  simp only [addf_apply]
  rw [shapeCast_self, shapeCast_a_1a_apply]
  exact congrArg (v25 (ix2 0 q) + ·) (column_sum _ _ _ q)

end Cert.KernelIdeal.PayVal
-- ==== Proof.KI.R14Val.lean ====
/-
  What region 14 of the idealized kernel program leaves in its output arrays, at the exact instance, as functions of what it finds in its
  input arrays: the mathematics of the kernel body summed over the grid.

  The normalized block of a point is the normalization of that point's block of rows, so the array of normalized rows, written
  back block by block, is the normalization of the whole array of rows. The running row after a point is the sum of the normalized
  rows of all blocks up to that point (the first point starts from the zero row), so what the last point writes back is the sum
  over all rows.
-/
import proofs.«102822_j3521873183180_1_alg».proof.Proof.KI.R14
import proofs.«102822_j3521873183180_1_alg».proof.Proof.KI.Pay14
import proofs.«102822_j3521873183180_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat)
open scoped BigOperators

section Pieces
variable {F : FTy → Type} [FloatOps F]

/-- The offsets of every load and store of the body: zero on both axes (each is of a whole buffer). -/
theorem zeros14 : (![0, 0] : Fin 2 → Nat) = fun _ => 0 := funext fun a => by fin_cases a <;> rfl

/-! ## Each case's stores, read as values -/

/-- The first point leaves in the normalized block's buffer the normalization of the input blocks (its one whole-block store). -/
theorem rowsFirst14_eq (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) :
    rowsFirst14 c i arg1 harg1 arg2 harg2 arg3 harg3 arg4 harg4 arg5 harg5 arg6 harg6 arg7 harg7 hc u mean var gain shift = k14_pay2 u mean var gain shift := by
  unfold rowsFirst14
  unfold runFirst14
  dsimp only
  sl_unfold_words
  rw [View.canon_unit_zero zeros14]
  simp only [View.readAt_eq_ld, harg1.read_unread, harg2.read_unread, harg3.read_unread, harg4.read_unread, harg5.read_unread, harg7.read_unread,
    View.ld_unit_zero (S := S2000x256) zeros14, View.ld_unit_zero (S := S1x256) zeros14, View.readCov_unit_zero (S := S1x256) _ zeros14]

/-- The first point leaves in the running row's buffer the reset row plus the block's column sums: the last store covers the row,
    and the row it adds to is the reset row read back. -/
theorem sumsFirst14_eq (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : atFirst14 i)
    (u : Vec F S2000x256 .f32) (mean : Vec F S1x256 .f32) (var : Vec F S1x256 .f32) (gain : Vec F S1x256 .f32) (shift : Vec F S1x256 .f32) :
    sumsFirst14 c i arg1 harg1 arg2 harg2 arg3 harg3 arg4 harg4 arg5 harg5 arg6 harg6 arg7 harg7 hc u mean var gain shift = k14_pay3 u mean var gain shift (k14_pay1 (F := F)) := by
  unfold sumsFirst14
  unfold runFirst14
  dsimp only
  sl_unfold_words
  rw [View.canon_cons_unit_zero (S := S1x256) zeros14]
  simp only [View.readAt_eq_ld, harg1.read_unread, harg2.read_unread, harg3.read_unread, harg4.read_unread, harg5.read_unread, harg7.read_unread,
    View.ld_unit_zero (S := S2000x256) zeros14, View.ld_unit_zero (S := S1x256) zeros14, View.readCov_unit_zero (S := S1x256) _ zeros14]

/-- A later point leaves in the normalized block's buffer the normalization of the input blocks. -/
theorem rowsLater14_eq (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) :
    rowsLater14 c i arg1 harg1 arg2 harg2 arg3 harg3 arg4 harg4 arg5 harg5 arg6 harg6 arg7 harg7 hc u mean var gain shift acc = k14_pay2 u mean var gain shift := by
  unfold rowsLater14
  unfold runLater14
  dsimp only
  sl_unfold_words
  rw [View.canon_unit_zero zeros14]
  simp only [View.readAt_eq_ld, harg1.read_unread, harg2.read_unread, harg3.read_unread, harg4.read_unread, harg5.read_unread, harg7.read_unread,
    View.ld_unit_zero (S := S2000x256) zeros14, View.ld_unit_zero (S := S1x256) zeros14, View.readCov_unit_zero (S := S1x256) _ zeros14]

/-- A later point leaves in the running row's buffer the row it found plus the block's column sums. -/
theorem sumsLater14_eq (c : Dev nD) (i : grid14.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S1x256 .f32) (harg7 : arg7.IsWhole) (hc : ¬atFirst14 i)
    (u : Vec F S2000x256 .f32) (mean : Vec F S1x256 .f32) (var : Vec F S1x256 .f32) (gain : Vec F S1x256 .f32) (shift : Vec F S1x256 .f32) (acc : Vec F S1x256 .f32) :
    sumsLater14 c i arg1 harg1 arg2 harg2 arg3 harg3 arg4 harg4 arg5 harg5 arg6 harg6 arg7 harg7 hc u mean var gain shift acc = k14_pay3 u mean var gain shift acc := by
  unfold sumsLater14
  unfold runLater14
  dsimp only
  sl_unfold_words
  rw [View.canon_unit_zero zeros14]
  simp only [View.readAt_eq_ld, harg1.read_unread, harg2.read_unread, harg3.read_unread, harg4.read_unread, harg5.read_unread, harg7.read_unread,
    View.ld_unit_zero (S := S2000x256) zeros14, View.ld_unit_zero (S := S1x256) zeros14, View.readCov_unit_zero (S := S1x256) _ zeros14]

end Pieces

variable (V : (c : Dev nD) → (b : Ref sig .tc) → Buf (Elt Ideal) ((c : Thread nD τ).loc b))

/-! ## The same at a grid point, over the point's input blocks -/

/-- The input blocks of point `t` at their literal types: the block of rows, and the mean, variance, gain and shift rows. -/
abbrev rowsIn14 (c : Dev nD) (t : Fin cfg14.N) : Vec Ideal S2000x256 .f32 := iblk14 V c 0 t
abbrev meanIn14 (c : Dev nD) (t : Fin cfg14.N) : Vec Ideal S1x256 .f32 := iblk14 V c 1 t
abbrev varIn14 (c : Dev nD) (t : Fin cfg14.N) : Vec Ideal S1x256 .f32 := iblk14 V c 2 t
abbrev gainIn14 (c : Dev nD) (t : Fin cfg14.N) : Vec Ideal S1x256 .f32 := iblk14 V c 3 t
abbrev shiftIn14 (c : Dev nD) (t : Fin cfg14.N) : Vec Ideal S1x256 .f32 := iblk14 V c 4 t

/-- The normalized block after any point is the normalization of that point's input blocks (the same in both cases). -/
theorem rowsAt14_eq (c : Dev nD) (t : Fin cfg14.N) :
    rowsAt14 V c t = k14_pay2 (rowsIn14 V c t) (meanIn14 V c t) (varIn14 V c t) (gainIn14 V c t) (shiftIn14 V c t) := by
  by_cases h0 : t.val % 25 = 0
  · rw [rowsAt14_first V c t h0]
    unfold rowsFirstAt14
    exact rowsFirst14_eq c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) ((atFirst14_iff t).mpr h0) (iblk14 V c 0 t) (iblk14 V c 1 t) (iblk14 V c 2 t) (iblk14 V c 3 t) (iblk14 V c 4 t)
  · rw [rowsAt14_later V c t h0]
    unfold rowsLaterAt14
    exact rowsLater14_eq c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) (fun h => h0 ((atFirst14_iff t).mp h)) (iblk14 V c 0 t) (iblk14 V c 1 t) (iblk14 V c 2 t) (iblk14 V c 3 t) (iblk14 V c 4 t) (sumsBefore14 V c t)

/-- The running row after the first point: the reset row plus the first block's column sums. -/
theorem sumsAt14_reset (c : Dev nD) (t : Fin cfg14.N) (h0 : t.val % 25 = 0) :
    sumsAt14 V c t.val t.isLt = k14_pay3 (rowsIn14 V c t) (meanIn14 V c t) (varIn14 V c t) (gainIn14 V c t) (shiftIn14 V c t) (k14_pay1 (F := Ideal)) := by
  rw [sumsAt14_first V c t h0]
  unfold sumsFirstAt14
  exact sumsFirst14_eq c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) ((atFirst14_iff t).mpr h0) (iblk14 V c 0 t) (iblk14 V c 1 t) (iblk14 V c 2 t) (iblk14 V c 3 t) (iblk14 V c 4 t)

/-- The running row after a later point: the row after the point before plus this block's column sums. -/
theorem sumsAt14_step (c : Dev nD) (t : Fin cfg14.N) (h0 : ¬t.val % 25 = 0) :
    sumsAt14 V c t.val t.isLt = k14_pay3 (rowsIn14 V c t) (meanIn14 V c t) (varIn14 V c t) (gainIn14 V c t) (shiftIn14 V c t) (sumsBefore14 V c t) := by
  rw [sumsAt14_later V c t h0]
  unfold sumsLaterAt14
  exact sumsLater14_eq c (grid14.coords t) (stg14_0 t) (stgWhole14_0 t) (stg14_1 t) (stgWhole14_1 t) (stg14_2 t) (stgWhole14_2 t) (stg14_3 t) (stgWhole14_3 t) (stg14_4 t) (stgWhole14_4 t) (stg14_5 t) (stgWhole14_5 t) (stg14_6 t) (stgWhole14_6 t) (fun h => h0 ((atFirst14_iff t).mp h)) (iblk14 V c 0 t) (iblk14 V c 1 t) (iblk14 V c 2 t) (iblk14 V c 3 t) (iblk14 V c 4 t) (sumsBefore14 V c t)

/-! ## Where a block's elements sit in its array -/

/-- The block index of each window at each point, decided over the grid: the blocks of rows (windows 0 and 5) move down with the
    point; the rows (windows 1 to 4 and 6) stay. -/
theorem blockIndex14 : ∀ t : Fin cfg14.N,
    win14_0.index t (0 : Fin 2) = t.val ∧ win14_0.index t (1 : Fin 2) = 0
    ∧ win14_5.index t (0 : Fin 2) = t.val ∧ win14_5.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_6.index t (0 : Fin 2) = 0 ∧ win14_6.index t (1 : Fin 2) = 0 :=
  (by decide +kernel : ∀ t : Fin grid14.N, _)

theorem point_lt14 (t : Fin cfg14.N) : t.val < 25 := lt_of_lt_of_eq t.isLt (show cfg14.N = 25 from N_14)

/-- Row `r` of point `t`'s block is row `2000 t + r` of the array. -/
def rowOf14 (t : Fin cfg14.N) (r : Fin 2000) : Fin 50000 :=
  ⟨2000 * t.val + r.val, by have := point_lt14 t; have := r.isLt; omega⟩

/-- The arrays the region reads, as it finds them, at their literal types. -/
abbrev rowsArr14 (c : Dev nD) : Vec Ideal S50000x256 .f32 := V c (Pipeline.arrRef spec14 0)
abbrev meanArr14 (c : Dev nD) : Vec Ideal S1x256 .f32 := V c (Pipeline.arrRef spec14 1)
abbrev varArr14 (c : Dev nD) : Vec Ideal S1x256 .f32 := V c (Pipeline.arrRef spec14 2)
abbrev gainArr14 (c : Dev nD) : Vec Ideal S1x256 .f32 := V c (Pipeline.arrRef spec14 3)
abbrev shiftArr14 (c : Dev nD) : Vec Ideal S1x256 .f32 := V c (Pipeline.arrRef spec14 4)

/-- An element of point `t`'s block of rows is the array's element in row `2000 t + r`. -/
theorem rowsIn14_apply (c : Dev nD) (t : Fin cfg14.N) (r : Fin 2000) (j : Fin 256) :
    rowsIn14 V c t (ix2 r j) = rowsArr14 V c (ix2 (rowOf14 t r) j) := by
  obtain ⟨e0, e1, -⟩ := blockIndex14 t
  unfold rowsIn14 iblk14
  rw [View.read_apply]
  show V c (Pipeline.arrRef spec14 0) _ = V c (Pipeline.arrRef spec14 0) _
  congr 1
  funext a
  apply Fin.ext
  match a with
  | ⟨0, _⟩ => show win14_0.index t (0 : Fin 2) * 2000 + 1 * r.val = 2000 * t.val + r.val; omega
  | ⟨1, _⟩ => show win14_0.index t (1 : Fin 2) * 256 + 1 * j.val = j.val; omega

/-- The mean row's block at any point is the whole row. -/
theorem meanIn14_apply (c : Dev nD) (t : Fin cfg14.N) (j : Fin 256) :
    meanIn14 V c t (ix2 0 j) = meanArr14 V c (ix2 0 j) := by
  have e := blockIndex14 t
  unfold meanIn14 iblk14
  rw [View.read_apply]
  show V c (Pipeline.arrRef spec14 1) _ = V c (Pipeline.arrRef spec14 1) _
  congr 1
  funext a
  apply Fin.ext
  match a with
  | ⟨0, _⟩ => show win14_1.index t (0 : Fin 2) * 1 + 1 * 0 = 0; omega
  | ⟨1, _⟩ => show win14_1.index t (1 : Fin 2) * 256 + 1 * j.val = j.val; omega

/-- The var row's block at any point is the whole row. -/
theorem varIn14_apply (c : Dev nD) (t : Fin cfg14.N) (j : Fin 256) :
    varIn14 V c t (ix2 0 j) = varArr14 V c (ix2 0 j) := by
  have e := blockIndex14 t
  unfold varIn14 iblk14
  rw [View.read_apply]
  show V c (Pipeline.arrRef spec14 2) _ = V c (Pipeline.arrRef spec14 2) _
  congr 1
  funext a
  apply Fin.ext
  match a with
  | ⟨0, _⟩ => show win14_2.index t (0 : Fin 2) * 1 + 1 * 0 = 0; omega
  | ⟨1, _⟩ => show win14_2.index t (1 : Fin 2) * 256 + 1 * j.val = j.val; omega

/-- The gain row's block at any point is the whole row. -/
theorem gainIn14_apply (c : Dev nD) (t : Fin cfg14.N) (j : Fin 256) :
    gainIn14 V c t (ix2 0 j) = gainArr14 V c (ix2 0 j) := by
  have e := blockIndex14 t
  unfold gainIn14 iblk14
  rw [View.read_apply]
  show V c (Pipeline.arrRef spec14 3) _ = V c (Pipeline.arrRef spec14 3) _
  congr 1
  funext a
  apply Fin.ext
  match a with
  | ⟨0, _⟩ => show win14_3.index t (0 : Fin 2) * 1 + 1 * 0 = 0; omega
  | ⟨1, _⟩ => show win14_3.index t (1 : Fin 2) * 256 + 1 * j.val = j.val; omega

/-- The shift row's block at any point is the whole row. -/
theorem shiftIn14_apply (c : Dev nD) (t : Fin cfg14.N) (j : Fin 256) :
    shiftIn14 V c t (ix2 0 j) = shiftArr14 V c (ix2 0 j) := by
  have e := blockIndex14 t
  unfold shiftIn14 iblk14
  rw [View.read_apply]
  show V c (Pipeline.arrRef spec14 4) _ = V c (Pipeline.arrRef spec14 4) _
  congr 1
  funext a
  apply Fin.ext
  match a with
  | ⟨0, _⟩ => show win14_4.index t (0 : Fin 2) * 1 + 1 * 0 = 0; omega
  | ⟨1, _⟩ => show win14_4.index t (1 : Fin 2) * 256 + 1 * j.val = j.val; omega

/-! ## The array of normalized rows -/

/-- The normalization of the whole array of rows by the mean, variance, gain and shift rows, as a matrix -/
abbrev hnewMat14 (c : Dev nD) : Gin.Mat :=
  Gin.bn (Gin.toMat (rowsArr14 V c)) (Gin.toRow (meanArr14 V c)) (Gin.toRow (varArr14 V c)) (Gin.toRow (gainArr14 V c)) (Gin.toRow (shiftArr14 V c))

/-- and as contents of the output array. -/
def hnewArr14 (c : Dev nD) : Vec Ideal S50000x256 .f32 := fun i => hnewMat14 V c (i 0) (i 1)

/-- An element of the block the body computes at point `t` is the normalized matrix's element in row `2000 t + r`. -/
theorem normalized14_apply (c : Dev nD) (t : Fin cfg14.N) (r : Fin 2000) (j : Fin 256) :
    k14_pay2 (rowsIn14 V c t) (meanIn14 V c t) (varIn14 V c t) (gainIn14 V c t) (shiftIn14 V c t) (ix2 r j) = hnewMat14 V c (rowOf14 t r) j := by
  rw [PayVal.k14_pay2_apply, rowsIn14_apply, meanIn14_apply, varIn14_apply, gainIn14_apply, shiftIn14_apply]
  rfl

/-- Where an element of point `t`'s output block sits in the output array: row `2000 t + r`, the same column. -/
theorem emb14_5 (t : Fin cfg14.N) (r : Fin 2000) (j : Fin 256) :
    ((cfg14.win 5).blk t).view.emb (ix2 r j) = ix2 (rowOf14 t r) j := by
  obtain ⟨-, -, e0, e1, -⟩ := blockIndex14 t
  funext a
  apply Fin.ext
  match a with
  | ⟨0, _⟩ => show win14_5.index t (0 : Fin 2) * 2000 + 1 * r.val = 2000 * t.val + r.val; omega
  | ⟨1, _⟩ => show win14_5.index t (1 : Fin 2) * 256 + 1 * j.val = j.val; omega

/-- WHAT POINT `t` WRITES BACK is block `t` of the array of normalized rows. -/
theorem flushed14_5 (c : Dev nD) (t : Fin cfg14.N) :
    (dat14 V c).flushed 5 t = ((cfg14.win 5).blk t).view.read (Elt Ideal) (hnewArr14 V c) := by
  show (cfg14.win 5).cut (grid14.coords t) ((dat14 V c).after 5 t) = _
  rw [after14_5, rowsAt14_eq]
  funext y
  obtain ⟨r, j, rfl⟩ : ∃ (r : Fin 2000) (j : Fin 256), y = ix2 r j := ⟨y 0, y 1, eq_ix2 y⟩
  rw [View.read_apply, emb14_5]
  exact normalized14_apply V c t r j

/-- An index of the output array is in point `t`'s block iff each coordinate is in the block's range on its axis. -/
theorem mem_blk14_5 (t : Fin cfg14.N) (i : S50000x256.Idx) :
    i ∈ ((cfg14.win 5).blk t).view.set ↔ ∀ a : Fin 2, win14_5.index t a * S2000x256.size a ≤ (i a).val ∧ (i a).val < win14_5.index t a * S2000x256.size a + S2000x256.size a := by
  show i ∈ ((View.whole (Pipeline.arrRef spec14 5)).slice (win14_5.rect t)).set ↔ _
  rw [View.set_slice_whole, Rect.mem_set_unit]
  exact Iff.rfl

/-- Every row of the output array is in the block of the point that row falls in, and every point writes its block back. -/
theorem cover14_5 (i : S50000x256.Idx) : ∃ t : Fin cfg14.N, (cfg14.win 5).flush t = true ∧ i ∈ ((cfg14.win 5).blk t).view.set := by
  have hi0 : (i 0).val < 50000 := (i 0).isLt
  have hi1 : (i 1).val < 256 := (i 1).isLt
  have hq : (i 0).val / 2000 < cfg14.N := by rw [show cfg14.N = 25 from N_14]; omega
  refine ⟨⟨(i 0).val / 2000, hq⟩, flush14_5 _, ?_⟩
  rw [mem_blk14_5]
  obtain ⟨-, -, e0, e1, -⟩ := blockIndex14 ⟨(i 0).val / 2000, hq⟩
  intro a
  match a with
  | ⟨0, _⟩ =>
    show win14_5.index ⟨(i 0).val / 2000, hq⟩ (0 : Fin 2) * 2000 ≤ (i 0).val ∧ (i 0).val < win14_5.index ⟨(i 0).val / 2000, hq⟩ (0 : Fin 2) * 2000 + 2000
    rw [e0]; dsimp only; omega
  | ⟨1, _⟩ =>
    show win14_5.index ⟨(i 0).val / 2000, hq⟩ (1 : Fin 2) * 256 ≤ (i 1).val ∧ (i 1).val < win14_5.index ⟨(i 0).val / 2000, hq⟩ (1 : Fin 2) * 256 + 256
    rw [e1]; omega

/-- So the output array ends holding the normalized rows. -/
theorem hnewFinal14 (c : Dev nD) : (dat14 V c).arrAt 5 cfg14.N = hnewArr14 V c :=
  (dat14 V c).arrAt_eq_of_cover 5 (hnewArr14 V c) (fun t _ => flushed14_5 V c t) cover14_5

/-- The normalised output: bn(u; μ, σ², γ, β). -/
theorem val14_5 (c : Dev nD) : Gin.toMat ((dat14 V c).arrAt 5 cfg14.N)
    = Gin.bn (Gin.toMat (V c (Pipeline.arrRef spec14 0))) (Gin.toRow (V c (Pipeline.arrRef spec14 1))) (Gin.toRow (V c (Pipeline.arrRef spec14 2)))
        (Gin.toRow (V c (Pipeline.arrRef spec14 3))) (Gin.toRow (V c (Pipeline.arrRef spec14 4))) := by
  rw [hnewFinal14]
  rfl

/-! ## The running row: the sum of the normalized rows so far -/

/-- Row `k` of the normalized matrix at column `j` (zero past the last row): the summand of the running sums. -/
def term14 (c : Dev nD) (j : Fin 256) (k : ℕ) : EReal := if h : k < 50000 then hnewMat14 V c ⟨k, h⟩ j else 0

/-- The column sums of the block the body computes at point `t`: the summands of rows `2000 t` to `2000 t + 1999`. -/
theorem blockSum14 (c : Dev nD) (t : Fin cfg14.N) (j : Fin 256) :
    (∑ r : Fin 2000, k14_pay2 (rowsIn14 V c t) (meanIn14 V c t) (varIn14 V c t) (gainIn14 V c t) (shiftIn14 V c t) (ix2 r j))
      = ∑ x ∈ Finset.range 2000, term14 V c j (2000 * t.val + x) := by
  rw [Finset.sum_range]
  refine Finset.sum_congr rfl fun r _ => ?_
  have ht := point_lt14 t
  have hr := r.isLt
  unfold term14
  rw [dif_pos (by omega)]
  exact normalized14_apply V c t r j

/-- THE INVARIANT: after the body at position `n` the running row holds, column by column, the sum of the normalized rows of the
    blocks up to `n`, by induction on the position. -/
theorem sumsAt14_sum (c : Dev nD) : ∀ (n : ℕ) (hn : n < cfg14.N) (j : Fin 256),
    sumsAt14 V c n hn (ix2 0 j) = ∑ k ∈ Finset.range (2000 * (n + 1)), term14 V c j k
  | 0, hn, j => by
    have h := congrFun (sumsAt14_reset V c ⟨0, hn⟩ (Nat.zero_mod _)) (ix2 0 j)
    refine h.trans ?_
    rw [PayVal.k14_pay3_apply, PayVal.k14_pay1_apply, zero_add, blockSum14]
    refine Finset.sum_congr rfl fun x _ => ?_
    show term14 V c j (2000 * 0 + x) = term14 V c j x
    rw [Nat.mul_zero, Nat.zero_add]
  | n + 1, hn, j => by
    have hN : n + 1 < 25 := lt_of_lt_of_eq hn (show cfg14.N = 25 from N_14)
    have hB : ¬(⟨n + 1, hn⟩ : Fin cfg14.N).val % 25 = 0 := by dsimp only; omega
    have h := congrFun (sumsAt14_step V c ⟨n + 1, hn⟩ hB) (ix2 0 j)
    refine h.trans ?_
    rw [PayVal.k14_pay3_apply, blockSum14]
    show sumsAt14 V c n _ (ix2 0 j) + _ = _
    rw [sumsAt14_sum c n _ j, show 2000 * (n + 1 + 1) = 2000 * (n + 1) + 2000 from by omega, Finset.sum_range_add]

/-- The last point of the grid, the one that writes the running row back. -/
def lastPoint14 : Fin cfg14.N := ⟨24, by rw [show cfg14.N = 25 from N_14]; decide⟩

/-- The running row after the last point, as contents of its array. -/
def sumsArr14 (c : Dev nD) : Vec Ideal S1x256 .f32 := sumsAt14 V c lastPoint14.val lastPoint14.isLt

/-- An element of the running row's block sits at the same place in its array: the block is the whole array. -/
theorem emb14_6 (t : Fin cfg14.N) (y : S1x256.Idx) : ((cfg14.win 6).blk t).view.emb y = y := by
  have e := blockIndex14 t
  funext a
  apply Fin.ext
  match a with
  | ⟨0, _⟩ => show win14_6.index t (0 : Fin 2) * 1 + 1 * (y 0).val = (y 0).val; omega
  | ⟨1, _⟩ => show win14_6.index t (1 : Fin 2) * 256 + 1 * (y 1).val = (y 1).val; omega

/-- The one write-back of the running row, at the last point, writes the row that point leaves. -/
theorem flushed14_6 (c : Dev nD) (t : Fin cfg14.N) (hf : (cfg14.win 6).flush t = true) :
    (dat14 V c).flushed 6 t = ((cfg14.win 6).blk t).view.read (Elt Ideal) (sumsArr14 V c) := by
  have h24 : t.val = 24 := by have := (flush14_6 t).mp hf; have := point_lt14 t; omega
  obtain rfl : t = lastPoint14 := Fin.ext h24
  show (cfg14.win 6).cut (grid14.coords lastPoint14) ((dat14 V c).after 6 lastPoint14) = _
  rw [after14_6]
  funext y
  rw [View.read_apply, emb14_6]
  rfl

/-- Every index of the running row's array is in the last point's block. -/
theorem cover14_6 (i : S1x256.Idx) : ∃ t : Fin cfg14.N, (cfg14.win 6).flush t = true ∧ i ∈ ((cfg14.win 6).blk t).view.set := by
  refine ⟨lastPoint14, (flush14_6 lastPoint14).mpr rfl, ?_⟩
  have e := blockIndex14 lastPoint14
  have hi0 : (i 0).val < 1 := (i 0).isLt
  have hi1 : (i 1).val < 256 := (i 1).isLt
  show i ∈ ((View.whole (Pipeline.arrRef spec14 6)).slice (win14_6.rect lastPoint14)).set
  rw [View.set_slice_whole, Rect.mem_set_unit]
  intro a
  match a with
  | ⟨0, _⟩ =>
    show win14_6.index lastPoint14 (0 : Fin 2) * 1 ≤ (i 0).val ∧ (i 0).val < win14_6.index lastPoint14 (0 : Fin 2) * 1 + 1
    omega
  | ⟨1, _⟩ =>
    show win14_6.index lastPoint14 (1 : Fin 2) * 256 ≤ (i 1).val ∧ (i 1).val < win14_6.index lastPoint14 (1 : Fin 2) * 256 + 256
    omega

/-- So the running row's array ends holding the row the last point leaves. -/
theorem sumsFinal14 (c : Dev nD) : (dat14 V c).arrAt 6 cfg14.N = sumsArr14 V c :=
  (dat14 V c).arrAt_eq_of_cover 6 (sumsArr14 V c) (flushed14_6 V c) cover14_6

/-- Its column sums: the layer's readout. -/
theorem val14_6 (c : Dev nD) : Gin.toRow ((dat14 V c).arrAt 6 cfg14.N) = Gin.colsum (Gin.toMat ((dat14 V c).arrAt 5 cfg14.N)) := by
  rw [sumsFinal14, hnewFinal14]
  funext j
  show sumsAt14 V c lastPoint14.val lastPoint14.isLt (ix2 0 j) = ∑ r : Fin 50000, hnewArr14 V c (ix2 r j)
  rw [sumsAt14_sum V c lastPoint14.val lastPoint14.isLt j, show 2000 * (lastPoint14.val + 1) = 50000 from rfl, Finset.sum_range]
  refine Finset.sum_congr rfl fun r _ => ?_
  unfold term14
  rw [dif_pos r.isLt]
  rfl

end Cert.KernelIdeal.Hand

end
-- ==== Proof.KI.Chain4.lean ====
/-
  Layer 4 of the idealized kernel program, against the specification: the same three regions as the first layer, each
  entered through its stretch of host operations, from the features the layer before left. The first stretch aggregates
  those features along the edges (the two rows of the edge list read back as the program's first stretch left them) and
  cuts the layer's first weight and bias; the first region leaves the first affine output with its column sums and
  column sums of squares; the second stretch and region do the same through the first batch normalisation and the
  second affine map; the third stretch and region leave the layer's result and its column sums, the layer's readout.
-/
import proofs.«102822_j3521873183180_1_alg».proof.Proof.KI.Chain3
import proofs.«102822_j3521873183180_1_alg».proof.Proof.KI.HostVal.S12
import proofs.«102822_j3521873183180_1_alg».proof.Proof.KI.HostVal.S13
import proofs.«102822_j3521873183180_1_alg».proof.Proof.KI.HostVal.S14
import proofs.«102822_j3521873183180_1_alg».proof.Proof.KI.R12Val
import proofs.«102822_j3521873183180_1_alg».proof.Proof.KI.R13Val
import proofs.«102822_j3521873183180_1_alg».proof.Proof.KI.R14Val

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg) (c : Dev nD)

/-! ## Layer 4, first region: the first affine output -/

/-- What region 12 finds: the features the layer before left, their aggregate, the first weight and the first bias of layer 4. -/
theorem l4_in_h : Gin.toMat (V25 m ρ c (Pipeline.arrRef spec12 0)) = feat m c 4 :=
  (congrArg Gin.toMat (StableHlo.after_of_writes_sub (r := main_v202_0) hostOps12 (W24 m ρ c) hostOps12_writes (by decide))).trans (layer3_feat m ρ c)
theorem l4_in_a : Gin.toMat (V25 m ρ c (Pipeline.arrRef spec12 1)) = aggr m c 4 :=
  (HostVal.hostOps12_main_v213_spec (W24 m ρ c)).trans (by
    rw [layer3_feat m ρ c, src_at m ρ c (W24_edge m ρ c main_v1 edgeKept_main_v1),
      dst_at m ρ c (W24_edge m ρ c main_v3 edgeKept_main_v3)])
theorem l4_in_W1 : Gin.toWt (V25 m ρ c (Pipeline.arrRef spec12 2)) = (inP m c 4).W1 :=
  (HostVal.hostOps12_main_v216_spec (W24 m ρ c)).trans (congrArg (Gin.layerWt (4 : Fin 5)) (W24_param m ρ c main_arg2 untouched_main_arg2))
theorem l4_in_b1 : Gin.toRow (V25 m ρ c (Pipeline.arrRef spec12 3)) = (inP m c 4).b1 :=
  (HostVal.hostOps12_main_v219_spec (W24 m ρ c)).trans (congrArg (Gin.layerRow (4 : Fin 5)) (W24_param m ρ c main_arg3 untouched_main_arg3))

/-- What region 12 leaves: the first affine output of layer 4, its column sums, the column sums of its squares. -/
theorem l4_u1 : Gin.toMat ((dat12 (V25 m ρ) c).arrAt 4 cfg12.N) = Gin.u1 (feat m c 4) (aggr m c 4) (inP m c 4) := by
  rw [val12_4, l4_in_h, l4_in_a, l4_in_W1, l4_in_b1]; rfl
theorem l4_s1 : Gin.toRow (W26 m ρ c (Proc.devRef .tc main_v220_1)) = Gin.colsum (Gin.u1 (feat m c 4) (aggr m c 4) (inP m c 4)) := by
  rw [show W26 m ρ c (Proc.devRef .tc main_v220_1) = (dat12 (V25 m ρ) c).arrAt 5 cfg12.N from W26_arr m ρ c 5, val12_5, l4_u1]
theorem l4_q1 : Gin.toRow (W26 m ρ c (Proc.devRef .tc main_v220_2))
    = Gin.colsum (fun r j => Gin.u1 (feat m c 4) (aggr m c 4) (inP m c 4) r j * Gin.u1 (feat m c 4) (aggr m c 4) (inP m c 4) r j) := by
  rw [show W26 m ρ c (Proc.devRef .tc main_v220_2) = (dat12 (V25 m ρ) c).arrAt 6 cfg12.N from W26_arr m ρ c 6, val12_6, l4_u1]

/-! ## Layer 4, second region: the second affine output -/

/-- What region 13 finds: the first affine output, its column mean and variance, the first gain and shift, the second
    weight and bias of layer 4. -/
theorem l4_in_u1 : Gin.toMat (V27 m ρ c (Pipeline.arrRef spec13 0)) = Gin.u1 (feat m c 4) (aggr m c 4) (inP m c 4) :=
  (congrArg Gin.toMat ((StableHlo.after_of_writes_sub (r := main_v220_0) hostOps13 (W26 m ρ c) hostOps13_writes (by decide)).trans (W26_arr m ρ c 4))).trans (l4_u1 m ρ c)
theorem l4_in_mean1 : Gin.toRow (V27 m ρ c (Pipeline.arrRef spec13 1)) = Gin.mean (Gin.u1 (feat m c 4) (aggr m c 4) (inP m c 4)) :=
  HostVal.hostOps13_main_v222_mean (W26 m ρ c) _ (l4_s1 m ρ c)
theorem l4_in_var1 : Gin.toRow (V27 m ρ c (Pipeline.arrRef spec13 2)) = Gin.varK (Gin.u1 (feat m c 4) (aggr m c 4) (inP m c 4)) :=
  HostVal.hostOps13_main_v226_var (W26 m ρ c) _ (l4_s1 m ρ c) (l4_q1 m ρ c)
theorem l4_in_g1 : Gin.toRow (V27 m ρ c (Pipeline.arrRef spec13 3)) = (inP m c 4).g1 :=
  (HostVal.hostOps13_main_v229_spec (W26 m ρ c)).trans (congrArg (Gin.layerRow (4 : Fin 5)) (W26_param m ρ c main_arg4 untouched_main_arg4))
theorem l4_in_be1 : Gin.toRow (V27 m ρ c (Pipeline.arrRef spec13 4)) = (inP m c 4).be1 :=
  (HostVal.hostOps13_main_v232_spec (W26 m ρ c)).trans (congrArg (Gin.layerRow (4 : Fin 5)) (W26_param m ρ c main_arg5 untouched_main_arg5))
theorem l4_in_W2 : Gin.toWt (V27 m ρ c (Pipeline.arrRef spec13 5)) = (inP m c 4).W2 :=
  (HostVal.hostOps13_main_v235_spec (W26 m ρ c)).trans (congrArg (Gin.layerWt (4 : Fin 5)) (W26_param m ρ c main_arg6 untouched_main_arg6))
theorem l4_in_b2 : Gin.toRow (V27 m ρ c (Pipeline.arrRef spec13 6)) = (inP m c 4).b2 :=
  (HostVal.hostOps13_main_v238_spec (W26 m ρ c)).trans (congrArg (Gin.layerRow (4 : Fin 5)) (W26_param m ρ c main_arg7 untouched_main_arg7))

/-- What region 13 leaves: the second affine output of layer 4, its column sums, the column sums of its squares. -/
theorem l4_u2 : Gin.toMat ((dat13 (V27 m ρ) c).arrAt 7 cfg13.N) = Gin.u2K (feat m c 4) (aggr m c 4) (inP m c 4) := by
  rw [val13_7, l4_in_u1, l4_in_mean1, l4_in_var1, l4_in_g1, l4_in_be1, l4_in_W2, l4_in_b2]; rfl
theorem l4_s2 : Gin.toRow (W28 m ρ c (Proc.devRef .tc main_v239_1)) = Gin.colsum (Gin.u2K (feat m c 4) (aggr m c 4) (inP m c 4)) := by
  rw [show W28 m ρ c (Proc.devRef .tc main_v239_1) = (dat13 (V27 m ρ) c).arrAt 8 cfg13.N from W28_arr m ρ c 8, val13_8, l4_u2]
theorem l4_q2 : Gin.toRow (W28 m ρ c (Proc.devRef .tc main_v239_2))
    = Gin.colsum (fun r j => Gin.u2K (feat m c 4) (aggr m c 4) (inP m c 4) r j * Gin.u2K (feat m c 4) (aggr m c 4) (inP m c 4) r j) := by
  rw [show W28 m ρ c (Proc.devRef .tc main_v239_2) = (dat13 (V27 m ρ) c).arrAt 9 cfg13.N from W28_arr m ρ c 9, val13_9, l4_u2]

/-! ## Layer 4, third region: the layer's result and its readout -/

/-- What region 14 finds: the second affine output, its column mean and variance, the second gain and shift of layer 4. -/
theorem l4_in_u2 : Gin.toMat (V29 m ρ c (Pipeline.arrRef spec14 0)) = Gin.u2K (feat m c 4) (aggr m c 4) (inP m c 4) :=
  (congrArg Gin.toMat ((StableHlo.after_of_writes_sub (r := main_v239_0) hostOps14 (W28 m ρ c) hostOps14_writes (by decide)).trans (W28_arr m ρ c 7))).trans (l4_u2 m ρ c)
theorem l4_in_mean2 : Gin.toRow (V29 m ρ c (Pipeline.arrRef spec14 1)) = Gin.mean (Gin.u2K (feat m c 4) (aggr m c 4) (inP m c 4)) :=
  HostVal.hostOps14_main_v241_mean (W28 m ρ c) _ (l4_s2 m ρ c)
theorem l4_in_var2 : Gin.toRow (V29 m ρ c (Pipeline.arrRef spec14 2)) = Gin.varK (Gin.u2K (feat m c 4) (aggr m c 4) (inP m c 4)) :=
  HostVal.hostOps14_main_v245_var (W28 m ρ c) _ (l4_s2 m ρ c) (l4_q2 m ρ c)
theorem l4_in_g2 : Gin.toRow (V29 m ρ c (Pipeline.arrRef spec14 3)) = (inP m c 4).g2 :=
  (HostVal.hostOps14_main_v248_spec (W28 m ρ c)).trans (congrArg (Gin.layerRow (4 : Fin 5)) (W28_param m ρ c main_arg8 untouched_main_arg8))
theorem l4_in_be2 : Gin.toRow (V29 m ρ c (Pipeline.arrRef spec14 4)) = (inP m c 4).be2 :=
  (HostVal.hostOps14_main_v251_spec (W28 m ρ c)).trans (congrArg (Gin.layerRow (4 : Fin 5)) (W28_param m ρ c main_arg9 untouched_main_arg9))

/-- What region 14 leaves: the result of layer 4. -/
theorem l4_out : Gin.toMat ((dat14 (V29 m ρ) c).arrAt 5 cfg14.N) = feat m c 5 := by
  rw [val14_5, l4_in_u2, l4_in_mean2, l4_in_var2, l4_in_g2, l4_in_be2]; rfl

/-- After layer 4 the features are the specification's after 5 layers, -/
theorem layer4_feat : Gin.toMat (W30 m ρ c (Proc.devRef .tc main_v252_0)) = feat m c 5 :=
  (congrArg Gin.toMat (W30_arr m ρ c 5)).trans (l4_out m ρ c)
/-- and the readout is their column sums. -/
theorem layer4_readout : Gin.toRow (W30 m ρ c (Proc.devRef .tc main_v252_1)) = Gin.colsum (feat m c 5) := by
  rw [show W30 m ρ c (Proc.devRef .tc main_v252_1) = (dat14 (V29 m ρ) c).arrAt 6 cfg14.N from W30_arr m ρ c 6, val14_6, l4_out]

end Cert.KernelIdeal.Hand

end
-- ==== Proof.KI.HostVal.S15.lean ====
/-
  The host line after the last region, from any buffer contents: the classifier applied to the five layers'
  readouts, as the composed operations.
-/
import proofs.«102822_j3521873183180_1_alg».proof.Proof.KI.HostVal

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable (Wv : Valuation τ sig (Elt Ideal))

theorem hostOps15_result : StableHlo.after (hostOps15 (F := Ideal)) Wv (Proc.devRef .tc main_v258)
    = post (Wv (Proc.devRef .tc main_v53)) (Wv (Proc.devRef .tc main_v103)) (Wv (Proc.devRef .tc main_v153)) (Wv (Proc.devRef .tc main_v203))
        (vecT (Wv (Proc.devRef .tc main_v252_1))) (Wv (Proc.devRef .tc main_arg10)) (Wv (Proc.devRef .tc main_arg11)) := by
  after_results5; rfl
/-- The last readout as a vector. -/
theorem hostOps15_main_v253 : StableHlo.after (hostOps15 (F := Ideal)) Wv (Proc.devRef .tc main_v253) = vecT (Wv (Proc.devRef .tc main_v252_1)) := by
  after_results5; rfl
theorem hostOps15_main_v253_spec : Gin.toRow1 (StableHlo.after (hostOps15 (F := Ideal)) Wv (Proc.devRef .tc main_v253)) = Gin.toRow (Wv (Proc.devRef .tc main_v252_1)) := by
  rw [hostOps15_main_v253, toRow1_vecT]

end Cert.KernelIdeal.HostVal

end
-- ==== Proof.KI.Chain.lean ====
/-
  THE VALUE of the idealized kernel program's result, at the exact instance: when @main returns, the result buffer holds
  the classifier — concatenate, multiply by the classifier weight, add its bias — applied to five vectors, and the
  `i`-th of them reads as the column sums of the features after `i + 1` of the specification's layers, on the input
  features, edge list and parameters of the launch memory.

  The last stretch of host operations computes the result from the five readouts: the first four as the vectors that the
  first stretch of each later layer made of the layer before's readout row (still there at the last region's exit), the
  fifth from the last region's readout row directly; the classifier's weight and bias are never written.
-/
import proofs.«102822_j3521873183180_1_alg».proof.Proof.KI.Chain4
import proofs.«102822_j3521873183180_1_alg».proof.Proof.KI.HostVal.S15

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg) (c : Dev nD)

/-- The five readouts as the last stretch reads them. -/
abbrev out0 : FVec Ideal S256 .f32 := W30 m ρ c (Proc.devRef .tc main_v53)
abbrev out1 : FVec Ideal S256 .f32 := W30 m ρ c (Proc.devRef .tc main_v103)
abbrev out2 : FVec Ideal S256 .f32 := W30 m ρ c (Proc.devRef .tc main_v153)
abbrev out3 : FVec Ideal S256 .f32 := W30 m ρ c (Proc.devRef .tc main_v203)
abbrev out4 : FVec Ideal S256 .f32 := HostVal.vecT (W30 m ρ c (Proc.devRef .tc main_v252_1))

/-- The result buffer at the return: the classifier on the five readouts, with the launch memory's weight and bias. -/
theorem result_post : W31 m ρ c (Proc.devRef .tc main_v258)
    = HostVal.post (out0 m ρ c) (out1 m ρ c) (out2 m ρ c) (out3 m ρ c) (out4 m ρ c)
        (m ((c : Thread nD τ).loc main_arg10)) (m ((c : Thread nD τ).loc main_arg11)) :=
  (HostVal.hostOps15_result (W30 m ρ c)).trans (by
    rw [W30_param m ρ c main_arg10 untouched_main_arg10, W30_param m ρ c main_arg11 untouched_main_arg11])

/-- Each readout vector reads as the column sums of the specification's features after that many layers. -/
theorem out0_eq : Gin.toRow1 (out0 m ρ c) = Gin.colsum (feat m c 1) :=
  (congrArg Gin.toRow1 (W30_main_v53 m ρ c)).trans ((HostVal.hostOps3_main_v53_spec (W6 m ρ c)).trans (layer0_readout m ρ c))
theorem out1_eq : Gin.toRow1 (out1 m ρ c) = Gin.colsum (feat m c 2) :=
  (congrArg Gin.toRow1 (W30_main_v103 m ρ c)).trans ((HostVal.hostOps6_main_v103_spec (W12 m ρ c)).trans (layer1_readout m ρ c))
theorem out2_eq : Gin.toRow1 (out2 m ρ c) = Gin.colsum (feat m c 3) :=
  (congrArg Gin.toRow1 (W30_main_v153 m ρ c)).trans ((HostVal.hostOps9_main_v153_spec (W18 m ρ c)).trans (layer2_readout m ρ c))
theorem out3_eq : Gin.toRow1 (out3 m ρ c) = Gin.colsum (feat m c 4) :=
  (congrArg Gin.toRow1 (W30_main_v203 m ρ c)).trans ((HostVal.hostOps12_main_v203_spec (W24 m ρ c)).trans (layer3_readout m ρ c))
theorem out4_eq : Gin.toRow1 (out4 m ρ c) = Gin.colsum (feat m c 5) :=
  (HostVal.toRow1_vecT _).trans (layer4_readout m ρ c)

/-- THE VALUE: the result buffer holds the classifier on five vectors that read as the column sums of the specification's
    features after one to five layers. -/
theorem kernel_value :
    ∃ r0 r1 r2 r3 r4 : FVec Ideal S256 .f32,
      W31 m ρ c (Proc.devRef .tc main_v258)
          = HostVal.post r0 r1 r2 r3 r4 (m ((c : Thread nD τ).loc main_arg10)) (m ((c : Thread nD τ).loc main_arg11))
        ∧ Gin.toRow1 r0 = Gin.colsum (Gin.chain Gin.layerK (inX m c) (inSrc m c) (inDst m c) (inP m c) 1)
        ∧ Gin.toRow1 r1 = Gin.colsum (Gin.chain Gin.layerK (inX m c) (inSrc m c) (inDst m c) (inP m c) 2)
        ∧ Gin.toRow1 r2 = Gin.colsum (Gin.chain Gin.layerK (inX m c) (inSrc m c) (inDst m c) (inP m c) 3)
        ∧ Gin.toRow1 r3 = Gin.colsum (Gin.chain Gin.layerK (inX m c) (inSrc m c) (inDst m c) (inP m c) 4)
        ∧ Gin.toRow1 r4 = Gin.colsum (Gin.chain Gin.layerK (inX m c) (inSrc m c) (inDst m c) (inP m c) 5) :=
  ⟨out0 m ρ c, out1 m ρ c, out2 m ρ c, out3 m ρ c, out4 m ρ c, result_post m ρ c,
    out0_eq m ρ c, out1_eq m ρ c, out2_eq m ρ c, out3_eq m ρ c, out4_eq m ρ c⟩

end Cert.KernelIdeal.Hand

end
-- ==== Proof.RI.LayerVal.lean ====
/-
  What one layer of the reference program computes, read as the specification's function.

  A layer takes the node features `h : [50000, 256]` and the two rows of the edge list. It wraps the source words
  (a negative one gets the node count added), gathers the rows of `h` along the sources and adds them up at the
  destinations from zero (`aggV`), adds the result to `h`, and applies twice "affine map, then batch normalisation
  over the nodes" (`linV`, `bnV`). The batch normalisation takes the column means as column sums over the node count,
  and the column variance as the mean squared deviation: the squared deviations' column sums over the normalizer
  "node count less the degrees of freedom given up", guarded by a comparison of the normalizer with zero. With no
  degree of freedom given up the normalizer is the node count, 50000 > 0, so the guard holds and the variance is
  `Gin.varR`. Each definition below is the composition of the program's own operations; each `_spec` / `_apply` lemma
  reads it index by index: a broadcast reads its operand at the kept coordinates, a slice followed by a reshape of a
  stacked parameter reads layer `i`'s entry, the matrix product is the sum over the inner index, the sum down a column
  is the initial value plus the sum over the nodes, the row gather and scatter-add are `RowOps`'.
-/
import proofs.«102822_j3521873183180_1_alg».proof.Proof.Gen.ReferenceIdeal
import proofs.«102822_j3521873183180_1_alg».proof.Proof.Spec
import proofs.«102822_j3521873183180_1_alg».proof.Proof.LibRowOps
import Idealize.ShloMosaic.Lib.IdealHost
import Idealize.ShloMosaic.Lib.Pipeline.Value

noncomputable section

open scoped BigOperators

namespace Cert.ReferenceIdeal.Val

open Cert.ReferenceIdeal Cert.ReferenceIdeal.Gen Idealize.ShloMosaic Idealize.ShloMosaic.ValueIdx

/-! ## A vector of edge words as a function of the edge -/

def vecOf (v : IVec S800000 32) : Fin 800000 → BitVec 32 := fun e => v (ix1 e)

/-! ## Layout operations at an index -/

theorem bcast_row_apply {α : Type} (x : S256.Idx → α) (a : Fin 1) (j : Fin 256) :
    broadcastInDim S1x256 ![1] bcast_S256_S1x256_1 x (ix2 a j) = x (ix1 j) :=
  broadcastInDim_apply _ _ x _ (ix1 j) (fun b => by match b with | ⟨0, _⟩ => rfl)

theorem bcast_rows_apply {α : Type} (x : S1x256.Idx → α) (r : Fin 50000) (j : Fin 256) :
    broadcastInDim S50000x256 ![0, 1] bcast_S1x256_S50000x256_0_1 x (ix2 r j) = x (ix2 0 j) :=
  broadcastInDim_apply _ _ x _ (ix2 0 j) (fun b => by match b with | ⟨0, _⟩ => rfl | ⟨1, _⟩ => rfl)

theorem bcast_col_apply {α : Type} (x : S800000.Idx → α) (e : Fin 800000) (a : Fin 1) :
    broadcastInDim S800000x1 ![0] bcast_S800000_S800000x1_0 x (ix2 e a) = x (ix1 e) :=
  broadcastInDim_apply _ _ x _ (ix1 e) (fun b => by match b with | ⟨0, _⟩ => rfl)

theorem edgeRow_apply (s : Fin 2) (h : S2x800000.Slices ![s.val, 0] S1x800000) (ei : IVec S2x800000 32) (e : Fin 800000) :
    shapeCast S800000 (extractStridedSlice S1x800000 ![s.val, 0] ei h) shapeCasts_S1x800000_S800000 (ix1 e) = ei (ix2 s e) := by
  rw [shapeCast_apply _ _ (ix1 e) (ix2 0 e) (by rw [Shape.rowMajor_val_two, Shape.rowMajor_val_one]; show 0 * 800000 + e.val = e.val; omega)]
  exact extractStridedSlice_apply _ _ h _ (ix2 s e) (fun b => by
    match b with
    | ⟨0, _⟩ => show s.val = s.val + 0; omega
    | ⟨1, _⟩ => show e.val = 0 + e.val; omega)

theorem paramRow_apply (i : Fin 5) (h : S5x256.Slices ![i.val, 0] S1x256) (x : FVec Ideal S5x256 .f32) (j : Fin 256) :
    shapeCast S256 (extractStridedSlice S1x256 ![i.val, 0] x h) shapeCasts_S1x256_S256 (ix1 j) = x (ix2 i j) := by
  rw [shapeCast_apply _ _ (ix1 j) (ix2 0 j) (by rw [Shape.rowMajor_val_two, Shape.rowMajor_val_one]; show 0 * 256 + j.val = j.val; omega)]
  exact extractStridedSlice_apply _ _ h _ (ix2 i j) (fun b => by
    match b with
    | ⟨0, _⟩ => show i.val = i.val + 0; omega
    | ⟨1, _⟩ => show j.val = 0 + j.val; omega)

theorem paramWt_apply (i : Fin 5) (h : S5x256x256.Slices ![i.val, 0, 0] S1x256x256) (x : FVec Ideal S5x256x256 .f32) (k j : Fin 256) :
    shapeCast S256x256 (extractStridedSlice S1x256x256 ![i.val, 0, 0] x h) shapeCasts_S1x256x256_S256x256 (ix2 k j) = x (ix3 i k j) := by
  rw [shapeCast_apply _ _ (ix2 k j) (ix3 0 k j) (by rw [Shape.rowMajor_val_two, Shape.rowMajor_val_three]; show (0 * 256 + k.val) * 256 + j.val = k.val * 256 + j.val; omega)]
  exact extractStridedSlice_apply _ _ h _ (ix3 i k j) (fun b => by
    match b with
    | ⟨0, _⟩ => show i.val = i.val + 0; omega
    | ⟨1, _⟩ => show k.val = 0 + k.val; omega
    | ⟨2, _⟩ => show j.val = 0 + j.val; omega)

/-! ## The matrix product at an index -/

theorem dot_lhs_0 (j : S50000x256.Idx) (k : dot_S50000x256_S256x256_S50000x256_1_0_0_1_n_n.contr.Idx) :
    (dot_S50000x256_S256x256_S50000x256_1_0_0_1_n_n.lhsIdx j k 0).val = (j 0).val := by
  unfold DotDims.lhsIdx
  rw [dif_neg (show ¬ (0 : Fin S50000x256.rank) ∈ dot_S50000x256_S256x256_S50000x256_1_0_0_1_n_n.lhsBatch from by
        show (0 : Fin 2) ∉ ([] : List (Fin 2)); simp),
    dif_pos (show (0 : Fin S50000x256.rank) ∈ dot_S50000x256_S256x256_S50000x256_1_0_0_1_n_n.lhsNonContracting from by
        show (0 : Fin 2) ∈ [(0 : Fin 2)]; simp)]
  rfl

theorem dot_lhs_1 (j : S50000x256.Idx) (k : dot_S50000x256_S256x256_S50000x256_1_0_0_1_n_n.contr.Idx) :
    (dot_S50000x256_S256x256_S50000x256_1_0_0_1_n_n.lhsIdx j k 1).val = (k ⟨0, by decide⟩).val :=
  DotDims.lhsIdx_val_of_single (d := dot_S50000x256_S256x256_S50000x256_1_0_0_1_n_n) (cl := 1) rfl j k

theorem dot_rhs_0 (j : S50000x256.Idx) (k : dot_S50000x256_S256x256_S50000x256_1_0_0_1_n_n.contr.Idx) :
    (dot_S50000x256_S256x256_S50000x256_1_0_0_1_n_n.rhsIdx j k 0).val = (k ⟨0, by decide⟩).val :=
  DotDims.rhsIdx_val_of_single (d := dot_S50000x256_S256x256_S50000x256_1_0_0_1_n_n) (cr := 0) rfl j k

theorem dot_rhs_1 (j : S50000x256.Idx) (k : dot_S50000x256_S256x256_S50000x256_1_0_0_1_n_n.contr.Idx) :
    (dot_S50000x256_S256x256_S50000x256_1_0_0_1_n_n.rhsIdx j k 1).val = (j 1).val := by
  unfold DotDims.rhsIdx
  rw [dif_neg (show ¬ (1 : Fin S256x256.rank) ∈ dot_S50000x256_S256x256_S50000x256_1_0_0_1_n_n.rhsBatch from by
        show (1 : Fin 2) ∉ ([] : List (Fin 2)); simp),
    dif_pos (show (1 : Fin S256x256.rank) ∈ dot_S50000x256_S256x256_S50000x256_1_0_0_1_n_n.rhsNonContracting from by
        show (1 : Fin 2) ∈ [(1 : Fin 2)]; simp)]
  rfl

/-- Entry `(r, j)` of `z · W` is the sum over the inner index of the products. -/
theorem dot_apply (z : FVec Ideal S50000x256 .f32) (W : FVec Ideal S256x256 .f32) (r : Fin 50000) (j : Fin 256) :
    Host.dotGeneral (F := Ideal) dot_S50000x256_S256x256_S50000x256_1_0_0_1_n_n none z W (ix2 r j)
      = ∑ k : Fin 256, z (ix2 r k) * W (ix2 k j) := by
  show FloatOps.dotGeneral dot_S50000x256_S256x256_S50000x256_1_0_0_1_n_n none .single z W (ix2 r j) = _
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  congr 1
  · refine congrArg z (funext fun a => Fin.ext ?_)
    match a with
    | ⟨0, _⟩ => exact dot_lhs_0 _ _
    | ⟨1, _⟩ => exact (dot_lhs_1 _ _).trans hk
  · refine congrArg W (funext fun a => Fin.ext ?_)
    match a with
    | ⟨0, _⟩ => exact (dot_rhs_0 _ _).trans hk
    | ⟨1, _⟩ => exact dot_rhs_1 _ _

/-! ## The sum down a column at an index -/

theorem colsum_apply (x : FVec Ideal S50000x256 .f32) (init : S_.Idx → Ideal .f32) (j : Fin 256) :
    Host.reduceAdd (F := Ideal) x init reducesTo_S50000x256_S256_d0 h_S_ (ix1 j) = init ix0 + ∑ r : Fin 50000, x (ix2 r j) := by
  rw [hostReduceAdd_apply, Ideal.hostReduceAdd_single _ (by decide : S50000x256.Reduces [0] S256), eq_ix0 (Shape.Idx.first h_S_)]
  refine congrArg (fun t => init ix0 + t) (Finset.sum_congr rfl fun r _ => ?_)
  refine congrArg x (funext fun a => Fin.ext ?_)
  match a with
  | ⟨0, _⟩ => rfl
  | ⟨1, _⟩ => rfl

/-! ## The constants -/

/-- The word `0x47435000` is the real 50000. -/
theorem nn_eq : Gin.nn = ((50000 : ℝ) : EReal) := by
  unfold Gin.nn
  simp [Ideal.ofBits, Ideal.ieee, -EReal.coe_mul]; norm_num

theorem nn_pos : (0 : EReal) < Gin.nn := by
  rw [nn_eq]; exact_mod_cast (by norm_num : (0 : ℝ) < 50000)

/-! ## The edge aggregation -/

/-- The source words wrapped (a negative one gets the node count added), as a column. -/
def srcColV (srcv : IVec S800000 32) : IVec S800000x1 32 :=
  broadcastInDim S800000x1 ![0] bcast_S800000_S800000x1_0
    (select (cmpi .slt srcv (broadcastInDim S800000 ![] bcast_S_S800000 (constantI S_ 32 0#32)))
      (addi srcv (broadcastInDim S800000 ![] bcast_S_S800000 (constantI S_ 32 50000#32))) srcv)

/-- The rows of `h` gathered along the edges' sources and added up at the edges' destinations, from zero. -/
def aggV (h : FVec Ideal S50000x256 .f32) (srcv dstv : IVec S800000 32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 dstv)
    (Host.gather gather_S50000x256_S800000x1_S800000x256_1_0_n_n_0_1_1256 h (srcColV srcv))

theorem srcColV_apply (srcv : IVec S800000 32) (e : Fin 800000) (a : Fin 1) :
    srcColV srcv (ix2 e a)
      = Scalar.select (IntOp.cmpi .slt (srcv (ix1 e)) 0#32) (IntOp.addi (srcv (ix1 e)) 50000#32) (srcv (ix1 e)) := by
  unfold srcColV
  rw [bcast_col_apply]
  rfl

/-- Wrapping then clamping a source word names the specification's source row. -/
theorem clamp_wrap (s : BitVec 32) :
    RowOps.clampRow 50000 (by decide) (Scalar.select (IntOp.cmpi .slt s 0#32) (IntOp.addi s 50000#32) s) = Gin.srcRow s := by
  refine Fin.ext ?_
  by_cases hs : s.slt 0#32 = true
  · simp [RowOps.clampRow, Gin.srcRow, Scalar.select, IntOp.cmpi, IntOp.addi, hs]
  · simp [RowOps.clampRow, Gin.srcRow, Scalar.select, IntOp.cmpi, IntOp.addi, hs]

theorem aggV_spec (h : FVec Ideal S50000x256 .f32) (srcv dstv : IVec S800000 32) :
    Gin.toMat (aggV h srcv dstv) = Gin.agg (Gin.toMat h) (vecOf srcv) (vecOf dstv) := by
  funext r p
  have es : scatter_S50000x256_S800000x1_S800000x256_1_0_0_1
      = RowOps.scatterDims 50000 800000 256 scatter_S50000x256_S800000x1_S800000x256_1_0_0_1_wf := rfl
  have eg : gather_S50000x256_S800000x1_S800000x256_1_0_n_n_0_1_1256
      = RowOps.gatherDims 50000 800000 256 gather_S50000x256_S800000x1_S800000x256_1_0_n_n_0_1_1256_wf := rfl
  show aggV h srcv dstv (ix2 r p) = _
  unfold aggV
  rw [es, eg, RowOps.scatterAdd_apply, broadcastInDim_scalar_apply, constant_apply, Ideal.ofBits_zero_f32]
  unfold Gin.agg
  simp only [RowOps.gather_apply (by decide : 0 < 50000), srcColV_apply, clamp_wrap]
  refine congrArg (fun t => (0 : EReal) + t) (Finset.sum_congr (Finset.filter_congr fun e _ => ?_) fun e _ => rfl)
  rw [bcast_col_apply]
  exact Iff.rfl

/-! ## Per-feature rows laid under every node -/

/-- A vector of per-feature numbers as a one-row matrix, then repeated down the nodes. -/
def rowsV (x : FVec Ideal S256 .f32) : FVec Ideal S50000x256 .f32 :=
  broadcastInDim S50000x256 ![0, 1] bcast_S1x256_S50000x256_0_1 (broadcastInDim S1x256 ![1] bcast_S256_S1x256_1 x)

theorem rowsV_apply (x : FVec Ideal S256 .f32) (r : Fin 50000) (j : Fin 256) : rowsV x (ix2 r j) = x (ix1 j) := by
  unfold rowsV
  rw [bcast_rows_apply, bcast_row_apply]

/-! ## The column statistics -/

/-- The column means: the column sums from zero, over the node count. -/
def meanV (u : FVec Ideal S50000x256 .f32) : FVec Ideal S256 .f32 :=
  Host.divf (Host.reduceAdd (F := Ideal) u (constant (F := Ideal) S_ .f32 0x00000000#32) reducesTo_S50000x256_S256_d0 h_S_)
    (broadcastInDim S256 ![] bcast_S_S256 (constant (F := Ideal) S_ .f32 0x47435000#32))

theorem meanV_apply (u : FVec Ideal S50000x256 .f32) (j : Fin 256) : meanV u (ix1 j) = Gin.mean (Gin.toMat u) j := by
  unfold meanV
  rw [hostDivf_apply, colsum_apply, broadcastInDim_scalar_apply, constant_apply, constant_apply, Ideal.ofBits_zero_f32, zero_add]
  rfl

/-- The column means as the variance function computes them again: the sums laid out as one row, then divided. -/
def meanRowV (u : FVec Ideal S50000x256 .f32) : FVec Ideal S1x256 .f32 :=
  Host.divf
    (broadcastInDim S1x256 ![1] bcast_S256_S1x256_1
      (Host.reduceAdd (F := Ideal) u (constant (F := Ideal) S_ .f32 0x00000000#32) reducesTo_S50000x256_S256_d0 h_S_))
    (broadcastInDim S1x256 ![] bcast_S_S1x256 (constant (F := Ideal) S_ .f32 0x47435000#32))

theorem meanRowV_apply (u : FVec Ideal S50000x256 .f32) (a : Fin 1) (j : Fin 256) :
    meanRowV u (ix2 a j) = Gin.mean (Gin.toMat u) j := by
  unfold meanRowV
  rw [hostDivf_apply, bcast_row_apply, colsum_apply, broadcastInDim_scalar_apply, constant_apply, constant_apply,
    Ideal.ofBits_zero_f32, zero_add]
  rfl

/-- The squared deviations from the column means. -/
def sqDevV (u : FVec Ideal S50000x256 .f32) : FVec Ideal S50000x256 .f32 :=
  mulf (subf u (broadcastInDim S50000x256 ![0, 1] bcast_S1x256_S50000x256_0_1 (meanRowV u)))
    (subf u (broadcastInDim S50000x256 ![0, 1] bcast_S1x256_S50000x256_0_1 (meanRowV u)))

theorem sqDevV_apply (u : FVec Ideal S50000x256 .f32) (r : Fin 50000) (j : Fin 256) :
    sqDevV u (ix2 r j)
      = (Gin.toMat u r j - Gin.mean (Gin.toMat u) j) * (Gin.toMat u r j - Gin.mean (Gin.toMat u) j) := by
  unfold sqDevV
  rw [mulf_apply, subf_apply, bcast_rows_apply, meanRowV_apply]
  rfl

/-- The variance's normalizer: the node count less the degrees of freedom given up. -/
def normV (ddof : IVec S_ 32) : FVec Ideal S_ .f32 :=
  subf (constant (F := Ideal) S_ .f32 0x47435000#32) (sitofp .f32 ddof)

/-- With no degree of freedom given up the normalizer is the node count. -/
theorem normV_zero : normV (constantI S_ 32 0#32) ix0 = Gin.nn := by
  unfold normV
  rw [subf_apply, constant_apply, sitofp_apply]
  show Gin.nn - (((0#32 : BitVec 32).toInt : ℝ) : EReal) = Gin.nn
  simp

/-- The node count is above zero, so the guard on the normalizer holds. -/
theorem nn_gt_zero : FloatOps.cmpf (F := Ideal) (φ := .f32) .ogt Gin.nn 0 = 1#1 := by
  rw [Ideal.cmpf_def]
  simp [Ideal.cmp, nn_pos]

/-- The column variance as the program computes it: the squared deviations' column sums over the normalizer, kept
    where the normalizer is above zero and a not-a-number otherwise. -/
def varV (u : FVec Ideal S50000x256 .f32) (ddof : IVec S_ 32) : FVec Ideal S256 .f32 :=
  select (broadcastInDim S256 ![] bcast_S_S256 (cmpf .ogt (normV ddof) (constant (F := Ideal) S_ .f32 0x00000000#32)))
    (Host.divf
      (Host.reduceAdd (F := Ideal) (sqDevV u) (constant (F := Ideal) S_ .f32 0x00000000#32) reducesTo_S50000x256_S256_d0 h_S_)
      (broadcastInDim S256 ![] bcast_S_S256 (normV ddof)))
    (broadcastInDim S256 ![] bcast_S_S256 (id (constant (F := Ideal) S_ .f32 0x7FC00000#32)))

/-- With no degree of freedom given up the guard holds and the variance is the mean squared deviation. -/
theorem varV_apply (u : FVec Ideal S50000x256 .f32) (j : Fin 256) :
    varV u (constantI S_ 32 0#32) (ix1 j) = Gin.varR (Gin.toMat u) j := by
  unfold varV
  rw [select_apply, broadcastInDim_scalar_apply, cmpf_apply, normV_zero, constant_apply, Ideal.ofBits_zero_f32, nn_gt_zero,
    select_one, hostDivf_apply, colsum_apply, broadcastInDim_scalar_apply, normV_zero, constant_apply, Ideal.ofBits_zero_f32,
    zero_add]
  unfold Gin.varR Gin.colsum
  refine congrArg (fun t => Ideal.div t Gin.nn) (Finset.sum_congr rfl fun r _ => ?_)
  exact sqDevV_apply u r j

/-! ## Batch normalisation and the affine map -/

/-- The host's inverse square root at an index is the extended reals'. -/
theorem hostRsqrt_apply {s : Shape} {φ : FTy} (x : FVec Ideal s φ) (i : s.Idx) : Host.rsqrt x i = Ideal.rsqrt (x i) := rfl

/-- `(u - μ) · (σ² + ε)^(-1/2) · γ + β` with the column statistics of `u` itself. -/
def bnV (u : FVec Ideal S50000x256 .f32) (g be : FVec Ideal S256 .f32) : FVec Ideal S50000x256 .f32 :=
  addf
    (mulf
      (mulf (subf u (rowsV (meanV u)))
        (rowsV (Host.rsqrt (addf (varV u (constantI S_ 32 0#32))
          (broadcastInDim S256 ![] bcast_S_S256 (constant (F := Ideal) S_ .f32 0x3727C5AC#32))))))
      (rowsV g))
    (rowsV be)

theorem bnV_spec (u : FVec Ideal S50000x256 .f32) (g be : FVec Ideal S256 .f32) :
    Gin.toMat (bnV u g be)
      = Gin.bn (Gin.toMat u) (Gin.mean (Gin.toMat u)) (Gin.varR (Gin.toMat u)) (Gin.toRow1 g) (Gin.toRow1 be) := by
  funext r j
  show bnV u g be (ix2 r j) = _
  unfold bnV
  rw [addf_apply, mulf_apply, mulf_apply, subf_apply, rowsV_apply, rowsV_apply, rowsV_apply, rowsV_apply, meanV_apply]
  rw [hostRsqrt_apply, addf_apply, varV_apply, broadcastInDim_scalar_apply, constant_apply]
  rfl

/-- `z · W + b`. -/
def linV (z : FVec Ideal S50000x256 .f32) (W : FVec Ideal S256x256 .f32) (b : FVec Ideal S256 .f32) :
    FVec Ideal S50000x256 .f32 :=
  addf (Host.dotGeneral (F := Ideal) dot_S50000x256_S256x256_S50000x256_1_0_0_1_n_n none z W) (rowsV b)

theorem linV_spec (z : FVec Ideal S50000x256 .f32) (W : FVec Ideal S256x256 .f32) (b : FVec Ideal S256 .f32) :
    Gin.toMat (linV z W b) = Gin.lin (Gin.toMat z) (Gin.toWt W) (Gin.toRow1 b) := by
  funext r j
  show linV z W b (ix2 r j) = _
  unfold linV
  rw [addf_apply, dot_apply, rowsV_apply]
  rfl

/-! ## A layer's parameters out of the stacked arrays -/

theorem slicesRow : ∀ i : Fin 5, S5x256.Slices ![i.val, 0] S1x256 := by decide
theorem slicesWt : ∀ i : Fin 5, S5x256x256.Slices ![i.val, 0, 0] S1x256x256 := by decide

/-- Row `i` of a stacked `[5, 256]` parameter, as a vector. -/
def rowV (i : Fin 5) (x : FVec Ideal S5x256 .f32) : FVec Ideal S256 .f32 :=
  shapeCast S256 (extractStridedSlice S1x256 ![i.val, 0] x (slicesRow i)) shapeCasts_S1x256_S256

/-- Matrix `i` of a stacked `[5, 256, 256]` parameter. -/
def wtV (i : Fin 5) (x : FVec Ideal S5x256x256 .f32) : FVec Ideal S256x256 .f32 :=
  shapeCast S256x256 (extractStridedSlice S1x256x256 ![i.val, 0, 0] x (slicesWt i)) shapeCasts_S1x256x256_S256x256

theorem rowV_spec (i : Fin 5) (x : FVec Ideal S5x256 .f32) : Gin.toRow1 (rowV i x) = Gin.layerRow i x :=
  funext fun j => paramRow_apply i (slicesRow i) x j

theorem wtV_spec (i : Fin 5) (x : FVec Ideal S5x256x256 .f32) : Gin.toWt (wtV i x) = Gin.layerWt i x :=
  funext fun k => funext fun j => paramWt_apply i (slicesWt i) x k j

/-- The two rows of the edge list as vectors. -/
def srcV (ei : IVec S2x800000 32) : IVec S800000 32 :=
  shapeCast S800000 (extractStridedSlice S1x800000 ![0, 0] ei slices_S2x800000_S1x800000_0_0) shapeCasts_S1x800000_S800000
def dstV (ei : IVec S2x800000 32) : IVec S800000 32 :=
  shapeCast S800000 (extractStridedSlice S1x800000 ![1, 0] ei slices_S2x800000_S1x800000_1_0) shapeCasts_S1x800000_S800000

theorem srcV_spec (ei : IVec S2x800000 32) : vecOf (srcV ei) = Gin.srcOf ei :=
  funext fun e => edgeRow_apply 0 slices_S2x800000_S1x800000_0_0 ei e
theorem dstV_spec (ei : IVec S2x800000 32) : vecOf (dstV ei) = Gin.dstOf ei :=
  funext fun e => edgeRow_apply 1 slices_S2x800000_S1x800000_1_0 ei e

/-! ## One layer -/

/-- Layer `i` over the edge rows already cut out: aggregate, add, and twice "affine map, then batch normalisation". -/
def layerC (i : Fin 5) (h : FVec Ideal S50000x256 .f32) (srcv dstv : IVec S800000 32)
    (W1 : FVec Ideal S5x256x256 .f32) (b1 g1 be1 : FVec Ideal S5x256 .f32)
    (W2 : FVec Ideal S5x256x256 .f32) (b2 g2 be2 : FVec Ideal S5x256 .f32) : FVec Ideal S50000x256 .f32 :=
  bnV (linV (bnV (linV (addf h (aggV h srcv dstv)) (wtV i W1) (rowV i b1)) (rowV i g1) (rowV i be1)) (wtV i W2) (rowV i b2))
    (rowV i g2) (rowV i be2)

/-- Layer `i` from the edge list itself. -/
def layerV (i : Fin 5) (h : FVec Ideal S50000x256 .f32) (ei : IVec S2x800000 32)
    (W1 : FVec Ideal S5x256x256 .f32) (b1 g1 be1 : FVec Ideal S5x256 .f32)
    (W2 : FVec Ideal S5x256x256 .f32) (b2 g2 be2 : FVec Ideal S5x256 .f32) : FVec Ideal S50000x256 .f32 :=
  layerC i h (srcV ei) (dstV ei) W1 b1 g1 be1 W2 b2 g2 be2

/-- A layer's readout: its result summed over the nodes, from zero. -/
def readoutV (x : FVec Ideal S50000x256 .f32) : FVec Ideal S256 .f32 :=
  Host.reduceAdd (F := Ideal) x (constant (F := Ideal) S_ .f32 0x00000000#32) reducesTo_S50000x256_S256_d0 h_S_

theorem layerC_spec (i : Fin 5) (h : FVec Ideal S50000x256 .f32) (srcv dstv : IVec S800000 32)
    (W1 : FVec Ideal S5x256x256 .f32) (b1 g1 be1 : FVec Ideal S5x256 .f32)
    (W2 : FVec Ideal S5x256x256 .f32) (b2 g2 be2 : FVec Ideal S5x256 .f32) :
    Gin.toMat (layerC i h srcv dstv W1 b1 g1 be1 W2 b2 g2 be2)
      = Gin.layerR (Gin.toMat h) (Gin.agg (Gin.toMat h) (vecOf srcv) (vecOf dstv)) (Gin.paramsOf i W1 b1 g1 be1 W2 b2 g2 be2) := by
  have hz : Gin.toMat (addf h (aggV h srcv dstv))
      = fun r k => Gin.toMat h r k + Gin.agg (Gin.toMat h) (vecOf srcv) (vecOf dstv) r k := by
    rw [← aggV_spec]; rfl
  unfold layerC
  rw [bnV_spec, linV_spec, bnV_spec, linV_spec, hz, wtV_spec, wtV_spec, rowV_spec, rowV_spec, rowV_spec, rowV_spec, rowV_spec,
    rowV_spec]
  rfl

theorem layerV_spec (i : Fin 5) (h : FVec Ideal S50000x256 .f32) (ei : IVec S2x800000 32)
    (W1 : FVec Ideal S5x256x256 .f32) (b1 g1 be1 : FVec Ideal S5x256 .f32)
    (W2 : FVec Ideal S5x256x256 .f32) (b2 g2 be2 : FVec Ideal S5x256 .f32) :
    Gin.toMat (layerV i h ei W1 b1 g1 be1 W2 b2 g2 be2)
      = Gin.layerR (Gin.toMat h) (Gin.agg (Gin.toMat h) (Gin.srcOf ei) (Gin.dstOf ei)) (Gin.paramsOf i W1 b1 g1 be1 W2 b2 g2 be2) := by
  unfold layerV
  rw [layerC_spec, srcV_spec, dstV_spec]

theorem readoutV_spec (x : FVec Ideal S50000x256 .f32) : Gin.toRow1 (readoutV x) = Gin.colsum (Gin.toMat x) := by
  funext j
  show readoutV x (ix1 j) = _
  unfold readoutV
  rw [colsum_apply, constant_apply, Ideal.ofBits_zero_f32, zero_add]
  rfl

end Cert.ReferenceIdeal.Val

end
-- ==== Proof.RI.Kept.lean ====
/-
  Buffers a line of operations leaves alone, and a line run in two halves.

  An operation that writes exactly one buffer leaves every other buffer as it was; so a line of such operations keeps
  every buffer none of them writes. The contents after two lines run one after the other are the contents after the
  second, started from the contents after the first.
-/
import proofs.«102822_j3521873183180_1_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- An operation that writes one buffer, and that buffer is none of the list `K`, writes no buffer of `K`. -/
theorem keeps_of {op : HloOp τ sig (Elt F)} (K : List (Ref sig .tc)) (y : Ref sig .tc)
    (hw : op.writes = {Proc.devRef .tc y}) (hy : y ∉ K) : ∀ r ∈ K, Proc.devRef (τ := τ) .tc r ∉ op.writes :=
  fun r hr hmem => by
    rw [hw, Finset.mem_singleton] at hmem
    exact hy (Proc.devRef_injective _ hmem ▸ hr)

/-- The contents after two lines in a row: the second line's, from the first line's. -/
theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, after_cons, after_cons, ih]

end Cert.ReferenceIdeal.Val

end
-- ==== Proof.RI.After0.lean ====
/-
  Layer 0 of the reference program, run as a line of operations: what it leaves in its result buffer and in its
  readout buffer, and which buffers it leaves alone.

  The layer's operations, taken in order from any contents `V`, write the composition of their functions into the
  result buffer: unfolding the line operation by operation gives `layerC 0` of the contents of the buffers the layer
  reads (its input features, the two edge rows, the eight stacked parameters), and the readout buffer holds the column
  sums of that. Every operation writes one buffer of the layer's own, so the arguments, the edge rows and the earlier
  layers' readouts hold after the layer what they held before.
-/
import proofs.«102822_j3521873183180_1_alg».proof.Proof.RI.Ops
import proofs.«102822_j3521873183180_1_alg».proof.Proof.RI.LayerVal
import proofs.«102822_j3521873183180_1_alg».proof.Proof.RI.Kept

noncomputable section

namespace Cert.ReferenceIdeal.Val

open Cert.ReferenceIdeal Cert.ReferenceIdeal.Gen Idealize.ShloMosaic Idealize.ShloMosaic.ValueIdx Idealize.ShloMosaic.TcCoe Idealize.SL.Sem Idealize.ShloMosaic.StableHlo Cert.ReferenceIdeal.Hand

set_option maxHeartbeats 4000000 in
/-- After layer 0's operations its result buffer holds `layerC 0` of the buffers the layer reads. -/
theorem after_opsL0 (V : Valuation τ sig (Elt Ideal)) :
    StableHlo.after (opsL0 (F := Ideal)) V (Proc.devRef .tc main_v76)
      = layerC 0 (V (Proc.devRef .tc main_arg0)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) := by
  after_results_simp
  rfl

set_option maxHeartbeats 4000000 in
/-- … and its readout buffer the column sums of that result. -/
theorem after_opsL0_readout (V : Valuation τ sig (Elt Ideal)) :
    StableHlo.after (opsL0 (F := Ideal)) V (Proc.devRef .tc main_v77)
      = readoutV (layerC 0 (V (Proc.devRef .tc main_arg0)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))) := by
  after_results_simp
  rfl

/-- The buffers layer 0 must leave alone: the arguments, the two edge rows. -/
abbrev keptL0 : List (Ref sig .tc) :=
  [main_arg0, main_arg1, main_arg2, main_arg3, main_arg4, main_arg5, main_arg6, main_arg7, main_arg8, main_arg9, main_arg10,
    main_arg11, main_v1, main_v3]

set_option maxRecDepth 8192 in
/-- No operation of layer 0 writes one of them. -/
theorem opsL0_keeps : (opsL0 (F := Ideal)).Forall fun op => ∀ r ∈ keptL0, Proc.devRef (τ := τ) .tc r ∉ op.writes := by
  repeat (first
    | exact keeps_of _ _ rfl (by decide)
    | (refine ⟨?_, ?_⟩; exact keeps_of _ _ rfl (by decide)))

/-- So each holds after the layer what it held before. -/
theorem kept_L0 (V : Valuation τ sig (Elt Ideal)) (r : Ref sig .tc) (hr : r ∈ keptL0) :
    StableHlo.after (opsL0 (F := Ideal)) V (Proc.devRef .tc r) = V (Proc.devRef .tc r) :=
  after_of_forall_not_mem _ V fun op hop => List.forall_iff_forall_mem.mp opsL0_keeps op hop r hr

end Cert.ReferenceIdeal.Val

end
-- ==== Proof.RI.After1.lean ====
/-
  Layer 1 of the reference program, run as a line of operations: what it leaves in its result buffer and in its
  readout buffer, and which buffers it leaves alone.

  The layer's operations, taken in order from any contents `V`, write the composition of their functions into the
  result buffer: unfolding the line operation by operation gives `layerC 1` of the contents of the buffers the layer
  reads (its input features, the two edge rows, the eight stacked parameters), and the readout buffer holds the column
  sums of that. Every operation writes one buffer of the layer's own, so the arguments, the edge rows and the earlier
  layers' readouts hold after the layer what they held before.
-/
import proofs.«102822_j3521873183180_1_alg».proof.Proof.RI.Ops
import proofs.«102822_j3521873183180_1_alg».proof.Proof.RI.LayerVal
import proofs.«102822_j3521873183180_1_alg».proof.Proof.RI.Kept

noncomputable section

namespace Cert.ReferenceIdeal.Val

open Cert.ReferenceIdeal Cert.ReferenceIdeal.Gen Idealize.ShloMosaic Idealize.ShloMosaic.ValueIdx Idealize.ShloMosaic.TcCoe Idealize.SL.Sem Idealize.ShloMosaic.StableHlo Cert.ReferenceIdeal.Hand

set_option maxHeartbeats 4000000 in
/-- After layer 1's operations its result buffer holds `layerC 1` of the buffers the layer reads. -/
theorem after_opsL1 (V : Valuation τ sig (Elt Ideal)) :
    StableHlo.after (opsL1 (F := Ideal)) V (Proc.devRef .tc main_v150)
      = layerC 1 (V (Proc.devRef .tc main_v76)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) := by
  after_results_simp
  rfl

set_option maxHeartbeats 4000000 in
/-- … and its readout buffer the column sums of that result. -/
theorem after_opsL1_readout (V : Valuation τ sig (Elt Ideal)) :
    StableHlo.after (opsL1 (F := Ideal)) V (Proc.devRef .tc main_v151)
      = readoutV (layerC 1 (V (Proc.devRef .tc main_v76)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))) := by
  after_results_simp
  rfl

/-- The buffers layer 1 must leave alone: the arguments, the two edge rows, the earlier layers' readouts. -/
abbrev keptL1 : List (Ref sig .tc) :=
  [main_arg0, main_arg1, main_arg2, main_arg3, main_arg4, main_arg5, main_arg6, main_arg7, main_arg8, main_arg9, main_arg10,
    main_arg11, main_v1, main_v3, main_v77]

set_option maxRecDepth 8192 in
/-- No operation of layer 1 writes one of them. -/
theorem opsL1_keeps : (opsL1 (F := Ideal)).Forall fun op => ∀ r ∈ keptL1, Proc.devRef (τ := τ) .tc r ∉ op.writes := by
  repeat (first
    | exact keeps_of _ _ rfl (by decide)
    | (refine ⟨?_, ?_⟩; exact keeps_of _ _ rfl (by decide)))

/-- So each holds after the layer what it held before. -/
theorem kept_L1 (V : Valuation τ sig (Elt Ideal)) (r : Ref sig .tc) (hr : r ∈ keptL1) :
    StableHlo.after (opsL1 (F := Ideal)) V (Proc.devRef .tc r) = V (Proc.devRef .tc r) :=
  after_of_forall_not_mem _ V fun op hop => List.forall_iff_forall_mem.mp opsL1_keeps op hop r hr

end Cert.ReferenceIdeal.Val

end
-- ==== Proof.RI.After2.lean ====
/-
  Layer 2 of the reference program, run as a line of operations: what it leaves in its result buffer and in its
  readout buffer, and which buffers it leaves alone.

  The layer's operations, taken in order from any contents `V`, write the composition of their functions into the
  result buffer: unfolding the line operation by operation gives `layerC 2` of the contents of the buffers the layer
  reads (its input features, the two edge rows, the eight stacked parameters), and the readout buffer holds the column
  sums of that. Every operation writes one buffer of the layer's own, so the arguments, the edge rows and the earlier
  layers' readouts hold after the layer what they held before.
-/
import proofs.«102822_j3521873183180_1_alg».proof.Proof.RI.Ops
import proofs.«102822_j3521873183180_1_alg».proof.Proof.RI.LayerVal
import proofs.«102822_j3521873183180_1_alg».proof.Proof.RI.Kept

noncomputable section

namespace Cert.ReferenceIdeal.Val

open Cert.ReferenceIdeal Cert.ReferenceIdeal.Gen Idealize.ShloMosaic Idealize.ShloMosaic.ValueIdx Idealize.ShloMosaic.TcCoe Idealize.SL.Sem Idealize.ShloMosaic.StableHlo Cert.ReferenceIdeal.Hand

set_option maxHeartbeats 4000000 in
/-- After layer 2's operations its result buffer holds `layerC 2` of the buffers the layer reads. -/
theorem after_opsL2 (V : Valuation τ sig (Elt Ideal)) :
    StableHlo.after (opsL2 (F := Ideal)) V (Proc.devRef .tc main_v224)
      = layerC 2 (V (Proc.devRef .tc main_v150)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) := by
  after_results_simp
  rfl

set_option maxHeartbeats 4000000 in
/-- … and its readout buffer the column sums of that result. -/
theorem after_opsL2_readout (V : Valuation τ sig (Elt Ideal)) :
    StableHlo.after (opsL2 (F := Ideal)) V (Proc.devRef .tc main_v225)
      = readoutV (layerC 2 (V (Proc.devRef .tc main_v150)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))) := by
  after_results_simp
  rfl

/-- The buffers layer 2 must leave alone: the arguments, the two edge rows, the earlier layers' readouts. -/
abbrev keptL2 : List (Ref sig .tc) :=
  [main_arg0, main_arg1, main_arg2, main_arg3, main_arg4, main_arg5, main_arg6, main_arg7, main_arg8, main_arg9, main_arg10,
    main_arg11, main_v1, main_v3, main_v77, main_v151]

set_option maxRecDepth 8192 in
/-- No operation of layer 2 writes one of them. -/
theorem opsL2_keeps : (opsL2 (F := Ideal)).Forall fun op => ∀ r ∈ keptL2, Proc.devRef (τ := τ) .tc r ∉ op.writes := by
  repeat (first
    | exact keeps_of _ _ rfl (by decide)
    | (refine ⟨?_, ?_⟩; exact keeps_of _ _ rfl (by decide)))

/-- So each holds after the layer what it held before. -/
theorem kept_L2 (V : Valuation τ sig (Elt Ideal)) (r : Ref sig .tc) (hr : r ∈ keptL2) :
    StableHlo.after (opsL2 (F := Ideal)) V (Proc.devRef .tc r) = V (Proc.devRef .tc r) :=
  after_of_forall_not_mem _ V fun op hop => List.forall_iff_forall_mem.mp opsL2_keeps op hop r hr

end Cert.ReferenceIdeal.Val

end
-- ==== Proof.RI.After3.lean ====
/-
  Layer 3 of the reference program, run as a line of operations: what it leaves in its result buffer and in its
  readout buffer, and which buffers it leaves alone.

  The layer's operations, taken in order from any contents `V`, write the composition of their functions into the
  result buffer: unfolding the line operation by operation gives `layerC 3` of the contents of the buffers the layer
  reads (its input features, the two edge rows, the eight stacked parameters), and the readout buffer holds the column
  sums of that. Every operation writes one buffer of the layer's own, so the arguments, the edge rows and the earlier
  layers' readouts hold after the layer what they held before.
-/
import proofs.«102822_j3521873183180_1_alg».proof.Proof.RI.Ops
import proofs.«102822_j3521873183180_1_alg».proof.Proof.RI.LayerVal
import proofs.«102822_j3521873183180_1_alg».proof.Proof.RI.Kept

noncomputable section

namespace Cert.ReferenceIdeal.Val

open Cert.ReferenceIdeal Cert.ReferenceIdeal.Gen Idealize.ShloMosaic Idealize.ShloMosaic.ValueIdx Idealize.ShloMosaic.TcCoe Idealize.SL.Sem Idealize.ShloMosaic.StableHlo Cert.ReferenceIdeal.Hand

set_option maxHeartbeats 4000000 in
/-- After layer 3's operations its result buffer holds `layerC 3` of the buffers the layer reads. -/
theorem after_opsL3 (V : Valuation τ sig (Elt Ideal)) :
    StableHlo.after (opsL3 (F := Ideal)) V (Proc.devRef .tc main_v298)
      = layerC 3 (V (Proc.devRef .tc main_v224)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) := by
  after_results_simp
  rfl

set_option maxHeartbeats 4000000 in
/-- … and its readout buffer the column sums of that result. -/
theorem after_opsL3_readout (V : Valuation τ sig (Elt Ideal)) :
    StableHlo.after (opsL3 (F := Ideal)) V (Proc.devRef .tc main_v299)
      = readoutV (layerC 3 (V (Proc.devRef .tc main_v224)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))) := by
  after_results_simp
  rfl

/-- The buffers layer 3 must leave alone: the arguments, the two edge rows, the earlier layers' readouts. -/
abbrev keptL3 : List (Ref sig .tc) :=
  [main_arg0, main_arg1, main_arg2, main_arg3, main_arg4, main_arg5, main_arg6, main_arg7, main_arg8, main_arg9, main_arg10,
    main_arg11, main_v1, main_v3, main_v77, main_v151, main_v225]

set_option maxRecDepth 8192 in
/-- No operation of layer 3 writes one of them. -/
theorem opsL3_keeps : (opsL3 (F := Ideal)).Forall fun op => ∀ r ∈ keptL3, Proc.devRef (τ := τ) .tc r ∉ op.writes := by
  repeat (first
    | exact keeps_of _ _ rfl (by decide)
    | (refine ⟨?_, ?_⟩; exact keeps_of _ _ rfl (by decide)))

/-- So each holds after the layer what it held before. -/
theorem kept_L3 (V : Valuation τ sig (Elt Ideal)) (r : Ref sig .tc) (hr : r ∈ keptL3) :
    StableHlo.after (opsL3 (F := Ideal)) V (Proc.devRef .tc r) = V (Proc.devRef .tc r) :=
  after_of_forall_not_mem _ V fun op hop => List.forall_iff_forall_mem.mp opsL3_keeps op hop r hr

end Cert.ReferenceIdeal.Val

end
-- ==== Proof.RI.After4.lean ====
/-
  Layer 4 of the reference program, run as a line of operations: what it leaves in its result buffer and in its
  readout buffer, and which buffers it leaves alone.

  The layer's operations, taken in order from any contents `V`, write the composition of their functions into the
  result buffer: unfolding the line operation by operation gives `layerC 4` of the contents of the buffers the layer
  reads (its input features, the two edge rows, the eight stacked parameters), and the readout buffer holds the column
  sums of that. Every operation writes one buffer of the layer's own, so the arguments, the edge rows and the earlier
  layers' readouts hold after the layer what they held before.
-/
import proofs.«102822_j3521873183180_1_alg».proof.Proof.RI.Ops
import proofs.«102822_j3521873183180_1_alg».proof.Proof.RI.LayerVal
import proofs.«102822_j3521873183180_1_alg».proof.Proof.RI.Kept

noncomputable section

namespace Cert.ReferenceIdeal.Val

open Cert.ReferenceIdeal Cert.ReferenceIdeal.Gen Idealize.ShloMosaic Idealize.ShloMosaic.ValueIdx Idealize.ShloMosaic.TcCoe Idealize.SL.Sem Idealize.ShloMosaic.StableHlo Cert.ReferenceIdeal.Hand

set_option maxHeartbeats 4000000 in
/-- After layer 4's operations its result buffer holds `layerC 4` of the buffers the layer reads. -/
theorem after_opsL4 (V : Valuation τ sig (Elt Ideal)) :
    StableHlo.after (opsL4 (F := Ideal)) V (Proc.devRef .tc main_v372)
      = layerC 4 (V (Proc.devRef .tc main_v298)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) := by
  after_results_simp
  rfl

set_option maxHeartbeats 4000000 in
/-- … and its readout buffer the column sums of that result. -/
theorem after_opsL4_readout (V : Valuation τ sig (Elt Ideal)) :
    StableHlo.after (opsL4 (F := Ideal)) V (Proc.devRef .tc main_v373)
      = readoutV (layerC 4 (V (Proc.devRef .tc main_v298)) (V (Proc.devRef .tc main_v1)) (V (Proc.devRef .tc main_v3))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))) := by
  after_results_simp
  rfl

/-- The buffers layer 4 must leave alone: the arguments, the two edge rows, the earlier layers' readouts. -/
abbrev keptL4 : List (Ref sig .tc) :=
  [main_arg0, main_arg1, main_arg2, main_arg3, main_arg4, main_arg5, main_arg6, main_arg7, main_arg8, main_arg9, main_arg10,
    main_arg11, main_v1, main_v3, main_v77, main_v151, main_v225, main_v299]

set_option maxRecDepth 8192 in
/-- No operation of layer 4 writes one of them. -/
theorem opsL4_keeps : (opsL4 (F := Ideal)).Forall fun op => ∀ r ∈ keptL4, Proc.devRef (τ := τ) .tc r ∉ op.writes := by
  repeat (first
    | exact keeps_of _ _ rfl (by decide)
    | (refine ⟨?_, ?_⟩; exact keeps_of _ _ rfl (by decide)))

/-- So each holds after the layer what it held before. -/
theorem kept_L4 (V : Valuation τ sig (Elt Ideal)) (r : Ref sig .tc) (hr : r ∈ keptL4) :
    StableHlo.after (opsL4 (F := Ideal)) V (Proc.devRef .tc r) = V (Proc.devRef .tc r) :=
  after_of_forall_not_mem _ V fun op hop => List.forall_iff_forall_mem.mp opsL4_keeps op hop r hr

end Cert.ReferenceIdeal.Val

end
-- ==== Proof.RI.Post.lean ====
/-
  The end of the reference program. After the fifth layer the program sets the five layers' column sums side by
  side as one vector of 1280, reads it as a row, multiplies the row by the classifier weight `[1280, 10]` and adds
  the classifier bias as a row. `post` is that composition as a function of the five column sums, the weight and
  the bias; `after_opsPost` says the result buffer holds it, from any buffer contents.
-/
import proofs.«102822_j3521873183180_1_alg».proof.Proof.RI.Ops
import Idealize.ShloMosaic.Lib.StableHlo.Run
import Idealize.ShloMosaic.PureOps.Ideal

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.StableHlo

/-- The classifier on the five layers' column sums: the five vectors of 256 side by side (the concatenation, kept
    as the program's own term), as a row of 1280, times the weight, plus the bias as a row of 10. -/
def post (r0 r1 r2 r3 r4 : FVec Ideal S256 .f32) (Wc : FVec Ideal S1280x10 .f32) (bc : FVec Ideal S10 .f32) :
    FVec Ideal S1x10 .f32 :=
  addf
    (Host.dotGeneral (F := Ideal) dot_S1x1280_S1280x10_S1x10_1_0_0_1_n_n none
      (broadcastInDim S1x1280 ![1] bcast_S1280_S1x1280_1
        (concatenate S1280 0 [⟨S256, r0⟩, ⟨S256, r1⟩, ⟨S256, r2⟩, ⟨S256, r3⟩, ⟨S256, r4⟩]
          concatenates_S256_S256_S256_S256_S256_S1280_d0))
      Wc)
    (broadcastInDim S1x10 ![1] bcast_S10_S1x10_1 bc)

/-- The last five operations, from any buffer contents `V`: the result buffer ends at `post` of what `V` holds at
    the five column sums, at the classifier weight and at the classifier bias. Each operation's result is read at
    its own buffer and passed over at the others; the concatenation reads its five operands where `V` has them. -/
theorem after_opsPost (V : Valuation τ sig (Elt Ideal)) :
    StableHlo.after (opsPost (F := Ideal)) V (Proc.devRef .tc main_v378)
      = post (V (Proc.devRef .tc main_v77)) (V (Proc.devRef .tc main_v151)) (V (Proc.devRef .tc main_v225))
          (V (Proc.devRef .tc main_v299)) (V (Proc.devRef .tc main_v373)) (V (Proc.devRef .tc main_arg10))
          (V (Proc.devRef .tc main_arg11)) := by
  after_results
  rfl

end Cert.ReferenceIdeal.Val

end
-- ==== Proof.RI.Chain.lean ====
/-
  The reference program's result as the specification's function of the launch memory.

  The program is seven lines of operations run in a row: the two edge rows cut out of the edge list, five layers, and
  the classifier head. The contents after the whole are the contents after the head, started from the contents
  after the fifth layer, and so on down to the start. Read from the end: the head takes the five readouts, the
  classifier weight and bias; a layer leaves in its result buffer `layerC` of what it reads and in its readout buffer
  the column sums of that, and leaves alone the arguments, the edge rows and the earlier readouts; the first line
  leaves the edge rows `srcV`, `dstV` of the edge list and leaves the arguments alone. So the result is the head of
  the column sums of the features after one, two, … five layers (`featV`), and those features, read as matrices,
  are the specification's chain of five layers (`featV_spec`, from `layerV_spec`).
-/
import proofs.«102822_j3521873183180_1_alg».proof.Proof.RI.After0
import proofs.«102822_j3521873183180_1_alg».proof.Proof.RI.After1
import proofs.«102822_j3521873183180_1_alg».proof.Proof.RI.After2
import proofs.«102822_j3521873183180_1_alg».proof.Proof.RI.After3
import proofs.«102822_j3521873183180_1_alg».proof.Proof.RI.After4
import proofs.«102822_j3521873183180_1_alg».proof.Proof.RI.Post

noncomputable section

namespace Cert.ReferenceIdeal.Val

open Cert.ReferenceIdeal Cert.ReferenceIdeal.Gen Idealize.ShloMosaic Idealize.ShloMosaic.ValueIdx Idealize.ShloMosaic.TcCoe Idealize.SL.Sem Idealize.ShloMosaic.StableHlo Cert.ReferenceIdeal.Hand

/-! ## The edge rows, cut out once before the layers -/

theorem after_opsPre_src (V : Valuation τ sig (Elt Ideal)) :
    StableHlo.after (opsPre (F := Ideal)) V (Proc.devRef .tc main_v1) = srcV (V (Proc.devRef .tc main_arg1)) := by
  after_results
  rfl

theorem after_opsPre_dst (V : Valuation τ sig (Elt Ideal)) :
    StableHlo.after (opsPre (F := Ideal)) V (Proc.devRef .tc main_v3) = dstV (V (Proc.devRef .tc main_arg1)) := by
  after_results
  rfl

/-- The twelve arguments. -/
abbrev keptPre : List (Ref sig .tc) :=
  [main_arg0, main_arg1, main_arg2, main_arg3, main_arg4, main_arg5, main_arg6, main_arg7, main_arg8, main_arg9, main_arg10,
    main_arg11]

theorem opsPre_keeps : (opsPre (F := Ideal)).Forall fun op => ∀ r ∈ keptPre, Proc.devRef (τ := τ) .tc r ∉ op.writes := by
  repeat (first
    | exact keeps_of _ _ rfl (by decide)
    | (refine ⟨?_, ?_⟩; exact keeps_of _ _ rfl (by decide)))

theorem kept_pre (V : Valuation τ sig (Elt Ideal)) (r : Ref sig .tc) (hr : r ∈ keptPre) :
    StableHlo.after (opsPre (F := Ideal)) V (Proc.devRef .tc r) = V (Proc.devRef .tc r) :=
  after_of_forall_not_mem _ V fun op hop => List.forall_iff_forall_mem.mp opsPre_keeps op hop r hr

/-! ## Five layers in a row -/

/-- The node features after `i` layers (the layers' parameters taken in turn). -/
def featV (h : FVec Ideal S50000x256 .f32) (ei : IVec S2x800000 32)
    (W1 : FVec Ideal S5x256x256 .f32) (b1 g1 be1 : FVec Ideal S5x256 .f32)
    (W2 : FVec Ideal S5x256x256 .f32) (b2 g2 be2 : FVec Ideal S5x256 .f32) : ℕ → FVec Ideal S50000x256 .f32
  | 0 => h
  | i + 1 => layerV ⟨i % 5, Nat.mod_lt _ (by decide)⟩ (featV h ei W1 b1 g1 be1 W2 b2 g2 be2 i) ei W1 b1 g1 be1 W2 b2 g2 be2

theorem featV_spec (h : FVec Ideal S50000x256 .f32) (ei : IVec S2x800000 32)
    (W1 : FVec Ideal S5x256x256 .f32) (b1 g1 be1 : FVec Ideal S5x256 .f32)
    (W2 : FVec Ideal S5x256x256 .f32) (b2 g2 be2 : FVec Ideal S5x256 .f32) :
    ∀ i, Gin.toMat (featV h ei W1 b1 g1 be1 W2 b2 g2 be2 i)
      = Gin.chain Gin.layerR (Gin.toMat h) (Gin.srcOf ei) (Gin.dstOf ei) (Gin.paramsAt W1 b1 g1 be1 W2 b2 g2 be2) i
  | 0 => rfl
  | i + 1 => by
    show Gin.toMat (layerV ⟨i % 5, Nat.mod_lt _ (by decide)⟩ (featV h ei W1 b1 g1 be1 W2 b2 g2 be2 i) ei W1 b1 g1 be1 W2 b2 g2 be2) = _
    rw [layerV_spec, featV_spec h ei W1 b1 g1 be1 W2 b2 g2 be2 i]
    rfl

/-- The node features after `i` layers, from the contents `V` of the buffers the layers read. -/
abbrev featOf (V : Valuation τ sig (Elt Ideal)) (i : ℕ) : FVec Ideal S50000x256 .f32 :=
  featV (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9)) i

/-- The whole program from any contents `V`: the classifier head of the five layers' readouts. -/
theorem after_ops_value (V : Valuation τ sig (Elt Ideal)) :
    StableHlo.after (ops (F := Ideal)) V (Proc.devRef .tc main_v378)
      = post (readoutV (featOf V 1))
          (readoutV (featOf V 2))
          (readoutV (featOf V 3))
          (readoutV (featOf V 4))
          (readoutV (featOf V 5))
          (V (Proc.devRef .tc main_arg10)) (V (Proc.devRef .tc main_arg11)) := by
  simp only [ops, after_two]
  rw [after_opsPost,
    -- layer 4
    after_opsL4_readout,
    kept_L4 _ main_v77 (by decide), kept_L4 _ main_v151 (by decide), kept_L4 _ main_v225 (by decide), kept_L4 _ main_v299 (by decide), kept_L4 _ main_arg10 (by decide), kept_L4 _ main_arg11 (by decide),
    -- layer 3
    after_opsL3_readout, after_opsL3,
    kept_L3 _ main_v77 (by decide), kept_L3 _ main_v151 (by decide), kept_L3 _ main_v225 (by decide), kept_L3 _ main_arg10 (by decide), kept_L3 _ main_arg11 (by decide), kept_L3 _ main_v1 (by decide), kept_L3 _ main_v3 (by decide), kept_L3 _ main_arg2 (by decide), kept_L3 _ main_arg3 (by decide), kept_L3 _ main_arg4 (by decide), kept_L3 _ main_arg5 (by decide), kept_L3 _ main_arg6 (by decide), kept_L3 _ main_arg7 (by decide), kept_L3 _ main_arg8 (by decide), kept_L3 _ main_arg9 (by decide),
    -- layer 2
    after_opsL2_readout, after_opsL2,
    kept_L2 _ main_v77 (by decide), kept_L2 _ main_v151 (by decide), kept_L2 _ main_arg10 (by decide), kept_L2 _ main_arg11 (by decide), kept_L2 _ main_v1 (by decide), kept_L2 _ main_v3 (by decide), kept_L2 _ main_arg2 (by decide), kept_L2 _ main_arg3 (by decide), kept_L2 _ main_arg4 (by decide), kept_L2 _ main_arg5 (by decide), kept_L2 _ main_arg6 (by decide), kept_L2 _ main_arg7 (by decide), kept_L2 _ main_arg8 (by decide), kept_L2 _ main_arg9 (by decide),
    -- layer 1
    after_opsL1_readout, after_opsL1,
    kept_L1 _ main_v77 (by decide), kept_L1 _ main_arg10 (by decide), kept_L1 _ main_arg11 (by decide), kept_L1 _ main_v1 (by decide), kept_L1 _ main_v3 (by decide), kept_L1 _ main_arg2 (by decide), kept_L1 _ main_arg3 (by decide), kept_L1 _ main_arg4 (by decide), kept_L1 _ main_arg5 (by decide), kept_L1 _ main_arg6 (by decide), kept_L1 _ main_arg7 (by decide), kept_L1 _ main_arg8 (by decide), kept_L1 _ main_arg9 (by decide),
    -- layer 0
    after_opsL0_readout, after_opsL0,
    kept_L0 _ main_arg10 (by decide), kept_L0 _ main_arg11 (by decide), kept_L0 _ main_v1 (by decide), kept_L0 _ main_v3 (by decide), kept_L0 _ main_arg2 (by decide), kept_L0 _ main_arg3 (by decide), kept_L0 _ main_arg4 (by decide), kept_L0 _ main_arg5 (by decide), kept_L0 _ main_arg6 (by decide), kept_L0 _ main_arg7 (by decide), kept_L0 _ main_arg8 (by decide), kept_L0 _ main_arg9 (by decide),
    -- the edge rows
    after_opsPre_src, after_opsPre_dst,
    kept_pre _ main_arg0 (by decide), kept_pre _ main_arg2 (by decide), kept_pre _ main_arg3 (by decide), kept_pre _ main_arg4 (by decide), kept_pre _ main_arg5 (by decide), kept_pre _ main_arg6 (by decide), kept_pre _ main_arg7 (by decide), kept_pre _ main_arg8 (by decide), kept_pre _ main_arg9 (by decide), kept_pre _ main_arg10 (by decide), kept_pre _ main_arg11 (by decide)]
  rfl

/-- The reference program's result as the specification's function of the launch memory. -/
theorem reference_value (m : (ℓ : Loc nD τ sig) → Buf (Elt Ideal) ℓ) (c : Dev nD) :
    ∃ r0 r1 r2 r3 r4 : FVec Ideal S256 .f32,
      StableHlo.after (ops (F := Ideal)) (launchContents m c) (Proc.devRef .tc main_v378)
        = post r0 r1 r2 r3 r4 (m ((c.tc : Thread nD τ).loc main_arg10)) (m ((c.tc : Thread nD τ).loc main_arg11))
      ∧ Gin.toRow1 r0 = Gin.colsum (Gin.chain Gin.layerR (Gin.toMat (m ((c.tc : Thread nD τ).loc main_arg0))) (Gin.srcOf (m ((c.tc : Thread nD τ).loc main_arg1))) (Gin.dstOf (m ((c.tc : Thread nD τ).loc main_arg1)))
            (Gin.paramsAt (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))) 1)
      ∧ Gin.toRow1 r1 = Gin.colsum (Gin.chain Gin.layerR (Gin.toMat (m ((c.tc : Thread nD τ).loc main_arg0))) (Gin.srcOf (m ((c.tc : Thread nD τ).loc main_arg1))) (Gin.dstOf (m ((c.tc : Thread nD τ).loc main_arg1)))
            (Gin.paramsAt (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))) 2)
      ∧ Gin.toRow1 r2 = Gin.colsum (Gin.chain Gin.layerR (Gin.toMat (m ((c.tc : Thread nD τ).loc main_arg0))) (Gin.srcOf (m ((c.tc : Thread nD τ).loc main_arg1))) (Gin.dstOf (m ((c.tc : Thread nD τ).loc main_arg1)))
            (Gin.paramsAt (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))) 3)
      ∧ Gin.toRow1 r3 = Gin.colsum (Gin.chain Gin.layerR (Gin.toMat (m ((c.tc : Thread nD τ).loc main_arg0))) (Gin.srcOf (m ((c.tc : Thread nD τ).loc main_arg1))) (Gin.dstOf (m ((c.tc : Thread nD τ).loc main_arg1)))
            (Gin.paramsAt (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))) 4)
      ∧ Gin.toRow1 r4 = Gin.colsum (Gin.chain Gin.layerR (Gin.toMat (m ((c.tc : Thread nD τ).loc main_arg0))) (Gin.srcOf (m ((c.tc : Thread nD τ).loc main_arg1))) (Gin.dstOf (m ((c.tc : Thread nD τ).loc main_arg1)))
            (Gin.paramsAt (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))) 5) :=
  ⟨_, _, _, _, _, after_ops_value (launchContents m c),
    by rw [readoutV_spec, featOf, featV_spec], by rw [readoutV_spec, featOf, featV_spec], by rw [readoutV_spec, featOf, featV_spec],
    by rw [readoutV_spec, featOf, featV_spec], by rw [readoutV_spec, featOf, featV_spec]⟩

end Cert.ReferenceIdeal.Val

end
-- ==== Proof.PreFin.lean ====
/-
  From the precondition to "every float input entry is a real number".
  The precondition says that, for each of the eleven float argument arrays, the conjunction over all
  entries of  |a i| < +∞  is true (a reduction by `and` from the constant 1 over all axes), and that the
  `and` of those eleven results is 1. Over the extended reals  |x| = max x (-x),  and  max x (-x) < ⊤
  rules out both x = ⊤ and x = ⊥, so x is a real number.
-/
import proofs.«102822_j3521873183180_1_alg».proof.Defs
import proofs.«102822_j3521873183180_1_alg».proof.Proof.Gen.Pre_finite_inputs
import Idealize.ShloMosaic.Lib.ReduceAll
import Idealize.ShloMosaic.Lib.ValueIdx

noncomputable section

namespace Cert.PreFin

open Idealize.ShloMosaic Idealize.SL.Sem
open Cert.Pre_finite_inputs (S_)

/-- The shape of a scalar has exactly one index. -/
instance subsingleton_scalar_idx : Subsingleton S_.Idx := ⟨fun a b => funext fun d => d.elim0⟩

/-- An extended real whose absolute value  max x (-x)  is strictly below +∞ is a real number:
    at x = ⊤ the maximum is ⊤, at x = ⊥ it is  -⊥ = ⊤. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The f32 pattern 0x7F800000 denotes +∞. -/
theorem inf_pattern : Ideal.ofBits .f32 0x7F800000#32 = (⊤ : EReal) := by
  simp [Ideal.ofBits, Ideal.ieee]

/-- One entry's comparison  |x| < +∞  that came out 1 says x is real. -/
theorem real_of_cmp_abs (x : Ideal .f32)
    (h : FloatOps.cmpf (F := Ideal) .olt (FloatOps.hostAbsf x) (FloatOps.ofBits .f32 0x7F800000#32) = 1#1) :
    ∃ r : ℝ, x = (r : EReal) := by
  refine real_of_abs_lt_top x ?_
  have h' : Ideal.cmp .olt (max x (-x)) (Ideal.ofBits .f32 0x7F800000#32) = 1#1 := h
  rw [inf_pattern] at h'
  by_contra hn
  simp [Ideal.cmp, hn] at h'

/-- An array of any shape all of whose entries satisfy  |a i| < +∞  — spelled as the reduction by `and`,
    over all axes and from any start, of the comparison of  abs a  with the broadcast pattern of +∞,
    coming out 1 — has only real entries. -/
theorem real_entries_of_all_abs_lt {s : Shape} {axes : List (Fin s.rank)} (hr : s.ReducesTo axes S_)
    (hu : 0 < S_.numel) (hb : S_.BroadcastsInDim s (![] : Fin 0 → Fin s.rank)) (a : FVec Ideal s .f32)
    (init : IVec S_ 1) (j : S_.Idx)
    (e : Host.reduce IntOp.andi
        (cmpf .olt (Host.absf a) (broadcastInDim s ![] hb (constant (F := Ideal) S_ .f32 0x7F800000#32)))
        init hr hu j = 1#1)
    (i : s.Idx) : ∃ r : ℝ, a i = (r : EReal) :=
  real_of_cmp_abs (a i) (Host.reduce_andi_all _ init hr hu j e i)

theorem fin_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ x : ℝ, m ((c.tc : Thread Cert.KernelIdeal.nD Cert.KernelIdeal.τ).loc Cert.KernelIdeal.main_arg0) i = (x : EReal))
      ∧ (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg3) i = (x : EReal))
      ∧ (∀ i, ∃ x : ℝ, m ((c.tc : Thread Cert.KernelIdeal.nD Cert.KernelIdeal.τ).loc Cert.KernelIdeal.main_arg4) i = (x : EReal))
      ∧ (∀ i, ∃ x : ℝ, m ((c.tc : Thread Cert.KernelIdeal.nD Cert.KernelIdeal.τ).loc Cert.KernelIdeal.main_arg5) i = (x : EReal))
      ∧ (∀ i, ∃ x : ℝ, m ((c.tc : Thread Cert.KernelIdeal.nD Cert.KernelIdeal.τ).loc Cert.KernelIdeal.main_arg6) i = (x : EReal))
      ∧ (∀ i, ∃ x : ℝ, m ((c.tc : Thread Cert.KernelIdeal.nD Cert.KernelIdeal.τ).loc Cert.KernelIdeal.main_arg7) i = (x : EReal))
      ∧ (∀ i, ∃ x : ℝ, m ((c.tc : Thread Cert.KernelIdeal.nD Cert.KernelIdeal.τ).loc Cert.KernelIdeal.main_arg8) i = (x : EReal))
      ∧ (∀ i, ∃ x : ℝ, m ((c.tc : Thread Cert.KernelIdeal.nD Cert.KernelIdeal.τ).loc Cert.KernelIdeal.main_arg9) i = (x : EReal))
      ∧ (∀ i, ∃ x : ℝ, m ((c.tc : Thread Cert.KernelIdeal.nD Cert.KernelIdeal.τ).loc Cert.KernelIdeal.main_arg10) i = (x : EReal))
      ∧ (∀ i, ∃ x : ℝ, m ((c.tc : Thread Cert.KernelIdeal.nD Cert.KernelIdeal.τ).loc Cert.KernelIdeal.main_arg11) i = (x : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨real_entries_of_all_abs_lt _ _ _ _ _ _ e0, real_entries_of_all_abs_lt _ _ _ _ _ _ e2,
    real_entries_of_all_abs_lt _ _ _ _ _ _ e3, real_entries_of_all_abs_lt _ _ _ _ _ _ e4,
    real_entries_of_all_abs_lt _ _ _ _ _ _ e5, real_entries_of_all_abs_lt _ _ _ _ _ _ e6,
    real_entries_of_all_abs_lt _ _ _ _ _ _ e7, real_entries_of_all_abs_lt _ _ _ _ _ _ e8,
    real_entries_of_all_abs_lt _ _ _ _ _ _ e9, real_entries_of_all_abs_lt _ _ _ _ _ _ e10,
    real_entries_of_all_abs_lt _ _ _ _ _ _ e11⟩

end Cert.PreFin
-- ==== Proof.PostEq.lean ====
/-
  The two programs end alike. After its last region the idealized kernel program, and after its fifth layer the
  reference program, run the same five operations on the five layers' column sums: set them side by side, read the
  vector as a row, multiply by the classifier weight, add the classifier bias. The two compositions are written
  under the two programs' namespaces over the same literal shapes; the evidence each carries for its side conditions
  is a proof of the same proposition. So the two functions are equal by unfolding.
-/
import proofs.«102822_j3521873183180_1_alg».proof.Proof.RI.Post
import proofs.«102822_j3521873183180_1_alg».proof.Proof.KI.HostVal.S15

noncomputable section

namespace Cert.Proof

open Idealize.ShloMosaic

/-- The classifier on the five column sums is the same function in the two programs. -/
theorem post_eq (r0 r1 r2 r3 r4 : FVec Ideal Cert.ReferenceIdeal.S256 .f32) (Wc : FVec Ideal Cert.ReferenceIdeal.S1280x10 .f32)
    (bc : FVec Ideal Cert.ReferenceIdeal.S10 .f32) :
    Cert.KernelIdeal.HostVal.post r0 r1 r2 r3 r4 Wc bc = Cert.ReferenceIdeal.Val.post r0 r1 r2 r3 r4 Wc bc := rfl

end Cert.Proof

end
-- ==== Proof.Bridge.lean ====
/-
  The two idealized programs end with equal results.

  Both programs compute, layer after layer, the same graph-network layer of the same inputs; they differ only in how a
  column variance is spelt, and on real entries the two spellings are one number (the specification's `chain_eq`). The
  precondition makes every float input entry real, every layer keeps entries real, so the five readouts — the column sums of
  the five layers' results — are equal, and both programs end with the same operations on equal readouts.
-/
import proofs.«102822_j3521873183180_1_alg».proof.Defs
import proofs.«102822_j3521873183180_1_alg».proof.Proof.KI.Run
import proofs.«102822_j3521873183180_1_alg».proof.Proof.KI.Chain
import proofs.«102822_j3521873183180_1_alg».proof.Proof.RI.Run
import proofs.«102822_j3521873183180_1_alg».proof.Proof.RI.Chain
import proofs.«102822_j3521873183180_1_alg».proof.Proof.PreFin
import proofs.«102822_j3521873183180_1_alg».proof.Proof.PostEq
import proofs.«102822_j3521873183180_1_alg».proof.Proof.Spec

noncomputable section

namespace Cert.Proof

open Idealize.ShloMosaic Idealize.ShloMosaic.TcCoe Idealize.SL.Sem Idealize.ShloMosaic.ValueIdx

/-- A `[256]` array is determined by its reading as a row. -/
theorem toRow1_inj {x y : (⟨1, ![256]⟩ : Shape).Idx → EReal} (h : Gin.toRow1 x = Gin.toRow1 y) : x = y :=
  funext fun i => by rw [eq_ix1 i]; exact congrFun h (i 0)

theorem algebraic : Cert.algebraic_KernelIdeal_ReferenceIdeal := by
  intro m ρ m' ρ' hpre hagree
  refine ⟨fun c => Cert.KernelIdeal.Hand.W31 m ρ c (Proc.devRef .tc Cert.KernelIdeal.main_v258), Cert.KernelIdeal.Hand.run_value m ρ, ?_⟩
  refine (θ_run (Cert.ReferenceIdeal.defs (F := Ideal)) _ _).mono (fun r h c => ⟨(h c).1.trans ?_, (h c).2⟩)
    (Cert.ReferenceIdeal.Hand.run (F := Ideal) m' ρ')
  obtain ⟨a0, a1, a2, a3, a4, ha, ha0, ha1, ha2, ha3, ha4⟩ := Cert.KernelIdeal.Hand.kernel_value m ρ c
  obtain ⟨b0, b1, b2, b3, b4, hb, hb0, hb1, hb2, hb3, hb4⟩ := Cert.ReferenceIdeal.Val.reference_value m' c
  obtain ⟨e0, e1, e2, e3, e4, e5, e6, e7, e8, e9, e10, e11⟩ := hagree c
  obtain ⟨f0, f2, f3, f4, f5, f6, f7, f8, f9, f10, f11⟩ := Cert.PreFin.fin_of_pre m hpre c
  rw [e0, e1, e2, e3, e4, e5, e6, e7, e8, e9] at hb0 hb1 hb2 hb3 hb4
  have hc := Gin.chain_eq (x := Gin.toMat (m ((c.tc : Thread Cert.KernelIdeal.nD Cert.KernelIdeal.τ).loc Cert.KernelIdeal.main_arg0)))
    (fun r j => f0 _) (Gin.srcOf (m ((c.tc : Thread Cert.KernelIdeal.nD Cert.KernelIdeal.τ).loc Cert.KernelIdeal.main_arg1)))
    (Gin.dstOf (m ((c.tc : Thread Cert.KernelIdeal.nD Cert.KernelIdeal.τ).loc Cert.KernelIdeal.main_arg1)))
    (Gin.finP_paramsAt f2 f3 f4 f5 f6 f7 f8 f9)
  have h0 : b0 = a0 := toRow1_inj (hb0.trans ((congrArg Gin.colsum (hc 1).1.symm).trans ha0.symm))
  have h1 : b1 = a1 := toRow1_inj (hb1.trans ((congrArg Gin.colsum (hc 2).1.symm).trans ha1.symm))
  have h2 : b2 = a2 := toRow1_inj (hb2.trans ((congrArg Gin.colsum (hc 3).1.symm).trans ha2.symm))
  have h3 : b3 = a3 := toRow1_inj (hb3.trans ((congrArg Gin.colsum (hc 4).1.symm).trans ha3.symm))
  have h4 : b4 = a4 := toRow1_inj (hb4.trans ((congrArg Gin.colsum (hc 5).1.symm).trans ha4.symm))
  refine hb.trans (Eq.trans ?_ ha.symm)
  rw [h0, h1, h2, h3, h4, e10, e11]
  exact (Cert.Proof.post_eq a0 a1 a2 a3 a4 _ _).symm

end Cert.Proof

end
-- ==== Proof.lean ====
/-
  Two programs — a Pallas implementation of five graph-isomorphism layers with batch normalisation, a sum readout and a linear
  classifier, and its plain reference — are proved equal over the extended reals on finite inputs, and each is proved to run to the
  end without a fault leaving its arguments as launched.

  The implementation runs fifteen pipelined kernel regions (three per layer: the first affine map with its column statistics, the
  normalisation with the second affine map and its statistics, the second normalisation with the readout) among stretches of
  host operations; each region's body is run once per control case, its output accumulators followed point by point over the
  grid, and the regions are chained through the buffer contents between them. The reference is a straight list of host
  operations. Layer by layer both compute the same function; the one difference, the column variance as E[u²] − E[u]² against
  E[(u − E u)²], disappears on real entries, which the precondition provides and every layer preserves.
-/
import proofs.«102822_j3521873183180_1_alg».proof.Defs
import proofs.«102822_j3521873183180_1_alg».proof.Proof.Gen.Kernel
import proofs.«102822_j3521873183180_1_alg».proof.Proof.Gen.KernelIdeal
import proofs.«102822_j3521873183180_1_alg».proof.Proof.Gen.ReferenceIdeal
import proofs.«102822_j3521873183180_1_alg».proof.Proof.Gen.Pre_finite_inputs
import proofs.«102822_j3521873183180_1_alg».proof.Proof.K.Run
import proofs.«102822_j3521873183180_1_alg».proof.Proof.KI.Run
import proofs.«102822_j3521873183180_1_alg».proof.Proof.RI.Run
import proofs.«102822_j3521873183180_1_alg».proof.Proof.Bridge

noncomputable section

namespace Cert.Proof

open Idealize.ShloMosaic Idealize.SL.Sem

theorem frame_kernel : Cert.frame_Kernel := fun m ρ _ => Cert.Kernel.Hand.frame (F := Bits) m ρ
theorem frame_kernel_ideal : Cert.frame_KernelIdeal := fun m ρ _ => Cert.KernelIdeal.Hand.frame (F := Ideal) m ρ
theorem frame_reference_ideal : Cert.frame_ReferenceIdeal := fun m ρ _ => Cert.ReferenceIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
